-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v308)) (v1 : (c : Dev Cert.KernelIdeal.nD) → Buf (Elt Ideal) ((c.tc : Thread Cert.KernelIdeal.nD Cert.KernelIdeal.τ).loc Cert.KernelIdeal.main_v313)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v308) = v0 c
          ∧ r.2.mem ((c.tc : Thread Cert.KernelIdeal.nD Cert.KernelIdeal.τ).loc Cert.KernelIdeal.main_v313) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v367) = v0 c
          ∧ r.2.mem ((c.tc : Thread Cert.ReferenceIdeal.nD Cert.ReferenceIdeal.τ).loc Cert.ReferenceIdeal.main_v379) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x300 : Shape := ⟨2, ![50000, 300]⟩
abbrev S5x6x300 : Shape := ⟨3, ![5, 6, 300]⟩
abbrev S5x3x300 : Shape := ⟨3, ![5, 3, 300]⟩
abbrev S5x300x600 : Shape := ⟨3, ![5, 300, 600]⟩
abbrev S5x600 : Shape := ⟨2, ![5, 600]⟩
abbrev S5x600x300 : Shape := ⟨3, ![5, 600, 300]⟩
abbrev S5x300 : Shape := ⟨2, ![5, 300]⟩
abbrev S2x256000 : Shape := ⟨2, ![2, 256000]⟩
abbrev S256000x2 : Shape := ⟨2, ![256000, 2]⟩
abbrev S50000 : Shape := ⟨1, ![50000]⟩
abbrev S_ : Shape := ⟨0, ![]⟩

class Facts : Prop where
  bcast_S_S50000x300 : S_.BroadcastsInDim S50000x300 (![] : Fin 0 → Fin S50000x300.rank)
  reducesTo_S50000x300_S_d0_1 : S50000x300.ReducesTo [0, 1] S_
  h_S_ : 0 < S_.numel
  bcast_S_S5x6x300 : S_.BroadcastsInDim S5x6x300 (![] : Fin 0 → Fin S5x6x300.rank)
  reducesTo_S5x6x300_S_d0_1_2 : S5x6x300.ReducesTo [0, 1, 2] S_
  bcast_S_S5x3x300 : S_.BroadcastsInDim S5x3x300 (![] : Fin 0 → Fin S5x3x300.rank)
  reducesTo_S5x3x300_S_d0_1_2 : S5x3x300.ReducesTo [0, 1, 2] S_
  bcast_S_S5x300x600 : S_.BroadcastsInDim S5x300x600 (![] : Fin 0 → Fin S5x300x600.rank)
  reducesTo_S5x300x600_S_d0_1_2 : S5x300x600.ReducesTo [0, 1, 2] S_
  bcast_S_S5x600 : S_.BroadcastsInDim S5x600 (![] : Fin 0 → Fin S5x600.rank)
  reducesTo_S5x600_S_d0_1 : S5x600.ReducesTo [0, 1] S_
  bcast_S_S5x600x300 : S_.BroadcastsInDim S5x600x300 (![] : Fin 0 → Fin S5x600x300.rank)
  reducesTo_S5x600x300_S_d0_1_2 : S5x600x300.ReducesTo [0, 1, 2] S_
  bcast_S_S5x300 : S_.BroadcastsInDim S5x300 (![] : Fin 0 → Fin S5x300.rank)
  reducesTo_S5x300_S_d0_1 : S5x300.ReducesTo [0, 1] S_

variable [Facts]

def fn_part2 {F : FTy → Type} [FloatOps F] (main_arg7 : FVec F S5x300 .f32) (main_arg8 : FVec F S5x300 .f32) (main_v33 : IVec S_ 1) : IVec S_ 1 :=
  let main_v34 : FVec F S5x300 .f32 := Host.absf main_arg7
  let main_cst_12 : FVec F S_ .f32 := constant S_ .f32 0x7F800000#32
  let main_v35 : FVec F S5x300 .f32 := broadcastInDim S5x300 ![] bcast_S_S5x300 main_cst_12
  let main_v36 : IVec S5x300 1 := cmpf .olt main_v34 main_v35
  let main_c_13 : IVec S_ 1 := constantI S_ 1 1#1
  let main_v37 : IVec S_ 1 := (fun x v => Host.reduce IntOp.andi x v reducesTo_S5x300_S_d0_1 h_S_) main_v36 main_c_13
  let main_v38 : IVec S_ 1 := andi main_v33 main_v37
  let main_v39 : FVec F S5x300 .f32 := Host.absf main_arg8
  let main_cst_14 : FVec F S_ .f32 := constant S_ .f32 0x7F800000#32
  let main_v40 : FVec F S5x300 .f32 := broadcastInDim S5x300 ![] bcast_S_S5x300 main_cst_14
  let main_v41 : IVec S5x300 1 := cmpf .olt main_v39 main_v40
  let main_c_15 : IVec S_ 1 := constantI S_ 1 1#1
  let main_v42 : IVec S_ 1 := (fun x v => Host.reduce IntOp.andi x v reducesTo_S5x300_S_d0_1 h_S_) main_v41 main_c_15
  let main_v43 : IVec S_ 1 := andi main_v38 main_v42
  main_v43

def fn_part1 {F : FTy → Type} [FloatOps F] (main_arg4 : FVec F S5x600 .f32) (main_arg5 : FVec F S5x600x300 .f32) (main_arg6 : FVec F S5x300 .f32) (main_arg7 : FVec F S5x300 .f32) (main_arg8 : FVec F S5x300 .f32) (main_v13 : IVec S_ 1) (main_v16 : IVec S5x300x600 1) : IVec S_ 1 :=
  let main_c_5 : IVec S_ 1 := constantI S_ 1 1#1
  let main_v17 : IVec S_ 1 := (fun x v => Host.reduce IntOp.andi x v reducesTo_S5x300x600_S_d0_1_2 h_S_) main_v16 main_c_5
  let main_v18 : IVec S_ 1 := andi main_v13 main_v17
  let main_v19 : FVec F S5x600 .f32 := Host.absf main_arg4
  let main_cst_6 : FVec F S_ .f32 := constant S_ .f32 0x7F800000#32
  let main_v20 : FVec F S5x600 .f32 := broadcastInDim S5x600 ![] bcast_S_S5x600 main_cst_6
  let main_v21 : IVec S5x600 1 := cmpf .olt main_v19 main_v20
  let main_c_7 : IVec S_ 1 := constantI S_ 1 1#1
  let main_v22 : IVec S_ 1 := (fun x v => Host.reduce IntOp.andi x v reducesTo_S5x600_S_d0_1 h_S_) main_v21 main_c_7
  let main_v23 : IVec S_ 1 := andi main_v18 main_v22
  let main_v24 : FVec F S5x600x300 .f32 := Host.absf main_arg5
  let main_cst_8 : FVec F S_ .f32 := constant S_ .f32 0x7F800000#32
  let main_v25 : FVec F S5x600x300 .f32 := broadcastInDim S5x600x300 ![] bcast_S_S5x600x300 main_cst_8
  let main_v26 : IVec S5x600x300 1 := cmpf .olt main_v24 main_v25
  let main_c_9 : IVec S_ 1 := constantI S_ 1 1#1
  let main_v27 : IVec S_ 1 := (fun x v => Host.reduce IntOp.andi x v reducesTo_S5x600x300_S_d0_1_2 h_S_) main_v26 main_c_9
  let main_v28 : IVec S_ 1 := andi main_v23 main_v27
  let main_v29 : FVec F S5x300 .f32 := Host.absf main_arg6
  let main_cst_10 : FVec F S_ .f32 := constant S_ .f32 0x7F800000#32
  let main_v30 : FVec F S5x300 .f32 := broadcastInDim S5x300 ![] bcast_S_S5x300 main_cst_10
  let main_v31 : IVec S5x300 1 := cmpf .olt main_v29 main_v30
  let main_c_11 : IVec S_ 1 := constantI S_ 1 1#1
  let main_v32 : IVec S_ 1 := (fun x v => Host.reduce IntOp.andi x v reducesTo_S5x300_S_d0_1 h_S_) main_v31 main_c_11
  let main_v33 : IVec S_ 1 := andi main_v28 main_v32
  fn_part2 (F := F) main_arg7 main_arg8 main_v33

def fn {F : FTy → Type} [FloatOps F] (main_arg0 : FVec F S50000x300 .f32) (main_arg1 : FVec F S5x6x300 .f32) (main_arg2 : FVec F S5x3x300 .f32) (main_arg3 : FVec F S5x300x600 .f32) (main_arg4 : FVec F S5x600 .f32) (main_arg5 : FVec F S5x600x300 .f32) (main_arg6 : FVec F S5x300 .f32) (main_arg7 : FVec F S5x300 .f32) (main_arg8 : FVec F S5x300 .f32) (main_arg9 : IVec S2x256000 32) (main_arg10 : IVec S256000x2 32) (main_arg11 : IVec S50000 32) : IVec S_ 1 :=
  let main_v0 : FVec F S50000x300 .f32 := Host.absf main_arg0
  let main_cst : FVec F S_ .f32 := constant S_ .f32 0x7F800000#32
  let main_v1 : FVec F S50000x300 .f32 := broadcastInDim S50000x300 ![] bcast_S_S50000x300 main_cst
  let main_v2 : IVec S50000x300 1 := cmpf .olt main_v0 main_v1
  let main_c : IVec S_ 1 := constantI S_ 1 1#1
  let main_v3 : IVec S_ 1 := (fun x v => Host.reduce IntOp.andi x v reducesTo_S50000x300_S_d0_1 h_S_) main_v2 main_c
  let main_v4 : FVec F S5x6x300 .f32 := Host.absf main_arg1
  let main_cst_0 : FVec F S_ .f32 := constant S_ .f32 0x7F800000#32
  let main_v5 : FVec F S5x6x300 .f32 := broadcastInDim S5x6x300 ![] bcast_S_S5x6x300 main_cst_0
  let main_v6 : IVec S5x6x300 1 := cmpf .olt main_v4 main_v5
  let main_c_1 : IVec S_ 1 := constantI S_ 1 1#1
  let main_v7 : IVec S_ 1 := (fun x v => Host.reduce IntOp.andi x v reducesTo_S5x6x300_S_d0_1_2 h_S_) main_v6 main_c_1
  let main_v8 : IVec S_ 1 := andi main_v3 main_v7
  let main_v9 : FVec F S5x3x300 .f32 := Host.absf main_arg2
  let main_cst_2 : FVec F S_ .f32 := constant S_ .f32 0x7F800000#32
  let main_v10 : FVec F S5x3x300 .f32 := broadcastInDim S5x3x300 ![] bcast_S_S5x3x300 main_cst_2
  let main_v11 : IVec S5x3x300 1 := cmpf .olt main_v9 main_v10
  let main_c_3 : IVec S_ 1 := constantI S_ 1 1#1
  let main_v12 : IVec S_ 1 := (fun x v => Host.reduce IntOp.andi x v reducesTo_S5x3x300_S_d0_1_2 h_S_) main_v11 main_c_3
  let main_v13 : IVec S_ 1 := andi main_v8 main_v12
  let main_v14 : FVec F S5x300x600 .f32 := Host.absf main_arg3
  let main_cst_4 : FVec F S_ .f32 := constant S_ .f32 0x7F800000#32
  let main_v15 : FVec F S5x300x600 .f32 := broadcastInDim S5x300x600 ![] bcast_S_S5x300x600 main_cst_4
  let main_v16 : IVec S5x300x600 1 := cmpf .olt main_v14 main_v15
  fn_part1 (F := F) main_arg4 main_arg5 main_arg6 main_arg7 main_arg8 main_v13 main_v16
-- ==== Kernel.lean ====
abbrev S50000x300 : Shape := ⟨2, ![50000, 300]⟩
abbrev S5x6x300 : Shape := ⟨3, ![5, 6, 300]⟩
abbrev S5x3x300 : Shape := ⟨3, ![5, 3, 300]⟩
abbrev S5x300x600 : Shape := ⟨3, ![5, 300, 600]⟩
abbrev S5x600 : Shape := ⟨2, ![5, 600]⟩
abbrev S5x600x300 : Shape := ⟨3, ![5, 600, 300]⟩
abbrev S5x300 : Shape := ⟨2, ![5, 300]⟩
abbrev S2x256000 : Shape := ⟨2, ![2, 256000]⟩
abbrev S256000x2 : Shape := ⟨2, ![256000, 2]⟩
abbrev S50000 : Shape := ⟨1, ![50000]⟩
abbrev S1x256000 : Shape := ⟨2, ![1, 256000]⟩
abbrev S256000 : Shape := ⟨1, ![256000]⟩
abbrev S256000x1 : Shape := ⟨2, ![256000, 1]⟩
abbrev S50000x1 : Shape := ⟨2, ![50000, 1]⟩
abbrev S1x6x300 : Shape := ⟨3, ![1, 6, 300]⟩
abbrev S6x300 : Shape := ⟨2, ![6, 300]⟩
abbrev S1x3x300 : Shape := ⟨3, ![1, 3, 300]⟩
abbrev S3x300 : Shape := ⟨2, ![3, 300]⟩
abbrev S_ : Shape := ⟨0, ![]⟩
abbrev S256000x300 : Shape := ⟨2, ![256000, 300]⟩
abbrev S1x300x600 : Shape := ⟨3, ![1, 300, 600]⟩
abbrev S300x600 : Shape := ⟨2, ![300, 600]⟩
abbrev S1x600 : Shape := ⟨2, ![1, 600]⟩
abbrev S600 : Shape := ⟨1, ![600]⟩
abbrev S1x600x300 : Shape := ⟨3, ![1, 600, 300]⟩
abbrev S600x300 : Shape := ⟨2, ![600, 300]⟩
abbrev S1x300 : Shape := ⟨2, ![1, 300]⟩
abbrev S300 : Shape := ⟨1, ![300]⟩
abbrev S1000x300 : Shape := ⟨2, ![1000, 300]⟩
abbrev S1000x600 : Shape := ⟨2, ![1000, 600]⟩
abbrev S2000x300 : Shape := ⟨2, ![2000, 300]⟩
abbrev S512x300 : Shape := ⟨2, ![512, 300]⟩
abbrev S512x1 : Shape := ⟨2, ![512, 1]⟩
abbrev S2000x1 : Shape := ⟨2, ![2000, 1]⟩
abbrev S1x512 : Shape := ⟨2, ![1, 512]⟩
abbrev S2000x512 : Shape := ⟨2, ![2000, 512]⟩

abbrev nBuf : Space → Nat
  | .hbm => 383
  | .vmem => 118
  | .smem => 0
  | _ => 0

abbrev hbmTy0_0 (i : Nat) : BufTy := match i % 128 with
  | 0 => ⟨S50000x300, .f32⟩
  | 1 => ⟨S5x6x300, .f32⟩
  | 2 => ⟨S5x3x300, .f32⟩
  | 3 => ⟨S5x300x600, .f32⟩
  | 4 => ⟨S5x600, .f32⟩
  | 5 => ⟨S5x600x300, .f32⟩
  | 6 => ⟨S5x300, .f32⟩
  | 7 => ⟨S5x300, .f32⟩
  | 8 => ⟨S5x300, .f32⟩
  | 9 => ⟨S2x256000, .i32⟩
  | 10 => ⟨S256000x2, .i32⟩
  | 11 => ⟨S50000, .i32⟩
  | 12 => ⟨S1x256000, .i32⟩
  | 13 => ⟨S256000, .i32⟩
  | 14 => ⟨S1x256000, .i32⟩
  | 15 => ⟨S256000, .i32⟩
  | 16 => ⟨S256000x1, .i32⟩
  | 17 => ⟨S256000, .i32⟩
  | 18 => ⟨S256000x1, .i32⟩
  | 19 => ⟨S256000, .i32⟩
  | 20 => ⟨S50000x1, .i32⟩
  | 21 => ⟨S1x6x300, .f32⟩
  | 22 => ⟨S6x300, .f32⟩
  | 23 => ⟨S1x3x300, .f32⟩
  | 24 => ⟨S3x300, .f32⟩
  | 25 => ⟨S_, .i32⟩
  | 26 => ⟨S256000, .i32⟩
  | 27 => ⟨S256000, .i1⟩
  | 28 => ⟨S_, .i32⟩
  | 29 => ⟨S256000, .i32⟩
  | 30 => ⟨S256000, .i32⟩
  | 31 => ⟨S256000, .i32⟩
  | 32 => ⟨S256000x1, .i32⟩
  | 33 => ⟨S256000x300, .f32⟩
  | 34 => ⟨S_, .i32⟩
  | 35 => ⟨S256000, .i32⟩
  | 36 => ⟨S256000, .i1⟩
  | 37 => ⟨S_, .i32⟩
  | 38 => ⟨S256000, .i32⟩
  | 39 => ⟨S256000, .i32⟩
  | 40 => ⟨S256000, .i32⟩
  | 41 => ⟨S256000x1, .i32⟩
  | 42 => ⟨S256000x300, .f32⟩
  | 43 => ⟨S256000x300, .f32⟩
  | 44 => ⟨S_, .i32⟩
  | 45 => ⟨S256000, .i32⟩
  | 46 => ⟨S256000, .i1⟩
  | 47 => ⟨S_, .i32⟩
  | 48 => ⟨S256000, .i32⟩
  | 49 => ⟨S256000, .i32⟩
  | 50 => ⟨S256000, .i32⟩
  | 51 => ⟨S256000x1, .i32⟩
  | 52 => ⟨S256000x300, .f32⟩
  | 53 => ⟨S256000x300, .f32⟩
  | 54 => ⟨S_, .f32⟩
  | 55 => ⟨S50000x300, .f32⟩
  | 56 => ⟨S256000x1, .i32⟩
  | 57 => ⟨S50000x300, .f32⟩
  | 58 => ⟨S1x300x600, .f32⟩
  | 59 => ⟨S300x600, .f32⟩
  | 60 => ⟨S1x600, .f32⟩
  | 61 => ⟨S600, .f32⟩
  | 62 => ⟨S1x600x300, .f32⟩
  | 63 => ⟨S600x300, .f32⟩
  | 64 => ⟨S1x300, .f32⟩
  | 65 => ⟨S300, .f32⟩
  | 66 => ⟨S1x600, .f32⟩
  | 67 => ⟨S1x300, .f32⟩
  | 68 => ⟨S50000x300, .f32⟩
  | 69 => ⟨S1x300, .f32⟩
  | 70 => ⟨S1x300, .f32⟩
  | 71 => ⟨S300, .f32⟩
  | 72 => ⟨S_, .f32⟩
  | 73 => ⟨S300, .f32⟩
  | 74 => ⟨S300, .f32⟩
  | 75 => ⟨S1x300, .f32⟩
  | 76 => ⟨S300, .f32⟩
  | 77 => ⟨S_, .f32⟩
  | 78 => ⟨S300, .f32⟩
  | 79 => ⟨S300, .f32⟩
  | 80 => ⟨S300, .f32⟩
  | 81 => ⟨S300, .f32⟩
  | 82 => ⟨S300, .f32⟩
  | 83 => ⟨S300, .f32⟩
  | 84 => ⟨S1x300, .f32⟩
  | 85 => ⟨S1x300, .f32⟩
  | 86 => ⟨S300, .f32⟩
  | 87 => ⟨S1x300, .f32⟩
  | 88 => ⟨S300, .f32⟩
  | 89 => ⟨S1x300, .f32⟩
  | 90 => ⟨S1x300, .f32⟩
  | 91 => ⟨S50000x300, .f32⟩
  | 92 => ⟨S1x6x300, .f32⟩
  | 93 => ⟨S6x300, .f32⟩
  | 94 => ⟨S1x3x300, .f32⟩
  | 95 => ⟨S3x300, .f32⟩
  | 96 => ⟨S_, .i32⟩
  | 97 => ⟨S256000, .i32⟩
  | 98 => ⟨S256000, .i1⟩
  | 99 => ⟨S_, .i32⟩
  | 100 => ⟨S256000, .i32⟩
  | 101 => ⟨S256000, .i32⟩
  | 102 => ⟨S256000, .i32⟩
  | 103 => ⟨S256000x1, .i32⟩
  | 104 => ⟨S256000x300, .f32⟩
  | 105 => ⟨S_, .i32⟩
  | 106 => ⟨S256000, .i32⟩
  | 107 => ⟨S256000, .i1⟩
  | 108 => ⟨S_, .i32⟩
  | 109 => ⟨S256000, .i32⟩
  | 110 => ⟨S256000, .i32⟩
  | 111 => ⟨S256000, .i32⟩
  | 112 => ⟨S256000x1, .i32⟩
  | 113 => ⟨S256000x300, .f32⟩
  | 114 => ⟨S256000x300, .f32⟩
  | 115 => ⟨S_, .i32⟩
  | 116 => ⟨S256000, .i32⟩
  | 117 => ⟨S256000, .i1⟩
  | 118 => ⟨S_, .i32⟩
  | 119 => ⟨S256000, .i32⟩
  | 120 => ⟨S256000, .i32⟩
  | 121 => ⟨S256000, .i32⟩
  | 122 => ⟨S256000x1, .i32⟩
  | 123 => ⟨S256000x300, .f32⟩
  | 124 => ⟨S256000x300, .f32⟩
  | 125 => ⟨S_, .f32⟩
  | 126 => ⟨S50000x300, .f32⟩
  | 127 => ⟨S256000x1, .i32⟩
  | _ => ⟨S50000x300, .f32⟩

abbrev hbmTy0_1 (i : Nat) : BufTy := match i % 128 with
  | 0 => ⟨S50000x300, .f32⟩
  | 1 => ⟨S1x300x600, .f32⟩
  | 2 => ⟨S300x600, .f32⟩
  | 3 => ⟨S1x600, .f32⟩
  | 4 => ⟨S600, .f32⟩
  | 5 => ⟨S1x600x300, .f32⟩
  | 6 => ⟨S600x300, .f32⟩
  | 7 => ⟨S1x300, .f32⟩
  | 8 => ⟨S300, .f32⟩
  | 9 => ⟨S1x600, .f32⟩
  | 10 => ⟨S1x300, .f32⟩
  | 11 => ⟨S50000x300, .f32⟩
  | 12 => ⟨S1x300, .f32⟩
  | 13 => ⟨S1x300, .f32⟩
  | 14 => ⟨S300, .f32⟩
  | 15 => ⟨S_, .f32⟩
  | 16 => ⟨S300, .f32⟩
  | 17 => ⟨S300, .f32⟩
  | 18 => ⟨S1x300, .f32⟩
  | 19 => ⟨S300, .f32⟩
  | 20 => ⟨S_, .f32⟩
  | 21 => ⟨S300, .f32⟩
  | 22 => ⟨S300, .f32⟩
  | 23 => ⟨S300, .f32⟩
  | 24 => ⟨S300, .f32⟩
  | 25 => ⟨S300, .f32⟩
  | 26 => ⟨S300, .f32⟩
  | 27 => ⟨S1x300, .f32⟩
  | 28 => ⟨S1x300, .f32⟩
  | 29 => ⟨S300, .f32⟩
  | 30 => ⟨S1x300, .f32⟩
  | 31 => ⟨S300, .f32⟩
  | 32 => ⟨S1x300, .f32⟩
  | 33 => ⟨S1x300, .f32⟩
  | 34 => ⟨S50000x300, .f32⟩
  | 35 => ⟨S1x6x300, .f32⟩
  | 36 => ⟨S6x300, .f32⟩
  | 37 => ⟨S1x3x300, .f32⟩
  | 38 => ⟨S3x300, .f32⟩
  | 39 => ⟨S_, .i32⟩
  | 40 => ⟨S256000, .i32⟩
  | 41 => ⟨S256000, .i1⟩
  | 42 => ⟨S_, .i32⟩
  | 43 => ⟨S256000, .i32⟩
  | 44 => ⟨S256000, .i32⟩
  | 45 => ⟨S256000, .i32⟩
  | 46 => ⟨S256000x1, .i32⟩
  | 47 => ⟨S256000x300, .f32⟩
  | 48 => ⟨S_, .i32⟩
  | 49 => ⟨S256000, .i32⟩
  | 50 => ⟨S256000, .i1⟩
  | 51 => ⟨S_, .i32⟩
  | 52 => ⟨S256000, .i32⟩
  | 53 => ⟨S256000, .i32⟩
  | 54 => ⟨S256000, .i32⟩
  | 55 => ⟨S256000x1, .i32⟩
  | 56 => ⟨S256000x300, .f32⟩
  | 57 => ⟨S256000x300, .f32⟩
  | 58 => ⟨S_, .i32⟩
  | 59 => ⟨S256000, .i32⟩
  | 60 => ⟨S256000, .i1⟩
  | 61 => ⟨S_, .i32⟩
  | 62 => ⟨S256000, .i32⟩
  | 63 => ⟨S256000, .i32⟩
  | 64 => ⟨S256000, .i32⟩
  | 65 => ⟨S256000x1, .i32⟩
  | 66 => ⟨S256000x300, .f32⟩
  | 67 => ⟨S256000x300, .f32⟩
  | 68 => ⟨S_, .f32⟩
  | 69 => ⟨S50000x300, .f32⟩
  | 70 => ⟨S256000x1, .i32⟩
  | 71 => ⟨S50000x300, .f32⟩
  | 72 => ⟨S1x300x600, .f32⟩
  | 73 => ⟨S300x600, .f32⟩
  | 74 => ⟨S1x600, .f32⟩
  | 75 => ⟨S600, .f32⟩
  | 76 => ⟨S1x600x300, .f32⟩
  | 77 => ⟨S600x300, .f32⟩
  | 78 => ⟨S1x300, .f32⟩
  | 79 => ⟨S300, .f32⟩
  | 80 => ⟨S1x600, .f32⟩
  | 81 => ⟨S1x300, .f32⟩
  | 82 => ⟨S50000x300, .f32⟩
  | 83 => ⟨S1x300, .f32⟩
  | 84 => ⟨S1x300, .f32⟩
  | 85 => ⟨S300, .f32⟩
  | 86 => ⟨S_, .f32⟩
  | 87 => ⟨S300, .f32⟩
  | 88 => ⟨S300, .f32⟩
  | 89 => ⟨S1x300, .f32⟩
  | 90 => ⟨S300, .f32⟩
  | 91 => ⟨S_, .f32⟩
  | 92 => ⟨S300, .f32⟩
  | 93 => ⟨S300, .f32⟩
  | 94 => ⟨S300, .f32⟩
  | 95 => ⟨S300, .f32⟩
  | 96 => ⟨S300, .f32⟩
  | 97 => ⟨S300, .f32⟩
  | 98 => ⟨S1x300, .f32⟩
  | 99 => ⟨S1x300, .f32⟩
  | 100 => ⟨S300, .f32⟩
  | 101 => ⟨S1x300, .f32⟩
  | 102 => ⟨S300, .f32⟩
  | 103 => ⟨S1x300, .f32⟩
  | 104 => ⟨S1x300, .f32⟩
  | 105 => ⟨S50000x300, .f32⟩
  | 106 => ⟨S1x6x300, .f32⟩
  | 107 => ⟨S6x300, .f32⟩
  | 108 => ⟨S1x3x300, .f32⟩
  | 109 => ⟨S3x300, .f32⟩
  | 110 => ⟨S_, .i32⟩
  | 111 => ⟨S256000, .i32⟩
  | 112 => ⟨S256000, .i1⟩
  | 113 => ⟨S_, .i32⟩
  | 114 => ⟨S256000, .i32⟩
  | 115 => ⟨S256000, .i32⟩
  | 116 => ⟨S256000, .i32⟩
  | 117 => ⟨S256000x1, .i32⟩
  | 118 => ⟨S256000x300, .f32⟩
  | 119 => ⟨S_, .i32⟩
  | 120 => ⟨S256000, .i32⟩
  | 121 => ⟨S256000, .i1⟩
  | 122 => ⟨S_, .i32⟩
  | 123 => ⟨S256000, .i32⟩
  | 124 => ⟨S256000, .i32⟩
  | 125 => ⟨S256000, .i32⟩
  | 126 => ⟨S256000x1, .i32⟩
  | 127 => ⟨S256000x300, .f32⟩
  | _ => ⟨S50000x300, .f32⟩

abbrev hbmTy0_2 (i : Nat) : BufTy := match i % 128 with
  | 0 => ⟨S256000x300, .f32⟩
  | 1 => ⟨S_, .i32⟩
  | 2 => ⟨S256000, .i32⟩
  | 3 => ⟨S256000, .i1⟩
  | 4 => ⟨S_, .i32⟩
  | 5 => ⟨S256000, .i32⟩
  | 6 => ⟨S256000, .i32⟩
  | 7 => ⟨S256000, .i32⟩
  | 8 => ⟨S256000x1, .i32⟩
  | 9 => ⟨S256000x300, .f32⟩
  | 10 => ⟨S256000x300, .f32⟩
  | 11 => ⟨S_, .f32⟩
  | 12 => ⟨S50000x300, .f32⟩
  | 13 => ⟨S256000x1, .i32⟩
  | 14 => ⟨S50000x300, .f32⟩
  | 15 => ⟨S1x300x600, .f32⟩
  | 16 => ⟨S300x600, .f32⟩
  | 17 => ⟨S1x600, .f32⟩
  | 18 => ⟨S600, .f32⟩
  | 19 => ⟨S1x600x300, .f32⟩
  | 20 => ⟨S600x300, .f32⟩
  | 21 => ⟨S1x300, .f32⟩
  | 22 => ⟨S300, .f32⟩
  | 23 => ⟨S1x600, .f32⟩
  | 24 => ⟨S1x300, .f32⟩
  | 25 => ⟨S50000x300, .f32⟩
  | 26 => ⟨S1x300, .f32⟩
  | 27 => ⟨S1x300, .f32⟩
  | 28 => ⟨S300, .f32⟩
  | 29 => ⟨S_, .f32⟩
  | 30 => ⟨S300, .f32⟩
  | 31 => ⟨S300, .f32⟩
  | 32 => ⟨S1x300, .f32⟩
  | 33 => ⟨S300, .f32⟩
  | 34 => ⟨S_, .f32⟩
  | 35 => ⟨S300, .f32⟩
  | 36 => ⟨S300, .f32⟩
  | 37 => ⟨S300, .f32⟩
  | 38 => ⟨S300, .f32⟩
  | 39 => ⟨S300, .f32⟩
  | 40 => ⟨S300, .f32⟩
  | 41 => ⟨S1x300, .f32⟩
  | 42 => ⟨S1x300, .f32⟩
  | 43 => ⟨S300, .f32⟩
  | 44 => ⟨S1x300, .f32⟩
  | 45 => ⟨S300, .f32⟩
  | 46 => ⟨S1x300, .f32⟩
  | 47 => ⟨S1x300, .f32⟩
  | 48 => ⟨S50000x300, .f32⟩
  | 49 => ⟨S1x6x300, .f32⟩
  | 50 => ⟨S6x300, .f32⟩
  | 51 => ⟨S1x3x300, .f32⟩
  | 52 => ⟨S3x300, .f32⟩
  | 53 => ⟨S_, .i32⟩
  | 54 => ⟨S256000, .i32⟩
  | 55 => ⟨S256000, .i1⟩
  | 56 => ⟨S_, .i32⟩
  | 57 => ⟨S256000, .i32⟩
  | 58 => ⟨S256000, .i32⟩
  | 59 => ⟨S256000, .i32⟩
  | 60 => ⟨S256000x1, .i32⟩
  | 61 => ⟨S256000x300, .f32⟩
  | 62 => ⟨S_, .i32⟩
  | 63 => ⟨S256000, .i32⟩
  | 64 => ⟨S256000, .i1⟩
  | 65 => ⟨S_, .i32⟩
  | 66 => ⟨S256000, .i32⟩
  | 67 => ⟨S256000, .i32⟩
  | 68 => ⟨S256000, .i32⟩
  | 69 => ⟨S256000x1, .i32⟩
  | 70 => ⟨S256000x300, .f32⟩
  | 71 => ⟨S256000x300, .f32⟩
  | 72 => ⟨S_, .i32⟩
  | 73 => ⟨S256000, .i32⟩
  | 74 => ⟨S256000, .i1⟩
  | 75 => ⟨S_, .i32⟩
  | 76 => ⟨S256000, .i32⟩
  | 77 => ⟨S256000, .i32⟩
  | 78 => ⟨S256000, .i32⟩
  | 79 => ⟨S256000x1, .i32⟩
  | 80 => ⟨S256000x300, .f32⟩
  | 81 => ⟨S256000x300, .f32⟩
  | 82 => ⟨S_, .f32⟩
  | 83 => ⟨S50000x300, .f32⟩
  | 84 => ⟨S256000x1, .i32⟩
  | 85 => ⟨S50000x300, .f32⟩
  | 86 => ⟨S1x300x600, .f32⟩
  | 87 => ⟨S300x600, .f32⟩
  | 88 => ⟨S1x600, .f32⟩
  | 89 => ⟨S600, .f32⟩
  | 90 => ⟨S1x600x300, .f32⟩
  | 91 => ⟨S600x300, .f32⟩
  | 92 => ⟨S1x300, .f32⟩
  | 93 => ⟨S300, .f32⟩
  | 94 => ⟨S1x600, .f32⟩
  | 95 => ⟨S1x300, .f32⟩
  | 96 => ⟨S50000x300, .f32⟩
  | 97 => ⟨S1x300, .f32⟩
  | 98 => ⟨S1x300, .f32⟩
  | 99 => ⟨S300, .f32⟩
  | 100 => ⟨S_, .f32⟩
  | 101 => ⟨S300, .f32⟩
  | 102 => ⟨S300, .f32⟩
  | 103 => ⟨S1x300, .f32⟩
  | 104 => ⟨S300, .f32⟩
  | 105 => ⟨S_, .f32⟩
  | 106 => ⟨S300, .f32⟩
  | 107 => ⟨S300, .f32⟩
  | 108 => ⟨S300, .f32⟩
  | 109 => ⟨S300, .f32⟩
  | 110 => ⟨S300, .f32⟩
  | 111 => ⟨S300, .f32⟩
  | 112 => ⟨S1x300, .f32⟩
  | 113 => ⟨S1x300, .f32⟩
  | 114 => ⟨S300, .f32⟩
  | 115 => ⟨S1x300, .f32⟩
  | 116 => ⟨S300, .f32⟩
  | 117 => ⟨S1x300, .f32⟩
  | 118 => ⟨S1x300, .f32⟩
  | 119 => ⟨S50000x300, .f32⟩
  | 120 => ⟨S512x300, .f32⟩
  | 121 => ⟨S512x1, .f32⟩
  | 122 => ⟨S_, .f32⟩
  | 123 => ⟨S512x1, .f32⟩
  | 124 => ⟨S512x1, .f32⟩
  | 125 => ⟨S512x300, .f32⟩
  | 126 => ⟨S512x300, .f32⟩
  | _ => ⟨S50000x300, .f32⟩

abbrev hbmTy (i : Nat) : BufTy := match i / 128 with
  | 0 => hbmTy0_0 i
  | 1 => hbmTy0_1 i
  | 2 => hbmTy0_2 i
  | _ => ⟨S50000x300, .f32⟩

abbrev bufTy : (tb : Table) → Fin (tcTables nBuf tb) → BufTy
  | .hbm, ⟨i, _⟩ => hbmTy i
  | .local _ .vmem, ⟨0, _⟩ => ⟨S1000x300, .f32⟩
  | .local _ .vmem, ⟨1, _⟩ => ⟨S1000x300, .f32⟩
  | .local _ .vmem, ⟨2, _⟩ => ⟨S1000x300, .f32⟩
  | .local _ .vmem, ⟨3, _⟩ => ⟨S1000x300, .f32⟩
  | .local _ .vmem, ⟨4, _⟩ => ⟨S300x600, .f32⟩
  | .local _ .vmem, ⟨5, _⟩ => ⟨S1x600, .f32⟩
  | .local _ .vmem, ⟨6, _⟩ => ⟨S600x300, .f32⟩
  | .local _ .vmem, ⟨7, _⟩ => ⟨S1x300, .f32⟩
  | .local _ .vmem, ⟨8, _⟩ => ⟨S1000x300, .f32⟩
  | .local _ .vmem, ⟨9, _⟩ => ⟨S1000x300, .f32⟩
  | .local _ .vmem, ⟨10, _⟩ => ⟨S1x300, .f32⟩
  | .local _ .vmem, ⟨11, _⟩ => ⟨S1x300, .f32⟩
  | .local _ .vmem, ⟨12, _⟩ => ⟨S1x300, .f32⟩
  | .local _ .vmem, ⟨13, _⟩ => ⟨S1x300, .f32⟩
  | .local _ .vmem, ⟨14, _⟩ => ⟨S2000x300, .f32⟩
  | .local _ .vmem, ⟨15, _⟩ => ⟨S2000x300, .f32⟩
  | .local _ .vmem, ⟨16, _⟩ => ⟨S1x300, .f32⟩
  | .local _ .vmem, ⟨17, _⟩ => ⟨S1x300, .f32⟩
  | .local _ .vmem, ⟨18, _⟩ => ⟨S1x300, .f32⟩
  | .local _ .vmem, ⟨19, _⟩ => ⟨S1x300, .f32⟩
  | .local _ .vmem, ⟨20, _⟩ => ⟨S2000x300, .f32⟩
  | .local _ .vmem, ⟨21, _⟩ => ⟨S2000x300, .f32⟩
  | .local _ .vmem, ⟨22, _⟩ => ⟨S1000x300, .f32⟩
  | .local _ .vmem, ⟨23, _⟩ => ⟨S1000x300, .f32⟩
  | .local _ .vmem, ⟨24, _⟩ => ⟨S1000x300, .f32⟩
  | .local _ .vmem, ⟨25, _⟩ => ⟨S1000x300, .f32⟩
  | .local _ .vmem, ⟨26, _⟩ => ⟨S300x600, .f32⟩
  | .local _ .vmem, ⟨27, _⟩ => ⟨S1x600, .f32⟩
  | .local _ .vmem, ⟨28, _⟩ => ⟨S600x300, .f32⟩
  | .local _ .vmem, ⟨29, _⟩ => ⟨S1x300, .f32⟩
  | .local _ .vmem, ⟨30, _⟩ => ⟨S1000x300, .f32⟩
  | .local _ .vmem, ⟨31, _⟩ => ⟨S1000x300, .f32⟩
  | .local _ .vmem, ⟨32, _⟩ => ⟨S1x300, .f32⟩
  | .local _ .vmem, ⟨33, _⟩ => ⟨S1x300, .f32⟩
  | .local _ .vmem, ⟨34, _⟩ => ⟨S1x300, .f32⟩
  | .local _ .vmem, ⟨35, _⟩ => ⟨S1x300, .f32⟩
  | .local _ .vmem, ⟨36, _⟩ => ⟨S2000x300, .f32⟩
  | .local _ .vmem, ⟨37, _⟩ => ⟨S2000x300, .f32⟩
  | .local _ .vmem, ⟨38, _⟩ => ⟨S1x300, .f32⟩
  | .local _ .vmem, ⟨39, _⟩ => ⟨S1x300, .f32⟩
  | .local _ .vmem, ⟨40, _⟩ => ⟨S1x300, .f32⟩
  | .local _ .vmem, ⟨41, _⟩ => ⟨S1x300, .f32⟩
  | .local _ .vmem, ⟨42, _⟩ => ⟨S2000x300, .f32⟩
  | .local _ .vmem, ⟨43, _⟩ => ⟨S2000x300, .f32⟩
  | .local _ .vmem, ⟨44, _⟩ => ⟨S1000x300, .f32⟩
  | .local _ .vmem, ⟨45, _⟩ => ⟨S1000x300, .f32⟩
  | .local _ .vmem, ⟨46, _⟩ => ⟨S1000x300, .f32⟩
  | .local _ .vmem, ⟨47, _⟩ => ⟨S1000x300, .f32⟩
  | .local _ .vmem, ⟨48, _⟩ => ⟨S300x600, .f32⟩
  | .local _ .vmem, ⟨49, _⟩ => ⟨S1x600, .f32⟩
  | .local _ .vmem, ⟨50, _⟩ => ⟨S600x300, .f32⟩
  | .local _ .vmem, ⟨51, _⟩ => ⟨S1x300, .f32⟩
  | .local _ .vmem, ⟨52, _⟩ => ⟨S1000x300, .f32⟩
  | .local _ .vmem, ⟨53, _⟩ => ⟨S1000x300, .f32⟩
  | .local _ .vmem, ⟨54, _⟩ => ⟨S1x300, .f32⟩
  | .local _ .vmem, ⟨55, _⟩ => ⟨S1x300, .f32⟩
  | .local _ .vmem, ⟨56, _⟩ => ⟨S1x300, .f32⟩
  | .local _ .vmem, ⟨57, _⟩ => ⟨S1x300, .f32⟩
  | .local _ .vmem, ⟨58, _⟩ => ⟨S2000x300, .f32⟩
  | .local _ .vmem, ⟨59, _⟩ => ⟨S2000x300, .f32⟩
  | .local _ .vmem, ⟨60, _⟩ => ⟨S1x300, .f32⟩
  | .local _ .vmem, ⟨61, _⟩ => ⟨S1x300, .f32⟩
  | .local _ .vmem, ⟨62, _⟩ => ⟨S1x300, .f32⟩
  | .local _ .vmem, ⟨63, _⟩ => ⟨S1x300, .f32⟩
  | .local _ .vmem, ⟨64, _⟩ => ⟨S2000x300, .f32⟩
  | .local _ .vmem, ⟨65, _⟩ => ⟨S2000x300, .f32⟩
  | .local _ .vmem, ⟨66, _⟩ => ⟨S1000x300, .f32⟩
  | .local _ .vmem, ⟨67, _⟩ => ⟨S1000x300, .f32⟩
  | .local _ .vmem, ⟨68, _⟩ => ⟨S1000x300, .f32⟩
  | .local _ .vmem, ⟨69, _⟩ => ⟨S1000x300, .f32⟩
  | .local _ .vmem, ⟨70, _⟩ => ⟨S300x600, .f32⟩
  | .local _ .vmem, ⟨71, _⟩ => ⟨S1x600, .f32⟩
  | .local _ .vmem, ⟨72, _⟩ => ⟨S600x300, .f32⟩
  | .local _ .vmem, ⟨73, _⟩ => ⟨S1x300, .f32⟩
  | .local _ .vmem, ⟨74, _⟩ => ⟨S1000x300, .f32⟩
  | .local _ .vmem, ⟨75, _⟩ => ⟨S1000x300, .f32⟩
  | .local _ .vmem, ⟨76, _⟩ => ⟨S1x300, .f32⟩
  | .local _ .vmem, ⟨77, _⟩ => ⟨S1x300, .f32⟩
  | .local _ .vmem, ⟨78, _⟩ => ⟨S1x300, .f32⟩
  | .local _ .vmem, ⟨79, _⟩ => ⟨S1x300, .f32⟩
  | .local _ .vmem, ⟨80, _⟩ => ⟨S2000x300, .f32⟩
  | .local _ .vmem, ⟨81, _⟩ => ⟨S2000x300, .f32⟩
  | .local _ .vmem, ⟨82, _⟩ => ⟨S1x300, .f32⟩
  | .local _ .vmem, ⟨83, _⟩ => ⟨S1x300, .f32⟩
  | .local _ .vmem, ⟨84, _⟩ => ⟨S1x300, .f32⟩
  | .local _ .vmem, ⟨85, _⟩ => ⟨S1x300, .f32⟩
  | .local _ .vmem, ⟨86, _⟩ => ⟨S2000x300, .f32⟩
  | .local _ .vmem, ⟨87, _⟩ => ⟨S2000x300, .f32⟩
  | .local _ .vmem, ⟨88, _⟩ => ⟨S1000x300, .f32⟩
  | .local _ .vmem, ⟨89, _⟩ => ⟨S1000x300, .f32⟩
  | .local _ .vmem, ⟨90, _⟩ => ⟨S1000x300, .f32⟩
  | .local _ .vmem, ⟨91, _⟩ => ⟨S1000x300, .f32⟩
  | .local _ .vmem, ⟨92, _⟩ => ⟨S300x600, .f32⟩
  | .local _ .vmem, ⟨93, _⟩ => ⟨S1x600, .f32⟩
  | .local _ .vmem, ⟨94, _⟩ => ⟨S600x300, .f32⟩
  | .local _ .vmem, ⟨95, _⟩ => ⟨S1x300, .f32⟩
  | .local _ .vmem, ⟨96, _⟩ => ⟨S1000x300, .f32⟩
  | .local _ .vmem, ⟨97, _⟩ => ⟨S1000x300, .f32⟩
  | .local _ .vmem, ⟨98, _⟩ => ⟨S1x300, .f32⟩
  | .local _ .vmem, ⟨99, _⟩ => ⟨S1x300, .f32⟩
  | .local _ .vmem, ⟨100, _⟩ => ⟨S1x300, .f32⟩
  | .local _ .vmem, ⟨101, _⟩ => ⟨S1x300, .f32⟩
  | .local _ .vmem, ⟨102, _⟩ => ⟨S2000x300, .f32⟩
  | .local _ .vmem, ⟨103, _⟩ => ⟨S2000x300, .f32⟩
  | .local _ .vmem, ⟨104, _⟩ => ⟨S1x300, .f32⟩
  | .local _ .vmem, ⟨105, _⟩ => ⟨S1x300, .f32⟩
  | .local _ .vmem, ⟨106, _⟩ => ⟨S1x300, .f32⟩
  | .local _ .vmem, ⟨107, _⟩ => ⟨S1x300, .f32⟩
  | .local _ .vmem, ⟨108, _⟩ => ⟨S2000x300, .f32⟩
  | .local _ .vmem, ⟨109, _⟩ => ⟨S2000x300, .f32⟩
  | .local _ .vmem, ⟨110, _⟩ => ⟨S2000x300, .f32⟩
  | .local _ .vmem, ⟨111, _⟩ => ⟨S2000x300, .f32⟩
  | .local _ .vmem, ⟨112, _⟩ => ⟨S2000x1, .i32⟩
  | .local _ .vmem, ⟨113, _⟩ => ⟨S2000x1, .i32⟩
  | .local _ .vmem, ⟨114, _⟩ => ⟨S512x300, .f32⟩
  | .local _ .vmem, ⟨115, _⟩ => ⟨S512x1, .f32⟩
  | .local _ .vmem, ⟨116, _⟩ => ⟨S512x300, .f32⟩
  | .local _ .vmem, ⟨117, _⟩ => ⟨S512x1, .f32⟩
  | _, _ => ⟨S50000x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | _, _ => false

abbrev semScoped : Fin 0 → Bool
  | ⟨_, h⟩ => absurd h (Nat.not_lt_zero _)

abbrev dmaSemScoped : Fin 106 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | _ => false

abbrev sig : RefSig :=
  ofTc nBuf bufTy 0 106 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_1 : Ref sig .tc := ⟨.hbm, 34, rfl⟩
abbrev main_v20 : Ref sig .tc := ⟨.hbm, 35, rfl⟩
abbrev main_v21 : Ref sig .tc := ⟨.hbm, 36, rfl⟩
abbrev main_c_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_3 : Ref sig .tc := ⟨.hbm, 44, rfl⟩
abbrev main_v28 : Ref sig .tc := ⟨.hbm, 45, rfl⟩
abbrev main_v29 : Ref sig .tc := ⟨.hbm, 46, rfl⟩
abbrev main_c_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49_0 : Ref sig .tc := ⟨.hbm, 68, rfl⟩
abbrev main_v49_1 : Ref sig .tc := ⟨.hbm, 69, rfl⟩
abbrev main_v49_2 : Ref sig .tc := ⟨.hbm, 70, rfl⟩
abbrev main_v50 : Ref sig .tc := ⟨.hbm, 71, rfl⟩
abbrev main_cst_5 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_6 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_c_7 : Ref sig .tc := ⟨.hbm, 96, rfl⟩
abbrev main_v73 : Ref sig .tc := ⟨.hbm, 97, rfl⟩
abbrev main_v74 : Ref sig .tc := ⟨.hbm, 98, rfl⟩
abbrev main_c_8 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_c_9 : Ref sig .tc := ⟨.hbm, 105, rfl⟩
abbrev main_v80 : Ref sig .tc := ⟨.hbm, 106, rfl⟩
abbrev main_v81 : Ref sig .tc := ⟨.hbm, 107, rfl⟩
abbrev main_c_10 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_c_11 : Ref sig .tc := ⟨.hbm, 115, rfl⟩
abbrev main_v88 : Ref sig .tc := ⟨.hbm, 116, rfl⟩
abbrev main_v89 : Ref sig .tc := ⟨.hbm, 117, rfl⟩
abbrev main_c_12 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_13 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109_0 : Ref sig .tc := ⟨.hbm, 139, rfl⟩
abbrev main_v109_1 : Ref sig .tc := ⟨.hbm, 140, rfl⟩
abbrev main_v109_2 : Ref sig .tc := ⟨.hbm, 141, rfl⟩
abbrev main_v110 : Ref sig .tc := ⟨.hbm, 142, rfl⟩
abbrev main_cst_14 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_cst_15 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_c_16 : Ref sig .tc := ⟨.hbm, 167, rfl⟩
abbrev main_v133 : Ref sig .tc := ⟨.hbm, 168, rfl⟩
abbrev main_v134 : Ref sig .tc := ⟨.hbm, 169, rfl⟩
abbrev main_c_17 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_c_18 : Ref sig .tc := ⟨.hbm, 176, rfl⟩
abbrev main_v140 : Ref sig .tc := ⟨.hbm, 177, rfl⟩
abbrev main_v141 : Ref sig .tc := ⟨.hbm, 178, rfl⟩
abbrev main_c_19 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_c_20 : Ref sig .tc := ⟨.hbm, 186, rfl⟩
abbrev main_v148 : Ref sig .tc := ⟨.hbm, 187, rfl⟩
abbrev main_v149 : Ref sig .tc := ⟨.hbm, 188, rfl⟩
abbrev main_c_21 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_cst_22 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169_0 : Ref sig .tc := ⟨.hbm, 210, rfl⟩
abbrev main_v169_1 : Ref sig .tc := ⟨.hbm, 211, rfl⟩
abbrev main_v169_2 : Ref sig .tc := ⟨.hbm, 212, rfl⟩
abbrev main_v170 : Ref sig .tc := ⟨.hbm, 213, rfl⟩
abbrev main_cst_23 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_cst_24 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_c_25 : Ref sig .tc := ⟨.hbm, 238, rfl⟩
abbrev main_v193 : Ref sig .tc := ⟨.hbm, 239, rfl⟩
abbrev main_v194 : Ref sig .tc := ⟨.hbm, 240, rfl⟩
abbrev main_c_26 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_c_27 : Ref sig .tc := ⟨.hbm, 247, rfl⟩
abbrev main_v200 : Ref sig .tc := ⟨.hbm, 248, rfl⟩
abbrev main_v201 : Ref sig .tc := ⟨.hbm, 249, rfl⟩
abbrev main_c_28 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩
abbrev main_v207 : Ref sig .tc := ⟨.hbm, 256, rfl⟩
abbrev main_c_29 : Ref sig .tc := ⟨.hbm, 257, rfl⟩
abbrev main_v208 : Ref sig .tc := ⟨.hbm, 258, rfl⟩
abbrev main_v209 : Ref sig .tc := ⟨.hbm, 259, rfl⟩
abbrev main_c_30 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_cst_31 : Ref sig .tc := ⟨.hbm, 267, rfl⟩
abbrev main_v216 : Ref sig .tc := ⟨.hbm, 268, rfl⟩
abbrev main_v217 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_v225 : Ref sig .tc := ⟨.hbm, 277, rfl⟩
abbrev main_v226 : Ref sig .tc := ⟨.hbm, 278, rfl⟩
abbrev main_v227 : Ref sig .tc := ⟨.hbm, 279, rfl⟩
abbrev main_v228 : Ref sig .tc := ⟨.hbm, 280, rfl⟩
abbrev main_v229_0 : Ref sig .tc := ⟨.hbm, 281, rfl⟩
abbrev main_v229_1 : Ref sig .tc := ⟨.hbm, 282, rfl⟩
abbrev main_v229_2 : Ref sig .tc := ⟨.hbm, 283, rfl⟩
abbrev main_v230 : Ref sig .tc := ⟨.hbm, 284, rfl⟩
abbrev main_cst_32 : Ref sig .tc := ⟨.hbm, 285, rfl⟩
abbrev main_v231 : Ref sig .tc := ⟨.hbm, 286, rfl⟩
abbrev main_v232 : Ref sig .tc := ⟨.hbm, 287, rfl⟩
abbrev main_v233 : Ref sig .tc := ⟨.hbm, 288, rfl⟩
abbrev main_v234 : Ref sig .tc := ⟨.hbm, 289, rfl⟩
abbrev main_cst_33 : Ref sig .tc := ⟨.hbm, 290, rfl⟩
abbrev main_v235 : Ref sig .tc := ⟨.hbm, 291, rfl⟩
abbrev main_v236 : Ref sig .tc := ⟨.hbm, 292, rfl⟩
abbrev main_v237 : Ref sig .tc := ⟨.hbm, 293, rfl⟩
abbrev main_v238 : Ref sig .tc := ⟨.hbm, 294, rfl⟩
abbrev main_v239 : Ref sig .tc := ⟨.hbm, 295, rfl⟩
abbrev main_v240 : Ref sig .tc := ⟨.hbm, 296, rfl⟩
abbrev main_v241 : Ref sig .tc := ⟨.hbm, 297, rfl⟩
abbrev main_v242 : Ref sig .tc := ⟨.hbm, 298, rfl⟩
abbrev main_v243 : Ref sig .tc := ⟨.hbm, 299, rfl⟩
abbrev main_v244 : Ref sig .tc := ⟨.hbm, 300, rfl⟩
abbrev main_v245 : Ref sig .tc := ⟨.hbm, 301, rfl⟩
abbrev main_v246 : Ref sig .tc := ⟨.hbm, 302, rfl⟩
abbrev main_v247 : Ref sig .tc := ⟨.hbm, 303, rfl⟩
abbrev main_v248 : Ref sig .tc := ⟨.hbm, 304, rfl⟩
abbrev main_v249 : Ref sig .tc := ⟨.hbm, 305, rfl⟩
abbrev main_v250 : Ref sig .tc := ⟨.hbm, 306, rfl⟩
abbrev main_v251 : Ref sig .tc := ⟨.hbm, 307, rfl⟩
abbrev main_v252 : Ref sig .tc := ⟨.hbm, 308, rfl⟩
abbrev main_c_34 : Ref sig .tc := ⟨.hbm, 309, rfl⟩
abbrev main_v253 : Ref sig .tc := ⟨.hbm, 310, rfl⟩
abbrev main_v254 : Ref sig .tc := ⟨.hbm, 311, rfl⟩
abbrev main_c_35 : Ref sig .tc := ⟨.hbm, 312, rfl⟩
abbrev main_v255 : Ref sig .tc := ⟨.hbm, 313, rfl⟩
abbrev main_v256 : Ref sig .tc := ⟨.hbm, 314, rfl⟩
abbrev main_v257 : Ref sig .tc := ⟨.hbm, 315, rfl⟩
abbrev main_v258 : Ref sig .tc := ⟨.hbm, 316, rfl⟩
abbrev main_v259 : Ref sig .tc := ⟨.hbm, 317, rfl⟩
abbrev main_c_36 : Ref sig .tc := ⟨.hbm, 318, rfl⟩
abbrev main_v260 : Ref sig .tc := ⟨.hbm, 319, rfl⟩
abbrev main_v261 : Ref sig .tc := ⟨.hbm, 320, rfl⟩
abbrev main_c_37 : Ref sig .tc := ⟨.hbm, 321, rfl⟩
abbrev main_v262 : Ref sig .tc := ⟨.hbm, 322, rfl⟩
abbrev main_v263 : Ref sig .tc := ⟨.hbm, 323, rfl⟩
abbrev main_v264 : Ref sig .tc := ⟨.hbm, 324, rfl⟩
abbrev main_v265 : Ref sig .tc := ⟨.hbm, 325, rfl⟩
abbrev main_v266 : Ref sig .tc := ⟨.hbm, 326, rfl⟩
abbrev main_v267 : Ref sig .tc := ⟨.hbm, 327, rfl⟩
abbrev main_c_38 : Ref sig .tc := ⟨.hbm, 328, rfl⟩
abbrev main_v268 : Ref sig .tc := ⟨.hbm, 329, rfl⟩
abbrev main_v269 : Ref sig .tc := ⟨.hbm, 330, rfl⟩
abbrev main_c_39 : Ref sig .tc := ⟨.hbm, 331, rfl⟩
abbrev main_v270 : Ref sig .tc := ⟨.hbm, 332, rfl⟩
abbrev main_v271 : Ref sig .tc := ⟨.hbm, 333, rfl⟩
abbrev main_v272 : Ref sig .tc := ⟨.hbm, 334, rfl⟩
abbrev main_v273 : Ref sig .tc := ⟨.hbm, 335, rfl⟩
abbrev main_v274 : Ref sig .tc := ⟨.hbm, 336, rfl⟩
abbrev main_v275 : Ref sig .tc := ⟨.hbm, 337, rfl⟩
abbrev main_cst_40 : Ref sig .tc := ⟨.hbm, 338, rfl⟩
abbrev main_v276 : Ref sig .tc := ⟨.hbm, 339, rfl⟩
abbrev main_v277 : Ref sig .tc := ⟨.hbm, 340, rfl⟩
abbrev main_v278 : Ref sig .tc := ⟨.hbm, 341, rfl⟩
abbrev main_v279 : Ref sig .tc := ⟨.hbm, 342, rfl⟩
abbrev main_v280 : Ref sig .tc := ⟨.hbm, 343, rfl⟩
abbrev main_v281 : Ref sig .tc := ⟨.hbm, 344, rfl⟩
abbrev main_v282 : Ref sig .tc := ⟨.hbm, 345, rfl⟩
abbrev main_v283 : Ref sig .tc := ⟨.hbm, 346, rfl⟩
abbrev main_v284 : Ref sig .tc := ⟨.hbm, 347, rfl⟩
abbrev main_v285 : Ref sig .tc := ⟨.hbm, 348, rfl⟩
abbrev main_v286 : Ref sig .tc := ⟨.hbm, 349, rfl⟩
abbrev main_v287 : Ref sig .tc := ⟨.hbm, 350, rfl⟩
abbrev main_v288 : Ref sig .tc := ⟨.hbm, 351, rfl⟩
abbrev main_v289_0 : Ref sig .tc := ⟨.hbm, 352, rfl⟩
abbrev main_v289_1 : Ref sig .tc := ⟨.hbm, 353, rfl⟩
abbrev main_v289_2 : Ref sig .tc := ⟨.hbm, 354, rfl⟩
abbrev main_v290 : Ref sig .tc := ⟨.hbm, 355, rfl⟩
abbrev main_cst_41 : Ref sig .tc := ⟨.hbm, 356, rfl⟩
abbrev main_v291 : Ref sig .tc := ⟨.hbm, 357, rfl⟩
abbrev main_v292 : Ref sig .tc := ⟨.hbm, 358, rfl⟩
abbrev main_v293 : Ref sig .tc := ⟨.hbm, 359, rfl⟩
abbrev main_v294 : Ref sig .tc := ⟨.hbm, 360, rfl⟩
abbrev main_cst_42 : Ref sig .tc := ⟨.hbm, 361, rfl⟩
abbrev main_v295 : Ref sig .tc := ⟨.hbm, 362, rfl⟩
abbrev main_v296 : Ref sig .tc := ⟨.hbm, 363, rfl⟩
abbrev main_v297 : Ref sig .tc := ⟨.hbm, 364, rfl⟩
abbrev main_v298 : Ref sig .tc := ⟨.hbm, 365, rfl⟩
abbrev main_v299 : Ref sig .tc := ⟨.hbm, 366, rfl⟩
abbrev main_v300 : Ref sig .tc := ⟨.hbm, 367, rfl⟩
abbrev main_v301 : Ref sig .tc := ⟨.hbm, 368, rfl⟩
abbrev main_v302 : Ref sig .tc := ⟨.hbm, 369, rfl⟩
abbrev main_v303 : Ref sig .tc := ⟨.hbm, 370, rfl⟩
abbrev main_v304 : Ref sig .tc := ⟨.hbm, 371, rfl⟩
abbrev main_v305 : Ref sig .tc := ⟨.hbm, 372, rfl⟩
abbrev main_v306 : Ref sig .tc := ⟨.hbm, 373, rfl⟩
abbrev main_v307 : Ref sig .tc := ⟨.hbm, 374, rfl⟩
abbrev main_v308 : Ref sig .tc := ⟨.hbm, 375, rfl⟩
abbrev main_v309_0 : Ref sig .tc := ⟨.hbm, 376, rfl⟩
abbrev main_v309_1 : Ref sig .tc := ⟨.hbm, 377, rfl⟩
abbrev main_cst_43 : Ref sig .tc := ⟨.hbm, 378, rfl⟩
abbrev main_v310 : Ref sig .tc := ⟨.hbm, 379, rfl⟩
abbrev main_v311 : Ref sig .tc := ⟨.hbm, 380, rfl⟩
abbrev main_v312 : Ref sig .tc := ⟨.hbm, 381, rfl⟩
abbrev main_v313 : Ref sig .tc := ⟨.hbm, 382, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg8_0 : Ref sig .tc := ⟨.vmem, 33, rfl⟩
abbrev cc2_scratch0 : Ref sig .tc := ⟨.vmem, 34, rfl⟩
abbrev cc2_scratch1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg5_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg5_0 : Ref sig .tc := ⟨.vmem, 51, rfl⟩
abbrev cc4_stg6_0 : Ref sig .tc := ⟨.vmem, 52, rfl⟩
abbrev cc4_stg6_1 : Ref sig .tc := ⟨.vmem, 53, rfl⟩
abbrev cc4_stg7_0 : Ref sig .tc := ⟨.vmem, 54, rfl⟩
abbrev cc4_stg8_0 : Ref sig .tc := ⟨.vmem, 55, rfl⟩
abbrev cc4_scratch0 : Ref sig .tc := ⟨.vmem, 56, rfl⟩
abbrev cc4_scratch1 : Ref sig .tc := ⟨.vmem, 57, rfl⟩
abbrev cc5_stg0_0 : Ref sig .tc := ⟨.vmem, 58, rfl⟩
abbrev cc5_stg0_1 : Ref sig .tc := ⟨.vmem, 59, rfl⟩
abbrev cc5_stg1_0 : Ref sig .tc := ⟨.vmem, 60, rfl⟩
abbrev cc5_stg2_0 : Ref sig .tc := ⟨.vmem, 61, rfl⟩
abbrev cc5_stg3_0 : Ref sig .tc := ⟨.vmem, 62, rfl⟩
abbrev cc5_stg4_0 : Ref sig .tc := ⟨.vmem, 63, rfl⟩
abbrev cc5_stg5_0 : Ref sig .tc := ⟨.vmem, 64, rfl⟩
abbrev cc5_stg5_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg1_1 : Ref sig .tc := ⟨.vmem, 69, rfl⟩
abbrev cc6_stg2_0 : Ref sig .tc := ⟨.vmem, 70, rfl⟩
abbrev cc6_stg3_0 : Ref sig .tc := ⟨.vmem, 71, rfl⟩
abbrev cc6_stg4_0 : Ref sig .tc := ⟨.vmem, 72, rfl⟩
abbrev cc6_stg5_0 : Ref sig .tc := ⟨.vmem, 73, rfl⟩
abbrev cc6_stg6_0 : Ref sig .tc := ⟨.vmem, 74, rfl⟩
abbrev cc6_stg6_1 : Ref sig .tc := ⟨.vmem, 75, rfl⟩
abbrev cc6_stg7_0 : Ref sig .tc := ⟨.vmem, 76, rfl⟩
abbrev cc6_stg8_0 : Ref sig .tc := ⟨.vmem, 77, rfl⟩
abbrev cc6_scratch0 : Ref sig .tc := ⟨.vmem, 78, rfl⟩
abbrev cc6_scratch1 : Ref sig .tc := ⟨.vmem, 79, rfl⟩
abbrev cc7_stg0_0 : Ref sig .tc := ⟨.vmem, 80, rfl⟩
abbrev cc7_stg0_1 : Ref sig .tc := ⟨.vmem, 81, rfl⟩
abbrev cc7_stg1_0 : Ref sig .tc := ⟨.vmem, 82, rfl⟩
abbrev cc7_stg2_0 : Ref sig .tc := ⟨.vmem, 83, rfl⟩
abbrev cc7_stg3_0 : Ref sig .tc := ⟨.vmem, 84, rfl⟩
abbrev cc7_stg4_0 : Ref sig .tc := ⟨.vmem, 85, rfl⟩
abbrev cc7_stg5_0 : Ref sig .tc := ⟨.vmem, 86, rfl⟩
abbrev cc7_stg5_1 : Ref sig .tc := ⟨.vmem, 87, rfl⟩
abbrev cc8_stg0_0 : Ref sig .tc := ⟨.vmem, 88, rfl⟩
abbrev cc8_stg0_1 : Ref sig .tc := ⟨.vmem, 89, rfl⟩
abbrev cc8_stg1_0 : Ref sig .tc := ⟨.vmem, 90, rfl⟩
abbrev cc8_stg1_1 : Ref sig .tc := ⟨.vmem, 91, rfl⟩
abbrev cc8_stg2_0 : Ref sig .tc := ⟨.vmem, 92, rfl⟩
abbrev cc8_stg3_0 : Ref sig .tc := ⟨.vmem, 93, rfl⟩
abbrev cc8_stg4_0 : Ref sig .tc := ⟨.vmem, 94, rfl⟩
abbrev cc8_stg5_0 : Ref sig .tc := ⟨.vmem, 95, rfl⟩
abbrev cc8_stg6_0 : Ref sig .tc := ⟨.vmem, 96, rfl⟩
abbrev cc8_stg6_1 : Ref sig .tc := ⟨.vmem, 97, rfl⟩
abbrev cc8_stg7_0 : Ref sig .tc := ⟨.vmem, 98, rfl⟩
abbrev cc8_stg8_0 : Ref sig .tc := ⟨.vmem, 99, rfl⟩
abbrev cc8_scratch0 : Ref sig .tc := ⟨.vmem, 100, rfl⟩
abbrev cc8_scratch1 : Ref sig .tc := ⟨.vmem, 101, rfl⟩
abbrev cc9_stg0_0 : Ref sig .tc := ⟨.vmem, 102, rfl⟩
abbrev cc9_stg0_1 : Ref sig .tc := ⟨.vmem, 103, rfl⟩
abbrev cc9_stg1_0 : Ref sig .tc := ⟨.vmem, 104, rfl⟩
abbrev cc9_stg2_0 : Ref sig .tc := ⟨.vmem, 105, rfl⟩
abbrev cc9_stg3_0 : Ref sig .tc := ⟨.vmem, 106, rfl⟩
abbrev cc9_stg4_0 : Ref sig .tc := ⟨.vmem, 107, rfl⟩
abbrev cc9_stg5_0 : Ref sig .tc := ⟨.vmem, 108, rfl⟩
abbrev cc9_stg5_1 : Ref sig .tc := ⟨.vmem, 109, rfl⟩
abbrev cc10_stg0_0 : Ref sig .tc := ⟨.vmem, 110, rfl⟩
abbrev cc10_stg0_1 : Ref sig .tc := ⟨.vmem, 111, rfl⟩
abbrev cc10_stg1_0 : Ref sig .tc := ⟨.vmem, 112, rfl⟩
abbrev cc10_stg1_1 : Ref sig .tc := ⟨.vmem, 113, rfl⟩
abbrev cc10_stg2_0 : Ref sig .tc := ⟨.vmem, 114, rfl⟩
abbrev cc10_stg3_0 : Ref sig .tc := ⟨.vmem, 115, rfl⟩
abbrev cc10_scratch0 : Ref sig .tc := ⟨.vmem, 116, rfl⟩
abbrev cc10_scratch1 : Ref sig .tc := ⟨.vmem, 117, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem8_0 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc4_sem7_0 : DmaSem sig := 50
abbrev cc4_sem8_0 : DmaSem sig := 51
abbrev cc5_sem0_0 : DmaSem sig := 52
abbrev cc5_sem0_1 : DmaSem sig := 53
abbrev cc5_sem1_0 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem5_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem3_0 : DmaSem sig := 65
abbrev cc6_sem4_0 : DmaSem sig := 66
abbrev cc6_sem5_0 : DmaSem sig := 67
abbrev cc6_sem6_0 : DmaSem sig := 68
abbrev cc6_sem6_1 : DmaSem sig := 69
abbrev cc6_sem7_0 : DmaSem sig := 70
abbrev cc6_sem8_0 : DmaSem sig := 71
abbrev cc7_sem0_0 : DmaSem sig := 72
abbrev cc7_sem0_1 : DmaSem sig := 73
abbrev cc7_sem1_0 : DmaSem sig := 74
abbrev cc7_sem2_0 : DmaSem sig := 75
abbrev cc7_sem3_0 : DmaSem sig := 76
abbrev cc7_sem4_0 : DmaSem sig := 77
abbrev cc7_sem5_0 : DmaSem sig := 78
abbrev cc7_sem5_1 : DmaSem sig := 79
abbrev cc8_sem0_0 : DmaSem sig := 80
abbrev cc8_sem0_1 : DmaSem sig := 81
abbrev cc8_sem1_0 : DmaSem sig := 82
abbrev cc8_sem1_1 : DmaSem sig := 83
abbrev cc8_sem2_0 : DmaSem sig := 84
abbrev cc8_sem3_0 : DmaSem sig := 85
abbrev cc8_sem4_0 : DmaSem sig := 86
abbrev cc8_sem5_0 : DmaSem sig := 87
abbrev cc8_sem6_0 : DmaSem sig := 88
abbrev cc8_sem6_1 : DmaSem sig := 89
abbrev cc8_sem7_0 : DmaSem sig := 90
abbrev cc8_sem8_0 : DmaSem sig := 91
abbrev cc9_sem0_0 : DmaSem sig := 92
abbrev cc9_sem0_1 : DmaSem sig := 93
abbrev cc9_sem1_0 : DmaSem sig := 94
abbrev cc9_sem2_0 : DmaSem sig := 95
abbrev cc9_sem3_0 : DmaSem sig := 96
abbrev cc9_sem4_0 : DmaSem sig := 97
abbrev cc9_sem5_0 : DmaSem sig := 98
abbrev cc9_sem5_1 : DmaSem sig := 99
abbrev cc10_sem0_0 : DmaSem sig := 100
abbrev cc10_sem0_1 : DmaSem sig := 101
abbrev cc10_sem1_0 : DmaSem sig := 102
abbrev cc10_sem1_1 : DmaSem sig := 103
abbrev cc10_sem2_0 : DmaSem sig := 104
abbrev cc10_sem3_0 : DmaSem sig := 105

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v43 : BitVec 1 := Scalar.cmpi .eq arg0 c49_i32
  let v44 : BitVec 32 := Scalar.extui v43
  let c0_i32_26 : BitVec 32 := 0#32
  let v45 : BitVec 1 := Scalar.cmpi .ne v44 c0_i32_26
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x300 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S300x600 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x600 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S600x300 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x300 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1000x300 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x300 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x300 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x300 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x300 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x300 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x300 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x300 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def k2_cond2 (i : grid2.Coords) : BitVec 1 :=
  let arg0 : BitVec 32 := BitVec.ofNat 32 (i 0).val
  let c49_i32 : BitVec 32 := 49#32
  let v44 : BitVec 1 := Scalar.cmpi .eq arg0 c49_i32
  let v45 : BitVec 32 := Scalar.extui v44
  let c0_i32_26 : BitVec 32 := 0#32
  let v46 : BitVec 1 := Scalar.cmpi .ne v45 c0_i32_26
  v46

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1000x300 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x300 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S300x600 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x600 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S600x300 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x300 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1000x300 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x300 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x300 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x300 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x300 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x300 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x300 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x300 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x300 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![50], ![false]⟩

def k4_cond2 (i : grid4.Coords) : BitVec 1 :=
  let arg0 : BitVec 32 := BitVec.ofNat 32 (i 0).val
  let c49_i32 : BitVec 32 := 49#32
  let v44 : BitVec 1 := Scalar.cmpi .eq arg0 c49_i32
  let v45 : BitVec 32 := Scalar.extui v44
  let c0_i32_26 : BitVec 32 := 0#32
  let v46 : BitVec 1 := Scalar.cmpi .ne v45 c0_i32_26
  v46

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S1000x300 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1000x300 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S300x600 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x600 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S600x300 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x300 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S1000x300 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1x300 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x300 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x300 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x300 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x300 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x300 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x300 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x300 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![50], ![false]⟩

def k6_cond2 (i : grid6.Coords) : BitVec 1 :=
  let arg0 : BitVec 32 := BitVec.ofNat 32 (i 0).val
  let c49_i32 : BitVec 32 := 49#32
  let v44 : BitVec 1 := Scalar.cmpi .eq arg0 c49_i32
  let v45 : BitVec 32 := Scalar.extui v44
  let c0_i32_26 : BitVec 32 := 0#32
  let v46 : BitVec 1 := Scalar.cmpi .ne v45 c0_i32_26
  v46

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S1000x300 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1000x300 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S300x600 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x600 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S600x300 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x300 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S1000x300 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 1 → Memref sig .tc .vmem S1x300 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x300 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x300 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x300 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x300 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x300 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x300 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S2000x300 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![50], ![false]⟩

def k8_cond2 (i : grid8.Coords) : BitVec 1 :=
  let arg0 : BitVec 32 := BitVec.ofNat 32 (i 0).val
  let c49_i32 : BitVec 32 := 49#32
  let v44 : BitVec 1 := Scalar.cmpi .eq arg0 c49_i32
  let v45 : BitVec 32 := Scalar.extui v44
  let c0_i32_26 : BitVec 32 := 0#32
  let v46 : BitVec 1 := Scalar.cmpi .ne v45 c0_i32_26
  v46

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S1000x300 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S1000x300 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S300x600 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x600 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S600x300 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x300 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S1000x300 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev stage8_7 : Fin 1 → Memref sig .tc .vmem S1x300 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S1x300 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x300 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x300 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x300 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x300 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x300 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S2000x300 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![25], ![false]⟩

def k10_cond2 (i : grid10.Coords) : BitVec 1 :=
  let arg0 : BitVec 32 := BitVec.ofNat 32 (i 0).val
  let c24_i32 : BitVec 32 := 24#32
  let v28 : BitVec 1 := Scalar.cmpi .eq arg0 c24_i32
  let v29 : BitVec 32 := Scalar.extui v28
  let c0_i32_14 : BitVec 32 := 0#32
  let v30 : BitVec 1 := Scalar.cmpi .ne v29 c0_i32_14
  v30

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S2000x300 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S2000x1 .i32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S512x300 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S512x1 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

class Facts₀ : Prop where
  slices_S2x256000_S1x256000_0_0 : S2x256000.Slices ![0, 0] S1x256000
  shapeCasts_S1x256000_S256000 : S1x256000.ShapeCasts S256000
  slices_S2x256000_S1x256000_1_0 : S2x256000.Slices ![1, 0] S1x256000
  slices_S256000x2_S256000x1_0_0 : S256000x2.Slices ![0, 0] S256000x1
  shapeCasts_S256000x1_S256000 : S256000x1.ShapeCasts S256000
  slices_S256000x2_S256000x1_0_1 : S256000x2.Slices ![0, 1] S256000x1
  shapeCasts_S50000_S50000x1 : S50000.ShapeCasts S50000x1
  slices_S5x6x300_S1x6x300_0_0_0 : S5x6x300.Slices ![0, 0, 0] S1x6x300
  shapeCasts_S1x6x300_S6x300 : S1x6x300.ShapeCasts S6x300
  slices_S5x3x300_S1x3x300_0_0_0 : S5x3x300.Slices ![0, 0, 0] S1x3x300
  shapeCasts_S1x3x300_S3x300 : S1x3x300.ShapeCasts S3x300
  bcast_S_S256000 : S_.BroadcastsInDim S256000 (![] : Fin 0 → Fin S256000.rank)
  bcast_S256000_S256000x1_0 : S256000.BroadcastsInDim S256000x1 (![0] : Fin 1 → Fin S256000x1.rank)
  bcast_S_S50000x300 : S_.BroadcastsInDim S50000x300 (![] : Fin 0 → Fin S50000x300.rank)
  slices_S5x300x600_S1x300x600_0_0_0 : S5x300x600.Slices ![0, 0, 0] S1x300x600
  shapeCasts_S1x300x600_S300x600 : S1x300x600.ShapeCasts S300x600
  slices_S5x600_S1x600_0_0 : S5x600.Slices ![0, 0] S1x600
  shapeCasts_S1x600_S600 : S1x600.ShapeCasts S600
  slices_S5x600x300_S1x600x300_0_0_0 : S5x600x300.Slices ![0, 0, 0] S1x600x300
  shapeCasts_S1x600x300_S600x300 : S1x600x300.ShapeCasts S600x300
  slices_S5x300_S1x300_0_0 : S5x300.Slices ![0, 0] S1x300
  shapeCasts_S1x300_S300 : S1x300.ShapeCasts S300
  shapeCasts_S600_S1x600 : S600.ShapeCasts S1x600
  shapeCasts_S300_S1x300 : S300.ShapeCasts S1x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  inb_S1000x300_S1000x300_0_0 : ∀ a, (![0, 0] : Fin 2 → Nat) a + S1000x300.size a ≤ S1000x300.size a
  h_S1000x300 : 0 < S1000x300.numel
  shapeCasts_S1000x300_S1000x300 : S1000x300.ShapeCasts S1000x300
  bitsLt_bf16_f32 : FTy.bits .bf16 < FTy.bits .f32
  inb_S300x600_S300x600_0_0 : ∀ a, (![0, 0] : Fin 2 → Nat) a + S300x600.size a ≤ S300x600.size a
  h_S300x600 : 0 < S300x600.numel
  shapeCasts_S300x600_S300x600 : S300x600.ShapeCasts S300x600
  inb_S1x600_S1x600_0_0 : ∀ a, (![0, 0] : Fin 2 → Nat) a + S1x600.size a ≤ S1x600.size a
  h_S1x600 : 0 < S1x600.numel
  shapeCasts_S1x600_S1x600 : S1x600.ShapeCasts S1x600
  broadcasts_S1x600_S1000x600 : S1x600.Broadcasts S1000x600
  inb_S600x300_S600x300_0_0 : ∀ a, (![0, 0] : Fin 2 → Nat) a + S600x300.size a ≤ S600x300.size a
  h_S600x300 : 0 < S600x300.numel
  shapeCasts_S600x300_S600x300 : S600x300.ShapeCasts S600x300
  broadcasts_S1x300_S1000x300 : S1x300.Broadcasts S1000x300
  reduces_S1000x300_S300 : S1000x300.Reduces [0] S300
  bcast_S_S300 : S_.BroadcastsInDim S300 (![] : Fin 0 → Fin S300.rank)
  inb_S2000x300_S2000x300_0_0 : ∀ a, (![0, 0] : Fin 2 → Nat) a + S2000x300.size a ≤ S2000x300.size a
  h_S2000x300 : 0 < S2000x300.numel
  shapeCasts_S2000x300_S2000x300 : S2000x300.ShapeCasts S2000x300
  broadcasts_S1x300_S2000x300 : S1x300.Broadcasts S2000x300
  slices_S5x6x300_S1x6x300_1_0_0 : S5x6x300.Slices ![1, 0, 0] S1x6x300
  slices_S5x3x300_S1x3x300_1_0_0 : S5x3x300.Slices ![1, 0, 0] S1x3x300
  slices_S5x300x600_S1x300x600_1_0_0 : S5x300x600.Slices ![1, 0, 0] S1x300x600
  slices_S5x600_S1x600_1_0 : S5x600.Slices ![1, 0] S1x600
  slices_S5x600x300_S1x600x300_1_0_0 : S5x600x300.Slices ![1, 0, 0] S1x600x300
  slices_S5x300_S1x300_1_0 : S5x300.Slices ![1, 0] S1x300
  slices_S5x6x300_S1x6x300_2_0_0 : S5x6x300.Slices ![2, 0, 0] S1x6x300
  slices_S5x3x300_S1x3x300_2_0_0 : S5x3x300.Slices ![2, 0, 0] S1x3x300
  slices_S5x300x600_S1x300x600_2_0_0 : S5x300x600.Slices ![2, 0, 0] S1x300x600
  slices_S5x600_S1x600_2_0 : S5x600.Slices ![2, 0] S1x600
  slices_S5x600x300_S1x600x300_2_0_0 : S5x600x300.Slices ![2, 0, 0] S1x600x300
  slices_S5x300_S1x300_2_0 : S5x300.Slices ![2, 0] S1x300
  slices_S5x6x300_S1x6x300_3_0_0 : S5x6x300.Slices ![3, 0, 0] S1x6x300
  slices_S5x3x300_S1x3x300_3_0_0 : S5x3x300.Slices ![3, 0, 0] S1x3x300
  slices_S5x300x600_S1x300x600_3_0_0 : S5x300x600.Slices ![3, 0, 0] S1x300x600
  slices_S5x600_S1x600_3_0 : S5x600.Slices ![3, 0] S1x600
  slices_S5x600x300_S1x600x300_3_0_0 : S5x600x300.Slices ![3, 0, 0] S1x600x300
  slices_S5x300_S1x300_3_0 : S5x300.Slices ![3, 0] S1x300
  slices_S5x6x300_S1x6x300_4_0_0 : S5x6x300.Slices ![4, 0, 0] S1x6x300
  slices_S5x3x300_S1x3x300_4_0_0 : S5x3x300.Slices ![4, 0, 0] S1x3x300
  slices_S5x300x600_S1x300x600_4_0_0 : S5x300x600.Slices ![4, 0, 0] S1x300x600
  slices_S5x600_S1x600_4_0 : S5x600.Slices ![4, 0] S1x600
  slices_S5x600x300_S1x600x300_4_0_0 : S5x600x300.Slices ![4, 0, 0] S1x600x300
  slices_S5x300_S1x300_4_0 : S5x300.Slices ![4, 0] S1x300
  inb_S512x300_S512x300_0_0 : ∀ a, (![0, 0] : Fin 2 → Nat) a + S512x300.size a ≤ S512x300.size a
  h_S512x300 : 0 < S512x300.numel
  shapeCasts_S512x300_S512x300 : S512x300.ShapeCasts S512x300
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S1x512_d1_w32 : S1x512.Iotas .tc 32 [1]
  broadcasts_S2000x1_S2000x512 : S2000x1.Broadcasts S2000x512
  broadcasts_S1x512_S2000x512 : S1x512.Broadcasts S2000x512
  natLt_1_32 : 1 < 32
  bcast_S_S512x1 : S_.BroadcastsInDim S512x1 (![] : Fin 0 → Fin S512x1.rank)
  bcast_S512x1_S512x300_0_1 : S512x1.BroadcastsInDim S512x300 (![0, 1] : Fin 2 → Fin S512x300.rank)
  gather_S6x300_S256000x1_S256000x300_1_0_n_n_0_1_1300_wf : GatherDims.WF S6x300 S256000x1 S256000x300 [1] [0] [] [0] [] 1 ![1, 300]
  gather_S3x300_S256000x1_S256000x300_1_0_n_n_0_1_1300_wf : GatherDims.WF S3x300 S256000x1 S256000x300 [1] [0] [] [0] [] 1 ![1, 300]
  gather_S50000x300_S256000x1_S256000x300_1_0_n_n_0_1_1300_wf : GatherDims.WF S50000x300 S256000x1 S256000x300 [1] [0] [] [0] [] 1 ![1, 300]
  scatter_S50000x300_S256000x1_S256000x300_1_0_0_1_wf : ScatterDims.WF S50000x300 S256000x1 S256000x300 [1] [0] [0] 1
  dot_S1000x300_S300x600_S1000x600_1_0_0_1_n_n_wf : DotDims.WF S1000x300 S300x600 S1000x600 [1] [0] [0] [1] [] []
  dot_S1000x600_S600x300_S1000x300_1_0_0_1_n_n_wf : DotDims.WF S1000x600 S600x300 S1000x300 [1] [0] [0] [1] [] []
  dot_S2000x512_S2000x300_S512x300_0_0_1_1_n_n_wf : DotDims.WF S2000x512 S2000x300 S512x300 [0] [0] [1] [1] [] []
  dot_S2000x512_S2000x1_S512x1_0_0_1_1_n_n_wf : DotDims.WF S2000x512 S2000x1 S512x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x300.size a ≤ S50000x300.size a
  hwx0_0 : ∀ i : grid0.Coords, EltTy.bits .f32 = 32 ∨ (Rect.block (s := S50000x300) S1000x300.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x300.size a ≤ S50000x300.size a
  hwx0_1 : ∀ i : grid0.Coords, EltTy.bits .f32 = 32 ∨ (Rect.block (s := S50000x300) S1000x300.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S300x600.size a ≤ S300x600.size a
  hwx0_2 : ∀ i : grid0.Coords, EltTy.bits .f32 = 32 ∨ (Rect.block (s := S300x600) S300x600.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x600.size a ≤ S1x600.size a
  hwx0_3 : ∀ i : grid0.Coords, EltTy.bits .f32 = 32 ∨ (Rect.block (s := S1x600) S1x600.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S600x300.size a ≤ S600x300.size a
  hwx0_4 : ∀ i : grid0.Coords, EltTy.bits .f32 = 32 ∨ (Rect.block (s := S600x300) S600x300.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x300.size a ≤ S1x300.size a
  hwx0_5 : ∀ i : grid0.Coords, EltTy.bits .f32 = 32 ∨ (Rect.block (s := S1x300) S1x300.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x300.size a ≤ S50000x300.size a
  hwx0_6 : ∀ i : grid0.Coords, EltTy.bits .f32 = 32 ∨ (Rect.block (s := S50000x300) S1000x300.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x300.size a ≤ S1x300.size a
  hwx0_7 : ∀ i : grid0.Coords, EltTy.bits .f32 = 32 ∨ (Rect.block (s := S1x300) S1x300.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x300.size a ≤ S1x300.size a
  hwx0_8 : ∀ i : grid0.Coords, EltTy.bits .f32 = 32 ∨ (Rect.block (s := S1x300) S1x300.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x300.size a ≤ S50000x300.size a
  hwx1_0 : ∀ i : grid1.Coords, EltTy.bits .f32 = 32 ∨ (Rect.block (s := S50000x300) S2000x300.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x300.size a ≤ S1x300.size a
  hwx1_1 : ∀ i : grid1.Coords, EltTy.bits .f32 = 32 ∨ (Rect.block (s := S1x300) S1x300.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x300.size a ≤ S1x300.size a
  hwx1_2 : ∀ i : grid1.Coords, EltTy.bits .f32 = 32 ∨ (Rect.block (s := S1x300) S1x300.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x300.size a ≤ S1x300.size a
  hwx1_3 : ∀ i : grid1.Coords, EltTy.bits .f32 = 32 ∨ (Rect.block (s := S1x300) S1x300.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x300.size a ≤ S1x300.size a
  hwx1_4 : ∀ i : grid1.Coords, EltTy.bits .f32 = 32 ∨ (Rect.block (s := S1x300) S1x300.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x300.size a ≤ S50000x300.size a
  hwx1_5 : ∀ i : grid1.Coords, EltTy.bits .f32 = 32 ∨ (Rect.block (s := S50000x300) S2000x300.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x300.size a ≤ S50000x300.size a
  hwx2_0 : ∀ i : grid2.Coords, EltTy.bits .f32 = 32 ∨ (Rect.block (s := S50000x300) S1000x300.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x300.size a ≤ S50000x300.size a
  hwx2_1 : ∀ i : grid2.Coords, EltTy.bits .f32 = 32 ∨ (Rect.block (s := S50000x300) S1000x300.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S300x600.size a ≤ S300x600.size a
  hwx2_2 : ∀ i : grid2.Coords, EltTy.bits .f32 = 32 ∨ (Rect.block (s := S300x600) S300x600.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x600.size a ≤ S1x600.size a
  hwx2_3 : ∀ i : grid2.Coords, EltTy.bits .f32 = 32 ∨ (Rect.block (s := S1x600) S1x600.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S600x300.size a ≤ S600x300.size a
  hwx2_4 : ∀ i : grid2.Coords, EltTy.bits .f32 = 32 ∨ (Rect.block (s := S600x300) S600x300.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x300.size a ≤ S1x300.size a
  hwx2_5 : ∀ i : grid2.Coords, EltTy.bits .f32 = 32 ∨ (Rect.block (s := S1x300) S1x300.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1000x300.size a ≤ S50000x300.size a
  hwx2_6 : ∀ i : grid2.Coords, EltTy.bits .f32 = 32 ∨ (Rect.block (s := S50000x300) S1000x300.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x300.size a ≤ S1x300.size a
  hwx2_7 : ∀ i : grid2.Coords, EltTy.bits .f32 = 32 ∨ (Rect.block (s := S1x300) S1x300.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x300.size a ≤ S1x300.size a
  hwx2_8 : ∀ i : grid2.Coords, EltTy.bits .f32 = 32 ∨ (Rect.block (s := S1x300) S1x300.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x300.size a ≤ S50000x300.size a
  hwx3_0 : ∀ i : grid3.Coords, EltTy.bits .f32 = 32 ∨ (Rect.block (s := S50000x300) S2000x300.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x300.size a ≤ S1x300.size a
  hwx3_1 : ∀ i : grid3.Coords, EltTy.bits .f32 = 32 ∨ (Rect.block (s := S1x300) S1x300.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x300.size a ≤ S1x300.size a
  hwx3_2 : ∀ i : grid3.Coords, EltTy.bits .f32 = 32 ∨ (Rect.block (s := S1x300) S1x300.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x300.size a ≤ S1x300.size a
  hwx3_3 : ∀ i : grid3.Coords, EltTy.bits .f32 = 32 ∨ (Rect.block (s := S1x300) S1x300.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x300.size a ≤ S1x300.size a
  hwx3_4 : ∀ i : grid3.Coords, EltTy.bits .f32 = 32 ∨ (Rect.block (s := S1x300) S1x300.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x300.size a ≤ S50000x300.size a
  hwx3_5 : ∀ i : grid3.Coords, EltTy.bits .f32 = 32 ∨ (Rect.block (s := S50000x300) S2000x300.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x300.size a ≤ S50000x300.size a
  hwx4_0 : ∀ i : grid4.Coords, EltTy.bits .f32 = 32 ∨ (Rect.block (s := S50000x300) S1000x300.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1000x300.size a ≤ S50000x300.size a
  hwx4_1 : ∀ i : grid4.Coords, EltTy.bits .f32 = 32 ∨ (Rect.block (s := S50000x300) S1000x300.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S300x600.size a ≤ S300x600.size a
  hwx4_2 : ∀ i : grid4.Coords, EltTy.bits .f32 = 32 ∨ (Rect.block (s := S300x600) S300x600.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x600.size a ≤ S1x600.size a
  hwx4_3 : ∀ i : grid4.Coords, EltTy.bits .f32 = 32 ∨ (Rect.block (s := S1x600) S1x600.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S600x300.size a ≤ S600x300.size a
  hwx4_4 : ∀ i : grid4.Coords, EltTy.bits .f32 = 32 ∨ (Rect.block (s := S600x300) S600x300.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x300.size a ≤ S1x300.size a
  hwx4_5 : ∀ i : grid4.Coords, EltTy.bits .f32 = 32 ∨ (Rect.block (s := S1x300) S1x300.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S1000x300.size a ≤ S50000x300.size a
  hwx4_6 : ∀ i : grid4.Coords, EltTy.bits .f32 = 32 ∨ (Rect.block (s := S50000x300) S1000x300.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x300.size a ≤ S1x300.size a
  hwx4_7 : ∀ i : grid4.Coords, EltTy.bits .f32 = 32 ∨ (Rect.block (s := S1x300) S1x300.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x300.size a ≤ S1x300.size a
  hwx4_8 : ∀ i : grid4.Coords, EltTy.bits .f32 = 32 ∨ (Rect.block (s := S1x300) S1x300.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x300.size a ≤ S50000x300.size a
  hwx5_0 : ∀ i : grid5.Coords, EltTy.bits .f32 = 32 ∨ (Rect.block (s := S50000x300) S2000x300.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x300.size a ≤ S1x300.size a
  hwx5_1 : ∀ i : grid5.Coords, EltTy.bits .f32 = 32 ∨ (Rect.block (s := S1x300) S1x300.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x300.size a ≤ S1x300.size a
  hwx5_2 : ∀ i : grid5.Coords, EltTy.bits .f32 = 32 ∨ (Rect.block (s := S1x300) S1x300.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x300.size a ≤ S1x300.size a
  hwx5_3 : ∀ i : grid5.Coords, EltTy.bits .f32 = 32 ∨ (Rect.block (s := S1x300) S1x300.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x300.size a ≤ S1x300.size a
  hwx5_4 : ∀ i : grid5.Coords, EltTy.bits .f32 = 32 ∨ (Rect.block (s := S1x300) S1x300.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x300.size a ≤ S50000x300.size a
  hwx5_5 : ∀ i : grid5.Coords, EltTy.bits .f32 = 32 ∨ (Rect.block (s := S50000x300) S2000x300.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x300.size a ≤ S50000x300.size a
  hwx6_0 : ∀ i : grid6.Coords, EltTy.bits .f32 = 32 ∨ (Rect.block (s := S50000x300) S1000x300.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1000x300.size a ≤ S50000x300.size a
  hwx6_1 : ∀ i : grid6.Coords, EltTy.bits .f32 = 32 ∨ (Rect.block (s := S50000x300) S1000x300.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S300x600.size a ≤ S300x600.size a
  hwx6_2 : ∀ i : grid6.Coords, EltTy.bits .f32 = 32 ∨ (Rect.block (s := S300x600) S300x600.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x600.size a ≤ S1x600.size a
  hwx6_3 : ∀ i : grid6.Coords, EltTy.bits .f32 = 32 ∨ (Rect.block (s := S1x600) S1x600.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S600x300.size a ≤ S600x300.size a
  hwx6_4 : ∀ i : grid6.Coords, EltTy.bits .f32 = 32 ∨ (Rect.block (s := S600x300) S600x300.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x300.size a ≤ S1x300.size a
  hwx6_5 : ∀ i : grid6.Coords, EltTy.bits .f32 = 32 ∨ (Rect.block (s := S1x300) S1x300.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S1000x300.size a ≤ S50000x300.size a
  hwx6_6 : ∀ i : grid6.Coords, EltTy.bits .f32 = 32 ∨ (Rect.block (s := S50000x300) S1000x300.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x300.size a ≤ S1x300.size a
  hwx6_7 : ∀ i : grid6.Coords, EltTy.bits .f32 = 32 ∨ (Rect.block (s := S1x300) S1x300.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x300.size a ≤ S1x300.size a
  hwx6_8 : ∀ i : grid6.Coords, EltTy.bits .f32 = 32 ∨ (Rect.block (s := S1x300) S1x300.size (cc6_transform_8 i) (hinb6_8 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x300.size a ≤ S50000x300.size a
  hwx7_0 : ∀ i : grid7.Coords, EltTy.bits .f32 = 32 ∨ (Rect.block (s := S50000x300) S2000x300.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x300.size a ≤ S1x300.size a
  hwx7_1 : ∀ i : grid7.Coords, EltTy.bits .f32 = 32 ∨ (Rect.block (s := S1x300) S1x300.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x300.size a ≤ S1x300.size a
  hwx7_2 : ∀ i : grid7.Coords, EltTy.bits .f32 = 32 ∨ (Rect.block (s := S1x300) S1x300.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x300.size a ≤ S1x300.size a
  hwx7_3 : ∀ i : grid7.Coords, EltTy.bits .f32 = 32 ∨ (Rect.block (s := S1x300) S1x300.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x300.size a ≤ S1x300.size a
  hwx7_4 : ∀ i : grid7.Coords, EltTy.bits .f32 = 32 ∨ (Rect.block (s := S1x300) S1x300.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2000x300.size a ≤ S50000x300.size a
  hwx7_5 : ∀ i : grid7.Coords, EltTy.bits .f32 = 32 ∨ (Rect.block (s := S50000x300) S2000x300.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1000x300.size a ≤ S50000x300.size a
  hwx8_0 : ∀ i : grid8.Coords, EltTy.bits .f32 = 32 ∨ (Rect.block (s := S50000x300) S1000x300.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1000x300.size a ≤ S50000x300.size a
  hwx8_1 : ∀ i : grid8.Coords, EltTy.bits .f32 = 32 ∨ (Rect.block (s := S50000x300) S1000x300.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S300x600.size a ≤ S300x600.size a
  hwx8_2 : ∀ i : grid8.Coords, EltTy.bits .f32 = 32 ∨ (Rect.block (s := S300x600) S300x600.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x600.size a ≤ S1x600.size a
  hwx8_3 : ∀ i : grid8.Coords, EltTy.bits .f32 = 32 ∨ (Rect.block (s := S1x600) S1x600.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S600x300.size a ≤ S600x300.size a
  hwx8_4 : ∀ i : grid8.Coords, EltTy.bits .f32 = 32 ∨ (Rect.block (s := S600x300) S600x300.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x300.size a ≤ S1x300.size a
  hwx8_5 : ∀ i : grid8.Coords, EltTy.bits .f32 = 32 ∨ (Rect.block (s := S1x300) S1x300.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S1000x300.size a ≤ S50000x300.size a
  hwx8_6 : ∀ i : grid8.Coords, EltTy.bits .f32 = 32 ∨ (Rect.block (s := S50000x300) S1000x300.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1x300.size a ≤ S1x300.size a
  hwx8_7 : ∀ i : grid8.Coords, EltTy.bits .f32 = 32 ∨ (Rect.block (s := S1x300) S1x300.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S1x300.size a ≤ S1x300.size a
  hwx8_8 : ∀ i : grid8.Coords, EltTy.bits .f32 = 32 ∨ (Rect.block (s := S1x300) S1x300.size (cc8_transform_8 i) (hinb8_8 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x300.size a ≤ S50000x300.size a
  hwx9_0 : ∀ i : grid9.Coords, EltTy.bits .f32 = 32 ∨ (Rect.block (s := S50000x300) S2000x300.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x300.size a ≤ S1x300.size a
  hwx9_1 : ∀ i : grid9.Coords, EltTy.bits .f32 = 32 ∨ (Rect.block (s := S1x300) S1x300.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x300.size a ≤ S1x300.size a
  hwx9_2 : ∀ i : grid9.Coords, EltTy.bits .f32 = 32 ∨ (Rect.block (s := S1x300) S1x300.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x300.size a ≤ S1x300.size a
  hwx9_3 : ∀ i : grid9.Coords, EltTy.bits .f32 = 32 ∨ (Rect.block (s := S1x300) S1x300.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x300.size a ≤ S1x300.size a
  hwx9_4 : ∀ i : grid9.Coords, EltTy.bits .f32 = 32 ∨ (Rect.block (s := S1x300) S1x300.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S2000x300.size a ≤ S50000x300.size a
  hwx9_5 : ∀ i : grid9.Coords, EltTy.bits .f32 = 32 ∨ (Rect.block (s := S50000x300) S2000x300.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x300.size a ≤ S50000x300.size a
  hwx10_0 : ∀ i : grid10.Coords, EltTy.bits .f32 = 32 ∨ (Rect.block (s := S50000x300) S2000x300.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S2000x1.size a ≤ S50000x1.size a
  hwx10_1 : ∀ i : grid10.Coords, EltTy.bits .i32 = 32 ∨ (Rect.block (s := S50000x1) S2000x1.size (cc10_transform_1 i) (hinb10_1 i)).WholeWords (EltTy.packing .i32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S512x300.size a ≤ S512x300.size a
  hwx10_2 : ∀ i : grid10.Coords, EltTy.bits .f32 = 32 ∨ (Rect.block (s := S512x300) S512x300.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S512x1.size a ≤ S512x1.size a
  hwx10_3 : ∀ i : grid10.Coords, EltTy.bits .f32 = 32 ∨ (Rect.block (s := S512x1) S512x1.size (cc10_transform_3 i) (hinb10_3 i)).WholeWords (EltTy.packing .f32)

variable [Facts₀]

def gather_S6x300_S256000x1_S256000x300_1_0_n_n_0_1_1300 : GatherDims S6x300 S256000x1 S256000x300 where
  offsetDims := [1]
  collapsedSliceDims := [0]
  operandBatchingDims := []
  startIndicesBatchingDims := []
  startIndexMap := [0]
  indexVectorDim := 1
  sliceSizes := ![1, 300]
  wf := gather_S6x300_S256000x1_S256000x300_1_0_n_n_0_1_1300_wf
def gather_S3x300_S256000x1_S256000x300_1_0_n_n_0_1_1300 : GatherDims S3x300 S256000x1 S256000x300 where
  offsetDims := [1]
  collapsedSliceDims := [0]
  operandBatchingDims := []
  startIndicesBatchingDims := []
  startIndexMap := [0]
  indexVectorDim := 1
  sliceSizes := ![1, 300]
  wf := gather_S3x300_S256000x1_S256000x300_1_0_n_n_0_1_1300_wf
def gather_S50000x300_S256000x1_S256000x300_1_0_n_n_0_1_1300 : GatherDims S50000x300 S256000x1 S256000x300 where
  offsetDims := [1]
  collapsedSliceDims := [0]
  operandBatchingDims := []
  startIndicesBatchingDims := []
  startIndexMap := [0]
  indexVectorDim := 1
  sliceSizes := ![1, 300]
  wf := gather_S50000x300_S256000x1_S256000x300_1_0_n_n_0_1_1300_wf
def scatter_S50000x300_S256000x1_S256000x300_1_0_0_1 : ScatterDims S50000x300 S256000x1 S256000x300 where
  updateWindowDims := [1]
  insertedWindowDims := [0]
  scatterDimsToOperandDims := [0]
  indexVectorDim := 1
  wf := scatter_S50000x300_S256000x1_S256000x300_1_0_0_1_wf
def dot_S1000x300_S300x600_S1000x600_1_0_0_1_n_n : DotDims S1000x300 S300x600 S1000x600 where
  lhsContracting := [1]
  rhsContracting := [0]
  lhsNonContracting := [0]
  rhsNonContracting := [1]
  lhsBatch := []
  rhsBatch := []
  wf := dot_S1000x300_S300x600_S1000x600_1_0_0_1_n_n_wf
def dot_S1000x600_S600x300_S1000x300_1_0_0_1_n_n : DotDims S1000x600 S600x300 S1000x300 where
  lhsContracting := [1]
  rhsContracting := [0]
  lhsNonContracting := [0]
  rhsNonContracting := [1]
  lhsBatch := []
  rhsBatch := []
  wf := dot_S1000x600_S600x300_S1000x300_1_0_0_1_n_n_wf
def dot_S2000x512_S2000x300_S512x300_0_0_1_1_n_n : DotDims S2000x512 S2000x300 S512x300 where
  lhsContracting := [0]
  rhsContracting := [0]
  lhsNonContracting := [1]
  rhsNonContracting := [1]
  lhsBatch := []
  rhsBatch := []
  wf := dot_S2000x512_S2000x300_S512x300_0_0_1_1_n_n_wf
def dot_S2000x512_S2000x1_S512x1_0_0_1_1_n_n : DotDims S2000x512 S2000x1 S512x1 where
  lhsContracting := [0]
  rhsContracting := [0]
  lhsNonContracting := [1]
  rhsNonContracting := [1]
  lhsBatch := []
  rhsBatch := []
  wf := dot_S2000x512_S2000x1_S512x1_0_0_1_1_n_n_wf

abbrev win0_0 : Pipeline.Window sig grid0 :=
  Pipeline.Window.ofSpec (Memref.whole main_v38) S1000x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x300.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v40) S300x600.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v47) S1x600.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v44) S600x300.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v48) S1x300.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v49_0) S1000x300.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v49_1) S1x300.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v49_2) S1x300.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v49_0) S2000x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S1x300.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v61) S1x300.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v66) S1x300.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v67) S1x300.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v68) S2000x300.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v98) S1000x300.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v68) S1000x300.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v100) S300x600.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v107) S1x600.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v104) S600x300.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v108) S1x300.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v109_0) S1000x300.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v109_1) S1x300.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v109_2) S1x300.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev idle2 : Fin 9 → grid2.Coords → Bool := fun | 0 => fun _ => false | 1 => fun _ => false | 2 => fun _ => false | 3 => fun _ => false | 4 => fun _ => false | 5 => fun _ => false | 6 => fun _ => false | 7 => fun i => !(k2_cond2 i == 1#1) | 8 => fun i => !(k2_cond2 i == 1#1) | ⟨_ + 9, h⟩ => absurd h (Nat.not_lt.2 (Nat.le_add_left _ _))

abbrev win3_0 : Pipeline.Window sig grid3 :=
  Pipeline.Window.ofSpec (Memref.whole main_v109_0) S2000x300.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v113) S1x300.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v121) S1x300.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v126) S1x300.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v127) S1x300.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v128) S2000x300.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v158) S1000x300.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v128) S1000x300.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v160) S300x600.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v167) S1x600.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v164) S600x300.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v168) S1x300.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v169_0) S1000x300.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v169_1) S1x300.size cc4_transform_7 reads4_7 true true 1 stage4_7 sem4_7
    hrank4 hreads4_7 hinb4_7 nbuf4_7 (Memref.isWhole_whole _) hwx4_7 hstage4_7

abbrev win4_8 : Pipeline.Window sig grid4 :=
  Pipeline.Window.ofSpec (Memref.whole main_v169_2) S1x300.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev idle4 : Fin 9 → grid4.Coords → Bool := fun | 0 => fun _ => false | 1 => fun _ => false | 2 => fun _ => false | 3 => fun _ => false | 4 => fun _ => false | 5 => fun _ => false | 6 => fun _ => false | 7 => fun i => !(k4_cond2 i == 1#1) | 8 => fun i => !(k4_cond2 i == 1#1) | ⟨_ + 9, h⟩ => absurd h (Nat.not_lt.2 (Nat.le_add_left _ _))

abbrev win5_0 : Pipeline.Window sig grid5 :=
  Pipeline.Window.ofSpec (Memref.whole main_v169_0) S2000x300.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v173) S1x300.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v181) S1x300.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v186) S1x300.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v187) S1x300.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v188) S2000x300.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v218) S1000x300.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v188) S1000x300.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v220) S300x600.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v227) S1x600.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v224) S600x300.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v228) S1x300.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v229_0) S1000x300.size cc6_transform_6 reads6_6 true false 2 stage6_6 sem6_6
    hrank6 hreads6_6 hinb6_6 nbuf6_6 (Memref.isWhole_whole _) hwx6_6 hstage6_6

abbrev win6_7 : Pipeline.Window sig grid6 :=
  Pipeline.Window.ofSpec (Memref.whole main_v229_1) S1x300.size cc6_transform_7 reads6_7 true true 1 stage6_7 sem6_7
    hrank6 hreads6_7 hinb6_7 nbuf6_7 (Memref.isWhole_whole _) hwx6_7 hstage6_7

abbrev win6_8 : Pipeline.Window sig grid6 :=
  Pipeline.Window.ofSpec (Memref.whole main_v229_2) S1x300.size cc6_transform_8 reads6_8 true true 1 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev idle6 : Fin 9 → grid6.Coords → Bool := fun | 0 => fun _ => false | 1 => fun _ => false | 2 => fun _ => false | 3 => fun _ => false | 4 => fun _ => false | 5 => fun _ => false | 6 => fun _ => false | 7 => fun i => !(k6_cond2 i == 1#1) | 8 => fun i => !(k6_cond2 i == 1#1) | ⟨_ + 9, h⟩ => absurd h (Nat.not_lt.2 (Nat.le_add_left _ _))

abbrev win7_0 : Pipeline.Window sig grid7 :=
  Pipeline.Window.ofSpec (Memref.whole main_v229_0) S2000x300.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v233) S1x300.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v241) S1x300.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v246) S1x300.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v247) S1x300.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v248) S2000x300.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v278) S1000x300.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v248) S1000x300.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v280) S300x600.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v287) S1x600.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v284) S600x300.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v288) S1x300.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v289_0) S1000x300.size cc8_transform_6 reads8_6 true false 2 stage8_6 sem8_6
    hrank8 hreads8_6 hinb8_6 nbuf8_6 (Memref.isWhole_whole _) hwx8_6 hstage8_6

abbrev win8_7 : Pipeline.Window sig grid8 :=
  Pipeline.Window.ofSpec (Memref.whole main_v289_1) S1x300.size cc8_transform_7 reads8_7 true true 1 stage8_7 sem8_7
    hrank8 hreads8_7 hinb8_7 nbuf8_7 (Memref.isWhole_whole _) hwx8_7 hstage8_7

abbrev win8_8 : Pipeline.Window sig grid8 :=
  Pipeline.Window.ofSpec (Memref.whole main_v289_2) S1x300.size cc8_transform_8 reads8_8 true true 1 stage8_8 sem8_8
    hrank8 hreads8_8 hinb8_8 nbuf8_8 (Memref.isWhole_whole _) hwx8_8 hstage8_8

abbrev win8 : Fin 9 → Pipeline.Window sig grid8 := fun | 0 => win8_0 | 1 => win8_1 | 2 => win8_2 | 3 => win8_3 | 4 => win8_4 | 5 => win8_5 | 6 => win8_6 | 7 => win8_7 | 8 => win8_8 | ⟨_ + 9, h⟩ => absurd h (Nat.not_lt.2 (Nat.le_add_left _ _))
abbrev spec8 : Fin 9 → Pipeline.WinSpec sig grid8.rank := fun w => (win8 w).toWinSpec

abbrev idle8 : Fin 9 → grid8.Coords → Bool := fun | 0 => fun _ => false | 1 => fun _ => false | 2 => fun _ => false | 3 => fun _ => false | 4 => fun _ => false | 5 => fun _ => false | 6 => fun _ => false | 7 => fun i => !(k8_cond2 i == 1#1) | 8 => fun i => !(k8_cond2 i == 1#1) | ⟨_ + 9, h⟩ => absurd h (Nat.not_lt.2 (Nat.le_add_left _ _))

abbrev win9_0 : Pipeline.Window sig grid9 :=
  Pipeline.Window.ofSpec (Memref.whole main_v289_0) S2000x300.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v293) S1x300.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v301) S1x300.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v306) S1x300.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v307) S1x300.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v308) S2000x300.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v308) S2000x300.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v8) S2000x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v309_0) S512x300.size cc10_transform_2 reads10_2 true true 1 stage10_2 sem10_2
    hrank10 hreads10_2 hinb10_2 nbuf10_2 (Memref.isWhole_whole _) hwx10_2 hstage10_2

abbrev win10_3 : Pipeline.Window sig grid10 :=
  Pipeline.Window.ofSpec (Memref.whole main_v309_1) S512x1.size cc10_transform_3 reads10_3 true true 1 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev idle10 : Fin 4 → grid10.Coords → Bool := fun | 0 => fun _ => false | 1 => fun _ => false | 2 => fun i => !(k10_cond2 i == 1#1) | 3 => fun i => !(k10_cond2 i == 1#1) | ⟨_ + 4, h⟩ => absurd h (Nat.not_lt.2 (Nat.le_add_left _ _))

class Facts : Prop extends Facts₀ where

variable [Facts]
-- ==== ReferenceIdeal.lean ====
abbrev S50000x300 : Shape := ⟨2, ![50000, 300]⟩
abbrev S5x6x300 : Shape := ⟨3, ![5, 6, 300]⟩
abbrev S5x3x300 : Shape := ⟨3, ![5, 3, 300]⟩
abbrev S5x300x600 : Shape := ⟨3, ![5, 300, 600]⟩
abbrev S5x600 : Shape := ⟨2, ![5, 600]⟩
abbrev S5x600x300 : Shape := ⟨3, ![5, 600, 300]⟩
abbrev S5x300 : Shape := ⟨2, ![5, 300]⟩
abbrev S2x256000 : Shape := ⟨2, ![2, 256000]⟩
abbrev S256000x2 : Shape := ⟨2, ![256000, 2]⟩
abbrev S50000 : Shape := ⟨1, ![50000]⟩
abbrev S1x256000 : Shape := ⟨2, ![1, 256000]⟩
abbrev S256000 : Shape := ⟨1, ![256000]⟩
abbrev S256000x1 : Shape := ⟨2, ![256000, 1]⟩
abbrev S1x6x300 : Shape := ⟨3, ![1, 6, 300]⟩
abbrev S6x300 : Shape := ⟨2, ![6, 300]⟩
abbrev S_ : Shape := ⟨0, ![]⟩
abbrev S256000x300 : Shape := ⟨2, ![256000, 300]⟩
abbrev S1x3x300 : Shape := ⟨3, ![1, 3, 300]⟩
abbrev S3x300 : Shape := ⟨2, ![3, 300]⟩
abbrev S1x300x600 : Shape := ⟨3, ![1, 300, 600]⟩
abbrev S300x600 : Shape := ⟨2, ![300, 600]⟩
abbrev S50000x600 : Shape := ⟨2, ![50000, 600]⟩
abbrev S1x600 : Shape := ⟨2, ![1, 600]⟩
abbrev S600 : Shape := ⟨1, ![600]⟩
abbrev S1x600x300 : Shape := ⟨3, ![1, 600, 300]⟩
abbrev S600x300 : Shape := ⟨2, ![600, 300]⟩
abbrev S1x300 : Shape := ⟨2, ![1, 300]⟩
abbrev S300 : Shape := ⟨1, ![300]⟩
abbrev S512x300 : Shape := ⟨2, ![512, 300]⟩
abbrev S50000x1 : Shape := ⟨2, ![50000, 1]⟩
abbrev S512 : Shape := ⟨1, ![512]⟩
abbrev S512x1 : Shape := ⟨2, ![512, 1]⟩

abbrev nBuf : Space → Nat
  | .hbm => 576
  | .vmem => 0
  | .smem => 0
  | _ => 0

abbrev hbmTy0_0 (i : Nat) : BufTy := match i % 128 with
  | 0 => ⟨S50000x300, .f32⟩
  | 1 => ⟨S5x6x300, .f32⟩
  | 2 => ⟨S5x3x300, .f32⟩
  | 3 => ⟨S5x300x600, .f32⟩
  | 4 => ⟨S5x600, .f32⟩
  | 5 => ⟨S5x600x300, .f32⟩
  | 6 => ⟨S5x300, .f32⟩
  | 7 => ⟨S5x300, .f32⟩
  | 8 => ⟨S5x300, .f32⟩
  | 9 => ⟨S2x256000, .i32⟩
  | 10 => ⟨S256000x2, .i32⟩
  | 11 => ⟨S50000, .i32⟩
  | 12 => ⟨S1x256000, .i32⟩
  | 13 => ⟨S256000, .i32⟩
  | 14 => ⟨S1x256000, .i32⟩
  | 15 => ⟨S256000, .i32⟩
  | 16 => ⟨S256000x1, .i32⟩
  | 17 => ⟨S256000, .i32⟩
  | 18 => ⟨S256000x1, .i32⟩
  | 19 => ⟨S256000, .i32⟩
  | 20 => ⟨S1x6x300, .f32⟩
  | 21 => ⟨S6x300, .f32⟩
  | 22 => ⟨S_, .i32⟩
  | 23 => ⟨S256000, .i32⟩
  | 24 => ⟨S256000, .i1⟩
  | 25 => ⟨S_, .i32⟩
  | 26 => ⟨S256000, .i32⟩
  | 27 => ⟨S256000, .i32⟩
  | 28 => ⟨S256000, .i32⟩
  | 29 => ⟨S256000x1, .i32⟩
  | 30 => ⟨S256000x300, .f32⟩
  | 31 => ⟨S1x3x300, .f32⟩
  | 32 => ⟨S3x300, .f32⟩
  | 33 => ⟨S_, .i32⟩
  | 34 => ⟨S256000, .i32⟩
  | 35 => ⟨S256000, .i1⟩
  | 36 => ⟨S_, .i32⟩
  | 37 => ⟨S256000, .i32⟩
  | 38 => ⟨S256000, .i32⟩
  | 39 => ⟨S256000, .i32⟩
  | 40 => ⟨S256000x1, .i32⟩
  | 41 => ⟨S256000x300, .f32⟩
  | 42 => ⟨S256000x300, .f32⟩
  | 43 => ⟨S_, .i32⟩
  | 44 => ⟨S256000, .i32⟩
  | 45 => ⟨S256000, .i1⟩
  | 46 => ⟨S_, .i32⟩
  | 47 => ⟨S256000, .i32⟩
  | 48 => ⟨S256000, .i32⟩
  | 49 => ⟨S256000, .i32⟩
  | 50 => ⟨S256000x1, .i32⟩
  | 51 => ⟨S256000x300, .f32⟩
  | 52 => ⟨S256000x300, .f32⟩
  | 53 => ⟨S_, .f32⟩
  | 54 => ⟨S50000x300, .f32⟩
  | 55 => ⟨S256000x1, .i32⟩
  | 56 => ⟨S50000x300, .f32⟩
  | 57 => ⟨S50000x300, .f32⟩
  | 58 => ⟨S1x300x600, .f32⟩
  | 59 => ⟨S300x600, .f32⟩
  | 60 => ⟨S50000x600, .f32⟩
  | 61 => ⟨S1x600, .f32⟩
  | 62 => ⟨S600, .f32⟩
  | 63 => ⟨S1x600, .f32⟩
  | 64 => ⟨S50000x600, .f32⟩
  | 65 => ⟨S50000x600, .f32⟩
  | 66 => ⟨S_, .f32⟩
  | 67 => ⟨S50000x600, .f32⟩
  | 68 => ⟨S50000x600, .f32⟩
  | 69 => ⟨S1x600x300, .f32⟩
  | 70 => ⟨S600x300, .f32⟩
  | 71 => ⟨S50000x300, .f32⟩
  | 72 => ⟨S1x300, .f32⟩
  | 73 => ⟨S300, .f32⟩
  | 74 => ⟨S1x300, .f32⟩
  | 75 => ⟨S50000x300, .f32⟩
  | 76 => ⟨S50000x300, .f32⟩
  | 77 => ⟨S_, .f32⟩
  | 78 => ⟨S300, .f32⟩
  | 79 => ⟨S_, .f32⟩
  | 80 => ⟨S300, .f32⟩
  | 81 => ⟨S300, .f32⟩
  | 82 => ⟨S_, .i32⟩
  | 83 => ⟨S_, .f32⟩
  | 84 => ⟨S300, .f32⟩
  | 85 => ⟨S1x300, .f32⟩
  | 86 => ⟨S_, .f32⟩
  | 87 => ⟨S1x300, .f32⟩
  | 88 => ⟨S1x300, .f32⟩
  | 89 => ⟨S50000x300, .f32⟩
  | 90 => ⟨S50000x300, .f32⟩
  | 91 => ⟨S50000x300, .f32⟩
  | 92 => ⟨S_, .f32⟩
  | 93 => ⟨S_, .f32⟩
  | 94 => ⟨S_, .f32⟩
  | 95 => ⟨S_, .f32⟩
  | 96 => ⟨S300, .f32⟩
  | 97 => ⟨S300, .f32⟩
  | 98 => ⟨S300, .f32⟩
  | 99 => ⟨S_, .f32⟩
  | 100 => ⟨S_, .i1⟩
  | 101 => ⟨S_, .f32⟩
  | 102 => ⟨S_, .f32⟩
  | 103 => ⟨S300, .f32⟩
  | 104 => ⟨S300, .f32⟩
  | 105 => ⟨S1x300, .f32⟩
  | 106 => ⟨S50000x300, .f32⟩
  | 107 => ⟨S50000x300, .f32⟩
  | 108 => ⟨S_, .f32⟩
  | 109 => ⟨S300, .f32⟩
  | 110 => ⟨S300, .f32⟩
  | 111 => ⟨S300, .f32⟩
  | 112 => ⟨S1x300, .f32⟩
  | 113 => ⟨S50000x300, .f32⟩
  | 114 => ⟨S50000x300, .f32⟩
  | 115 => ⟨S1x300, .f32⟩
  | 116 => ⟨S300, .f32⟩
  | 117 => ⟨S1x300, .f32⟩
  | 118 => ⟨S50000x300, .f32⟩
  | 119 => ⟨S50000x300, .f32⟩
  | 120 => ⟨S1x300, .f32⟩
  | 121 => ⟨S300, .f32⟩
  | 122 => ⟨S1x300, .f32⟩
  | 123 => ⟨S50000x300, .f32⟩
  | 124 => ⟨S50000x300, .f32⟩
  | 125 => ⟨S_, .f32⟩
  | 126 => ⟨S50000x300, .f32⟩
  | 127 => ⟨S50000x300, .f32⟩
  | _ => ⟨S50000x300, .f32⟩

abbrev hbmTy0_1 (i : Nat) : BufTy := match i % 128 with
  | 0 => ⟨S1x6x300, .f32⟩
  | 1 => ⟨S6x300, .f32⟩
  | 2 => ⟨S_, .i32⟩
  | 3 => ⟨S256000, .i32⟩
  | 4 => ⟨S256000, .i1⟩
  | 5 => ⟨S_, .i32⟩
  | 6 => ⟨S256000, .i32⟩
  | 7 => ⟨S256000, .i32⟩
  | 8 => ⟨S256000, .i32⟩
  | 9 => ⟨S256000x1, .i32⟩
  | 10 => ⟨S256000x300, .f32⟩
  | 11 => ⟨S1x3x300, .f32⟩
  | 12 => ⟨S3x300, .f32⟩
  | 13 => ⟨S_, .i32⟩
  | 14 => ⟨S256000, .i32⟩
  | 15 => ⟨S256000, .i1⟩
  | 16 => ⟨S_, .i32⟩
  | 17 => ⟨S256000, .i32⟩
  | 18 => ⟨S256000, .i32⟩
  | 19 => ⟨S256000, .i32⟩
  | 20 => ⟨S256000x1, .i32⟩
  | 21 => ⟨S256000x300, .f32⟩
  | 22 => ⟨S256000x300, .f32⟩
  | 23 => ⟨S_, .i32⟩
  | 24 => ⟨S256000, .i32⟩
  | 25 => ⟨S256000, .i1⟩
  | 26 => ⟨S_, .i32⟩
  | 27 => ⟨S256000, .i32⟩
  | 28 => ⟨S256000, .i32⟩
  | 29 => ⟨S256000, .i32⟩
  | 30 => ⟨S256000x1, .i32⟩
  | 31 => ⟨S256000x300, .f32⟩
  | 32 => ⟨S256000x300, .f32⟩
  | 33 => ⟨S_, .f32⟩
  | 34 => ⟨S50000x300, .f32⟩
  | 35 => ⟨S256000x1, .i32⟩
  | 36 => ⟨S50000x300, .f32⟩
  | 37 => ⟨S50000x300, .f32⟩
  | 38 => ⟨S1x300x600, .f32⟩
  | 39 => ⟨S300x600, .f32⟩
  | 40 => ⟨S50000x600, .f32⟩
  | 41 => ⟨S1x600, .f32⟩
  | 42 => ⟨S600, .f32⟩
  | 43 => ⟨S1x600, .f32⟩
  | 44 => ⟨S50000x600, .f32⟩
  | 45 => ⟨S50000x600, .f32⟩
  | 46 => ⟨S_, .f32⟩
  | 47 => ⟨S50000x600, .f32⟩
  | 48 => ⟨S50000x600, .f32⟩
  | 49 => ⟨S1x600x300, .f32⟩
  | 50 => ⟨S600x300, .f32⟩
  | 51 => ⟨S50000x300, .f32⟩
  | 52 => ⟨S1x300, .f32⟩
  | 53 => ⟨S300, .f32⟩
  | 54 => ⟨S1x300, .f32⟩
  | 55 => ⟨S50000x300, .f32⟩
  | 56 => ⟨S50000x300, .f32⟩
  | 57 => ⟨S_, .f32⟩
  | 58 => ⟨S300, .f32⟩
  | 59 => ⟨S_, .f32⟩
  | 60 => ⟨S300, .f32⟩
  | 61 => ⟨S300, .f32⟩
  | 62 => ⟨S_, .i32⟩
  | 63 => ⟨S_, .f32⟩
  | 64 => ⟨S300, .f32⟩
  | 65 => ⟨S1x300, .f32⟩
  | 66 => ⟨S_, .f32⟩
  | 67 => ⟨S1x300, .f32⟩
  | 68 => ⟨S1x300, .f32⟩
  | 69 => ⟨S50000x300, .f32⟩
  | 70 => ⟨S50000x300, .f32⟩
  | 71 => ⟨S50000x300, .f32⟩
  | 72 => ⟨S_, .f32⟩
  | 73 => ⟨S_, .f32⟩
  | 74 => ⟨S_, .f32⟩
  | 75 => ⟨S_, .f32⟩
  | 76 => ⟨S300, .f32⟩
  | 77 => ⟨S300, .f32⟩
  | 78 => ⟨S300, .f32⟩
  | 79 => ⟨S_, .f32⟩
  | 80 => ⟨S_, .i1⟩
  | 81 => ⟨S_, .f32⟩
  | 82 => ⟨S_, .f32⟩
  | 83 => ⟨S300, .f32⟩
  | 84 => ⟨S300, .f32⟩
  | 85 => ⟨S1x300, .f32⟩
  | 86 => ⟨S50000x300, .f32⟩
  | 87 => ⟨S50000x300, .f32⟩
  | 88 => ⟨S_, .f32⟩
  | 89 => ⟨S300, .f32⟩
  | 90 => ⟨S300, .f32⟩
  | 91 => ⟨S300, .f32⟩
  | 92 => ⟨S1x300, .f32⟩
  | 93 => ⟨S50000x300, .f32⟩
  | 94 => ⟨S50000x300, .f32⟩
  | 95 => ⟨S1x300, .f32⟩
  | 96 => ⟨S300, .f32⟩
  | 97 => ⟨S1x300, .f32⟩
  | 98 => ⟨S50000x300, .f32⟩
  | 99 => ⟨S50000x300, .f32⟩
  | 100 => ⟨S1x300, .f32⟩
  | 101 => ⟨S300, .f32⟩
  | 102 => ⟨S1x300, .f32⟩
  | 103 => ⟨S50000x300, .f32⟩
  | 104 => ⟨S50000x300, .f32⟩
  | 105 => ⟨S_, .f32⟩
  | 106 => ⟨S50000x300, .f32⟩
  | 107 => ⟨S50000x300, .f32⟩
  | 108 => ⟨S1x6x300, .f32⟩
  | 109 => ⟨S6x300, .f32⟩
  | 110 => ⟨S_, .i32⟩
  | 111 => ⟨S256000, .i32⟩
  | 112 => ⟨S256000, .i1⟩
  | 113 => ⟨S_, .i32⟩
  | 114 => ⟨S256000, .i32⟩
  | 115 => ⟨S256000, .i32⟩
  | 116 => ⟨S256000, .i32⟩
  | 117 => ⟨S256000x1, .i32⟩
  | 118 => ⟨S256000x300, .f32⟩
  | 119 => ⟨S1x3x300, .f32⟩
  | 120 => ⟨S3x300, .f32⟩
  | 121 => ⟨S_, .i32⟩
  | 122 => ⟨S256000, .i32⟩
  | 123 => ⟨S256000, .i1⟩
  | 124 => ⟨S_, .i32⟩
  | 125 => ⟨S256000, .i32⟩
  | 126 => ⟨S256000, .i32⟩
  | 127 => ⟨S256000, .i32⟩
  | _ => ⟨S50000x300, .f32⟩

abbrev hbmTy0_2 (i : Nat) : BufTy := match i % 128 with
  | 0 => ⟨S256000x1, .i32⟩
  | 1 => ⟨S256000x300, .f32⟩
  | 2 => ⟨S256000x300, .f32⟩
  | 3 => ⟨S_, .i32⟩
  | 4 => ⟨S256000, .i32⟩
  | 5 => ⟨S256000, .i1⟩
  | 6 => ⟨S_, .i32⟩
  | 7 => ⟨S256000, .i32⟩
  | 8 => ⟨S256000, .i32⟩
  | 9 => ⟨S256000, .i32⟩
  | 10 => ⟨S256000x1, .i32⟩
  | 11 => ⟨S256000x300, .f32⟩
  | 12 => ⟨S256000x300, .f32⟩
  | 13 => ⟨S_, .f32⟩
  | 14 => ⟨S50000x300, .f32⟩
  | 15 => ⟨S256000x1, .i32⟩
  | 16 => ⟨S50000x300, .f32⟩
  | 17 => ⟨S50000x300, .f32⟩
  | 18 => ⟨S1x300x600, .f32⟩
  | 19 => ⟨S300x600, .f32⟩
  | 20 => ⟨S50000x600, .f32⟩
  | 21 => ⟨S1x600, .f32⟩
  | 22 => ⟨S600, .f32⟩
  | 23 => ⟨S1x600, .f32⟩
  | 24 => ⟨S50000x600, .f32⟩
  | 25 => ⟨S50000x600, .f32⟩
  | 26 => ⟨S_, .f32⟩
  | 27 => ⟨S50000x600, .f32⟩
  | 28 => ⟨S50000x600, .f32⟩
  | 29 => ⟨S1x600x300, .f32⟩
  | 30 => ⟨S600x300, .f32⟩
  | 31 => ⟨S50000x300, .f32⟩
  | 32 => ⟨S1x300, .f32⟩
  | 33 => ⟨S300, .f32⟩
  | 34 => ⟨S1x300, .f32⟩
  | 35 => ⟨S50000x300, .f32⟩
  | 36 => ⟨S50000x300, .f32⟩
  | 37 => ⟨S_, .f32⟩
  | 38 => ⟨S300, .f32⟩
  | 39 => ⟨S_, .f32⟩
  | 40 => ⟨S300, .f32⟩
  | 41 => ⟨S300, .f32⟩
  | 42 => ⟨S_, .i32⟩
  | 43 => ⟨S_, .f32⟩
  | 44 => ⟨S300, .f32⟩
  | 45 => ⟨S1x300, .f32⟩
  | 46 => ⟨S_, .f32⟩
  | 47 => ⟨S1x300, .f32⟩
  | 48 => ⟨S1x300, .f32⟩
  | 49 => ⟨S50000x300, .f32⟩
  | 50 => ⟨S50000x300, .f32⟩
  | 51 => ⟨S50000x300, .f32⟩
  | 52 => ⟨S_, .f32⟩
  | 53 => ⟨S_, .f32⟩
  | 54 => ⟨S_, .f32⟩
  | 55 => ⟨S_, .f32⟩
  | 56 => ⟨S300, .f32⟩
  | 57 => ⟨S300, .f32⟩
  | 58 => ⟨S300, .f32⟩
  | 59 => ⟨S_, .f32⟩
  | 60 => ⟨S_, .i1⟩
  | 61 => ⟨S_, .f32⟩
  | 62 => ⟨S_, .f32⟩
  | 63 => ⟨S300, .f32⟩
  | 64 => ⟨S300, .f32⟩
  | 65 => ⟨S1x300, .f32⟩
  | 66 => ⟨S50000x300, .f32⟩
  | 67 => ⟨S50000x300, .f32⟩
  | 68 => ⟨S_, .f32⟩
  | 69 => ⟨S300, .f32⟩
  | 70 => ⟨S300, .f32⟩
  | 71 => ⟨S300, .f32⟩
  | 72 => ⟨S1x300, .f32⟩
  | 73 => ⟨S50000x300, .f32⟩
  | 74 => ⟨S50000x300, .f32⟩
  | 75 => ⟨S1x300, .f32⟩
  | 76 => ⟨S300, .f32⟩
  | 77 => ⟨S1x300, .f32⟩
  | 78 => ⟨S50000x300, .f32⟩
  | 79 => ⟨S50000x300, .f32⟩
  | 80 => ⟨S1x300, .f32⟩
  | 81 => ⟨S300, .f32⟩
  | 82 => ⟨S1x300, .f32⟩
  | 83 => ⟨S50000x300, .f32⟩
  | 84 => ⟨S50000x300, .f32⟩
  | 85 => ⟨S_, .f32⟩
  | 86 => ⟨S50000x300, .f32⟩
  | 87 => ⟨S50000x300, .f32⟩
  | 88 => ⟨S1x6x300, .f32⟩
  | 89 => ⟨S6x300, .f32⟩
  | 90 => ⟨S_, .i32⟩
  | 91 => ⟨S256000, .i32⟩
  | 92 => ⟨S256000, .i1⟩
  | 93 => ⟨S_, .i32⟩
  | 94 => ⟨S256000, .i32⟩
  | 95 => ⟨S256000, .i32⟩
  | 96 => ⟨S256000, .i32⟩
  | 97 => ⟨S256000x1, .i32⟩
  | 98 => ⟨S256000x300, .f32⟩
  | 99 => ⟨S1x3x300, .f32⟩
  | 100 => ⟨S3x300, .f32⟩
  | 101 => ⟨S_, .i32⟩
  | 102 => ⟨S256000, .i32⟩
  | 103 => ⟨S256000, .i1⟩
  | 104 => ⟨S_, .i32⟩
  | 105 => ⟨S256000, .i32⟩
  | 106 => ⟨S256000, .i32⟩
  | 107 => ⟨S256000, .i32⟩
  | 108 => ⟨S256000x1, .i32⟩
  | 109 => ⟨S256000x300, .f32⟩
  | 110 => ⟨S256000x300, .f32⟩
  | 111 => ⟨S_, .i32⟩
  | 112 => ⟨S256000, .i32⟩
  | 113 => ⟨S256000, .i1⟩
  | 114 => ⟨S_, .i32⟩
  | 115 => ⟨S256000, .i32⟩
  | 116 => ⟨S256000, .i32⟩
  | 117 => ⟨S256000, .i32⟩
  | 118 => ⟨S256000x1, .i32⟩
  | 119 => ⟨S256000x300, .f32⟩
  | 120 => ⟨S256000x300, .f32⟩
  | 121 => ⟨S_, .f32⟩
  | 122 => ⟨S50000x300, .f32⟩
  | 123 => ⟨S256000x1, .i32⟩
  | 124 => ⟨S50000x300, .f32⟩
  | 125 => ⟨S50000x300, .f32⟩
  | 126 => ⟨S1x300x600, .f32⟩
  | 127 => ⟨S300x600, .f32⟩
  | _ => ⟨S50000x300, .f32⟩

abbrev hbmTy0_3 (i : Nat) : BufTy := match i % 128 with
  | 0 => ⟨S50000x600, .f32⟩
  | 1 => ⟨S1x600, .f32⟩
  | 2 => ⟨S600, .f32⟩
  | 3 => ⟨S1x600, .f32⟩
  | 4 => ⟨S50000x600, .f32⟩
  | 5 => ⟨S50000x600, .f32⟩
  | 6 => ⟨S_, .f32⟩
  | 7 => ⟨S50000x600, .f32⟩
  | 8 => ⟨S50000x600, .f32⟩
  | 9 => ⟨S1x600x300, .f32⟩
  | 10 => ⟨S600x300, .f32⟩
  | 11 => ⟨S50000x300, .f32⟩
  | 12 => ⟨S1x300, .f32⟩
  | 13 => ⟨S300, .f32⟩
  | 14 => ⟨S1x300, .f32⟩
  | 15 => ⟨S50000x300, .f32⟩
  | 16 => ⟨S50000x300, .f32⟩
  | 17 => ⟨S_, .f32⟩
  | 18 => ⟨S300, .f32⟩
  | 19 => ⟨S_, .f32⟩
  | 20 => ⟨S300, .f32⟩
  | 21 => ⟨S300, .f32⟩
  | 22 => ⟨S_, .i32⟩
  | 23 => ⟨S_, .f32⟩
  | 24 => ⟨S300, .f32⟩
  | 25 => ⟨S1x300, .f32⟩
  | 26 => ⟨S_, .f32⟩
  | 27 => ⟨S1x300, .f32⟩
  | 28 => ⟨S1x300, .f32⟩
  | 29 => ⟨S50000x300, .f32⟩
  | 30 => ⟨S50000x300, .f32⟩
  | 31 => ⟨S50000x300, .f32⟩
  | 32 => ⟨S_, .f32⟩
  | 33 => ⟨S_, .f32⟩
  | 34 => ⟨S_, .f32⟩
  | 35 => ⟨S_, .f32⟩
  | 36 => ⟨S300, .f32⟩
  | 37 => ⟨S300, .f32⟩
  | 38 => ⟨S300, .f32⟩
  | 39 => ⟨S_, .f32⟩
  | 40 => ⟨S_, .i1⟩
  | 41 => ⟨S_, .f32⟩
  | 42 => ⟨S_, .f32⟩
  | 43 => ⟨S300, .f32⟩
  | 44 => ⟨S300, .f32⟩
  | 45 => ⟨S1x300, .f32⟩
  | 46 => ⟨S50000x300, .f32⟩
  | 47 => ⟨S50000x300, .f32⟩
  | 48 => ⟨S_, .f32⟩
  | 49 => ⟨S300, .f32⟩
  | 50 => ⟨S300, .f32⟩
  | 51 => ⟨S300, .f32⟩
  | 52 => ⟨S1x300, .f32⟩
  | 53 => ⟨S50000x300, .f32⟩
  | 54 => ⟨S50000x300, .f32⟩
  | 55 => ⟨S1x300, .f32⟩
  | 56 => ⟨S300, .f32⟩
  | 57 => ⟨S1x300, .f32⟩
  | 58 => ⟨S50000x300, .f32⟩
  | 59 => ⟨S50000x300, .f32⟩
  | 60 => ⟨S1x300, .f32⟩
  | 61 => ⟨S300, .f32⟩
  | 62 => ⟨S1x300, .f32⟩
  | 63 => ⟨S50000x300, .f32⟩
  | 64 => ⟨S50000x300, .f32⟩
  | 65 => ⟨S_, .f32⟩
  | 66 => ⟨S50000x300, .f32⟩
  | 67 => ⟨S50000x300, .f32⟩
  | 68 => ⟨S1x6x300, .f32⟩
  | 69 => ⟨S6x300, .f32⟩
  | 70 => ⟨S_, .i32⟩
  | 71 => ⟨S256000, .i32⟩
  | 72 => ⟨S256000, .i1⟩
  | 73 => ⟨S_, .i32⟩
  | 74 => ⟨S256000, .i32⟩
  | 75 => ⟨S256000, .i32⟩
  | 76 => ⟨S256000, .i32⟩
  | 77 => ⟨S256000x1, .i32⟩
  | 78 => ⟨S256000x300, .f32⟩
  | 79 => ⟨S1x3x300, .f32⟩
  | 80 => ⟨S3x300, .f32⟩
  | 81 => ⟨S_, .i32⟩
  | 82 => ⟨S256000, .i32⟩
  | 83 => ⟨S256000, .i1⟩
  | 84 => ⟨S_, .i32⟩
  | 85 => ⟨S256000, .i32⟩
  | 86 => ⟨S256000, .i32⟩
  | 87 => ⟨S256000, .i32⟩
  | 88 => ⟨S256000x1, .i32⟩
  | 89 => ⟨S256000x300, .f32⟩
  | 90 => ⟨S256000x300, .f32⟩
  | 91 => ⟨S_, .i32⟩
  | 92 => ⟨S256000, .i32⟩
  | 93 => ⟨S256000, .i1⟩
  | 94 => ⟨S_, .i32⟩
  | 95 => ⟨S256000, .i32⟩
  | 96 => ⟨S256000, .i32⟩
  | 97 => ⟨S256000, .i32⟩
  | 98 => ⟨S256000x1, .i32⟩
  | 99 => ⟨S256000x300, .f32⟩
  | 100 => ⟨S256000x300, .f32⟩
  | 101 => ⟨S_, .f32⟩
  | 102 => ⟨S50000x300, .f32⟩
  | 103 => ⟨S256000x1, .i32⟩
  | 104 => ⟨S50000x300, .f32⟩
  | 105 => ⟨S50000x300, .f32⟩
  | 106 => ⟨S1x300x600, .f32⟩
  | 107 => ⟨S300x600, .f32⟩
  | 108 => ⟨S50000x600, .f32⟩
  | 109 => ⟨S1x600, .f32⟩
  | 110 => ⟨S600, .f32⟩
  | 111 => ⟨S1x600, .f32⟩
  | 112 => ⟨S50000x600, .f32⟩
  | 113 => ⟨S50000x600, .f32⟩
  | 114 => ⟨S_, .f32⟩
  | 115 => ⟨S50000x600, .f32⟩
  | 116 => ⟨S50000x600, .f32⟩
  | 117 => ⟨S1x600x300, .f32⟩
  | 118 => ⟨S600x300, .f32⟩
  | 119 => ⟨S50000x300, .f32⟩
  | 120 => ⟨S1x300, .f32⟩
  | 121 => ⟨S300, .f32⟩
  | 122 => ⟨S1x300, .f32⟩
  | 123 => ⟨S50000x300, .f32⟩
  | 124 => ⟨S50000x300, .f32⟩
  | 125 => ⟨S_, .f32⟩
  | 126 => ⟨S300, .f32⟩
  | 127 => ⟨S_, .f32⟩
  | _ => ⟨S50000x300, .f32⟩

abbrev hbmTy0_4 (i : Nat) : BufTy := match i % 128 with
  | 0 => ⟨S300, .f32⟩
  | 1 => ⟨S300, .f32⟩
  | 2 => ⟨S_, .i32⟩
  | 3 => ⟨S_, .f32⟩
  | 4 => ⟨S300, .f32⟩
  | 5 => ⟨S1x300, .f32⟩
  | 6 => ⟨S_, .f32⟩
  | 7 => ⟨S1x300, .f32⟩
  | 8 => ⟨S1x300, .f32⟩
  | 9 => ⟨S50000x300, .f32⟩
  | 10 => ⟨S50000x300, .f32⟩
  | 11 => ⟨S50000x300, .f32⟩
  | 12 => ⟨S_, .f32⟩
  | 13 => ⟨S_, .f32⟩
  | 14 => ⟨S_, .f32⟩
  | 15 => ⟨S_, .f32⟩
  | 16 => ⟨S300, .f32⟩
  | 17 => ⟨S300, .f32⟩
  | 18 => ⟨S300, .f32⟩
  | 19 => ⟨S_, .f32⟩
  | 20 => ⟨S_, .i1⟩
  | 21 => ⟨S_, .f32⟩
  | 22 => ⟨S_, .f32⟩
  | 23 => ⟨S300, .f32⟩
  | 24 => ⟨S300, .f32⟩
  | 25 => ⟨S1x300, .f32⟩
  | 26 => ⟨S50000x300, .f32⟩
  | 27 => ⟨S50000x300, .f32⟩
  | 28 => ⟨S_, .f32⟩
  | 29 => ⟨S300, .f32⟩
  | 30 => ⟨S300, .f32⟩
  | 31 => ⟨S300, .f32⟩
  | 32 => ⟨S1x300, .f32⟩
  | 33 => ⟨S50000x300, .f32⟩
  | 34 => ⟨S50000x300, .f32⟩
  | 35 => ⟨S1x300, .f32⟩
  | 36 => ⟨S300, .f32⟩
  | 37 => ⟨S1x300, .f32⟩
  | 38 => ⟨S50000x300, .f32⟩
  | 39 => ⟨S50000x300, .f32⟩
  | 40 => ⟨S1x300, .f32⟩
  | 41 => ⟨S300, .f32⟩
  | 42 => ⟨S1x300, .f32⟩
  | 43 => ⟨S50000x300, .f32⟩
  | 44 => ⟨S50000x300, .f32⟩
  | 45 => ⟨S_, .f32⟩
  | 46 => ⟨S50000x300, .f32⟩
  | 47 => ⟨S50000x300, .f32⟩
  | 48 => ⟨S_, .f32⟩
  | 49 => ⟨S512x300, .f32⟩
  | 50 => ⟨S50000x1, .i32⟩
  | 51 => ⟨S512x300, .f32⟩
  | 52 => ⟨S_, .f32⟩
  | 53 => ⟨S50000, .f32⟩
  | 54 => ⟨S_, .f32⟩
  | 55 => ⟨S512, .f32⟩
  | 56 => ⟨S50000x1, .i32⟩
  | 57 => ⟨S512, .f32⟩
  | 58 => ⟨S_, .f32⟩
  | 59 => ⟨S512, .f32⟩
  | 60 => ⟨S512, .f32⟩
  | 61 => ⟨S512x1, .f32⟩
  | 62 => ⟨S512x300, .f32⟩
  | 63 => ⟨S512x300, .f32⟩
  | _ => ⟨S50000x300, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x300, .f32⟩

abbrev bufTy : (tb : Table) → Fin (tcTables nBuf tb) → BufTy
  | .hbm, ⟨i, _⟩ => hbmTy i
  | _, _ => ⟨S50000x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_c_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_1 : Ref sig .tc := ⟨.hbm, 33, rfl⟩
abbrev main_v19 : Ref sig .tc := ⟨.hbm, 34, rfl⟩
abbrev main_v20 : Ref sig .tc := ⟨.hbm, 35, rfl⟩
abbrev main_c_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_3 : Ref sig .tc := ⟨.hbm, 43, rfl⟩
abbrev main_v27 : Ref sig .tc := ⟨.hbm, 44, rfl⟩
abbrev main_v28 : Ref sig .tc := ⟨.hbm, 45, rfl⟩
abbrev main_c_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call0_cst : Ref sig .tc := ⟨.hbm, 66, rfl⟩
abbrev main_call0_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_5 : Ref sig .tc := ⟨.hbm, 77, rfl⟩
abbrev main_v56 : Ref sig .tc := ⟨.hbm, 78, rfl⟩
abbrev main_cst_6 : Ref sig .tc := ⟨.hbm, 79, rfl⟩
abbrev main_v57 : Ref sig .tc := ⟨.hbm, 80, rfl⟩
abbrev main_v58 : Ref sig .tc := ⟨.hbm, 81, rfl⟩
abbrev main_c_7 : Ref sig .tc := ⟨.hbm, 82, rfl⟩
abbrev main_call1_cst : Ref sig .tc := ⟨.hbm, 83, rfl⟩
abbrev main_call1_v0 : Ref sig .tc := ⟨.hbm, 84, rfl⟩
abbrev main_call1_v1 : Ref sig .tc := ⟨.hbm, 85, rfl⟩
abbrev main_call1_cst_0 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_call1_v5 : Ref sig .tc := ⟨.hbm, 90, rfl⟩
abbrev main_call1_v6 : Ref sig .tc := ⟨.hbm, 91, rfl⟩
abbrev main_call1_v7 : Ref sig .tc := ⟨.hbm, 92, rfl⟩
abbrev main_call1_cst_1 : Ref sig .tc := ⟨.hbm, 93, rfl⟩
abbrev main_call1_v8 : Ref sig .tc := ⟨.hbm, 94, rfl⟩
abbrev main_call1_cst_2 : Ref sig .tc := ⟨.hbm, 95, rfl⟩
abbrev main_call1_v9 : Ref sig .tc := ⟨.hbm, 96, rfl⟩
abbrev main_call1_v10 : Ref sig .tc := ⟨.hbm, 97, rfl⟩
abbrev main_call1_v11 : Ref sig .tc := ⟨.hbm, 98, rfl⟩
abbrev main_call1_cst_3 : Ref sig .tc := ⟨.hbm, 99, rfl⟩
abbrev main_call1_v12 : Ref sig .tc := ⟨.hbm, 100, rfl⟩
abbrev main_call1_cst_4 : Ref sig .tc := ⟨.hbm, 101, rfl⟩
abbrev main_call1_call0_v0 : Ref sig .tc := ⟨.hbm, 102, rfl⟩
abbrev main_call1_call0_v1 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_cst_8 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_call2_cst : Ref sig .tc := ⟨.hbm, 125, rfl⟩
abbrev main_call2_v0 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_c_9 : Ref sig .tc := ⟨.hbm, 130, rfl⟩
abbrev main_v82 : Ref sig .tc := ⟨.hbm, 131, rfl⟩
abbrev main_v83 : Ref sig .tc := ⟨.hbm, 132, rfl⟩
abbrev main_c_10 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_c_11 : Ref sig .tc := ⟨.hbm, 141, rfl⟩
abbrev main_v91 : Ref sig .tc := ⟨.hbm, 142, rfl⟩
abbrev main_v92 : Ref sig .tc := ⟨.hbm, 143, rfl⟩
abbrev main_c_12 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_c_13 : Ref sig .tc := ⟨.hbm, 151, rfl⟩
abbrev main_v99 : Ref sig .tc := ⟨.hbm, 152, rfl⟩
abbrev main_v100 : Ref sig .tc := ⟨.hbm, 153, rfl⟩
abbrev main_c_14 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_cst_15 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_call3_cst : Ref sig .tc := ⟨.hbm, 174, rfl⟩
abbrev main_call3_v0 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_cst_16 : Ref sig .tc := ⟨.hbm, 185, rfl⟩
abbrev main_v128 : Ref sig .tc := ⟨.hbm, 186, rfl⟩
abbrev main_cst_17 : Ref sig .tc := ⟨.hbm, 187, rfl⟩
abbrev main_v129 : Ref sig .tc := ⟨.hbm, 188, rfl⟩
abbrev main_v130 : Ref sig .tc := ⟨.hbm, 189, rfl⟩
abbrev main_c_18 : Ref sig .tc := ⟨.hbm, 190, rfl⟩
abbrev main_call4_cst : Ref sig .tc := ⟨.hbm, 191, rfl⟩
abbrev main_call4_v0 : Ref sig .tc := ⟨.hbm, 192, rfl⟩
abbrev main_call4_v1 : Ref sig .tc := ⟨.hbm, 193, rfl⟩
abbrev main_call4_cst_0 : Ref sig .tc := ⟨.hbm, 194, rfl⟩
abbrev main_call4_v2 : Ref sig .tc := ⟨.hbm, 195, rfl⟩
abbrev main_call4_v3 : Ref sig .tc := ⟨.hbm, 196, rfl⟩
abbrev main_call4_v4 : Ref sig .tc := ⟨.hbm, 197, rfl⟩
abbrev main_call4_v5 : Ref sig .tc := ⟨.hbm, 198, rfl⟩
abbrev main_call4_v6 : Ref sig .tc := ⟨.hbm, 199, rfl⟩
abbrev main_call4_v7 : Ref sig .tc := ⟨.hbm, 200, rfl⟩
abbrev main_call4_cst_1 : Ref sig .tc := ⟨.hbm, 201, rfl⟩
abbrev main_call4_v8 : Ref sig .tc := ⟨.hbm, 202, rfl⟩
abbrev main_call4_cst_2 : Ref sig .tc := ⟨.hbm, 203, rfl⟩
abbrev main_call4_v9 : Ref sig .tc := ⟨.hbm, 204, rfl⟩
abbrev main_call4_v10 : Ref sig .tc := ⟨.hbm, 205, rfl⟩
abbrev main_call4_v11 : Ref sig .tc := ⟨.hbm, 206, rfl⟩
abbrev main_call4_cst_3 : Ref sig .tc := ⟨.hbm, 207, rfl⟩
abbrev main_call4_v12 : Ref sig .tc := ⟨.hbm, 208, rfl⟩
abbrev main_call4_cst_4 : Ref sig .tc := ⟨.hbm, 209, rfl⟩
abbrev main_call4_call0_v0 : Ref sig .tc := ⟨.hbm, 210, rfl⟩
abbrev main_call4_call0_v1 : Ref sig .tc := ⟨.hbm, 211, rfl⟩
abbrev main_v131 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_cst_19 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_v138 : Ref sig .tc := ⟨.hbm, 220, rfl⟩
abbrev main_v139 : Ref sig .tc := ⟨.hbm, 221, rfl⟩
abbrev main_v140 : Ref sig .tc := ⟨.hbm, 222, rfl⟩
abbrev main_v141 : Ref sig .tc := ⟨.hbm, 223, rfl⟩
abbrev main_v142 : Ref sig .tc := ⟨.hbm, 224, rfl⟩
abbrev main_v143 : Ref sig .tc := ⟨.hbm, 225, rfl⟩
abbrev main_v144 : Ref sig .tc := ⟨.hbm, 226, rfl⟩
abbrev main_v145 : Ref sig .tc := ⟨.hbm, 227, rfl⟩
abbrev main_v146 : Ref sig .tc := ⟨.hbm, 228, rfl⟩
abbrev main_v147 : Ref sig .tc := ⟨.hbm, 229, rfl⟩
abbrev main_v148 : Ref sig .tc := ⟨.hbm, 230, rfl⟩
abbrev main_v149 : Ref sig .tc := ⟨.hbm, 231, rfl⟩
abbrev main_v150 : Ref sig .tc := ⟨.hbm, 232, rfl⟩
abbrev main_call5_cst : Ref sig .tc := ⟨.hbm, 233, rfl⟩
abbrev main_call5_v0 : Ref sig .tc := ⟨.hbm, 234, rfl⟩
abbrev main_v151 : Ref sig .tc := ⟨.hbm, 235, rfl⟩
abbrev main_v152 : Ref sig .tc := ⟨.hbm, 236, rfl⟩
abbrev main_v153 : Ref sig .tc := ⟨.hbm, 237, rfl⟩
abbrev main_c_20 : Ref sig .tc := ⟨.hbm, 238, rfl⟩
abbrev main_v154 : Ref sig .tc := ⟨.hbm, 239, rfl⟩
abbrev main_v155 : Ref sig .tc := ⟨.hbm, 240, rfl⟩
abbrev main_c_21 : Ref sig .tc := ⟨.hbm, 241, rfl⟩
abbrev main_v156 : Ref sig .tc := ⟨.hbm, 242, rfl⟩
abbrev main_v157 : Ref sig .tc := ⟨.hbm, 243, rfl⟩
abbrev main_v158 : Ref sig .tc := ⟨.hbm, 244, rfl⟩
abbrev main_v159 : Ref sig .tc := ⟨.hbm, 245, rfl⟩
abbrev main_v160 : Ref sig .tc := ⟨.hbm, 246, rfl⟩
abbrev main_v161 : Ref sig .tc := ⟨.hbm, 247, rfl⟩
abbrev main_v162 : Ref sig .tc := ⟨.hbm, 248, rfl⟩
abbrev main_c_22 : Ref sig .tc := ⟨.hbm, 249, rfl⟩
abbrev main_v163 : Ref sig .tc := ⟨.hbm, 250, rfl⟩
abbrev main_v164 : Ref sig .tc := ⟨.hbm, 251, rfl⟩
abbrev main_c_23 : Ref sig .tc := ⟨.hbm, 252, rfl⟩
abbrev main_v165 : Ref sig .tc := ⟨.hbm, 253, rfl⟩
abbrev main_v166 : Ref sig .tc := ⟨.hbm, 254, rfl⟩
abbrev main_v167 : Ref sig .tc := ⟨.hbm, 255, rfl⟩
abbrev main_v168 : Ref sig .tc := ⟨.hbm, 256, rfl⟩
abbrev main_v169 : Ref sig .tc := ⟨.hbm, 257, rfl⟩
abbrev main_v170 : Ref sig .tc := ⟨.hbm, 258, rfl⟩
abbrev main_c_24 : Ref sig .tc := ⟨.hbm, 259, rfl⟩
abbrev main_v171 : Ref sig .tc := ⟨.hbm, 260, rfl⟩
abbrev main_v172 : Ref sig .tc := ⟨.hbm, 261, rfl⟩
abbrev main_c_25 : Ref sig .tc := ⟨.hbm, 262, rfl⟩
abbrev main_v173 : Ref sig .tc := ⟨.hbm, 263, rfl⟩
abbrev main_v174 : Ref sig .tc := ⟨.hbm, 264, rfl⟩
abbrev main_v175 : Ref sig .tc := ⟨.hbm, 265, rfl⟩
abbrev main_v176 : Ref sig .tc := ⟨.hbm, 266, rfl⟩
abbrev main_v177 : Ref sig .tc := ⟨.hbm, 267, rfl⟩
abbrev main_v178 : Ref sig .tc := ⟨.hbm, 268, rfl⟩
abbrev main_cst_26 : Ref sig .tc := ⟨.hbm, 269, rfl⟩
abbrev main_v179 : Ref sig .tc := ⟨.hbm, 270, rfl⟩
abbrev main_v180 : Ref sig .tc := ⟨.hbm, 271, rfl⟩
abbrev main_v181 : Ref sig .tc := ⟨.hbm, 272, rfl⟩
abbrev main_v182 : Ref sig .tc := ⟨.hbm, 273, rfl⟩
abbrev main_v183 : Ref sig .tc := ⟨.hbm, 274, rfl⟩
abbrev main_v184 : Ref sig .tc := ⟨.hbm, 275, rfl⟩
abbrev main_v185 : Ref sig .tc := ⟨.hbm, 276, rfl⟩
abbrev main_v186 : Ref sig .tc := ⟨.hbm, 277, rfl⟩
abbrev main_v187 : Ref sig .tc := ⟨.hbm, 278, rfl⟩
abbrev main_v188 : Ref sig .tc := ⟨.hbm, 279, rfl⟩
abbrev main_v189 : Ref sig .tc := ⟨.hbm, 280, rfl⟩
abbrev main_v190 : Ref sig .tc := ⟨.hbm, 281, rfl⟩
abbrev main_call6_cst : Ref sig .tc := ⟨.hbm, 282, rfl⟩
abbrev main_call6_v0 : Ref sig .tc := ⟨.hbm, 283, rfl⟩
abbrev main_v191 : Ref sig .tc := ⟨.hbm, 284, rfl⟩
abbrev main_v192 : Ref sig .tc := ⟨.hbm, 285, rfl⟩
abbrev main_v193 : Ref sig .tc := ⟨.hbm, 286, rfl⟩
abbrev main_v194 : Ref sig .tc := ⟨.hbm, 287, rfl⟩
abbrev main_v195 : Ref sig .tc := ⟨.hbm, 288, rfl⟩
abbrev main_v196 : Ref sig .tc := ⟨.hbm, 289, rfl⟩
abbrev main_v197 : Ref sig .tc := ⟨.hbm, 290, rfl⟩
abbrev main_v198 : Ref sig .tc := ⟨.hbm, 291, rfl⟩
abbrev main_v199 : Ref sig .tc := ⟨.hbm, 292, rfl⟩
abbrev main_cst_27 : Ref sig .tc := ⟨.hbm, 293, rfl⟩
abbrev main_v200 : Ref sig .tc := ⟨.hbm, 294, rfl⟩
abbrev main_cst_28 : Ref sig .tc := ⟨.hbm, 295, rfl⟩
abbrev main_v201 : Ref sig .tc := ⟨.hbm, 296, rfl⟩
abbrev main_v202 : Ref sig .tc := ⟨.hbm, 297, rfl⟩
abbrev main_c_29 : Ref sig .tc := ⟨.hbm, 298, rfl⟩
abbrev main_call7_cst : Ref sig .tc := ⟨.hbm, 299, rfl⟩
abbrev main_call7_v0 : Ref sig .tc := ⟨.hbm, 300, rfl⟩
abbrev main_call7_v1 : Ref sig .tc := ⟨.hbm, 301, rfl⟩
abbrev main_call7_cst_0 : Ref sig .tc := ⟨.hbm, 302, rfl⟩
abbrev main_call7_v2 : Ref sig .tc := ⟨.hbm, 303, rfl⟩
abbrev main_call7_v3 : Ref sig .tc := ⟨.hbm, 304, rfl⟩
abbrev main_call7_v4 : Ref sig .tc := ⟨.hbm, 305, rfl⟩
abbrev main_call7_v5 : Ref sig .tc := ⟨.hbm, 306, rfl⟩
abbrev main_call7_v6 : Ref sig .tc := ⟨.hbm, 307, rfl⟩
abbrev main_call7_v7 : Ref sig .tc := ⟨.hbm, 308, rfl⟩
abbrev main_call7_cst_1 : Ref sig .tc := ⟨.hbm, 309, rfl⟩
abbrev main_call7_v8 : Ref sig .tc := ⟨.hbm, 310, rfl⟩
abbrev main_call7_cst_2 : Ref sig .tc := ⟨.hbm, 311, rfl⟩
abbrev main_call7_v9 : Ref sig .tc := ⟨.hbm, 312, rfl⟩
abbrev main_call7_v10 : Ref sig .tc := ⟨.hbm, 313, rfl⟩
abbrev main_call7_v11 : Ref sig .tc := ⟨.hbm, 314, rfl⟩
abbrev main_call7_cst_3 : Ref sig .tc := ⟨.hbm, 315, rfl⟩
abbrev main_call7_v12 : Ref sig .tc := ⟨.hbm, 316, rfl⟩
abbrev main_call7_cst_4 : Ref sig .tc := ⟨.hbm, 317, rfl⟩
abbrev main_call7_call0_v0 : Ref sig .tc := ⟨.hbm, 318, rfl⟩
abbrev main_call7_call0_v1 : Ref sig .tc := ⟨.hbm, 319, rfl⟩
abbrev main_v203 : Ref sig .tc := ⟨.hbm, 320, rfl⟩
abbrev main_v204 : Ref sig .tc := ⟨.hbm, 321, rfl⟩
abbrev main_v205 : Ref sig .tc := ⟨.hbm, 322, rfl⟩
abbrev main_v206 : Ref sig .tc := ⟨.hbm, 323, rfl⟩
abbrev main_cst_30 : Ref sig .tc := ⟨.hbm, 324, rfl⟩
abbrev main_v207 : Ref sig .tc := ⟨.hbm, 325, rfl⟩
abbrev main_v208 : Ref sig .tc := ⟨.hbm, 326, rfl⟩
abbrev main_v209 : Ref sig .tc := ⟨.hbm, 327, rfl⟩
abbrev main_v210 : Ref sig .tc := ⟨.hbm, 328, rfl⟩
abbrev main_v211 : Ref sig .tc := ⟨.hbm, 329, rfl⟩
abbrev main_v212 : Ref sig .tc := ⟨.hbm, 330, rfl⟩
abbrev main_v213 : Ref sig .tc := ⟨.hbm, 331, rfl⟩
abbrev main_v214 : Ref sig .tc := ⟨.hbm, 332, rfl⟩
abbrev main_v215 : Ref sig .tc := ⟨.hbm, 333, rfl⟩
abbrev main_v216 : Ref sig .tc := ⟨.hbm, 334, rfl⟩
abbrev main_v217 : Ref sig .tc := ⟨.hbm, 335, rfl⟩
abbrev main_v218 : Ref sig .tc := ⟨.hbm, 336, rfl⟩
abbrev main_v219 : Ref sig .tc := ⟨.hbm, 337, rfl⟩
abbrev main_v220 : Ref sig .tc := ⟨.hbm, 338, rfl⟩
abbrev main_v221 : Ref sig .tc := ⟨.hbm, 339, rfl⟩
abbrev main_v222 : Ref sig .tc := ⟨.hbm, 340, rfl⟩
abbrev main_call8_cst : Ref sig .tc := ⟨.hbm, 341, rfl⟩
abbrev main_call8_v0 : Ref sig .tc := ⟨.hbm, 342, rfl⟩
abbrev main_v223 : Ref sig .tc := ⟨.hbm, 343, rfl⟩
abbrev main_v224 : Ref sig .tc := ⟨.hbm, 344, rfl⟩
abbrev main_v225 : Ref sig .tc := ⟨.hbm, 345, rfl⟩
abbrev main_c_31 : Ref sig .tc := ⟨.hbm, 346, rfl⟩
abbrev main_v226 : Ref sig .tc := ⟨.hbm, 347, rfl⟩
abbrev main_v227 : Ref sig .tc := ⟨.hbm, 348, rfl⟩
abbrev main_c_32 : Ref sig .tc := ⟨.hbm, 349, rfl⟩
abbrev main_v228 : Ref sig .tc := ⟨.hbm, 350, rfl⟩
abbrev main_v229 : Ref sig .tc := ⟨.hbm, 351, rfl⟩
abbrev main_v230 : Ref sig .tc := ⟨.hbm, 352, rfl⟩
abbrev main_v231 : Ref sig .tc := ⟨.hbm, 353, rfl⟩
abbrev main_v232 : Ref sig .tc := ⟨.hbm, 354, rfl⟩
abbrev main_v233 : Ref sig .tc := ⟨.hbm, 355, rfl⟩
abbrev main_v234 : Ref sig .tc := ⟨.hbm, 356, rfl⟩
abbrev main_c_33 : Ref sig .tc := ⟨.hbm, 357, rfl⟩
abbrev main_v235 : Ref sig .tc := ⟨.hbm, 358, rfl⟩
abbrev main_v236 : Ref sig .tc := ⟨.hbm, 359, rfl⟩
abbrev main_c_34 : Ref sig .tc := ⟨.hbm, 360, rfl⟩
abbrev main_v237 : Ref sig .tc := ⟨.hbm, 361, rfl⟩
abbrev main_v238 : Ref sig .tc := ⟨.hbm, 362, rfl⟩
abbrev main_v239 : Ref sig .tc := ⟨.hbm, 363, rfl⟩
abbrev main_v240 : Ref sig .tc := ⟨.hbm, 364, rfl⟩
abbrev main_v241 : Ref sig .tc := ⟨.hbm, 365, rfl⟩
abbrev main_v242 : Ref sig .tc := ⟨.hbm, 366, rfl⟩
abbrev main_c_35 : Ref sig .tc := ⟨.hbm, 367, rfl⟩
abbrev main_v243 : Ref sig .tc := ⟨.hbm, 368, rfl⟩
abbrev main_v244 : Ref sig .tc := ⟨.hbm, 369, rfl⟩
abbrev main_c_36 : Ref sig .tc := ⟨.hbm, 370, rfl⟩
abbrev main_v245 : Ref sig .tc := ⟨.hbm, 371, rfl⟩
abbrev main_v246 : Ref sig .tc := ⟨.hbm, 372, rfl⟩
abbrev main_v247 : Ref sig .tc := ⟨.hbm, 373, rfl⟩
abbrev main_v248 : Ref sig .tc := ⟨.hbm, 374, rfl⟩
abbrev main_v249 : Ref sig .tc := ⟨.hbm, 375, rfl⟩
abbrev main_v250 : Ref sig .tc := ⟨.hbm, 376, rfl⟩
abbrev main_cst_37 : Ref sig .tc := ⟨.hbm, 377, rfl⟩
abbrev main_v251 : Ref sig .tc := ⟨.hbm, 378, rfl⟩
abbrev main_v252 : Ref sig .tc := ⟨.hbm, 379, rfl⟩
abbrev main_v253 : Ref sig .tc := ⟨.hbm, 380, rfl⟩
abbrev main_v254 : Ref sig .tc := ⟨.hbm, 381, rfl⟩
abbrev main_v255 : Ref sig .tc := ⟨.hbm, 382, rfl⟩
abbrev main_v256 : Ref sig .tc := ⟨.hbm, 383, rfl⟩
abbrev main_v257 : Ref sig .tc := ⟨.hbm, 384, rfl⟩
abbrev main_v258 : Ref sig .tc := ⟨.hbm, 385, rfl⟩
abbrev main_v259 : Ref sig .tc := ⟨.hbm, 386, rfl⟩
abbrev main_v260 : Ref sig .tc := ⟨.hbm, 387, rfl⟩
abbrev main_v261 : Ref sig .tc := ⟨.hbm, 388, rfl⟩
abbrev main_v262 : Ref sig .tc := ⟨.hbm, 389, rfl⟩
abbrev main_call9_cst : Ref sig .tc := ⟨.hbm, 390, rfl⟩
abbrev main_call9_v0 : Ref sig .tc := ⟨.hbm, 391, rfl⟩
abbrev main_v263 : Ref sig .tc := ⟨.hbm, 392, rfl⟩
abbrev main_v264 : Ref sig .tc := ⟨.hbm, 393, rfl⟩
abbrev main_v265 : Ref sig .tc := ⟨.hbm, 394, rfl⟩
abbrev main_v266 : Ref sig .tc := ⟨.hbm, 395, rfl⟩
abbrev main_v267 : Ref sig .tc := ⟨.hbm, 396, rfl⟩
abbrev main_v268 : Ref sig .tc := ⟨.hbm, 397, rfl⟩
abbrev main_v269 : Ref sig .tc := ⟨.hbm, 398, rfl⟩
abbrev main_v270 : Ref sig .tc := ⟨.hbm, 399, rfl⟩
abbrev main_v271 : Ref sig .tc := ⟨.hbm, 400, rfl⟩
abbrev main_cst_38 : Ref sig .tc := ⟨.hbm, 401, rfl⟩
abbrev main_v272 : Ref sig .tc := ⟨.hbm, 402, rfl⟩
abbrev main_cst_39 : Ref sig .tc := ⟨.hbm, 403, rfl⟩
abbrev main_v273 : Ref sig .tc := ⟨.hbm, 404, rfl⟩
abbrev main_v274 : Ref sig .tc := ⟨.hbm, 405, rfl⟩
abbrev main_c_40 : Ref sig .tc := ⟨.hbm, 406, rfl⟩
abbrev main_call10_cst : Ref sig .tc := ⟨.hbm, 407, rfl⟩
abbrev main_call10_v0 : Ref sig .tc := ⟨.hbm, 408, rfl⟩
abbrev main_call10_v1 : Ref sig .tc := ⟨.hbm, 409, rfl⟩
abbrev main_call10_cst_0 : Ref sig .tc := ⟨.hbm, 410, rfl⟩
abbrev main_call10_v2 : Ref sig .tc := ⟨.hbm, 411, rfl⟩
abbrev main_call10_v3 : Ref sig .tc := ⟨.hbm, 412, rfl⟩
abbrev main_call10_v4 : Ref sig .tc := ⟨.hbm, 413, rfl⟩
abbrev main_call10_v5 : Ref sig .tc := ⟨.hbm, 414, rfl⟩
abbrev main_call10_v6 : Ref sig .tc := ⟨.hbm, 415, rfl⟩
abbrev main_call10_v7 : Ref sig .tc := ⟨.hbm, 416, rfl⟩
abbrev main_call10_cst_1 : Ref sig .tc := ⟨.hbm, 417, rfl⟩
abbrev main_call10_v8 : Ref sig .tc := ⟨.hbm, 418, rfl⟩
abbrev main_call10_cst_2 : Ref sig .tc := ⟨.hbm, 419, rfl⟩
abbrev main_call10_v9 : Ref sig .tc := ⟨.hbm, 420, rfl⟩
abbrev main_call10_v10 : Ref sig .tc := ⟨.hbm, 421, rfl⟩
abbrev main_call10_v11 : Ref sig .tc := ⟨.hbm, 422, rfl⟩
abbrev main_call10_cst_3 : Ref sig .tc := ⟨.hbm, 423, rfl⟩
abbrev main_call10_v12 : Ref sig .tc := ⟨.hbm, 424, rfl⟩
abbrev main_call10_cst_4 : Ref sig .tc := ⟨.hbm, 425, rfl⟩
abbrev main_call10_call0_v0 : Ref sig .tc := ⟨.hbm, 426, rfl⟩
abbrev main_call10_call0_v1 : Ref sig .tc := ⟨.hbm, 427, rfl⟩
abbrev main_v275 : Ref sig .tc := ⟨.hbm, 428, rfl⟩
abbrev main_v276 : Ref sig .tc := ⟨.hbm, 429, rfl⟩
abbrev main_v277 : Ref sig .tc := ⟨.hbm, 430, rfl⟩
abbrev main_v278 : Ref sig .tc := ⟨.hbm, 431, rfl⟩
abbrev main_cst_41 : Ref sig .tc := ⟨.hbm, 432, rfl⟩
abbrev main_v279 : Ref sig .tc := ⟨.hbm, 433, rfl⟩
abbrev main_v280 : Ref sig .tc := ⟨.hbm, 434, rfl⟩
abbrev main_v281 : Ref sig .tc := ⟨.hbm, 435, rfl⟩
abbrev main_v282 : Ref sig .tc := ⟨.hbm, 436, rfl⟩
abbrev main_v283 : Ref sig .tc := ⟨.hbm, 437, rfl⟩
abbrev main_v284 : Ref sig .tc := ⟨.hbm, 438, rfl⟩
abbrev main_v285 : Ref sig .tc := ⟨.hbm, 439, rfl⟩
abbrev main_v286 : Ref sig .tc := ⟨.hbm, 440, rfl⟩
abbrev main_v287 : Ref sig .tc := ⟨.hbm, 441, rfl⟩
abbrev main_v288 : Ref sig .tc := ⟨.hbm, 442, rfl⟩
abbrev main_v289 : Ref sig .tc := ⟨.hbm, 443, rfl⟩
abbrev main_v290 : Ref sig .tc := ⟨.hbm, 444, rfl⟩
abbrev main_v291 : Ref sig .tc := ⟨.hbm, 445, rfl⟩
abbrev main_v292 : Ref sig .tc := ⟨.hbm, 446, rfl⟩
abbrev main_v293 : Ref sig .tc := ⟨.hbm, 447, rfl⟩
abbrev main_v294 : Ref sig .tc := ⟨.hbm, 448, rfl⟩
abbrev main_call11_cst : Ref sig .tc := ⟨.hbm, 449, rfl⟩
abbrev main_call11_v0 : Ref sig .tc := ⟨.hbm, 450, rfl⟩
abbrev main_v295 : Ref sig .tc := ⟨.hbm, 451, rfl⟩
abbrev main_v296 : Ref sig .tc := ⟨.hbm, 452, rfl⟩
abbrev main_v297 : Ref sig .tc := ⟨.hbm, 453, rfl⟩
abbrev main_c_42 : Ref sig .tc := ⟨.hbm, 454, rfl⟩
abbrev main_v298 : Ref sig .tc := ⟨.hbm, 455, rfl⟩
abbrev main_v299 : Ref sig .tc := ⟨.hbm, 456, rfl⟩
abbrev main_c_43 : Ref sig .tc := ⟨.hbm, 457, rfl⟩
abbrev main_v300 : Ref sig .tc := ⟨.hbm, 458, rfl⟩
abbrev main_v301 : Ref sig .tc := ⟨.hbm, 459, rfl⟩
abbrev main_v302 : Ref sig .tc := ⟨.hbm, 460, rfl⟩
abbrev main_v303 : Ref sig .tc := ⟨.hbm, 461, rfl⟩
abbrev main_v304 : Ref sig .tc := ⟨.hbm, 462, rfl⟩
abbrev main_v305 : Ref sig .tc := ⟨.hbm, 463, rfl⟩
abbrev main_v306 : Ref sig .tc := ⟨.hbm, 464, rfl⟩
abbrev main_c_44 : Ref sig .tc := ⟨.hbm, 465, rfl⟩
abbrev main_v307 : Ref sig .tc := ⟨.hbm, 466, rfl⟩
abbrev main_v308 : Ref sig .tc := ⟨.hbm, 467, rfl⟩
abbrev main_c_45 : Ref sig .tc := ⟨.hbm, 468, rfl⟩
abbrev main_v309 : Ref sig .tc := ⟨.hbm, 469, rfl⟩
abbrev main_v310 : Ref sig .tc := ⟨.hbm, 470, rfl⟩
abbrev main_v311 : Ref sig .tc := ⟨.hbm, 471, rfl⟩
abbrev main_v312 : Ref sig .tc := ⟨.hbm, 472, rfl⟩
abbrev main_v313 : Ref sig .tc := ⟨.hbm, 473, rfl⟩
abbrev main_v314 : Ref sig .tc := ⟨.hbm, 474, rfl⟩
abbrev main_c_46 : Ref sig .tc := ⟨.hbm, 475, rfl⟩
abbrev main_v315 : Ref sig .tc := ⟨.hbm, 476, rfl⟩
abbrev main_v316 : Ref sig .tc := ⟨.hbm, 477, rfl⟩
abbrev main_c_47 : Ref sig .tc := ⟨.hbm, 478, rfl⟩
abbrev main_v317 : Ref sig .tc := ⟨.hbm, 479, rfl⟩
abbrev main_v318 : Ref sig .tc := ⟨.hbm, 480, rfl⟩
abbrev main_v319 : Ref sig .tc := ⟨.hbm, 481, rfl⟩
abbrev main_v320 : Ref sig .tc := ⟨.hbm, 482, rfl⟩
abbrev main_v321 : Ref sig .tc := ⟨.hbm, 483, rfl⟩
abbrev main_v322 : Ref sig .tc := ⟨.hbm, 484, rfl⟩
abbrev main_cst_48 : Ref sig .tc := ⟨.hbm, 485, rfl⟩
abbrev main_v323 : Ref sig .tc := ⟨.hbm, 486, rfl⟩
abbrev main_v324 : Ref sig .tc := ⟨.hbm, 487, rfl⟩
abbrev main_v325 : Ref sig .tc := ⟨.hbm, 488, rfl⟩
abbrev main_v326 : Ref sig .tc := ⟨.hbm, 489, rfl⟩
abbrev main_v327 : Ref sig .tc := ⟨.hbm, 490, rfl⟩
abbrev main_v328 : Ref sig .tc := ⟨.hbm, 491, rfl⟩
abbrev main_v329 : Ref sig .tc := ⟨.hbm, 492, rfl⟩
abbrev main_v330 : Ref sig .tc := ⟨.hbm, 493, rfl⟩
abbrev main_v331 : Ref sig .tc := ⟨.hbm, 494, rfl⟩
abbrev main_v332 : Ref sig .tc := ⟨.hbm, 495, rfl⟩
abbrev main_v333 : Ref sig .tc := ⟨.hbm, 496, rfl⟩
abbrev main_v334 : Ref sig .tc := ⟨.hbm, 497, rfl⟩
abbrev main_call12_cst : Ref sig .tc := ⟨.hbm, 498, rfl⟩
abbrev main_call12_v0 : Ref sig .tc := ⟨.hbm, 499, rfl⟩
abbrev main_v335 : Ref sig .tc := ⟨.hbm, 500, rfl⟩
abbrev main_v336 : Ref sig .tc := ⟨.hbm, 501, rfl⟩
abbrev main_v337 : Ref sig .tc := ⟨.hbm, 502, rfl⟩
abbrev main_v338 : Ref sig .tc := ⟨.hbm, 503, rfl⟩
abbrev main_v339 : Ref sig .tc := ⟨.hbm, 504, rfl⟩
abbrev main_v340 : Ref sig .tc := ⟨.hbm, 505, rfl⟩
abbrev main_v341 : Ref sig .tc := ⟨.hbm, 506, rfl⟩
abbrev main_v342 : Ref sig .tc := ⟨.hbm, 507, rfl⟩
abbrev main_v343 : Ref sig .tc := ⟨.hbm, 508, rfl⟩
abbrev main_cst_49 : Ref sig .tc := ⟨.hbm, 509, rfl⟩
abbrev main_v344 : Ref sig .tc := ⟨.hbm, 510, rfl⟩
abbrev main_cst_50 : Ref sig .tc := ⟨.hbm, 511, rfl⟩
abbrev main_v345 : Ref sig .tc := ⟨.hbm, 512, rfl⟩
abbrev main_v346 : Ref sig .tc := ⟨.hbm, 513, rfl⟩
abbrev main_c_51 : Ref sig .tc := ⟨.hbm, 514, rfl⟩
abbrev main_call13_cst : Ref sig .tc := ⟨.hbm, 515, rfl⟩
abbrev main_call13_v0 : Ref sig .tc := ⟨.hbm, 516, rfl⟩
abbrev main_call13_v1 : Ref sig .tc := ⟨.hbm, 517, rfl⟩
abbrev main_call13_cst_0 : Ref sig .tc := ⟨.hbm, 518, rfl⟩
abbrev main_call13_v2 : Ref sig .tc := ⟨.hbm, 519, rfl⟩
abbrev main_call13_v3 : Ref sig .tc := ⟨.hbm, 520, rfl⟩
abbrev main_call13_v4 : Ref sig .tc := ⟨.hbm, 521, rfl⟩
abbrev main_call13_v5 : Ref sig .tc := ⟨.hbm, 522, rfl⟩
abbrev main_call13_v6 : Ref sig .tc := ⟨.hbm, 523, rfl⟩
abbrev main_call13_v7 : Ref sig .tc := ⟨.hbm, 524, rfl⟩
abbrev main_call13_cst_1 : Ref sig .tc := ⟨.hbm, 525, rfl⟩
abbrev main_call13_v8 : Ref sig .tc := ⟨.hbm, 526, rfl⟩
abbrev main_call13_cst_2 : Ref sig .tc := ⟨.hbm, 527, rfl⟩
abbrev main_call13_v9 : Ref sig .tc := ⟨.hbm, 528, rfl⟩
abbrev main_call13_v10 : Ref sig .tc := ⟨.hbm, 529, rfl⟩
abbrev main_call13_v11 : Ref sig .tc := ⟨.hbm, 530, rfl⟩
abbrev main_call13_cst_3 : Ref sig .tc := ⟨.hbm, 531, rfl⟩
abbrev main_call13_v12 : Ref sig .tc := ⟨.hbm, 532, rfl⟩
abbrev main_call13_cst_4 : Ref sig .tc := ⟨.hbm, 533, rfl⟩
abbrev main_call13_call0_v0 : Ref sig .tc := ⟨.hbm, 534, rfl⟩
abbrev main_call13_call0_v1 : Ref sig .tc := ⟨.hbm, 535, rfl⟩
abbrev main_v347 : Ref sig .tc := ⟨.hbm, 536, rfl⟩
abbrev main_v348 : Ref sig .tc := ⟨.hbm, 537, rfl⟩
abbrev main_v349 : Ref sig .tc := ⟨.hbm, 538, rfl⟩
abbrev main_v350 : Ref sig .tc := ⟨.hbm, 539, rfl⟩
abbrev main_cst_52 : Ref sig .tc := ⟨.hbm, 540, rfl⟩
abbrev main_v351 : Ref sig .tc := ⟨.hbm, 541, rfl⟩
abbrev main_v352 : Ref sig .tc := ⟨.hbm, 542, rfl⟩
abbrev main_v353 : Ref sig .tc := ⟨.hbm, 543, rfl⟩
abbrev main_v354 : Ref sig .tc := ⟨.hbm, 544, rfl⟩
abbrev main_v355 : Ref sig .tc := ⟨.hbm, 545, rfl⟩
abbrev main_v356 : Ref sig .tc := ⟨.hbm, 546, rfl⟩
abbrev main_v357 : Ref sig .tc := ⟨.hbm, 547, rfl⟩
abbrev main_v358 : Ref sig .tc := ⟨.hbm, 548, rfl⟩
abbrev main_v359 : Ref sig .tc := ⟨.hbm, 549, rfl⟩
abbrev main_v360 : Ref sig .tc := ⟨.hbm, 550, rfl⟩
abbrev main_v361 : Ref sig .tc := ⟨.hbm, 551, rfl⟩
abbrev main_v362 : Ref sig .tc := ⟨.hbm, 552, rfl⟩
abbrev main_v363 : Ref sig .tc := ⟨.hbm, 553, rfl⟩
abbrev main_v364 : Ref sig .tc := ⟨.hbm, 554, rfl⟩
abbrev main_v365 : Ref sig .tc := ⟨.hbm, 555, rfl⟩
abbrev main_v366 : Ref sig .tc := ⟨.hbm, 556, rfl⟩
abbrev main_call14_cst : Ref sig .tc := ⟨.hbm, 557, rfl⟩
abbrev main_call14_v0 : Ref sig .tc := ⟨.hbm, 558, rfl⟩
abbrev main_v367 : Ref sig .tc := ⟨.hbm, 559, rfl⟩
abbrev main_cst_53 : Ref sig .tc := ⟨.hbm, 560, rfl⟩
abbrev main_v368 : Ref sig .tc := ⟨.hbm, 561, rfl⟩
abbrev main_v369 : Ref sig .tc := ⟨.hbm, 562, rfl⟩
abbrev main_v370 : Ref sig .tc := ⟨.hbm, 563, rfl⟩
abbrev main_cst_54 : Ref sig .tc := ⟨.hbm, 564, rfl⟩
abbrev main_v371 : Ref sig .tc := ⟨.hbm, 565, rfl⟩
abbrev main_cst_55 : Ref sig .tc := ⟨.hbm, 566, rfl⟩
abbrev main_v372 : Ref sig .tc := ⟨.hbm, 567, rfl⟩
abbrev main_v373 : Ref sig .tc := ⟨.hbm, 568, rfl⟩
abbrev main_v374 : Ref sig .tc := ⟨.hbm, 569, rfl⟩
abbrev main_cst_56 : Ref sig .tc := ⟨.hbm, 570, rfl⟩
abbrev main_v375 : Ref sig .tc := ⟨.hbm, 571, rfl⟩
abbrev main_v376 : Ref sig .tc := ⟨.hbm, 572, rfl⟩
abbrev main_v377 : Ref sig .tc := ⟨.hbm, 573, rfl⟩
abbrev main_v378 : Ref sig .tc := ⟨.hbm, 574, rfl⟩
abbrev main_v379 : Ref sig .tc := ⟨.hbm, 575, rfl⟩

abbrev nD : Nat := 1
abbrev τ : Topo := Topo.v7x

variable {F : FTy → Type} [FloatOps F]

class Facts₀ : Prop where
  slices_S2x256000_S1x256000_0_0 : S2x256000.Slices ![0, 0] S1x256000
  shapeCasts_S1x256000_S256000 : S1x256000.ShapeCasts S256000
  slices_S2x256000_S1x256000_1_0 : S2x256000.Slices ![1, 0] S1x256000
  slices_S256000x2_S256000x1_0_0 : S256000x2.Slices ![0, 0] S256000x1
  shapeCasts_S256000x1_S256000 : S256000x1.ShapeCasts S256000
  slices_S256000x2_S256000x1_0_1 : S256000x2.Slices ![0, 1] S256000x1
  slices_S5x6x300_S1x6x300_0_0_0 : S5x6x300.Slices ![0, 0, 0] S1x6x300
  shapeCasts_S1x6x300_S6x300 : S1x6x300.ShapeCasts S6x300
  bcast_S_S256000 : S_.BroadcastsInDim S256000 (![] : Fin 0 → Fin S256000.rank)
  bcast_S256000_S256000x1_0 : S256000.BroadcastsInDim S256000x1 (![0] : Fin 1 → Fin S256000x1.rank)
  slices_S5x3x300_S1x3x300_0_0_0 : S5x3x300.Slices ![0, 0, 0] S1x3x300
  shapeCasts_S1x3x300_S3x300 : S1x3x300.ShapeCasts S3x300
  bcast_S_S50000x300 : S_.BroadcastsInDim S50000x300 (![] : Fin 0 → Fin S50000x300.rank)
  slices_S5x300x600_S1x300x600_0_0_0 : S5x300x600.Slices ![0, 0, 0] S1x300x600
  shapeCasts_S1x300x600_S300x600 : S1x300x600.ShapeCasts S300x600
  slices_S5x600_S1x600_0_0 : S5x600.Slices ![0, 0] S1x600
  shapeCasts_S1x600_S600 : S1x600.ShapeCasts S600
  bcast_S600_S1x600_1 : S600.BroadcastsInDim S1x600 (![1] : Fin 1 → Fin S1x600.rank)
  bcast_S1x600_S50000x600_0_1 : S1x600.BroadcastsInDim S50000x600 (![0, 1] : Fin 2 → Fin S50000x600.rank)
  bcast_S_S50000x600 : S_.BroadcastsInDim S50000x600 (![] : Fin 0 → Fin S50000x600.rank)
  slices_S5x600x300_S1x600x300_0_0_0 : S5x600x300.Slices ![0, 0, 0] S1x600x300
  shapeCasts_S1x600x300_S600x300 : S1x600x300.ShapeCasts S600x300
  slices_S5x300_S1x300_0_0 : S5x300.Slices ![0, 0] S1x300
  shapeCasts_S1x300_S300 : S1x300.ShapeCasts S300
  bcast_S300_S1x300_1 : S300.BroadcastsInDim S1x300 (![1] : Fin 1 → Fin S1x300.rank)
  bcast_S1x300_S50000x300_0_1 : S1x300.BroadcastsInDim S50000x300 (![0, 1] : Fin 2 → Fin S50000x300.rank)
  reducesTo_S50000x300_S300_d0 : S50000x300.ReducesTo [0] S300
  h_S_ : 0 < S_.numel
  bcast_S_S300 : S_.BroadcastsInDim S300 (![] : Fin 0 → Fin S300.rank)
  bcast_S_S1x300 : S_.BroadcastsInDim S1x300 (![] : Fin 0 → Fin S1x300.rank)
  slices_S5x6x300_S1x6x300_1_0_0 : S5x6x300.Slices ![1, 0, 0] S1x6x300
  slices_S5x3x300_S1x3x300_1_0_0 : S5x3x300.Slices ![1, 0, 0] S1x3x300
  slices_S5x300x600_S1x300x600_1_0_0 : S5x300x600.Slices ![1, 0, 0] S1x300x600
  slices_S5x600_S1x600_1_0 : S5x600.Slices ![1, 0] S1x600
  slices_S5x600x300_S1x600x300_1_0_0 : S5x600x300.Slices ![1, 0, 0] S1x600x300
  slices_S5x300_S1x300_1_0 : S5x300.Slices ![1, 0] S1x300
  slices_S5x6x300_S1x6x300_2_0_0 : S5x6x300.Slices ![2, 0, 0] S1x6x300
  slices_S5x3x300_S1x3x300_2_0_0 : S5x3x300.Slices ![2, 0, 0] S1x3x300
  slices_S5x300x600_S1x300x600_2_0_0 : S5x300x600.Slices ![2, 0, 0] S1x300x600
  slices_S5x600_S1x600_2_0 : S5x600.Slices ![2, 0] S1x600
  slices_S5x600x300_S1x600x300_2_0_0 : S5x600x300.Slices ![2, 0, 0] S1x600x300
  slices_S5x300_S1x300_2_0 : S5x300.Slices ![2, 0] S1x300
  slices_S5x6x300_S1x6x300_3_0_0 : S5x6x300.Slices ![3, 0, 0] S1x6x300
  slices_S5x3x300_S1x3x300_3_0_0 : S5x3x300.Slices ![3, 0, 0] S1x3x300
  slices_S5x300x600_S1x300x600_3_0_0 : S5x300x600.Slices ![3, 0, 0] S1x300x600
  slices_S5x600_S1x600_3_0 : S5x600.Slices ![3, 0] S1x600
  slices_S5x600x300_S1x600x300_3_0_0 : S5x600x300.Slices ![3, 0, 0] S1x600x300
  slices_S5x300_S1x300_3_0 : S5x300.Slices ![3, 0] S1x300
  slices_S5x6x300_S1x6x300_4_0_0 : S5x6x300.Slices ![4, 0, 0] S1x6x300
  slices_S5x3x300_S1x3x300_4_0_0 : S5x3x300.Slices ![4, 0, 0] S1x3x300
  slices_S5x300x600_S1x300x600_4_0_0 : S5x300x600.Slices ![4, 0, 0] S1x300x600
  slices_S5x600_S1x600_4_0 : S5x600.Slices ![4, 0] S1x600
  slices_S5x600x300_S1x600x300_4_0_0 : S5x600x300.Slices ![4, 0, 0] S1x600x300
  slices_S5x300_S1x300_4_0 : S5x300.Slices ![4, 0] S1x300
  bcast_S_S512x300 : S_.BroadcastsInDim S512x300 (![] : Fin 0 → Fin S512x300.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S512 : S_.BroadcastsInDim S512 (![] : Fin 0 → Fin S512.rank)
  bcast_S512_S512x1_0 : S512.BroadcastsInDim S512x1 (![0] : Fin 1 → Fin S512x1.rank)
  bcast_S512x1_S512x300_0_1 : S512x1.BroadcastsInDim S512x300 (![0, 1] : Fin 2 → Fin S512x300.rank)
  gather_S6x300_S256000x1_S256000x300_1_0_n_n_0_1_1300_wf : GatherDims.WF S6x300 S256000x1 S256000x300 [1] [0] [] [0] [] 1 ![1, 300]
  gather_S3x300_S256000x1_S256000x300_1_0_n_n_0_1_1300_wf : GatherDims.WF S3x300 S256000x1 S256000x300 [1] [0] [] [0] [] 1 ![1, 300]
  gather_S50000x300_S256000x1_S256000x300_1_0_n_n_0_1_1300_wf : GatherDims.WF S50000x300 S256000x1 S256000x300 [1] [0] [] [0] [] 1 ![1, 300]
  scatter_S50000x300_S256000x1_S256000x300_1_0_0_1_wf : ScatterDims.WF S50000x300 S256000x1 S256000x300 [1] [0] [0] 1
  dot_S50000x300_S300x600_S50000x600_1_0_0_1_n_n_wf : DotDims.WF S50000x300 S300x600 S50000x600 [1] [0] [0] [1] [] []
  dot_S50000x600_S600x300_S50000x300_1_0_0_1_n_n_wf : DotDims.WF S50000x600 S600x300 S50000x300 [1] [0] [0] [1] [] []
  scatter_S512x300_S50000x1_S50000x300_1_0_0_1_wf : ScatterDims.WF S512x300 S50000x1 S50000x300 [1] [0] [0] 1
  scatter_S512_S50000x1_S50000_n_0_0_1_wf : ScatterDims.WF S512 S50000x1 S50000 [] [0] [0] 1

variable [Facts₀]

def gather_S6x300_S256000x1_S256000x300_1_0_n_n_0_1_1300 : GatherDims S6x300 S256000x1 S256000x300 where
  offsetDims := [1]
  collapsedSliceDims := [0]
  operandBatchingDims := []
  startIndicesBatchingDims := []
  startIndexMap := [0]
  indexVectorDim := 1
  sliceSizes := ![1, 300]
  wf := gather_S6x300_S256000x1_S256000x300_1_0_n_n_0_1_1300_wf
def gather_S3x300_S256000x1_S256000x300_1_0_n_n_0_1_1300 : GatherDims S3x300 S256000x1 S256000x300 where
  offsetDims := [1]
  collapsedSliceDims := [0]
  operandBatchingDims := []
  startIndicesBatchingDims := []
  startIndexMap := [0]
  indexVectorDim := 1
  sliceSizes := ![1, 300]
  wf := gather_S3x300_S256000x1_S256000x300_1_0_n_n_0_1_1300_wf
def gather_S50000x300_S256000x1_S256000x300_1_0_n_n_0_1_1300 : GatherDims S50000x300 S256000x1 S256000x300 where
  offsetDims := [1]
  collapsedSliceDims := [0]
  operandBatchingDims := []
  startIndicesBatchingDims := []
  startIndexMap := [0]
  indexVectorDim := 1
  sliceSizes := ![1, 300]
  wf := gather_S50000x300_S256000x1_S256000x300_1_0_n_n_0_1_1300_wf
def scatter_S50000x300_S256000x1_S256000x300_1_0_0_1 : ScatterDims S50000x300 S256000x1 S256000x300 where
  updateWindowDims := [1]
  insertedWindowDims := [0]
  scatterDimsToOperandDims := [0]
  indexVectorDim := 1
  wf := scatter_S50000x300_S256000x1_S256000x300_1_0_0_1_wf
def dot_S50000x300_S300x600_S50000x600_1_0_0_1_n_n : DotDims S50000x300 S300x600 S50000x600 where
  lhsContracting := [1]
  rhsContracting := [0]
  lhsNonContracting := [0]
  rhsNonContracting := [1]
  lhsBatch := []
  rhsBatch := []
  wf := dot_S50000x300_S300x600_S50000x600_1_0_0_1_n_n_wf
def dot_S50000x600_S600x300_S50000x300_1_0_0_1_n_n : DotDims S50000x600 S600x300 S50000x300 where
  lhsContracting := [1]
  rhsContracting := [0]
  lhsNonContracting := [0]
  rhsNonContracting := [1]
  lhsBatch := []
  rhsBatch := []
  wf := dot_S50000x600_S600x300_S50000x300_1_0_0_1_n_n_wf
def scatter_S512x300_S50000x1_S50000x300_1_0_0_1 : ScatterDims S512x300 S50000x1 S50000x300 where
  updateWindowDims := [1]
  insertedWindowDims := [0]
  scatterDimsToOperandDims := [0]
  indexVectorDim := 1
  wf := scatter_S512x300_S50000x1_S50000x300_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf

class Facts : Prop extends Facts₀ where

variable [Facts]
-- ==== Proof.Consts.lean ====
/- The float constants the kernel and the reference spell, as the extended reals their bit patterns denote at the ideal
   instance (`Ideal.ofBits`, PureOps/Ideal.lean). This is the one module of the proof that unfolds `Ideal.ofBits` and
   `Ideal.ieee`; every value proof reads its constants here. The f32 words met: `0x00000000` (0), `0x3F800000` (1),
   `0x47435000` (50000, the number of rows the batch statistics average over), `0x3727C5AC` (the batch-norm epsilon,
   `10995116 · 2⁻⁴⁰`), `0x7F800000` (+∞, the bound of the finiteness precondition) and `0x7FC00000` (the fill value of
   the variance's guard, which the guard never selects). -/
import Idealize.ShloMosaic.PureOps.Ideal
import Idealize.ShloMosaic.Lib.IdealHost

noncomputable section

namespace Cert.Consts

open Idealize.ShloMosaic

/-- `+0.0` denotes `0`. -/
theorem ofBits_zero : Ideal.ofBits .f32 0x00000000#32 = 0 := Ideal.ofBits_zero_f32

/-- `1.0` denotes `1`. -/
theorem ofBits_one : Ideal.ofBits .f32 0x3F800000#32 = 1 := Ideal.ofBits_one_f32

/-- `50000.0` denotes the real `50000`: exponent field 142, significand `2²³ + 4411392 = 12800000`, and
    `12800000 · 2⁻⁸ = 50000`. -/
theorem ofBits_50000 : Ideal.ofBits .f32 0x47435000#32 = ((50000 : ℝ) : EReal) := by
  simp [Ideal.ofBits, Ideal.ieee, -EReal.coe_mul]; norm_num

/-- The all-ones exponent with a zero significand and a clear sign bit denotes `+∞`. -/
theorem ofBits_inf : Ideal.ofBits .f32 0x7F800000#32 = ⊤ := by
  simp [Ideal.ofBits, Ideal.ieee]

/-- The all-ones exponent with a nonzero significand (a NaN pattern) denotes the junk value `⊥`. -/
theorem ofBits_nan : Ideal.ofBits .f32 0x7FC00000#32 = ⊥ := by
  simp [Ideal.ofBits, Ideal.ieee]

/-- The batch-norm epsilon as a real: the f32 nearest `10⁻⁵`. -/
def eps : ℝ := 10995116 * (2 : ℝ) ^ (-40 : Int)

/-- `0x3727C5AC` denotes `eps`: exponent field 110, significand `2²³ + 2606508 = 10995116`, scaled by
    `2^(110 - 127 - 23) = 2⁻⁴⁰`. -/
theorem ofBits_eps : Ideal.ofBits .f32 0x3727C5AC#32 = ((eps : ℝ) : EReal) := by
  simp [Ideal.ofBits, Ideal.ieee, eps, -EReal.coe_mul]

theorem eps_pos : 0 < eps := by unfold eps; positivity

/-- The epsilon word denotes a positive extended real. -/
theorem ofBits_eps_pos : (0 : EReal) < Ideal.ofBits .f32 0x3727C5AC#32 := by
  rw [ofBits_eps]; exact_mod_cast eps_pos

/-- The epsilon word denotes a real (neither infinity). -/
theorem ofBits_eps_real : ∃ r : ℝ, 0 < r ∧ Ideal.ofBits .f32 0x3727C5AC#32 = ((r : ℝ) : EReal) :=
  ⟨eps, eps_pos, ofBits_eps⟩

/-! ### The variance's guard

The reference's variance divides by `50000 - ddof` with `ddof` the integer `0` converted to a float, and keeps the
quotient where `50000 - ddof > 0` (else a NaN). The divisor is `50000` and the guard is decided: it is set. -/

/-- The integer `0` converted to a float is `0`. -/
theorem sitofp_zero : FloatOps.sitofp (F := Ideal) .f32 (0#32 : BitVec 32) = 0 := by
  show (((0#32 : BitVec 32).toInt : ℝ) : EReal) = 0
  simp

/-- The variance's divisor `50000 - 0` is the real `50000`. -/
theorem var_den : Ideal.ofBits .f32 0x47435000#32 - FloatOps.sitofp (F := Ideal) .f32 (0#32 : BitVec 32)
    = ((50000 : ℝ) : EReal) := by
  rw [sitofp_zero, ofBits_50000, sub_zero]

/-- The guard `50000 - 0 > 0` is set. -/
theorem var_guard : Ideal.cmp .ogt (Ideal.ofBits .f32 0x47435000#32 - FloatOps.sitofp (F := Ideal) .f32 (0#32 : BitVec 32))
    (Ideal.ofBits .f32 0x00000000#32) = 1#1 := by
  rw [var_den, ofBits_zero]
  have h : (0 : EReal) < ((50000 : ℝ) : EReal) := by exact_mod_cast (by norm_num : (0 : ℝ) < 50000)
  simp [Ideal.cmp, h]

/-- The same guard as the instance's fields spell it. -/
theorem var_guard' : FloatOps.cmpf (F := Ideal) .ogt
    (FloatOps.subf (FloatOps.ofBits (F := Ideal) .f32 0x47435000#32) (FloatOps.sitofp (F := Ideal) .f32 (0#32 : BitVec 32)))
    (FloatOps.ofBits (F := Ideal) .f32 0x00000000#32) = 1#1 := var_guard

/-- `50000` is not zero, so dividing by it is multiplying by its inverse (`Ideal.div` off zero). -/
theorem fifty_thousand_ne_zero : ((50000 : ℝ) : EReal) ≠ 0 := by
  exact_mod_cast (by norm_num : (50000 : ℝ) ≠ 0)

end Cert.Consts

end
-- ==== Proof.PreReal.lean ====
/- From the finiteness precondition to reals. The precondition `finite_inputs` is, for each of the nine float
   arguments, `jnp.all(|a| < +∞)`, and the conjunction of the nine: printed as one `stablehlo.reduce` by `and` of the
   compare `|a| < +∞` per argument, joined by `stablehlo.and`. At the ideal instance a float is an extended real and
   `|x|` is `max x (-x)`, so `|x| < ⊤` excludes both infinities: every entry of every float argument is a real. The
   mean/variance algebra and the pooling need exactly this (a sum of reals is a real; `0 · ±∞` never arises). -/
import proofs.«409348_j89627377533173_1_alg».proof.Defs
import proofs.«409348_j89627377533173_1_alg».proof.Proof.Consts
import Idealize.ShloMosaic.Lib.ReduceAll
import Idealize.ShloMosaic.Lib.IdealHost

noncomputable section

namespace Cert.PreReal

open Idealize.ShloMosaic Idealize.ShloMosaic.ValueIdx Cert.Pre_finite_inputs

/-- Every entry of a float array is a real (neither infinity). Reducible: it is the statement `∀ i, ∃ r : ℝ, x i = r`. -/
abbrev AllReal {s : Shape} (x : FVec Ideal s .f32) : Prop := ∀ i, ∃ r : ℝ, x i = r

/-- The rank-0 shape has one index. -/
instance : Subsingleton S_.Idx := ⟨fun a b => funext fun d => d.elim0⟩

/-- An extended real whose absolute value `max x (-x)` is below `⊤` is a real: `⊥` and `⊤` both have absolute value `⊤`. -/
theorem real_of_abs_lt_top (x : EReal) (h : max x (-x) < ⊤) : ∃ r : ℝ, x = r := by
  induction x using EReal.rec with
  | bot => simp at h
  | coe r => exact ⟨r, rfl⟩
  | top => simp at h

/-- One entry: where the compare `|a| < +∞` is set, the entry is a real. -/
theorem entry_real {s : Shape} (hb : S_.BroadcastsInDim s (![] : Fin 0 → Fin s.rank)) (x : FVec Ideal s .f32) (i : s.Idx)
    (h : cmpf .olt (Host.absf x) (broadcastInDim s ![] hb (constant S_ .f32 0x7F800000#32)) i = 1#1) :
    ∃ r : ℝ, x i = r := by
  rw [cmpf_apply, broadcastInDim_scalar_apply, constant_apply, Consts.ofBits_inf] at h
  have h2 : BitVec.ofBool (decide (max (x i) (-(x i)) < (⊤ : EReal))) = 1#1 := h
  refine real_of_abs_lt_top _ ?_
  by_contra hn
  rw [decide_eq_false hn] at h2
  exact absurd h2 (by decide)

/-- One argument: where `jnp.all(|a| < +∞)` is set, every entry is a real. -/
theorem array_real {s : Shape} {axes : List (Fin s.rank)} (hb : S_.BroadcastsInDim s (![] : Fin 0 → Fin s.rank))
    (hr : s.ReducesTo axes S_) (hu : 0 < S_.numel) (x : FVec Ideal s .f32)
    (h : Host.reduce IntOp.andi (cmpf .olt (Host.absf x) (broadcastInDim s ![] hb (constant S_ .f32 0x7F800000#32)))
      (constantI S_ 1 1#1) hr hu ix0 = 1#1) (i : s.Idx) : ∃ r : ℝ, x i = r :=
  entry_real hb x i (Host.reduce_andi_all _ _ hr hu ix0 h i)

variable [Cert.Pre_finite_inputs.Facts]

/-- The precondition at the ideal instance, all ones: every entry of each of the nine float arguments (the node features,
    the two edge-embedding tables, the two layers' weights and biases, the batch-norm scale and shift) is a real. The three
    integer arguments are not constrained. -/
theorem real_of_pre (a0 : FVec Ideal S50000x300 .f32) (a1 : FVec Ideal S5x6x300 .f32) (a2 : FVec Ideal S5x3x300 .f32)
    (a3 : FVec Ideal S5x300x600 .f32) (a4 : FVec Ideal S5x600 .f32) (a5 : FVec Ideal S5x600x300 .f32)
    (a6 a7 a8 : FVec Ideal S5x300 .f32) (a9 : IVec S2x256000 32) (a10 : IVec S256000x2 32) (a11 : IVec S50000 32)
    (h : Cert.Pre_finite_inputs.fn (F := Ideal) a0 a1 a2 a3 a4 a5 a6 a7 a8 a9 a10 a11 = fun _ => 1#1) :
    (∀ i, ∃ r : ℝ, a0 i = r) ∧ (∀ i, ∃ r : ℝ, a1 i = r) ∧ (∀ i, ∃ r : ℝ, a2 i = r) ∧ (∀ i, ∃ r : ℝ, a3 i = r)
      ∧ (∀ i, ∃ r : ℝ, a4 i = r) ∧ (∀ i, ∃ r : ℝ, a5 i = r) ∧ (∀ i, ∃ r : ℝ, a6 i = r) ∧ (∀ i, ∃ r : ℝ, a7 i = r)
      ∧ (∀ i, ∃ r : ℝ, a8 i = r) := by
  have h0 := congrFun h ix0
  dsimp only [fn, fn_part1, fn_part2] at h0
  simp only [andi, IntOp.andi_eq_one] at h0
  obtain ⟨⟨⟨⟨⟨⟨⟨⟨e0, e1⟩, e2⟩, e3⟩, e4⟩, e5⟩, e6⟩, e7⟩, e8⟩ := h0
  exact ⟨array_real _ _ _ a0 e0, array_real _ _ _ a1 e1, array_real _ _ _ a2 e2, array_real _ _ _ a3 e3,
    array_real _ _ _ a4 e4, array_real _ _ _ a5 e5, array_real _ _ _ a6 e6, array_real _ _ _ a7 e7,
    array_real _ _ _ a8 e8⟩

/-- At a memory of which the idealized kernel's precondition holds, on every core every entry of the nine float arguments
    is a real. Each argument buffer is read at its literal shape. -/
theorem real_of_Pre_KernelIdeal
    (m : (ℓ : Loc Cert.KernelIdeal.nD Cert.KernelIdeal.τ Cert.KernelIdeal.sig) → Buf (Elt Ideal) ℓ)
    (hm : Cert.Pre_KernelIdeal m) (c : Dev Cert.KernelIdeal.nD) :
    AllReal (s := S50000x300) (m ((c.tc : Thread Cert.KernelIdeal.nD Cert.KernelIdeal.τ).loc Cert.KernelIdeal.main_arg0))
      ∧ AllReal (s := S5x6x300) (m ((c.tc : Thread Cert.KernelIdeal.nD Cert.KernelIdeal.τ).loc Cert.KernelIdeal.main_arg1))
      ∧ AllReal (s := S5x3x300) (m ((c.tc : Thread Cert.KernelIdeal.nD Cert.KernelIdeal.τ).loc Cert.KernelIdeal.main_arg2))
      ∧ AllReal (s := S5x300x600) (m ((c.tc : Thread Cert.KernelIdeal.nD Cert.KernelIdeal.τ).loc Cert.KernelIdeal.main_arg3))
      ∧ AllReal (s := S5x600) (m ((c.tc : Thread Cert.KernelIdeal.nD Cert.KernelIdeal.τ).loc Cert.KernelIdeal.main_arg4))
      ∧ AllReal (s := S5x600x300) (m ((c.tc : Thread Cert.KernelIdeal.nD Cert.KernelIdeal.τ).loc Cert.KernelIdeal.main_arg5))
      ∧ AllReal (s := S5x300) (m ((c.tc : Thread Cert.KernelIdeal.nD Cert.KernelIdeal.τ).loc Cert.KernelIdeal.main_arg6))
      ∧ AllReal (s := S5x300) (m ((c.tc : Thread Cert.KernelIdeal.nD Cert.KernelIdeal.τ).loc Cert.KernelIdeal.main_arg7))
      ∧ AllReal (s := S5x300) (m ((c.tc : Thread Cert.KernelIdeal.nD Cert.KernelIdeal.τ).loc Cert.KernelIdeal.main_arg8)) :=
  real_of_pre _ _ _ _ _ _ _ _ _ _ _ _ (hm c)

/-- The same of the idealized reference's precondition. -/
theorem real_of_Pre_ReferenceIdeal
    (m : (ℓ : Loc Cert.ReferenceIdeal.nD Cert.ReferenceIdeal.τ Cert.ReferenceIdeal.sig) → Buf (Elt Ideal) ℓ)
    (hm : Cert.Pre_ReferenceIdeal m) (c : Dev Cert.ReferenceIdeal.nD) :
    AllReal (s := S50000x300) (m ((c.tc : Thread Cert.ReferenceIdeal.nD Cert.ReferenceIdeal.τ).loc Cert.ReferenceIdeal.main_arg0))
      ∧ AllReal (s := S5x6x300) (m ((c.tc : Thread Cert.ReferenceIdeal.nD Cert.ReferenceIdeal.τ).loc Cert.ReferenceIdeal.main_arg1))
      ∧ AllReal (s := S5x3x300) (m ((c.tc : Thread Cert.ReferenceIdeal.nD Cert.ReferenceIdeal.τ).loc Cert.ReferenceIdeal.main_arg2))
      ∧ AllReal (s := S5x300x600) (m ((c.tc : Thread Cert.ReferenceIdeal.nD Cert.ReferenceIdeal.τ).loc Cert.ReferenceIdeal.main_arg3))
      ∧ AllReal (s := S5x600) (m ((c.tc : Thread Cert.ReferenceIdeal.nD Cert.ReferenceIdeal.τ).loc Cert.ReferenceIdeal.main_arg4))
      ∧ AllReal (s := S5x600x300) (m ((c.tc : Thread Cert.ReferenceIdeal.nD Cert.ReferenceIdeal.τ).loc Cert.ReferenceIdeal.main_arg5))
      ∧ AllReal (s := S5x300) (m ((c.tc : Thread Cert.ReferenceIdeal.nD Cert.ReferenceIdeal.τ).loc Cert.ReferenceIdeal.main_arg6))
      ∧ AllReal (s := S5x300) (m ((c.tc : Thread Cert.ReferenceIdeal.nD Cert.ReferenceIdeal.τ).loc Cert.ReferenceIdeal.main_arg7))
      ∧ AllReal (s := S5x300) (m ((c.tc : Thread Cert.ReferenceIdeal.nD Cert.ReferenceIdeal.τ).loc Cert.ReferenceIdeal.main_arg8)) :=
  real_of_pre _ _ _ _ _ _ _ _ _ _ _ _ (hm c)

end Cert.PreReal

end
-- ==== Proof.Assemble.lean ====
/- The assembly. The five claims of the certificate from three runs and one equation:
   * the kernel's run, at the bit-exact and at the ideal instance, whose post names the final contents `W m c b` of every
     unscoped buffer `b` on every core, together with the fact that `W` has each argument as launched;
   * the reference's run at the ideal instance, whose post names its two results `out1`, `out2` and has each argument
     as launched;
   * the equation of the results: from memories that agree on the arguments, the kernel's precondition holding (so that
     every entry of the nine float arguments is a real), the reference's results are the kernel's final contents of its two
     result buffers.
   The frames are the runs read at the arguments; `preserves` is trivial (the idealization rewrote no operation); the
   algebraic claim takes the kernel's final result buffers as the common value. -/
import proofs.«409348_j89627377533173_1_alg».proof.Defs
import proofs.«409348_j89627377533173_1_alg».proof.Proof.Gen.Kernel
import proofs.«409348_j89627377533173_1_alg».proof.Proof.Gen.KernelIdeal
import proofs.«409348_j89627377533173_1_alg».proof.Proof.Gen.ReferenceIdeal
import proofs.«409348_j89627377533173_1_alg».proof.Proof.Gen.Pre_finite_inputs
import proofs.«409348_j89627377533173_1_alg».proof.Proof.PreReal
import Idealize.ShloMosaic.Lib.Pipeline.Frame
import Idealize.ShloMosaic.Lib.StableHlo.Run

-- decided memberships over the programs' several hundred references recurse past the default depth
set_option maxRecDepth 2516

noncomputable section

namespace Cert.Proof.Assemble

open Idealize.ShloMosaic Idealize.ShloMosaic.TcCoe Idealize.SL.Sem

/-! ## `Kernel` at `Bits`: the frame from a run that names every unscoped buffer's final contents -/

section K

/-- An unscoped TensorCore reference is among those the last thread state holds. -/
theorem mem_ucK (b : Ref Cert.Kernel.sig .tc) (h : ¬ (Proc.devRef .tc b : DevRef Cert.Kernel.τ Cert.Kernel.sig).isScoped) :
    Proc.devRef .tc b ∈ Pipeline.ucRefs Cert.Kernel.τ Cert.Kernel.sig :=
  Finset.mem_filter.mpr ⟨StableHlo.devRef_mem_tcRefs b, h⟩

variable (W : ((ℓ : Loc Cert.Kernel.nD Cert.Kernel.τ Cert.Kernel.sig) → Buf (Elt Bits) ℓ) → Dev Cert.Kernel.nD → Valuation Cert.Kernel.τ Cert.Kernel.sig (Elt Bits))
  (run : ∀ (m : ((ℓ : Loc Cert.Kernel.nD Cert.Kernel.τ Cert.Kernel.sig) → Buf (Elt Bits) ℓ)) (ρ : Dev Cert.Kernel.nD → PrngReg),
    θ_run (Cert.Kernel.defs (F := Bits)) (onTc (τ := Cert.Kernel.τ) (Cert.Kernel.main (F := Bits))) ⟨m, fun _ => 0, ρ⟩
      (fun r => ∀ c : Dev Cert.Kernel.nD, ∀ b ∈ Pipeline.ucRefs Cert.Kernel.τ Cert.Kernel.sig,
        r.2.mem ((c : Thread Cert.Kernel.nD Cert.Kernel.τ).1, b) = W m c b))
  (W_args : ∀ (m : ((ℓ : Loc Cert.Kernel.nD Cert.Kernel.τ Cert.Kernel.sig) → Buf (Elt Bits) ℓ)) (c : Dev Cert.Kernel.nD),
      W m c (Proc.devRef .tc Cert.Kernel.main_arg0) = m ((c.tc : Thread Cert.Kernel.nD Cert.Kernel.τ).loc Cert.Kernel.main_arg0)
      ∧ W m c (Proc.devRef .tc Cert.Kernel.main_arg1) = m ((c.tc : Thread Cert.Kernel.nD Cert.Kernel.τ).loc Cert.Kernel.main_arg1)
      ∧ W m c (Proc.devRef .tc Cert.Kernel.main_arg2) = m ((c.tc : Thread Cert.Kernel.nD Cert.Kernel.τ).loc Cert.Kernel.main_arg2)
      ∧ W m c (Proc.devRef .tc Cert.Kernel.main_arg3) = m ((c.tc : Thread Cert.Kernel.nD Cert.Kernel.τ).loc Cert.Kernel.main_arg3)
      ∧ W m c (Proc.devRef .tc Cert.Kernel.main_arg4) = m ((c.tc : Thread Cert.Kernel.nD Cert.Kernel.τ).loc Cert.Kernel.main_arg4)
      ∧ W m c (Proc.devRef .tc Cert.Kernel.main_arg5) = m ((c.tc : Thread Cert.Kernel.nD Cert.Kernel.τ).loc Cert.Kernel.main_arg5)
      ∧ W m c (Proc.devRef .tc Cert.Kernel.main_arg6) = m ((c.tc : Thread Cert.Kernel.nD Cert.Kernel.τ).loc Cert.Kernel.main_arg6)
      ∧ W m c (Proc.devRef .tc Cert.Kernel.main_arg7) = m ((c.tc : Thread Cert.Kernel.nD Cert.Kernel.τ).loc Cert.Kernel.main_arg7)
      ∧ W m c (Proc.devRef .tc Cert.Kernel.main_arg8) = m ((c.tc : Thread Cert.Kernel.nD Cert.Kernel.τ).loc Cert.Kernel.main_arg8)
      ∧ W m c (Proc.devRef .tc Cert.Kernel.main_arg9) = m ((c.tc : Thread Cert.Kernel.nD Cert.Kernel.τ).loc Cert.Kernel.main_arg9)
      ∧ W m c (Proc.devRef .tc Cert.Kernel.main_arg10) = m ((c.tc : Thread Cert.Kernel.nD Cert.Kernel.τ).loc Cert.Kernel.main_arg10)
      ∧ W m c (Proc.devRef .tc Cert.Kernel.main_arg11) = m ((c.tc : Thread Cert.Kernel.nD Cert.Kernel.τ).loc Cert.Kernel.main_arg11))

include run W_args in
/-- Every argument array ends holding its launch contents: each is an unscoped buffer, read off the last valuation,
    which has it as launched. -/
theorem args_K (m : ((ℓ : Loc Cert.Kernel.nD Cert.Kernel.τ Cert.Kernel.sig) → Buf (Elt Bits) ℓ)) (ρ : Dev Cert.Kernel.nD → PrngReg) :
    θ_run (Cert.Kernel.defs (F := Bits)) (onTc (τ := Cert.Kernel.τ) (Cert.Kernel.main (F := Bits))) ⟨m, fun _ => 0, ρ⟩
      (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)) := by
  refine (θ_run (Cert.Kernel.defs (F := Bits)) _ _).mono (fun r h c => ?_) (run m ρ)
  obtain ⟨a0, a1, a2, a3, a4, a5, a6, a7, a8, a9, a10, a11⟩ := W_args m c
  exact ⟨(h c _ (mem_ucK Cert.Kernel.main_arg0 (by decide))).trans a0,
    (h c _ (mem_ucK Cert.Kernel.main_arg1 (by decide))).trans a1,
    (h c _ (mem_ucK Cert.Kernel.main_arg2 (by decide))).trans a2,
    (h c _ (mem_ucK Cert.Kernel.main_arg3 (by decide))).trans a3,
    (h c _ (mem_ucK Cert.Kernel.main_arg4 (by decide))).trans a4,
    (h c _ (mem_ucK Cert.Kernel.main_arg5 (by decide))).trans a5,
    (h c _ (mem_ucK Cert.Kernel.main_arg6 (by decide))).trans a6,
    (h c _ (mem_ucK Cert.Kernel.main_arg7 (by decide))).trans a7,
    (h c _ (mem_ucK Cert.Kernel.main_arg8 (by decide))).trans a8,
    (h c _ (mem_ucK Cert.Kernel.main_arg9 (by decide))).trans a9,
    (h c _ (mem_ucK Cert.Kernel.main_arg10 (by decide))).trans a10,
    (h c _ (mem_ucK Cert.Kernel.main_arg11 (by decide))).trans a11⟩

end K

/-! ## `KernelIdeal` at `Ideal`: the frame from a run that names every unscoped buffer's final contents -/

section KI

/-- An unscoped TensorCore reference is among those the last thread state holds. -/
theorem mem_ucKI (b : Ref Cert.KernelIdeal.sig .tc) (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

variable (W : ((ℓ : Loc Cert.KernelIdeal.nD Cert.KernelIdeal.τ Cert.KernelIdeal.sig) → Buf (Elt Ideal) ℓ) → Dev Cert.KernelIdeal.nD → Valuation Cert.KernelIdeal.τ Cert.KernelIdeal.sig (Elt Ideal))
  (run : ∀ (m : ((ℓ : Loc Cert.KernelIdeal.nD Cert.KernelIdeal.τ Cert.KernelIdeal.sig) → Buf (Elt Ideal) ℓ)) (ρ : Dev Cert.KernelIdeal.nD → PrngReg),
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD, ∀ b ∈ Pipeline.ucRefs Cert.KernelIdeal.τ Cert.KernelIdeal.sig,
        r.2.mem ((c : Thread Cert.KernelIdeal.nD Cert.KernelIdeal.τ).1, b) = W m c b))
  (W_args : ∀ (m : ((ℓ : Loc Cert.KernelIdeal.nD Cert.KernelIdeal.τ Cert.KernelIdeal.sig) → Buf (Elt Ideal) ℓ)) (c : Dev Cert.KernelIdeal.nD),
      W m c (Proc.devRef .tc Cert.KernelIdeal.main_arg0) = m ((c.tc : Thread Cert.KernelIdeal.nD Cert.KernelIdeal.τ).loc Cert.KernelIdeal.main_arg0)
      ∧ W m c (Proc.devRef .tc Cert.KernelIdeal.main_arg1) = m ((c.tc : Thread Cert.KernelIdeal.nD Cert.KernelIdeal.τ).loc Cert.KernelIdeal.main_arg1)
      ∧ W m c (Proc.devRef .tc Cert.KernelIdeal.main_arg2) = m ((c.tc : Thread Cert.KernelIdeal.nD Cert.KernelIdeal.τ).loc Cert.KernelIdeal.main_arg2)
      ∧ W m c (Proc.devRef .tc Cert.KernelIdeal.main_arg3) = m ((c.tc : Thread Cert.KernelIdeal.nD Cert.KernelIdeal.τ).loc Cert.KernelIdeal.main_arg3)
      ∧ W m c (Proc.devRef .tc Cert.KernelIdeal.main_arg4) = m ((c.tc : Thread Cert.KernelIdeal.nD Cert.KernelIdeal.τ).loc Cert.KernelIdeal.main_arg4)
      ∧ W m c (Proc.devRef .tc Cert.KernelIdeal.main_arg5) = m ((c.tc : Thread Cert.KernelIdeal.nD Cert.KernelIdeal.τ).loc Cert.KernelIdeal.main_arg5)
      ∧ W m c (Proc.devRef .tc Cert.KernelIdeal.main_arg6) = m ((c.tc : Thread Cert.KernelIdeal.nD Cert.KernelIdeal.τ).loc Cert.KernelIdeal.main_arg6)
      ∧ W m c (Proc.devRef .tc Cert.KernelIdeal.main_arg7) = m ((c.tc : Thread Cert.KernelIdeal.nD Cert.KernelIdeal.τ).loc Cert.KernelIdeal.main_arg7)
      ∧ W m c (Proc.devRef .tc Cert.KernelIdeal.main_arg8) = m ((c.tc : Thread Cert.KernelIdeal.nD Cert.KernelIdeal.τ).loc Cert.KernelIdeal.main_arg8)
      ∧ W m c (Proc.devRef .tc Cert.KernelIdeal.main_arg9) = m ((c.tc : Thread Cert.KernelIdeal.nD Cert.KernelIdeal.τ).loc Cert.KernelIdeal.main_arg9)
      ∧ W m c (Proc.devRef .tc Cert.KernelIdeal.main_arg10) = m ((c.tc : Thread Cert.KernelIdeal.nD Cert.KernelIdeal.τ).loc Cert.KernelIdeal.main_arg10)
      ∧ W m c (Proc.devRef .tc Cert.KernelIdeal.main_arg11) = m ((c.tc : Thread Cert.KernelIdeal.nD Cert.KernelIdeal.τ).loc Cert.KernelIdeal.main_arg11))

include run W_args in
/-- Every argument array ends holding its launch contents: each is an unscoped buffer, read off the last valuation,
    which has it as launched. -/
theorem args_KI (m : ((ℓ : Loc Cert.KernelIdeal.nD Cert.KernelIdeal.τ Cert.KernelIdeal.sig) → Buf (Elt Ideal) ℓ)) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)) := by
  refine (θ_run (Cert.KernelIdeal.defs (F := Ideal)) _ _).mono (fun r h c => ?_) (run m ρ)
  obtain ⟨a0, a1, a2, a3, a4, a5, a6, a7, a8, a9, a10, a11⟩ := W_args m c
  exact ⟨(h c _ (mem_ucKI Cert.KernelIdeal.main_arg0 (by decide))).trans a0,
    (h c _ (mem_ucKI Cert.KernelIdeal.main_arg1 (by decide))).trans a1,
    (h c _ (mem_ucKI Cert.KernelIdeal.main_arg2 (by decide))).trans a2,
    (h c _ (mem_ucKI Cert.KernelIdeal.main_arg3 (by decide))).trans a3,
    (h c _ (mem_ucKI Cert.KernelIdeal.main_arg4 (by decide))).trans a4,
    (h c _ (mem_ucKI Cert.KernelIdeal.main_arg5 (by decide))).trans a5,
    (h c _ (mem_ucKI Cert.KernelIdeal.main_arg6 (by decide))).trans a6,
    (h c _ (mem_ucKI Cert.KernelIdeal.main_arg7 (by decide))).trans a7,
    (h c _ (mem_ucKI Cert.KernelIdeal.main_arg8 (by decide))).trans a8,
    (h c _ (mem_ucKI Cert.KernelIdeal.main_arg9 (by decide))).trans a9,
    (h c _ (mem_ucKI Cert.KernelIdeal.main_arg10 (by decide))).trans a10,
    (h c _ (mem_ucKI Cert.KernelIdeal.main_arg11 (by decide))).trans a11⟩

end KI

/-! ## The claims -/

/-- The memories agree on the twelve arguments, core by core (the algebraic claim's hypothesis). -/
abbrev Agree (m : ((ℓ : Loc Cert.KernelIdeal.nD Cert.KernelIdeal.τ Cert.KernelIdeal.sig) → Buf (Elt Ideal) ℓ)) (m' : ((ℓ : Loc Cert.ReferenceIdeal.nD Cert.ReferenceIdeal.τ Cert.ReferenceIdeal.sig) → Buf (Elt Ideal) ℓ)) : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)

/-- On core `c`, every entry of each of the nine float arguments is a real (what the finiteness precondition gives). -/
abbrev Reals (m : ((ℓ : Loc Cert.KernelIdeal.nD Cert.KernelIdeal.τ Cert.KernelIdeal.sig) → Buf (Elt Ideal) ℓ)) (c : Dev Cert.KernelIdeal.nD) : Prop :=
  Cert.PreReal.AllReal (s := Cert.Pre_finite_inputs.S50000x300) (m ((c.tc : Thread Cert.KernelIdeal.nD Cert.KernelIdeal.τ).loc Cert.KernelIdeal.main_arg0))
      ∧ Cert.PreReal.AllReal (s := Cert.Pre_finite_inputs.S5x6x300) (m ((c.tc : Thread Cert.KernelIdeal.nD Cert.KernelIdeal.τ).loc Cert.KernelIdeal.main_arg1))
      ∧ Cert.PreReal.AllReal (s := Cert.Pre_finite_inputs.S5x3x300) (m ((c.tc : Thread Cert.KernelIdeal.nD Cert.KernelIdeal.τ).loc Cert.KernelIdeal.main_arg2))
      ∧ Cert.PreReal.AllReal (s := Cert.Pre_finite_inputs.S5x300x600) (m ((c.tc : Thread Cert.KernelIdeal.nD Cert.KernelIdeal.τ).loc Cert.KernelIdeal.main_arg3))
      ∧ Cert.PreReal.AllReal (s := Cert.Pre_finite_inputs.S5x600) (m ((c.tc : Thread Cert.KernelIdeal.nD Cert.KernelIdeal.τ).loc Cert.KernelIdeal.main_arg4))
      ∧ Cert.PreReal.AllReal (s := Cert.Pre_finite_inputs.S5x600x300) (m ((c.tc : Thread Cert.KernelIdeal.nD Cert.KernelIdeal.τ).loc Cert.KernelIdeal.main_arg5))
      ∧ Cert.PreReal.AllReal (s := Cert.Pre_finite_inputs.S5x300) (m ((c.tc : Thread Cert.KernelIdeal.nD Cert.KernelIdeal.τ).loc Cert.KernelIdeal.main_arg6))
      ∧ Cert.PreReal.AllReal (s := Cert.Pre_finite_inputs.S5x300) (m ((c.tc : Thread Cert.KernelIdeal.nD Cert.KernelIdeal.τ).loc Cert.KernelIdeal.main_arg7))
      ∧ Cert.PreReal.AllReal (s := Cert.Pre_finite_inputs.S5x300) (m ((c.tc : Thread Cert.KernelIdeal.nD Cert.KernelIdeal.τ).loc Cert.KernelIdeal.main_arg8))

section Claims

variable
  (WK : ((ℓ : Loc Cert.Kernel.nD Cert.Kernel.τ Cert.Kernel.sig) → Buf (Elt Bits) ℓ) → Dev Cert.Kernel.nD → Valuation Cert.Kernel.τ Cert.Kernel.sig (Elt Bits))
  (runK : ∀ (m : ((ℓ : Loc Cert.Kernel.nD Cert.Kernel.τ Cert.Kernel.sig) → Buf (Elt Bits) ℓ)) (ρ : Dev Cert.Kernel.nD → PrngReg),
    θ_run (Cert.Kernel.defs (F := Bits)) (onTc (τ := Cert.Kernel.τ) (Cert.Kernel.main (F := Bits))) ⟨m, fun _ => 0, ρ⟩
      (fun r => ∀ c : Dev Cert.Kernel.nD, ∀ b ∈ Pipeline.ucRefs Cert.Kernel.τ Cert.Kernel.sig,
        r.2.mem ((c : Thread Cert.Kernel.nD Cert.Kernel.τ).1, b) = WK m c b))
  (WK_args : ∀ (m : ((ℓ : Loc Cert.Kernel.nD Cert.Kernel.τ Cert.Kernel.sig) → Buf (Elt Bits) ℓ)) (c : Dev Cert.Kernel.nD),
      WK m c (Proc.devRef .tc Cert.Kernel.main_arg0) = m ((c.tc : Thread Cert.Kernel.nD Cert.Kernel.τ).loc Cert.Kernel.main_arg0)
      ∧ WK m c (Proc.devRef .tc Cert.Kernel.main_arg1) = m ((c.tc : Thread Cert.Kernel.nD Cert.Kernel.τ).loc Cert.Kernel.main_arg1)
      ∧ WK m c (Proc.devRef .tc Cert.Kernel.main_arg2) = m ((c.tc : Thread Cert.Kernel.nD Cert.Kernel.τ).loc Cert.Kernel.main_arg2)
      ∧ WK m c (Proc.devRef .tc Cert.Kernel.main_arg3) = m ((c.tc : Thread Cert.Kernel.nD Cert.Kernel.τ).loc Cert.Kernel.main_arg3)
      ∧ WK m c (Proc.devRef .tc Cert.Kernel.main_arg4) = m ((c.tc : Thread Cert.Kernel.nD Cert.Kernel.τ).loc Cert.Kernel.main_arg4)
      ∧ WK m c (Proc.devRef .tc Cert.Kernel.main_arg5) = m ((c.tc : Thread Cert.Kernel.nD Cert.Kernel.τ).loc Cert.Kernel.main_arg5)
      ∧ WK m c (Proc.devRef .tc Cert.Kernel.main_arg6) = m ((c.tc : Thread Cert.Kernel.nD Cert.Kernel.τ).loc Cert.Kernel.main_arg6)
      ∧ WK m c (Proc.devRef .tc Cert.Kernel.main_arg7) = m ((c.tc : Thread Cert.Kernel.nD Cert.Kernel.τ).loc Cert.Kernel.main_arg7)
      ∧ WK m c (Proc.devRef .tc Cert.Kernel.main_arg8) = m ((c.tc : Thread Cert.Kernel.nD Cert.Kernel.τ).loc Cert.Kernel.main_arg8)
      ∧ WK m c (Proc.devRef .tc Cert.Kernel.main_arg9) = m ((c.tc : Thread Cert.Kernel.nD Cert.Kernel.τ).loc Cert.Kernel.main_arg9)
      ∧ WK m c (Proc.devRef .tc Cert.Kernel.main_arg10) = m ((c.tc : Thread Cert.Kernel.nD Cert.Kernel.τ).loc Cert.Kernel.main_arg10)
      ∧ WK m c (Proc.devRef .tc Cert.Kernel.main_arg11) = m ((c.tc : Thread Cert.Kernel.nD Cert.Kernel.τ).loc Cert.Kernel.main_arg11))
  (WKI : ((ℓ : Loc Cert.KernelIdeal.nD Cert.KernelIdeal.τ Cert.KernelIdeal.sig) → Buf (Elt Ideal) ℓ) → Dev Cert.KernelIdeal.nD → Valuation Cert.KernelIdeal.τ Cert.KernelIdeal.sig (Elt Ideal))
  (runKI : ∀ (m : ((ℓ : Loc Cert.KernelIdeal.nD Cert.KernelIdeal.τ Cert.KernelIdeal.sig) → Buf (Elt Ideal) ℓ)) (ρ : Dev Cert.KernelIdeal.nD → PrngReg),
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD, ∀ b ∈ Pipeline.ucRefs Cert.KernelIdeal.τ Cert.KernelIdeal.sig,
        r.2.mem ((c : Thread Cert.KernelIdeal.nD Cert.KernelIdeal.τ).1, b) = WKI m c b))
  (WKI_args : ∀ (m : ((ℓ : Loc Cert.KernelIdeal.nD Cert.KernelIdeal.τ Cert.KernelIdeal.sig) → Buf (Elt Ideal) ℓ)) (c : Dev Cert.KernelIdeal.nD),
      WKI m c (Proc.devRef .tc Cert.KernelIdeal.main_arg0) = m ((c.tc : Thread Cert.KernelIdeal.nD Cert.KernelIdeal.τ).loc Cert.KernelIdeal.main_arg0)
      ∧ WKI m c (Proc.devRef .tc Cert.KernelIdeal.main_arg1) = m ((c.tc : Thread Cert.KernelIdeal.nD Cert.KernelIdeal.τ).loc Cert.KernelIdeal.main_arg1)
      ∧ WKI m c (Proc.devRef .tc Cert.KernelIdeal.main_arg2) = m ((c.tc : Thread Cert.KernelIdeal.nD Cert.KernelIdeal.τ).loc Cert.KernelIdeal.main_arg2)
      ∧ WKI m c (Proc.devRef .tc Cert.KernelIdeal.main_arg3) = m ((c.tc : Thread Cert.KernelIdeal.nD Cert.KernelIdeal.τ).loc Cert.KernelIdeal.main_arg3)
      ∧ WKI m c (Proc.devRef .tc Cert.KernelIdeal.main_arg4) = m ((c.tc : Thread Cert.KernelIdeal.nD Cert.KernelIdeal.τ).loc Cert.KernelIdeal.main_arg4)
      ∧ WKI m c (Proc.devRef .tc Cert.KernelIdeal.main_arg5) = m ((c.tc : Thread Cert.KernelIdeal.nD Cert.KernelIdeal.τ).loc Cert.KernelIdeal.main_arg5)
      ∧ WKI m c (Proc.devRef .tc Cert.KernelIdeal.main_arg6) = m ((c.tc : Thread Cert.KernelIdeal.nD Cert.KernelIdeal.τ).loc Cert.KernelIdeal.main_arg6)
      ∧ WKI m c (Proc.devRef .tc Cert.KernelIdeal.main_arg7) = m ((c.tc : Thread Cert.KernelIdeal.nD Cert.KernelIdeal.τ).loc Cert.KernelIdeal.main_arg7)
      ∧ WKI m c (Proc.devRef .tc Cert.KernelIdeal.main_arg8) = m ((c.tc : Thread Cert.KernelIdeal.nD Cert.KernelIdeal.τ).loc Cert.KernelIdeal.main_arg8)
      ∧ WKI m c (Proc.devRef .tc Cert.KernelIdeal.main_arg9) = m ((c.tc : Thread Cert.KernelIdeal.nD Cert.KernelIdeal.τ).loc Cert.KernelIdeal.main_arg9)
      ∧ WKI m c (Proc.devRef .tc Cert.KernelIdeal.main_arg10) = m ((c.tc : Thread Cert.KernelIdeal.nD Cert.KernelIdeal.τ).loc Cert.KernelIdeal.main_arg10)
      ∧ WKI m c (Proc.devRef .tc Cert.KernelIdeal.main_arg11) = m ((c.tc : Thread Cert.KernelIdeal.nD Cert.KernelIdeal.τ).loc Cert.KernelIdeal.main_arg11))
  (out1 : ((ℓ : Loc Cert.ReferenceIdeal.nD Cert.ReferenceIdeal.τ Cert.ReferenceIdeal.sig) → Buf (Elt Ideal) ℓ) → (c : Dev Cert.ReferenceIdeal.nD) → Buf (Elt Ideal) ((c.tc : Thread Cert.ReferenceIdeal.nD Cert.ReferenceIdeal.τ).loc Cert.ReferenceIdeal.main_v367))
  (out2 : ((ℓ : Loc Cert.ReferenceIdeal.nD Cert.ReferenceIdeal.τ Cert.ReferenceIdeal.sig) → Buf (Elt Ideal) ℓ) → (c : Dev Cert.ReferenceIdeal.nD) → Buf (Elt Ideal) ((c.tc : Thread Cert.ReferenceIdeal.nD Cert.ReferenceIdeal.τ).loc Cert.ReferenceIdeal.main_v379))
  (runR : ∀ (m' : ((ℓ : Loc Cert.ReferenceIdeal.nD Cert.ReferenceIdeal.τ Cert.ReferenceIdeal.sig) → Buf (Elt Ideal) ℓ)) (ρ' : Dev Cert.ReferenceIdeal.nD → PrngReg),
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v367) = out1 m' c
        ∧ r.2.mem ((c.tc : Thread Cert.ReferenceIdeal.nD Cert.ReferenceIdeal.τ).loc Cert.ReferenceIdeal.main_v379) = out2 m' c
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)))
  (glue : ∀ (m : ((ℓ : Loc Cert.KernelIdeal.nD Cert.KernelIdeal.τ Cert.KernelIdeal.sig) → Buf (Elt Ideal) ℓ)) (m' : ((ℓ : Loc Cert.ReferenceIdeal.nD Cert.ReferenceIdeal.τ Cert.ReferenceIdeal.sig) → Buf (Elt Ideal) ℓ)),
    Cert.Pre_KernelIdeal m → (∀ c, Reals m c) → Agree m m' → ∀ c : Dev Cert.KernelIdeal.nD,
      out1 m' c = WKI m c (Proc.devRef .tc Cert.KernelIdeal.main_v308)
      ∧ out2 m' c = WKI m c (Proc.devRef .tc Cert.KernelIdeal.main_v313))

include runK WK_args in
/-- The kernel as printed runs and leaves its arguments as launched. -/
theorem frame_p : Cert.frame_Kernel := fun m ρ _ => args_K WK runK WK_args m ρ

include runKI WKI_args in
/-- The idealized kernel runs and leaves its arguments as launched. -/
theorem frame_pi : Cert.frame_KernelIdeal := fun m ρ _ => args_KI WKI runKI WKI_args m ρ

include runR in
/-- The idealized reference runs and leaves its arguments as launched: its run's post without the two results. -/
theorem frame_ri : Cert.frame_ReferenceIdeal := fun m ρ _ =>
  (θ_run (Cert.ReferenceIdeal.defs (F := Ideal)) _ _).mono (fun _ h c => (h c).2.2) (runR m ρ)

/-- The ideal pass rewrote no operation: the idealization is the program's own text read at the ideal instance. -/
theorem preserves : Cert.preserves_Kernel_KernelIdeal := trivial

include runKI WKI_args runR glue in
/-- From memories agreeing on the arguments, the kernel's precondition holding, both programs run, end with equal results
    — the kernel's final contents of its two result buffers, which the reference's two results equal — and unchanged
    arguments. -/
theorem algebraic : Cert.algebraic_KernelIdeal_ReferenceIdeal := by
  intro m ρ m' ρ' hpre hagree
  refine ⟨fun c => WKI m c (Proc.devRef .tc Cert.KernelIdeal.main_v308),
    fun c => WKI m c (Proc.devRef .tc Cert.KernelIdeal.main_v313), ?_, ?_⟩
  · refine (θ_run (Cert.KernelIdeal.defs (F := Ideal)) _ _).mono (fun r h c => ?_) (runKI m ρ)
    obtain ⟨a0, a1, a2, a3, a4, a5, a6, a7, a8, a9, a10, a11⟩ := WKI_args m c
    exact ⟨h c _ (mem_ucKI Cert.KernelIdeal.main_v308 (by decide)), h c _ (mem_ucKI Cert.KernelIdeal.main_v313 (by decide)),
      (h c _ (mem_ucKI Cert.KernelIdeal.main_arg0 (by decide))).trans a0,
      (h c _ (mem_ucKI Cert.KernelIdeal.main_arg1 (by decide))).trans a1,
      (h c _ (mem_ucKI Cert.KernelIdeal.main_arg2 (by decide))).trans a2,
      (h c _ (mem_ucKI Cert.KernelIdeal.main_arg3 (by decide))).trans a3,
      (h c _ (mem_ucKI Cert.KernelIdeal.main_arg4 (by decide))).trans a4,
      (h c _ (mem_ucKI Cert.KernelIdeal.main_arg5 (by decide))).trans a5,
      (h c _ (mem_ucKI Cert.KernelIdeal.main_arg6 (by decide))).trans a6,
      (h c _ (mem_ucKI Cert.KernelIdeal.main_arg7 (by decide))).trans a7,
      (h c _ (mem_ucKI Cert.KernelIdeal.main_arg8 (by decide))).trans a8,
      (h c _ (mem_ucKI Cert.KernelIdeal.main_arg9 (by decide))).trans a9,
      (h c _ (mem_ucKI Cert.KernelIdeal.main_arg10 (by decide))).trans a10,
      (h c _ (mem_ucKI Cert.KernelIdeal.main_arg11 (by decide))).trans a11⟩
  · have hg := glue m m' hpre (fun c => Cert.PreReal.real_of_Pre_KernelIdeal m hpre c) hagree
    refine (θ_run (Cert.ReferenceIdeal.defs (F := Ideal)) _ _).mono (fun r h c => ?_) (runR m' ρ')
    exact ⟨(h c).1.trans (hg c).1, (h c).2.1.trans (hg c).2, (h c).2.2⟩

end Claims

end Cert.Proof.Assemble

end
-- ==== Proof.K.RegMlp0.lean ====
import proofs.«409348_j89627377533173_1_alg».proof.Proof.Gen.Kernel.Launch
import proofs.«409348_j89627377533173_1_alg».proof.Proof.Gen.Kernel.Skeleton
import proofs.«409348_j89627377533173_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 0 of @main: custom_call 0, `cc0__mlp_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, fetched there or not (an input
    fetched at the first point only keeps its block: the index never moves). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev r0_a : Rect S1000x300 := Rect.unit (s := S1000x300) ![0, 0] S1000x300.size inb_S1000x300_S1000x300_0_0
abbrev r0_b : Rect S300x600 := Rect.unit (s := S300x600) ![0, 0] S300x600.size inb_S300x600_S300x600_0_0
abbrev r0_c : Rect S1x600 := Rect.unit (s := S1x600) ![0, 0] S1x600.size inb_S1x600_S1x600_0_0
abbrev r0_d : Rect S600x300 := Rect.unit (s := S600x300) ![0, 0] S600x300.size inb_S600x300_S600x300_0_0
abbrev r0_e : Rect S1x300 := Rect.unit (s := S1x300) ![0, 0] S1x300.size inb_S1x300_S1x300_0_0

/-! ## What the body leaves: the z block, the two running sums, the copies out -/

/-- The z block the body stores at a point, from the six input blocks (the skeleton's payload `k0_pay5`). -/
def z0 (x0 x1 : Vec F S1000x300 .f32) (x2 : Vec F S300x600 .f32) (x3 : Vec F S1x600 .f32) (x4 : Vec F S600x300 .f32) (x5 : Vec F S1x300 .f32) : FVec F S1000x300 .f32 :=
  k0_pay5 (View.ld x0 r0_a) (View.ld x1 r0_a) (View.ld x2 r0_b) (View.ld x3 r0_c) (View.ld x4 r0_d) (View.ld x5 r0_e)

/-- Output window 6's staging buffer after the body: its one store. -/
def out0_6 (x0 x1 : Vec F S1000x300 .f32) (x2 : Vec F S300x600 .f32) (x3 : Vec F S1x600 .f32) (x4 : Vec F S600x300 .f32) (x5 : Vec F S1x300 .f32) : Vec F S1000x300 .f32 :=
  View.canon [⟨r0_a, z0 x0 x1 x2 x3 x4 x5⟩]

/-- Scratch 0 (the running column sums) after the body's add, over what it held (`s`). -/
def stepS0 (x0 x1 : Vec F S1000x300 .f32) (x2 : Vec F S300x600 .f32) (x3 : Vec F S1x600 .f32) (x4 : Vec F S600x300 .f32) (x5 : Vec F S1x300 .f32) (s : Vec F S1x300 .f32) : Vec F S1x300 .f32 :=
  View.canon [⟨r0_e, k0_pay1 (k0_pay6 (View.ld x0 r0_a) (View.ld x1 r0_a) (View.ld x2 r0_b) (View.ld x3 r0_c) (View.ld x4 r0_d) (View.ld x5 r0_e) (View.ld s r0_e))⟩]

/-- Scratch 1 (the running column sums of squares) after the body's add, over what it held (`q`). -/
def stepQ0 (x0 x1 : Vec F S1000x300 .f32) (x2 : Vec F S300x600 .f32) (x3 : Vec F S1x600 .f32) (x4 : Vec F S600x300 .f32) (x5 : Vec F S1x300 .f32) (q : Vec F S1x300 .f32) : Vec F S1x300 .f32 :=
  View.canon [⟨r0_e, k0_pay2 (z0 x0 x1 x2 x3 x4 x5) (View.ld q r0_e)⟩]

/-- What the first point's reset leaves in scratch 0 and in scratch 1: zeros. -/
def zeroS0 : Vec F S1x300 .f32 := View.canon [⟨r0_e, k0_pay3 (F := F)⟩]
def zeroQ0 : Vec F S1x300 .f32 := View.canon [⟨r0_e, k0_pay4 (F := F)⟩]

/-- What the last point's copy leaves in output window 7's (8's) staging buffer, from the scratch's contents. -/
def out0_7 (s : Vec F S1x300 .f32) : Vec F S1x300 .f32 := View.canon [⟨r0_e, View.ld s r0_e⟩]

/-- The zero offsets of every access, as a function. -/
theorem hz0 : (![0, 0] : Fin 2 → ℕ) = fun _ => 0 := by funext a; fin_cases a <;> rfl

/-! ### Whole-buffer accesses read through (Lib/Pipeline/Value.lean): a load through the whole shape at zero offsets
    reads the contents, a store through it (last) leaves its payload, a load of what one such store left reads it -/

theorem ld0_a (X : Vec F S1000x300 .f32) : View.ld X r0_a = X := View.ld_unit_zero (S := S1000x300) hz0 _ X
theorem ld0_b (X : Vec F S300x600 .f32) : View.ld X r0_b = X := View.ld_unit_zero (S := S300x600) hz0 _ X
theorem ld0_c (X : Vec F S1x600 .f32) : View.ld X r0_c = X := View.ld_unit_zero (S := S1x600) hz0 _ X
theorem ld0_d (X : Vec F S600x300 .f32) : View.ld X r0_d = X := View.ld_unit_zero (S := S600x300) hz0 _ X
theorem ld0_e (X : Vec F S1x300 .f32) : View.ld X r0_e = X := View.ld_unit_zero (S := S1x300) hz0 _ X
theorem canon0_a (w : Vec F S1000x300 .f32) (L : List (View.Piece (Elt F) S1000x300 .f32)) :
    View.canon ((⟨r0_a, w⟩ : View.Piece (Elt F) S1000x300 .f32) :: L) = w := View.canon_cons_unit_zero (S := S1000x300) hz0 _ w L
theorem canon0_e (w : Vec F S1x300 .f32) (L : List (View.Piece (Elt F) S1x300 .f32)) :
    View.canon ((⟨r0_e, w⟩ : View.Piece (Elt F) S1x300 .f32) :: L) = w := View.canon_cons_unit_zero (S := S1x300) hz0 _ w L
theorem readCov0_e {κ : Kind} {sp : Space} (v : View sig κ sp S1x300 .f32) (w : Vec F S1x300 .f32) :
    v.readCov [(⟨r0_e, w⟩ : View.Piece (Elt F) S1x300 .f32)] r0_e.toLoadRect = w := View.readCov_unit_zero (S := S1x300) v hz0 _ w

theorem z0_eq (x0 x1 : Vec F S1000x300 .f32) (x2 : Vec F S300x600 .f32) (x3 : Vec F S1x600 .f32) (x4 : Vec F S600x300 .f32) (x5 : Vec F S1x300 .f32) : z0 x0 x1 x2 x3 x4 x5 = k0_pay5 x0 x1 x2 x3 x4 x5 := by
  unfold z0; rw [ld0_a, ld0_a, ld0_b, ld0_c, ld0_d, ld0_e]
theorem out0_6_eq (x0 x1 : Vec F S1000x300 .f32) (x2 : Vec F S300x600 .f32) (x3 : Vec F S1x600 .f32) (x4 : Vec F S600x300 .f32) (x5 : Vec F S1x300 .f32) : out0_6 x0 x1 x2 x3 x4 x5 = k0_pay5 x0 x1 x2 x3 x4 x5 := by
  unfold out0_6; rw [canon0_a, z0_eq]
theorem stepS0_eq (x0 x1 : Vec F S1000x300 .f32) (x2 : Vec F S300x600 .f32) (x3 : Vec F S1x600 .f32) (x4 : Vec F S600x300 .f32) (x5 : Vec F S1x300 .f32) (s : Vec F S1x300 .f32) :
    stepS0 x0 x1 x2 x3 x4 x5 s = k0_pay1 (k0_pay6 x0 x1 x2 x3 x4 x5 s) := by
  unfold stepS0; rw [canon0_e, ld0_a, ld0_a, ld0_b, ld0_c, ld0_d, ld0_e, ld0_e]
theorem stepQ0_eq (x0 x1 : Vec F S1000x300 .f32) (x2 : Vec F S300x600 .f32) (x3 : Vec F S1x600 .f32) (x4 : Vec F S600x300 .f32) (x5 : Vec F S1x300 .f32) (q : Vec F S1x300 .f32) :
    stepQ0 x0 x1 x2 x3 x4 x5 q = k0_pay2 (k0_pay5 x0 x1 x2 x3 x4 x5) q := by
  unfold stepQ0; rw [canon0_e, z0_eq, ld0_e]
theorem zeroS0_eq : zeroS0 (F := F) = k0_pay3 (F := F) := by unfold zeroS0; rw [canon0_e]
theorem zeroQ0_eq : zeroQ0 (F := F) = k0_pay4 (F := F) := by unfold zeroQ0; rw [canon0_e]
theorem out0_7_eq (s : Vec F S1x300 .f32) : out0_7 s = s := by
  unfold out0_7; rw [canon0_e, ld0_e]

/-- THE ACCUMULATION: scratch 0 after the body at position `n` — the add over the reset at the first point, over
    what the point before left at every later one. -/
def accS0 (c : Dev nD) : (n : ℕ) → n < cfg0.N → Vec F S1x300 .f32
  | 0, hn => stepS0 (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (zeroS0 (F := F))
  | n + 1, hn => stepS0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (accS0 c n (Nat.lt_of_succ_lt hn))

/-- and scratch 1. -/
def accQ0 (c : Dev nD) : (n : ℕ) → n < cfg0.N → Vec F S1x300 .f32
  | 0, hn => stepQ0 (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (zeroQ0 (F := F))
  | n + 1, hn => stepQ0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (accQ0 c n (Nat.lt_of_succ_lt hn))

theorem accS0_zero (c : Dev nD) (hn : 0 < cfg0.N) :
    accS0 V c 0 hn = stepS0 (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (zeroS0 (F := F)) := rfl
theorem accS0_succ (c : Dev nD) (n : ℕ) (hn : n + 1 < cfg0.N) :
    accS0 V c (n + 1) hn = stepS0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (accS0 V c n (Nat.lt_of_succ_lt hn)) := rfl
theorem accQ0_zero (c : Dev nD) (hn : 0 < cfg0.N) :
    accQ0 V c 0 hn = stepQ0 (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (zeroQ0 (F := F)) := rfl
theorem accQ0_succ (c : Dev nD) (n : ℕ) (hn : n + 1 < cfg0.N) :
    accQ0 V c (n + 1) hn = stepQ0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (accQ0 V c n (Nat.lt_of_succ_lt hn)) := rfl

/-- The accumulators at the first point, and at a later one over what the point before left. -/
theorem accS0_A (c : Dev nD) (t : Fin cfg0.N) (hz : t.val = 0) :
    accS0 V c t.val t.isLt = stepS0 (iblk0 V c 0 t) (iblk0 V c 1 t) (iblk0 V c 2 t) (iblk0 V c 3 t) (iblk0 V c 4 t) (iblk0 V c 5 t) (zeroS0 (F := F)) := by
  obtain ⟨n, hn⟩ := t
  cases n with
  | zero => rfl
  | succ n => exact absurd hz (Nat.succ_ne_zero n)
theorem accS0_B (c : Dev nD) (t : Fin cfg0.N) (hz : t.val ≠ 0) :
    accS0 V c t.val t.isLt = stepS0 (iblk0 V c 0 t) (iblk0 V c 1 t) (iblk0 V c 2 t) (iblk0 V c 3 t) (iblk0 V c 4 t) (iblk0 V c 5 t) (accS0 V c (t.val - 1) (Nat.lt_of_le_of_lt (Nat.sub_le _ _) t.isLt)) := by
  obtain ⟨n, hn⟩ := t
  cases n with
  | zero => exact absurd rfl hz
  | succ n => rfl
theorem accQ0_A (c : Dev nD) (t : Fin cfg0.N) (hz : t.val = 0) :
    accQ0 V c t.val t.isLt = stepQ0 (iblk0 V c 0 t) (iblk0 V c 1 t) (iblk0 V c 2 t) (iblk0 V c 3 t) (iblk0 V c 4 t) (iblk0 V c 5 t) (zeroQ0 (F := F)) := by
  obtain ⟨n, hn⟩ := t
  cases n with
  | zero => rfl
  | succ n => exact absurd hz (Nat.succ_ne_zero n)
theorem accQ0_B (c : Dev nD) (t : Fin cfg0.N) (hz : t.val ≠ 0) :
    accQ0 V c t.val t.isLt = stepQ0 (iblk0 V c 0 t) (iblk0 V c 1 t) (iblk0 V c 2 t) (iblk0 V c 3 t) (iblk0 V c 4 t) (iblk0 V c 5 t) (accQ0 V c (t.val - 1) (Nat.lt_of_le_of_lt (Nat.sub_le _ _) t.isLt)) := by
  obtain ⟨n, hn⟩ := t
  cases n with
  | zero => exact absurd rfl hz
  | succ n => rfl

/-! ## The body's branch conditions -/

/-- The condition of the reset (`pl.when` on the first point), from the grid coordinates (the skeleton's scalar chain). -/
abbrev cond0_0 (i : grid0.Coords) : Prop := (Scalar.cmpi .ne (Scalar.extui (Scalar.cmpi .eq (BitVec.ofNat 32 (i 0).val) 0#32)) 0#32) = 1#1
/-- It holds at the first point only — decided over the grid. -/
theorem hcond0_0 : ∀ t : Fin cfg0.N, cond0_0 (grid0.coords t) ↔ t.val % 50 = 0 :=
  (by decide +kernel : ∀ t : Fin grid0.N, cond0_0 (grid0.coords t) ↔ t.val % 50 = 0)
/-- The condition of the copy out (`pl.when` on the last point). -/
abbrev cond0_1 (i : grid0.Coords) : Prop := k0_cond2 i = 1#1
/-- It holds at the last point only — decided over the grid. -/
theorem hcond0_1 : ∀ t : Fin cfg0.N, cond0_1 (grid0.coords t) ↔ t.val % 50 = 49 :=
  (by decide +kernel : ∀ t : Fin grid0.N, cond0_1 (grid0.coords t) ↔ t.val % 50 = 49)

/-! ## The body's stores cover the buffers they write (each is of the whole buffer) -/

theorem cover0_a (p0 : Vec F S1000x300 .f32) (y : S1000x300.Idx) :
    ∃ pc ∈ ([⟨r0_a, p0⟩] : List (View.Piece (Elt F) S1000x300 .f32)), y ∈ pc.1.set :=
  View.cover_of_tiled [⟨r0_a, p0⟩] S1000x300.size (by rfl) y
theorem cover0_e (p0 : Vec F S1x300 .f32) (y : S1x300.Idx) :
    ∃ pc ∈ ([⟨r0_e, p0⟩] : List (View.Piece (Elt F) S1x300 .f32)), y ∈ pc.1.set :=
  View.cover_of_tiled [⟨r0_e, p0⟩] S1x300.size (by rfl) y

theorem cover0_e_cons (p0 : Vec F S1x300 .f32) (L : List (View.Piece (Elt F) S1x300 .f32)) (y : S1x300.Idx) :
    ∃ pc ∈ ((⟨r0_e, p0⟩ :: L) : List (View.Piece (Elt F) S1x300 .f32)), y ∈ pc.1.set := by
  obtain ⟨pc, hpc, hy⟩ := cover0_e p0 y
  exact ⟨pc, List.mem_cons.mpr (Or.inl (List.mem_singleton.mp hpc)), hy⟩

/-! ## Where outputs 7 and 8 are idle: everywhere but at the last point, which alone writes them back -/

theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel

set_option maxHeartbeats 2000000 in
/-- The body at the first point: the two scratch accumulators, at anything, are reset and stepped. -/
theorem sound_kernel0_A (c : Dev nD) (E : Set ℕ) (i : grid0.Coords) (arg1 : Memref sig .tc .vmem S1000x300 .f32) (harg1 : arg1.IsWhole) (arg2 : Memref sig .tc .vmem S1000x300 .f32) (harg2 : arg2.IsWhole) (arg3 : Memref sig .tc .vmem S300x600 .f32) (harg3 : arg3.IsWhole) (arg4 : Memref sig .tc .vmem S1x600 .f32) (harg4 : arg4.IsWhole) (arg5 : Memref sig .tc .vmem S600x300 .f32) (harg5 : arg5.IsWhole) (arg6 : Memref sig .tc .vmem S1x300 .f32) (harg6 : arg6.IsWhole) (arg7 : Memref sig .tc .vmem S1000x300 .f32) (harg7 : arg7.IsWhole) (arg8 : Memref sig .tc .vmem S1x300 .f32) (harg8 : arg8.IsWhole) (arg9 : Memref sig .tc .vmem S1x300 .f32) (harg9 : arg9.IsWhole) (arg10 : Memref sig .tc .vmem S1x300 .f32) (harg10 : arg10.IsWhole) (arg11 : Memref sig .tc .vmem S1x300 .f32) (harg11 : arg11.IsWhole)
    (hc0 : cond0_0 i) (hc1 : ¬cond0_1 i) (x0 x1 : Vec F S1000x300 .f32) (x2 : Vec F S300x600 .f32) (x3 : Vec F S1x600 .f32) (x4 : Vec F S600x300 .f32) (x5 : Vec F S1x300 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)
            ∗ owns (c : Thread nD τ) arg10 fullShare (stepS0 x0 x1 x2 x3 x4 x5 (zeroS0 (F := F))) ∗ owns (c : Thread nD τ) arg11 fullShare (stepQ0 x0 x1 x2 x3 x4 x5 (zeroQ0 (F := F)))) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, ⟨%dq, %fq, -, HQ⟩, Hk⟩
  subst hf0 hf1 hf2 hf3 hf4 hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_a _)
  isplitl [HS]
  · iexists _; isplitr
    swap; · iexact HS
    ipureintro
    sl_unfold_run_names
    try rw [View.readCov_eq_canon_ld _ _ _ (cover0_e _)]
    exact (View.read_writes_eq_canon _ _ _ (cover0_e_cons _ _)).trans ((canon0_e _ _).trans (canon0_e _ []).symm)
  iexists _; isplitr
  swap; · iexact HQ
  ipureintro
  sl_unfold_run_names
  try rw [View.readCov_eq_canon_ld _ _ _ (cover0_e _)]
  exact (View.read_writes_eq_canon _ _ _ (cover0_e_cons _ _)).trans ((canon0_e _ _).trans (canon0_e _ []).symm)

set_option maxHeartbeats 2000000 in
/-- The body at a middle point (no reset, no copy out): the two scratch accumulators at `s`, `q` are stepped. -/
theorem sound_kernel0_B (c : Dev nD) (E : Set ℕ) (i : grid0.Coords) (arg1 : Memref sig .tc .vmem S1000x300 .f32) (harg1 : arg1.IsWhole) (arg2 : Memref sig .tc .vmem S1000x300 .f32) (harg2 : arg2.IsWhole) (arg3 : Memref sig .tc .vmem S300x600 .f32) (harg3 : arg3.IsWhole) (arg4 : Memref sig .tc .vmem S1x600 .f32) (harg4 : arg4.IsWhole) (arg5 : Memref sig .tc .vmem S600x300 .f32) (harg5 : arg5.IsWhole) (arg6 : Memref sig .tc .vmem S1x300 .f32) (harg6 : arg6.IsWhole) (arg7 : Memref sig .tc .vmem S1000x300 .f32) (harg7 : arg7.IsWhole) (arg8 : Memref sig .tc .vmem S1x300 .f32) (harg8 : arg8.IsWhole) (arg9 : Memref sig .tc .vmem S1x300 .f32) (harg9 : arg9.IsWhole) (arg10 : Memref sig .tc .vmem S1x300 .f32) (harg10 : arg10.IsWhole) (arg11 : Memref sig .tc .vmem S1x300 .f32) (harg11 : arg11.IsWhole)
    (hc0 : ¬cond0_0 i) (hc1 : ¬cond0_1 i) (x0 x1 : Vec F S1000x300 .f32) (x2 : Vec F S300x600 .f32) (x3 : Vec F S1x600 .f32) (x4 : Vec F S600x300 .f32) (x5 : Vec F S1x300 .f32) (s q : Vec F S1x300 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)
            ∗ owns (c : Thread nD τ) arg10 fullShare (stepS0 x0 x1 x2 x3 x4 x5 s) ∗ owns (c : Thread nD τ) arg11 fullShare (stepQ0 x0 x1 x2 x3 x4 x5 q)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, ⟨%fq, %hfq, HQ⟩, Hk⟩
  subst hf0 hf1 hf2 hf3 hf4 hf5 hfs hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_a _)
  isplitl [HS]
  · iexists _; isplitr
    swap; · iexact HS
    ipureintro
    exact View.read_writes_eq_canon _ _ _ (cover0_e _)
  iexists _; isplitr
  swap; · iexact HQ
  ipureintro
  exact View.read_writes_eq_canon _ _ _ (cover0_e _)

set_option maxHeartbeats 2000000 in
/-- The body at the last point: the two scratch accumulators at `s`, `q` are stepped and copied out to outputs 7 and 8. -/
theorem sound_kernel0_C (c : Dev nD) (E : Set ℕ) (i : grid0.Coords) (arg1 : Memref sig .tc .vmem S1000x300 .f32) (harg1 : arg1.IsWhole) (arg2 : Memref sig .tc .vmem S1000x300 .f32) (harg2 : arg2.IsWhole) (arg3 : Memref sig .tc .vmem S300x600 .f32) (harg3 : arg3.IsWhole) (arg4 : Memref sig .tc .vmem S1x600 .f32) (harg4 : arg4.IsWhole) (arg5 : Memref sig .tc .vmem S600x300 .f32) (harg5 : arg5.IsWhole) (arg6 : Memref sig .tc .vmem S1x300 .f32) (harg6 : arg6.IsWhole) (arg7 : Memref sig .tc .vmem S1000x300 .f32) (harg7 : arg7.IsWhole) (arg8 : Memref sig .tc .vmem S1x300 .f32) (harg8 : arg8.IsWhole) (arg9 : Memref sig .tc .vmem S1x300 .f32) (harg9 : arg9.IsWhole) (arg10 : Memref sig .tc .vmem S1x300 .f32) (harg10 : arg10.IsWhole) (arg11 : Memref sig .tc .vmem S1x300 .f32) (harg11 : arg11.IsWhole)
    (hc0 : ¬cond0_0 i) (hc1 : cond0_1 i) (x0 x1 : Vec F S1000x300 .f32) (x2 : Vec F S300x600 .f32) (x3 : Vec F S1x600 .f32) (x4 : Vec F S600x300 .f32) (x5 : Vec F S1x300 .f32) (s q : Vec F S1x300 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)
            ∗ owns (c : Thread nD τ) arg8 fullShare (out0_7 (stepS0 x0 x1 x2 x3 x4 x5 s)) ∗ owns (c : Thread nD τ) arg9 fullShare (out0_7 (stepQ0 x0 x1 x2 x3 x4 x5 q))
            ∗ owns (c : Thread nD τ) arg10 fullShare (stepS0 x0 x1 x2 x3 x4 x5 s) ∗ owns (c : Thread nD τ) arg11 fullShare (stepQ0 x0 x1 x2 x3 x4 x5 q)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs, %hfs, HS⟩, ⟨%fq, %hfq, HQ⟩, Hk⟩
  subst hf0 hf1 hf2 hf3 hf4 hf5 hfs hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_a _)
  isplitl [H7]
  · iexists _; isplitr
    swap; · iexact H7
    ipureintro
    sl_unfold_run_names
    try rw [View.readCov_eq_canon_ld _ _ _ (cover0_e _)]
    exact (View.read_writes_eq_canon _ _ _ (cover0_e_cons _ _)).trans ((canon0_e _ _).trans (canon0_e _ []).symm)
  isplitl [H8]
  · iexists _; isplitr
    swap; · iexact H8
    ipureintro
    sl_unfold_run_names
    try rw [View.readCov_eq_canon_ld _ _ _ (cover0_e _)]
    exact (View.read_writes_eq_canon _ _ _ (cover0_e_cons _ _)).trans ((canon0_e _ _).trans (canon0_e _ []).symm)
  isplitl [HS]
  · iexists _; isplitr
    swap; · iexact HS
    ipureintro
    sl_unfold_run_names
    try rw [View.readCov_eq_canon_ld _ _ _ (cover0_e _)]
    exact (View.read_writes_eq_canon _ _ _ (cover0_e_cons _ _)).trans ((canon0_e _ _).trans (canon0_e _ []).symm)
  iexists _; isplitr
  swap; · iexact HQ
  ipureintro
  sl_unfold_run_names
  try rw [View.readCov_eq_canon_ld _ _ _ (cover0_e _)]
  exact (View.read_writes_eq_canon _ _ _ (cover0_e_cons _ _)).trans ((canon0_e _ _).trans (canon0_e _ []).symm)

/-! ## The invariant: the two scratch accumulators tracked -/

/-- The scratch operands: whole scoped buffers of the kernel's own, passed beside the windows. -/
abbrev scM0_0 : Memref sig .tc .vmem S1x300 .f32 := Memref.whole cc0_scratch0
abbrev scM0_1 : Memref sig .tc .vmem S1x300 .f32 := Memref.whole cc0_scratch1

/-- Before the first point the class's invariant (every scratch at anything); afterwards the two scratch
    accumulators at what the point before left, the other scoped buffers unopened, the generator register at some state. -/
def PhiS0 (c : Dev nD) : (n : ℕ) → n ≤ cfg0.N → sProp 𝕄
  | 0, _ => Pipeline.ΦA spec0 c
  | n + 1, hn => iprop(iprop(iprop(owns (c : Thread nD τ) scM0_0 fullShare (accS0 V c n hn) ∗ owns (c : Thread nD τ) scM0_1 fullShare (accQ0 V c n hn))
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the accumulators at that point's contents. -/
theorem PhiS0_succ (c : Dev nD) (n : ℕ) (hn : n < cfg0.N) :
    PhiS0 V c (n + 1) hn = iprop(iprop(iprop(owns (c : Thread nD τ) scM0_0 fullShare (accS0 V c n hn) ∗ owns (c : Thread nD τ) scM0_1 fullShare (accQ0 V c n hn))
      ∗ Pipeline.scopedRestBut (Ix := Unit) (Name := ℕ) (U := UR sig nD τ) (Lvl := ℕ) (Val := Elt F) spec0 c [cc0_scratch0, cc0_scratch1]) ∗ (∃ r, prngReg c r)) := rfl

/-- Before a point that is not the first: the accumulators at what the point before left. -/
theorem PhiS0_pos (c : Dev nD) (n : ℕ) (h : n ≤ cfg0.N) (hz : n ≠ 0) :
    PhiS0 V c n h = iprop(iprop(iprop(owns (c : Thread nD τ) scM0_0 fullShare (accS0 V c (n - 1) (by omega)) ∗ owns (c : Thread nD τ) scM0_1 fullShare (accQ0 V c (n - 1) (by omega)))
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-- The class's invariant with the two scratch operands split out of the scoped rest as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

/-! ## The pipeline's proof data -/

/-- The proof data of pipeline 0 on core `c`: the arrays as the region finds them (`V`); after the body at point `t`
    each input's buffer at its block, output 6's at the z block of the input blocks, outputs 7 and 8's at the copies of
    the accumulators (consulted at the last point only: the windows are idle before it); the invariant tracks the two
    scratch accumulators (`PhiS0`); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (accS0 V c t.val t.isLt)
    | ⟨8, _⟩ => out0_7 (accQ0 V c t.val t.isLt)
  Φ t := PhiS0 V c t.val (Nat.le_of_lt_succ t.isLt)
  q _ := fullShare
  owed _ := 0

/-- The proof data's arrays are the region-entry contents (the proof data's definition projected, by `dsimp`). -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (accS0 V c t.val t.isLt) := by dsimp only [dat0]
theorem after0_8 (c : Dev nD) (t : Fin cfg0.N) : (dat0 V c).after 8 t = out0_7 (accQ0 V c t.val t.isLt) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- Windows 0 to 6 are never idle: the body's post for them is the buffer at what the body leaves. -/
theorem leaves0_0 (c : Dev nD) (t : Fin cfg0.N) :
    (dat0 V c).leavesExact 0 t = owns (c : Thread nD τ) (st0_0 t) fullShare ((dat0 V c).after 0 t) := rfl
theorem leaves0_1 (c : Dev nD) (t : Fin cfg0.N) :
    (dat0 V c).leavesExact 1 t = owns (c : Thread nD τ) (st0_1 t) fullShare ((dat0 V c).after 1 t) := rfl
theorem leaves0_2 (c : Dev nD) (t : Fin cfg0.N) :
    (dat0 V c).leavesExact 2 t = owns (c : Thread nD τ) (st0_2 t) fullShare ((dat0 V c).after 2 t) := rfl
theorem leaves0_3 (c : Dev nD) (t : Fin cfg0.N) :
    (dat0 V c).leavesExact 3 t = owns (c : Thread nD τ) (st0_3 t) fullShare ((dat0 V c).after 3 t) := rfl
theorem leaves0_4 (c : Dev nD) (t : Fin cfg0.N) :
    (dat0 V c).leavesExact 4 t = owns (c : Thread nD τ) (st0_4 t) fullShare ((dat0 V c).after 4 t) := rfl
theorem leaves0_5 (c : Dev nD) (t : Fin cfg0.N) :
    (dat0 V c).leavesExact 5 t = owns (c : Thread nD τ) (st0_5 t) fullShare ((dat0 V c).after 5 t) := rfl
theorem leaves0_6 (c : Dev nD) (t : Fin cfg0.N) :
    (dat0 V c).leavesExact 6 t = owns (c : Thread nD τ) (st0_6 t) fullShare ((dat0 V c).after 6 t) := rfl

/-! ## The body obligation, at a generic point -/

/-- What the body is called with at point `t` (the library's body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 4000000 in
/-- The body at any point: the inputs' memrefs hold their blocks; the closed forms say which of the three control cases
    the point is in; the invariant hands the body the two scratch accumulators at what the point before left (at anything
    at the first point) and takes them back at this point's contents; outputs 7 and 8 pass through untouched where they
    are idle and are handed back at the copies at the last point; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3, leaves0_4, leaves0_5, leaves0_6,
    after0_0, after0_1, after0_2, after0_3, after0_4, after0_5, after0_6]
  have hN : t.val < 50 := lt_of_lt_of_eq t.isLt (show cfg0.N = 50 from N_0)
  by_cases h0 : t.val % 50 = 0
  · by_cases h1 : t.val % 50 = 49
    · exfalso; omega
    · have hc0 : cond0_0 (grid0.coords t) := (hcond0_0 t).mpr h0
      have hc1 : ¬cond0_1 (grid0.coords t) := fun h => h1 ((hcond0_1 t).mp h)
      have hz : t.val = 0 := by omega
      rw [Dat.leavesExact_idle (dat0 V c) 7 t (idleAt0_7 t hc1) (noFlush0_7 t hc1),
        Dat.leavesExact_idle (dat0 V c) 8 t (idleAt0_8 t hc1) (noFlush0_8 t hc1)]
      rw [accS0_A V c t hz, accQ0_A V c t hz]
      rw [PhiS0_castSucc V c t, PhiS0_zero V c _ _ hz, PhiA0_eq]
      iintro ⟨⟨⟨⟨HS, HQ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel0_A c Set.univ (grid0.coords t) _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      isplitl [HQ]; · iexact HQ
      iintro ⟨H0, H1, H2, H3, H4, H5, H6, HS, HQ⟩
      isplitl [HS HQ HR Hg]
      · isplitl [HS HQ HR]
        · isplitl [HS HQ]
          · isplitl [HS]; · iexact HS
            iexact HQ
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
  · have hc0 : ¬cond0_0 (grid0.coords t) := fun h => h0 ((hcond0_0 t).mp h)
    have hz : t.val ≠ 0 := fun e => h0 (by rw [e])
    rw [accS0_B V c t hz, accQ0_B V c t hz]
    rw [PhiS0_castSucc V c t, PhiS0_pos V c _ _ hz]
    by_cases h1 : t.val % 50 = 49
    · have hc1 : cond0_1 (grid0.coords t) := (hcond0_1 t).mpr h1
      rw [show (dat0 V c).leavesExact 7 t = owns (c : Thread nD τ) (st0_7 t) fullShare ((dat0 V c).after 7 t) from by
        unfold Dat.leavesExact; rw [liveAt0_7 t hc1], after0_7]
      rw [show (dat0 V c).leavesExact 8 t = owns (c : Thread nD τ) (st0_8 t) fullShare ((dat0 V c).after 8 t) from by
        unfold Dat.leavesExact; rw [liveAt0_8 t hc1], after0_8]
      rw [accS0_B V c t hz, accQ0_B V c t hz]
      iintro ⟨⟨⟨⟨HS, HQ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel0_C c Set.univ (grid0.coords t) _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS]; · iexact HS
      isplitl [HQ]; · iexact HQ
      iintro ⟨H0, H1, H2, H3, H4, H5, H6, H7, H8, HS, HQ⟩
      isplitl [HS HQ HR Hg]
      · isplitl [HS HQ HR]
        · isplitl [HS HQ]
          · isplitl [HS]; · iexact HS
            iexact HQ
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬cond0_1 (grid0.coords t) := fun h => h1 ((hcond0_1 t).mp h)
      rw [Dat.leavesExact_idle (dat0 V c) 7 t (idleAt0_7 t hc1) (noFlush0_7 t hc1),
        Dat.leavesExact_idle (dat0 V c) 8 t (idleAt0_8 t hc1) (noFlush0_8 t hc1)]
      iintro ⟨⟨⟨⟨HS, HQ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel0_B c Set.univ (grid0.coords t) _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      isplitl [HQ]; · iexact HQ
      iintro ⟨H0, H1, H2, H3, H4, H5, H6, HS, HQ⟩
      isplitl [HS HQ HR Hg]
      · isplitl [HS HQ HR]
        · isplitl [HS HQ]
          · isplitl [HS]; · iexact HS
            iexact HQ
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region (the class's invariant) is the invariant before the first point. -/
theorem PhiIn0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulators' named contents are forgotten. -/
theorem PhiOut0 (c : Dev nD) : (dat0 V c).Φ (Fin.last _) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 50 := N_0; omega), PhiA0_eq]
  iintro ⟨⟨⟨HS, HQ⟩, HR⟩, Hg⟩
  isplitl [HS HQ HR]
  · isplitl [HS HQ]
    · isplitl [HS]; · iexists _; iexact HS
      iexists _; iexact HQ
    iexact HR
  iexact Hg

/-- The last point. -/
abbrev tLast0 : Fin cfg0.N := ⟨49, by decide⟩

/-! ## The arrays of outputs 7 and 8 after the region -/

/-- Output 7's one block is its whole array: at the last point its offsets are zero and its extents the array's. -/
theorem whole0_7_off : ∀ a, win0_7.index tLast0 a * win0_7.size a = 0 := by decide +kernel
theorem whole0_7_size : ∀ a, win0_7.xsize (grid0.coords tLast0) a = S1x300.size a := by decide +kernel

/-- The one write-back of output 7, at the last point, writes its whole array. -/
theorem flushed0_7 (c : Dev nD) (t : Fin cfg0.N) (hf : (cfg0.win 7).flush t = true) :
    (dat0 V c).flushed 7 t
      = ((cfg0.win 7).blk t).view.read (Elt F) (out0_7 (accS0 V c 49 (by decide)) : Buf (Elt F) ((c : Thread nD τ).loc (Pipeline.arrRef spec0 7))) := by
  have hN : cfg0.N = 50 := N_0
  have h49 : t.val = 49 := by have := (flush0_7 t).mp hf; have := t.isLt; omega
  obtain rfl : t = tLast0 := Fin.ext h49
  show (cfg0.win 7).cut (grid0.coords tLast0) ((dat0 V c).after 7 tLast0) = _
  rw [after0_7]
  exact (Memref.read_access_unit_zero (Elt F) (Pipeline.arrRef spec0 7) (funext whole0_7_off)
    (fun a => by show win0_7.index tLast0 a * win0_7.size a + S1x300.size a ≤ S1x300.size a; rw [whole0_7_off a, Nat.zero_add]) _).symm

/-- So after the region output 7's array holds the copy of the accumulator as the last point left it. -/
theorem arrAt0_7 (c : Dev nD) : (dat0 V c).arrAt 7 cfg0.N = out0_7 (accS0 V c 49 (by decide)) :=
  (dat0 V c).arrAt_eq_of_cover 7 _ (flushed0_7 V c) fun i =>
    ⟨tLast0, (flush0_7 tLast0).mpr rfl, by
      show i ∈ ((View.whole (Pipeline.arrRef spec0 7)).slice (win0_7.rect tLast0)).set
      rw [View.set_slice_whole, Rect.mem_set_unit]
      intro a
      show win0_7.index tLast0 a * win0_7.size a ≤ (i a : Nat)
        ∧ (i a : Nat) < win0_7.index tLast0 a * win0_7.size a + win0_7.xsize (grid0.coords tLast0) a
      rw [whole0_7_off a, whole0_7_size a, Nat.zero_add]
      exact ⟨Nat.zero_le _, (i a).isLt⟩⟩

/-- Output 8's one block is its whole array: at the last point its offsets are zero and its extents the array's. -/
theorem whole0_8_off : ∀ a, win0_8.index tLast0 a * win0_8.size a = 0 := by decide +kernel
theorem whole0_8_size : ∀ a, win0_8.xsize (grid0.coords tLast0) a = S1x300.size a := by decide +kernel

/-- The one write-back of output 8, at the last point, writes its whole array. -/
theorem flushed0_8 (c : Dev nD) (t : Fin cfg0.N) (hf : (cfg0.win 8).flush t = true) :
    (dat0 V c).flushed 8 t
      = ((cfg0.win 8).blk t).view.read (Elt F) (out0_7 (accQ0 V c 49 (by decide)) : Buf (Elt F) ((c : Thread nD τ).loc (Pipeline.arrRef spec0 8))) := by
  have hN : cfg0.N = 50 := N_0
  have h49 : t.val = 49 := by have := (flush0_8 t).mp hf; have := t.isLt; omega
  obtain rfl : t = tLast0 := Fin.ext h49
  show (cfg0.win 8).cut (grid0.coords tLast0) ((dat0 V c).after 8 tLast0) = _
  rw [after0_8]
  exact (Memref.read_access_unit_zero (Elt F) (Pipeline.arrRef spec0 8) (funext whole0_8_off)
    (fun a => by show win0_8.index tLast0 a * win0_8.size a + S1x300.size a ≤ S1x300.size a; rw [whole0_8_off a, Nat.zero_add]) _).symm

/-- So after the region output 8's array holds the copy of the accumulator as the last point left it. -/
theorem arrAt0_8 (c : Dev nD) : (dat0 V c).arrAt 8 cfg0.N = out0_7 (accQ0 V c 49 (by decide)) :=
  (dat0 V c).arrAt_eq_of_cover 8 _ (flushed0_8 V c) fun i =>
    ⟨tLast0, (flush0_8 tLast0).mpr rfl, by
      show i ∈ ((View.whole (Pipeline.arrRef spec0 8)).slice (win0_8.rect tLast0)).set
      rw [View.set_slice_whole, Rect.mem_set_unit]
      intro a
      show win0_8.index tLast0 a * win0_8.size a ≤ (i a : Nat)
        ∧ (i a : Nat) < win0_8.index tLast0 a * win0_8.size a + win0_8.xsize (grid0.coords tLast0) a
      rw [whole0_8_off a, whole0_8_size a, Nat.zero_add]
      exact ⟨Nat.zero_le _, (i a).isLt⟩⟩

end Cert.Kernel.Hand

end
-- ==== Proof.K.RegBn1.lean ====
import proofs.«409348_j89627377533173_1_alg».proof.Proof.Gen.Kernel.Launch
import proofs.«409348_j89627377533173_1_alg».proof.Proof.Gen.Kernel.Skeleton
import proofs.«409348_j89627377533173_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

/-! # Region 1 (`cc1__bn_relu_kernel`, pipeline 1): the frame half, at any float model

A pointwise body over a grid of 25 points. Window 0 (the 2000x300 block of `z` at row block `t`) is fetched at every
point; the four row windows after it (mean, var, gamma, beta, each one row of 300) have a constant block index and are fetched once; window 5
is the output block, written back at every point. The body loads the five inputs whole, loads the output buffer (a value
it does not use), and stores one payload over the whole output buffer. So what it leaves in the output buffer is a
closed function of the five input blocks at the point, and it keeps nothing from point to point. -/

-- membership in a rectangle with a 2000-long axis recurses once per coordinate of that axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): an unfetched point has the
    block index of the point before, and the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): an unfetched point has the
    block index of the point before, and the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): an unfetched point has the
    block index of the point before, and the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): an unfetched point has the
    block index of the point before, and the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): an unfetched point has the
    block index of the point before, and the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 2000x300 staging buffer (the load of window 0 and the one store into window 5). -/
abbrev r1_0 : Rect S2000x300 := Rect.unit (s := S2000x300) ![0, 0] S2000x300.size inb_S2000x300_S2000x300_0_0
/-- The whole 1x300 staging buffer (the loads of the four row windows). -/
abbrev r1_1 : Rect S1x300 := Rect.unit (s := S1x300) ![0, 0] S1x300.size inb_S1x300_S1x300_0_0

/-! ## What the body leaves in the output window's buffer -/

/-- Window 5's staging buffer after the body, from the input windows' blocks `xz xm xv xg xb` (in window order: z, mean, var,
    gamma, beta): its one store as a piece. The payload takes the loads in the order the body makes them: z, var, mean,
    gamma, beta. -/
def out1_5 (xz : Vec F S2000x300 .f32) (xm xv xg xb : Vec F S1x300 .f32) : Vec F S2000x300 .f32 :=
  View.canon [⟨r1_0, k1_pay1 (View.ld xz r1_0) (View.ld xv r1_1) (View.ld xm r1_1) (View.ld xg r1_1) (View.ld xb r1_1)⟩]

/-- The one store is the whole buffer, so it covers it. -/
theorem cover1_5 (p : Vec F S2000x300 .f32) (y : S2000x300.Idx) :
    ∃ pc ∈ ([⟨r1_0, p⟩] : List (View.Piece (Elt F) S2000x300 .f32)), y ∈ pc.1.set :=
  View.cover_of_tiled [⟨r1_0, p⟩] S2000x300.size (by rfl) y

/-! ## The body's triple -/

set_option maxHeartbeats 1000000 in
/-- The kernel body on whole staging memrefs, the inputs' at read contents `xz xm xv xg xb` and the output's at anything, runs to
    the continuation holding the inputs' as they were and the output's at `out1_5` of the inputs'. -/
theorem sound_kernel1 (c : Dev nD) (E : Set ℕ) (i : grid1.Coords) (Az : Memref sig .tc .vmem S2000x300 .f32) (hAz : Az.IsWhole) (Am : Memref sig .tc .vmem S1x300 .f32) (hAm : Am.IsWhole) (Av : Memref sig .tc .vmem S1x300 .f32) (hAv : Av.IsWhole) (Ag : Memref sig .tc .vmem S1x300 .f32) (hAg : Ag.IsWhole) (Ab : Memref sig .tc .vmem S1x300 .f32) (hAb : Ab.IsWhole) (Ay : Memref sig .tc .vmem S2000x300 .f32) (hAy : Ay.IsWhole)
    (xz : Vec F S2000x300 .f32) (xm xv xg xb : Vec F S1x300 .f32) (K : PUnit → sProp 𝕄) :
    iprop(owns (c : Thread nD τ) Az fullShare xz ∗ owns (c : Thread nD τ) Am fullShare xm ∗ owns (c : Thread nD τ) Av fullShare xv ∗ owns (c : Thread nD τ) Ag fullShare xg ∗ owns (c : Thread nD τ) Ab fullShare xb
        ∗ (∃ d, owns (c : Thread nD τ) Ay fullShare d)
        ∗ (iprop(owns (c : Thread nD τ) Az fullShare xz ∗ owns (c : Thread nD τ) Am fullShare xm ∗ owns (c : Thread nD τ) Av fullShare xv ∗ owns (c : Thread nD τ) Ag fullShare xg ∗ owns (c : Thread nD τ) Ab fullShare xb
            ∗ owns (c : Thread nD τ) Ay fullShare (out1_5 xz xm xv xg xb)) -∗ K ⟨⟩))
      ⊢ wp frame (wpE (defs₀ (F := F)) Variants.none c none) E (cc1__bn_relu_kernel i Az hAz Am hAm Av hAv Ag hAg Ab hAb Ay hAy) K := by
  simp only [cc1__bn_relu_kernel_eq_skeleton]; unfold cc1__bn_relu_kernel_skel
  unfold owns
  iintro ⟨⟨%fz, %hfz, Hz⟩, ⟨%fm, %hfm, Hm⟩, ⟨%fv, %hfv, Hv⟩, ⟨%fg, %hfg, Hg⟩, ⟨%fb, %hfb, Hb⟩, ⟨%dy, %fy, -, Hy⟩, Hk⟩
  subst hfz hfm hfv hfg hfb
  sl_exec
  sl_step
  iapply Hk
  isplitl [Hz]
  · iexists fz; isplitr; · ipureintro; rfl
    iexact Hz
  isplitl [Hm]
  · iexists fm; isplitr; · ipureintro; rfl
    iexact Hm
  isplitl [Hv]
  · iexists fv; isplitr; · ipureintro; rfl
    iexact Hv
  isplitl [Hg]
  · iexists fg; isplitr; · ipureintro; rfl
    iexact Hg
  isplitl [Hb]
  · iexists fb; isplitr; · ipureintro; rfl
    iexact Hb
  iexists _; isplitr
  swap; · iexact Hy
  ipureintro
  exact View.read_writes_eq_canon _ _ _ (cover1_5 _)

/-! ## The pipeline's proof data -/

/-- The proof data of pipeline 1 on core `c`: the arrays as the region finds them (`V`); after the body at point `t` each
    input's buffer at its block and the output's at `out1_5` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- The invariant at the first point is the class's, -/
theorem PhiIn1 (c : Dev nD) : Pipeline.ΦA spec1 c ⊢ (dat1 V c).Φ 0 := .rfl
/-- and so is the invariant at the last. -/
theorem PhiOut1 (c : Dev nD) : (dat1 V c).Φ (Fin.last _) ⊢ Pipeline.ΦA spec1 c := .rfl

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_W`), so `sound_kernel1` applies; the invariant
    and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%dz, Hz⟩, ⟨%dm, Hm⟩, ⟨%dv, Hv⟩, ⟨%dg, Hg⟩, ⟨%db, Hb⟩, ⟨%dy, Hy⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [Hz]; · iexact Hz
  isplitl [Hm]; · iexact Hm
  isplitl [Hv]; · iexact Hv
  isplitl [Hg]; · iexact Hg
  isplitl [Hb]; · iexact Hb
  isplitl [Hy]; · iexists _; iexact Hy
  iintro ⟨Hz, Hm, Hv, Hg, Hb, Hy⟩
  isplitl [HΦ]; · iexact HΦ
  isplitl [Ho]; · iexact Ho
  isplitl [Hz]; · iexact Hz
  isplitl [Hm]; · iexact Hm
  isplitl [Hv]; · iexact Hv
  isplitl [Hg]; · iexact Hg
  isplitl [Hb]; · iexact Hb
  iexact Hy

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand
-- ==== Proof.K.RegMlp2.lean ====
import proofs.«409348_j89627377533173_1_alg».proof.Proof.Gen.Kernel.Launch
import proofs.«409348_j89627377533173_1_alg».proof.Proof.Gen.Kernel.Skeleton
import proofs.«409348_j89627377533173_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 2 of @main: custom_call 2, `cc2__mlp_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point, fetched there or not (an input
    fetched at the first point only keeps its block: the index never moves). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole buffer -/

abbrev r2_a : Rect S1000x300 := Rect.unit (s := S1000x300) ![0, 0] S1000x300.size inb_S1000x300_S1000x300_0_0
abbrev r2_b : Rect S300x600 := Rect.unit (s := S300x600) ![0, 0] S300x600.size inb_S300x600_S300x600_0_0
abbrev r2_c : Rect S1x600 := Rect.unit (s := S1x600) ![0, 0] S1x600.size inb_S1x600_S1x600_0_0
abbrev r2_d : Rect S600x300 := Rect.unit (s := S600x300) ![0, 0] S600x300.size inb_S600x300_S600x300_0_0
abbrev r2_e : Rect S1x300 := Rect.unit (s := S1x300) ![0, 0] S1x300.size inb_S1x300_S1x300_0_0

/-! ## What the body leaves: the z block, the two running sums, the copies out -/

/-- The z block the body stores at a point, from the six input blocks (the skeleton's payload `k2_pay5`). -/
def z2 (x0 x1 : Vec F S1000x300 .f32) (x2 : Vec F S300x600 .f32) (x3 : Vec F S1x600 .f32) (x4 : Vec F S600x300 .f32) (x5 : Vec F S1x300 .f32) : FVec F S1000x300 .f32 :=
  k2_pay5 (View.ld x0 r2_a) (View.ld x1 r2_a) (View.ld x2 r2_b) (View.ld x3 r2_c) (View.ld x4 r2_d) (View.ld x5 r2_e)

/-- Output window 6's staging buffer after the body: its one store. -/
def out2_6 (x0 x1 : Vec F S1000x300 .f32) (x2 : Vec F S300x600 .f32) (x3 : Vec F S1x600 .f32) (x4 : Vec F S600x300 .f32) (x5 : Vec F S1x300 .f32) : Vec F S1000x300 .f32 :=
  View.canon [⟨r2_a, z2 x0 x1 x2 x3 x4 x5⟩]

/-- Scratch 0 (the running column sums) after the body's add, over what it held (`s`). -/
def stepS2 (x0 x1 : Vec F S1000x300 .f32) (x2 : Vec F S300x600 .f32) (x3 : Vec F S1x600 .f32) (x4 : Vec F S600x300 .f32) (x5 : Vec F S1x300 .f32) (s : Vec F S1x300 .f32) : Vec F S1x300 .f32 :=
  View.canon [⟨r2_e, k2_pay1 (k2_pay6 (View.ld x0 r2_a) (View.ld x1 r2_a) (View.ld x2 r2_b) (View.ld x3 r2_c) (View.ld x4 r2_d) (View.ld x5 r2_e) (View.ld s r2_e))⟩]

/-- Scratch 1 (the running column sums of squares) after the body's add, over what it held (`q`). -/
def stepQ2 (x0 x1 : Vec F S1000x300 .f32) (x2 : Vec F S300x600 .f32) (x3 : Vec F S1x600 .f32) (x4 : Vec F S600x300 .f32) (x5 : Vec F S1x300 .f32) (q : Vec F S1x300 .f32) : Vec F S1x300 .f32 :=
  View.canon [⟨r2_e, k2_pay2 (z2 x0 x1 x2 x3 x4 x5) (View.ld q r2_e)⟩]

/-- What the first point's reset leaves in scratch 0 and in scratch 1: zeros. -/
def zeroS2 : Vec F S1x300 .f32 := View.canon [⟨r2_e, k2_pay3 (F := F)⟩]
def zeroQ2 : Vec F S1x300 .f32 := View.canon [⟨r2_e, k2_pay4 (F := F)⟩]

/-- What the last point's copy leaves in output window 7's (8's) staging buffer, from the scratch's contents. -/
def out2_7 (s : Vec F S1x300 .f32) : Vec F S1x300 .f32 := View.canon [⟨r2_e, View.ld s r2_e⟩]

/-- The zero offsets of every access, as a function. -/
theorem hz2 : (![0, 0] : Fin 2 → ℕ) = fun _ => 0 := by funext a; fin_cases a <;> rfl

/-! ### Whole-buffer accesses read through (Lib/Pipeline/Value.lean): a load through the whole shape at zero offsets
    reads the contents, a store through it (last) leaves its payload, a load of what one such store left reads it -/

theorem ld2_a (X : Vec F S1000x300 .f32) : View.ld X r2_a = X := View.ld_unit_zero (S := S1000x300) hz2 _ X
theorem ld2_b (X : Vec F S300x600 .f32) : View.ld X r2_b = X := View.ld_unit_zero (S := S300x600) hz2 _ X
theorem ld2_c (X : Vec F S1x600 .f32) : View.ld X r2_c = X := View.ld_unit_zero (S := S1x600) hz2 _ X
theorem ld2_d (X : Vec F S600x300 .f32) : View.ld X r2_d = X := View.ld_unit_zero (S := S600x300) hz2 _ X
theorem ld2_e (X : Vec F S1x300 .f32) : View.ld X r2_e = X := View.ld_unit_zero (S := S1x300) hz2 _ X
theorem canon2_a (w : Vec F S1000x300 .f32) (L : List (View.Piece (Elt F) S1000x300 .f32)) :
    View.canon ((⟨r2_a, w⟩ : View.Piece (Elt F) S1000x300 .f32) :: L) = w := View.canon_cons_unit_zero (S := S1000x300) hz2 _ w L
theorem canon2_e (w : Vec F S1x300 .f32) (L : List (View.Piece (Elt F) S1x300 .f32)) :
    View.canon ((⟨r2_e, w⟩ : View.Piece (Elt F) S1x300 .f32) :: L) = w := View.canon_cons_unit_zero (S := S1x300) hz2 _ w L
theorem readCov2_e {κ : Kind} {sp : Space} (v : View sig κ sp S1x300 .f32) (w : Vec F S1x300 .f32) :
    v.readCov [(⟨r2_e, w⟩ : View.Piece (Elt F) S1x300 .f32)] r2_e.toLoadRect = w := View.readCov_unit_zero (S := S1x300) v hz2 _ w

theorem z2_eq (x0 x1 : Vec F S1000x300 .f32) (x2 : Vec F S300x600 .f32) (x3 : Vec F S1x600 .f32) (x4 : Vec F S600x300 .f32) (x5 : Vec F S1x300 .f32) : z2 x0 x1 x2 x3 x4 x5 = k2_pay5 x0 x1 x2 x3 x4 x5 := by
  unfold z2; rw [ld2_a, ld2_a, ld2_b, ld2_c, ld2_d, ld2_e]
theorem out2_6_eq (x0 x1 : Vec F S1000x300 .f32) (x2 : Vec F S300x600 .f32) (x3 : Vec F S1x600 .f32) (x4 : Vec F S600x300 .f32) (x5 : Vec F S1x300 .f32) : out2_6 x0 x1 x2 x3 x4 x5 = k2_pay5 x0 x1 x2 x3 x4 x5 := by
  unfold out2_6; rw [canon2_a, z2_eq]
theorem stepS2_eq (x0 x1 : Vec F S1000x300 .f32) (x2 : Vec F S300x600 .f32) (x3 : Vec F S1x600 .f32) (x4 : Vec F S600x300 .f32) (x5 : Vec F S1x300 .f32) (s : Vec F S1x300 .f32) :
    stepS2 x0 x1 x2 x3 x4 x5 s = k2_pay1 (k2_pay6 x0 x1 x2 x3 x4 x5 s) := by
  unfold stepS2; rw [canon2_e, ld2_a, ld2_a, ld2_b, ld2_c, ld2_d, ld2_e, ld2_e]
theorem stepQ2_eq (x0 x1 : Vec F S1000x300 .f32) (x2 : Vec F S300x600 .f32) (x3 : Vec F S1x600 .f32) (x4 : Vec F S600x300 .f32) (x5 : Vec F S1x300 .f32) (q : Vec F S1x300 .f32) :
    stepQ2 x0 x1 x2 x3 x4 x5 q = k2_pay2 (k2_pay5 x0 x1 x2 x3 x4 x5) q := by
  unfold stepQ2; rw [canon2_e, z2_eq, ld2_e]
theorem zeroS2_eq : zeroS2 (F := F) = k2_pay3 (F := F) := by unfold zeroS2; rw [canon2_e]
theorem zeroQ2_eq : zeroQ2 (F := F) = k2_pay4 (F := F) := by unfold zeroQ2; rw [canon2_e]
theorem out2_7_eq (s : Vec F S1x300 .f32) : out2_7 s = s := by
  unfold out2_7; rw [canon2_e, ld2_e]

/-- THE ACCUMULATION: scratch 0 after the body at position `n` — the add over the reset at the first point, over
    what the point before left at every later one. -/
def accS2 (c : Dev nD) : (n : ℕ) → n < cfg2.N → Vec F S1x300 .f32
  | 0, hn => stepS2 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (zeroS2 (F := F))
  | n + 1, hn => stepS2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (accS2 c n (Nat.lt_of_succ_lt hn))

/-- and scratch 1. -/
def accQ2 (c : Dev nD) : (n : ℕ) → n < cfg2.N → Vec F S1x300 .f32
  | 0, hn => stepQ2 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (zeroQ2 (F := F))
  | n + 1, hn => stepQ2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (accQ2 c n (Nat.lt_of_succ_lt hn))

theorem accS2_zero (c : Dev nD) (hn : 0 < cfg2.N) :
    accS2 V c 0 hn = stepS2 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (zeroS2 (F := F)) := rfl
theorem accS2_succ (c : Dev nD) (n : ℕ) (hn : n + 1 < cfg2.N) :
    accS2 V c (n + 1) hn = stepS2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (accS2 V c n (Nat.lt_of_succ_lt hn)) := rfl
theorem accQ2_zero (c : Dev nD) (hn : 0 < cfg2.N) :
    accQ2 V c 0 hn = stepQ2 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (zeroQ2 (F := F)) := rfl
theorem accQ2_succ (c : Dev nD) (n : ℕ) (hn : n + 1 < cfg2.N) :
    accQ2 V c (n + 1) hn = stepQ2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (accQ2 V c n (Nat.lt_of_succ_lt hn)) := rfl

/-- The accumulators at the first point, and at a later one over what the point before left. -/
theorem accS2_A (c : Dev nD) (t : Fin cfg2.N) (hz : t.val = 0) :
    accS2 V c t.val t.isLt = stepS2 (iblk2 V c 0 t) (iblk2 V c 1 t) (iblk2 V c 2 t) (iblk2 V c 3 t) (iblk2 V c 4 t) (iblk2 V c 5 t) (zeroS2 (F := F)) := by
  obtain ⟨n, hn⟩ := t
  cases n with
  | zero => rfl
  | succ n => exact absurd hz (Nat.succ_ne_zero n)
theorem accS2_B (c : Dev nD) (t : Fin cfg2.N) (hz : t.val ≠ 0) :
    accS2 V c t.val t.isLt = stepS2 (iblk2 V c 0 t) (iblk2 V c 1 t) (iblk2 V c 2 t) (iblk2 V c 3 t) (iblk2 V c 4 t) (iblk2 V c 5 t) (accS2 V c (t.val - 1) (Nat.lt_of_le_of_lt (Nat.sub_le _ _) t.isLt)) := by
  obtain ⟨n, hn⟩ := t
  cases n with
  | zero => exact absurd rfl hz
  | succ n => rfl
theorem accQ2_A (c : Dev nD) (t : Fin cfg2.N) (hz : t.val = 0) :
    accQ2 V c t.val t.isLt = stepQ2 (iblk2 V c 0 t) (iblk2 V c 1 t) (iblk2 V c 2 t) (iblk2 V c 3 t) (iblk2 V c 4 t) (iblk2 V c 5 t) (zeroQ2 (F := F)) := by
  obtain ⟨n, hn⟩ := t
  cases n with
  | zero => rfl
  | succ n => exact absurd hz (Nat.succ_ne_zero n)
theorem accQ2_B (c : Dev nD) (t : Fin cfg2.N) (hz : t.val ≠ 0) :
    accQ2 V c t.val t.isLt = stepQ2 (iblk2 V c 0 t) (iblk2 V c 1 t) (iblk2 V c 2 t) (iblk2 V c 3 t) (iblk2 V c 4 t) (iblk2 V c 5 t) (accQ2 V c (t.val - 1) (Nat.lt_of_le_of_lt (Nat.sub_le _ _) t.isLt)) := by
  obtain ⟨n, hn⟩ := t
  cases n with
  | zero => exact absurd rfl hz
  | succ n => rfl

/-! ## The body's branch conditions -/

/-- The condition of the reset (`pl.when` on the first point), from the grid coordinates (the skeleton's scalar chain). -/
abbrev cond2_0 (i : grid2.Coords) : Prop := (Scalar.cmpi .ne (Scalar.extui (Scalar.cmpi .eq (BitVec.ofNat 32 (i 0).val) 0#32)) 0#32) = 1#1
/-- It holds at the first point only — decided over the grid. -/
theorem hcond2_0 : ∀ t : Fin cfg2.N, cond2_0 (grid2.coords t) ↔ t.val % 50 = 0 :=
  (by decide +kernel : ∀ t : Fin grid2.N, cond2_0 (grid2.coords t) ↔ t.val % 50 = 0)
/-- The condition of the copy out (`pl.when` on the last point). -/
abbrev cond2_1 (i : grid2.Coords) : Prop := k2_cond2 i = 1#1
/-- It holds at the last point only — decided over the grid. -/
theorem hcond2_1 : ∀ t : Fin cfg2.N, cond2_1 (grid2.coords t) ↔ t.val % 50 = 49 :=
  (by decide +kernel : ∀ t : Fin grid2.N, cond2_1 (grid2.coords t) ↔ t.val % 50 = 49)

/-! ## The body's stores cover the buffers they write (each is of the whole buffer) -/

theorem cover2_a (p0 : Vec F S1000x300 .f32) (y : S1000x300.Idx) :
    ∃ pc ∈ ([⟨r2_a, p0⟩] : List (View.Piece (Elt F) S1000x300 .f32)), y ∈ pc.1.set :=
  View.cover_of_tiled [⟨r2_a, p0⟩] S1000x300.size (by rfl) y
theorem cover2_e (p0 : Vec F S1x300 .f32) (y : S1x300.Idx) :
    ∃ pc ∈ ([⟨r2_e, p0⟩] : List (View.Piece (Elt F) S1x300 .f32)), y ∈ pc.1.set :=
  View.cover_of_tiled [⟨r2_e, p0⟩] S1x300.size (by rfl) y

theorem cover2_e_cons (p0 : Vec F S1x300 .f32) (L : List (View.Piece (Elt F) S1x300 .f32)) (y : S1x300.Idx) :
    ∃ pc ∈ ((⟨r2_e, p0⟩ :: L) : List (View.Piece (Elt F) S1x300 .f32)), y ∈ pc.1.set := by
  obtain ⟨pc, hpc, hy⟩ := cover2_e p0 y
  exact ⟨pc, List.mem_cons.mpr (Or.inl (List.mem_singleton.mp hpc)), hy⟩

/-! ## Where outputs 7 and 8 are idle: everywhere but at the last point, which alone writes them back -/

theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
theorem liveAt2_7 : ∀ t : Fin cfg2.N, cond2_1 (grid2.coords t) → cfg2.idle 7 (grid2.coords t) = false := by decide +kernel
theorem idleAt2_8 : ∀ t : Fin cfg2.N, ¬cond2_1 (grid2.coords t) → cfg2.idle 8 (grid2.coords t) = true := by decide +kernel
theorem noFlush2_8 : ∀ t : Fin cfg2.N, ¬cond2_1 (grid2.coords t) → (cfg2.win 8).flush t = false := by decide +kernel
theorem liveAt2_8 : ∀ t : Fin cfg2.N, cond2_1 (grid2.coords t) → cfg2.idle 8 (grid2.coords t) = false := by decide +kernel

set_option maxHeartbeats 2000000 in
/-- The body at the first point: the two scratch accumulators, at anything, are reset and stepped. -/
theorem sound_kernel2_A (c : Dev nD) (E : Set ℕ) (i : grid2.Coords) (arg1 : Memref sig .tc .vmem S1000x300 .f32) (harg1 : arg1.IsWhole) (arg2 : Memref sig .tc .vmem S1000x300 .f32) (harg2 : arg2.IsWhole) (arg3 : Memref sig .tc .vmem S300x600 .f32) (harg3 : arg3.IsWhole) (arg4 : Memref sig .tc .vmem S1x600 .f32) (harg4 : arg4.IsWhole) (arg5 : Memref sig .tc .vmem S600x300 .f32) (harg5 : arg5.IsWhole) (arg6 : Memref sig .tc .vmem S1x300 .f32) (harg6 : arg6.IsWhole) (arg7 : Memref sig .tc .vmem S1000x300 .f32) (harg7 : arg7.IsWhole) (arg8 : Memref sig .tc .vmem S1x300 .f32) (harg8 : arg8.IsWhole) (arg9 : Memref sig .tc .vmem S1x300 .f32) (harg9 : arg9.IsWhole) (arg10 : Memref sig .tc .vmem S1x300 .f32) (harg10 : arg10.IsWhole) (arg11 : Memref sig .tc .vmem S1x300 .f32) (harg11 : arg11.IsWhole)
    (hc0 : cond2_0 i) (hc1 : ¬cond2_1 i) (x0 x1 : Vec F S1000x300 .f32) (x2 : Vec F S300x600 .f32) (x3 : Vec F S1x600 .f32) (x4 : Vec F S600x300 .f32) (x5 : Vec F S1x300 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)
            ∗ owns (c : Thread nD τ) arg10 fullShare (stepS2 x0 x1 x2 x3 x4 x5 (zeroS2 (F := F))) ∗ owns (c : Thread nD τ) arg11 fullShare (stepQ2 x0 x1 x2 x3 x4 x5 (zeroQ2 (F := F)))) -∗ K ⟨⟩))
      ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10 arg11 harg11) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, ⟨%dq, %fq, -, HQ⟩, Hk⟩
  subst hf0 hf1 hf2 hf3 hf4 hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_a _)
  isplitl [HS]
  · iexists _; isplitr
    swap; · iexact HS
    ipureintro
    sl_unfold_run_names
    try rw [View.readCov_eq_canon_ld _ _ _ (cover2_e _)]
    exact (View.read_writes_eq_canon _ _ _ (cover2_e_cons _ _)).trans ((canon2_e _ _).trans (canon2_e _ []).symm)
  iexists _; isplitr
  swap; · iexact HQ
  ipureintro
  sl_unfold_run_names
  try rw [View.readCov_eq_canon_ld _ _ _ (cover2_e _)]
  exact (View.read_writes_eq_canon _ _ _ (cover2_e_cons _ _)).trans ((canon2_e _ _).trans (canon2_e _ []).symm)

set_option maxHeartbeats 2000000 in
/-- The body at a middle point (no reset, no copy out): the two scratch accumulators at `s`, `q` are stepped. -/
theorem sound_kernel2_B (c : Dev nD) (E : Set ℕ) (i : grid2.Coords) (arg1 : Memref sig .tc .vmem S1000x300 .f32) (harg1 : arg1.IsWhole) (arg2 : Memref sig .tc .vmem S1000x300 .f32) (harg2 : arg2.IsWhole) (arg3 : Memref sig .tc .vmem S300x600 .f32) (harg3 : arg3.IsWhole) (arg4 : Memref sig .tc .vmem S1x600 .f32) (harg4 : arg4.IsWhole) (arg5 : Memref sig .tc .vmem S600x300 .f32) (harg5 : arg5.IsWhole) (arg6 : Memref sig .tc .vmem S1x300 .f32) (harg6 : arg6.IsWhole) (arg7 : Memref sig .tc .vmem S1000x300 .f32) (harg7 : arg7.IsWhole) (arg8 : Memref sig .tc .vmem S1x300 .f32) (harg8 : arg8.IsWhole) (arg9 : Memref sig .tc .vmem S1x300 .f32) (harg9 : arg9.IsWhole) (arg10 : Memref sig .tc .vmem S1x300 .f32) (harg10 : arg10.IsWhole) (arg11 : Memref sig .tc .vmem S1x300 .f32) (harg11 : arg11.IsWhole)
    (hc0 : ¬cond2_0 i) (hc1 : ¬cond2_1 i) (x0 x1 : Vec F S1000x300 .f32) (x2 : Vec F S300x600 .f32) (x3 : Vec F S1x600 .f32) (x4 : Vec F S600x300 .f32) (x5 : Vec F S1x300 .f32) (s q : Vec F S1x300 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)
            ∗ owns (c : Thread nD τ) arg10 fullShare (stepS2 x0 x1 x2 x3 x4 x5 s) ∗ owns (c : Thread nD τ) arg11 fullShare (stepQ2 x0 x1 x2 x3 x4 x5 q)) -∗ K ⟨⟩))
      ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10 arg11 harg11) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, ⟨%fq, %hfq, HQ⟩, Hk⟩
  subst hf0 hf1 hf2 hf3 hf4 hf5 hfs hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_a _)
  isplitl [HS]
  · iexists _; isplitr
    swap; · iexact HS
    ipureintro
    exact View.read_writes_eq_canon _ _ _ (cover2_e _)
  iexists _; isplitr
  swap; · iexact HQ
  ipureintro
  exact View.read_writes_eq_canon _ _ _ (cover2_e _)

set_option maxHeartbeats 2000000 in
/-- The body at the last point: the two scratch accumulators at `s`, `q` are stepped and copied out to outputs 7 and 8. -/
theorem sound_kernel2_C (c : Dev nD) (E : Set ℕ) (i : grid2.Coords) (arg1 : Memref sig .tc .vmem S1000x300 .f32) (harg1 : arg1.IsWhole) (arg2 : Memref sig .tc .vmem S1000x300 .f32) (harg2 : arg2.IsWhole) (arg3 : Memref sig .tc .vmem S300x600 .f32) (harg3 : arg3.IsWhole) (arg4 : Memref sig .tc .vmem S1x600 .f32) (harg4 : arg4.IsWhole) (arg5 : Memref sig .tc .vmem S600x300 .f32) (harg5 : arg5.IsWhole) (arg6 : Memref sig .tc .vmem S1x300 .f32) (harg6 : arg6.IsWhole) (arg7 : Memref sig .tc .vmem S1000x300 .f32) (harg7 : arg7.IsWhole) (arg8 : Memref sig .tc .vmem S1x300 .f32) (harg8 : arg8.IsWhole) (arg9 : Memref sig .tc .vmem S1x300 .f32) (harg9 : arg9.IsWhole) (arg10 : Memref sig .tc .vmem S1x300 .f32) (harg10 : arg10.IsWhole) (arg11 : Memref sig .tc .vmem S1x300 .f32) (harg11 : arg11.IsWhole)
    (hc0 : ¬cond2_0 i) (hc1 : cond2_1 i) (x0 x1 : Vec F S1000x300 .f32) (x2 : Vec F S300x600 .f32) (x3 : Vec F S1x600 .f32) (x4 : Vec F S600x300 .f32) (x5 : Vec F S1x300 .f32) (s q : Vec F S1x300 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)
            ∗ owns (c : Thread nD τ) arg8 fullShare (out2_7 (stepS2 x0 x1 x2 x3 x4 x5 s)) ∗ owns (c : Thread nD τ) arg9 fullShare (out2_7 (stepQ2 x0 x1 x2 x3 x4 x5 q))
            ∗ owns (c : Thread nD τ) arg10 fullShare (stepS2 x0 x1 x2 x3 x4 x5 s) ∗ owns (c : Thread nD τ) arg11 fullShare (stepQ2 x0 x1 x2 x3 x4 x5 q)) -∗ K ⟨⟩))
      ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10 arg11 harg11) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs, %hfs, HS⟩, ⟨%fq, %hfq, HQ⟩, Hk⟩
  subst hf0 hf1 hf2 hf3 hf4 hf5 hfs hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_a _)
  isplitl [H7]
  · iexists _; isplitr
    swap; · iexact H7
    ipureintro
    sl_unfold_run_names
    try rw [View.readCov_eq_canon_ld _ _ _ (cover2_e _)]
    exact (View.read_writes_eq_canon _ _ _ (cover2_e_cons _ _)).trans ((canon2_e _ _).trans (canon2_e _ []).symm)
  isplitl [H8]
  · iexists _; isplitr
    swap; · iexact H8
    ipureintro
    sl_unfold_run_names
    try rw [View.readCov_eq_canon_ld _ _ _ (cover2_e _)]
    exact (View.read_writes_eq_canon _ _ _ (cover2_e_cons _ _)).trans ((canon2_e _ _).trans (canon2_e _ []).symm)
  isplitl [HS]
  · iexists _; isplitr
    swap; · iexact HS
    ipureintro
    sl_unfold_run_names
    try rw [View.readCov_eq_canon_ld _ _ _ (cover2_e _)]
    exact (View.read_writes_eq_canon _ _ _ (cover2_e_cons _ _)).trans ((canon2_e _ _).trans (canon2_e _ []).symm)
  iexists _; isplitr
  swap; · iexact HQ
  ipureintro
  sl_unfold_run_names
  try rw [View.readCov_eq_canon_ld _ _ _ (cover2_e _)]
  exact (View.read_writes_eq_canon _ _ _ (cover2_e_cons _ _)).trans ((canon2_e _ _).trans (canon2_e _ []).symm)

/-! ## The invariant: the two scratch accumulators tracked -/

/-- The scratch operands: whole scoped buffers of the kernel's own, passed beside the windows. -/
abbrev scM2_0 : Memref sig .tc .vmem S1x300 .f32 := Memref.whole cc2_scratch0
abbrev scM2_1 : Memref sig .tc .vmem S1x300 .f32 := Memref.whole cc2_scratch1

/-- Before the first point the class's invariant (every scratch at anything); afterwards the two scratch
    accumulators at what the point before left, the other scoped buffers unopened, the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare (accS2 V c n hn) ∗ owns (c : Thread nD τ) scM2_1 fullShare (accQ2 V c n hn))
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulators at that point's contents. -/
theorem PhiS2_succ (c : Dev nD) (n : ℕ) (hn : n < cfg2.N) :
    PhiS2 V c (n + 1) hn = iprop(iprop(iprop(owns (c : Thread nD τ) scM2_0 fullShare (accS2 V c n hn) ∗ owns (c : Thread nD τ) scM2_1 fullShare (accQ2 V c n hn))
      ∗ Pipeline.scopedRestBut (Ix := Unit) (Name := ℕ) (U := UR sig nD τ) (Lvl := ℕ) (Val := Elt F) spec2 c [cc2_scratch0, cc2_scratch1]) ∗ (∃ r, prngReg c r)) := rfl

/-- Before a point that is not the first: the accumulators at what the point before left. -/
theorem PhiS2_pos (c : Dev nD) (n : ℕ) (h : n ≤ cfg2.N) (hz : n ≠ 0) :
    PhiS2 V c n h = iprop(iprop(iprop(owns (c : Thread nD τ) scM2_0 fullShare (accS2 V c (n - 1) (by omega)) ∗ owns (c : Thread nD τ) scM2_1 fullShare (accQ2 V c (n - 1) (by omega)))
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-- The class's invariant with the two scratch operands split out of the scoped rest as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

/-! ## The pipeline's proof data -/

/-- The proof data of pipeline 2 on core `c`: the arrays as the region finds them (`V`); after the body at point `t`
    each input's buffer at its block, output 6's at the z block of the input blocks, outputs 7 and 8's at the copies of
    the accumulators (consulted at the last point only: the windows are idle before it); the invariant tracks the two
    scratch accumulators (`PhiS2`); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (accS2 V c t.val t.isLt)
    | ⟨8, _⟩ => out2_7 (accQ2 V c t.val t.isLt)
  Φ t := PhiS2 V c t.val (Nat.le_of_lt_succ t.isLt)
  q _ := fullShare
  owed _ := 0

/-- The proof data's arrays are the region-entry contents (the proof data's definition projected, by `dsimp`). -/
theorem A_eq2 (c : Dev nD) (w : Fin cfg2.W) : (dat2 V c).A w = V c (Pipeline.arrRef spec2 w) := by
  dsimp only [dat2]

/-- The invariant at a point's start (the proof data at `t.castSucc`), restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (accS2 V c t.val t.isLt) := by dsimp only [dat2]
theorem after2_8 (c : Dev nD) (t : Fin cfg2.N) : (dat2 V c).after 8 t = out2_7 (accQ2 V c t.val t.isLt) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- Windows 0 to 6 are never idle: the body's post for them is the buffer at what the body leaves. -/
theorem leaves2_0 (c : Dev nD) (t : Fin cfg2.N) :
    (dat2 V c).leavesExact 0 t = owns (c : Thread nD τ) (st2_0 t) fullShare ((dat2 V c).after 0 t) := rfl
theorem leaves2_1 (c : Dev nD) (t : Fin cfg2.N) :
    (dat2 V c).leavesExact 1 t = owns (c : Thread nD τ) (st2_1 t) fullShare ((dat2 V c).after 1 t) := rfl
theorem leaves2_2 (c : Dev nD) (t : Fin cfg2.N) :
    (dat2 V c).leavesExact 2 t = owns (c : Thread nD τ) (st2_2 t) fullShare ((dat2 V c).after 2 t) := rfl
theorem leaves2_3 (c : Dev nD) (t : Fin cfg2.N) :
    (dat2 V c).leavesExact 3 t = owns (c : Thread nD τ) (st2_3 t) fullShare ((dat2 V c).after 3 t) := rfl
theorem leaves2_4 (c : Dev nD) (t : Fin cfg2.N) :
    (dat2 V c).leavesExact 4 t = owns (c : Thread nD τ) (st2_4 t) fullShare ((dat2 V c).after 4 t) := rfl
theorem leaves2_5 (c : Dev nD) (t : Fin cfg2.N) :
    (dat2 V c).leavesExact 5 t = owns (c : Thread nD τ) (st2_5 t) fullShare ((dat2 V c).after 5 t) := rfl
theorem leaves2_6 (c : Dev nD) (t : Fin cfg2.N) :
    (dat2 V c).leavesExact 6 t = owns (c : Thread nD τ) (st2_6 t) fullShare ((dat2 V c).after 6 t) := rfl

/-! ## The body obligation, at a generic point -/

/-- What the body is called with at point `t` (the library's body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 4000000 in
/-- The body at any point: the inputs' memrefs hold their blocks; the closed forms say which of the three control cases
    the point is in; the invariant hands the body the two scratch accumulators at what the point before left (at anything
    at the first point) and takes them back at this point's contents; outputs 7 and 8 pass through untouched where they
    are idle and are handed back at the copies at the last point; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4, leaves2_5, leaves2_6,
    after2_0, after2_1, after2_2, after2_3, after2_4, after2_5, after2_6]
  have hN : t.val < 50 := lt_of_lt_of_eq t.isLt (show cfg2.N = 50 from N_2)
  by_cases h0 : t.val % 50 = 0
  · by_cases h1 : t.val % 50 = 49
    · exfalso; omega
    · have hc0 : cond2_0 (grid2.coords t) := (hcond2_0 t).mpr h0
      have hc1 : ¬cond2_1 (grid2.coords t) := fun h => h1 ((hcond2_1 t).mp h)
      have hz : t.val = 0 := by omega
      rw [Dat.leavesExact_idle (dat2 V c) 7 t (idleAt2_7 t hc1) (noFlush2_7 t hc1),
        Dat.leavesExact_idle (dat2 V c) 8 t (idleAt2_8 t hc1) (noFlush2_8 t hc1)]
      rw [accS2_A V c t hz, accQ2_A V c t hz]
      rw [PhiS2_castSucc V c t, PhiS2_zero V c _ _ hz, PhiA2_eq]
      iintro ⟨⟨⟨⟨HS, HQ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel2_A c Set.univ (grid2.coords t) _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      isplitl [HQ]; · iexact HQ
      iintro ⟨H0, H1, H2, H3, H4, H5, H6, HS, HQ⟩
      isplitl [HS HQ HR Hg]
      · isplitl [HS HQ HR]
        · isplitl [HS HQ]
          · isplitl [HS]; · iexact HS
            iexact HQ
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
  · have hc0 : ¬cond2_0 (grid2.coords t) := fun h => h0 ((hcond2_0 t).mp h)
    have hz : t.val ≠ 0 := fun e => h0 (by rw [e])
    rw [accS2_B V c t hz, accQ2_B V c t hz]
    rw [PhiS2_castSucc V c t, PhiS2_pos V c _ _ hz]
    by_cases h1 : t.val % 50 = 49
    · have hc1 : cond2_1 (grid2.coords t) := (hcond2_1 t).mpr h1
      rw [show (dat2 V c).leavesExact 7 t = owns (c : Thread nD τ) (st2_7 t) fullShare ((dat2 V c).after 7 t) from by
        unfold Dat.leavesExact; rw [liveAt2_7 t hc1], after2_7]
      rw [show (dat2 V c).leavesExact 8 t = owns (c : Thread nD τ) (st2_8 t) fullShare ((dat2 V c).after 8 t) from by
        unfold Dat.leavesExact; rw [liveAt2_8 t hc1], after2_8]
      rw [accS2_B V c t hz, accQ2_B V c t hz]
      iintro ⟨⟨⟨⟨HS, HQ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel2_C c Set.univ (grid2.coords t) _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS]; · iexact HS
      isplitl [HQ]; · iexact HQ
      iintro ⟨H0, H1, H2, H3, H4, H5, H6, H7, H8, HS, HQ⟩
      isplitl [HS HQ HR Hg]
      · isplitl [HS HQ HR]
        · isplitl [HS HQ]
          · isplitl [HS]; · iexact HS
            iexact HQ
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬cond2_1 (grid2.coords t) := fun h => h1 ((hcond2_1 t).mp h)
      rw [Dat.leavesExact_idle (dat2 V c) 7 t (idleAt2_7 t hc1) (noFlush2_7 t hc1),
        Dat.leavesExact_idle (dat2 V c) 8 t (idleAt2_8 t hc1) (noFlush2_8 t hc1)]
      iintro ⟨⟨⟨⟨HS, HQ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel2_B c Set.univ (grid2.coords t) _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      isplitl [HQ]; · iexact HQ
      iintro ⟨H0, H1, H2, H3, H4, H5, H6, HS, HQ⟩
      isplitl [HS HQ HR Hg]
      · isplitl [HS HQ HR]
        · isplitl [HS HQ]
          · isplitl [HS]; · iexact HS
            iexact HQ
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region (the class's invariant) is the invariant before the first point. -/
theorem PhiIn2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulators' named contents are forgotten. -/
theorem PhiOut2 (c : Dev nD) : (dat2 V c).Φ (Fin.last _) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 50 := N_2; omega), PhiA2_eq]
  iintro ⟨⟨⟨HS, HQ⟩, HR⟩, Hg⟩
  isplitl [HS HQ HR]
  · isplitl [HS HQ]
    · isplitl [HS]; · iexists _; iexact HS
      iexists _; iexact HQ
    iexact HR
  iexact Hg

/-- The last point. -/
abbrev tLast2 : Fin cfg2.N := ⟨49, by decide⟩

/-! ## The arrays of outputs 7 and 8 after the region -/

/-- Output 7's one block is its whole array: at the last point its offsets are zero and its extents the array's. -/
theorem whole2_7_off : ∀ a, win2_7.index tLast2 a * win2_7.size a = 0 := by decide +kernel
theorem whole2_7_size : ∀ a, win2_7.xsize (grid2.coords tLast2) a = S1x300.size a := by decide +kernel

/-- The one write-back of output 7, at the last point, writes its whole array. -/
theorem flushed2_7 (c : Dev nD) (t : Fin cfg2.N) (hf : (cfg2.win 7).flush t = true) :
    (dat2 V c).flushed 7 t
      = ((cfg2.win 7).blk t).view.read (Elt F) (out2_7 (accS2 V c 49 (by decide)) : Buf (Elt F) ((c : Thread nD τ).loc (Pipeline.arrRef spec2 7))) := by
  have hN : cfg2.N = 50 := N_2
  have h49 : t.val = 49 := by have := (flush2_7 t).mp hf; have := t.isLt; omega
  obtain rfl : t = tLast2 := Fin.ext h49
  show (cfg2.win 7).cut (grid2.coords tLast2) ((dat2 V c).after 7 tLast2) = _
  rw [after2_7]
  exact (Memref.read_access_unit_zero (Elt F) (Pipeline.arrRef spec2 7) (funext whole2_7_off)
    (fun a => by show win2_7.index tLast2 a * win2_7.size a + S1x300.size a ≤ S1x300.size a; rw [whole2_7_off a, Nat.zero_add]) _).symm

/-- So after the region output 7's array holds the copy of the accumulator as the last point left it. -/
theorem arrAt2_7 (c : Dev nD) : (dat2 V c).arrAt 7 cfg2.N = out2_7 (accS2 V c 49 (by decide)) :=
  (dat2 V c).arrAt_eq_of_cover 7 _ (flushed2_7 V c) fun i =>
    ⟨tLast2, (flush2_7 tLast2).mpr rfl, by
      show i ∈ ((View.whole (Pipeline.arrRef spec2 7)).slice (win2_7.rect tLast2)).set
      rw [View.set_slice_whole, Rect.mem_set_unit]
      intro a
      show win2_7.index tLast2 a * win2_7.size a ≤ (i a : Nat)
        ∧ (i a : Nat) < win2_7.index tLast2 a * win2_7.size a + win2_7.xsize (grid2.coords tLast2) a
      rw [whole2_7_off a, whole2_7_size a, Nat.zero_add]
      exact ⟨Nat.zero_le _, (i a).isLt⟩⟩

/-- Output 8's one block is its whole array: at the last point its offsets are zero and its extents the array's. -/
theorem whole2_8_off : ∀ a, win2_8.index tLast2 a * win2_8.size a = 0 := by decide +kernel
theorem whole2_8_size : ∀ a, win2_8.xsize (grid2.coords tLast2) a = S1x300.size a := by decide +kernel

/-- The one write-back of output 8, at the last point, writes its whole array. -/
theorem flushed2_8 (c : Dev nD) (t : Fin cfg2.N) (hf : (cfg2.win 8).flush t = true) :
    (dat2 V c).flushed 8 t
      = ((cfg2.win 8).blk t).view.read (Elt F) (out2_7 (accQ2 V c 49 (by decide)) : Buf (Elt F) ((c : Thread nD τ).loc (Pipeline.arrRef spec2 8))) := by
  have hN : cfg2.N = 50 := N_2
  have h49 : t.val = 49 := by have := (flush2_8 t).mp hf; have := t.isLt; omega
  obtain rfl : t = tLast2 := Fin.ext h49
  show (cfg2.win 8).cut (grid2.coords tLast2) ((dat2 V c).after 8 tLast2) = _
  rw [after2_8]
  exact (Memref.read_access_unit_zero (Elt F) (Pipeline.arrRef spec2 8) (funext whole2_8_off)
    (fun a => by show win2_8.index tLast2 a * win2_8.size a + S1x300.size a ≤ S1x300.size a; rw [whole2_8_off a, Nat.zero_add]) _).symm

/-- So after the region output 8's array holds the copy of the accumulator as the last point left it. -/
theorem arrAt2_8 (c : Dev nD) : (dat2 V c).arrAt 8 cfg2.N = out2_7 (accQ2 V c 49 (by decide)) :=
  (dat2 V c).arrAt_eq_of_cover 8 _ (flushed2_8 V c) fun i =>
    ⟨tLast2, (flush2_8 tLast2).mpr rfl, by
      show i ∈ ((View.whole (Pipeline.arrRef spec2 8)).slice (win2_8.rect tLast2)).set
      rw [View.set_slice_whole, Rect.mem_set_unit]
      intro a
      show win2_8.index tLast2 a * win2_8.size a ≤ (i a : Nat)
        ∧ (i a : Nat) < win2_8.index tLast2 a * win2_8.size a + win2_8.xsize (grid2.coords tLast2) a
      rw [whole2_8_off a, whole2_8_size a, Nat.zero_add]
      exact ⟨Nat.zero_le _, (i a).isLt⟩⟩

end Cert.Kernel.Hand

end
-- ==== Proof.K.RegBn3.lean ====
import proofs.«409348_j89627377533173_1_alg».proof.Proof.Gen.Kernel.Launch
import proofs.«409348_j89627377533173_1_alg».proof.Proof.Gen.Kernel.Skeleton
import proofs.«409348_j89627377533173_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

/-! # Region 3 (`cc3__bn_relu_kernel`, pipeline 3): the frame half, at any float model

A pointwise body over a grid of 25 points. Window 0 (the 2000x300 block of `z` at row block `t`) is fetched at every
point; the four row windows after it (mean, var, gamma, beta, each one row of 300) have a constant block index and are fetched once; window 5
is the output block, written back at every point. The body loads the five inputs whole, loads the output buffer (a value
it does not use), and stores one payload over the whole output buffer. So what it leaves in the output buffer is a
closed function of the five input blocks at the point, and it keeps nothing from point to point. -/

-- membership in a rectangle with a 2000-long axis recurses once per coordinate of that axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): an unfetched point has the
    block index of the point before, and the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s (`hA`) and whose body leaves the block in place (`hafter`): an unfetched point has the
    block index of the point before, and the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s (`hA`) and whose body leaves the block in place (`hafter`): an unfetched point has the
    block index of the point before, and the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s (`hA`) and whose body leaves the block in place (`hafter`): an unfetched point has the
    block index of the point before, and the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s (`hA`) and whose body leaves the block in place (`hafter`): an unfetched point has the
    block index of the point before, and the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole 2000x300 staging buffer (the load of window 0 and the one store into window 5). -/
abbrev r3_0 : Rect S2000x300 := Rect.unit (s := S2000x300) ![0, 0] S2000x300.size inb_S2000x300_S2000x300_0_0
/-- The whole 1x300 staging buffer (the loads of the four row windows). -/
abbrev r3_1 : Rect S1x300 := Rect.unit (s := S1x300) ![0, 0] S1x300.size inb_S1x300_S1x300_0_0

/-! ## What the body leaves in the output window's buffer -/

/-- Window 5's staging buffer after the body, from the input windows' blocks `xz xm xv xg xb` (in window order: z, mean, var,
    gamma, beta): its one store as a piece. The payload takes the loads in the order the body makes them: z, var, mean,
    gamma, beta. -/
def out3_5 (xz : Vec F S2000x300 .f32) (xm xv xg xb : Vec F S1x300 .f32) : Vec F S2000x300 .f32 :=
  View.canon [⟨r3_0, k3_pay1 (View.ld xz r3_0) (View.ld xv r3_1) (View.ld xm r3_1) (View.ld xg r3_1) (View.ld xb r3_1)⟩]

/-- The one store is the whole buffer, so it covers it. -/
theorem cover3_5 (p : Vec F S2000x300 .f32) (y : S2000x300.Idx) :
    ∃ pc ∈ ([⟨r3_0, p⟩] : List (View.Piece (Elt F) S2000x300 .f32)), y ∈ pc.1.set :=
  View.cover_of_tiled [⟨r3_0, p⟩] S2000x300.size (by rfl) y

/-! ## The body's triple -/

set_option maxHeartbeats 1000000 in
/-- The kernel body on whole staging memrefs, the inputs' at read contents `xz xm xv xg xb` and the output's at anything, runs to
    the continuation holding the inputs' as they were and the output's at `out3_5` of the inputs'. -/
theorem sound_kernel3 (c : Dev nD) (E : Set ℕ) (i : grid3.Coords) (Az : Memref sig .tc .vmem S2000x300 .f32) (hAz : Az.IsWhole) (Am : Memref sig .tc .vmem S1x300 .f32) (hAm : Am.IsWhole) (Av : Memref sig .tc .vmem S1x300 .f32) (hAv : Av.IsWhole) (Ag : Memref sig .tc .vmem S1x300 .f32) (hAg : Ag.IsWhole) (Ab : Memref sig .tc .vmem S1x300 .f32) (hAb : Ab.IsWhole) (Ay : Memref sig .tc .vmem S2000x300 .f32) (hAy : Ay.IsWhole)
    (xz : Vec F S2000x300 .f32) (xm xv xg xb : Vec F S1x300 .f32) (K : PUnit → sProp 𝕄) :
    iprop(owns (c : Thread nD τ) Az fullShare xz ∗ owns (c : Thread nD τ) Am fullShare xm ∗ owns (c : Thread nD τ) Av fullShare xv ∗ owns (c : Thread nD τ) Ag fullShare xg ∗ owns (c : Thread nD τ) Ab fullShare xb
        ∗ (∃ d, owns (c : Thread nD τ) Ay fullShare d)
        ∗ (iprop(owns (c : Thread nD τ) Az fullShare xz ∗ owns (c : Thread nD τ) Am fullShare xm ∗ owns (c : Thread nD τ) Av fullShare xv ∗ owns (c : Thread nD τ) Ag fullShare xg ∗ owns (c : Thread nD τ) Ab fullShare xb
            ∗ owns (c : Thread nD τ) Ay fullShare (out3_5 xz xm xv xg xb)) -∗ K ⟨⟩))
      ⊢ wp frame (wpE (defs₀ (F := F)) Variants.none c none) E (cc3__bn_relu_kernel i Az hAz Am hAm Av hAv Ag hAg Ab hAb Ay hAy) K := by
  simp only [cc3__bn_relu_kernel_eq_skeleton]; unfold cc3__bn_relu_kernel_skel
  unfold owns
  iintro ⟨⟨%fz, %hfz, Hz⟩, ⟨%fm, %hfm, Hm⟩, ⟨%fv, %hfv, Hv⟩, ⟨%fg, %hfg, Hg⟩, ⟨%fb, %hfb, Hb⟩, ⟨%dy, %fy, -, Hy⟩, Hk⟩
  subst hfz hfm hfv hfg hfb
  sl_exec
  sl_step
  iapply Hk
  isplitl [Hz]
  · iexists fz; isplitr; · ipureintro; rfl
    iexact Hz
  isplitl [Hm]
  · iexists fm; isplitr; · ipureintro; rfl
    iexact Hm
  isplitl [Hv]
  · iexists fv; isplitr; · ipureintro; rfl
    iexact Hv
  isplitl [Hg]
  · iexists fg; isplitr; · ipureintro; rfl
    iexact Hg
  isplitl [Hb]
  · iexists fb; isplitr; · ipureintro; rfl
    iexact Hb
  iexists _; isplitr
  swap; · iexact Hy
  ipureintro
  exact View.read_writes_eq_canon _ _ _ (cover3_5 _)

/-! ## The pipeline's proof data -/

/-- The proof data of pipeline 1 on core `c`: the arrays as the region finds them (`V`); after the body at point `t` each
    input's buffer at its block and the output's at `out3_5` of the input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- The invariant at the first point is the class's, -/
theorem PhiIn3 (c : Dev nD) : Pipeline.ΦA spec3 c ⊢ (dat3 V c).Φ 0 := .rfl
/-- and so is the invariant at the last. -/
theorem PhiOut3 (c : Dev nD) : (dat3 V c).Φ (Fin.last _) ⊢ Pipeline.ΦA spec3 c := .rfl

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks (`before3_W`), so `sound_kernel3` applies; the invariant
    and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%dz, Hz⟩, ⟨%dm, Hm⟩, ⟨%dv, Hv⟩, ⟨%dg, Hg⟩, ⟨%db, Hb⟩, ⟨%dy, Hy⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [Hz]; · iexact Hz
  isplitl [Hm]; · iexact Hm
  isplitl [Hv]; · iexact Hv
  isplitl [Hg]; · iexact Hg
  isplitl [Hb]; · iexact Hb
  isplitl [Hy]; · iexists _; iexact Hy
  iintro ⟨Hz, Hm, Hv, Hg, Hb, Hy⟩
  isplitl [HΦ]; · iexact HΦ
  isplitl [Ho]; · iexact Ho
  isplitl [Hz]; · iexact Hz
  isplitl [Hm]; · iexact Hm
  isplitl [Hv]; · iexact Hv
  isplitl [Hg]; · iexact Hg
  isplitl [Hb]; · iexact Hb
  iexact Hy

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region1

end Cert.Kernel.Hand
-- ==== Proof.K.RegMlp4.lean ====
import proofs.«409348_j89627377533173_1_alg».proof.Proof.Gen.Kernel.Launch
import proofs.«409348_j89627377533173_1_alg».proof.Proof.Gen.Kernel.Skeleton
import proofs.«409348_j89627377533173_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 4 of @main: custom_call 4, `cc4__mlp_kernel` (pipeline 4), at the entry contents `V` -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Each input window's current staging buffer holds its block at every point, fetched there or not (an input
    fetched at the first point only keeps its block: the index never moves). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and store is of a whole buffer -/

abbrev r4_a : Rect S1000x300 := Rect.unit (s := S1000x300) ![0, 0] S1000x300.size inb_S1000x300_S1000x300_0_0
abbrev r4_b : Rect S300x600 := Rect.unit (s := S300x600) ![0, 0] S300x600.size inb_S300x600_S300x600_0_0
abbrev r4_c : Rect S1x600 := Rect.unit (s := S1x600) ![0, 0] S1x600.size inb_S1x600_S1x600_0_0
abbrev r4_d : Rect S600x300 := Rect.unit (s := S600x300) ![0, 0] S600x300.size inb_S600x300_S600x300_0_0
abbrev r4_e : Rect S1x300 := Rect.unit (s := S1x300) ![0, 0] S1x300.size inb_S1x300_S1x300_0_0

/-! ## What the body leaves: the z block, the two running sums, the copies out -/

/-- The z block the body stores at a point, from the six input blocks (the skeleton's payload `k4_pay5`). -/
def z4 (x0 x1 : Vec F S1000x300 .f32) (x2 : Vec F S300x600 .f32) (x3 : Vec F S1x600 .f32) (x4 : Vec F S600x300 .f32) (x5 : Vec F S1x300 .f32) : FVec F S1000x300 .f32 :=
  k4_pay5 (View.ld x0 r4_a) (View.ld x1 r4_a) (View.ld x2 r4_b) (View.ld x3 r4_c) (View.ld x4 r4_d) (View.ld x5 r4_e)

/-- Output window 6's staging buffer after the body: its one store. -/
def out4_6 (x0 x1 : Vec F S1000x300 .f32) (x2 : Vec F S300x600 .f32) (x3 : Vec F S1x600 .f32) (x4 : Vec F S600x300 .f32) (x5 : Vec F S1x300 .f32) : Vec F S1000x300 .f32 :=
  View.canon [⟨r4_a, z4 x0 x1 x2 x3 x4 x5⟩]

/-- Scratch 0 (the running column sums) after the body's add, over what it held (`s`). -/
def stepS4 (x0 x1 : Vec F S1000x300 .f32) (x2 : Vec F S300x600 .f32) (x3 : Vec F S1x600 .f32) (x4 : Vec F S600x300 .f32) (x5 : Vec F S1x300 .f32) (s : Vec F S1x300 .f32) : Vec F S1x300 .f32 :=
  View.canon [⟨r4_e, k4_pay1 (k4_pay6 (View.ld x0 r4_a) (View.ld x1 r4_a) (View.ld x2 r4_b) (View.ld x3 r4_c) (View.ld x4 r4_d) (View.ld x5 r4_e) (View.ld s r4_e))⟩]

/-- Scratch 1 (the running column sums of squares) after the body's add, over what it held (`q`). -/
def stepQ4 (x0 x1 : Vec F S1000x300 .f32) (x2 : Vec F S300x600 .f32) (x3 : Vec F S1x600 .f32) (x4 : Vec F S600x300 .f32) (x5 : Vec F S1x300 .f32) (q : Vec F S1x300 .f32) : Vec F S1x300 .f32 :=
  View.canon [⟨r4_e, k4_pay2 (z4 x0 x1 x2 x3 x4 x5) (View.ld q r4_e)⟩]

/-- What the first point's reset leaves in scratch 0 and in scratch 1: zeros. -/
def zeroS4 : Vec F S1x300 .f32 := View.canon [⟨r4_e, k4_pay3 (F := F)⟩]
def zeroQ4 : Vec F S1x300 .f32 := View.canon [⟨r4_e, k4_pay4 (F := F)⟩]

/-- What the last point's copy leaves in output window 7's (8's) staging buffer, from the scratch's contents. -/
def out4_7 (s : Vec F S1x300 .f32) : Vec F S1x300 .f32 := View.canon [⟨r4_e, View.ld s r4_e⟩]

/-- The zero offsets of every access, as a function. -/
theorem hz4 : (![0, 0] : Fin 2 → ℕ) = fun _ => 0 := by funext a; fin_cases a <;> rfl

/-! ### Whole-buffer accesses read through (Lib/Pipeline/Value.lean): a load through the whole shape at zero offsets
    reads the contents, a store through it (last) leaves its payload, a load of what one such store left reads it -/

theorem ld4_a (X : Vec F S1000x300 .f32) : View.ld X r4_a = X := View.ld_unit_zero (S := S1000x300) hz4 _ X
theorem ld4_b (X : Vec F S300x600 .f32) : View.ld X r4_b = X := View.ld_unit_zero (S := S300x600) hz4 _ X
theorem ld4_c (X : Vec F S1x600 .f32) : View.ld X r4_c = X := View.ld_unit_zero (S := S1x600) hz4 _ X
theorem ld4_d (X : Vec F S600x300 .f32) : View.ld X r4_d = X := View.ld_unit_zero (S := S600x300) hz4 _ X
theorem ld4_e (X : Vec F S1x300 .f32) : View.ld X r4_e = X := View.ld_unit_zero (S := S1x300) hz4 _ X
theorem canon4_a (w : Vec F S1000x300 .f32) (L : List (View.Piece (Elt F) S1000x300 .f32)) :
    View.canon ((⟨r4_a, w⟩ : View.Piece (Elt F) S1000x300 .f32) :: L) = w := View.canon_cons_unit_zero (S := S1000x300) hz4 _ w L
theorem canon4_e (w : Vec F S1x300 .f32) (L : List (View.Piece (Elt F) S1x300 .f32)) :
    View.canon ((⟨r4_e, w⟩ : View.Piece (Elt F) S1x300 .f32) :: L) = w := View.canon_cons_unit_zero (S := S1x300) hz4 _ w L
theorem readCov4_e {κ : Kind} {sp : Space} (v : View sig κ sp S1x300 .f32) (w : Vec F S1x300 .f32) :
    v.readCov [(⟨r4_e, w⟩ : View.Piece (Elt F) S1x300 .f32)] r4_e.toLoadRect = w := View.readCov_unit_zero (S := S1x300) v hz4 _ w

theorem z4_eq (x0 x1 : Vec F S1000x300 .f32) (x2 : Vec F S300x600 .f32) (x3 : Vec F S1x600 .f32) (x4 : Vec F S600x300 .f32) (x5 : Vec F S1x300 .f32) : z4 x0 x1 x2 x3 x4 x5 = k4_pay5 x0 x1 x2 x3 x4 x5 := by
  unfold z4; rw [ld4_a, ld4_a, ld4_b, ld4_c, ld4_d, ld4_e]
theorem out4_6_eq (x0 x1 : Vec F S1000x300 .f32) (x2 : Vec F S300x600 .f32) (x3 : Vec F S1x600 .f32) (x4 : Vec F S600x300 .f32) (x5 : Vec F S1x300 .f32) : out4_6 x0 x1 x2 x3 x4 x5 = k4_pay5 x0 x1 x2 x3 x4 x5 := by
  unfold out4_6; rw [canon4_a, z4_eq]
theorem stepS4_eq (x0 x1 : Vec F S1000x300 .f32) (x2 : Vec F S300x600 .f32) (x3 : Vec F S1x600 .f32) (x4 : Vec F S600x300 .f32) (x5 : Vec F S1x300 .f32) (s : Vec F S1x300 .f32) :
    stepS4 x0 x1 x2 x3 x4 x5 s = k4_pay1 (k4_pay6 x0 x1 x2 x3 x4 x5 s) := by
  unfold stepS4; rw [canon4_e, ld4_a, ld4_a, ld4_b, ld4_c, ld4_d, ld4_e, ld4_e]
theorem stepQ4_eq (x0 x1 : Vec F S1000x300 .f32) (x2 : Vec F S300x600 .f32) (x3 : Vec F S1x600 .f32) (x4 : Vec F S600x300 .f32) (x5 : Vec F S1x300 .f32) (q : Vec F S1x300 .f32) :
    stepQ4 x0 x1 x2 x3 x4 x5 q = k4_pay2 (k4_pay5 x0 x1 x2 x3 x4 x5) q := by
  unfold stepQ4; rw [canon4_e, z4_eq, ld4_e]
theorem zeroS4_eq : zeroS4 (F := F) = k4_pay3 (F := F) := by unfold zeroS4; rw [canon4_e]
theorem zeroQ4_eq : zeroQ4 (F := F) = k4_pay4 (F := F) := by unfold zeroQ4; rw [canon4_e]
theorem out4_7_eq (s : Vec F S1x300 .f32) : out4_7 s = s := by
  unfold out4_7; rw [canon4_e, ld4_e]

/-- THE ACCUMULATION: scratch 0 after the body at position `n` — the add over the reset at the first point, over
    what the point before left at every later one. -/
def accS4 (c : Dev nD) : (n : ℕ) → n < cfg4.N → Vec F S1x300 .f32
  | 0, hn => stepS4 (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (zeroS4 (F := F))
  | n + 1, hn => stepS4 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (accS4 c n (Nat.lt_of_succ_lt hn))

/-- and scratch 1. -/
def accQ4 (c : Dev nD) : (n : ℕ) → n < cfg4.N → Vec F S1x300 .f32
  | 0, hn => stepQ4 (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (zeroQ4 (F := F))
  | n + 1, hn => stepQ4 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (accQ4 c n (Nat.lt_of_succ_lt hn))

theorem accS4_zero (c : Dev nD) (hn : 0 < cfg4.N) :
    accS4 V c 0 hn = stepS4 (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (zeroS4 (F := F)) := rfl
theorem accS4_succ (c : Dev nD) (n : ℕ) (hn : n + 1 < cfg4.N) :
    accS4 V c (n + 1) hn = stepS4 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (accS4 V c n (Nat.lt_of_succ_lt hn)) := rfl
theorem accQ4_zero (c : Dev nD) (hn : 0 < cfg4.N) :
    accQ4 V c 0 hn = stepQ4 (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (zeroQ4 (F := F)) := rfl
theorem accQ4_succ (c : Dev nD) (n : ℕ) (hn : n + 1 < cfg4.N) :
    accQ4 V c (n + 1) hn = stepQ4 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (accQ4 V c n (Nat.lt_of_succ_lt hn)) := rfl

/-- The accumulators at the first point, and at a later one over what the point before left. -/
theorem accS4_A (c : Dev nD) (t : Fin cfg4.N) (hz : t.val = 0) :
    accS4 V c t.val t.isLt = stepS4 (iblk4 V c 0 t) (iblk4 V c 1 t) (iblk4 V c 2 t) (iblk4 V c 3 t) (iblk4 V c 4 t) (iblk4 V c 5 t) (zeroS4 (F := F)) := by
  obtain ⟨n, hn⟩ := t
  cases n with
  | zero => rfl
  | succ n => exact absurd hz (Nat.succ_ne_zero n)
theorem accS4_B (c : Dev nD) (t : Fin cfg4.N) (hz : t.val ≠ 0) :
    accS4 V c t.val t.isLt = stepS4 (iblk4 V c 0 t) (iblk4 V c 1 t) (iblk4 V c 2 t) (iblk4 V c 3 t) (iblk4 V c 4 t) (iblk4 V c 5 t) (accS4 V c (t.val - 1) (Nat.lt_of_le_of_lt (Nat.sub_le _ _) t.isLt)) := by
  obtain ⟨n, hn⟩ := t
  cases n with
  | zero => exact absurd rfl hz
  | succ n => rfl
theorem accQ4_A (c : Dev nD) (t : Fin cfg4.N) (hz : t.val = 0) :
    accQ4 V c t.val t.isLt = stepQ4 (iblk4 V c 0 t) (iblk4 V c 1 t) (iblk4 V c 2 t) (iblk4 V c 3 t) (iblk4 V c 4 t) (iblk4 V c 5 t) (zeroQ4 (F := F)) := by
  obtain ⟨n, hn⟩ := t
  cases n with
  | zero => rfl
  | succ n => exact absurd hz (Nat.succ_ne_zero n)
theorem accQ4_B (c : Dev nD) (t : Fin cfg4.N) (hz : t.val ≠ 0) :
    accQ4 V c t.val t.isLt = stepQ4 (iblk4 V c 0 t) (iblk4 V c 1 t) (iblk4 V c 2 t) (iblk4 V c 3 t) (iblk4 V c 4 t) (iblk4 V c 5 t) (accQ4 V c (t.val - 1) (Nat.lt_of_le_of_lt (Nat.sub_le _ _) t.isLt)) := by
  obtain ⟨n, hn⟩ := t
  cases n with
  | zero => exact absurd rfl hz
  | succ n => rfl

/-! ## The body's branch conditions -/

/-- The condition of the reset (`pl.when` on the first point), from the grid coordinates (the skeleton's scalar chain). -/
abbrev cond4_0 (i : grid4.Coords) : Prop := (Scalar.cmpi .ne (Scalar.extui (Scalar.cmpi .eq (BitVec.ofNat 32 (i 0).val) 0#32)) 0#32) = 1#1
/-- It holds at the first point only — decided over the grid. -/
theorem hcond4_0 : ∀ t : Fin cfg4.N, cond4_0 (grid4.coords t) ↔ t.val % 50 = 0 :=
  (by decide +kernel : ∀ t : Fin grid4.N, cond4_0 (grid4.coords t) ↔ t.val % 50 = 0)
/-- The condition of the copy out (`pl.when` on the last point). -/
abbrev cond4_1 (i : grid4.Coords) : Prop := k4_cond2 i = 1#1
/-- It holds at the last point only — decided over the grid. -/
theorem hcond4_1 : ∀ t : Fin cfg4.N, cond4_1 (grid4.coords t) ↔ t.val % 50 = 49 :=
  (by decide +kernel : ∀ t : Fin grid4.N, cond4_1 (grid4.coords t) ↔ t.val % 50 = 49)

/-! ## The body's stores cover the buffers they write (each is of the whole buffer) -/

theorem cover4_a (p0 : Vec F S1000x300 .f32) (y : S1000x300.Idx) :
    ∃ pc ∈ ([⟨r4_a, p0⟩] : List (View.Piece (Elt F) S1000x300 .f32)), y ∈ pc.1.set :=
  View.cover_of_tiled [⟨r4_a, p0⟩] S1000x300.size (by rfl) y
theorem cover4_e (p0 : Vec F S1x300 .f32) (y : S1x300.Idx) :
    ∃ pc ∈ ([⟨r4_e, p0⟩] : List (View.Piece (Elt F) S1x300 .f32)), y ∈ pc.1.set :=
  View.cover_of_tiled [⟨r4_e, p0⟩] S1x300.size (by rfl) y

theorem cover4_e_cons (p0 : Vec F S1x300 .f32) (L : List (View.Piece (Elt F) S1x300 .f32)) (y : S1x300.Idx) :
    ∃ pc ∈ ((⟨r4_e, p0⟩ :: L) : List (View.Piece (Elt F) S1x300 .f32)), y ∈ pc.1.set := by
  obtain ⟨pc, hpc, hy⟩ := cover4_e p0 y
  exact ⟨pc, List.mem_cons.mpr (Or.inl (List.mem_singleton.mp hpc)), hy⟩

/-! ## Where outputs 7 and 8 are idle: everywhere but at the last point, which alone writes them back -/

theorem idleAt4_7 : ∀ t : Fin cfg4.N, ¬cond4_1 (grid4.coords t) → cfg4.idle 7 (grid4.coords t) = true := by decide +kernel
theorem noFlush4_7 : ∀ t : Fin cfg4.N, ¬cond4_1 (grid4.coords t) → (cfg4.win 7).flush t = false := by decide +kernel
theorem liveAt4_7 : ∀ t : Fin cfg4.N, cond4_1 (grid4.coords t) → cfg4.idle 7 (grid4.coords t) = false := by decide +kernel
theorem idleAt4_8 : ∀ t : Fin cfg4.N, ¬cond4_1 (grid4.coords t) → cfg4.idle 8 (grid4.coords t) = true := by decide +kernel
theorem noFlush4_8 : ∀ t : Fin cfg4.N, ¬cond4_1 (grid4.coords t) → (cfg4.win 8).flush t = false := by decide +kernel
theorem liveAt4_8 : ∀ t : Fin cfg4.N, cond4_1 (grid4.coords t) → cfg4.idle 8 (grid4.coords t) = false := by decide +kernel

set_option maxHeartbeats 2000000 in
/-- The body at the first point: the two scratch accumulators, at anything, are reset and stepped. -/
theorem sound_kernel4_A (c : Dev nD) (E : Set ℕ) (i : grid4.Coords) (arg1 : Memref sig .tc .vmem S1000x300 .f32) (harg1 : arg1.IsWhole) (arg2 : Memref sig .tc .vmem S1000x300 .f32) (harg2 : arg2.IsWhole) (arg3 : Memref sig .tc .vmem S300x600 .f32) (harg3 : arg3.IsWhole) (arg4 : Memref sig .tc .vmem S1x600 .f32) (harg4 : arg4.IsWhole) (arg5 : Memref sig .tc .vmem S600x300 .f32) (harg5 : arg5.IsWhole) (arg6 : Memref sig .tc .vmem S1x300 .f32) (harg6 : arg6.IsWhole) (arg7 : Memref sig .tc .vmem S1000x300 .f32) (harg7 : arg7.IsWhole) (arg8 : Memref sig .tc .vmem S1x300 .f32) (harg8 : arg8.IsWhole) (arg9 : Memref sig .tc .vmem S1x300 .f32) (harg9 : arg9.IsWhole) (arg10 : Memref sig .tc .vmem S1x300 .f32) (harg10 : arg10.IsWhole) (arg11 : Memref sig .tc .vmem S1x300 .f32) (harg11 : arg11.IsWhole)
    (hc0 : cond4_0 i) (hc1 : ¬cond4_1 i) (x0 x1 : Vec F S1000x300 .f32) (x2 : Vec F S300x600 .f32) (x3 : Vec F S1x600 .f32) (x4 : Vec F S600x300 .f32) (x5 : Vec F S1x300 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out4_6 x0 x1 x2 x3 x4 x5)
            ∗ owns (c : Thread nD τ) arg10 fullShare (stepS4 x0 x1 x2 x3 x4 x5 (zeroS4 (F := F))) ∗ owns (c : Thread nD τ) arg11 fullShare (stepQ4 x0 x1 x2 x3 x4 x5 (zeroQ4 (F := F)))) -∗ K ⟨⟩))
      ⊢ wp frame (wpE (defs₀ (F := F)) Variants.none c none) E (cc4__mlp_kernel i arg1 harg1 arg2 harg2 arg3 harg3 arg4 harg4 arg5 harg5 arg6 harg6 arg7 harg7 arg8 harg8 arg9 harg9 arg10 harg10 arg11 harg11) K := by
  simp only [cc4__mlp_kernel_eq_skeleton]; unfold cc4__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, ⟨%dq, %fq, -, HQ⟩, Hk⟩
  subst hf0 hf1 hf2 hf3 hf4 hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover4_a _)
  isplitl [HS]
  · iexists _; isplitr
    swap; · iexact HS
    ipureintro
    sl_unfold_run_names
    try rw [View.readCov_eq_canon_ld _ _ _ (cover4_e _)]
    exact (View.read_writes_eq_canon _ _ _ (cover4_e_cons _ _)).trans ((canon4_e _ _).trans (canon4_e _ []).symm)
  iexists _; isplitr
  swap; · iexact HQ
  ipureintro
  sl_unfold_run_names
  try rw [View.readCov_eq_canon_ld _ _ _ (cover4_e _)]
  exact (View.read_writes_eq_canon _ _ _ (cover4_e_cons _ _)).trans ((canon4_e _ _).trans (canon4_e _ []).symm)

set_option maxHeartbeats 2000000 in
/-- The body at a middle point (no reset, no copy out): the two scratch accumulators at `s`, `q` are stepped. -/
theorem sound_kernel4_B (c : Dev nD) (E : Set ℕ) (i : grid4.Coords) (arg1 : Memref sig .tc .vmem S1000x300 .f32) (harg1 : arg1.IsWhole) (arg2 : Memref sig .tc .vmem S1000x300 .f32) (harg2 : arg2.IsWhole) (arg3 : Memref sig .tc .vmem S300x600 .f32) (harg3 : arg3.IsWhole) (arg4 : Memref sig .tc .vmem S1x600 .f32) (harg4 : arg4.IsWhole) (arg5 : Memref sig .tc .vmem S600x300 .f32) (harg5 : arg5.IsWhole) (arg6 : Memref sig .tc .vmem S1x300 .f32) (harg6 : arg6.IsWhole) (arg7 : Memref sig .tc .vmem S1000x300 .f32) (harg7 : arg7.IsWhole) (arg8 : Memref sig .tc .vmem S1x300 .f32) (harg8 : arg8.IsWhole) (arg9 : Memref sig .tc .vmem S1x300 .f32) (harg9 : arg9.IsWhole) (arg10 : Memref sig .tc .vmem S1x300 .f32) (harg10 : arg10.IsWhole) (arg11 : Memref sig .tc .vmem S1x300 .f32) (harg11 : arg11.IsWhole)
    (hc0 : ¬cond4_0 i) (hc1 : ¬cond4_1 i) (x0 x1 : Vec F S1000x300 .f32) (x2 : Vec F S300x600 .f32) (x3 : Vec F S1x600 .f32) (x4 : Vec F S600x300 .f32) (x5 : Vec F S1x300 .f32) (s q : Vec F S1x300 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out4_6 x0 x1 x2 x3 x4 x5)
            ∗ owns (c : Thread nD τ) arg10 fullShare (stepS4 x0 x1 x2 x3 x4 x5 s) ∗ owns (c : Thread nD τ) arg11 fullShare (stepQ4 x0 x1 x2 x3 x4 x5 q)) -∗ K ⟨⟩))
      ⊢ wp frame (wpE (defs₀ (F := F)) Variants.none c none) E (cc4__mlp_kernel i arg1 harg1 arg2 harg2 arg3 harg3 arg4 harg4 arg5 harg5 arg6 harg6 arg7 harg7 arg8 harg8 arg9 harg9 arg10 harg10 arg11 harg11) K := by
  simp only [cc4__mlp_kernel_eq_skeleton]; unfold cc4__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, ⟨%fq, %hfq, HQ⟩, Hk⟩
  subst hf0 hf1 hf2 hf3 hf4 hf5 hfs hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover4_a _)
  isplitl [HS]
  · iexists _; isplitr
    swap; · iexact HS
    ipureintro
    exact View.read_writes_eq_canon _ _ _ (cover4_e _)
  iexists _; isplitr
  swap; · iexact HQ
  ipureintro
  exact View.read_writes_eq_canon _ _ _ (cover4_e _)

set_option maxHeartbeats 2000000 in
/-- The body at the last point: the two scratch accumulators at `s`, `q` are stepped and copied out to outputs 7 and 8. -/
theorem sound_kernel4_C (c : Dev nD) (E : Set ℕ) (i : grid4.Coords) (arg1 : Memref sig .tc .vmem S1000x300 .f32) (harg1 : arg1.IsWhole) (arg2 : Memref sig .tc .vmem S1000x300 .f32) (harg2 : arg2.IsWhole) (arg3 : Memref sig .tc .vmem S300x600 .f32) (harg3 : arg3.IsWhole) (arg4 : Memref sig .tc .vmem S1x600 .f32) (harg4 : arg4.IsWhole) (arg5 : Memref sig .tc .vmem S600x300 .f32) (harg5 : arg5.IsWhole) (arg6 : Memref sig .tc .vmem S1x300 .f32) (harg6 : arg6.IsWhole) (arg7 : Memref sig .tc .vmem S1000x300 .f32) (harg7 : arg7.IsWhole) (arg8 : Memref sig .tc .vmem S1x300 .f32) (harg8 : arg8.IsWhole) (arg9 : Memref sig .tc .vmem S1x300 .f32) (harg9 : arg9.IsWhole) (arg10 : Memref sig .tc .vmem S1x300 .f32) (harg10 : arg10.IsWhole) (arg11 : Memref sig .tc .vmem S1x300 .f32) (harg11 : arg11.IsWhole)
    (hc0 : ¬cond4_0 i) (hc1 : cond4_1 i) (x0 x1 : Vec F S1000x300 .f32) (x2 : Vec F S300x600 .f32) (x3 : Vec F S1x600 .f32) (x4 : Vec F S600x300 .f32) (x5 : Vec F S1x300 .f32) (s q : Vec F S1x300 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out4_6 x0 x1 x2 x3 x4 x5)
            ∗ owns (c : Thread nD τ) arg8 fullShare (out4_7 (stepS4 x0 x1 x2 x3 x4 x5 s)) ∗ owns (c : Thread nD τ) arg9 fullShare (out4_7 (stepQ4 x0 x1 x2 x3 x4 x5 q))
            ∗ owns (c : Thread nD τ) arg10 fullShare (stepS4 x0 x1 x2 x3 x4 x5 s) ∗ owns (c : Thread nD τ) arg11 fullShare (stepQ4 x0 x1 x2 x3 x4 x5 q)) -∗ K ⟨⟩))
      ⊢ wp frame (wpE (defs₀ (F := F)) Variants.none c none) E (cc4__mlp_kernel i arg1 harg1 arg2 harg2 arg3 harg3 arg4 harg4 arg5 harg5 arg6 harg6 arg7 harg7 arg8 harg8 arg9 harg9 arg10 harg10 arg11 harg11) K := by
  simp only [cc4__mlp_kernel_eq_skeleton]; unfold cc4__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs, %hfs, HS⟩, ⟨%fq, %hfq, HQ⟩, Hk⟩
  subst hf0 hf1 hf2 hf3 hf4 hf5 hfs hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover4_a _)
  isplitl [H7]
  · iexists _; isplitr
    swap; · iexact H7
    ipureintro
    sl_unfold_run_names
    try rw [View.readCov_eq_canon_ld _ _ _ (cover4_e _)]
    exact (View.read_writes_eq_canon _ _ _ (cover4_e_cons _ _)).trans ((canon4_e _ _).trans (canon4_e _ []).symm)
  isplitl [H8]
  · iexists _; isplitr
    swap; · iexact H8
    ipureintro
    sl_unfold_run_names
    try rw [View.readCov_eq_canon_ld _ _ _ (cover4_e _)]
    exact (View.read_writes_eq_canon _ _ _ (cover4_e_cons _ _)).trans ((canon4_e _ _).trans (canon4_e _ []).symm)
  isplitl [HS]
  · iexists _; isplitr
    swap; · iexact HS
    ipureintro
    sl_unfold_run_names
    try rw [View.readCov_eq_canon_ld _ _ _ (cover4_e _)]
    exact (View.read_writes_eq_canon _ _ _ (cover4_e_cons _ _)).trans ((canon4_e _ _).trans (canon4_e _ []).symm)
  iexists _; isplitr
  swap; · iexact HQ
  ipureintro
  sl_unfold_run_names
  try rw [View.readCov_eq_canon_ld _ _ _ (cover4_e _)]
  exact (View.read_writes_eq_canon _ _ _ (cover4_e_cons _ _)).trans ((canon4_e _ _).trans (canon4_e _ []).symm)

/-! ## The invariant: the two scratch accumulators tracked -/

/-- The scratch operands: whole scoped buffers of the kernel's own, passed beside the windows. -/
abbrev scM4_0 : Memref sig .tc .vmem S1x300 .f32 := Memref.whole cc4_scratch0
abbrev scM4_1 : Memref sig .tc .vmem S1x300 .f32 := Memref.whole cc4_scratch1

/-- Before the first point the class's invariant (every scratch at anything); afterwards the two scratch
    accumulators at what the point before left, the other scoped buffers unopened, the generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare (accS4 V c n hn) ∗ owns (c : Thread nD τ) scM4_1 fullShare (accQ4 V c n hn))
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

/-- After point `n` (before point `n + 1`): the accumulators at that point's contents. -/
theorem PhiS4_succ (c : Dev nD) (n : ℕ) (hn : n < cfg4.N) :
    PhiS4 V c (n + 1) hn = iprop(iprop(iprop(owns (c : Thread nD τ) scM4_0 fullShare (accS4 V c n hn) ∗ owns (c : Thread nD τ) scM4_1 fullShare (accQ4 V c n hn))
      ∗ Pipeline.scopedRestBut (Ix := Unit) (Name := ℕ) (U := UR sig nD τ) (Lvl := ℕ) (Val := Elt F) spec4 c [cc4_scratch0, cc4_scratch1]) ∗ (∃ r, prngReg c r)) := rfl

/-- Before a point that is not the first: the accumulators at what the point before left. -/
theorem PhiS4_pos (c : Dev nD) (n : ℕ) (h : n ≤ cfg4.N) (hz : n ≠ 0) :
    PhiS4 V c n h = iprop(iprop(iprop(owns (c : Thread nD τ) scM4_0 fullShare (accS4 V c (n - 1) (by omega)) ∗ owns (c : Thread nD τ) scM4_1 fullShare (accQ4 V c (n - 1) (by omega)))
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-- The class's invariant with the two scratch operands split out of the scoped rest as memrefs owned at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

/-! ## The pipeline's proof data -/

/-- The proof data of pipeline 4 on core `c`: the arrays as the region finds them (`V`); after the body at point `t`
    each input's buffer at its block, output 6's at the z block of the input blocks, outputs 7 and 8's at the copies of
    the accumulators (consulted at the last point only: the windows are idle before it); the invariant tracks the two
    scratch accumulators (`PhiS4`); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
    | ⟨7, _⟩ => out4_7 (accS4 V c t.val t.isLt)
    | ⟨8, _⟩ => out4_7 (accQ4 V c t.val t.isLt)
  Φ t := PhiS4 V c t.val (Nat.le_of_lt_succ t.isLt)
  q _ := fullShare
  owed _ := 0

/-- The proof data's arrays are the region-entry contents (the proof data's definition projected, by `dsimp`). -/
theorem A_eq4 (c : Dev nD) (w : Fin cfg4.W) : (dat4 V c).A w = V c (Pipeline.arrRef spec4 w) := by
  dsimp only [dat4]

/-- The invariant at a point's start (the proof data at `t.castSucc`), restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window (the proof data's `match` reduced by `dsimp`). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 (iblk4 V c 0 t) (iblk4 V c 1 t) (iblk4 V c 2 t) (iblk4 V c 3 t) (iblk4 V c 4 t) (iblk4 V c 5 t) := by dsimp only [dat4]
theorem after4_7 (c : Dev nD) (t : Fin cfg4.N) : (dat4 V c).after 7 t = out4_7 (accS4 V c t.val t.isLt) := by dsimp only [dat4]
theorem after4_8 (c : Dev nD) (t : Fin cfg4.N) : (dat4 V c).after 8 t = out4_7 (accQ4 V c t.val t.isLt) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-- Windows 0 to 6 are never idle: the body's post for them is the buffer at what the body leaves. -/
theorem leaves4_0 (c : Dev nD) (t : Fin cfg4.N) :
    (dat4 V c).leavesExact 0 t = owns (c : Thread nD τ) (st4_0 t) fullShare ((dat4 V c).after 0 t) := rfl
theorem leaves4_1 (c : Dev nD) (t : Fin cfg4.N) :
    (dat4 V c).leavesExact 1 t = owns (c : Thread nD τ) (st4_1 t) fullShare ((dat4 V c).after 1 t) := rfl
theorem leaves4_2 (c : Dev nD) (t : Fin cfg4.N) :
    (dat4 V c).leavesExact 2 t = owns (c : Thread nD τ) (st4_2 t) fullShare ((dat4 V c).after 2 t) := rfl
theorem leaves4_3 (c : Dev nD) (t : Fin cfg4.N) :
    (dat4 V c).leavesExact 3 t = owns (c : Thread nD τ) (st4_3 t) fullShare ((dat4 V c).after 3 t) := rfl
theorem leaves4_4 (c : Dev nD) (t : Fin cfg4.N) :
    (dat4 V c).leavesExact 4 t = owns (c : Thread nD τ) (st4_4 t) fullShare ((dat4 V c).after 4 t) := rfl
theorem leaves4_5 (c : Dev nD) (t : Fin cfg4.N) :
    (dat4 V c).leavesExact 5 t = owns (c : Thread nD τ) (st4_5 t) fullShare ((dat4 V c).after 5 t) := rfl
theorem leaves4_6 (c : Dev nD) (t : Fin cfg4.N) :
    (dat4 V c).leavesExact 6 t = owns (c : Thread nD τ) (st4_6 t) fullShare ((dat4 V c).after 6 t) := rfl

/-! ## The body obligation, at a generic point -/

/-- What the body is called with at point `t` (the library's body obligation's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t
    ∗ (dat4 V c).leavesExact 8 t)

set_option maxHeartbeats 4000000 in
/-- The body at any point: the inputs' memrefs hold their blocks; the closed forms say which of the three control cases
    the point is in; the invariant hands the body the two scratch accumulators at what the point before left (at anything
    at the first point) and takes them back at this point's contents; outputs 7 and 8 pass through untouched where they
    are idle and are handed back at the copies at the last point; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  rw [leaves4_0, leaves4_1, leaves4_2, leaves4_3, leaves4_4, leaves4_5, leaves4_6,
    after4_0, after4_1, after4_2, after4_3, after4_4, after4_5, after4_6]
  have hN : t.val < 50 := lt_of_lt_of_eq t.isLt (show cfg4.N = 50 from N_4)
  by_cases h0 : t.val % 50 = 0
  · by_cases h1 : t.val % 50 = 49
    · exfalso; omega
    · have hc0 : cond4_0 (grid4.coords t) := (hcond4_0 t).mpr h0
      have hc1 : ¬cond4_1 (grid4.coords t) := fun h => h1 ((hcond4_1 t).mp h)
      have hz : t.val = 0 := by omega
      rw [Dat.leavesExact_idle (dat4 V c) 7 t (idleAt4_7 t hc1) (noFlush4_7 t hc1),
        Dat.leavesExact_idle (dat4 V c) 8 t (idleAt4_8 t hc1) (noFlush4_8 t hc1)]
      rw [accS4_A V c t hz, accQ4_A V c t hz]
      rw [PhiS4_castSucc V c t, PhiS4_zero V c _ _ hz, PhiA4_eq]
      iintro ⟨⟨⟨⟨HS, HQ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel4_A c Set.univ (grid4.coords t) _ _ _ _ _ _ _ _ _ _ _ _ _ _ _ _ _ _ _ _ _ _ hc0 hc1 (iblk4 V c 0 t) (iblk4 V c 1 t) (iblk4 V c 2 t) (iblk4 V c 3 t) (iblk4 V c 4 t) (iblk4 V c 5 t) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      isplitl [HQ]; · iexact HQ
      iintro ⟨H0, H1, H2, H3, H4, H5, H6, HS, HQ⟩
      isplitl [HS HQ HR Hg]
      · isplitl [HS HQ HR]
        · isplitl [HS HQ]
          · isplitl [HS]; · iexact HS
            iexact HQ
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
  · have hc0 : ¬cond4_0 (grid4.coords t) := fun h => h0 ((hcond4_0 t).mp h)
    have hz : t.val ≠ 0 := fun e => h0 (by rw [e])
    rw [accS4_B V c t hz, accQ4_B V c t hz]
    rw [PhiS4_castSucc V c t, PhiS4_pos V c _ _ hz]
    by_cases h1 : t.val % 50 = 49
    · have hc1 : cond4_1 (grid4.coords t) := (hcond4_1 t).mpr h1
      rw [show (dat4 V c).leavesExact 7 t = owns (c : Thread nD τ) (st4_7 t) fullShare ((dat4 V c).after 7 t) from by
        unfold Dat.leavesExact; rw [liveAt4_7 t hc1], after4_7]
      rw [show (dat4 V c).leavesExact 8 t = owns (c : Thread nD τ) (st4_8 t) fullShare ((dat4 V c).after 8 t) from by
        unfold Dat.leavesExact; rw [liveAt4_8 t hc1], after4_8]
      rw [accS4_B V c t hz, accQ4_B V c t hz]
      iintro ⟨⟨⟨⟨HS, HQ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel4_C c Set.univ (grid4.coords t) _ _ _ _ _ _ _ _ _ _ _ _ _ _ _ _ _ _ _ _ _ _ hc0 hc1 (iblk4 V c 0 t) (iblk4 V c 1 t) (iblk4 V c 2 t) (iblk4 V c 3 t) (iblk4 V c 4 t) (iblk4 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS]; · iexact HS
      isplitl [HQ]; · iexact HQ
      iintro ⟨H0, H1, H2, H3, H4, H5, H6, H7, H8, HS, HQ⟩
      isplitl [HS HQ HR Hg]
      · isplitl [HS HQ HR]
        · isplitl [HS HQ]
          · isplitl [HS]; · iexact HS
            iexact HQ
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬cond4_1 (grid4.coords t) := fun h => h1 ((hcond4_1 t).mp h)
      rw [Dat.leavesExact_idle (dat4 V c) 7 t (idleAt4_7 t hc1) (noFlush4_7 t hc1),
        Dat.leavesExact_idle (dat4 V c) 8 t (idleAt4_8 t hc1) (noFlush4_8 t hc1)]
      iintro ⟨⟨⟨⟨HS, HQ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel4_B c Set.univ (grid4.coords t) _ _ _ _ _ _ _ _ _ _ _ _ _ _ _ _ _ _ _ _ _ _ hc0 hc1 (iblk4 V c 0 t) (iblk4 V c 1 t) (iblk4 V c 2 t) (iblk4 V c 3 t) (iblk4 V c 4 t) (iblk4 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      isplitl [HQ]; · iexact HQ
      iintro ⟨H0, H1, H2, H3, H4, H5, H6, HS, HQ⟩
      isplitl [HS HQ HR Hg]
      · isplitl [HS HQ HR]
        · isplitl [HS HQ]
          · isplitl [HS]; · iexact HS
            iexact HQ
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region (the class's invariant) is the invariant before the first point. -/
theorem PhiIn4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the class's back: the accumulators' named contents are forgotten. -/
theorem PhiOut4 (c : Dev nD) : (dat4 V c).Φ (Fin.last _) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 50 := N_4; omega), PhiA4_eq]
  iintro ⟨⟨⟨HS, HQ⟩, HR⟩, Hg⟩
  isplitl [HS HQ HR]
  · isplitl [HS HQ]
    · isplitl [HS]; · iexists _; iexact HS
      iexists _; iexact HQ
    iexact HR
  iexact Hg

/-- The last point. -/
abbrev tLast4 : Fin cfg4.N := ⟨49, by decide⟩

/-! ## The arrays of outputs 7 and 8 after the region -/

/-- Output 7's one block is its whole array: at the last point its offsets are zero and its extents the array's. -/
theorem whole4_7_off : ∀ a, win4_7.index tLast4 a * win4_7.size a = 0 := by decide +kernel
theorem whole4_7_size : ∀ a, win4_7.xsize (grid4.coords tLast4) a = S1x300.size a := by decide +kernel

/-- The one write-back of output 7, at the last point, writes its whole array. -/
theorem flushed4_7 (c : Dev nD) (t : Fin cfg4.N) (hf : (cfg4.win 7).flush t = true) :
    (dat4 V c).flushed 7 t
      = ((cfg4.win 7).blk t).view.read (Elt F) (out4_7 (accS4 V c 49 (by decide)) : Buf (Elt F) ((c : Thread nD τ).loc (Pipeline.arrRef spec4 7))) := by
  have hN : cfg4.N = 50 := N_4
  have h49 : t.val = 49 := by have := (flush4_7 t).mp hf; have := t.isLt; omega
  obtain rfl : t = tLast4 := Fin.ext h49
  show (cfg4.win 7).cut (grid4.coords tLast4) ((dat4 V c).after 7 tLast4) = _
  rw [after4_7]
  exact (Memref.read_access_unit_zero (Elt F) (Pipeline.arrRef spec4 7) (funext whole4_7_off)
    (fun a => by show win4_7.index tLast4 a * win4_7.size a + S1x300.size a ≤ S1x300.size a; rw [whole4_7_off a, Nat.zero_add]) _).symm

/-- So after the region output 7's array holds the copy of the accumulator as the last point left it. -/
theorem arrAt4_7 (c : Dev nD) : (dat4 V c).arrAt 7 cfg4.N = out4_7 (accS4 V c 49 (by decide)) :=
  (dat4 V c).arrAt_eq_of_cover 7 _ (flushed4_7 V c) fun i =>
    ⟨tLast4, (flush4_7 tLast4).mpr rfl, by
      show i ∈ ((View.whole (Pipeline.arrRef spec4 7)).slice (win4_7.rect tLast4)).set
      rw [View.set_slice_whole, Rect.mem_set_unit]
      intro a
      show win4_7.index tLast4 a * win4_7.size a ≤ (i a : Nat)
        ∧ (i a : Nat) < win4_7.index tLast4 a * win4_7.size a + win4_7.xsize (grid4.coords tLast4) a
      rw [whole4_7_off a, whole4_7_size a, Nat.zero_add]
      exact ⟨Nat.zero_le _, (i a).isLt⟩⟩

/-- Output 8's one block is its whole array: at the last point its offsets are zero and its extents the array's. -/
theorem whole4_8_off : ∀ a, win4_8.index tLast4 a * win4_8.size a = 0 := by decide +kernel
theorem whole4_8_size : ∀ a, win4_8.xsize (grid4.coords tLast4) a = S1x300.size a := by decide +kernel

/-- The one write-back of output 8, at the last point, writes its whole array. -/
theorem flushed4_8 (c : Dev nD) (t : Fin cfg4.N) (hf : (cfg4.win 8).flush t = true) :
    (dat4 V c).flushed 8 t
      = ((cfg4.win 8).blk t).view.read (Elt F) (out4_7 (accQ4 V c 49 (by decide)) : Buf (Elt F) ((c : Thread nD τ).loc (Pipeline.arrRef spec4 8))) := by
  have hN : cfg4.N = 50 := N_4
  have h49 : t.val = 49 := by have := (flush4_8 t).mp hf; have := t.isLt; omega
  obtain rfl : t = tLast4 := Fin.ext h49
  show (cfg4.win 8).cut (grid4.coords tLast4) ((dat4 V c).after 8 tLast4) = _
  rw [after4_8]
  exact (Memref.read_access_unit_zero (Elt F) (Pipeline.arrRef spec4 8) (funext whole4_8_off)
    (fun a => by show win4_8.index tLast4 a * win4_8.size a + S1x300.size a ≤ S1x300.size a; rw [whole4_8_off a, Nat.zero_add]) _).symm

/-- So after the region output 8's array holds the copy of the accumulator as the last point left it. -/
theorem arrAt4_8 (c : Dev nD) : (dat4 V c).arrAt 8 cfg4.N = out4_7 (accQ4 V c 49 (by decide)) :=
  (dat4 V c).arrAt_eq_of_cover 8 _ (flushed4_8 V c) fun i =>
    ⟨tLast4, (flush4_8 tLast4).mpr rfl, by
      show i ∈ ((View.whole (Pipeline.arrRef spec4 8)).slice (win4_8.rect tLast4)).set
      rw [View.set_slice_whole, Rect.mem_set_unit]
      intro a
      show win4_8.index tLast4 a * win4_8.size a ≤ (i a : Nat)
        ∧ (i a : Nat) < win4_8.index tLast4 a * win4_8.size a + win4_8.xsize (grid4.coords tLast4) a
      rw [whole4_8_off a, whole4_8_size a, Nat.zero_add]
      exact ⟨Nat.zero_le _, (i a).isLt⟩⟩

end Cert.Kernel.Hand

end
-- ==== Proof.K.RegBn5.lean ====
import proofs.«409348_j89627377533173_1_alg».proof.Proof.Gen.Kernel.Launch
import proofs.«409348_j89627377533173_1_alg».proof.Proof.Gen.Kernel.Skeleton
import proofs.«409348_j89627377533173_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

/-! # Region 5 (`cc5__bn_relu_kernel`, pipeline 5): the frame half, at any float model

A pointwise body over a grid of 25 points. Window 0 (the 2000x300 block of `z` at row block `t`) is fetched at every
point; the four row windows after it (mean, var, gamma, beta, each one row of 300) have a constant block index and are fetched once; window 5
is the output block, written back at every point. The body loads the five inputs whole, loads the output buffer (a value
it does not use), and stores one payload over the whole output buffer. So what it leaves in the output buffer is a
closed function of the five input blocks at the point, and it keeps nothing from point to point. -/

-- membership in a rectangle with a 2000-long axis recurses once per coordinate of that axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): an unfetched point has the
    block index of the point before, and the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s (`hA`) and whose body leaves the block in place (`hafter`): an unfetched point has the
    block index of the point before, and the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s (`hA`) and whose body leaves the block in place (`hafter`): an unfetched point has the
    block index of the point before, and the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s (`hA`) and whose body leaves the block in place (`hafter`): an unfetched point has the
    block index of the point before, and the window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is `V`'s (`hA`) and whose body leaves the block in place (`hafter`): an unfetched point has the
    block index of the point before, and the window is uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole 2000x300 staging buffer (the load of window 0 and the one store into window 5). -/
abbrev r5_0 : Rect S2000x300 := Rect.unit (s := S2000x300) ![0, 0] S2000x300.size inb_S2000x300_S2000x300_0_0
/-- The whole 1x300 staging buffer (the loads of the four row windows). -/
abbrev r5_1 : Rect S1x300 := Rect.unit (s := S1x300) ![0, 0] S1x300.size inb_S1x300_S1x300_0_0

/-! ## What the body leaves in the output window's buffer -/

/-- Window 5's staging buffer after the body, from the input windows' blocks `xz xm xv xg xb` (in window order: z, mean, var,
    gamma, beta): its one store as a piece. The payload takes the loads in the order the body makes them: z, var, mean,
    gamma, beta. -/
def out5_5 (xz : Vec F S2000x300 .f32) (xm xv xg xb : Vec F S1x300 .f32) : Vec F S2000x300 .f32 :=
  View.canon [⟨r5_0, k5_pay1 (View.ld xz r5_0) (View.ld xv r5_1) (View.ld xm r5_1) (View.ld xg r5_1) (View.ld xb r5_1)⟩]

/-- The one store is the whole buffer, so it covers it. -/
theorem cover5_5 (p : Vec F S2000x300 .f32) (y : S2000x300.Idx) :
    ∃ pc ∈ ([⟨r5_0, p⟩] : List (View.Piece (Elt F) S2000x300 .f32)), y ∈ pc.1.set :=
  View.cover_of_tiled [⟨r5_0, p⟩] S2000x300.size (by rfl) y

/-! ## The body's triple -/

set_option maxHeartbeats 1000000 in
/-- The kernel body on whole staging memrefs, the inputs' at read contents `xz xm xv xg xb` and the output's at anything, runs to
    the continuation holding the inputs' as they were and the output's at `out5_5` of the inputs'. -/
theorem sound_kernel5 (c : Dev nD) (E : Set ℕ) (i : grid5.Coords) (Az : Memref sig .tc .vmem S2000x300 .f32) (hAz : Az.IsWhole) (Am : Memref sig .tc .vmem S1x300 .f32) (hAm : Am.IsWhole) (Av : Memref sig .tc .vmem S1x300 .f32) (hAv : Av.IsWhole) (Ag : Memref sig .tc .vmem S1x300 .f32) (hAg : Ag.IsWhole) (Ab : Memref sig .tc .vmem S1x300 .f32) (hAb : Ab.IsWhole) (Ay : Memref sig .tc .vmem S2000x300 .f32) (hAy : Ay.IsWhole)
    (xz : Vec F S2000x300 .f32) (xm xv xg xb : Vec F S1x300 .f32) (K : PUnit → sProp 𝕄) :
    iprop(owns (c : Thread nD τ) Az fullShare xz ∗ owns (c : Thread nD τ) Am fullShare xm ∗ owns (c : Thread nD τ) Av fullShare xv ∗ owns (c : Thread nD τ) Ag fullShare xg ∗ owns (c : Thread nD τ) Ab fullShare xb
        ∗ (∃ d, owns (c : Thread nD τ) Ay fullShare d)
        ∗ (iprop(owns (c : Thread nD τ) Az fullShare xz ∗ owns (c : Thread nD τ) Am fullShare xm ∗ owns (c : Thread nD τ) Av fullShare xv ∗ owns (c : Thread nD τ) Ag fullShare xg ∗ owns (c : Thread nD τ) Ab fullShare xb
            ∗ owns (c : Thread nD τ) Ay fullShare (out5_5 xz xm xv xg xb)) -∗ K ⟨⟩))
      ⊢ wp frame (wpE (defs₀ (F := F)) Variants.none c none) E (cc5__bn_relu_kernel i Az hAz Am hAm Av hAv Ag hAg Ab hAb Ay hAy) K := by
  simp only [cc5__bn_relu_kernel_eq_skeleton]; unfold cc5__bn_relu_kernel_skel
  unfold owns
  iintro ⟨⟨%fz, %hfz, Hz⟩, ⟨%fm, %hfm, Hm⟩, ⟨%fv, %hfv, Hv⟩, ⟨%fg, %hfg, Hg⟩, ⟨%fb, %hfb, Hb⟩, ⟨%dy, %fy, -, Hy⟩, Hk⟩
  subst hfz hfm hfv hfg hfb
  sl_exec
  sl_step
  iapply Hk
  isplitl [Hz]
  · iexists fz; isplitr; · ipureintro; rfl
    iexact Hz
  isplitl [Hm]
  · iexists fm; isplitr; · ipureintro; rfl
    iexact Hm
  isplitl [Hv]
  · iexists fv; isplitr; · ipureintro; rfl
    iexact Hv
  isplitl [Hg]
  · iexists fg; isplitr; · ipureintro; rfl
    iexact Hg
  isplitl [Hb]
  · iexists fb; isplitr; · ipureintro; rfl
    iexact Hb
  iexists _; isplitr
  swap; · iexact Hy
  ipureintro
  exact View.read_writes_eq_canon _ _ _ (cover5_5 _)

/-! ## The pipeline's proof data -/

/-- The proof data of pipeline 1 on core `c`: the arrays as the region finds them (`V`); after the body at point `t` each
    input's buffer at its block and the output's at `out5_5` of the input blocks; the invariant the scoped rest and the
    generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- The invariant at the first point is the class's, -/
theorem PhiIn5 (c : Dev nD) : Pipeline.ΦA spec5 c ⊢ (dat5 V c).Φ 0 := .rfl
/-- and so is the invariant at the last. -/
theorem PhiOut5 (c : Dev nD) : (dat5 V c).Φ (Fin.last _) ⊢ Pipeline.ΦA spec5 c := .rfl

/-! ## The body obligation, at a generic point -/

/-- What the body is called with at point `t` (the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks (`before5_W`), so `sound_kernel5` applies; the invariant
    and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%dz, Hz⟩, ⟨%dm, Hm⟩, ⟨%dv, Hv⟩, ⟨%dg, Hg⟩, ⟨%db, Hb⟩, ⟨%dy, Hy⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [Hz]; · iexact Hz
  isplitl [Hm]; · iexact Hm
  isplitl [Hv]; · iexact Hv
  isplitl [Hg]; · iexact Hg
  isplitl [Hb]; · iexact Hb
  isplitl [Hy]; · iexists _; iexact Hy
  iintro ⟨Hz, Hm, Hv, Hg, Hb, Hy⟩
  isplitl [HΦ]; · iexact HΦ
  isplitl [Ho]; · iexact Ho
  isplitl [Hz]; · iexact Hz
  isplitl [Hm]; · iexact Hm
  isplitl [Hv]; · iexact Hv
  isplitl [Hg]; · iexact Hg
  isplitl [Hb]; · iexact Hb
  iexact Hy

/-- The library's body obligation, at every point. -/
theorem body_obligation5 (c : Dev nD) : BodyObligation (dat5 (F := F) V c) (defs₀ (F := F)) Variants.none () Set.univ := fun t => by
  rw [bigSep_W5, bigSep_W5]
  exact sound_body5 V c t

end Region1

end Cert.Kernel.Hand
-- ==== Proof.K.RegMlp6.lean ====
import proofs.«409348_j89627377533173_1_alg».proof.Proof.Gen.Kernel.Launch
import proofs.«409348_j89627377533173_1_alg».proof.Proof.Gen.Kernel.Skeleton
import proofs.«409348_j89627377533173_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 6 of @main: custom_call 6, `cc6__mlp_kernel` (pipeline 6), at the entry contents `V` -/

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Each input window's current staging buffer holds its block at every point, fetched there or not (an input
    fetched at the first point only keeps its block: the index never moves). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and store is of a whole buffer -/

abbrev r6_a : Rect S1000x300 := Rect.unit (s := S1000x300) ![0, 0] S1000x300.size inb_S1000x300_S1000x300_0_0
abbrev r6_b : Rect S300x600 := Rect.unit (s := S300x600) ![0, 0] S300x600.size inb_S300x600_S300x600_0_0
abbrev r6_c : Rect S1x600 := Rect.unit (s := S1x600) ![0, 0] S1x600.size inb_S1x600_S1x600_0_0
abbrev r6_d : Rect S600x300 := Rect.unit (s := S600x300) ![0, 0] S600x300.size inb_S600x300_S600x300_0_0
abbrev r6_e : Rect S1x300 := Rect.unit (s := S1x300) ![0, 0] S1x300.size inb_S1x300_S1x300_0_0

/-! ## What the body leaves: the z block, the two running sums, the copies out -/

/-- The z block the body stores at a point, from the six input blocks (the skeleton's payload `k6_pay5`). -/
def z6 (x0 x1 : Vec F S1000x300 .f32) (x2 : Vec F S300x600 .f32) (x3 : Vec F S1x600 .f32) (x4 : Vec F S600x300 .f32) (x5 : Vec F S1x300 .f32) : FVec F S1000x300 .f32 :=
  k6_pay5 (View.ld x0 r6_a) (View.ld x1 r6_a) (View.ld x2 r6_b) (View.ld x3 r6_c) (View.ld x4 r6_d) (View.ld x5 r6_e)

/-- Output window 6's staging buffer after the body: its one store. -/
def out6_6 (x0 x1 : Vec F S1000x300 .f32) (x2 : Vec F S300x600 .f32) (x3 : Vec F S1x600 .f32) (x4 : Vec F S600x300 .f32) (x5 : Vec F S1x300 .f32) : Vec F S1000x300 .f32 :=
  View.canon [⟨r6_a, z6 x0 x1 x2 x3 x4 x5⟩]

/-- Scratch 0 (the running column sums) after the body's add, over what it held (`s`). -/
def stepS6 (x0 x1 : Vec F S1000x300 .f32) (x2 : Vec F S300x600 .f32) (x3 : Vec F S1x600 .f32) (x4 : Vec F S600x300 .f32) (x5 : Vec F S1x300 .f32) (s : Vec F S1x300 .f32) : Vec F S1x300 .f32 :=
  View.canon [⟨r6_e, k6_pay1 (k6_pay6 (View.ld x0 r6_a) (View.ld x1 r6_a) (View.ld x2 r6_b) (View.ld x3 r6_c) (View.ld x4 r6_d) (View.ld x5 r6_e) (View.ld s r6_e))⟩]

/-- Scratch 1 (the running column sums of squares) after the body's add, over what it held (`q`). -/
def stepQ6 (x0 x1 : Vec F S1000x300 .f32) (x2 : Vec F S300x600 .f32) (x3 : Vec F S1x600 .f32) (x4 : Vec F S600x300 .f32) (x5 : Vec F S1x300 .f32) (q : Vec F S1x300 .f32) : Vec F S1x300 .f32 :=
  View.canon [⟨r6_e, k6_pay2 (z6 x0 x1 x2 x3 x4 x5) (View.ld q r6_e)⟩]

/-- What the first point's reset leaves in scratch 0 and in scratch 1: zeros. -/
def zeroS6 : Vec F S1x300 .f32 := View.canon [⟨r6_e, k6_pay3 (F := F)⟩]
def zeroQ6 : Vec F S1x300 .f32 := View.canon [⟨r6_e, k6_pay4 (F := F)⟩]

/-- What the last point's copy leaves in output window 7's (8's) staging buffer, from the scratch's contents. -/
def out6_7 (s : Vec F S1x300 .f32) : Vec F S1x300 .f32 := View.canon [⟨r6_e, View.ld s r6_e⟩]

/-- The zero offsets of every access, as a function. -/
theorem hz6 : (![0, 0] : Fin 2 → ℕ) = fun _ => 0 := by funext a; fin_cases a <;> rfl

/-! ### Whole-buffer accesses read through (Lib/Pipeline/Value.lean): a load through the whole shape at zero offsets
    reads the contents, a store through it (last) leaves its payload, a load of what one such store left reads it -/

theorem ld6_a (X : Vec F S1000x300 .f32) : View.ld X r6_a = X := View.ld_unit_zero (S := S1000x300) hz6 _ X
theorem ld6_b (X : Vec F S300x600 .f32) : View.ld X r6_b = X := View.ld_unit_zero (S := S300x600) hz6 _ X
theorem ld6_c (X : Vec F S1x600 .f32) : View.ld X r6_c = X := View.ld_unit_zero (S := S1x600) hz6 _ X
theorem ld6_d (X : Vec F S600x300 .f32) : View.ld X r6_d = X := View.ld_unit_zero (S := S600x300) hz6 _ X
theorem ld6_e (X : Vec F S1x300 .f32) : View.ld X r6_e = X := View.ld_unit_zero (S := S1x300) hz6 _ X
theorem canon6_a (w : Vec F S1000x300 .f32) (L : List (View.Piece (Elt F) S1000x300 .f32)) :
    View.canon ((⟨r6_a, w⟩ : View.Piece (Elt F) S1000x300 .f32) :: L) = w := View.canon_cons_unit_zero (S := S1000x300) hz6 _ w L
theorem canon6_e (w : Vec F S1x300 .f32) (L : List (View.Piece (Elt F) S1x300 .f32)) :
    View.canon ((⟨r6_e, w⟩ : View.Piece (Elt F) S1x300 .f32) :: L) = w := View.canon_cons_unit_zero (S := S1x300) hz6 _ w L
theorem readCov6_e {κ : Kind} {sp : Space} (v : View sig κ sp S1x300 .f32) (w : Vec F S1x300 .f32) :
    v.readCov [(⟨r6_e, w⟩ : View.Piece (Elt F) S1x300 .f32)] r6_e.toLoadRect = w := View.readCov_unit_zero (S := S1x300) v hz6 _ w

theorem z6_eq (x0 x1 : Vec F S1000x300 .f32) (x2 : Vec F S300x600 .f32) (x3 : Vec F S1x600 .f32) (x4 : Vec F S600x300 .f32) (x5 : Vec F S1x300 .f32) : z6 x0 x1 x2 x3 x4 x5 = k6_pay5 x0 x1 x2 x3 x4 x5 := by
  unfold z6; rw [ld6_a, ld6_a, ld6_b, ld6_c, ld6_d, ld6_e]
theorem out6_6_eq (x0 x1 : Vec F S1000x300 .f32) (x2 : Vec F S300x600 .f32) (x3 : Vec F S1x600 .f32) (x4 : Vec F S600x300 .f32) (x5 : Vec F S1x300 .f32) : out6_6 x0 x1 x2 x3 x4 x5 = k6_pay5 x0 x1 x2 x3 x4 x5 := by
  unfold out6_6; rw [canon6_a, z6_eq]
theorem stepS6_eq (x0 x1 : Vec F S1000x300 .f32) (x2 : Vec F S300x600 .f32) (x3 : Vec F S1x600 .f32) (x4 : Vec F S600x300 .f32) (x5 : Vec F S1x300 .f32) (s : Vec F S1x300 .f32) :
    stepS6 x0 x1 x2 x3 x4 x5 s = k6_pay1 (k6_pay6 x0 x1 x2 x3 x4 x5 s) := by
  unfold stepS6; rw [canon6_e, ld6_a, ld6_a, ld6_b, ld6_c, ld6_d, ld6_e, ld6_e]
theorem stepQ6_eq (x0 x1 : Vec F S1000x300 .f32) (x2 : Vec F S300x600 .f32) (x3 : Vec F S1x600 .f32) (x4 : Vec F S600x300 .f32) (x5 : Vec F S1x300 .f32) (q : Vec F S1x300 .f32) :
    stepQ6 x0 x1 x2 x3 x4 x5 q = k6_pay2 (k6_pay5 x0 x1 x2 x3 x4 x5) q := by
  unfold stepQ6; rw [canon6_e, z6_eq, ld6_e]
theorem zeroS6_eq : zeroS6 (F := F) = k6_pay3 (F := F) := by unfold zeroS6; rw [canon6_e]
theorem zeroQ6_eq : zeroQ6 (F := F) = k6_pay4 (F := F) := by unfold zeroQ6; rw [canon6_e]
theorem out6_7_eq (s : Vec F S1x300 .f32) : out6_7 s = s := by
  unfold out6_7; rw [canon6_e, ld6_e]

/-- THE ACCUMULATION: scratch 0 after the body at position `n` — the add over the reset at the first point, over
    what the point before left at every later one. -/
def accS6 (c : Dev nD) : (n : ℕ) → n < cfg6.N → Vec F S1x300 .f32
  | 0, hn => stepS6 (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩) (zeroS6 (F := F))
  | n + 1, hn => stepS6 (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (accS6 c n (Nat.lt_of_succ_lt hn))

/-- and scratch 1. -/
def accQ6 (c : Dev nD) : (n : ℕ) → n < cfg6.N → Vec F S1x300 .f32
  | 0, hn => stepQ6 (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩) (zeroQ6 (F := F))
  | n + 1, hn => stepQ6 (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (accQ6 c n (Nat.lt_of_succ_lt hn))

theorem accS6_zero (c : Dev nD) (hn : 0 < cfg6.N) :
    accS6 V c 0 hn = stepS6 (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩) (zeroS6 (F := F)) := rfl
theorem accS6_succ (c : Dev nD) (n : ℕ) (hn : n + 1 < cfg6.N) :
    accS6 V c (n + 1) hn = stepS6 (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (accS6 V c n (Nat.lt_of_succ_lt hn)) := rfl
theorem accQ6_zero (c : Dev nD) (hn : 0 < cfg6.N) :
    accQ6 V c 0 hn = stepQ6 (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩) (zeroQ6 (F := F)) := rfl
theorem accQ6_succ (c : Dev nD) (n : ℕ) (hn : n + 1 < cfg6.N) :
    accQ6 V c (n + 1) hn = stepQ6 (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (accQ6 V c n (Nat.lt_of_succ_lt hn)) := rfl

/-- The accumulators at the first point, and at a later one over what the point before left. -/
theorem accS6_A (c : Dev nD) (t : Fin cfg6.N) (hz : t.val = 0) :
    accS6 V c t.val t.isLt = stepS6 (iblk6 V c 0 t) (iblk6 V c 1 t) (iblk6 V c 2 t) (iblk6 V c 3 t) (iblk6 V c 4 t) (iblk6 V c 5 t) (zeroS6 (F := F)) := by
  obtain ⟨n, hn⟩ := t
  cases n with
  | zero => rfl
  | succ n => exact absurd hz (Nat.succ_ne_zero n)
theorem accS6_B (c : Dev nD) (t : Fin cfg6.N) (hz : t.val ≠ 0) :
    accS6 V c t.val t.isLt = stepS6 (iblk6 V c 0 t) (iblk6 V c 1 t) (iblk6 V c 2 t) (iblk6 V c 3 t) (iblk6 V c 4 t) (iblk6 V c 5 t) (accS6 V c (t.val - 1) (Nat.lt_of_le_of_lt (Nat.sub_le _ _) t.isLt)) := by
  obtain ⟨n, hn⟩ := t
  cases n with
  | zero => exact absurd rfl hz
  | succ n => rfl
theorem accQ6_A (c : Dev nD) (t : Fin cfg6.N) (hz : t.val = 0) :
    accQ6 V c t.val t.isLt = stepQ6 (iblk6 V c 0 t) (iblk6 V c 1 t) (iblk6 V c 2 t) (iblk6 V c 3 t) (iblk6 V c 4 t) (iblk6 V c 5 t) (zeroQ6 (F := F)) := by
  obtain ⟨n, hn⟩ := t
  cases n with
  | zero => rfl
  | succ n => exact absurd hz (Nat.succ_ne_zero n)
theorem accQ6_B (c : Dev nD) (t : Fin cfg6.N) (hz : t.val ≠ 0) :
    accQ6 V c t.val t.isLt = stepQ6 (iblk6 V c 0 t) (iblk6 V c 1 t) (iblk6 V c 2 t) (iblk6 V c 3 t) (iblk6 V c 4 t) (iblk6 V c 5 t) (accQ6 V c (t.val - 1) (Nat.lt_of_le_of_lt (Nat.sub_le _ _) t.isLt)) := by
  obtain ⟨n, hn⟩ := t
  cases n with
  | zero => exact absurd rfl hz
  | succ n => rfl

/-! ## The body's branch conditions -/

/-- The condition of the reset (`pl.when` on the first point), from the grid coordinates (the skeleton's scalar chain). -/
abbrev cond6_0 (i : grid6.Coords) : Prop := (Scalar.cmpi .ne (Scalar.extui (Scalar.cmpi .eq (BitVec.ofNat 32 (i 0).val) 0#32)) 0#32) = 1#1
/-- It holds at the first point only — decided over the grid. -/
theorem hcond6_0 : ∀ t : Fin cfg6.N, cond6_0 (grid6.coords t) ↔ t.val % 50 = 0 :=
  (by decide +kernel : ∀ t : Fin grid6.N, cond6_0 (grid6.coords t) ↔ t.val % 50 = 0)
/-- The condition of the copy out (`pl.when` on the last point). -/
abbrev cond6_1 (i : grid6.Coords) : Prop := k6_cond2 i = 1#1
/-- It holds at the last point only — decided over the grid. -/
theorem hcond6_1 : ∀ t : Fin cfg6.N, cond6_1 (grid6.coords t) ↔ t.val % 50 = 49 :=
  (by decide +kernel : ∀ t : Fin grid6.N, cond6_1 (grid6.coords t) ↔ t.val % 50 = 49)

/-! ## The body's stores cover the buffers they write (each is of the whole buffer) -/

theorem cover6_a (p0 : Vec F S1000x300 .f32) (y : S1000x300.Idx) :
    ∃ pc ∈ ([⟨r6_a, p0⟩] : List (View.Piece (Elt F) S1000x300 .f32)), y ∈ pc.1.set :=
  View.cover_of_tiled [⟨r6_a, p0⟩] S1000x300.size (by rfl) y
theorem cover6_e (p0 : Vec F S1x300 .f32) (y : S1x300.Idx) :
    ∃ pc ∈ ([⟨r6_e, p0⟩] : List (View.Piece (Elt F) S1x300 .f32)), y ∈ pc.1.set :=
  View.cover_of_tiled [⟨r6_e, p0⟩] S1x300.size (by rfl) y

theorem cover6_e_cons (p0 : Vec F S1x300 .f32) (L : List (View.Piece (Elt F) S1x300 .f32)) (y : S1x300.Idx) :
    ∃ pc ∈ ((⟨r6_e, p0⟩ :: L) : List (View.Piece (Elt F) S1x300 .f32)), y ∈ pc.1.set := by
  obtain ⟨pc, hpc, hy⟩ := cover6_e p0 y
  exact ⟨pc, List.mem_cons.mpr (Or.inl (List.mem_singleton.mp hpc)), hy⟩

/-! ## Where outputs 7 and 8 are idle: everywhere but at the last point, which alone writes them back -/

theorem idleAt6_7 : ∀ t : Fin cfg6.N, ¬cond6_1 (grid6.coords t) → cfg6.idle 7 (grid6.coords t) = true := by decide +kernel
theorem noFlush6_7 : ∀ t : Fin cfg6.N, ¬cond6_1 (grid6.coords t) → (cfg6.win 7).flush t = false := by decide +kernel
theorem liveAt6_7 : ∀ t : Fin cfg6.N, cond6_1 (grid6.coords t) → cfg6.idle 7 (grid6.coords t) = false := by decide +kernel
theorem idleAt6_8 : ∀ t : Fin cfg6.N, ¬cond6_1 (grid6.coords t) → cfg6.idle 8 (grid6.coords t) = true := by decide +kernel
theorem noFlush6_8 : ∀ t : Fin cfg6.N, ¬cond6_1 (grid6.coords t) → (cfg6.win 8).flush t = false := by decide +kernel
theorem liveAt6_8 : ∀ t : Fin cfg6.N, cond6_1 (grid6.coords t) → cfg6.idle 8 (grid6.coords t) = false := by decide +kernel

set_option maxHeartbeats 2000000 in
/-- The body at the first point: the two scratch accumulators, at anything, are reset and stepped. -/
theorem sound_kernel6_A (c : Dev nD) (E : Set ℕ) (i : grid6.Coords) (arg1 : Memref sig .tc .vmem S1000x300 .f32) (harg1 : arg1.IsWhole) (arg2 : Memref sig .tc .vmem S1000x300 .f32) (harg2 : arg2.IsWhole) (arg3 : Memref sig .tc .vmem S300x600 .f32) (harg3 : arg3.IsWhole) (arg4 : Memref sig .tc .vmem S1x600 .f32) (harg4 : arg4.IsWhole) (arg5 : Memref sig .tc .vmem S600x300 .f32) (harg5 : arg5.IsWhole) (arg6 : Memref sig .tc .vmem S1x300 .f32) (harg6 : arg6.IsWhole) (arg7 : Memref sig .tc .vmem S1000x300 .f32) (harg7 : arg7.IsWhole) (arg8 : Memref sig .tc .vmem S1x300 .f32) (harg8 : arg8.IsWhole) (arg9 : Memref sig .tc .vmem S1x300 .f32) (harg9 : arg9.IsWhole) (arg10 : Memref sig .tc .vmem S1x300 .f32) (harg10 : arg10.IsWhole) (arg11 : Memref sig .tc .vmem S1x300 .f32) (harg11 : arg11.IsWhole)
    (hc0 : cond6_0 i) (hc1 : ¬cond6_1 i) (x0 x1 : Vec F S1000x300 .f32) (x2 : Vec F S300x600 .f32) (x3 : Vec F S1x600 .f32) (x4 : Vec F S600x300 .f32) (x5 : Vec F S1x300 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out6_6 x0 x1 x2 x3 x4 x5)
            ∗ owns (c : Thread nD τ) arg10 fullShare (stepS6 x0 x1 x2 x3 x4 x5 (zeroS6 (F := F))) ∗ owns (c : Thread nD τ) arg11 fullShare (stepQ6 x0 x1 x2 x3 x4 x5 (zeroQ6 (F := F)))) -∗ K ⟨⟩))
      ⊢ wp frame (wpE (defs₀ (F := F)) Variants.none c none) E (cc6__mlp_kernel i arg1 harg1 arg2 harg2 arg3 harg3 arg4 harg4 arg5 harg5 arg6 harg6 arg7 harg7 arg8 harg8 arg9 harg9 arg10 harg10 arg11 harg11) K := by
  simp only [cc6__mlp_kernel_eq_skeleton]; unfold cc6__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, ⟨%dq, %fq, -, HQ⟩, Hk⟩
  subst hf0 hf1 hf2 hf3 hf4 hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover6_a _)
  isplitl [HS]
  · iexists _; isplitr
    swap; · iexact HS
    ipureintro
    sl_unfold_run_names
    try rw [View.readCov_eq_canon_ld _ _ _ (cover6_e _)]
    exact (View.read_writes_eq_canon _ _ _ (cover6_e_cons _ _)).trans ((canon6_e _ _).trans (canon6_e _ []).symm)
  iexists _; isplitr
  swap; · iexact HQ
  ipureintro
  sl_unfold_run_names
  try rw [View.readCov_eq_canon_ld _ _ _ (cover6_e _)]
  exact (View.read_writes_eq_canon _ _ _ (cover6_e_cons _ _)).trans ((canon6_e _ _).trans (canon6_e _ []).symm)

set_option maxHeartbeats 2000000 in
/-- The body at a middle point (no reset, no copy out): the two scratch accumulators at `s`, `q` are stepped. -/
theorem sound_kernel6_B (c : Dev nD) (E : Set ℕ) (i : grid6.Coords) (arg1 : Memref sig .tc .vmem S1000x300 .f32) (harg1 : arg1.IsWhole) (arg2 : Memref sig .tc .vmem S1000x300 .f32) (harg2 : arg2.IsWhole) (arg3 : Memref sig .tc .vmem S300x600 .f32) (harg3 : arg3.IsWhole) (arg4 : Memref sig .tc .vmem S1x600 .f32) (harg4 : arg4.IsWhole) (arg5 : Memref sig .tc .vmem S600x300 .f32) (harg5 : arg5.IsWhole) (arg6 : Memref sig .tc .vmem S1x300 .f32) (harg6 : arg6.IsWhole) (arg7 : Memref sig .tc .vmem S1000x300 .f32) (harg7 : arg7.IsWhole) (arg8 : Memref sig .tc .vmem S1x300 .f32) (harg8 : arg8.IsWhole) (arg9 : Memref sig .tc .vmem S1x300 .f32) (harg9 : arg9.IsWhole) (arg10 : Memref sig .tc .vmem S1x300 .f32) (harg10 : arg10.IsWhole) (arg11 : Memref sig .tc .vmem S1x300 .f32) (harg11 : arg11.IsWhole)
    (hc0 : ¬cond6_0 i) (hc1 : ¬cond6_1 i) (x0 x1 : Vec F S1000x300 .f32) (x2 : Vec F S300x600 .f32) (x3 : Vec F S1x600 .f32) (x4 : Vec F S600x300 .f32) (x5 : Vec F S1x300 .f32) (s q : Vec F S1x300 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out6_6 x0 x1 x2 x3 x4 x5)
            ∗ owns (c : Thread nD τ) arg10 fullShare (stepS6 x0 x1 x2 x3 x4 x5 s) ∗ owns (c : Thread nD τ) arg11 fullShare (stepQ6 x0 x1 x2 x3 x4 x5 q)) -∗ K ⟨⟩))
      ⊢ wp frame (wpE (defs₀ (F := F)) Variants.none c none) E (cc6__mlp_kernel i arg1 harg1 arg2 harg2 arg3 harg3 arg4 harg4 arg5 harg5 arg6 harg6 arg7 harg7 arg8 harg8 arg9 harg9 arg10 harg10 arg11 harg11) K := by
  simp only [cc6__mlp_kernel_eq_skeleton]; unfold cc6__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, ⟨%fq, %hfq, HQ⟩, Hk⟩
  subst hf0 hf1 hf2 hf3 hf4 hf5 hfs hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover6_a _)
  isplitl [HS]
  · iexists _; isplitr
    swap; · iexact HS
    ipureintro
    exact View.read_writes_eq_canon _ _ _ (cover6_e _)
  iexists _; isplitr
  swap; · iexact HQ
  ipureintro
  exact View.read_writes_eq_canon _ _ _ (cover6_e _)

set_option maxHeartbeats 2000000 in
/-- The body at the last point: the two scratch accumulators at `s`, `q` are stepped and copied out to outputs 7 and 8. -/
theorem sound_kernel6_C (c : Dev nD) (E : Set ℕ) (i : grid6.Coords) (arg1 : Memref sig .tc .vmem S1000x300 .f32) (harg1 : arg1.IsWhole) (arg2 : Memref sig .tc .vmem S1000x300 .f32) (harg2 : arg2.IsWhole) (arg3 : Memref sig .tc .vmem S300x600 .f32) (harg3 : arg3.IsWhole) (arg4 : Memref sig .tc .vmem S1x600 .f32) (harg4 : arg4.IsWhole) (arg5 : Memref sig .tc .vmem S600x300 .f32) (harg5 : arg5.IsWhole) (arg6 : Memref sig .tc .vmem S1x300 .f32) (harg6 : arg6.IsWhole) (arg7 : Memref sig .tc .vmem S1000x300 .f32) (harg7 : arg7.IsWhole) (arg8 : Memref sig .tc .vmem S1x300 .f32) (harg8 : arg8.IsWhole) (arg9 : Memref sig .tc .vmem S1x300 .f32) (harg9 : arg9.IsWhole) (arg10 : Memref sig .tc .vmem S1x300 .f32) (harg10 : arg10.IsWhole) (arg11 : Memref sig .tc .vmem S1x300 .f32) (harg11 : arg11.IsWhole)
    (hc0 : ¬cond6_0 i) (hc1 : cond6_1 i) (x0 x1 : Vec F S1000x300 .f32) (x2 : Vec F S300x600 .f32) (x3 : Vec F S1x600 .f32) (x4 : Vec F S600x300 .f32) (x5 : Vec F S1x300 .f32) (s q : Vec F S1x300 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out6_6 x0 x1 x2 x3 x4 x5)
            ∗ owns (c : Thread nD τ) arg8 fullShare (out6_7 (stepS6 x0 x1 x2 x3 x4 x5 s)) ∗ owns (c : Thread nD τ) arg9 fullShare (out6_7 (stepQ6 x0 x1 x2 x3 x4 x5 q))
            ∗ owns (c : Thread nD τ) arg10 fullShare (stepS6 x0 x1 x2 x3 x4 x5 s) ∗ owns (c : Thread nD τ) arg11 fullShare (stepQ6 x0 x1 x2 x3 x4 x5 q)) -∗ K ⟨⟩))
      ⊢ wp frame (wpE (defs₀ (F := F)) Variants.none c none) E (cc6__mlp_kernel i arg1 harg1 arg2 harg2 arg3 harg3 arg4 harg4 arg5 harg5 arg6 harg6 arg7 harg7 arg8 harg8 arg9 harg9 arg10 harg10 arg11 harg11) K := by
  simp only [cc6__mlp_kernel_eq_skeleton]; unfold cc6__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs, %hfs, HS⟩, ⟨%fq, %hfq, HQ⟩, Hk⟩
  subst hf0 hf1 hf2 hf3 hf4 hf5 hfs hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover6_a _)
  isplitl [H7]
  · iexists _; isplitr
    swap; · iexact H7
    ipureintro
    sl_unfold_run_names
    try rw [View.readCov_eq_canon_ld _ _ _ (cover6_e _)]
    exact (View.read_writes_eq_canon _ _ _ (cover6_e_cons _ _)).trans ((canon6_e _ _).trans (canon6_e _ []).symm)
  isplitl [H8]
  · iexists _; isplitr
    swap; · iexact H8
    ipureintro
    sl_unfold_run_names
    try rw [View.readCov_eq_canon_ld _ _ _ (cover6_e _)]
    exact (View.read_writes_eq_canon _ _ _ (cover6_e_cons _ _)).trans ((canon6_e _ _).trans (canon6_e _ []).symm)
  isplitl [HS]
  · iexists _; isplitr
    swap; · iexact HS
    ipureintro
    sl_unfold_run_names
    try rw [View.readCov_eq_canon_ld _ _ _ (cover6_e _)]
    exact (View.read_writes_eq_canon _ _ _ (cover6_e_cons _ _)).trans ((canon6_e _ _).trans (canon6_e _ []).symm)
  iexists _; isplitr
  swap; · iexact HQ
  ipureintro
  sl_unfold_run_names
  try rw [View.readCov_eq_canon_ld _ _ _ (cover6_e _)]
  exact (View.read_writes_eq_canon _ _ _ (cover6_e_cons _ _)).trans ((canon6_e _ _).trans (canon6_e _ []).symm)

/-! ## The invariant: the two scratch accumulators tracked -/

/-- The scratch operands: whole scoped buffers of the kernel's own, passed beside the windows. -/
abbrev scM6_0 : Memref sig .tc .vmem S1x300 .f32 := Memref.whole cc6_scratch0
abbrev scM6_1 : Memref sig .tc .vmem S1x300 .f32 := Memref.whole cc6_scratch1

/-- Before the first point the class's invariant (every scratch at anything); afterwards the two scratch
    accumulators at what the point before left, the other scoped buffers unopened, the generator register at some state. -/
def PhiS6 (c : Dev nD) : (n : ℕ) → n ≤ cfg6.N → sProp 𝕄
  | 0, _ => Pipeline.ΦA spec6 c
  | n + 1, hn => iprop(iprop(iprop(owns (c : Thread nD τ) scM6_0 fullShare (accS6 V c n hn) ∗ owns (c : Thread nD τ) scM6_1 fullShare (accQ6 V c n hn))
      ∗ Pipeline.scopedRestBut (Ix := Unit) (Name := ℕ) (U := UR sig nD τ) (Lvl := ℕ) (Val := Elt F) spec6 c [cc6_scratch0, cc6_scratch1]) ∗ (∃ r, prngReg c r))

theorem PhiS6_zero (c : Dev nD) (n : ℕ) (h : n ≤ cfg6.N) (hz : n = 0) : PhiS6 V c n h = Pipeline.ΦA spec6 c := by
  subst hz; rfl

/-- After point `n` (before point `n + 1`): the accumulators at that point's contents. -/
theorem PhiS6_succ (c : Dev nD) (n : ℕ) (hn : n < cfg6.N) :
    PhiS6 V c (n + 1) hn = iprop(iprop(iprop(owns (c : Thread nD τ) scM6_0 fullShare (accS6 V c n hn) ∗ owns (c : Thread nD τ) scM6_1 fullShare (accQ6 V c n hn))
      ∗ Pipeline.scopedRestBut (Ix := Unit) (Name := ℕ) (U := UR sig nD τ) (Lvl := ℕ) (Val := Elt F) spec6 c [cc6_scratch0, cc6_scratch1]) ∗ (∃ r, prngReg c r)) := rfl

/-- Before a point that is not the first: the accumulators at what the point before left. -/
theorem PhiS6_pos (c : Dev nD) (n : ℕ) (h : n ≤ cfg6.N) (hz : n ≠ 0) :
    PhiS6 V c n h = iprop(iprop(iprop(owns (c : Thread nD τ) scM6_0 fullShare (accS6 V c (n - 1) (by omega)) ∗ owns (c : Thread nD τ) scM6_1 fullShare (accQ6 V c (n - 1) (by omega)))
      ∗ Pipeline.scopedRestBut (Ix := Unit) (Name := ℕ) (U := UR sig nD τ) (Lvl := ℕ) (Val := Elt F) spec6 c [cc6_scratch0, cc6_scratch1]) ∗ (∃ r, prngReg c r)) := by
  cases n with
  | zero => exact absurd rfl hz
  | succ n => rfl

/-- The class's invariant with the two scratch operands split out of the scoped rest as memrefs owned at some contents. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut (Ix := Unit) (Name := ℕ) (U := UR sig nD τ) (Lvl := ℕ) (Val := Elt F) spec6 c [cc6_scratch0, cc6_scratch1]) ∗ (∃ r, prngReg c r)) := by
  unfold Pipeline.ΦA; rw [scopedRest6_split]; simp only [scM6_0, scM6_1, owns_whole]; try rfl

/-! ## The pipeline's proof data -/

/-- The proof data of pipeline 6 on core `c`: the arrays as the region finds them (`V`); after the body at point `t`
    each input's buffer at its block, output 6's at the z block of the input blocks, outputs 7 and 8's at the copies of
    the accumulators (consulted at the last point only: the windows are idle before it); the invariant tracks the two
    scratch accumulators (`PhiS6`); nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
    | ⟨7, _⟩ => out6_7 (accS6 V c t.val t.isLt)
    | ⟨8, _⟩ => out6_7 (accQ6 V c t.val t.isLt)
  Φ t := PhiS6 V c t.val (Nat.le_of_lt_succ t.isLt)
  q _ := fullShare
  owed _ := 0

/-- The proof data's arrays are the region-entry contents (the proof data's definition projected, by `dsimp`). -/
theorem A_eq6 (c : Dev nD) (w : Fin cfg6.W) : (dat6 V c).A w = V c (Pipeline.arrRef spec6 w) := by
  dsimp only [dat6]

/-- The invariant at a point's start (the proof data at `t.castSucc`), restated at `t.val`. -/
theorem PhiS6_castSucc (c : Dev nD) (t : Fin cfg6.N) :
    (dat6 V c).Φ t.castSucc = PhiS6 V c t.val (Nat.le_of_lt t.isLt) := by
  dsimp only [dat6]; simp only [Fin.coe_castSucc]

/-- What the body leaves, window by window (the proof data's `match` reduced by `dsimp`). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = out6_6 (iblk6 V c 0 t) (iblk6 V c 1 t) (iblk6 V c 2 t) (iblk6 V c 3 t) (iblk6 V c 4 t) (iblk6 V c 5 t) := by dsimp only [dat6]
theorem after6_7 (c : Dev nD) (t : Fin cfg6.N) : (dat6 V c).after 7 t = out6_7 (accS6 V c t.val t.isLt) := by dsimp only [dat6]
theorem after6_8 (c : Dev nD) (t : Fin cfg6.N) : (dat6 V c).after 8 t = out6_7 (accQ6 V c t.val t.isLt) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

/-- Windows 0 to 6 are never idle: the body's post for them is the buffer at what the body leaves. -/
theorem leaves6_0 (c : Dev nD) (t : Fin cfg6.N) :
    (dat6 V c).leavesExact 0 t = owns (c : Thread nD τ) (st6_0 t) fullShare ((dat6 V c).after 0 t) := rfl
theorem leaves6_1 (c : Dev nD) (t : Fin cfg6.N) :
    (dat6 V c).leavesExact 1 t = owns (c : Thread nD τ) (st6_1 t) fullShare ((dat6 V c).after 1 t) := rfl
theorem leaves6_2 (c : Dev nD) (t : Fin cfg6.N) :
    (dat6 V c).leavesExact 2 t = owns (c : Thread nD τ) (st6_2 t) fullShare ((dat6 V c).after 2 t) := rfl
theorem leaves6_3 (c : Dev nD) (t : Fin cfg6.N) :
    (dat6 V c).leavesExact 3 t = owns (c : Thread nD τ) (st6_3 t) fullShare ((dat6 V c).after 3 t) := rfl
theorem leaves6_4 (c : Dev nD) (t : Fin cfg6.N) :
    (dat6 V c).leavesExact 4 t = owns (c : Thread nD τ) (st6_4 t) fullShare ((dat6 V c).after 4 t) := rfl
theorem leaves6_5 (c : Dev nD) (t : Fin cfg6.N) :
    (dat6 V c).leavesExact 5 t = owns (c : Thread nD τ) (st6_5 t) fullShare ((dat6 V c).after 5 t) := rfl
theorem leaves6_6 (c : Dev nD) (t : Fin cfg6.N) :
    (dat6 V c).leavesExact 6 t = owns (c : Thread nD τ) (st6_6 t) fullShare ((dat6 V c).after 6 t) := rfl

/-! ## The body obligation, at a generic point -/

/-- What the body is called with at point `t` (the library's body obligation's precondition, the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t
    ∗ (dat6 V c).leavesExact 7 t
    ∗ (dat6 V c).leavesExact 8 t)

set_option maxHeartbeats 4000000 in
/-- The body at any point: the inputs' memrefs hold their blocks; the closed forms say which of the three control cases
    the point is in; the invariant hands the body the two scratch accumulators at what the point before left (at anything
    at the first point) and takes them back at this point's contents; outputs 7 and 8 pass through untouched where they
    are idle and are handed back at the copies at the last point; the core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).owesAt () t.succ = (dat6 V c).owesAt () t.castSucc from rfl]
  rw [show (dat6 V c).Φ t.succ = PhiS6 V c (t.val + 1) t.isLt from rfl, PhiS6_succ]
  rw [leaves6_0, leaves6_1, leaves6_2, leaves6_3, leaves6_4, leaves6_5, leaves6_6,
    after6_0, after6_1, after6_2, after6_3, after6_4, after6_5, after6_6]
  have hN : t.val < 50 := lt_of_lt_of_eq t.isLt (show cfg6.N = 50 from N_6)
  by_cases h0 : t.val % 50 = 0
  · by_cases h1 : t.val % 50 = 49
    · exfalso; omega
    · have hc0 : cond6_0 (grid6.coords t) := (hcond6_0 t).mpr h0
      have hc1 : ¬cond6_1 (grid6.coords t) := fun h => h1 ((hcond6_1 t).mp h)
      have hz : t.val = 0 := by omega
      rw [Dat.leavesExact_idle (dat6 V c) 7 t (idleAt6_7 t hc1) (noFlush6_7 t hc1),
        Dat.leavesExact_idle (dat6 V c) 8 t (idleAt6_8 t hc1) (noFlush6_8 t hc1)]
      rw [accS6_A V c t hz, accQ6_A V c t hz]
      rw [PhiS6_castSucc V c t, PhiS6_zero V c _ _ hz, PhiA6_eq]
      iintro ⟨⟨⟨⟨HS, HQ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel6_A c Set.univ (grid6.coords t) _ _ _ _ _ _ _ _ _ _ _ _ _ _ _ _ _ _ _ _ _ _ hc0 hc1 (iblk6 V c 0 t) (iblk6 V c 1 t) (iblk6 V c 2 t) (iblk6 V c 3 t) (iblk6 V c 4 t) (iblk6 V c 5 t) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      isplitl [HQ]; · iexact HQ
      iintro ⟨H0, H1, H2, H3, H4, H5, H6, HS, HQ⟩
      isplitl [HS HQ HR Hg]
      · isplitl [HS HQ HR]
        · isplitl [HS HQ]
          · isplitl [HS]; · iexact HS
            iexact HQ
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
  · have hc0 : ¬cond6_0 (grid6.coords t) := fun h => h0 ((hcond6_0 t).mp h)
    have hz : t.val ≠ 0 := fun e => h0 (by rw [e])
    rw [accS6_B V c t hz, accQ6_B V c t hz]
    rw [PhiS6_castSucc V c t, PhiS6_pos V c _ _ hz]
    by_cases h1 : t.val % 50 = 49
    · have hc1 : cond6_1 (grid6.coords t) := (hcond6_1 t).mpr h1
      rw [show (dat6 V c).leavesExact 7 t = owns (c : Thread nD τ) (st6_7 t) fullShare ((dat6 V c).after 7 t) from by
        unfold Dat.leavesExact; rw [liveAt6_7 t hc1], after6_7]
      rw [show (dat6 V c).leavesExact 8 t = owns (c : Thread nD τ) (st6_8 t) fullShare ((dat6 V c).after 8 t) from by
        unfold Dat.leavesExact; rw [liveAt6_8 t hc1], after6_8]
      rw [accS6_B V c t hz, accQ6_B V c t hz]
      iintro ⟨⟨⟨⟨HS, HQ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel6_C c Set.univ (grid6.coords t) _ _ _ _ _ _ _ _ _ _ _ _ _ _ _ _ _ _ _ _ _ _ hc0 hc1 (iblk6 V c 0 t) (iblk6 V c 1 t) (iblk6 V c 2 t) (iblk6 V c 3 t) (iblk6 V c 4 t) (iblk6 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS]; · iexact HS
      isplitl [HQ]; · iexact HQ
      iintro ⟨H0, H1, H2, H3, H4, H5, H6, H7, H8, HS, HQ⟩
      isplitl [HS HQ HR Hg]
      · isplitl [HS HQ HR]
        · isplitl [HS HQ]
          · isplitl [HS]; · iexact HS
            iexact HQ
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬cond6_1 (grid6.coords t) := fun h => h1 ((hcond6_1 t).mp h)
      rw [Dat.leavesExact_idle (dat6 V c) 7 t (idleAt6_7 t hc1) (noFlush6_7 t hc1),
        Dat.leavesExact_idle (dat6 V c) 8 t (idleAt6_8 t hc1) (noFlush6_8 t hc1)]
      iintro ⟨⟨⟨⟨HS, HQ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel6_B c Set.univ (grid6.coords t) _ _ _ _ _ _ _ _ _ _ _ _ _ _ _ _ _ _ _ _ _ _ hc0 hc1 (iblk6 V c 0 t) (iblk6 V c 1 t) (iblk6 V c 2 t) (iblk6 V c 3 t) (iblk6 V c 4 t) (iblk6 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      isplitl [HQ]; · iexact HQ
      iintro ⟨H0, H1, H2, H3, H4, H5, H6, HS, HQ⟩
      isplitl [HS HQ HR Hg]
      · isplitl [HS HQ HR]
        · isplitl [HS HQ]
          · isplitl [HS]; · iexact HS
            iexact HQ
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region (the class's invariant) is the invariant before the first point. -/
theorem PhiIn6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After the last point the invariant gives the class's back: the accumulators' named contents are forgotten. -/
theorem PhiOut6 (c : Dev nD) : (dat6 V c).Φ (Fin.last _) ⊢ Pipeline.ΦA spec6 c := by
  rw [show (dat6 V c).Φ (Fin.last cfg6.N) = PhiS6 V c (Fin.last cfg6.N).val (Nat.le_of_lt_succ (Fin.last cfg6.N).isLt) from rfl,
    PhiS6_pos V c _ _ (by rw [Fin.val_last]; have : cfg6.N = 50 := N_6; omega), PhiA6_eq]
  iintro ⟨⟨⟨HS, HQ⟩, HR⟩, Hg⟩
  isplitl [HS HQ HR]
  · isplitl [HS HQ]
    · isplitl [HS]; · iexists _; iexact HS
      iexists _; iexact HQ
    iexact HR
  iexact Hg

/-- The last point. -/
abbrev tLast6 : Fin cfg6.N := ⟨49, by decide⟩

/-! ## The arrays of outputs 7 and 8 after the region -/

/-- Output 7's one block is its whole array: at the last point its offsets are zero and its extents the array's. -/
theorem whole6_7_off : ∀ a, win6_7.index tLast6 a * win6_7.size a = 0 := by decide +kernel
theorem whole6_7_size : ∀ a, win6_7.xsize (grid6.coords tLast6) a = S1x300.size a := by decide +kernel

/-- The one write-back of output 7, at the last point, writes its whole array. -/
theorem flushed6_7 (c : Dev nD) (t : Fin cfg6.N) (hf : (cfg6.win 7).flush t = true) :
    (dat6 V c).flushed 7 t
      = ((cfg6.win 7).blk t).view.read (Elt F) (out6_7 (accS6 V c 49 (by decide)) : Buf (Elt F) ((c : Thread nD τ).loc (Pipeline.arrRef spec6 7))) := by
  have hN : cfg6.N = 50 := N_6
  have h49 : t.val = 49 := by have := (flush6_7 t).mp hf; have := t.isLt; omega
  obtain rfl : t = tLast6 := Fin.ext h49
  show (cfg6.win 7).cut (grid6.coords tLast6) ((dat6 V c).after 7 tLast6) = _
  rw [after6_7]
  exact (Memref.read_access_unit_zero (Elt F) (Pipeline.arrRef spec6 7) (funext whole6_7_off)
    (fun a => by show win6_7.index tLast6 a * win6_7.size a + S1x300.size a ≤ S1x300.size a; rw [whole6_7_off a, Nat.zero_add]) _).symm

/-- So after the region output 7's array holds the copy of the accumulator as the last point left it. -/
theorem arrAt6_7 (c : Dev nD) : (dat6 V c).arrAt 7 cfg6.N = out6_7 (accS6 V c 49 (by decide)) :=
  (dat6 V c).arrAt_eq_of_cover 7 _ (flushed6_7 V c) fun i =>
    ⟨tLast6, (flush6_7 tLast6).mpr rfl, by
      show i ∈ ((View.whole (Pipeline.arrRef spec6 7)).slice (win6_7.rect tLast6)).set
      rw [View.set_slice_whole, Rect.mem_set_unit]
      intro a
      show win6_7.index tLast6 a * win6_7.size a ≤ (i a : Nat)
        ∧ (i a : Nat) < win6_7.index tLast6 a * win6_7.size a + win6_7.xsize (grid6.coords tLast6) a
      rw [whole6_7_off a, whole6_7_size a, Nat.zero_add]
      exact ⟨Nat.zero_le _, (i a).isLt⟩⟩

/-- Output 8's one block is its whole array: at the last point its offsets are zero and its extents the array's. -/
theorem whole6_8_off : ∀ a, win6_8.index tLast6 a * win6_8.size a = 0 := by decide +kernel
theorem whole6_8_size : ∀ a, win6_8.xsize (grid6.coords tLast6) a = S1x300.size a := by decide +kernel

/-- The one write-back of output 8, at the last point, writes its whole array. -/
theorem flushed6_8 (c : Dev nD) (t : Fin cfg6.N) (hf : (cfg6.win 8).flush t = true) :
    (dat6 V c).flushed 8 t
      = ((cfg6.win 8).blk t).view.read (Elt F) (out6_7 (accQ6 V c 49 (by decide)) : Buf (Elt F) ((c : Thread nD τ).loc (Pipeline.arrRef spec6 8))) := by
  have hN : cfg6.N = 50 := N_6
  have h49 : t.val = 49 := by have := (flush6_8 t).mp hf; have := t.isLt; omega
  obtain rfl : t = tLast6 := Fin.ext h49
  show (cfg6.win 8).cut (grid6.coords tLast6) ((dat6 V c).after 8 tLast6) = _
  rw [after6_8]
  exact (Memref.read_access_unit_zero (Elt F) (Pipeline.arrRef spec6 8) (funext whole6_8_off)
    (fun a => by show win6_8.index tLast6 a * win6_8.size a + S1x300.size a ≤ S1x300.size a; rw [whole6_8_off a, Nat.zero_add]) _).symm

/-- So after the region output 8's array holds the copy of the accumulator as the last point left it. -/
theorem arrAt6_8 (c : Dev nD) : (dat6 V c).arrAt 8 cfg6.N = out6_7 (accQ6 V c 49 (by decide)) :=
  (dat6 V c).arrAt_eq_of_cover 8 _ (flushed6_8 V c) fun i =>
    ⟨tLast6, (flush6_8 tLast6).mpr rfl, by
      show i ∈ ((View.whole (Pipeline.arrRef spec6 8)).slice (win6_8.rect tLast6)).set
      rw [View.set_slice_whole, Rect.mem_set_unit]
      intro a
      show win6_8.index tLast6 a * win6_8.size a ≤ (i a : Nat)
        ∧ (i a : Nat) < win6_8.index tLast6 a * win6_8.size a + win6_8.xsize (grid6.coords tLast6) a
      rw [whole6_8_off a, whole6_8_size a, Nat.zero_add]
      exact ⟨Nat.zero_le _, (i a).isLt⟩⟩

end Cert.Kernel.Hand

end
-- ==== Proof.K.RegBn7.lean ====
import proofs.«409348_j89627377533173_1_alg».proof.Proof.Gen.Kernel.Launch
import proofs.«409348_j89627377533173_1_alg».proof.Proof.Gen.Kernel.Skeleton
import proofs.«409348_j89627377533173_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

/-! # Region 7 (`cc7__bn_relu_kernel`, pipeline 7): the frame half, at any float model

A pointwise body over a grid of 25 points. Window 0 (the 2000x300 block of `z` at row block `t`) is fetched at every
point; the four row windows after it (mean, var, gamma, beta, each one row of 300) have a constant block index and are fetched once; window 5
is the output block, written back at every point. The body loads the five inputs whole, loads the output buffer (a value
it does not use), and stores one payload over the whole output buffer. So what it leaves in the output buffer is a
closed function of the five input blocks at the point, and it keeps nothing from point to point. -/

-- membership in a rectangle with a 2000-long axis recurses once per coordinate of that axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof
    data whose array is `V`'s (`hA`) and whose body leaves the block in place (`hafter`): an unfetched point has the
    block index of the point before, and the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for any proof
    data whose array is `V`'s (`hA`) and whose body leaves the block in place (`hafter`): an unfetched point has the
    block index of the point before, and the window is uncut and never idle. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for any proof
    data whose array is `V`'s (`hA`) and whose body leaves the block in place (`hafter`): an unfetched point has the
    block index of the point before, and the window is uncut and never idle. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not, for any proof
    data whose array is `V`'s (`hA`) and whose body leaves the block in place (`hafter`): an unfetched point has the
    block index of the point before, and the window is uncut and never idle. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not, for any proof
    data whose array is `V`'s (`hA`) and whose body leaves the block in place (`hafter`): an unfetched point has the
    block index of the point before, and the window is uncut and never idle. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

/-- The whole 2000x300 staging buffer (the load of window 0 and the one store into window 5). -/
abbrev r7_0 : Rect S2000x300 := Rect.unit (s := S2000x300) ![0, 0] S2000x300.size inb_S2000x300_S2000x300_0_0
/-- The whole 1x300 staging buffer (the loads of the four row windows). -/
abbrev r7_1 : Rect S1x300 := Rect.unit (s := S1x300) ![0, 0] S1x300.size inb_S1x300_S1x300_0_0

/-! ## What the body leaves in the output window's buffer -/

/-- Window 5's staging buffer after the body, from the input windows' blocks `xz xm xv xg xb` (in window order: z, mean, var,
    gamma, beta): its one store as a piece. The payload takes the loads in the order the body makes them: z, var, mean,
    gamma, beta. -/
def out7_5 (xz : Vec F S2000x300 .f32) (xm xv xg xb : Vec F S1x300 .f32) : Vec F S2000x300 .f32 :=
  View.canon [⟨r7_0, k7_pay1 (View.ld xz r7_0) (View.ld xv r7_1) (View.ld xm r7_1) (View.ld xg r7_1) (View.ld xb r7_1)⟩]

/-- The one store is the whole buffer, so it covers it. -/
theorem cover7_5 (p : Vec F S2000x300 .f32) (y : S2000x300.Idx) :
    ∃ pc ∈ ([⟨r7_0, p⟩] : List (View.Piece (Elt F) S2000x300 .f32)), y ∈ pc.1.set :=
  View.cover_of_tiled [⟨r7_0, p⟩] S2000x300.size (by rfl) y

/-! ## The body's triple -/

set_option maxHeartbeats 1000000 in
/-- The kernel body on whole staging memrefs, the inputs' at read contents `xz xm xv xg xb` and the output's at anything, runs to
    the continuation holding the inputs' as they were and the output's at `out7_5` of the inputs'. -/
theorem sound_kernel7 (c : Dev nD) (E : Set ℕ) (i : grid7.Coords) (Az : Memref sig .tc .vmem S2000x300 .f32) (hAz : Az.IsWhole) (Am : Memref sig .tc .vmem S1x300 .f32) (hAm : Am.IsWhole) (Av : Memref sig .tc .vmem S1x300 .f32) (hAv : Av.IsWhole) (Ag : Memref sig .tc .vmem S1x300 .f32) (hAg : Ag.IsWhole) (Ab : Memref sig .tc .vmem S1x300 .f32) (hAb : Ab.IsWhole) (Ay : Memref sig .tc .vmem S2000x300 .f32) (hAy : Ay.IsWhole)
    (xz : Vec F S2000x300 .f32) (xm xv xg xb : Vec F S1x300 .f32) (K : PUnit → sProp 𝕄) :
    iprop(owns (c : Thread nD τ) Az fullShare xz ∗ owns (c : Thread nD τ) Am fullShare xm ∗ owns (c : Thread nD τ) Av fullShare xv ∗ owns (c : Thread nD τ) Ag fullShare xg ∗ owns (c : Thread nD τ) Ab fullShare xb
        ∗ (∃ d, owns (c : Thread nD τ) Ay fullShare d)
        ∗ (iprop(owns (c : Thread nD τ) Az fullShare xz ∗ owns (c : Thread nD τ) Am fullShare xm ∗ owns (c : Thread nD τ) Av fullShare xv ∗ owns (c : Thread nD τ) Ag fullShare xg ∗ owns (c : Thread nD τ) Ab fullShare xb
            ∗ owns (c : Thread nD τ) Ay fullShare (out7_5 xz xm xv xg xb)) -∗ K ⟨⟩))
      ⊢ wp frame (wpE (defs₀ (F := F)) Variants.none c none) E (cc7__bn_relu_kernel i Az hAz Am hAm Av hAv Ag hAg Ab hAb Ay hAy) K := by
  simp only [cc7__bn_relu_kernel_eq_skeleton]; unfold cc7__bn_relu_kernel_skel
  unfold owns
  iintro ⟨⟨%fz, %hfz, Hz⟩, ⟨%fm, %hfm, Hm⟩, ⟨%fv, %hfv, Hv⟩, ⟨%fg, %hfg, Hg⟩, ⟨%fb, %hfb, Hb⟩, ⟨%dy, %fy, -, Hy⟩, Hk⟩
  subst hfz hfm hfv hfg hfb
  sl_exec
  sl_step
  iapply Hk
  isplitl [Hz]
  · iexists fz; isplitr; · ipureintro; rfl
    iexact Hz
  isplitl [Hm]
  · iexists fm; isplitr; · ipureintro; rfl
    iexact Hm
  isplitl [Hv]
  · iexists fv; isplitr; · ipureintro; rfl
    iexact Hv
  isplitl [Hg]
  · iexists fg; isplitr; · ipureintro; rfl
    iexact Hg
  isplitl [Hb]
  · iexists fb; isplitr; · ipureintro; rfl
    iexact Hb
  iexists _; isplitr
  swap; · iexact Hy
  ipureintro
  exact View.read_writes_eq_canon _ _ _ (cover7_5 _)

/-! ## The pipeline's proof data -/

/-- The proof data of pipeline 1 on core `c`: the arrays as the region finds them (`V`); after the body at point `t` each
    input's buffer at its block and the output's at `out7_5` of the input blocks; the invariant the scoped rest and the
    generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) :
    (dat7 V c).after 5 t = out7_5 (iblk7 V c 0 t) (iblk7 V c 1 t) (iblk7 V c 2 t) (iblk7 V c 3 t) (iblk7 V c 4 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-- The invariant at the first point is the class's, -/
theorem PhiIn7 (c : Dev nD) : Pipeline.ΦA spec7 c ⊢ (dat7 V c).Φ 0 := .rfl
/-- and so is the invariant at the last. -/
theorem PhiOut7 (c : Dev nD) : (dat7 V c).Φ (Fin.last _) ⊢ Pipeline.ΦA spec7 c := .rfl

/-! ## The body obligation, at a generic point -/

/-- What the body is called with at point `t` (the windows one by one), -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' memrefs hold their blocks (`before7_W`), so `sound_kernel7` applies; the invariant
    and the core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%dz, Hz⟩, ⟨%dm, Hm⟩, ⟨%dv, Hv⟩, ⟨%dg, Hg⟩, ⟨%db, Hb⟩, ⟨%dy, Hy⟩⟩
  iapply (sound_kernel7 c Set.univ _ _ _ _ _ _ _ _ _ _ _ _ _ (iblk7 V c 0 t) (iblk7 V c 1 t) (iblk7 V c 2 t) (iblk7 V c 3 t) (iblk7 V c 4 t) _)
  isplitl [Hz]; · iexact Hz
  isplitl [Hm]; · iexact Hm
  isplitl [Hv]; · iexact Hv
  isplitl [Hg]; · iexact Hg
  isplitl [Hb]; · iexact Hb
  isplitl [Hy]; · iexists _; iexact Hy
  iintro ⟨Hz, Hm, Hv, Hg, Hb, Hy⟩
  isplitl [HΦ]; · iexact HΦ
  isplitl [Ho]; · iexact Ho
  isplitl [Hz]; · iexact Hz
  isplitl [Hm]; · iexact Hm
  isplitl [Hv]; · iexact Hv
  isplitl [Hg]; · iexact Hg
  isplitl [Hb]; · iexact Hb
  iexact Hy

/-- The library's body obligation, at every point. -/
theorem body_obligation7 (c : Dev nD) : BodyObligation (dat7 (F := F) V c) (defs₀ (F := F)) Variants.none () Set.univ := fun t => by
  rw [bigSep_W7, bigSep_W7]
  exact sound_body7 V c t

end Region1

end Cert.Kernel.Hand
-- ==== Proof.K.RegMlp8.lean ====
import proofs.«409348_j89627377533173_1_alg».proof.Proof.Gen.Kernel.Launch
import proofs.«409348_j89627377533173_1_alg».proof.Proof.Gen.Kernel.Skeleton
import proofs.«409348_j89627377533173_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 8 of @main: custom_call 8, `cc8__mlp_kernel` (pipeline 8), at the entry contents `V` -/

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Each input window's current staging buffer holds its block at every point, fetched there or not (an input
    fetched at the first point only keeps its block: the index never moves). -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: every load and store is of a whole buffer -/

abbrev r8_a : Rect S1000x300 := Rect.unit (s := S1000x300) ![0, 0] S1000x300.size inb_S1000x300_S1000x300_0_0
abbrev r8_b : Rect S300x600 := Rect.unit (s := S300x600) ![0, 0] S300x600.size inb_S300x600_S300x600_0_0
abbrev r8_c : Rect S1x600 := Rect.unit (s := S1x600) ![0, 0] S1x600.size inb_S1x600_S1x600_0_0
abbrev r8_d : Rect S600x300 := Rect.unit (s := S600x300) ![0, 0] S600x300.size inb_S600x300_S600x300_0_0
abbrev r8_e : Rect S1x300 := Rect.unit (s := S1x300) ![0, 0] S1x300.size inb_S1x300_S1x300_0_0

/-! ## What the body leaves: the z block, the two running sums, the copies out -/

/-- The z block the body stores at a point, from the six input blocks (the skeleton's payload `k8_pay5`). -/
def z8 (x0 x1 : Vec F S1000x300 .f32) (x2 : Vec F S300x600 .f32) (x3 : Vec F S1x600 .f32) (x4 : Vec F S600x300 .f32) (x5 : Vec F S1x300 .f32) : FVec F S1000x300 .f32 :=
  k8_pay5 (View.ld x0 r8_a) (View.ld x1 r8_a) (View.ld x2 r8_b) (View.ld x3 r8_c) (View.ld x4 r8_d) (View.ld x5 r8_e)

/-- Output window 6's staging buffer after the body: its one store. -/
def out8_6 (x0 x1 : Vec F S1000x300 .f32) (x2 : Vec F S300x600 .f32) (x3 : Vec F S1x600 .f32) (x4 : Vec F S600x300 .f32) (x5 : Vec F S1x300 .f32) : Vec F S1000x300 .f32 :=
  View.canon [⟨r8_a, z8 x0 x1 x2 x3 x4 x5⟩]

/-- Scratch 0 (the running column sums) after the body's add, over what it held (`s`). -/
def stepS8 (x0 x1 : Vec F S1000x300 .f32) (x2 : Vec F S300x600 .f32) (x3 : Vec F S1x600 .f32) (x4 : Vec F S600x300 .f32) (x5 : Vec F S1x300 .f32) (s : Vec F S1x300 .f32) : Vec F S1x300 .f32 :=
  View.canon [⟨r8_e, k8_pay1 (k8_pay6 (View.ld x0 r8_a) (View.ld x1 r8_a) (View.ld x2 r8_b) (View.ld x3 r8_c) (View.ld x4 r8_d) (View.ld x5 r8_e) (View.ld s r8_e))⟩]

/-- Scratch 1 (the running column sums of squares) after the body's add, over what it held (`q`). -/
def stepQ8 (x0 x1 : Vec F S1000x300 .f32) (x2 : Vec F S300x600 .f32) (x3 : Vec F S1x600 .f32) (x4 : Vec F S600x300 .f32) (x5 : Vec F S1x300 .f32) (q : Vec F S1x300 .f32) : Vec F S1x300 .f32 :=
  View.canon [⟨r8_e, k8_pay2 (z8 x0 x1 x2 x3 x4 x5) (View.ld q r8_e)⟩]

/-- What the first point's reset leaves in scratch 0 and in scratch 1: zeros. -/
def zeroS8 : Vec F S1x300 .f32 := View.canon [⟨r8_e, k8_pay3 (F := F)⟩]
def zeroQ8 : Vec F S1x300 .f32 := View.canon [⟨r8_e, k8_pay4 (F := F)⟩]

/-- What the last point's copy leaves in output window 7's (8's) staging buffer, from the scratch's contents. -/
def out8_7 (s : Vec F S1x300 .f32) : Vec F S1x300 .f32 := View.canon [⟨r8_e, View.ld s r8_e⟩]

/-- The zero offsets of every access, as a function. -/
theorem hz8 : (![0, 0] : Fin 2 → ℕ) = fun _ => 0 := by funext a; fin_cases a <;> rfl

/-! ### Whole-buffer accesses read through (Lib/Pipeline/Value.lean): a load through the whole shape at zero offsets
    reads the contents, a store through it (last) leaves its payload, a load of what one such store left reads it -/

theorem ld8_a (X : Vec F S1000x300 .f32) : View.ld X r8_a = X := View.ld_unit_zero (S := S1000x300) hz8 _ X
theorem ld8_b (X : Vec F S300x600 .f32) : View.ld X r8_b = X := View.ld_unit_zero (S := S300x600) hz8 _ X
theorem ld8_c (X : Vec F S1x600 .f32) : View.ld X r8_c = X := View.ld_unit_zero (S := S1x600) hz8 _ X
theorem ld8_d (X : Vec F S600x300 .f32) : View.ld X r8_d = X := View.ld_unit_zero (S := S600x300) hz8 _ X
theorem ld8_e (X : Vec F S1x300 .f32) : View.ld X r8_e = X := View.ld_unit_zero (S := S1x300) hz8 _ X
theorem canon8_a (w : Vec F S1000x300 .f32) (L : List (View.Piece (Elt F) S1000x300 .f32)) :
    View.canon ((⟨r8_a, w⟩ : View.Piece (Elt F) S1000x300 .f32) :: L) = w := View.canon_cons_unit_zero (S := S1000x300) hz8 _ w L
theorem canon8_e (w : Vec F S1x300 .f32) (L : List (View.Piece (Elt F) S1x300 .f32)) :
    View.canon ((⟨r8_e, w⟩ : View.Piece (Elt F) S1x300 .f32) :: L) = w := View.canon_cons_unit_zero (S := S1x300) hz8 _ w L
theorem readCov8_e {κ : Kind} {sp : Space} (v : View sig κ sp S1x300 .f32) (w : Vec F S1x300 .f32) :
    v.readCov [(⟨r8_e, w⟩ : View.Piece (Elt F) S1x300 .f32)] r8_e.toLoadRect = w := View.readCov_unit_zero (S := S1x300) v hz8 _ w

theorem z8_eq (x0 x1 : Vec F S1000x300 .f32) (x2 : Vec F S300x600 .f32) (x3 : Vec F S1x600 .f32) (x4 : Vec F S600x300 .f32) (x5 : Vec F S1x300 .f32) : z8 x0 x1 x2 x3 x4 x5 = k8_pay5 x0 x1 x2 x3 x4 x5 := by
  unfold z8; rw [ld8_a, ld8_a, ld8_b, ld8_c, ld8_d, ld8_e]
theorem out8_6_eq (x0 x1 : Vec F S1000x300 .f32) (x2 : Vec F S300x600 .f32) (x3 : Vec F S1x600 .f32) (x4 : Vec F S600x300 .f32) (x5 : Vec F S1x300 .f32) : out8_6 x0 x1 x2 x3 x4 x5 = k8_pay5 x0 x1 x2 x3 x4 x5 := by
  unfold out8_6; rw [canon8_a, z8_eq]
theorem stepS8_eq (x0 x1 : Vec F S1000x300 .f32) (x2 : Vec F S300x600 .f32) (x3 : Vec F S1x600 .f32) (x4 : Vec F S600x300 .f32) (x5 : Vec F S1x300 .f32) (s : Vec F S1x300 .f32) :
    stepS8 x0 x1 x2 x3 x4 x5 s = k8_pay1 (k8_pay6 x0 x1 x2 x3 x4 x5 s) := by
  unfold stepS8; rw [canon8_e, ld8_a, ld8_a, ld8_b, ld8_c, ld8_d, ld8_e, ld8_e]
theorem stepQ8_eq (x0 x1 : Vec F S1000x300 .f32) (x2 : Vec F S300x600 .f32) (x3 : Vec F S1x600 .f32) (x4 : Vec F S600x300 .f32) (x5 : Vec F S1x300 .f32) (q : Vec F S1x300 .f32) :
    stepQ8 x0 x1 x2 x3 x4 x5 q = k8_pay2 (k8_pay5 x0 x1 x2 x3 x4 x5) q := by
  unfold stepQ8; rw [canon8_e, z8_eq, ld8_e]
theorem zeroS8_eq : zeroS8 (F := F) = k8_pay3 (F := F) := by unfold zeroS8; rw [canon8_e]
theorem zeroQ8_eq : zeroQ8 (F := F) = k8_pay4 (F := F) := by unfold zeroQ8; rw [canon8_e]
theorem out8_7_eq (s : Vec F S1x300 .f32) : out8_7 s = s := by
  unfold out8_7; rw [canon8_e, ld8_e]

/-- THE ACCUMULATION: scratch 0 after the body at position `n` — the add over the reset at the first point, over
    what the point before left at every later one. -/
def accS8 (c : Dev nD) : (n : ℕ) → n < cfg8.N → Vec F S1x300 .f32
  | 0, hn => stepS8 (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩) (zeroS8 (F := F))
  | n + 1, hn => stepS8 (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (accS8 c n (Nat.lt_of_succ_lt hn))

/-- and scratch 1. -/
def accQ8 (c : Dev nD) : (n : ℕ) → n < cfg8.N → Vec F S1x300 .f32
  | 0, hn => stepQ8 (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩) (zeroQ8 (F := F))
  | n + 1, hn => stepQ8 (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (accQ8 c n (Nat.lt_of_succ_lt hn))

theorem accS8_zero (c : Dev nD) (hn : 0 < cfg8.N) :
    accS8 V c 0 hn = stepS8 (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩) (zeroS8 (F := F)) := rfl
theorem accS8_succ (c : Dev nD) (n : ℕ) (hn : n + 1 < cfg8.N) :
    accS8 V c (n + 1) hn = stepS8 (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (accS8 V c n (Nat.lt_of_succ_lt hn)) := rfl
theorem accQ8_zero (c : Dev nD) (hn : 0 < cfg8.N) :
    accQ8 V c 0 hn = stepQ8 (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩) (zeroQ8 (F := F)) := rfl
theorem accQ8_succ (c : Dev nD) (n : ℕ) (hn : n + 1 < cfg8.N) :
    accQ8 V c (n + 1) hn = stepQ8 (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (accQ8 V c n (Nat.lt_of_succ_lt hn)) := rfl

/-- The accumulators at the first point, and at a later one over what the point before left. -/
theorem accS8_A (c : Dev nD) (t : Fin cfg8.N) (hz : t.val = 0) :
    accS8 V c t.val t.isLt = stepS8 (iblk8 V c 0 t) (iblk8 V c 1 t) (iblk8 V c 2 t) (iblk8 V c 3 t) (iblk8 V c 4 t) (iblk8 V c 5 t) (zeroS8 (F := F)) := by
  obtain ⟨n, hn⟩ := t
  cases n with
  | zero => rfl
  | succ n => exact absurd hz (Nat.succ_ne_zero n)
theorem accS8_B (c : Dev nD) (t : Fin cfg8.N) (hz : t.val ≠ 0) :
    accS8 V c t.val t.isLt = stepS8 (iblk8 V c 0 t) (iblk8 V c 1 t) (iblk8 V c 2 t) (iblk8 V c 3 t) (iblk8 V c 4 t) (iblk8 V c 5 t) (accS8 V c (t.val - 1) (Nat.lt_of_le_of_lt (Nat.sub_le _ _) t.isLt)) := by
  obtain ⟨n, hn⟩ := t
  cases n with
  | zero => exact absurd rfl hz
  | succ n => rfl
theorem accQ8_A (c : Dev nD) (t : Fin cfg8.N) (hz : t.val = 0) :
    accQ8 V c t.val t.isLt = stepQ8 (iblk8 V c 0 t) (iblk8 V c 1 t) (iblk8 V c 2 t) (iblk8 V c 3 t) (iblk8 V c 4 t) (iblk8 V c 5 t) (zeroQ8 (F := F)) := by
  obtain ⟨n, hn⟩ := t
  cases n with
  | zero => rfl
  | succ n => exact absurd hz (Nat.succ_ne_zero n)
theorem accQ8_B (c : Dev nD) (t : Fin cfg8.N) (hz : t.val ≠ 0) :
    accQ8 V c t.val t.isLt = stepQ8 (iblk8 V c 0 t) (iblk8 V c 1 t) (iblk8 V c 2 t) (iblk8 V c 3 t) (iblk8 V c 4 t) (iblk8 V c 5 t) (accQ8 V c (t.val - 1) (Nat.lt_of_le_of_lt (Nat.sub_le _ _) t.isLt)) := by
  obtain ⟨n, hn⟩ := t
  cases n with
  | zero => exact absurd rfl hz
  | succ n => rfl

/-! ## The body's branch conditions -/

/-- The condition of the reset (`pl.when` on the first point), from the grid coordinates (the skeleton's scalar chain). -/
abbrev cond8_0 (i : grid8.Coords) : Prop := (Scalar.cmpi .ne (Scalar.extui (Scalar.cmpi .eq (BitVec.ofNat 32 (i 0).val) 0#32)) 0#32) = 1#1
/-- It holds at the first point only — decided over the grid. -/
theorem hcond8_0 : ∀ t : Fin cfg8.N, cond8_0 (grid8.coords t) ↔ t.val % 50 = 0 :=
  (by decide +kernel : ∀ t : Fin grid8.N, cond8_0 (grid8.coords t) ↔ t.val % 50 = 0)
/-- The condition of the copy out (`pl.when` on the last point). -/
abbrev cond8_1 (i : grid8.Coords) : Prop := k8_cond2 i = 1#1
/-- It holds at the last point only — decided over the grid. -/
theorem hcond8_1 : ∀ t : Fin cfg8.N, cond8_1 (grid8.coords t) ↔ t.val % 50 = 49 :=
  (by decide +kernel : ∀ t : Fin grid8.N, cond8_1 (grid8.coords t) ↔ t.val % 50 = 49)

/-! ## The body's stores cover the buffers they write (each is of the whole buffer) -/

theorem cover8_a (p0 : Vec F S1000x300 .f32) (y : S1000x300.Idx) :
    ∃ pc ∈ ([⟨r8_a, p0⟩] : List (View.Piece (Elt F) S1000x300 .f32)), y ∈ pc.1.set :=
  View.cover_of_tiled [⟨r8_a, p0⟩] S1000x300.size (by rfl) y
theorem cover8_e (p0 : Vec F S1x300 .f32) (y : S1x300.Idx) :
    ∃ pc ∈ ([⟨r8_e, p0⟩] : List (View.Piece (Elt F) S1x300 .f32)), y ∈ pc.1.set :=
  View.cover_of_tiled [⟨r8_e, p0⟩] S1x300.size (by rfl) y

theorem cover8_e_cons (p0 : Vec F S1x300 .f32) (L : List (View.Piece (Elt F) S1x300 .f32)) (y : S1x300.Idx) :
    ∃ pc ∈ ((⟨r8_e, p0⟩ :: L) : List (View.Piece (Elt F) S1x300 .f32)), y ∈ pc.1.set := by
  obtain ⟨pc, hpc, hy⟩ := cover8_e p0 y
  exact ⟨pc, List.mem_cons.mpr (Or.inl (List.mem_singleton.mp hpc)), hy⟩

/-! ## Where outputs 7 and 8 are idle: everywhere but at the last point, which alone writes them back -/

theorem idleAt8_7 : ∀ t : Fin cfg8.N, ¬cond8_1 (grid8.coords t) → cfg8.idle 7 (grid8.coords t) = true := by decide +kernel
theorem noFlush8_7 : ∀ t : Fin cfg8.N, ¬cond8_1 (grid8.coords t) → (cfg8.win 7).flush t = false := by decide +kernel
theorem liveAt8_7 : ∀ t : Fin cfg8.N, cond8_1 (grid8.coords t) → cfg8.idle 7 (grid8.coords t) = false := by decide +kernel
theorem idleAt8_8 : ∀ t : Fin cfg8.N, ¬cond8_1 (grid8.coords t) → cfg8.idle 8 (grid8.coords t) = true := by decide +kernel
theorem noFlush8_8 : ∀ t : Fin cfg8.N, ¬cond8_1 (grid8.coords t) → (cfg8.win 8).flush t = false := by decide +kernel
theorem liveAt8_8 : ∀ t : Fin cfg8.N, cond8_1 (grid8.coords t) → cfg8.idle 8 (grid8.coords t) = false := by decide +kernel

set_option maxHeartbeats 2000000 in
/-- The body at the first point: the two scratch accumulators, at anything, are reset and stepped. -/
theorem sound_kernel8_A (c : Dev nD) (E : Set ℕ) (i : grid8.Coords) (arg1 : Memref sig .tc .vmem S1000x300 .f32) (harg1 : arg1.IsWhole) (arg2 : Memref sig .tc .vmem S1000x300 .f32) (harg2 : arg2.IsWhole) (arg3 : Memref sig .tc .vmem S300x600 .f32) (harg3 : arg3.IsWhole) (arg4 : Memref sig .tc .vmem S1x600 .f32) (harg4 : arg4.IsWhole) (arg5 : Memref sig .tc .vmem S600x300 .f32) (harg5 : arg5.IsWhole) (arg6 : Memref sig .tc .vmem S1x300 .f32) (harg6 : arg6.IsWhole) (arg7 : Memref sig .tc .vmem S1000x300 .f32) (harg7 : arg7.IsWhole) (arg8 : Memref sig .tc .vmem S1x300 .f32) (harg8 : arg8.IsWhole) (arg9 : Memref sig .tc .vmem S1x300 .f32) (harg9 : arg9.IsWhole) (arg10 : Memref sig .tc .vmem S1x300 .f32) (harg10 : arg10.IsWhole) (arg11 : Memref sig .tc .vmem S1x300 .f32) (harg11 : arg11.IsWhole)
    (hc0 : cond8_0 i) (hc1 : ¬cond8_1 i) (x0 x1 : Vec F S1000x300 .f32) (x2 : Vec F S300x600 .f32) (x3 : Vec F S1x600 .f32) (x4 : Vec F S600x300 .f32) (x5 : Vec F S1x300 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out8_6 x0 x1 x2 x3 x4 x5)
            ∗ owns (c : Thread nD τ) arg10 fullShare (stepS8 x0 x1 x2 x3 x4 x5 (zeroS8 (F := F))) ∗ owns (c : Thread nD τ) arg11 fullShare (stepQ8 x0 x1 x2 x3 x4 x5 (zeroQ8 (F := F)))) -∗ K ⟨⟩))
      ⊢ wp frame (wpE (defs₀ (F := F)) Variants.none c none) E (cc8__mlp_kernel i arg1 harg1 arg2 harg2 arg3 harg3 arg4 harg4 arg5 harg5 arg6 harg6 arg7 harg7 arg8 harg8 arg9 harg9 arg10 harg10 arg11 harg11) K := by
  simp only [cc8__mlp_kernel_eq_skeleton]; unfold cc8__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, ⟨%dq, %fq, -, HQ⟩, Hk⟩
  subst hf0 hf1 hf2 hf3 hf4 hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover8_a _)
  isplitl [HS]
  · iexists _; isplitr
    swap; · iexact HS
    ipureintro
    sl_unfold_run_names
    try rw [View.readCov_eq_canon_ld _ _ _ (cover8_e _)]
    exact (View.read_writes_eq_canon _ _ _ (cover8_e_cons _ _)).trans ((canon8_e _ _).trans (canon8_e _ []).symm)
  iexists _; isplitr
  swap; · iexact HQ
  ipureintro
  sl_unfold_run_names
  try rw [View.readCov_eq_canon_ld _ _ _ (cover8_e _)]
  exact (View.read_writes_eq_canon _ _ _ (cover8_e_cons _ _)).trans ((canon8_e _ _).trans (canon8_e _ []).symm)

set_option maxHeartbeats 2000000 in
/-- The body at a middle point (no reset, no copy out): the two scratch accumulators at `s`, `q` are stepped. -/
theorem sound_kernel8_B (c : Dev nD) (E : Set ℕ) (i : grid8.Coords) (arg1 : Memref sig .tc .vmem S1000x300 .f32) (harg1 : arg1.IsWhole) (arg2 : Memref sig .tc .vmem S1000x300 .f32) (harg2 : arg2.IsWhole) (arg3 : Memref sig .tc .vmem S300x600 .f32) (harg3 : arg3.IsWhole) (arg4 : Memref sig .tc .vmem S1x600 .f32) (harg4 : arg4.IsWhole) (arg5 : Memref sig .tc .vmem S600x300 .f32) (harg5 : arg5.IsWhole) (arg6 : Memref sig .tc .vmem S1x300 .f32) (harg6 : arg6.IsWhole) (arg7 : Memref sig .tc .vmem S1000x300 .f32) (harg7 : arg7.IsWhole) (arg8 : Memref sig .tc .vmem S1x300 .f32) (harg8 : arg8.IsWhole) (arg9 : Memref sig .tc .vmem S1x300 .f32) (harg9 : arg9.IsWhole) (arg10 : Memref sig .tc .vmem S1x300 .f32) (harg10 : arg10.IsWhole) (arg11 : Memref sig .tc .vmem S1x300 .f32) (harg11 : arg11.IsWhole)
    (hc0 : ¬cond8_0 i) (hc1 : ¬cond8_1 i) (x0 x1 : Vec F S1000x300 .f32) (x2 : Vec F S300x600 .f32) (x3 : Vec F S1x600 .f32) (x4 : Vec F S600x300 .f32) (x5 : Vec F S1x300 .f32) (s q : Vec F S1x300 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out8_6 x0 x1 x2 x3 x4 x5)
            ∗ owns (c : Thread nD τ) arg10 fullShare (stepS8 x0 x1 x2 x3 x4 x5 s) ∗ owns (c : Thread nD τ) arg11 fullShare (stepQ8 x0 x1 x2 x3 x4 x5 q)) -∗ K ⟨⟩))
      ⊢ wp frame (wpE (defs₀ (F := F)) Variants.none c none) E (cc8__mlp_kernel i arg1 harg1 arg2 harg2 arg3 harg3 arg4 harg4 arg5 harg5 arg6 harg6 arg7 harg7 arg8 harg8 arg9 harg9 arg10 harg10 arg11 harg11) K := by
  simp only [cc8__mlp_kernel_eq_skeleton]; unfold cc8__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, ⟨%fq, %hfq, HQ⟩, Hk⟩
  subst hf0 hf1 hf2 hf3 hf4 hf5 hfs hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover8_a _)
  isplitl [HS]
  · iexists _; isplitr
    swap; · iexact HS
    ipureintro
    exact View.read_writes_eq_canon _ _ _ (cover8_e _)
  iexists _; isplitr
  swap; · iexact HQ
  ipureintro
  exact View.read_writes_eq_canon _ _ _ (cover8_e _)

set_option maxHeartbeats 2000000 in
/-- The body at the last point: the two scratch accumulators at `s`, `q` are stepped and copied out to outputs 7 and 8. -/
theorem sound_kernel8_C (c : Dev nD) (E : Set ℕ) (i : grid8.Coords) (arg1 : Memref sig .tc .vmem S1000x300 .f32) (harg1 : arg1.IsWhole) (arg2 : Memref sig .tc .vmem S1000x300 .f32) (harg2 : arg2.IsWhole) (arg3 : Memref sig .tc .vmem S300x600 .f32) (harg3 : arg3.IsWhole) (arg4 : Memref sig .tc .vmem S1x600 .f32) (harg4 : arg4.IsWhole) (arg5 : Memref sig .tc .vmem S600x300 .f32) (harg5 : arg5.IsWhole) (arg6 : Memref sig .tc .vmem S1x300 .f32) (harg6 : arg6.IsWhole) (arg7 : Memref sig .tc .vmem S1000x300 .f32) (harg7 : arg7.IsWhole) (arg8 : Memref sig .tc .vmem S1x300 .f32) (harg8 : arg8.IsWhole) (arg9 : Memref sig .tc .vmem S1x300 .f32) (harg9 : arg9.IsWhole) (arg10 : Memref sig .tc .vmem S1x300 .f32) (harg10 : arg10.IsWhole) (arg11 : Memref sig .tc .vmem S1x300 .f32) (harg11 : arg11.IsWhole)
    (hc0 : ¬cond8_0 i) (hc1 : cond8_1 i) (x0 x1 : Vec F S1000x300 .f32) (x2 : Vec F S300x600 .f32) (x3 : Vec F S1x600 .f32) (x4 : Vec F S600x300 .f32) (x5 : Vec F S1x300 .f32) (s q : Vec F S1x300 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out8_6 x0 x1 x2 x3 x4 x5)
            ∗ owns (c : Thread nD τ) arg8 fullShare (out8_7 (stepS8 x0 x1 x2 x3 x4 x5 s)) ∗ owns (c : Thread nD τ) arg9 fullShare (out8_7 (stepQ8 x0 x1 x2 x3 x4 x5 q))
            ∗ owns (c : Thread nD τ) arg10 fullShare (stepS8 x0 x1 x2 x3 x4 x5 s) ∗ owns (c : Thread nD τ) arg11 fullShare (stepQ8 x0 x1 x2 x3 x4 x5 q)) -∗ K ⟨⟩))
      ⊢ wp frame (wpE (defs₀ (F := F)) Variants.none c none) E (cc8__mlp_kernel i arg1 harg1 arg2 harg2 arg3 harg3 arg4 harg4 arg5 harg5 arg6 harg6 arg7 harg7 arg8 harg8 arg9 harg9 arg10 harg10 arg11 harg11) K := by
  simp only [cc8__mlp_kernel_eq_skeleton]; unfold cc8__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs, %hfs, HS⟩, ⟨%fq, %hfq, HQ⟩, Hk⟩
  subst hf0 hf1 hf2 hf3 hf4 hf5 hfs hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover8_a _)
  isplitl [H7]
  · iexists _; isplitr
    swap; · iexact H7
    ipureintro
    sl_unfold_run_names
    try rw [View.readCov_eq_canon_ld _ _ _ (cover8_e _)]
    exact (View.read_writes_eq_canon _ _ _ (cover8_e_cons _ _)).trans ((canon8_e _ _).trans (canon8_e _ []).symm)
  isplitl [H8]
  · iexists _; isplitr
    swap; · iexact H8
    ipureintro
    sl_unfold_run_names
    try rw [View.readCov_eq_canon_ld _ _ _ (cover8_e _)]
    exact (View.read_writes_eq_canon _ _ _ (cover8_e_cons _ _)).trans ((canon8_e _ _).trans (canon8_e _ []).symm)
  isplitl [HS]
  · iexists _; isplitr
    swap; · iexact HS
    ipureintro
    sl_unfold_run_names
    try rw [View.readCov_eq_canon_ld _ _ _ (cover8_e _)]
    exact (View.read_writes_eq_canon _ _ _ (cover8_e_cons _ _)).trans ((canon8_e _ _).trans (canon8_e _ []).symm)
  iexists _; isplitr
  swap; · iexact HQ
  ipureintro
  sl_unfold_run_names
  try rw [View.readCov_eq_canon_ld _ _ _ (cover8_e _)]
  exact (View.read_writes_eq_canon _ _ _ (cover8_e_cons _ _)).trans ((canon8_e _ _).trans (canon8_e _ []).symm)

/-! ## The invariant: the two scratch accumulators tracked -/

/-- The scratch operands: whole scoped buffers of the kernel's own, passed beside the windows. -/
abbrev scM8_0 : Memref sig .tc .vmem S1x300 .f32 := Memref.whole cc8_scratch0
abbrev scM8_1 : Memref sig .tc .vmem S1x300 .f32 := Memref.whole cc8_scratch1

/-- Before the first point the class's invariant (every scratch at anything); afterwards the two scratch
    accumulators at what the point before left, the other scoped buffers unopened, the generator register at some state. -/
def PhiS8 (c : Dev nD) : (n : ℕ) → n ≤ cfg8.N → sProp 𝕄
  | 0, _ => Pipeline.ΦA spec8 c
  | n + 1, hn => iprop(iprop(iprop(owns (c : Thread nD τ) scM8_0 fullShare (accS8 V c n hn) ∗ owns (c : Thread nD τ) scM8_1 fullShare (accQ8 V c n hn))
      ∗ Pipeline.scopedRestBut (Ix := Unit) (Name := ℕ) (U := UR sig nD τ) (Lvl := ℕ) (Val := Elt F) spec8 c [cc8_scratch0, cc8_scratch1]) ∗ (∃ r, prngReg c r))

theorem PhiS8_zero (c : Dev nD) (n : ℕ) (h : n ≤ cfg8.N) (hz : n = 0) : PhiS8 V c n h = Pipeline.ΦA spec8 c := by
  subst hz; rfl

/-- After point `n` (before point `n + 1`): the accumulators at that point's contents. -/
theorem PhiS8_succ (c : Dev nD) (n : ℕ) (hn : n < cfg8.N) :
    PhiS8 V c (n + 1) hn = iprop(iprop(iprop(owns (c : Thread nD τ) scM8_0 fullShare (accS8 V c n hn) ∗ owns (c : Thread nD τ) scM8_1 fullShare (accQ8 V c n hn))
      ∗ Pipeline.scopedRestBut (Ix := Unit) (Name := ℕ) (U := UR sig nD τ) (Lvl := ℕ) (Val := Elt F) spec8 c [cc8_scratch0, cc8_scratch1]) ∗ (∃ r, prngReg c r)) := rfl

/-- Before a point that is not the first: the accumulators at what the point before left. -/
theorem PhiS8_pos (c : Dev nD) (n : ℕ) (h : n ≤ cfg8.N) (hz : n ≠ 0) :
    PhiS8 V c n h = iprop(iprop(iprop(owns (c : Thread nD τ) scM8_0 fullShare (accS8 V c (n - 1) (by omega)) ∗ owns (c : Thread nD τ) scM8_1 fullShare (accQ8 V c (n - 1) (by omega)))
      ∗ Pipeline.scopedRestBut (Ix := Unit) (Name := ℕ) (U := UR sig nD τ) (Lvl := ℕ) (Val := Elt F) spec8 c [cc8_scratch0, cc8_scratch1]) ∗ (∃ r, prngReg c r)) := by
  cases n with
  | zero => exact absurd rfl hz
  | succ n => rfl

/-- The class's invariant with the two scratch operands split out of the scoped rest as memrefs owned at some contents. -/
theorem PhiA8_eq (c : Dev nD) :
    (Pipeline.ΦA spec8 c : sProp 𝕄)
      = iprop(iprop(iprop((∃ d, owns (c : Thread nD τ) scM8_0 fullShare d) ∗ (∃ d, owns (c : Thread nD τ) scM8_1 fullShare d))
          ∗ Pipeline.scopedRestBut (Ix := Unit) (Name := ℕ) (U := UR sig nD τ) (Lvl := ℕ) (Val := Elt F) spec8 c [cc8_scratch0, cc8_scratch1]) ∗ (∃ r, prngReg c r)) := by
  unfold Pipeline.ΦA; rw [scopedRest8_split]; simp only [scM8_0, scM8_1, owns_whole]; try rfl

/-! ## The pipeline's proof data -/

/-- The proof data of pipeline 8 on core `c`: the arrays as the region finds them (`V`); after the body at point `t`
    each input's buffer at its block, output 6's at the z block of the input blocks, outputs 7 and 8's at the copies of
    the accumulators (consulted at the last point only: the windows are idle before it); the invariant tracks the two
    scratch accumulators (`PhiS8`); nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (iblk8 V c 0 t) (iblk8 V c 1 t) (iblk8 V c 2 t) (iblk8 V c 3 t) (iblk8 V c 4 t) (iblk8 V c 5 t)
    | ⟨7, _⟩ => out8_7 (accS8 V c t.val t.isLt)
    | ⟨8, _⟩ => out8_7 (accQ8 V c t.val t.isLt)
  Φ t := PhiS8 V c t.val (Nat.le_of_lt_succ t.isLt)
  q _ := fullShare
  owed _ := 0

/-- The proof data's arrays are the region-entry contents (the proof data's definition projected, by `dsimp`). -/
theorem A_eq8 (c : Dev nD) (w : Fin cfg8.W) : (dat8 V c).A w = V c (Pipeline.arrRef spec8 w) := by
  dsimp only [dat8]

/-- The invariant at a point's start (the proof data at `t.castSucc`), restated at `t.val`. -/
theorem PhiS8_castSucc (c : Dev nD) (t : Fin cfg8.N) :
    (dat8 V c).Φ t.castSucc = PhiS8 V c t.val (Nat.le_of_lt t.isLt) := by
  dsimp only [dat8]; simp only [Fin.coe_castSucc]

/-- What the body leaves, window by window (the proof data's `match` reduced by `dsimp`). -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = out8_6 (iblk8 V c 0 t) (iblk8 V c 1 t) (iblk8 V c 2 t) (iblk8 V c 3 t) (iblk8 V c 4 t) (iblk8 V c 5 t) := by dsimp only [dat8]
theorem after8_7 (c : Dev nD) (t : Fin cfg8.N) : (dat8 V c).after 7 t = out8_7 (accS8 V c t.val t.isLt) := by dsimp only [dat8]
theorem after8_8 (c : Dev nD) (t : Fin cfg8.N) : (dat8 V c).after 8 t = out8_7 (accQ8 V c t.val t.isLt) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d

/-- Windows 0 to 6 are never idle: the body's post for them is the buffer at what the body leaves. -/
theorem leaves8_0 (c : Dev nD) (t : Fin cfg8.N) :
    (dat8 V c).leavesExact 0 t = owns (c : Thread nD τ) (st8_0 t) fullShare ((dat8 V c).after 0 t) := rfl
theorem leaves8_1 (c : Dev nD) (t : Fin cfg8.N) :
    (dat8 V c).leavesExact 1 t = owns (c : Thread nD τ) (st8_1 t) fullShare ((dat8 V c).after 1 t) := rfl
theorem leaves8_2 (c : Dev nD) (t : Fin cfg8.N) :
    (dat8 V c).leavesExact 2 t = owns (c : Thread nD τ) (st8_2 t) fullShare ((dat8 V c).after 2 t) := rfl
theorem leaves8_3 (c : Dev nD) (t : Fin cfg8.N) :
    (dat8 V c).leavesExact 3 t = owns (c : Thread nD τ) (st8_3 t) fullShare ((dat8 V c).after 3 t) := rfl
theorem leaves8_4 (c : Dev nD) (t : Fin cfg8.N) :
    (dat8 V c).leavesExact 4 t = owns (c : Thread nD τ) (st8_4 t) fullShare ((dat8 V c).after 4 t) := rfl
theorem leaves8_5 (c : Dev nD) (t : Fin cfg8.N) :
    (dat8 V c).leavesExact 5 t = owns (c : Thread nD τ) (st8_5 t) fullShare ((dat8 V c).after 5 t) := rfl
theorem leaves8_6 (c : Dev nD) (t : Fin cfg8.N) :
    (dat8 V c).leavesExact 6 t = owns (c : Thread nD τ) (st8_6 t) fullShare ((dat8 V c).after 6 t) := rfl

/-! ## The body obligation, at a generic point -/

/-- What the body is called with at point `t` (the library's body obligation's precondition, the windows one by one), -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t
    ∗ (dat8 V c).leavesExact 4 t
    ∗ (dat8 V c).leavesExact 5 t
    ∗ (dat8 V c).leavesExact 6 t
    ∗ (dat8 V c).leavesExact 7 t
    ∗ (dat8 V c).leavesExact 8 t)

set_option maxHeartbeats 4000000 in
/-- The body at any point: the inputs' memrefs hold their blocks; the closed forms say which of the three control cases
    the point is in; the invariant hands the body the two scratch accumulators at what the point before left (at anything
    at the first point) and takes them back at this point's contents; outputs 7 and 8 pass through untouched where they
    are idle and are handed back at the copies at the last point; the core owes nothing throughout. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  rw [show (dat8 V c).owesAt () t.succ = (dat8 V c).owesAt () t.castSucc from rfl]
  rw [show (dat8 V c).Φ t.succ = PhiS8 V c (t.val + 1) t.isLt from rfl, PhiS8_succ]
  rw [leaves8_0, leaves8_1, leaves8_2, leaves8_3, leaves8_4, leaves8_5, leaves8_6,
    after8_0, after8_1, after8_2, after8_3, after8_4, after8_5, after8_6]
  have hN : t.val < 50 := lt_of_lt_of_eq t.isLt (show cfg8.N = 50 from N_8)
  by_cases h0 : t.val % 50 = 0
  · by_cases h1 : t.val % 50 = 49
    · exfalso; omega
    · have hc0 : cond8_0 (grid8.coords t) := (hcond8_0 t).mpr h0
      have hc1 : ¬cond8_1 (grid8.coords t) := fun h => h1 ((hcond8_1 t).mp h)
      have hz : t.val = 0 := by omega
      rw [Dat.leavesExact_idle (dat8 V c) 7 t (idleAt8_7 t hc1) (noFlush8_7 t hc1),
        Dat.leavesExact_idle (dat8 V c) 8 t (idleAt8_8 t hc1) (noFlush8_8 t hc1)]
      rw [accS8_A V c t hz, accQ8_A V c t hz]
      rw [PhiS8_castSucc V c t, PhiS8_zero V c _ _ hz, PhiA8_eq]
      iintro ⟨⟨⟨⟨HS, HQ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel8_A c Set.univ (grid8.coords t) _ _ _ _ _ _ _ _ _ _ _ _ _ _ _ _ _ _ _ _ _ _ hc0 hc1 (iblk8 V c 0 t) (iblk8 V c 1 t) (iblk8 V c 2 t) (iblk8 V c 3 t) (iblk8 V c 4 t) (iblk8 V c 5 t) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      isplitl [HQ]; · iexact HQ
      iintro ⟨H0, H1, H2, H3, H4, H5, H6, HS, HQ⟩
      isplitl [HS HQ HR Hg]
      · isplitl [HS HQ HR]
        · isplitl [HS HQ]
          · isplitl [HS]; · iexact HS
            iexact HQ
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
  · have hc0 : ¬cond8_0 (grid8.coords t) := fun h => h0 ((hcond8_0 t).mp h)
    have hz : t.val ≠ 0 := fun e => h0 (by rw [e])
    rw [accS8_B V c t hz, accQ8_B V c t hz]
    rw [PhiS8_castSucc V c t, PhiS8_pos V c _ _ hz]
    by_cases h1 : t.val % 50 = 49
    · have hc1 : cond8_1 (grid8.coords t) := (hcond8_1 t).mpr h1
      rw [show (dat8 V c).leavesExact 7 t = owns (c : Thread nD τ) (st8_7 t) fullShare ((dat8 V c).after 7 t) from by
        unfold Dat.leavesExact; rw [liveAt8_7 t hc1], after8_7]
      rw [show (dat8 V c).leavesExact 8 t = owns (c : Thread nD τ) (st8_8 t) fullShare ((dat8 V c).after 8 t) from by
        unfold Dat.leavesExact; rw [liveAt8_8 t hc1], after8_8]
      rw [accS8_B V c t hz, accQ8_B V c t hz]
      iintro ⟨⟨⟨⟨HS, HQ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel8_C c Set.univ (grid8.coords t) _ _ _ _ _ _ _ _ _ _ _ _ _ _ _ _ _ _ _ _ _ _ hc0 hc1 (iblk8 V c 0 t) (iblk8 V c 1 t) (iblk8 V c 2 t) (iblk8 V c 3 t) (iblk8 V c 4 t) (iblk8 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS]; · iexact HS
      isplitl [HQ]; · iexact HQ
      iintro ⟨H0, H1, H2, H3, H4, H5, H6, H7, H8, HS, HQ⟩
      isplitl [HS HQ HR Hg]
      · isplitl [HS HQ HR]
        · isplitl [HS HQ]
          · isplitl [HS]; · iexact HS
            iexact HQ
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬cond8_1 (grid8.coords t) := fun h => h1 ((hcond8_1 t).mp h)
      rw [Dat.leavesExact_idle (dat8 V c) 7 t (idleAt8_7 t hc1) (noFlush8_7 t hc1),
        Dat.leavesExact_idle (dat8 V c) 8 t (idleAt8_8 t hc1) (noFlush8_8 t hc1)]
      iintro ⟨⟨⟨⟨HS, HQ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel8_B c Set.univ (grid8.coords t) _ _ _ _ _ _ _ _ _ _ _ _ _ _ _ _ _ _ _ _ _ _ hc0 hc1 (iblk8 V c 0 t) (iblk8 V c 1 t) (iblk8 V c 2 t) (iblk8 V c 3 t) (iblk8 V c 4 t) (iblk8 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      isplitl [HQ]; · iexact HQ
      iintro ⟨H0, H1, H2, H3, H4, H5, H6, HS, HQ⟩
      isplitl [HS HQ HR Hg]
      · isplitl [HS HQ HR]
        · isplitl [HS HQ]
          · isplitl [HS]; · iexact HS
            iexact HQ
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

/-- The library's body obligation, at every point. -/
theorem body_obligation8 (c : Dev nD) : BodyObligation (dat8 (F := F) V c) (defs₀ (F := F)) Variants.none () Set.univ := fun t => by
  rw [bigSep_W8, bigSep_W8]
  exact sound_body8 V c t

/-- What the launch hands the region (the class's invariant) is the invariant before the first point. -/
theorem PhiIn8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

/-- After the last point the invariant gives the class's back: the accumulators' named contents are forgotten. -/
theorem PhiOut8 (c : Dev nD) : (dat8 V c).Φ (Fin.last _) ⊢ Pipeline.ΦA spec8 c := by
  rw [show (dat8 V c).Φ (Fin.last cfg8.N) = PhiS8 V c (Fin.last cfg8.N).val (Nat.le_of_lt_succ (Fin.last cfg8.N).isLt) from rfl,
    PhiS8_pos V c _ _ (by rw [Fin.val_last]; have : cfg8.N = 50 := N_8; omega), PhiA8_eq]
  iintro ⟨⟨⟨HS, HQ⟩, HR⟩, Hg⟩
  isplitl [HS HQ HR]
  · isplitl [HS HQ]
    · isplitl [HS]; · iexists _; iexact HS
      iexists _; iexact HQ
    iexact HR
  iexact Hg

/-- The last point. -/
abbrev tLast8 : Fin cfg8.N := ⟨49, by decide⟩

/-! ## The arrays of outputs 7 and 8 after the region -/

/-- Output 7's one block is its whole array: at the last point its offsets are zero and its extents the array's. -/
theorem whole8_7_off : ∀ a, win8_7.index tLast8 a * win8_7.size a = 0 := by decide +kernel
theorem whole8_7_size : ∀ a, win8_7.xsize (grid8.coords tLast8) a = S1x300.size a := by decide +kernel

/-- The one write-back of output 7, at the last point, writes its whole array. -/
theorem flushed8_7 (c : Dev nD) (t : Fin cfg8.N) (hf : (cfg8.win 7).flush t = true) :
    (dat8 V c).flushed 7 t
      = ((cfg8.win 7).blk t).view.read (Elt F) (out8_7 (accS8 V c 49 (by decide)) : Buf (Elt F) ((c : Thread nD τ).loc (Pipeline.arrRef spec8 7))) := by
  have hN : cfg8.N = 50 := N_8
  have h49 : t.val = 49 := by have := (flush8_7 t).mp hf; have := t.isLt; omega
  obtain rfl : t = tLast8 := Fin.ext h49
  show (cfg8.win 7).cut (grid8.coords tLast8) ((dat8 V c).after 7 tLast8) = _
  rw [after8_7]
  exact (Memref.read_access_unit_zero (Elt F) (Pipeline.arrRef spec8 7) (funext whole8_7_off)
    (fun a => by show win8_7.index tLast8 a * win8_7.size a + S1x300.size a ≤ S1x300.size a; rw [whole8_7_off a, Nat.zero_add]) _).symm

/-- So after the region output 7's array holds the copy of the accumulator as the last point left it. -/
theorem arrAt8_7 (c : Dev nD) : (dat8 V c).arrAt 7 cfg8.N = out8_7 (accS8 V c 49 (by decide)) :=
  (dat8 V c).arrAt_eq_of_cover 7 _ (flushed8_7 V c) fun i =>
    ⟨tLast8, (flush8_7 tLast8).mpr rfl, by
      show i ∈ ((View.whole (Pipeline.arrRef spec8 7)).slice (win8_7.rect tLast8)).set
      rw [View.set_slice_whole, Rect.mem_set_unit]
      intro a
      show win8_7.index tLast8 a * win8_7.size a ≤ (i a : Nat)
        ∧ (i a : Nat) < win8_7.index tLast8 a * win8_7.size a + win8_7.xsize (grid8.coords tLast8) a
      rw [whole8_7_off a, whole8_7_size a, Nat.zero_add]
      exact ⟨Nat.zero_le _, (i a).isLt⟩⟩

/-- Output 8's one block is its whole array: at the last point its offsets are zero and its extents the array's. -/
theorem whole8_8_off : ∀ a, win8_8.index tLast8 a * win8_8.size a = 0 := by decide +kernel
theorem whole8_8_size : ∀ a, win8_8.xsize (grid8.coords tLast8) a = S1x300.size a := by decide +kernel

/-- The one write-back of output 8, at the last point, writes its whole array. -/
theorem flushed8_8 (c : Dev nD) (t : Fin cfg8.N) (hf : (cfg8.win 8).flush t = true) :
    (dat8 V c).flushed 8 t
      = ((cfg8.win 8).blk t).view.read (Elt F) (out8_7 (accQ8 V c 49 (by decide)) : Buf (Elt F) ((c : Thread nD τ).loc (Pipeline.arrRef spec8 8))) := by
  have hN : cfg8.N = 50 := N_8
  have h49 : t.val = 49 := by have := (flush8_8 t).mp hf; have := t.isLt; omega
  obtain rfl : t = tLast8 := Fin.ext h49
  show (cfg8.win 8).cut (grid8.coords tLast8) ((dat8 V c).after 8 tLast8) = _
  rw [after8_8]
  exact (Memref.read_access_unit_zero (Elt F) (Pipeline.arrRef spec8 8) (funext whole8_8_off)
    (fun a => by show win8_8.index tLast8 a * win8_8.size a + S1x300.size a ≤ S1x300.size a; rw [whole8_8_off a, Nat.zero_add]) _).symm

/-- So after the region output 8's array holds the copy of the accumulator as the last point left it. -/
theorem arrAt8_8 (c : Dev nD) : (dat8 V c).arrAt 8 cfg8.N = out8_7 (accQ8 V c 49 (by decide)) :=
  (dat8 V c).arrAt_eq_of_cover 8 _ (flushed8_8 V c) fun i =>
    ⟨tLast8, (flush8_8 tLast8).mpr rfl, by
      show i ∈ ((View.whole (Pipeline.arrRef spec8 8)).slice (win8_8.rect tLast8)).set
      rw [View.set_slice_whole, Rect.mem_set_unit]
      intro a
      show win8_8.index tLast8 a * win8_8.size a ≤ (i a : Nat)
        ∧ (i a : Nat) < win8_8.index tLast8 a * win8_8.size a + win8_8.xsize (grid8.coords tLast8) a
      rw [whole8_8_off a, whole8_8_size a, Nat.zero_add]
      exact ⟨Nat.zero_le _, (i a).isLt⟩⟩

end Cert.Kernel.Hand

end
-- ==== Proof.K.RegBn9.lean ====
import proofs.«409348_j89627377533173_1_alg».proof.Proof.Gen.Kernel.Launch
import proofs.«409348_j89627377533173_1_alg».proof.Proof.Gen.Kernel.Skeleton
import proofs.«409348_j89627377533173_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

/-! # Region 9 (`cc9__bn_relu_kernel`, pipeline 9): the frame half, at any float model

A pointwise body over a grid of 25 points. Window 0 (the 2000x300 block of `z` at row block `t`) is fetched at every
point; the four row windows after it (mean, var, gamma, beta, each one row of 300) have a constant block index and are fetched once; window 5
is the output block, written back at every point. The body loads the five inputs whole, loads the output buffer (a value
it does not use), and stores one payload over the whole output buffer. So what it leaves in the output buffer is a
closed function of the five input blocks at the point, and it keeps nothing from point to point. -/

-- membership in a rectangle with a 2000-long axis recurses once per coordinate of that axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not, for any proof
    data whose array is `V`'s (`hA`) and whose body leaves the block in place (`hafter`): an unfetched point has the
    block index of the point before, and the window is uncut and never idle. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not, for any proof
    data whose array is `V`'s (`hA`) and whose body leaves the block in place (`hafter`): an unfetched point has the
    block index of the point before, and the window is uncut and never idle. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not, for any proof
    data whose array is `V`'s (`hA`) and whose body leaves the block in place (`hafter`): an unfetched point has the
    block index of the point before, and the window is uncut and never idle. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's current staging buffer holds its block at every point, fetched there or not, for any proof
    data whose array is `V`'s (`hA`) and whose body leaves the block in place (`hafter`): an unfetched point has the
    block index of the point before, and the window is uncut and never idle. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4's current staging buffer holds its block at every point, fetched there or not, for any proof
    data whose array is `V`'s (`hA`) and whose body leaves the block in place (`hafter`): an unfetched point has the
    block index of the point before, and the window is uncut and never idle. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses -/

/-- The whole 2000x300 staging buffer (the load of window 0 and the one store into window 5). -/
abbrev r9_0 : Rect S2000x300 := Rect.unit (s := S2000x300) ![0, 0] S2000x300.size inb_S2000x300_S2000x300_0_0
/-- The whole 1x300 staging buffer (the loads of the four row windows). -/
abbrev r9_1 : Rect S1x300 := Rect.unit (s := S1x300) ![0, 0] S1x300.size inb_S1x300_S1x300_0_0

/-! ## What the body leaves in the output window's buffer -/

/-- Window 5's staging buffer after the body, from the input windows' blocks `xz xm xv xg xb` (in window order: z, mean, var,
    gamma, beta): its one store as a piece. The payload takes the loads in the order the body makes them: z, var, mean,
    gamma, beta. -/
def out9_5 (xz : Vec F S2000x300 .f32) (xm xv xg xb : Vec F S1x300 .f32) : Vec F S2000x300 .f32 :=
  View.canon [⟨r9_0, k9_pay1 (View.ld xz r9_0) (View.ld xv r9_1) (View.ld xm r9_1) (View.ld xg r9_1) (View.ld xb r9_1)⟩]

/-- The one store is the whole buffer, so it covers it. -/
theorem cover9_5 (p : Vec F S2000x300 .f32) (y : S2000x300.Idx) :
    ∃ pc ∈ ([⟨r9_0, p⟩] : List (View.Piece (Elt F) S2000x300 .f32)), y ∈ pc.1.set :=
  View.cover_of_tiled [⟨r9_0, p⟩] S2000x300.size (by rfl) y

/-! ## The body's triple -/

set_option maxHeartbeats 1000000 in
/-- The kernel body on whole staging memrefs, the inputs' at read contents `xz xm xv xg xb` and the output's at anything, runs to
    the continuation holding the inputs' as they were and the output's at `out9_5` of the inputs'. -/
theorem sound_kernel9 (c : Dev nD) (E : Set ℕ) (i : grid9.Coords) (Az : Memref sig .tc .vmem S2000x300 .f32) (hAz : Az.IsWhole) (Am : Memref sig .tc .vmem S1x300 .f32) (hAm : Am.IsWhole) (Av : Memref sig .tc .vmem S1x300 .f32) (hAv : Av.IsWhole) (Ag : Memref sig .tc .vmem S1x300 .f32) (hAg : Ag.IsWhole) (Ab : Memref sig .tc .vmem S1x300 .f32) (hAb : Ab.IsWhole) (Ay : Memref sig .tc .vmem S2000x300 .f32) (hAy : Ay.IsWhole)
    (xz : Vec F S2000x300 .f32) (xm xv xg xb : Vec F S1x300 .f32) (K : PUnit → sProp 𝕄) :
    iprop(owns (c : Thread nD τ) Az fullShare xz ∗ owns (c : Thread nD τ) Am fullShare xm ∗ owns (c : Thread nD τ) Av fullShare xv ∗ owns (c : Thread nD τ) Ag fullShare xg ∗ owns (c : Thread nD τ) Ab fullShare xb
        ∗ (∃ d, owns (c : Thread nD τ) Ay fullShare d)
        ∗ (iprop(owns (c : Thread nD τ) Az fullShare xz ∗ owns (c : Thread nD τ) Am fullShare xm ∗ owns (c : Thread nD τ) Av fullShare xv ∗ owns (c : Thread nD τ) Ag fullShare xg ∗ owns (c : Thread nD τ) Ab fullShare xb
            ∗ owns (c : Thread nD τ) Ay fullShare (out9_5 xz xm xv xg xb)) -∗ K ⟨⟩))
      ⊢ wp frame (wpE (defs₀ (F := F)) Variants.none c none) E (cc9__bn_relu_kernel i Az hAz Am hAm Av hAv Ag hAg Ab hAb Ay hAy) K := by
  simp only [cc9__bn_relu_kernel_eq_skeleton]; unfold cc9__bn_relu_kernel_skel
  unfold owns
  iintro ⟨⟨%fz, %hfz, Hz⟩, ⟨%fm, %hfm, Hm⟩, ⟨%fv, %hfv, Hv⟩, ⟨%fg, %hfg, Hg⟩, ⟨%fb, %hfb, Hb⟩, ⟨%dy, %fy, -, Hy⟩, Hk⟩
  subst hfz hfm hfv hfg hfb
  sl_exec
  sl_step
  iapply Hk
  isplitl [Hz]
  · iexists fz; isplitr; · ipureintro; rfl
    iexact Hz
  isplitl [Hm]
  · iexists fm; isplitr; · ipureintro; rfl
    iexact Hm
  isplitl [Hv]
  · iexists fv; isplitr; · ipureintro; rfl
    iexact Hv
  isplitl [Hg]
  · iexists fg; isplitr; · ipureintro; rfl
    iexact Hg
  isplitl [Hb]
  · iexists fb; isplitr; · ipureintro; rfl
    iexact Hb
  iexists _; isplitr
  swap; · iexact Hy
  ipureintro
  exact View.read_writes_eq_canon _ _ _ (cover9_5 _)

/-! ## The pipeline's proof data -/

/-- The proof data of pipeline 1 on core `c`: the arrays as the region finds them (`V`); after the body at point `t` each
    input's buffer at its block and the output's at `out9_5` of the input blocks; the invariant the scoped rest and the
    generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) :
    (dat9 V c).after 5 t = out9_5 (iblk9 V c 0 t) (iblk9 V c 1 t) (iblk9 V c 2 t) (iblk9 V c 3 t) (iblk9 V c 4 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-- The invariant at the first point is the class's, -/
theorem PhiIn9 (c : Dev nD) : Pipeline.ΦA spec9 c ⊢ (dat9 V c).Φ 0 := .rfl
/-- and so is the invariant at the last. -/
theorem PhiOut9 (c : Dev nD) : (dat9 V c).Φ (Fin.last _) ⊢ Pipeline.ΦA spec9 c := .rfl

/-! ## The body obligation, at a generic point -/

/-- What the body is called with at point `t` (the windows one by one), -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any point: the inputs' memrefs hold their blocks (`before9_W`), so `sound_kernel9` applies; the invariant
    and the core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%dz, Hz⟩, ⟨%dm, Hm⟩, ⟨%dv, Hv⟩, ⟨%dg, Hg⟩, ⟨%db, Hb⟩, ⟨%dy, Hy⟩⟩
  iapply (sound_kernel9 c Set.univ _ _ _ _ _ _ _ _ _ _ _ _ _ (iblk9 V c 0 t) (iblk9 V c 1 t) (iblk9 V c 2 t) (iblk9 V c 3 t) (iblk9 V c 4 t) _)
  isplitl [Hz]; · iexact Hz
  isplitl [Hm]; · iexact Hm
  isplitl [Hv]; · iexact Hv
  isplitl [Hg]; · iexact Hg
  isplitl [Hb]; · iexact Hb
  isplitl [Hy]; · iexists _; iexact Hy
  iintro ⟨Hz, Hm, Hv, Hg, Hb, Hy⟩
  isplitl [HΦ]; · iexact HΦ
  isplitl [Ho]; · iexact Ho
  isplitl [Hz]; · iexact Hz
  isplitl [Hm]; · iexact Hm
  isplitl [Hv]; · iexact Hv
  isplitl [Hg]; · iexact Hg
  isplitl [Hb]; · iexact Hb
  iexact Hy

/-- The library's body obligation, at every point. -/
theorem body_obligation9 (c : Dev nD) : BodyObligation (dat9 (F := F) V c) (defs₀ (F := F)) Variants.none () Set.univ := fun t => by
  rw [bigSep_W9, bigSep_W9]
  exact sound_body9 V c t

end Region1

end Cert.Kernel.Hand
-- ==== Proof.K.RegPool10.lean ====
/-
  The pool region (custom_call 10): proof data for its pipeline at the contents the region is entered with,
  and the body obligation.  The body carries two scratch accumulators across the 25 grid points: both are
  zeroed at the first point, each point adds the product of the transposed one-hot of the ids block with the
  feature block (with a column of ones, for the counts), and the last point copies both to the output
  windows' staging buffers, which the pipeline writes back there only.
-/
import proofs.«409348_j89627377533173_1_alg».proof.Proof.Gen.Kernel.Launch
import proofs.«409348_j89627377533173_1_alg».proof.Proof.Gen.Kernel.Skeleton
import proofs.«409348_j89627377533173_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form over the grid -/

/-- The first `scf.if`: the point is the grid's first. -/
abbrev cond10_0 (i : grid10.Coords) : Prop :=
  (Scalar.cmpi .ne (Scalar.extui (Scalar.cmpi .eq (BitVec.ofNat 32 (i 0).val) 0#32)) 0#32) = 1#1
theorem hcond10_0 : ∀ t : Fin cfg10.N, cond10_0 (grid10.coords t) ↔ t.val % 25 = 0 :=
  (by decide +kernel : ∀ t : Fin grid10.N, cond10_0 (grid10.coords t) ↔ t.val % 25 = 0)

/-- The second: the point is the grid's last. -/
abbrev cond10_1 (i : grid10.Coords) : Prop := k10_cond2 i = 1#1
theorem hcond10_1 : ∀ t : Fin cfg10.N, cond10_1 (grid10.coords t) ↔ t.val % 25 = 24 :=
  (by decide +kernel : ∀ t : Fin grid10.N, cond10_1 (grid10.coords t) ↔ t.val % 25 = 24)

/-! ## Where the windows are idle -/

theorem liveAt10_0 : ∀ t : Fin cfg10.N, cfg10.idle 0 (grid10.coords t) = false := by decide +kernel
theorem liveAt10_1 : ∀ t : Fin cfg10.N, cfg10.idle 1 (grid10.coords t) = false := by decide +kernel
/-- Before the last point the body stores nothing into the output windows' buffers, and the pipeline does not write them back. -/
theorem idleAt10_2 : ∀ t : Fin cfg10.N, ¬cond10_1 (grid10.coords t) → cfg10.idle 2 (grid10.coords t) = true := by decide +kernel
theorem idleAt10_3 : ∀ t : Fin cfg10.N, ¬cond10_1 (grid10.coords t) → cfg10.idle 3 (grid10.coords t) = true := by decide +kernel
theorem noFlush10_2 : ∀ t : Fin cfg10.N, ¬cond10_1 (grid10.coords t) → (cfg10.win 2).flush t = false := by decide +kernel
theorem noFlush10_3 : ∀ t : Fin cfg10.N, ¬cond10_1 (grid10.coords t) → (cfg10.win 3).flush t = false := by decide +kernel
/-- At the last point it stores into both. -/
theorem liveAt10_2 : ∀ t : Fin cfg10.N, cond10_1 (grid10.coords t) → cfg10.idle 2 (grid10.coords t) = false := by decide +kernel
theorem liveAt10_3 : ∀ t : Fin cfg10.N, cond10_1 (grid10.coords t) → cfg10.idle 3 (grid10.coords t) = false := by decide +kernel

/-! ## The body's accesses: each is of a whole buffer -/

theorem off10 : (![0, 0] : Fin 2 → ℕ) = fun _ => 0 := funext fun a => by fin_cases a <;> rfl

/-- A store of the whole buffer, made last, is what the buffer then reads, whatever was stored before. -/
theorem read_store_whole10 {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ fun y => ⟨_, List.mem_cons_self, View.mem_set_unit_zero h inb y⟩).trans
    (View.canon_cons_unit_zero h inb w L)

/-- Closes "the buffer reads as …" after the run: the run's own names opened, a whole-buffer store read back as its
    payload, a whole-buffer load as the contents. -/
local macro "pool_read10" : tactic => `(tactic| (
  try sl_unfold_words
  simp only [read_store_whole10 (S := S512x300) _ _ off10, read_store_whole10 (S := S512x1) _ _ off10,
    View.readCov_unit_zero (S := S512x300) _ off10, View.readCov_unit_zero (S := S512x1) _ off10, View.readAt_eq_ld,
    View.ld_unit_zero (S := S2000x1) off10, View.ld_unit_zero (S := S2000x300) off10,
    View.ld_unit_zero (S := S512x300) off10, View.ld_unit_zero (S := S512x1) off10]))

section Kernel

variable (c : Dev nD) (E : Set ℕ) (i : grid10.Coords)
    (arg1 : Memref sig .tc .vmem S2000x300 .f32) (harg1 : arg1.IsWhole) (arg2 : Memref sig .tc .vmem S2000x1 .i32) (harg2 : arg2.IsWhole)
    (arg3 : Memref sig .tc .vmem S512x300 .f32) (harg3 : arg3.IsWhole) (arg4 : Memref sig .tc .vmem S512x1 .f32) (harg4 : arg4.IsWhole)
    (arg5 : Memref sig .tc .vmem S512x300 .f32) (harg5 : arg5.IsWhole) (arg6 : Memref sig .tc .vmem S512x1 .f32) (harg6 : arg6.IsWhole)

set_option maxHeartbeats 4000000 in
/-- The first point: both accumulators are zeroed, then added to; the output windows' buffers are not touched. -/
theorem sound_kernel10_A (hc0 : cond10_0 i) (hc1 : ¬cond10_1 i)
    (x0 : Vec F S2000x300 .f32) (x1 : Vec F S2000x1 .i32) (K : PUnit → sProp 𝕄) :
    iprop(owns (c : Thread nD τ) arg1 fullShare x0 ∗ owns (c : Thread nD τ) arg2 fullShare x1
        ∗ (∃ a, owns (c : Thread nD τ) arg5 fullShare a) ∗ (∃ n, owns (c : Thread nD τ) arg6 fullShare n)
        ∗ (iprop(owns (c : Thread nD τ) arg1 fullShare x0 ∗ owns (c : Thread nD τ) arg2 fullShare x1
            ∗ owns (c : Thread nD τ) arg5 fullShare (k10_pay4 x1 x0 k10_pay1) ∗ owns (c : Thread nD τ) arg6 fullShare (k10_pay5 x1 k10_pay2)) -∗ K ⟨⟩))
      ⊢ wp frame (wpE (defs₀ (F := F)) Variants.none c none) E (cc10__pool_kernel i arg1 harg1 arg2 harg2 arg3 harg3 arg4 harg4 arg5 harg5 arg6 harg6) K := by
  simp only [cc10__pool_kernel_eq_skeleton]; unfold cc10__pool_kernel_skel
  unfold owns
  iintro ⟨⟨%f0, %hf0, H0⟩, ⟨%f1, %hf1, H1⟩, ⟨%a, %f5, -, H5⟩, ⟨%n, %f6, -, H6⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H5]
  · iexists _; isplitr
    swap; · iexact H5
    ipureintro; pool_read10
  iexists _; isplitr
  swap; · iexact H6
  ipureintro; pool_read10

set_option maxHeartbeats 4000000 in
/-- A point that is neither the first nor the last: both accumulators are read, added to and stored back;
    the output windows' buffers are not touched. -/
theorem sound_kernel10_B (hc0 : ¬cond10_0 i) (hc1 : ¬cond10_1 i)
    (x0 : Vec F S2000x300 .f32) (x1 : Vec F S2000x1 .i32) (a : Vec F S512x300 .f32) (n : Vec F S512x1 .f32) (K : PUnit → sProp 𝕄) :
    iprop(owns (c : Thread nD τ) arg1 fullShare x0 ∗ owns (c : Thread nD τ) arg2 fullShare x1
        ∗ owns (c : Thread nD τ) arg5 fullShare a ∗ owns (c : Thread nD τ) arg6 fullShare n
        ∗ (iprop(owns (c : Thread nD τ) arg1 fullShare x0 ∗ owns (c : Thread nD τ) arg2 fullShare x1
            ∗ owns (c : Thread nD τ) arg5 fullShare (k10_pay4 x1 x0 a) ∗ owns (c : Thread nD τ) arg6 fullShare (k10_pay5 x1 n)) -∗ K ⟨⟩))
      ⊢ wp frame (wpE (defs₀ (F := F)) Variants.none c none) E (cc10__pool_kernel i arg1 harg1 arg2 harg2 arg3 harg3 arg4 harg4 arg5 harg5 arg6 harg6) K := by
  simp only [cc10__pool_kernel_eq_skeleton]; unfold cc10__pool_kernel_skel
  unfold owns
  iintro ⟨⟨%f0, %hf0, H0⟩, ⟨%f1, %hf1, H1⟩, ⟨%f5, %hf5, H5⟩, ⟨%f6, %hf6, H6⟩, Hk⟩
  subst hf0; subst hf1; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H5]
  · iexists _; isplitr
    swap; · iexact H5
    ipureintro; pool_read10
  iexists _; isplitr
  swap; · iexact H6
  ipureintro; pool_read10

set_option maxHeartbeats 4000000 in
/-- The last point (which is not the first): both accumulators are read, added to and stored back, and then copied
    whole into the output windows' buffers, whatever those held. -/
theorem sound_kernel10_C (hc0 : ¬cond10_0 i) (hc1 : cond10_1 i)
    (x0 : Vec F S2000x300 .f32) (x1 : Vec F S2000x1 .i32) (a : Vec F S512x300 .f32) (n : Vec F S512x1 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ owns (c : Thread nD τ) arg5 fullShare a ∗ owns (c : Thread nD τ) arg6 fullShare n
        ∗ (iprop(owns (c : Thread nD τ) arg1 fullShare x0 ∗ owns (c : Thread nD τ) arg2 fullShare x1
            ∗ owns (c : Thread nD τ) arg3 fullShare (k10_pay4 x1 x0 a) ∗ owns (c : Thread nD τ) arg4 fullShare (k10_pay5 x1 n)
            ∗ owns (c : Thread nD τ) arg5 fullShare (k10_pay4 x1 x0 a) ∗ owns (c : Thread nD τ) arg6 fullShare (k10_pay5 x1 n)) -∗ K ⟨⟩))
      ⊢ wp frame (wpE (defs₀ (F := F)) Variants.none c none) E (cc10__pool_kernel i arg1 harg1 arg2 harg2 arg3 harg3 arg4 harg4 arg5 harg5 arg6 harg6) K := by
  simp only [cc10__pool_kernel_eq_skeleton]; unfold cc10__pool_kernel_skel
  unfold owns
  iintro ⟨⟨%f0, %hf0, H0⟩, ⟨%f1, %hf1, H1⟩, ⟨%d3, %f3, -, H3⟩, ⟨%d4, %f4, -, H4⟩, ⟨%f5, %hf5, H5⟩, ⟨%f6, %hf6, H6⟩, Hk⟩
  subst hf0; subst hf1; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro; pool_read10
  isplitl [H4]
  · iexists _; isplitr
    swap; · iexact H4
    ipureintro; pool_read10
  isplitl [H5]
  · iexists _; isplitr
    swap; · iexact H5
    ipureintro; pool_read10
  iexists _; isplitr
  swap; · iexact H6
  ipureintro; pool_read10

end Kernel

section Region

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's current staging buffer holds its block at every point, for any proof data whose array is the
    entry contents and whose body leaves the block in place: the window is uncut and never idle. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## The accumulators, point by point -/

/-- What the two scratch accumulators hold after the body at point `n`: at the first point the zeros plus that
    point's products, afterwards what the point before left plus this point's. -/
def acc10 (c : Dev nD) : (n : ℕ) → n < cfg10.N → Vec F S512x300 .f32 × Vec F S512x1 .f32
  | 0, hn => (k10_pay4 (iblk10 V c 1 ⟨0, hn⟩) (iblk10 V c 0 ⟨0, hn⟩) k10_pay1, k10_pay5 (iblk10 V c 1 ⟨0, hn⟩) k10_pay2)
  | n + 1, hn => (k10_pay4 (iblk10 V c 1 ⟨n + 1, hn⟩) (iblk10 V c 0 ⟨n + 1, hn⟩) (acc10 c n (Nat.lt_of_succ_lt hn)).1,
      k10_pay5 (iblk10 V c 1 ⟨n + 1, hn⟩) (acc10 c n (Nat.lt_of_succ_lt hn)).2)

theorem acc10_first (c : Dev nD) (t : Fin cfg10.N) (h : t.val = 0) :
    acc10 V c t.val t.isLt = (k10_pay4 (iblk10 V c 1 t) (iblk10 V c 0 t) k10_pay1, k10_pay5 (iblk10 V c 1 t) k10_pay2) := by
  obtain ⟨n, hn⟩ := t
  cases n with
  | zero => rfl
  | succ n => exact absurd h (Nat.succ_ne_zero n)

theorem acc10_later (c : Dev nD) (t : Fin cfg10.N) (h : t.val ≠ 0) :
    acc10 V c t.val t.isLt = (k10_pay4 (iblk10 V c 1 t) (iblk10 V c 0 t) (acc10 V c (t.val - 1) (Nat.lt_of_le_of_lt (Nat.sub_le _ _) t.isLt)).1,
      k10_pay5 (iblk10 V c 1 t) (acc10 V c (t.val - 1) (Nat.lt_of_le_of_lt (Nat.sub_le _ _) t.isLt)).2) := by
  obtain ⟨n, hn⟩ := t
  cases n with
  | zero => exact absurd rfl h
  | succ n => rfl

/-! ## The region invariant -/

/-- The two scratch operands: whole scoped buffers of the call's own. -/
abbrev scM10_0 : Memref sig .tc .vmem S512x300 .f32 := Memref.whole cc10_scratch0
abbrev scM10_1 : Memref sig .tc .vmem S512x1 .f32 := Memref.whole cc10_scratch1

/-- Every other scoped buffer, unopened. -/
abbrev rest10 (c : Dev nD) : sProp 𝕄 :=
  Pipeline.scopedRestBut (Ix := Unit) (Name := ℕ) (U := UR sig nD τ) (Lvl := ℕ) (Val := Elt F) spec10 c [cc10_scratch0, cc10_scratch1]

/-- The class's invariant with the two scratch operands split out of the scoped rest, as memrefs owned at some contents. -/
theorem PhiA10_eq (c : Dev nD) :
    (Pipeline.ΦA spec10 c : sProp 𝕄)
      = iprop(iprop(iprop((∃ d, owns (c : Thread nD τ) scM10_0 fullShare d) ∗ (∃ d, owns (c : Thread nD τ) scM10_1 fullShare d)) ∗ rest10 c) ∗ (∃ r, prngReg c r)) := by
  unfold Pipeline.ΦA; rw [scopedRest10_split]; simp only [scM10_0, scM10_1, owns_whole]; try rfl

/-- The invariant before position `n`: before the first point the class's (both scratch buffers at anything); afterwards
    the two accumulators at what the point before left in them, the other scoped buffers unopened, the generator
    register at some state. -/
def Phi10 (c : Dev nD) : (n : ℕ) → n ≤ cfg10.N → sProp 𝕄
  | 0, _ => Pipeline.ΦA spec10 c
  | n + 1, hn => iprop(iprop(iprop(owns (c : Thread nD τ) scM10_0 fullShare (acc10 V c n hn).1 ∗ owns (c : Thread nD τ) scM10_1 fullShare (acc10 V c n hn).2) ∗ rest10 c) ∗ (∃ r, prngReg c r))

theorem Phi10_zero (c : Dev nD) (n : ℕ) (h : n ≤ cfg10.N) (hz : n = 0) : Phi10 V c n h = Pipeline.ΦA spec10 c := by
  subst hz; rfl

theorem Phi10_succ (c : Dev nD) (n : ℕ) (hn : n < cfg10.N) :
    Phi10 V c (n + 1) hn = iprop(iprop(iprop(owns (c : Thread nD τ) scM10_0 fullShare (acc10 V c n hn).1 ∗ owns (c : Thread nD τ) scM10_1 fullShare (acc10 V c n hn).2) ∗ rest10 c) ∗ (∃ r, prngReg c r)) := rfl

theorem Phi10_pos (c : Dev nD) (n : ℕ) (h : n ≤ cfg10.N) (hz : n ≠ 0) :
    Phi10 V c n h = iprop(iprop(iprop(owns (c : Thread nD τ) scM10_0 fullShare (acc10 V c (n - 1) (by omega)).1 ∗ owns (c : Thread nD τ) scM10_1 fullShare (acc10 V c (n - 1) (by omega)).2) ∗ rest10 c) ∗ (∃ r, prngReg c r)) := by
  cases n with
  | zero => exact absurd rfl hz
  | succ n => rfl

/-! ## The pipeline's proof data -/

/-- The proof data of the pool pipeline on core `c`: the arrays as the region finds them; after the body at point `t`
    each input's buffer at its block and each output's at the matching accumulator (consulted at the last point only: before it
    the output windows are idle and not written back); the invariant `Phi10`; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => (acc10 V c t.val t.isLt).1
    | ⟨3, _⟩ => (acc10 V c t.val t.isLt).2
  Φ t := Phi10 V c t.val (Nat.le_of_lt_succ t.isLt)
  q _ := fullShare
  owed _ := 0

/-- The proof data's arrays are the region-entry contents. -/
theorem A_eq10 (c : Dev nD) (w : Fin cfg10.W) : (dat10 V c).A w = V c (Pipeline.arrRef spec10 w) := by
  dsimp only [dat10]

theorem Phi10_castSucc (c : Dev nD) (t : Fin cfg10.N) :
    (dat10 V c).Φ t.castSucc = Phi10 V c t.val (Nat.le_of_lt t.isLt) := by
  dsimp only [dat10]; simp only [Fin.coe_castSucc]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = (acc10 V c t.val t.isLt).1 := by dsimp only [dat10]
theorem after10_3 (c : Dev nD) (t : Fin cfg10.N) : (dat10 V c).after 3 t = (acc10 V c t.val t.isLt).2 := by dsimp only [dat10]

/-- Each input's current staging buffer holds its block at every point. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t)

set_option maxHeartbeats 4800000 in
/-- The body at any point: the inputs' memrefs hold their blocks; the closed forms say which of the three cases the
    point is in; the invariant hands the body the two accumulators at what the point before left (at anything at
    the first point) and takes them back at this point's contents; before the last point the output windows'
    buffers pass through untouched, at the last they are left at the accumulators; the core owes nothing throughout. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).owesAt () t.succ = (dat10 V c).owesAt () t.castSucc from rfl]
  rw [show (dat10 V c).Φ t.succ = Phi10 V c (t.val + 1) t.isLt from rfl, Phi10_succ]
  rw [show (dat10 V c).leavesExact 0 t = owns (c : Thread nD τ) (st10_0 t) fullShare ((dat10 V c).after 0 t) from by
    unfold Dat.leavesExact; rw [liveAt10_0 t], after10_0]
  rw [show (dat10 V c).leavesExact 1 t = owns (c : Thread nD τ) (st10_1 t) fullShare ((dat10 V c).after 1 t) from by
    unfold Dat.leavesExact; rw [liveAt10_1 t], after10_1]
  have hN : t.val < 25 := lt_of_lt_of_eq t.isLt (show cfg10.N = 25 from N_10)
  by_cases h1 : t.val % 25 = 24
  · have hz : t.val ≠ 0 := by omega
    have h0 : ¬t.val % 25 = 0 := by omega
    rw [show (dat10 V c).leavesExact 2 t = owns (c : Thread nD τ) (st10_2 t) fullShare ((dat10 V c).after 2 t) from by
      unfold Dat.leavesExact; rw [liveAt10_2 t ((hcond10_1 t).mpr h1)], after10_2]
    rw [show (dat10 V c).leavesExact 3 t = owns (c : Thread nD τ) (st10_3 t) fullShare ((dat10 V c).after 3 t) from by
      unfold Dat.leavesExact; rw [liveAt10_3 t ((hcond10_1 t).mpr h1)], after10_3]
    rw [acc10_later V c t hz]
    rw [Phi10_castSucc V c t, Phi10_pos V c _ _ hz]
    iintro ⟨⟨⟨⟨HS0, HS1⟩, HR⟩, Hg⟩, Ho, ⟨%d0, H0⟩, ⟨%d1, H1⟩, ⟨%d2, H2⟩, ⟨%d3, H3⟩⟩
    iapply (sound_kernel10_C c Set.univ (grid10.coords t) _ _ _ _ _ _ _ _ _ _ _ _ (fun h => h0 ((hcond10_0 t).mp h)) ((hcond10_1 t).mpr h1)
      (iblk10 V c 0 t) (iblk10 V c 1 t) _ _ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, H2, H3, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    iexact H3
  · rw [Dat.leavesExact_idle (dat10 V c) 2 t (idleAt10_2 t (fun h => h1 ((hcond10_1 t).mp h))) (noFlush10_2 t (fun h => h1 ((hcond10_1 t).mp h)))]
    rw [Dat.leavesExact_idle (dat10 V c) 3 t (idleAt10_3 t (fun h => h1 ((hcond10_1 t).mp h))) (noFlush10_3 t (fun h => h1 ((hcond10_1 t).mp h)))]
    by_cases hz : t.val = 0
    · have h0 : t.val % 25 = 0 := by omega
      rw [acc10_first V c t hz]
      rw [Phi10_castSucc V c t, Phi10_zero V c _ _ hz, PhiA10_eq]
      iintro ⟨⟨⟨⟨HS0, HS1⟩, HR⟩, Hg⟩, Ho, ⟨%d0, H0⟩, ⟨%d1, H1⟩, H2, H3⟩
      iapply (sound_kernel10_A c Set.univ (grid10.coords t) _ _ _ _ _ _ _ _ _ _ _ _ ((hcond10_0 t).mpr h0) (fun h => h1 ((hcond10_1 t).mp h))
        (iblk10 V c 0 t) (iblk10 V c 1 t) _)
      isplitl [H0]; · iexact H0
      isplitl [H1]; · iexact H1
      isplitl [HS0]; · iexact HS0
      isplitl [HS1]; · iexact HS1
      iintro ⟨H0, H1, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      iexact H3
    · have h0 : ¬t.val % 25 = 0 := by omega
      rw [acc10_later V c t hz]
      rw [Phi10_castSucc V c t, Phi10_pos V c _ _ hz]
      iintro ⟨⟨⟨⟨HS0, HS1⟩, HR⟩, Hg⟩, Ho, ⟨%d0, H0⟩, ⟨%d1, H1⟩, H2, H3⟩
      iapply (sound_kernel10_B c Set.univ (grid10.coords t) _ _ _ _ _ _ _ _ _ _ _ _ (fun h => h0 ((hcond10_0 t).mp h)) (fun h => h1 ((hcond10_1 t).mp h))
        (iblk10 V c 0 t) (iblk10 V c 1 t) _ _ _)
      isplitl [H0]; · iexact H0
      isplitl [H1]; · iexact H1
      isplitl [HS0]; · iexact HS0
      isplitl [HS1]; · iexact HS1
      iintro ⟨H0, H1, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      iexact H3

/-- The library's body obligation, at every point. -/
theorem body_obligation10 (c : Dev nD) : BodyObligation (dat10 (F := F) V c) (defs₀ (F := F)) Variants.none () Set.univ := fun t => by
  rw [bigSep_W10, bigSep_W10]
  exact sound_body10 V c t

/-- What the launch hands the region is the invariant before the first point. -/
theorem PhiIn10 (c : Dev nD) : Pipeline.ΦA spec10 c ⊢ (dat10 V c).Φ 0 := by
  rw [show (dat10 V c).Φ 0 = Phi10 V c 0 (Nat.zero_le _) from rfl, Phi10_zero V c 0 _ rfl]
  try exact Idealize.SL.BI.Entails.refl _

/-- After the last point the invariant gives the class's back: the accumulators' named contents are forgotten. -/
theorem PhiOut10 (c : Dev nD) : (dat10 V c).Φ (Fin.last _) ⊢ Pipeline.ΦA spec10 c := by
  have ht : (Fin.last cfg10.N).val ≠ 0 := by rw [Fin.val_last]; have : cfg10.N = 25 := N_10; omega
  rw [show (dat10 V c).Φ (Fin.last cfg10.N) = Phi10 V c (Fin.last cfg10.N).val (Nat.le_of_lt_succ (Fin.last cfg10.N).isLt) from rfl,
    Phi10_pos V c _ _ ht, PhiA10_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

end Region

end Cert.Kernel.Hand

end
-- ==== Proof.K.RunDefs.lean ====
import proofs.«409348_j89627377533173_1_alg».proof.Proof.K.RegMlp0
import proofs.«409348_j89627377533173_1_alg».proof.Proof.K.RegBn1
import proofs.«409348_j89627377533173_1_alg».proof.Proof.K.RegMlp2
import proofs.«409348_j89627377533173_1_alg».proof.Proof.K.RegBn3
import proofs.«409348_j89627377533173_1_alg».proof.Proof.K.RegMlp4
import proofs.«409348_j89627377533173_1_alg».proof.Proof.K.RegBn5
import proofs.«409348_j89627377533173_1_alg».proof.Proof.K.RegMlp6
import proofs.«409348_j89627377533173_1_alg».proof.Proof.K.RegBn7
import proofs.«409348_j89627377533173_1_alg».proof.Proof.K.RegMlp8
import proofs.«409348_j89627377533173_1_alg».proof.Proof.K.RegBn9
import proofs.«409348_j89627377533173_1_alg».proof.Proof.K.RegPool10

-- decided memberships and the launch kit's enumerations over 501 references recurse past the default depth
set_option maxRecDepth 2516

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ
variable (m : (ℓ : Loc nD τ sig) → Buf (Elt F) ℓ)

/-! ## The buffers' contents at every boundary of @main, the regions' results named

`W0` the launch memory; a host stretch `StableHlo.after` its operations; a region its output arrays at what the pipeline's
write-backs leave (`Dat.arrAt … N` of its proof data at the contents it is entered from), every other buffer as entered. -/

/-- Core `c`'s unscoped buffers at launch. -/
abbrev W0 (c : Dev nD) : Valuation τ sig (Elt F) := fun b => m (c, b)
/-- After the host stretch `hostOps0`. -/
def W1 (c : Dev nD) : Valuation τ sig (Elt F) := StableHlo.after hostOps0 (W0 m c)
theorem W1_def (c : Dev nD) : W1 m c = StableHlo.after hostOps0 (W0 m c) := rfl
/-- Region 0's entry contents read at the TensorCore's references (what its proof data take). -/
abbrev ent0 : (c : Dev nD) → (b : Ref sig .tc) → Buf (Elt F) ((c : Thread nD τ).loc b) := fun c b => W1 m c b
/-- After region 0: its output arrays at what the pipeline's write-backs leave, every other buffer as entered. -/
def W2 (c : Dev nD) : Valuation τ sig (Elt F) :=
  Function.update (Function.update (Function.update (W1 m c) main_v49_0 ((dat0 (ent0 m) c).arrAt 6 cfg0.N)) main_v49_1 ((dat0 (ent0 m) c).arrAt 7 cfg0.N)) main_v49_2 ((dat0 (ent0 m) c).arrAt 8 cfg0.N)
theorem W2_def (c : Dev nD) : W2 m c =
  Function.update (Function.update (Function.update (W1 m c) main_v49_0 ((dat0 (ent0 m) c).arrAt 6 cfg0.N)) main_v49_1 ((dat0 (ent0 m) c).arrAt 7 cfg0.N)) main_v49_2 ((dat0 (ent0 m) c).arrAt 8 cfg0.N) := rfl
/-- Region 0's exit contents read at the TensorCore's references. -/
abbrev ext0 : (c : Dev nD) → (b : Ref sig .tc) → Buf (Elt F) ((c : Thread nD τ).loc b) := fun c b => W2 m c b
/-- After the host stretch `hostOps1`. -/
def W3 (c : Dev nD) : Valuation τ sig (Elt F) := StableHlo.after hostOps1 (W2 m c)
theorem W3_def (c : Dev nD) : W3 m c = StableHlo.after hostOps1 (W2 m c) := rfl
/-- Region 1's entry contents read at the TensorCore's references (what its proof data take). -/
abbrev ent1 : (c : Dev nD) → (b : Ref sig .tc) → Buf (Elt F) ((c : Thread nD τ).loc b) := fun c b => W3 m c b
/-- After region 1: its output arrays at what the pipeline's write-backs leave, every other buffer as entered. -/
def W4 (c : Dev nD) : Valuation τ sig (Elt F) :=
  Function.update (W3 m c) main_v68 ((dat1 (ent1 m) c).arrAt 5 cfg1.N)
theorem W4_def (c : Dev nD) : W4 m c =
  Function.update (W3 m c) main_v68 ((dat1 (ent1 m) c).arrAt 5 cfg1.N) := rfl
/-- Region 1's exit contents read at the TensorCore's references. -/
abbrev ext1 : (c : Dev nD) → (b : Ref sig .tc) → Buf (Elt F) ((c : Thread nD τ).loc b) := fun c b => W4 m c b
/-- After the host stretch `hostOps2`. -/
def W5 (c : Dev nD) : Valuation τ sig (Elt F) := StableHlo.after hostOps2 (W4 m c)
theorem W5_def (c : Dev nD) : W5 m c = StableHlo.after hostOps2 (W4 m c) := rfl
/-- Region 2's entry contents read at the TensorCore's references (what its proof data take). -/
abbrev ent2 : (c : Dev nD) → (b : Ref sig .tc) → Buf (Elt F) ((c : Thread nD τ).loc b) := fun c b => W5 m c b
/-- After region 2: its output arrays at what the pipeline's write-backs leave, every other buffer as entered. -/
def W6 (c : Dev nD) : Valuation τ sig (Elt F) :=
  Function.update (Function.update (Function.update (W5 m c) main_v109_0 ((dat2 (ent2 m) c).arrAt 6 cfg2.N)) main_v109_1 ((dat2 (ent2 m) c).arrAt 7 cfg2.N)) main_v109_2 ((dat2 (ent2 m) c).arrAt 8 cfg2.N)
theorem W6_def (c : Dev nD) : W6 m c =
  Function.update (Function.update (Function.update (W5 m c) main_v109_0 ((dat2 (ent2 m) c).arrAt 6 cfg2.N)) main_v109_1 ((dat2 (ent2 m) c).arrAt 7 cfg2.N)) main_v109_2 ((dat2 (ent2 m) c).arrAt 8 cfg2.N) := rfl
/-- Region 2's exit contents read at the TensorCore's references. -/
abbrev ext2 : (c : Dev nD) → (b : Ref sig .tc) → Buf (Elt F) ((c : Thread nD τ).loc b) := fun c b => W6 m c b
/-- After the host stretch `hostOps3`. -/
def W7 (c : Dev nD) : Valuation τ sig (Elt F) := StableHlo.after hostOps3 (W6 m c)
theorem W7_def (c : Dev nD) : W7 m c = StableHlo.after hostOps3 (W6 m c) := rfl
/-- Region 3's entry contents read at the TensorCore's references (what its proof data take). -/
abbrev ent3 : (c : Dev nD) → (b : Ref sig .tc) → Buf (Elt F) ((c : Thread nD τ).loc b) := fun c b => W7 m c b
/-- After region 3: its output arrays at what the pipeline's write-backs leave, every other buffer as entered. -/
def W8 (c : Dev nD) : Valuation τ sig (Elt F) :=
  Function.update (W7 m c) main_v128 ((dat3 (ent3 m) c).arrAt 5 cfg3.N)
theorem W8_def (c : Dev nD) : W8 m c =
  Function.update (W7 m c) main_v128 ((dat3 (ent3 m) c).arrAt 5 cfg3.N) := rfl
/-- Region 3's exit contents read at the TensorCore's references. -/
abbrev ext3 : (c : Dev nD) → (b : Ref sig .tc) → Buf (Elt F) ((c : Thread nD τ).loc b) := fun c b => W8 m c b
/-- After the host stretch `hostOps4`. -/
def W9 (c : Dev nD) : Valuation τ sig (Elt F) := StableHlo.after hostOps4 (W8 m c)
theorem W9_def (c : Dev nD) : W9 m c = StableHlo.after hostOps4 (W8 m c) := rfl
/-- Region 4's entry contents read at the TensorCore's references (what its proof data take). -/
abbrev ent4 : (c : Dev nD) → (b : Ref sig .tc) → Buf (Elt F) ((c : Thread nD τ).loc b) := fun c b => W9 m c b
/-- After region 4: its output arrays at what the pipeline's write-backs leave, every other buffer as entered. -/
def W10 (c : Dev nD) : Valuation τ sig (Elt F) :=
  Function.update (Function.update (Function.update (W9 m c) main_v169_0 ((dat4 (ent4 m) c).arrAt 6 cfg4.N)) main_v169_1 ((dat4 (ent4 m) c).arrAt 7 cfg4.N)) main_v169_2 ((dat4 (ent4 m) c).arrAt 8 cfg4.N)
theorem W10_def (c : Dev nD) : W10 m c =
  Function.update (Function.update (Function.update (W9 m c) main_v169_0 ((dat4 (ent4 m) c).arrAt 6 cfg4.N)) main_v169_1 ((dat4 (ent4 m) c).arrAt 7 cfg4.N)) main_v169_2 ((dat4 (ent4 m) c).arrAt 8 cfg4.N) := rfl
/-- Region 4's exit contents read at the TensorCore's references. -/
abbrev ext4 : (c : Dev nD) → (b : Ref sig .tc) → Buf (Elt F) ((c : Thread nD τ).loc b) := fun c b => W10 m c b
/-- After the host stretch `hostOps5`. -/
def W11 (c : Dev nD) : Valuation τ sig (Elt F) := StableHlo.after hostOps5 (W10 m c)
theorem W11_def (c : Dev nD) : W11 m c = StableHlo.after hostOps5 (W10 m c) := rfl
/-- Region 5's entry contents read at the TensorCore's references (what its proof data take). -/
abbrev ent5 : (c : Dev nD) → (b : Ref sig .tc) → Buf (Elt F) ((c : Thread nD τ).loc b) := fun c b => W11 m c b
/-- After region 5: its output arrays at what the pipeline's write-backs leave, every other buffer as entered. -/
def W12 (c : Dev nD) : Valuation τ sig (Elt F) :=
  Function.update (W11 m c) main_v188 ((dat5 (ent5 m) c).arrAt 5 cfg5.N)
theorem W12_def (c : Dev nD) : W12 m c =
  Function.update (W11 m c) main_v188 ((dat5 (ent5 m) c).arrAt 5 cfg5.N) := rfl
/-- Region 5's exit contents read at the TensorCore's references. -/
abbrev ext5 : (c : Dev nD) → (b : Ref sig .tc) → Buf (Elt F) ((c : Thread nD τ).loc b) := fun c b => W12 m c b
/-- After the host stretch `hostOps6`. -/
def W13 (c : Dev nD) : Valuation τ sig (Elt F) := StableHlo.after hostOps6 (W12 m c)
theorem W13_def (c : Dev nD) : W13 m c = StableHlo.after hostOps6 (W12 m c) := rfl
/-- Region 6's entry contents read at the TensorCore's references (what its proof data take). -/
abbrev ent6 : (c : Dev nD) → (b : Ref sig .tc) → Buf (Elt F) ((c : Thread nD τ).loc b) := fun c b => W13 m c b
/-- After region 6: its output arrays at what the pipeline's write-backs leave, every other buffer as entered. -/
def W14 (c : Dev nD) : Valuation τ sig (Elt F) :=
  Function.update (Function.update (Function.update (W13 m c) main_v229_0 ((dat6 (ent6 m) c).arrAt 6 cfg6.N)) main_v229_1 ((dat6 (ent6 m) c).arrAt 7 cfg6.N)) main_v229_2 ((dat6 (ent6 m) c).arrAt 8 cfg6.N)
theorem W14_def (c : Dev nD) : W14 m c =
  Function.update (Function.update (Function.update (W13 m c) main_v229_0 ((dat6 (ent6 m) c).arrAt 6 cfg6.N)) main_v229_1 ((dat6 (ent6 m) c).arrAt 7 cfg6.N)) main_v229_2 ((dat6 (ent6 m) c).arrAt 8 cfg6.N) := rfl
/-- Region 6's exit contents read at the TensorCore's references. -/
abbrev ext6 : (c : Dev nD) → (b : Ref sig .tc) → Buf (Elt F) ((c : Thread nD τ).loc b) := fun c b => W14 m c b
/-- After the host stretch `hostOps7`. -/
def W15 (c : Dev nD) : Valuation τ sig (Elt F) := StableHlo.after hostOps7 (W14 m c)
theorem W15_def (c : Dev nD) : W15 m c = StableHlo.after hostOps7 (W14 m c) := rfl
/-- Region 7's entry contents read at the TensorCore's references (what its proof data take). -/
abbrev ent7 : (c : Dev nD) → (b : Ref sig .tc) → Buf (Elt F) ((c : Thread nD τ).loc b) := fun c b => W15 m c b
/-- After region 7: its output arrays at what the pipeline's write-backs leave, every other buffer as entered. -/
def W16 (c : Dev nD) : Valuation τ sig (Elt F) :=
  Function.update (W15 m c) main_v248 ((dat7 (ent7 m) c).arrAt 5 cfg7.N)
theorem W16_def (c : Dev nD) : W16 m c =
  Function.update (W15 m c) main_v248 ((dat7 (ent7 m) c).arrAt 5 cfg7.N) := rfl
/-- Region 7's exit contents read at the TensorCore's references. -/
abbrev ext7 : (c : Dev nD) → (b : Ref sig .tc) → Buf (Elt F) ((c : Thread nD τ).loc b) := fun c b => W16 m c b
/-- After the host stretch `hostOps8`. -/
def W17 (c : Dev nD) : Valuation τ sig (Elt F) := StableHlo.after hostOps8 (W16 m c)
theorem W17_def (c : Dev nD) : W17 m c = StableHlo.after hostOps8 (W16 m c) := rfl
/-- Region 8's entry contents read at the TensorCore's references (what its proof data take). -/
abbrev ent8 : (c : Dev nD) → (b : Ref sig .tc) → Buf (Elt F) ((c : Thread nD τ).loc b) := fun c b => W17 m c b
/-- After region 8: its output arrays at what the pipeline's write-backs leave, every other buffer as entered. -/
def W18 (c : Dev nD) : Valuation τ sig (Elt F) :=
  Function.update (Function.update (Function.update (W17 m c) main_v289_0 ((dat8 (ent8 m) c).arrAt 6 cfg8.N)) main_v289_1 ((dat8 (ent8 m) c).arrAt 7 cfg8.N)) main_v289_2 ((dat8 (ent8 m) c).arrAt 8 cfg8.N)
theorem W18_def (c : Dev nD) : W18 m c =
  Function.update (Function.update (Function.update (W17 m c) main_v289_0 ((dat8 (ent8 m) c).arrAt 6 cfg8.N)) main_v289_1 ((dat8 (ent8 m) c).arrAt 7 cfg8.N)) main_v289_2 ((dat8 (ent8 m) c).arrAt 8 cfg8.N) := rfl
/-- Region 8's exit contents read at the TensorCore's references. -/
abbrev ext8 : (c : Dev nD) → (b : Ref sig .tc) → Buf (Elt F) ((c : Thread nD τ).loc b) := fun c b => W18 m c b
/-- After the host stretch `hostOps9`. -/
def W19 (c : Dev nD) : Valuation τ sig (Elt F) := StableHlo.after hostOps9 (W18 m c)
theorem W19_def (c : Dev nD) : W19 m c = StableHlo.after hostOps9 (W18 m c) := rfl
/-- Region 9's entry contents read at the TensorCore's references (what its proof data take). -/
abbrev ent9 : (c : Dev nD) → (b : Ref sig .tc) → Buf (Elt F) ((c : Thread nD τ).loc b) := fun c b => W19 m c b
/-- After region 9: its output arrays at what the pipeline's write-backs leave, every other buffer as entered. -/
def W20 (c : Dev nD) : Valuation τ sig (Elt F) :=
  Function.update (W19 m c) main_v308 ((dat9 (ent9 m) c).arrAt 5 cfg9.N)
theorem W20_def (c : Dev nD) : W20 m c =
  Function.update (W19 m c) main_v308 ((dat9 (ent9 m) c).arrAt 5 cfg9.N) := rfl
/-- Region 9's exit contents read at the TensorCore's references. -/
abbrev ext9 : (c : Dev nD) → (b : Ref sig .tc) → Buf (Elt F) ((c : Thread nD τ).loc b) := fun c b => W20 m c b
/-- Region 10's entry contents read at the TensorCore's references (what its proof data take). -/
abbrev ent10 : (c : Dev nD) → (b : Ref sig .tc) → Buf (Elt F) ((c : Thread nD τ).loc b) := fun c b => W20 m c b
/-- After region 10: its output arrays at what the pipeline's write-backs leave, every other buffer as entered. -/
def W21 (c : Dev nD) : Valuation τ sig (Elt F) :=
  Function.update (Function.update (W20 m c) main_v309_0 ((dat10 (ent10 m) c).arrAt 2 cfg10.N)) main_v309_1 ((dat10 (ent10 m) c).arrAt 3 cfg10.N)
theorem W21_def (c : Dev nD) : W21 m c =
  Function.update (Function.update (W20 m c) main_v309_0 ((dat10 (ent10 m) c).arrAt 2 cfg10.N)) main_v309_1 ((dat10 (ent10 m) c).arrAt 3 cfg10.N) := rfl
/-- Region 10's exit contents read at the TensorCore's references. -/
abbrev ext10 : (c : Dev nD) → (b : Ref sig .tc) → Buf (Elt F) ((c : Thread nD τ).loc b) := fun c b => W21 m c b
/-- After the host stretch `hostOps11`. -/
def W22 (c : Dev nD) : Valuation τ sig (Elt F) := StableHlo.after hostOps11 (W21 m c)
theorem W22_def (c : Dev nD) : W22 m c = StableHlo.after hostOps11 (W21 m c) := rfl

/-! ## Reading the chain: a region's outputs, and every other buffer as the region found it -/
/-- Region 0's output window 6, `main_v49_0`, after the region. -/
theorem W2_v49_0 (c : Dev nD) : W2 m c main_v49_0 = (dat0 (ent0 m) c).arrAt 6 cfg0.N := by
  unfold W2; rw [Function.update_of_ne (StableHlo.devRef_ne_of_ne (by decide : main_v49_0 ≠ main_v49_2) : (Proc.devRef .tc main_v49_0 : DevRef τ sig) ≠ Proc.devRef .tc main_v49_2), Function.update_of_ne (StableHlo.devRef_ne_of_ne (by decide : main_v49_0 ≠ main_v49_1) : (Proc.devRef .tc main_v49_0 : DevRef τ sig) ≠ Proc.devRef .tc main_v49_1), Function.update_self]
/-- Region 0's output window 7, `main_v49_1`, after the region. -/
theorem W2_v49_1 (c : Dev nD) : W2 m c main_v49_1 = (dat0 (ent0 m) c).arrAt 7 cfg0.N := by
  unfold W2; rw [Function.update_of_ne (StableHlo.devRef_ne_of_ne (by decide : main_v49_1 ≠ main_v49_2) : (Proc.devRef .tc main_v49_1 : DevRef τ sig) ≠ Proc.devRef .tc main_v49_2), Function.update_self]
/-- Region 0's output window 8, `main_v49_2`, after the region. -/
theorem W2_v49_2 (c : Dev nD) : W2 m c main_v49_2 = (dat0 (ent0 m) c).arrAt 8 cfg0.N := by
  unfold W2; rw [Function.update_self]
/-- Region 0 changes no other buffer. -/
theorem W2_of_ne (c : Dev nD) (b : Ref sig .tc) (h0 : b ≠ main_v49_0) (h1 : b ≠ main_v49_1) (h2 : b ≠ main_v49_2) : W2 m c b = W1 m c b := by
  unfold W2; rw [Function.update_of_ne (StableHlo.devRef_ne_of_ne h2 : (Proc.devRef .tc b : DevRef τ sig) ≠ Proc.devRef .tc main_v49_2), Function.update_of_ne (StableHlo.devRef_ne_of_ne h1 : (Proc.devRef .tc b : DevRef τ sig) ≠ Proc.devRef .tc main_v49_1), Function.update_of_ne (StableHlo.devRef_ne_of_ne h0 : (Proc.devRef .tc b : DevRef τ sig) ≠ Proc.devRef .tc main_v49_0)]
/-- Region 1's output window 5, `main_v68`, after the region. -/
theorem W4_v68 (c : Dev nD) : W4 m c main_v68 = (dat1 (ent1 m) c).arrAt 5 cfg1.N := by
  unfold W4; rw [Function.update_self]
/-- Region 1 changes no other buffer. -/
theorem W4_of_ne (c : Dev nD) (b : Ref sig .tc) (h0 : b ≠ main_v68) : W4 m c b = W3 m c b := by
  unfold W4; rw [Function.update_of_ne (StableHlo.devRef_ne_of_ne h0 : (Proc.devRef .tc b : DevRef τ sig) ≠ Proc.devRef .tc main_v68)]
/-- Region 2's output window 6, `main_v109_0`, after the region. -/
theorem W6_v109_0 (c : Dev nD) : W6 m c main_v109_0 = (dat2 (ent2 m) c).arrAt 6 cfg2.N := by
  unfold W6; rw [Function.update_of_ne (StableHlo.devRef_ne_of_ne (by decide : main_v109_0 ≠ main_v109_2) : (Proc.devRef .tc main_v109_0 : DevRef τ sig) ≠ Proc.devRef .tc main_v109_2), Function.update_of_ne (StableHlo.devRef_ne_of_ne (by decide : main_v109_0 ≠ main_v109_1) : (Proc.devRef .tc main_v109_0 : DevRef τ sig) ≠ Proc.devRef .tc main_v109_1), Function.update_self]
/-- Region 2's output window 7, `main_v109_1`, after the region. -/
theorem W6_v109_1 (c : Dev nD) : W6 m c main_v109_1 = (dat2 (ent2 m) c).arrAt 7 cfg2.N := by
  unfold W6; rw [Function.update_of_ne (StableHlo.devRef_ne_of_ne (by decide : main_v109_1 ≠ main_v109_2) : (Proc.devRef .tc main_v109_1 : DevRef τ sig) ≠ Proc.devRef .tc main_v109_2), Function.update_self]
/-- Region 2's output window 8, `main_v109_2`, after the region. -/
theorem W6_v109_2 (c : Dev nD) : W6 m c main_v109_2 = (dat2 (ent2 m) c).arrAt 8 cfg2.N := by
  unfold W6; rw [Function.update_self]
/-- Region 2 changes no other buffer. -/
theorem W6_of_ne (c : Dev nD) (b : Ref sig .tc) (h0 : b ≠ main_v109_0) (h1 : b ≠ main_v109_1) (h2 : b ≠ main_v109_2) : W6 m c b = W5 m c b := by
  unfold W6; rw [Function.update_of_ne (StableHlo.devRef_ne_of_ne h2 : (Proc.devRef .tc b : DevRef τ sig) ≠ Proc.devRef .tc main_v109_2), Function.update_of_ne (StableHlo.devRef_ne_of_ne h1 : (Proc.devRef .tc b : DevRef τ sig) ≠ Proc.devRef .tc main_v109_1), Function.update_of_ne (StableHlo.devRef_ne_of_ne h0 : (Proc.devRef .tc b : DevRef τ sig) ≠ Proc.devRef .tc main_v109_0)]
/-- Region 3's output window 5, `main_v128`, after the region. -/
theorem W8_v128 (c : Dev nD) : W8 m c main_v128 = (dat3 (ent3 m) c).arrAt 5 cfg3.N := by
  unfold W8; rw [Function.update_self]
/-- Region 3 changes no other buffer. -/
theorem W8_of_ne (c : Dev nD) (b : Ref sig .tc) (h0 : b ≠ main_v128) : W8 m c b = W7 m c b := by
  unfold W8; rw [Function.update_of_ne (StableHlo.devRef_ne_of_ne h0 : (Proc.devRef .tc b : DevRef τ sig) ≠ Proc.devRef .tc main_v128)]
/-- Region 4's output window 6, `main_v169_0`, after the region. -/
theorem W10_v169_0 (c : Dev nD) : W10 m c main_v169_0 = (dat4 (ent4 m) c).arrAt 6 cfg4.N := by
  unfold W10; rw [Function.update_of_ne (StableHlo.devRef_ne_of_ne (by decide : main_v169_0 ≠ main_v169_2) : (Proc.devRef .tc main_v169_0 : DevRef τ sig) ≠ Proc.devRef .tc main_v169_2), Function.update_of_ne (StableHlo.devRef_ne_of_ne (by decide : main_v169_0 ≠ main_v169_1) : (Proc.devRef .tc main_v169_0 : DevRef τ sig) ≠ Proc.devRef .tc main_v169_1), Function.update_self]
/-- Region 4's output window 7, `main_v169_1`, after the region. -/
theorem W10_v169_1 (c : Dev nD) : W10 m c main_v169_1 = (dat4 (ent4 m) c).arrAt 7 cfg4.N := by
  unfold W10; rw [Function.update_of_ne (StableHlo.devRef_ne_of_ne (by decide : main_v169_1 ≠ main_v169_2) : (Proc.devRef .tc main_v169_1 : DevRef τ sig) ≠ Proc.devRef .tc main_v169_2), Function.update_self]
/-- Region 4's output window 8, `main_v169_2`, after the region. -/
theorem W10_v169_2 (c : Dev nD) : W10 m c main_v169_2 = (dat4 (ent4 m) c).arrAt 8 cfg4.N := by
  unfold W10; rw [Function.update_self]
/-- Region 4 changes no other buffer. -/
theorem W10_of_ne (c : Dev nD) (b : Ref sig .tc) (h0 : b ≠ main_v169_0) (h1 : b ≠ main_v169_1) (h2 : b ≠ main_v169_2) : W10 m c b = W9 m c b := by
  unfold W10; rw [Function.update_of_ne (StableHlo.devRef_ne_of_ne h2 : (Proc.devRef .tc b : DevRef τ sig) ≠ Proc.devRef .tc main_v169_2), Function.update_of_ne (StableHlo.devRef_ne_of_ne h1 : (Proc.devRef .tc b : DevRef τ sig) ≠ Proc.devRef .tc main_v169_1), Function.update_of_ne (StableHlo.devRef_ne_of_ne h0 : (Proc.devRef .tc b : DevRef τ sig) ≠ Proc.devRef .tc main_v169_0)]
/-- Region 5's output window 5, `main_v188`, after the region. -/
theorem W12_v188 (c : Dev nD) : W12 m c main_v188 = (dat5 (ent5 m) c).arrAt 5 cfg5.N := by
  unfold W12; rw [Function.update_self]
/-- Region 5 changes no other buffer. -/
theorem W12_of_ne (c : Dev nD) (b : Ref sig .tc) (h0 : b ≠ main_v188) : W12 m c b = W11 m c b := by
  unfold W12; rw [Function.update_of_ne (StableHlo.devRef_ne_of_ne h0 : (Proc.devRef .tc b : DevRef τ sig) ≠ Proc.devRef .tc main_v188)]
/-- Region 6's output window 6, `main_v229_0`, after the region. -/
theorem W14_v229_0 (c : Dev nD) : W14 m c main_v229_0 = (dat6 (ent6 m) c).arrAt 6 cfg6.N := by
  unfold W14; rw [Function.update_of_ne (StableHlo.devRef_ne_of_ne (by decide : main_v229_0 ≠ main_v229_2) : (Proc.devRef .tc main_v229_0 : DevRef τ sig) ≠ Proc.devRef .tc main_v229_2), Function.update_of_ne (StableHlo.devRef_ne_of_ne (by decide : main_v229_0 ≠ main_v229_1) : (Proc.devRef .tc main_v229_0 : DevRef τ sig) ≠ Proc.devRef .tc main_v229_1), Function.update_self]
/-- Region 6's output window 7, `main_v229_1`, after the region. -/
theorem W14_v229_1 (c : Dev nD) : W14 m c main_v229_1 = (dat6 (ent6 m) c).arrAt 7 cfg6.N := by
  unfold W14; rw [Function.update_of_ne (StableHlo.devRef_ne_of_ne (by decide : main_v229_1 ≠ main_v229_2) : (Proc.devRef .tc main_v229_1 : DevRef τ sig) ≠ Proc.devRef .tc main_v229_2), Function.update_self]
/-- Region 6's output window 8, `main_v229_2`, after the region. -/
theorem W14_v229_2 (c : Dev nD) : W14 m c main_v229_2 = (dat6 (ent6 m) c).arrAt 8 cfg6.N := by
  unfold W14; rw [Function.update_self]
/-- Region 6 changes no other buffer. -/
theorem W14_of_ne (c : Dev nD) (b : Ref sig .tc) (h0 : b ≠ main_v229_0) (h1 : b ≠ main_v229_1) (h2 : b ≠ main_v229_2) : W14 m c b = W13 m c b := by
  unfold W14; rw [Function.update_of_ne (StableHlo.devRef_ne_of_ne h2 : (Proc.devRef .tc b : DevRef τ sig) ≠ Proc.devRef .tc main_v229_2), Function.update_of_ne (StableHlo.devRef_ne_of_ne h1 : (Proc.devRef .tc b : DevRef τ sig) ≠ Proc.devRef .tc main_v229_1), Function.update_of_ne (StableHlo.devRef_ne_of_ne h0 : (Proc.devRef .tc b : DevRef τ sig) ≠ Proc.devRef .tc main_v229_0)]
/-- Region 7's output window 5, `main_v248`, after the region. -/
theorem W16_v248 (c : Dev nD) : W16 m c main_v248 = (dat7 (ent7 m) c).arrAt 5 cfg7.N := by
  unfold W16; rw [Function.update_self]
/-- Region 7 changes no other buffer. -/
theorem W16_of_ne (c : Dev nD) (b : Ref sig .tc) (h0 : b ≠ main_v248) : W16 m c b = W15 m c b := by
  unfold W16; rw [Function.update_of_ne (StableHlo.devRef_ne_of_ne h0 : (Proc.devRef .tc b : DevRef τ sig) ≠ Proc.devRef .tc main_v248)]
/-- Region 8's output window 6, `main_v289_0`, after the region. -/
theorem W18_v289_0 (c : Dev nD) : W18 m c main_v289_0 = (dat8 (ent8 m) c).arrAt 6 cfg8.N := by
  unfold W18; rw [Function.update_of_ne (StableHlo.devRef_ne_of_ne (by decide : main_v289_0 ≠ main_v289_2) : (Proc.devRef .tc main_v289_0 : DevRef τ sig) ≠ Proc.devRef .tc main_v289_2), Function.update_of_ne (StableHlo.devRef_ne_of_ne (by decide : main_v289_0 ≠ main_v289_1) : (Proc.devRef .tc main_v289_0 : DevRef τ sig) ≠ Proc.devRef .tc main_v289_1), Function.update_self]
/-- Region 8's output window 7, `main_v289_1`, after the region. -/
theorem W18_v289_1 (c : Dev nD) : W18 m c main_v289_1 = (dat8 (ent8 m) c).arrAt 7 cfg8.N := by
  unfold W18; rw [Function.update_of_ne (StableHlo.devRef_ne_of_ne (by decide : main_v289_1 ≠ main_v289_2) : (Proc.devRef .tc main_v289_1 : DevRef τ sig) ≠ Proc.devRef .tc main_v289_2), Function.update_self]
/-- Region 8's output window 8, `main_v289_2`, after the region. -/
theorem W18_v289_2 (c : Dev nD) : W18 m c main_v289_2 = (dat8 (ent8 m) c).arrAt 8 cfg8.N := by
  unfold W18; rw [Function.update_self]
/-- Region 8 changes no other buffer. -/
theorem W18_of_ne (c : Dev nD) (b : Ref sig .tc) (h0 : b ≠ main_v289_0) (h1 : b ≠ main_v289_1) (h2 : b ≠ main_v289_2) : W18 m c b = W17 m c b := by
  unfold W18; rw [Function.update_of_ne (StableHlo.devRef_ne_of_ne h2 : (Proc.devRef .tc b : DevRef τ sig) ≠ Proc.devRef .tc main_v289_2), Function.update_of_ne (StableHlo.devRef_ne_of_ne h1 : (Proc.devRef .tc b : DevRef τ sig) ≠ Proc.devRef .tc main_v289_1), Function.update_of_ne (StableHlo.devRef_ne_of_ne h0 : (Proc.devRef .tc b : DevRef τ sig) ≠ Proc.devRef .tc main_v289_0)]
/-- Region 9's output window 5, `main_v308`, after the region. -/
theorem W20_v308 (c : Dev nD) : W20 m c main_v308 = (dat9 (ent9 m) c).arrAt 5 cfg9.N := by
  unfold W20; rw [Function.update_self]
/-- Region 9 changes no other buffer. -/
theorem W20_of_ne (c : Dev nD) (b : Ref sig .tc) (h0 : b ≠ main_v308) : W20 m c b = W19 m c b := by
  unfold W20; rw [Function.update_of_ne (StableHlo.devRef_ne_of_ne h0 : (Proc.devRef .tc b : DevRef τ sig) ≠ Proc.devRef .tc main_v308)]
/-- Region 10's output window 2, `main_v309_0`, after the region. -/
theorem W21_v309_0 (c : Dev nD) : W21 m c main_v309_0 = (dat10 (ent10 m) c).arrAt 2 cfg10.N := by
  unfold W21; rw [Function.update_of_ne (StableHlo.devRef_ne_of_ne (by decide : main_v309_0 ≠ main_v309_1) : (Proc.devRef .tc main_v309_0 : DevRef τ sig) ≠ Proc.devRef .tc main_v309_1), Function.update_self]
/-- Region 10's output window 3, `main_v309_1`, after the region. -/
theorem W21_v309_1 (c : Dev nD) : W21 m c main_v309_1 = (dat10 (ent10 m) c).arrAt 3 cfg10.N := by
  unfold W21; rw [Function.update_self]
/-- Region 10 changes no other buffer. -/
theorem W21_of_ne (c : Dev nD) (b : Ref sig .tc) (h0 : b ≠ main_v309_0) (h1 : b ≠ main_v309_1) : W21 m c b = W20 m c b := by
  unfold W21; rw [Function.update_of_ne (StableHlo.devRef_ne_of_ne h1 : (Proc.devRef .tc b : DevRef τ sig) ≠ Proc.devRef .tc main_v309_1), Function.update_of_ne (StableHlo.devRef_ne_of_ne h0 : (Proc.devRef .tc b : DevRef τ sig) ≠ Proc.devRef .tc main_v309_0)]

end Cert.Kernel.Hand

end
-- ==== Proof.K.RunPd.lean ====
import proofs.«409348_j89627377533173_1_alg».proof.Proof.K.RunDefs
import proofs.«409348_j89627377533173_1_alg».proof.Proof.Gen.Kernel.Regions

-- decided memberships and the launch kit's enumerations over 501 references recurse past the default depth
set_option maxRecDepth 2516

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ
variable (m : (ℓ : Loc nD τ sig) → Buf (Elt F) ℓ)

/-! ## The proof data family and the thread state -/

/-- Every pipeline's proof data, each at its region's entry contents: a literal `match`, so that the library's
    `Pipeline.pin pcfgs adm p` at a numeral reduces to the printed configuration. -/
def pdats : (p : Fin 11) → (c : Dev nD) → Dat τ (Elt F) Unit ℕ (UR sig nD τ) ℕ (Pipeline.pin (pcfgs (F := F)) adm p) c
  | ⟨0, _⟩ => fun c => dat0 (ent0 m) c
  | ⟨1, _⟩ => fun c => dat1 (ent1 m) c
  | ⟨2, _⟩ => fun c => dat2 (ent2 m) c
  | ⟨3, _⟩ => fun c => dat3 (ent3 m) c
  | ⟨4, _⟩ => fun c => dat4 (ent4 m) c
  | ⟨5, _⟩ => fun c => dat5 (ent5 m) c
  | ⟨6, _⟩ => fun c => dat6 (ent6 m) c
  | ⟨7, _⟩ => fun c => dat7 (ent7 m) c
  | ⟨8, _⟩ => fun c => dat8 (ent8 m) c
  | ⟨9, _⟩ => fun c => dat9 (ent9 m) c
  | ⟨10, _⟩ => fun c => dat10 (ent10 m) c
/-- No core owes another anything: no level is assigned. -/
abbrev L₀ : GSem nD τ sig → Finset Unit := fun _ => ∅
abbrev lv₀ : GSem nD τ sig → Unit → ℕ := fun _ _ => 0
/-- What rides beside the buffers through every item: the core's generator register at some state (a region's
    invariant takes it in and gives it back) and its `owes`, at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.K.RunReg0.lean ====
import proofs.«409348_j89627377533173_1_alg».proof.Proof.K.RunPd
import Idealize.ShloMosaic.Lib.Pipeline.RegionsLoop

-- decided memberships and the launch kit's enumerations over 501 references recurse past the default depth
set_option maxRecDepth 2516

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ
variable (m : (ℓ : Loc nD τ sig) → Buf (Elt F) ℓ)

/-! ## The region's exit: each array at what the pipeline leaves, every other buffer as entered -/
theorem hF0_0 (c : Dev nD) : (dat0 (ent0 m) c).arrAt (0 : Fin 9) cfg0.N = ext0 m c (Pipeline.arrRef spec0 (0 : Fin 9)) :=
  ((dat0 (ent0 m) c).arrAt_in (0 : Fin 9) rfl _).trans ((A_eq0 (ent0 m) c (0 : Fin 9)).trans (W2_of_ne m c _ (by decide) (by decide) (by decide)).symm)
theorem hF0_1 (c : Dev nD) : (dat0 (ent0 m) c).arrAt (1 : Fin 9) cfg0.N = ext0 m c (Pipeline.arrRef spec0 (1 : Fin 9)) :=
  ((dat0 (ent0 m) c).arrAt_in (1 : Fin 9) rfl _).trans ((A_eq0 (ent0 m) c (1 : Fin 9)).trans (W2_of_ne m c _ (by decide) (by decide) (by decide)).symm)
theorem hF0_2 (c : Dev nD) : (dat0 (ent0 m) c).arrAt (2 : Fin 9) cfg0.N = ext0 m c (Pipeline.arrRef spec0 (2 : Fin 9)) :=
  ((dat0 (ent0 m) c).arrAt_in (2 : Fin 9) rfl _).trans ((A_eq0 (ent0 m) c (2 : Fin 9)).trans (W2_of_ne m c _ (by decide) (by decide) (by decide)).symm)
theorem hF0_3 (c : Dev nD) : (dat0 (ent0 m) c).arrAt (3 : Fin 9) cfg0.N = ext0 m c (Pipeline.arrRef spec0 (3 : Fin 9)) :=
  ((dat0 (ent0 m) c).arrAt_in (3 : Fin 9) rfl _).trans ((A_eq0 (ent0 m) c (3 : Fin 9)).trans (W2_of_ne m c _ (by decide) (by decide) (by decide)).symm)
theorem hF0_4 (c : Dev nD) : (dat0 (ent0 m) c).arrAt (4 : Fin 9) cfg0.N = ext0 m c (Pipeline.arrRef spec0 (4 : Fin 9)) :=
  ((dat0 (ent0 m) c).arrAt_in (4 : Fin 9) rfl _).trans ((A_eq0 (ent0 m) c (4 : Fin 9)).trans (W2_of_ne m c _ (by decide) (by decide) (by decide)).symm)
theorem hF0_5 (c : Dev nD) : (dat0 (ent0 m) c).arrAt (5 : Fin 9) cfg0.N = ext0 m c (Pipeline.arrRef spec0 (5 : Fin 9)) :=
  ((dat0 (ent0 m) c).arrAt_in (5 : Fin 9) rfl _).trans ((A_eq0 (ent0 m) c (5 : Fin 9)).trans (W2_of_ne m c _ (by decide) (by decide) (by decide)).symm)
theorem hF0_6 (c : Dev nD) : (dat0 (ent0 m) c).arrAt (6 : Fin 9) cfg0.N = ext0 m c (Pipeline.arrRef spec0 (6 : Fin 9)) :=
  (W2_v49_0 m c).symm
theorem hF0_7 (c : Dev nD) : (dat0 (ent0 m) c).arrAt (7 : Fin 9) cfg0.N = ext0 m c (Pipeline.arrRef spec0 (7 : Fin 9)) :=
  (W2_v49_1 m c).symm
theorem hF0_8 (c : Dev nD) : (dat0 (ent0 m) c).arrAt (8 : Fin 9) cfg0.N = ext0 m c (Pipeline.arrRef spec0 (8 : Fin 9)) :=
  (W2_v49_2 m c).symm
/-- At region 0's exit each of its arrays holds what the pipeline leaves: an output its folded write-backs (the chain's
    update there), an input what it held at entry (no write-back, and the updates are elsewhere); window by window, the
    9 windows enumerated by a decided disjunction. -/
theorem hF0 (c : Dev nD) : ∀ w : Fin 9, (dat0 (ent0 m) c).arrAt w cfg0.N = ext0 m c (Pipeline.arrRef spec0 w) := by
  intro w
  have hw : w = 0 ∨ w = 1 ∨ w = 2 ∨ w = 3 ∨ w = 4 ∨ w = 5 ∨ w = 6 ∨ w = 7 ∨ w = 8 := by revert w; decide
  rcases hw with rfl | rfl | rfl | rfl | rfl | rfl | rfl | rfl | rfl
  · exact hF0_0 m c
  · exact hF0_1 m c
  · exact hF0_2 m c
  · exact hF0_3 m c
  · exact hF0_4 m c
  · exact hF0_5 m c
  · exact hF0_6 m c
  · exact hF0_7 m c
  · exact hF0_8 m c
/-- and every other buffer what it held at entry. -/
theorem hrest0 (c : Dev nD) : ∀ b, b ∉ Finset.univ.image (Pipeline.arrRef spec0) → ext0 m c b = ent0 m c b :=
  fun b hb => W2_of_ne m c b
    (fun e => hb (Finset.mem_image.mpr ⟨6, Finset.mem_univ _, e.symm⟩))
    (fun e => hb (Finset.mem_image.mpr ⟨7, Finset.mem_univ _, e.symm⟩))
    (fun e => hb (Finset.mem_image.mpr ⟨8, Finset.mem_univ _, e.symm⟩))

/-! ## The region as a segment -/

-- a library lemma stated over `pin pcs a p` unifies with the pinned configuration only when unification may unfold
-- plain definitions in a metavariable's type
set_option backward.isDefEq.respectTransparency.types false in
/-- REGION 0 (custom_call 0) over the thread state: entered from every unscoped buffer at `W1`, left at `W2`.
    Its arrays split out of the unscoped buffers (`arrays_of_unscopedBufs`) and put back at the exit contents
    (`unscopedBufs_of_arrays`); the generator register and the scoped rest into the region's invariant (`PhiIn0`) and out
    (`PhiOut0`); nothing owed; no semaphore of the kernel's own. -/
def reg0 : RegionSeg (pcfgs (F := F)) adm (pdats m) () defs₀ Variants.none L₀ lv₀ 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ L₀ lv₀ 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (ent0 m c) fun w => A_eq0 (ent0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn0 (ent0 m) c)
    unfold Pipeline.ΦA
    iintro ⟨Hp, -, Hr⟩
    isplitl [Hr]; · iexact Hr
    iexact Hp
  hout c := by
    refine BIBase.Entails.trans (PhiOut0 (ent0 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (ent0 m c) (ext0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-- The record's two thread states by name (projections of the record above). -/
theorem reg0_pre (c : Dev nD) : (reg0 m).pre c = iprop(StableHlo.held (c : Thread nD τ) (Pipeline.ucRefs τ sig) (W1 m c) ∗ R c) := rfl
theorem reg0_post (c : Dev nD) : (reg0 m).post c = iprop(StableHlo.held (c : Thread nD τ) (Pipeline.ucRefs τ sig) (W2 m c) ∗ R c) := rfl

end Cert.Kernel.Hand

end
-- ==== Proof.K.RunReg1.lean ====
import proofs.«409348_j89627377533173_1_alg».proof.Proof.K.RunPd
import Idealize.ShloMosaic.Lib.Pipeline.RegionsLoop

-- decided memberships and the launch kit's enumerations over 501 references recurse past the default depth
set_option maxRecDepth 2516

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ
variable (m : (ℓ : Loc nD τ sig) → Buf (Elt F) ℓ)

/-! ## The region's exit: each array at what the pipeline leaves, every other buffer as entered -/
theorem hF1_0 (c : Dev nD) : (dat1 (ent1 m) c).arrAt (0 : Fin 6) cfg1.N = ext1 m c (Pipeline.arrRef spec1 (0 : Fin 6)) :=
  ((dat1 (ent1 m) c).arrAt_in (0 : Fin 6) rfl _).trans ((A_eq1 (ent1 m) c (0 : Fin 6)).trans (W4_of_ne m c _ (by decide)).symm)
theorem hF1_1 (c : Dev nD) : (dat1 (ent1 m) c).arrAt (1 : Fin 6) cfg1.N = ext1 m c (Pipeline.arrRef spec1 (1 : Fin 6)) :=
  ((dat1 (ent1 m) c).arrAt_in (1 : Fin 6) rfl _).trans ((A_eq1 (ent1 m) c (1 : Fin 6)).trans (W4_of_ne m c _ (by decide)).symm)
theorem hF1_2 (c : Dev nD) : (dat1 (ent1 m) c).arrAt (2 : Fin 6) cfg1.N = ext1 m c (Pipeline.arrRef spec1 (2 : Fin 6)) :=
  ((dat1 (ent1 m) c).arrAt_in (2 : Fin 6) rfl _).trans ((A_eq1 (ent1 m) c (2 : Fin 6)).trans (W4_of_ne m c _ (by decide)).symm)
theorem hF1_3 (c : Dev nD) : (dat1 (ent1 m) c).arrAt (3 : Fin 6) cfg1.N = ext1 m c (Pipeline.arrRef spec1 (3 : Fin 6)) :=
  ((dat1 (ent1 m) c).arrAt_in (3 : Fin 6) rfl _).trans ((A_eq1 (ent1 m) c (3 : Fin 6)).trans (W4_of_ne m c _ (by decide)).symm)
theorem hF1_4 (c : Dev nD) : (dat1 (ent1 m) c).arrAt (4 : Fin 6) cfg1.N = ext1 m c (Pipeline.arrRef spec1 (4 : Fin 6)) :=
  ((dat1 (ent1 m) c).arrAt_in (4 : Fin 6) rfl _).trans ((A_eq1 (ent1 m) c (4 : Fin 6)).trans (W4_of_ne m c _ (by decide)).symm)
theorem hF1_5 (c : Dev nD) : (dat1 (ent1 m) c).arrAt (5 : Fin 6) cfg1.N = ext1 m c (Pipeline.arrRef spec1 (5 : Fin 6)) :=
  (W4_v68 m c).symm
/-- At region 1's exit each of its arrays holds what the pipeline leaves: an output its folded write-backs (the chain's
    update there), an input what it held at entry (no write-back, and the updates are elsewhere); window by window, the
    6 windows enumerated by a decided disjunction. -/
theorem hF1 (c : Dev nD) : ∀ w : Fin 6, (dat1 (ent1 m) c).arrAt w cfg1.N = ext1 m c (Pipeline.arrRef spec1 w) := by
  intro w
  have hw : w = 0 ∨ w = 1 ∨ w = 2 ∨ w = 3 ∨ w = 4 ∨ w = 5 := by revert w; decide
  rcases hw with rfl | rfl | rfl | rfl | rfl | rfl
  · exact hF1_0 m c
  · exact hF1_1 m c
  · exact hF1_2 m c
  · exact hF1_3 m c
  · exact hF1_4 m c
  · exact hF1_5 m c
/-- and every other buffer what it held at entry. -/
theorem hrest1 (c : Dev nD) : ∀ b, b ∉ Finset.univ.image (Pipeline.arrRef spec1) → ext1 m c b = ent1 m c b :=
  fun b hb => W4_of_ne m c b
    (fun e => hb (Finset.mem_image.mpr ⟨5, Finset.mem_univ _, e.symm⟩))

/-! ## The region as a segment -/

-- a library lemma stated over `pin pcs a p` unifies with the pinned configuration only when unification may unfold
-- plain definitions in a metavariable's type
set_option backward.isDefEq.respectTransparency.types false in
/-- REGION 1 (custom_call 1) over the thread state: entered from every unscoped buffer at `W3`, left at `W4`.
    Its arrays split out of the unscoped buffers (`arrays_of_unscopedBufs`) and put back at the exit contents
    (`unscopedBufs_of_arrays`); the generator register and the scoped rest into the region's invariant (`PhiIn1`) and out
    (`PhiOut1`); nothing owed; no semaphore of the kernel's own. -/
def reg1 : RegionSeg (pcfgs (F := F)) adm (pdats m) () defs₀ Variants.none L₀ lv₀ 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ L₀ lv₀ 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (ent1 m c) fun w => A_eq1 (ent1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn1 (ent1 m) c)
    unfold Pipeline.ΦA
    iintro ⟨Hp, -, Hr⟩
    isplitl [Hr]; · iexact Hr
    iexact Hp
  hout c := by
    refine BIBase.Entails.trans (PhiOut1 (ent1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (ent1 m c) (ext1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-- The record's two thread states by name (projections of the record above). -/
theorem reg1_pre (c : Dev nD) : (reg1 m).pre c = iprop(StableHlo.held (c : Thread nD τ) (Pipeline.ucRefs τ sig) (W3 m c) ∗ R c) := rfl
theorem reg1_post (c : Dev nD) : (reg1 m).post c = iprop(StableHlo.held (c : Thread nD τ) (Pipeline.ucRefs τ sig) (W4 m c) ∗ R c) := rfl

end Cert.Kernel.Hand

end
-- ==== Proof.K.RunReg2.lean ====
import proofs.«409348_j89627377533173_1_alg».proof.Proof.K.RunPd
import Idealize.ShloMosaic.Lib.Pipeline.RegionsLoop

-- decided memberships and the launch kit's enumerations over 501 references recurse past the default depth
set_option maxRecDepth 2516

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ
variable (m : (ℓ : Loc nD τ sig) → Buf (Elt F) ℓ)

/-! ## The region's exit: each array at what the pipeline leaves, every other buffer as entered -/
theorem hF2_0 (c : Dev nD) : (dat2 (ent2 m) c).arrAt (0 : Fin 9) cfg2.N = ext2 m c (Pipeline.arrRef spec2 (0 : Fin 9)) :=
  ((dat2 (ent2 m) c).arrAt_in (0 : Fin 9) rfl _).trans ((A_eq2 (ent2 m) c (0 : Fin 9)).trans (W6_of_ne m c _ (by decide) (by decide) (by decide)).symm)
theorem hF2_1 (c : Dev nD) : (dat2 (ent2 m) c).arrAt (1 : Fin 9) cfg2.N = ext2 m c (Pipeline.arrRef spec2 (1 : Fin 9)) :=
  ((dat2 (ent2 m) c).arrAt_in (1 : Fin 9) rfl _).trans ((A_eq2 (ent2 m) c (1 : Fin 9)).trans (W6_of_ne m c _ (by decide) (by decide) (by decide)).symm)
theorem hF2_2 (c : Dev nD) : (dat2 (ent2 m) c).arrAt (2 : Fin 9) cfg2.N = ext2 m c (Pipeline.arrRef spec2 (2 : Fin 9)) :=
  ((dat2 (ent2 m) c).arrAt_in (2 : Fin 9) rfl _).trans ((A_eq2 (ent2 m) c (2 : Fin 9)).trans (W6_of_ne m c _ (by decide) (by decide) (by decide)).symm)
theorem hF2_3 (c : Dev nD) : (dat2 (ent2 m) c).arrAt (3 : Fin 9) cfg2.N = ext2 m c (Pipeline.arrRef spec2 (3 : Fin 9)) :=
  ((dat2 (ent2 m) c).arrAt_in (3 : Fin 9) rfl _).trans ((A_eq2 (ent2 m) c (3 : Fin 9)).trans (W6_of_ne m c _ (by decide) (by decide) (by decide)).symm)
theorem hF2_4 (c : Dev nD) : (dat2 (ent2 m) c).arrAt (4 : Fin 9) cfg2.N = ext2 m c (Pipeline.arrRef spec2 (4 : Fin 9)) :=
  ((dat2 (ent2 m) c).arrAt_in (4 : Fin 9) rfl _).trans ((A_eq2 (ent2 m) c (4 : Fin 9)).trans (W6_of_ne m c _ (by decide) (by decide) (by decide)).symm)
theorem hF2_5 (c : Dev nD) : (dat2 (ent2 m) c).arrAt (5 : Fin 9) cfg2.N = ext2 m c (Pipeline.arrRef spec2 (5 : Fin 9)) :=
  ((dat2 (ent2 m) c).arrAt_in (5 : Fin 9) rfl _).trans ((A_eq2 (ent2 m) c (5 : Fin 9)).trans (W6_of_ne m c _ (by decide) (by decide) (by decide)).symm)
theorem hF2_6 (c : Dev nD) : (dat2 (ent2 m) c).arrAt (6 : Fin 9) cfg2.N = ext2 m c (Pipeline.arrRef spec2 (6 : Fin 9)) :=
  (W6_v109_0 m c).symm
theorem hF2_7 (c : Dev nD) : (dat2 (ent2 m) c).arrAt (7 : Fin 9) cfg2.N = ext2 m c (Pipeline.arrRef spec2 (7 : Fin 9)) :=
  (W6_v109_1 m c).symm
theorem hF2_8 (c : Dev nD) : (dat2 (ent2 m) c).arrAt (8 : Fin 9) cfg2.N = ext2 m c (Pipeline.arrRef spec2 (8 : Fin 9)) :=
  (W6_v109_2 m c).symm
/-- At region 2's exit each of its arrays holds what the pipeline leaves: an output its folded write-backs (the chain's
    update there), an input what it held at entry (no write-back, and the updates are elsewhere); window by window, the
    9 windows enumerated by a decided disjunction. -/
theorem hF2 (c : Dev nD) : ∀ w : Fin 9, (dat2 (ent2 m) c).arrAt w cfg2.N = ext2 m c (Pipeline.arrRef spec2 w) := by
  intro w
  have hw : w = 0 ∨ w = 1 ∨ w = 2 ∨ w = 3 ∨ w = 4 ∨ w = 5 ∨ w = 6 ∨ w = 7 ∨ w = 8 := by revert w; decide
  rcases hw with rfl | rfl | rfl | rfl | rfl | rfl | rfl | rfl | rfl
  · exact hF2_0 m c
  · exact hF2_1 m c
  · exact hF2_2 m c
  · exact hF2_3 m c
  · exact hF2_4 m c
  · exact hF2_5 m c
  · exact hF2_6 m c
  · exact hF2_7 m c
  · exact hF2_8 m c
/-- and every other buffer what it held at entry. -/
theorem hrest2 (c : Dev nD) : ∀ b, b ∉ Finset.univ.image (Pipeline.arrRef spec2) → ext2 m c b = ent2 m c b :=
  fun b hb => W6_of_ne m c b
    (fun e => hb (Finset.mem_image.mpr ⟨6, Finset.mem_univ _, e.symm⟩))
    (fun e => hb (Finset.mem_image.mpr ⟨7, Finset.mem_univ _, e.symm⟩))
    (fun e => hb (Finset.mem_image.mpr ⟨8, Finset.mem_univ _, e.symm⟩))

/-! ## The region as a segment -/

-- a library lemma stated over `pin pcs a p` unifies with the pinned configuration only when unification may unfold
-- plain definitions in a metavariable's type
set_option backward.isDefEq.respectTransparency.types false in
/-- REGION 2 (custom_call 2) over the thread state: entered from every unscoped buffer at `W5`, left at `W6`.
    Its arrays split out of the unscoped buffers (`arrays_of_unscopedBufs`) and put back at the exit contents
    (`unscopedBufs_of_arrays`); the generator register and the scoped rest into the region's invariant (`PhiIn2`) and out
    (`PhiOut2`); nothing owed; no semaphore of the kernel's own. -/
def reg2 : RegionSeg (pcfgs (F := F)) adm (pdats m) () defs₀ Variants.none L₀ lv₀ 2 where
  win := launch2.win.to₀
  block_pos := launch2.block_pos
  stage_whole := launch2.stage_whole
  K := PEmpty
  osem k := k.elim
  ho := Pipeline.OwnSemFacts.none _
  hbody c := (body_obligation2 (ent2 m) c).loose
  hwaits := Pipeline.hwaits_of_owed_zero _ _ _ _ L₀ lv₀ 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (ent2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (ent2 m c) fun w => A_eq2 (ent2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn2 (ent2 m) c)
    unfold Pipeline.ΦA
    iintro ⟨Hp, -, Hr⟩
    isplitl [Hr]; · iexact Hr
    iexact Hp
  hout c := by
    refine BIBase.Entails.trans (PhiOut2 (ent2 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (ent2 m c) (ext2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-- The record's two thread states by name (projections of the record above). -/
theorem reg2_pre (c : Dev nD) : (reg2 m).pre c = iprop(StableHlo.held (c : Thread nD τ) (Pipeline.ucRefs τ sig) (W5 m c) ∗ R c) := rfl
theorem reg2_post (c : Dev nD) : (reg2 m).post c = iprop(StableHlo.held (c : Thread nD τ) (Pipeline.ucRefs τ sig) (W6 m c) ∗ R c) := rfl

end Cert.Kernel.Hand

end
-- ==== Proof.K.RunReg3.lean ====
import proofs.«409348_j89627377533173_1_alg».proof.Proof.K.RunPd
import Idealize.ShloMosaic.Lib.Pipeline.RegionsLoop

-- decided memberships and the launch kit's enumerations over 501 references recurse past the default depth
set_option maxRecDepth 2516

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ
variable (m : (ℓ : Loc nD τ sig) → Buf (Elt F) ℓ)

/-! ## The region's exit: each array at what the pipeline leaves, every other buffer as entered -/
theorem hF3_0 (c : Dev nD) : (dat3 (ent3 m) c).arrAt (0 : Fin 6) cfg3.N = ext3 m c (Pipeline.arrRef spec3 (0 : Fin 6)) :=
  ((dat3 (ent3 m) c).arrAt_in (0 : Fin 6) rfl _).trans ((A_eq3 (ent3 m) c (0 : Fin 6)).trans (W8_of_ne m c _ (by decide)).symm)
theorem hF3_1 (c : Dev nD) : (dat3 (ent3 m) c).arrAt (1 : Fin 6) cfg3.N = ext3 m c (Pipeline.arrRef spec3 (1 : Fin 6)) :=
  ((dat3 (ent3 m) c).arrAt_in (1 : Fin 6) rfl _).trans ((A_eq3 (ent3 m) c (1 : Fin 6)).trans (W8_of_ne m c _ (by decide)).symm)
theorem hF3_2 (c : Dev nD) : (dat3 (ent3 m) c).arrAt (2 : Fin 6) cfg3.N = ext3 m c (Pipeline.arrRef spec3 (2 : Fin 6)) :=
  ((dat3 (ent3 m) c).arrAt_in (2 : Fin 6) rfl _).trans ((A_eq3 (ent3 m) c (2 : Fin 6)).trans (W8_of_ne m c _ (by decide)).symm)
theorem hF3_3 (c : Dev nD) : (dat3 (ent3 m) c).arrAt (3 : Fin 6) cfg3.N = ext3 m c (Pipeline.arrRef spec3 (3 : Fin 6)) :=
  ((dat3 (ent3 m) c).arrAt_in (3 : Fin 6) rfl _).trans ((A_eq3 (ent3 m) c (3 : Fin 6)).trans (W8_of_ne m c _ (by decide)).symm)
theorem hF3_4 (c : Dev nD) : (dat3 (ent3 m) c).arrAt (4 : Fin 6) cfg3.N = ext3 m c (Pipeline.arrRef spec3 (4 : Fin 6)) :=
  ((dat3 (ent3 m) c).arrAt_in (4 : Fin 6) rfl _).trans ((A_eq3 (ent3 m) c (4 : Fin 6)).trans (W8_of_ne m c _ (by decide)).symm)
theorem hF3_5 (c : Dev nD) : (dat3 (ent3 m) c).arrAt (5 : Fin 6) cfg3.N = ext3 m c (Pipeline.arrRef spec3 (5 : Fin 6)) :=
  (W8_v128 m c).symm
/-- At region 3's exit each of its arrays holds what the pipeline leaves: an output its folded write-backs (the chain's
    update there), an input what it held at entry (no write-back, and the updates are elsewhere); window by window, the
    6 windows enumerated by a decided disjunction. -/
theorem hF3 (c : Dev nD) : ∀ w : Fin 6, (dat3 (ent3 m) c).arrAt w cfg3.N = ext3 m c (Pipeline.arrRef spec3 w) := by
  intro w
  have hw : w = 0 ∨ w = 1 ∨ w = 2 ∨ w = 3 ∨ w = 4 ∨ w = 5 := by revert w; decide
  rcases hw with rfl | rfl | rfl | rfl | rfl | rfl
  · exact hF3_0 m c
  · exact hF3_1 m c
  · exact hF3_2 m c
  · exact hF3_3 m c
  · exact hF3_4 m c
  · exact hF3_5 m c
/-- and every other buffer what it held at entry. -/
theorem hrest3 (c : Dev nD) : ∀ b, b ∉ Finset.univ.image (Pipeline.arrRef spec3) → ext3 m c b = ent3 m c b :=
  fun b hb => W8_of_ne m c b
    (fun e => hb (Finset.mem_image.mpr ⟨5, Finset.mem_univ _, e.symm⟩))

/-! ## The region as a segment -/

-- a library lemma stated over `pin pcs a p` unifies with the pinned configuration only when unification may unfold
-- plain definitions in a metavariable's type
set_option backward.isDefEq.respectTransparency.types false in
/-- REGION 3 (custom_call 3) over the thread state: entered from every unscoped buffer at `W7`, left at `W8`.
    Its arrays split out of the unscoped buffers (`arrays_of_unscopedBufs`) and put back at the exit contents
    (`unscopedBufs_of_arrays`); the generator register and the scoped rest into the region's invariant (`PhiIn3`) and out
    (`PhiOut3`); nothing owed; no semaphore of the kernel's own. -/
def reg3 : RegionSeg (pcfgs (F := F)) adm (pdats m) () defs₀ Variants.none L₀ lv₀ 3 where
  win := launch3.win.to₀
  block_pos := launch3.block_pos
  stage_whole := launch3.stage_whole
  K := PEmpty
  osem k := k.elim
  ho := Pipeline.OwnSemFacts.none _
  hbody c := (body_obligation3 (ent3 m) c).loose
  hwaits := Pipeline.hwaits_of_owed_zero _ _ _ _ L₀ lv₀ 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (ent3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (ent3 m c) fun w => A_eq3 (ent3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn3 (ent3 m) c)
    unfold Pipeline.ΦA
    iintro ⟨Hp, -, Hr⟩
    isplitl [Hr]; · iexact Hr
    iexact Hp
  hout c := by
    refine BIBase.Entails.trans (PhiOut3 (ent3 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (ent3 m c) (ext3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-- The record's two thread states by name (projections of the record above). -/
theorem reg3_pre (c : Dev nD) : (reg3 m).pre c = iprop(StableHlo.held (c : Thread nD τ) (Pipeline.ucRefs τ sig) (W7 m c) ∗ R c) := rfl
theorem reg3_post (c : Dev nD) : (reg3 m).post c = iprop(StableHlo.held (c : Thread nD τ) (Pipeline.ucRefs τ sig) (W8 m c) ∗ R c) := rfl

end Cert.Kernel.Hand

end
-- ==== Proof.K.RunReg4.lean ====
import proofs.«409348_j89627377533173_1_alg».proof.Proof.K.RunPd
import Idealize.ShloMosaic.Lib.Pipeline.RegionsLoop

-- decided memberships and the launch kit's enumerations over 501 references recurse past the default depth
set_option maxRecDepth 2516

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ
variable (m : (ℓ : Loc nD τ sig) → Buf (Elt F) ℓ)

/-! ## The region's exit: each array at what the pipeline leaves, every other buffer as entered -/
theorem hF4_0 (c : Dev nD) : (dat4 (ent4 m) c).arrAt (0 : Fin 9) cfg4.N = ext4 m c (Pipeline.arrRef spec4 (0 : Fin 9)) :=
  ((dat4 (ent4 m) c).arrAt_in (0 : Fin 9) rfl _).trans ((A_eq4 (ent4 m) c (0 : Fin 9)).trans (W10_of_ne m c _ (by decide) (by decide) (by decide)).symm)
theorem hF4_1 (c : Dev nD) : (dat4 (ent4 m) c).arrAt (1 : Fin 9) cfg4.N = ext4 m c (Pipeline.arrRef spec4 (1 : Fin 9)) :=
  ((dat4 (ent4 m) c).arrAt_in (1 : Fin 9) rfl _).trans ((A_eq4 (ent4 m) c (1 : Fin 9)).trans (W10_of_ne m c _ (by decide) (by decide) (by decide)).symm)
theorem hF4_2 (c : Dev nD) : (dat4 (ent4 m) c).arrAt (2 : Fin 9) cfg4.N = ext4 m c (Pipeline.arrRef spec4 (2 : Fin 9)) :=
  ((dat4 (ent4 m) c).arrAt_in (2 : Fin 9) rfl _).trans ((A_eq4 (ent4 m) c (2 : Fin 9)).trans (W10_of_ne m c _ (by decide) (by decide) (by decide)).symm)
theorem hF4_3 (c : Dev nD) : (dat4 (ent4 m) c).arrAt (3 : Fin 9) cfg4.N = ext4 m c (Pipeline.arrRef spec4 (3 : Fin 9)) :=
  ((dat4 (ent4 m) c).arrAt_in (3 : Fin 9) rfl _).trans ((A_eq4 (ent4 m) c (3 : Fin 9)).trans (W10_of_ne m c _ (by decide) (by decide) (by decide)).symm)
theorem hF4_4 (c : Dev nD) : (dat4 (ent4 m) c).arrAt (4 : Fin 9) cfg4.N = ext4 m c (Pipeline.arrRef spec4 (4 : Fin 9)) :=
  ((dat4 (ent4 m) c).arrAt_in (4 : Fin 9) rfl _).trans ((A_eq4 (ent4 m) c (4 : Fin 9)).trans (W10_of_ne m c _ (by decide) (by decide) (by decide)).symm)
theorem hF4_5 (c : Dev nD) : (dat4 (ent4 m) c).arrAt (5 : Fin 9) cfg4.N = ext4 m c (Pipeline.arrRef spec4 (5 : Fin 9)) :=
  ((dat4 (ent4 m) c).arrAt_in (5 : Fin 9) rfl _).trans ((A_eq4 (ent4 m) c (5 : Fin 9)).trans (W10_of_ne m c _ (by decide) (by decide) (by decide)).symm)
theorem hF4_6 (c : Dev nD) : (dat4 (ent4 m) c).arrAt (6 : Fin 9) cfg4.N = ext4 m c (Pipeline.arrRef spec4 (6 : Fin 9)) :=
  (W10_v169_0 m c).symm
theorem hF4_7 (c : Dev nD) : (dat4 (ent4 m) c).arrAt (7 : Fin 9) cfg4.N = ext4 m c (Pipeline.arrRef spec4 (7 : Fin 9)) :=
  (W10_v169_1 m c).symm
theorem hF4_8 (c : Dev nD) : (dat4 (ent4 m) c).arrAt (8 : Fin 9) cfg4.N = ext4 m c (Pipeline.arrRef spec4 (8 : Fin 9)) :=
  (W10_v169_2 m c).symm
/-- At region 4's exit each of its arrays holds what the pipeline leaves: an output its folded write-backs (the chain's
    update there), an input what it held at entry (no write-back, and the updates are elsewhere); window by window, the
    9 windows enumerated by a decided disjunction. -/
theorem hF4 (c : Dev nD) : ∀ w : Fin 9, (dat4 (ent4 m) c).arrAt w cfg4.N = ext4 m c (Pipeline.arrRef spec4 w) := by
  intro w
  have hw : w = 0 ∨ w = 1 ∨ w = 2 ∨ w = 3 ∨ w = 4 ∨ w = 5 ∨ w = 6 ∨ w = 7 ∨ w = 8 := by revert w; decide
  rcases hw with rfl | rfl | rfl | rfl | rfl | rfl | rfl | rfl | rfl
  · exact hF4_0 m c
  · exact hF4_1 m c
  · exact hF4_2 m c
  · exact hF4_3 m c
  · exact hF4_4 m c
  · exact hF4_5 m c
  · exact hF4_6 m c
  · exact hF4_7 m c
  · exact hF4_8 m c
/-- and every other buffer what it held at entry. -/
theorem hrest4 (c : Dev nD) : ∀ b, b ∉ Finset.univ.image (Pipeline.arrRef spec4) → ext4 m c b = ent4 m c b :=
  fun b hb => W10_of_ne m c b
    (fun e => hb (Finset.mem_image.mpr ⟨6, Finset.mem_univ _, e.symm⟩))
    (fun e => hb (Finset.mem_image.mpr ⟨7, Finset.mem_univ _, e.symm⟩))
    (fun e => hb (Finset.mem_image.mpr ⟨8, Finset.mem_univ _, e.symm⟩))

/-! ## The region as a segment -/

-- a library lemma stated over `pin pcs a p` unifies with the pinned configuration only when unification may unfold
-- plain definitions in a metavariable's type
set_option backward.isDefEq.respectTransparency.types false in
/-- REGION 4 (custom_call 4) over the thread state: entered from every unscoped buffer at `W9`, left at `W10`.
    Its arrays split out of the unscoped buffers (`arrays_of_unscopedBufs`) and put back at the exit contents
    (`unscopedBufs_of_arrays`); the generator register and the scoped rest into the region's invariant (`PhiIn4`) and out
    (`PhiOut4`); nothing owed; no semaphore of the kernel's own. -/
def reg4 : RegionSeg (pcfgs (F := F)) adm (pdats m) () defs₀ Variants.none L₀ lv₀ 4 where
  win := launch4.win.to₀
  block_pos := launch4.block_pos
  stage_whole := launch4.stage_whole
  K := PEmpty
  osem k := k.elim
  ho := Pipeline.OwnSemFacts.none _
  hbody c := (body_obligation4 (ent4 m) c).loose
  hwaits := Pipeline.hwaits_of_owed_zero _ _ _ _ L₀ lv₀ 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (ent4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (ent4 m c) fun w => A_eq4 (ent4 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn4 (ent4 m) c)
    unfold Pipeline.ΦA
    iintro ⟨Hp, -, Hr⟩
    isplitl [Hr]; · iexact Hr
    iexact Hp
  hout c := by
    refine BIBase.Entails.trans (PhiOut4 (ent4 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (ent4 m c) (ext4 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-- The record's two thread states by name (projections of the record above). -/
theorem reg4_pre (c : Dev nD) : (reg4 m).pre c = iprop(StableHlo.held (c : Thread nD τ) (Pipeline.ucRefs τ sig) (W9 m c) ∗ R c) := rfl
theorem reg4_post (c : Dev nD) : (reg4 m).post c = iprop(StableHlo.held (c : Thread nD τ) (Pipeline.ucRefs τ sig) (W10 m c) ∗ R c) := rfl

end Cert.Kernel.Hand

end
-- ==== Proof.K.RunReg5.lean ====
import proofs.«409348_j89627377533173_1_alg».proof.Proof.K.RunPd
import Idealize.ShloMosaic.Lib.Pipeline.RegionsLoop

-- decided memberships and the launch kit's enumerations over 501 references recurse past the default depth
set_option maxRecDepth 2516

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ
variable (m : (ℓ : Loc nD τ sig) → Buf (Elt F) ℓ)

/-! ## The region's exit: each array at what the pipeline leaves, every other buffer as entered -/
theorem hF5_0 (c : Dev nD) : (dat5 (ent5 m) c).arrAt (0 : Fin 6) cfg5.N = ext5 m c (Pipeline.arrRef spec5 (0 : Fin 6)) :=
  ((dat5 (ent5 m) c).arrAt_in (0 : Fin 6) rfl _).trans ((A_eq5 (ent5 m) c (0 : Fin 6)).trans (W12_of_ne m c _ (by decide)).symm)
theorem hF5_1 (c : Dev nD) : (dat5 (ent5 m) c).arrAt (1 : Fin 6) cfg5.N = ext5 m c (Pipeline.arrRef spec5 (1 : Fin 6)) :=
  ((dat5 (ent5 m) c).arrAt_in (1 : Fin 6) rfl _).trans ((A_eq5 (ent5 m) c (1 : Fin 6)).trans (W12_of_ne m c _ (by decide)).symm)
theorem hF5_2 (c : Dev nD) : (dat5 (ent5 m) c).arrAt (2 : Fin 6) cfg5.N = ext5 m c (Pipeline.arrRef spec5 (2 : Fin 6)) :=
  ((dat5 (ent5 m) c).arrAt_in (2 : Fin 6) rfl _).trans ((A_eq5 (ent5 m) c (2 : Fin 6)).trans (W12_of_ne m c _ (by decide)).symm)
theorem hF5_3 (c : Dev nD) : (dat5 (ent5 m) c).arrAt (3 : Fin 6) cfg5.N = ext5 m c (Pipeline.arrRef spec5 (3 : Fin 6)) :=
  ((dat5 (ent5 m) c).arrAt_in (3 : Fin 6) rfl _).trans ((A_eq5 (ent5 m) c (3 : Fin 6)).trans (W12_of_ne m c _ (by decide)).symm)
theorem hF5_4 (c : Dev nD) : (dat5 (ent5 m) c).arrAt (4 : Fin 6) cfg5.N = ext5 m c (Pipeline.arrRef spec5 (4 : Fin 6)) :=
  ((dat5 (ent5 m) c).arrAt_in (4 : Fin 6) rfl _).trans ((A_eq5 (ent5 m) c (4 : Fin 6)).trans (W12_of_ne m c _ (by decide)).symm)
theorem hF5_5 (c : Dev nD) : (dat5 (ent5 m) c).arrAt (5 : Fin 6) cfg5.N = ext5 m c (Pipeline.arrRef spec5 (5 : Fin 6)) :=
  (W12_v188 m c).symm
/-- At region 5's exit each of its arrays holds what the pipeline leaves: an output its folded write-backs (the chain's
    update there), an input what it held at entry (no write-back, and the updates are elsewhere); window by window, the
    6 windows enumerated by a decided disjunction. -/
theorem hF5 (c : Dev nD) : ∀ w : Fin 6, (dat5 (ent5 m) c).arrAt w cfg5.N = ext5 m c (Pipeline.arrRef spec5 w) := by
  intro w
  have hw : w = 0 ∨ w = 1 ∨ w = 2 ∨ w = 3 ∨ w = 4 ∨ w = 5 := by revert w; decide
  rcases hw with rfl | rfl | rfl | rfl | rfl | rfl
  · exact hF5_0 m c
  · exact hF5_1 m c
  · exact hF5_2 m c
  · exact hF5_3 m c
  · exact hF5_4 m c
  · exact hF5_5 m c
/-- and every other buffer what it held at entry. -/
theorem hrest5 (c : Dev nD) : ∀ b, b ∉ Finset.univ.image (Pipeline.arrRef spec5) → ext5 m c b = ent5 m c b :=
  fun b hb => W12_of_ne m c b
    (fun e => hb (Finset.mem_image.mpr ⟨5, Finset.mem_univ _, e.symm⟩))

/-! ## The region as a segment -/

-- a library lemma stated over `pin pcs a p` unifies with the pinned configuration only when unification may unfold
-- plain definitions in a metavariable's type
set_option backward.isDefEq.respectTransparency.types false in
/-- REGION 5 (custom_call 5) over the thread state: entered from every unscoped buffer at `W11`, left at `W12`.
    Its arrays split out of the unscoped buffers (`arrays_of_unscopedBufs`) and put back at the exit contents
    (`unscopedBufs_of_arrays`); the generator register and the scoped rest into the region's invariant (`PhiIn5`) and out
    (`PhiOut5`); nothing owed; no semaphore of the kernel's own. -/
def reg5 : RegionSeg (pcfgs (F := F)) adm (pdats m) () defs₀ Variants.none L₀ lv₀ 5 where
  win := launch5.win.to₀
  block_pos := launch5.block_pos
  stage_whole := launch5.stage_whole
  K := PEmpty
  osem k := k.elim
  ho := Pipeline.OwnSemFacts.none _
  hbody c := (body_obligation5 (ent5 m) c).loose
  hwaits := Pipeline.hwaits_of_owed_zero _ _ _ _ L₀ lv₀ 5 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec5 c (ent5 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (ent5 m c) fun w => A_eq5 (ent5 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn5 (ent5 m) c)
    unfold Pipeline.ΦA
    iintro ⟨Hp, -, Hr⟩
    isplitl [Hr]; · iexact Hr
    iexact Hp
  hout c := by
    refine BIBase.Entails.trans (PhiOut5 (ent5 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (ent5 m c) (ext5 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-- The record's two thread states by name (projections of the record above). -/
theorem reg5_pre (c : Dev nD) : (reg5 m).pre c = iprop(StableHlo.held (c : Thread nD τ) (Pipeline.ucRefs τ sig) (W11 m c) ∗ R c) := rfl
theorem reg5_post (c : Dev nD) : (reg5 m).post c = iprop(StableHlo.held (c : Thread nD τ) (Pipeline.ucRefs τ sig) (W12 m c) ∗ R c) := rfl

end Cert.Kernel.Hand

end
-- ==== Proof.K.RunReg6.lean ====
import proofs.«409348_j89627377533173_1_alg».proof.Proof.K.RunPd
import Idealize.ShloMosaic.Lib.Pipeline.RegionsLoop

-- decided memberships and the launch kit's enumerations over 501 references recurse past the default depth
set_option maxRecDepth 2516

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ
variable (m : (ℓ : Loc nD τ sig) → Buf (Elt F) ℓ)

/-! ## The region's exit: each array at what the pipeline leaves, every other buffer as entered -/
theorem hF6_0 (c : Dev nD) : (dat6 (ent6 m) c).arrAt (0 : Fin 9) cfg6.N = ext6 m c (Pipeline.arrRef spec6 (0 : Fin 9)) :=
  ((dat6 (ent6 m) c).arrAt_in (0 : Fin 9) rfl _).trans ((A_eq6 (ent6 m) c (0 : Fin 9)).trans (W14_of_ne m c _ (by decide) (by decide) (by decide)).symm)
theorem hF6_1 (c : Dev nD) : (dat6 (ent6 m) c).arrAt (1 : Fin 9) cfg6.N = ext6 m c (Pipeline.arrRef spec6 (1 : Fin 9)) :=
  ((dat6 (ent6 m) c).arrAt_in (1 : Fin 9) rfl _).trans ((A_eq6 (ent6 m) c (1 : Fin 9)).trans (W14_of_ne m c _ (by decide) (by decide) (by decide)).symm)
theorem hF6_2 (c : Dev nD) : (dat6 (ent6 m) c).arrAt (2 : Fin 9) cfg6.N = ext6 m c (Pipeline.arrRef spec6 (2 : Fin 9)) :=
  ((dat6 (ent6 m) c).arrAt_in (2 : Fin 9) rfl _).trans ((A_eq6 (ent6 m) c (2 : Fin 9)).trans (W14_of_ne m c _ (by decide) (by decide) (by decide)).symm)
theorem hF6_3 (c : Dev nD) : (dat6 (ent6 m) c).arrAt (3 : Fin 9) cfg6.N = ext6 m c (Pipeline.arrRef spec6 (3 : Fin 9)) :=
  ((dat6 (ent6 m) c).arrAt_in (3 : Fin 9) rfl _).trans ((A_eq6 (ent6 m) c (3 : Fin 9)).trans (W14_of_ne m c _ (by decide) (by decide) (by decide)).symm)
theorem hF6_4 (c : Dev nD) : (dat6 (ent6 m) c).arrAt (4 : Fin 9) cfg6.N = ext6 m c (Pipeline.arrRef spec6 (4 : Fin 9)) :=
  ((dat6 (ent6 m) c).arrAt_in (4 : Fin 9) rfl _).trans ((A_eq6 (ent6 m) c (4 : Fin 9)).trans (W14_of_ne m c _ (by decide) (by decide) (by decide)).symm)
theorem hF6_5 (c : Dev nD) : (dat6 (ent6 m) c).arrAt (5 : Fin 9) cfg6.N = ext6 m c (Pipeline.arrRef spec6 (5 : Fin 9)) :=
  ((dat6 (ent6 m) c).arrAt_in (5 : Fin 9) rfl _).trans ((A_eq6 (ent6 m) c (5 : Fin 9)).trans (W14_of_ne m c _ (by decide) (by decide) (by decide)).symm)
theorem hF6_6 (c : Dev nD) : (dat6 (ent6 m) c).arrAt (6 : Fin 9) cfg6.N = ext6 m c (Pipeline.arrRef spec6 (6 : Fin 9)) :=
  (W14_v229_0 m c).symm
theorem hF6_7 (c : Dev nD) : (dat6 (ent6 m) c).arrAt (7 : Fin 9) cfg6.N = ext6 m c (Pipeline.arrRef spec6 (7 : Fin 9)) :=
  (W14_v229_1 m c).symm
theorem hF6_8 (c : Dev nD) : (dat6 (ent6 m) c).arrAt (8 : Fin 9) cfg6.N = ext6 m c (Pipeline.arrRef spec6 (8 : Fin 9)) :=
  (W14_v229_2 m c).symm
/-- At region 6's exit each of its arrays holds what the pipeline leaves: an output its folded write-backs (the chain's
    update there), an input what it held at entry (no write-back, and the updates are elsewhere); window by window, the
    9 windows enumerated by a decided disjunction. -/
theorem hF6 (c : Dev nD) : ∀ w : Fin 9, (dat6 (ent6 m) c).arrAt w cfg6.N = ext6 m c (Pipeline.arrRef spec6 w) := by
  intro w
  have hw : w = 0 ∨ w = 1 ∨ w = 2 ∨ w = 3 ∨ w = 4 ∨ w = 5 ∨ w = 6 ∨ w = 7 ∨ w = 8 := by revert w; decide
  rcases hw with rfl | rfl | rfl | rfl | rfl | rfl | rfl | rfl | rfl
  · exact hF6_0 m c
  · exact hF6_1 m c
  · exact hF6_2 m c
  · exact hF6_3 m c
  · exact hF6_4 m c
  · exact hF6_5 m c
  · exact hF6_6 m c
  · exact hF6_7 m c
  · exact hF6_8 m c
/-- and every other buffer what it held at entry. -/
theorem hrest6 (c : Dev nD) : ∀ b, b ∉ Finset.univ.image (Pipeline.arrRef spec6) → ext6 m c b = ent6 m c b :=
  fun b hb => W14_of_ne m c b
    (fun e => hb (Finset.mem_image.mpr ⟨6, Finset.mem_univ _, e.symm⟩))
    (fun e => hb (Finset.mem_image.mpr ⟨7, Finset.mem_univ _, e.symm⟩))
    (fun e => hb (Finset.mem_image.mpr ⟨8, Finset.mem_univ _, e.symm⟩))

/-! ## The region as a segment -/

-- a library lemma stated over `pin pcs a p` unifies with the pinned configuration only when unification may unfold
-- plain definitions in a metavariable's type
set_option backward.isDefEq.respectTransparency.types false in
/-- REGION 6 (custom_call 6) over the thread state: entered from every unscoped buffer at `W13`, left at `W14`.
    Its arrays split out of the unscoped buffers (`arrays_of_unscopedBufs`) and put back at the exit contents
    (`unscopedBufs_of_arrays`); the generator register and the scoped rest into the region's invariant (`PhiIn6`) and out
    (`PhiOut6`); nothing owed; no semaphore of the kernel's own. -/
def reg6 : RegionSeg (pcfgs (F := F)) adm (pdats m) () defs₀ Variants.none L₀ lv₀ 6 where
  win := launch6.win.to₀
  block_pos := launch6.block_pos
  stage_whole := launch6.stage_whole
  K := PEmpty
  osem k := k.elim
  ho := Pipeline.OwnSemFacts.none _
  hbody c := (body_obligation6 (ent6 m) c).loose
  hwaits := Pipeline.hwaits_of_owed_zero _ _ _ _ L₀ lv₀ 6 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec6 c (ent6 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (ent6 m c) fun w => A_eq6 (ent6 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn6 (ent6 m) c)
    unfold Pipeline.ΦA
    iintro ⟨Hp, -, Hr⟩
    isplitl [Hr]; · iexact Hr
    iexact Hp
  hout c := by
    refine BIBase.Entails.trans (PhiOut6 (ent6 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (ent6 m c) (ext6 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-- The record's two thread states by name (projections of the record above). -/
theorem reg6_pre (c : Dev nD) : (reg6 m).pre c = iprop(StableHlo.held (c : Thread nD τ) (Pipeline.ucRefs τ sig) (W13 m c) ∗ R c) := rfl
theorem reg6_post (c : Dev nD) : (reg6 m).post c = iprop(StableHlo.held (c : Thread nD τ) (Pipeline.ucRefs τ sig) (W14 m c) ∗ R c) := rfl

end Cert.Kernel.Hand

end
-- ==== Proof.K.RunReg7.lean ====
import proofs.«409348_j89627377533173_1_alg».proof.Proof.K.RunPd
import Idealize.ShloMosaic.Lib.Pipeline.RegionsLoop

-- decided memberships and the launch kit's enumerations over 501 references recurse past the default depth
set_option maxRecDepth 2516

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ
variable (m : (ℓ : Loc nD τ sig) → Buf (Elt F) ℓ)

/-! ## The region's exit: each array at what the pipeline leaves, every other buffer as entered -/
theorem hF7_0 (c : Dev nD) : (dat7 (ent7 m) c).arrAt (0 : Fin 6) cfg7.N = ext7 m c (Pipeline.arrRef spec7 (0 : Fin 6)) :=
  ((dat7 (ent7 m) c).arrAt_in (0 : Fin 6) rfl _).trans ((A_eq7 (ent7 m) c (0 : Fin 6)).trans (W16_of_ne m c _ (by decide)).symm)
theorem hF7_1 (c : Dev nD) : (dat7 (ent7 m) c).arrAt (1 : Fin 6) cfg7.N = ext7 m c (Pipeline.arrRef spec7 (1 : Fin 6)) :=
  ((dat7 (ent7 m) c).arrAt_in (1 : Fin 6) rfl _).trans ((A_eq7 (ent7 m) c (1 : Fin 6)).trans (W16_of_ne m c _ (by decide)).symm)
theorem hF7_2 (c : Dev nD) : (dat7 (ent7 m) c).arrAt (2 : Fin 6) cfg7.N = ext7 m c (Pipeline.arrRef spec7 (2 : Fin 6)) :=
  ((dat7 (ent7 m) c).arrAt_in (2 : Fin 6) rfl _).trans ((A_eq7 (ent7 m) c (2 : Fin 6)).trans (W16_of_ne m c _ (by decide)).symm)
theorem hF7_3 (c : Dev nD) : (dat7 (ent7 m) c).arrAt (3 : Fin 6) cfg7.N = ext7 m c (Pipeline.arrRef spec7 (3 : Fin 6)) :=
  ((dat7 (ent7 m) c).arrAt_in (3 : Fin 6) rfl _).trans ((A_eq7 (ent7 m) c (3 : Fin 6)).trans (W16_of_ne m c _ (by decide)).symm)
theorem hF7_4 (c : Dev nD) : (dat7 (ent7 m) c).arrAt (4 : Fin 6) cfg7.N = ext7 m c (Pipeline.arrRef spec7 (4 : Fin 6)) :=
  ((dat7 (ent7 m) c).arrAt_in (4 : Fin 6) rfl _).trans ((A_eq7 (ent7 m) c (4 : Fin 6)).trans (W16_of_ne m c _ (by decide)).symm)
theorem hF7_5 (c : Dev nD) : (dat7 (ent7 m) c).arrAt (5 : Fin 6) cfg7.N = ext7 m c (Pipeline.arrRef spec7 (5 : Fin 6)) :=
  (W16_v248 m c).symm
/-- At region 7's exit each of its arrays holds what the pipeline leaves: an output its folded write-backs (the chain's
    update there), an input what it held at entry (no write-back, and the updates are elsewhere); window by window, the
    6 windows enumerated by a decided disjunction. -/
theorem hF7 (c : Dev nD) : ∀ w : Fin 6, (dat7 (ent7 m) c).arrAt w cfg7.N = ext7 m c (Pipeline.arrRef spec7 w) := by
  intro w
  have hw : w = 0 ∨ w = 1 ∨ w = 2 ∨ w = 3 ∨ w = 4 ∨ w = 5 := by revert w; decide
  rcases hw with rfl | rfl | rfl | rfl | rfl | rfl
  · exact hF7_0 m c
  · exact hF7_1 m c
  · exact hF7_2 m c
  · exact hF7_3 m c
  · exact hF7_4 m c
  · exact hF7_5 m c
/-- and every other buffer what it held at entry. -/
theorem hrest7 (c : Dev nD) : ∀ b, b ∉ Finset.univ.image (Pipeline.arrRef spec7) → ext7 m c b = ent7 m c b :=
  fun b hb => W16_of_ne m c b
    (fun e => hb (Finset.mem_image.mpr ⟨5, Finset.mem_univ _, e.symm⟩))

/-! ## The region as a segment -/

-- a library lemma stated over `pin pcs a p` unifies with the pinned configuration only when unification may unfold
-- plain definitions in a metavariable's type
set_option backward.isDefEq.respectTransparency.types false in
/-- REGION 7 (custom_call 7) over the thread state: entered from every unscoped buffer at `W15`, left at `W16`.
    Its arrays split out of the unscoped buffers (`arrays_of_unscopedBufs`) and put back at the exit contents
    (`unscopedBufs_of_arrays`); the generator register and the scoped rest into the region's invariant (`PhiIn7`) and out
    (`PhiOut7`); nothing owed; no semaphore of the kernel's own. -/
def reg7 : RegionSeg (pcfgs (F := F)) adm (pdats m) () defs₀ Variants.none L₀ lv₀ 7 where
  win := launch7.win.to₀
  block_pos := launch7.block_pos
  stage_whole := launch7.stage_whole
  K := PEmpty
  osem k := k.elim
  ho := Pipeline.OwnSemFacts.none _
  hbody c := (body_obligation7 (ent7 m) c).loose
  hwaits := Pipeline.hwaits_of_owed_zero _ _ _ _ L₀ lv₀ 7 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec7 c (ent7 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (ent7 m c) fun w => A_eq7 (ent7 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn7 (ent7 m) c)
    unfold Pipeline.ΦA
    iintro ⟨Hp, -, Hr⟩
    isplitl [Hr]; · iexact Hr
    iexact Hp
  hout c := by
    refine BIBase.Entails.trans (PhiOut7 (ent7 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (ent7 m c) (ext7 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-- The record's two thread states by name (projections of the record above). -/
theorem reg7_pre (c : Dev nD) : (reg7 m).pre c = iprop(StableHlo.held (c : Thread nD τ) (Pipeline.ucRefs τ sig) (W15 m c) ∗ R c) := rfl
theorem reg7_post (c : Dev nD) : (reg7 m).post c = iprop(StableHlo.held (c : Thread nD τ) (Pipeline.ucRefs τ sig) (W16 m c) ∗ R c) := rfl

end Cert.Kernel.Hand

end
-- ==== Proof.K.RunReg8.lean ====
import proofs.«409348_j89627377533173_1_alg».proof.Proof.K.RunPd
import Idealize.ShloMosaic.Lib.Pipeline.RegionsLoop

-- decided memberships and the launch kit's enumerations over 501 references recurse past the default depth
set_option maxRecDepth 2516

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ
variable (m : (ℓ : Loc nD τ sig) → Buf (Elt F) ℓ)

/-! ## The region's exit: each array at what the pipeline leaves, every other buffer as entered -/
theorem hF8_0 (c : Dev nD) : (dat8 (ent8 m) c).arrAt (0 : Fin 9) cfg8.N = ext8 m c (Pipeline.arrRef spec8 (0 : Fin 9)) :=
  ((dat8 (ent8 m) c).arrAt_in (0 : Fin 9) rfl _).trans ((A_eq8 (ent8 m) c (0 : Fin 9)).trans (W18_of_ne m c _ (by decide) (by decide) (by decide)).symm)
theorem hF8_1 (c : Dev nD) : (dat8 (ent8 m) c).arrAt (1 : Fin 9) cfg8.N = ext8 m c (Pipeline.arrRef spec8 (1 : Fin 9)) :=
  ((dat8 (ent8 m) c).arrAt_in (1 : Fin 9) rfl _).trans ((A_eq8 (ent8 m) c (1 : Fin 9)).trans (W18_of_ne m c _ (by decide) (by decide) (by decide)).symm)
theorem hF8_2 (c : Dev nD) : (dat8 (ent8 m) c).arrAt (2 : Fin 9) cfg8.N = ext8 m c (Pipeline.arrRef spec8 (2 : Fin 9)) :=
  ((dat8 (ent8 m) c).arrAt_in (2 : Fin 9) rfl _).trans ((A_eq8 (ent8 m) c (2 : Fin 9)).trans (W18_of_ne m c _ (by decide) (by decide) (by decide)).symm)
theorem hF8_3 (c : Dev nD) : (dat8 (ent8 m) c).arrAt (3 : Fin 9) cfg8.N = ext8 m c (Pipeline.arrRef spec8 (3 : Fin 9)) :=
  ((dat8 (ent8 m) c).arrAt_in (3 : Fin 9) rfl _).trans ((A_eq8 (ent8 m) c (3 : Fin 9)).trans (W18_of_ne m c _ (by decide) (by decide) (by decide)).symm)
theorem hF8_4 (c : Dev nD) : (dat8 (ent8 m) c).arrAt (4 : Fin 9) cfg8.N = ext8 m c (Pipeline.arrRef spec8 (4 : Fin 9)) :=
  ((dat8 (ent8 m) c).arrAt_in (4 : Fin 9) rfl _).trans ((A_eq8 (ent8 m) c (4 : Fin 9)).trans (W18_of_ne m c _ (by decide) (by decide) (by decide)).symm)
theorem hF8_5 (c : Dev nD) : (dat8 (ent8 m) c).arrAt (5 : Fin 9) cfg8.N = ext8 m c (Pipeline.arrRef spec8 (5 : Fin 9)) :=
  ((dat8 (ent8 m) c).arrAt_in (5 : Fin 9) rfl _).trans ((A_eq8 (ent8 m) c (5 : Fin 9)).trans (W18_of_ne m c _ (by decide) (by decide) (by decide)).symm)
theorem hF8_6 (c : Dev nD) : (dat8 (ent8 m) c).arrAt (6 : Fin 9) cfg8.N = ext8 m c (Pipeline.arrRef spec8 (6 : Fin 9)) :=
  (W18_v289_0 m c).symm
theorem hF8_7 (c : Dev nD) : (dat8 (ent8 m) c).arrAt (7 : Fin 9) cfg8.N = ext8 m c (Pipeline.arrRef spec8 (7 : Fin 9)) :=
  (W18_v289_1 m c).symm
theorem hF8_8 (c : Dev nD) : (dat8 (ent8 m) c).arrAt (8 : Fin 9) cfg8.N = ext8 m c (Pipeline.arrRef spec8 (8 : Fin 9)) :=
  (W18_v289_2 m c).symm
/-- At region 8's exit each of its arrays holds what the pipeline leaves: an output its folded write-backs (the chain's
    update there), an input what it held at entry (no write-back, and the updates are elsewhere); window by window, the
    9 windows enumerated by a decided disjunction. -/
theorem hF8 (c : Dev nD) : ∀ w : Fin 9, (dat8 (ent8 m) c).arrAt w cfg8.N = ext8 m c (Pipeline.arrRef spec8 w) := by
  intro w
  have hw : w = 0 ∨ w = 1 ∨ w = 2 ∨ w = 3 ∨ w = 4 ∨ w = 5 ∨ w = 6 ∨ w = 7 ∨ w = 8 := by revert w; decide
  rcases hw with rfl | rfl | rfl | rfl | rfl | rfl | rfl | rfl | rfl
  · exact hF8_0 m c
  · exact hF8_1 m c
  · exact hF8_2 m c
  · exact hF8_3 m c
  · exact hF8_4 m c
  · exact hF8_5 m c
  · exact hF8_6 m c
  · exact hF8_7 m c
  · exact hF8_8 m c
/-- and every other buffer what it held at entry. -/
theorem hrest8 (c : Dev nD) : ∀ b, b ∉ Finset.univ.image (Pipeline.arrRef spec8) → ext8 m c b = ent8 m c b :=
  fun b hb => W18_of_ne m c b
    (fun e => hb (Finset.mem_image.mpr ⟨6, Finset.mem_univ _, e.symm⟩))
    (fun e => hb (Finset.mem_image.mpr ⟨7, Finset.mem_univ _, e.symm⟩))
    (fun e => hb (Finset.mem_image.mpr ⟨8, Finset.mem_univ _, e.symm⟩))

/-! ## The region as a segment -/

-- a library lemma stated over `pin pcs a p` unifies with the pinned configuration only when unification may unfold
-- plain definitions in a metavariable's type
set_option backward.isDefEq.respectTransparency.types false in
/-- REGION 8 (custom_call 8) over the thread state: entered from every unscoped buffer at `W17`, left at `W18`.
    Its arrays split out of the unscoped buffers (`arrays_of_unscopedBufs`) and put back at the exit contents
    (`unscopedBufs_of_arrays`); the generator register and the scoped rest into the region's invariant (`PhiIn8`) and out
    (`PhiOut8`); nothing owed; no semaphore of the kernel's own. -/
def reg8 : RegionSeg (pcfgs (F := F)) adm (pdats m) () defs₀ Variants.none L₀ lv₀ 8 where
  win := launch8.win.to₀
  block_pos := launch8.block_pos
  stage_whole := launch8.stage_whole
  K := PEmpty
  osem k := k.elim
  ho := Pipeline.OwnSemFacts.none _
  hbody c := (body_obligation8 (ent8 m) c).loose
  hwaits := Pipeline.hwaits_of_owed_zero _ _ _ _ L₀ lv₀ 8 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec8 c (ent8 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (ent8 m c) fun w => A_eq8 (ent8 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn8 (ent8 m) c)
    unfold Pipeline.ΦA
    iintro ⟨Hp, -, Hr⟩
    isplitl [Hr]; · iexact Hr
    iexact Hp
  hout c := by
    refine BIBase.Entails.trans (PhiOut8 (ent8 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (ent8 m c) (ext8 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-- The record's two thread states by name (projections of the record above). -/
theorem reg8_pre (c : Dev nD) : (reg8 m).pre c = iprop(StableHlo.held (c : Thread nD τ) (Pipeline.ucRefs τ sig) (W17 m c) ∗ R c) := rfl
theorem reg8_post (c : Dev nD) : (reg8 m).post c = iprop(StableHlo.held (c : Thread nD τ) (Pipeline.ucRefs τ sig) (W18 m c) ∗ R c) := rfl

end Cert.Kernel.Hand

end
-- ==== Proof.K.RunReg9.lean ====
import proofs.«409348_j89627377533173_1_alg».proof.Proof.K.RunPd
import Idealize.ShloMosaic.Lib.Pipeline.RegionsLoop

-- decided memberships and the launch kit's enumerations over 501 references recurse past the default depth
set_option maxRecDepth 2516

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ
variable (m : (ℓ : Loc nD τ sig) → Buf (Elt F) ℓ)

/-! ## The region's exit: each array at what the pipeline leaves, every other buffer as entered -/
theorem hF9_0 (c : Dev nD) : (dat9 (ent9 m) c).arrAt (0 : Fin 6) cfg9.N = ext9 m c (Pipeline.arrRef spec9 (0 : Fin 6)) :=
  ((dat9 (ent9 m) c).arrAt_in (0 : Fin 6) rfl _).trans ((A_eq9 (ent9 m) c (0 : Fin 6)).trans (W20_of_ne m c _ (by decide)).symm)
theorem hF9_1 (c : Dev nD) : (dat9 (ent9 m) c).arrAt (1 : Fin 6) cfg9.N = ext9 m c (Pipeline.arrRef spec9 (1 : Fin 6)) :=
  ((dat9 (ent9 m) c).arrAt_in (1 : Fin 6) rfl _).trans ((A_eq9 (ent9 m) c (1 : Fin 6)).trans (W20_of_ne m c _ (by decide)).symm)
theorem hF9_2 (c : Dev nD) : (dat9 (ent9 m) c).arrAt (2 : Fin 6) cfg9.N = ext9 m c (Pipeline.arrRef spec9 (2 : Fin 6)) :=
  ((dat9 (ent9 m) c).arrAt_in (2 : Fin 6) rfl _).trans ((A_eq9 (ent9 m) c (2 : Fin 6)).trans (W20_of_ne m c _ (by decide)).symm)
theorem hF9_3 (c : Dev nD) : (dat9 (ent9 m) c).arrAt (3 : Fin 6) cfg9.N = ext9 m c (Pipeline.arrRef spec9 (3 : Fin 6)) :=
  ((dat9 (ent9 m) c).arrAt_in (3 : Fin 6) rfl _).trans ((A_eq9 (ent9 m) c (3 : Fin 6)).trans (W20_of_ne m c _ (by decide)).symm)
theorem hF9_4 (c : Dev nD) : (dat9 (ent9 m) c).arrAt (4 : Fin 6) cfg9.N = ext9 m c (Pipeline.arrRef spec9 (4 : Fin 6)) :=
  ((dat9 (ent9 m) c).arrAt_in (4 : Fin 6) rfl _).trans ((A_eq9 (ent9 m) c (4 : Fin 6)).trans (W20_of_ne m c _ (by decide)).symm)
theorem hF9_5 (c : Dev nD) : (dat9 (ent9 m) c).arrAt (5 : Fin 6) cfg9.N = ext9 m c (Pipeline.arrRef spec9 (5 : Fin 6)) :=
  (W20_v308 m c).symm
/-- At region 9's exit each of its arrays holds what the pipeline leaves: an output its folded write-backs (the chain's
    update there), an input what it held at entry (no write-back, and the updates are elsewhere); window by window, the
    6 windows enumerated by a decided disjunction. -/
theorem hF9 (c : Dev nD) : ∀ w : Fin 6, (dat9 (ent9 m) c).arrAt w cfg9.N = ext9 m c (Pipeline.arrRef spec9 w) := by
  intro w
  have hw : w = 0 ∨ w = 1 ∨ w = 2 ∨ w = 3 ∨ w = 4 ∨ w = 5 := by revert w; decide
  rcases hw with rfl | rfl | rfl | rfl | rfl | rfl
  · exact hF9_0 m c
  · exact hF9_1 m c
  · exact hF9_2 m c
  · exact hF9_3 m c
  · exact hF9_4 m c
  · exact hF9_5 m c
/-- and every other buffer what it held at entry. -/
theorem hrest9 (c : Dev nD) : ∀ b, b ∉ Finset.univ.image (Pipeline.arrRef spec9) → ext9 m c b = ent9 m c b :=
  fun b hb => W20_of_ne m c b
    (fun e => hb (Finset.mem_image.mpr ⟨5, Finset.mem_univ _, e.symm⟩))

/-! ## The region as a segment -/

-- a library lemma stated over `pin pcs a p` unifies with the pinned configuration only when unification may unfold
-- plain definitions in a metavariable's type
set_option backward.isDefEq.respectTransparency.types false in
/-- REGION 9 (custom_call 9) over the thread state: entered from every unscoped buffer at `W19`, left at `W20`.
    Its arrays split out of the unscoped buffers (`arrays_of_unscopedBufs`) and put back at the exit contents
    (`unscopedBufs_of_arrays`); the generator register and the scoped rest into the region's invariant (`PhiIn9`) and out
    (`PhiOut9`); nothing owed; no semaphore of the kernel's own. -/
def reg9 : RegionSeg (pcfgs (F := F)) adm (pdats m) () defs₀ Variants.none L₀ lv₀ 9 where
  win := launch9.win.to₀
  block_pos := launch9.block_pos
  stage_whole := launch9.stage_whole
  K := PEmpty
  osem k := k.elim
  ho := Pipeline.OwnSemFacts.none _
  hbody c := (body_obligation9 (ent9 m) c).loose
  hwaits := Pipeline.hwaits_of_owed_zero _ _ _ _ L₀ lv₀ 9 fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec9 c (ent9 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (ent9 m c) fun w => A_eq9 (ent9 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn9 (ent9 m) c)
    unfold Pipeline.ΦA
    iintro ⟨Hp, -, Hr⟩
    isplitl [Hr]; · iexact Hr
    iexact Hp
  hout c := by
    refine BIBase.Entails.trans (PhiOut9 (ent9 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (ent9 m c) (ext9 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-- The record's two thread states by name (projections of the record above). -/
theorem reg9_pre (c : Dev nD) : (reg9 m).pre c = iprop(StableHlo.held (c : Thread nD τ) (Pipeline.ucRefs τ sig) (W19 m c) ∗ R c) := rfl
theorem reg9_post (c : Dev nD) : (reg9 m).post c = iprop(StableHlo.held (c : Thread nD τ) (Pipeline.ucRefs τ sig) (W20 m c) ∗ R c) := rfl

end Cert.Kernel.Hand

end
-- ==== Proof.K.RunReg10.lean ====
import proofs.«409348_j89627377533173_1_alg».proof.Proof.K.RunPd
import Idealize.ShloMosaic.Lib.Pipeline.RegionsLoop

-- decided memberships and the launch kit's enumerations over 501 references recurse past the default depth
set_option maxRecDepth 2516

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ
variable (m : (ℓ : Loc nD τ sig) → Buf (Elt F) ℓ)

/-! ## The region's exit: each array at what the pipeline leaves, every other buffer as entered -/
theorem hF10_0 (c : Dev nD) : (dat10 (ent10 m) c).arrAt (0 : Fin 4) cfg10.N = ext10 m c (Pipeline.arrRef spec10 (0 : Fin 4)) :=
  ((dat10 (ent10 m) c).arrAt_in (0 : Fin 4) rfl _).trans ((A_eq10 (ent10 m) c (0 : Fin 4)).trans (W21_of_ne m c _ (by decide) (by decide)).symm)
theorem hF10_1 (c : Dev nD) : (dat10 (ent10 m) c).arrAt (1 : Fin 4) cfg10.N = ext10 m c (Pipeline.arrRef spec10 (1 : Fin 4)) :=
  ((dat10 (ent10 m) c).arrAt_in (1 : Fin 4) rfl _).trans ((A_eq10 (ent10 m) c (1 : Fin 4)).trans (W21_of_ne m c _ (by decide) (by decide)).symm)
theorem hF10_2 (c : Dev nD) : (dat10 (ent10 m) c).arrAt (2 : Fin 4) cfg10.N = ext10 m c (Pipeline.arrRef spec10 (2 : Fin 4)) :=
  (W21_v309_0 m c).symm
theorem hF10_3 (c : Dev nD) : (dat10 (ent10 m) c).arrAt (3 : Fin 4) cfg10.N = ext10 m c (Pipeline.arrRef spec10 (3 : Fin 4)) :=
  (W21_v309_1 m c).symm
/-- At region 10's exit each of its arrays holds what the pipeline leaves: an output its folded write-backs (the chain's
    update there), an input what it held at entry (no write-back, and the updates are elsewhere); window by window, the
    4 windows enumerated by a decided disjunction. -/
theorem hF10 (c : Dev nD) : ∀ w : Fin 4, (dat10 (ent10 m) c).arrAt w cfg10.N = ext10 m c (Pipeline.arrRef spec10 w) := by
  intro w
  have hw : w = 0 ∨ w = 1 ∨ w = 2 ∨ w = 3 := by revert w; decide
  rcases hw with rfl | rfl | rfl | rfl
  · exact hF10_0 m c
  · exact hF10_1 m c
  · exact hF10_2 m c
  · exact hF10_3 m c
/-- and every other buffer what it held at entry. -/
theorem hrest10 (c : Dev nD) : ∀ b, b ∉ Finset.univ.image (Pipeline.arrRef spec10) → ext10 m c b = ent10 m c b :=
  fun b hb => W21_of_ne m c b
    (fun e => hb (Finset.mem_image.mpr ⟨2, Finset.mem_univ _, e.symm⟩))
    (fun e => hb (Finset.mem_image.mpr ⟨3, Finset.mem_univ _, e.symm⟩))

/-! ## The region as a segment -/

-- a library lemma stated over `pin pcs a p` unifies with the pinned configuration only when unification may unfold
-- plain definitions in a metavariable's type
set_option backward.isDefEq.respectTransparency.types false in
/-- REGION 10 (custom_call 10) over the thread state: entered from every unscoped buffer at `W20`, left at `W21`.
    Its arrays split out of the unscoped buffers (`arrays_of_unscopedBufs`) and put back at the exit contents
    (`unscopedBufs_of_arrays`); the generator register and the scoped rest into the region's invariant (`PhiIn10`) and out
    (`PhiOut10`); nothing owed; no semaphore of the kernel's own. -/
def reg10 : RegionSeg (pcfgs (F := F)) adm (pdats m) () defs₀ Variants.none L₀ lv₀ 10 where
  win := launch10.win.to₀
  block_pos := launch10.block_pos
  stage_whole := launch10.stage_whole
  K := PEmpty
  osem k := k.elim
  ho := Pipeline.OwnSemFacts.none _
  hbody c := (body_obligation10 (ent10 m) c).loose
  hwaits := Pipeline.hwaits_of_owed_zero _ _ _ _ L₀ lv₀ 10 fun _ _ => rfl
  pre c := iprop(StableHlo.held (c : Thread nD τ) (Pipeline.ucRefs τ sig) (W20 m c) ∗ R c)
  post c := iprop(StableHlo.held (c : Thread nD τ) (Pipeline.ucRefs τ sig) (W21 m c) ∗ R c)
  X c := iprop(∃ r, prngReg c r)
  Y c := iprop(∃ r, prngReg c r)
  Z c := Pipeline.unscopedRest (Ix := Unit) (Name := ℕ) (U := UR sig nD τ) (Lvl := ℕ) spec10 c (ent10 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (ent10 m c) fun w => A_eq10 (ent10 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn10 (ent10 m) c)
    unfold Pipeline.ΦA
    iintro ⟨Hp, -, Hr⟩
    isplitl [Hr]; · iexact Hr
    iexact Hp
  hout c := by
    refine BIBase.Entails.trans (PhiOut10 (ent10 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (ent10 m c) (ext10 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-- The record's two thread states by name (projections of the record above). -/
theorem reg10_pre (c : Dev nD) : (reg10 m).pre c = iprop(StableHlo.held (c : Thread nD τ) (Pipeline.ucRefs τ sig) (W20 m c) ∗ R c) := rfl
theorem reg10_post (c : Dev nD) : (reg10 m).post c = iprop(StableHlo.held (c : Thread nD τ) (Pipeline.ucRefs τ sig) (W21 m c) ∗ R c) := rfl

end Cert.Kernel.Hand

end
-- ==== Proof.K.Run.lean ====
import proofs.«409348_j89627377533173_1_alg».proof.Proof.K.RunReg0
import proofs.«409348_j89627377533173_1_alg».proof.Proof.K.RunReg1
import proofs.«409348_j89627377533173_1_alg».proof.Proof.K.RunReg2
import proofs.«409348_j89627377533173_1_alg».proof.Proof.K.RunReg3
import proofs.«409348_j89627377533173_1_alg».proof.Proof.K.RunReg4
import proofs.«409348_j89627377533173_1_alg».proof.Proof.K.RunReg5
import proofs.«409348_j89627377533173_1_alg».proof.Proof.K.RunReg6
import proofs.«409348_j89627377533173_1_alg».proof.Proof.K.RunReg7
import proofs.«409348_j89627377533173_1_alg».proof.Proof.K.RunReg8
import proofs.«409348_j89627377533173_1_alg».proof.Proof.K.RunReg9
import proofs.«409348_j89627377533173_1_alg».proof.Proof.K.RunReg10
import proofs.«409348_j89627377533173_1_alg».proof.Proof.K.RunCond
import proofs.«409348_j89627377533173_1_alg».proof.Proof.Gen.Kernel.Regions

-- decided memberships and the launch kit's enumerations over 501 references recurse past the default depth
set_option maxRecDepth 2516

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ
variable (m : (ℓ : Loc nD τ sig) → Buf (Elt F) ℓ)

/-! ## The generated valuations at these contents -/

/-- What the regions leave in the buffers they may change: the chain's contents there. (Its values are read by rewriting the
    conditionals, never by unfolding the chain.) -/
def outs : Outs (F := F) := fun J r c =>
  if J = 2 then W2 m c r else
  if J = 4 then W4 m c r else
  if J = 6 then W6 m c r else
  if J = 8 then W8 m c r else
  if J = 10 then W10 m c r else
  if J = 12 then W12 m c r else
  if J = 14 then W14 m c r else
  if J = 16 then W16 m c r else
  if J = 18 then W18 m c r else
  if J = 20 then W20 m c r else
  if J = 21 then W21 m c r else
  W0 m c r
theorem outs_2 (r : Ref sig .tc) (c : Dev nD) : outs m 2 r c = W2 m c r := by
  unfold outs; rw [if_pos rfl]
theorem outs_4 (r : Ref sig .tc) (c : Dev nD) : outs m 4 r c = W4 m c r := by
  unfold outs; rw [if_neg (by decide : ¬ (4 : ℕ) = 2), if_pos rfl]
theorem outs_6 (r : Ref sig .tc) (c : Dev nD) : outs m 6 r c = W6 m c r := by
  unfold outs; rw [if_neg (by decide : ¬ (6 : ℕ) = 2), if_neg (by decide : ¬ (6 : ℕ) = 4), if_pos rfl]
theorem outs_8 (r : Ref sig .tc) (c : Dev nD) : outs m 8 r c = W8 m c r := by
  unfold outs; rw [if_neg (by decide : ¬ (8 : ℕ) = 2), if_neg (by decide : ¬ (8 : ℕ) = 4), if_neg (by decide : ¬ (8 : ℕ) = 6), if_pos rfl]
theorem outs_10 (r : Ref sig .tc) (c : Dev nD) : outs m 10 r c = W10 m c r := by
  unfold outs; rw [if_neg (by decide : ¬ (10 : ℕ) = 2), if_neg (by decide : ¬ (10 : ℕ) = 4), if_neg (by decide : ¬ (10 : ℕ) = 6), if_neg (by decide : ¬ (10 : ℕ) = 8), if_pos rfl]
theorem outs_12 (r : Ref sig .tc) (c : Dev nD) : outs m 12 r c = W12 m c r := by
  unfold outs; rw [if_neg (by decide : ¬ (12 : ℕ) = 2), if_neg (by decide : ¬ (12 : ℕ) = 4), if_neg (by decide : ¬ (12 : ℕ) = 6), if_neg (by decide : ¬ (12 : ℕ) = 8), if_neg (by decide : ¬ (12 : ℕ) = 10), if_pos rfl]
theorem outs_14 (r : Ref sig .tc) (c : Dev nD) : outs m 14 r c = W14 m c r := by
  unfold outs; rw [if_neg (by decide : ¬ (14 : ℕ) = 2), if_neg (by decide : ¬ (14 : ℕ) = 4), if_neg (by decide : ¬ (14 : ℕ) = 6), if_neg (by decide : ¬ (14 : ℕ) = 8), if_neg (by decide : ¬ (14 : ℕ) = 10), if_neg (by decide : ¬ (14 : ℕ) = 12), if_pos rfl]
theorem outs_16 (r : Ref sig .tc) (c : Dev nD) : outs m 16 r c = W16 m c r := by
  unfold outs; rw [if_neg (by decide : ¬ (16 : ℕ) = 2), if_neg (by decide : ¬ (16 : ℕ) = 4), if_neg (by decide : ¬ (16 : ℕ) = 6), if_neg (by decide : ¬ (16 : ℕ) = 8), if_neg (by decide : ¬ (16 : ℕ) = 10), if_neg (by decide : ¬ (16 : ℕ) = 12), if_neg (by decide : ¬ (16 : ℕ) = 14), if_pos rfl]
theorem outs_18 (r : Ref sig .tc) (c : Dev nD) : outs m 18 r c = W18 m c r := by
  unfold outs; rw [if_neg (by decide : ¬ (18 : ℕ) = 2), if_neg (by decide : ¬ (18 : ℕ) = 4), if_neg (by decide : ¬ (18 : ℕ) = 6), if_neg (by decide : ¬ (18 : ℕ) = 8), if_neg (by decide : ¬ (18 : ℕ) = 10), if_neg (by decide : ¬ (18 : ℕ) = 12), if_neg (by decide : ¬ (18 : ℕ) = 14), if_neg (by decide : ¬ (18 : ℕ) = 16), if_pos rfl]
theorem outs_20 (r : Ref sig .tc) (c : Dev nD) : outs m 20 r c = W20 m c r := by
  unfold outs; rw [if_neg (by decide : ¬ (20 : ℕ) = 2), if_neg (by decide : ¬ (20 : ℕ) = 4), if_neg (by decide : ¬ (20 : ℕ) = 6), if_neg (by decide : ¬ (20 : ℕ) = 8), if_neg (by decide : ¬ (20 : ℕ) = 10), if_neg (by decide : ¬ (20 : ℕ) = 12), if_neg (by decide : ¬ (20 : ℕ) = 14), if_neg (by decide : ¬ (20 : ℕ) = 16), if_neg (by decide : ¬ (20 : ℕ) = 18), if_pos rfl]
theorem outs_21 (r : Ref sig .tc) (c : Dev nD) : outs m 21 r c = W21 m c r := by
  unfold outs; rw [if_neg (by decide : ¬ (21 : ℕ) = 2), if_neg (by decide : ¬ (21 : ℕ) = 4), if_neg (by decide : ¬ (21 : ℕ) = 6), if_neg (by decide : ¬ (21 : ℕ) = 8), if_neg (by decide : ¬ (21 : ℕ) = 10), if_neg (by decide : ¬ (21 : ℕ) = 12), if_neg (by decide : ¬ (21 : ℕ) = 14), if_neg (by decide : ¬ (21 : ℕ) = 16), if_neg (by decide : ¬ (21 : ℕ) = 18), if_neg (by decide : ¬ (21 : ℕ) = 20), if_pos rfl]

/-! Each generated valuation `VJ` at `outs` is the chain's `WJ`: a host stretch by the one before it, a region by its
    outputs read off the chain. -/
theorem V1_eq (c : Dev nD) : V1 m c = W1 m c := by unfold W1; rfl
theorem V2_eq (c : Dev nD) : V2 m (outs m) c = W2 m c := by
  show Function.update (Function.update (Function.update (V1 m c) main_v49_0 (outs m 2 main_v49_0 c)) main_v49_1 (outs m 2 main_v49_1 c)) main_v49_2 (outs m 2 main_v49_2 c) = _
  rw [V1_eq]; simp only [outs_2]
  rw [W2_v49_0, W2_v49_1, W2_v49_2]; unfold W2; rfl
theorem V3_eq (c : Dev nD) : V3 m (outs m) c = W3 m c := by
  show StableHlo.after hostOps1 (V2 m (outs m) c) = _
  rw [V2_eq]; unfold W3; rfl
theorem V4_eq (c : Dev nD) : V4 m (outs m) c = W4 m c := by
  show Function.update (V3 m (outs m) c) main_v68 (outs m 4 main_v68 c) = _
  rw [V3_eq]; simp only [outs_4]
  rw [W4_v68]; unfold W4; rfl
theorem V5_eq (c : Dev nD) : V5 m (outs m) c = W5 m c := by
  show StableHlo.after hostOps2 (V4 m (outs m) c) = _
  rw [V4_eq]; unfold W5; rfl
theorem V6_eq (c : Dev nD) : V6 m (outs m) c = W6 m c := by
  show Function.update (Function.update (Function.update (V5 m (outs m) c) main_v109_0 (outs m 6 main_v109_0 c)) main_v109_1 (outs m 6 main_v109_1 c)) main_v109_2 (outs m 6 main_v109_2 c) = _
  rw [V5_eq]; simp only [outs_6]
  rw [W6_v109_0, W6_v109_1, W6_v109_2]; unfold W6; rfl
theorem V7_eq (c : Dev nD) : V7 m (outs m) c = W7 m c := by
  show StableHlo.after hostOps3 (V6 m (outs m) c) = _
  rw [V6_eq]; unfold W7; rfl
theorem V8_eq (c : Dev nD) : V8 m (outs m) c = W8 m c := by
  show Function.update (V7 m (outs m) c) main_v128 (outs m 8 main_v128 c) = _
  rw [V7_eq]; simp only [outs_8]
  rw [W8_v128]; unfold W8; rfl
theorem V9_eq (c : Dev nD) : V9 m (outs m) c = W9 m c := by
  show StableHlo.after hostOps4 (V8 m (outs m) c) = _
  rw [V8_eq]; unfold W9; rfl
theorem V10_eq (c : Dev nD) : V10 m (outs m) c = W10 m c := by
  show Function.update (Function.update (Function.update (V9 m (outs m) c) main_v169_0 (outs m 10 main_v169_0 c)) main_v169_1 (outs m 10 main_v169_1 c)) main_v169_2 (outs m 10 main_v169_2 c) = _
  rw [V9_eq]; simp only [outs_10]
  rw [W10_v169_0, W10_v169_1, W10_v169_2]; unfold W10; rfl
theorem V11_eq (c : Dev nD) : V11 m (outs m) c = W11 m c := by
  show StableHlo.after hostOps5 (V10 m (outs m) c) = _
  rw [V10_eq]; unfold W11; rfl
theorem V12_eq (c : Dev nD) : V12 m (outs m) c = W12 m c := by
  show Function.update (V11 m (outs m) c) main_v188 (outs m 12 main_v188 c) = _
  rw [V11_eq]; simp only [outs_12]
  rw [W12_v188]; unfold W12; rfl
theorem V13_eq (c : Dev nD) : V13 m (outs m) c = W13 m c := by
  show StableHlo.after hostOps6 (V12 m (outs m) c) = _
  rw [V12_eq]; unfold W13; rfl
theorem V14_eq (c : Dev nD) : V14 m (outs m) c = W14 m c := by
  show Function.update (Function.update (Function.update (V13 m (outs m) c) main_v229_0 (outs m 14 main_v229_0 c)) main_v229_1 (outs m 14 main_v229_1 c)) main_v229_2 (outs m 14 main_v229_2 c) = _
  rw [V13_eq]; simp only [outs_14]
  rw [W14_v229_0, W14_v229_1, W14_v229_2]; unfold W14; rfl
theorem V15_eq (c : Dev nD) : V15 m (outs m) c = W15 m c := by
  show StableHlo.after hostOps7 (V14 m (outs m) c) = _
  rw [V14_eq]; unfold W15; rfl
theorem V16_eq (c : Dev nD) : V16 m (outs m) c = W16 m c := by
  show Function.update (V15 m (outs m) c) main_v248 (outs m 16 main_v248 c) = _
  rw [V15_eq]; simp only [outs_16]
  rw [W16_v248]; unfold W16; rfl
theorem V17_eq (c : Dev nD) : V17 m (outs m) c = W17 m c := by
  show StableHlo.after hostOps8 (V16 m (outs m) c) = _
  rw [V16_eq]; unfold W17; rfl
theorem V18_eq (c : Dev nD) : V18 m (outs m) c = W18 m c := by
  show Function.update (Function.update (Function.update (V17 m (outs m) c) main_v289_0 (outs m 18 main_v289_0 c)) main_v289_1 (outs m 18 main_v289_1 c)) main_v289_2 (outs m 18 main_v289_2 c) = _
  rw [V17_eq]; simp only [outs_18]
  rw [W18_v289_0, W18_v289_1, W18_v289_2]; unfold W18; rfl
theorem V19_eq (c : Dev nD) : V19 m (outs m) c = W19 m c := by
  show StableHlo.after hostOps9 (V18 m (outs m) c) = _
  rw [V18_eq]; unfold W19; rfl
theorem V20_eq (c : Dev nD) : V20 m (outs m) c = W20 m c := by
  show Function.update (V19 m (outs m) c) main_v308 (outs m 20 main_v308 c) = _
  rw [V19_eq]; simp only [outs_20]
  rw [W20_v308]; unfold W20; rfl
theorem V21_eq (c : Dev nD) : V21 m (outs m) c = W21 m c := by
  show Function.update (Function.update (V20 m (outs m) c) main_v309_0 (outs m 21 main_v309_0 c)) main_v309_1 (outs m 21 main_v309_1 c) = _
  rw [V20_eq]; simp only [outs_21]
  rw [W21_v309_0, W21_v309_1]; unfold W21; rfl
theorem V22_eq (c : Dev nD) : V22 m (outs m) c = W22 m c := by
  show StableHlo.after hostOps11 (V21 m (outs m) c) = _
  rw [V21_eq]; unfold W22; rfl

/-! ## No item writes an argument -/
theorem W22_main_arg0 (c : Dev nD) : W22 m c main_arg0 = m ((c : Thread nD τ).loc main_arg0) := by
  rw [← V22_eq]; exact V22_main_arg0 m (outs m) c
theorem W22_main_arg1 (c : Dev nD) : W22 m c main_arg1 = m ((c : Thread nD τ).loc main_arg1) := by
  rw [← V22_eq]; exact V22_main_arg1 m (outs m) c
theorem W22_main_arg2 (c : Dev nD) : W22 m c main_arg2 = m ((c : Thread nD τ).loc main_arg2) := by
  rw [← V22_eq]; exact V22_main_arg2 m (outs m) c
theorem W22_main_arg3 (c : Dev nD) : W22 m c main_arg3 = m ((c : Thread nD τ).loc main_arg3) := by
  rw [← V22_eq]; exact V22_main_arg3 m (outs m) c
theorem W22_main_arg4 (c : Dev nD) : W22 m c main_arg4 = m ((c : Thread nD τ).loc main_arg4) := by
  rw [← V22_eq]; exact V22_main_arg4 m (outs m) c
theorem W22_main_arg5 (c : Dev nD) : W22 m c main_arg5 = m ((c : Thread nD τ).loc main_arg5) := by
  rw [← V22_eq]; exact V22_main_arg5 m (outs m) c
theorem W22_main_arg6 (c : Dev nD) : W22 m c main_arg6 = m ((c : Thread nD τ).loc main_arg6) := by
  rw [← V22_eq]; exact V22_main_arg6 m (outs m) c
theorem W22_main_arg7 (c : Dev nD) : W22 m c main_arg7 = m ((c : Thread nD τ).loc main_arg7) := by
  rw [← V22_eq]; exact V22_main_arg7 m (outs m) c
theorem W22_main_arg8 (c : Dev nD) : W22 m c main_arg8 = m ((c : Thread nD τ).loc main_arg8) := by
  rw [← V22_eq]; exact V22_main_arg8 m (outs m) c
theorem W22_main_arg9 (c : Dev nD) : W22 m c main_arg9 = m ((c : Thread nD τ).loc main_arg9) := by
  rw [← V22_eq]; exact V22_main_arg9 m (outs m) c
theorem W22_main_arg10 (c : Dev nD) : W22 m c main_arg10 = m ((c : Thread nD τ).loc main_arg10) := by
  rw [← V22_eq]; exact V22_main_arg10 m (outs m) c
theorem W22_main_arg11 (c : Dev nD) : W22 m c main_arg11 = m ((c : Thread nD τ).loc main_arg11) := by
  rw [← V22_eq]; exact V22_main_arg11 m (outs m) c

/-! ## The regions' records between the generated thread states -/
/-- Region 0 is entered from the generated thread state before it and left at the one after it. -/
theorem hpre0 (c : Dev nD) : iprop(StableHlo.held (c : Thread nD τ) (Pipeline.ucRefs τ sig) (V1 m c) ∗ R c) ⊢ (reg0 m).pre c := by
  rw [V1_eq, reg0_pre]
theorem hpost0 (c : Dev nD) : (reg0 m).post c ⊢ iprop(StableHlo.held (c : Thread nD τ) (Pipeline.ucRefs τ sig) (V2 m (outs m) c) ∗ R c) := by
  rw [V2_eq, reg0_post]
/-- Region 1 is entered from the generated thread state before it and left at the one after it. -/
theorem hpre1 (c : Dev nD) : iprop(StableHlo.held (c : Thread nD τ) (Pipeline.ucRefs τ sig) (V3 m (outs m) c) ∗ R c) ⊢ (reg1 m).pre c := by
  rw [V3_eq, reg1_pre]
theorem hpost1 (c : Dev nD) : (reg1 m).post c ⊢ iprop(StableHlo.held (c : Thread nD τ) (Pipeline.ucRefs τ sig) (V4 m (outs m) c) ∗ R c) := by
  rw [V4_eq, reg1_post]
/-- Region 2 is entered from the generated thread state before it and left at the one after it. -/
theorem hpre2 (c : Dev nD) : iprop(StableHlo.held (c : Thread nD τ) (Pipeline.ucRefs τ sig) (V5 m (outs m) c) ∗ R c) ⊢ (reg2 m).pre c := by
  rw [V5_eq, reg2_pre]
theorem hpost2 (c : Dev nD) : (reg2 m).post c ⊢ iprop(StableHlo.held (c : Thread nD τ) (Pipeline.ucRefs τ sig) (V6 m (outs m) c) ∗ R c) := by
  rw [V6_eq, reg2_post]
/-- Region 3 is entered from the generated thread state before it and left at the one after it. -/
theorem hpre3 (c : Dev nD) : iprop(StableHlo.held (c : Thread nD τ) (Pipeline.ucRefs τ sig) (V7 m (outs m) c) ∗ R c) ⊢ (reg3 m).pre c := by
  rw [V7_eq, reg3_pre]
theorem hpost3 (c : Dev nD) : (reg3 m).post c ⊢ iprop(StableHlo.held (c : Thread nD τ) (Pipeline.ucRefs τ sig) (V8 m (outs m) c) ∗ R c) := by
  rw [V8_eq, reg3_post]
/-- Region 4 is entered from the generated thread state before it and left at the one after it. -/
theorem hpre4 (c : Dev nD) : iprop(StableHlo.held (c : Thread nD τ) (Pipeline.ucRefs τ sig) (V9 m (outs m) c) ∗ R c) ⊢ (reg4 m).pre c := by
  rw [V9_eq, reg4_pre]
theorem hpost4 (c : Dev nD) : (reg4 m).post c ⊢ iprop(StableHlo.held (c : Thread nD τ) (Pipeline.ucRefs τ sig) (V10 m (outs m) c) ∗ R c) := by
  rw [V10_eq, reg4_post]
/-- Region 5 is entered from the generated thread state before it and left at the one after it. -/
theorem hpre5 (c : Dev nD) : iprop(StableHlo.held (c : Thread nD τ) (Pipeline.ucRefs τ sig) (V11 m (outs m) c) ∗ R c) ⊢ (reg5 m).pre c := by
  rw [V11_eq, reg5_pre]
theorem hpost5 (c : Dev nD) : (reg5 m).post c ⊢ iprop(StableHlo.held (c : Thread nD τ) (Pipeline.ucRefs τ sig) (V12 m (outs m) c) ∗ R c) := by
  rw [V12_eq, reg5_post]
/-- Region 6 is entered from the generated thread state before it and left at the one after it. -/
theorem hpre6 (c : Dev nD) : iprop(StableHlo.held (c : Thread nD τ) (Pipeline.ucRefs τ sig) (V13 m (outs m) c) ∗ R c) ⊢ (reg6 m).pre c := by
  rw [V13_eq, reg6_pre]
theorem hpost6 (c : Dev nD) : (reg6 m).post c ⊢ iprop(StableHlo.held (c : Thread nD τ) (Pipeline.ucRefs τ sig) (V14 m (outs m) c) ∗ R c) := by
  rw [V14_eq, reg6_post]
/-- Region 7 is entered from the generated thread state before it and left at the one after it. -/
theorem hpre7 (c : Dev nD) : iprop(StableHlo.held (c : Thread nD τ) (Pipeline.ucRefs τ sig) (V15 m (outs m) c) ∗ R c) ⊢ (reg7 m).pre c := by
  rw [V15_eq, reg7_pre]
theorem hpost7 (c : Dev nD) : (reg7 m).post c ⊢ iprop(StableHlo.held (c : Thread nD τ) (Pipeline.ucRefs τ sig) (V16 m (outs m) c) ∗ R c) := by
  rw [V16_eq, reg7_post]
/-- Region 8 is entered from the generated thread state before it and left at the one after it. -/
theorem hpre8 (c : Dev nD) : iprop(StableHlo.held (c : Thread nD τ) (Pipeline.ucRefs τ sig) (V17 m (outs m) c) ∗ R c) ⊢ (reg8 m).pre c := by
  rw [V17_eq, reg8_pre]
theorem hpost8 (c : Dev nD) : (reg8 m).post c ⊢ iprop(StableHlo.held (c : Thread nD τ) (Pipeline.ucRefs τ sig) (V18 m (outs m) c) ∗ R c) := by
  rw [V18_eq, reg8_post]
/-- Region 9 is entered from the generated thread state before it and left at the one after it. -/
theorem hpre9 (c : Dev nD) : iprop(StableHlo.held (c : Thread nD τ) (Pipeline.ucRefs τ sig) (V19 m (outs m) c) ∗ R c) ⊢ (reg9 m).pre c := by
  rw [V19_eq, reg9_pre]
theorem hpost9 (c : Dev nD) : (reg9 m).post c ⊢ iprop(StableHlo.held (c : Thread nD τ) (Pipeline.ucRefs τ sig) (V20 m (outs m) c) ∗ R c) := by
  rw [V20_eq, reg9_post]
/-- Region 10 is entered from the generated thread state before it and left at the one after it. -/
theorem hpre10 (c : Dev nD) : iprop(StableHlo.held (c : Thread nD τ) (Pipeline.ucRefs τ sig) (V20 m (outs m) c) ∗ R c) ⊢ (reg10 m).pre c := by
  rw [V20_eq, reg10_pre]
theorem hpost10 (c : Dev nD) : (reg10 m).post c ⊢ iprop(StableHlo.held (c : Thread nD τ) (Pipeline.ucRefs τ sig) (V21 m (outs m) c) ∗ R c) := by
  rw [V21_eq, reg10_post]

/-! ## @main's run from the launch to the return -/

/-- The launch's element is the pipeline library's, and no ghost resource rides along. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄) ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro
/-- What the launch deals beside the buffers makes `R` on every core at once: the generator register at its launch state,
    nothing owed. -/
theorem hE0 (ρ : Dev nD → PrngReg) : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L₀ lv₀)
    ⊢ (|={Set.univ}=> bigSep Finset.univ (fun c : Dev nD => R c) : sProp 𝕄) :=
  Pipeline.initEach L₀ lv₀ fun c => by
    iintro ⟨⟨-, HO, -, Hp, -⟩, -⟩
    imodintro
    isplitl [Hp]; · iexists _; iexact Hp
    iexists ∅; iexact HO
theorem hE11 (c : Dev nD) : R c ⊢ (iprop(∃ W, owes (c : Thread nD τ) (0 : CellTallies nD τ sig Unit) W) : sProp 𝕄) := by
  iintro ⟨-, HO⟩; iexact HO

-- the conditional run's implicit arguments are found by unifying its hypotheses with these records, which takes unfolding
-- plain definitions in a metavariable's type; thirty-three hypotheses over eleven records
set_option backward.isDefEq.respectTransparency.types false in
set_option maxHeartbeats 2000000 in
/-- THE RUN: from any memory `m` with zero counters, every weakly fair execution of @main on the TensorCores terminates,
    nothing faulting, and every final memory holds every unscoped buffer of every core at the chain's last contents `W22 m c`:
    the conditional run at the chain's contents (`outs`), the regions' records above, nothing owed at launch; its post, stated at the
    generated last valuation, carried to `W22` buffer by buffer (`V22_eq`). -/
theorem run (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = W22 m c b) := by
  have h := run_cond (Ix := Unit) (U := UR sig nD τ) (Lvl := ℕ) m emb₁ () Variants.none L₀ lv₀ (fun _ _ => rfl) ρ (outs m) (pdats m) 0
    (fun _ => (BI.emp : sProp 𝕄)) (initOf (Pipeline.cells cfgs cellOf_inj) (Pipeline.launchToks cfgs cellOf_inj)) hu₀ (fun _ c => R c) (hE0 ρ) hE11
    (reg0 m) (hpre0 m) (hpost0 m)
    (reg1 m) (hpre1 m) (hpost1 m)
    (reg2 m) (hpre2 m) (hpost2 m)
    (reg3 m) (hpre3 m) (hpost3 m)
    (reg4 m) (hpre4 m) (hpost4 m)
    (reg5 m) (hpre5 m) (hpost5 m)
    (reg6 m) (hpre6 m) (hpost6 m)
    (reg7 m) (hpre7 m) (hpost7 m)
    (reg8 m) (hpre8 m) (hpost8 m)
    (reg9 m) (hpre9 m) (hpost9 m)
    (reg10 m) (hpre10 m) (hpost10 m)
  exact (θ_run defs (onTc (τ := τ) (main (F := F))) ⟨m, fun _ => 0, ρ⟩).mono
    (fun r hr c b hb => (hr c b hb).trans (congrFun (V22_eq m c) b)) h

/-- THE FRAME, at any `F`: every argument array ends as launched, each read off the run's last contents (`W22_main_argK`). -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs (onTc (τ := τ) (main (F := F))) ⟨m, fun _ => 0, ρ⟩).mono (fun r h c =>
    ⟨(h c _ (mem_uc main_arg0 (by decide))).trans (W22_main_arg0 m c),
     (h c _ (mem_uc main_arg1 (by decide))).trans (W22_main_arg1 m c),
     (h c _ (mem_uc main_arg2 (by decide))).trans (W22_main_arg2 m c),
     (h c _ (mem_uc main_arg3 (by decide))).trans (W22_main_arg3 m c),
     (h c _ (mem_uc main_arg4 (by decide))).trans (W22_main_arg4 m c),
     (h c _ (mem_uc main_arg5 (by decide))).trans (W22_main_arg5 m c),
     (h c _ (mem_uc main_arg6 (by decide))).trans (W22_main_arg6 m c),
     (h c _ (mem_uc main_arg7 (by decide))).trans (W22_main_arg7 m c),
     (h c _ (mem_uc main_arg8 (by decide))).trans (W22_main_arg8 m c),
     (h c _ (mem_uc main_arg9 (by decide))).trans (W22_main_arg9 m c),
     (h c _ (mem_uc main_arg10 (by decide))).trans (W22_main_arg10 m c),
     (h c _ (mem_uc main_arg11 (by decide))).trans (W22_main_arg11 m c)⟩) (run m ρ)

end Cert.Kernel.Hand

end
-- ==== Proof.KI.RegMlp0.lean ====
import proofs.«409348_j89627377533173_1_alg».proof.Proof.Gen.KernelIdeal.Launch
import proofs.«409348_j89627377533173_1_alg».proof.Proof.Gen.KernelIdeal.Skeleton
import proofs.«409348_j89627377533173_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 0 of @main: custom_call 0, `cc0__mlp_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, fetched there or not (an input
    fetched at the first point only keeps its block: the index never moves). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev r0_a : Rect S1000x300 := Rect.unit (s := S1000x300) ![0, 0] S1000x300.size inb_S1000x300_S1000x300_0_0
abbrev r0_b : Rect S300x600 := Rect.unit (s := S300x600) ![0, 0] S300x600.size inb_S300x600_S300x600_0_0
abbrev r0_c : Rect S1x600 := Rect.unit (s := S1x600) ![0, 0] S1x600.size inb_S1x600_S1x600_0_0
abbrev r0_d : Rect S600x300 := Rect.unit (s := S600x300) ![0, 0] S600x300.size inb_S600x300_S600x300_0_0
abbrev r0_e : Rect S1x300 := Rect.unit (s := S1x300) ![0, 0] S1x300.size inb_S1x300_S1x300_0_0

/-! ## What the body leaves: the z block, the two running sums, the copies out -/

/-- The z block the body stores at a point, from the six input blocks (the skeleton's payload `k0_pay5`). -/
def z0 (x0 x1 : Vec F S1000x300 .f32) (x2 : Vec F S300x600 .f32) (x3 : Vec F S1x600 .f32) (x4 : Vec F S600x300 .f32) (x5 : Vec F S1x300 .f32) : FVec F S1000x300 .f32 :=
  k0_pay5 (View.ld x0 r0_a) (View.ld x1 r0_a) (View.ld x2 r0_b) (View.ld x3 r0_c) (View.ld x4 r0_d) (View.ld x5 r0_e)

/-- Output window 6's staging buffer after the body: its one store. -/
def out0_6 (x0 x1 : Vec F S1000x300 .f32) (x2 : Vec F S300x600 .f32) (x3 : Vec F S1x600 .f32) (x4 : Vec F S600x300 .f32) (x5 : Vec F S1x300 .f32) : Vec F S1000x300 .f32 :=
  View.canon [⟨r0_a, z0 x0 x1 x2 x3 x4 x5⟩]

/-- Scratch 0 (the running column sums) after the body's add, over what it held (`s`). -/
def stepS0 (x0 x1 : Vec F S1000x300 .f32) (x2 : Vec F S300x600 .f32) (x3 : Vec F S1x600 .f32) (x4 : Vec F S600x300 .f32) (x5 : Vec F S1x300 .f32) (s : Vec F S1x300 .f32) : Vec F S1x300 .f32 :=
  View.canon [⟨r0_e, k0_pay1 (k0_pay6 (View.ld x0 r0_a) (View.ld x1 r0_a) (View.ld x2 r0_b) (View.ld x3 r0_c) (View.ld x4 r0_d) (View.ld x5 r0_e) (View.ld s r0_e))⟩]

/-- Scratch 1 (the running column sums of squares) after the body's add, over what it held (`q`). -/
def stepQ0 (x0 x1 : Vec F S1000x300 .f32) (x2 : Vec F S300x600 .f32) (x3 : Vec F S1x600 .f32) (x4 : Vec F S600x300 .f32) (x5 : Vec F S1x300 .f32) (q : Vec F S1x300 .f32) : Vec F S1x300 .f32 :=
  View.canon [⟨r0_e, k0_pay2 (z0 x0 x1 x2 x3 x4 x5) (View.ld q r0_e)⟩]

/-- What the first point's reset leaves in scratch 0 and in scratch 1: zeros. -/
def zeroS0 : Vec F S1x300 .f32 := View.canon [⟨r0_e, k0_pay3 (F := F)⟩]
def zeroQ0 : Vec F S1x300 .f32 := View.canon [⟨r0_e, k0_pay4 (F := F)⟩]

/-- What the last point's copy leaves in output window 7's (8's) staging buffer, from the scratch's contents. -/
def out0_7 (s : Vec F S1x300 .f32) : Vec F S1x300 .f32 := View.canon [⟨r0_e, View.ld s r0_e⟩]

/-- The zero offsets of every access, as a function. -/
theorem hz0 : (![0, 0] : Fin 2 → ℕ) = fun _ => 0 := by funext a; fin_cases a <;> rfl

/-! ### Whole-buffer accesses read through (Lib/Pipeline/Value.lean): a load through the whole shape at zero offsets
    reads the contents, a store through it (last) leaves its payload, a load of what one such store left reads it -/

theorem ld0_a (X : Vec F S1000x300 .f32) : View.ld X r0_a = X := View.ld_unit_zero (S := S1000x300) hz0 _ X
theorem ld0_b (X : Vec F S300x600 .f32) : View.ld X r0_b = X := View.ld_unit_zero (S := S300x600) hz0 _ X
theorem ld0_c (X : Vec F S1x600 .f32) : View.ld X r0_c = X := View.ld_unit_zero (S := S1x600) hz0 _ X
theorem ld0_d (X : Vec F S600x300 .f32) : View.ld X r0_d = X := View.ld_unit_zero (S := S600x300) hz0 _ X
theorem ld0_e (X : Vec F S1x300 .f32) : View.ld X r0_e = X := View.ld_unit_zero (S := S1x300) hz0 _ X
theorem canon0_a (w : Vec F S1000x300 .f32) (L : List (View.Piece (Elt F) S1000x300 .f32)) :
    View.canon ((⟨r0_a, w⟩ : View.Piece (Elt F) S1000x300 .f32) :: L) = w := View.canon_cons_unit_zero (S := S1000x300) hz0 _ w L
theorem canon0_e (w : Vec F S1x300 .f32) (L : List (View.Piece (Elt F) S1x300 .f32)) :
    View.canon ((⟨r0_e, w⟩ : View.Piece (Elt F) S1x300 .f32) :: L) = w := View.canon_cons_unit_zero (S := S1x300) hz0 _ w L
theorem readCov0_e {κ : Kind} {sp : Space} (v : View sig κ sp S1x300 .f32) (w : Vec F S1x300 .f32) :
    v.readCov [(⟨r0_e, w⟩ : View.Piece (Elt F) S1x300 .f32)] r0_e.toLoadRect = w := View.readCov_unit_zero (S := S1x300) v hz0 _ w

theorem z0_eq (x0 x1 : Vec F S1000x300 .f32) (x2 : Vec F S300x600 .f32) (x3 : Vec F S1x600 .f32) (x4 : Vec F S600x300 .f32) (x5 : Vec F S1x300 .f32) : z0 x0 x1 x2 x3 x4 x5 = k0_pay5 x0 x1 x2 x3 x4 x5 := by
  unfold z0; rw [ld0_a, ld0_a, ld0_b, ld0_c, ld0_d, ld0_e]
theorem out0_6_eq (x0 x1 : Vec F S1000x300 .f32) (x2 : Vec F S300x600 .f32) (x3 : Vec F S1x600 .f32) (x4 : Vec F S600x300 .f32) (x5 : Vec F S1x300 .f32) : out0_6 x0 x1 x2 x3 x4 x5 = k0_pay5 x0 x1 x2 x3 x4 x5 := by
  unfold out0_6; rw [canon0_a, z0_eq]
theorem stepS0_eq (x0 x1 : Vec F S1000x300 .f32) (x2 : Vec F S300x600 .f32) (x3 : Vec F S1x600 .f32) (x4 : Vec F S600x300 .f32) (x5 : Vec F S1x300 .f32) (s : Vec F S1x300 .f32) :
    stepS0 x0 x1 x2 x3 x4 x5 s = k0_pay1 (k0_pay6 x0 x1 x2 x3 x4 x5 s) := by
  unfold stepS0; rw [canon0_e, ld0_a, ld0_a, ld0_b, ld0_c, ld0_d, ld0_e, ld0_e]
theorem stepQ0_eq (x0 x1 : Vec F S1000x300 .f32) (x2 : Vec F S300x600 .f32) (x3 : Vec F S1x600 .f32) (x4 : Vec F S600x300 .f32) (x5 : Vec F S1x300 .f32) (q : Vec F S1x300 .f32) :
    stepQ0 x0 x1 x2 x3 x4 x5 q = k0_pay2 (k0_pay5 x0 x1 x2 x3 x4 x5) q := by
  unfold stepQ0; rw [canon0_e, z0_eq, ld0_e]
theorem zeroS0_eq : zeroS0 (F := F) = k0_pay3 (F := F) := by unfold zeroS0; rw [canon0_e]
theorem zeroQ0_eq : zeroQ0 (F := F) = k0_pay4 (F := F) := by unfold zeroQ0; rw [canon0_e]
theorem out0_7_eq (s : Vec F S1x300 .f32) : out0_7 s = s := by
  unfold out0_7; rw [canon0_e, ld0_e]

/-- THE ACCUMULATION: scratch 0 after the body at position `n` — the add over the reset at the first point, over
    what the point before left at every later one. -/
def accS0 (c : Dev nD) : (n : ℕ) → n < cfg0.N → Vec F S1x300 .f32
  | 0, hn => stepS0 (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (zeroS0 (F := F))
  | n + 1, hn => stepS0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (accS0 c n (Nat.lt_of_succ_lt hn))

/-- and scratch 1. -/
def accQ0 (c : Dev nD) : (n : ℕ) → n < cfg0.N → Vec F S1x300 .f32
  | 0, hn => stepQ0 (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (zeroQ0 (F := F))
  | n + 1, hn => stepQ0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (accQ0 c n (Nat.lt_of_succ_lt hn))

theorem accS0_zero (c : Dev nD) (hn : 0 < cfg0.N) :
    accS0 V c 0 hn = stepS0 (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (zeroS0 (F := F)) := rfl
theorem accS0_succ (c : Dev nD) (n : ℕ) (hn : n + 1 < cfg0.N) :
    accS0 V c (n + 1) hn = stepS0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (accS0 V c n (Nat.lt_of_succ_lt hn)) := rfl
theorem accQ0_zero (c : Dev nD) (hn : 0 < cfg0.N) :
    accQ0 V c 0 hn = stepQ0 (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (zeroQ0 (F := F)) := rfl
theorem accQ0_succ (c : Dev nD) (n : ℕ) (hn : n + 1 < cfg0.N) :
    accQ0 V c (n + 1) hn = stepQ0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (accQ0 V c n (Nat.lt_of_succ_lt hn)) := rfl

/-- The accumulators at the first point, and at a later one over what the point before left. -/
theorem accS0_A (c : Dev nD) (t : Fin cfg0.N) (hz : t.val = 0) :
    accS0 V c t.val t.isLt = stepS0 (iblk0 V c 0 t) (iblk0 V c 1 t) (iblk0 V c 2 t) (iblk0 V c 3 t) (iblk0 V c 4 t) (iblk0 V c 5 t) (zeroS0 (F := F)) := by
  obtain ⟨n, hn⟩ := t
  cases n with
  | zero => rfl
  | succ n => exact absurd hz (Nat.succ_ne_zero n)
theorem accS0_B (c : Dev nD) (t : Fin cfg0.N) (hz : t.val ≠ 0) :
    accS0 V c t.val t.isLt = stepS0 (iblk0 V c 0 t) (iblk0 V c 1 t) (iblk0 V c 2 t) (iblk0 V c 3 t) (iblk0 V c 4 t) (iblk0 V c 5 t) (accS0 V c (t.val - 1) (Nat.lt_of_le_of_lt (Nat.sub_le _ _) t.isLt)) := by
  obtain ⟨n, hn⟩ := t
  cases n with
  | zero => exact absurd rfl hz
  | succ n => rfl
theorem accQ0_A (c : Dev nD) (t : Fin cfg0.N) (hz : t.val = 0) :
    accQ0 V c t.val t.isLt = stepQ0 (iblk0 V c 0 t) (iblk0 V c 1 t) (iblk0 V c 2 t) (iblk0 V c 3 t) (iblk0 V c 4 t) (iblk0 V c 5 t) (zeroQ0 (F := F)) := by
  obtain ⟨n, hn⟩ := t
  cases n with
  | zero => rfl
  | succ n => exact absurd hz (Nat.succ_ne_zero n)
theorem accQ0_B (c : Dev nD) (t : Fin cfg0.N) (hz : t.val ≠ 0) :
    accQ0 V c t.val t.isLt = stepQ0 (iblk0 V c 0 t) (iblk0 V c 1 t) (iblk0 V c 2 t) (iblk0 V c 3 t) (iblk0 V c 4 t) (iblk0 V c 5 t) (accQ0 V c (t.val - 1) (Nat.lt_of_le_of_lt (Nat.sub_le _ _) t.isLt)) := by
  obtain ⟨n, hn⟩ := t
  cases n with
  | zero => exact absurd rfl hz
  | succ n => rfl

/-! ## The body's branch conditions -/

/-- The condition of the reset (`pl.when` on the first point), from the grid coordinates (the skeleton's scalar chain). -/
abbrev cond0_0 (i : grid0.Coords) : Prop := (Scalar.cmpi .ne (Scalar.extui (Scalar.cmpi .eq (BitVec.ofNat 32 (i 0).val) 0#32)) 0#32) = 1#1
/-- It holds at the first point only — decided over the grid. -/
theorem hcond0_0 : ∀ t : Fin cfg0.N, cond0_0 (grid0.coords t) ↔ t.val % 50 = 0 :=
  (by decide +kernel : ∀ t : Fin grid0.N, cond0_0 (grid0.coords t) ↔ t.val % 50 = 0)
/-- The condition of the copy out (`pl.when` on the last point). -/
abbrev cond0_1 (i : grid0.Coords) : Prop := k0_cond2 i = 1#1
/-- It holds at the last point only — decided over the grid. -/
theorem hcond0_1 : ∀ t : Fin cfg0.N, cond0_1 (grid0.coords t) ↔ t.val % 50 = 49 :=
  (by decide +kernel : ∀ t : Fin grid0.N, cond0_1 (grid0.coords t) ↔ t.val % 50 = 49)

/-! ## The body's stores cover the buffers they write (each is of the whole buffer) -/

theorem cover0_a (p0 : Vec F S1000x300 .f32) (y : S1000x300.Idx) :
    ∃ pc ∈ ([⟨r0_a, p0⟩] : List (View.Piece (Elt F) S1000x300 .f32)), y ∈ pc.1.set :=
  View.cover_of_tiled [⟨r0_a, p0⟩] S1000x300.size (by rfl) y
theorem cover0_e (p0 : Vec F S1x300 .f32) (y : S1x300.Idx) :
    ∃ pc ∈ ([⟨r0_e, p0⟩] : List (View.Piece (Elt F) S1x300 .f32)), y ∈ pc.1.set :=
  View.cover_of_tiled [⟨r0_e, p0⟩] S1x300.size (by rfl) y

theorem cover0_e_cons (p0 : Vec F S1x300 .f32) (L : List (View.Piece (Elt F) S1x300 .f32)) (y : S1x300.Idx) :
    ∃ pc ∈ ((⟨r0_e, p0⟩ :: L) : List (View.Piece (Elt F) S1x300 .f32)), y ∈ pc.1.set := by
  obtain ⟨pc, hpc, hy⟩ := cover0_e p0 y
  exact ⟨pc, List.mem_cons.mpr (Or.inl (List.mem_singleton.mp hpc)), hy⟩

/-! ## Where outputs 7 and 8 are idle: everywhere but at the last point, which alone writes them back -/

theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel

set_option maxHeartbeats 2000000 in
/-- The body at the first point: the two scratch accumulators, at anything, are reset and stepped. -/
theorem sound_kernel0_A (c : Dev nD) (E : Set ℕ) (i : grid0.Coords) (arg1 : Memref sig .tc .vmem S1000x300 .f32) (harg1 : arg1.IsWhole) (arg2 : Memref sig .tc .vmem S1000x300 .f32) (harg2 : arg2.IsWhole) (arg3 : Memref sig .tc .vmem S300x600 .f32) (harg3 : arg3.IsWhole) (arg4 : Memref sig .tc .vmem S1x600 .f32) (harg4 : arg4.IsWhole) (arg5 : Memref sig .tc .vmem S600x300 .f32) (harg5 : arg5.IsWhole) (arg6 : Memref sig .tc .vmem S1x300 .f32) (harg6 : arg6.IsWhole) (arg7 : Memref sig .tc .vmem S1000x300 .f32) (harg7 : arg7.IsWhole) (arg8 : Memref sig .tc .vmem S1x300 .f32) (harg8 : arg8.IsWhole) (arg9 : Memref sig .tc .vmem S1x300 .f32) (harg9 : arg9.IsWhole) (arg10 : Memref sig .tc .vmem S1x300 .f32) (harg10 : arg10.IsWhole) (arg11 : Memref sig .tc .vmem S1x300 .f32) (harg11 : arg11.IsWhole)
    (hc0 : cond0_0 i) (hc1 : ¬cond0_1 i) (x0 x1 : Vec F S1000x300 .f32) (x2 : Vec F S300x600 .f32) (x3 : Vec F S1x600 .f32) (x4 : Vec F S600x300 .f32) (x5 : Vec F S1x300 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)
            ∗ owns (c : Thread nD τ) arg10 fullShare (stepS0 x0 x1 x2 x3 x4 x5 (zeroS0 (F := F))) ∗ owns (c : Thread nD τ) arg11 fullShare (stepQ0 x0 x1 x2 x3 x4 x5 (zeroQ0 (F := F)))) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, ⟨%dq, %fq, -, HQ⟩, Hk⟩
  subst hf0 hf1 hf2 hf3 hf4 hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_a _)
  isplitl [HS]
  · iexists _; isplitr
    swap; · iexact HS
    ipureintro
    sl_unfold_run_names
    try rw [View.readCov_eq_canon_ld _ _ _ (cover0_e _)]
    exact (View.read_writes_eq_canon _ _ _ (cover0_e_cons _ _)).trans ((canon0_e _ _).trans (canon0_e _ []).symm)
  iexists _; isplitr
  swap; · iexact HQ
  ipureintro
  sl_unfold_run_names
  try rw [View.readCov_eq_canon_ld _ _ _ (cover0_e _)]
  exact (View.read_writes_eq_canon _ _ _ (cover0_e_cons _ _)).trans ((canon0_e _ _).trans (canon0_e _ []).symm)

set_option maxHeartbeats 2000000 in
/-- The body at a middle point (no reset, no copy out): the two scratch accumulators at `s`, `q` are stepped. -/
theorem sound_kernel0_B (c : Dev nD) (E : Set ℕ) (i : grid0.Coords) (arg1 : Memref sig .tc .vmem S1000x300 .f32) (harg1 : arg1.IsWhole) (arg2 : Memref sig .tc .vmem S1000x300 .f32) (harg2 : arg2.IsWhole) (arg3 : Memref sig .tc .vmem S300x600 .f32) (harg3 : arg3.IsWhole) (arg4 : Memref sig .tc .vmem S1x600 .f32) (harg4 : arg4.IsWhole) (arg5 : Memref sig .tc .vmem S600x300 .f32) (harg5 : arg5.IsWhole) (arg6 : Memref sig .tc .vmem S1x300 .f32) (harg6 : arg6.IsWhole) (arg7 : Memref sig .tc .vmem S1000x300 .f32) (harg7 : arg7.IsWhole) (arg8 : Memref sig .tc .vmem S1x300 .f32) (harg8 : arg8.IsWhole) (arg9 : Memref sig .tc .vmem S1x300 .f32) (harg9 : arg9.IsWhole) (arg10 : Memref sig .tc .vmem S1x300 .f32) (harg10 : arg10.IsWhole) (arg11 : Memref sig .tc .vmem S1x300 .f32) (harg11 : arg11.IsWhole)
    (hc0 : ¬cond0_0 i) (hc1 : ¬cond0_1 i) (x0 x1 : Vec F S1000x300 .f32) (x2 : Vec F S300x600 .f32) (x3 : Vec F S1x600 .f32) (x4 : Vec F S600x300 .f32) (x5 : Vec F S1x300 .f32) (s q : Vec F S1x300 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)
            ∗ owns (c : Thread nD τ) arg10 fullShare (stepS0 x0 x1 x2 x3 x4 x5 s) ∗ owns (c : Thread nD τ) arg11 fullShare (stepQ0 x0 x1 x2 x3 x4 x5 q)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, ⟨%fq, %hfq, HQ⟩, Hk⟩
  subst hf0 hf1 hf2 hf3 hf4 hf5 hfs hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_a _)
  isplitl [HS]
  · iexists _; isplitr
    swap; · iexact HS
    ipureintro
    exact View.read_writes_eq_canon _ _ _ (cover0_e _)
  iexists _; isplitr
  swap; · iexact HQ
  ipureintro
  exact View.read_writes_eq_canon _ _ _ (cover0_e _)

set_option maxHeartbeats 2000000 in
/-- The body at the last point: the two scratch accumulators at `s`, `q` are stepped and copied out to outputs 7 and 8. -/
theorem sound_kernel0_C (c : Dev nD) (E : Set ℕ) (i : grid0.Coords) (arg1 : Memref sig .tc .vmem S1000x300 .f32) (harg1 : arg1.IsWhole) (arg2 : Memref sig .tc .vmem S1000x300 .f32) (harg2 : arg2.IsWhole) (arg3 : Memref sig .tc .vmem S300x600 .f32) (harg3 : arg3.IsWhole) (arg4 : Memref sig .tc .vmem S1x600 .f32) (harg4 : arg4.IsWhole) (arg5 : Memref sig .tc .vmem S600x300 .f32) (harg5 : arg5.IsWhole) (arg6 : Memref sig .tc .vmem S1x300 .f32) (harg6 : arg6.IsWhole) (arg7 : Memref sig .tc .vmem S1000x300 .f32) (harg7 : arg7.IsWhole) (arg8 : Memref sig .tc .vmem S1x300 .f32) (harg8 : arg8.IsWhole) (arg9 : Memref sig .tc .vmem S1x300 .f32) (harg9 : arg9.IsWhole) (arg10 : Memref sig .tc .vmem S1x300 .f32) (harg10 : arg10.IsWhole) (arg11 : Memref sig .tc .vmem S1x300 .f32) (harg11 : arg11.IsWhole)
    (hc0 : ¬cond0_0 i) (hc1 : cond0_1 i) (x0 x1 : Vec F S1000x300 .f32) (x2 : Vec F S300x600 .f32) (x3 : Vec F S1x600 .f32) (x4 : Vec F S600x300 .f32) (x5 : Vec F S1x300 .f32) (s q : Vec F S1x300 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)
            ∗ owns (c : Thread nD τ) arg8 fullShare (out0_7 (stepS0 x0 x1 x2 x3 x4 x5 s)) ∗ owns (c : Thread nD τ) arg9 fullShare (out0_7 (stepQ0 x0 x1 x2 x3 x4 x5 q))
            ∗ owns (c : Thread nD τ) arg10 fullShare (stepS0 x0 x1 x2 x3 x4 x5 s) ∗ owns (c : Thread nD τ) arg11 fullShare (stepQ0 x0 x1 x2 x3 x4 x5 q)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs, %hfs, HS⟩, ⟨%fq, %hfq, HQ⟩, Hk⟩
  subst hf0 hf1 hf2 hf3 hf4 hf5 hfs hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_a _)
  isplitl [H7]
  · iexists _; isplitr
    swap; · iexact H7
    ipureintro
    sl_unfold_run_names
    try rw [View.readCov_eq_canon_ld _ _ _ (cover0_e _)]
    exact (View.read_writes_eq_canon _ _ _ (cover0_e_cons _ _)).trans ((canon0_e _ _).trans (canon0_e _ []).symm)
  isplitl [H8]
  · iexists _; isplitr
    swap; · iexact H8
    ipureintro
    sl_unfold_run_names
    try rw [View.readCov_eq_canon_ld _ _ _ (cover0_e _)]
    exact (View.read_writes_eq_canon _ _ _ (cover0_e_cons _ _)).trans ((canon0_e _ _).trans (canon0_e _ []).symm)
  isplitl [HS]
  · iexists _; isplitr
    swap; · iexact HS
    ipureintro
    sl_unfold_run_names
    try rw [View.readCov_eq_canon_ld _ _ _ (cover0_e _)]
    exact (View.read_writes_eq_canon _ _ _ (cover0_e_cons _ _)).trans ((canon0_e _ _).trans (canon0_e _ []).symm)
  iexists _; isplitr
  swap; · iexact HQ
  ipureintro
  sl_unfold_run_names
  try rw [View.readCov_eq_canon_ld _ _ _ (cover0_e _)]
  exact (View.read_writes_eq_canon _ _ _ (cover0_e_cons _ _)).trans ((canon0_e _ _).trans (canon0_e _ []).symm)

/-! ## The invariant: the two scratch accumulators tracked -/

/-- The scratch operands: whole scoped buffers of the kernel's own, passed beside the windows. -/
abbrev scM0_0 : Memref sig .tc .vmem S1x300 .f32 := Memref.whole cc0_scratch0
abbrev scM0_1 : Memref sig .tc .vmem S1x300 .f32 := Memref.whole cc0_scratch1

/-- Before the first point the class's invariant (every scratch at anything); afterwards the two scratch
    accumulators at what the point before left, the other scoped buffers unopened, the generator register at some state. -/
def PhiS0 (c : Dev nD) : (n : ℕ) → n ≤ cfg0.N → sProp 𝕄
  | 0, _ => Pipeline.ΦA spec0 c
  | n + 1, hn => iprop(iprop(iprop(owns (c : Thread nD τ) scM0_0 fullShare (accS0 V c n hn) ∗ owns (c : Thread nD τ) scM0_1 fullShare (accQ0 V c n hn))
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the accumulators at that point's contents. -/
theorem PhiS0_succ (c : Dev nD) (n : ℕ) (hn : n < cfg0.N) :
    PhiS0 V c (n + 1) hn = iprop(iprop(iprop(owns (c : Thread nD τ) scM0_0 fullShare (accS0 V c n hn) ∗ owns (c : Thread nD τ) scM0_1 fullShare (accQ0 V c n hn))
      ∗ Pipeline.scopedRestBut (Ix := Unit) (Name := ℕ) (U := UR sig nD τ) (Lvl := ℕ) (Val := Elt F) spec0 c [cc0_scratch0, cc0_scratch1]) ∗ (∃ r, prngReg c r)) := rfl

/-- Before a point that is not the first: the accumulators at what the point before left. -/
theorem PhiS0_pos (c : Dev nD) (n : ℕ) (h : n ≤ cfg0.N) (hz : n ≠ 0) :
    PhiS0 V c n h = iprop(iprop(iprop(owns (c : Thread nD τ) scM0_0 fullShare (accS0 V c (n - 1) (by omega)) ∗ owns (c : Thread nD τ) scM0_1 fullShare (accQ0 V c (n - 1) (by omega)))
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-- The class's invariant with the two scratch operands split out of the scoped rest as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

/-! ## The pipeline's proof data -/

/-- The proof data of pipeline 0 on core `c`: the arrays as the region finds them (`V`); after the body at point `t`
    each input's buffer at its block, output 6's at the z block of the input blocks, outputs 7 and 8's at the copies of
    the accumulators (consulted at the last point only: the windows are idle before it); the invariant tracks the two
    scratch accumulators (`PhiS0`); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (accS0 V c t.val t.isLt)
    | ⟨8, _⟩ => out0_7 (accQ0 V c t.val t.isLt)
  Φ t := PhiS0 V c t.val (Nat.le_of_lt_succ t.isLt)
  q _ := fullShare
  owed _ := 0

/-- The proof data's arrays are the region-entry contents (the proof data's definition projected, by `dsimp`). -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (accS0 V c t.val t.isLt) := by dsimp only [dat0]
theorem after0_8 (c : Dev nD) (t : Fin cfg0.N) : (dat0 V c).after 8 t = out0_7 (accQ0 V c t.val t.isLt) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- Windows 0 to 6 are never idle: the body's post for them is the buffer at what the body leaves. -/
theorem leaves0_0 (c : Dev nD) (t : Fin cfg0.N) :
    (dat0 V c).leavesExact 0 t = owns (c : Thread nD τ) (st0_0 t) fullShare ((dat0 V c).after 0 t) := rfl
theorem leaves0_1 (c : Dev nD) (t : Fin cfg0.N) :
    (dat0 V c).leavesExact 1 t = owns (c : Thread nD τ) (st0_1 t) fullShare ((dat0 V c).after 1 t) := rfl
theorem leaves0_2 (c : Dev nD) (t : Fin cfg0.N) :
    (dat0 V c).leavesExact 2 t = owns (c : Thread nD τ) (st0_2 t) fullShare ((dat0 V c).after 2 t) := rfl
theorem leaves0_3 (c : Dev nD) (t : Fin cfg0.N) :
    (dat0 V c).leavesExact 3 t = owns (c : Thread nD τ) (st0_3 t) fullShare ((dat0 V c).after 3 t) := rfl
theorem leaves0_4 (c : Dev nD) (t : Fin cfg0.N) :
    (dat0 V c).leavesExact 4 t = owns (c : Thread nD τ) (st0_4 t) fullShare ((dat0 V c).after 4 t) := rfl
theorem leaves0_5 (c : Dev nD) (t : Fin cfg0.N) :
    (dat0 V c).leavesExact 5 t = owns (c : Thread nD τ) (st0_5 t) fullShare ((dat0 V c).after 5 t) := rfl
theorem leaves0_6 (c : Dev nD) (t : Fin cfg0.N) :
    (dat0 V c).leavesExact 6 t = owns (c : Thread nD τ) (st0_6 t) fullShare ((dat0 V c).after 6 t) := rfl

/-! ## The body obligation, at a generic point -/

/-- What the body is called with at point `t` (the library's body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 4000000 in
/-- The body at any point: the inputs' memrefs hold their blocks; the closed forms say which of the three control cases
    the point is in; the invariant hands the body the two scratch accumulators at what the point before left (at anything
    at the first point) and takes them back at this point's contents; outputs 7 and 8 pass through untouched where they
    are idle and are handed back at the copies at the last point; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3, leaves0_4, leaves0_5, leaves0_6,
    after0_0, after0_1, after0_2, after0_3, after0_4, after0_5, after0_6]
  have hN : t.val < 50 := lt_of_lt_of_eq t.isLt (show cfg0.N = 50 from N_0)
  by_cases h0 : t.val % 50 = 0
  · by_cases h1 : t.val % 50 = 49
    · exfalso; omega
    · have hc0 : cond0_0 (grid0.coords t) := (hcond0_0 t).mpr h0
      have hc1 : ¬cond0_1 (grid0.coords t) := fun h => h1 ((hcond0_1 t).mp h)
      have hz : t.val = 0 := by omega
      rw [Dat.leavesExact_idle (dat0 V c) 7 t (idleAt0_7 t hc1) (noFlush0_7 t hc1),
        Dat.leavesExact_idle (dat0 V c) 8 t (idleAt0_8 t hc1) (noFlush0_8 t hc1)]
      rw [accS0_A V c t hz, accQ0_A V c t hz]
      rw [PhiS0_castSucc V c t, PhiS0_zero V c _ _ hz, PhiA0_eq]
      iintro ⟨⟨⟨⟨HS, HQ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel0_A c Set.univ (grid0.coords t) _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      isplitl [HQ]; · iexact HQ
      iintro ⟨H0, H1, H2, H3, H4, H5, H6, HS, HQ⟩
      isplitl [HS HQ HR Hg]
      · isplitl [HS HQ HR]
        · isplitl [HS HQ]
          · isplitl [HS]; · iexact HS
            iexact HQ
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
  · have hc0 : ¬cond0_0 (grid0.coords t) := fun h => h0 ((hcond0_0 t).mp h)
    have hz : t.val ≠ 0 := fun e => h0 (by rw [e])
    rw [accS0_B V c t hz, accQ0_B V c t hz]
    rw [PhiS0_castSucc V c t, PhiS0_pos V c _ _ hz]
    by_cases h1 : t.val % 50 = 49
    · have hc1 : cond0_1 (grid0.coords t) := (hcond0_1 t).mpr h1
      rw [show (dat0 V c).leavesExact 7 t = owns (c : Thread nD τ) (st0_7 t) fullShare ((dat0 V c).after 7 t) from by
        unfold Dat.leavesExact; rw [liveAt0_7 t hc1], after0_7]
      rw [show (dat0 V c).leavesExact 8 t = owns (c : Thread nD τ) (st0_8 t) fullShare ((dat0 V c).after 8 t) from by
        unfold Dat.leavesExact; rw [liveAt0_8 t hc1], after0_8]
      rw [accS0_B V c t hz, accQ0_B V c t hz]
      iintro ⟨⟨⟨⟨HS, HQ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel0_C c Set.univ (grid0.coords t) _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS]; · iexact HS
      isplitl [HQ]; · iexact HQ
      iintro ⟨H0, H1, H2, H3, H4, H5, H6, H7, H8, HS, HQ⟩
      isplitl [HS HQ HR Hg]
      · isplitl [HS HQ HR]
        · isplitl [HS HQ]
          · isplitl [HS]; · iexact HS
            iexact HQ
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬cond0_1 (grid0.coords t) := fun h => h1 ((hcond0_1 t).mp h)
      rw [Dat.leavesExact_idle (dat0 V c) 7 t (idleAt0_7 t hc1) (noFlush0_7 t hc1),
        Dat.leavesExact_idle (dat0 V c) 8 t (idleAt0_8 t hc1) (noFlush0_8 t hc1)]
      iintro ⟨⟨⟨⟨HS, HQ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel0_B c Set.univ (grid0.coords t) _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      isplitl [HQ]; · iexact HQ
      iintro ⟨H0, H1, H2, H3, H4, H5, H6, HS, HQ⟩
      isplitl [HS HQ HR Hg]
      · isplitl [HS HQ HR]
        · isplitl [HS HQ]
          · isplitl [HS]; · iexact HS
            iexact HQ
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region (the class's invariant) is the invariant before the first point. -/
theorem PhiIn0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulators' named contents are forgotten. -/
theorem PhiOut0 (c : Dev nD) : (dat0 V c).Φ (Fin.last _) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 50 := N_0; omega), PhiA0_eq]
  iintro ⟨⟨⟨HS, HQ⟩, HR⟩, Hg⟩
  isplitl [HS HQ HR]
  · isplitl [HS HQ]
    · isplitl [HS]; · iexists _; iexact HS
      iexists _; iexact HQ
    iexact HR
  iexact Hg

/-- The last point. -/
abbrev tLast0 : Fin cfg0.N := ⟨49, by decide⟩

/-! ## The arrays of outputs 7 and 8 after the region -/

/-- Output 7's one block is its whole array: at the last point its offsets are zero and its extents the array's. -/
theorem whole0_7_off : ∀ a, win0_7.index tLast0 a * win0_7.size a = 0 := by decide +kernel
theorem whole0_7_size : ∀ a, win0_7.xsize (grid0.coords tLast0) a = S1x300.size a := by decide +kernel

/-- The one write-back of output 7, at the last point, writes its whole array. -/
theorem flushed0_7 (c : Dev nD) (t : Fin cfg0.N) (hf : (cfg0.win 7).flush t = true) :
    (dat0 V c).flushed 7 t
      = ((cfg0.win 7).blk t).view.read (Elt F) (out0_7 (accS0 V c 49 (by decide)) : Buf (Elt F) ((c : Thread nD τ).loc (Pipeline.arrRef spec0 7))) := by
  have hN : cfg0.N = 50 := N_0
  have h49 : t.val = 49 := by have := (flush0_7 t).mp hf; have := t.isLt; omega
  obtain rfl : t = tLast0 := Fin.ext h49
  show (cfg0.win 7).cut (grid0.coords tLast0) ((dat0 V c).after 7 tLast0) = _
  rw [after0_7]
  exact (Memref.read_access_unit_zero (Elt F) (Pipeline.arrRef spec0 7) (funext whole0_7_off)
    (fun a => by show win0_7.index tLast0 a * win0_7.size a + S1x300.size a ≤ S1x300.size a; rw [whole0_7_off a, Nat.zero_add]) _).symm

/-- So after the region output 7's array holds the copy of the accumulator as the last point left it. -/
theorem arrAt0_7 (c : Dev nD) : (dat0 V c).arrAt 7 cfg0.N = out0_7 (accS0 V c 49 (by decide)) :=
  (dat0 V c).arrAt_eq_of_cover 7 _ (flushed0_7 V c) fun i =>
    ⟨tLast0, (flush0_7 tLast0).mpr rfl, by
      show i ∈ ((View.whole (Pipeline.arrRef spec0 7)).slice (win0_7.rect tLast0)).set
      rw [View.set_slice_whole, Rect.mem_set_unit]
      intro a
      show win0_7.index tLast0 a * win0_7.size a ≤ (i a : Nat)
        ∧ (i a : Nat) < win0_7.index tLast0 a * win0_7.size a + win0_7.xsize (grid0.coords tLast0) a
      rw [whole0_7_off a, whole0_7_size a, Nat.zero_add]
      exact ⟨Nat.zero_le _, (i a).isLt⟩⟩

/-- Output 8's one block is its whole array: at the last point its offsets are zero and its extents the array's. -/
theorem whole0_8_off : ∀ a, win0_8.index tLast0 a * win0_8.size a = 0 := by decide +kernel
theorem whole0_8_size : ∀ a, win0_8.xsize (grid0.coords tLast0) a = S1x300.size a := by decide +kernel

/-- The one write-back of output 8, at the last point, writes its whole array. -/
theorem flushed0_8 (c : Dev nD) (t : Fin cfg0.N) (hf : (cfg0.win 8).flush t = true) :
    (dat0 V c).flushed 8 t
      = ((cfg0.win 8).blk t).view.read (Elt F) (out0_7 (accQ0 V c 49 (by decide)) : Buf (Elt F) ((c : Thread nD τ).loc (Pipeline.arrRef spec0 8))) := by
  have hN : cfg0.N = 50 := N_0
  have h49 : t.val = 49 := by have := (flush0_8 t).mp hf; have := t.isLt; omega
  obtain rfl : t = tLast0 := Fin.ext h49
  show (cfg0.win 8).cut (grid0.coords tLast0) ((dat0 V c).after 8 tLast0) = _
  rw [after0_8]
  exact (Memref.read_access_unit_zero (Elt F) (Pipeline.arrRef spec0 8) (funext whole0_8_off)
    (fun a => by show win0_8.index tLast0 a * win0_8.size a + S1x300.size a ≤ S1x300.size a; rw [whole0_8_off a, Nat.zero_add]) _).symm

/-- So after the region output 8's array holds the copy of the accumulator as the last point left it. -/
theorem arrAt0_8 (c : Dev nD) : (dat0 V c).arrAt 8 cfg0.N = out0_7 (accQ0 V c 49 (by decide)) :=
  (dat0 V c).arrAt_eq_of_cover 8 _ (flushed0_8 V c) fun i =>
    ⟨tLast0, (flush0_8 tLast0).mpr rfl, by
      show i ∈ ((View.whole (Pipeline.arrRef spec0 8)).slice (win0_8.rect tLast0)).set
      rw [View.set_slice_whole, Rect.mem_set_unit]
      intro a
      show win0_8.index tLast0 a * win0_8.size a ≤ (i a : Nat)
        ∧ (i a : Nat) < win0_8.index tLast0 a * win0_8.size a + win0_8.xsize (grid0.coords tLast0) a
      rw [whole0_8_off a, whole0_8_size a, Nat.zero_add]
      exact ⟨Nat.zero_le _, (i a).isLt⟩⟩

end Cert.KernelIdeal.Hand

end
-- ==== Proof.KI.RegBn1.lean ====
import proofs.«409348_j89627377533173_1_alg».proof.Proof.Gen.KernelIdeal.Launch
import proofs.«409348_j89627377533173_1_alg».proof.Proof.Gen.KernelIdeal.Skeleton
import proofs.«409348_j89627377533173_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

/-! # Region 1 (`cc1__bn_relu_kernel`, pipeline 1): the frame half, at any float model

A pointwise body over a grid of 25 points. Window 0 (the 2000x300 block of `z` at row block `t`) is fetched at every
point; the four row windows after it (mean, var, gamma, beta, each one row of 300) have a constant block index and are fetched once; window 5
is the output block, written back at every point. The body loads the five inputs whole, loads the output buffer (a value
it does not use), and stores one payload over the whole output buffer. So what it leaves in the output buffer is a
closed function of the five input blocks at the point, and it keeps nothing from point to point. -/

-- membership in a rectangle with a 2000-long axis recurses once per coordinate of that axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): an unfetched point has the
    block index of the point before, and the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): an unfetched point has the
    block index of the point before, and the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): an unfetched point has the
    block index of the point before, and the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): an unfetched point has the
    block index of the point before, and the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): an unfetched point has the
    block index of the point before, and the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 2000x300 staging buffer (the load of window 0 and the one store into window 5). -/
abbrev r1_0 : Rect S2000x300 := Rect.unit (s := S2000x300) ![0, 0] S2000x300.size inb_S2000x300_S2000x300_0_0
/-- The whole 1x300 staging buffer (the loads of the four row windows). -/
abbrev r1_1 : Rect S1x300 := Rect.unit (s := S1x300) ![0, 0] S1x300.size inb_S1x300_S1x300_0_0

/-! ## What the body leaves in the output window's buffer -/

/-- Window 5's staging buffer after the body, from the input windows' blocks `xz xm xv xg xb` (in window order: z, mean, var,
    gamma, beta): its one store as a piece. The payload takes the loads in the order the body makes them: z, var, mean,
    gamma, beta. -/
def out1_5 (xz : Vec F S2000x300 .f32) (xm xv xg xb : Vec F S1x300 .f32) : Vec F S2000x300 .f32 :=
  View.canon [⟨r1_0, k1_pay1 (View.ld xz r1_0) (View.ld xv r1_1) (View.ld xm r1_1) (View.ld xg r1_1) (View.ld xb r1_1)⟩]

/-- The one store is the whole buffer, so it covers it. -/
theorem cover1_5 (p : Vec F S2000x300 .f32) (y : S2000x300.Idx) :
    ∃ pc ∈ ([⟨r1_0, p⟩] : List (View.Piece (Elt F) S2000x300 .f32)), y ∈ pc.1.set :=
  View.cover_of_tiled [⟨r1_0, p⟩] S2000x300.size (by rfl) y

/-! ## The body's triple -/

set_option maxHeartbeats 1000000 in
/-- The kernel body on whole staging memrefs, the inputs' at read contents `xz xm xv xg xb` and the output's at anything, runs to
    the continuation holding the inputs' as they were and the output's at `out1_5` of the inputs'. -/
theorem sound_kernel1 (c : Dev nD) (E : Set ℕ) (i : grid1.Coords) (Az : Memref sig .tc .vmem S2000x300 .f32) (hAz : Az.IsWhole) (Am : Memref sig .tc .vmem S1x300 .f32) (hAm : Am.IsWhole) (Av : Memref sig .tc .vmem S1x300 .f32) (hAv : Av.IsWhole) (Ag : Memref sig .tc .vmem S1x300 .f32) (hAg : Ag.IsWhole) (Ab : Memref sig .tc .vmem S1x300 .f32) (hAb : Ab.IsWhole) (Ay : Memref sig .tc .vmem S2000x300 .f32) (hAy : Ay.IsWhole)
    (xz : Vec F S2000x300 .f32) (xm xv xg xb : Vec F S1x300 .f32) (K : PUnit → sProp 𝕄) :
    iprop(owns (c : Thread nD τ) Az fullShare xz ∗ owns (c : Thread nD τ) Am fullShare xm ∗ owns (c : Thread nD τ) Av fullShare xv ∗ owns (c : Thread nD τ) Ag fullShare xg ∗ owns (c : Thread nD τ) Ab fullShare xb
        ∗ (∃ d, owns (c : Thread nD τ) Ay fullShare d)
        ∗ (iprop(owns (c : Thread nD τ) Az fullShare xz ∗ owns (c : Thread nD τ) Am fullShare xm ∗ owns (c : Thread nD τ) Av fullShare xv ∗ owns (c : Thread nD τ) Ag fullShare xg ∗ owns (c : Thread nD τ) Ab fullShare xb
            ∗ owns (c : Thread nD τ) Ay fullShare (out1_5 xz xm xv xg xb)) -∗ K ⟨⟩))
      ⊢ wp frame (wpE (defs₀ (F := F)) Variants.none c none) E (cc1__bn_relu_kernel i Az hAz Am hAm Av hAv Ag hAg Ab hAb Ay hAy) K := by
  simp only [cc1__bn_relu_kernel_eq_skeleton]; unfold cc1__bn_relu_kernel_skel
  unfold owns
  iintro ⟨⟨%fz, %hfz, Hz⟩, ⟨%fm, %hfm, Hm⟩, ⟨%fv, %hfv, Hv⟩, ⟨%fg, %hfg, Hg⟩, ⟨%fb, %hfb, Hb⟩, ⟨%dy, %fy, -, Hy⟩, Hk⟩
  subst hfz hfm hfv hfg hfb
  sl_exec
  sl_step
  iapply Hk
  isplitl [Hz]
  · iexists fz; isplitr; · ipureintro; rfl
    iexact Hz
  isplitl [Hm]
  · iexists fm; isplitr; · ipureintro; rfl
    iexact Hm
  isplitl [Hv]
  · iexists fv; isplitr; · ipureintro; rfl
    iexact Hv
  isplitl [Hg]
  · iexists fg; isplitr; · ipureintro; rfl
    iexact Hg
  isplitl [Hb]
  · iexists fb; isplitr; · ipureintro; rfl
    iexact Hb
  iexists _; isplitr
  swap; · iexact Hy
  ipureintro
  exact View.read_writes_eq_canon _ _ _ (cover1_5 _)

/-! ## The pipeline's proof data -/

/-- The proof data of pipeline 1 on core `c`: the arrays as the region finds them (`V`); after the body at point `t` each
    input's buffer at its block and the output's at `out1_5` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- The invariant at the first point is the class's, -/
theorem PhiIn1 (c : Dev nD) : Pipeline.ΦA spec1 c ⊢ (dat1 V c).Φ 0 := .rfl
/-- and so is the invariant at the last. -/
theorem PhiOut1 (c : Dev nD) : (dat1 V c).Φ (Fin.last _) ⊢ Pipeline.ΦA spec1 c := .rfl

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_W`), so `sound_kernel1` applies; the invariant
    and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%dz, Hz⟩, ⟨%dm, Hm⟩, ⟨%dv, Hv⟩, ⟨%dg, Hg⟩, ⟨%db, Hb⟩, ⟨%dy, Hy⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [Hz]; · iexact Hz
  isplitl [Hm]; · iexact Hm
  isplitl [Hv]; · iexact Hv
  isplitl [Hg]; · iexact Hg
  isplitl [Hb]; · iexact Hb
  isplitl [Hy]; · iexists _; iexact Hy
  iintro ⟨Hz, Hm, Hv, Hg, Hb, Hy⟩
  isplitl [HΦ]; · iexact HΦ
  isplitl [Ho]; · iexact Ho
  isplitl [Hz]; · iexact Hz
  isplitl [Hm]; · iexact Hm
  isplitl [Hv]; · iexact Hv
  isplitl [Hg]; · iexact Hg
  isplitl [Hb]; · iexact Hb
  iexact Hy

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand
-- ==== Proof.KI.RegMlp2.lean ====
import proofs.«409348_j89627377533173_1_alg».proof.Proof.Gen.KernelIdeal.Launch
import proofs.«409348_j89627377533173_1_alg».proof.Proof.Gen.KernelIdeal.Skeleton
import proofs.«409348_j89627377533173_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 2 of @main: custom_call 2, `cc2__mlp_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point, fetched there or not (an input
    fetched at the first point only keeps its block: the index never moves). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole buffer -/

abbrev r2_a : Rect S1000x300 := Rect.unit (s := S1000x300) ![0, 0] S1000x300.size inb_S1000x300_S1000x300_0_0
abbrev r2_b : Rect S300x600 := Rect.unit (s := S300x600) ![0, 0] S300x600.size inb_S300x600_S300x600_0_0
abbrev r2_c : Rect S1x600 := Rect.unit (s := S1x600) ![0, 0] S1x600.size inb_S1x600_S1x600_0_0
abbrev r2_d : Rect S600x300 := Rect.unit (s := S600x300) ![0, 0] S600x300.size inb_S600x300_S600x300_0_0
abbrev r2_e : Rect S1x300 := Rect.unit (s := S1x300) ![0, 0] S1x300.size inb_S1x300_S1x300_0_0

/-! ## What the body leaves: the z block, the two running sums, the copies out -/

/-- The z block the body stores at a point, from the six input blocks (the skeleton's payload `k2_pay5`). -/
def z2 (x0 x1 : Vec F S1000x300 .f32) (x2 : Vec F S300x600 .f32) (x3 : Vec F S1x600 .f32) (x4 : Vec F S600x300 .f32) (x5 : Vec F S1x300 .f32) : FVec F S1000x300 .f32 :=
  k2_pay5 (View.ld x0 r2_a) (View.ld x1 r2_a) (View.ld x2 r2_b) (View.ld x3 r2_c) (View.ld x4 r2_d) (View.ld x5 r2_e)

/-- Output window 6's staging buffer after the body: its one store. -/
def out2_6 (x0 x1 : Vec F S1000x300 .f32) (x2 : Vec F S300x600 .f32) (x3 : Vec F S1x600 .f32) (x4 : Vec F S600x300 .f32) (x5 : Vec F S1x300 .f32) : Vec F S1000x300 .f32 :=
  View.canon [⟨r2_a, z2 x0 x1 x2 x3 x4 x5⟩]

/-- Scratch 0 (the running column sums) after the body's add, over what it held (`s`). -/
def stepS2 (x0 x1 : Vec F S1000x300 .f32) (x2 : Vec F S300x600 .f32) (x3 : Vec F S1x600 .f32) (x4 : Vec F S600x300 .f32) (x5 : Vec F S1x300 .f32) (s : Vec F S1x300 .f32) : Vec F S1x300 .f32 :=
  View.canon [⟨r2_e, k2_pay1 (k2_pay6 (View.ld x0 r2_a) (View.ld x1 r2_a) (View.ld x2 r2_b) (View.ld x3 r2_c) (View.ld x4 r2_d) (View.ld x5 r2_e) (View.ld s r2_e))⟩]

/-- Scratch 1 (the running column sums of squares) after the body's add, over what it held (`q`). -/
def stepQ2 (x0 x1 : Vec F S1000x300 .f32) (x2 : Vec F S300x600 .f32) (x3 : Vec F S1x600 .f32) (x4 : Vec F S600x300 .f32) (x5 : Vec F S1x300 .f32) (q : Vec F S1x300 .f32) : Vec F S1x300 .f32 :=
  View.canon [⟨r2_e, k2_pay2 (z2 x0 x1 x2 x3 x4 x5) (View.ld q r2_e)⟩]

/-- What the first point's reset leaves in scratch 0 and in scratch 1: zeros. -/
def zeroS2 : Vec F S1x300 .f32 := View.canon [⟨r2_e, k2_pay3 (F := F)⟩]
def zeroQ2 : Vec F S1x300 .f32 := View.canon [⟨r2_e, k2_pay4 (F := F)⟩]

/-- What the last point's copy leaves in output window 7's (8's) staging buffer, from the scratch's contents. -/
def out2_7 (s : Vec F S1x300 .f32) : Vec F S1x300 .f32 := View.canon [⟨r2_e, View.ld s r2_e⟩]

/-- The zero offsets of every access, as a function. -/
theorem hz2 : (![0, 0] : Fin 2 → ℕ) = fun _ => 0 := by funext a; fin_cases a <;> rfl

/-! ### Whole-buffer accesses read through (Lib/Pipeline/Value.lean): a load through the whole shape at zero offsets
    reads the contents, a store through it (last) leaves its payload, a load of what one such store left reads it -/

theorem ld2_a (X : Vec F S1000x300 .f32) : View.ld X r2_a = X := View.ld_unit_zero (S := S1000x300) hz2 _ X
theorem ld2_b (X : Vec F S300x600 .f32) : View.ld X r2_b = X := View.ld_unit_zero (S := S300x600) hz2 _ X
theorem ld2_c (X : Vec F S1x600 .f32) : View.ld X r2_c = X := View.ld_unit_zero (S := S1x600) hz2 _ X
theorem ld2_d (X : Vec F S600x300 .f32) : View.ld X r2_d = X := View.ld_unit_zero (S := S600x300) hz2 _ X
theorem ld2_e (X : Vec F S1x300 .f32) : View.ld X r2_e = X := View.ld_unit_zero (S := S1x300) hz2 _ X
theorem canon2_a (w : Vec F S1000x300 .f32) (L : List (View.Piece (Elt F) S1000x300 .f32)) :
    View.canon ((⟨r2_a, w⟩ : View.Piece (Elt F) S1000x300 .f32) :: L) = w := View.canon_cons_unit_zero (S := S1000x300) hz2 _ w L
theorem canon2_e (w : Vec F S1x300 .f32) (L : List (View.Piece (Elt F) S1x300 .f32)) :
    View.canon ((⟨r2_e, w⟩ : View.Piece (Elt F) S1x300 .f32) :: L) = w := View.canon_cons_unit_zero (S := S1x300) hz2 _ w L
theorem readCov2_e {κ : Kind} {sp : Space} (v : View sig κ sp S1x300 .f32) (w : Vec F S1x300 .f32) :
    v.readCov [(⟨r2_e, w⟩ : View.Piece (Elt F) S1x300 .f32)] r2_e.toLoadRect = w := View.readCov_unit_zero (S := S1x300) v hz2 _ w

theorem z2_eq (x0 x1 : Vec F S1000x300 .f32) (x2 : Vec F S300x600 .f32) (x3 : Vec F S1x600 .f32) (x4 : Vec F S600x300 .f32) (x5 : Vec F S1x300 .f32) : z2 x0 x1 x2 x3 x4 x5 = k2_pay5 x0 x1 x2 x3 x4 x5 := by
  unfold z2; rw [ld2_a, ld2_a, ld2_b, ld2_c, ld2_d, ld2_e]
theorem out2_6_eq (x0 x1 : Vec F S1000x300 .f32) (x2 : Vec F S300x600 .f32) (x3 : Vec F S1x600 .f32) (x4 : Vec F S600x300 .f32) (x5 : Vec F S1x300 .f32) : out2_6 x0 x1 x2 x3 x4 x5 = k2_pay5 x0 x1 x2 x3 x4 x5 := by
  unfold out2_6; rw [canon2_a, z2_eq]
theorem stepS2_eq (x0 x1 : Vec F S1000x300 .f32) (x2 : Vec F S300x600 .f32) (x3 : Vec F S1x600 .f32) (x4 : Vec F S600x300 .f32) (x5 : Vec F S1x300 .f32) (s : Vec F S1x300 .f32) :
    stepS2 x0 x1 x2 x3 x4 x5 s = k2_pay1 (k2_pay6 x0 x1 x2 x3 x4 x5 s) := by
  unfold stepS2; rw [canon2_e, ld2_a, ld2_a, ld2_b, ld2_c, ld2_d, ld2_e, ld2_e]
theorem stepQ2_eq (x0 x1 : Vec F S1000x300 .f32) (x2 : Vec F S300x600 .f32) (x3 : Vec F S1x600 .f32) (x4 : Vec F S600x300 .f32) (x5 : Vec F S1x300 .f32) (q : Vec F S1x300 .f32) :
    stepQ2 x0 x1 x2 x3 x4 x5 q = k2_pay2 (k2_pay5 x0 x1 x2 x3 x4 x5) q := by
  unfold stepQ2; rw [canon2_e, z2_eq, ld2_e]
theorem zeroS2_eq : zeroS2 (F := F) = k2_pay3 (F := F) := by unfold zeroS2; rw [canon2_e]
theorem zeroQ2_eq : zeroQ2 (F := F) = k2_pay4 (F := F) := by unfold zeroQ2; rw [canon2_e]
theorem out2_7_eq (s : Vec F S1x300 .f32) : out2_7 s = s := by
  unfold out2_7; rw [canon2_e, ld2_e]

/-- THE ACCUMULATION: scratch 0 after the body at position `n` — the add over the reset at the first point, over
    what the point before left at every later one. -/
def accS2 (c : Dev nD) : (n : ℕ) → n < cfg2.N → Vec F S1x300 .f32
  | 0, hn => stepS2 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (zeroS2 (F := F))
  | n + 1, hn => stepS2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (accS2 c n (Nat.lt_of_succ_lt hn))

/-- and scratch 1. -/
def accQ2 (c : Dev nD) : (n : ℕ) → n < cfg2.N → Vec F S1x300 .f32
  | 0, hn => stepQ2 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (zeroQ2 (F := F))
  | n + 1, hn => stepQ2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (accQ2 c n (Nat.lt_of_succ_lt hn))

theorem accS2_zero (c : Dev nD) (hn : 0 < cfg2.N) :
    accS2 V c 0 hn = stepS2 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (zeroS2 (F := F)) := rfl
theorem accS2_succ (c : Dev nD) (n : ℕ) (hn : n + 1 < cfg2.N) :
    accS2 V c (n + 1) hn = stepS2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (accS2 V c n (Nat.lt_of_succ_lt hn)) := rfl
theorem accQ2_zero (c : Dev nD) (hn : 0 < cfg2.N) :
    accQ2 V c 0 hn = stepQ2 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (zeroQ2 (F := F)) := rfl
theorem accQ2_succ (c : Dev nD) (n : ℕ) (hn : n + 1 < cfg2.N) :
    accQ2 V c (n + 1) hn = stepQ2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (accQ2 V c n (Nat.lt_of_succ_lt hn)) := rfl

/-- The accumulators at the first point, and at a later one over what the point before left. -/
theorem accS2_A (c : Dev nD) (t : Fin cfg2.N) (hz : t.val = 0) :
    accS2 V c t.val t.isLt = stepS2 (iblk2 V c 0 t) (iblk2 V c 1 t) (iblk2 V c 2 t) (iblk2 V c 3 t) (iblk2 V c 4 t) (iblk2 V c 5 t) (zeroS2 (F := F)) := by
  obtain ⟨n, hn⟩ := t
  cases n with
  | zero => rfl
  | succ n => exact absurd hz (Nat.succ_ne_zero n)
theorem accS2_B (c : Dev nD) (t : Fin cfg2.N) (hz : t.val ≠ 0) :
    accS2 V c t.val t.isLt = stepS2 (iblk2 V c 0 t) (iblk2 V c 1 t) (iblk2 V c 2 t) (iblk2 V c 3 t) (iblk2 V c 4 t) (iblk2 V c 5 t) (accS2 V c (t.val - 1) (Nat.lt_of_le_of_lt (Nat.sub_le _ _) t.isLt)) := by
  obtain ⟨n, hn⟩ := t
  cases n with
  | zero => exact absurd rfl hz
  | succ n => rfl
theorem accQ2_A (c : Dev nD) (t : Fin cfg2.N) (hz : t.val = 0) :
    accQ2 V c t.val t.isLt = stepQ2 (iblk2 V c 0 t) (iblk2 V c 1 t) (iblk2 V c 2 t) (iblk2 V c 3 t) (iblk2 V c 4 t) (iblk2 V c 5 t) (zeroQ2 (F := F)) := by
  obtain ⟨n, hn⟩ := t
  cases n with
  | zero => rfl
  | succ n => exact absurd hz (Nat.succ_ne_zero n)
theorem accQ2_B (c : Dev nD) (t : Fin cfg2.N) (hz : t.val ≠ 0) :
    accQ2 V c t.val t.isLt = stepQ2 (iblk2 V c 0 t) (iblk2 V c 1 t) (iblk2 V c 2 t) (iblk2 V c 3 t) (iblk2 V c 4 t) (iblk2 V c 5 t) (accQ2 V c (t.val - 1) (Nat.lt_of_le_of_lt (Nat.sub_le _ _) t.isLt)) := by
  obtain ⟨n, hn⟩ := t
  cases n with
  | zero => exact absurd rfl hz
  | succ n => rfl

/-! ## The body's branch conditions -/

/-- The condition of the reset (`pl.when` on the first point), from the grid coordinates (the skeleton's scalar chain). -/
abbrev cond2_0 (i : grid2.Coords) : Prop := (Scalar.cmpi .ne (Scalar.extui (Scalar.cmpi .eq (BitVec.ofNat 32 (i 0).val) 0#32)) 0#32) = 1#1
/-- It holds at the first point only — decided over the grid. -/
theorem hcond2_0 : ∀ t : Fin cfg2.N, cond2_0 (grid2.coords t) ↔ t.val % 50 = 0 :=
  (by decide +kernel : ∀ t : Fin grid2.N, cond2_0 (grid2.coords t) ↔ t.val % 50 = 0)
/-- The condition of the copy out (`pl.when` on the last point). -/
abbrev cond2_1 (i : grid2.Coords) : Prop := k2_cond2 i = 1#1
/-- It holds at the last point only — decided over the grid. -/
theorem hcond2_1 : ∀ t : Fin cfg2.N, cond2_1 (grid2.coords t) ↔ t.val % 50 = 49 :=
  (by decide +kernel : ∀ t : Fin grid2.N, cond2_1 (grid2.coords t) ↔ t.val % 50 = 49)

/-! ## The body's stores cover the buffers they write (each is of the whole buffer) -/

theorem cover2_a (p0 : Vec F S1000x300 .f32) (y : S1000x300.Idx) :
    ∃ pc ∈ ([⟨r2_a, p0⟩] : List (View.Piece (Elt F) S1000x300 .f32)), y ∈ pc.1.set :=
  View.cover_of_tiled [⟨r2_a, p0⟩] S1000x300.size (by rfl) y
theorem cover2_e (p0 : Vec F S1x300 .f32) (y : S1x300.Idx) :
    ∃ pc ∈ ([⟨r2_e, p0⟩] : List (View.Piece (Elt F) S1x300 .f32)), y ∈ pc.1.set :=
  View.cover_of_tiled [⟨r2_e, p0⟩] S1x300.size (by rfl) y

theorem cover2_e_cons (p0 : Vec F S1x300 .f32) (L : List (View.Piece (Elt F) S1x300 .f32)) (y : S1x300.Idx) :
    ∃ pc ∈ ((⟨r2_e, p0⟩ :: L) : List (View.Piece (Elt F) S1x300 .f32)), y ∈ pc.1.set := by
  obtain ⟨pc, hpc, hy⟩ := cover2_e p0 y
  exact ⟨pc, List.mem_cons.mpr (Or.inl (List.mem_singleton.mp hpc)), hy⟩

/-! ## Where outputs 7 and 8 are idle: everywhere but at the last point, which alone writes them back -/

theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
theorem liveAt2_7 : ∀ t : Fin cfg2.N, cond2_1 (grid2.coords t) → cfg2.idle 7 (grid2.coords t) = false := by decide +kernel
theorem idleAt2_8 : ∀ t : Fin cfg2.N, ¬cond2_1 (grid2.coords t) → cfg2.idle 8 (grid2.coords t) = true := by decide +kernel
theorem noFlush2_8 : ∀ t : Fin cfg2.N, ¬cond2_1 (grid2.coords t) → (cfg2.win 8).flush t = false := by decide +kernel
theorem liveAt2_8 : ∀ t : Fin cfg2.N, cond2_1 (grid2.coords t) → cfg2.idle 8 (grid2.coords t) = false := by decide +kernel

set_option maxHeartbeats 2000000 in
/-- The body at the first point: the two scratch accumulators, at anything, are reset and stepped. -/
theorem sound_kernel2_A (c : Dev nD) (E : Set ℕ) (i : grid2.Coords) (arg1 : Memref sig .tc .vmem S1000x300 .f32) (harg1 : arg1.IsWhole) (arg2 : Memref sig .tc .vmem S1000x300 .f32) (harg2 : arg2.IsWhole) (arg3 : Memref sig .tc .vmem S300x600 .f32) (harg3 : arg3.IsWhole) (arg4 : Memref sig .tc .vmem S1x600 .f32) (harg4 : arg4.IsWhole) (arg5 : Memref sig .tc .vmem S600x300 .f32) (harg5 : arg5.IsWhole) (arg6 : Memref sig .tc .vmem S1x300 .f32) (harg6 : arg6.IsWhole) (arg7 : Memref sig .tc .vmem S1000x300 .f32) (harg7 : arg7.IsWhole) (arg8 : Memref sig .tc .vmem S1x300 .f32) (harg8 : arg8.IsWhole) (arg9 : Memref sig .tc .vmem S1x300 .f32) (harg9 : arg9.IsWhole) (arg10 : Memref sig .tc .vmem S1x300 .f32) (harg10 : arg10.IsWhole) (arg11 : Memref sig .tc .vmem S1x300 .f32) (harg11 : arg11.IsWhole)
    (hc0 : cond2_0 i) (hc1 : ¬cond2_1 i) (x0 x1 : Vec F S1000x300 .f32) (x2 : Vec F S300x600 .f32) (x3 : Vec F S1x600 .f32) (x4 : Vec F S600x300 .f32) (x5 : Vec F S1x300 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)
            ∗ owns (c : Thread nD τ) arg10 fullShare (stepS2 x0 x1 x2 x3 x4 x5 (zeroS2 (F := F))) ∗ owns (c : Thread nD τ) arg11 fullShare (stepQ2 x0 x1 x2 x3 x4 x5 (zeroQ2 (F := F)))) -∗ K ⟨⟩))
      ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10 arg11 harg11) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, ⟨%dq, %fq, -, HQ⟩, Hk⟩
  subst hf0 hf1 hf2 hf3 hf4 hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_a _)
  isplitl [HS]
  · iexists _; isplitr
    swap; · iexact HS
    ipureintro
    sl_unfold_run_names
    try rw [View.readCov_eq_canon_ld _ _ _ (cover2_e _)]
    exact (View.read_writes_eq_canon _ _ _ (cover2_e_cons _ _)).trans ((canon2_e _ _).trans (canon2_e _ []).symm)
  iexists _; isplitr
  swap; · iexact HQ
  ipureintro
  sl_unfold_run_names
  try rw [View.readCov_eq_canon_ld _ _ _ (cover2_e _)]
  exact (View.read_writes_eq_canon _ _ _ (cover2_e_cons _ _)).trans ((canon2_e _ _).trans (canon2_e _ []).symm)

set_option maxHeartbeats 2000000 in
/-- The body at a middle point (no reset, no copy out): the two scratch accumulators at `s`, `q` are stepped. -/
theorem sound_kernel2_B (c : Dev nD) (E : Set ℕ) (i : grid2.Coords) (arg1 : Memref sig .tc .vmem S1000x300 .f32) (harg1 : arg1.IsWhole) (arg2 : Memref sig .tc .vmem S1000x300 .f32) (harg2 : arg2.IsWhole) (arg3 : Memref sig .tc .vmem S300x600 .f32) (harg3 : arg3.IsWhole) (arg4 : Memref sig .tc .vmem S1x600 .f32) (harg4 : arg4.IsWhole) (arg5 : Memref sig .tc .vmem S600x300 .f32) (harg5 : arg5.IsWhole) (arg6 : Memref sig .tc .vmem S1x300 .f32) (harg6 : arg6.IsWhole) (arg7 : Memref sig .tc .vmem S1000x300 .f32) (harg7 : arg7.IsWhole) (arg8 : Memref sig .tc .vmem S1x300 .f32) (harg8 : arg8.IsWhole) (arg9 : Memref sig .tc .vmem S1x300 .f32) (harg9 : arg9.IsWhole) (arg10 : Memref sig .tc .vmem S1x300 .f32) (harg10 : arg10.IsWhole) (arg11 : Memref sig .tc .vmem S1x300 .f32) (harg11 : arg11.IsWhole)
    (hc0 : ¬cond2_0 i) (hc1 : ¬cond2_1 i) (x0 x1 : Vec F S1000x300 .f32) (x2 : Vec F S300x600 .f32) (x3 : Vec F S1x600 .f32) (x4 : Vec F S600x300 .f32) (x5 : Vec F S1x300 .f32) (s q : Vec F S1x300 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)
            ∗ owns (c : Thread nD τ) arg10 fullShare (stepS2 x0 x1 x2 x3 x4 x5 s) ∗ owns (c : Thread nD τ) arg11 fullShare (stepQ2 x0 x1 x2 x3 x4 x5 q)) -∗ K ⟨⟩))
      ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10 arg11 harg11) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, ⟨%fq, %hfq, HQ⟩, Hk⟩
  subst hf0 hf1 hf2 hf3 hf4 hf5 hfs hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_a _)
  isplitl [HS]
  · iexists _; isplitr
    swap; · iexact HS
    ipureintro
    exact View.read_writes_eq_canon _ _ _ (cover2_e _)
  iexists _; isplitr
  swap; · iexact HQ
  ipureintro
  exact View.read_writes_eq_canon _ _ _ (cover2_e _)

set_option maxHeartbeats 2000000 in
/-- The body at the last point: the two scratch accumulators at `s`, `q` are stepped and copied out to outputs 7 and 8. -/
theorem sound_kernel2_C (c : Dev nD) (E : Set ℕ) (i : grid2.Coords) (arg1 : Memref sig .tc .vmem S1000x300 .f32) (harg1 : arg1.IsWhole) (arg2 : Memref sig .tc .vmem S1000x300 .f32) (harg2 : arg2.IsWhole) (arg3 : Memref sig .tc .vmem S300x600 .f32) (harg3 : arg3.IsWhole) (arg4 : Memref sig .tc .vmem S1x600 .f32) (harg4 : arg4.IsWhole) (arg5 : Memref sig .tc .vmem S600x300 .f32) (harg5 : arg5.IsWhole) (arg6 : Memref sig .tc .vmem S1x300 .f32) (harg6 : arg6.IsWhole) (arg7 : Memref sig .tc .vmem S1000x300 .f32) (harg7 : arg7.IsWhole) (arg8 : Memref sig .tc .vmem S1x300 .f32) (harg8 : arg8.IsWhole) (arg9 : Memref sig .tc .vmem S1x300 .f32) (harg9 : arg9.IsWhole) (arg10 : Memref sig .tc .vmem S1x300 .f32) (harg10 : arg10.IsWhole) (arg11 : Memref sig .tc .vmem S1x300 .f32) (harg11 : arg11.IsWhole)
    (hc0 : ¬cond2_0 i) (hc1 : cond2_1 i) (x0 x1 : Vec F S1000x300 .f32) (x2 : Vec F S300x600 .f32) (x3 : Vec F S1x600 .f32) (x4 : Vec F S600x300 .f32) (x5 : Vec F S1x300 .f32) (s q : Vec F S1x300 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)
            ∗ owns (c : Thread nD τ) arg8 fullShare (out2_7 (stepS2 x0 x1 x2 x3 x4 x5 s)) ∗ owns (c : Thread nD τ) arg9 fullShare (out2_7 (stepQ2 x0 x1 x2 x3 x4 x5 q))
            ∗ owns (c : Thread nD τ) arg10 fullShare (stepS2 x0 x1 x2 x3 x4 x5 s) ∗ owns (c : Thread nD τ) arg11 fullShare (stepQ2 x0 x1 x2 x3 x4 x5 q)) -∗ K ⟨⟩))
      ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10 arg11 harg11) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs, %hfs, HS⟩, ⟨%fq, %hfq, HQ⟩, Hk⟩
  subst hf0 hf1 hf2 hf3 hf4 hf5 hfs hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_a _)
  isplitl [H7]
  · iexists _; isplitr
    swap; · iexact H7
    ipureintro
    sl_unfold_run_names
    try rw [View.readCov_eq_canon_ld _ _ _ (cover2_e _)]
    exact (View.read_writes_eq_canon _ _ _ (cover2_e_cons _ _)).trans ((canon2_e _ _).trans (canon2_e _ []).symm)
  isplitl [H8]
  · iexists _; isplitr
    swap; · iexact H8
    ipureintro
    sl_unfold_run_names
    try rw [View.readCov_eq_canon_ld _ _ _ (cover2_e _)]
    exact (View.read_writes_eq_canon _ _ _ (cover2_e_cons _ _)).trans ((canon2_e _ _).trans (canon2_e _ []).symm)
  isplitl [HS]
  · iexists _; isplitr
    swap; · iexact HS
    ipureintro
    sl_unfold_run_names
    try rw [View.readCov_eq_canon_ld _ _ _ (cover2_e _)]
    exact (View.read_writes_eq_canon _ _ _ (cover2_e_cons _ _)).trans ((canon2_e _ _).trans (canon2_e _ []).symm)
  iexists _; isplitr
  swap; · iexact HQ
  ipureintro
  sl_unfold_run_names
  try rw [View.readCov_eq_canon_ld _ _ _ (cover2_e _)]
  exact (View.read_writes_eq_canon _ _ _ (cover2_e_cons _ _)).trans ((canon2_e _ _).trans (canon2_e _ []).symm)

/-! ## The invariant: the two scratch accumulators tracked -/

/-- The scratch operands: whole scoped buffers of the kernel's own, passed beside the windows. -/
abbrev scM2_0 : Memref sig .tc .vmem S1x300 .f32 := Memref.whole cc2_scratch0
abbrev scM2_1 : Memref sig .tc .vmem S1x300 .f32 := Memref.whole cc2_scratch1

/-- Before the first point the class's invariant (every scratch at anything); afterwards the two scratch
    accumulators at what the point before left, the other scoped buffers unopened, the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare (accS2 V c n hn) ∗ owns (c : Thread nD τ) scM2_1 fullShare (accQ2 V c n hn))
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulators at that point's contents. -/
theorem PhiS2_succ (c : Dev nD) (n : ℕ) (hn : n < cfg2.N) :
    PhiS2 V c (n + 1) hn = iprop(iprop(iprop(owns (c : Thread nD τ) scM2_0 fullShare (accS2 V c n hn) ∗ owns (c : Thread nD τ) scM2_1 fullShare (accQ2 V c n hn))
      ∗ Pipeline.scopedRestBut (Ix := Unit) (Name := ℕ) (U := UR sig nD τ) (Lvl := ℕ) (Val := Elt F) spec2 c [cc2_scratch0, cc2_scratch1]) ∗ (∃ r, prngReg c r)) := rfl

/-- Before a point that is not the first: the accumulators at what the point before left. -/
theorem PhiS2_pos (c : Dev nD) (n : ℕ) (h : n ≤ cfg2.N) (hz : n ≠ 0) :
    PhiS2 V c n h = iprop(iprop(iprop(owns (c : Thread nD τ) scM2_0 fullShare (accS2 V c (n - 1) (by omega)) ∗ owns (c : Thread nD τ) scM2_1 fullShare (accQ2 V c (n - 1) (by omega)))
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-- The class's invariant with the two scratch operands split out of the scoped rest as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

/-! ## The pipeline's proof data -/

/-- The proof data of pipeline 2 on core `c`: the arrays as the region finds them (`V`); after the body at point `t`
    each input's buffer at its block, output 6's at the z block of the input blocks, outputs 7 and 8's at the copies of
    the accumulators (consulted at the last point only: the windows are idle before it); the invariant tracks the two
    scratch accumulators (`PhiS2`); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (accS2 V c t.val t.isLt)
    | ⟨8, _⟩ => out2_7 (accQ2 V c t.val t.isLt)
  Φ t := PhiS2 V c t.val (Nat.le_of_lt_succ t.isLt)
  q _ := fullShare
  owed _ := 0

/-- The proof data's arrays are the region-entry contents (the proof data's definition projected, by `dsimp`). -/
theorem A_eq2 (c : Dev nD) (w : Fin cfg2.W) : (dat2 V c).A w = V c (Pipeline.arrRef spec2 w) := by
  dsimp only [dat2]

/-- The invariant at a point's start (the proof data at `t.castSucc`), restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (accS2 V c t.val t.isLt) := by dsimp only [dat2]
theorem after2_8 (c : Dev nD) (t : Fin cfg2.N) : (dat2 V c).after 8 t = out2_7 (accQ2 V c t.val t.isLt) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- Windows 0 to 6 are never idle: the body's post for them is the buffer at what the body leaves. -/
theorem leaves2_0 (c : Dev nD) (t : Fin cfg2.N) :
    (dat2 V c).leavesExact 0 t = owns (c : Thread nD τ) (st2_0 t) fullShare ((dat2 V c).after 0 t) := rfl
theorem leaves2_1 (c : Dev nD) (t : Fin cfg2.N) :
    (dat2 V c).leavesExact 1 t = owns (c : Thread nD τ) (st2_1 t) fullShare ((dat2 V c).after 1 t) := rfl
theorem leaves2_2 (c : Dev nD) (t : Fin cfg2.N) :
    (dat2 V c).leavesExact 2 t = owns (c : Thread nD τ) (st2_2 t) fullShare ((dat2 V c).after 2 t) := rfl
theorem leaves2_3 (c : Dev nD) (t : Fin cfg2.N) :
    (dat2 V c).leavesExact 3 t = owns (c : Thread nD τ) (st2_3 t) fullShare ((dat2 V c).after 3 t) := rfl
theorem leaves2_4 (c : Dev nD) (t : Fin cfg2.N) :
    (dat2 V c).leavesExact 4 t = owns (c : Thread nD τ) (st2_4 t) fullShare ((dat2 V c).after 4 t) := rfl
theorem leaves2_5 (c : Dev nD) (t : Fin cfg2.N) :
    (dat2 V c).leavesExact 5 t = owns (c : Thread nD τ) (st2_5 t) fullShare ((dat2 V c).after 5 t) := rfl
theorem leaves2_6 (c : Dev nD) (t : Fin cfg2.N) :
    (dat2 V c).leavesExact 6 t = owns (c : Thread nD τ) (st2_6 t) fullShare ((dat2 V c).after 6 t) := rfl

/-! ## The body obligation, at a generic point -/

/-- What the body is called with at point `t` (the library's body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 4000000 in
/-- The body at any point: the inputs' memrefs hold their blocks; the closed forms say which of the three control cases
    the point is in; the invariant hands the body the two scratch accumulators at what the point before left (at anything
    at the first point) and takes them back at this point's contents; outputs 7 and 8 pass through untouched where they
    are idle and are handed back at the copies at the last point; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4, leaves2_5, leaves2_6,
    after2_0, after2_1, after2_2, after2_3, after2_4, after2_5, after2_6]
  have hN : t.val < 50 := lt_of_lt_of_eq t.isLt (show cfg2.N = 50 from N_2)
  by_cases h0 : t.val % 50 = 0
  · by_cases h1 : t.val % 50 = 49
    · exfalso; omega
    · have hc0 : cond2_0 (grid2.coords t) := (hcond2_0 t).mpr h0
      have hc1 : ¬cond2_1 (grid2.coords t) := fun h => h1 ((hcond2_1 t).mp h)
      have hz : t.val = 0 := by omega
      rw [Dat.leavesExact_idle (dat2 V c) 7 t (idleAt2_7 t hc1) (noFlush2_7 t hc1),
        Dat.leavesExact_idle (dat2 V c) 8 t (idleAt2_8 t hc1) (noFlush2_8 t hc1)]
      rw [accS2_A V c t hz, accQ2_A V c t hz]
      rw [PhiS2_castSucc V c t, PhiS2_zero V c _ _ hz, PhiA2_eq]
      iintro ⟨⟨⟨⟨HS, HQ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel2_A c Set.univ (grid2.coords t) _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      isplitl [HQ]; · iexact HQ
      iintro ⟨H0, H1, H2, H3, H4, H5, H6, HS, HQ⟩
      isplitl [HS HQ HR Hg]
      · isplitl [HS HQ HR]
        · isplitl [HS HQ]
          · isplitl [HS]; · iexact HS
            iexact HQ
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
  · have hc0 : ¬cond2_0 (grid2.coords t) := fun h => h0 ((hcond2_0 t).mp h)
    have hz : t.val ≠ 0 := fun e => h0 (by rw [e])
    rw [accS2_B V c t hz, accQ2_B V c t hz]
    rw [PhiS2_castSucc V c t, PhiS2_pos V c _ _ hz]
    by_cases h1 : t.val % 50 = 49
    · have hc1 : cond2_1 (grid2.coords t) := (hcond2_1 t).mpr h1
      rw [show (dat2 V c).leavesExact 7 t = owns (c : Thread nD τ) (st2_7 t) fullShare ((dat2 V c).after 7 t) from by
        unfold Dat.leavesExact; rw [liveAt2_7 t hc1], after2_7]
      rw [show (dat2 V c).leavesExact 8 t = owns (c : Thread nD τ) (st2_8 t) fullShare ((dat2 V c).after 8 t) from by
        unfold Dat.leavesExact; rw [liveAt2_8 t hc1], after2_8]
      rw [accS2_B V c t hz, accQ2_B V c t hz]
      iintro ⟨⟨⟨⟨HS, HQ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel2_C c Set.univ (grid2.coords t) _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS]; · iexact HS
      isplitl [HQ]; · iexact HQ
      iintro ⟨H0, H1, H2, H3, H4, H5, H6, H7, H8, HS, HQ⟩
      isplitl [HS HQ HR Hg]
      · isplitl [HS HQ HR]
        · isplitl [HS HQ]
          · isplitl [HS]; · iexact HS
            iexact HQ
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬cond2_1 (grid2.coords t) := fun h => h1 ((hcond2_1 t).mp h)
      rw [Dat.leavesExact_idle (dat2 V c) 7 t (idleAt2_7 t hc1) (noFlush2_7 t hc1),
        Dat.leavesExact_idle (dat2 V c) 8 t (idleAt2_8 t hc1) (noFlush2_8 t hc1)]
      iintro ⟨⟨⟨⟨HS, HQ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel2_B c Set.univ (grid2.coords t) _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      isplitl [HQ]; · iexact HQ
      iintro ⟨H0, H1, H2, H3, H4, H5, H6, HS, HQ⟩
      isplitl [HS HQ HR Hg]
      · isplitl [HS HQ HR]
        · isplitl [HS HQ]
          · isplitl [HS]; · iexact HS
            iexact HQ
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region (the class's invariant) is the invariant before the first point. -/
theorem PhiIn2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulators' named contents are forgotten. -/
theorem PhiOut2 (c : Dev nD) : (dat2 V c).Φ (Fin.last _) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 50 := N_2; omega), PhiA2_eq]
  iintro ⟨⟨⟨HS, HQ⟩, HR⟩, Hg⟩
  isplitl [HS HQ HR]
  · isplitl [HS HQ]
    · isplitl [HS]; · iexists _; iexact HS
      iexists _; iexact HQ
    iexact HR
  iexact Hg

/-- The last point. -/
abbrev tLast2 : Fin cfg2.N := ⟨49, by decide⟩

/-! ## The arrays of outputs 7 and 8 after the region -/

/-- Output 7's one block is its whole array: at the last point its offsets are zero and its extents the array's. -/
theorem whole2_7_off : ∀ a, win2_7.index tLast2 a * win2_7.size a = 0 := by decide +kernel
theorem whole2_7_size : ∀ a, win2_7.xsize (grid2.coords tLast2) a = S1x300.size a := by decide +kernel

/-- The one write-back of output 7, at the last point, writes its whole array. -/
theorem flushed2_7 (c : Dev nD) (t : Fin cfg2.N) (hf : (cfg2.win 7).flush t = true) :
    (dat2 V c).flushed 7 t
      = ((cfg2.win 7).blk t).view.read (Elt F) (out2_7 (accS2 V c 49 (by decide)) : Buf (Elt F) ((c : Thread nD τ).loc (Pipeline.arrRef spec2 7))) := by
  have hN : cfg2.N = 50 := N_2
  have h49 : t.val = 49 := by have := (flush2_7 t).mp hf; have := t.isLt; omega
  obtain rfl : t = tLast2 := Fin.ext h49
  show (cfg2.win 7).cut (grid2.coords tLast2) ((dat2 V c).after 7 tLast2) = _
  rw [after2_7]
  exact (Memref.read_access_unit_zero (Elt F) (Pipeline.arrRef spec2 7) (funext whole2_7_off)
    (fun a => by show win2_7.index tLast2 a * win2_7.size a + S1x300.size a ≤ S1x300.size a; rw [whole2_7_off a, Nat.zero_add]) _).symm

/-- So after the region output 7's array holds the copy of the accumulator as the last point left it. -/
theorem arrAt2_7 (c : Dev nD) : (dat2 V c).arrAt 7 cfg2.N = out2_7 (accS2 V c 49 (by decide)) :=
  (dat2 V c).arrAt_eq_of_cover 7 _ (flushed2_7 V c) fun i =>
    ⟨tLast2, (flush2_7 tLast2).mpr rfl, by
      show i ∈ ((View.whole (Pipeline.arrRef spec2 7)).slice (win2_7.rect tLast2)).set
      rw [View.set_slice_whole, Rect.mem_set_unit]
      intro a
      show win2_7.index tLast2 a * win2_7.size a ≤ (i a : Nat)
        ∧ (i a : Nat) < win2_7.index tLast2 a * win2_7.size a + win2_7.xsize (grid2.coords tLast2) a
      rw [whole2_7_off a, whole2_7_size a, Nat.zero_add]
      exact ⟨Nat.zero_le _, (i a).isLt⟩⟩

/-- Output 8's one block is its whole array: at the last point its offsets are zero and its extents the array's. -/
theorem whole2_8_off : ∀ a, win2_8.index tLast2 a * win2_8.size a = 0 := by decide +kernel
theorem whole2_8_size : ∀ a, win2_8.xsize (grid2.coords tLast2) a = S1x300.size a := by decide +kernel

/-- The one write-back of output 8, at the last point, writes its whole array. -/
theorem flushed2_8 (c : Dev nD) (t : Fin cfg2.N) (hf : (cfg2.win 8).flush t = true) :
    (dat2 V c).flushed 8 t
      = ((cfg2.win 8).blk t).view.read (Elt F) (out2_7 (accQ2 V c 49 (by decide)) : Buf (Elt F) ((c : Thread nD τ).loc (Pipeline.arrRef spec2 8))) := by
  have hN : cfg2.N = 50 := N_2
  have h49 : t.val = 49 := by have := (flush2_8 t).mp hf; have := t.isLt; omega
  obtain rfl : t = tLast2 := Fin.ext h49
  show (cfg2.win 8).cut (grid2.coords tLast2) ((dat2 V c).after 8 tLast2) = _
  rw [after2_8]
  exact (Memref.read_access_unit_zero (Elt F) (Pipeline.arrRef spec2 8) (funext whole2_8_off)
    (fun a => by show win2_8.index tLast2 a * win2_8.size a + S1x300.size a ≤ S1x300.size a; rw [whole2_8_off a, Nat.zero_add]) _).symm

/-- So after the region output 8's array holds the copy of the accumulator as the last point left it. -/
theorem arrAt2_8 (c : Dev nD) : (dat2 V c).arrAt 8 cfg2.N = out2_7 (accQ2 V c 49 (by decide)) :=
  (dat2 V c).arrAt_eq_of_cover 8 _ (flushed2_8 V c) fun i =>
    ⟨tLast2, (flush2_8 tLast2).mpr rfl, by
      show i ∈ ((View.whole (Pipeline.arrRef spec2 8)).slice (win2_8.rect tLast2)).set
      rw [View.set_slice_whole, Rect.mem_set_unit]
      intro a
      show win2_8.index tLast2 a * win2_8.size a ≤ (i a : Nat)
        ∧ (i a : Nat) < win2_8.index tLast2 a * win2_8.size a + win2_8.xsize (grid2.coords tLast2) a
      rw [whole2_8_off a, whole2_8_size a, Nat.zero_add]
      exact ⟨Nat.zero_le _, (i a).isLt⟩⟩

end Cert.KernelIdeal.Hand

end
-- ==== Proof.KI.RegBn3.lean ====
import proofs.«409348_j89627377533173_1_alg».proof.Proof.Gen.KernelIdeal.Launch
import proofs.«409348_j89627377533173_1_alg».proof.Proof.Gen.KernelIdeal.Skeleton
import proofs.«409348_j89627377533173_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

/-! # Region 3 (`cc3__bn_relu_kernel`, pipeline 3): the frame half, at any float model

A pointwise body over a grid of 25 points. Window 0 (the 2000x300 block of `z` at row block `t`) is fetched at every
point; the four row windows after it (mean, var, gamma, beta, each one row of 300) have a constant block index and are fetched once; window 5
is the output block, written back at every point. The body loads the five inputs whole, loads the output buffer (a value
it does not use), and stores one payload over the whole output buffer. So what it leaves in the output buffer is a
closed function of the five input blocks at the point, and it keeps nothing from point to point. -/

-- membership in a rectangle with a 2000-long axis recurses once per coordinate of that axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): an unfetched point has the
    block index of the point before, and the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s (`hA`) and whose body leaves the block in place (`hafter`): an unfetched point has the
    block index of the point before, and the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s (`hA`) and whose body leaves the block in place (`hafter`): an unfetched point has the
    block index of the point before, and the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s (`hA`) and whose body leaves the block in place (`hafter`): an unfetched point has the
    block index of the point before, and the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s (`hA`) and whose body leaves the block in place (`hafter`): an unfetched point has the
    block index of the point before, and the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole 2000x300 staging buffer (the load of window 0 and the one store into window 5). -/
abbrev r3_0 : Rect S2000x300 := Rect.unit (s := S2000x300) ![0, 0] S2000x300.size inb_S2000x300_S2000x300_0_0
/-- The whole 1x300 staging buffer (the loads of the four row windows). -/
abbrev r3_1 : Rect S1x300 := Rect.unit (s := S1x300) ![0, 0] S1x300.size inb_S1x300_S1x300_0_0

/-! ## What the body leaves in the output window's buffer -/

/-- Window 5's staging buffer after the body, from the input windows' blocks `xz xm xv xg xb` (in window order: z, mean, var,
    gamma, beta): its one store as a piece. The payload takes the loads in the order the body makes them: z, var, mean,
    gamma, beta. -/
def out3_5 (xz : Vec F S2000x300 .f32) (xm xv xg xb : Vec F S1x300 .f32) : Vec F S2000x300 .f32 :=
  View.canon [⟨r3_0, k3_pay1 (View.ld xz r3_0) (View.ld xv r3_1) (View.ld xm r3_1) (View.ld xg r3_1) (View.ld xb r3_1)⟩]

/-- The one store is the whole buffer, so it covers it. -/
theorem cover3_5 (p : Vec F S2000x300 .f32) (y : S2000x300.Idx) :
    ∃ pc ∈ ([⟨r3_0, p⟩] : List (View.Piece (Elt F) S2000x300 .f32)), y ∈ pc.1.set :=
  View.cover_of_tiled [⟨r3_0, p⟩] S2000x300.size (by rfl) y

/-! ## The body's triple -/

set_option maxHeartbeats 1000000 in
/-- The kernel body on whole staging memrefs, the inputs' at read contents `xz xm xv xg xb` and the output's at anything, runs to
    the continuation holding the inputs' as they were and the output's at `out3_5` of the inputs'. -/
theorem sound_kernel3 (c : Dev nD) (E : Set ℕ) (i : grid3.Coords) (Az : Memref sig .tc .vmem S2000x300 .f32) (hAz : Az.IsWhole) (Am : Memref sig .tc .vmem S1x300 .f32) (hAm : Am.IsWhole) (Av : Memref sig .tc .vmem S1x300 .f32) (hAv : Av.IsWhole) (Ag : Memref sig .tc .vmem S1x300 .f32) (hAg : Ag.IsWhole) (Ab : Memref sig .tc .vmem S1x300 .f32) (hAb : Ab.IsWhole) (Ay : Memref sig .tc .vmem S2000x300 .f32) (hAy : Ay.IsWhole)
    (xz : Vec F S2000x300 .f32) (xm xv xg xb : Vec F S1x300 .f32) (K : PUnit → sProp 𝕄) :
    iprop(owns (c : Thread nD τ) Az fullShare xz ∗ owns (c : Thread nD τ) Am fullShare xm ∗ owns (c : Thread nD τ) Av fullShare xv ∗ owns (c : Thread nD τ) Ag fullShare xg ∗ owns (c : Thread nD τ) Ab fullShare xb
        ∗ (∃ d, owns (c : Thread nD τ) Ay fullShare d)
        ∗ (iprop(owns (c : Thread nD τ) Az fullShare xz ∗ owns (c : Thread nD τ) Am fullShare xm ∗ owns (c : Thread nD τ) Av fullShare xv ∗ owns (c : Thread nD τ) Ag fullShare xg ∗ owns (c : Thread nD τ) Ab fullShare xb
            ∗ owns (c : Thread nD τ) Ay fullShare (out3_5 xz xm xv xg xb)) -∗ K ⟨⟩))
      ⊢ wp frame (wpE (defs₀ (F := F)) Variants.none c none) E (cc3__bn_relu_kernel i Az hAz Am hAm Av hAv Ag hAg Ab hAb Ay hAy) K := by
  simp only [cc3__bn_relu_kernel_eq_skeleton]; unfold cc3__bn_relu_kernel_skel
  unfold owns
  iintro ⟨⟨%fz, %hfz, Hz⟩, ⟨%fm, %hfm, Hm⟩, ⟨%fv, %hfv, Hv⟩, ⟨%fg, %hfg, Hg⟩, ⟨%fb, %hfb, Hb⟩, ⟨%dy, %fy, -, Hy⟩, Hk⟩
  subst hfz hfm hfv hfg hfb
  sl_exec
  sl_step
  iapply Hk
  isplitl [Hz]
  · iexists fz; isplitr; · ipureintro; rfl
    iexact Hz
  isplitl [Hm]
  · iexists fm; isplitr; · ipureintro; rfl
    iexact Hm
  isplitl [Hv]
  · iexists fv; isplitr; · ipureintro; rfl
    iexact Hv
  isplitl [Hg]
  · iexists fg; isplitr; · ipureintro; rfl
    iexact Hg
  isplitl [Hb]
  · iexists fb; isplitr; · ipureintro; rfl
    iexact Hb
  iexists _; isplitr
  swap; · iexact Hy
  ipureintro
  exact View.read_writes_eq_canon _ _ _ (cover3_5 _)

/-! ## The pipeline's proof data -/

/-- The proof data of pipeline 1 on core `c`: the arrays as the region finds them (`V`); after the body at point `t` each
    input's buffer at its block and the output's at `out3_5` of the input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- The invariant at the first point is the class's, -/
theorem PhiIn3 (c : Dev nD) : Pipeline.ΦA spec3 c ⊢ (dat3 V c).Φ 0 := .rfl
/-- and so is the invariant at the last. -/
theorem PhiOut3 (c : Dev nD) : (dat3 V c).Φ (Fin.last _) ⊢ Pipeline.ΦA spec3 c := .rfl

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks (`before3_W`), so `sound_kernel3` applies; the invariant
    and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%dz, Hz⟩, ⟨%dm, Hm⟩, ⟨%dv, Hv⟩, ⟨%dg, Hg⟩, ⟨%db, Hb⟩, ⟨%dy, Hy⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [Hz]; · iexact Hz
  isplitl [Hm]; · iexact Hm
  isplitl [Hv]; · iexact Hv
  isplitl [Hg]; · iexact Hg
  isplitl [Hb]; · iexact Hb
  isplitl [Hy]; · iexists _; iexact Hy
  iintro ⟨Hz, Hm, Hv, Hg, Hb, Hy⟩
  isplitl [HΦ]; · iexact HΦ
  isplitl [Ho]; · iexact Ho
  isplitl [Hz]; · iexact Hz
  isplitl [Hm]; · iexact Hm
  isplitl [Hv]; · iexact Hv
  isplitl [Hg]; · iexact Hg
  isplitl [Hb]; · iexact Hb
  iexact Hy

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region1

end Cert.KernelIdeal.Hand
-- ==== Proof.KI.RegMlp4.lean ====
import proofs.«409348_j89627377533173_1_alg».proof.Proof.Gen.KernelIdeal.Launch
import proofs.«409348_j89627377533173_1_alg».proof.Proof.Gen.KernelIdeal.Skeleton
import proofs.«409348_j89627377533173_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 4 of @main: custom_call 4, `cc4__mlp_kernel` (pipeline 4), at the entry contents `V` -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Each input window's current staging buffer holds its block at every point, fetched there or not (an input
    fetched at the first point only keeps its block: the index never moves). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and store is of a whole buffer -/

abbrev r4_a : Rect S1000x300 := Rect.unit (s := S1000x300) ![0, 0] S1000x300.size inb_S1000x300_S1000x300_0_0
abbrev r4_b : Rect S300x600 := Rect.unit (s := S300x600) ![0, 0] S300x600.size inb_S300x600_S300x600_0_0
abbrev r4_c : Rect S1x600 := Rect.unit (s := S1x600) ![0, 0] S1x600.size inb_S1x600_S1x600_0_0
abbrev r4_d : Rect S600x300 := Rect.unit (s := S600x300) ![0, 0] S600x300.size inb_S600x300_S600x300_0_0
abbrev r4_e : Rect S1x300 := Rect.unit (s := S1x300) ![0, 0] S1x300.size inb_S1x300_S1x300_0_0

/-! ## What the body leaves: the z block, the two running sums, the copies out -/

/-- The z block the body stores at a point, from the six input blocks (the skeleton's payload `k4_pay5`). -/
def z4 (x0 x1 : Vec F S1000x300 .f32) (x2 : Vec F S300x600 .f32) (x3 : Vec F S1x600 .f32) (x4 : Vec F S600x300 .f32) (x5 : Vec F S1x300 .f32) : FVec F S1000x300 .f32 :=
  k4_pay5 (View.ld x0 r4_a) (View.ld x1 r4_a) (View.ld x2 r4_b) (View.ld x3 r4_c) (View.ld x4 r4_d) (View.ld x5 r4_e)

/-- Output window 6's staging buffer after the body: its one store. -/
def out4_6 (x0 x1 : Vec F S1000x300 .f32) (x2 : Vec F S300x600 .f32) (x3 : Vec F S1x600 .f32) (x4 : Vec F S600x300 .f32) (x5 : Vec F S1x300 .f32) : Vec F S1000x300 .f32 :=
  View.canon [⟨r4_a, z4 x0 x1 x2 x3 x4 x5⟩]

/-- Scratch 0 (the running column sums) after the body's add, over what it held (`s`). -/
def stepS4 (x0 x1 : Vec F S1000x300 .f32) (x2 : Vec F S300x600 .f32) (x3 : Vec F S1x600 .f32) (x4 : Vec F S600x300 .f32) (x5 : Vec F S1x300 .f32) (s : Vec F S1x300 .f32) : Vec F S1x300 .f32 :=
  View.canon [⟨r4_e, k4_pay1 (k4_pay6 (View.ld x0 r4_a) (View.ld x1 r4_a) (View.ld x2 r4_b) (View.ld x3 r4_c) (View.ld x4 r4_d) (View.ld x5 r4_e) (View.ld s r4_e))⟩]

/-- Scratch 1 (the running column sums of squares) after the body's add, over what it held (`q`). -/
def stepQ4 (x0 x1 : Vec F S1000x300 .f32) (x2 : Vec F S300x600 .f32) (x3 : Vec F S1x600 .f32) (x4 : Vec F S600x300 .f32) (x5 : Vec F S1x300 .f32) (q : Vec F S1x300 .f32) : Vec F S1x300 .f32 :=
  View.canon [⟨r4_e, k4_pay2 (z4 x0 x1 x2 x3 x4 x5) (View.ld q r4_e)⟩]

/-- What the first point's reset leaves in scratch 0 and in scratch 1: zeros. -/
def zeroS4 : Vec F S1x300 .f32 := View.canon [⟨r4_e, k4_pay3 (F := F)⟩]
def zeroQ4 : Vec F S1x300 .f32 := View.canon [⟨r4_e, k4_pay4 (F := F)⟩]

/-- What the last point's copy leaves in output window 7's (8's) staging buffer, from the scratch's contents. -/
def out4_7 (s : Vec F S1x300 .f32) : Vec F S1x300 .f32 := View.canon [⟨r4_e, View.ld s r4_e⟩]

/-- The zero offsets of every access, as a function. -/
theorem hz4 : (![0, 0] : Fin 2 → ℕ) = fun _ => 0 := by funext a; fin_cases a <;> rfl

/-! ### Whole-buffer accesses read through (Lib/Pipeline/Value.lean): a load through the whole shape at zero offsets
    reads the contents, a store through it (last) leaves its payload, a load of what one such store left reads it -/

theorem ld4_a (X : Vec F S1000x300 .f32) : View.ld X r4_a = X := View.ld_unit_zero (S := S1000x300) hz4 _ X
theorem ld4_b (X : Vec F S300x600 .f32) : View.ld X r4_b = X := View.ld_unit_zero (S := S300x600) hz4 _ X
theorem ld4_c (X : Vec F S1x600 .f32) : View.ld X r4_c = X := View.ld_unit_zero (S := S1x600) hz4 _ X
theorem ld4_d (X : Vec F S600x300 .f32) : View.ld X r4_d = X := View.ld_unit_zero (S := S600x300) hz4 _ X
theorem ld4_e (X : Vec F S1x300 .f32) : View.ld X r4_e = X := View.ld_unit_zero (S := S1x300) hz4 _ X
theorem canon4_a (w : Vec F S1000x300 .f32) (L : List (View.Piece (Elt F) S1000x300 .f32)) :
    View.canon ((⟨r4_a, w⟩ : View.Piece (Elt F) S1000x300 .f32) :: L) = w := View.canon_cons_unit_zero (S := S1000x300) hz4 _ w L
theorem canon4_e (w : Vec F S1x300 .f32) (L : List (View.Piece (Elt F) S1x300 .f32)) :
    View.canon ((⟨r4_e, w⟩ : View.Piece (Elt F) S1x300 .f32) :: L) = w := View.canon_cons_unit_zero (S := S1x300) hz4 _ w L
theorem readCov4_e {κ : Kind} {sp : Space} (v : View sig κ sp S1x300 .f32) (w : Vec F S1x300 .f32) :
    v.readCov [(⟨r4_e, w⟩ : View.Piece (Elt F) S1x300 .f32)] r4_e.toLoadRect = w := View.readCov_unit_zero (S := S1x300) v hz4 _ w

theorem z4_eq (x0 x1 : Vec F S1000x300 .f32) (x2 : Vec F S300x600 .f32) (x3 : Vec F S1x600 .f32) (x4 : Vec F S600x300 .f32) (x5 : Vec F S1x300 .f32) : z4 x0 x1 x2 x3 x4 x5 = k4_pay5 x0 x1 x2 x3 x4 x5 := by
  unfold z4; rw [ld4_a, ld4_a, ld4_b, ld4_c, ld4_d, ld4_e]
theorem out4_6_eq (x0 x1 : Vec F S1000x300 .f32) (x2 : Vec F S300x600 .f32) (x3 : Vec F S1x600 .f32) (x4 : Vec F S600x300 .f32) (x5 : Vec F S1x300 .f32) : out4_6 x0 x1 x2 x3 x4 x5 = k4_pay5 x0 x1 x2 x3 x4 x5 := by
  unfold out4_6; rw [canon4_a, z4_eq]
theorem stepS4_eq (x0 x1 : Vec F S1000x300 .f32) (x2 : Vec F S300x600 .f32) (x3 : Vec F S1x600 .f32) (x4 : Vec F S600x300 .f32) (x5 : Vec F S1x300 .f32) (s : Vec F S1x300 .f32) :
    stepS4 x0 x1 x2 x3 x4 x5 s = k4_pay1 (k4_pay6 x0 x1 x2 x3 x4 x5 s) := by
  unfold stepS4; rw [canon4_e, ld4_a, ld4_a, ld4_b, ld4_c, ld4_d, ld4_e, ld4_e]
theorem stepQ4_eq (x0 x1 : Vec F S1000x300 .f32) (x2 : Vec F S300x600 .f32) (x3 : Vec F S1x600 .f32) (x4 : Vec F S600x300 .f32) (x5 : Vec F S1x300 .f32) (q : Vec F S1x300 .f32) :
    stepQ4 x0 x1 x2 x3 x4 x5 q = k4_pay2 (k4_pay5 x0 x1 x2 x3 x4 x5) q := by
  unfold stepQ4; rw [canon4_e, z4_eq, ld4_e]
theorem zeroS4_eq : zeroS4 (F := F) = k4_pay3 (F := F) := by unfold zeroS4; rw [canon4_e]
theorem zeroQ4_eq : zeroQ4 (F := F) = k4_pay4 (F := F) := by unfold zeroQ4; rw [canon4_e]
theorem out4_7_eq (s : Vec F S1x300 .f32) : out4_7 s = s := by
  unfold out4_7; rw [canon4_e, ld4_e]

/-- THE ACCUMULATION: scratch 0 after the body at position `n` — the add over the reset at the first point, over
    what the point before left at every later one. -/
def accS4 (c : Dev nD) : (n : ℕ) → n < cfg4.N → Vec F S1x300 .f32
  | 0, hn => stepS4 (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (zeroS4 (F := F))
  | n + 1, hn => stepS4 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (accS4 c n (Nat.lt_of_succ_lt hn))

/-- and scratch 1. -/
def accQ4 (c : Dev nD) : (n : ℕ) → n < cfg4.N → Vec F S1x300 .f32
  | 0, hn => stepQ4 (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (zeroQ4 (F := F))
  | n + 1, hn => stepQ4 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (accQ4 c n (Nat.lt_of_succ_lt hn))

theorem accS4_zero (c : Dev nD) (hn : 0 < cfg4.N) :
    accS4 V c 0 hn = stepS4 (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (zeroS4 (F := F)) := rfl
theorem accS4_succ (c : Dev nD) (n : ℕ) (hn : n + 1 < cfg4.N) :
    accS4 V c (n + 1) hn = stepS4 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (accS4 V c n (Nat.lt_of_succ_lt hn)) := rfl
theorem accQ4_zero (c : Dev nD) (hn : 0 < cfg4.N) :
    accQ4 V c 0 hn = stepQ4 (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (zeroQ4 (F := F)) := rfl
theorem accQ4_succ (c : Dev nD) (n : ℕ) (hn : n + 1 < cfg4.N) :
    accQ4 V c (n + 1) hn = stepQ4 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (accQ4 V c n (Nat.lt_of_succ_lt hn)) := rfl

/-- The accumulators at the first point, and at a later one over what the point before left. -/
theorem accS4_A (c : Dev nD) (t : Fin cfg4.N) (hz : t.val = 0) :
    accS4 V c t.val t.isLt = stepS4 (iblk4 V c 0 t) (iblk4 V c 1 t) (iblk4 V c 2 t) (iblk4 V c 3 t) (iblk4 V c 4 t) (iblk4 V c 5 t) (zeroS4 (F := F)) := by
  obtain ⟨n, hn⟩ := t
  cases n with
  | zero => rfl
  | succ n => exact absurd hz (Nat.succ_ne_zero n)
theorem accS4_B (c : Dev nD) (t : Fin cfg4.N) (hz : t.val ≠ 0) :
    accS4 V c t.val t.isLt = stepS4 (iblk4 V c 0 t) (iblk4 V c 1 t) (iblk4 V c 2 t) (iblk4 V c 3 t) (iblk4 V c 4 t) (iblk4 V c 5 t) (accS4 V c (t.val - 1) (Nat.lt_of_le_of_lt (Nat.sub_le _ _) t.isLt)) := by
  obtain ⟨n, hn⟩ := t
  cases n with
  | zero => exact absurd rfl hz
  | succ n => rfl
theorem accQ4_A (c : Dev nD) (t : Fin cfg4.N) (hz : t.val = 0) :
    accQ4 V c t.val t.isLt = stepQ4 (iblk4 V c 0 t) (iblk4 V c 1 t) (iblk4 V c 2 t) (iblk4 V c 3 t) (iblk4 V c 4 t) (iblk4 V c 5 t) (zeroQ4 (F := F)) := by
  obtain ⟨n, hn⟩ := t
  cases n with
  | zero => rfl
  | succ n => exact absurd hz (Nat.succ_ne_zero n)
theorem accQ4_B (c : Dev nD) (t : Fin cfg4.N) (hz : t.val ≠ 0) :
    accQ4 V c t.val t.isLt = stepQ4 (iblk4 V c 0 t) (iblk4 V c 1 t) (iblk4 V c 2 t) (iblk4 V c 3 t) (iblk4 V c 4 t) (iblk4 V c 5 t) (accQ4 V c (t.val - 1) (Nat.lt_of_le_of_lt (Nat.sub_le _ _) t.isLt)) := by
  obtain ⟨n, hn⟩ := t
  cases n with
  | zero => exact absurd rfl hz
  | succ n => rfl

/-! ## The body's branch conditions -/

/-- The condition of the reset (`pl.when` on the first point), from the grid coordinates (the skeleton's scalar chain). -/
abbrev cond4_0 (i : grid4.Coords) : Prop := (Scalar.cmpi .ne (Scalar.extui (Scalar.cmpi .eq (BitVec.ofNat 32 (i 0).val) 0#32)) 0#32) = 1#1
/-- It holds at the first point only — decided over the grid. -/
theorem hcond4_0 : ∀ t : Fin cfg4.N, cond4_0 (grid4.coords t) ↔ t.val % 50 = 0 :=
  (by decide +kernel : ∀ t : Fin grid4.N, cond4_0 (grid4.coords t) ↔ t.val % 50 = 0)
/-- The condition of the copy out (`pl.when` on the last point). -/
abbrev cond4_1 (i : grid4.Coords) : Prop := k4_cond2 i = 1#1
/-- It holds at the last point only — decided over the grid. -/
theorem hcond4_1 : ∀ t : Fin cfg4.N, cond4_1 (grid4.coords t) ↔ t.val % 50 = 49 :=
  (by decide +kernel : ∀ t : Fin grid4.N, cond4_1 (grid4.coords t) ↔ t.val % 50 = 49)

/-! ## The body's stores cover the buffers they write (each is of the whole buffer) -/

theorem cover4_a (p0 : Vec F S1000x300 .f32) (y : S1000x300.Idx) :
    ∃ pc ∈ ([⟨r4_a, p0⟩] : List (View.Piece (Elt F) S1000x300 .f32)), y ∈ pc.1.set :=
  View.cover_of_tiled [⟨r4_a, p0⟩] S1000x300.size (by rfl) y
theorem cover4_e (p0 : Vec F S1x300 .f32) (y : S1x300.Idx) :
    ∃ pc ∈ ([⟨r4_e, p0⟩] : List (View.Piece (Elt F) S1x300 .f32)), y ∈ pc.1.set :=
  View.cover_of_tiled [⟨r4_e, p0⟩] S1x300.size (by rfl) y

theorem cover4_e_cons (p0 : Vec F S1x300 .f32) (L : List (View.Piece (Elt F) S1x300 .f32)) (y : S1x300.Idx) :
    ∃ pc ∈ ((⟨r4_e, p0⟩ :: L) : List (View.Piece (Elt F) S1x300 .f32)), y ∈ pc.1.set := by
  obtain ⟨pc, hpc, hy⟩ := cover4_e p0 y
  exact ⟨pc, List.mem_cons.mpr (Or.inl (List.mem_singleton.mp hpc)), hy⟩

/-! ## Where outputs 7 and 8 are idle: everywhere but at the last point, which alone writes them back -/

theorem idleAt4_7 : ∀ t : Fin cfg4.N, ¬cond4_1 (grid4.coords t) → cfg4.idle 7 (grid4.coords t) = true := by decide +kernel
theorem noFlush4_7 : ∀ t : Fin cfg4.N, ¬cond4_1 (grid4.coords t) → (cfg4.win 7).flush t = false := by decide +kernel
theorem liveAt4_7 : ∀ t : Fin cfg4.N, cond4_1 (grid4.coords t) → cfg4.idle 7 (grid4.coords t) = false := by decide +kernel
theorem idleAt4_8 : ∀ t : Fin cfg4.N, ¬cond4_1 (grid4.coords t) → cfg4.idle 8 (grid4.coords t) = true := by decide +kernel
theorem noFlush4_8 : ∀ t : Fin cfg4.N, ¬cond4_1 (grid4.coords t) → (cfg4.win 8).flush t = false := by decide +kernel
theorem liveAt4_8 : ∀ t : Fin cfg4.N, cond4_1 (grid4.coords t) → cfg4.idle 8 (grid4.coords t) = false := by decide +kernel

set_option maxHeartbeats 2000000 in
/-- The body at the first point: the two scratch accumulators, at anything, are reset and stepped. -/
theorem sound_kernel4_A (c : Dev nD) (E : Set ℕ) (i : grid4.Coords) (arg1 : Memref sig .tc .vmem S1000x300 .f32) (harg1 : arg1.IsWhole) (arg2 : Memref sig .tc .vmem S1000x300 .f32) (harg2 : arg2.IsWhole) (arg3 : Memref sig .tc .vmem S300x600 .f32) (harg3 : arg3.IsWhole) (arg4 : Memref sig .tc .vmem S1x600 .f32) (harg4 : arg4.IsWhole) (arg5 : Memref sig .tc .vmem S600x300 .f32) (harg5 : arg5.IsWhole) (arg6 : Memref sig .tc .vmem S1x300 .f32) (harg6 : arg6.IsWhole) (arg7 : Memref sig .tc .vmem S1000x300 .f32) (harg7 : arg7.IsWhole) (arg8 : Memref sig .tc .vmem S1x300 .f32) (harg8 : arg8.IsWhole) (arg9 : Memref sig .tc .vmem S1x300 .f32) (harg9 : arg9.IsWhole) (arg10 : Memref sig .tc .vmem S1x300 .f32) (harg10 : arg10.IsWhole) (arg11 : Memref sig .tc .vmem S1x300 .f32) (harg11 : arg11.IsWhole)
    (hc0 : cond4_0 i) (hc1 : ¬cond4_1 i) (x0 x1 : Vec F S1000x300 .f32) (x2 : Vec F S300x600 .f32) (x3 : Vec F S1x600 .f32) (x4 : Vec F S600x300 .f32) (x5 : Vec F S1x300 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out4_6 x0 x1 x2 x3 x4 x5)
            ∗ owns (c : Thread nD τ) arg10 fullShare (stepS4 x0 x1 x2 x3 x4 x5 (zeroS4 (F := F))) ∗ owns (c : Thread nD τ) arg11 fullShare (stepQ4 x0 x1 x2 x3 x4 x5 (zeroQ4 (F := F)))) -∗ K ⟨⟩))
      ⊢ wp frame (wpE (defs₀ (F := F)) Variants.none c none) E (cc4__mlp_kernel i arg1 harg1 arg2 harg2 arg3 harg3 arg4 harg4 arg5 harg5 arg6 harg6 arg7 harg7 arg8 harg8 arg9 harg9 arg10 harg10 arg11 harg11) K := by
  simp only [cc4__mlp_kernel_eq_skeleton]; unfold cc4__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, ⟨%dq, %fq, -, HQ⟩, Hk⟩
  subst hf0 hf1 hf2 hf3 hf4 hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover4_a _)
  isplitl [HS]
  · iexists _; isplitr
    swap; · iexact HS
    ipureintro
    sl_unfold_run_names
    try rw [View.readCov_eq_canon_ld _ _ _ (cover4_e _)]
    exact (View.read_writes_eq_canon _ _ _ (cover4_e_cons _ _)).trans ((canon4_e _ _).trans (canon4_e _ []).symm)
  iexists _; isplitr
  swap; · iexact HQ
  ipureintro
  sl_unfold_run_names
  try rw [View.readCov_eq_canon_ld _ _ _ (cover4_e _)]
  exact (View.read_writes_eq_canon _ _ _ (cover4_e_cons _ _)).trans ((canon4_e _ _).trans (canon4_e _ []).symm)

set_option maxHeartbeats 2000000 in
/-- The body at a middle point (no reset, no copy out): the two scratch accumulators at `s`, `q` are stepped. -/
theorem sound_kernel4_B (c : Dev nD) (E : Set ℕ) (i : grid4.Coords) (arg1 : Memref sig .tc .vmem S1000x300 .f32) (harg1 : arg1.IsWhole) (arg2 : Memref sig .tc .vmem S1000x300 .f32) (harg2 : arg2.IsWhole) (arg3 : Memref sig .tc .vmem S300x600 .f32) (harg3 : arg3.IsWhole) (arg4 : Memref sig .tc .vmem S1x600 .f32) (harg4 : arg4.IsWhole) (arg5 : Memref sig .tc .vmem S600x300 .f32) (harg5 : arg5.IsWhole) (arg6 : Memref sig .tc .vmem S1x300 .f32) (harg6 : arg6.IsWhole) (arg7 : Memref sig .tc .vmem S1000x300 .f32) (harg7 : arg7.IsWhole) (arg8 : Memref sig .tc .vmem S1x300 .f32) (harg8 : arg8.IsWhole) (arg9 : Memref sig .tc .vmem S1x300 .f32) (harg9 : arg9.IsWhole) (arg10 : Memref sig .tc .vmem S1x300 .f32) (harg10 : arg10.IsWhole) (arg11 : Memref sig .tc .vmem S1x300 .f32) (harg11 : arg11.IsWhole)
    (hc0 : ¬cond4_0 i) (hc1 : ¬cond4_1 i) (x0 x1 : Vec F S1000x300 .f32) (x2 : Vec F S300x600 .f32) (x3 : Vec F S1x600 .f32) (x4 : Vec F S600x300 .f32) (x5 : Vec F S1x300 .f32) (s q : Vec F S1x300 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out4_6 x0 x1 x2 x3 x4 x5)
            ∗ owns (c : Thread nD τ) arg10 fullShare (stepS4 x0 x1 x2 x3 x4 x5 s) ∗ owns (c : Thread nD τ) arg11 fullShare (stepQ4 x0 x1 x2 x3 x4 x5 q)) -∗ K ⟨⟩))
      ⊢ wp frame (wpE (defs₀ (F := F)) Variants.none c none) E (cc4__mlp_kernel i arg1 harg1 arg2 harg2 arg3 harg3 arg4 harg4 arg5 harg5 arg6 harg6 arg7 harg7 arg8 harg8 arg9 harg9 arg10 harg10 arg11 harg11) K := by
  simp only [cc4__mlp_kernel_eq_skeleton]; unfold cc4__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, ⟨%fq, %hfq, HQ⟩, Hk⟩
  subst hf0 hf1 hf2 hf3 hf4 hf5 hfs hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover4_a _)
  isplitl [HS]
  · iexists _; isplitr
    swap; · iexact HS
    ipureintro
    exact View.read_writes_eq_canon _ _ _ (cover4_e _)
  iexists _; isplitr
  swap; · iexact HQ
  ipureintro
  exact View.read_writes_eq_canon _ _ _ (cover4_e _)

set_option maxHeartbeats 2000000 in
/-- The body at the last point: the two scratch accumulators at `s`, `q` are stepped and copied out to outputs 7 and 8. -/
theorem sound_kernel4_C (c : Dev nD) (E : Set ℕ) (i : grid4.Coords) (arg1 : Memref sig .tc .vmem S1000x300 .f32) (harg1 : arg1.IsWhole) (arg2 : Memref sig .tc .vmem S1000x300 .f32) (harg2 : arg2.IsWhole) (arg3 : Memref sig .tc .vmem S300x600 .f32) (harg3 : arg3.IsWhole) (arg4 : Memref sig .tc .vmem S1x600 .f32) (harg4 : arg4.IsWhole) (arg5 : Memref sig .tc .vmem S600x300 .f32) (harg5 : arg5.IsWhole) (arg6 : Memref sig .tc .vmem S1x300 .f32) (harg6 : arg6.IsWhole) (arg7 : Memref sig .tc .vmem S1000x300 .f32) (harg7 : arg7.IsWhole) (arg8 : Memref sig .tc .vmem S1x300 .f32) (harg8 : arg8.IsWhole) (arg9 : Memref sig .tc .vmem S1x300 .f32) (harg9 : arg9.IsWhole) (arg10 : Memref sig .tc .vmem S1x300 .f32) (harg10 : arg10.IsWhole) (arg11 : Memref sig .tc .vmem S1x300 .f32) (harg11 : arg11.IsWhole)
    (hc0 : ¬cond4_0 i) (hc1 : cond4_1 i) (x0 x1 : Vec F S1000x300 .f32) (x2 : Vec F S300x600 .f32) (x3 : Vec F S1x600 .f32) (x4 : Vec F S600x300 .f32) (x5 : Vec F S1x300 .f32) (s q : Vec F S1x300 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out4_6 x0 x1 x2 x3 x4 x5)
            ∗ owns (c : Thread nD τ) arg8 fullShare (out4_7 (stepS4 x0 x1 x2 x3 x4 x5 s)) ∗ owns (c : Thread nD τ) arg9 fullShare (out4_7 (stepQ4 x0 x1 x2 x3 x4 x5 q))
            ∗ owns (c : Thread nD τ) arg10 fullShare (stepS4 x0 x1 x2 x3 x4 x5 s) ∗ owns (c : Thread nD τ) arg11 fullShare (stepQ4 x0 x1 x2 x3 x4 x5 q)) -∗ K ⟨⟩))
      ⊢ wp frame (wpE (defs₀ (F := F)) Variants.none c none) E (cc4__mlp_kernel i arg1 harg1 arg2 harg2 arg3 harg3 arg4 harg4 arg5 harg5 arg6 harg6 arg7 harg7 arg8 harg8 arg9 harg9 arg10 harg10 arg11 harg11) K := by
  simp only [cc4__mlp_kernel_eq_skeleton]; unfold cc4__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs, %hfs, HS⟩, ⟨%fq, %hfq, HQ⟩, Hk⟩
  subst hf0 hf1 hf2 hf3 hf4 hf5 hfs hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover4_a _)
  isplitl [H7]
  · iexists _; isplitr
    swap; · iexact H7
    ipureintro
    sl_unfold_run_names
    try rw [View.readCov_eq_canon_ld _ _ _ (cover4_e _)]
    exact (View.read_writes_eq_canon _ _ _ (cover4_e_cons _ _)).trans ((canon4_e _ _).trans (canon4_e _ []).symm)
  isplitl [H8]
  · iexists _; isplitr
    swap; · iexact H8
    ipureintro
    sl_unfold_run_names
    try rw [View.readCov_eq_canon_ld _ _ _ (cover4_e _)]
    exact (View.read_writes_eq_canon _ _ _ (cover4_e_cons _ _)).trans ((canon4_e _ _).trans (canon4_e _ []).symm)
  isplitl [HS]
  · iexists _; isplitr
    swap; · iexact HS
    ipureintro
    sl_unfold_run_names
    try rw [View.readCov_eq_canon_ld _ _ _ (cover4_e _)]
    exact (View.read_writes_eq_canon _ _ _ (cover4_e_cons _ _)).trans ((canon4_e _ _).trans (canon4_e _ []).symm)
  iexists _; isplitr
  swap; · iexact HQ
  ipureintro
  sl_unfold_run_names
  try rw [View.readCov_eq_canon_ld _ _ _ (cover4_e _)]
  exact (View.read_writes_eq_canon _ _ _ (cover4_e_cons _ _)).trans ((canon4_e _ _).trans (canon4_e _ []).symm)

/-! ## The invariant: the two scratch accumulators tracked -/

/-- The scratch operands: whole scoped buffers of the kernel's own, passed beside the windows. -/
abbrev scM4_0 : Memref sig .tc .vmem S1x300 .f32 := Memref.whole cc4_scratch0
abbrev scM4_1 : Memref sig .tc .vmem S1x300 .f32 := Memref.whole cc4_scratch1

/-- Before the first point the class's invariant (every scratch at anything); afterwards the two scratch
    accumulators at what the point before left, the other scoped buffers unopened, the generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare (accS4 V c n hn) ∗ owns (c : Thread nD τ) scM4_1 fullShare (accQ4 V c n hn))
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

/-- After point `n` (before point `n + 1`): the accumulators at that point's contents. -/
theorem PhiS4_succ (c : Dev nD) (n : ℕ) (hn : n < cfg4.N) :
    PhiS4 V c (n + 1) hn = iprop(iprop(iprop(owns (c : Thread nD τ) scM4_0 fullShare (accS4 V c n hn) ∗ owns (c : Thread nD τ) scM4_1 fullShare (accQ4 V c n hn))
      ∗ Pipeline.scopedRestBut (Ix := Unit) (Name := ℕ) (U := UR sig nD τ) (Lvl := ℕ) (Val := Elt F) spec4 c [cc4_scratch0, cc4_scratch1]) ∗ (∃ r, prngReg c r)) := rfl

/-- Before a point that is not the first: the accumulators at what the point before left. -/
theorem PhiS4_pos (c : Dev nD) (n : ℕ) (h : n ≤ cfg4.N) (hz : n ≠ 0) :
    PhiS4 V c n h = iprop(iprop(iprop(owns (c : Thread nD τ) scM4_0 fullShare (accS4 V c (n - 1) (by omega)) ∗ owns (c : Thread nD τ) scM4_1 fullShare (accQ4 V c (n - 1) (by omega)))
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-- The class's invariant with the two scratch operands split out of the scoped rest as memrefs owned at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

/-! ## The pipeline's proof data -/

/-- The proof data of pipeline 4 on core `c`: the arrays as the region finds them (`V`); after the body at point `t`
    each input's buffer at its block, output 6's at the z block of the input blocks, outputs 7 and 8's at the copies of
    the accumulators (consulted at the last point only: the windows are idle before it); the invariant tracks the two
    scratch accumulators (`PhiS4`); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
    | ⟨7, _⟩ => out4_7 (accS4 V c t.val t.isLt)
    | ⟨8, _⟩ => out4_7 (accQ4 V c t.val t.isLt)
  Φ t := PhiS4 V c t.val (Nat.le_of_lt_succ t.isLt)
  q _ := fullShare
  owed _ := 0

/-- The proof data's arrays are the region-entry contents (the proof data's definition projected, by `dsimp`). -/
theorem A_eq4 (c : Dev nD) (w : Fin cfg4.W) : (dat4 V c).A w = V c (Pipeline.arrRef spec4 w) := by
  dsimp only [dat4]

/-- The invariant at a point's start (the proof data at `t.castSucc`), restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window (the proof data's `match` reduced by `dsimp`). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 (iblk4 V c 0 t) (iblk4 V c 1 t) (iblk4 V c 2 t) (iblk4 V c 3 t) (iblk4 V c 4 t) (iblk4 V c 5 t) := by dsimp only [dat4]
theorem after4_7 (c : Dev nD) (t : Fin cfg4.N) : (dat4 V c).after 7 t = out4_7 (accS4 V c t.val t.isLt) := by dsimp only [dat4]
theorem after4_8 (c : Dev nD) (t : Fin cfg4.N) : (dat4 V c).after 8 t = out4_7 (accQ4 V c t.val t.isLt) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-- Windows 0 to 6 are never idle: the body's post for them is the buffer at what the body leaves. -/
theorem leaves4_0 (c : Dev nD) (t : Fin cfg4.N) :
    (dat4 V c).leavesExact 0 t = owns (c : Thread nD τ) (st4_0 t) fullShare ((dat4 V c).after 0 t) := rfl
theorem leaves4_1 (c : Dev nD) (t : Fin cfg4.N) :
    (dat4 V c).leavesExact 1 t = owns (c : Thread nD τ) (st4_1 t) fullShare ((dat4 V c).after 1 t) := rfl
theorem leaves4_2 (c : Dev nD) (t : Fin cfg4.N) :
    (dat4 V c).leavesExact 2 t = owns (c : Thread nD τ) (st4_2 t) fullShare ((dat4 V c).after 2 t) := rfl
theorem leaves4_3 (c : Dev nD) (t : Fin cfg4.N) :
    (dat4 V c).leavesExact 3 t = owns (c : Thread nD τ) (st4_3 t) fullShare ((dat4 V c).after 3 t) := rfl
theorem leaves4_4 (c : Dev nD) (t : Fin cfg4.N) :
    (dat4 V c).leavesExact 4 t = owns (c : Thread nD τ) (st4_4 t) fullShare ((dat4 V c).after 4 t) := rfl
theorem leaves4_5 (c : Dev nD) (t : Fin cfg4.N) :
    (dat4 V c).leavesExact 5 t = owns (c : Thread nD τ) (st4_5 t) fullShare ((dat4 V c).after 5 t) := rfl
theorem leaves4_6 (c : Dev nD) (t : Fin cfg4.N) :
    (dat4 V c).leavesExact 6 t = owns (c : Thread nD τ) (st4_6 t) fullShare ((dat4 V c).after 6 t) := rfl

/-! ## The body obligation, at a generic point -/

/-- What the body is called with at point `t` (the library's body obligation's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t
    ∗ (dat4 V c).leavesExact 8 t)

set_option maxHeartbeats 4000000 in
/-- The body at any point: the inputs' memrefs hold their blocks; the closed forms say which of the three control cases
    the point is in; the invariant hands the body the two scratch accumulators at what the point before left (at anything
    at the first point) and takes them back at this point's contents; outputs 7 and 8 pass through untouched where they
    are idle and are handed back at the copies at the last point; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  rw [leaves4_0, leaves4_1, leaves4_2, leaves4_3, leaves4_4, leaves4_5, leaves4_6,
    after4_0, after4_1, after4_2, after4_3, after4_4, after4_5, after4_6]
  have hN : t.val < 50 := lt_of_lt_of_eq t.isLt (show cfg4.N = 50 from N_4)
  by_cases h0 : t.val % 50 = 0
  · by_cases h1 : t.val % 50 = 49
    · exfalso; omega
    · have hc0 : cond4_0 (grid4.coords t) := (hcond4_0 t).mpr h0
      have hc1 : ¬cond4_1 (grid4.coords t) := fun h => h1 ((hcond4_1 t).mp h)
      have hz : t.val = 0 := by omega
      rw [Dat.leavesExact_idle (dat4 V c) 7 t (idleAt4_7 t hc1) (noFlush4_7 t hc1),
        Dat.leavesExact_idle (dat4 V c) 8 t (idleAt4_8 t hc1) (noFlush4_8 t hc1)]
      rw [accS4_A V c t hz, accQ4_A V c t hz]
      rw [PhiS4_castSucc V c t, PhiS4_zero V c _ _ hz, PhiA4_eq]
      iintro ⟨⟨⟨⟨HS, HQ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel4_A c Set.univ (grid4.coords t) _ _ _ _ _ _ _ _ _ _ _ _ _ _ _ _ _ _ _ _ _ _ hc0 hc1 (iblk4 V c 0 t) (iblk4 V c 1 t) (iblk4 V c 2 t) (iblk4 V c 3 t) (iblk4 V c 4 t) (iblk4 V c 5 t) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      isplitl [HQ]; · iexact HQ
      iintro ⟨H0, H1, H2, H3, H4, H5, H6, HS, HQ⟩
      isplitl [HS HQ HR Hg]
      · isplitl [HS HQ HR]
        · isplitl [HS HQ]
          · isplitl [HS]; · iexact HS
            iexact HQ
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
  · have hc0 : ¬cond4_0 (grid4.coords t) := fun h => h0 ((hcond4_0 t).mp h)
    have hz : t.val ≠ 0 := fun e => h0 (by rw [e])
    rw [accS4_B V c t hz, accQ4_B V c t hz]
    rw [PhiS4_castSucc V c t, PhiS4_pos V c _ _ hz]
    by_cases h1 : t.val % 50 = 49
    · have hc1 : cond4_1 (grid4.coords t) := (hcond4_1 t).mpr h1
      rw [show (dat4 V c).leavesExact 7 t = owns (c : Thread nD τ) (st4_7 t) fullShare ((dat4 V c).after 7 t) from by
        unfold Dat.leavesExact; rw [liveAt4_7 t hc1], after4_7]
      rw [show (dat4 V c).leavesExact 8 t = owns (c : Thread nD τ) (st4_8 t) fullShare ((dat4 V c).after 8 t) from by
        unfold Dat.leavesExact; rw [liveAt4_8 t hc1], after4_8]
      rw [accS4_B V c t hz, accQ4_B V c t hz]
      iintro ⟨⟨⟨⟨HS, HQ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel4_C c Set.univ (grid4.coords t) _ _ _ _ _ _ _ _ _ _ _ _ _ _ _ _ _ _ _ _ _ _ hc0 hc1 (iblk4 V c 0 t) (iblk4 V c 1 t) (iblk4 V c 2 t) (iblk4 V c 3 t) (iblk4 V c 4 t) (iblk4 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS]; · iexact HS
      isplitl [HQ]; · iexact HQ
      iintro ⟨H0, H1, H2, H3, H4, H5, H6, H7, H8, HS, HQ⟩
      isplitl [HS HQ HR Hg]
      · isplitl [HS HQ HR]
        · isplitl [HS HQ]
          · isplitl [HS]; · iexact HS
            iexact HQ
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬cond4_1 (grid4.coords t) := fun h => h1 ((hcond4_1 t).mp h)
      rw [Dat.leavesExact_idle (dat4 V c) 7 t (idleAt4_7 t hc1) (noFlush4_7 t hc1),
        Dat.leavesExact_idle (dat4 V c) 8 t (idleAt4_8 t hc1) (noFlush4_8 t hc1)]
      iintro ⟨⟨⟨⟨HS, HQ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel4_B c Set.univ (grid4.coords t) _ _ _ _ _ _ _ _ _ _ _ _ _ _ _ _ _ _ _ _ _ _ hc0 hc1 (iblk4 V c 0 t) (iblk4 V c 1 t) (iblk4 V c 2 t) (iblk4 V c 3 t) (iblk4 V c 4 t) (iblk4 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      isplitl [HQ]; · iexact HQ
      iintro ⟨H0, H1, H2, H3, H4, H5, H6, HS, HQ⟩
      isplitl [HS HQ HR Hg]
      · isplitl [HS HQ HR]
        · isplitl [HS HQ]
          · isplitl [HS]; · iexact HS
            iexact HQ
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region (the class's invariant) is the invariant before the first point. -/
theorem PhiIn4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the class's back: the accumulators' named contents are forgotten. -/
theorem PhiOut4 (c : Dev nD) : (dat4 V c).Φ (Fin.last _) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 50 := N_4; omega), PhiA4_eq]
  iintro ⟨⟨⟨HS, HQ⟩, HR⟩, Hg⟩
  isplitl [HS HQ HR]
  · isplitl [HS HQ]
    · isplitl [HS]; · iexists _; iexact HS
      iexists _; iexact HQ
    iexact HR
  iexact Hg

/-- The last point. -/
abbrev tLast4 : Fin cfg4.N := ⟨49, by decide⟩

/-! ## The arrays of outputs 7 and 8 after the region -/

/-- Output 7's one block is its whole array: at the last point its offsets are zero and its extents the array's. -/
theorem whole4_7_off : ∀ a, win4_7.index tLast4 a * win4_7.size a = 0 := by decide +kernel
theorem whole4_7_size : ∀ a, win4_7.xsize (grid4.coords tLast4) a = S1x300.size a := by decide +kernel

/-- The one write-back of output 7, at the last point, writes its whole array. -/
theorem flushed4_7 (c : Dev nD) (t : Fin cfg4.N) (hf : (cfg4.win 7).flush t = true) :
    (dat4 V c).flushed 7 t
      = ((cfg4.win 7).blk t).view.read (Elt F) (out4_7 (accS4 V c 49 (by decide)) : Buf (Elt F) ((c : Thread nD τ).loc (Pipeline.arrRef spec4 7))) := by
  have hN : cfg4.N = 50 := N_4
  have h49 : t.val = 49 := by have := (flush4_7 t).mp hf; have := t.isLt; omega
  obtain rfl : t = tLast4 := Fin.ext h49
  show (cfg4.win 7).cut (grid4.coords tLast4) ((dat4 V c).after 7 tLast4) = _
  rw [after4_7]
  exact (Memref.read_access_unit_zero (Elt F) (Pipeline.arrRef spec4 7) (funext whole4_7_off)
    (fun a => by show win4_7.index tLast4 a * win4_7.size a + S1x300.size a ≤ S1x300.size a; rw [whole4_7_off a, Nat.zero_add]) _).symm

/-- So after the region output 7's array holds the copy of the accumulator as the last point left it. -/
theorem arrAt4_7 (c : Dev nD) : (dat4 V c).arrAt 7 cfg4.N = out4_7 (accS4 V c 49 (by decide)) :=
  (dat4 V c).arrAt_eq_of_cover 7 _ (flushed4_7 V c) fun i =>
    ⟨tLast4, (flush4_7 tLast4).mpr rfl, by
      show i ∈ ((View.whole (Pipeline.arrRef spec4 7)).slice (win4_7.rect tLast4)).set
      rw [View.set_slice_whole, Rect.mem_set_unit]
      intro a
      show win4_7.index tLast4 a * win4_7.size a ≤ (i a : Nat)
        ∧ (i a : Nat) < win4_7.index tLast4 a * win4_7.size a + win4_7.xsize (grid4.coords tLast4) a
      rw [whole4_7_off a, whole4_7_size a, Nat.zero_add]
      exact ⟨Nat.zero_le _, (i a).isLt⟩⟩

/-- Output 8's one block is its whole array: at the last point its offsets are zero and its extents the array's. -/
theorem whole4_8_off : ∀ a, win4_8.index tLast4 a * win4_8.size a = 0 := by decide +kernel
theorem whole4_8_size : ∀ a, win4_8.xsize (grid4.coords tLast4) a = S1x300.size a := by decide +kernel

/-- The one write-back of output 8, at the last point, writes its whole array. -/
theorem flushed4_8 (c : Dev nD) (t : Fin cfg4.N) (hf : (cfg4.win 8).flush t = true) :
    (dat4 V c).flushed 8 t
      = ((cfg4.win 8).blk t).view.read (Elt F) (out4_7 (accQ4 V c 49 (by decide)) : Buf (Elt F) ((c : Thread nD τ).loc (Pipeline.arrRef spec4 8))) := by
  have hN : cfg4.N = 50 := N_4
  have h49 : t.val = 49 := by have := (flush4_8 t).mp hf; have := t.isLt; omega
  obtain rfl : t = tLast4 := Fin.ext h49
  show (cfg4.win 8).cut (grid4.coords tLast4) ((dat4 V c).after 8 tLast4) = _
  rw [after4_8]
  exact (Memref.read_access_unit_zero (Elt F) (Pipeline.arrRef spec4 8) (funext whole4_8_off)
    (fun a => by show win4_8.index tLast4 a * win4_8.size a + S1x300.size a ≤ S1x300.size a; rw [whole4_8_off a, Nat.zero_add]) _).symm

/-- So after the region output 8's array holds the copy of the accumulator as the last point left it. -/
theorem arrAt4_8 (c : Dev nD) : (dat4 V c).arrAt 8 cfg4.N = out4_7 (accQ4 V c 49 (by decide)) :=
  (dat4 V c).arrAt_eq_of_cover 8 _ (flushed4_8 V c) fun i =>
    ⟨tLast4, (flush4_8 tLast4).mpr rfl, by
      show i ∈ ((View.whole (Pipeline.arrRef spec4 8)).slice (win4_8.rect tLast4)).set
      rw [View.set_slice_whole, Rect.mem_set_unit]
      intro a
      show win4_8.index tLast4 a * win4_8.size a ≤ (i a : Nat)
        ∧ (i a : Nat) < win4_8.index tLast4 a * win4_8.size a + win4_8.xsize (grid4.coords tLast4) a
      rw [whole4_8_off a, whole4_8_size a, Nat.zero_add]
      exact ⟨Nat.zero_le _, (i a).isLt⟩⟩

end Cert.KernelIdeal.Hand

end
-- ==== Proof.KI.RegBn5.lean ====
import proofs.«409348_j89627377533173_1_alg».proof.Proof.Gen.KernelIdeal.Launch
import proofs.«409348_j89627377533173_1_alg».proof.Proof.Gen.KernelIdeal.Skeleton
import proofs.«409348_j89627377533173_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

/-! # Region 5 (`cc5__bn_relu_kernel`, pipeline 5): the frame half, at any float model

A pointwise body over a grid of 25 points. Window 0 (the 2000x300 block of `z` at row block `t`) is fetched at every
point; the four row windows after it (mean, var, gamma, beta, each one row of 300) have a constant block index and are fetched once; window 5
is the output block, written back at every point. The body loads the five inputs whole, loads the output buffer (a value
it does not use), and stores one payload over the whole output buffer. So what it leaves in the output buffer is a
closed function of the five input blocks at the point, and it keeps nothing from point to point. -/

-- membership in a rectangle with a 2000-long axis recurses once per coordinate of that axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): an unfetched point has the
    block index of the point before, and the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s (`hA`) and whose body leaves the block in place (`hafter`): an unfetched point has the
    block index of the point before, and the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s (`hA`) and whose body leaves the block in place (`hafter`): an unfetched point has the
    block index of the point before, and the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s (`hA`) and whose body leaves the block in place (`hafter`): an unfetched point has the
    block index of the point before, and the window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is `V`'s (`hA`) and whose body leaves the block in place (`hafter`): an unfetched point has the
    block index of the point before, and the window is uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole 2000x300 staging buffer (the load of window 0 and the one store into window 5). -/
abbrev r5_0 : Rect S2000x300 := Rect.unit (s := S2000x300) ![0, 0] S2000x300.size inb_S2000x300_S2000x300_0_0
/-- The whole 1x300 staging buffer (the loads of the four row windows). -/
abbrev r5_1 : Rect S1x300 := Rect.unit (s := S1x300) ![0, 0] S1x300.size inb_S1x300_S1x300_0_0

/-! ## What the body leaves in the output window's buffer -/

/-- Window 5's staging buffer after the body, from the input windows' blocks `xz xm xv xg xb` (in window order: z, mean, var,
    gamma, beta): its one store as a piece. The payload takes the loads in the order the body makes them: z, var, mean,
    gamma, beta. -/
def out5_5 (xz : Vec F S2000x300 .f32) (xm xv xg xb : Vec F S1x300 .f32) : Vec F S2000x300 .f32 :=
  View.canon [⟨r5_0, k5_pay1 (View.ld xz r5_0) (View.ld xv r5_1) (View.ld xm r5_1) (View.ld xg r5_1) (View.ld xb r5_1)⟩]

/-- The one store is the whole buffer, so it covers it. -/
theorem cover5_5 (p : Vec F S2000x300 .f32) (y : S2000x300.Idx) :
    ∃ pc ∈ ([⟨r5_0, p⟩] : List (View.Piece (Elt F) S2000x300 .f32)), y ∈ pc.1.set :=
  View.cover_of_tiled [⟨r5_0, p⟩] S2000x300.size (by rfl) y

/-! ## The body's triple -/

set_option maxHeartbeats 1000000 in
/-- The kernel body on whole staging memrefs, the inputs' at read contents `xz xm xv xg xb` and the output's at anything, runs to
    the continuation holding the inputs' as they were and the output's at `out5_5` of the inputs'. -/
theorem sound_kernel5 (c : Dev nD) (E : Set ℕ) (i : grid5.Coords) (Az : Memref sig .tc .vmem S2000x300 .f32) (hAz : Az.IsWhole) (Am : Memref sig .tc .vmem S1x300 .f32) (hAm : Am.IsWhole) (Av : Memref sig .tc .vmem S1x300 .f32) (hAv : Av.IsWhole) (Ag : Memref sig .tc .vmem S1x300 .f32) (hAg : Ag.IsWhole) (Ab : Memref sig .tc .vmem S1x300 .f32) (hAb : Ab.IsWhole) (Ay : Memref sig .tc .vmem S2000x300 .f32) (hAy : Ay.IsWhole)
    (xz : Vec F S2000x300 .f32) (xm xv xg xb : Vec F S1x300 .f32) (K : PUnit → sProp 𝕄) :
    iprop(owns (c : Thread nD τ) Az fullShare xz ∗ owns (c : Thread nD τ) Am fullShare xm ∗ owns (c : Thread nD τ) Av fullShare xv ∗ owns (c : Thread nD τ) Ag fullShare xg ∗ owns (c : Thread nD τ) Ab fullShare xb
        ∗ (∃ d, owns (c : Thread nD τ) Ay fullShare d)
        ∗ (iprop(owns (c : Thread nD τ) Az fullShare xz ∗ owns (c : Thread nD τ) Am fullShare xm ∗ owns (c : Thread nD τ) Av fullShare xv ∗ owns (c : Thread nD τ) Ag fullShare xg ∗ owns (c : Thread nD τ) Ab fullShare xb
            ∗ owns (c : Thread nD τ) Ay fullShare (out5_5 xz xm xv xg xb)) -∗ K ⟨⟩))
      ⊢ wp frame (wpE (defs₀ (F := F)) Variants.none c none) E (cc5__bn_relu_kernel i Az hAz Am hAm Av hAv Ag hAg Ab hAb Ay hAy) K := by
  simp only [cc5__bn_relu_kernel_eq_skeleton]; unfold cc5__bn_relu_kernel_skel
  unfold owns
  iintro ⟨⟨%fz, %hfz, Hz⟩, ⟨%fm, %hfm, Hm⟩, ⟨%fv, %hfv, Hv⟩, ⟨%fg, %hfg, Hg⟩, ⟨%fb, %hfb, Hb⟩, ⟨%dy, %fy, -, Hy⟩, Hk⟩
  subst hfz hfm hfv hfg hfb
  sl_exec
  sl_step
  iapply Hk
  isplitl [Hz]
  · iexists fz; isplitr; · ipureintro; rfl
    iexact Hz
  isplitl [Hm]
  · iexists fm; isplitr; · ipureintro; rfl
    iexact Hm
  isplitl [Hv]
  · iexists fv; isplitr; · ipureintro; rfl
    iexact Hv
  isplitl [Hg]
  · iexists fg; isplitr; · ipureintro; rfl
    iexact Hg
  isplitl [Hb]
  · iexists fb; isplitr; · ipureintro; rfl
    iexact Hb
  iexists _; isplitr
  swap; · iexact Hy
  ipureintro
  exact View.read_writes_eq_canon _ _ _ (cover5_5 _)

/-! ## The pipeline's proof data -/

/-- The proof data of pipeline 1 on core `c`: the arrays as the region finds them (`V`); after the body at point `t` each
    input's buffer at its block and the output's at `out5_5` of the input blocks; the invariant the scoped rest and the
    generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- The invariant at the first point is the class's, -/
theorem PhiIn5 (c : Dev nD) : Pipeline.ΦA spec5 c ⊢ (dat5 V c).Φ 0 := .rfl
/-- and so is the invariant at the last. -/
theorem PhiOut5 (c : Dev nD) : (dat5 V c).Φ (Fin.last _) ⊢ Pipeline.ΦA spec5 c := .rfl

/-! ## The body obligation, at a generic point -/

/-- What the body is called with at point `t` (the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks (`before5_W`), so `sound_kernel5` applies; the invariant
    and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%dz, Hz⟩, ⟨%dm, Hm⟩, ⟨%dv, Hv⟩, ⟨%dg, Hg⟩, ⟨%db, Hb⟩, ⟨%dy, Hy⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [Hz]; · iexact Hz
  isplitl [Hm]; · iexact Hm
  isplitl [Hv]; · iexact Hv
  isplitl [Hg]; · iexact Hg
  isplitl [Hb]; · iexact Hb
  isplitl [Hy]; · iexists _; iexact Hy
  iintro ⟨Hz, Hm, Hv, Hg, Hb, Hy⟩
  isplitl [HΦ]; · iexact HΦ
  isplitl [Ho]; · iexact Ho
  isplitl [Hz]; · iexact Hz
  isplitl [Hm]; · iexact Hm
  isplitl [Hv]; · iexact Hv
  isplitl [Hg]; · iexact Hg
  isplitl [Hb]; · iexact Hb
  iexact Hy

/-- The library's body obligation, at every point. -/
theorem body_obligation5 (c : Dev nD) : BodyObligation (dat5 (F := F) V c) (defs₀ (F := F)) Variants.none () Set.univ := fun t => by
  rw [bigSep_W5, bigSep_W5]
  exact sound_body5 V c t

end Region1

end Cert.KernelIdeal.Hand
-- ==== Proof.KI.RegMlp6.lean ====
import proofs.«409348_j89627377533173_1_alg».proof.Proof.Gen.KernelIdeal.Launch
import proofs.«409348_j89627377533173_1_alg».proof.Proof.Gen.KernelIdeal.Skeleton
import proofs.«409348_j89627377533173_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 6 of @main: custom_call 6, `cc6__mlp_kernel` (pipeline 6), at the entry contents `V` -/

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Each input window's current staging buffer holds its block at every point, fetched there or not (an input
    fetched at the first point only keeps its block: the index never moves). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and store is of a whole buffer -/

abbrev r6_a : Rect S1000x300 := Rect.unit (s := S1000x300) ![0, 0] S1000x300.size inb_S1000x300_S1000x300_0_0
abbrev r6_b : Rect S300x600 := Rect.unit (s := S300x600) ![0, 0] S300x600.size inb_S300x600_S300x600_0_0
abbrev r6_c : Rect S1x600 := Rect.unit (s := S1x600) ![0, 0] S1x600.size inb_S1x600_S1x600_0_0
abbrev r6_d : Rect S600x300 := Rect.unit (s := S600x300) ![0, 0] S600x300.size inb_S600x300_S600x300_0_0
abbrev r6_e : Rect S1x300 := Rect.unit (s := S1x300) ![0, 0] S1x300.size inb_S1x300_S1x300_0_0

/-! ## What the body leaves: the z block, the two running sums, the copies out -/

/-- The z block the body stores at a point, from the six input blocks (the skeleton's payload `k6_pay5`). -/
def z6 (x0 x1 : Vec F S1000x300 .f32) (x2 : Vec F S300x600 .f32) (x3 : Vec F S1x600 .f32) (x4 : Vec F S600x300 .f32) (x5 : Vec F S1x300 .f32) : FVec F S1000x300 .f32 :=
  k6_pay5 (View.ld x0 r6_a) (View.ld x1 r6_a) (View.ld x2 r6_b) (View.ld x3 r6_c) (View.ld x4 r6_d) (View.ld x5 r6_e)

/-- Output window 6's staging buffer after the body: its one store. -/
def out6_6 (x0 x1 : Vec F S1000x300 .f32) (x2 : Vec F S300x600 .f32) (x3 : Vec F S1x600 .f32) (x4 : Vec F S600x300 .f32) (x5 : Vec F S1x300 .f32) : Vec F S1000x300 .f32 :=
  View.canon [⟨r6_a, z6 x0 x1 x2 x3 x4 x5⟩]

/-- Scratch 0 (the running column sums) after the body's add, over what it held (`s`). -/
def stepS6 (x0 x1 : Vec F S1000x300 .f32) (x2 : Vec F S300x600 .f32) (x3 : Vec F S1x600 .f32) (x4 : Vec F S600x300 .f32) (x5 : Vec F S1x300 .f32) (s : Vec F S1x300 .f32) : Vec F S1x300 .f32 :=
  View.canon [⟨r6_e, k6_pay1 (k6_pay6 (View.ld x0 r6_a) (View.ld x1 r6_a) (View.ld x2 r6_b) (View.ld x3 r6_c) (View.ld x4 r6_d) (View.ld x5 r6_e) (View.ld s r6_e))⟩]

/-- Scratch 1 (the running column sums of squares) after the body's add, over what it held (`q`). -/
def stepQ6 (x0 x1 : Vec F S1000x300 .f32) (x2 : Vec F S300x600 .f32) (x3 : Vec F S1x600 .f32) (x4 : Vec F S600x300 .f32) (x5 : Vec F S1x300 .f32) (q : Vec F S1x300 .f32) : Vec F S1x300 .f32 :=
  View.canon [⟨r6_e, k6_pay2 (z6 x0 x1 x2 x3 x4 x5) (View.ld q r6_e)⟩]

/-- What the first point's reset leaves in scratch 0 and in scratch 1: zeros. -/
def zeroS6 : Vec F S1x300 .f32 := View.canon [⟨r6_e, k6_pay3 (F := F)⟩]
def zeroQ6 : Vec F S1x300 .f32 := View.canon [⟨r6_e, k6_pay4 (F := F)⟩]

/-- What the last point's copy leaves in output window 7's (8's) staging buffer, from the scratch's contents. -/
def out6_7 (s : Vec F S1x300 .f32) : Vec F S1x300 .f32 := View.canon [⟨r6_e, View.ld s r6_e⟩]

/-- The zero offsets of every access, as a function. -/
theorem hz6 : (![0, 0] : Fin 2 → ℕ) = fun _ => 0 := by funext a; fin_cases a <;> rfl

/-! ### Whole-buffer accesses read through (Lib/Pipeline/Value.lean): a load through the whole shape at zero offsets
    reads the contents, a store through it (last) leaves its payload, a load of what one such store left reads it -/

theorem ld6_a (X : Vec F S1000x300 .f32) : View.ld X r6_a = X := View.ld_unit_zero (S := S1000x300) hz6 _ X
theorem ld6_b (X : Vec F S300x600 .f32) : View.ld X r6_b = X := View.ld_unit_zero (S := S300x600) hz6 _ X
theorem ld6_c (X : Vec F S1x600 .f32) : View.ld X r6_c = X := View.ld_unit_zero (S := S1x600) hz6 _ X
theorem ld6_d (X : Vec F S600x300 .f32) : View.ld X r6_d = X := View.ld_unit_zero (S := S600x300) hz6 _ X
theorem ld6_e (X : Vec F S1x300 .f32) : View.ld X r6_e = X := View.ld_unit_zero (S := S1x300) hz6 _ X
theorem canon6_a (w : Vec F S1000x300 .f32) (L : List (View.Piece (Elt F) S1000x300 .f32)) :
    View.canon ((⟨r6_a, w⟩ : View.Piece (Elt F) S1000x300 .f32) :: L) = w := View.canon_cons_unit_zero (S := S1000x300) hz6 _ w L
theorem canon6_e (w : Vec F S1x300 .f32) (L : List (View.Piece (Elt F) S1x300 .f32)) :
    View.canon ((⟨r6_e, w⟩ : View.Piece (Elt F) S1x300 .f32) :: L) = w := View.canon_cons_unit_zero (S := S1x300) hz6 _ w L
theorem readCov6_e {κ : Kind} {sp : Space} (v : View sig κ sp S1x300 .f32) (w : Vec F S1x300 .f32) :
    v.readCov [(⟨r6_e, w⟩ : View.Piece (Elt F) S1x300 .f32)] r6_e.toLoadRect = w := View.readCov_unit_zero (S := S1x300) v hz6 _ w

theorem z6_eq (x0 x1 : Vec F S1000x300 .f32) (x2 : Vec F S300x600 .f32) (x3 : Vec F S1x600 .f32) (x4 : Vec F S600x300 .f32) (x5 : Vec F S1x300 .f32) : z6 x0 x1 x2 x3 x4 x5 = k6_pay5 x0 x1 x2 x3 x4 x5 := by
  unfold z6; rw [ld6_a, ld6_a, ld6_b, ld6_c, ld6_d, ld6_e]
theorem out6_6_eq (x0 x1 : Vec F S1000x300 .f32) (x2 : Vec F S300x600 .f32) (x3 : Vec F S1x600 .f32) (x4 : Vec F S600x300 .f32) (x5 : Vec F S1x300 .f32) : out6_6 x0 x1 x2 x3 x4 x5 = k6_pay5 x0 x1 x2 x3 x4 x5 := by
  unfold out6_6; rw [canon6_a, z6_eq]
theorem stepS6_eq (x0 x1 : Vec F S1000x300 .f32) (x2 : Vec F S300x600 .f32) (x3 : Vec F S1x600 .f32) (x4 : Vec F S600x300 .f32) (x5 : Vec F S1x300 .f32) (s : Vec F S1x300 .f32) :
    stepS6 x0 x1 x2 x3 x4 x5 s = k6_pay1 (k6_pay6 x0 x1 x2 x3 x4 x5 s) := by
  unfold stepS6; rw [canon6_e, ld6_a, ld6_a, ld6_b, ld6_c, ld6_d, ld6_e, ld6_e]
theorem stepQ6_eq (x0 x1 : Vec F S1000x300 .f32) (x2 : Vec F S300x600 .f32) (x3 : Vec F S1x600 .f32) (x4 : Vec F S600x300 .f32) (x5 : Vec F S1x300 .f32) (q : Vec F S1x300 .f32) :
    stepQ6 x0 x1 x2 x3 x4 x5 q = k6_pay2 (k6_pay5 x0 x1 x2 x3 x4 x5) q := by
  unfold stepQ6; rw [canon6_e, z6_eq, ld6_e]
theorem zeroS6_eq : zeroS6 (F := F) = k6_pay3 (F := F) := by unfold zeroS6; rw [canon6_e]
theorem zeroQ6_eq : zeroQ6 (F := F) = k6_pay4 (F := F) := by unfold zeroQ6; rw [canon6_e]
theorem out6_7_eq (s : Vec F S1x300 .f32) : out6_7 s = s := by
  unfold out6_7; rw [canon6_e, ld6_e]

/-- THE ACCUMULATION: scratch 0 after the body at position `n` — the add over the reset at the first point, over
    what the point before left at every later one. -/
def accS6 (c : Dev nD) : (n : ℕ) → n < cfg6.N → Vec F S1x300 .f32
  | 0, hn => stepS6 (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩) (zeroS6 (F := F))
  | n + 1, hn => stepS6 (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (accS6 c n (Nat.lt_of_succ_lt hn))

/-- and scratch 1. -/
def accQ6 (c : Dev nD) : (n : ℕ) → n < cfg6.N → Vec F S1x300 .f32
  | 0, hn => stepQ6 (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩) (zeroQ6 (F := F))
  | n + 1, hn => stepQ6 (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (accQ6 c n (Nat.lt_of_succ_lt hn))

theorem accS6_zero (c : Dev nD) (hn : 0 < cfg6.N) :
    accS6 V c 0 hn = stepS6 (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩) (zeroS6 (F := F)) := rfl
theorem accS6_succ (c : Dev nD) (n : ℕ) (hn : n + 1 < cfg6.N) :
    accS6 V c (n + 1) hn = stepS6 (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (accS6 V c n (Nat.lt_of_succ_lt hn)) := rfl
theorem accQ6_zero (c : Dev nD) (hn : 0 < cfg6.N) :
    accQ6 V c 0 hn = stepQ6 (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩) (zeroQ6 (F := F)) := rfl
theorem accQ6_succ (c : Dev nD) (n : ℕ) (hn : n + 1 < cfg6.N) :
    accQ6 V c (n + 1) hn = stepQ6 (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (accQ6 V c n (Nat.lt_of_succ_lt hn)) := rfl

/-- The accumulators at the first point, and at a later one over what the point before left. -/
theorem accS6_A (c : Dev nD) (t : Fin cfg6.N) (hz : t.val = 0) :
    accS6 V c t.val t.isLt = stepS6 (iblk6 V c 0 t) (iblk6 V c 1 t) (iblk6 V c 2 t) (iblk6 V c 3 t) (iblk6 V c 4 t) (iblk6 V c 5 t) (zeroS6 (F := F)) := by
  obtain ⟨n, hn⟩ := t
  cases n with
  | zero => rfl
  | succ n => exact absurd hz (Nat.succ_ne_zero n)
theorem accS6_B (c : Dev nD) (t : Fin cfg6.N) (hz : t.val ≠ 0) :
    accS6 V c t.val t.isLt = stepS6 (iblk6 V c 0 t) (iblk6 V c 1 t) (iblk6 V c 2 t) (iblk6 V c 3 t) (iblk6 V c 4 t) (iblk6 V c 5 t) (accS6 V c (t.val - 1) (Nat.lt_of_le_of_lt (Nat.sub_le _ _) t.isLt)) := by
  obtain ⟨n, hn⟩ := t
  cases n with
  | zero => exact absurd rfl hz
  | succ n => rfl
theorem accQ6_A (c : Dev nD) (t : Fin cfg6.N) (hz : t.val = 0) :
    accQ6 V c t.val t.isLt = stepQ6 (iblk6 V c 0 t) (iblk6 V c 1 t) (iblk6 V c 2 t) (iblk6 V c 3 t) (iblk6 V c 4 t) (iblk6 V c 5 t) (zeroQ6 (F := F)) := by
  obtain ⟨n, hn⟩ := t
  cases n with
  | zero => rfl
  | succ n => exact absurd hz (Nat.succ_ne_zero n)
theorem accQ6_B (c : Dev nD) (t : Fin cfg6.N) (hz : t.val ≠ 0) :
    accQ6 V c t.val t.isLt = stepQ6 (iblk6 V c 0 t) (iblk6 V c 1 t) (iblk6 V c 2 t) (iblk6 V c 3 t) (iblk6 V c 4 t) (iblk6 V c 5 t) (accQ6 V c (t.val - 1) (Nat.lt_of_le_of_lt (Nat.sub_le _ _) t.isLt)) := by
  obtain ⟨n, hn⟩ := t
  cases n with
  | zero => exact absurd rfl hz
  | succ n => rfl

/-! ## The body's branch conditions -/

/-- The condition of the reset (`pl.when` on the first point), from the grid coordinates (the skeleton's scalar chain). -/
abbrev cond6_0 (i : grid6.Coords) : Prop := (Scalar.cmpi .ne (Scalar.extui (Scalar.cmpi .eq (BitVec.ofNat 32 (i 0).val) 0#32)) 0#32) = 1#1
/-- It holds at the first point only — decided over the grid. -/
theorem hcond6_0 : ∀ t : Fin cfg6.N, cond6_0 (grid6.coords t) ↔ t.val % 50 = 0 :=
  (by decide +kernel : ∀ t : Fin grid6.N, cond6_0 (grid6.coords t) ↔ t.val % 50 = 0)
/-- The condition of the copy out (`pl.when` on the last point). -/
abbrev cond6_1 (i : grid6.Coords) : Prop := k6_cond2 i = 1#1
/-- It holds at the last point only — decided over the grid. -/
theorem hcond6_1 : ∀ t : Fin cfg6.N, cond6_1 (grid6.coords t) ↔ t.val % 50 = 49 :=
  (by decide +kernel : ∀ t : Fin grid6.N, cond6_1 (grid6.coords t) ↔ t.val % 50 = 49)

/-! ## The body's stores cover the buffers they write (each is of the whole buffer) -/

theorem cover6_a (p0 : Vec F S1000x300 .f32) (y : S1000x300.Idx) :
    ∃ pc ∈ ([⟨r6_a, p0⟩] : List (View.Piece (Elt F) S1000x300 .f32)), y ∈ pc.1.set :=
  View.cover_of_tiled [⟨r6_a, p0⟩] S1000x300.size (by rfl) y
theorem cover6_e (p0 : Vec F S1x300 .f32) (y : S1x300.Idx) :
    ∃ pc ∈ ([⟨r6_e, p0⟩] : List (View.Piece (Elt F) S1x300 .f32)), y ∈ pc.1.set :=
  View.cover_of_tiled [⟨r6_e, p0⟩] S1x300.size (by rfl) y

theorem cover6_e_cons (p0 : Vec F S1x300 .f32) (L : List (View.Piece (Elt F) S1x300 .f32)) (y : S1x300.Idx) :
    ∃ pc ∈ ((⟨r6_e, p0⟩ :: L) : List (View.Piece (Elt F) S1x300 .f32)), y ∈ pc.1.set := by
  obtain ⟨pc, hpc, hy⟩ := cover6_e p0 y
  exact ⟨pc, List.mem_cons.mpr (Or.inl (List.mem_singleton.mp hpc)), hy⟩

/-! ## Where outputs 7 and 8 are idle: everywhere but at the last point, which alone writes them back -/

theorem idleAt6_7 : ∀ t : Fin cfg6.N, ¬cond6_1 (grid6.coords t) → cfg6.idle 7 (grid6.coords t) = true := by decide +kernel
theorem noFlush6_7 : ∀ t : Fin cfg6.N, ¬cond6_1 (grid6.coords t) → (cfg6.win 7).flush t = false := by decide +kernel
theorem liveAt6_7 : ∀ t : Fin cfg6.N, cond6_1 (grid6.coords t) → cfg6.idle 7 (grid6.coords t) = false := by decide +kernel
theorem idleAt6_8 : ∀ t : Fin cfg6.N, ¬cond6_1 (grid6.coords t) → cfg6.idle 8 (grid6.coords t) = true := by decide +kernel
theorem noFlush6_8 : ∀ t : Fin cfg6.N, ¬cond6_1 (grid6.coords t) → (cfg6.win 8).flush t = false := by decide +kernel
theorem liveAt6_8 : ∀ t : Fin cfg6.N, cond6_1 (grid6.coords t) → cfg6.idle 8 (grid6.coords t) = false := by decide +kernel

set_option maxHeartbeats 2000000 in
/-- The body at the first point: the two scratch accumulators, at anything, are reset and stepped. -/
theorem sound_kernel6_A (c : Dev nD) (E : Set ℕ) (i : grid6.Coords) (arg1 : Memref sig .tc .vmem S1000x300 .f32) (harg1 : arg1.IsWhole) (arg2 : Memref sig .tc .vmem S1000x300 .f32) (harg2 : arg2.IsWhole) (arg3 : Memref sig .tc .vmem S300x600 .f32) (harg3 : arg3.IsWhole) (arg4 : Memref sig .tc .vmem S1x600 .f32) (harg4 : arg4.IsWhole) (arg5 : Memref sig .tc .vmem S600x300 .f32) (harg5 : arg5.IsWhole) (arg6 : Memref sig .tc .vmem S1x300 .f32) (harg6 : arg6.IsWhole) (arg7 : Memref sig .tc .vmem S1000x300 .f32) (harg7 : arg7.IsWhole) (arg8 : Memref sig .tc .vmem S1x300 .f32) (harg8 : arg8.IsWhole) (arg9 : Memref sig .tc .vmem S1x300 .f32) (harg9 : arg9.IsWhole) (arg10 : Memref sig .tc .vmem S1x300 .f32) (harg10 : arg10.IsWhole) (arg11 : Memref sig .tc .vmem S1x300 .f32) (harg11 : arg11.IsWhole)
    (hc0 : cond6_0 i) (hc1 : ¬cond6_1 i) (x0 x1 : Vec F S1000x300 .f32) (x2 : Vec F S300x600 .f32) (x3 : Vec F S1x600 .f32) (x4 : Vec F S600x300 .f32) (x5 : Vec F S1x300 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out6_6 x0 x1 x2 x3 x4 x5)
            ∗ owns (c : Thread nD τ) arg10 fullShare (stepS6 x0 x1 x2 x3 x4 x5 (zeroS6 (F := F))) ∗ owns (c : Thread nD τ) arg11 fullShare (stepQ6 x0 x1 x2 x3 x4 x5 (zeroQ6 (F := F)))) -∗ K ⟨⟩))
      ⊢ wp frame (wpE (defs₀ (F := F)) Variants.none c none) E (cc6__mlp_kernel i arg1 harg1 arg2 harg2 arg3 harg3 arg4 harg4 arg5 harg5 arg6 harg6 arg7 harg7 arg8 harg8 arg9 harg9 arg10 harg10 arg11 harg11) K := by
  simp only [cc6__mlp_kernel_eq_skeleton]; unfold cc6__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, ⟨%dq, %fq, -, HQ⟩, Hk⟩
  subst hf0 hf1 hf2 hf3 hf4 hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover6_a _)
  isplitl [HS]
  · iexists _; isplitr
    swap; · iexact HS
    ipureintro
    sl_unfold_run_names
    try rw [View.readCov_eq_canon_ld _ _ _ (cover6_e _)]
    exact (View.read_writes_eq_canon _ _ _ (cover6_e_cons _ _)).trans ((canon6_e _ _).trans (canon6_e _ []).symm)
  iexists _; isplitr
  swap; · iexact HQ
  ipureintro
  sl_unfold_run_names
  try rw [View.readCov_eq_canon_ld _ _ _ (cover6_e _)]
  exact (View.read_writes_eq_canon _ _ _ (cover6_e_cons _ _)).trans ((canon6_e _ _).trans (canon6_e _ []).symm)

set_option maxHeartbeats 2000000 in
/-- The body at a middle point (no reset, no copy out): the two scratch accumulators at `s`, `q` are stepped. -/
theorem sound_kernel6_B (c : Dev nD) (E : Set ℕ) (i : grid6.Coords) (arg1 : Memref sig .tc .vmem S1000x300 .f32) (harg1 : arg1.IsWhole) (arg2 : Memref sig .tc .vmem S1000x300 .f32) (harg2 : arg2.IsWhole) (arg3 : Memref sig .tc .vmem S300x600 .f32) (harg3 : arg3.IsWhole) (arg4 : Memref sig .tc .vmem S1x600 .f32) (harg4 : arg4.IsWhole) (arg5 : Memref sig .tc .vmem S600x300 .f32) (harg5 : arg5.IsWhole) (arg6 : Memref sig .tc .vmem S1x300 .f32) (harg6 : arg6.IsWhole) (arg7 : Memref sig .tc .vmem S1000x300 .f32) (harg7 : arg7.IsWhole) (arg8 : Memref sig .tc .vmem S1x300 .f32) (harg8 : arg8.IsWhole) (arg9 : Memref sig .tc .vmem S1x300 .f32) (harg9 : arg9.IsWhole) (arg10 : Memref sig .tc .vmem S1x300 .f32) (harg10 : arg10.IsWhole) (arg11 : Memref sig .tc .vmem S1x300 .f32) (harg11 : arg11.IsWhole)
    (hc0 : ¬cond6_0 i) (hc1 : ¬cond6_1 i) (x0 x1 : Vec F S1000x300 .f32) (x2 : Vec F S300x600 .f32) (x3 : Vec F S1x600 .f32) (x4 : Vec F S600x300 .f32) (x5 : Vec F S1x300 .f32) (s q : Vec F S1x300 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out6_6 x0 x1 x2 x3 x4 x5)
            ∗ owns (c : Thread nD τ) arg10 fullShare (stepS6 x0 x1 x2 x3 x4 x5 s) ∗ owns (c : Thread nD τ) arg11 fullShare (stepQ6 x0 x1 x2 x3 x4 x5 q)) -∗ K ⟨⟩))
      ⊢ wp frame (wpE (defs₀ (F := F)) Variants.none c none) E (cc6__mlp_kernel i arg1 harg1 arg2 harg2 arg3 harg3 arg4 harg4 arg5 harg5 arg6 harg6 arg7 harg7 arg8 harg8 arg9 harg9 arg10 harg10 arg11 harg11) K := by
  simp only [cc6__mlp_kernel_eq_skeleton]; unfold cc6__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, ⟨%fq, %hfq, HQ⟩, Hk⟩
  subst hf0 hf1 hf2 hf3 hf4 hf5 hfs hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover6_a _)
  isplitl [HS]
  · iexists _; isplitr
    swap; · iexact HS
    ipureintro
    exact View.read_writes_eq_canon _ _ _ (cover6_e _)
  iexists _; isplitr
  swap; · iexact HQ
  ipureintro
  exact View.read_writes_eq_canon _ _ _ (cover6_e _)

set_option maxHeartbeats 2000000 in
/-- The body at the last point: the two scratch accumulators at `s`, `q` are stepped and copied out to outputs 7 and 8. -/
theorem sound_kernel6_C (c : Dev nD) (E : Set ℕ) (i : grid6.Coords) (arg1 : Memref sig .tc .vmem S1000x300 .f32) (harg1 : arg1.IsWhole) (arg2 : Memref sig .tc .vmem S1000x300 .f32) (harg2 : arg2.IsWhole) (arg3 : Memref sig .tc .vmem S300x600 .f32) (harg3 : arg3.IsWhole) (arg4 : Memref sig .tc .vmem S1x600 .f32) (harg4 : arg4.IsWhole) (arg5 : Memref sig .tc .vmem S600x300 .f32) (harg5 : arg5.IsWhole) (arg6 : Memref sig .tc .vmem S1x300 .f32) (harg6 : arg6.IsWhole) (arg7 : Memref sig .tc .vmem S1000x300 .f32) (harg7 : arg7.IsWhole) (arg8 : Memref sig .tc .vmem S1x300 .f32) (harg8 : arg8.IsWhole) (arg9 : Memref sig .tc .vmem S1x300 .f32) (harg9 : arg9.IsWhole) (arg10 : Memref sig .tc .vmem S1x300 .f32) (harg10 : arg10.IsWhole) (arg11 : Memref sig .tc .vmem S1x300 .f32) (harg11 : arg11.IsWhole)
    (hc0 : ¬cond6_0 i) (hc1 : cond6_1 i) (x0 x1 : Vec F S1000x300 .f32) (x2 : Vec F S300x600 .f32) (x3 : Vec F S1x600 .f32) (x4 : Vec F S600x300 .f32) (x5 : Vec F S1x300 .f32) (s q : Vec F S1x300 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out6_6 x0 x1 x2 x3 x4 x5)
            ∗ owns (c : Thread nD τ) arg8 fullShare (out6_7 (stepS6 x0 x1 x2 x3 x4 x5 s)) ∗ owns (c : Thread nD τ) arg9 fullShare (out6_7 (stepQ6 x0 x1 x2 x3 x4 x5 q))
            ∗ owns (c : Thread nD τ) arg10 fullShare (stepS6 x0 x1 x2 x3 x4 x5 s) ∗ owns (c : Thread nD τ) arg11 fullShare (stepQ6 x0 x1 x2 x3 x4 x5 q)) -∗ K ⟨⟩))
      ⊢ wp frame (wpE (defs₀ (F := F)) Variants.none c none) E (cc6__mlp_kernel i arg1 harg1 arg2 harg2 arg3 harg3 arg4 harg4 arg5 harg5 arg6 harg6 arg7 harg7 arg8 harg8 arg9 harg9 arg10 harg10 arg11 harg11) K := by
  simp only [cc6__mlp_kernel_eq_skeleton]; unfold cc6__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs, %hfs, HS⟩, ⟨%fq, %hfq, HQ⟩, Hk⟩
  subst hf0 hf1 hf2 hf3 hf4 hf5 hfs hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover6_a _)
  isplitl [H7]
  · iexists _; isplitr
    swap; · iexact H7
    ipureintro
    sl_unfold_run_names
    try rw [View.readCov_eq_canon_ld _ _ _ (cover6_e _)]
    exact (View.read_writes_eq_canon _ _ _ (cover6_e_cons _ _)).trans ((canon6_e _ _).trans (canon6_e _ []).symm)
  isplitl [H8]
  · iexists _; isplitr
    swap; · iexact H8
    ipureintro
    sl_unfold_run_names
    try rw [View.readCov_eq_canon_ld _ _ _ (cover6_e _)]
    exact (View.read_writes_eq_canon _ _ _ (cover6_e_cons _ _)).trans ((canon6_e _ _).trans (canon6_e _ []).symm)
  isplitl [HS]
  · iexists _; isplitr
    swap; · iexact HS
    ipureintro
    sl_unfold_run_names
    try rw [View.readCov_eq_canon_ld _ _ _ (cover6_e _)]
    exact (View.read_writes_eq_canon _ _ _ (cover6_e_cons _ _)).trans ((canon6_e _ _).trans (canon6_e _ []).symm)
  iexists _; isplitr
  swap; · iexact HQ
  ipureintro
  sl_unfold_run_names
  try rw [View.readCov_eq_canon_ld _ _ _ (cover6_e _)]
  exact (View.read_writes_eq_canon _ _ _ (cover6_e_cons _ _)).trans ((canon6_e _ _).trans (canon6_e _ []).symm)

/-! ## The invariant: the two scratch accumulators tracked -/

/-- The scratch operands: whole scoped buffers of the kernel's own, passed beside the windows. -/
abbrev scM6_0 : Memref sig .tc .vmem S1x300 .f32 := Memref.whole cc6_scratch0
abbrev scM6_1 : Memref sig .tc .vmem S1x300 .f32 := Memref.whole cc6_scratch1

/-- Before the first point the class's invariant (every scratch at anything); afterwards the two scratch
    accumulators at what the point before left, the other scoped buffers unopened, the generator register at some state. -/
def PhiS6 (c : Dev nD) : (n : ℕ) → n ≤ cfg6.N → sProp 𝕄
  | 0, _ => Pipeline.ΦA spec6 c
  | n + 1, hn => iprop(iprop(iprop(owns (c : Thread nD τ) scM6_0 fullShare (accS6 V c n hn) ∗ owns (c : Thread nD τ) scM6_1 fullShare (accQ6 V c n hn))
      ∗ Pipeline.scopedRestBut (Ix := Unit) (Name := ℕ) (U := UR sig nD τ) (Lvl := ℕ) (Val := Elt F) spec6 c [cc6_scratch0, cc6_scratch1]) ∗ (∃ r, prngReg c r))

theorem PhiS6_zero (c : Dev nD) (n : ℕ) (h : n ≤ cfg6.N) (hz : n = 0) : PhiS6 V c n h = Pipeline.ΦA spec6 c := by
  subst hz; rfl

/-- After point `n` (before point `n + 1`): the accumulators at that point's contents. -/
theorem PhiS6_succ (c : Dev nD) (n : ℕ) (hn : n < cfg6.N) :
    PhiS6 V c (n + 1) hn = iprop(iprop(iprop(owns (c : Thread nD τ) scM6_0 fullShare (accS6 V c n hn) ∗ owns (c : Thread nD τ) scM6_1 fullShare (accQ6 V c n hn))
      ∗ Pipeline.scopedRestBut (Ix := Unit) (Name := ℕ) (U := UR sig nD τ) (Lvl := ℕ) (Val := Elt F) spec6 c [cc6_scratch0, cc6_scratch1]) ∗ (∃ r, prngReg c r)) := rfl

/-- Before a point that is not the first: the accumulators at what the point before left. -/
theorem PhiS6_pos (c : Dev nD) (n : ℕ) (h : n ≤ cfg6.N) (hz : n ≠ 0) :
    PhiS6 V c n h = iprop(iprop(iprop(owns (c : Thread nD τ) scM6_0 fullShare (accS6 V c (n - 1) (by omega)) ∗ owns (c : Thread nD τ) scM6_1 fullShare (accQ6 V c (n - 1) (by omega)))
      ∗ Pipeline.scopedRestBut (Ix := Unit) (Name := ℕ) (U := UR sig nD τ) (Lvl := ℕ) (Val := Elt F) spec6 c [cc6_scratch0, cc6_scratch1]) ∗ (∃ r, prngReg c r)) := by
  cases n with
  | zero => exact absurd rfl hz
  | succ n => rfl

/-- The class's invariant with the two scratch operands split out of the scoped rest as memrefs owned at some contents. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut (Ix := Unit) (Name := ℕ) (U := UR sig nD τ) (Lvl := ℕ) (Val := Elt F) spec6 c [cc6_scratch0, cc6_scratch1]) ∗ (∃ r, prngReg c r)) := by
  unfold Pipeline.ΦA; rw [scopedRest6_split]; simp only [scM6_0, scM6_1, owns_whole]; try rfl

/-! ## The pipeline's proof data -/

/-- The proof data of pipeline 6 on core `c`: the arrays as the region finds them (`V`); after the body at point `t`
    each input's buffer at its block, output 6's at the z block of the input blocks, outputs 7 and 8's at the copies of
    the accumulators (consulted at the last point only: the windows are idle before it); the invariant tracks the two
    scratch accumulators (`PhiS6`); nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
    | ⟨7, _⟩ => out6_7 (accS6 V c t.val t.isLt)
    | ⟨8, _⟩ => out6_7 (accQ6 V c t.val t.isLt)
  Φ t := PhiS6 V c t.val (Nat.le_of_lt_succ t.isLt)
  q _ := fullShare
  owed _ := 0

/-- The proof data's arrays are the region-entry contents (the proof data's definition projected, by `dsimp`). -/
theorem A_eq6 (c : Dev nD) (w : Fin cfg6.W) : (dat6 V c).A w = V c (Pipeline.arrRef spec6 w) := by
  dsimp only [dat6]

/-- The invariant at a point's start (the proof data at `t.castSucc`), restated at `t.val`. -/
theorem PhiS6_castSucc (c : Dev nD) (t : Fin cfg6.N) :
    (dat6 V c).Φ t.castSucc = PhiS6 V c t.val (Nat.le_of_lt t.isLt) := by
  dsimp only [dat6]; simp only [Fin.coe_castSucc]

/-- What the body leaves, window by window (the proof data's `match` reduced by `dsimp`). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = out6_6 (iblk6 V c 0 t) (iblk6 V c 1 t) (iblk6 V c 2 t) (iblk6 V c 3 t) (iblk6 V c 4 t) (iblk6 V c 5 t) := by dsimp only [dat6]
theorem after6_7 (c : Dev nD) (t : Fin cfg6.N) : (dat6 V c).after 7 t = out6_7 (accS6 V c t.val t.isLt) := by dsimp only [dat6]
theorem after6_8 (c : Dev nD) (t : Fin cfg6.N) : (dat6 V c).after 8 t = out6_7 (accQ6 V c t.val t.isLt) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

/-- Windows 0 to 6 are never idle: the body's post for them is the buffer at what the body leaves. -/
theorem leaves6_0 (c : Dev nD) (t : Fin cfg6.N) :
    (dat6 V c).leavesExact 0 t = owns (c : Thread nD τ) (st6_0 t) fullShare ((dat6 V c).after 0 t) := rfl
theorem leaves6_1 (c : Dev nD) (t : Fin cfg6.N) :
    (dat6 V c).leavesExact 1 t = owns (c : Thread nD τ) (st6_1 t) fullShare ((dat6 V c).after 1 t) := rfl
theorem leaves6_2 (c : Dev nD) (t : Fin cfg6.N) :
    (dat6 V c).leavesExact 2 t = owns (c : Thread nD τ) (st6_2 t) fullShare ((dat6 V c).after 2 t) := rfl
theorem leaves6_3 (c : Dev nD) (t : Fin cfg6.N) :
    (dat6 V c).leavesExact 3 t = owns (c : Thread nD τ) (st6_3 t) fullShare ((dat6 V c).after 3 t) := rfl
theorem leaves6_4 (c : Dev nD) (t : Fin cfg6.N) :
    (dat6 V c).leavesExact 4 t = owns (c : Thread nD τ) (st6_4 t) fullShare ((dat6 V c).after 4 t) := rfl
theorem leaves6_5 (c : Dev nD) (t : Fin cfg6.N) :
    (dat6 V c).leavesExact 5 t = owns (c : Thread nD τ) (st6_5 t) fullShare ((dat6 V c).after 5 t) := rfl
theorem leaves6_6 (c : Dev nD) (t : Fin cfg6.N) :
    (dat6 V c).leavesExact 6 t = owns (c : Thread nD τ) (st6_6 t) fullShare ((dat6 V c).after 6 t) := rfl

/-! ## The body obligation, at a generic point -/

/-- What the body is called with at point `t` (the library's body obligation's precondition, the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t
    ∗ (dat6 V c).leavesExact 7 t
    ∗ (dat6 V c).leavesExact 8 t)

set_option maxHeartbeats 4000000 in
/-- The body at any point: the inputs' memrefs hold their blocks; the closed forms say which of the three control cases
    the point is in; the invariant hands the body the two scratch accumulators at what the point before left (at anything
    at the first point) and takes them back at this point's contents; outputs 7 and 8 pass through untouched where they
    are idle and are handed back at the copies at the last point; the core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).owesAt () t.succ = (dat6 V c).owesAt () t.castSucc from rfl]
  rw [show (dat6 V c).Φ t.succ = PhiS6 V c (t.val + 1) t.isLt from rfl, PhiS6_succ]
  rw [leaves6_0, leaves6_1, leaves6_2, leaves6_3, leaves6_4, leaves6_5, leaves6_6,
    after6_0, after6_1, after6_2, after6_3, after6_4, after6_5, after6_6]
  have hN : t.val < 50 := lt_of_lt_of_eq t.isLt (show cfg6.N = 50 from N_6)
  by_cases h0 : t.val % 50 = 0
  · by_cases h1 : t.val % 50 = 49
    · exfalso; omega
    · have hc0 : cond6_0 (grid6.coords t) := (hcond6_0 t).mpr h0
      have hc1 : ¬cond6_1 (grid6.coords t) := fun h => h1 ((hcond6_1 t).mp h)
      have hz : t.val = 0 := by omega
      rw [Dat.leavesExact_idle (dat6 V c) 7 t (idleAt6_7 t hc1) (noFlush6_7 t hc1),
        Dat.leavesExact_idle (dat6 V c) 8 t (idleAt6_8 t hc1) (noFlush6_8 t hc1)]
      rw [accS6_A V c t hz, accQ6_A V c t hz]
      rw [PhiS6_castSucc V c t, PhiS6_zero V c _ _ hz, PhiA6_eq]
      iintro ⟨⟨⟨⟨HS, HQ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel6_A c Set.univ (grid6.coords t) _ _ _ _ _ _ _ _ _ _ _ _ _ _ _ _ _ _ _ _ _ _ hc0 hc1 (iblk6 V c 0 t) (iblk6 V c 1 t) (iblk6 V c 2 t) (iblk6 V c 3 t) (iblk6 V c 4 t) (iblk6 V c 5 t) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      isplitl [HQ]; · iexact HQ
      iintro ⟨H0, H1, H2, H3, H4, H5, H6, HS, HQ⟩
      isplitl [HS HQ HR Hg]
      · isplitl [HS HQ HR]
        · isplitl [HS HQ]
          · isplitl [HS]; · iexact HS
            iexact HQ
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
  · have hc0 : ¬cond6_0 (grid6.coords t) := fun h => h0 ((hcond6_0 t).mp h)
    have hz : t.val ≠ 0 := fun e => h0 (by rw [e])
    rw [accS6_B V c t hz, accQ6_B V c t hz]
    rw [PhiS6_castSucc V c t, PhiS6_pos V c _ _ hz]
    by_cases h1 : t.val % 50 = 49
    · have hc1 : cond6_1 (grid6.coords t) := (hcond6_1 t).mpr h1
      rw [show (dat6 V c).leavesExact 7 t = owns (c : Thread nD τ) (st6_7 t) fullShare ((dat6 V c).after 7 t) from by
        unfold Dat.leavesExact; rw [liveAt6_7 t hc1], after6_7]
      rw [show (dat6 V c).leavesExact 8 t = owns (c : Thread nD τ) (st6_8 t) fullShare ((dat6 V c).after 8 t) from by
        unfold Dat.leavesExact; rw [liveAt6_8 t hc1], after6_8]
      rw [accS6_B V c t hz, accQ6_B V c t hz]
      iintro ⟨⟨⟨⟨HS, HQ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel6_C c Set.univ (grid6.coords t) _ _ _ _ _ _ _ _ _ _ _ _ _ _ _ _ _ _ _ _ _ _ hc0 hc1 (iblk6 V c 0 t) (iblk6 V c 1 t) (iblk6 V c 2 t) (iblk6 V c 3 t) (iblk6 V c 4 t) (iblk6 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS]; · iexact HS
      isplitl [HQ]; · iexact HQ
      iintro ⟨H0, H1, H2, H3, H4, H5, H6, H7, H8, HS, HQ⟩
      isplitl [HS HQ HR Hg]
      · isplitl [HS HQ HR]
        · isplitl [HS HQ]
          · isplitl [HS]; · iexact HS
            iexact HQ
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬cond6_1 (grid6.coords t) := fun h => h1 ((hcond6_1 t).mp h)
      rw [Dat.leavesExact_idle (dat6 V c) 7 t (idleAt6_7 t hc1) (noFlush6_7 t hc1),
        Dat.leavesExact_idle (dat6 V c) 8 t (idleAt6_8 t hc1) (noFlush6_8 t hc1)]
      iintro ⟨⟨⟨⟨HS, HQ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel6_B c Set.univ (grid6.coords t) _ _ _ _ _ _ _ _ _ _ _ _ _ _ _ _ _ _ _ _ _ _ hc0 hc1 (iblk6 V c 0 t) (iblk6 V c 1 t) (iblk6 V c 2 t) (iblk6 V c 3 t) (iblk6 V c 4 t) (iblk6 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      isplitl [HQ]; · iexact HQ
      iintro ⟨H0, H1, H2, H3, H4, H5, H6, HS, HQ⟩
      isplitl [HS HQ HR Hg]
      · isplitl [HS HQ HR]
        · isplitl [HS HQ]
          · isplitl [HS]; · iexact HS
            iexact HQ
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region (the class's invariant) is the invariant before the first point. -/
theorem PhiIn6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After the last point the invariant gives the class's back: the accumulators' named contents are forgotten. -/
theorem PhiOut6 (c : Dev nD) : (dat6 V c).Φ (Fin.last _) ⊢ Pipeline.ΦA spec6 c := by
  rw [show (dat6 V c).Φ (Fin.last cfg6.N) = PhiS6 V c (Fin.last cfg6.N).val (Nat.le_of_lt_succ (Fin.last cfg6.N).isLt) from rfl,
    PhiS6_pos V c _ _ (by rw [Fin.val_last]; have : cfg6.N = 50 := N_6; omega), PhiA6_eq]
  iintro ⟨⟨⟨HS, HQ⟩, HR⟩, Hg⟩
  isplitl [HS HQ HR]
  · isplitl [HS HQ]
    · isplitl [HS]; · iexists _; iexact HS
      iexists _; iexact HQ
    iexact HR
  iexact Hg

/-- The last point. -/
abbrev tLast6 : Fin cfg6.N := ⟨49, by decide⟩

/-! ## The arrays of outputs 7 and 8 after the region -/

/-- Output 7's one block is its whole array: at the last point its offsets are zero and its extents the array's. -/
theorem whole6_7_off : ∀ a, win6_7.index tLast6 a * win6_7.size a = 0 := by decide +kernel
theorem whole6_7_size : ∀ a, win6_7.xsize (grid6.coords tLast6) a = S1x300.size a := by decide +kernel

/-- The one write-back of output 7, at the last point, writes its whole array. -/
theorem flushed6_7 (c : Dev nD) (t : Fin cfg6.N) (hf : (cfg6.win 7).flush t = true) :
    (dat6 V c).flushed 7 t
      = ((cfg6.win 7).blk t).view.read (Elt F) (out6_7 (accS6 V c 49 (by decide)) : Buf (Elt F) ((c : Thread nD τ).loc (Pipeline.arrRef spec6 7))) := by
  have hN : cfg6.N = 50 := N_6
  have h49 : t.val = 49 := by have := (flush6_7 t).mp hf; have := t.isLt; omega
  obtain rfl : t = tLast6 := Fin.ext h49
  show (cfg6.win 7).cut (grid6.coords tLast6) ((dat6 V c).after 7 tLast6) = _
  rw [after6_7]
  exact (Memref.read_access_unit_zero (Elt F) (Pipeline.arrRef spec6 7) (funext whole6_7_off)
    (fun a => by show win6_7.index tLast6 a * win6_7.size a + S1x300.size a ≤ S1x300.size a; rw [whole6_7_off a, Nat.zero_add]) _).symm

/-- So after the region output 7's array holds the copy of the accumulator as the last point left it. -/
theorem arrAt6_7 (c : Dev nD) : (dat6 V c).arrAt 7 cfg6.N = out6_7 (accS6 V c 49 (by decide)) :=
  (dat6 V c).arrAt_eq_of_cover 7 _ (flushed6_7 V c) fun i =>
    ⟨tLast6, (flush6_7 tLast6).mpr rfl, by
      show i ∈ ((View.whole (Pipeline.arrRef spec6 7)).slice (win6_7.rect tLast6)).set
      rw [View.set_slice_whole, Rect.mem_set_unit]
      intro a
      show win6_7.index tLast6 a * win6_7.size a ≤ (i a : Nat)
        ∧ (i a : Nat) < win6_7.index tLast6 a * win6_7.size a + win6_7.xsize (grid6.coords tLast6) a
      rw [whole6_7_off a, whole6_7_size a, Nat.zero_add]
      exact ⟨Nat.zero_le _, (i a).isLt⟩⟩

/-- Output 8's one block is its whole array: at the last point its offsets are zero and its extents the array's. -/
theorem whole6_8_off : ∀ a, win6_8.index tLast6 a * win6_8.size a = 0 := by decide +kernel
theorem whole6_8_size : ∀ a, win6_8.xsize (grid6.coords tLast6) a = S1x300.size a := by decide +kernel

/-- The one write-back of output 8, at the last point, writes its whole array. -/
theorem flushed6_8 (c : Dev nD) (t : Fin cfg6.N) (hf : (cfg6.win 8).flush t = true) :
    (dat6 V c).flushed 8 t
      = ((cfg6.win 8).blk t).view.read (Elt F) (out6_7 (accQ6 V c 49 (by decide)) : Buf (Elt F) ((c : Thread nD τ).loc (Pipeline.arrRef spec6 8))) := by
  have hN : cfg6.N = 50 := N_6
  have h49 : t.val = 49 := by have := (flush6_8 t).mp hf; have := t.isLt; omega
  obtain rfl : t = tLast6 := Fin.ext h49
  show (cfg6.win 8).cut (grid6.coords tLast6) ((dat6 V c).after 8 tLast6) = _
  rw [after6_8]
  exact (Memref.read_access_unit_zero (Elt F) (Pipeline.arrRef spec6 8) (funext whole6_8_off)
    (fun a => by show win6_8.index tLast6 a * win6_8.size a + S1x300.size a ≤ S1x300.size a; rw [whole6_8_off a, Nat.zero_add]) _).symm

/-- So after the region output 8's array holds the copy of the accumulator as the last point left it. -/
theorem arrAt6_8 (c : Dev nD) : (dat6 V c).arrAt 8 cfg6.N = out6_7 (accQ6 V c 49 (by decide)) :=
  (dat6 V c).arrAt_eq_of_cover 8 _ (flushed6_8 V c) fun i =>
    ⟨tLast6, (flush6_8 tLast6).mpr rfl, by
      show i ∈ ((View.whole (Pipeline.arrRef spec6 8)).slice (win6_8.rect tLast6)).set
      rw [View.set_slice_whole, Rect.mem_set_unit]
      intro a
      show win6_8.index tLast6 a * win6_8.size a ≤ (i a : Nat)
        ∧ (i a : Nat) < win6_8.index tLast6 a * win6_8.size a + win6_8.xsize (grid6.coords tLast6) a
      rw [whole6_8_off a, whole6_8_size a, Nat.zero_add]
      exact ⟨Nat.zero_le _, (i a).isLt⟩⟩

end Cert.KernelIdeal.Hand

end
-- ==== Proof.KI.RegBn7.lean ====
import proofs.«409348_j89627377533173_1_alg».proof.Proof.Gen.KernelIdeal.Launch
import proofs.«409348_j89627377533173_1_alg».proof.Proof.Gen.KernelIdeal.Skeleton
import proofs.«409348_j89627377533173_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

/-! # Region 7 (`cc7__bn_relu_kernel`, pipeline 7): the frame half, at any float model

A pointwise body over a grid of 25 points. Window 0 (the 2000x300 block of `z` at row block `t`) is fetched at every
point; the four row windows after it (mean, var, gamma, beta, each one row of 300) have a constant block index and are fetched once; window 5
is the output block, written back at every point. The body loads the five inputs whole, loads the output buffer (a value
it does not use), and stores one payload over the whole output buffer. So what it leaves in the output buffer is a
closed function of the five input blocks at the point, and it keeps nothing from point to point. -/

-- membership in a rectangle with a 2000-long axis recurses once per coordinate of that axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof
    data whose array is `V`'s (`hA`) and whose body leaves the block in place (`hafter`): an unfetched point has the
    block index of the point before, and the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for any proof
    data whose array is `V`'s (`hA`) and whose body leaves the block in place (`hafter`): an unfetched point has the
    block index of the point before, and the window is uncut and never idle. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for any proof
    data whose array is `V`'s (`hA`) and whose body leaves the block in place (`hafter`): an unfetched point has the
    block index of the point before, and the window is uncut and never idle. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not, for any proof
    data whose array is `V`'s (`hA`) and whose body leaves the block in place (`hafter`): an unfetched point has the
    block index of the point before, and the window is uncut and never idle. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not, for any proof
    data whose array is `V`'s (`hA`) and whose body leaves the block in place (`hafter`): an unfetched point has the
    block index of the point before, and the window is uncut and never idle. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

/-- The whole 2000x300 staging buffer (the load of window 0 and the one store into window 5). -/
abbrev r7_0 : Rect S2000x300 := Rect.unit (s := S2000x300) ![0, 0] S2000x300.size inb_S2000x300_S2000x300_0_0
/-- The whole 1x300 staging buffer (the loads of the four row windows). -/
abbrev r7_1 : Rect S1x300 := Rect.unit (s := S1x300) ![0, 0] S1x300.size inb_S1x300_S1x300_0_0

/-! ## What the body leaves in the output window's buffer -/

/-- Window 5's staging buffer after the body, from the input windows' blocks `xz xm xv xg xb` (in window order: z, mean, var,
    gamma, beta): its one store as a piece. The payload takes the loads in the order the body makes them: z, var, mean,
    gamma, beta. -/
def out7_5 (xz : Vec F S2000x300 .f32) (xm xv xg xb : Vec F S1x300 .f32) : Vec F S2000x300 .f32 :=
  View.canon [⟨r7_0, k7_pay1 (View.ld xz r7_0) (View.ld xv r7_1) (View.ld xm r7_1) (View.ld xg r7_1) (View.ld xb r7_1)⟩]

/-- The one store is the whole buffer, so it covers it. -/
theorem cover7_5 (p : Vec F S2000x300 .f32) (y : S2000x300.Idx) :
    ∃ pc ∈ ([⟨r7_0, p⟩] : List (View.Piece (Elt F) S2000x300 .f32)), y ∈ pc.1.set :=
  View.cover_of_tiled [⟨r7_0, p⟩] S2000x300.size (by rfl) y

/-! ## The body's triple -/

set_option maxHeartbeats 1000000 in
/-- The kernel body on whole staging memrefs, the inputs' at read contents `xz xm xv xg xb` and the output's at anything, runs to
    the continuation holding the inputs' as they were and the output's at `out7_5` of the inputs'. -/
theorem sound_kernel7 (c : Dev nD) (E : Set ℕ) (i : grid7.Coords) (Az : Memref sig .tc .vmem S2000x300 .f32) (hAz : Az.IsWhole) (Am : Memref sig .tc .vmem S1x300 .f32) (hAm : Am.IsWhole) (Av : Memref sig .tc .vmem S1x300 .f32) (hAv : Av.IsWhole) (Ag : Memref sig .tc .vmem S1x300 .f32) (hAg : Ag.IsWhole) (Ab : Memref sig .tc .vmem S1x300 .f32) (hAb : Ab.IsWhole) (Ay : Memref sig .tc .vmem S2000x300 .f32) (hAy : Ay.IsWhole)
    (xz : Vec F S2000x300 .f32) (xm xv xg xb : Vec F S1x300 .f32) (K : PUnit → sProp 𝕄) :
    iprop(owns (c : Thread nD τ) Az fullShare xz ∗ owns (c : Thread nD τ) Am fullShare xm ∗ owns (c : Thread nD τ) Av fullShare xv ∗ owns (c : Thread nD τ) Ag fullShare xg ∗ owns (c : Thread nD τ) Ab fullShare xb
        ∗ (∃ d, owns (c : Thread nD τ) Ay fullShare d)
        ∗ (iprop(owns (c : Thread nD τ) Az fullShare xz ∗ owns (c : Thread nD τ) Am fullShare xm ∗ owns (c : Thread nD τ) Av fullShare xv ∗ owns (c : Thread nD τ) Ag fullShare xg ∗ owns (c : Thread nD τ) Ab fullShare xb
            ∗ owns (c : Thread nD τ) Ay fullShare (out7_5 xz xm xv xg xb)) -∗ K ⟨⟩))
      ⊢ wp frame (wpE (defs₀ (F := F)) Variants.none c none) E (cc7__bn_relu_kernel i Az hAz Am hAm Av hAv Ag hAg Ab hAb Ay hAy) K := by
  simp only [cc7__bn_relu_kernel_eq_skeleton]; unfold cc7__bn_relu_kernel_skel
  unfold owns
  iintro ⟨⟨%fz, %hfz, Hz⟩, ⟨%fm, %hfm, Hm⟩, ⟨%fv, %hfv, Hv⟩, ⟨%fg, %hfg, Hg⟩, ⟨%fb, %hfb, Hb⟩, ⟨%dy, %fy, -, Hy⟩, Hk⟩
  subst hfz hfm hfv hfg hfb
  sl_exec
  sl_step
  iapply Hk
  isplitl [Hz]
  · iexists fz; isplitr; · ipureintro; rfl
    iexact Hz
  isplitl [Hm]
  · iexists fm; isplitr; · ipureintro; rfl
    iexact Hm
  isplitl [Hv]
  · iexists fv; isplitr; · ipureintro; rfl
    iexact Hv
  isplitl [Hg]
  · iexists fg; isplitr; · ipureintro; rfl
    iexact Hg
  isplitl [Hb]
  · iexists fb; isplitr; · ipureintro; rfl
    iexact Hb
  iexists _; isplitr
  swap; · iexact Hy
  ipureintro
  exact View.read_writes_eq_canon _ _ _ (cover7_5 _)

/-! ## The pipeline's proof data -/

/-- The proof data of pipeline 1 on core `c`: the arrays as the region finds them (`V`); after the body at point `t` each
    input's buffer at its block and the output's at `out7_5` of the input blocks; the invariant the scoped rest and the
    generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) :
    (dat7 V c).after 5 t = out7_5 (iblk7 V c 0 t) (iblk7 V c 1 t) (iblk7 V c 2 t) (iblk7 V c 3 t) (iblk7 V c 4 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-- The invariant at the first point is the class's, -/
theorem PhiIn7 (c : Dev nD) : Pipeline.ΦA spec7 c ⊢ (dat7 V c).Φ 0 := .rfl
/-- and so is the invariant at the last. -/
theorem PhiOut7 (c : Dev nD) : (dat7 V c).Φ (Fin.last _) ⊢ Pipeline.ΦA spec7 c := .rfl

/-! ## The body obligation, at a generic point -/

/-- What the body is called with at point `t` (the windows one by one), -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' memrefs hold their blocks (`before7_W`), so `sound_kernel7` applies; the invariant
    and the core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%dz, Hz⟩, ⟨%dm, Hm⟩, ⟨%dv, Hv⟩, ⟨%dg, Hg⟩, ⟨%db, Hb⟩, ⟨%dy, Hy⟩⟩
  iapply (sound_kernel7 c Set.univ _ _ _ _ _ _ _ _ _ _ _ _ _ (iblk7 V c 0 t) (iblk7 V c 1 t) (iblk7 V c 2 t) (iblk7 V c 3 t) (iblk7 V c 4 t) _)
  isplitl [Hz]; · iexact Hz
  isplitl [Hm]; · iexact Hm
  isplitl [Hv]; · iexact Hv
  isplitl [Hg]; · iexact Hg
  isplitl [Hb]; · iexact Hb
  isplitl [Hy]; · iexists _; iexact Hy
  iintro ⟨Hz, Hm, Hv, Hg, Hb, Hy⟩
  isplitl [HΦ]; · iexact HΦ
  isplitl [Ho]; · iexact Ho
  isplitl [Hz]; · iexact Hz
  isplitl [Hm]; · iexact Hm
  isplitl [Hv]; · iexact Hv
  isplitl [Hg]; · iexact Hg
  isplitl [Hb]; · iexact Hb
  iexact Hy

/-- The library's body obligation, at every point. -/
theorem body_obligation7 (c : Dev nD) : BodyObligation (dat7 (F := F) V c) (defs₀ (F := F)) Variants.none () Set.univ := fun t => by
  rw [bigSep_W7, bigSep_W7]
  exact sound_body7 V c t

end Region1

end Cert.KernelIdeal.Hand
-- ==== Proof.KI.RegMlp8.lean ====
import proofs.«409348_j89627377533173_1_alg».proof.Proof.Gen.KernelIdeal.Launch
import proofs.«409348_j89627377533173_1_alg».proof.Proof.Gen.KernelIdeal.Skeleton
import proofs.«409348_j89627377533173_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 8 of @main: custom_call 8, `cc8__mlp_kernel` (pipeline 8), at the entry contents `V` -/

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Each input window's current staging buffer holds its block at every point, fetched there or not (an input
    fetched at the first point only keeps its block: the index never moves). -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: every load and store is of a whole buffer -/

abbrev r8_a : Rect S1000x300 := Rect.unit (s := S1000x300) ![0, 0] S1000x300.size inb_S1000x300_S1000x300_0_0
abbrev r8_b : Rect S300x600 := Rect.unit (s := S300x600) ![0, 0] S300x600.size inb_S300x600_S300x600_0_0
abbrev r8_c : Rect S1x600 := Rect.unit (s := S1x600) ![0, 0] S1x600.size inb_S1x600_S1x600_0_0
abbrev r8_d : Rect S600x300 := Rect.unit (s := S600x300) ![0, 0] S600x300.size inb_S600x300_S600x300_0_0
abbrev r8_e : Rect S1x300 := Rect.unit (s := S1x300) ![0, 0] S1x300.size inb_S1x300_S1x300_0_0

/-! ## What the body leaves: the z block, the two running sums, the copies out -/

/-- The z block the body stores at a point, from the six input blocks (the skeleton's payload `k8_pay5`). -/
def z8 (x0 x1 : Vec F S1000x300 .f32) (x2 : Vec F S300x600 .f32) (x3 : Vec F S1x600 .f32) (x4 : Vec F S600x300 .f32) (x5 : Vec F S1x300 .f32) : FVec F S1000x300 .f32 :=
  k8_pay5 (View.ld x0 r8_a) (View.ld x1 r8_a) (View.ld x2 r8_b) (View.ld x3 r8_c) (View.ld x4 r8_d) (View.ld x5 r8_e)

/-- Output window 6's staging buffer after the body: its one store. -/
def out8_6 (x0 x1 : Vec F S1000x300 .f32) (x2 : Vec F S300x600 .f32) (x3 : Vec F S1x600 .f32) (x4 : Vec F S600x300 .f32) (x5 : Vec F S1x300 .f32) : Vec F S1000x300 .f32 :=
  View.canon [⟨r8_a, z8 x0 x1 x2 x3 x4 x5⟩]

/-- Scratch 0 (the running column sums) after the body's add, over what it held (`s`). -/
def stepS8 (x0 x1 : Vec F S1000x300 .f32) (x2 : Vec F S300x600 .f32) (x3 : Vec F S1x600 .f32) (x4 : Vec F S600x300 .f32) (x5 : Vec F S1x300 .f32) (s : Vec F S1x300 .f32) : Vec F S1x300 .f32 :=
  View.canon [⟨r8_e, k8_pay1 (k8_pay6 (View.ld x0 r8_a) (View.ld x1 r8_a) (View.ld x2 r8_b) (View.ld x3 r8_c) (View.ld x4 r8_d) (View.ld x5 r8_e) (View.ld s r8_e))⟩]

/-- Scratch 1 (the running column sums of squares) after the body's add, over what it held (`q`). -/
def stepQ8 (x0 x1 : Vec F S1000x300 .f32) (x2 : Vec F S300x600 .f32) (x3 : Vec F S1x600 .f32) (x4 : Vec F S600x300 .f32) (x5 : Vec F S1x300 .f32) (q : Vec F S1x300 .f32) : Vec F S1x300 .f32 :=
  View.canon [⟨r8_e, k8_pay2 (z8 x0 x1 x2 x3 x4 x5) (View.ld q r8_e)⟩]

/-- What the first point's reset leaves in scratch 0 and in scratch 1: zeros. -/
def zeroS8 : Vec F S1x300 .f32 := View.canon [⟨r8_e, k8_pay3 (F := F)⟩]
def zeroQ8 : Vec F S1x300 .f32 := View.canon [⟨r8_e, k8_pay4 (F := F)⟩]

/-- What the last point's copy leaves in output window 7's (8's) staging buffer, from the scratch's contents. -/
def out8_7 (s : Vec F S1x300 .f32) : Vec F S1x300 .f32 := View.canon [⟨r8_e, View.ld s r8_e⟩]

/-- The zero offsets of every access, as a function. -/
theorem hz8 : (![0, 0] : Fin 2 → ℕ) = fun _ => 0 := by funext a; fin_cases a <;> rfl

/-! ### Whole-buffer accesses read through (Lib/Pipeline/Value.lean): a load through the whole shape at zero offsets
    reads the contents, a store through it (last) leaves its payload, a load of what one such store left reads it -/

theorem ld8_a (X : Vec F S1000x300 .f32) : View.ld X r8_a = X := View.ld_unit_zero (S := S1000x300) hz8 _ X
theorem ld8_b (X : Vec F S300x600 .f32) : View.ld X r8_b = X := View.ld_unit_zero (S := S300x600) hz8 _ X
theorem ld8_c (X : Vec F S1x600 .f32) : View.ld X r8_c = X := View.ld_unit_zero (S := S1x600) hz8 _ X
theorem ld8_d (X : Vec F S600x300 .f32) : View.ld X r8_d = X := View.ld_unit_zero (S := S600x300) hz8 _ X
theorem ld8_e (X : Vec F S1x300 .f32) : View.ld X r8_e = X := View.ld_unit_zero (S := S1x300) hz8 _ X
theorem canon8_a (w : Vec F S1000x300 .f32) (L : List (View.Piece (Elt F) S1000x300 .f32)) :
    View.canon ((⟨r8_a, w⟩ : View.Piece (Elt F) S1000x300 .f32) :: L) = w := View.canon_cons_unit_zero (S := S1000x300) hz8 _ w L
theorem canon8_e (w : Vec F S1x300 .f32) (L : List (View.Piece (Elt F) S1x300 .f32)) :
    View.canon ((⟨r8_e, w⟩ : View.Piece (Elt F) S1x300 .f32) :: L) = w := View.canon_cons_unit_zero (S := S1x300) hz8 _ w L
theorem readCov8_e {κ : Kind} {sp : Space} (v : View sig κ sp S1x300 .f32) (w : Vec F S1x300 .f32) :
    v.readCov [(⟨r8_e, w⟩ : View.Piece (Elt F) S1x300 .f32)] r8_e.toLoadRect = w := View.readCov_unit_zero (S := S1x300) v hz8 _ w

theorem z8_eq (x0 x1 : Vec F S1000x300 .f32) (x2 : Vec F S300x600 .f32) (x3 : Vec F S1x600 .f32) (x4 : Vec F S600x300 .f32) (x5 : Vec F S1x300 .f32) : z8 x0 x1 x2 x3 x4 x5 = k8_pay5 x0 x1 x2 x3 x4 x5 := by
  unfold z8; rw [ld8_a, ld8_a, ld8_b, ld8_c, ld8_d, ld8_e]
theorem out8_6_eq (x0 x1 : Vec F S1000x300 .f32) (x2 : Vec F S300x600 .f32) (x3 : Vec F S1x600 .f32) (x4 : Vec F S600x300 .f32) (x5 : Vec F S1x300 .f32) : out8_6 x0 x1 x2 x3 x4 x5 = k8_pay5 x0 x1 x2 x3 x4 x5 := by
  unfold out8_6; rw [canon8_a, z8_eq]
theorem stepS8_eq (x0 x1 : Vec F S1000x300 .f32) (x2 : Vec F S300x600 .f32) (x3 : Vec F S1x600 .f32) (x4 : Vec F S600x300 .f32) (x5 : Vec F S1x300 .f32) (s : Vec F S1x300 .f32) :
    stepS8 x0 x1 x2 x3 x4 x5 s = k8_pay1 (k8_pay6 x0 x1 x2 x3 x4 x5 s) := by
  unfold stepS8; rw [canon8_e, ld8_a, ld8_a, ld8_b, ld8_c, ld8_d, ld8_e, ld8_e]
theorem stepQ8_eq (x0 x1 : Vec F S1000x300 .f32) (x2 : Vec F S300x600 .f32) (x3 : Vec F S1x600 .f32) (x4 : Vec F S600x300 .f32) (x5 : Vec F S1x300 .f32) (q : Vec F S1x300 .f32) :
    stepQ8 x0 x1 x2 x3 x4 x5 q = k8_pay2 (k8_pay5 x0 x1 x2 x3 x4 x5) q := by
  unfold stepQ8; rw [canon8_e, z8_eq, ld8_e]
theorem zeroS8_eq : zeroS8 (F := F) = k8_pay3 (F := F) := by unfold zeroS8; rw [canon8_e]
theorem zeroQ8_eq : zeroQ8 (F := F) = k8_pay4 (F := F) := by unfold zeroQ8; rw [canon8_e]
theorem out8_7_eq (s : Vec F S1x300 .f32) : out8_7 s = s := by
  unfold out8_7; rw [canon8_e, ld8_e]

/-- THE ACCUMULATION: scratch 0 after the body at position `n` — the add over the reset at the first point, over
    what the point before left at every later one. -/
def accS8 (c : Dev nD) : (n : ℕ) → n < cfg8.N → Vec F S1x300 .f32
  | 0, hn => stepS8 (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩) (zeroS8 (F := F))
  | n + 1, hn => stepS8 (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (accS8 c n (Nat.lt_of_succ_lt hn))

/-- and scratch 1. -/
def accQ8 (c : Dev nD) : (n : ℕ) → n < cfg8.N → Vec F S1x300 .f32
  | 0, hn => stepQ8 (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩) (zeroQ8 (F := F))
  | n + 1, hn => stepQ8 (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (accQ8 c n (Nat.lt_of_succ_lt hn))

theorem accS8_zero (c : Dev nD) (hn : 0 < cfg8.N) :
    accS8 V c 0 hn = stepS8 (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩) (zeroS8 (F := F)) := rfl
theorem accS8_succ (c : Dev nD) (n : ℕ) (hn : n + 1 < cfg8.N) :
    accS8 V c (n + 1) hn = stepS8 (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (accS8 V c n (Nat.lt_of_succ_lt hn)) := rfl
theorem accQ8_zero (c : Dev nD) (hn : 0 < cfg8.N) :
    accQ8 V c 0 hn = stepQ8 (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩) (zeroQ8 (F := F)) := rfl
theorem accQ8_succ (c : Dev nD) (n : ℕ) (hn : n + 1 < cfg8.N) :
    accQ8 V c (n + 1) hn = stepQ8 (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (accQ8 V c n (Nat.lt_of_succ_lt hn)) := rfl

/-- The accumulators at the first point, and at a later one over what the point before left. -/
theorem accS8_A (c : Dev nD) (t : Fin cfg8.N) (hz : t.val = 0) :
    accS8 V c t.val t.isLt = stepS8 (iblk8 V c 0 t) (iblk8 V c 1 t) (iblk8 V c 2 t) (iblk8 V c 3 t) (iblk8 V c 4 t) (iblk8 V c 5 t) (zeroS8 (F := F)) := by
  obtain ⟨n, hn⟩ := t
  cases n with
  | zero => rfl
  | succ n => exact absurd hz (Nat.succ_ne_zero n)
theorem accS8_B (c : Dev nD) (t : Fin cfg8.N) (hz : t.val ≠ 0) :
    accS8 V c t.val t.isLt = stepS8 (iblk8 V c 0 t) (iblk8 V c 1 t) (iblk8 V c 2 t) (iblk8 V c 3 t) (iblk8 V c 4 t) (iblk8 V c 5 t) (accS8 V c (t.val - 1) (Nat.lt_of_le_of_lt (Nat.sub_le _ _) t.isLt)) := by
  obtain ⟨n, hn⟩ := t
  cases n with
  | zero => exact absurd rfl hz
  | succ n => rfl
theorem accQ8_A (c : Dev nD) (t : Fin cfg8.N) (hz : t.val = 0) :
    accQ8 V c t.val t.isLt = stepQ8 (iblk8 V c 0 t) (iblk8 V c 1 t) (iblk8 V c 2 t) (iblk8 V c 3 t) (iblk8 V c 4 t) (iblk8 V c 5 t) (zeroQ8 (F := F)) := by
  obtain ⟨n, hn⟩ := t
  cases n with
  | zero => rfl
  | succ n => exact absurd hz (Nat.succ_ne_zero n)
theorem accQ8_B (c : Dev nD) (t : Fin cfg8.N) (hz : t.val ≠ 0) :
    accQ8 V c t.val t.isLt = stepQ8 (iblk8 V c 0 t) (iblk8 V c 1 t) (iblk8 V c 2 t) (iblk8 V c 3 t) (iblk8 V c 4 t) (iblk8 V c 5 t) (accQ8 V c (t.val - 1) (Nat.lt_of_le_of_lt (Nat.sub_le _ _) t.isLt)) := by
  obtain ⟨n, hn⟩ := t
  cases n with
  | zero => exact absurd rfl hz
  | succ n => rfl

/-! ## The body's branch conditions -/

/-- The condition of the reset (`pl.when` on the first point), from the grid coordinates (the skeleton's scalar chain). -/
abbrev cond8_0 (i : grid8.Coords) : Prop := (Scalar.cmpi .ne (Scalar.extui (Scalar.cmpi .eq (BitVec.ofNat 32 (i 0).val) 0#32)) 0#32) = 1#1
/-- It holds at the first point only — decided over the grid. -/
theorem hcond8_0 : ∀ t : Fin cfg8.N, cond8_0 (grid8.coords t) ↔ t.val % 50 = 0 :=
  (by decide +kernel : ∀ t : Fin grid8.N, cond8_0 (grid8.coords t) ↔ t.val % 50 = 0)
/-- The condition of the copy out (`pl.when` on the last point). -/
abbrev cond8_1 (i : grid8.Coords) : Prop := k8_cond2 i = 1#1
/-- It holds at the last point only — decided over the grid. -/
theorem hcond8_1 : ∀ t : Fin cfg8.N, cond8_1 (grid8.coords t) ↔ t.val % 50 = 49 :=
  (by decide +kernel : ∀ t : Fin grid8.N, cond8_1 (grid8.coords t) ↔ t.val % 50 = 49)

/-! ## The body's stores cover the buffers they write (each is of the whole buffer) -/

theorem cover8_a (p0 : Vec F S1000x300 .f32) (y : S1000x300.Idx) :
    ∃ pc ∈ ([⟨r8_a, p0⟩] : List (View.Piece (Elt F) S1000x300 .f32)), y ∈ pc.1.set :=
  View.cover_of_tiled [⟨r8_a, p0⟩] S1000x300.size (by rfl) y
theorem cover8_e (p0 : Vec F S1x300 .f32) (y : S1x300.Idx) :
    ∃ pc ∈ ([⟨r8_e, p0⟩] : List (View.Piece (Elt F) S1x300 .f32)), y ∈ pc.1.set :=
  View.cover_of_tiled [⟨r8_e, p0⟩] S1x300.size (by rfl) y

theorem cover8_e_cons (p0 : Vec F S1x300 .f32) (L : List (View.Piece (Elt F) S1x300 .f32)) (y : S1x300.Idx) :
    ∃ pc ∈ ((⟨r8_e, p0⟩ :: L) : List (View.Piece (Elt F) S1x300 .f32)), y ∈ pc.1.set := by
  obtain ⟨pc, hpc, hy⟩ := cover8_e p0 y
  exact ⟨pc, List.mem_cons.mpr (Or.inl (List.mem_singleton.mp hpc)), hy⟩

/-! ## Where outputs 7 and 8 are idle: everywhere but at the last point, which alone writes them back -/

theorem idleAt8_7 : ∀ t : Fin cfg8.N, ¬cond8_1 (grid8.coords t) → cfg8.idle 7 (grid8.coords t) = true := by decide +kernel
theorem noFlush8_7 : ∀ t : Fin cfg8.N, ¬cond8_1 (grid8.coords t) → (cfg8.win 7).flush t = false := by decide +kernel
theorem liveAt8_7 : ∀ t : Fin cfg8.N, cond8_1 (grid8.coords t) → cfg8.idle 7 (grid8.coords t) = false := by decide +kernel
theorem idleAt8_8 : ∀ t : Fin cfg8.N, ¬cond8_1 (grid8.coords t) → cfg8.idle 8 (grid8.coords t) = true := by decide +kernel
theorem noFlush8_8 : ∀ t : Fin cfg8.N, ¬cond8_1 (grid8.coords t) → (cfg8.win 8).flush t = false := by decide +kernel
theorem liveAt8_8 : ∀ t : Fin cfg8.N, cond8_1 (grid8.coords t) → cfg8.idle 8 (grid8.coords t) = false := by decide +kernel

set_option maxHeartbeats 2000000 in
/-- The body at the first point: the two scratch accumulators, at anything, are reset and stepped. -/
theorem sound_kernel8_A (c : Dev nD) (E : Set ℕ) (i : grid8.Coords) (arg1 : Memref sig .tc .vmem S1000x300 .f32) (harg1 : arg1.IsWhole) (arg2 : Memref sig .tc .vmem S1000x300 .f32) (harg2 : arg2.IsWhole) (arg3 : Memref sig .tc .vmem S300x600 .f32) (harg3 : arg3.IsWhole) (arg4 : Memref sig .tc .vmem S1x600 .f32) (harg4 : arg4.IsWhole) (arg5 : Memref sig .tc .vmem S600x300 .f32) (harg5 : arg5.IsWhole) (arg6 : Memref sig .tc .vmem S1x300 .f32) (harg6 : arg6.IsWhole) (arg7 : Memref sig .tc .vmem S1000x300 .f32) (harg7 : arg7.IsWhole) (arg8 : Memref sig .tc .vmem S1x300 .f32) (harg8 : arg8.IsWhole) (arg9 : Memref sig .tc .vmem S1x300 .f32) (harg9 : arg9.IsWhole) (arg10 : Memref sig .tc .vmem S1x300 .f32) (harg10 : arg10.IsWhole) (arg11 : Memref sig .tc .vmem S1x300 .f32) (harg11 : arg11.IsWhole)
    (hc0 : cond8_0 i) (hc1 : ¬cond8_1 i) (x0 x1 : Vec F S1000x300 .f32) (x2 : Vec F S300x600 .f32) (x3 : Vec F S1x600 .f32) (x4 : Vec F S600x300 .f32) (x5 : Vec F S1x300 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out8_6 x0 x1 x2 x3 x4 x5)
            ∗ owns (c : Thread nD τ) arg10 fullShare (stepS8 x0 x1 x2 x3 x4 x5 (zeroS8 (F := F))) ∗ owns (c : Thread nD τ) arg11 fullShare (stepQ8 x0 x1 x2 x3 x4 x5 (zeroQ8 (F := F)))) -∗ K ⟨⟩))
      ⊢ wp frame (wpE (defs₀ (F := F)) Variants.none c none) E (cc8__mlp_kernel i arg1 harg1 arg2 harg2 arg3 harg3 arg4 harg4 arg5 harg5 arg6 harg6 arg7 harg7 arg8 harg8 arg9 harg9 arg10 harg10 arg11 harg11) K := by
  simp only [cc8__mlp_kernel_eq_skeleton]; unfold cc8__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, ⟨%dq, %fq, -, HQ⟩, Hk⟩
  subst hf0 hf1 hf2 hf3 hf4 hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover8_a _)
  isplitl [HS]
  · iexists _; isplitr
    swap; · iexact HS
    ipureintro
    sl_unfold_run_names
    try rw [View.readCov_eq_canon_ld _ _ _ (cover8_e _)]
    exact (View.read_writes_eq_canon _ _ _ (cover8_e_cons _ _)).trans ((canon8_e _ _).trans (canon8_e _ []).symm)
  iexists _; isplitr
  swap; · iexact HQ
  ipureintro
  sl_unfold_run_names
  try rw [View.readCov_eq_canon_ld _ _ _ (cover8_e _)]
  exact (View.read_writes_eq_canon _ _ _ (cover8_e_cons _ _)).trans ((canon8_e _ _).trans (canon8_e _ []).symm)

set_option maxHeartbeats 2000000 in
/-- The body at a middle point (no reset, no copy out): the two scratch accumulators at `s`, `q` are stepped. -/
theorem sound_kernel8_B (c : Dev nD) (E : Set ℕ) (i : grid8.Coords) (arg1 : Memref sig .tc .vmem S1000x300 .f32) (harg1 : arg1.IsWhole) (arg2 : Memref sig .tc .vmem S1000x300 .f32) (harg2 : arg2.IsWhole) (arg3 : Memref sig .tc .vmem S300x600 .f32) (harg3 : arg3.IsWhole) (arg4 : Memref sig .tc .vmem S1x600 .f32) (harg4 : arg4.IsWhole) (arg5 : Memref sig .tc .vmem S600x300 .f32) (harg5 : arg5.IsWhole) (arg6 : Memref sig .tc .vmem S1x300 .f32) (harg6 : arg6.IsWhole) (arg7 : Memref sig .tc .vmem S1000x300 .f32) (harg7 : arg7.IsWhole) (arg8 : Memref sig .tc .vmem S1x300 .f32) (harg8 : arg8.IsWhole) (arg9 : Memref sig .tc .vmem S1x300 .f32) (harg9 : arg9.IsWhole) (arg10 : Memref sig .tc .vmem S1x300 .f32) (harg10 : arg10.IsWhole) (arg11 : Memref sig .tc .vmem S1x300 .f32) (harg11 : arg11.IsWhole)
    (hc0 : ¬cond8_0 i) (hc1 : ¬cond8_1 i) (x0 x1 : Vec F S1000x300 .f32) (x2 : Vec F S300x600 .f32) (x3 : Vec F S1x600 .f32) (x4 : Vec F S600x300 .f32) (x5 : Vec F S1x300 .f32) (s q : Vec F S1x300 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out8_6 x0 x1 x2 x3 x4 x5)
            ∗ owns (c : Thread nD τ) arg10 fullShare (stepS8 x0 x1 x2 x3 x4 x5 s) ∗ owns (c : Thread nD τ) arg11 fullShare (stepQ8 x0 x1 x2 x3 x4 x5 q)) -∗ K ⟨⟩))
      ⊢ wp frame (wpE (defs₀ (F := F)) Variants.none c none) E (cc8__mlp_kernel i arg1 harg1 arg2 harg2 arg3 harg3 arg4 harg4 arg5 harg5 arg6 harg6 arg7 harg7 arg8 harg8 arg9 harg9 arg10 harg10 arg11 harg11) K := by
  simp only [cc8__mlp_kernel_eq_skeleton]; unfold cc8__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, ⟨%fq, %hfq, HQ⟩, Hk⟩
  subst hf0 hf1 hf2 hf3 hf4 hf5 hfs hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover8_a _)
  isplitl [HS]
  · iexists _; isplitr
    swap; · iexact HS
    ipureintro
    exact View.read_writes_eq_canon _ _ _ (cover8_e _)
  iexists _; isplitr
  swap; · iexact HQ
  ipureintro
  exact View.read_writes_eq_canon _ _ _ (cover8_e _)

set_option maxHeartbeats 2000000 in
/-- The body at the last point: the two scratch accumulators at `s`, `q` are stepped and copied out to outputs 7 and 8. -/
theorem sound_kernel8_C (c : Dev nD) (E : Set ℕ) (i : grid8.Coords) (arg1 : Memref sig .tc .vmem S1000x300 .f32) (harg1 : arg1.IsWhole) (arg2 : Memref sig .tc .vmem S1000x300 .f32) (harg2 : arg2.IsWhole) (arg3 : Memref sig .tc .vmem S300x600 .f32) (harg3 : arg3.IsWhole) (arg4 : Memref sig .tc .vmem S1x600 .f32) (harg4 : arg4.IsWhole) (arg5 : Memref sig .tc .vmem S600x300 .f32) (harg5 : arg5.IsWhole) (arg6 : Memref sig .tc .vmem S1x300 .f32) (harg6 : arg6.IsWhole) (arg7 : Memref sig .tc .vmem S1000x300 .f32) (harg7 : arg7.IsWhole) (arg8 : Memref sig .tc .vmem S1x300 .f32) (harg8 : arg8.IsWhole) (arg9 : Memref sig .tc .vmem S1x300 .f32) (harg9 : arg9.IsWhole) (arg10 : Memref sig .tc .vmem S1x300 .f32) (harg10 : arg10.IsWhole) (arg11 : Memref sig .tc .vmem S1x300 .f32) (harg11 : arg11.IsWhole)
    (hc0 : ¬cond8_0 i) (hc1 : cond8_1 i) (x0 x1 : Vec F S1000x300 .f32) (x2 : Vec F S300x600 .f32) (x3 : Vec F S1x600 .f32) (x4 : Vec F S600x300 .f32) (x5 : Vec F S1x300 .f32) (s q : Vec F S1x300 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out8_6 x0 x1 x2 x3 x4 x5)
            ∗ owns (c : Thread nD τ) arg8 fullShare (out8_7 (stepS8 x0 x1 x2 x3 x4 x5 s)) ∗ owns (c : Thread nD τ) arg9 fullShare (out8_7 (stepQ8 x0 x1 x2 x3 x4 x5 q))
            ∗ owns (c : Thread nD τ) arg10 fullShare (stepS8 x0 x1 x2 x3 x4 x5 s) ∗ owns (c : Thread nD τ) arg11 fullShare (stepQ8 x0 x1 x2 x3 x4 x5 q)) -∗ K ⟨⟩))
      ⊢ wp frame (wpE (defs₀ (F := F)) Variants.none c none) E (cc8__mlp_kernel i arg1 harg1 arg2 harg2 arg3 harg3 arg4 harg4 arg5 harg5 arg6 harg6 arg7 harg7 arg8 harg8 arg9 harg9 arg10 harg10 arg11 harg11) K := by
  simp only [cc8__mlp_kernel_eq_skeleton]; unfold cc8__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs, %hfs, HS⟩, ⟨%fq, %hfq, HQ⟩, Hk⟩
  subst hf0 hf1 hf2 hf3 hf4 hf5 hfs hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover8_a _)
  isplitl [H7]
  · iexists _; isplitr
    swap; · iexact H7
    ipureintro
    sl_unfold_run_names
    try rw [View.readCov_eq_canon_ld _ _ _ (cover8_e _)]
    exact (View.read_writes_eq_canon _ _ _ (cover8_e_cons _ _)).trans ((canon8_e _ _).trans (canon8_e _ []).symm)
  isplitl [H8]
  · iexists _; isplitr
    swap; · iexact H8
    ipureintro
    sl_unfold_run_names
    try rw [View.readCov_eq_canon_ld _ _ _ (cover8_e _)]
    exact (View.read_writes_eq_canon _ _ _ (cover8_e_cons _ _)).trans ((canon8_e _ _).trans (canon8_e _ []).symm)
  isplitl [HS]
  · iexists _; isplitr
    swap; · iexact HS
    ipureintro
    sl_unfold_run_names
    try rw [View.readCov_eq_canon_ld _ _ _ (cover8_e _)]
    exact (View.read_writes_eq_canon _ _ _ (cover8_e_cons _ _)).trans ((canon8_e _ _).trans (canon8_e _ []).symm)
  iexists _; isplitr
  swap; · iexact HQ
  ipureintro
  sl_unfold_run_names
  try rw [View.readCov_eq_canon_ld _ _ _ (cover8_e _)]
  exact (View.read_writes_eq_canon _ _ _ (cover8_e_cons _ _)).trans ((canon8_e _ _).trans (canon8_e _ []).symm)

/-! ## The invariant: the two scratch accumulators tracked -/

/-- The scratch operands: whole scoped buffers of the kernel's own, passed beside the windows. -/
abbrev scM8_0 : Memref sig .tc .vmem S1x300 .f32 := Memref.whole cc8_scratch0
abbrev scM8_1 : Memref sig .tc .vmem S1x300 .f32 := Memref.whole cc8_scratch1

/-- Before the first point the class's invariant (every scratch at anything); afterwards the two scratch
    accumulators at what the point before left, the other scoped buffers unopened, the generator register at some state. -/
def PhiS8 (c : Dev nD) : (n : ℕ) → n ≤ cfg8.N → sProp 𝕄
  | 0, _ => Pipeline.ΦA spec8 c
  | n + 1, hn => iprop(iprop(iprop(owns (c : Thread nD τ) scM8_0 fullShare (accS8 V c n hn) ∗ owns (c : Thread nD τ) scM8_1 fullShare (accQ8 V c n hn))
      ∗ Pipeline.scopedRestBut (Ix := Unit) (Name := ℕ) (U := UR sig nD τ) (Lvl := ℕ) (Val := Elt F) spec8 c [cc8_scratch0, cc8_scratch1]) ∗ (∃ r, prngReg c r))

theorem PhiS8_zero (c : Dev nD) (n : ℕ) (h : n ≤ cfg8.N) (hz : n = 0) : PhiS8 V c n h = Pipeline.ΦA spec8 c := by
  subst hz; rfl

/-- After point `n` (before point `n + 1`): the accumulators at that point's contents. -/
theorem PhiS8_succ (c : Dev nD) (n : ℕ) (hn : n < cfg8.N) :
    PhiS8 V c (n + 1) hn = iprop(iprop(iprop(owns (c : Thread nD τ) scM8_0 fullShare (accS8 V c n hn) ∗ owns (c : Thread nD τ) scM8_1 fullShare (accQ8 V c n hn))
      ∗ Pipeline.scopedRestBut (Ix := Unit) (Name := ℕ) (U := UR sig nD τ) (Lvl := ℕ) (Val := Elt F) spec8 c [cc8_scratch0, cc8_scratch1]) ∗ (∃ r, prngReg c r)) := rfl

/-- Before a point that is not the first: the accumulators at what the point before left. -/
theorem PhiS8_pos (c : Dev nD) (n : ℕ) (h : n ≤ cfg8.N) (hz : n ≠ 0) :
    PhiS8 V c n h = iprop(iprop(iprop(owns (c : Thread nD τ) scM8_0 fullShare (accS8 V c (n - 1) (by omega)) ∗ owns (c : Thread nD τ) scM8_1 fullShare (accQ8 V c (n - 1) (by omega)))
      ∗ Pipeline.scopedRestBut (Ix := Unit) (Name := ℕ) (U := UR sig nD τ) (Lvl := ℕ) (Val := Elt F) spec8 c [cc8_scratch0, cc8_scratch1]) ∗ (∃ r, prngReg c r)) := by
  cases n with
  | zero => exact absurd rfl hz
  | succ n => rfl

/-- The class's invariant with the two scratch operands split out of the scoped rest as memrefs owned at some contents. -/
theorem PhiA8_eq (c : Dev nD) :
    (Pipeline.ΦA spec8 c : sProp 𝕄)
      = iprop(iprop(iprop((∃ d, owns (c : Thread nD τ) scM8_0 fullShare d) ∗ (∃ d, owns (c : Thread nD τ) scM8_1 fullShare d))
          ∗ Pipeline.scopedRestBut (Ix := Unit) (Name := ℕ) (U := UR sig nD τ) (Lvl := ℕ) (Val := Elt F) spec8 c [cc8_scratch0, cc8_scratch1]) ∗ (∃ r, prngReg c r)) := by
  unfold Pipeline.ΦA; rw [scopedRest8_split]; simp only [scM8_0, scM8_1, owns_whole]; try rfl

/-! ## The pipeline's proof data -/

/-- The proof data of pipeline 8 on core `c`: the arrays as the region finds them (`V`); after the body at point `t`
    each input's buffer at its block, output 6's at the z block of the input blocks, outputs 7 and 8's at the copies of
    the accumulators (consulted at the last point only: the windows are idle before it); the invariant tracks the two
    scratch accumulators (`PhiS8`); nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (iblk8 V c 0 t) (iblk8 V c 1 t) (iblk8 V c 2 t) (iblk8 V c 3 t) (iblk8 V c 4 t) (iblk8 V c 5 t)
    | ⟨7, _⟩ => out8_7 (accS8 V c t.val t.isLt)
    | ⟨8, _⟩ => out8_7 (accQ8 V c t.val t.isLt)
  Φ t := PhiS8 V c t.val (Nat.le_of_lt_succ t.isLt)
  q _ := fullShare
  owed _ := 0

/-- The proof data's arrays are the region-entry contents (the proof data's definition projected, by `dsimp`). -/
theorem A_eq8 (c : Dev nD) (w : Fin cfg8.W) : (dat8 V c).A w = V c (Pipeline.arrRef spec8 w) := by
  dsimp only [dat8]

/-- The invariant at a point's start (the proof data at `t.castSucc`), restated at `t.val`. -/
theorem PhiS8_castSucc (c : Dev nD) (t : Fin cfg8.N) :
    (dat8 V c).Φ t.castSucc = PhiS8 V c t.val (Nat.le_of_lt t.isLt) := by
  dsimp only [dat8]; simp only [Fin.coe_castSucc]

/-- What the body leaves, window by window (the proof data's `match` reduced by `dsimp`). -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = out8_6 (iblk8 V c 0 t) (iblk8 V c 1 t) (iblk8 V c 2 t) (iblk8 V c 3 t) (iblk8 V c 4 t) (iblk8 V c 5 t) := by dsimp only [dat8]
theorem after8_7 (c : Dev nD) (t : Fin cfg8.N) : (dat8 V c).after 7 t = out8_7 (accS8 V c t.val t.isLt) := by dsimp only [dat8]
theorem after8_8 (c : Dev nD) (t : Fin cfg8.N) : (dat8 V c).after 8 t = out8_7 (accQ8 V c t.val t.isLt) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d

/-- Windows 0 to 6 are never idle: the body's post for them is the buffer at what the body leaves. -/
theorem leaves8_0 (c : Dev nD) (t : Fin cfg8.N) :
    (dat8 V c).leavesExact 0 t = owns (c : Thread nD τ) (st8_0 t) fullShare ((dat8 V c).after 0 t) := rfl
theorem leaves8_1 (c : Dev nD) (t : Fin cfg8.N) :
    (dat8 V c).leavesExact 1 t = owns (c : Thread nD τ) (st8_1 t) fullShare ((dat8 V c).after 1 t) := rfl
theorem leaves8_2 (c : Dev nD) (t : Fin cfg8.N) :
    (dat8 V c).leavesExact 2 t = owns (c : Thread nD τ) (st8_2 t) fullShare ((dat8 V c).after 2 t) := rfl
theorem leaves8_3 (c : Dev nD) (t : Fin cfg8.N) :
    (dat8 V c).leavesExact 3 t = owns (c : Thread nD τ) (st8_3 t) fullShare ((dat8 V c).after 3 t) := rfl
theorem leaves8_4 (c : Dev nD) (t : Fin cfg8.N) :
    (dat8 V c).leavesExact 4 t = owns (c : Thread nD τ) (st8_4 t) fullShare ((dat8 V c).after 4 t) := rfl
theorem leaves8_5 (c : Dev nD) (t : Fin cfg8.N) :
    (dat8 V c).leavesExact 5 t = owns (c : Thread nD τ) (st8_5 t) fullShare ((dat8 V c).after 5 t) := rfl
theorem leaves8_6 (c : Dev nD) (t : Fin cfg8.N) :
    (dat8 V c).leavesExact 6 t = owns (c : Thread nD τ) (st8_6 t) fullShare ((dat8 V c).after 6 t) := rfl

/-! ## The body obligation, at a generic point -/

/-- What the body is called with at point `t` (the library's body obligation's precondition, the windows one by one), -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t
    ∗ (dat8 V c).leavesExact 4 t
    ∗ (dat8 V c).leavesExact 5 t
    ∗ (dat8 V c).leavesExact 6 t
    ∗ (dat8 V c).leavesExact 7 t
    ∗ (dat8 V c).leavesExact 8 t)

set_option maxHeartbeats 4000000 in
/-- The body at any point: the inputs' memrefs hold their blocks; the closed forms say which of the three control cases
    the point is in; the invariant hands the body the two scratch accumulators at what the point before left (at anything
    at the first point) and takes them back at this point's contents; outputs 7 and 8 pass through untouched where they
    are idle and are handed back at the copies at the last point; the core owes nothing throughout. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  rw [show (dat8 V c).owesAt () t.succ = (dat8 V c).owesAt () t.castSucc from rfl]
  rw [show (dat8 V c).Φ t.succ = PhiS8 V c (t.val + 1) t.isLt from rfl, PhiS8_succ]
  rw [leaves8_0, leaves8_1, leaves8_2, leaves8_3, leaves8_4, leaves8_5, leaves8_6,
    after8_0, after8_1, after8_2, after8_3, after8_4, after8_5, after8_6]
  have hN : t.val < 50 := lt_of_lt_of_eq t.isLt (show cfg8.N = 50 from N_8)
  by_cases h0 : t.val % 50 = 0
  · by_cases h1 : t.val % 50 = 49
    · exfalso; omega
    · have hc0 : cond8_0 (grid8.coords t) := (hcond8_0 t).mpr h0
      have hc1 : ¬cond8_1 (grid8.coords t) := fun h => h1 ((hcond8_1 t).mp h)
      have hz : t.val = 0 := by omega
      rw [Dat.leavesExact_idle (dat8 V c) 7 t (idleAt8_7 t hc1) (noFlush8_7 t hc1),
        Dat.leavesExact_idle (dat8 V c) 8 t (idleAt8_8 t hc1) (noFlush8_8 t hc1)]
      rw [accS8_A V c t hz, accQ8_A V c t hz]
      rw [PhiS8_castSucc V c t, PhiS8_zero V c _ _ hz, PhiA8_eq]
      iintro ⟨⟨⟨⟨HS, HQ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel8_A c Set.univ (grid8.coords t) _ _ _ _ _ _ _ _ _ _ _ _ _ _ _ _ _ _ _ _ _ _ hc0 hc1 (iblk8 V c 0 t) (iblk8 V c 1 t) (iblk8 V c 2 t) (iblk8 V c 3 t) (iblk8 V c 4 t) (iblk8 V c 5 t) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      isplitl [HQ]; · iexact HQ
      iintro ⟨H0, H1, H2, H3, H4, H5, H6, HS, HQ⟩
      isplitl [HS HQ HR Hg]
      · isplitl [HS HQ HR]
        · isplitl [HS HQ]
          · isplitl [HS]; · iexact HS
            iexact HQ
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
  · have hc0 : ¬cond8_0 (grid8.coords t) := fun h => h0 ((hcond8_0 t).mp h)
    have hz : t.val ≠ 0 := fun e => h0 (by rw [e])
    rw [accS8_B V c t hz, accQ8_B V c t hz]
    rw [PhiS8_castSucc V c t, PhiS8_pos V c _ _ hz]
    by_cases h1 : t.val % 50 = 49
    · have hc1 : cond8_1 (grid8.coords t) := (hcond8_1 t).mpr h1
      rw [show (dat8 V c).leavesExact 7 t = owns (c : Thread nD τ) (st8_7 t) fullShare ((dat8 V c).after 7 t) from by
        unfold Dat.leavesExact; rw [liveAt8_7 t hc1], after8_7]
      rw [show (dat8 V c).leavesExact 8 t = owns (c : Thread nD τ) (st8_8 t) fullShare ((dat8 V c).after 8 t) from by
        unfold Dat.leavesExact; rw [liveAt8_8 t hc1], after8_8]
      rw [accS8_B V c t hz, accQ8_B V c t hz]
      iintro ⟨⟨⟨⟨HS, HQ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel8_C c Set.univ (grid8.coords t) _ _ _ _ _ _ _ _ _ _ _ _ _ _ _ _ _ _ _ _ _ _ hc0 hc1 (iblk8 V c 0 t) (iblk8 V c 1 t) (iblk8 V c 2 t) (iblk8 V c 3 t) (iblk8 V c 4 t) (iblk8 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS]; · iexact HS
      isplitl [HQ]; · iexact HQ
      iintro ⟨H0, H1, H2, H3, H4, H5, H6, H7, H8, HS, HQ⟩
      isplitl [HS HQ HR Hg]
      · isplitl [HS HQ HR]
        · isplitl [HS HQ]
          · isplitl [HS]; · iexact HS
            iexact HQ
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬cond8_1 (grid8.coords t) := fun h => h1 ((hcond8_1 t).mp h)
      rw [Dat.leavesExact_idle (dat8 V c) 7 t (idleAt8_7 t hc1) (noFlush8_7 t hc1),
        Dat.leavesExact_idle (dat8 V c) 8 t (idleAt8_8 t hc1) (noFlush8_8 t hc1)]
      iintro ⟨⟨⟨⟨HS, HQ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel8_B c Set.univ (grid8.coords t) _ _ _ _ _ _ _ _ _ _ _ _ _ _ _ _ _ _ _ _ _ _ hc0 hc1 (iblk8 V c 0 t) (iblk8 V c 1 t) (iblk8 V c 2 t) (iblk8 V c 3 t) (iblk8 V c 4 t) (iblk8 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      isplitl [HQ]; · iexact HQ
      iintro ⟨H0, H1, H2, H3, H4, H5, H6, HS, HQ⟩
      isplitl [HS HQ HR Hg]
      · isplitl [HS HQ HR]
        · isplitl [HS HQ]
          · isplitl [HS]; · iexact HS
            iexact HQ
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

/-- The library's body obligation, at every point. -/
theorem body_obligation8 (c : Dev nD) : BodyObligation (dat8 (F := F) V c) (defs₀ (F := F)) Variants.none () Set.univ := fun t => by
  rw [bigSep_W8, bigSep_W8]
  exact sound_body8 V c t

/-- What the launch hands the region (the class's invariant) is the invariant before the first point. -/
theorem PhiIn8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

/-- After the last point the invariant gives the class's back: the accumulators' named contents are forgotten. -/
theorem PhiOut8 (c : Dev nD) : (dat8 V c).Φ (Fin.last _) ⊢ Pipeline.ΦA spec8 c := by
  rw [show (dat8 V c).Φ (Fin.last cfg8.N) = PhiS8 V c (Fin.last cfg8.N).val (Nat.le_of_lt_succ (Fin.last cfg8.N).isLt) from rfl,
    PhiS8_pos V c _ _ (by rw [Fin.val_last]; have : cfg8.N = 50 := N_8; omega), PhiA8_eq]
  iintro ⟨⟨⟨HS, HQ⟩, HR⟩, Hg⟩
  isplitl [HS HQ HR]
  · isplitl [HS HQ]
    · isplitl [HS]; · iexists _; iexact HS
      iexists _; iexact HQ
    iexact HR
  iexact Hg

/-- The last point. -/
abbrev tLast8 : Fin cfg8.N := ⟨49, by decide⟩

/-! ## The arrays of outputs 7 and 8 after the region -/

/-- Output 7's one block is its whole array: at the last point its offsets are zero and its extents the array's. -/
theorem whole8_7_off : ∀ a, win8_7.index tLast8 a * win8_7.size a = 0 := by decide +kernel
theorem whole8_7_size : ∀ a, win8_7.xsize (grid8.coords tLast8) a = S1x300.size a := by decide +kernel

/-- The one write-back of output 7, at the last point, writes its whole array. -/
theorem flushed8_7 (c : Dev nD) (t : Fin cfg8.N) (hf : (cfg8.win 7).flush t = true) :
    (dat8 V c).flushed 7 t
      = ((cfg8.win 7).blk t).view.read (Elt F) (out8_7 (accS8 V c 49 (by decide)) : Buf (Elt F) ((c : Thread nD τ).loc (Pipeline.arrRef spec8 7))) := by
  have hN : cfg8.N = 50 := N_8
  have h49 : t.val = 49 := by have := (flush8_7 t).mp hf; have := t.isLt; omega
  obtain rfl : t = tLast8 := Fin.ext h49
  show (cfg8.win 7).cut (grid8.coords tLast8) ((dat8 V c).after 7 tLast8) = _
  rw [after8_7]
  exact (Memref.read_access_unit_zero (Elt F) (Pipeline.arrRef spec8 7) (funext whole8_7_off)
    (fun a => by show win8_7.index tLast8 a * win8_7.size a + S1x300.size a ≤ S1x300.size a; rw [whole8_7_off a, Nat.zero_add]) _).symm

/-- So after the region output 7's array holds the copy of the accumulator as the last point left it. -/
theorem arrAt8_7 (c : Dev nD) : (dat8 V c).arrAt 7 cfg8.N = out8_7 (accS8 V c 49 (by decide)) :=
  (dat8 V c).arrAt_eq_of_cover 7 _ (flushed8_7 V c) fun i =>
    ⟨tLast8, (flush8_7 tLast8).mpr rfl, by
      show i ∈ ((View.whole (Pipeline.arrRef spec8 7)).slice (win8_7.rect tLast8)).set
      rw [View.set_slice_whole, Rect.mem_set_unit]
      intro a
      show win8_7.index tLast8 a * win8_7.size a ≤ (i a : Nat)
        ∧ (i a : Nat) < win8_7.index tLast8 a * win8_7.size a + win8_7.xsize (grid8.coords tLast8) a
      rw [whole8_7_off a, whole8_7_size a, Nat.zero_add]
      exact ⟨Nat.zero_le _, (i a).isLt⟩⟩

/-- Output 8's one block is its whole array: at the last point its offsets are zero and its extents the array's. -/
theorem whole8_8_off : ∀ a, win8_8.index tLast8 a * win8_8.size a = 0 := by decide +kernel
theorem whole8_8_size : ∀ a, win8_8.xsize (grid8.coords tLast8) a = S1x300.size a := by decide +kernel

/-- The one write-back of output 8, at the last point, writes its whole array. -/
theorem flushed8_8 (c : Dev nD) (t : Fin cfg8.N) (hf : (cfg8.win 8).flush t = true) :
    (dat8 V c).flushed 8 t
      = ((cfg8.win 8).blk t).view.read (Elt F) (out8_7 (accQ8 V c 49 (by decide)) : Buf (Elt F) ((c : Thread nD τ).loc (Pipeline.arrRef spec8 8))) := by
  have hN : cfg8.N = 50 := N_8
  have h49 : t.val = 49 := by have := (flush8_8 t).mp hf; have := t.isLt; omega
  obtain rfl : t = tLast8 := Fin.ext h49
  show (cfg8.win 8).cut (grid8.coords tLast8) ((dat8 V c).after 8 tLast8) = _
  rw [after8_8]
  exact (Memref.read_access_unit_zero (Elt F) (Pipeline.arrRef spec8 8) (funext whole8_8_off)
    (fun a => by show win8_8.index tLast8 a * win8_8.size a + S1x300.size a ≤ S1x300.size a; rw [whole8_8_off a, Nat.zero_add]) _).symm

/-- So after the region output 8's array holds the copy of the accumulator as the last point left it. -/
theorem arrAt8_8 (c : Dev nD) : (dat8 V c).arrAt 8 cfg8.N = out8_7 (accQ8 V c 49 (by decide)) :=
  (dat8 V c).arrAt_eq_of_cover 8 _ (flushed8_8 V c) fun i =>
    ⟨tLast8, (flush8_8 tLast8).mpr rfl, by
      show i ∈ ((View.whole (Pipeline.arrRef spec8 8)).slice (win8_8.rect tLast8)).set
      rw [View.set_slice_whole, Rect.mem_set_unit]
      intro a
      show win8_8.index tLast8 a * win8_8.size a ≤ (i a : Nat)
        ∧ (i a : Nat) < win8_8.index tLast8 a * win8_8.size a + win8_8.xsize (grid8.coords tLast8) a
      rw [whole8_8_off a, whole8_8_size a, Nat.zero_add]
      exact ⟨Nat.zero_le _, (i a).isLt⟩⟩

end Cert.KernelIdeal.Hand

end
-- ==== Proof.KI.RegBn9.lean ====
import proofs.«409348_j89627377533173_1_alg».proof.Proof.Gen.KernelIdeal.Launch
import proofs.«409348_j89627377533173_1_alg».proof.Proof.Gen.KernelIdeal.Skeleton
import proofs.«409348_j89627377533173_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

/-! # Region 9 (`cc9__bn_relu_kernel`, pipeline 9): the frame half, at any float model

A pointwise body over a grid of 25 points. Window 0 (the 2000x300 block of `z` at row block `t`) is fetched at every
point; the four row windows after it (mean, var, gamma, beta, each one row of 300) have a constant block index and are fetched once; window 5
is the output block, written back at every point. The body loads the five inputs whole, loads the output buffer (a value
it does not use), and stores one payload over the whole output buffer. So what it leaves in the output buffer is a
closed function of the five input blocks at the point, and it keeps nothing from point to point. -/

-- membership in a rectangle with a 2000-long axis recurses once per coordinate of that axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not, for any proof
    data whose array is `V`'s (`hA`) and whose body leaves the block in place (`hafter`): an unfetched point has the
    block index of the point before, and the window is uncut and never idle. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not, for any proof
    data whose array is `V`'s (`hA`) and whose body leaves the block in place (`hafter`): an unfetched point has the
    block index of the point before, and the window is uncut and never idle. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not, for any proof
    data whose array is `V`'s (`hA`) and whose body leaves the block in place (`hafter`): an unfetched point has the
    block index of the point before, and the window is uncut and never idle. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's current staging buffer holds its block at every point, fetched there or not, for any proof
    data whose array is `V`'s (`hA`) and whose body leaves the block in place (`hafter`): an unfetched point has the
    block index of the point before, and the window is uncut and never idle. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4's current staging buffer holds its block at every point, fetched there or not, for any proof
    data whose array is `V`'s (`hA`) and whose body leaves the block in place (`hafter`): an unfetched point has the
    block index of the point before, and the window is uncut and never idle. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses -/

/-- The whole 2000x300 staging buffer (the load of window 0 and the one store into window 5). -/
abbrev r9_0 : Rect S2000x300 := Rect.unit (s := S2000x300) ![0, 0] S2000x300.size inb_S2000x300_S2000x300_0_0
/-- The whole 1x300 staging buffer (the loads of the four row windows). -/
abbrev r9_1 : Rect S1x300 := Rect.unit (s := S1x300) ![0, 0] S1x300.size inb_S1x300_S1x300_0_0

/-! ## What the body leaves in the output window's buffer -/

/-- Window 5's staging buffer after the body, from the input windows' blocks `xz xm xv xg xb` (in window order: z, mean, var,
    gamma, beta): its one store as a piece. The payload takes the loads in the order the body makes them: z, var, mean,
    gamma, beta. -/
def out9_5 (xz : Vec F S2000x300 .f32) (xm xv xg xb : Vec F S1x300 .f32) : Vec F S2000x300 .f32 :=
  View.canon [⟨r9_0, k9_pay1 (View.ld xz r9_0) (View.ld xv r9_1) (View.ld xm r9_1) (View.ld xg r9_1) (View.ld xb r9_1)⟩]

/-- The one store is the whole buffer, so it covers it. -/
theorem cover9_5 (p : Vec F S2000x300 .f32) (y : S2000x300.Idx) :
    ∃ pc ∈ ([⟨r9_0, p⟩] : List (View.Piece (Elt F) S2000x300 .f32)), y ∈ pc.1.set :=
  View.cover_of_tiled [⟨r9_0, p⟩] S2000x300.size (by rfl) y

/-! ## The body's triple -/

set_option maxHeartbeats 1000000 in
/-- The kernel body on whole staging memrefs, the inputs' at read contents `xz xm xv xg xb` and the output's at anything, runs to
    the continuation holding the inputs' as they were and the output's at `out9_5` of the inputs'. -/
theorem sound_kernel9 (c : Dev nD) (E : Set ℕ) (i : grid9.Coords) (Az : Memref sig .tc .vmem S2000x300 .f32) (hAz : Az.IsWhole) (Am : Memref sig .tc .vmem S1x300 .f32) (hAm : Am.IsWhole) (Av : Memref sig .tc .vmem S1x300 .f32) (hAv : Av.IsWhole) (Ag : Memref sig .tc .vmem S1x300 .f32) (hAg : Ag.IsWhole) (Ab : Memref sig .tc .vmem S1x300 .f32) (hAb : Ab.IsWhole) (Ay : Memref sig .tc .vmem S2000x300 .f32) (hAy : Ay.IsWhole)
    (xz : Vec F S2000x300 .f32) (xm xv xg xb : Vec F S1x300 .f32) (K : PUnit → sProp 𝕄) :
    iprop(owns (c : Thread nD τ) Az fullShare xz ∗ owns (c : Thread nD τ) Am fullShare xm ∗ owns (c : Thread nD τ) Av fullShare xv ∗ owns (c : Thread nD τ) Ag fullShare xg ∗ owns (c : Thread nD τ) Ab fullShare xb
        ∗ (∃ d, owns (c : Thread nD τ) Ay fullShare d)
        ∗ (iprop(owns (c : Thread nD τ) Az fullShare xz ∗ owns (c : Thread nD τ) Am fullShare xm ∗ owns (c : Thread nD τ) Av fullShare xv ∗ owns (c : Thread nD τ) Ag fullShare xg ∗ owns (c : Thread nD τ) Ab fullShare xb
            ∗ owns (c : Thread nD τ) Ay fullShare (out9_5 xz xm xv xg xb)) -∗ K ⟨⟩))
      ⊢ wp frame (wpE (defs₀ (F := F)) Variants.none c none) E (cc9__bn_relu_kernel i Az hAz Am hAm Av hAv Ag hAg Ab hAb Ay hAy) K := by
  simp only [cc9__bn_relu_kernel_eq_skeleton]; unfold cc9__bn_relu_kernel_skel
  unfold owns
  iintro ⟨⟨%fz, %hfz, Hz⟩, ⟨%fm, %hfm, Hm⟩, ⟨%fv, %hfv, Hv⟩, ⟨%fg, %hfg, Hg⟩, ⟨%fb, %hfb, Hb⟩, ⟨%dy, %fy, -, Hy⟩, Hk⟩
  subst hfz hfm hfv hfg hfb
  sl_exec
  sl_step
  iapply Hk
  isplitl [Hz]
  · iexists fz; isplitr; · ipureintro; rfl
    iexact Hz
  isplitl [Hm]
  · iexists fm; isplitr; · ipureintro; rfl
    iexact Hm
  isplitl [Hv]
  · iexists fv; isplitr; · ipureintro; rfl
    iexact Hv
  isplitl [Hg]
  · iexists fg; isplitr; · ipureintro; rfl
    iexact Hg
  isplitl [Hb]
  · iexists fb; isplitr; · ipureintro; rfl
    iexact Hb
  iexists _; isplitr
  swap; · iexact Hy
  ipureintro
  exact View.read_writes_eq_canon _ _ _ (cover9_5 _)

/-! ## The pipeline's proof data -/

/-- The proof data of pipeline 1 on core `c`: the arrays as the region finds them (`V`); after the body at point `t` each
    input's buffer at its block and the output's at `out9_5` of the input blocks; the invariant the scoped rest and the
    generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) :
    (dat9 V c).after 5 t = out9_5 (iblk9 V c 0 t) (iblk9 V c 1 t) (iblk9 V c 2 t) (iblk9 V c 3 t) (iblk9 V c 4 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-- The invariant at the first point is the class's, -/
theorem PhiIn9 (c : Dev nD) : Pipeline.ΦA spec9 c ⊢ (dat9 V c).Φ 0 := .rfl
/-- and so is the invariant at the last. -/
theorem PhiOut9 (c : Dev nD) : (dat9 V c).Φ (Fin.last _) ⊢ Pipeline.ΦA spec9 c := .rfl

/-! ## The body obligation, at a generic point -/

/-- What the body is called with at point `t` (the windows one by one), -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any point: the inputs' memrefs hold their blocks (`before9_W`), so `sound_kernel9` applies; the invariant
    and the core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%dz, Hz⟩, ⟨%dm, Hm⟩, ⟨%dv, Hv⟩, ⟨%dg, Hg⟩, ⟨%db, Hb⟩, ⟨%dy, Hy⟩⟩
  iapply (sound_kernel9 c Set.univ _ _ _ _ _ _ _ _ _ _ _ _ _ (iblk9 V c 0 t) (iblk9 V c 1 t) (iblk9 V c 2 t) (iblk9 V c 3 t) (iblk9 V c 4 t) _)
  isplitl [Hz]; · iexact Hz
  isplitl [Hm]; · iexact Hm
  isplitl [Hv]; · iexact Hv
  isplitl [Hg]; · iexact Hg
  isplitl [Hb]; · iexact Hb
  isplitl [Hy]; · iexists _; iexact Hy
  iintro ⟨Hz, Hm, Hv, Hg, Hb, Hy⟩
  isplitl [HΦ]; · iexact HΦ
  isplitl [Ho]; · iexact Ho
  isplitl [Hz]; · iexact Hz
  isplitl [Hm]; · iexact Hm
  isplitl [Hv]; · iexact Hv
  isplitl [Hg]; · iexact Hg
  isplitl [Hb]; · iexact Hb
  iexact Hy

/-- The library's body obligation, at every point. -/
theorem body_obligation9 (c : Dev nD) : BodyObligation (dat9 (F := F) V c) (defs₀ (F := F)) Variants.none () Set.univ := fun t => by
  rw [bigSep_W9, bigSep_W9]
  exact sound_body9 V c t

end Region1

end Cert.KernelIdeal.Hand
-- ==== Proof.KI.RegPool10.lean ====
/-
  The pool region (custom_call 10): proof data for its pipeline at the contents the region is entered with,
  and the body obligation.  The body carries two scratch accumulators across the 25 grid points: both are
  zeroed at the first point, each point adds the product of the transposed one-hot of the ids block with the
  feature block (with a column of ones, for the counts), and the last point copies both to the output
  windows' staging buffers, which the pipeline writes back there only.
-/
import proofs.«409348_j89627377533173_1_alg».proof.Proof.Gen.KernelIdeal.Launch
import proofs.«409348_j89627377533173_1_alg».proof.Proof.Gen.KernelIdeal.Skeleton
import proofs.«409348_j89627377533173_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form over the grid -/

/-- The first `scf.if`: the point is the grid's first. -/
abbrev cond10_0 (i : grid10.Coords) : Prop :=
  (Scalar.cmpi .ne (Scalar.extui (Scalar.cmpi .eq (BitVec.ofNat 32 (i 0).val) 0#32)) 0#32) = 1#1
theorem hcond10_0 : ∀ t : Fin cfg10.N, cond10_0 (grid10.coords t) ↔ t.val % 25 = 0 :=
  (by decide +kernel : ∀ t : Fin grid10.N, cond10_0 (grid10.coords t) ↔ t.val % 25 = 0)

/-- The second: the point is the grid's last. -/
abbrev cond10_1 (i : grid10.Coords) : Prop := k10_cond2 i = 1#1
theorem hcond10_1 : ∀ t : Fin cfg10.N, cond10_1 (grid10.coords t) ↔ t.val % 25 = 24 :=
  (by decide +kernel : ∀ t : Fin grid10.N, cond10_1 (grid10.coords t) ↔ t.val % 25 = 24)

/-! ## Where the windows are idle -/

theorem liveAt10_0 : ∀ t : Fin cfg10.N, cfg10.idle 0 (grid10.coords t) = false := by decide +kernel
theorem liveAt10_1 : ∀ t : Fin cfg10.N, cfg10.idle 1 (grid10.coords t) = false := by decide +kernel
/-- Before the last point the body stores nothing into the output windows' buffers, and the pipeline does not write them back. -/
theorem idleAt10_2 : ∀ t : Fin cfg10.N, ¬cond10_1 (grid10.coords t) → cfg10.idle 2 (grid10.coords t) = true := by decide +kernel
theorem idleAt10_3 : ∀ t : Fin cfg10.N, ¬cond10_1 (grid10.coords t) → cfg10.idle 3 (grid10.coords t) = true := by decide +kernel
theorem noFlush10_2 : ∀ t : Fin cfg10.N, ¬cond10_1 (grid10.coords t) → (cfg10.win 2).flush t = false := by decide +kernel
theorem noFlush10_3 : ∀ t : Fin cfg10.N, ¬cond10_1 (grid10.coords t) → (cfg10.win 3).flush t = false := by decide +kernel
/-- At the last point it stores into both. -/
theorem liveAt10_2 : ∀ t : Fin cfg10.N, cond10_1 (grid10.coords t) → cfg10.idle 2 (grid10.coords t) = false := by decide +kernel
theorem liveAt10_3 : ∀ t : Fin cfg10.N, cond10_1 (grid10.coords t) → cfg10.idle 3 (grid10.coords t) = false := by decide +kernel

/-! ## The body's accesses: each is of a whole buffer -/

theorem off10 : (![0, 0] : Fin 2 → ℕ) = fun _ => 0 := funext fun a => by fin_cases a <;> rfl

/-- A store of the whole buffer, made last, is what the buffer then reads, whatever was stored before. -/
theorem read_store_whole10 {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ fun y => ⟨_, List.mem_cons_self, View.mem_set_unit_zero h inb y⟩).trans
    (View.canon_cons_unit_zero h inb w L)

/-- Closes "the buffer reads as …" after the run: the run's own names opened, a whole-buffer store read back as its
    payload, a whole-buffer load as the contents. -/
local macro "pool_read10" : tactic => `(tactic| (
  try sl_unfold_words
  simp only [read_store_whole10 (S := S512x300) _ _ off10, read_store_whole10 (S := S512x1) _ _ off10,
    View.readCov_unit_zero (S := S512x300) _ off10, View.readCov_unit_zero (S := S512x1) _ off10, View.readAt_eq_ld,
    View.ld_unit_zero (S := S2000x1) off10, View.ld_unit_zero (S := S2000x300) off10,
    View.ld_unit_zero (S := S512x300) off10, View.ld_unit_zero (S := S512x1) off10]))

section Kernel

variable (c : Dev nD) (E : Set ℕ) (i : grid10.Coords)
    (arg1 : Memref sig .tc .vmem S2000x300 .f32) (harg1 : arg1.IsWhole) (arg2 : Memref sig .tc .vmem S2000x1 .i32) (harg2 : arg2.IsWhole)
    (arg3 : Memref sig .tc .vmem S512x300 .f32) (harg3 : arg3.IsWhole) (arg4 : Memref sig .tc .vmem S512x1 .f32) (harg4 : arg4.IsWhole)
    (arg5 : Memref sig .tc .vmem S512x300 .f32) (harg5 : arg5.IsWhole) (arg6 : Memref sig .tc .vmem S512x1 .f32) (harg6 : arg6.IsWhole)

set_option maxHeartbeats 4000000 in
/-- The first point: both accumulators are zeroed, then added to; the output windows' buffers are not touched. -/
theorem sound_kernel10_A (hc0 : cond10_0 i) (hc1 : ¬cond10_1 i)
    (x0 : Vec F S2000x300 .f32) (x1 : Vec F S2000x1 .i32) (K : PUnit → sProp 𝕄) :
    iprop(owns (c : Thread nD τ) arg1 fullShare x0 ∗ owns (c : Thread nD τ) arg2 fullShare x1
        ∗ (∃ a, owns (c : Thread nD τ) arg5 fullShare a) ∗ (∃ n, owns (c : Thread nD τ) arg6 fullShare n)
        ∗ (iprop(owns (c : Thread nD τ) arg1 fullShare x0 ∗ owns (c : Thread nD τ) arg2 fullShare x1
            ∗ owns (c : Thread nD τ) arg5 fullShare (k10_pay4 x1 x0 k10_pay1) ∗ owns (c : Thread nD τ) arg6 fullShare (k10_pay5 x1 k10_pay2)) -∗ K ⟨⟩))
      ⊢ wp frame (wpE (defs₀ (F := F)) Variants.none c none) E (cc10__pool_kernel i arg1 harg1 arg2 harg2 arg3 harg3 arg4 harg4 arg5 harg5 arg6 harg6) K := by
  simp only [cc10__pool_kernel_eq_skeleton]; unfold cc10__pool_kernel_skel
  unfold owns
  iintro ⟨⟨%f0, %hf0, H0⟩, ⟨%f1, %hf1, H1⟩, ⟨%a, %f5, -, H5⟩, ⟨%n, %f6, -, H6⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H5]
  · iexists _; isplitr
    swap; · iexact H5
    ipureintro; pool_read10
  iexists _; isplitr
  swap; · iexact H6
  ipureintro; pool_read10

set_option maxHeartbeats 4000000 in
/-- A point that is neither the first nor the last: both accumulators are read, added to and stored back;
    the output windows' buffers are not touched. -/
theorem sound_kernel10_B (hc0 : ¬cond10_0 i) (hc1 : ¬cond10_1 i)
    (x0 : Vec F S2000x300 .f32) (x1 : Vec F S2000x1 .i32) (a : Vec F S512x300 .f32) (n : Vec F S512x1 .f32) (K : PUnit → sProp 𝕄) :
    iprop(owns (c : Thread nD τ) arg1 fullShare x0 ∗ owns (c : Thread nD τ) arg2 fullShare x1
        ∗ owns (c : Thread nD τ) arg5 fullShare a ∗ owns (c : Thread nD τ) arg6 fullShare n
        ∗ (iprop(owns (c : Thread nD τ) arg1 fullShare x0 ∗ owns (c : Thread nD τ) arg2 fullShare x1
            ∗ owns (c : Thread nD τ) arg5 fullShare (k10_pay4 x1 x0 a) ∗ owns (c : Thread nD τ) arg6 fullShare (k10_pay5 x1 n)) -∗ K ⟨⟩))
      ⊢ wp frame (wpE (defs₀ (F := F)) Variants.none c none) E (cc10__pool_kernel i arg1 harg1 arg2 harg2 arg3 harg3 arg4 harg4 arg5 harg5 arg6 harg6) K := by
  simp only [cc10__pool_kernel_eq_skeleton]; unfold cc10__pool_kernel_skel
  unfold owns
  iintro ⟨⟨%f0, %hf0, H0⟩, ⟨%f1, %hf1, H1⟩, ⟨%f5, %hf5, H5⟩, ⟨%f6, %hf6, H6⟩, Hk⟩
  subst hf0; subst hf1; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H5]
  · iexists _; isplitr
    swap; · iexact H5
    ipureintro; pool_read10
  iexists _; isplitr
  swap; · iexact H6
  ipureintro; pool_read10

set_option maxHeartbeats 4000000 in
/-- The last point (which is not the first): both accumulators are read, added to and stored back, and then copied
    whole into the output windows' buffers, whatever those held. -/
theorem sound_kernel10_C (hc0 : ¬cond10_0 i) (hc1 : cond10_1 i)
    (x0 : Vec F S2000x300 .f32) (x1 : Vec F S2000x1 .i32) (a : Vec F S512x300 .f32) (n : Vec F S512x1 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ owns (c : Thread nD τ) arg5 fullShare a ∗ owns (c : Thread nD τ) arg6 fullShare n
        ∗ (iprop(owns (c : Thread nD τ) arg1 fullShare x0 ∗ owns (c : Thread nD τ) arg2 fullShare x1
            ∗ owns (c : Thread nD τ) arg3 fullShare (k10_pay4 x1 x0 a) ∗ owns (c : Thread nD τ) arg4 fullShare (k10_pay5 x1 n)
            ∗ owns (c : Thread nD τ) arg5 fullShare (k10_pay4 x1 x0 a) ∗ owns (c : Thread nD τ) arg6 fullShare (k10_pay5 x1 n)) -∗ K ⟨⟩))
      ⊢ wp frame (wpE (defs₀ (F := F)) Variants.none c none) E (cc10__pool_kernel i arg1 harg1 arg2 harg2 arg3 harg3 arg4 harg4 arg5 harg5 arg6 harg6) K := by
  simp only [cc10__pool_kernel_eq_skeleton]; unfold cc10__pool_kernel_skel
  unfold owns
  iintro ⟨⟨%f0, %hf0, H0⟩, ⟨%f1, %hf1, H1⟩, ⟨%d3, %f3, -, H3⟩, ⟨%d4, %f4, -, H4⟩, ⟨%f5, %hf5, H5⟩, ⟨%f6, %hf6, H6⟩, Hk⟩
  subst hf0; subst hf1; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro; pool_read10
  isplitl [H4]
  · iexists _; isplitr
    swap; · iexact H4
    ipureintro; pool_read10
  isplitl [H5]
  · iexists _; isplitr
    swap; · iexact H5
    ipureintro; pool_read10
  iexists _; isplitr
  swap; · iexact H6
  ipureintro; pool_read10

end Kernel

section Region

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's current staging buffer holds its block at every point, for any proof data whose array is the
    entry contents and whose body leaves the block in place: the window is uncut and never idle. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## The accumulators, point by point -/

/-- What the two scratch accumulators hold after the body at point `n`: at the first point the zeros plus that
    point's products, afterwards what the point before left plus this point's. -/
def acc10 (c : Dev nD) : (n : ℕ) → n < cfg10.N → Vec F S512x300 .f32 × Vec F S512x1 .f32
  | 0, hn => (k10_pay4 (iblk10 V c 1 ⟨0, hn⟩) (iblk10 V c 0 ⟨0, hn⟩) k10_pay1, k10_pay5 (iblk10 V c 1 ⟨0, hn⟩) k10_pay2)
  | n + 1, hn => (k10_pay4 (iblk10 V c 1 ⟨n + 1, hn⟩) (iblk10 V c 0 ⟨n + 1, hn⟩) (acc10 c n (Nat.lt_of_succ_lt hn)).1,
      k10_pay5 (iblk10 V c 1 ⟨n + 1, hn⟩) (acc10 c n (Nat.lt_of_succ_lt hn)).2)

theorem acc10_first (c : Dev nD) (t : Fin cfg10.N) (h : t.val = 0) :
    acc10 V c t.val t.isLt = (k10_pay4 (iblk10 V c 1 t) (iblk10 V c 0 t) k10_pay1, k10_pay5 (iblk10 V c 1 t) k10_pay2) := by
  obtain ⟨n, hn⟩ := t
  cases n with
  | zero => rfl
  | succ n => exact absurd h (Nat.succ_ne_zero n)

theorem acc10_later (c : Dev nD) (t : Fin cfg10.N) (h : t.val ≠ 0) :
    acc10 V c t.val t.isLt = (k10_pay4 (iblk10 V c 1 t) (iblk10 V c 0 t) (acc10 V c (t.val - 1) (Nat.lt_of_le_of_lt (Nat.sub_le _ _) t.isLt)).1,
      k10_pay5 (iblk10 V c 1 t) (acc10 V c (t.val - 1) (Nat.lt_of_le_of_lt (Nat.sub_le _ _) t.isLt)).2) := by
  obtain ⟨n, hn⟩ := t
  cases n with
  | zero => exact absurd rfl h
  | succ n => rfl

/-! ## The region invariant -/

/-- The two scratch operands: whole scoped buffers of the call's own. -/
abbrev scM10_0 : Memref sig .tc .vmem S512x300 .f32 := Memref.whole cc10_scratch0
abbrev scM10_1 : Memref sig .tc .vmem S512x1 .f32 := Memref.whole cc10_scratch1

/-- Every other scoped buffer, unopened. -/
abbrev rest10 (c : Dev nD) : sProp 𝕄 :=
  Pipeline.scopedRestBut (Ix := Unit) (Name := ℕ) (U := UR sig nD τ) (Lvl := ℕ) (Val := Elt F) spec10 c [cc10_scratch0, cc10_scratch1]

/-- The class's invariant with the two scratch operands split out of the scoped rest, as memrefs owned at some contents. -/
theorem PhiA10_eq (c : Dev nD) :
    (Pipeline.ΦA spec10 c : sProp 𝕄)
      = iprop(iprop(iprop((∃ d, owns (c : Thread nD τ) scM10_0 fullShare d) ∗ (∃ d, owns (c : Thread nD τ) scM10_1 fullShare d)) ∗ rest10 c) ∗ (∃ r, prngReg c r)) := by
  unfold Pipeline.ΦA; rw [scopedRest10_split]; simp only [scM10_0, scM10_1, owns_whole]; try rfl

/-- The invariant before position `n`: before the first point the class's (both scratch buffers at anything); afterwards
    the two accumulators at what the point before left in them, the other scoped buffers unopened, the generator
    register at some state. -/
def Phi10 (c : Dev nD) : (n : ℕ) → n ≤ cfg10.N → sProp 𝕄
  | 0, _ => Pipeline.ΦA spec10 c
  | n + 1, hn => iprop(iprop(iprop(owns (c : Thread nD τ) scM10_0 fullShare (acc10 V c n hn).1 ∗ owns (c : Thread nD τ) scM10_1 fullShare (acc10 V c n hn).2) ∗ rest10 c) ∗ (∃ r, prngReg c r))

theorem Phi10_zero (c : Dev nD) (n : ℕ) (h : n ≤ cfg10.N) (hz : n = 0) : Phi10 V c n h = Pipeline.ΦA spec10 c := by
  subst hz; rfl

theorem Phi10_succ (c : Dev nD) (n : ℕ) (hn : n < cfg10.N) :
    Phi10 V c (n + 1) hn = iprop(iprop(iprop(owns (c : Thread nD τ) scM10_0 fullShare (acc10 V c n hn).1 ∗ owns (c : Thread nD τ) scM10_1 fullShare (acc10 V c n hn).2) ∗ rest10 c) ∗ (∃ r, prngReg c r)) := rfl

theorem Phi10_pos (c : Dev nD) (n : ℕ) (h : n ≤ cfg10.N) (hz : n ≠ 0) :
    Phi10 V c n h = iprop(iprop(iprop(owns (c : Thread nD τ) scM10_0 fullShare (acc10 V c (n - 1) (by omega)).1 ∗ owns (c : Thread nD τ) scM10_1 fullShare (acc10 V c (n - 1) (by omega)).2) ∗ rest10 c) ∗ (∃ r, prngReg c r)) := by
  cases n with
  | zero => exact absurd rfl hz
  | succ n => rfl

/-! ## The pipeline's proof data -/

/-- The proof data of the pool pipeline on core `c`: the arrays as the region finds them; after the body at point `t`
    each input's buffer at its block and each output's at the matching accumulator (consulted at the last point only: before it
    the output windows are idle and not written back); the invariant `Phi10`; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => (acc10 V c t.val t.isLt).1
    | ⟨3, _⟩ => (acc10 V c t.val t.isLt).2
  Φ t := Phi10 V c t.val (Nat.le_of_lt_succ t.isLt)
  q _ := fullShare
  owed _ := 0

/-- The proof data's arrays are the region-entry contents. -/
theorem A_eq10 (c : Dev nD) (w : Fin cfg10.W) : (dat10 V c).A w = V c (Pipeline.arrRef spec10 w) := by
  dsimp only [dat10]

theorem Phi10_castSucc (c : Dev nD) (t : Fin cfg10.N) :
    (dat10 V c).Φ t.castSucc = Phi10 V c t.val (Nat.le_of_lt t.isLt) := by
  dsimp only [dat10]; simp only [Fin.coe_castSucc]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = (acc10 V c t.val t.isLt).1 := by dsimp only [dat10]
theorem after10_3 (c : Dev nD) (t : Fin cfg10.N) : (dat10 V c).after 3 t = (acc10 V c t.val t.isLt).2 := by dsimp only [dat10]

/-- Each input's current staging buffer holds its block at every point. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t)

set_option maxHeartbeats 4800000 in
/-- The body at any point: the inputs' memrefs hold their blocks; the closed forms say which of the three cases the
    point is in; the invariant hands the body the two accumulators at what the point before left (at anything at
    the first point) and takes them back at this point's contents; before the last point the output windows'
    buffers pass through untouched, at the last they are left at the accumulators; the core owes nothing throughout. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).owesAt () t.succ = (dat10 V c).owesAt () t.castSucc from rfl]
  rw [show (dat10 V c).Φ t.succ = Phi10 V c (t.val + 1) t.isLt from rfl, Phi10_succ]
  rw [show (dat10 V c).leavesExact 0 t = owns (c : Thread nD τ) (st10_0 t) fullShare ((dat10 V c).after 0 t) from by
    unfold Dat.leavesExact; rw [liveAt10_0 t], after10_0]
  rw [show (dat10 V c).leavesExact 1 t = owns (c : Thread nD τ) (st10_1 t) fullShare ((dat10 V c).after 1 t) from by
    unfold Dat.leavesExact; rw [liveAt10_1 t], after10_1]
  have hN : t.val < 25 := lt_of_lt_of_eq t.isLt (show cfg10.N = 25 from N_10)
  by_cases h1 : t.val % 25 = 24
  · have hz : t.val ≠ 0 := by omega
    have h0 : ¬t.val % 25 = 0 := by omega
    rw [show (dat10 V c).leavesExact 2 t = owns (c : Thread nD τ) (st10_2 t) fullShare ((dat10 V c).after 2 t) from by
      unfold Dat.leavesExact; rw [liveAt10_2 t ((hcond10_1 t).mpr h1)], after10_2]
    rw [show (dat10 V c).leavesExact 3 t = owns (c : Thread nD τ) (st10_3 t) fullShare ((dat10 V c).after 3 t) from by
      unfold Dat.leavesExact; rw [liveAt10_3 t ((hcond10_1 t).mpr h1)], after10_3]
    rw [acc10_later V c t hz]
    rw [Phi10_castSucc V c t, Phi10_pos V c _ _ hz]
    iintro ⟨⟨⟨⟨HS0, HS1⟩, HR⟩, Hg⟩, Ho, ⟨%d0, H0⟩, ⟨%d1, H1⟩, ⟨%d2, H2⟩, ⟨%d3, H3⟩⟩
    iapply (sound_kernel10_C c Set.univ (grid10.coords t) _ _ _ _ _ _ _ _ _ _ _ _ (fun h => h0 ((hcond10_0 t).mp h)) ((hcond10_1 t).mpr h1)
      (iblk10 V c 0 t) (iblk10 V c 1 t) _ _ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, H2, H3, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    iexact H3
  · rw [Dat.leavesExact_idle (dat10 V c) 2 t (idleAt10_2 t (fun h => h1 ((hcond10_1 t).mp h))) (noFlush10_2 t (fun h => h1 ((hcond10_1 t).mp h)))]
    rw [Dat.leavesExact_idle (dat10 V c) 3 t (idleAt10_3 t (fun h => h1 ((hcond10_1 t).mp h))) (noFlush10_3 t (fun h => h1 ((hcond10_1 t).mp h)))]
    by_cases hz : t.val = 0
    · have h0 : t.val % 25 = 0 := by omega
      rw [acc10_first V c t hz]
      rw [Phi10_castSucc V c t, Phi10_zero V c _ _ hz, PhiA10_eq]
      iintro ⟨⟨⟨⟨HS0, HS1⟩, HR⟩, Hg⟩, Ho, ⟨%d0, H0⟩, ⟨%d1, H1⟩, H2, H3⟩
      iapply (sound_kernel10_A c Set.univ (grid10.coords t) _ _ _ _ _ _ _ _ _ _ _ _ ((hcond10_0 t).mpr h0) (fun h => h1 ((hcond10_1 t).mp h))
        (iblk10 V c 0 t) (iblk10 V c 1 t) _)
      isplitl [H0]; · iexact H0
      isplitl [H1]; · iexact H1
      isplitl [HS0]; · iexact HS0
      isplitl [HS1]; · iexact HS1
      iintro ⟨H0, H1, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      iexact H3
    · have h0 : ¬t.val % 25 = 0 := by omega
      rw [acc10_later V c t hz]
      rw [Phi10_castSucc V c t, Phi10_pos V c _ _ hz]
      iintro ⟨⟨⟨⟨HS0, HS1⟩, HR⟩, Hg⟩, Ho, ⟨%d0, H0⟩, ⟨%d1, H1⟩, H2, H3⟩
      iapply (sound_kernel10_B c Set.univ (grid10.coords t) _ _ _ _ _ _ _ _ _ _ _ _ (fun h => h0 ((hcond10_0 t).mp h)) (fun h => h1 ((hcond10_1 t).mp h))
        (iblk10 V c 0 t) (iblk10 V c 1 t) _ _ _)
      isplitl [H0]; · iexact H0
      isplitl [H1]; · iexact H1
      isplitl [HS0]; · iexact HS0
      isplitl [HS1]; · iexact HS1
      iintro ⟨H0, H1, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      iexact H3

/-- The library's body obligation, at every point. -/
theorem body_obligation10 (c : Dev nD) : BodyObligation (dat10 (F := F) V c) (defs₀ (F := F)) Variants.none () Set.univ := fun t => by
  rw [bigSep_W10, bigSep_W10]
  exact sound_body10 V c t

/-- What the launch hands the region is the invariant before the first point. -/
theorem PhiIn10 (c : Dev nD) : Pipeline.ΦA spec10 c ⊢ (dat10 V c).Φ 0 := by
  rw [show (dat10 V c).Φ 0 = Phi10 V c 0 (Nat.zero_le _) from rfl, Phi10_zero V c 0 _ rfl]
  try exact Idealize.SL.BI.Entails.refl _

/-- After the last point the invariant gives the class's back: the accumulators' named contents are forgotten. -/
theorem PhiOut10 (c : Dev nD) : (dat10 V c).Φ (Fin.last _) ⊢ Pipeline.ΦA spec10 c := by
  have ht : (Fin.last cfg10.N).val ≠ 0 := by rw [Fin.val_last]; have : cfg10.N = 25 := N_10; omega
  rw [show (dat10 V c).Φ (Fin.last cfg10.N) = Phi10 V c (Fin.last cfg10.N).val (Nat.le_of_lt_succ (Fin.last cfg10.N).isLt) from rfl,
    Phi10_pos V c _ _ ht, PhiA10_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

end Region

end Cert.KernelIdeal.Hand

end
-- ==== Proof.KI.RunDefs.lean ====
import proofs.«409348_j89627377533173_1_alg».proof.Proof.KI.RegMlp0
import proofs.«409348_j89627377533173_1_alg».proof.Proof.KI.RegBn1
import proofs.«409348_j89627377533173_1_alg».proof.Proof.KI.RegMlp2
import proofs.«409348_j89627377533173_1_alg».proof.Proof.KI.RegBn3
import proofs.«409348_j89627377533173_1_alg».proof.Proof.KI.RegMlp4
import proofs.«409348_j89627377533173_1_alg».proof.Proof.KI.RegBn5
import proofs.«409348_j89627377533173_1_alg».proof.Proof.KI.RegMlp6
import proofs.«409348_j89627377533173_1_alg».proof.Proof.KI.RegBn7
import proofs.«409348_j89627377533173_1_alg».proof.Proof.KI.RegMlp8
import proofs.«409348_j89627377533173_1_alg».proof.Proof.KI.RegBn9
import proofs.«409348_j89627377533173_1_alg».proof.Proof.KI.RegPool10

-- decided memberships and the launch kit's enumerations over 501 references recurse past the default depth
set_option maxRecDepth 2516

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ
variable (m : (ℓ : Loc nD τ sig) → Buf (Elt F) ℓ)

/-! ## The buffers' contents at every boundary of @main, the regions' results named

`W0` the launch memory; a host stretch `StableHlo.after` its operations; a region its output arrays at what the pipeline's
write-backs leave (`Dat.arrAt … N` of its proof data at the contents it is entered from), every other buffer as entered. -/

/-- Core `c`'s unscoped buffers at launch. -/
abbrev W0 (c : Dev nD) : Valuation τ sig (Elt F) := fun b => m (c, b)
/-- After the host stretch `hostOps0`. -/
def W1 (c : Dev nD) : Valuation τ sig (Elt F) := StableHlo.after hostOps0 (W0 m c)
theorem W1_def (c : Dev nD) : W1 m c = StableHlo.after hostOps0 (W0 m c) := rfl
/-- Region 0's entry contents read at the TensorCore's references (what its proof data take). -/
abbrev ent0 : (c : Dev nD) → (b : Ref sig .tc) → Buf (Elt F) ((c : Thread nD τ).loc b) := fun c b => W1 m c b
/-- After region 0: its output arrays at what the pipeline's write-backs leave, every other buffer as entered. -/
def W2 (c : Dev nD) : Valuation τ sig (Elt F) :=
  Function.update (Function.update (Function.update (W1 m c) main_v49_0 ((dat0 (ent0 m) c).arrAt 6 cfg0.N)) main_v49_1 ((dat0 (ent0 m) c).arrAt 7 cfg0.N)) main_v49_2 ((dat0 (ent0 m) c).arrAt 8 cfg0.N)
theorem W2_def (c : Dev nD) : W2 m c =
  Function.update (Function.update (Function.update (W1 m c) main_v49_0 ((dat0 (ent0 m) c).arrAt 6 cfg0.N)) main_v49_1 ((dat0 (ent0 m) c).arrAt 7 cfg0.N)) main_v49_2 ((dat0 (ent0 m) c).arrAt 8 cfg0.N) := rfl
/-- Region 0's exit contents read at the TensorCore's references. -/
abbrev ext0 : (c : Dev nD) → (b : Ref sig .tc) → Buf (Elt F) ((c : Thread nD τ).loc b) := fun c b => W2 m c b
/-- After the host stretch `hostOps1`. -/
def W3 (c : Dev nD) : Valuation τ sig (Elt F) := StableHlo.after hostOps1 (W2 m c)
theorem W3_def (c : Dev nD) : W3 m c = StableHlo.after hostOps1 (W2 m c) := rfl
/-- Region 1's entry contents read at the TensorCore's references (what its proof data take). -/
abbrev ent1 : (c : Dev nD) → (b : Ref sig .tc) → Buf (Elt F) ((c : Thread nD τ).loc b) := fun c b => W3 m c b
/-- After region 1: its output arrays at what the pipeline's write-backs leave, every other buffer as entered. -/
def W4 (c : Dev nD) : Valuation τ sig (Elt F) :=
  Function.update (W3 m c) main_v68 ((dat1 (ent1 m) c).arrAt 5 cfg1.N)
theorem W4_def (c : Dev nD) : W4 m c =
  Function.update (W3 m c) main_v68 ((dat1 (ent1 m) c).arrAt 5 cfg1.N) := rfl
/-- Region 1's exit contents read at the TensorCore's references. -/
abbrev ext1 : (c : Dev nD) → (b : Ref sig .tc) → Buf (Elt F) ((c : Thread nD τ).loc b) := fun c b => W4 m c b
/-- After the host stretch `hostOps2`. -/
def W5 (c : Dev nD) : Valuation τ sig (Elt F) := StableHlo.after hostOps2 (W4 m c)
theorem W5_def (c : Dev nD) : W5 m c = StableHlo.after hostOps2 (W4 m c) := rfl
/-- Region 2's entry contents read at the TensorCore's references (what its proof data take). -/
abbrev ent2 : (c : Dev nD) → (b : Ref sig .tc) → Buf (Elt F) ((c : Thread nD τ).loc b) := fun c b => W5 m c b
/-- After region 2: its output arrays at what the pipeline's write-backs leave, every other buffer as entered. -/
def W6 (c : Dev nD) : Valuation τ sig (Elt F) :=
  Function.update (Function.update (Function.update (W5 m c) main_v109_0 ((dat2 (ent2 m) c).arrAt 6 cfg2.N)) main_v109_1 ((dat2 (ent2 m) c).arrAt 7 cfg2.N)) main_v109_2 ((dat2 (ent2 m) c).arrAt 8 cfg2.N)
theorem W6_def (c : Dev nD) : W6 m c =
  Function.update (Function.update (Function.update (W5 m c) main_v109_0 ((dat2 (ent2 m) c).arrAt 6 cfg2.N)) main_v109_1 ((dat2 (ent2 m) c).arrAt 7 cfg2.N)) main_v109_2 ((dat2 (ent2 m) c).arrAt 8 cfg2.N) := rfl
/-- Region 2's exit contents read at the TensorCore's references. -/
abbrev ext2 : (c : Dev nD) → (b : Ref sig .tc) → Buf (Elt F) ((c : Thread nD τ).loc b) := fun c b => W6 m c b
/-- After the host stretch `hostOps3`. -/
def W7 (c : Dev nD) : Valuation τ sig (Elt F) := StableHlo.after hostOps3 (W6 m c)
theorem W7_def (c : Dev nD) : W7 m c = StableHlo.after hostOps3 (W6 m c) := rfl
/-- Region 3's entry contents read at the TensorCore's references (what its proof data take). -/
abbrev ent3 : (c : Dev nD) → (b : Ref sig .tc) → Buf (Elt F) ((c : Thread nD τ).loc b) := fun c b => W7 m c b
/-- After region 3: its output arrays at what the pipeline's write-backs leave, every other buffer as entered. -/
def W8 (c : Dev nD) : Valuation τ sig (Elt F) :=
  Function.update (W7 m c) main_v128 ((dat3 (ent3 m) c).arrAt 5 cfg3.N)
theorem W8_def (c : Dev nD) : W8 m c =
  Function.update (W7 m c) main_v128 ((dat3 (ent3 m) c).arrAt 5 cfg3.N) := rfl
/-- Region 3's exit contents read at the TensorCore's references. -/
abbrev ext3 : (c : Dev nD) → (b : Ref sig .tc) → Buf (Elt F) ((c : Thread nD τ).loc b) := fun c b => W8 m c b
/-- After the host stretch `hostOps4`. -/
def W9 (c : Dev nD) : Valuation τ sig (Elt F) := StableHlo.after hostOps4 (W8 m c)
theorem W9_def (c : Dev nD) : W9 m c = StableHlo.after hostOps4 (W8 m c) := rfl
/-- Region 4's entry contents read at the TensorCore's references (what its proof data take). -/
abbrev ent4 : (c : Dev nD) → (b : Ref sig .tc) → Buf (Elt F) ((c : Thread nD τ).loc b) := fun c b => W9 m c b
/-- After region 4: its output arrays at what the pipeline's write-backs leave, every other buffer as entered. -/
def W10 (c : Dev nD) : Valuation τ sig (Elt F) :=
  Function.update (Function.update (Function.update (W9 m c) main_v169_0 ((dat4 (ent4 m) c).arrAt 6 cfg4.N)) main_v169_1 ((dat4 (ent4 m) c).arrAt 7 cfg4.N)) main_v169_2 ((dat4 (ent4 m) c).arrAt 8 cfg4.N)
theorem W10_def (c : Dev nD) : W10 m c =
  Function.update (Function.update (Function.update (W9 m c) main_v169_0 ((dat4 (ent4 m) c).arrAt 6 cfg4.N)) main_v169_1 ((dat4 (ent4 m) c).arrAt 7 cfg4.N)) main_v169_2 ((dat4 (ent4 m) c).arrAt 8 cfg4.N) := rfl
/-- Region 4's exit contents read at the TensorCore's references. -/
abbrev ext4 : (c : Dev nD) → (b : Ref sig .tc) → Buf (Elt F) ((c : Thread nD τ).loc b) := fun c b => W10 m c b
/-- After the host stretch `hostOps5`. -/
def W11 (c : Dev nD) : Valuation τ sig (Elt F) := StableHlo.after hostOps5 (W10 m c)
theorem W11_def (c : Dev nD) : W11 m c = StableHlo.after hostOps5 (W10 m c) := rfl
/-- Region 5's entry contents read at the TensorCore's references (what its proof data take). -/
abbrev ent5 : (c : Dev nD) → (b : Ref sig .tc) → Buf (Elt F) ((c : Thread nD τ).loc b) := fun c b => W11 m c b
/-- After region 5: its output arrays at what the pipeline's write-backs leave, every other buffer as entered. -/
def W12 (c : Dev nD) : Valuation τ sig (Elt F) :=
  Function.update (W11 m c) main_v188 ((dat5 (ent5 m) c).arrAt 5 cfg5.N)
theorem W12_def (c : Dev nD) : W12 m c =
  Function.update (W11 m c) main_v188 ((dat5 (ent5 m) c).arrAt 5 cfg5.N) := rfl
/-- Region 5's exit contents read at the TensorCore's references. -/
abbrev ext5 : (c : Dev nD) → (b : Ref sig .tc) → Buf (Elt F) ((c : Thread nD τ).loc b) := fun c b => W12 m c b
/-- After the host stretch `hostOps6`. -/
def W13 (c : Dev nD) : Valuation τ sig (Elt F) := StableHlo.after hostOps6 (W12 m c)
theorem W13_def (c : Dev nD) : W13 m c = StableHlo.after hostOps6 (W12 m c) := rfl
/-- Region 6's entry contents read at the TensorCore's references (what its proof data take). -/
abbrev ent6 : (c : Dev nD) → (b : Ref sig .tc) → Buf (Elt F) ((c : Thread nD τ).loc b) := fun c b => W13 m c b
/-- After region 6: its output arrays at what the pipeline's write-backs leave, every other buffer as entered. -/
def W14 (c : Dev nD) : Valuation τ sig (Elt F) :=
  Function.update (Function.update (Function.update (W13 m c) main_v229_0 ((dat6 (ent6 m) c).arrAt 6 cfg6.N)) main_v229_1 ((dat6 (ent6 m) c).arrAt 7 cfg6.N)) main_v229_2 ((dat6 (ent6 m) c).arrAt 8 cfg6.N)
theorem W14_def (c : Dev nD) : W14 m c =
  Function.update (Function.update (Function.update (W13 m c) main_v229_0 ((dat6 (ent6 m) c).arrAt 6 cfg6.N)) main_v229_1 ((dat6 (ent6 m) c).arrAt 7 cfg6.N)) main_v229_2 ((dat6 (ent6 m) c).arrAt 8 cfg6.N) := rfl
/-- Region 6's exit contents read at the TensorCore's references. -/
abbrev ext6 : (c : Dev nD) → (b : Ref sig .tc) → Buf (Elt F) ((c : Thread nD τ).loc b) := fun c b => W14 m c b
/-- After the host stretch `hostOps7`. -/
def W15 (c : Dev nD) : Valuation τ sig (Elt F) := StableHlo.after hostOps7 (W14 m c)
theorem W15_def (c : Dev nD) : W15 m c = StableHlo.after hostOps7 (W14 m c) := rfl
/-- Region 7's entry contents read at the TensorCore's references (what its proof data take). -/
abbrev ent7 : (c : Dev nD) → (b : Ref sig .tc) → Buf (Elt F) ((c : Thread nD τ).loc b) := fun c b => W15 m c b
/-- After region 7: its output arrays at what the pipeline's write-backs leave, every other buffer as entered. -/
def W16 (c : Dev nD) : Valuation τ sig (Elt F) :=
  Function.update (W15 m c) main_v248 ((dat7 (ent7 m) c).arrAt 5 cfg7.N)
theorem W16_def (c : Dev nD) : W16 m c =
  Function.update (W15 m c) main_v248 ((dat7 (ent7 m) c).arrAt 5 cfg7.N) := rfl
/-- Region 7's exit contents read at the TensorCore's references. -/
abbrev ext7 : (c : Dev nD) → (b : Ref sig .tc) → Buf (Elt F) ((c : Thread nD τ).loc b) := fun c b => W16 m c b
/-- After the host stretch `hostOps8`. -/
def W17 (c : Dev nD) : Valuation τ sig (Elt F) := StableHlo.after hostOps8 (W16 m c)
theorem W17_def (c : Dev nD) : W17 m c = StableHlo.after hostOps8 (W16 m c) := rfl
/-- Region 8's entry contents read at the TensorCore's references (what its proof data take). -/
abbrev ent8 : (c : Dev nD) → (b : Ref sig .tc) → Buf (Elt F) ((c : Thread nD τ).loc b) := fun c b => W17 m c b
/-- After region 8: its output arrays at what the pipeline's write-backs leave, every other buffer as entered. -/
def W18 (c : Dev nD) : Valuation τ sig (Elt F) :=
  Function.update (Function.update (Function.update (W17 m c) main_v289_0 ((dat8 (ent8 m) c).arrAt 6 cfg8.N)) main_v289_1 ((dat8 (ent8 m) c).arrAt 7 cfg8.N)) main_v289_2 ((dat8 (ent8 m) c).arrAt 8 cfg8.N)
theorem W18_def (c : Dev nD) : W18 m c =
  Function.update (Function.update (Function.update (W17 m c) main_v289_0 ((dat8 (ent8 m) c).arrAt 6 cfg8.N)) main_v289_1 ((dat8 (ent8 m) c).arrAt 7 cfg8.N)) main_v289_2 ((dat8 (ent8 m) c).arrAt 8 cfg8.N) := rfl
/-- Region 8's exit contents read at the TensorCore's references. -/
abbrev ext8 : (c : Dev nD) → (b : Ref sig .tc) → Buf (Elt F) ((c : Thread nD τ).loc b) := fun c b => W18 m c b
/-- After the host stretch `hostOps9`. -/
def W19 (c : Dev nD) : Valuation τ sig (Elt F) := StableHlo.after hostOps9 (W18 m c)
theorem W19_def (c : Dev nD) : W19 m c = StableHlo.after hostOps9 (W18 m c) := rfl
/-- Region 9's entry contents read at the TensorCore's references (what its proof data take). -/
abbrev ent9 : (c : Dev nD) → (b : Ref sig .tc) → Buf (Elt F) ((c : Thread nD τ).loc b) := fun c b => W19 m c b
/-- After region 9: its output arrays at what the pipeline's write-backs leave, every other buffer as entered. -/
def W20 (c : Dev nD) : Valuation τ sig (Elt F) :=
  Function.update (W19 m c) main_v308 ((dat9 (ent9 m) c).arrAt 5 cfg9.N)
theorem W20_def (c : Dev nD) : W20 m c =
  Function.update (W19 m c) main_v308 ((dat9 (ent9 m) c).arrAt 5 cfg9.N) := rfl
/-- Region 9's exit contents read at the TensorCore's references. -/
abbrev ext9 : (c : Dev nD) → (b : Ref sig .tc) → Buf (Elt F) ((c : Thread nD τ).loc b) := fun c b => W20 m c b
/-- Region 10's entry contents read at the TensorCore's references (what its proof data take). -/
abbrev ent10 : (c : Dev nD) → (b : Ref sig .tc) → Buf (Elt F) ((c : Thread nD τ).loc b) := fun c b => W20 m c b
/-- After region 10: its output arrays at what the pipeline's write-backs leave, every other buffer as entered. -/
def W21 (c : Dev nD) : Valuation τ sig (Elt F) :=
  Function.update (Function.update (W20 m c) main_v309_0 ((dat10 (ent10 m) c).arrAt 2 cfg10.N)) main_v309_1 ((dat10 (ent10 m) c).arrAt 3 cfg10.N)
theorem W21_def (c : Dev nD) : W21 m c =
  Function.update (Function.update (W20 m c) main_v309_0 ((dat10 (ent10 m) c).arrAt 2 cfg10.N)) main_v309_1 ((dat10 (ent10 m) c).arrAt 3 cfg10.N) := rfl
/-- Region 10's exit contents read at the TensorCore's references. -/
abbrev ext10 : (c : Dev nD) → (b : Ref sig .tc) → Buf (Elt F) ((c : Thread nD τ).loc b) := fun c b => W21 m c b
/-- After the host stretch `hostOps11`. -/
def W22 (c : Dev nD) : Valuation τ sig (Elt F) := StableHlo.after hostOps11 (W21 m c)
theorem W22_def (c : Dev nD) : W22 m c = StableHlo.after hostOps11 (W21 m c) := rfl

/-! ## Reading the chain: a region's outputs, and every other buffer as the region found it -/
/-- Region 0's output window 6, `main_v49_0`, after the region. -/
theorem W2_v49_0 (c : Dev nD) : W2 m c main_v49_0 = (dat0 (ent0 m) c).arrAt 6 cfg0.N := by
  unfold W2; rw [Function.update_of_ne (StableHlo.devRef_ne_of_ne (by decide : main_v49_0 ≠ main_v49_2) : (Proc.devRef .tc main_v49_0 : DevRef τ sig) ≠ Proc.devRef .tc main_v49_2), Function.update_of_ne (StableHlo.devRef_ne_of_ne (by decide : main_v49_0 ≠ main_v49_1) : (Proc.devRef .tc main_v49_0 : DevRef τ sig) ≠ Proc.devRef .tc main_v49_1), Function.update_self]
/-- Region 0's output window 7, `main_v49_1`, after the region. -/
theorem W2_v49_1 (c : Dev nD) : W2 m c main_v49_1 = (dat0 (ent0 m) c).arrAt 7 cfg0.N := by
  unfold W2; rw [Function.update_of_ne (StableHlo.devRef_ne_of_ne (by decide : main_v49_1 ≠ main_v49_2) : (Proc.devRef .tc main_v49_1 : DevRef τ sig) ≠ Proc.devRef .tc main_v49_2), Function.update_self]
/-- Region 0's output window 8, `main_v49_2`, after the region. -/
theorem W2_v49_2 (c : Dev nD) : W2 m c main_v49_2 = (dat0 (ent0 m) c).arrAt 8 cfg0.N := by
  unfold W2; rw [Function.update_self]
/-- Region 0 changes no other buffer. -/
theorem W2_of_ne (c : Dev nD) (b : Ref sig .tc) (h0 : b ≠ main_v49_0) (h1 : b ≠ main_v49_1) (h2 : b ≠ main_v49_2) : W2 m c b = W1 m c b := by
  unfold W2; rw [Function.update_of_ne (StableHlo.devRef_ne_of_ne h2 : (Proc.devRef .tc b : DevRef τ sig) ≠ Proc.devRef .tc main_v49_2), Function.update_of_ne (StableHlo.devRef_ne_of_ne h1 : (Proc.devRef .tc b : DevRef τ sig) ≠ Proc.devRef .tc main_v49_1), Function.update_of_ne (StableHlo.devRef_ne_of_ne h0 : (Proc.devRef .tc b : DevRef τ sig) ≠ Proc.devRef .tc main_v49_0)]
/-- Region 1's output window 5, `main_v68`, after the region. -/
theorem W4_v68 (c : Dev nD) : W4 m c main_v68 = (dat1 (ent1 m) c).arrAt 5 cfg1.N := by
  unfold W4; rw [Function.update_self]
/-- Region 1 changes no other buffer. -/
theorem W4_of_ne (c : Dev nD) (b : Ref sig .tc) (h0 : b ≠ main_v68) : W4 m c b = W3 m c b := by
  unfold W4; rw [Function.update_of_ne (StableHlo.devRef_ne_of_ne h0 : (Proc.devRef .tc b : DevRef τ sig) ≠ Proc.devRef .tc main_v68)]
/-- Region 2's output window 6, `main_v109_0`, after the region. -/
theorem W6_v109_0 (c : Dev nD) : W6 m c main_v109_0 = (dat2 (ent2 m) c).arrAt 6 cfg2.N := by
  unfold W6; rw [Function.update_of_ne (StableHlo.devRef_ne_of_ne (by decide : main_v109_0 ≠ main_v109_2) : (Proc.devRef .tc main_v109_0 : DevRef τ sig) ≠ Proc.devRef .tc main_v109_2), Function.update_of_ne (StableHlo.devRef_ne_of_ne (by decide : main_v109_0 ≠ main_v109_1) : (Proc.devRef .tc main_v109_0 : DevRef τ sig) ≠ Proc.devRef .tc main_v109_1), Function.update_self]
/-- Region 2's output window 7, `main_v109_1`, after the region. -/
theorem W6_v109_1 (c : Dev nD) : W6 m c main_v109_1 = (dat2 (ent2 m) c).arrAt 7 cfg2.N := by
  unfold W6; rw [Function.update_of_ne (StableHlo.devRef_ne_of_ne (by decide : main_v109_1 ≠ main_v109_2) : (Proc.devRef .tc main_v109_1 : DevRef τ sig) ≠ Proc.devRef .tc main_v109_2), Function.update_self]
/-- Region 2's output window 8, `main_v109_2`, after the region. -/
theorem W6_v109_2 (c : Dev nD) : W6 m c main_v109_2 = (dat2 (ent2 m) c).arrAt 8 cfg2.N := by
  unfold W6; rw [Function.update_self]
/-- Region 2 changes no other buffer. -/
theorem W6_of_ne (c : Dev nD) (b : Ref sig .tc) (h0 : b ≠ main_v109_0) (h1 : b ≠ main_v109_1) (h2 : b ≠ main_v109_2) : W6 m c b = W5 m c b := by
  unfold W6; rw [Function.update_of_ne (StableHlo.devRef_ne_of_ne h2 : (Proc.devRef .tc b : DevRef τ sig) ≠ Proc.devRef .tc main_v109_2), Function.update_of_ne (StableHlo.devRef_ne_of_ne h1 : (Proc.devRef .tc b : DevRef τ sig) ≠ Proc.devRef .tc main_v109_1), Function.update_of_ne (StableHlo.devRef_ne_of_ne h0 : (Proc.devRef .tc b : DevRef τ sig) ≠ Proc.devRef .tc main_v109_0)]
/-- Region 3's output window 5, `main_v128`, after the region. -/
theorem W8_v128 (c : Dev nD) : W8 m c main_v128 = (dat3 (ent3 m) c).arrAt 5 cfg3.N := by
  unfold W8; rw [Function.update_self]
/-- Region 3 changes no other buffer. -/
theorem W8_of_ne (c : Dev nD) (b : Ref sig .tc) (h0 : b ≠ main_v128) : W8 m c b = W7 m c b := by
  unfold W8; rw [Function.update_of_ne (StableHlo.devRef_ne_of_ne h0 : (Proc.devRef .tc b : DevRef τ sig) ≠ Proc.devRef .tc main_v128)]
/-- Region 4's output window 6, `main_v169_0`, after the region. -/
theorem W10_v169_0 (c : Dev nD) : W10 m c main_v169_0 = (dat4 (ent4 m) c).arrAt 6 cfg4.N := by
  unfold W10; rw [Function.update_of_ne (StableHlo.devRef_ne_of_ne (by decide : main_v169_0 ≠ main_v169_2) : (Proc.devRef .tc main_v169_0 : DevRef τ sig) ≠ Proc.devRef .tc main_v169_2), Function.update_of_ne (StableHlo.devRef_ne_of_ne (by decide : main_v169_0 ≠ main_v169_1) : (Proc.devRef .tc main_v169_0 : DevRef τ sig) ≠ Proc.devRef .tc main_v169_1), Function.update_self]
/-- Region 4's output window 7, `main_v169_1`, after the region. -/
theorem W10_v169_1 (c : Dev nD) : W10 m c main_v169_1 = (dat4 (ent4 m) c).arrAt 7 cfg4.N := by
  unfold W10; rw [Function.update_of_ne (StableHlo.devRef_ne_of_ne (by decide : main_v169_1 ≠ main_v169_2) : (Proc.devRef .tc main_v169_1 : DevRef τ sig) ≠ Proc.devRef .tc main_v169_2), Function.update_self]
/-- Region 4's output window 8, `main_v169_2`, after the region. -/
theorem W10_v169_2 (c : Dev nD) : W10 m c main_v169_2 = (dat4 (ent4 m) c).arrAt 8 cfg4.N := by
  unfold W10; rw [Function.update_self]
/-- Region 4 changes no other buffer. -/
theorem W10_of_ne (c : Dev nD) (b : Ref sig .tc) (h0 : b ≠ main_v169_0) (h1 : b ≠ main_v169_1) (h2 : b ≠ main_v169_2) : W10 m c b = W9 m c b := by
  unfold W10; rw [Function.update_of_ne (StableHlo.devRef_ne_of_ne h2 : (Proc.devRef .tc b : DevRef τ sig) ≠ Proc.devRef .tc main_v169_2), Function.update_of_ne (StableHlo.devRef_ne_of_ne h1 : (Proc.devRef .tc b : DevRef τ sig) ≠ Proc.devRef .tc main_v169_1), Function.update_of_ne (StableHlo.devRef_ne_of_ne h0 : (Proc.devRef .tc b : DevRef τ sig) ≠ Proc.devRef .tc main_v169_0)]
/-- Region 5's output window 5, `main_v188`, after the region. -/
theorem W12_v188 (c : Dev nD) : W12 m c main_v188 = (dat5 (ent5 m) c).arrAt 5 cfg5.N := by
  unfold W12; rw [Function.update_self]
/-- Region 5 changes no other buffer. -/
theorem W12_of_ne (c : Dev nD) (b : Ref sig .tc) (h0 : b ≠ main_v188) : W12 m c b = W11 m c b := by
  unfold W12; rw [Function.update_of_ne (StableHlo.devRef_ne_of_ne h0 : (Proc.devRef .tc b : DevRef τ sig) ≠ Proc.devRef .tc main_v188)]
/-- Region 6's output window 6, `main_v229_0`, after the region. -/
theorem W14_v229_0 (c : Dev nD) : W14 m c main_v229_0 = (dat6 (ent6 m) c).arrAt 6 cfg6.N := by
  unfold W14; rw [Function.update_of_ne (StableHlo.devRef_ne_of_ne (by decide : main_v229_0 ≠ main_v229_2) : (Proc.devRef .tc main_v229_0 : DevRef τ sig) ≠ Proc.devRef .tc main_v229_2), Function.update_of_ne (StableHlo.devRef_ne_of_ne (by decide : main_v229_0 ≠ main_v229_1) : (Proc.devRef .tc main_v229_0 : DevRef τ sig) ≠ Proc.devRef .tc main_v229_1), Function.update_self]
/-- Region 6's output window 7, `main_v229_1`, after the region. -/
theorem W14_v229_1 (c : Dev nD) : W14 m c main_v229_1 = (dat6 (ent6 m) c).arrAt 7 cfg6.N := by
  unfold W14; rw [Function.update_of_ne (StableHlo.devRef_ne_of_ne (by decide : main_v229_1 ≠ main_v229_2) : (Proc.devRef .tc main_v229_1 : DevRef τ sig) ≠ Proc.devRef .tc main_v229_2), Function.update_self]
/-- Region 6's output window 8, `main_v229_2`, after the region. -/
theorem W14_v229_2 (c : Dev nD) : W14 m c main_v229_2 = (dat6 (ent6 m) c).arrAt 8 cfg6.N := by
  unfold W14; rw [Function.update_self]
/-- Region 6 changes no other buffer. -/
theorem W14_of_ne (c : Dev nD) (b : Ref sig .tc) (h0 : b ≠ main_v229_0) (h1 : b ≠ main_v229_1) (h2 : b ≠ main_v229_2) : W14 m c b = W13 m c b := by
  unfold W14; rw [Function.update_of_ne (StableHlo.devRef_ne_of_ne h2 : (Proc.devRef .tc b : DevRef τ sig) ≠ Proc.devRef .tc main_v229_2), Function.update_of_ne (StableHlo.devRef_ne_of_ne h1 : (Proc.devRef .tc b : DevRef τ sig) ≠ Proc.devRef .tc main_v229_1), Function.update_of_ne (StableHlo.devRef_ne_of_ne h0 : (Proc.devRef .tc b : DevRef τ sig) ≠ Proc.devRef .tc main_v229_0)]
/-- Region 7's output window 5, `main_v248`, after the region. -/
theorem W16_v248 (c : Dev nD) : W16 m c main_v248 = (dat7 (ent7 m) c).arrAt 5 cfg7.N := by
  unfold W16; rw [Function.update_self]
/-- Region 7 changes no other buffer. -/
theorem W16_of_ne (c : Dev nD) (b : Ref sig .tc) (h0 : b ≠ main_v248) : W16 m c b = W15 m c b := by
  unfold W16; rw [Function.update_of_ne (StableHlo.devRef_ne_of_ne h0 : (Proc.devRef .tc b : DevRef τ sig) ≠ Proc.devRef .tc main_v248)]
/-- Region 8's output window 6, `main_v289_0`, after the region. -/
theorem W18_v289_0 (c : Dev nD) : W18 m c main_v289_0 = (dat8 (ent8 m) c).arrAt 6 cfg8.N := by
  unfold W18; rw [Function.update_of_ne (StableHlo.devRef_ne_of_ne (by decide : main_v289_0 ≠ main_v289_2) : (Proc.devRef .tc main_v289_0 : DevRef τ sig) ≠ Proc.devRef .tc main_v289_2), Function.update_of_ne (StableHlo.devRef_ne_of_ne (by decide : main_v289_0 ≠ main_v289_1) : (Proc.devRef .tc main_v289_0 : DevRef τ sig) ≠ Proc.devRef .tc main_v289_1), Function.update_self]
/-- Region 8's output window 7, `main_v289_1`, after the region. -/
theorem W18_v289_1 (c : Dev nD) : W18 m c main_v289_1 = (dat8 (ent8 m) c).arrAt 7 cfg8.N := by
  unfold W18; rw [Function.update_of_ne (StableHlo.devRef_ne_of_ne (by decide : main_v289_1 ≠ main_v289_2) : (Proc.devRef .tc main_v289_1 : DevRef τ sig) ≠ Proc.devRef .tc main_v289_2), Function.update_self]
/-- Region 8's output window 8, `main_v289_2`, after the region. -/
theorem W18_v289_2 (c : Dev nD) : W18 m c main_v289_2 = (dat8 (ent8 m) c).arrAt 8 cfg8.N := by
  unfold W18; rw [Function.update_self]
/-- Region 8 changes no other buffer. -/
theorem W18_of_ne (c : Dev nD) (b : Ref sig .tc) (h0 : b ≠ main_v289_0) (h1 : b ≠ main_v289_1) (h2 : b ≠ main_v289_2) : W18 m c b = W17 m c b := by
  unfold W18; rw [Function.update_of_ne (StableHlo.devRef_ne_of_ne h2 : (Proc.devRef .tc b : DevRef τ sig) ≠ Proc.devRef .tc main_v289_2), Function.update_of_ne (StableHlo.devRef_ne_of_ne h1 : (Proc.devRef .tc b : DevRef τ sig) ≠ Proc.devRef .tc main_v289_1), Function.update_of_ne (StableHlo.devRef_ne_of_ne h0 : (Proc.devRef .tc b : DevRef τ sig) ≠ Proc.devRef .tc main_v289_0)]
/-- Region 9's output window 5, `main_v308`, after the region. -/
theorem W20_v308 (c : Dev nD) : W20 m c main_v308 = (dat9 (ent9 m) c).arrAt 5 cfg9.N := by
  unfold W20; rw [Function.update_self]
/-- Region 9 changes no other buffer. -/
theorem W20_of_ne (c : Dev nD) (b : Ref sig .tc) (h0 : b ≠ main_v308) : W20 m c b = W19 m c b := by
  unfold W20; rw [Function.update_of_ne (StableHlo.devRef_ne_of_ne h0 : (Proc.devRef .tc b : DevRef τ sig) ≠ Proc.devRef .tc main_v308)]
/-- Region 10's output window 2, `main_v309_0`, after the region. -/
theorem W21_v309_0 (c : Dev nD) : W21 m c main_v309_0 = (dat10 (ent10 m) c).arrAt 2 cfg10.N := by
  unfold W21; rw [Function.update_of_ne (StableHlo.devRef_ne_of_ne (by decide : main_v309_0 ≠ main_v309_1) : (Proc.devRef .tc main_v309_0 : DevRef τ sig) ≠ Proc.devRef .tc main_v309_1), Function.update_self]
/-- Region 10's output window 3, `main_v309_1`, after the region. -/
theorem W21_v309_1 (c : Dev nD) : W21 m c main_v309_1 = (dat10 (ent10 m) c).arrAt 3 cfg10.N := by
  unfold W21; rw [Function.update_self]
/-- Region 10 changes no other buffer. -/
theorem W21_of_ne (c : Dev nD) (b : Ref sig .tc) (h0 : b ≠ main_v309_0) (h1 : b ≠ main_v309_1) : W21 m c b = W20 m c b := by
  unfold W21; rw [Function.update_of_ne (StableHlo.devRef_ne_of_ne h1 : (Proc.devRef .tc b : DevRef τ sig) ≠ Proc.devRef .tc main_v309_1), Function.update_of_ne (StableHlo.devRef_ne_of_ne h0 : (Proc.devRef .tc b : DevRef τ sig) ≠ Proc.devRef .tc main_v309_0)]

end Cert.KernelIdeal.Hand

end
-- ==== Proof.KI.RunPd.lean ====
import proofs.«409348_j89627377533173_1_alg».proof.Proof.KI.RunDefs
import proofs.«409348_j89627377533173_1_alg».proof.Proof.Gen.KernelIdeal.Regions

-- decided memberships and the launch kit's enumerations over 501 references recurse past the default depth
set_option maxRecDepth 2516

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ
variable (m : (ℓ : Loc nD τ sig) → Buf (Elt F) ℓ)

/-! ## The proof data family and the thread state -/

/-- Every pipeline's proof data, each at its region's entry contents: a literal `match`, so that the library's
    `Pipeline.pin pcfgs adm p` at a numeral reduces to the printed configuration. -/
def pdats : (p : Fin 11) → (c : Dev nD) → Dat τ (Elt F) Unit ℕ (UR sig nD τ) ℕ (Pipeline.pin (pcfgs (F := F)) adm p) c
  | ⟨0, _⟩ => fun c => dat0 (ent0 m) c
  | ⟨1, _⟩ => fun c => dat1 (ent1 m) c
  | ⟨2, _⟩ => fun c => dat2 (ent2 m) c
  | ⟨3, _⟩ => fun c => dat3 (ent3 m) c
  | ⟨4, _⟩ => fun c => dat4 (ent4 m) c
  | ⟨5, _⟩ => fun c => dat5 (ent5 m) c
  | ⟨6, _⟩ => fun c => dat6 (ent6 m) c
  | ⟨7, _⟩ => fun c => dat7 (ent7 m) c
  | ⟨8, _⟩ => fun c => dat8 (ent8 m) c
  | ⟨9, _⟩ => fun c => dat9 (ent9 m) c
  | ⟨10, _⟩ => fun c => dat10 (ent10 m) c
/-- No core owes another anything: no level is assigned. -/
abbrev L₀ : GSem nD τ sig → Finset Unit := fun _ => ∅
abbrev lv₀ : GSem nD τ sig → Unit → ℕ := fun _ _ => 0
/-- What rides beside the buffers through every item: the core's generator register at some state (a region's
    invariant takes it in and gives it back) and its `owes`, at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KI.RunReg0.lean ====
import proofs.«409348_j89627377533173_1_alg».proof.Proof.KI.RunPd
import Idealize.ShloMosaic.Lib.Pipeline.RegionsLoop

-- decided memberships and the launch kit's enumerations over 501 references recurse past the default depth
set_option maxRecDepth 2516

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ
variable (m : (ℓ : Loc nD τ sig) → Buf (Elt F) ℓ)

/-! ## The region's exit: each array at what the pipeline leaves, every other buffer as entered -/
theorem hF0_0 (c : Dev nD) : (dat0 (ent0 m) c).arrAt (0 : Fin 9) cfg0.N = ext0 m c (Pipeline.arrRef spec0 (0 : Fin 9)) :=
  ((dat0 (ent0 m) c).arrAt_in (0 : Fin 9) rfl _).trans ((A_eq0 (ent0 m) c (0 : Fin 9)).trans (W2_of_ne m c _ (by decide) (by decide) (by decide)).symm)
theorem hF0_1 (c : Dev nD) : (dat0 (ent0 m) c).arrAt (1 : Fin 9) cfg0.N = ext0 m c (Pipeline.arrRef spec0 (1 : Fin 9)) :=
  ((dat0 (ent0 m) c).arrAt_in (1 : Fin 9) rfl _).trans ((A_eq0 (ent0 m) c (1 : Fin 9)).trans (W2_of_ne m c _ (by decide) (by decide) (by decide)).symm)
theorem hF0_2 (c : Dev nD) : (dat0 (ent0 m) c).arrAt (2 : Fin 9) cfg0.N = ext0 m c (Pipeline.arrRef spec0 (2 : Fin 9)) :=
  ((dat0 (ent0 m) c).arrAt_in (2 : Fin 9) rfl _).trans ((A_eq0 (ent0 m) c (2 : Fin 9)).trans (W2_of_ne m c _ (by decide) (by decide) (by decide)).symm)
theorem hF0_3 (c : Dev nD) : (dat0 (ent0 m) c).arrAt (3 : Fin 9) cfg0.N = ext0 m c (Pipeline.arrRef spec0 (3 : Fin 9)) :=
  ((dat0 (ent0 m) c).arrAt_in (3 : Fin 9) rfl _).trans ((A_eq0 (ent0 m) c (3 : Fin 9)).trans (W2_of_ne m c _ (by decide) (by decide) (by decide)).symm)
theorem hF0_4 (c : Dev nD) : (dat0 (ent0 m) c).arrAt (4 : Fin 9) cfg0.N = ext0 m c (Pipeline.arrRef spec0 (4 : Fin 9)) :=
  ((dat0 (ent0 m) c).arrAt_in (4 : Fin 9) rfl _).trans ((A_eq0 (ent0 m) c (4 : Fin 9)).trans (W2_of_ne m c _ (by decide) (by decide) (by decide)).symm)
theorem hF0_5 (c : Dev nD) : (dat0 (ent0 m) c).arrAt (5 : Fin 9) cfg0.N = ext0 m c (Pipeline.arrRef spec0 (5 : Fin 9)) :=
  ((dat0 (ent0 m) c).arrAt_in (5 : Fin 9) rfl _).trans ((A_eq0 (ent0 m) c (5 : Fin 9)).trans (W2_of_ne m c _ (by decide) (by decide) (by decide)).symm)
theorem hF0_6 (c : Dev nD) : (dat0 (ent0 m) c).arrAt (6 : Fin 9) cfg0.N = ext0 m c (Pipeline.arrRef spec0 (6 : Fin 9)) :=
  (W2_v49_0 m c).symm
theorem hF0_7 (c : Dev nD) : (dat0 (ent0 m) c).arrAt (7 : Fin 9) cfg0.N = ext0 m c (Pipeline.arrRef spec0 (7 : Fin 9)) :=
  (W2_v49_1 m c).symm
theorem hF0_8 (c : Dev nD) : (dat0 (ent0 m) c).arrAt (8 : Fin 9) cfg0.N = ext0 m c (Pipeline.arrRef spec0 (8 : Fin 9)) :=
  (W2_v49_2 m c).symm
/-- At region 0's exit each of its arrays holds what the pipeline leaves: an output its folded write-backs (the chain's
    update there), an input what it held at entry (no write-back, and the updates are elsewhere); window by window, the
    9 windows enumerated by a decided disjunction. -/
theorem hF0 (c : Dev nD) : ∀ w : Fin 9, (dat0 (ent0 m) c).arrAt w cfg0.N = ext0 m c (Pipeline.arrRef spec0 w) := by
  intro w
  have hw : w = 0 ∨ w = 1 ∨ w = 2 ∨ w = 3 ∨ w = 4 ∨ w = 5 ∨ w = 6 ∨ w = 7 ∨ w = 8 := by revert w; decide
  rcases hw with rfl | rfl | rfl | rfl | rfl | rfl | rfl | rfl | rfl
  · exact hF0_0 m c
  · exact hF0_1 m c
  · exact hF0_2 m c
  · exact hF0_3 m c
  · exact hF0_4 m c
  · exact hF0_5 m c
  · exact hF0_6 m c
  · exact hF0_7 m c
  · exact hF0_8 m c
/-- and every other buffer what it held at entry. -/
theorem hrest0 (c : Dev nD) : ∀ b, b ∉ Finset.univ.image (Pipeline.arrRef spec0) → ext0 m c b = ent0 m c b :=
  fun b hb => W2_of_ne m c b
    (fun e => hb (Finset.mem_image.mpr ⟨6, Finset.mem_univ _, e.symm⟩))
    (fun e => hb (Finset.mem_image.mpr ⟨7, Finset.mem_univ _, e.symm⟩))
    (fun e => hb (Finset.mem_image.mpr ⟨8, Finset.mem_univ _, e.symm⟩))

/-! ## The region as a segment -/

-- a library lemma stated over `pin pcs a p` unifies with the pinned configuration only when unification may unfold
-- plain definitions in a metavariable's type
set_option backward.isDefEq.respectTransparency.types false in
/-- REGION 0 (custom_call 0) over the thread state: entered from every unscoped buffer at `W1`, left at `W2`.
    Its arrays split out of the unscoped buffers (`arrays_of_unscopedBufs`) and put back at the exit contents
    (`unscopedBufs_of_arrays`); the generator register and the scoped rest into the region's invariant (`PhiIn0`) and out
    (`PhiOut0`); nothing owed; no semaphore of the kernel's own. -/
def reg0 : RegionSeg (pcfgs (F := F)) adm (pdats m) () defs₀ Variants.none L₀ lv₀ 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ L₀ lv₀ 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (ent0 m c) fun w => A_eq0 (ent0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn0 (ent0 m) c)
    unfold Pipeline.ΦA
    iintro ⟨Hp, -, Hr⟩
    isplitl [Hr]; · iexact Hr
    iexact Hp
  hout c := by
    refine BIBase.Entails.trans (PhiOut0 (ent0 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (ent0 m c) (ext0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-- The record's two thread states by name (projections of the record above). -/
theorem reg0_pre (c : Dev nD) : (reg0 m).pre c = iprop(StableHlo.held (c : Thread nD τ) (Pipeline.ucRefs τ sig) (W1 m c) ∗ R c) := rfl
theorem reg0_post (c : Dev nD) : (reg0 m).post c = iprop(StableHlo.held (c : Thread nD τ) (Pipeline.ucRefs τ sig) (W2 m c) ∗ R c) := rfl

end Cert.KernelIdeal.Hand

end
-- ==== Proof.KI.RunReg1.lean ====
import proofs.«409348_j89627377533173_1_alg».proof.Proof.KI.RunPd
import Idealize.ShloMosaic.Lib.Pipeline.RegionsLoop

-- decided memberships and the launch kit's enumerations over 501 references recurse past the default depth
set_option maxRecDepth 2516

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ
variable (m : (ℓ : Loc nD τ sig) → Buf (Elt F) ℓ)

/-! ## The region's exit: each array at what the pipeline leaves, every other buffer as entered -/
theorem hF1_0 (c : Dev nD) : (dat1 (ent1 m) c).arrAt (0 : Fin 6) cfg1.N = ext1 m c (Pipeline.arrRef spec1 (0 : Fin 6)) :=
  ((dat1 (ent1 m) c).arrAt_in (0 : Fin 6) rfl _).trans ((A_eq1 (ent1 m) c (0 : Fin 6)).trans (W4_of_ne m c _ (by decide)).symm)
theorem hF1_1 (c : Dev nD) : (dat1 (ent1 m) c).arrAt (1 : Fin 6) cfg1.N = ext1 m c (Pipeline.arrRef spec1 (1 : Fin 6)) :=
  ((dat1 (ent1 m) c).arrAt_in (1 : Fin 6) rfl _).trans ((A_eq1 (ent1 m) c (1 : Fin 6)).trans (W4_of_ne m c _ (by decide)).symm)
theorem hF1_2 (c : Dev nD) : (dat1 (ent1 m) c).arrAt (2 : Fin 6) cfg1.N = ext1 m c (Pipeline.arrRef spec1 (2 : Fin 6)) :=
  ((dat1 (ent1 m) c).arrAt_in (2 : Fin 6) rfl _).trans ((A_eq1 (ent1 m) c (2 : Fin 6)).trans (W4_of_ne m c _ (by decide)).symm)
theorem hF1_3 (c : Dev nD) : (dat1 (ent1 m) c).arrAt (3 : Fin 6) cfg1.N = ext1 m c (Pipeline.arrRef spec1 (3 : Fin 6)) :=
  ((dat1 (ent1 m) c).arrAt_in (3 : Fin 6) rfl _).trans ((A_eq1 (ent1 m) c (3 : Fin 6)).trans (W4_of_ne m c _ (by decide)).symm)
theorem hF1_4 (c : Dev nD) : (dat1 (ent1 m) c).arrAt (4 : Fin 6) cfg1.N = ext1 m c (Pipeline.arrRef spec1 (4 : Fin 6)) :=
  ((dat1 (ent1 m) c).arrAt_in (4 : Fin 6) rfl _).trans ((A_eq1 (ent1 m) c (4 : Fin 6)).trans (W4_of_ne m c _ (by decide)).symm)
theorem hF1_5 (c : Dev nD) : (dat1 (ent1 m) c).arrAt (5 : Fin 6) cfg1.N = ext1 m c (Pipeline.arrRef spec1 (5 : Fin 6)) :=
  (W4_v68 m c).symm
/-- At region 1's exit each of its arrays holds what the pipeline leaves: an output its folded write-backs (the chain's
    update there), an input what it held at entry (no write-back, and the updates are elsewhere); window by window, the
    6 windows enumerated by a decided disjunction. -/
theorem hF1 (c : Dev nD) : ∀ w : Fin 6, (dat1 (ent1 m) c).arrAt w cfg1.N = ext1 m c (Pipeline.arrRef spec1 w) := by
  intro w
  have hw : w = 0 ∨ w = 1 ∨ w = 2 ∨ w = 3 ∨ w = 4 ∨ w = 5 := by revert w; decide
  rcases hw with rfl | rfl | rfl | rfl | rfl | rfl
  · exact hF1_0 m c
  · exact hF1_1 m c
  · exact hF1_2 m c
  · exact hF1_3 m c
  · exact hF1_4 m c
  · exact hF1_5 m c
/-- and every other buffer what it held at entry. -/
theorem hrest1 (c : Dev nD) : ∀ b, b ∉ Finset.univ.image (Pipeline.arrRef spec1) → ext1 m c b = ent1 m c b :=
  fun b hb => W4_of_ne m c b
    (fun e => hb (Finset.mem_image.mpr ⟨5, Finset.mem_univ _, e.symm⟩))

/-! ## The region as a segment -/

-- a library lemma stated over `pin pcs a p` unifies with the pinned configuration only when unification may unfold
-- plain definitions in a metavariable's type
set_option backward.isDefEq.respectTransparency.types false in
/-- REGION 1 (custom_call 1) over the thread state: entered from every unscoped buffer at `W3`, left at `W4`.
    Its arrays split out of the unscoped buffers (`arrays_of_unscopedBufs`) and put back at the exit contents
    (`unscopedBufs_of_arrays`); the generator register and the scoped rest into the region's invariant (`PhiIn1`) and out
    (`PhiOut1`); nothing owed; no semaphore of the kernel's own. -/
def reg1 : RegionSeg (pcfgs (F := F)) adm (pdats m) () defs₀ Variants.none L₀ lv₀ 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ L₀ lv₀ 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (ent1 m c) fun w => A_eq1 (ent1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn1 (ent1 m) c)
    unfold Pipeline.ΦA
    iintro ⟨Hp, -, Hr⟩
    isplitl [Hr]; · iexact Hr
    iexact Hp
  hout c := by
    refine BIBase.Entails.trans (PhiOut1 (ent1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (ent1 m c) (ext1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-- The record's two thread states by name (projections of the record above). -/
theorem reg1_pre (c : Dev nD) : (reg1 m).pre c = iprop(StableHlo.held (c : Thread nD τ) (Pipeline.ucRefs τ sig) (W3 m c) ∗ R c) := rfl
theorem reg1_post (c : Dev nD) : (reg1 m).post c = iprop(StableHlo.held (c : Thread nD τ) (Pipeline.ucRefs τ sig) (W4 m c) ∗ R c) := rfl

end Cert.KernelIdeal.Hand

end
-- ==== Proof.KI.RunReg2.lean ====
import proofs.«409348_j89627377533173_1_alg».proof.Proof.KI.RunPd
import Idealize.ShloMosaic.Lib.Pipeline.RegionsLoop

-- decided memberships and the launch kit's enumerations over 501 references recurse past the default depth
set_option maxRecDepth 2516

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ
variable (m : (ℓ : Loc nD τ sig) → Buf (Elt F) ℓ)

/-! ## The region's exit: each array at what the pipeline leaves, every other buffer as entered -/
theorem hF2_0 (c : Dev nD) : (dat2 (ent2 m) c).arrAt (0 : Fin 9) cfg2.N = ext2 m c (Pipeline.arrRef spec2 (0 : Fin 9)) :=
  ((dat2 (ent2 m) c).arrAt_in (0 : Fin 9) rfl _).trans ((A_eq2 (ent2 m) c (0 : Fin 9)).trans (W6_of_ne m c _ (by decide) (by decide) (by decide)).symm)
theorem hF2_1 (c : Dev nD) : (dat2 (ent2 m) c).arrAt (1 : Fin 9) cfg2.N = ext2 m c (Pipeline.arrRef spec2 (1 : Fin 9)) :=
  ((dat2 (ent2 m) c).arrAt_in (1 : Fin 9) rfl _).trans ((A_eq2 (ent2 m) c (1 : Fin 9)).trans (W6_of_ne m c _ (by decide) (by decide) (by decide)).symm)
theorem hF2_2 (c : Dev nD) : (dat2 (ent2 m) c).arrAt (2 : Fin 9) cfg2.N = ext2 m c (Pipeline.arrRef spec2 (2 : Fin 9)) :=
  ((dat2 (ent2 m) c).arrAt_in (2 : Fin 9) rfl _).trans ((A_eq2 (ent2 m) c (2 : Fin 9)).trans (W6_of_ne m c _ (by decide) (by decide) (by decide)).symm)
theorem hF2_3 (c : Dev nD) : (dat2 (ent2 m) c).arrAt (3 : Fin 9) cfg2.N = ext2 m c (Pipeline.arrRef spec2 (3 : Fin 9)) :=
  ((dat2 (ent2 m) c).arrAt_in (3 : Fin 9) rfl _).trans ((A_eq2 (ent2 m) c (3 : Fin 9)).trans (W6_of_ne m c _ (by decide) (by decide) (by decide)).symm)
theorem hF2_4 (c : Dev nD) : (dat2 (ent2 m) c).arrAt (4 : Fin 9) cfg2.N = ext2 m c (Pipeline.arrRef spec2 (4 : Fin 9)) :=
  ((dat2 (ent2 m) c).arrAt_in (4 : Fin 9) rfl _).trans ((A_eq2 (ent2 m) c (4 : Fin 9)).trans (W6_of_ne m c _ (by decide) (by decide) (by decide)).symm)
theorem hF2_5 (c : Dev nD) : (dat2 (ent2 m) c).arrAt (5 : Fin 9) cfg2.N = ext2 m c (Pipeline.arrRef spec2 (5 : Fin 9)) :=
  ((dat2 (ent2 m) c).arrAt_in (5 : Fin 9) rfl _).trans ((A_eq2 (ent2 m) c (5 : Fin 9)).trans (W6_of_ne m c _ (by decide) (by decide) (by decide)).symm)
theorem hF2_6 (c : Dev nD) : (dat2 (ent2 m) c).arrAt (6 : Fin 9) cfg2.N = ext2 m c (Pipeline.arrRef spec2 (6 : Fin 9)) :=
  (W6_v109_0 m c).symm
theorem hF2_7 (c : Dev nD) : (dat2 (ent2 m) c).arrAt (7 : Fin 9) cfg2.N = ext2 m c (Pipeline.arrRef spec2 (7 : Fin 9)) :=
  (W6_v109_1 m c).symm
theorem hF2_8 (c : Dev nD) : (dat2 (ent2 m) c).arrAt (8 : Fin 9) cfg2.N = ext2 m c (Pipeline.arrRef spec2 (8 : Fin 9)) :=
  (W6_v109_2 m c).symm
/-- At region 2's exit each of its arrays holds what the pipeline leaves: an output its folded write-backs (the chain's
    update there), an input what it held at entry (no write-back, and the updates are elsewhere); window by window, the
    9 windows enumerated by a decided disjunction. -/
theorem hF2 (c : Dev nD) : ∀ w : Fin 9, (dat2 (ent2 m) c).arrAt w cfg2.N = ext2 m c (Pipeline.arrRef spec2 w) := by
  intro w
  have hw : w = 0 ∨ w = 1 ∨ w = 2 ∨ w = 3 ∨ w = 4 ∨ w = 5 ∨ w = 6 ∨ w = 7 ∨ w = 8 := by revert w; decide
  rcases hw with rfl | rfl | rfl | rfl | rfl | rfl | rfl | rfl | rfl
  · exact hF2_0 m c
  · exact hF2_1 m c
  · exact hF2_2 m c
  · exact hF2_3 m c
  · exact hF2_4 m c
  · exact hF2_5 m c
  · exact hF2_6 m c
  · exact hF2_7 m c
  · exact hF2_8 m c
/-- and every other buffer what it held at entry. -/
theorem hrest2 (c : Dev nD) : ∀ b, b ∉ Finset.univ.image (Pipeline.arrRef spec2) → ext2 m c b = ent2 m c b :=
  fun b hb => W6_of_ne m c b
    (fun e => hb (Finset.mem_image.mpr ⟨6, Finset.mem_univ _, e.symm⟩))
    (fun e => hb (Finset.mem_image.mpr ⟨7, Finset.mem_univ _, e.symm⟩))
    (fun e => hb (Finset.mem_image.mpr ⟨8, Finset.mem_univ _, e.symm⟩))

/-! ## The region as a segment -/

-- a library lemma stated over `pin pcs a p` unifies with the pinned configuration only when unification may unfold
-- plain definitions in a metavariable's type
set_option backward.isDefEq.respectTransparency.types false in
/-- REGION 2 (custom_call 2) over the thread state: entered from every unscoped buffer at `W5`, left at `W6`.
    Its arrays split out of the unscoped buffers (`arrays_of_unscopedBufs`) and put back at the exit contents
    (`unscopedBufs_of_arrays`); the generator register and the scoped rest into the region's invariant (`PhiIn2`) and out
    (`PhiOut2`); nothing owed; no semaphore of the kernel's own. -/
def reg2 : RegionSeg (pcfgs (F := F)) adm (pdats m) () defs₀ Variants.none L₀ lv₀ 2 where
  win := launch2.win.to₀
  block_pos := launch2.block_pos
  stage_whole := launch2.stage_whole
  K := PEmpty
  osem k := k.elim
  ho := Pipeline.OwnSemFacts.none _
  hbody c := (body_obligation2 (ent2 m) c).loose
  hwaits := Pipeline.hwaits_of_owed_zero _ _ _ _ L₀ lv₀ 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (ent2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (ent2 m c) fun w => A_eq2 (ent2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn2 (ent2 m) c)
    unfold Pipeline.ΦA
    iintro ⟨Hp, -, Hr⟩
    isplitl [Hr]; · iexact Hr
    iexact Hp
  hout c := by
    refine BIBase.Entails.trans (PhiOut2 (ent2 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (ent2 m c) (ext2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-- The record's two thread states by name (projections of the record above). -/
theorem reg2_pre (c : Dev nD) : (reg2 m).pre c = iprop(StableHlo.held (c : Thread nD τ) (Pipeline.ucRefs τ sig) (W5 m c) ∗ R c) := rfl
theorem reg2_post (c : Dev nD) : (reg2 m).post c = iprop(StableHlo.held (c : Thread nD τ) (Pipeline.ucRefs τ sig) (W6 m c) ∗ R c) := rfl

end Cert.KernelIdeal.Hand

end
-- ==== Proof.KI.RunReg3.lean ====
import proofs.«409348_j89627377533173_1_alg».proof.Proof.KI.RunPd
import Idealize.ShloMosaic.Lib.Pipeline.RegionsLoop

-- decided memberships and the launch kit's enumerations over 501 references recurse past the default depth
set_option maxRecDepth 2516

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ
variable (m : (ℓ : Loc nD τ sig) → Buf (Elt F) ℓ)

/-! ## The region's exit: each array at what the pipeline leaves, every other buffer as entered -/
theorem hF3_0 (c : Dev nD) : (dat3 (ent3 m) c).arrAt (0 : Fin 6) cfg3.N = ext3 m c (Pipeline.arrRef spec3 (0 : Fin 6)) :=
  ((dat3 (ent3 m) c).arrAt_in (0 : Fin 6) rfl _).trans ((A_eq3 (ent3 m) c (0 : Fin 6)).trans (W8_of_ne m c _ (by decide)).symm)
theorem hF3_1 (c : Dev nD) : (dat3 (ent3 m) c).arrAt (1 : Fin 6) cfg3.N = ext3 m c (Pipeline.arrRef spec3 (1 : Fin 6)) :=
  ((dat3 (ent3 m) c).arrAt_in (1 : Fin 6) rfl _).trans ((A_eq3 (ent3 m) c (1 : Fin 6)).trans (W8_of_ne m c _ (by decide)).symm)
theorem hF3_2 (c : Dev nD) : (dat3 (ent3 m) c).arrAt (2 : Fin 6) cfg3.N = ext3 m c (Pipeline.arrRef spec3 (2 : Fin 6)) :=
  ((dat3 (ent3 m) c).arrAt_in (2 : Fin 6) rfl _).trans ((A_eq3 (ent3 m) c (2 : Fin 6)).trans (W8_of_ne m c _ (by decide)).symm)
theorem hF3_3 (c : Dev nD) : (dat3 (ent3 m) c).arrAt (3 : Fin 6) cfg3.N = ext3 m c (Pipeline.arrRef spec3 (3 : Fin 6)) :=
  ((dat3 (ent3 m) c).arrAt_in (3 : Fin 6) rfl _).trans ((A_eq3 (ent3 m) c (3 : Fin 6)).trans (W8_of_ne m c _ (by decide)).symm)
theorem hF3_4 (c : Dev nD) : (dat3 (ent3 m) c).arrAt (4 : Fin 6) cfg3.N = ext3 m c (Pipeline.arrRef spec3 (4 : Fin 6)) :=
  ((dat3 (ent3 m) c).arrAt_in (4 : Fin 6) rfl _).trans ((A_eq3 (ent3 m) c (4 : Fin 6)).trans (W8_of_ne m c _ (by decide)).symm)
theorem hF3_5 (c : Dev nD) : (dat3 (ent3 m) c).arrAt (5 : Fin 6) cfg3.N = ext3 m c (Pipeline.arrRef spec3 (5 : Fin 6)) :=
  (W8_v128 m c).symm
/-- At region 3's exit each of its arrays holds what the pipeline leaves: an output its folded write-backs (the chain's
    update there), an input what it held at entry (no write-back, and the updates are elsewhere); window by window, the
    6 windows enumerated by a decided disjunction. -/
theorem hF3 (c : Dev nD) : ∀ w : Fin 6, (dat3 (ent3 m) c).arrAt w cfg3.N = ext3 m c (Pipeline.arrRef spec3 w) := by
  intro w
  have hw : w = 0 ∨ w = 1 ∨ w = 2 ∨ w = 3 ∨ w = 4 ∨ w = 5 := by revert w; decide
  rcases hw with rfl | rfl | rfl | rfl | rfl | rfl
  · exact hF3_0 m c
  · exact hF3_1 m c
  · exact hF3_2 m c
  · exact hF3_3 m c
  · exact hF3_4 m c
  · exact hF3_5 m c
/-- and every other buffer what it held at entry. -/
theorem hrest3 (c : Dev nD) : ∀ b, b ∉ Finset.univ.image (Pipeline.arrRef spec3) → ext3 m c b = ent3 m c b :=
  fun b hb => W8_of_ne m c b
    (fun e => hb (Finset.mem_image.mpr ⟨5, Finset.mem_univ _, e.symm⟩))

/-! ## The region as a segment -/

-- a library lemma stated over `pin pcs a p` unifies with the pinned configuration only when unification may unfold
-- plain definitions in a metavariable's type
set_option backward.isDefEq.respectTransparency.types false in
/-- REGION 3 (custom_call 3) over the thread state: entered from every unscoped buffer at `W7`, left at `W8`.
    Its arrays split out of the unscoped buffers (`arrays_of_unscopedBufs`) and put back at the exit contents
    (`unscopedBufs_of_arrays`); the generator register and the scoped rest into the region's invariant (`PhiIn3`) and out
    (`PhiOut3`); nothing owed; no semaphore of the kernel's own. -/
def reg3 : RegionSeg (pcfgs (F := F)) adm (pdats m) () defs₀ Variants.none L₀ lv₀ 3 where
  win := launch3.win.to₀
  block_pos := launch3.block_pos
  stage_whole := launch3.stage_whole
  K := PEmpty
  osem k := k.elim
  ho := Pipeline.OwnSemFacts.none _
  hbody c := (body_obligation3 (ent3 m) c).loose
  hwaits := Pipeline.hwaits_of_owed_zero _ _ _ _ L₀ lv₀ 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (ent3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (ent3 m c) fun w => A_eq3 (ent3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn3 (ent3 m) c)
    unfold Pipeline.ΦA
    iintro ⟨Hp, -, Hr⟩
    isplitl [Hr]; · iexact Hr
    iexact Hp
  hout c := by
    refine BIBase.Entails.trans (PhiOut3 (ent3 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (ent3 m c) (ext3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-- The record's two thread states by name (projections of the record above). -/
theorem reg3_pre (c : Dev nD) : (reg3 m).pre c = iprop(StableHlo.held (c : Thread nD τ) (Pipeline.ucRefs τ sig) (W7 m c) ∗ R c) := rfl
theorem reg3_post (c : Dev nD) : (reg3 m).post c = iprop(StableHlo.held (c : Thread nD τ) (Pipeline.ucRefs τ sig) (W8 m c) ∗ R c) := rfl

end Cert.KernelIdeal.Hand

end
-- ==== Proof.KI.RunReg4.lean ====
import proofs.«409348_j89627377533173_1_alg».proof.Proof.KI.RunPd
import Idealize.ShloMosaic.Lib.Pipeline.RegionsLoop

-- decided memberships and the launch kit's enumerations over 501 references recurse past the default depth
set_option maxRecDepth 2516

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ
variable (m : (ℓ : Loc nD τ sig) → Buf (Elt F) ℓ)

/-! ## The region's exit: each array at what the pipeline leaves, every other buffer as entered -/
theorem hF4_0 (c : Dev nD) : (dat4 (ent4 m) c).arrAt (0 : Fin 9) cfg4.N = ext4 m c (Pipeline.arrRef spec4 (0 : Fin 9)) :=
  ((dat4 (ent4 m) c).arrAt_in (0 : Fin 9) rfl _).trans ((A_eq4 (ent4 m) c (0 : Fin 9)).trans (W10_of_ne m c _ (by decide) (by decide) (by decide)).symm)
theorem hF4_1 (c : Dev nD) : (dat4 (ent4 m) c).arrAt (1 : Fin 9) cfg4.N = ext4 m c (Pipeline.arrRef spec4 (1 : Fin 9)) :=
  ((dat4 (ent4 m) c).arrAt_in (1 : Fin 9) rfl _).trans ((A_eq4 (ent4 m) c (1 : Fin 9)).trans (W10_of_ne m c _ (by decide) (by decide) (by decide)).symm)
theorem hF4_2 (c : Dev nD) : (dat4 (ent4 m) c).arrAt (2 : Fin 9) cfg4.N = ext4 m c (Pipeline.arrRef spec4 (2 : Fin 9)) :=
  ((dat4 (ent4 m) c).arrAt_in (2 : Fin 9) rfl _).trans ((A_eq4 (ent4 m) c (2 : Fin 9)).trans (W10_of_ne m c _ (by decide) (by decide) (by decide)).symm)
theorem hF4_3 (c : Dev nD) : (dat4 (ent4 m) c).arrAt (3 : Fin 9) cfg4.N = ext4 m c (Pipeline.arrRef spec4 (3 : Fin 9)) :=
  ((dat4 (ent4 m) c).arrAt_in (3 : Fin 9) rfl _).trans ((A_eq4 (ent4 m) c (3 : Fin 9)).trans (W10_of_ne m c _ (by decide) (by decide) (by decide)).symm)
theorem hF4_4 (c : Dev nD) : (dat4 (ent4 m) c).arrAt (4 : Fin 9) cfg4.N = ext4 m c (Pipeline.arrRef spec4 (4 : Fin 9)) :=
  ((dat4 (ent4 m) c).arrAt_in (4 : Fin 9) rfl _).trans ((A_eq4 (ent4 m) c (4 : Fin 9)).trans (W10_of_ne m c _ (by decide) (by decide) (by decide)).symm)
theorem hF4_5 (c : Dev nD) : (dat4 (ent4 m) c).arrAt (5 : Fin 9) cfg4.N = ext4 m c (Pipeline.arrRef spec4 (5 : Fin 9)) :=
  ((dat4 (ent4 m) c).arrAt_in (5 : Fin 9) rfl _).trans ((A_eq4 (ent4 m) c (5 : Fin 9)).trans (W10_of_ne m c _ (by decide) (by decide) (by decide)).symm)
theorem hF4_6 (c : Dev nD) : (dat4 (ent4 m) c).arrAt (6 : Fin 9) cfg4.N = ext4 m c (Pipeline.arrRef spec4 (6 : Fin 9)) :=
  (W10_v169_0 m c).symm
theorem hF4_7 (c : Dev nD) : (dat4 (ent4 m) c).arrAt (7 : Fin 9) cfg4.N = ext4 m c (Pipeline.arrRef spec4 (7 : Fin 9)) :=
  (W10_v169_1 m c).symm
theorem hF4_8 (c : Dev nD) : (dat4 (ent4 m) c).arrAt (8 : Fin 9) cfg4.N = ext4 m c (Pipeline.arrRef spec4 (8 : Fin 9)) :=
  (W10_v169_2 m c).symm
/-- At region 4's exit each of its arrays holds what the pipeline leaves: an output its folded write-backs (the chain's
    update there), an input what it held at entry (no write-back, and the updates are elsewhere); window by window, the
    9 windows enumerated by a decided disjunction. -/
theorem hF4 (c : Dev nD) : ∀ w : Fin 9, (dat4 (ent4 m) c).arrAt w cfg4.N = ext4 m c (Pipeline.arrRef spec4 w) := by
  intro w
  have hw : w = 0 ∨ w = 1 ∨ w = 2 ∨ w = 3 ∨ w = 4 ∨ w = 5 ∨ w = 6 ∨ w = 7 ∨ w = 8 := by revert w; decide
  rcases hw with rfl | rfl | rfl | rfl | rfl | rfl | rfl | rfl | rfl
  · exact hF4_0 m c
  · exact hF4_1 m c
  · exact hF4_2 m c
  · exact hF4_3 m c
  · exact hF4_4 m c
  · exact hF4_5 m c
  · exact hF4_6 m c
  · exact hF4_7 m c
  · exact hF4_8 m c
/-- and every other buffer what it held at entry. -/
theorem hrest4 (c : Dev nD) : ∀ b, b ∉ Finset.univ.image (Pipeline.arrRef spec4) → ext4 m c b = ent4 m c b :=
  fun b hb => W10_of_ne m c b
    (fun e => hb (Finset.mem_image.mpr ⟨6, Finset.mem_univ _, e.symm⟩))
    (fun e => hb (Finset.mem_image.mpr ⟨7, Finset.mem_univ _, e.symm⟩))
    (fun e => hb (Finset.mem_image.mpr ⟨8, Finset.mem_univ _, e.symm⟩))

/-! ## The region as a segment -/

-- a library lemma stated over `pin pcs a p` unifies with the pinned configuration only when unification may unfold
-- plain definitions in a metavariable's type
set_option backward.isDefEq.respectTransparency.types false in
/-- REGION 4 (custom_call 4) over the thread state: entered from every unscoped buffer at `W9`, left at `W10`.
    Its arrays split out of the unscoped buffers (`arrays_of_unscopedBufs`) and put back at the exit contents
    (`unscopedBufs_of_arrays`); the generator register and the scoped rest into the region's invariant (`PhiIn4`) and out
    (`PhiOut4`); nothing owed; no semaphore of the kernel's own. -/
def reg4 : RegionSeg (pcfgs (F := F)) adm (pdats m) () defs₀ Variants.none L₀ lv₀ 4 where
  win := launch4.win.to₀
  block_pos := launch4.block_pos
  stage_whole := launch4.stage_whole
  K := PEmpty
  osem k := k.elim
  ho := Pipeline.OwnSemFacts.none _
  hbody c := (body_obligation4 (ent4 m) c).loose
  hwaits := Pipeline.hwaits_of_owed_zero _ _ _ _ L₀ lv₀ 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (ent4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (ent4 m c) fun w => A_eq4 (ent4 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn4 (ent4 m) c)
    unfold Pipeline.ΦA
    iintro ⟨Hp, -, Hr⟩
    isplitl [Hr]; · iexact Hr
    iexact Hp
  hout c := by
    refine BIBase.Entails.trans (PhiOut4 (ent4 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (ent4 m c) (ext4 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-- The record's two thread states by name (projections of the record above). -/
theorem reg4_pre (c : Dev nD) : (reg4 m).pre c = iprop(StableHlo.held (c : Thread nD τ) (Pipeline.ucRefs τ sig) (W9 m c) ∗ R c) := rfl
theorem reg4_post (c : Dev nD) : (reg4 m).post c = iprop(StableHlo.held (c : Thread nD τ) (Pipeline.ucRefs τ sig) (W10 m c) ∗ R c) := rfl

end Cert.KernelIdeal.Hand

end
-- ==== Proof.KI.RunReg5.lean ====
import proofs.«409348_j89627377533173_1_alg».proof.Proof.KI.RunPd
import Idealize.ShloMosaic.Lib.Pipeline.RegionsLoop

-- decided memberships and the launch kit's enumerations over 501 references recurse past the default depth
set_option maxRecDepth 2516

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ
variable (m : (ℓ : Loc nD τ sig) → Buf (Elt F) ℓ)

/-! ## The region's exit: each array at what the pipeline leaves, every other buffer as entered -/
theorem hF5_0 (c : Dev nD) : (dat5 (ent5 m) c).arrAt (0 : Fin 6) cfg5.N = ext5 m c (Pipeline.arrRef spec5 (0 : Fin 6)) :=
  ((dat5 (ent5 m) c).arrAt_in (0 : Fin 6) rfl _).trans ((A_eq5 (ent5 m) c (0 : Fin 6)).trans (W12_of_ne m c _ (by decide)).symm)
theorem hF5_1 (c : Dev nD) : (dat5 (ent5 m) c).arrAt (1 : Fin 6) cfg5.N = ext5 m c (Pipeline.arrRef spec5 (1 : Fin 6)) :=
  ((dat5 (ent5 m) c).arrAt_in (1 : Fin 6) rfl _).trans ((A_eq5 (ent5 m) c (1 : Fin 6)).trans (W12_of_ne m c _ (by decide)).symm)
theorem hF5_2 (c : Dev nD) : (dat5 (ent5 m) c).arrAt (2 : Fin 6) cfg5.N = ext5 m c (Pipeline.arrRef spec5 (2 : Fin 6)) :=
  ((dat5 (ent5 m) c).arrAt_in (2 : Fin 6) rfl _).trans ((A_eq5 (ent5 m) c (2 : Fin 6)).trans (W12_of_ne m c _ (by decide)).symm)
theorem hF5_3 (c : Dev nD) : (dat5 (ent5 m) c).arrAt (3 : Fin 6) cfg5.N = ext5 m c (Pipeline.arrRef spec5 (3 : Fin 6)) :=
  ((dat5 (ent5 m) c).arrAt_in (3 : Fin 6) rfl _).trans ((A_eq5 (ent5 m) c (3 : Fin 6)).trans (W12_of_ne m c _ (by decide)).symm)
theorem hF5_4 (c : Dev nD) : (dat5 (ent5 m) c).arrAt (4 : Fin 6) cfg5.N = ext5 m c (Pipeline.arrRef spec5 (4 : Fin 6)) :=
  ((dat5 (ent5 m) c).arrAt_in (4 : Fin 6) rfl _).trans ((A_eq5 (ent5 m) c (4 : Fin 6)).trans (W12_of_ne m c _ (by decide)).symm)
theorem hF5_5 (c : Dev nD) : (dat5 (ent5 m) c).arrAt (5 : Fin 6) cfg5.N = ext5 m c (Pipeline.arrRef spec5 (5 : Fin 6)) :=
  (W12_v188 m c).symm
/-- At region 5's exit each of its arrays holds what the pipeline leaves: an output its folded write-backs (the chain's
    update there), an input what it held at entry (no write-back, and the updates are elsewhere); window by window, the
    6 windows enumerated by a decided disjunction. -/
theorem hF5 (c : Dev nD) : ∀ w : Fin 6, (dat5 (ent5 m) c).arrAt w cfg5.N = ext5 m c (Pipeline.arrRef spec5 w) := by
  intro w
  have hw : w = 0 ∨ w = 1 ∨ w = 2 ∨ w = 3 ∨ w = 4 ∨ w = 5 := by revert w; decide
  rcases hw with rfl | rfl | rfl | rfl | rfl | rfl
  · exact hF5_0 m c
  · exact hF5_1 m c
  · exact hF5_2 m c
  · exact hF5_3 m c
  · exact hF5_4 m c
  · exact hF5_5 m c
/-- and every other buffer what it held at entry. -/
theorem hrest5 (c : Dev nD) : ∀ b, b ∉ Finset.univ.image (Pipeline.arrRef spec5) → ext5 m c b = ent5 m c b :=
  fun b hb => W12_of_ne m c b
    (fun e => hb (Finset.mem_image.mpr ⟨5, Finset.mem_univ _, e.symm⟩))

/-! ## The region as a segment -/

-- a library lemma stated over `pin pcs a p` unifies with the pinned configuration only when unification may unfold
-- plain definitions in a metavariable's type
set_option backward.isDefEq.respectTransparency.types false in
/-- REGION 5 (custom_call 5) over the thread state: entered from every unscoped buffer at `W11`, left at `W12`.
    Its arrays split out of the unscoped buffers (`arrays_of_unscopedBufs`) and put back at the exit contents
    (`unscopedBufs_of_arrays`); the generator register and the scoped rest into the region's invariant (`PhiIn5`) and out
    (`PhiOut5`); nothing owed; no semaphore of the kernel's own. -/
def reg5 : RegionSeg (pcfgs (F := F)) adm (pdats m) () defs₀ Variants.none L₀ lv₀ 5 where
  win := launch5.win.to₀
  block_pos := launch5.block_pos
  stage_whole := launch5.stage_whole
  K := PEmpty
  osem k := k.elim
  ho := Pipeline.OwnSemFacts.none _
  hbody c := (body_obligation5 (ent5 m) c).loose
  hwaits := Pipeline.hwaits_of_owed_zero _ _ _ _ L₀ lv₀ 5 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec5 c (ent5 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (ent5 m c) fun w => A_eq5 (ent5 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn5 (ent5 m) c)
    unfold Pipeline.ΦA
    iintro ⟨Hp, -, Hr⟩
    isplitl [Hr]; · iexact Hr
    iexact Hp
  hout c := by
    refine BIBase.Entails.trans (PhiOut5 (ent5 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (ent5 m c) (ext5 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-- The record's two thread states by name (projections of the record above). -/
theorem reg5_pre (c : Dev nD) : (reg5 m).pre c = iprop(StableHlo.held (c : Thread nD τ) (Pipeline.ucRefs τ sig) (W11 m c) ∗ R c) := rfl
theorem reg5_post (c : Dev nD) : (reg5 m).post c = iprop(StableHlo.held (c : Thread nD τ) (Pipeline.ucRefs τ sig) (W12 m c) ∗ R c) := rfl

end Cert.KernelIdeal.Hand

end
-- ==== Proof.KI.RunReg6.lean ====
import proofs.«409348_j89627377533173_1_alg».proof.Proof.KI.RunPd
import Idealize.ShloMosaic.Lib.Pipeline.RegionsLoop

-- decided memberships and the launch kit's enumerations over 501 references recurse past the default depth
set_option maxRecDepth 2516

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ
variable (m : (ℓ : Loc nD τ sig) → Buf (Elt F) ℓ)

/-! ## The region's exit: each array at what the pipeline leaves, every other buffer as entered -/
theorem hF6_0 (c : Dev nD) : (dat6 (ent6 m) c).arrAt (0 : Fin 9) cfg6.N = ext6 m c (Pipeline.arrRef spec6 (0 : Fin 9)) :=
  ((dat6 (ent6 m) c).arrAt_in (0 : Fin 9) rfl _).trans ((A_eq6 (ent6 m) c (0 : Fin 9)).trans (W14_of_ne m c _ (by decide) (by decide) (by decide)).symm)
theorem hF6_1 (c : Dev nD) : (dat6 (ent6 m) c).arrAt (1 : Fin 9) cfg6.N = ext6 m c (Pipeline.arrRef spec6 (1 : Fin 9)) :=
  ((dat6 (ent6 m) c).arrAt_in (1 : Fin 9) rfl _).trans ((A_eq6 (ent6 m) c (1 : Fin 9)).trans (W14_of_ne m c _ (by decide) (by decide) (by decide)).symm)
theorem hF6_2 (c : Dev nD) : (dat6 (ent6 m) c).arrAt (2 : Fin 9) cfg6.N = ext6 m c (Pipeline.arrRef spec6 (2 : Fin 9)) :=
  ((dat6 (ent6 m) c).arrAt_in (2 : Fin 9) rfl _).trans ((A_eq6 (ent6 m) c (2 : Fin 9)).trans (W14_of_ne m c _ (by decide) (by decide) (by decide)).symm)
theorem hF6_3 (c : Dev nD) : (dat6 (ent6 m) c).arrAt (3 : Fin 9) cfg6.N = ext6 m c (Pipeline.arrRef spec6 (3 : Fin 9)) :=
  ((dat6 (ent6 m) c).arrAt_in (3 : Fin 9) rfl _).trans ((A_eq6 (ent6 m) c (3 : Fin 9)).trans (W14_of_ne m c _ (by decide) (by decide) (by decide)).symm)
theorem hF6_4 (c : Dev nD) : (dat6 (ent6 m) c).arrAt (4 : Fin 9) cfg6.N = ext6 m c (Pipeline.arrRef spec6 (4 : Fin 9)) :=
  ((dat6 (ent6 m) c).arrAt_in (4 : Fin 9) rfl _).trans ((A_eq6 (ent6 m) c (4 : Fin 9)).trans (W14_of_ne m c _ (by decide) (by decide) (by decide)).symm)
theorem hF6_5 (c : Dev nD) : (dat6 (ent6 m) c).arrAt (5 : Fin 9) cfg6.N = ext6 m c (Pipeline.arrRef spec6 (5 : Fin 9)) :=
  ((dat6 (ent6 m) c).arrAt_in (5 : Fin 9) rfl _).trans ((A_eq6 (ent6 m) c (5 : Fin 9)).trans (W14_of_ne m c _ (by decide) (by decide) (by decide)).symm)
theorem hF6_6 (c : Dev nD) : (dat6 (ent6 m) c).arrAt (6 : Fin 9) cfg6.N = ext6 m c (Pipeline.arrRef spec6 (6 : Fin 9)) :=
  (W14_v229_0 m c).symm
theorem hF6_7 (c : Dev nD) : (dat6 (ent6 m) c).arrAt (7 : Fin 9) cfg6.N = ext6 m c (Pipeline.arrRef spec6 (7 : Fin 9)) :=
  (W14_v229_1 m c).symm
theorem hF6_8 (c : Dev nD) : (dat6 (ent6 m) c).arrAt (8 : Fin 9) cfg6.N = ext6 m c (Pipeline.arrRef spec6 (8 : Fin 9)) :=
  (W14_v229_2 m c).symm
/-- At region 6's exit each of its arrays holds what the pipeline leaves: an output its folded write-backs (the chain's
    update there), an input what it held at entry (no write-back, and the updates are elsewhere); window by window, the
    9 windows enumerated by a decided disjunction. -/
theorem hF6 (c : Dev nD) : ∀ w : Fin 9, (dat6 (ent6 m) c).arrAt w cfg6.N = ext6 m c (Pipeline.arrRef spec6 w) := by
  intro w
  have hw : w = 0 ∨ w = 1 ∨ w = 2 ∨ w = 3 ∨ w = 4 ∨ w = 5 ∨ w = 6 ∨ w = 7 ∨ w = 8 := by revert w; decide
  rcases hw with rfl | rfl | rfl | rfl | rfl | rfl | rfl | rfl | rfl
  · exact hF6_0 m c
  · exact hF6_1 m c
  · exact hF6_2 m c
  · exact hF6_3 m c
  · exact hF6_4 m c
  · exact hF6_5 m c
  · exact hF6_6 m c
  · exact hF6_7 m c
  · exact hF6_8 m c
/-- and every other buffer what it held at entry. -/
theorem hrest6 (c : Dev nD) : ∀ b, b ∉ Finset.univ.image (Pipeline.arrRef spec6) → ext6 m c b = ent6 m c b :=
  fun b hb => W14_of_ne m c b
    (fun e => hb (Finset.mem_image.mpr ⟨6, Finset.mem_univ _, e.symm⟩))
    (fun e => hb (Finset.mem_image.mpr ⟨7, Finset.mem_univ _, e.symm⟩))
    (fun e => hb (Finset.mem_image.mpr ⟨8, Finset.mem_univ _, e.symm⟩))

/-! ## The region as a segment -/

-- a library lemma stated over `pin pcs a p` unifies with the pinned configuration only when unification may unfold
-- plain definitions in a metavariable's type
set_option backward.isDefEq.respectTransparency.types false in
/-- REGION 6 (custom_call 6) over the thread state: entered from every unscoped buffer at `W13`, left at `W14`.
    Its arrays split out of the unscoped buffers (`arrays_of_unscopedBufs`) and put back at the exit contents
    (`unscopedBufs_of_arrays`); the generator register and the scoped rest into the region's invariant (`PhiIn6`) and out
    (`PhiOut6`); nothing owed; no semaphore of the kernel's own. -/
def reg6 : RegionSeg (pcfgs (F := F)) adm (pdats m) () defs₀ Variants.none L₀ lv₀ 6 where
  win := launch6.win.to₀
  block_pos := launch6.block_pos
  stage_whole := launch6.stage_whole
  K := PEmpty
  osem k := k.elim
  ho := Pipeline.OwnSemFacts.none _
  hbody c := (body_obligation6 (ent6 m) c).loose
  hwaits := Pipeline.hwaits_of_owed_zero _ _ _ _ L₀ lv₀ 6 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec6 c (ent6 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (ent6 m c) fun w => A_eq6 (ent6 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn6 (ent6 m) c)
    unfold Pipeline.ΦA
    iintro ⟨Hp, -, Hr⟩
    isplitl [Hr]; · iexact Hr
    iexact Hp
  hout c := by
    refine BIBase.Entails.trans (PhiOut6 (ent6 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (ent6 m c) (ext6 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-- The record's two thread states by name (projections of the record above). -/
theorem reg6_pre (c : Dev nD) : (reg6 m).pre c = iprop(StableHlo.held (c : Thread nD τ) (Pipeline.ucRefs τ sig) (W13 m c) ∗ R c) := rfl
theorem reg6_post (c : Dev nD) : (reg6 m).post c = iprop(StableHlo.held (c : Thread nD τ) (Pipeline.ucRefs τ sig) (W14 m c) ∗ R c) := rfl

end Cert.KernelIdeal.Hand

end
-- ==== Proof.KI.RunReg7.lean ====
import proofs.«409348_j89627377533173_1_alg».proof.Proof.KI.RunPd
import Idealize.ShloMosaic.Lib.Pipeline.RegionsLoop

-- decided memberships and the launch kit's enumerations over 501 references recurse past the default depth
set_option maxRecDepth 2516

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ
variable (m : (ℓ : Loc nD τ sig) → Buf (Elt F) ℓ)

/-! ## The region's exit: each array at what the pipeline leaves, every other buffer as entered -/
theorem hF7_0 (c : Dev nD) : (dat7 (ent7 m) c).arrAt (0 : Fin 6) cfg7.N = ext7 m c (Pipeline.arrRef spec7 (0 : Fin 6)) :=
  ((dat7 (ent7 m) c).arrAt_in (0 : Fin 6) rfl _).trans ((A_eq7 (ent7 m) c (0 : Fin 6)).trans (W16_of_ne m c _ (by decide)).symm)
theorem hF7_1 (c : Dev nD) : (dat7 (ent7 m) c).arrAt (1 : Fin 6) cfg7.N = ext7 m c (Pipeline.arrRef spec7 (1 : Fin 6)) :=
  ((dat7 (ent7 m) c).arrAt_in (1 : Fin 6) rfl _).trans ((A_eq7 (ent7 m) c (1 : Fin 6)).trans (W16_of_ne m c _ (by decide)).symm)
theorem hF7_2 (c : Dev nD) : (dat7 (ent7 m) c).arrAt (2 : Fin 6) cfg7.N = ext7 m c (Pipeline.arrRef spec7 (2 : Fin 6)) :=
  ((dat7 (ent7 m) c).arrAt_in (2 : Fin 6) rfl _).trans ((A_eq7 (ent7 m) c (2 : Fin 6)).trans (W16_of_ne m c _ (by decide)).symm)
theorem hF7_3 (c : Dev nD) : (dat7 (ent7 m) c).arrAt (3 : Fin 6) cfg7.N = ext7 m c (Pipeline.arrRef spec7 (3 : Fin 6)) :=
  ((dat7 (ent7 m) c).arrAt_in (3 : Fin 6) rfl _).trans ((A_eq7 (ent7 m) c (3 : Fin 6)).trans (W16_of_ne m c _ (by decide)).symm)
theorem hF7_4 (c : Dev nD) : (dat7 (ent7 m) c).arrAt (4 : Fin 6) cfg7.N = ext7 m c (Pipeline.arrRef spec7 (4 : Fin 6)) :=
  ((dat7 (ent7 m) c).arrAt_in (4 : Fin 6) rfl _).trans ((A_eq7 (ent7 m) c (4 : Fin 6)).trans (W16_of_ne m c _ (by decide)).symm)
theorem hF7_5 (c : Dev nD) : (dat7 (ent7 m) c).arrAt (5 : Fin 6) cfg7.N = ext7 m c (Pipeline.arrRef spec7 (5 : Fin 6)) :=
  (W16_v248 m c).symm
/-- At region 7's exit each of its arrays holds what the pipeline leaves: an output its folded write-backs (the chain's
    update there), an input what it held at entry (no write-back, and the updates are elsewhere); window by window, the
    6 windows enumerated by a decided disjunction. -/
theorem hF7 (c : Dev nD) : ∀ w : Fin 6, (dat7 (ent7 m) c).arrAt w cfg7.N = ext7 m c (Pipeline.arrRef spec7 w) := by
  intro w
  have hw : w = 0 ∨ w = 1 ∨ w = 2 ∨ w = 3 ∨ w = 4 ∨ w = 5 := by revert w; decide
  rcases hw with rfl | rfl | rfl | rfl | rfl | rfl
  · exact hF7_0 m c
  · exact hF7_1 m c
  · exact hF7_2 m c
  · exact hF7_3 m c
  · exact hF7_4 m c
  · exact hF7_5 m c
/-- and every other buffer what it held at entry. -/
theorem hrest7 (c : Dev nD) : ∀ b, b ∉ Finset.univ.image (Pipeline.arrRef spec7) → ext7 m c b = ent7 m c b :=
  fun b hb => W16_of_ne m c b
    (fun e => hb (Finset.mem_image.mpr ⟨5, Finset.mem_univ _, e.symm⟩))

/-! ## The region as a segment -/

-- a library lemma stated over `pin pcs a p` unifies with the pinned configuration only when unification may unfold
-- plain definitions in a metavariable's type
set_option backward.isDefEq.respectTransparency.types false in
/-- REGION 7 (custom_call 7) over the thread state: entered from every unscoped buffer at `W15`, left at `W16`.
    Its arrays split out of the unscoped buffers (`arrays_of_unscopedBufs`) and put back at the exit contents
    (`unscopedBufs_of_arrays`); the generator register and the scoped rest into the region's invariant (`PhiIn7`) and out
    (`PhiOut7`); nothing owed; no semaphore of the kernel's own. -/
def reg7 : RegionSeg (pcfgs (F := F)) adm (pdats m) () defs₀ Variants.none L₀ lv₀ 7 where
  win := launch7.win.to₀
  block_pos := launch7.block_pos
  stage_whole := launch7.stage_whole
  K := PEmpty
  osem k := k.elim
  ho := Pipeline.OwnSemFacts.none _
  hbody c := (body_obligation7 (ent7 m) c).loose
  hwaits := Pipeline.hwaits_of_owed_zero _ _ _ _ L₀ lv₀ 7 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec7 c (ent7 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (ent7 m c) fun w => A_eq7 (ent7 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn7 (ent7 m) c)
    unfold Pipeline.ΦA
    iintro ⟨Hp, -, Hr⟩
    isplitl [Hr]; · iexact Hr
    iexact Hp
  hout c := by
    refine BIBase.Entails.trans (PhiOut7 (ent7 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (ent7 m c) (ext7 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-- The record's two thread states by name (projections of the record above). -/
theorem reg7_pre (c : Dev nD) : (reg7 m).pre c = iprop(StableHlo.held (c : Thread nD τ) (Pipeline.ucRefs τ sig) (W15 m c) ∗ R c) := rfl
theorem reg7_post (c : Dev nD) : (reg7 m).post c = iprop(StableHlo.held (c : Thread nD τ) (Pipeline.ucRefs τ sig) (W16 m c) ∗ R c) := rfl

end Cert.KernelIdeal.Hand

end
-- ==== Proof.KI.RunReg8.lean ====
import proofs.«409348_j89627377533173_1_alg».proof.Proof.KI.RunPd
import Idealize.ShloMosaic.Lib.Pipeline.RegionsLoop

-- decided memberships and the launch kit's enumerations over 501 references recurse past the default depth
set_option maxRecDepth 2516

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ
variable (m : (ℓ : Loc nD τ sig) → Buf (Elt F) ℓ)

/-! ## The region's exit: each array at what the pipeline leaves, every other buffer as entered -/
theorem hF8_0 (c : Dev nD) : (dat8 (ent8 m) c).arrAt (0 : Fin 9) cfg8.N = ext8 m c (Pipeline.arrRef spec8 (0 : Fin 9)) :=
  ((dat8 (ent8 m) c).arrAt_in (0 : Fin 9) rfl _).trans ((A_eq8 (ent8 m) c (0 : Fin 9)).trans (W18_of_ne m c _ (by decide) (by decide) (by decide)).symm)
theorem hF8_1 (c : Dev nD) : (dat8 (ent8 m) c).arrAt (1 : Fin 9) cfg8.N = ext8 m c (Pipeline.arrRef spec8 (1 : Fin 9)) :=
  ((dat8 (ent8 m) c).arrAt_in (1 : Fin 9) rfl _).trans ((A_eq8 (ent8 m) c (1 : Fin 9)).trans (W18_of_ne m c _ (by decide) (by decide) (by decide)).symm)
theorem hF8_2 (c : Dev nD) : (dat8 (ent8 m) c).arrAt (2 : Fin 9) cfg8.N = ext8 m c (Pipeline.arrRef spec8 (2 : Fin 9)) :=
  ((dat8 (ent8 m) c).arrAt_in (2 : Fin 9) rfl _).trans ((A_eq8 (ent8 m) c (2 : Fin 9)).trans (W18_of_ne m c _ (by decide) (by decide) (by decide)).symm)
theorem hF8_3 (c : Dev nD) : (dat8 (ent8 m) c).arrAt (3 : Fin 9) cfg8.N = ext8 m c (Pipeline.arrRef spec8 (3 : Fin 9)) :=
  ((dat8 (ent8 m) c).arrAt_in (3 : Fin 9) rfl _).trans ((A_eq8 (ent8 m) c (3 : Fin 9)).trans (W18_of_ne m c _ (by decide) (by decide) (by decide)).symm)
theorem hF8_4 (c : Dev nD) : (dat8 (ent8 m) c).arrAt (4 : Fin 9) cfg8.N = ext8 m c (Pipeline.arrRef spec8 (4 : Fin 9)) :=
  ((dat8 (ent8 m) c).arrAt_in (4 : Fin 9) rfl _).trans ((A_eq8 (ent8 m) c (4 : Fin 9)).trans (W18_of_ne m c _ (by decide) (by decide) (by decide)).symm)
theorem hF8_5 (c : Dev nD) : (dat8 (ent8 m) c).arrAt (5 : Fin 9) cfg8.N = ext8 m c (Pipeline.arrRef spec8 (5 : Fin 9)) :=
  ((dat8 (ent8 m) c).arrAt_in (5 : Fin 9) rfl _).trans ((A_eq8 (ent8 m) c (5 : Fin 9)).trans (W18_of_ne m c _ (by decide) (by decide) (by decide)).symm)
theorem hF8_6 (c : Dev nD) : (dat8 (ent8 m) c).arrAt (6 : Fin 9) cfg8.N = ext8 m c (Pipeline.arrRef spec8 (6 : Fin 9)) :=
  (W18_v289_0 m c).symm
theorem hF8_7 (c : Dev nD) : (dat8 (ent8 m) c).arrAt (7 : Fin 9) cfg8.N = ext8 m c (Pipeline.arrRef spec8 (7 : Fin 9)) :=
  (W18_v289_1 m c).symm
theorem hF8_8 (c : Dev nD) : (dat8 (ent8 m) c).arrAt (8 : Fin 9) cfg8.N = ext8 m c (Pipeline.arrRef spec8 (8 : Fin 9)) :=
  (W18_v289_2 m c).symm
/-- At region 8's exit each of its arrays holds what the pipeline leaves: an output its folded write-backs (the chain's
    update there), an input what it held at entry (no write-back, and the updates are elsewhere); window by window, the
    9 windows enumerated by a decided disjunction. -/
theorem hF8 (c : Dev nD) : ∀ w : Fin 9, (dat8 (ent8 m) c).arrAt w cfg8.N = ext8 m c (Pipeline.arrRef spec8 w) := by
  intro w
  have hw : w = 0 ∨ w = 1 ∨ w = 2 ∨ w = 3 ∨ w = 4 ∨ w = 5 ∨ w = 6 ∨ w = 7 ∨ w = 8 := by revert w; decide
  rcases hw with rfl | rfl | rfl | rfl | rfl | rfl | rfl | rfl | rfl
  · exact hF8_0 m c
  · exact hF8_1 m c
  · exact hF8_2 m c
  · exact hF8_3 m c
  · exact hF8_4 m c
  · exact hF8_5 m c
  · exact hF8_6 m c
  · exact hF8_7 m c
  · exact hF8_8 m c
/-- and every other buffer what it held at entry. -/
theorem hrest8 (c : Dev nD) : ∀ b, b ∉ Finset.univ.image (Pipeline.arrRef spec8) → ext8 m c b = ent8 m c b :=
  fun b hb => W18_of_ne m c b
    (fun e => hb (Finset.mem_image.mpr ⟨6, Finset.mem_univ _, e.symm⟩))
    (fun e => hb (Finset.mem_image.mpr ⟨7, Finset.mem_univ _, e.symm⟩))
    (fun e => hb (Finset.mem_image.mpr ⟨8, Finset.mem_univ _, e.symm⟩))

/-! ## The region as a segment -/

-- a library lemma stated over `pin pcs a p` unifies with the pinned configuration only when unification may unfold
-- plain definitions in a metavariable's type
set_option backward.isDefEq.respectTransparency.types false in
/-- REGION 8 (custom_call 8) over the thread state: entered from every unscoped buffer at `W17`, left at `W18`.
    Its arrays split out of the unscoped buffers (`arrays_of_unscopedBufs`) and put back at the exit contents
    (`unscopedBufs_of_arrays`); the generator register and the scoped rest into the region's invariant (`PhiIn8`) and out
    (`PhiOut8`); nothing owed; no semaphore of the kernel's own. -/
def reg8 : RegionSeg (pcfgs (F := F)) adm (pdats m) () defs₀ Variants.none L₀ lv₀ 8 where
  win := launch8.win.to₀
  block_pos := launch8.block_pos
  stage_whole := launch8.stage_whole
  K := PEmpty
  osem k := k.elim
  ho := Pipeline.OwnSemFacts.none _
  hbody c := (body_obligation8 (ent8 m) c).loose
  hwaits := Pipeline.hwaits_of_owed_zero _ _ _ _ L₀ lv₀ 8 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec8 c (ent8 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (ent8 m c) fun w => A_eq8 (ent8 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn8 (ent8 m) c)
    unfold Pipeline.ΦA
    iintro ⟨Hp, -, Hr⟩
    isplitl [Hr]; · iexact Hr
    iexact Hp
  hout c := by
    refine BIBase.Entails.trans (PhiOut8 (ent8 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (ent8 m c) (ext8 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-- The record's two thread states by name (projections of the record above). -/
theorem reg8_pre (c : Dev nD) : (reg8 m).pre c = iprop(StableHlo.held (c : Thread nD τ) (Pipeline.ucRefs τ sig) (W17 m c) ∗ R c) := rfl
theorem reg8_post (c : Dev nD) : (reg8 m).post c = iprop(StableHlo.held (c : Thread nD τ) (Pipeline.ucRefs τ sig) (W18 m c) ∗ R c) := rfl

end Cert.KernelIdeal.Hand

end
-- ==== Proof.KI.RunReg9.lean ====
import proofs.«409348_j89627377533173_1_alg».proof.Proof.KI.RunPd
import Idealize.ShloMosaic.Lib.Pipeline.RegionsLoop

-- decided memberships and the launch kit's enumerations over 501 references recurse past the default depth
set_option maxRecDepth 2516

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ
variable (m : (ℓ : Loc nD τ sig) → Buf (Elt F) ℓ)

/-! ## The region's exit: each array at what the pipeline leaves, every other buffer as entered -/
theorem hF9_0 (c : Dev nD) : (dat9 (ent9 m) c).arrAt (0 : Fin 6) cfg9.N = ext9 m c (Pipeline.arrRef spec9 (0 : Fin 6)) :=
  ((dat9 (ent9 m) c).arrAt_in (0 : Fin 6) rfl _).trans ((A_eq9 (ent9 m) c (0 : Fin 6)).trans (W20_of_ne m c _ (by decide)).symm)
theorem hF9_1 (c : Dev nD) : (dat9 (ent9 m) c).arrAt (1 : Fin 6) cfg9.N = ext9 m c (Pipeline.arrRef spec9 (1 : Fin 6)) :=
  ((dat9 (ent9 m) c).arrAt_in (1 : Fin 6) rfl _).trans ((A_eq9 (ent9 m) c (1 : Fin 6)).trans (W20_of_ne m c _ (by decide)).symm)
theorem hF9_2 (c : Dev nD) : (dat9 (ent9 m) c).arrAt (2 : Fin 6) cfg9.N = ext9 m c (Pipeline.arrRef spec9 (2 : Fin 6)) :=
  ((dat9 (ent9 m) c).arrAt_in (2 : Fin 6) rfl _).trans ((A_eq9 (ent9 m) c (2 : Fin 6)).trans (W20_of_ne m c _ (by decide)).symm)
theorem hF9_3 (c : Dev nD) : (dat9 (ent9 m) c).arrAt (3 : Fin 6) cfg9.N = ext9 m c (Pipeline.arrRef spec9 (3 : Fin 6)) :=
  ((dat9 (ent9 m) c).arrAt_in (3 : Fin 6) rfl _).trans ((A_eq9 (ent9 m) c (3 : Fin 6)).trans (W20_of_ne m c _ (by decide)).symm)
theorem hF9_4 (c : Dev nD) : (dat9 (ent9 m) c).arrAt (4 : Fin 6) cfg9.N = ext9 m c (Pipeline.arrRef spec9 (4 : Fin 6)) :=
  ((dat9 (ent9 m) c).arrAt_in (4 : Fin 6) rfl _).trans ((A_eq9 (ent9 m) c (4 : Fin 6)).trans (W20_of_ne m c _ (by decide)).symm)
theorem hF9_5 (c : Dev nD) : (dat9 (ent9 m) c).arrAt (5 : Fin 6) cfg9.N = ext9 m c (Pipeline.arrRef spec9 (5 : Fin 6)) :=
  (W20_v308 m c).symm
/-- At region 9's exit each of its arrays holds what the pipeline leaves: an output its folded write-backs (the chain's
    update there), an input what it held at entry (no write-back, and the updates are elsewhere); window by window, the
    6 windows enumerated by a decided disjunction. -/
theorem hF9 (c : Dev nD) : ∀ w : Fin 6, (dat9 (ent9 m) c).arrAt w cfg9.N = ext9 m c (Pipeline.arrRef spec9 w) := by
  intro w
  have hw : w = 0 ∨ w = 1 ∨ w = 2 ∨ w = 3 ∨ w = 4 ∨ w = 5 := by revert w; decide
  rcases hw with rfl | rfl | rfl | rfl | rfl | rfl
  · exact hF9_0 m c
  · exact hF9_1 m c
  · exact hF9_2 m c
  · exact hF9_3 m c
  · exact hF9_4 m c
  · exact hF9_5 m c
/-- and every other buffer what it held at entry. -/
theorem hrest9 (c : Dev nD) : ∀ b, b ∉ Finset.univ.image (Pipeline.arrRef spec9) → ext9 m c b = ent9 m c b :=
  fun b hb => W20_of_ne m c b
    (fun e => hb (Finset.mem_image.mpr ⟨5, Finset.mem_univ _, e.symm⟩))

/-! ## The region as a segment -/

-- a library lemma stated over `pin pcs a p` unifies with the pinned configuration only when unification may unfold
-- plain definitions in a metavariable's type
set_option backward.isDefEq.respectTransparency.types false in
/-- REGION 9 (custom_call 9) over the thread state: entered from every unscoped buffer at `W19`, left at `W20`.
    Its arrays split out of the unscoped buffers (`arrays_of_unscopedBufs`) and put back at the exit contents
    (`unscopedBufs_of_arrays`); the generator register and the scoped rest into the region's invariant (`PhiIn9`) and out
    (`PhiOut9`); nothing owed; no semaphore of the kernel's own. -/
def reg9 : RegionSeg (pcfgs (F := F)) adm (pdats m) () defs₀ Variants.none L₀ lv₀ 9 where
  win := launch9.win.to₀
  block_pos := launch9.block_pos
  stage_whole := launch9.stage_whole
  K := PEmpty
  osem k := k.elim
  ho := Pipeline.OwnSemFacts.none _
  hbody c := (body_obligation9 (ent9 m) c).loose
  hwaits := Pipeline.hwaits_of_owed_zero _ _ _ _ L₀ lv₀ 9 fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec9 c (ent9 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (ent9 m c) fun w => A_eq9 (ent9 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn9 (ent9 m) c)
    unfold Pipeline.ΦA
    iintro ⟨Hp, -, Hr⟩
    isplitl [Hr]; · iexact Hr
    iexact Hp
  hout c := by
    refine BIBase.Entails.trans (PhiOut9 (ent9 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (ent9 m c) (ext9 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-- The record's two thread states by name (projections of the record above). -/
theorem reg9_pre (c : Dev nD) : (reg9 m).pre c = iprop(StableHlo.held (c : Thread nD τ) (Pipeline.ucRefs τ sig) (W19 m c) ∗ R c) := rfl
theorem reg9_post (c : Dev nD) : (reg9 m).post c = iprop(StableHlo.held (c : Thread nD τ) (Pipeline.ucRefs τ sig) (W20 m c) ∗ R c) := rfl

end Cert.KernelIdeal.Hand

end
-- ==== Proof.KI.RunReg10.lean ====
import proofs.«409348_j89627377533173_1_alg».proof.Proof.KI.RunPd
import Idealize.ShloMosaic.Lib.Pipeline.RegionsLoop

-- decided memberships and the launch kit's enumerations over 501 references recurse past the default depth
set_option maxRecDepth 2516

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ
variable (m : (ℓ : Loc nD τ sig) → Buf (Elt F) ℓ)

/-! ## The region's exit: each array at what the pipeline leaves, every other buffer as entered -/
theorem hF10_0 (c : Dev nD) : (dat10 (ent10 m) c).arrAt (0 : Fin 4) cfg10.N = ext10 m c (Pipeline.arrRef spec10 (0 : Fin 4)) :=
  ((dat10 (ent10 m) c).arrAt_in (0 : Fin 4) rfl _).trans ((A_eq10 (ent10 m) c (0 : Fin 4)).trans (W21_of_ne m c _ (by decide) (by decide)).symm)
theorem hF10_1 (c : Dev nD) : (dat10 (ent10 m) c).arrAt (1 : Fin 4) cfg10.N = ext10 m c (Pipeline.arrRef spec10 (1 : Fin 4)) :=
  ((dat10 (ent10 m) c).arrAt_in (1 : Fin 4) rfl _).trans ((A_eq10 (ent10 m) c (1 : Fin 4)).trans (W21_of_ne m c _ (by decide) (by decide)).symm)
theorem hF10_2 (c : Dev nD) : (dat10 (ent10 m) c).arrAt (2 : Fin 4) cfg10.N = ext10 m c (Pipeline.arrRef spec10 (2 : Fin 4)) :=
  (W21_v309_0 m c).symm
theorem hF10_3 (c : Dev nD) : (dat10 (ent10 m) c).arrAt (3 : Fin 4) cfg10.N = ext10 m c (Pipeline.arrRef spec10 (3 : Fin 4)) :=
  (W21_v309_1 m c).symm
/-- At region 10's exit each of its arrays holds what the pipeline leaves: an output its folded write-backs (the chain's
    update there), an input what it held at entry (no write-back, and the updates are elsewhere); window by window, the
    4 windows enumerated by a decided disjunction. -/
theorem hF10 (c : Dev nD) : ∀ w : Fin 4, (dat10 (ent10 m) c).arrAt w cfg10.N = ext10 m c (Pipeline.arrRef spec10 w) := by
  intro w
  have hw : w = 0 ∨ w = 1 ∨ w = 2 ∨ w = 3 := by revert w; decide
  rcases hw with rfl | rfl | rfl | rfl
  · exact hF10_0 m c
  · exact hF10_1 m c
  · exact hF10_2 m c
  · exact hF10_3 m c
/-- and every other buffer what it held at entry. -/
theorem hrest10 (c : Dev nD) : ∀ b, b ∉ Finset.univ.image (Pipeline.arrRef spec10) → ext10 m c b = ent10 m c b :=
  fun b hb => W21_of_ne m c b
    (fun e => hb (Finset.mem_image.mpr ⟨2, Finset.mem_univ _, e.symm⟩))
    (fun e => hb (Finset.mem_image.mpr ⟨3, Finset.mem_univ _, e.symm⟩))

/-! ## The region as a segment -/

-- a library lemma stated over `pin pcs a p` unifies with the pinned configuration only when unification may unfold
-- plain definitions in a metavariable's type
set_option backward.isDefEq.respectTransparency.types false in
/-- REGION 10 (custom_call 10) over the thread state: entered from every unscoped buffer at `W20`, left at `W21`.
    Its arrays split out of the unscoped buffers (`arrays_of_unscopedBufs`) and put back at the exit contents
    (`unscopedBufs_of_arrays`); the generator register and the scoped rest into the region's invariant (`PhiIn10`) and out
    (`PhiOut10`); nothing owed; no semaphore of the kernel's own. -/
def reg10 : RegionSeg (pcfgs (F := F)) adm (pdats m) () defs₀ Variants.none L₀ lv₀ 10 where
  win := launch10.win.to₀
  block_pos := launch10.block_pos
  stage_whole := launch10.stage_whole
  K := PEmpty
  osem k := k.elim
  ho := Pipeline.OwnSemFacts.none _
  hbody c := (body_obligation10 (ent10 m) c).loose
  hwaits := Pipeline.hwaits_of_owed_zero _ _ _ _ L₀ lv₀ 10 fun _ _ => rfl
  pre c := iprop(StableHlo.held (c : Thread nD τ) (Pipeline.ucRefs τ sig) (W20 m c) ∗ R c)
  post c := iprop(StableHlo.held (c : Thread nD τ) (Pipeline.ucRefs τ sig) (W21 m c) ∗ R c)
  X c := iprop(∃ r, prngReg c r)
  Y c := iprop(∃ r, prngReg c r)
  Z c := Pipeline.unscopedRest (Ix := Unit) (Name := ℕ) (U := UR sig nD τ) (Lvl := ℕ) spec10 c (ent10 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (ent10 m c) fun w => A_eq10 (ent10 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn10 (ent10 m) c)
    unfold Pipeline.ΦA
    iintro ⟨Hp, -, Hr⟩
    isplitl [Hr]; · iexact Hr
    iexact Hp
  hout c := by
    refine BIBase.Entails.trans (PhiOut10 (ent10 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (ent10 m c) (ext10 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-- The record's two thread states by name (projections of the record above). -/
theorem reg10_pre (c : Dev nD) : (reg10 m).pre c = iprop(StableHlo.held (c : Thread nD τ) (Pipeline.ucRefs τ sig) (W20 m c) ∗ R c) := rfl
theorem reg10_post (c : Dev nD) : (reg10 m).post c = iprop(StableHlo.held (c : Thread nD τ) (Pipeline.ucRefs τ sig) (W21 m c) ∗ R c) := rfl

end Cert.KernelIdeal.Hand

end
-- ==== Proof.KI.Run.lean ====
import proofs.«409348_j89627377533173_1_alg».proof.Proof.KI.RunReg0
import proofs.«409348_j89627377533173_1_alg».proof.Proof.KI.RunReg1
import proofs.«409348_j89627377533173_1_alg».proof.Proof.KI.RunReg2
import proofs.«409348_j89627377533173_1_alg».proof.Proof.KI.RunReg3
import proofs.«409348_j89627377533173_1_alg».proof.Proof.KI.RunReg4
import proofs.«409348_j89627377533173_1_alg».proof.Proof.KI.RunReg5
import proofs.«409348_j89627377533173_1_alg».proof.Proof.KI.RunReg6
import proofs.«409348_j89627377533173_1_alg».proof.Proof.KI.RunReg7
import proofs.«409348_j89627377533173_1_alg».proof.Proof.KI.RunReg8
import proofs.«409348_j89627377533173_1_alg».proof.Proof.KI.RunReg9
import proofs.«409348_j89627377533173_1_alg».proof.Proof.KI.RunReg10
import proofs.«409348_j89627377533173_1_alg».proof.Proof.KI.RunCond
import proofs.«409348_j89627377533173_1_alg».proof.Proof.Gen.KernelIdeal.Regions

-- decided memberships and the launch kit's enumerations over 501 references recurse past the default depth
set_option maxRecDepth 2516

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ
variable (m : (ℓ : Loc nD τ sig) → Buf (Elt F) ℓ)

/-! ## The generated valuations at these contents -/

/-- What the regions leave in the buffers they may change: the chain's contents there. (Its values are read by rewriting the
    conditionals, never by unfolding the chain.) -/
def outs : Outs (F := F) := fun J r c =>
  if J = 2 then W2 m c r else
  if J = 4 then W4 m c r else
  if J = 6 then W6 m c r else
  if J = 8 then W8 m c r else
  if J = 10 then W10 m c r else
  if J = 12 then W12 m c r else
  if J = 14 then W14 m c r else
  if J = 16 then W16 m c r else
  if J = 18 then W18 m c r else
  if J = 20 then W20 m c r else
  if J = 21 then W21 m c r else
  W0 m c r
theorem outs_2 (r : Ref sig .tc) (c : Dev nD) : outs m 2 r c = W2 m c r := by
  unfold outs; rw [if_pos rfl]
theorem outs_4 (r : Ref sig .tc) (c : Dev nD) : outs m 4 r c = W4 m c r := by
  unfold outs; rw [if_neg (by decide : ¬ (4 : ℕ) = 2), if_pos rfl]
theorem outs_6 (r : Ref sig .tc) (c : Dev nD) : outs m 6 r c = W6 m c r := by
  unfold outs; rw [if_neg (by decide : ¬ (6 : ℕ) = 2), if_neg (by decide : ¬ (6 : ℕ) = 4), if_pos rfl]
theorem outs_8 (r : Ref sig .tc) (c : Dev nD) : outs m 8 r c = W8 m c r := by
  unfold outs; rw [if_neg (by decide : ¬ (8 : ℕ) = 2), if_neg (by decide : ¬ (8 : ℕ) = 4), if_neg (by decide : ¬ (8 : ℕ) = 6), if_pos rfl]
theorem outs_10 (r : Ref sig .tc) (c : Dev nD) : outs m 10 r c = W10 m c r := by
  unfold outs; rw [if_neg (by decide : ¬ (10 : ℕ) = 2), if_neg (by decide : ¬ (10 : ℕ) = 4), if_neg (by decide : ¬ (10 : ℕ) = 6), if_neg (by decide : ¬ (10 : ℕ) = 8), if_pos rfl]
theorem outs_12 (r : Ref sig .tc) (c : Dev nD) : outs m 12 r c = W12 m c r := by
  unfold outs; rw [if_neg (by decide : ¬ (12 : ℕ) = 2), if_neg (by decide : ¬ (12 : ℕ) = 4), if_neg (by decide : ¬ (12 : ℕ) = 6), if_neg (by decide : ¬ (12 : ℕ) = 8), if_neg (by decide : ¬ (12 : ℕ) = 10), if_pos rfl]
theorem outs_14 (r : Ref sig .tc) (c : Dev nD) : outs m 14 r c = W14 m c r := by
  unfold outs; rw [if_neg (by decide : ¬ (14 : ℕ) = 2), if_neg (by decide : ¬ (14 : ℕ) = 4), if_neg (by decide : ¬ (14 : ℕ) = 6), if_neg (by decide : ¬ (14 : ℕ) = 8), if_neg (by decide : ¬ (14 : ℕ) = 10), if_neg (by decide : ¬ (14 : ℕ) = 12), if_pos rfl]
theorem outs_16 (r : Ref sig .tc) (c : Dev nD) : outs m 16 r c = W16 m c r := by
  unfold outs; rw [if_neg (by decide : ¬ (16 : ℕ) = 2), if_neg (by decide : ¬ (16 : ℕ) = 4), if_neg (by decide : ¬ (16 : ℕ) = 6), if_neg (by decide : ¬ (16 : ℕ) = 8), if_neg (by decide : ¬ (16 : ℕ) = 10), if_neg (by decide : ¬ (16 : ℕ) = 12), if_neg (by decide : ¬ (16 : ℕ) = 14), if_pos rfl]
theorem outs_18 (r : Ref sig .tc) (c : Dev nD) : outs m 18 r c = W18 m c r := by
  unfold outs; rw [if_neg (by decide : ¬ (18 : ℕ) = 2), if_neg (by decide : ¬ (18 : ℕ) = 4), if_neg (by decide : ¬ (18 : ℕ) = 6), if_neg (by decide : ¬ (18 : ℕ) = 8), if_neg (by decide : ¬ (18 : ℕ) = 10), if_neg (by decide : ¬ (18 : ℕ) = 12), if_neg (by decide : ¬ (18 : ℕ) = 14), if_neg (by decide : ¬ (18 : ℕ) = 16), if_pos rfl]
theorem outs_20 (r : Ref sig .tc) (c : Dev nD) : outs m 20 r c = W20 m c r := by
  unfold outs; rw [if_neg (by decide : ¬ (20 : ℕ) = 2), if_neg (by decide : ¬ (20 : ℕ) = 4), if_neg (by decide : ¬ (20 : ℕ) = 6), if_neg (by decide : ¬ (20 : ℕ) = 8), if_neg (by decide : ¬ (20 : ℕ) = 10), if_neg (by decide : ¬ (20 : ℕ) = 12), if_neg (by decide : ¬ (20 : ℕ) = 14), if_neg (by decide : ¬ (20 : ℕ) = 16), if_neg (by decide : ¬ (20 : ℕ) = 18), if_pos rfl]
theorem outs_21 (r : Ref sig .tc) (c : Dev nD) : outs m 21 r c = W21 m c r := by
  unfold outs; rw [if_neg (by decide : ¬ (21 : ℕ) = 2), if_neg (by decide : ¬ (21 : ℕ) = 4), if_neg (by decide : ¬ (21 : ℕ) = 6), if_neg (by decide : ¬ (21 : ℕ) = 8), if_neg (by decide : ¬ (21 : ℕ) = 10), if_neg (by decide : ¬ (21 : ℕ) = 12), if_neg (by decide : ¬ (21 : ℕ) = 14), if_neg (by decide : ¬ (21 : ℕ) = 16), if_neg (by decide : ¬ (21 : ℕ) = 18), if_neg (by decide : ¬ (21 : ℕ) = 20), if_pos rfl]

/-! Each generated valuation `VJ` at `outs` is the chain's `WJ`: a host stretch by the one before it, a region by its
    outputs read off the chain. -/
theorem V1_eq (c : Dev nD) : V1 m c = W1 m c := by unfold W1; rfl
theorem V2_eq (c : Dev nD) : V2 m (outs m) c = W2 m c := by
  show Function.update (Function.update (Function.update (V1 m c) main_v49_0 (outs m 2 main_v49_0 c)) main_v49_1 (outs m 2 main_v49_1 c)) main_v49_2 (outs m 2 main_v49_2 c) = _
  rw [V1_eq]; simp only [outs_2]
  rw [W2_v49_0, W2_v49_1, W2_v49_2]; unfold W2; rfl
theorem V3_eq (c : Dev nD) : V3 m (outs m) c = W3 m c := by
  show StableHlo.after hostOps1 (V2 m (outs m) c) = _
  rw [V2_eq]; unfold W3; rfl
theorem V4_eq (c : Dev nD) : V4 m (outs m) c = W4 m c := by
  show Function.update (V3 m (outs m) c) main_v68 (outs m 4 main_v68 c) = _
  rw [V3_eq]; simp only [outs_4]
  rw [W4_v68]; unfold W4; rfl
theorem V5_eq (c : Dev nD) : V5 m (outs m) c = W5 m c := by
  show StableHlo.after hostOps2 (V4 m (outs m) c) = _
  rw [V4_eq]; unfold W5; rfl
theorem V6_eq (c : Dev nD) : V6 m (outs m) c = W6 m c := by
  show Function.update (Function.update (Function.update (V5 m (outs m) c) main_v109_0 (outs m 6 main_v109_0 c)) main_v109_1 (outs m 6 main_v109_1 c)) main_v109_2 (outs m 6 main_v109_2 c) = _
  rw [V5_eq]; simp only [outs_6]
  rw [W6_v109_0, W6_v109_1, W6_v109_2]; unfold W6; rfl
theorem V7_eq (c : Dev nD) : V7 m (outs m) c = W7 m c := by
  show StableHlo.after hostOps3 (V6 m (outs m) c) = _
  rw [V6_eq]; unfold W7; rfl
theorem V8_eq (c : Dev nD) : V8 m (outs m) c = W8 m c := by
  show Function.update (V7 m (outs m) c) main_v128 (outs m 8 main_v128 c) = _
  rw [V7_eq]; simp only [outs_8]
  rw [W8_v128]; unfold W8; rfl
theorem V9_eq (c : Dev nD) : V9 m (outs m) c = W9 m c := by
  show StableHlo.after hostOps4 (V8 m (outs m) c) = _
  rw [V8_eq]; unfold W9; rfl
theorem V10_eq (c : Dev nD) : V10 m (outs m) c = W10 m c := by
  show Function.update (Function.update (Function.update (V9 m (outs m) c) main_v169_0 (outs m 10 main_v169_0 c)) main_v169_1 (outs m 10 main_v169_1 c)) main_v169_2 (outs m 10 main_v169_2 c) = _
  rw [V9_eq]; simp only [outs_10]
  rw [W10_v169_0, W10_v169_1, W10_v169_2]; unfold W10; rfl
theorem V11_eq (c : Dev nD) : V11 m (outs m) c = W11 m c := by
  show StableHlo.after hostOps5 (V10 m (outs m) c) = _
  rw [V10_eq]; unfold W11; rfl
theorem V12_eq (c : Dev nD) : V12 m (outs m) c = W12 m c := by
  show Function.update (V11 m (outs m) c) main_v188 (outs m 12 main_v188 c) = _
  rw [V11_eq]; simp only [outs_12]
  rw [W12_v188]; unfold W12; rfl
theorem V13_eq (c : Dev nD) : V13 m (outs m) c = W13 m c := by
  show StableHlo.after hostOps6 (V12 m (outs m) c) = _
  rw [V12_eq]; unfold W13; rfl
theorem V14_eq (c : Dev nD) : V14 m (outs m) c = W14 m c := by
  show Function.update (Function.update (Function.update (V13 m (outs m) c) main_v229_0 (outs m 14 main_v229_0 c)) main_v229_1 (outs m 14 main_v229_1 c)) main_v229_2 (outs m 14 main_v229_2 c) = _
  rw [V13_eq]; simp only [outs_14]
  rw [W14_v229_0, W14_v229_1, W14_v229_2]; unfold W14; rfl
theorem V15_eq (c : Dev nD) : V15 m (outs m) c = W15 m c := by
  show StableHlo.after hostOps7 (V14 m (outs m) c) = _
  rw [V14_eq]; unfold W15; rfl
theorem V16_eq (c : Dev nD) : V16 m (outs m) c = W16 m c := by
  show Function.update (V15 m (outs m) c) main_v248 (outs m 16 main_v248 c) = _
  rw [V15_eq]; simp only [outs_16]
  rw [W16_v248]; unfold W16; rfl
theorem V17_eq (c : Dev nD) : V17 m (outs m) c = W17 m c := by
  show StableHlo.after hostOps8 (V16 m (outs m) c) = _
  rw [V16_eq]; unfold W17; rfl
theorem V18_eq (c : Dev nD) : V18 m (outs m) c = W18 m c := by
  show Function.update (Function.update (Function.update (V17 m (outs m) c) main_v289_0 (outs m 18 main_v289_0 c)) main_v289_1 (outs m 18 main_v289_1 c)) main_v289_2 (outs m 18 main_v289_2 c) = _
  rw [V17_eq]; simp only [outs_18]
  rw [W18_v289_0, W18_v289_1, W18_v289_2]; unfold W18; rfl
theorem V19_eq (c : Dev nD) : V19 m (outs m) c = W19 m c := by
  show StableHlo.after hostOps9 (V18 m (outs m) c) = _
  rw [V18_eq]; unfold W19; rfl
theorem V20_eq (c : Dev nD) : V20 m (outs m) c = W20 m c := by
  show Function.update (V19 m (outs m) c) main_v308 (outs m 20 main_v308 c) = _
  rw [V19_eq]; simp only [outs_20]
  rw [W20_v308]; unfold W20; rfl
theorem V21_eq (c : Dev nD) : V21 m (outs m) c = W21 m c := by
  show Function.update (Function.update (V20 m (outs m) c) main_v309_0 (outs m 21 main_v309_0 c)) main_v309_1 (outs m 21 main_v309_1 c) = _
  rw [V20_eq]; simp only [outs_21]
  rw [W21_v309_0, W21_v309_1]; unfold W21; rfl
theorem V22_eq (c : Dev nD) : V22 m (outs m) c = W22 m c := by
  show StableHlo.after hostOps11 (V21 m (outs m) c) = _
  rw [V21_eq]; unfold W22; rfl

/-! ## No item writes an argument -/
theorem W22_main_arg0 (c : Dev nD) : W22 m c main_arg0 = m ((c : Thread nD τ).loc main_arg0) := by
  rw [← V22_eq]; exact V22_main_arg0 m (outs m) c
theorem W22_main_arg1 (c : Dev nD) : W22 m c main_arg1 = m ((c : Thread nD τ).loc main_arg1) := by
  rw [← V22_eq]; exact V22_main_arg1 m (outs m) c
theorem W22_main_arg2 (c : Dev nD) : W22 m c main_arg2 = m ((c : Thread nD τ).loc main_arg2) := by
  rw [← V22_eq]; exact V22_main_arg2 m (outs m) c
theorem W22_main_arg3 (c : Dev nD) : W22 m c main_arg3 = m ((c : Thread nD τ).loc main_arg3) := by
  rw [← V22_eq]; exact V22_main_arg3 m (outs m) c
theorem W22_main_arg4 (c : Dev nD) : W22 m c main_arg4 = m ((c : Thread nD τ).loc main_arg4) := by
  rw [← V22_eq]; exact V22_main_arg4 m (outs m) c
theorem W22_main_arg5 (c : Dev nD) : W22 m c main_arg5 = m ((c : Thread nD τ).loc main_arg5) := by
  rw [← V22_eq]; exact V22_main_arg5 m (outs m) c
theorem W22_main_arg6 (c : Dev nD) : W22 m c main_arg6 = m ((c : Thread nD τ).loc main_arg6) := by
  rw [← V22_eq]; exact V22_main_arg6 m (outs m) c
theorem W22_main_arg7 (c : Dev nD) : W22 m c main_arg7 = m ((c : Thread nD τ).loc main_arg7) := by
  rw [← V22_eq]; exact V22_main_arg7 m (outs m) c
theorem W22_main_arg8 (c : Dev nD) : W22 m c main_arg8 = m ((c : Thread nD τ).loc main_arg8) := by
  rw [← V22_eq]; exact V22_main_arg8 m (outs m) c
theorem W22_main_arg9 (c : Dev nD) : W22 m c main_arg9 = m ((c : Thread nD τ).loc main_arg9) := by
  rw [← V22_eq]; exact V22_main_arg9 m (outs m) c
theorem W22_main_arg10 (c : Dev nD) : W22 m c main_arg10 = m ((c : Thread nD τ).loc main_arg10) := by
  rw [← V22_eq]; exact V22_main_arg10 m (outs m) c
theorem W22_main_arg11 (c : Dev nD) : W22 m c main_arg11 = m ((c : Thread nD τ).loc main_arg11) := by
  rw [← V22_eq]; exact V22_main_arg11 m (outs m) c

/-! ## The regions' records between the generated thread states -/
/-- Region 0 is entered from the generated thread state before it and left at the one after it. -/
theorem hpre0 (c : Dev nD) : iprop(StableHlo.held (c : Thread nD τ) (Pipeline.ucRefs τ sig) (V1 m c) ∗ R c) ⊢ (reg0 m).pre c := by
  rw [V1_eq, reg0_pre]
theorem hpost0 (c : Dev nD) : (reg0 m).post c ⊢ iprop(StableHlo.held (c : Thread nD τ) (Pipeline.ucRefs τ sig) (V2 m (outs m) c) ∗ R c) := by
  rw [V2_eq, reg0_post]
/-- Region 1 is entered from the generated thread state before it and left at the one after it. -/
theorem hpre1 (c : Dev nD) : iprop(StableHlo.held (c : Thread nD τ) (Pipeline.ucRefs τ sig) (V3 m (outs m) c) ∗ R c) ⊢ (reg1 m).pre c := by
  rw [V3_eq, reg1_pre]
theorem hpost1 (c : Dev nD) : (reg1 m).post c ⊢ iprop(StableHlo.held (c : Thread nD τ) (Pipeline.ucRefs τ sig) (V4 m (outs m) c) ∗ R c) := by
  rw [V4_eq, reg1_post]
/-- Region 2 is entered from the generated thread state before it and left at the one after it. -/
theorem hpre2 (c : Dev nD) : iprop(StableHlo.held (c : Thread nD τ) (Pipeline.ucRefs τ sig) (V5 m (outs m) c) ∗ R c) ⊢ (reg2 m).pre c := by
  rw [V5_eq, reg2_pre]
theorem hpost2 (c : Dev nD) : (reg2 m).post c ⊢ iprop(StableHlo.held (c : Thread nD τ) (Pipeline.ucRefs τ sig) (V6 m (outs m) c) ∗ R c) := by
  rw [V6_eq, reg2_post]
/-- Region 3 is entered from the generated thread state before it and left at the one after it. -/
theorem hpre3 (c : Dev nD) : iprop(StableHlo.held (c : Thread nD τ) (Pipeline.ucRefs τ sig) (V7 m (outs m) c) ∗ R c) ⊢ (reg3 m).pre c := by
  rw [V7_eq, reg3_pre]
theorem hpost3 (c : Dev nD) : (reg3 m).post c ⊢ iprop(StableHlo.held (c : Thread nD τ) (Pipeline.ucRefs τ sig) (V8 m (outs m) c) ∗ R c) := by
  rw [V8_eq, reg3_post]
/-- Region 4 is entered from the generated thread state before it and left at the one after it. -/
theorem hpre4 (c : Dev nD) : iprop(StableHlo.held (c : Thread nD τ) (Pipeline.ucRefs τ sig) (V9 m (outs m) c) ∗ R c) ⊢ (reg4 m).pre c := by
  rw [V9_eq, reg4_pre]
theorem hpost4 (c : Dev nD) : (reg4 m).post c ⊢ iprop(StableHlo.held (c : Thread nD τ) (Pipeline.ucRefs τ sig) (V10 m (outs m) c) ∗ R c) := by
  rw [V10_eq, reg4_post]
/-- Region 5 is entered from the generated thread state before it and left at the one after it. -/
theorem hpre5 (c : Dev nD) : iprop(StableHlo.held (c : Thread nD τ) (Pipeline.ucRefs τ sig) (V11 m (outs m) c) ∗ R c) ⊢ (reg5 m).pre c := by
  rw [V11_eq, reg5_pre]
theorem hpost5 (c : Dev nD) : (reg5 m).post c ⊢ iprop(StableHlo.held (c : Thread nD τ) (Pipeline.ucRefs τ sig) (V12 m (outs m) c) ∗ R c) := by
  rw [V12_eq, reg5_post]
/-- Region 6 is entered from the generated thread state before it and left at the one after it. -/
theorem hpre6 (c : Dev nD) : iprop(StableHlo.held (c : Thread nD τ) (Pipeline.ucRefs τ sig) (V13 m (outs m) c) ∗ R c) ⊢ (reg6 m).pre c := by
  rw [V13_eq, reg6_pre]
theorem hpost6 (c : Dev nD) : (reg6 m).post c ⊢ iprop(StableHlo.held (c : Thread nD τ) (Pipeline.ucRefs τ sig) (V14 m (outs m) c) ∗ R c) := by
  rw [V14_eq, reg6_post]
/-- Region 7 is entered from the generated thread state before it and left at the one after it. -/
theorem hpre7 (c : Dev nD) : iprop(StableHlo.held (c : Thread nD τ) (Pipeline.ucRefs τ sig) (V15 m (outs m) c) ∗ R c) ⊢ (reg7 m).pre c := by
  rw [V15_eq, reg7_pre]
theorem hpost7 (c : Dev nD) : (reg7 m).post c ⊢ iprop(StableHlo.held (c : Thread nD τ) (Pipeline.ucRefs τ sig) (V16 m (outs m) c) ∗ R c) := by
  rw [V16_eq, reg7_post]
/-- Region 8 is entered from the generated thread state before it and left at the one after it. -/
theorem hpre8 (c : Dev nD) : iprop(StableHlo.held (c : Thread nD τ) (Pipeline.ucRefs τ sig) (V17 m (outs m) c) ∗ R c) ⊢ (reg8 m).pre c := by
  rw [V17_eq, reg8_pre]
theorem hpost8 (c : Dev nD) : (reg8 m).post c ⊢ iprop(StableHlo.held (c : Thread nD τ) (Pipeline.ucRefs τ sig) (V18 m (outs m) c) ∗ R c) := by
  rw [V18_eq, reg8_post]
/-- Region 9 is entered from the generated thread state before it and left at the one after it. -/
theorem hpre9 (c : Dev nD) : iprop(StableHlo.held (c : Thread nD τ) (Pipeline.ucRefs τ sig) (V19 m (outs m) c) ∗ R c) ⊢ (reg9 m).pre c := by
  rw [V19_eq, reg9_pre]
theorem hpost9 (c : Dev nD) : (reg9 m).post c ⊢ iprop(StableHlo.held (c : Thread nD τ) (Pipeline.ucRefs τ sig) (V20 m (outs m) c) ∗ R c) := by
  rw [V20_eq, reg9_post]
/-- Region 10 is entered from the generated thread state before it and left at the one after it. -/
theorem hpre10 (c : Dev nD) : iprop(StableHlo.held (c : Thread nD τ) (Pipeline.ucRefs τ sig) (V20 m (outs m) c) ∗ R c) ⊢ (reg10 m).pre c := by
  rw [V20_eq, reg10_pre]
theorem hpost10 (c : Dev nD) : (reg10 m).post c ⊢ iprop(StableHlo.held (c : Thread nD τ) (Pipeline.ucRefs τ sig) (V21 m (outs m) c) ∗ R c) := by
  rw [V21_eq, reg10_post]

/-! ## @main's run from the launch to the return -/

/-- The launch's element is the pipeline library's, and no ghost resource rides along. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄) ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro
/-- What the launch deals beside the buffers makes `R` on every core at once: the generator register at its launch state,
    nothing owed. -/
theorem hE0 (ρ : Dev nD → PrngReg) : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L₀ lv₀)
    ⊢ (|={Set.univ}=> bigSep Finset.univ (fun c : Dev nD => R c) : sProp 𝕄) :=
  Pipeline.initEach L₀ lv₀ fun c => by
    iintro ⟨⟨-, HO, -, Hp, -⟩, -⟩
    imodintro
    isplitl [Hp]; · iexists _; iexact Hp
    iexists ∅; iexact HO
theorem hE11 (c : Dev nD) : R c ⊢ (iprop(∃ W, owes (c : Thread nD τ) (0 : CellTallies nD τ sig Unit) W) : sProp 𝕄) := by
  iintro ⟨-, HO⟩; iexact HO

-- the conditional run's implicit arguments are found by unifying its hypotheses with these records, which takes unfolding
-- plain definitions in a metavariable's type; thirty-three hypotheses over eleven records
set_option backward.isDefEq.respectTransparency.types false in
set_option maxHeartbeats 2000000 in
/-- THE RUN: from any memory `m` with zero counters, every weakly fair execution of @main on the TensorCores terminates,
    nothing faulting, and every final memory holds every unscoped buffer of every core at the chain's last contents `W22 m c`:
    the conditional run at the chain's contents (`outs`), the regions' records above, nothing owed at launch; its post, stated at the
    generated last valuation, carried to `W22` buffer by buffer (`V22_eq`). -/
theorem run (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = W22 m c b) := by
  have h := run_cond (Ix := Unit) (U := UR sig nD τ) (Lvl := ℕ) m emb₁ () Variants.none L₀ lv₀ (fun _ _ => rfl) ρ (outs m) (pdats m) 0
    (fun _ => (BI.emp : sProp 𝕄)) (initOf (Pipeline.cells cfgs cellOf_inj) (Pipeline.launchToks cfgs cellOf_inj)) hu₀ (fun _ c => R c) (hE0 ρ) hE11
    (reg0 m) (hpre0 m) (hpost0 m)
    (reg1 m) (hpre1 m) (hpost1 m)
    (reg2 m) (hpre2 m) (hpost2 m)
    (reg3 m) (hpre3 m) (hpost3 m)
    (reg4 m) (hpre4 m) (hpost4 m)
    (reg5 m) (hpre5 m) (hpost5 m)
    (reg6 m) (hpre6 m) (hpost6 m)
    (reg7 m) (hpre7 m) (hpost7 m)
    (reg8 m) (hpre8 m) (hpost8 m)
    (reg9 m) (hpre9 m) (hpost9 m)
    (reg10 m) (hpre10 m) (hpost10 m)
  exact (θ_run defs (onTc (τ := τ) (main (F := F))) ⟨m, fun _ => 0, ρ⟩).mono
    (fun r hr c b hb => (hr c b hb).trans (congrFun (V22_eq m c) b)) h

/-- THE FRAME, at any `F`: every argument array ends as launched, each read off the run's last contents (`W22_main_argK`). -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs (onTc (τ := τ) (main (F := F))) ⟨m, fun _ => 0, ρ⟩).mono (fun r h c =>
    ⟨(h c _ (mem_uc main_arg0 (by decide))).trans (W22_main_arg0 m c),
     (h c _ (mem_uc main_arg1 (by decide))).trans (W22_main_arg1 m c),
     (h c _ (mem_uc main_arg2 (by decide))).trans (W22_main_arg2 m c),
     (h c _ (mem_uc main_arg3 (by decide))).trans (W22_main_arg3 m c),
     (h c _ (mem_uc main_arg4 (by decide))).trans (W22_main_arg4 m c),
     (h c _ (mem_uc main_arg5 (by decide))).trans (W22_main_arg5 m c),
     (h c _ (mem_uc main_arg6 (by decide))).trans (W22_main_arg6 m c),
     (h c _ (mem_uc main_arg7 (by decide))).trans (W22_main_arg7 m c),
     (h c _ (mem_uc main_arg8 (by decide))).trans (W22_main_arg8 m c),
     (h c _ (mem_uc main_arg9 (by decide))).trans (W22_main_arg9 m c),
     (h c _ (mem_uc main_arg10 (by decide))).trans (W22_main_arg10 m c),
     (h c _ (mem_uc main_arg11 (by decide))).trans (W22_main_arg11 m c)⟩) (run m ρ)

end Cert.KernelIdeal.Hand

end
-- ==== Proof.Ref.Basic.lean ====
import proofs.«409348_j89627377533173_1_alg».proof.Proof.Gen.ReferenceIdeal
import Idealize.ShloMosaic.Lib.StableHlo.Run
import Idealize.ShloMosaic.Lib.Pipeline.Frame

/-! What the run of the reference's straight line needs of a stretch of its operations, besides the library's `after`:
that a stretch writes only the references listed for it, so that any other reference keeps its contents across it. -/

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- An operation whose one written buffer is the reference `y`, a member of the list `W`, writes inside `W`. -/
theorem writes_sub_of_mem {W : List (Ref sig .tc)} (op : HloOp τ sig (Elt F)) (y : Ref sig .tc)
    (h : op.writes = {Proc.devRef .tc y}) (hy : y ∈ W) :
    op.writes ⊆ (W.map (Proc.devRef (τ := τ) .tc)).toFinset := by
  rw [h, Finset.singleton_subset_iff, List.mem_toFinset]
  exact List.mem_map.mpr ⟨y, hy, rfl⟩

/-- Two stretches in a row write inside the two lists in a row. -/
theorem writes_append {l₁ l₂ : List (HloOp τ sig (Elt F))} {W₁ W₂ : List (Ref sig .tc)}
    (h₁ : l₁.Forall fun op => op.writes ⊆ (W₁.map (Proc.devRef (τ := τ) .tc)).toFinset)
    (h₂ : l₂.Forall fun op => op.writes ⊆ (W₂.map (Proc.devRef (τ := τ) .tc)).toFinset) :
    (l₁ ++ l₂).Forall fun op => op.writes ⊆ ((W₁ ++ W₂).map (Proc.devRef (τ := τ) .tc)).toFinset := by
  rw [List.forall_iff_forall_mem] at h₁ h₂ ⊢
  intro op hop x hx
  rw [List.mem_toFinset, List.map_append, List.mem_append]
  rcases List.mem_append.1 hop with h | h
  · exact Or.inl (List.mem_toFinset.1 (h₁ op h hx))
  · exact Or.inr (List.mem_toFinset.1 (h₂ op h hx))

end Cert.ReferenceIdeal.Hand

end
-- ==== Proof.Ref.Ops0.lean ====
/- Window 0's operations as literal list segments (cut where a window or a layer ends), what they write, and their side facts. -/
import proofs.«409348_j89627377533173_1_alg».proof.Proof.Ref.Basic

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 0 … 7 of the flat program (window 0). -/
abbrev seg0 : List (HloOp τ sig (Elt F)) :=
  [ unary main_arg9 main_v0 ((extractStridedSlice S1x256000 ![0, 0] · slices_S2x256000_S1x256000_0_0) : (⟨S2x256000, .i32⟩ : BufTy).Contents (Elt F) → (⟨S1x256000, .i32⟩ : BufTy).Contents (Elt F)),
    reshape main_v0 main_v1 rfl shapeCasts_S1x256000_S256000,
    unary main_arg9 main_v2 ((extractStridedSlice S1x256000 ![1, 0] · slices_S2x256000_S1x256000_1_0) : (⟨S2x256000, .i32⟩ : BufTy).Contents (Elt F) → (⟨S1x256000, .i32⟩ : BufTy).Contents (Elt F)),
    reshape main_v2 main_v3 rfl shapeCasts_S1x256000_S256000,
    unary main_arg10 main_v4 ((extractStridedSlice S256000x1 ![0, 0] · slices_S256000x2_S256000x1_0_0) : (⟨S256000x2, .i32⟩ : BufTy).Contents (Elt F) → (⟨S256000x1, .i32⟩ : BufTy).Contents (Elt F)),
    reshape main_v4 main_v5 rfl shapeCasts_S256000x1_S256000,
    unary main_arg10 main_v6 ((extractStridedSlice S256000x1 ![0, 1] · slices_S256000x2_S256000x1_0_1) : (⟨S256000x2, .i32⟩ : BufTy).Contents (Elt F) → (⟨S256000x1, .i32⟩ : BufTy).Contents (Elt F)),
    reshape main_v6 main_v7 rfl shapeCasts_S256000x1_S256000 ]

/-- The references `seg0` writes, in order. -/
abbrev seg0_W : List (Ref sig .tc) :=
  [main_v0, main_v1, main_v2, main_v3, main_v4, main_v5, main_v6, main_v7]

theorem seg0_sub : (seg0 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub ..⟩

theorem seg0_writes : (seg0 : List (HloOp τ sig (Elt F))).Forall fun op => op.writes ⊆ (seg0_W.map (Proc.devRef (τ := τ) .tc)).toFinset :=
  ⟨writes_sub_of_mem _ main_v0 rfl (by decide), writes_sub_of_mem _ main_v1 rfl (by decide), writes_sub_of_mem _ main_v2 rfl (by decide), writes_sub_of_mem _ main_v3 rfl (by decide), writes_sub_of_mem _ main_v4 rfl (by decide), writes_sub_of_mem _ main_v5 rfl (by decide), writes_sub_of_mem _ main_v6 rfl (by decide), writes_sub_of_mem _ main_v7 rfl (by decide)⟩

/-- Operations 8 … 61 of the flat program (window 0). -/
abbrev seg1 : List (HloOp τ sig (Elt F)) :=
  [ unary main_arg1 main_v8 ((extractStridedSlice S1x6x300 ![0, 0, 0] · slices_S5x6x300_S1x6x300_0_0_0) : (⟨S5x6x300, .f32⟩ : BufTy).Contents (Elt F) → (⟨S1x6x300, .f32⟩ : BufTy).Contents (Elt F)),
    reshape main_v8 main_v9 rfl shapeCasts_S1x6x300_S6x300,
    nullary main_c (constantI S_ 32 0#32),
    unary main_c main_v10 (broadcastInDim S256000 ![] bcast_S_S256000 : (⟨S_, .i32⟩ : BufTy).Contents (Elt F) → (⟨S256000, .i32⟩ : BufTy).Contents (Elt F)),
    binary main_v5 main_v10 main_v11 (cmpi .slt : (⟨S256000, .i32⟩ : BufTy).Contents (Elt F) → (⟨S256000, .i32⟩ : BufTy).Contents (Elt F) → (⟨S256000, .i1⟩ : BufTy).Contents (Elt F)),
    nullary main_c_0 (constantI S_ 32 6#32),
    unary main_c_0 main_v12 (broadcastInDim S256000 ![] bcast_S_S256000 : (⟨S_, .i32⟩ : BufTy).Contents (Elt F) → (⟨S256000, .i32⟩ : BufTy).Contents (Elt F)),
    binary main_v5 main_v12 main_v13 (addi : (⟨S256000, .i32⟩ : BufTy).Contents (Elt F) → (⟨S256000, .i32⟩ : BufTy).Contents (Elt F) → (⟨S256000, .i32⟩ : BufTy).Contents (Elt F)),
    ternary main_v11 main_v13 main_v5 main_v14 (select : (⟨S256000, .i1⟩ : BufTy).Contents (Elt F) → (⟨S256000, .i32⟩ : BufTy).Contents (Elt F) → (⟨S256000, .i32⟩ : BufTy).Contents (Elt F) → (⟨S256000, .i32⟩ : BufTy).Contents (Elt F)),
    unary main_v14 main_v15 (broadcastInDim S256000x1 ![0] bcast_S256000_S256000x1_0 : (⟨S256000, .i32⟩ : BufTy).Contents (Elt F) → (⟨S256000x1, .i32⟩ : BufTy).Contents (Elt F)),
    binary main_v9 main_v15 main_v16 ((fun x i => Host.gather gather_S6x300_S256000x1_S256000x300_1_0_n_n_0_1_1300 x i) : (⟨S6x300, .f32⟩ : BufTy).Contents (Elt F) → (⟨S256000x1, .i32⟩ : BufTy).Contents (Elt F) → (⟨S256000x300, .f32⟩ : BufTy).Contents (Elt F)),
    unary main_arg2 main_v17 ((extractStridedSlice S1x3x300 ![0, 0, 0] · slices_S5x3x300_S1x3x300_0_0_0) : (⟨S5x3x300, .f32⟩ : BufTy).Contents (Elt F) → (⟨S1x3x300, .f32⟩ : BufTy).Contents (Elt F)),
    reshape main_v17 main_v18 rfl shapeCasts_S1x3x300_S3x300,
    nullary main_c_1 (constantI S_ 32 0#32),
    unary main_c_1 main_v19 (broadcastInDim S256000 ![] bcast_S_S256000 : (⟨S_, .i32⟩ : BufTy).Contents (Elt F) → (⟨S256000, .i32⟩ : BufTy).Contents (Elt F)),
    binary main_v7 main_v19 main_v20 (cmpi .slt : (⟨S256000, .i32⟩ : BufTy).Contents (Elt F) → (⟨S256000, .i32⟩ : BufTy).Contents (Elt F) → (⟨S256000, .i1⟩ : BufTy).Contents (Elt F)),
    nullary main_c_2 (constantI S_ 32 3#32),
    unary main_c_2 main_v21 (broadcastInDim S256000 ![] bcast_S_S256000 : (⟨S_, .i32⟩ : BufTy).Contents (Elt F) → (⟨S256000, .i32⟩ : BufTy).Contents (Elt F)),
    binary main_v7 main_v21 main_v22 (addi : (⟨S256000, .i32⟩ : BufTy).Contents (Elt F) → (⟨S256000, .i32⟩ : BufTy).Contents (Elt F) → (⟨S256000, .i32⟩ : BufTy).Contents (Elt F)),
    ternary main_v20 main_v22 main_v7 main_v23 (select : (⟨S256000, .i1⟩ : BufTy).Contents (Elt F) → (⟨S256000, .i32⟩ : BufTy).Contents (Elt F) → (⟨S256000, .i32⟩ : BufTy).Contents (Elt F) → (⟨S256000, .i32⟩ : BufTy).Contents (Elt F)),
    unary main_v23 main_v24 (broadcastInDim S256000x1 ![0] bcast_S256000_S256000x1_0 : (⟨S256000, .i32⟩ : BufTy).Contents (Elt F) → (⟨S256000x1, .i32⟩ : BufTy).Contents (Elt F)),
    binary main_v18 main_v24 main_v25 ((fun x i => Host.gather gather_S3x300_S256000x1_S256000x300_1_0_n_n_0_1_1300 x i) : (⟨S3x300, .f32⟩ : BufTy).Contents (Elt F) → (⟨S256000x1, .i32⟩ : BufTy).Contents (Elt F) → (⟨S256000x300, .f32⟩ : BufTy).Contents (Elt F)),
    binary main_v16 main_v25 main_v26 (addf : (⟨S256000x300, .f32⟩ : BufTy).Contents (Elt F) → (⟨S256000x300, .f32⟩ : BufTy).Contents (Elt F) → (⟨S256000x300, .f32⟩ : BufTy).Contents (Elt F)),
    nullary main_c_3 (constantI S_ 32 0#32),
    unary main_c_3 main_v27 (broadcastInDim S256000 ![] bcast_S_S256000 : (⟨S_, .i32⟩ : BufTy).Contents (Elt F) → (⟨S256000, .i32⟩ : BufTy).Contents (Elt F)),
    binary main_v1 main_v27 main_v28 (cmpi .slt : (⟨S256000, .i32⟩ : BufTy).Contents (Elt F) → (⟨S256000, .i32⟩ : BufTy).Contents (Elt F) → (⟨S256000, .i1⟩ : BufTy).Contents (Elt F)),
    nullary main_c_4 (constantI S_ 32 50000#32),
    unary main_c_4 main_v29 (broadcastInDim S256000 ![] bcast_S_S256000 : (⟨S_, .i32⟩ : BufTy).Contents (Elt F) → (⟨S256000, .i32⟩ : BufTy).Contents (Elt F)),
    binary main_v1 main_v29 main_v30 (addi : (⟨S256000, .i32⟩ : BufTy).Contents (Elt F) → (⟨S256000, .i32⟩ : BufTy).Contents (Elt F) → (⟨S256000, .i32⟩ : BufTy).Contents (Elt F)),
    ternary main_v28 main_v30 main_v1 main_v31 (select : (⟨S256000, .i1⟩ : BufTy).Contents (Elt F) → (⟨S256000, .i32⟩ : BufTy).Contents (Elt F) → (⟨S256000, .i32⟩ : BufTy).Contents (Elt F) → (⟨S256000, .i32⟩ : BufTy).Contents (Elt F)),
    unary main_v31 main_v32 (broadcastInDim S256000x1 ![0] bcast_S256000_S256000x1_0 : (⟨S256000, .i32⟩ : BufTy).Contents (Elt F) → (⟨S256000x1, .i32⟩ : BufTy).Contents (Elt F)),
    binary main_arg0 main_v32 main_v33 ((fun x i => Host.gather gather_S50000x300_S256000x1_S256000x300_1_0_n_n_0_1_1300 x i) : (⟨S50000x300, .f32⟩ : BufTy).Contents (Elt F) → (⟨S256000x1, .i32⟩ : BufTy).Contents (Elt F) → (⟨S256000x300, .f32⟩ : BufTy).Contents (Elt F)),
    binary main_v33 main_v26 main_v34 (addf : (⟨S256000x300, .f32⟩ : BufTy).Contents (Elt F) → (⟨S256000x300, .f32⟩ : BufTy).Contents (Elt F) → (⟨S256000x300, .f32⟩ : BufTy).Contents (Elt F)),
    nullary main_cst (constant S_ .f32 0x00000000#32),
    unary main_cst main_v35 (broadcastInDim S50000x300 ![] bcast_S_S50000x300 : (⟨S_, .f32⟩ : BufTy).Contents (Elt F) → (⟨S50000x300, .f32⟩ : BufTy).Contents (Elt F)),
    unary main_v3 main_v36 (broadcastInDim S256000x1 ![0] bcast_S256000_S256000x1_0 : (⟨S256000, .i32⟩ : BufTy).Contents (Elt F) → (⟨S256000x1, .i32⟩ : BufTy).Contents (Elt F)),
    ternary main_v35 main_v36 main_v34 main_v37 ((fun x i u => Host.scatterAdd scatter_S50000x300_S256000x1_S256000x300_1_0_0_1 x i u) : (⟨S50000x300, .f32⟩ : BufTy).Contents (Elt F) → (⟨S256000x1, .i32⟩ : BufTy).Contents (Elt F) → (⟨S256000x300, .f32⟩ : BufTy).Contents (Elt F) → (⟨S50000x300, .f32⟩ : BufTy).Contents (Elt F)),
    binary main_v37 main_arg0 main_v38 (addf : (⟨S50000x300, .f32⟩ : BufTy).Contents (Elt F) → (⟨S50000x300, .f32⟩ : BufTy).Contents (Elt F) → (⟨S50000x300, .f32⟩ : BufTy).Contents (Elt F)),
    unary main_arg3 main_v39 ((extractStridedSlice S1x300x600 ![0, 0, 0] · slices_S5x300x600_S1x300x600_0_0_0) : (⟨S5x300x600, .f32⟩ : BufTy).Contents (Elt F) → (⟨S1x300x600, .f32⟩ : BufTy).Contents (Elt F)),
    reshape main_v39 main_v40 rfl shapeCasts_S1x300x600_S300x600,
    binary main_v38 main_v40 main_v41 ((fun l r => Host.dotGeneral dot_S50000x300_S300x600_S50000x600_1_0_0_1_n_n none l r) : (⟨S50000x300, .f32⟩ : BufTy).Contents (Elt F) → (⟨S300x600, .f32⟩ : BufTy).Contents (Elt F) → (⟨S50000x600, .f32⟩ : BufTy).Contents (Elt F)),
    unary main_arg4 main_v42 ((extractStridedSlice S1x600 ![0, 0] · slices_S5x600_S1x600_0_0) : (⟨S5x600, .f32⟩ : BufTy).Contents (Elt F) → (⟨S1x600, .f32⟩ : BufTy).Contents (Elt F)),
    reshape main_v42 main_v43 rfl shapeCasts_S1x600_S600,
    unary main_v43 main_v44 (broadcastInDim S1x600 ![1] bcast_S600_S1x600_1 : (⟨S600, .f32⟩ : BufTy).Contents (Elt F) → (⟨S1x600, .f32⟩ : BufTy).Contents (Elt F)),
    unary main_v44 main_v45 (broadcastInDim S50000x600 ![0, 1] bcast_S1x600_S50000x600_0_1 : (⟨S1x600, .f32⟩ : BufTy).Contents (Elt F) → (⟨S50000x600, .f32⟩ : BufTy).Contents (Elt F)),
    binary main_v41 main_v45 main_v46 (addf : (⟨S50000x600, .f32⟩ : BufTy).Contents (Elt F) → (⟨S50000x600, .f32⟩ : BufTy).Contents (Elt F) → (⟨S50000x600, .f32⟩ : BufTy).Contents (Elt F)),
    TRef.nullary main_call0.cst (constant S_ .f32 0x00000000#32),
    TRef.unary main_call0.cst main_call0.v0 (broadcastInDim S50000x600 ![] bcast_S_S50000x600),
    TRef.binary (.of main_v46) main_call0.v0 main_call0.v1 maximumf,
    unary main_arg5 main_v48 ((extractStridedSlice S1x600x300 ![0, 0, 0] · slices_S5x600x300_S1x600x300_0_0_0) : (⟨S5x600x300, .f32⟩ : BufTy).Contents (Elt F) → (⟨S1x600x300, .f32⟩ : BufTy).Contents (Elt F)),
    reshape main_v48 main_v49 rfl shapeCasts_S1x600x300_S600x300,
    binary main_v47 main_v49 main_v50 ((fun l r => Host.dotGeneral dot_S50000x600_S600x300_S50000x300_1_0_0_1_n_n none l r) : (⟨S50000x600, .f32⟩ : BufTy).Contents (Elt F) → (⟨S600x300, .f32⟩ : BufTy).Contents (Elt F) → (⟨S50000x300, .f32⟩ : BufTy).Contents (Elt F)),
    unary main_arg6 main_v51 ((extractStridedSlice S1x300 ![0, 0] · slices_S5x300_S1x300_0_0) : (⟨S5x300, .f32⟩ : BufTy).Contents (Elt F) → (⟨S1x300, .f32⟩ : BufTy).Contents (Elt F)),
    reshape main_v51 main_v52 rfl shapeCasts_S1x300_S300 ]

/-- The references `seg1` writes, in order. -/
abbrev seg1_W : List (Ref sig .tc) :=
  [main_v8, main_v9, main_c, main_v10, main_v11, main_c_0, main_v12, main_v13, main_v14, main_v15, main_v16, main_v17, main_v18, main_c_1, main_v19, main_v20, main_c_2, main_v21, main_v22, main_v23, main_v24, main_v25, main_v26, main_c_3, main_v27, main_v28, main_c_4, main_v29, main_v30, main_v31, main_v32, main_v33, main_v34, main_cst, main_v35, main_v36, main_v37, main_v38, main_v39, main_v40, main_v41, main_v42, main_v43, main_v44, main_v45, main_v46, main_call0_cst, main_call0_v0, main_v47, main_v48, main_v49, main_v50, main_v51, main_v52]

theorem seg1_sub : (seg1 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub ..⟩

theorem seg1_writes : (seg1 : List (HloOp τ sig (Elt F))).Forall fun op => op.writes ⊆ (seg1_W.map (Proc.devRef (τ := τ) .tc)).toFinset :=
  ⟨writes_sub_of_mem _ main_v8 rfl (by decide), writes_sub_of_mem _ main_v9 rfl (by decide), writes_sub_of_mem _ main_c rfl (by decide), writes_sub_of_mem _ main_v10 rfl (by decide), writes_sub_of_mem _ main_v11 rfl (by decide), writes_sub_of_mem _ main_c_0 rfl (by decide), writes_sub_of_mem _ main_v12 rfl (by decide), writes_sub_of_mem _ main_v13 rfl (by decide), writes_sub_of_mem _ main_v14 rfl (by decide), writes_sub_of_mem _ main_v15 rfl (by decide), writes_sub_of_mem _ main_v16 rfl (by decide), writes_sub_of_mem _ main_v17 rfl (by decide), writes_sub_of_mem _ main_v18 rfl (by decide), writes_sub_of_mem _ main_c_1 rfl (by decide), writes_sub_of_mem _ main_v19 rfl (by decide), writes_sub_of_mem _ main_v20 rfl (by decide), writes_sub_of_mem _ main_c_2 rfl (by decide), writes_sub_of_mem _ main_v21 rfl (by decide), writes_sub_of_mem _ main_v22 rfl (by decide), writes_sub_of_mem _ main_v23 rfl (by decide), writes_sub_of_mem _ main_v24 rfl (by decide), writes_sub_of_mem _ main_v25 rfl (by decide), writes_sub_of_mem _ main_v26 rfl (by decide), writes_sub_of_mem _ main_c_3 rfl (by decide), writes_sub_of_mem _ main_v27 rfl (by decide), writes_sub_of_mem _ main_v28 rfl (by decide), writes_sub_of_mem _ main_c_4 rfl (by decide), writes_sub_of_mem _ main_v29 rfl (by decide), writes_sub_of_mem _ main_v30 rfl (by decide), writes_sub_of_mem _ main_v31 rfl (by decide), writes_sub_of_mem _ main_v32 rfl (by decide), writes_sub_of_mem _ main_v33 rfl (by decide), writes_sub_of_mem _ main_v34 rfl (by decide), writes_sub_of_mem _ main_cst rfl (by decide), writes_sub_of_mem _ main_v35 rfl (by decide), writes_sub_of_mem _ main_v36 rfl (by decide), writes_sub_of_mem _ main_v37 rfl (by decide), writes_sub_of_mem _ main_v38 rfl (by decide), writes_sub_of_mem _ main_v39 rfl (by decide), writes_sub_of_mem _ main_v40 rfl (by decide), writes_sub_of_mem _ main_v41 rfl (by decide), writes_sub_of_mem _ main_v42 rfl (by decide), writes_sub_of_mem _ main_v43 rfl (by decide), writes_sub_of_mem _ main_v44 rfl (by decide), writes_sub_of_mem _ main_v45 rfl (by decide), writes_sub_of_mem _ main_v46 rfl (by decide), writes_sub_of_mem _ main_call0_cst rfl (by decide), writes_sub_of_mem _ main_call0_v0 rfl (by decide), writes_sub_of_mem _ main_v47 rfl (by decide), writes_sub_of_mem _ main_v48 rfl (by decide), writes_sub_of_mem _ main_v49 rfl (by decide), writes_sub_of_mem _ main_v50 rfl (by decide), writes_sub_of_mem _ main_v51 rfl (by decide), writes_sub_of_mem _ main_v52 rfl (by decide)⟩

/-- Window 0's operations (`main_part0`'s, the callees' inlined at their call sites). -/
abbrev ops0 : List (HloOp τ sig (Elt F)) := seg0 ++ seg1

end Cert.ReferenceIdeal.Hand

end
-- ==== Proof.Ref.Part0.lean ====
import proofs.«409348_j89627377533173_1_alg».proof.Proof.Ref.Ops0

/-! Window 0 of @main as a straight line: `main_part0` is `seq` of its operations, the callees' bodies unfolded at their
calls and the call records at their fields; every operation touches TensorCore references only and determines its result. -/

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Each operation of `seg0` determines its result (none allocates): by cases on the literal list. -/
theorem seg0_fresh : ∀ op ∈ (seg0 : List (HloOp τ sig (Elt F))), op.fresh = ∅ := by
  intro _ h; (repeat (cases h with | head => rfl | tail _ h => ?_)); exact nomatch h

/-- Each operation of `seg1` determines its result (none allocates): by cases on the literal list. -/
theorem seg1_fresh : ∀ op ∈ (seg1 : List (HloOp τ sig (Elt F))), op.fresh = ∅ := by
  intro _ h; (repeat (cases h with | head => rfl | tail _ h => ?_)); exact nomatch h

-- one bind per statement re-associated: the rewrite under the chain recurses once per statement
set_option maxRecDepth 8192 in
set_option maxHeartbeats 4000000 in
/-- `main_part0` is that straight line: both sides are one chain of `hlo` steps once the callees are unfolded and sequencing
    is reassociated (`bind_assoc`, `pure_bind`); what is left, if anything, differs by the monad's own computation (`rfl`). -/
theorem part0_eq (c : Dev nD) : main_part0 (F := F) c = seq ops0 := by
  rw [seq_append]
  simp only [main_part0, fn_relu.body, fn_var.body, fn_where.body, fn_relu_0.body, seq, bind_assoc, pure_bind]
  all_goals rfl

theorem ops0_sub : (ops0 : List (HloOp τ sig (Elt F))).Forall fun op => op.bufs ⊆ tcRefs τ sig :=
  List.forall_append.2 ⟨seg0_sub, seg1_sub⟩

theorem ops0_fresh : ∀ op ∈ (ops0 : List (HloOp τ sig (Elt F))), op.fresh = ∅ :=
  fun op h => (List.mem_append.1 h).elim (seg0_fresh op) (seg1_fresh op)

end Cert.ReferenceIdeal.Hand

end
-- ==== Proof.Ref.Ops1.lean ====
/- Window 1's operations as literal list segments (cut where a window or a layer ends), what they write, and their side facts. -/
import proofs.«409348_j89627377533173_1_alg».proof.Proof.Ref.Basic

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 62 … 115 of the flat program (window 1). -/
abbrev seg2 : List (HloOp τ sig (Elt F)) :=
  [ unary main_v52 main_v53 (broadcastInDim S1x300 ![1] bcast_S300_S1x300_1 : (⟨S300, .f32⟩ : BufTy).Contents (Elt F) → (⟨S1x300, .f32⟩ : BufTy).Contents (Elt F)),
    unary main_v53 main_v54 (broadcastInDim S50000x300 ![0, 1] bcast_S1x300_S50000x300_0_1 : (⟨S1x300, .f32⟩ : BufTy).Contents (Elt F) → (⟨S50000x300, .f32⟩ : BufTy).Contents (Elt F)),
    binary main_v50 main_v54 main_v55 (addf : (⟨S50000x300, .f32⟩ : BufTy).Contents (Elt F) → (⟨S50000x300, .f32⟩ : BufTy).Contents (Elt F) → (⟨S50000x300, .f32⟩ : BufTy).Contents (Elt F)),
    nullary main_cst_5 (constant S_ .f32 0x00000000#32),
    binary main_v55 main_cst_5 main_v56 ((fun x v => Host.reduceAdd x v reducesTo_S50000x300_S300_d0 h_S_) : (⟨S50000x300, .f32⟩ : BufTy).Contents (Elt F) → (⟨S_, .f32⟩ : BufTy).Contents (Elt F) → (⟨S300, .f32⟩ : BufTy).Contents (Elt F)),
    nullary main_cst_6 (constant S_ .f32 0x47435000#32),
    unary main_cst_6 main_v57 (broadcastInDim S300 ![] bcast_S_S300 : (⟨S_, .f32⟩ : BufTy).Contents (Elt F) → (⟨S300, .f32⟩ : BufTy).Contents (Elt F)),
    binary main_v56 main_v57 main_v58 (Host.divf : (⟨S300, .f32⟩ : BufTy).Contents (Elt F) → (⟨S300, .f32⟩ : BufTy).Contents (Elt F) → (⟨S300, .f32⟩ : BufTy).Contents (Elt F)),
    nullary main_c_7 (constantI S_ 32 0#32),
    TRef.nullary main_call1.cst (constant S_ .f32 0x00000000#32),
    TRef.binary (.of main_v55) main_call1.cst main_call1.v0 (fun x v => Host.reduceAdd x v reducesTo_S50000x300_S300_d0 h_S_),
    TRef.unary main_call1.v0 main_call1.v1 (broadcastInDim S1x300 ![1] bcast_S300_S1x300_1),
    TRef.nullary main_call1.cst_0 (constant S_ .f32 0x47435000#32),
    TRef.unary main_call1.cst_0 main_call1.v2 (broadcastInDim S1x300 ![] bcast_S_S1x300),
    TRef.binary main_call1.v1 main_call1.v2 main_call1.v3 Host.divf,
    TRef.unary main_call1.v3 main_call1.v4 (broadcastInDim S50000x300 ![0, 1] bcast_S1x300_S50000x300_0_1),
    TRef.binary (.of main_v55) main_call1.v4 main_call1.v5 subf,
    TRef.binary main_call1.v5 main_call1.v5 main_call1.v6 mulf,
    TRef.unary (.of main_c_7) main_call1.v7 (sitofp .f32),
    TRef.nullary main_call1.cst_1 (constant S_ .f32 0x47435000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S50000x300_S300_d0 h_S_),
    TRef.unary main_call1.v8 main_call1.v10 (broadcastInDim S300 ![] bcast_S_S300),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1_call0.v0 id,
    TRef.unary main_call1_call0.v0 main_call1_call0.v1 (broadcastInDim S300 ![] bcast_S_S300),
    TRef.ternary main_call1.v12 main_call1.v11 main_call1_call0.v1 main_call1_call0.v2 (fun p a b => select (broadcastInDim S300 ![] bcast_S_S300 p) a b),
    unary main_v58 main_v60 (broadcastInDim S1x300 ![1] bcast_S300_S1x300_1 : (⟨S300, .f32⟩ : BufTy).Contents (Elt F) → (⟨S1x300, .f32⟩ : BufTy).Contents (Elt F)),
    unary main_v60 main_v61 (broadcastInDim S50000x300 ![0, 1] bcast_S1x300_S50000x300_0_1 : (⟨S1x300, .f32⟩ : BufTy).Contents (Elt F) → (⟨S50000x300, .f32⟩ : BufTy).Contents (Elt F)),
    binary main_v55 main_v61 main_v62 (subf : (⟨S50000x300, .f32⟩ : BufTy).Contents (Elt F) → (⟨S50000x300, .f32⟩ : BufTy).Contents (Elt F) → (⟨S50000x300, .f32⟩ : BufTy).Contents (Elt F)),
    nullary main_cst_8 (constant S_ .f32 0x3727C5AC#32),
    unary main_cst_8 main_v63 (broadcastInDim S300 ![] bcast_S_S300 : (⟨S_, .f32⟩ : BufTy).Contents (Elt F) → (⟨S300, .f32⟩ : BufTy).Contents (Elt F)),
    binary main_v59 main_v63 main_v64 (addf : (⟨S300, .f32⟩ : BufTy).Contents (Elt F) → (⟨S300, .f32⟩ : BufTy).Contents (Elt F) → (⟨S300, .f32⟩ : BufTy).Contents (Elt F)),
    unary main_v64 main_v65 (Host.rsqrt : (⟨S300, .f32⟩ : BufTy).Contents (Elt F) → (⟨S300, .f32⟩ : BufTy).Contents (Elt F)),
    unary main_v65 main_v66 (broadcastInDim S1x300 ![1] bcast_S300_S1x300_1 : (⟨S300, .f32⟩ : BufTy).Contents (Elt F) → (⟨S1x300, .f32⟩ : BufTy).Contents (Elt F)),
    unary main_v66 main_v67 (broadcastInDim S50000x300 ![0, 1] bcast_S1x300_S50000x300_0_1 : (⟨S1x300, .f32⟩ : BufTy).Contents (Elt F) → (⟨S50000x300, .f32⟩ : BufTy).Contents (Elt F)),
    binary main_v62 main_v67 main_v68 (mulf : (⟨S50000x300, .f32⟩ : BufTy).Contents (Elt F) → (⟨S50000x300, .f32⟩ : BufTy).Contents (Elt F) → (⟨S50000x300, .f32⟩ : BufTy).Contents (Elt F)),
    unary main_arg7 main_v69 ((extractStridedSlice S1x300 ![0, 0] · slices_S5x300_S1x300_0_0) : (⟨S5x300, .f32⟩ : BufTy).Contents (Elt F) → (⟨S1x300, .f32⟩ : BufTy).Contents (Elt F)),
    reshape main_v69 main_v70 rfl shapeCasts_S1x300_S300,
    unary main_v70 main_v71 (broadcastInDim S1x300 ![1] bcast_S300_S1x300_1 : (⟨S300, .f32⟩ : BufTy).Contents (Elt F) → (⟨S1x300, .f32⟩ : BufTy).Contents (Elt F)),
    unary main_v71 main_v72 (broadcastInDim S50000x300 ![0, 1] bcast_S1x300_S50000x300_0_1 : (⟨S1x300, .f32⟩ : BufTy).Contents (Elt F) → (⟨S50000x300, .f32⟩ : BufTy).Contents (Elt F)),
    binary main_v68 main_v72 main_v73 (mulf : (⟨S50000x300, .f32⟩ : BufTy).Contents (Elt F) → (⟨S50000x300, .f32⟩ : BufTy).Contents (Elt F) → (⟨S50000x300, .f32⟩ : BufTy).Contents (Elt F)),
    unary main_arg8 main_v74 ((extractStridedSlice S1x300 ![0, 0] · slices_S5x300_S1x300_0_0) : (⟨S5x300, .f32⟩ : BufTy).Contents (Elt F) → (⟨S1x300, .f32⟩ : BufTy).Contents (Elt F)),
    reshape main_v74 main_v75 rfl shapeCasts_S1x300_S300,
    unary main_v75 main_v76 (broadcastInDim S1x300 ![1] bcast_S300_S1x300_1 : (⟨S300, .f32⟩ : BufTy).Contents (Elt F) → (⟨S1x300, .f32⟩ : BufTy).Contents (Elt F)),
    unary main_v76 main_v77 (broadcastInDim S50000x300 ![0, 1] bcast_S1x300_S50000x300_0_1 : (⟨S1x300, .f32⟩ : BufTy).Contents (Elt F) → (⟨S50000x300, .f32⟩ : BufTy).Contents (Elt F)),
    binary main_v73 main_v77 main_v78 (addf : (⟨S50000x300, .f32⟩ : BufTy).Contents (Elt F) → (⟨S50000x300, .f32⟩ : BufTy).Contents (Elt F) → (⟨S50000x300, .f32⟩ : BufTy).Contents (Elt F)),
    TRef.nullary main_call2.cst (constant S_ .f32 0x00000000#32),
    TRef.unary main_call2.cst main_call2.v0 (broadcastInDim S50000x300 ![] bcast_S_S50000x300),
    TRef.binary (.of main_v78) main_call2.v0 main_call2.v1 maximumf ]

/-- The references `seg2` writes, in order. -/
abbrev seg2_W : List (Ref sig .tc) :=
  [main_v53, main_v54, main_v55, main_cst_5, main_v56, main_cst_6, main_v57, main_v58, main_c_7, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v59, main_v60, main_v61, main_v62, main_cst_8, main_v63, main_v64, main_v65, main_v66, main_v67, main_v68, main_v69, main_v70, main_v71, main_v72, main_v73, main_v74, main_v75, main_v76, main_v77, main_v78, main_call2_cst, main_call2_v0, main_v79]

theorem seg2_sub : (seg2 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

theorem seg2_writes : (seg2 : List (HloOp τ sig (Elt F))).Forall fun op => op.writes ⊆ (seg2_W.map (Proc.devRef (τ := τ) .tc)).toFinset :=
  ⟨writes_sub_of_mem _ main_v53 rfl (by decide), writes_sub_of_mem _ main_v54 rfl (by decide), writes_sub_of_mem _ main_v55 rfl (by decide), writes_sub_of_mem _ main_cst_5 rfl (by decide), writes_sub_of_mem _ main_v56 rfl (by decide), writes_sub_of_mem _ main_cst_6 rfl (by decide), writes_sub_of_mem _ main_v57 rfl (by decide), writes_sub_of_mem _ main_v58 rfl (by decide), writes_sub_of_mem _ main_c_7 rfl (by decide), writes_sub_of_mem _ main_call1_cst rfl (by decide), writes_sub_of_mem _ main_call1_v0 rfl (by decide), writes_sub_of_mem _ main_call1_v1 rfl (by decide), writes_sub_of_mem _ main_call1_cst_0 rfl (by decide), writes_sub_of_mem _ main_call1_v2 rfl (by decide), writes_sub_of_mem _ main_call1_v3 rfl (by decide), writes_sub_of_mem _ main_call1_v4 rfl (by decide), writes_sub_of_mem _ main_call1_v5 rfl (by decide), writes_sub_of_mem _ main_call1_v6 rfl (by decide), writes_sub_of_mem _ main_call1_v7 rfl (by decide), writes_sub_of_mem _ main_call1_cst_1 rfl (by decide), writes_sub_of_mem _ main_call1_v8 rfl (by decide), writes_sub_of_mem _ main_call1_cst_2 rfl (by decide), writes_sub_of_mem _ main_call1_v9 rfl (by decide), writes_sub_of_mem _ main_call1_v10 rfl (by decide), writes_sub_of_mem _ main_call1_v11 rfl (by decide), writes_sub_of_mem _ main_call1_cst_3 rfl (by decide), writes_sub_of_mem _ main_call1_v12 rfl (by decide), writes_sub_of_mem _ main_call1_cst_4 rfl (by decide), writes_sub_of_mem _ main_call1_call0_v0 rfl (by decide), writes_sub_of_mem _ main_call1_call0_v1 rfl (by decide), writes_sub_of_mem _ main_v59 rfl (by decide), writes_sub_of_mem _ main_v60 rfl (by decide), writes_sub_of_mem _ main_v61 rfl (by decide), writes_sub_of_mem _ main_v62 rfl (by decide), writes_sub_of_mem _ main_cst_8 rfl (by decide), writes_sub_of_mem _ main_v63 rfl (by decide), writes_sub_of_mem _ main_v64 rfl (by decide), writes_sub_of_mem _ main_v65 rfl (by decide), writes_sub_of_mem _ main_v66 rfl (by decide), writes_sub_of_mem _ main_v67 rfl (by decide), writes_sub_of_mem _ main_v68 rfl (by decide), writes_sub_of_mem _ main_v69 rfl (by decide), writes_sub_of_mem _ main_v70 rfl (by decide), writes_sub_of_mem _ main_v71 rfl (by decide), writes_sub_of_mem _ main_v72 rfl (by decide), writes_sub_of_mem _ main_v73 rfl (by decide), writes_sub_of_mem _ main_v74 rfl (by decide), writes_sub_of_mem _ main_v75 rfl (by decide), writes_sub_of_mem _ main_v76 rfl (by decide), writes_sub_of_mem _ main_v77 rfl (by decide), writes_sub_of_mem _ main_v78 rfl (by decide), writes_sub_of_mem _ main_call2_cst rfl (by decide), writes_sub_of_mem _ main_call2_v0 rfl (by decide), writes_sub_of_mem _ main_v79 rfl (by decide)⟩

/-- Operations 116 … 144 of the flat program (window 1). -/
abbrev seg3 : List (HloOp τ sig (Elt F)) :=
  [ unary main_arg1 main_v80 ((extractStridedSlice S1x6x300 ![1, 0, 0] · slices_S5x6x300_S1x6x300_1_0_0) : (⟨S5x6x300, .f32⟩ : BufTy).Contents (Elt F) → (⟨S1x6x300, .f32⟩ : BufTy).Contents (Elt F)),
    reshape main_v80 main_v81 rfl shapeCasts_S1x6x300_S6x300,
    nullary main_c_9 (constantI S_ 32 0#32),
    unary main_c_9 main_v82 (broadcastInDim S256000 ![] bcast_S_S256000 : (⟨S_, .i32⟩ : BufTy).Contents (Elt F) → (⟨S256000, .i32⟩ : BufTy).Contents (Elt F)),
    binary main_v5 main_v82 main_v83 (cmpi .slt : (⟨S256000, .i32⟩ : BufTy).Contents (Elt F) → (⟨S256000, .i32⟩ : BufTy).Contents (Elt F) → (⟨S256000, .i1⟩ : BufTy).Contents (Elt F)),
    nullary main_c_10 (constantI S_ 32 6#32),
    unary main_c_10 main_v84 (broadcastInDim S256000 ![] bcast_S_S256000 : (⟨S_, .i32⟩ : BufTy).Contents (Elt F) → (⟨S256000, .i32⟩ : BufTy).Contents (Elt F)),
    binary main_v5 main_v84 main_v85 (addi : (⟨S256000, .i32⟩ : BufTy).Contents (Elt F) → (⟨S256000, .i32⟩ : BufTy).Contents (Elt F) → (⟨S256000, .i32⟩ : BufTy).Contents (Elt F)),
    ternary main_v83 main_v85 main_v5 main_v86 (select : (⟨S256000, .i1⟩ : BufTy).Contents (Elt F) → (⟨S256000, .i32⟩ : BufTy).Contents (Elt F) → (⟨S256000, .i32⟩ : BufTy).Contents (Elt F) → (⟨S256000, .i32⟩ : BufTy).Contents (Elt F)),
    unary main_v86 main_v87 (broadcastInDim S256000x1 ![0] bcast_S256000_S256000x1_0 : (⟨S256000, .i32⟩ : BufTy).Contents (Elt F) → (⟨S256000x1, .i32⟩ : BufTy).Contents (Elt F)),
    binary main_v81 main_v87 main_v88 ((fun x i => Host.gather gather_S6x300_S256000x1_S256000x300_1_0_n_n_0_1_1300 x i) : (⟨S6x300, .f32⟩ : BufTy).Contents (Elt F) → (⟨S256000x1, .i32⟩ : BufTy).Contents (Elt F) → (⟨S256000x300, .f32⟩ : BufTy).Contents (Elt F)),
    unary main_arg2 main_v89 ((extractStridedSlice S1x3x300 ![1, 0, 0] · slices_S5x3x300_S1x3x300_1_0_0) : (⟨S5x3x300, .f32⟩ : BufTy).Contents (Elt F) → (⟨S1x3x300, .f32⟩ : BufTy).Contents (Elt F)),
    reshape main_v89 main_v90 rfl shapeCasts_S1x3x300_S3x300,
    nullary main_c_11 (constantI S_ 32 0#32),
    unary main_c_11 main_v91 (broadcastInDim S256000 ![] bcast_S_S256000 : (⟨S_, .i32⟩ : BufTy).Contents (Elt F) → (⟨S256000, .i32⟩ : BufTy).Contents (Elt F)),
    binary main_v7 main_v91 main_v92 (cmpi .slt : (⟨S256000, .i32⟩ : BufTy).Contents (Elt F) → (⟨S256000, .i32⟩ : BufTy).Contents (Elt F) → (⟨S256000, .i1⟩ : BufTy).Contents (Elt F)),
    nullary main_c_12 (constantI S_ 32 3#32),
    unary main_c_12 main_v93 (broadcastInDim S256000 ![] bcast_S_S256000 : (⟨S_, .i32⟩ : BufTy).Contents (Elt F) → (⟨S256000, .i32⟩ : BufTy).Contents (Elt F)),
    binary main_v7 main_v93 main_v94 (addi : (⟨S256000, .i32⟩ : BufTy).Contents (Elt F) → (⟨S256000, .i32⟩ : BufTy).Contents (Elt F) → (⟨S256000, .i32⟩ : BufTy).Contents (Elt F)),
    ternary main_v92 main_v94 main_v7 main_v95 (select : (⟨S256000, .i1⟩ : BufTy).Contents (Elt F) → (⟨S256000, .i32⟩ : BufTy).Contents (Elt F) → (⟨S256000, .i32⟩ : BufTy).Contents (Elt F) → (⟨S256000, .i32⟩ : BufTy).Contents (Elt F)),
    unary main_v95 main_v96 (broadcastInDim S256000x1 ![0] bcast_S256000_S256000x1_0 : (⟨S256000, .i32⟩ : BufTy).Contents (Elt F) → (⟨S256000x1, .i32⟩ : BufTy).Contents (Elt F)),
    binary main_v90 main_v96 main_v97 ((fun x i => Host.gather gather_S3x300_S256000x1_S256000x300_1_0_n_n_0_1_1300 x i) : (⟨S3x300, .f32⟩ : BufTy).Contents (Elt F) → (⟨S256000x1, .i32⟩ : BufTy).Contents (Elt F) → (⟨S256000x300, .f32⟩ : BufTy).Contents (Elt F)),
    binary main_v88 main_v97 main_v98 (addf : (⟨S256000x300, .f32⟩ : BufTy).Contents (Elt F) → (⟨S256000x300, .f32⟩ : BufTy).Contents (Elt F) → (⟨S256000x300, .f32⟩ : BufTy).Contents (Elt F)),
    nullary main_c_13 (constantI S_ 32 0#32),
    unary main_c_13 main_v99 (broadcastInDim S256000 ![] bcast_S_S256000 : (⟨S_, .i32⟩ : BufTy).Contents (Elt F) → (⟨S256000, .i32⟩ : BufTy).Contents (Elt F)),
    binary main_v1 main_v99 main_v100 (cmpi .slt : (⟨S256000, .i32⟩ : BufTy).Contents (Elt F) → (⟨S256000, .i32⟩ : BufTy).Contents (Elt F) → (⟨S256000, .i1⟩ : BufTy).Contents (Elt F)),
    nullary main_c_14 (constantI S_ 32 50000#32),
    unary main_c_14 main_v101 (broadcastInDim S256000 ![] bcast_S_S256000 : (⟨S_, .i32⟩ : BufTy).Contents (Elt F) → (⟨S256000, .i32⟩ : BufTy).Contents (Elt F)),
    binary main_v1 main_v101 main_v102 (addi : (⟨S256000, .i32⟩ : BufTy).Contents (Elt F) → (⟨S256000, .i32⟩ : BufTy).Contents (Elt F) → (⟨S256000, .i32⟩ : BufTy).Contents (Elt F)) ]

/-- The references `seg3` writes, in order. -/
abbrev seg3_W : List (Ref sig .tc) :=
  [main_v80, main_v81, main_c_9, main_v82, main_v83, main_c_10, main_v84, main_v85, main_v86, main_v87, main_v88, main_v89, main_v90, main_c_11, main_v91, main_v92, main_c_12, main_v93, main_v94, main_v95, main_v96, main_v97, main_v98, main_c_13, main_v99, main_v100, main_c_14, main_v101, main_v102]

theorem seg3_sub : (seg3 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub ..⟩

theorem seg3_writes : (seg3 : List (HloOp τ sig (Elt F))).Forall fun op => op.writes ⊆ (seg3_W.map (Proc.devRef (τ := τ) .tc)).toFinset :=
  ⟨writes_sub_of_mem _ main_v80 rfl (by decide), writes_sub_of_mem _ main_v81 rfl (by decide), writes_sub_of_mem _ main_c_9 rfl (by decide), writes_sub_of_mem _ main_v82 rfl (by decide), writes_sub_of_mem _ main_v83 rfl (by decide), writes_sub_of_mem _ main_c_10 rfl (by decide), writes_sub_of_mem _ main_v84 rfl (by decide), writes_sub_of_mem _ main_v85 rfl (by decide), writes_sub_of_mem _ main_v86 rfl (by decide), writes_sub_of_mem _ main_v87 rfl (by decide), writes_sub_of_mem _ main_v88 rfl (by decide), writes_sub_of_mem _ main_v89 rfl (by decide), writes_sub_of_mem _ main_v90 rfl (by decide), writes_sub_of_mem _ main_c_11 rfl (by decide), writes_sub_of_mem _ main_v91 rfl (by decide), writes_sub_of_mem _ main_v92 rfl (by decide), writes_sub_of_mem _ main_c_12 rfl (by decide), writes_sub_of_mem _ main_v93 rfl (by decide), writes_sub_of_mem _ main_v94 rfl (by decide), writes_sub_of_mem _ main_v95 rfl (by decide), writes_sub_of_mem _ main_v96 rfl (by decide), writes_sub_of_mem _ main_v97 rfl (by decide), writes_sub_of_mem _ main_v98 rfl (by decide), writes_sub_of_mem _ main_c_13 rfl (by decide), writes_sub_of_mem _ main_v99 rfl (by decide), writes_sub_of_mem _ main_v100 rfl (by decide), writes_sub_of_mem _ main_c_14 rfl (by decide), writes_sub_of_mem _ main_v101 rfl (by decide), writes_sub_of_mem _ main_v102 rfl (by decide)⟩

/-- Window 1's operations (`main_part1`'s, the callees' inlined at their call sites). -/
abbrev ops1 : List (HloOp τ sig (Elt F)) := seg2 ++ seg3

end Cert.ReferenceIdeal.Hand

end
-- ==== Proof.Ref.Part1.lean ====
import proofs.«409348_j89627377533173_1_alg».proof.Proof.Ref.Ops1

/-! Window 1 of @main as a straight line: `main_part1` is `seq` of its operations, the callees' bodies unfolded at their
calls and the call records at their fields; every operation touches TensorCore references only and determines its result. -/

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Each operation of `seg2` determines its result (none allocates): by cases on the literal list. -/
theorem seg2_fresh : ∀ op ∈ (seg2 : List (HloOp τ sig (Elt F))), op.fresh = ∅ := by
  intro _ h; (repeat (cases h with | head => rfl | tail _ h => ?_)); exact nomatch h

/-- Each operation of `seg3` determines its result (none allocates): by cases on the literal list. -/
theorem seg3_fresh : ∀ op ∈ (seg3 : List (HloOp τ sig (Elt F))), op.fresh = ∅ := by
  intro _ h; (repeat (cases h with | head => rfl | tail _ h => ?_)); exact nomatch h

-- one bind per statement re-associated: the rewrite under the chain recurses once per statement
set_option maxRecDepth 8192 in
set_option maxHeartbeats 4000000 in
/-- `main_part1` is that straight line: both sides are one chain of `hlo` steps once the callees are unfolded and sequencing
    is reassociated (`bind_assoc`, `pure_bind`); what is left, if anything, differs by the monad's own computation (`rfl`). -/
theorem part1_eq (c : Dev nD) : main_part1 (F := F) c = seq ops1 := by
  rw [seq_append]
  simp only [main_part1, fn_relu.body, fn_var.body, fn_where.body, fn_relu_0.body, seq, bind_assoc, pure_bind]
  all_goals rfl

theorem ops1_sub : (ops1 : List (HloOp τ sig (Elt F))).Forall fun op => op.bufs ⊆ tcRefs τ sig :=
  List.forall_append.2 ⟨seg2_sub, seg3_sub⟩

theorem ops1_fresh : ∀ op ∈ (ops1 : List (HloOp τ sig (Elt F))), op.fresh = ∅ :=
  fun op h => (List.mem_append.1 h).elim (seg2_fresh op) (seg3_fresh op)

end Cert.ReferenceIdeal.Hand

end
-- ==== Proof.Ref.Ops2.lean ====
/- Window 2's operations as literal list segments (cut where a window or a layer ends), what they write, and their side facts. -/
import proofs.«409348_j89627377533173_1_alg».proof.Proof.Ref.Basic

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 145 … 223 of the flat program (window 2). -/
abbrev seg4 : List (HloOp τ sig (Elt F)) :=
  [ ternary main_v100 main_v102 main_v1 main_v103 (select : (⟨S256000, .i1⟩ : BufTy).Contents (Elt F) → (⟨S256000, .i32⟩ : BufTy).Contents (Elt F) → (⟨S256000, .i32⟩ : BufTy).Contents (Elt F) → (⟨S256000, .i32⟩ : BufTy).Contents (Elt F)),
    unary main_v103 main_v104 (broadcastInDim S256000x1 ![0] bcast_S256000_S256000x1_0 : (⟨S256000, .i32⟩ : BufTy).Contents (Elt F) → (⟨S256000x1, .i32⟩ : BufTy).Contents (Elt F)),
    binary main_v79 main_v104 main_v105 ((fun x i => Host.gather gather_S50000x300_S256000x1_S256000x300_1_0_n_n_0_1_1300 x i) : (⟨S50000x300, .f32⟩ : BufTy).Contents (Elt F) → (⟨S256000x1, .i32⟩ : BufTy).Contents (Elt F) → (⟨S256000x300, .f32⟩ : BufTy).Contents (Elt F)),
    binary main_v105 main_v98 main_v106 (addf : (⟨S256000x300, .f32⟩ : BufTy).Contents (Elt F) → (⟨S256000x300, .f32⟩ : BufTy).Contents (Elt F) → (⟨S256000x300, .f32⟩ : BufTy).Contents (Elt F)),
    nullary main_cst_15 (constant S_ .f32 0x00000000#32),
    unary main_cst_15 main_v107 (broadcastInDim S50000x300 ![] bcast_S_S50000x300 : (⟨S_, .f32⟩ : BufTy).Contents (Elt F) → (⟨S50000x300, .f32⟩ : BufTy).Contents (Elt F)),
    unary main_v3 main_v108 (broadcastInDim S256000x1 ![0] bcast_S256000_S256000x1_0 : (⟨S256000, .i32⟩ : BufTy).Contents (Elt F) → (⟨S256000x1, .i32⟩ : BufTy).Contents (Elt F)),
    ternary main_v107 main_v108 main_v106 main_v109 ((fun x i u => Host.scatterAdd scatter_S50000x300_S256000x1_S256000x300_1_0_0_1 x i u) : (⟨S50000x300, .f32⟩ : BufTy).Contents (Elt F) → (⟨S256000x1, .i32⟩ : BufTy).Contents (Elt F) → (⟨S256000x300, .f32⟩ : BufTy).Contents (Elt F) → (⟨S50000x300, .f32⟩ : BufTy).Contents (Elt F)),
    binary main_v109 main_v79 main_v110 (addf : (⟨S50000x300, .f32⟩ : BufTy).Contents (Elt F) → (⟨S50000x300, .f32⟩ : BufTy).Contents (Elt F) → (⟨S50000x300, .f32⟩ : BufTy).Contents (Elt F)),
    unary main_arg3 main_v111 ((extractStridedSlice S1x300x600 ![1, 0, 0] · slices_S5x300x600_S1x300x600_1_0_0) : (⟨S5x300x600, .f32⟩ : BufTy).Contents (Elt F) → (⟨S1x300x600, .f32⟩ : BufTy).Contents (Elt F)),
    reshape main_v111 main_v112 rfl shapeCasts_S1x300x600_S300x600,
    binary main_v110 main_v112 main_v113 ((fun l r => Host.dotGeneral dot_S50000x300_S300x600_S50000x600_1_0_0_1_n_n none l r) : (⟨S50000x300, .f32⟩ : BufTy).Contents (Elt F) → (⟨S300x600, .f32⟩ : BufTy).Contents (Elt F) → (⟨S50000x600, .f32⟩ : BufTy).Contents (Elt F)),
    unary main_arg4 main_v114 ((extractStridedSlice S1x600 ![1, 0] · slices_S5x600_S1x600_1_0) : (⟨S5x600, .f32⟩ : BufTy).Contents (Elt F) → (⟨S1x600, .f32⟩ : BufTy).Contents (Elt F)),
    reshape main_v114 main_v115 rfl shapeCasts_S1x600_S600,
    unary main_v115 main_v116 (broadcastInDim S1x600 ![1] bcast_S600_S1x600_1 : (⟨S600, .f32⟩ : BufTy).Contents (Elt F) → (⟨S1x600, .f32⟩ : BufTy).Contents (Elt F)),
    unary main_v116 main_v117 (broadcastInDim S50000x600 ![0, 1] bcast_S1x600_S50000x600_0_1 : (⟨S1x600, .f32⟩ : BufTy).Contents (Elt F) → (⟨S50000x600, .f32⟩ : BufTy).Contents (Elt F)),
    binary main_v113 main_v117 main_v118 (addf : (⟨S50000x600, .f32⟩ : BufTy).Contents (Elt F) → (⟨S50000x600, .f32⟩ : BufTy).Contents (Elt F) → (⟨S50000x600, .f32⟩ : BufTy).Contents (Elt F)),
    TRef.nullary main_call3.cst (constant S_ .f32 0x00000000#32),
    TRef.unary main_call3.cst main_call3.v0 (broadcastInDim S50000x600 ![] bcast_S_S50000x600),
    TRef.binary (.of main_v118) main_call3.v0 main_call3.v1 maximumf,
    unary main_arg5 main_v120 ((extractStridedSlice S1x600x300 ![1, 0, 0] · slices_S5x600x300_S1x600x300_1_0_0) : (⟨S5x600x300, .f32⟩ : BufTy).Contents (Elt F) → (⟨S1x600x300, .f32⟩ : BufTy).Contents (Elt F)),
    reshape main_v120 main_v121 rfl shapeCasts_S1x600x300_S600x300,
    binary main_v119 main_v121 main_v122 ((fun l r => Host.dotGeneral dot_S50000x600_S600x300_S50000x300_1_0_0_1_n_n none l r) : (⟨S50000x600, .f32⟩ : BufTy).Contents (Elt F) → (⟨S600x300, .f32⟩ : BufTy).Contents (Elt F) → (⟨S50000x300, .f32⟩ : BufTy).Contents (Elt F)),
    unary main_arg6 main_v123 ((extractStridedSlice S1x300 ![1, 0] · slices_S5x300_S1x300_1_0) : (⟨S5x300, .f32⟩ : BufTy).Contents (Elt F) → (⟨S1x300, .f32⟩ : BufTy).Contents (Elt F)),
    reshape main_v123 main_v124 rfl shapeCasts_S1x300_S300,
    unary main_v124 main_v125 (broadcastInDim S1x300 ![1] bcast_S300_S1x300_1 : (⟨S300, .f32⟩ : BufTy).Contents (Elt F) → (⟨S1x300, .f32⟩ : BufTy).Contents (Elt F)),
    unary main_v125 main_v126 (broadcastInDim S50000x300 ![0, 1] bcast_S1x300_S50000x300_0_1 : (⟨S1x300, .f32⟩ : BufTy).Contents (Elt F) → (⟨S50000x300, .f32⟩ : BufTy).Contents (Elt F)),
    binary main_v122 main_v126 main_v127 (addf : (⟨S50000x300, .f32⟩ : BufTy).Contents (Elt F) → (⟨S50000x300, .f32⟩ : BufTy).Contents (Elt F) → (⟨S50000x300, .f32⟩ : BufTy).Contents (Elt F)),
    nullary main_cst_16 (constant S_ .f32 0x00000000#32),
    binary main_v127 main_cst_16 main_v128 ((fun x v => Host.reduceAdd x v reducesTo_S50000x300_S300_d0 h_S_) : (⟨S50000x300, .f32⟩ : BufTy).Contents (Elt F) → (⟨S_, .f32⟩ : BufTy).Contents (Elt F) → (⟨S300, .f32⟩ : BufTy).Contents (Elt F)),
    nullary main_cst_17 (constant S_ .f32 0x47435000#32),
    unary main_cst_17 main_v129 (broadcastInDim S300 ![] bcast_S_S300 : (⟨S_, .f32⟩ : BufTy).Contents (Elt F) → (⟨S300, .f32⟩ : BufTy).Contents (Elt F)),
    binary main_v128 main_v129 main_v130 (Host.divf : (⟨S300, .f32⟩ : BufTy).Contents (Elt F) → (⟨S300, .f32⟩ : BufTy).Contents (Elt F) → (⟨S300, .f32⟩ : BufTy).Contents (Elt F)),
    nullary main_c_18 (constantI S_ 32 0#32),
    TRef.nullary main_call4.cst (constant S_ .f32 0x00000000#32),
    TRef.binary (.of main_v127) main_call4.cst main_call4.v0 (fun x v => Host.reduceAdd x v reducesTo_S50000x300_S300_d0 h_S_),
    TRef.unary main_call4.v0 main_call4.v1 (broadcastInDim S1x300 ![1] bcast_S300_S1x300_1),
    TRef.nullary main_call4.cst_0 (constant S_ .f32 0x47435000#32),
    TRef.unary main_call4.cst_0 main_call4.v2 (broadcastInDim S1x300 ![] bcast_S_S1x300),
    TRef.binary main_call4.v1 main_call4.v2 main_call4.v3 Host.divf,
    TRef.unary main_call4.v3 main_call4.v4 (broadcastInDim S50000x300 ![0, 1] bcast_S1x300_S50000x300_0_1),
    TRef.binary (.of main_v127) main_call4.v4 main_call4.v5 subf,
    TRef.binary main_call4.v5 main_call4.v5 main_call4.v6 mulf,
    TRef.unary (.of main_c_18) main_call4.v7 (sitofp .f32),
    TRef.nullary main_call4.cst_1 (constant S_ .f32 0x47435000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S50000x300_S300_d0 h_S_),
    TRef.unary main_call4.v8 main_call4.v10 (broadcastInDim S300 ![] bcast_S_S300),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4_call0.v0 id,
    TRef.unary main_call4_call0.v0 main_call4_call0.v1 (broadcastInDim S300 ![] bcast_S_S300),
    TRef.ternary main_call4.v12 main_call4.v11 main_call4_call0.v1 main_call4_call0.v2 (fun p a b => select (broadcastInDim S300 ![] bcast_S_S300 p) a b),
    unary main_v130 main_v132 (broadcastInDim S1x300 ![1] bcast_S300_S1x300_1 : (⟨S300, .f32⟩ : BufTy).Contents (Elt F) → (⟨S1x300, .f32⟩ : BufTy).Contents (Elt F)),
    unary main_v132 main_v133 (broadcastInDim S50000x300 ![0, 1] bcast_S1x300_S50000x300_0_1 : (⟨S1x300, .f32⟩ : BufTy).Contents (Elt F) → (⟨S50000x300, .f32⟩ : BufTy).Contents (Elt F)),
    binary main_v127 main_v133 main_v134 (subf : (⟨S50000x300, .f32⟩ : BufTy).Contents (Elt F) → (⟨S50000x300, .f32⟩ : BufTy).Contents (Elt F) → (⟨S50000x300, .f32⟩ : BufTy).Contents (Elt F)),
    nullary main_cst_19 (constant S_ .f32 0x3727C5AC#32),
    unary main_cst_19 main_v135 (broadcastInDim S300 ![] bcast_S_S300 : (⟨S_, .f32⟩ : BufTy).Contents (Elt F) → (⟨S300, .f32⟩ : BufTy).Contents (Elt F)),
    binary main_v131 main_v135 main_v136 (addf : (⟨S300, .f32⟩ : BufTy).Contents (Elt F) → (⟨S300, .f32⟩ : BufTy).Contents (Elt F) → (⟨S300, .f32⟩ : BufTy).Contents (Elt F)),
    unary main_v136 main_v137 (Host.rsqrt : (⟨S300, .f32⟩ : BufTy).Contents (Elt F) → (⟨S300, .f32⟩ : BufTy).Contents (Elt F)),
    unary main_v137 main_v138 (broadcastInDim S1x300 ![1] bcast_S300_S1x300_1 : (⟨S300, .f32⟩ : BufTy).Contents (Elt F) → (⟨S1x300, .f32⟩ : BufTy).Contents (Elt F)),
    unary main_v138 main_v139 (broadcastInDim S50000x300 ![0, 1] bcast_S1x300_S50000x300_0_1 : (⟨S1x300, .f32⟩ : BufTy).Contents (Elt F) → (⟨S50000x300, .f32⟩ : BufTy).Contents (Elt F)),
    binary main_v134 main_v139 main_v140 (mulf : (⟨S50000x300, .f32⟩ : BufTy).Contents (Elt F) → (⟨S50000x300, .f32⟩ : BufTy).Contents (Elt F) → (⟨S50000x300, .f32⟩ : BufTy).Contents (Elt F)),
    unary main_arg7 main_v141 ((extractStridedSlice S1x300 ![1, 0] · slices_S5x300_S1x300_1_0) : (⟨S5x300, .f32⟩ : BufTy).Contents (Elt F) → (⟨S1x300, .f32⟩ : BufTy).Contents (Elt F)),
    reshape main_v141 main_v142 rfl shapeCasts_S1x300_S300,
    unary main_v142 main_v143 (broadcastInDim S1x300 ![1] bcast_S300_S1x300_1 : (⟨S300, .f32⟩ : BufTy).Contents (Elt F) → (⟨S1x300, .f32⟩ : BufTy).Contents (Elt F)),
    unary main_v143 main_v144 (broadcastInDim S50000x300 ![0, 1] bcast_S1x300_S50000x300_0_1 : (⟨S1x300, .f32⟩ : BufTy).Contents (Elt F) → (⟨S50000x300, .f32⟩ : BufTy).Contents (Elt F)),
    binary main_v140 main_v144 main_v145 (mulf : (⟨S50000x300, .f32⟩ : BufTy).Contents (Elt F) → (⟨S50000x300, .f32⟩ : BufTy).Contents (Elt F) → (⟨S50000x300, .f32⟩ : BufTy).Contents (Elt F)),
    unary main_arg8 main_v146 ((extractStridedSlice S1x300 ![1, 0] · slices_S5x300_S1x300_1_0) : (⟨S5x300, .f32⟩ : BufTy).Contents (Elt F) → (⟨S1x300, .f32⟩ : BufTy).Contents (Elt F)),
    reshape main_v146 main_v147 rfl shapeCasts_S1x300_S300,
    unary main_v147 main_v148 (broadcastInDim S1x300 ![1] bcast_S300_S1x300_1 : (⟨S300, .f32⟩ : BufTy).Contents (Elt F) → (⟨S1x300, .f32⟩ : BufTy).Contents (Elt F)),
    unary main_v148 main_v149 (broadcastInDim S50000x300 ![0, 1] bcast_S1x300_S50000x300_0_1 : (⟨S1x300, .f32⟩ : BufTy).Contents (Elt F) → (⟨S50000x300, .f32⟩ : BufTy).Contents (Elt F)),
    binary main_v145 main_v149 main_v150 (addf : (⟨S50000x300, .f32⟩ : BufTy).Contents (Elt F) → (⟨S50000x300, .f32⟩ : BufTy).Contents (Elt F) → (⟨S50000x300, .f32⟩ : BufTy).Contents (Elt F)),
    TRef.nullary main_call5.cst (constant S_ .f32 0x00000000#32),
    TRef.unary main_call5.cst main_call5.v0 (broadcastInDim S50000x300 ![] bcast_S_S50000x300),
    TRef.binary (.of main_v150) main_call5.v0 main_call5.v1 maximumf ]

/-- The references `seg4` writes, in order. -/
abbrev seg4_W : List (Ref sig .tc) :=
  [main_v103, main_v104, main_v105, main_v106, main_cst_15, main_v107, main_v108, main_v109, main_v110, main_v111, main_v112, main_v113, main_v114, main_v115, main_v116, main_v117, main_v118, main_call3_cst, main_call3_v0, main_v119, main_v120, main_v121, main_v122, main_v123, main_v124, main_v125, main_v126, main_v127, main_cst_16, main_v128, main_cst_17, main_v129, main_v130, main_c_18, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v131, main_v132, main_v133, main_v134, main_cst_19, main_v135, main_v136, main_v137, main_v138, main_v139, main_v140, main_v141, main_v142, main_v143, main_v144, main_v145, main_v146, main_v147, main_v148, main_v149, main_v150, main_call5_cst, main_call5_v0, main_v151]

theorem seg4_sub : (seg4 : List (HloOp τ sig (Elt F))).Forall fun op => op.bufs ⊆ tcRefs τ sig :=
  ⟨ternary_bufs_sub .., unary_bufs_sub .., binary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

theorem seg4_writes : (seg4 : List (HloOp τ sig (Elt F))).Forall fun op => op.writes ⊆ (seg4_W.map (Proc.devRef (τ := τ) .tc)).toFinset :=
  ⟨writes_sub_of_mem _ main_v103 rfl (by decide), writes_sub_of_mem _ main_v104 rfl (by decide), writes_sub_of_mem _ main_v105 rfl (by decide), writes_sub_of_mem _ main_v106 rfl (by decide), writes_sub_of_mem _ main_cst_15 rfl (by decide), writes_sub_of_mem _ main_v107 rfl (by decide), writes_sub_of_mem _ main_v108 rfl (by decide), writes_sub_of_mem _ main_v109 rfl (by decide), writes_sub_of_mem _ main_v110 rfl (by decide), writes_sub_of_mem _ main_v111 rfl (by decide), writes_sub_of_mem _ main_v112 rfl (by decide), writes_sub_of_mem _ main_v113 rfl (by decide), writes_sub_of_mem _ main_v114 rfl (by decide), writes_sub_of_mem _ main_v115 rfl (by decide), writes_sub_of_mem _ main_v116 rfl (by decide), writes_sub_of_mem _ main_v117 rfl (by decide), writes_sub_of_mem _ main_v118 rfl (by decide), writes_sub_of_mem _ main_call3_cst rfl (by decide), writes_sub_of_mem _ main_call3_v0 rfl (by decide), writes_sub_of_mem _ main_v119 rfl (by decide), writes_sub_of_mem _ main_v120 rfl (by decide), writes_sub_of_mem _ main_v121 rfl (by decide), writes_sub_of_mem _ main_v122 rfl (by decide), writes_sub_of_mem _ main_v123 rfl (by decide), writes_sub_of_mem _ main_v124 rfl (by decide), writes_sub_of_mem _ main_v125 rfl (by decide), writes_sub_of_mem _ main_v126 rfl (by decide), writes_sub_of_mem _ main_v127 rfl (by decide), writes_sub_of_mem _ main_cst_16 rfl (by decide), writes_sub_of_mem _ main_v128 rfl (by decide), writes_sub_of_mem _ main_cst_17 rfl (by decide), writes_sub_of_mem _ main_v129 rfl (by decide), writes_sub_of_mem _ main_v130 rfl (by decide), writes_sub_of_mem _ main_c_18 rfl (by decide), writes_sub_of_mem _ main_call4_cst rfl (by decide), writes_sub_of_mem _ main_call4_v0 rfl (by decide), writes_sub_of_mem _ main_call4_v1 rfl (by decide), writes_sub_of_mem _ main_call4_cst_0 rfl (by decide), writes_sub_of_mem _ main_call4_v2 rfl (by decide), writes_sub_of_mem _ main_call4_v3 rfl (by decide), writes_sub_of_mem _ main_call4_v4 rfl (by decide), writes_sub_of_mem _ main_call4_v5 rfl (by decide), writes_sub_of_mem _ main_call4_v6 rfl (by decide), writes_sub_of_mem _ main_call4_v7 rfl (by decide), writes_sub_of_mem _ main_call4_cst_1 rfl (by decide), writes_sub_of_mem _ main_call4_v8 rfl (by decide), writes_sub_of_mem _ main_call4_cst_2 rfl (by decide), writes_sub_of_mem _ main_call4_v9 rfl (by decide), writes_sub_of_mem _ main_call4_v10 rfl (by decide), writes_sub_of_mem _ main_call4_v11 rfl (by decide), writes_sub_of_mem _ main_call4_cst_3 rfl (by decide), writes_sub_of_mem _ main_call4_v12 rfl (by decide), writes_sub_of_mem _ main_call4_cst_4 rfl (by decide), writes_sub_of_mem _ main_call4_call0_v0 rfl (by decide), writes_sub_of_mem _ main_call4_call0_v1 rfl (by decide), writes_sub_of_mem _ main_v131 rfl (by decide), writes_sub_of_mem _ main_v132 rfl (by decide), writes_sub_of_mem _ main_v133 rfl (by decide), writes_sub_of_mem _ main_v134 rfl (by decide), writes_sub_of_mem _ main_cst_19 rfl (by decide), writes_sub_of_mem _ main_v135 rfl (by decide), writes_sub_of_mem _ main_v136 rfl (by decide), writes_sub_of_mem _ main_v137 rfl (by decide), writes_sub_of_mem _ main_v138 rfl (by decide), writes_sub_of_mem _ main_v139 rfl (by decide), writes_sub_of_mem _ main_v140 rfl (by decide), writes_sub_of_mem _ main_v141 rfl (by decide), writes_sub_of_mem _ main_v142 rfl (by decide), writes_sub_of_mem _ main_v143 rfl (by decide), writes_sub_of_mem _ main_v144 rfl (by decide), writes_sub_of_mem _ main_v145 rfl (by decide), writes_sub_of_mem _ main_v146 rfl (by decide), writes_sub_of_mem _ main_v147 rfl (by decide), writes_sub_of_mem _ main_v148 rfl (by decide), writes_sub_of_mem _ main_v149 rfl (by decide), writes_sub_of_mem _ main_v150 rfl (by decide), writes_sub_of_mem _ main_call5_cst rfl (by decide), writes_sub_of_mem _ main_call5_v0 rfl (by decide), writes_sub_of_mem _ main_v151 rfl (by decide)⟩

/-- Operations 224 … 229 of the flat program (window 2). -/
abbrev seg5 : List (HloOp τ sig (Elt F)) :=
  [ unary main_arg1 main_v152 ((extractStridedSlice S1x6x300 ![2, 0, 0] · slices_S5x6x300_S1x6x300_2_0_0) : (⟨S5x6x300, .f32⟩ : BufTy).Contents (Elt F) → (⟨S1x6x300, .f32⟩ : BufTy).Contents (Elt F)),
    reshape main_v152 main_v153 rfl shapeCasts_S1x6x300_S6x300,
    nullary main_c_20 (constantI S_ 32 0#32),
    unary main_c_20 main_v154 (broadcastInDim S256000 ![] bcast_S_S256000 : (⟨S_, .i32⟩ : BufTy).Contents (Elt F) → (⟨S256000, .i32⟩ : BufTy).Contents (Elt F)),
    binary main_v5 main_v154 main_v155 (cmpi .slt : (⟨S256000, .i32⟩ : BufTy).Contents (Elt F) → (⟨S256000, .i32⟩ : BufTy).Contents (Elt F) → (⟨S256000, .i1⟩ : BufTy).Contents (Elt F)),
    nullary main_c_21 (constantI S_ 32 6#32) ]

/-- The references `seg5` writes, in order. -/
abbrev seg5_W : List (Ref sig .tc) :=
  [main_v152, main_v153, main_c_20, main_v154, main_v155, main_c_21]

theorem seg5_sub : (seg5 : List (HloOp τ sig (Elt F))).Forall fun op => op.bufs ⊆ tcRefs τ sig :=
  ⟨unary_bufs_sub .., reshape_bufs_sub .., nullary_bufs_sub .., unary_bufs_sub .., binary_bufs_sub .., nullary_bufs_sub ..⟩

theorem seg5_writes : (seg5 : List (HloOp τ sig (Elt F))).Forall fun op => op.writes ⊆ (seg5_W.map (Proc.devRef (τ := τ) .tc)).toFinset :=
  ⟨writes_sub_of_mem _ main_v152 rfl (by decide), writes_sub_of_mem _ main_v153 rfl (by decide), writes_sub_of_mem _ main_c_20 rfl (by decide), writes_sub_of_mem _ main_v154 rfl (by decide), writes_sub_of_mem _ main_v155 rfl (by decide), writes_sub_of_mem _ main_c_21 rfl (by decide)⟩

/-- Window 2's operations (`main_part2`'s, the callees' inlined at their call sites). -/
abbrev ops2 : List (HloOp τ sig (Elt F)) := seg4 ++ seg5

end Cert.ReferenceIdeal.Hand

end
-- ==== Proof.Ref.Part2.lean ====
import proofs.«409348_j89627377533173_1_alg».proof.Proof.Ref.Ops2

/-! Window 2 of @main as a straight line: `main_part2` is `seq` of its operations, the callees' bodies unfolded at their
calls and the call records at their fields; every operation touches TensorCore references only and determines its result. -/

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Each operation of `seg4` determines its result (none allocates): by cases on the literal list. -/
theorem seg4_fresh : ∀ op ∈ (seg4 : List (HloOp τ sig (Elt F))), op.fresh = ∅ := by
  intro _ h; (repeat (cases h with | head => rfl | tail _ h => ?_)); exact nomatch h

/-- Each operation of `seg5` determines its result (none allocates): by cases on the literal list. -/
theorem seg5_fresh : ∀ op ∈ (seg5 : List (HloOp τ sig (Elt F))), op.fresh = ∅ := by
  intro _ h; (repeat (cases h with | head => rfl | tail _ h => ?_)); exact nomatch h

-- one bind per statement re-associated: the rewrite under the chain recurses once per statement
set_option maxRecDepth 8192 in
set_option maxHeartbeats 4000000 in
/-- `main_part2` is that straight line: both sides are one chain of `hlo` steps once the callees are unfolded and sequencing
    is reassociated (`bind_assoc`, `pure_bind`); what is left, if anything, differs by the monad's own computation (`rfl`). -/
theorem part2_eq (c : Dev nD) : main_part2 (F := F) c = seq ops2 := by
  rw [seq_append]
  simp only [main_part2, fn_relu.body, fn_var.body, fn_where.body, fn_relu_0.body, seq, bind_assoc, pure_bind]
  all_goals rfl

theorem ops2_sub : (ops2 : List (HloOp τ sig (Elt F))).Forall fun op => op.bufs ⊆ tcRefs τ sig :=
  List.forall_append.2 ⟨seg4_sub, seg5_sub⟩

theorem ops2_fresh : ∀ op ∈ (ops2 : List (HloOp τ sig (Elt F))), op.fresh = ∅ :=
  fun op h => (List.mem_append.1 h).elim (seg4_fresh op) (seg5_fresh op)

end Cert.ReferenceIdeal.Hand

end
-- ==== Proof.Ref.Ops3.lean ====
/- Window 3's operations as literal list segments (cut where a window or a layer ends), what they write, and their side facts. -/
import proofs.«409348_j89627377533173_1_alg».proof.Proof.Ref.Basic

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 230 … 312 of the flat program (window 3). -/
abbrev seg6 : List (HloOp τ sig (Elt F)) :=
  [ unary main_c_21 main_v156 (broadcastInDim S256000 ![] bcast_S_S256000 : (⟨S_, .i32⟩ : BufTy).Contents (Elt F) → (⟨S256000, .i32⟩ : BufTy).Contents (Elt F)),
    binary main_v5 main_v156 main_v157 (addi : (⟨S256000, .i32⟩ : BufTy).Contents (Elt F) → (⟨S256000, .i32⟩ : BufTy).Contents (Elt F) → (⟨S256000, .i32⟩ : BufTy).Contents (Elt F)),
    ternary main_v155 main_v157 main_v5 main_v158 (select : (⟨S256000, .i1⟩ : BufTy).Contents (Elt F) → (⟨S256000, .i32⟩ : BufTy).Contents (Elt F) → (⟨S256000, .i32⟩ : BufTy).Contents (Elt F) → (⟨S256000, .i32⟩ : BufTy).Contents (Elt F)),
    unary main_v158 main_v159 (broadcastInDim S256000x1 ![0] bcast_S256000_S256000x1_0 : (⟨S256000, .i32⟩ : BufTy).Contents (Elt F) → (⟨S256000x1, .i32⟩ : BufTy).Contents (Elt F)),
    binary main_v153 main_v159 main_v160 ((fun x i => Host.gather gather_S6x300_S256000x1_S256000x300_1_0_n_n_0_1_1300 x i) : (⟨S6x300, .f32⟩ : BufTy).Contents (Elt F) → (⟨S256000x1, .i32⟩ : BufTy).Contents (Elt F) → (⟨S256000x300, .f32⟩ : BufTy).Contents (Elt F)),
    unary main_arg2 main_v161 ((extractStridedSlice S1x3x300 ![2, 0, 0] · slices_S5x3x300_S1x3x300_2_0_0) : (⟨S5x3x300, .f32⟩ : BufTy).Contents (Elt F) → (⟨S1x3x300, .f32⟩ : BufTy).Contents (Elt F)),
    reshape main_v161 main_v162 rfl shapeCasts_S1x3x300_S3x300,
    nullary main_c_22 (constantI S_ 32 0#32),
    unary main_c_22 main_v163 (broadcastInDim S256000 ![] bcast_S_S256000 : (⟨S_, .i32⟩ : BufTy).Contents (Elt F) → (⟨S256000, .i32⟩ : BufTy).Contents (Elt F)),
    binary main_v7 main_v163 main_v164 (cmpi .slt : (⟨S256000, .i32⟩ : BufTy).Contents (Elt F) → (⟨S256000, .i32⟩ : BufTy).Contents (Elt F) → (⟨S256000, .i1⟩ : BufTy).Contents (Elt F)),
    nullary main_c_23 (constantI S_ 32 3#32),
    unary main_c_23 main_v165 (broadcastInDim S256000 ![] bcast_S_S256000 : (⟨S_, .i32⟩ : BufTy).Contents (Elt F) → (⟨S256000, .i32⟩ : BufTy).Contents (Elt F)),
    binary main_v7 main_v165 main_v166 (addi : (⟨S256000, .i32⟩ : BufTy).Contents (Elt F) → (⟨S256000, .i32⟩ : BufTy).Contents (Elt F) → (⟨S256000, .i32⟩ : BufTy).Contents (Elt F)),
    ternary main_v164 main_v166 main_v7 main_v167 (select : (⟨S256000, .i1⟩ : BufTy).Contents (Elt F) → (⟨S256000, .i32⟩ : BufTy).Contents (Elt F) → (⟨S256000, .i32⟩ : BufTy).Contents (Elt F) → (⟨S256000, .i32⟩ : BufTy).Contents (Elt F)),
    unary main_v167 main_v168 (broadcastInDim S256000x1 ![0] bcast_S256000_S256000x1_0 : (⟨S256000, .i32⟩ : BufTy).Contents (Elt F) → (⟨S256000x1, .i32⟩ : BufTy).Contents (Elt F)),
    binary main_v162 main_v168 main_v169 ((fun x i => Host.gather gather_S3x300_S256000x1_S256000x300_1_0_n_n_0_1_1300 x i) : (⟨S3x300, .f32⟩ : BufTy).Contents (Elt F) → (⟨S256000x1, .i32⟩ : BufTy).Contents (Elt F) → (⟨S256000x300, .f32⟩ : BufTy).Contents (Elt F)),
    binary main_v160 main_v169 main_v170 (addf : (⟨S256000x300, .f32⟩ : BufTy).Contents (Elt F) → (⟨S256000x300, .f32⟩ : BufTy).Contents (Elt F) → (⟨S256000x300, .f32⟩ : BufTy).Contents (Elt F)),
    nullary main_c_24 (constantI S_ 32 0#32),
    unary main_c_24 main_v171 (broadcastInDim S256000 ![] bcast_S_S256000 : (⟨S_, .i32⟩ : BufTy).Contents (Elt F) → (⟨S256000, .i32⟩ : BufTy).Contents (Elt F)),
    binary main_v1 main_v171 main_v172 (cmpi .slt : (⟨S256000, .i32⟩ : BufTy).Contents (Elt F) → (⟨S256000, .i32⟩ : BufTy).Contents (Elt F) → (⟨S256000, .i1⟩ : BufTy).Contents (Elt F)),
    nullary main_c_25 (constantI S_ 32 50000#32),
    unary main_c_25 main_v173 (broadcastInDim S256000 ![] bcast_S_S256000 : (⟨S_, .i32⟩ : BufTy).Contents (Elt F) → (⟨S256000, .i32⟩ : BufTy).Contents (Elt F)),
    binary main_v1 main_v173 main_v174 (addi : (⟨S256000, .i32⟩ : BufTy).Contents (Elt F) → (⟨S256000, .i32⟩ : BufTy).Contents (Elt F) → (⟨S256000, .i32⟩ : BufTy).Contents (Elt F)),
    ternary main_v172 main_v174 main_v1 main_v175 (select : (⟨S256000, .i1⟩ : BufTy).Contents (Elt F) → (⟨S256000, .i32⟩ : BufTy).Contents (Elt F) → (⟨S256000, .i32⟩ : BufTy).Contents (Elt F) → (⟨S256000, .i32⟩ : BufTy).Contents (Elt F)),
    unary main_v175 main_v176 (broadcastInDim S256000x1 ![0] bcast_S256000_S256000x1_0 : (⟨S256000, .i32⟩ : BufTy).Contents (Elt F) → (⟨S256000x1, .i32⟩ : BufTy).Contents (Elt F)),
    binary main_v151 main_v176 main_v177 ((fun x i => Host.gather gather_S50000x300_S256000x1_S256000x300_1_0_n_n_0_1_1300 x i) : (⟨S50000x300, .f32⟩ : BufTy).Contents (Elt F) → (⟨S256000x1, .i32⟩ : BufTy).Contents (Elt F) → (⟨S256000x300, .f32⟩ : BufTy).Contents (Elt F)),
    binary main_v177 main_v170 main_v178 (addf : (⟨S256000x300, .f32⟩ : BufTy).Contents (Elt F) → (⟨S256000x300, .f32⟩ : BufTy).Contents (Elt F) → (⟨S256000x300, .f32⟩ : BufTy).Contents (Elt F)),
    nullary main_cst_26 (constant S_ .f32 0x00000000#32),
    unary main_cst_26 main_v179 (broadcastInDim S50000x300 ![] bcast_S_S50000x300 : (⟨S_, .f32⟩ : BufTy).Contents (Elt F) → (⟨S50000x300, .f32⟩ : BufTy).Contents (Elt F)),
    unary main_v3 main_v180 (broadcastInDim S256000x1 ![0] bcast_S256000_S256000x1_0 : (⟨S256000, .i32⟩ : BufTy).Contents (Elt F) → (⟨S256000x1, .i32⟩ : BufTy).Contents (Elt F)),
    ternary main_v179 main_v180 main_v178 main_v181 ((fun x i u => Host.scatterAdd scatter_S50000x300_S256000x1_S256000x300_1_0_0_1 x i u) : (⟨S50000x300, .f32⟩ : BufTy).Contents (Elt F) → (⟨S256000x1, .i32⟩ : BufTy).Contents (Elt F) → (⟨S256000x300, .f32⟩ : BufTy).Contents (Elt F) → (⟨S50000x300, .f32⟩ : BufTy).Contents (Elt F)),
    binary main_v181 main_v151 main_v182 (addf : (⟨S50000x300, .f32⟩ : BufTy).Contents (Elt F) → (⟨S50000x300, .f32⟩ : BufTy).Contents (Elt F) → (⟨S50000x300, .f32⟩ : BufTy).Contents (Elt F)),
    unary main_arg3 main_v183 ((extractStridedSlice S1x300x600 ![2, 0, 0] · slices_S5x300x600_S1x300x600_2_0_0) : (⟨S5x300x600, .f32⟩ : BufTy).Contents (Elt F) → (⟨S1x300x600, .f32⟩ : BufTy).Contents (Elt F)),
    reshape main_v183 main_v184 rfl shapeCasts_S1x300x600_S300x600,
    binary main_v182 main_v184 main_v185 ((fun l r => Host.dotGeneral dot_S50000x300_S300x600_S50000x600_1_0_0_1_n_n none l r) : (⟨S50000x300, .f32⟩ : BufTy).Contents (Elt F) → (⟨S300x600, .f32⟩ : BufTy).Contents (Elt F) → (⟨S50000x600, .f32⟩ : BufTy).Contents (Elt F)),
    unary main_arg4 main_v186 ((extractStridedSlice S1x600 ![2, 0] · slices_S5x600_S1x600_2_0) : (⟨S5x600, .f32⟩ : BufTy).Contents (Elt F) → (⟨S1x600, .f32⟩ : BufTy).Contents (Elt F)),
    reshape main_v186 main_v187 rfl shapeCasts_S1x600_S600,
    unary main_v187 main_v188 (broadcastInDim S1x600 ![1] bcast_S600_S1x600_1 : (⟨S600, .f32⟩ : BufTy).Contents (Elt F) → (⟨S1x600, .f32⟩ : BufTy).Contents (Elt F)),
    unary main_v188 main_v189 (broadcastInDim S50000x600 ![0, 1] bcast_S1x600_S50000x600_0_1 : (⟨S1x600, .f32⟩ : BufTy).Contents (Elt F) → (⟨S50000x600, .f32⟩ : BufTy).Contents (Elt F)),
    binary main_v185 main_v189 main_v190 (addf : (⟨S50000x600, .f32⟩ : BufTy).Contents (Elt F) → (⟨S50000x600, .f32⟩ : BufTy).Contents (Elt F) → (⟨S50000x600, .f32⟩ : BufTy).Contents (Elt F)),
    TRef.nullary main_call6.cst (constant S_ .f32 0x00000000#32),
    TRef.unary main_call6.cst main_call6.v0 (broadcastInDim S50000x600 ![] bcast_S_S50000x600),
    TRef.binary (.of main_v190) main_call6.v0 main_call6.v1 maximumf,
    unary main_arg5 main_v192 ((extractStridedSlice S1x600x300 ![2, 0, 0] · slices_S5x600x300_S1x600x300_2_0_0) : (⟨S5x600x300, .f32⟩ : BufTy).Contents (Elt F) → (⟨S1x600x300, .f32⟩ : BufTy).Contents (Elt F)),
    reshape main_v192 main_v193 rfl shapeCasts_S1x600x300_S600x300,
    binary main_v191 main_v193 main_v194 ((fun l r => Host.dotGeneral dot_S50000x600_S600x300_S50000x300_1_0_0_1_n_n none l r) : (⟨S50000x600, .f32⟩ : BufTy).Contents (Elt F) → (⟨S600x300, .f32⟩ : BufTy).Contents (Elt F) → (⟨S50000x300, .f32⟩ : BufTy).Contents (Elt F)),
    unary main_arg6 main_v195 ((extractStridedSlice S1x300 ![2, 0] · slices_S5x300_S1x300_2_0) : (⟨S5x300, .f32⟩ : BufTy).Contents (Elt F) → (⟨S1x300, .f32⟩ : BufTy).Contents (Elt F)),
    reshape main_v195 main_v196 rfl shapeCasts_S1x300_S300,
    unary main_v196 main_v197 (broadcastInDim S1x300 ![1] bcast_S300_S1x300_1 : (⟨S300, .f32⟩ : BufTy).Contents (Elt F) → (⟨S1x300, .f32⟩ : BufTy).Contents (Elt F)),
    unary main_v197 main_v198 (broadcastInDim S50000x300 ![0, 1] bcast_S1x300_S50000x300_0_1 : (⟨S1x300, .f32⟩ : BufTy).Contents (Elt F) → (⟨S50000x300, .f32⟩ : BufTy).Contents (Elt F)),
    binary main_v194 main_v198 main_v199 (addf : (⟨S50000x300, .f32⟩ : BufTy).Contents (Elt F) → (⟨S50000x300, .f32⟩ : BufTy).Contents (Elt F) → (⟨S50000x300, .f32⟩ : BufTy).Contents (Elt F)),
    nullary main_cst_27 (constant S_ .f32 0x00000000#32),
    binary main_v199 main_cst_27 main_v200 ((fun x v => Host.reduceAdd x v reducesTo_S50000x300_S300_d0 h_S_) : (⟨S50000x300, .f32⟩ : BufTy).Contents (Elt F) → (⟨S_, .f32⟩ : BufTy).Contents (Elt F) → (⟨S300, .f32⟩ : BufTy).Contents (Elt F)),
    nullary main_cst_28 (constant S_ .f32 0x47435000#32),
    unary main_cst_28 main_v201 (broadcastInDim S300 ![] bcast_S_S300 : (⟨S_, .f32⟩ : BufTy).Contents (Elt F) → (⟨S300, .f32⟩ : BufTy).Contents (Elt F)),
    binary main_v200 main_v201 main_v202 (Host.divf : (⟨S300, .f32⟩ : BufTy).Contents (Elt F) → (⟨S300, .f32⟩ : BufTy).Contents (Elt F) → (⟨S300, .f32⟩ : BufTy).Contents (Elt F)),
    nullary main_c_29 (constantI S_ 32 0#32),
    TRef.nullary main_call7.cst (constant S_ .f32 0x00000000#32),
    TRef.binary (.of main_v199) main_call7.cst main_call7.v0 (fun x v => Host.reduceAdd x v reducesTo_S50000x300_S300_d0 h_S_),
    TRef.unary main_call7.v0 main_call7.v1 (broadcastInDim S1x300 ![1] bcast_S300_S1x300_1),
    TRef.nullary main_call7.cst_0 (constant S_ .f32 0x47435000#32),
    TRef.unary main_call7.cst_0 main_call7.v2 (broadcastInDim S1x300 ![] bcast_S_S1x300),
    TRef.binary main_call7.v1 main_call7.v2 main_call7.v3 Host.divf,
    TRef.unary main_call7.v3 main_call7.v4 (broadcastInDim S50000x300 ![0, 1] bcast_S1x300_S50000x300_0_1),
    TRef.binary (.of main_v199) main_call7.v4 main_call7.v5 subf,
    TRef.binary main_call7.v5 main_call7.v5 main_call7.v6 mulf,
    TRef.unary (.of main_c_29) main_call7.v7 (sitofp .f32),
    TRef.nullary main_call7.cst_1 (constant S_ .f32 0x47435000#32),
    TRef.binary main_call7.cst_1 main_call7.v7 main_call7.v8 subf,
    TRef.nullary main_call7.cst_2 (constant S_ .f32 0x00000000#32),
    TRef.binary main_call7.v6 main_call7.cst_2 main_call7.v9 (fun x v => Host.reduceAdd x v reducesTo_S50000x300_S300_d0 h_S_),
    TRef.unary main_call7.v8 main_call7.v10 (broadcastInDim S300 ![] bcast_S_S300),
    TRef.binary main_call7.v9 main_call7.v10 main_call7.v11 Host.divf,
    TRef.nullary main_call7.cst_3 (constant S_ .f32 0x00000000#32),
    TRef.binary main_call7.v8 main_call7.cst_3 main_call7.v12 (cmpf .ogt),
    TRef.nullary main_call7.cst_4 (constant S_ .f32 0x7FC00000#32),
    TRef.unary main_call7.cst_4 main_call7_call0.v0 id,
    TRef.unary main_call7_call0.v0 main_call7_call0.v1 (broadcastInDim S300 ![] bcast_S_S300),
    TRef.ternary main_call7.v12 main_call7.v11 main_call7_call0.v1 main_call7_call0.v2 (fun p a b => select (broadcastInDim S300 ![] bcast_S_S300 p) a b),
    unary main_v202 main_v204 (broadcastInDim S1x300 ![1] bcast_S300_S1x300_1 : (⟨S300, .f32⟩ : BufTy).Contents (Elt F) → (⟨S1x300, .f32⟩ : BufTy).Contents (Elt F)),
    unary main_v204 main_v205 (broadcastInDim S50000x300 ![0, 1] bcast_S1x300_S50000x300_0_1 : (⟨S1x300, .f32⟩ : BufTy).Contents (Elt F) → (⟨S50000x300, .f32⟩ : BufTy).Contents (Elt F)),
    binary main_v199 main_v205 main_v206 (subf : (⟨S50000x300, .f32⟩ : BufTy).Contents (Elt F) → (⟨S50000x300, .f32⟩ : BufTy).Contents (Elt F) → (⟨S50000x300, .f32⟩ : BufTy).Contents (Elt F)),
    nullary main_cst_30 (constant S_ .f32 0x3727C5AC#32) ]

/-- The references `seg6` writes, in order. -/
abbrev seg6_W : List (Ref sig .tc) :=
  [main_v156, main_v157, main_v158, main_v159, main_v160, main_v161, main_v162, main_c_22, main_v163, main_v164, main_c_23, main_v165, main_v166, main_v167, main_v168, main_v169, main_v170, main_c_24, main_v171, main_v172, main_c_25, main_v173, main_v174, main_v175, main_v176, main_v177, main_v178, main_cst_26, main_v179, main_v180, main_v181, main_v182, main_v183, main_v184, main_v185, main_v186, main_v187, main_v188, main_v189, main_v190, main_call6_cst, main_call6_v0, main_v191, main_v192, main_v193, main_v194, main_v195, main_v196, main_v197, main_v198, main_v199, main_cst_27, main_v200, main_cst_28, main_v201, main_v202, main_c_29, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v203, main_v204, main_v205, main_v206, main_cst_30]

theorem seg6_sub : (seg6 : List (HloOp τ sig (Elt F))).Forall fun op => op.bufs ⊆ tcRefs τ sig :=
  ⟨unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub ..⟩

theorem seg6_writes : (seg6 : List (HloOp τ sig (Elt F))).Forall fun op => op.writes ⊆ (seg6_W.map (Proc.devRef (τ := τ) .tc)).toFinset :=
  ⟨writes_sub_of_mem _ main_v156 rfl (by decide), writes_sub_of_mem _ main_v157 rfl (by decide), writes_sub_of_mem _ main_v158 rfl (by decide), writes_sub_of_mem _ main_v159 rfl (by decide), writes_sub_of_mem _ main_v160 rfl (by decide), writes_sub_of_mem _ main_v161 rfl (by decide), writes_sub_of_mem _ main_v162 rfl (by decide), writes_sub_of_mem _ main_c_22 rfl (by decide), writes_sub_of_mem _ main_v163 rfl (by decide), writes_sub_of_mem _ main_v164 rfl (by decide), writes_sub_of_mem _ main_c_23 rfl (by decide), writes_sub_of_mem _ main_v165 rfl (by decide), writes_sub_of_mem _ main_v166 rfl (by decide), writes_sub_of_mem _ main_v167 rfl (by decide), writes_sub_of_mem _ main_v168 rfl (by decide), writes_sub_of_mem _ main_v169 rfl (by decide), writes_sub_of_mem _ main_v170 rfl (by decide), writes_sub_of_mem _ main_c_24 rfl (by decide), writes_sub_of_mem _ main_v171 rfl (by decide), writes_sub_of_mem _ main_v172 rfl (by decide), writes_sub_of_mem _ main_c_25 rfl (by decide), writes_sub_of_mem _ main_v173 rfl (by decide), writes_sub_of_mem _ main_v174 rfl (by decide), writes_sub_of_mem _ main_v175 rfl (by decide), writes_sub_of_mem _ main_v176 rfl (by decide), writes_sub_of_mem _ main_v177 rfl (by decide), writes_sub_of_mem _ main_v178 rfl (by decide), writes_sub_of_mem _ main_cst_26 rfl (by decide), writes_sub_of_mem _ main_v179 rfl (by decide), writes_sub_of_mem _ main_v180 rfl (by decide), writes_sub_of_mem _ main_v181 rfl (by decide), writes_sub_of_mem _ main_v182 rfl (by decide), writes_sub_of_mem _ main_v183 rfl (by decide), writes_sub_of_mem _ main_v184 rfl (by decide), writes_sub_of_mem _ main_v185 rfl (by decide), writes_sub_of_mem _ main_v186 rfl (by decide), writes_sub_of_mem _ main_v187 rfl (by decide), writes_sub_of_mem _ main_v188 rfl (by decide), writes_sub_of_mem _ main_v189 rfl (by decide), writes_sub_of_mem _ main_v190 rfl (by decide), writes_sub_of_mem _ main_call6_cst rfl (by decide), writes_sub_of_mem _ main_call6_v0 rfl (by decide), writes_sub_of_mem _ main_v191 rfl (by decide), writes_sub_of_mem _ main_v192 rfl (by decide), writes_sub_of_mem _ main_v193 rfl (by decide), writes_sub_of_mem _ main_v194 rfl (by decide), writes_sub_of_mem _ main_v195 rfl (by decide), writes_sub_of_mem _ main_v196 rfl (by decide), writes_sub_of_mem _ main_v197 rfl (by decide), writes_sub_of_mem _ main_v198 rfl (by decide), writes_sub_of_mem _ main_v199 rfl (by decide), writes_sub_of_mem _ main_cst_27 rfl (by decide), writes_sub_of_mem _ main_v200 rfl (by decide), writes_sub_of_mem _ main_cst_28 rfl (by decide), writes_sub_of_mem _ main_v201 rfl (by decide), writes_sub_of_mem _ main_v202 rfl (by decide), writes_sub_of_mem _ main_c_29 rfl (by decide), writes_sub_of_mem _ main_call7_cst rfl (by decide), writes_sub_of_mem _ main_call7_v0 rfl (by decide), writes_sub_of_mem _ main_call7_v1 rfl (by decide), writes_sub_of_mem _ main_call7_cst_0 rfl (by decide), writes_sub_of_mem _ main_call7_v2 rfl (by decide), writes_sub_of_mem _ main_call7_v3 rfl (by decide), writes_sub_of_mem _ main_call7_v4 rfl (by decide), writes_sub_of_mem _ main_call7_v5 rfl (by decide), writes_sub_of_mem _ main_call7_v6 rfl (by decide), writes_sub_of_mem _ main_call7_v7 rfl (by decide), writes_sub_of_mem _ main_call7_cst_1 rfl (by decide), writes_sub_of_mem _ main_call7_v8 rfl (by decide), writes_sub_of_mem _ main_call7_cst_2 rfl (by decide), writes_sub_of_mem _ main_call7_v9 rfl (by decide), writes_sub_of_mem _ main_call7_v10 rfl (by decide), writes_sub_of_mem _ main_call7_v11 rfl (by decide), writes_sub_of_mem _ main_call7_cst_3 rfl (by decide), writes_sub_of_mem _ main_call7_v12 rfl (by decide), writes_sub_of_mem _ main_call7_cst_4 rfl (by decide), writes_sub_of_mem _ main_call7_call0_v0 rfl (by decide), writes_sub_of_mem _ main_call7_call0_v1 rfl (by decide), writes_sub_of_mem _ main_v203 rfl (by decide), writes_sub_of_mem _ main_v204 rfl (by decide), writes_sub_of_mem _ main_v205 rfl (by decide), writes_sub_of_mem _ main_v206 rfl (by decide), writes_sub_of_mem _ main_cst_30 rfl (by decide)⟩

/-- Window 3's operations (`main_part3`'s, the callees' inlined at their call sites). -/
abbrev ops3 : List (HloOp τ sig (Elt F)) := seg6

end Cert.ReferenceIdeal.Hand

end
-- ==== Proof.Ref.Part3.lean ====
import proofs.«409348_j89627377533173_1_alg».proof.Proof.Ref.Ops3

/-! Window 3 of @main as a straight line: `main_part3` is `seq` of its operations, the callees' bodies unfolded at their
calls and the call records at their fields; every operation touches TensorCore references only and determines its result. -/

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Each operation of `seg6` determines its result (none allocates): by cases on the literal list. -/
theorem seg6_fresh : ∀ op ∈ (seg6 : List (HloOp τ sig (Elt F))), op.fresh = ∅ := by
  intro _ h; (repeat (cases h with | head => rfl | tail _ h => ?_)); exact nomatch h

-- one bind per statement re-associated: the rewrite under the chain recurses once per statement
set_option maxRecDepth 8192 in
set_option maxHeartbeats 4000000 in
/-- `main_part3` is that straight line: both sides are one chain of `hlo` steps once the callees are unfolded and sequencing
    is reassociated (`bind_assoc`, `pure_bind`); what is left, if anything, differs by the monad's own computation (`rfl`). -/
theorem part3_eq (c : Dev nD) : main_part3 (F := F) c = seq ops3 := by
  simp only [main_part3, fn_relu.body, fn_var.body, fn_where.body, fn_relu_0.body, seq, bind_assoc, pure_bind]
  all_goals rfl

theorem ops3_sub : (ops3 : List (HloOp τ sig (Elt F))).Forall fun op => op.bufs ⊆ tcRefs τ sig :=
  seg6_sub

theorem ops3_fresh : ∀ op ∈ (ops3 : List (HloOp τ sig (Elt F))), op.fresh = ∅ :=
  seg6_fresh

end Cert.ReferenceIdeal.Hand

end
-- ==== Proof.Ref.Ops4.lean ====
/- Window 4's operations as literal list segments (cut where a window or a layer ends), what they write, and their side facts. -/
import proofs.«409348_j89627377533173_1_alg».proof.Proof.Ref.Basic

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 313 … 331 of the flat program (window 4). -/
abbrev seg7 : List (HloOp τ sig (Elt F)) :=
  [ unary main_cst_30 main_v207 (broadcastInDim S300 ![] bcast_S_S300 : (⟨S_, .f32⟩ : BufTy).Contents (Elt F) → (⟨S300, .f32⟩ : BufTy).Contents (Elt F)),
    binary main_v203 main_v207 main_v208 (addf : (⟨S300, .f32⟩ : BufTy).Contents (Elt F) → (⟨S300, .f32⟩ : BufTy).Contents (Elt F) → (⟨S300, .f32⟩ : BufTy).Contents (Elt F)),
    unary main_v208 main_v209 (Host.rsqrt : (⟨S300, .f32⟩ : BufTy).Contents (Elt F) → (⟨S300, .f32⟩ : BufTy).Contents (Elt F)),
    unary main_v209 main_v210 (broadcastInDim S1x300 ![1] bcast_S300_S1x300_1 : (⟨S300, .f32⟩ : BufTy).Contents (Elt F) → (⟨S1x300, .f32⟩ : BufTy).Contents (Elt F)),
    unary main_v210 main_v211 (broadcastInDim S50000x300 ![0, 1] bcast_S1x300_S50000x300_0_1 : (⟨S1x300, .f32⟩ : BufTy).Contents (Elt F) → (⟨S50000x300, .f32⟩ : BufTy).Contents (Elt F)),
    binary main_v206 main_v211 main_v212 (mulf : (⟨S50000x300, .f32⟩ : BufTy).Contents (Elt F) → (⟨S50000x300, .f32⟩ : BufTy).Contents (Elt F) → (⟨S50000x300, .f32⟩ : BufTy).Contents (Elt F)),
    unary main_arg7 main_v213 ((extractStridedSlice S1x300 ![2, 0] · slices_S5x300_S1x300_2_0) : (⟨S5x300, .f32⟩ : BufTy).Contents (Elt F) → (⟨S1x300, .f32⟩ : BufTy).Contents (Elt F)),
    reshape main_v213 main_v214 rfl shapeCasts_S1x300_S300,
    unary main_v214 main_v215 (broadcastInDim S1x300 ![1] bcast_S300_S1x300_1 : (⟨S300, .f32⟩ : BufTy).Contents (Elt F) → (⟨S1x300, .f32⟩ : BufTy).Contents (Elt F)),
    unary main_v215 main_v216 (broadcastInDim S50000x300 ![0, 1] bcast_S1x300_S50000x300_0_1 : (⟨S1x300, .f32⟩ : BufTy).Contents (Elt F) → (⟨S50000x300, .f32⟩ : BufTy).Contents (Elt F)),
    binary main_v212 main_v216 main_v217 (mulf : (⟨S50000x300, .f32⟩ : BufTy).Contents (Elt F) → (⟨S50000x300, .f32⟩ : BufTy).Contents (Elt F) → (⟨S50000x300, .f32⟩ : BufTy).Contents (Elt F)),
    unary main_arg8 main_v218 ((extractStridedSlice S1x300 ![2, 0] · slices_S5x300_S1x300_2_0) : (⟨S5x300, .f32⟩ : BufTy).Contents (Elt F) → (⟨S1x300, .f32⟩ : BufTy).Contents (Elt F)),
    reshape main_v218 main_v219 rfl shapeCasts_S1x300_S300,
    unary main_v219 main_v220 (broadcastInDim S1x300 ![1] bcast_S300_S1x300_1 : (⟨S300, .f32⟩ : BufTy).Contents (Elt F) → (⟨S1x300, .f32⟩ : BufTy).Contents (Elt F)),
    unary main_v220 main_v221 (broadcastInDim S50000x300 ![0, 1] bcast_S1x300_S50000x300_0_1 : (⟨S1x300, .f32⟩ : BufTy).Contents (Elt F) → (⟨S50000x300, .f32⟩ : BufTy).Contents (Elt F)),
    binary main_v217 main_v221 main_v222 (addf : (⟨S50000x300, .f32⟩ : BufTy).Contents (Elt F) → (⟨S50000x300, .f32⟩ : BufTy).Contents (Elt F) → (⟨S50000x300, .f32⟩ : BufTy).Contents (Elt F)),
    TRef.nullary main_call8.cst (constant S_ .f32 0x00000000#32),
    TRef.unary main_call8.cst main_call8.v0 (broadcastInDim S50000x300 ![] bcast_S_S50000x300),
    TRef.binary (.of main_v222) main_call8.v0 main_call8.v1 maximumf ]

/-- The references `seg7` writes, in order. -/
abbrev seg7_W : List (Ref sig .tc) :=
  [main_v207, main_v208, main_v209, main_v210, main_v211, main_v212, main_v213, main_v214, main_v215, main_v216, main_v217, main_v218, main_v219, main_v220, main_v221, main_v222, main_call8_cst, main_call8_v0, main_v223]

theorem seg7_sub : (seg7 : List (HloOp τ sig (Elt F))).Forall fun op => op.bufs ⊆ tcRefs τ sig :=
  ⟨unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

theorem seg7_writes : (seg7 : List (HloOp τ sig (Elt F))).Forall fun op => op.writes ⊆ (seg7_W.map (Proc.devRef (τ := τ) .tc)).toFinset :=
  ⟨writes_sub_of_mem _ main_v207 rfl (by decide), writes_sub_of_mem _ main_v208 rfl (by decide), writes_sub_of_mem _ main_v209 rfl (by decide), writes_sub_of_mem _ main_v210 rfl (by decide), writes_sub_of_mem _ main_v211 rfl (by decide), writes_sub_of_mem _ main_v212 rfl (by decide), writes_sub_of_mem _ main_v213 rfl (by decide), writes_sub_of_mem _ main_v214 rfl (by decide), writes_sub_of_mem _ main_v215 rfl (by decide), writes_sub_of_mem _ main_v216 rfl (by decide), writes_sub_of_mem _ main_v217 rfl (by decide), writes_sub_of_mem _ main_v218 rfl (by decide), writes_sub_of_mem _ main_v219 rfl (by decide), writes_sub_of_mem _ main_v220 rfl (by decide), writes_sub_of_mem _ main_v221 rfl (by decide), writes_sub_of_mem _ main_v222 rfl (by decide), writes_sub_of_mem _ main_call8_cst rfl (by decide), writes_sub_of_mem _ main_call8_v0 rfl (by decide), writes_sub_of_mem _ main_v223 rfl (by decide)⟩

/-- Operations 332 … 374 of the flat program (window 4). -/
abbrev seg8 : List (HloOp τ sig (Elt F)) :=
  [ unary main_arg1 main_v224 ((extractStridedSlice S1x6x300 ![3, 0, 0] · slices_S5x6x300_S1x6x300_3_0_0) : (⟨S5x6x300, .f32⟩ : BufTy).Contents (Elt F) → (⟨S1x6x300, .f32⟩ : BufTy).Contents (Elt F)),
    reshape main_v224 main_v225 rfl shapeCasts_S1x6x300_S6x300,
    nullary main_c_31 (constantI S_ 32 0#32),
    unary main_c_31 main_v226 (broadcastInDim S256000 ![] bcast_S_S256000 : (⟨S_, .i32⟩ : BufTy).Contents (Elt F) → (⟨S256000, .i32⟩ : BufTy).Contents (Elt F)),
    binary main_v5 main_v226 main_v227 (cmpi .slt : (⟨S256000, .i32⟩ : BufTy).Contents (Elt F) → (⟨S256000, .i32⟩ : BufTy).Contents (Elt F) → (⟨S256000, .i1⟩ : BufTy).Contents (Elt F)),
    nullary main_c_32 (constantI S_ 32 6#32),
    unary main_c_32 main_v228 (broadcastInDim S256000 ![] bcast_S_S256000 : (⟨S_, .i32⟩ : BufTy).Contents (Elt F) → (⟨S256000, .i32⟩ : BufTy).Contents (Elt F)),
    binary main_v5 main_v228 main_v229 (addi : (⟨S256000, .i32⟩ : BufTy).Contents (Elt F) → (⟨S256000, .i32⟩ : BufTy).Contents (Elt F) → (⟨S256000, .i32⟩ : BufTy).Contents (Elt F)),
    ternary main_v227 main_v229 main_v5 main_v230 (select : (⟨S256000, .i1⟩ : BufTy).Contents (Elt F) → (⟨S256000, .i32⟩ : BufTy).Contents (Elt F) → (⟨S256000, .i32⟩ : BufTy).Contents (Elt F) → (⟨S256000, .i32⟩ : BufTy).Contents (Elt F)),
    unary main_v230 main_v231 (broadcastInDim S256000x1 ![0] bcast_S256000_S256000x1_0 : (⟨S256000, .i32⟩ : BufTy).Contents (Elt F) → (⟨S256000x1, .i32⟩ : BufTy).Contents (Elt F)),
    binary main_v225 main_v231 main_v232 ((fun x i => Host.gather gather_S6x300_S256000x1_S256000x300_1_0_n_n_0_1_1300 x i) : (⟨S6x300, .f32⟩ : BufTy).Contents (Elt F) → (⟨S256000x1, .i32⟩ : BufTy).Contents (Elt F) → (⟨S256000x300, .f32⟩ : BufTy).Contents (Elt F)),
    unary main_arg2 main_v233 ((extractStridedSlice S1x3x300 ![3, 0, 0] · slices_S5x3x300_S1x3x300_3_0_0) : (⟨S5x3x300, .f32⟩ : BufTy).Contents (Elt F) → (⟨S1x3x300, .f32⟩ : BufTy).Contents (Elt F)),
    reshape main_v233 main_v234 rfl shapeCasts_S1x3x300_S3x300,
    nullary main_c_33 (constantI S_ 32 0#32),
    unary main_c_33 main_v235 (broadcastInDim S256000 ![] bcast_S_S256000 : (⟨S_, .i32⟩ : BufTy).Contents (Elt F) → (⟨S256000, .i32⟩ : BufTy).Contents (Elt F)),
    binary main_v7 main_v235 main_v236 (cmpi .slt : (⟨S256000, .i32⟩ : BufTy).Contents (Elt F) → (⟨S256000, .i32⟩ : BufTy).Contents (Elt F) → (⟨S256000, .i1⟩ : BufTy).Contents (Elt F)),
    nullary main_c_34 (constantI S_ 32 3#32),
    unary main_c_34 main_v237 (broadcastInDim S256000 ![] bcast_S_S256000 : (⟨S_, .i32⟩ : BufTy).Contents (Elt F) → (⟨S256000, .i32⟩ : BufTy).Contents (Elt F)),
    binary main_v7 main_v237 main_v238 (addi : (⟨S256000, .i32⟩ : BufTy).Contents (Elt F) → (⟨S256000, .i32⟩ : BufTy).Contents (Elt F) → (⟨S256000, .i32⟩ : BufTy).Contents (Elt F)),
    ternary main_v236 main_v238 main_v7 main_v239 (select : (⟨S256000, .i1⟩ : BufTy).Contents (Elt F) → (⟨S256000, .i32⟩ : BufTy).Contents (Elt F) → (⟨S256000, .i32⟩ : BufTy).Contents (Elt F) → (⟨S256000, .i32⟩ : BufTy).Contents (Elt F)),
    unary main_v239 main_v240 (broadcastInDim S256000x1 ![0] bcast_S256000_S256000x1_0 : (⟨S256000, .i32⟩ : BufTy).Contents (Elt F) → (⟨S256000x1, .i32⟩ : BufTy).Contents (Elt F)),
    binary main_v234 main_v240 main_v241 ((fun x i => Host.gather gather_S3x300_S256000x1_S256000x300_1_0_n_n_0_1_1300 x i) : (⟨S3x300, .f32⟩ : BufTy).Contents (Elt F) → (⟨S256000x1, .i32⟩ : BufTy).Contents (Elt F) → (⟨S256000x300, .f32⟩ : BufTy).Contents (Elt F)),
    binary main_v232 main_v241 main_v242 (addf : (⟨S256000x300, .f32⟩ : BufTy).Contents (Elt F) → (⟨S256000x300, .f32⟩ : BufTy).Contents (Elt F) → (⟨S256000x300, .f32⟩ : BufTy).Contents (Elt F)),
    nullary main_c_35 (constantI S_ 32 0#32),
    unary main_c_35 main_v243 (broadcastInDim S256000 ![] bcast_S_S256000 : (⟨S_, .i32⟩ : BufTy).Contents (Elt F) → (⟨S256000, .i32⟩ : BufTy).Contents (Elt F)),
    binary main_v1 main_v243 main_v244 (cmpi .slt : (⟨S256000, .i32⟩ : BufTy).Contents (Elt F) → (⟨S256000, .i32⟩ : BufTy).Contents (Elt F) → (⟨S256000, .i1⟩ : BufTy).Contents (Elt F)),
    nullary main_c_36 (constantI S_ 32 50000#32),
    unary main_c_36 main_v245 (broadcastInDim S256000 ![] bcast_S_S256000 : (⟨S_, .i32⟩ : BufTy).Contents (Elt F) → (⟨S256000, .i32⟩ : BufTy).Contents (Elt F)),
    binary main_v1 main_v245 main_v246 (addi : (⟨S256000, .i32⟩ : BufTy).Contents (Elt F) → (⟨S256000, .i32⟩ : BufTy).Contents (Elt F) → (⟨S256000, .i32⟩ : BufTy).Contents (Elt F)),
    ternary main_v244 main_v246 main_v1 main_v247 (select : (⟨S256000, .i1⟩ : BufTy).Contents (Elt F) → (⟨S256000, .i32⟩ : BufTy).Contents (Elt F) → (⟨S256000, .i32⟩ : BufTy).Contents (Elt F) → (⟨S256000, .i32⟩ : BufTy).Contents (Elt F)),
    unary main_v247 main_v248 (broadcastInDim S256000x1 ![0] bcast_S256000_S256000x1_0 : (⟨S256000, .i32⟩ : BufTy).Contents (Elt F) → (⟨S256000x1, .i32⟩ : BufTy).Contents (Elt F)),
    binary main_v223 main_v248 main_v249 ((fun x i => Host.gather gather_S50000x300_S256000x1_S256000x300_1_0_n_n_0_1_1300 x i) : (⟨S50000x300, .f32⟩ : BufTy).Contents (Elt F) → (⟨S256000x1, .i32⟩ : BufTy).Contents (Elt F) → (⟨S256000x300, .f32⟩ : BufTy).Contents (Elt F)),
    binary main_v249 main_v242 main_v250 (addf : (⟨S256000x300, .f32⟩ : BufTy).Contents (Elt F) → (⟨S256000x300, .f32⟩ : BufTy).Contents (Elt F) → (⟨S256000x300, .f32⟩ : BufTy).Contents (Elt F)),
    nullary main_cst_37 (constant S_ .f32 0x00000000#32),
    unary main_cst_37 main_v251 (broadcastInDim S50000x300 ![] bcast_S_S50000x300 : (⟨S_, .f32⟩ : BufTy).Contents (Elt F) → (⟨S50000x300, .f32⟩ : BufTy).Contents (Elt F)),
    unary main_v3 main_v252 (broadcastInDim S256000x1 ![0] bcast_S256000_S256000x1_0 : (⟨S256000, .i32⟩ : BufTy).Contents (Elt F) → (⟨S256000x1, .i32⟩ : BufTy).Contents (Elt F)),
    ternary main_v251 main_v252 main_v250 main_v253 ((fun x i u => Host.scatterAdd scatter_S50000x300_S256000x1_S256000x300_1_0_0_1 x i u) : (⟨S50000x300, .f32⟩ : BufTy).Contents (Elt F) → (⟨S256000x1, .i32⟩ : BufTy).Contents (Elt F) → (⟨S256000x300, .f32⟩ : BufTy).Contents (Elt F) → (⟨S50000x300, .f32⟩ : BufTy).Contents (Elt F)),
    binary main_v253 main_v223 main_v254 (addf : (⟨S50000x300, .f32⟩ : BufTy).Contents (Elt F) → (⟨S50000x300, .f32⟩ : BufTy).Contents (Elt F) → (⟨S50000x300, .f32⟩ : BufTy).Contents (Elt F)),
    unary main_arg3 main_v255 ((extractStridedSlice S1x300x600 ![3, 0, 0] · slices_S5x300x600_S1x300x600_3_0_0) : (⟨S5x300x600, .f32⟩ : BufTy).Contents (Elt F) → (⟨S1x300x600, .f32⟩ : BufTy).Contents (Elt F)),
    reshape main_v255 main_v256 rfl shapeCasts_S1x300x600_S300x600,
    binary main_v254 main_v256 main_v257 ((fun l r => Host.dotGeneral dot_S50000x300_S300x600_S50000x600_1_0_0_1_n_n none l r) : (⟨S50000x300, .f32⟩ : BufTy).Contents (Elt F) → (⟨S300x600, .f32⟩ : BufTy).Contents (Elt F) → (⟨S50000x600, .f32⟩ : BufTy).Contents (Elt F)),
    unary main_arg4 main_v258 ((extractStridedSlice S1x600 ![3, 0] · slices_S5x600_S1x600_3_0) : (⟨S5x600, .f32⟩ : BufTy).Contents (Elt F) → (⟨S1x600, .f32⟩ : BufTy).Contents (Elt F)),
    reshape main_v258 main_v259 rfl shapeCasts_S1x600_S600 ]

/-- The references `seg8` writes, in order. -/
abbrev seg8_W : List (Ref sig .tc) :=
  [main_v224, main_v225, main_c_31, main_v226, main_v227, main_c_32, main_v228, main_v229, main_v230, main_v231, main_v232, main_v233, main_v234, main_c_33, main_v235, main_v236, main_c_34, main_v237, main_v238, main_v239, main_v240, main_v241, main_v242, main_c_35, main_v243, main_v244, main_c_36, main_v245, main_v246, main_v247, main_v248, main_v249, main_v250, main_cst_37, main_v251, main_v252, main_v253, main_v254, main_v255, main_v256, main_v257, main_v258, main_v259]

theorem seg8_sub : (seg8 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub ..⟩

theorem seg8_writes : (seg8 : List (HloOp τ sig (Elt F))).Forall fun op => op.writes ⊆ (seg8_W.map (Proc.devRef (τ := τ) .tc)).toFinset :=
  ⟨writes_sub_of_mem _ main_v224 rfl (by decide), writes_sub_of_mem _ main_v225 rfl (by decide), writes_sub_of_mem _ main_c_31 rfl (by decide), writes_sub_of_mem _ main_v226 rfl (by decide), writes_sub_of_mem _ main_v227 rfl (by decide), writes_sub_of_mem _ main_c_32 rfl (by decide), writes_sub_of_mem _ main_v228 rfl (by decide), writes_sub_of_mem _ main_v229 rfl (by decide), writes_sub_of_mem _ main_v230 rfl (by decide), writes_sub_of_mem _ main_v231 rfl (by decide), writes_sub_of_mem _ main_v232 rfl (by decide), writes_sub_of_mem _ main_v233 rfl (by decide), writes_sub_of_mem _ main_v234 rfl (by decide), writes_sub_of_mem _ main_c_33 rfl (by decide), writes_sub_of_mem _ main_v235 rfl (by decide), writes_sub_of_mem _ main_v236 rfl (by decide), writes_sub_of_mem _ main_c_34 rfl (by decide), writes_sub_of_mem _ main_v237 rfl (by decide), writes_sub_of_mem _ main_v238 rfl (by decide), writes_sub_of_mem _ main_v239 rfl (by decide), writes_sub_of_mem _ main_v240 rfl (by decide), writes_sub_of_mem _ main_v241 rfl (by decide), writes_sub_of_mem _ main_v242 rfl (by decide), writes_sub_of_mem _ main_c_35 rfl (by decide), writes_sub_of_mem _ main_v243 rfl (by decide), writes_sub_of_mem _ main_v244 rfl (by decide), writes_sub_of_mem _ main_c_36 rfl (by decide), writes_sub_of_mem _ main_v245 rfl (by decide), writes_sub_of_mem _ main_v246 rfl (by decide), writes_sub_of_mem _ main_v247 rfl (by decide), writes_sub_of_mem _ main_v248 rfl (by decide), writes_sub_of_mem _ main_v249 rfl (by decide), writes_sub_of_mem _ main_v250 rfl (by decide), writes_sub_of_mem _ main_cst_37 rfl (by decide), writes_sub_of_mem _ main_v251 rfl (by decide), writes_sub_of_mem _ main_v252 rfl (by decide), writes_sub_of_mem _ main_v253 rfl (by decide), writes_sub_of_mem _ main_v254 rfl (by decide), writes_sub_of_mem _ main_v255 rfl (by decide), writes_sub_of_mem _ main_v256 rfl (by decide), writes_sub_of_mem _ main_v257 rfl (by decide), writes_sub_of_mem _ main_v258 rfl (by decide), writes_sub_of_mem _ main_v259 rfl (by decide)⟩

/-- Window 4's operations (`main_part4`'s, the callees' inlined at their call sites). -/
abbrev ops4 : List (HloOp τ sig (Elt F)) := seg7 ++ seg8

end Cert.ReferenceIdeal.Hand

end
-- ==== Proof.Ref.Part4.lean ====
import proofs.«409348_j89627377533173_1_alg».proof.Proof.Ref.Ops4

/-! Window 4 of @main as a straight line: `main_part4` is `seq` of its operations, the callees' bodies unfolded at their
calls and the call records at their fields; every operation touches TensorCore references only and determines its result. -/

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Each operation of `seg7` determines its result (none allocates): by cases on the literal list. -/
theorem seg7_fresh : ∀ op ∈ (seg7 : List (HloOp τ sig (Elt F))), op.fresh = ∅ := by
  intro _ h; (repeat (cases h with | head => rfl | tail _ h => ?_)); exact nomatch h

/-- Each operation of `seg8` determines its result (none allocates): by cases on the literal list. -/
theorem seg8_fresh : ∀ op ∈ (seg8 : List (HloOp τ sig (Elt F))), op.fresh = ∅ := by
  intro _ h; (repeat (cases h with | head => rfl | tail _ h => ?_)); exact nomatch h

-- one bind per statement re-associated: the rewrite under the chain recurses once per statement
set_option maxRecDepth 8192 in
set_option maxHeartbeats 4000000 in
/-- `main_part4` is that straight line: both sides are one chain of `hlo` steps once the callees are unfolded and sequencing
    is reassociated (`bind_assoc`, `pure_bind`); what is left, if anything, differs by the monad's own computation (`rfl`). -/
theorem part4_eq (c : Dev nD) : main_part4 (F := F) c = seq ops4 := by
  rw [seq_append]
  simp only [main_part4, fn_relu.body, fn_var.body, fn_where.body, fn_relu_0.body, seq, bind_assoc, pure_bind]
  all_goals rfl

theorem ops4_sub : (ops4 : List (HloOp τ sig (Elt F))).Forall fun op => op.bufs ⊆ tcRefs τ sig :=
  List.forall_append.2 ⟨seg7_sub, seg8_sub⟩

theorem ops4_fresh : ∀ op ∈ (ops4 : List (HloOp τ sig (Elt F))), op.fresh = ∅ :=
  fun op h => (List.mem_append.1 h).elim (seg7_fresh op) (seg8_fresh op)

end Cert.ReferenceIdeal.Hand

end
-- ==== Proof.Ref.Ops5.lean ====
/- Window 5's operations as literal list segments (cut where a window or a layer ends), what they write, and their side facts. -/
import proofs.«409348_j89627377533173_1_alg».proof.Proof.Ref.Basic

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 375 … 439 of the flat program (window 5). -/
abbrev seg9 : List (HloOp τ sig (Elt F)) :=
  [ unary main_v259 main_v260 (broadcastInDim S1x600 ![1] bcast_S600_S1x600_1 : (⟨S600, .f32⟩ : BufTy).Contents (Elt F) → (⟨S1x600, .f32⟩ : BufTy).Contents (Elt F)),
    unary main_v260 main_v261 (broadcastInDim S50000x600 ![0, 1] bcast_S1x600_S50000x600_0_1 : (⟨S1x600, .f32⟩ : BufTy).Contents (Elt F) → (⟨S50000x600, .f32⟩ : BufTy).Contents (Elt F)),
    binary main_v257 main_v261 main_v262 (addf : (⟨S50000x600, .f32⟩ : BufTy).Contents (Elt F) → (⟨S50000x600, .f32⟩ : BufTy).Contents (Elt F) → (⟨S50000x600, .f32⟩ : BufTy).Contents (Elt F)),
    TRef.nullary main_call9.cst (constant S_ .f32 0x00000000#32),
    TRef.unary main_call9.cst main_call9.v0 (broadcastInDim S50000x600 ![] bcast_S_S50000x600),
    TRef.binary (.of main_v262) main_call9.v0 main_call9.v1 maximumf,
    unary main_arg5 main_v264 ((extractStridedSlice S1x600x300 ![3, 0, 0] · slices_S5x600x300_S1x600x300_3_0_0) : (⟨S5x600x300, .f32⟩ : BufTy).Contents (Elt F) → (⟨S1x600x300, .f32⟩ : BufTy).Contents (Elt F)),
    reshape main_v264 main_v265 rfl shapeCasts_S1x600x300_S600x300,
    binary main_v263 main_v265 main_v266 ((fun l r => Host.dotGeneral dot_S50000x600_S600x300_S50000x300_1_0_0_1_n_n none l r) : (⟨S50000x600, .f32⟩ : BufTy).Contents (Elt F) → (⟨S600x300, .f32⟩ : BufTy).Contents (Elt F) → (⟨S50000x300, .f32⟩ : BufTy).Contents (Elt F)),
    unary main_arg6 main_v267 ((extractStridedSlice S1x300 ![3, 0] · slices_S5x300_S1x300_3_0) : (⟨S5x300, .f32⟩ : BufTy).Contents (Elt F) → (⟨S1x300, .f32⟩ : BufTy).Contents (Elt F)),
    reshape main_v267 main_v268 rfl shapeCasts_S1x300_S300,
    unary main_v268 main_v269 (broadcastInDim S1x300 ![1] bcast_S300_S1x300_1 : (⟨S300, .f32⟩ : BufTy).Contents (Elt F) → (⟨S1x300, .f32⟩ : BufTy).Contents (Elt F)),
    unary main_v269 main_v270 (broadcastInDim S50000x300 ![0, 1] bcast_S1x300_S50000x300_0_1 : (⟨S1x300, .f32⟩ : BufTy).Contents (Elt F) → (⟨S50000x300, .f32⟩ : BufTy).Contents (Elt F)),
    binary main_v266 main_v270 main_v271 (addf : (⟨S50000x300, .f32⟩ : BufTy).Contents (Elt F) → (⟨S50000x300, .f32⟩ : BufTy).Contents (Elt F) → (⟨S50000x300, .f32⟩ : BufTy).Contents (Elt F)),
    nullary main_cst_38 (constant S_ .f32 0x00000000#32),
    binary main_v271 main_cst_38 main_v272 ((fun x v => Host.reduceAdd x v reducesTo_S50000x300_S300_d0 h_S_) : (⟨S50000x300, .f32⟩ : BufTy).Contents (Elt F) → (⟨S_, .f32⟩ : BufTy).Contents (Elt F) → (⟨S300, .f32⟩ : BufTy).Contents (Elt F)),
    nullary main_cst_39 (constant S_ .f32 0x47435000#32),
    unary main_cst_39 main_v273 (broadcastInDim S300 ![] bcast_S_S300 : (⟨S_, .f32⟩ : BufTy).Contents (Elt F) → (⟨S300, .f32⟩ : BufTy).Contents (Elt F)),
    binary main_v272 main_v273 main_v274 (Host.divf : (⟨S300, .f32⟩ : BufTy).Contents (Elt F) → (⟨S300, .f32⟩ : BufTy).Contents (Elt F) → (⟨S300, .f32⟩ : BufTy).Contents (Elt F)),
    nullary main_c_40 (constantI S_ 32 0#32),
    TRef.nullary main_call10.cst (constant S_ .f32 0x00000000#32),
    TRef.binary (.of main_v271) main_call10.cst main_call10.v0 (fun x v => Host.reduceAdd x v reducesTo_S50000x300_S300_d0 h_S_),
    TRef.unary main_call10.v0 main_call10.v1 (broadcastInDim S1x300 ![1] bcast_S300_S1x300_1),
    TRef.nullary main_call10.cst_0 (constant S_ .f32 0x47435000#32),
    TRef.unary main_call10.cst_0 main_call10.v2 (broadcastInDim S1x300 ![] bcast_S_S1x300),
    TRef.binary main_call10.v1 main_call10.v2 main_call10.v3 Host.divf,
    TRef.unary main_call10.v3 main_call10.v4 (broadcastInDim S50000x300 ![0, 1] bcast_S1x300_S50000x300_0_1),
    TRef.binary (.of main_v271) main_call10.v4 main_call10.v5 subf,
    TRef.binary main_call10.v5 main_call10.v5 main_call10.v6 mulf,
    TRef.unary (.of main_c_40) main_call10.v7 (sitofp .f32),
    TRef.nullary main_call10.cst_1 (constant S_ .f32 0x47435000#32),
    TRef.binary main_call10.cst_1 main_call10.v7 main_call10.v8 subf,
    TRef.nullary main_call10.cst_2 (constant S_ .f32 0x00000000#32),
    TRef.binary main_call10.v6 main_call10.cst_2 main_call10.v9 (fun x v => Host.reduceAdd x v reducesTo_S50000x300_S300_d0 h_S_),
    TRef.unary main_call10.v8 main_call10.v10 (broadcastInDim S300 ![] bcast_S_S300),
    TRef.binary main_call10.v9 main_call10.v10 main_call10.v11 Host.divf,
    TRef.nullary main_call10.cst_3 (constant S_ .f32 0x00000000#32),
    TRef.binary main_call10.v8 main_call10.cst_3 main_call10.v12 (cmpf .ogt),
    TRef.nullary main_call10.cst_4 (constant S_ .f32 0x7FC00000#32),
    TRef.unary main_call10.cst_4 main_call10_call0.v0 id,
    TRef.unary main_call10_call0.v0 main_call10_call0.v1 (broadcastInDim S300 ![] bcast_S_S300),
    TRef.ternary main_call10.v12 main_call10.v11 main_call10_call0.v1 main_call10_call0.v2 (fun p a b => select (broadcastInDim S300 ![] bcast_S_S300 p) a b),
    unary main_v274 main_v276 (broadcastInDim S1x300 ![1] bcast_S300_S1x300_1 : (⟨S300, .f32⟩ : BufTy).Contents (Elt F) → (⟨S1x300, .f32⟩ : BufTy).Contents (Elt F)),
    unary main_v276 main_v277 (broadcastInDim S50000x300 ![0, 1] bcast_S1x300_S50000x300_0_1 : (⟨S1x300, .f32⟩ : BufTy).Contents (Elt F) → (⟨S50000x300, .f32⟩ : BufTy).Contents (Elt F)),
    binary main_v271 main_v277 main_v278 (subf : (⟨S50000x300, .f32⟩ : BufTy).Contents (Elt F) → (⟨S50000x300, .f32⟩ : BufTy).Contents (Elt F) → (⟨S50000x300, .f32⟩ : BufTy).Contents (Elt F)),
    nullary main_cst_41 (constant S_ .f32 0x3727C5AC#32),
    unary main_cst_41 main_v279 (broadcastInDim S300 ![] bcast_S_S300 : (⟨S_, .f32⟩ : BufTy).Contents (Elt F) → (⟨S300, .f32⟩ : BufTy).Contents (Elt F)),
    binary main_v275 main_v279 main_v280 (addf : (⟨S300, .f32⟩ : BufTy).Contents (Elt F) → (⟨S300, .f32⟩ : BufTy).Contents (Elt F) → (⟨S300, .f32⟩ : BufTy).Contents (Elt F)),
    unary main_v280 main_v281 (Host.rsqrt : (⟨S300, .f32⟩ : BufTy).Contents (Elt F) → (⟨S300, .f32⟩ : BufTy).Contents (Elt F)),
    unary main_v281 main_v282 (broadcastInDim S1x300 ![1] bcast_S300_S1x300_1 : (⟨S300, .f32⟩ : BufTy).Contents (Elt F) → (⟨S1x300, .f32⟩ : BufTy).Contents (Elt F)),
    unary main_v282 main_v283 (broadcastInDim S50000x300 ![0, 1] bcast_S1x300_S50000x300_0_1 : (⟨S1x300, .f32⟩ : BufTy).Contents (Elt F) → (⟨S50000x300, .f32⟩ : BufTy).Contents (Elt F)),
    binary main_v278 main_v283 main_v284 (mulf : (⟨S50000x300, .f32⟩ : BufTy).Contents (Elt F) → (⟨S50000x300, .f32⟩ : BufTy).Contents (Elt F) → (⟨S50000x300, .f32⟩ : BufTy).Contents (Elt F)),
    unary main_arg7 main_v285 ((extractStridedSlice S1x300 ![3, 0] · slices_S5x300_S1x300_3_0) : (⟨S5x300, .f32⟩ : BufTy).Contents (Elt F) → (⟨S1x300, .f32⟩ : BufTy).Contents (Elt F)),
    reshape main_v285 main_v286 rfl shapeCasts_S1x300_S300,
    unary main_v286 main_v287 (broadcastInDim S1x300 ![1] bcast_S300_S1x300_1 : (⟨S300, .f32⟩ : BufTy).Contents (Elt F) → (⟨S1x300, .f32⟩ : BufTy).Contents (Elt F)),
    unary main_v287 main_v288 (broadcastInDim S50000x300 ![0, 1] bcast_S1x300_S50000x300_0_1 : (⟨S1x300, .f32⟩ : BufTy).Contents (Elt F) → (⟨S50000x300, .f32⟩ : BufTy).Contents (Elt F)),
    binary main_v284 main_v288 main_v289 (mulf : (⟨S50000x300, .f32⟩ : BufTy).Contents (Elt F) → (⟨S50000x300, .f32⟩ : BufTy).Contents (Elt F) → (⟨S50000x300, .f32⟩ : BufTy).Contents (Elt F)),
    unary main_arg8 main_v290 ((extractStridedSlice S1x300 ![3, 0] · slices_S5x300_S1x300_3_0) : (⟨S5x300, .f32⟩ : BufTy).Contents (Elt F) → (⟨S1x300, .f32⟩ : BufTy).Contents (Elt F)),
    reshape main_v290 main_v291 rfl shapeCasts_S1x300_S300,
    unary main_v291 main_v292 (broadcastInDim S1x300 ![1] bcast_S300_S1x300_1 : (⟨S300, .f32⟩ : BufTy).Contents (Elt F) → (⟨S1x300, .f32⟩ : BufTy).Contents (Elt F)),
    unary main_v292 main_v293 (broadcastInDim S50000x300 ![0, 1] bcast_S1x300_S50000x300_0_1 : (⟨S1x300, .f32⟩ : BufTy).Contents (Elt F) → (⟨S50000x300, .f32⟩ : BufTy).Contents (Elt F)),
    binary main_v289 main_v293 main_v294 (addf : (⟨S50000x300, .f32⟩ : BufTy).Contents (Elt F) → (⟨S50000x300, .f32⟩ : BufTy).Contents (Elt F) → (⟨S50000x300, .f32⟩ : BufTy).Contents (Elt F)),
    TRef.nullary main_call11.cst (constant S_ .f32 0x00000000#32),
    TRef.unary main_call11.cst main_call11.v0 (broadcastInDim S50000x300 ![] bcast_S_S50000x300),
    TRef.binary (.of main_v294) main_call11.v0 main_call11.v1 maximumf ]

/-- The references `seg9` writes, in order. -/
abbrev seg9_W : List (Ref sig .tc) :=
  [main_v260, main_v261, main_v262, main_call9_cst, main_call9_v0, main_v263, main_v264, main_v265, main_v266, main_v267, main_v268, main_v269, main_v270, main_v271, main_cst_38, main_v272, main_cst_39, main_v273, main_v274, main_c_40, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v275, main_v276, main_v277, main_v278, main_cst_41, main_v279, main_v280, main_v281, main_v282, main_v283, main_v284, main_v285, main_v286, main_v287, main_v288, main_v289, main_v290, main_v291, main_v292, main_v293, main_v294, main_call11_cst, main_call11_v0, main_v295]

theorem seg9_sub : (seg9 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

theorem seg9_writes : (seg9 : List (HloOp τ sig (Elt F))).Forall fun op => op.writes ⊆ (seg9_W.map (Proc.devRef (τ := τ) .tc)).toFinset :=
  ⟨writes_sub_of_mem _ main_v260 rfl (by decide), writes_sub_of_mem _ main_v261 rfl (by decide), writes_sub_of_mem _ main_v262 rfl (by decide), writes_sub_of_mem _ main_call9_cst rfl (by decide), writes_sub_of_mem _ main_call9_v0 rfl (by decide), writes_sub_of_mem _ main_v263 rfl (by decide), writes_sub_of_mem _ main_v264 rfl (by decide), writes_sub_of_mem _ main_v265 rfl (by decide), writes_sub_of_mem _ main_v266 rfl (by decide), writes_sub_of_mem _ main_v267 rfl (by decide), writes_sub_of_mem _ main_v268 rfl (by decide), writes_sub_of_mem _ main_v269 rfl (by decide), writes_sub_of_mem _ main_v270 rfl (by decide), writes_sub_of_mem _ main_v271 rfl (by decide), writes_sub_of_mem _ main_cst_38 rfl (by decide), writes_sub_of_mem _ main_v272 rfl (by decide), writes_sub_of_mem _ main_cst_39 rfl (by decide), writes_sub_of_mem _ main_v273 rfl (by decide), writes_sub_of_mem _ main_v274 rfl (by decide), writes_sub_of_mem _ main_c_40 rfl (by decide), writes_sub_of_mem _ main_call10_cst rfl (by decide), writes_sub_of_mem _ main_call10_v0 rfl (by decide), writes_sub_of_mem _ main_call10_v1 rfl (by decide), writes_sub_of_mem _ main_call10_cst_0 rfl (by decide), writes_sub_of_mem _ main_call10_v2 rfl (by decide), writes_sub_of_mem _ main_call10_v3 rfl (by decide), writes_sub_of_mem _ main_call10_v4 rfl (by decide), writes_sub_of_mem _ main_call10_v5 rfl (by decide), writes_sub_of_mem _ main_call10_v6 rfl (by decide), writes_sub_of_mem _ main_call10_v7 rfl (by decide), writes_sub_of_mem _ main_call10_cst_1 rfl (by decide), writes_sub_of_mem _ main_call10_v8 rfl (by decide), writes_sub_of_mem _ main_call10_cst_2 rfl (by decide), writes_sub_of_mem _ main_call10_v9 rfl (by decide), writes_sub_of_mem _ main_call10_v10 rfl (by decide), writes_sub_of_mem _ main_call10_v11 rfl (by decide), writes_sub_of_mem _ main_call10_cst_3 rfl (by decide), writes_sub_of_mem _ main_call10_v12 rfl (by decide), writes_sub_of_mem _ main_call10_cst_4 rfl (by decide), writes_sub_of_mem _ main_call10_call0_v0 rfl (by decide), writes_sub_of_mem _ main_call10_call0_v1 rfl (by decide), writes_sub_of_mem _ main_v275 rfl (by decide), writes_sub_of_mem _ main_v276 rfl (by decide), writes_sub_of_mem _ main_v277 rfl (by decide), writes_sub_of_mem _ main_v278 rfl (by decide), writes_sub_of_mem _ main_cst_41 rfl (by decide), writes_sub_of_mem _ main_v279 rfl (by decide), writes_sub_of_mem _ main_v280 rfl (by decide), writes_sub_of_mem _ main_v281 rfl (by decide), writes_sub_of_mem _ main_v282 rfl (by decide), writes_sub_of_mem _ main_v283 rfl (by decide), writes_sub_of_mem _ main_v284 rfl (by decide), writes_sub_of_mem _ main_v285 rfl (by decide), writes_sub_of_mem _ main_v286 rfl (by decide), writes_sub_of_mem _ main_v287 rfl (by decide), writes_sub_of_mem _ main_v288 rfl (by decide), writes_sub_of_mem _ main_v289 rfl (by decide), writes_sub_of_mem _ main_v290 rfl (by decide), writes_sub_of_mem _ main_v291 rfl (by decide), writes_sub_of_mem _ main_v292 rfl (by decide), writes_sub_of_mem _ main_v293 rfl (by decide), writes_sub_of_mem _ main_v294 rfl (by decide), writes_sub_of_mem _ main_call11_cst rfl (by decide), writes_sub_of_mem _ main_call11_v0 rfl (by decide), writes_sub_of_mem _ main_v295 rfl (by decide)⟩

/-- Operations 440 … 459 of the flat program (window 5). -/
abbrev seg10 : List (HloOp τ sig (Elt F)) :=
  [ unary main_arg1 main_v296 ((extractStridedSlice S1x6x300 ![4, 0, 0] · slices_S5x6x300_S1x6x300_4_0_0) : (⟨S5x6x300, .f32⟩ : BufTy).Contents (Elt F) → (⟨S1x6x300, .f32⟩ : BufTy).Contents (Elt F)),
    reshape main_v296 main_v297 rfl shapeCasts_S1x6x300_S6x300,
    nullary main_c_42 (constantI S_ 32 0#32),
    unary main_c_42 main_v298 (broadcastInDim S256000 ![] bcast_S_S256000 : (⟨S_, .i32⟩ : BufTy).Contents (Elt F) → (⟨S256000, .i32⟩ : BufTy).Contents (Elt F)),
    binary main_v5 main_v298 main_v299 (cmpi .slt : (⟨S256000, .i32⟩ : BufTy).Contents (Elt F) → (⟨S256000, .i32⟩ : BufTy).Contents (Elt F) → (⟨S256000, .i1⟩ : BufTy).Contents (Elt F)),
    nullary main_c_43 (constantI S_ 32 6#32),
    unary main_c_43 main_v300 (broadcastInDim S256000 ![] bcast_S_S256000 : (⟨S_, .i32⟩ : BufTy).Contents (Elt F) → (⟨S256000, .i32⟩ : BufTy).Contents (Elt F)),
    binary main_v5 main_v300 main_v301 (addi : (⟨S256000, .i32⟩ : BufTy).Contents (Elt F) → (⟨S256000, .i32⟩ : BufTy).Contents (Elt F) → (⟨S256000, .i32⟩ : BufTy).Contents (Elt F)),
    ternary main_v299 main_v301 main_v5 main_v302 (select : (⟨S256000, .i1⟩ : BufTy).Contents (Elt F) → (⟨S256000, .i32⟩ : BufTy).Contents (Elt F) → (⟨S256000, .i32⟩ : BufTy).Contents (Elt F) → (⟨S256000, .i32⟩ : BufTy).Contents (Elt F)),
    unary main_v302 main_v303 (broadcastInDim S256000x1 ![0] bcast_S256000_S256000x1_0 : (⟨S256000, .i32⟩ : BufTy).Contents (Elt F) → (⟨S256000x1, .i32⟩ : BufTy).Contents (Elt F)),
    binary main_v297 main_v303 main_v304 ((fun x i => Host.gather gather_S6x300_S256000x1_S256000x300_1_0_n_n_0_1_1300 x i) : (⟨S6x300, .f32⟩ : BufTy).Contents (Elt F) → (⟨S256000x1, .i32⟩ : BufTy).Contents (Elt F) → (⟨S256000x300, .f32⟩ : BufTy).Contents (Elt F)),
    unary main_arg2 main_v305 ((extractStridedSlice S1x3x300 ![4, 0, 0] · slices_S5x3x300_S1x3x300_4_0_0) : (⟨S5x3x300, .f32⟩ : BufTy).Contents (Elt F) → (⟨S1x3x300, .f32⟩ : BufTy).Contents (Elt F)),
    reshape main_v305 main_v306 rfl shapeCasts_S1x3x300_S3x300,
    nullary main_c_44 (constantI S_ 32 0#32),
    unary main_c_44 main_v307 (broadcastInDim S256000 ![] bcast_S_S256000 : (⟨S_, .i32⟩ : BufTy).Contents (Elt F) → (⟨S256000, .i32⟩ : BufTy).Contents (Elt F)),
    binary main_v7 main_v307 main_v308 (cmpi .slt : (⟨S256000, .i32⟩ : BufTy).Contents (Elt F) → (⟨S256000, .i32⟩ : BufTy).Contents (Elt F) → (⟨S256000, .i1⟩ : BufTy).Contents (Elt F)),
    nullary main_c_45 (constantI S_ 32 3#32),
    unary main_c_45 main_v309 (broadcastInDim S256000 ![] bcast_S_S256000 : (⟨S_, .i32⟩ : BufTy).Contents (Elt F) → (⟨S256000, .i32⟩ : BufTy).Contents (Elt F)),
    binary main_v7 main_v309 main_v310 (addi : (⟨S256000, .i32⟩ : BufTy).Contents (Elt F) → (⟨S256000, .i32⟩ : BufTy).Contents (Elt F) → (⟨S256000, .i32⟩ : BufTy).Contents (Elt F)),
    ternary main_v308 main_v310 main_v7 main_v311 (select : (⟨S256000, .i1⟩ : BufTy).Contents (Elt F) → (⟨S256000, .i32⟩ : BufTy).Contents (Elt F) → (⟨S256000, .i32⟩ : BufTy).Contents (Elt F) → (⟨S256000, .i32⟩ : BufTy).Contents (Elt F)) ]

/-- The references `seg10` writes, in order. -/
abbrev seg10_W : List (Ref sig .tc) :=
  [main_v296, main_v297, main_c_42, main_v298, main_v299, main_c_43, main_v300, main_v301, main_v302, main_v303, main_v304, main_v305, main_v306, main_c_44, main_v307, main_v308, main_c_45, main_v309, main_v310, main_v311]

theorem seg10_sub : (seg10 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub ..⟩

theorem seg10_writes : (seg10 : List (HloOp τ sig (Elt F))).Forall fun op => op.writes ⊆ (seg10_W.map (Proc.devRef (τ := τ) .tc)).toFinset :=
  ⟨writes_sub_of_mem _ main_v296 rfl (by decide), writes_sub_of_mem _ main_v297 rfl (by decide), writes_sub_of_mem _ main_c_42 rfl (by decide), writes_sub_of_mem _ main_v298 rfl (by decide), writes_sub_of_mem _ main_v299 rfl (by decide), writes_sub_of_mem _ main_c_43 rfl (by decide), writes_sub_of_mem _ main_v300 rfl (by decide), writes_sub_of_mem _ main_v301 rfl (by decide), writes_sub_of_mem _ main_v302 rfl (by decide), writes_sub_of_mem _ main_v303 rfl (by decide), writes_sub_of_mem _ main_v304 rfl (by decide), writes_sub_of_mem _ main_v305 rfl (by decide), writes_sub_of_mem _ main_v306 rfl (by decide), writes_sub_of_mem _ main_c_44 rfl (by decide), writes_sub_of_mem _ main_v307 rfl (by decide), writes_sub_of_mem _ main_v308 rfl (by decide), writes_sub_of_mem _ main_c_45 rfl (by decide), writes_sub_of_mem _ main_v309 rfl (by decide), writes_sub_of_mem _ main_v310 rfl (by decide), writes_sub_of_mem _ main_v311 rfl (by decide)⟩

/-- Window 5's operations (`main_part5`'s, the callees' inlined at their call sites). -/
abbrev ops5 : List (HloOp τ sig (Elt F)) := seg9 ++ seg10

end Cert.ReferenceIdeal.Hand

end
-- ==== Proof.Ref.Part5.lean ====
import proofs.«409348_j89627377533173_1_alg».proof.Proof.Ref.Ops5

/-! Window 5 of @main as a straight line: `main_part5` is `seq` of its operations, the callees' bodies unfolded at their
calls and the call records at their fields; every operation touches TensorCore references only and determines its result. -/

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Each operation of `seg9` determines its result (none allocates): by cases on the literal list. -/
theorem seg9_fresh : ∀ op ∈ (seg9 : List (HloOp τ sig (Elt F))), op.fresh = ∅ := by
  intro _ h; (repeat (cases h with | head => rfl | tail _ h => ?_)); exact nomatch h

/-- Each operation of `seg10` determines its result (none allocates): by cases on the literal list. -/
theorem seg10_fresh : ∀ op ∈ (seg10 : List (HloOp τ sig (Elt F))), op.fresh = ∅ := by
  intro _ h; (repeat (cases h with | head => rfl | tail _ h => ?_)); exact nomatch h

-- one bind per statement re-associated: the rewrite under the chain recurses once per statement
set_option maxRecDepth 8192 in
set_option maxHeartbeats 4000000 in
/-- `main_part5` is that straight line: both sides are one chain of `hlo` steps once the callees are unfolded and sequencing
    is reassociated (`bind_assoc`, `pure_bind`); what is left, if anything, differs by the monad's own computation (`rfl`). -/
theorem part5_eq (c : Dev nD) : main_part5 (F := F) c = seq ops5 := by
  rw [seq_append]
  simp only [main_part5, fn_relu.body, fn_var.body, fn_where.body, fn_relu_0.body, seq, bind_assoc, pure_bind]
  all_goals rfl

theorem ops5_sub : (ops5 : List (HloOp τ sig (Elt F))).Forall fun op => op.bufs ⊆ tcRefs τ sig :=
  List.forall_append.2 ⟨seg9_sub, seg10_sub⟩

theorem ops5_fresh : ∀ op ∈ (ops5 : List (HloOp τ sig (Elt F))), op.fresh = ∅ :=
  fun op h => (List.mem_append.1 h).elim (seg9_fresh op) (seg10_fresh op)

end Cert.ReferenceIdeal.Hand

end
-- ==== Proof.Ref.Ops6.lean ====
/- Window 6's operations as literal list segments (cut where a window or a layer ends), what they write, and their side facts. -/
import proofs.«409348_j89627377533173_1_alg».proof.Proof.Ref.Basic

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 460 … 542 of the flat program (window 6). -/
abbrev seg11 : List (HloOp τ sig (Elt F)) :=
  [ unary main_v311 main_v312 (broadcastInDim S256000x1 ![0] bcast_S256000_S256000x1_0 : (⟨S256000, .i32⟩ : BufTy).Contents (Elt F) → (⟨S256000x1, .i32⟩ : BufTy).Contents (Elt F)),
    binary main_v306 main_v312 main_v313 ((fun x i => Host.gather gather_S3x300_S256000x1_S256000x300_1_0_n_n_0_1_1300 x i) : (⟨S3x300, .f32⟩ : BufTy).Contents (Elt F) → (⟨S256000x1, .i32⟩ : BufTy).Contents (Elt F) → (⟨S256000x300, .f32⟩ : BufTy).Contents (Elt F)),
    binary main_v304 main_v313 main_v314 (addf : (⟨S256000x300, .f32⟩ : BufTy).Contents (Elt F) → (⟨S256000x300, .f32⟩ : BufTy).Contents (Elt F) → (⟨S256000x300, .f32⟩ : BufTy).Contents (Elt F)),
    nullary main_c_46 (constantI S_ 32 0#32),
    unary main_c_46 main_v315 (broadcastInDim S256000 ![] bcast_S_S256000 : (⟨S_, .i32⟩ : BufTy).Contents (Elt F) → (⟨S256000, .i32⟩ : BufTy).Contents (Elt F)),
    binary main_v1 main_v315 main_v316 (cmpi .slt : (⟨S256000, .i32⟩ : BufTy).Contents (Elt F) → (⟨S256000, .i32⟩ : BufTy).Contents (Elt F) → (⟨S256000, .i1⟩ : BufTy).Contents (Elt F)),
    nullary main_c_47 (constantI S_ 32 50000#32),
    unary main_c_47 main_v317 (broadcastInDim S256000 ![] bcast_S_S256000 : (⟨S_, .i32⟩ : BufTy).Contents (Elt F) → (⟨S256000, .i32⟩ : BufTy).Contents (Elt F)),
    binary main_v1 main_v317 main_v318 (addi : (⟨S256000, .i32⟩ : BufTy).Contents (Elt F) → (⟨S256000, .i32⟩ : BufTy).Contents (Elt F) → (⟨S256000, .i32⟩ : BufTy).Contents (Elt F)),
    ternary main_v316 main_v318 main_v1 main_v319 (select : (⟨S256000, .i1⟩ : BufTy).Contents (Elt F) → (⟨S256000, .i32⟩ : BufTy).Contents (Elt F) → (⟨S256000, .i32⟩ : BufTy).Contents (Elt F) → (⟨S256000, .i32⟩ : BufTy).Contents (Elt F)),
    unary main_v319 main_v320 (broadcastInDim S256000x1 ![0] bcast_S256000_S256000x1_0 : (⟨S256000, .i32⟩ : BufTy).Contents (Elt F) → (⟨S256000x1, .i32⟩ : BufTy).Contents (Elt F)),
    binary main_v295 main_v320 main_v321 ((fun x i => Host.gather gather_S50000x300_S256000x1_S256000x300_1_0_n_n_0_1_1300 x i) : (⟨S50000x300, .f32⟩ : BufTy).Contents (Elt F) → (⟨S256000x1, .i32⟩ : BufTy).Contents (Elt F) → (⟨S256000x300, .f32⟩ : BufTy).Contents (Elt F)),
    binary main_v321 main_v314 main_v322 (addf : (⟨S256000x300, .f32⟩ : BufTy).Contents (Elt F) → (⟨S256000x300, .f32⟩ : BufTy).Contents (Elt F) → (⟨S256000x300, .f32⟩ : BufTy).Contents (Elt F)),
    nullary main_cst_48 (constant S_ .f32 0x00000000#32),
    unary main_cst_48 main_v323 (broadcastInDim S50000x300 ![] bcast_S_S50000x300 : (⟨S_, .f32⟩ : BufTy).Contents (Elt F) → (⟨S50000x300, .f32⟩ : BufTy).Contents (Elt F)),
    unary main_v3 main_v324 (broadcastInDim S256000x1 ![0] bcast_S256000_S256000x1_0 : (⟨S256000, .i32⟩ : BufTy).Contents (Elt F) → (⟨S256000x1, .i32⟩ : BufTy).Contents (Elt F)),
    ternary main_v323 main_v324 main_v322 main_v325 ((fun x i u => Host.scatterAdd scatter_S50000x300_S256000x1_S256000x300_1_0_0_1 x i u) : (⟨S50000x300, .f32⟩ : BufTy).Contents (Elt F) → (⟨S256000x1, .i32⟩ : BufTy).Contents (Elt F) → (⟨S256000x300, .f32⟩ : BufTy).Contents (Elt F) → (⟨S50000x300, .f32⟩ : BufTy).Contents (Elt F)),
    binary main_v325 main_v295 main_v326 (addf : (⟨S50000x300, .f32⟩ : BufTy).Contents (Elt F) → (⟨S50000x300, .f32⟩ : BufTy).Contents (Elt F) → (⟨S50000x300, .f32⟩ : BufTy).Contents (Elt F)),
    unary main_arg3 main_v327 ((extractStridedSlice S1x300x600 ![4, 0, 0] · slices_S5x300x600_S1x300x600_4_0_0) : (⟨S5x300x600, .f32⟩ : BufTy).Contents (Elt F) → (⟨S1x300x600, .f32⟩ : BufTy).Contents (Elt F)),
    reshape main_v327 main_v328 rfl shapeCasts_S1x300x600_S300x600,
    binary main_v326 main_v328 main_v329 ((fun l r => Host.dotGeneral dot_S50000x300_S300x600_S50000x600_1_0_0_1_n_n none l r) : (⟨S50000x300, .f32⟩ : BufTy).Contents (Elt F) → (⟨S300x600, .f32⟩ : BufTy).Contents (Elt F) → (⟨S50000x600, .f32⟩ : BufTy).Contents (Elt F)),
    unary main_arg4 main_v330 ((extractStridedSlice S1x600 ![4, 0] · slices_S5x600_S1x600_4_0) : (⟨S5x600, .f32⟩ : BufTy).Contents (Elt F) → (⟨S1x600, .f32⟩ : BufTy).Contents (Elt F)),
    reshape main_v330 main_v331 rfl shapeCasts_S1x600_S600,
    unary main_v331 main_v332 (broadcastInDim S1x600 ![1] bcast_S600_S1x600_1 : (⟨S600, .f32⟩ : BufTy).Contents (Elt F) → (⟨S1x600, .f32⟩ : BufTy).Contents (Elt F)),
    unary main_v332 main_v333 (broadcastInDim S50000x600 ![0, 1] bcast_S1x600_S50000x600_0_1 : (⟨S1x600, .f32⟩ : BufTy).Contents (Elt F) → (⟨S50000x600, .f32⟩ : BufTy).Contents (Elt F)),
    binary main_v329 main_v333 main_v334 (addf : (⟨S50000x600, .f32⟩ : BufTy).Contents (Elt F) → (⟨S50000x600, .f32⟩ : BufTy).Contents (Elt F) → (⟨S50000x600, .f32⟩ : BufTy).Contents (Elt F)),
    TRef.nullary main_call12.cst (constant S_ .f32 0x00000000#32),
    TRef.unary main_call12.cst main_call12.v0 (broadcastInDim S50000x600 ![] bcast_S_S50000x600),
    TRef.binary (.of main_v334) main_call12.v0 main_call12.v1 maximumf,
    unary main_arg5 main_v336 ((extractStridedSlice S1x600x300 ![4, 0, 0] · slices_S5x600x300_S1x600x300_4_0_0) : (⟨S5x600x300, .f32⟩ : BufTy).Contents (Elt F) → (⟨S1x600x300, .f32⟩ : BufTy).Contents (Elt F)),
    reshape main_v336 main_v337 rfl shapeCasts_S1x600x300_S600x300,
    binary main_v335 main_v337 main_v338 ((fun l r => Host.dotGeneral dot_S50000x600_S600x300_S50000x300_1_0_0_1_n_n none l r) : (⟨S50000x600, .f32⟩ : BufTy).Contents (Elt F) → (⟨S600x300, .f32⟩ : BufTy).Contents (Elt F) → (⟨S50000x300, .f32⟩ : BufTy).Contents (Elt F)),
    unary main_arg6 main_v339 ((extractStridedSlice S1x300 ![4, 0] · slices_S5x300_S1x300_4_0) : (⟨S5x300, .f32⟩ : BufTy).Contents (Elt F) → (⟨S1x300, .f32⟩ : BufTy).Contents (Elt F)),
    reshape main_v339 main_v340 rfl shapeCasts_S1x300_S300,
    unary main_v340 main_v341 (broadcastInDim S1x300 ![1] bcast_S300_S1x300_1 : (⟨S300, .f32⟩ : BufTy).Contents (Elt F) → (⟨S1x300, .f32⟩ : BufTy).Contents (Elt F)),
    unary main_v341 main_v342 (broadcastInDim S50000x300 ![0, 1] bcast_S1x300_S50000x300_0_1 : (⟨S1x300, .f32⟩ : BufTy).Contents (Elt F) → (⟨S50000x300, .f32⟩ : BufTy).Contents (Elt F)),
    binary main_v338 main_v342 main_v343 (addf : (⟨S50000x300, .f32⟩ : BufTy).Contents (Elt F) → (⟨S50000x300, .f32⟩ : BufTy).Contents (Elt F) → (⟨S50000x300, .f32⟩ : BufTy).Contents (Elt F)),
    nullary main_cst_49 (constant S_ .f32 0x00000000#32),
    binary main_v343 main_cst_49 main_v344 ((fun x v => Host.reduceAdd x v reducesTo_S50000x300_S300_d0 h_S_) : (⟨S50000x300, .f32⟩ : BufTy).Contents (Elt F) → (⟨S_, .f32⟩ : BufTy).Contents (Elt F) → (⟨S300, .f32⟩ : BufTy).Contents (Elt F)),
    nullary main_cst_50 (constant S_ .f32 0x47435000#32),
    unary main_cst_50 main_v345 (broadcastInDim S300 ![] bcast_S_S300 : (⟨S_, .f32⟩ : BufTy).Contents (Elt F) → (⟨S300, .f32⟩ : BufTy).Contents (Elt F)),
    binary main_v344 main_v345 main_v346 (Host.divf : (⟨S300, .f32⟩ : BufTy).Contents (Elt F) → (⟨S300, .f32⟩ : BufTy).Contents (Elt F) → (⟨S300, .f32⟩ : BufTy).Contents (Elt F)),
    nullary main_c_51 (constantI S_ 32 0#32),
    TRef.nullary main_call13.cst (constant S_ .f32 0x00000000#32),
    TRef.binary (.of main_v343) main_call13.cst main_call13.v0 (fun x v => Host.reduceAdd x v reducesTo_S50000x300_S300_d0 h_S_),
    TRef.unary main_call13.v0 main_call13.v1 (broadcastInDim S1x300 ![1] bcast_S300_S1x300_1),
    TRef.nullary main_call13.cst_0 (constant S_ .f32 0x47435000#32),
    TRef.unary main_call13.cst_0 main_call13.v2 (broadcastInDim S1x300 ![] bcast_S_S1x300),
    TRef.binary main_call13.v1 main_call13.v2 main_call13.v3 Host.divf,
    TRef.unary main_call13.v3 main_call13.v4 (broadcastInDim S50000x300 ![0, 1] bcast_S1x300_S50000x300_0_1),
    TRef.binary (.of main_v343) main_call13.v4 main_call13.v5 subf,
    TRef.binary main_call13.v5 main_call13.v5 main_call13.v6 mulf,
    TRef.unary (.of main_c_51) main_call13.v7 (sitofp .f32),
    TRef.nullary main_call13.cst_1 (constant S_ .f32 0x47435000#32),
    TRef.binary main_call13.cst_1 main_call13.v7 main_call13.v8 subf,
    TRef.nullary main_call13.cst_2 (constant S_ .f32 0x00000000#32),
    TRef.binary main_call13.v6 main_call13.cst_2 main_call13.v9 (fun x v => Host.reduceAdd x v reducesTo_S50000x300_S300_d0 h_S_),
    TRef.unary main_call13.v8 main_call13.v10 (broadcastInDim S300 ![] bcast_S_S300),
    TRef.binary main_call13.v9 main_call13.v10 main_call13.v11 Host.divf,
    TRef.nullary main_call13.cst_3 (constant S_ .f32 0x00000000#32),
    TRef.binary main_call13.v8 main_call13.cst_3 main_call13.v12 (cmpf .ogt),
    TRef.nullary main_call13.cst_4 (constant S_ .f32 0x7FC00000#32),
    TRef.unary main_call13.cst_4 main_call13_call0.v0 id,
    TRef.unary main_call13_call0.v0 main_call13_call0.v1 (broadcastInDim S300 ![] bcast_S_S300),
    TRef.ternary main_call13.v12 main_call13.v11 main_call13_call0.v1 main_call13_call0.v2 (fun p a b => select (broadcastInDim S300 ![] bcast_S_S300 p) a b),
    unary main_v346 main_v348 (broadcastInDim S1x300 ![1] bcast_S300_S1x300_1 : (⟨S300, .f32⟩ : BufTy).Contents (Elt F) → (⟨S1x300, .f32⟩ : BufTy).Contents (Elt F)),
    unary main_v348 main_v349 (broadcastInDim S50000x300 ![0, 1] bcast_S1x300_S50000x300_0_1 : (⟨S1x300, .f32⟩ : BufTy).Contents (Elt F) → (⟨S50000x300, .f32⟩ : BufTy).Contents (Elt F)),
    binary main_v343 main_v349 main_v350 (subf : (⟨S50000x300, .f32⟩ : BufTy).Contents (Elt F) → (⟨S50000x300, .f32⟩ : BufTy).Contents (Elt F) → (⟨S50000x300, .f32⟩ : BufTy).Contents (Elt F)),
    nullary main_cst_52 (constant S_ .f32 0x3727C5AC#32),
    unary main_cst_52 main_v351 (broadcastInDim S300 ![] bcast_S_S300 : (⟨S_, .f32⟩ : BufTy).Contents (Elt F) → (⟨S300, .f32⟩ : BufTy).Contents (Elt F)),
    binary main_v347 main_v351 main_v352 (addf : (⟨S300, .f32⟩ : BufTy).Contents (Elt F) → (⟨S300, .f32⟩ : BufTy).Contents (Elt F) → (⟨S300, .f32⟩ : BufTy).Contents (Elt F)),
    unary main_v352 main_v353 (Host.rsqrt : (⟨S300, .f32⟩ : BufTy).Contents (Elt F) → (⟨S300, .f32⟩ : BufTy).Contents (Elt F)),
    unary main_v353 main_v354 (broadcastInDim S1x300 ![1] bcast_S300_S1x300_1 : (⟨S300, .f32⟩ : BufTy).Contents (Elt F) → (⟨S1x300, .f32⟩ : BufTy).Contents (Elt F)),
    unary main_v354 main_v355 (broadcastInDim S50000x300 ![0, 1] bcast_S1x300_S50000x300_0_1 : (⟨S1x300, .f32⟩ : BufTy).Contents (Elt F) → (⟨S50000x300, .f32⟩ : BufTy).Contents (Elt F)),
    binary main_v350 main_v355 main_v356 (mulf : (⟨S50000x300, .f32⟩ : BufTy).Contents (Elt F) → (⟨S50000x300, .f32⟩ : BufTy).Contents (Elt F) → (⟨S50000x300, .f32⟩ : BufTy).Contents (Elt F)),
    unary main_arg7 main_v357 ((extractStridedSlice S1x300 ![4, 0] · slices_S5x300_S1x300_4_0) : (⟨S5x300, .f32⟩ : BufTy).Contents (Elt F) → (⟨S1x300, .f32⟩ : BufTy).Contents (Elt F)),
    reshape main_v357 main_v358 rfl shapeCasts_S1x300_S300,
    unary main_v358 main_v359 (broadcastInDim S1x300 ![1] bcast_S300_S1x300_1 : (⟨S300, .f32⟩ : BufTy).Contents (Elt F) → (⟨S1x300, .f32⟩ : BufTy).Contents (Elt F)),
    unary main_v359 main_v360 (broadcastInDim S50000x300 ![0, 1] bcast_S1x300_S50000x300_0_1 : (⟨S1x300, .f32⟩ : BufTy).Contents (Elt F) → (⟨S50000x300, .f32⟩ : BufTy).Contents (Elt F)),
    binary main_v356 main_v360 main_v361 (mulf : (⟨S50000x300, .f32⟩ : BufTy).Contents (Elt F) → (⟨S50000x300, .f32⟩ : BufTy).Contents (Elt F) → (⟨S50000x300, .f32⟩ : BufTy).Contents (Elt F)),
    unary main_arg8 main_v362 ((extractStridedSlice S1x300 ![4, 0] · slices_S5x300_S1x300_4_0) : (⟨S5x300, .f32⟩ : BufTy).Contents (Elt F) → (⟨S1x300, .f32⟩ : BufTy).Contents (Elt F)),
    reshape main_v362 main_v363 rfl shapeCasts_S1x300_S300,
    unary main_v363 main_v364 (broadcastInDim S1x300 ![1] bcast_S300_S1x300_1 : (⟨S300, .f32⟩ : BufTy).Contents (Elt F) → (⟨S1x300, .f32⟩ : BufTy).Contents (Elt F)) ]

/-- The references `seg11` writes, in order. -/
abbrev seg11_W : List (Ref sig .tc) :=
  [main_v312, main_v313, main_v314, main_c_46, main_v315, main_v316, main_c_47, main_v317, main_v318, main_v319, main_v320, main_v321, main_v322, main_cst_48, main_v323, main_v324, main_v325, main_v326, main_v327, main_v328, main_v329, main_v330, main_v331, main_v332, main_v333, main_v334, main_call12_cst, main_call12_v0, main_v335, main_v336, main_v337, main_v338, main_v339, main_v340, main_v341, main_v342, main_v343, main_cst_49, main_v344, main_cst_50, main_v345, main_v346, main_c_51, main_call13_cst, main_call13_v0, main_call13_v1, main_call13_cst_0, main_call13_v2, main_call13_v3, main_call13_v4, main_call13_v5, main_call13_v6, main_call13_v7, main_call13_cst_1, main_call13_v8, main_call13_cst_2, main_call13_v9, main_call13_v10, main_call13_v11, main_call13_cst_3, main_call13_v12, main_call13_cst_4, main_call13_call0_v0, main_call13_call0_v1, main_v347, main_v348, main_v349, main_v350, main_cst_52, main_v351, main_v352, main_v353, main_v354, main_v355, main_v356, main_v357, main_v358, main_v359, main_v360, main_v361, main_v362, main_v363, main_v364]

theorem seg11_sub : (seg11 : List (HloOp τ sig (Elt F))).Forall fun op => op.bufs ⊆ tcRefs τ sig :=
  ⟨unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub ..⟩

theorem seg11_writes : (seg11 : List (HloOp τ sig (Elt F))).Forall fun op => op.writes ⊆ (seg11_W.map (Proc.devRef (τ := τ) .tc)).toFinset :=
  ⟨writes_sub_of_mem _ main_v312 rfl (by decide), writes_sub_of_mem _ main_v313 rfl (by decide), writes_sub_of_mem _ main_v314 rfl (by decide), writes_sub_of_mem _ main_c_46 rfl (by decide), writes_sub_of_mem _ main_v315 rfl (by decide), writes_sub_of_mem _ main_v316 rfl (by decide), writes_sub_of_mem _ main_c_47 rfl (by decide), writes_sub_of_mem _ main_v317 rfl (by decide), writes_sub_of_mem _ main_v318 rfl (by decide), writes_sub_of_mem _ main_v319 rfl (by decide), writes_sub_of_mem _ main_v320 rfl (by decide), writes_sub_of_mem _ main_v321 rfl (by decide), writes_sub_of_mem _ main_v322 rfl (by decide), writes_sub_of_mem _ main_cst_48 rfl (by decide), writes_sub_of_mem _ main_v323 rfl (by decide), writes_sub_of_mem _ main_v324 rfl (by decide), writes_sub_of_mem _ main_v325 rfl (by decide), writes_sub_of_mem _ main_v326 rfl (by decide), writes_sub_of_mem _ main_v327 rfl (by decide), writes_sub_of_mem _ main_v328 rfl (by decide), writes_sub_of_mem _ main_v329 rfl (by decide), writes_sub_of_mem _ main_v330 rfl (by decide), writes_sub_of_mem _ main_v331 rfl (by decide), writes_sub_of_mem _ main_v332 rfl (by decide), writes_sub_of_mem _ main_v333 rfl (by decide), writes_sub_of_mem _ main_v334 rfl (by decide), writes_sub_of_mem _ main_call12_cst rfl (by decide), writes_sub_of_mem _ main_call12_v0 rfl (by decide), writes_sub_of_mem _ main_v335 rfl (by decide), writes_sub_of_mem _ main_v336 rfl (by decide), writes_sub_of_mem _ main_v337 rfl (by decide), writes_sub_of_mem _ main_v338 rfl (by decide), writes_sub_of_mem _ main_v339 rfl (by decide), writes_sub_of_mem _ main_v340 rfl (by decide), writes_sub_of_mem _ main_v341 rfl (by decide), writes_sub_of_mem _ main_v342 rfl (by decide), writes_sub_of_mem _ main_v343 rfl (by decide), writes_sub_of_mem _ main_cst_49 rfl (by decide), writes_sub_of_mem _ main_v344 rfl (by decide), writes_sub_of_mem _ main_cst_50 rfl (by decide), writes_sub_of_mem _ main_v345 rfl (by decide), writes_sub_of_mem _ main_v346 rfl (by decide), writes_sub_of_mem _ main_c_51 rfl (by decide), writes_sub_of_mem _ main_call13_cst rfl (by decide), writes_sub_of_mem _ main_call13_v0 rfl (by decide), writes_sub_of_mem _ main_call13_v1 rfl (by decide), writes_sub_of_mem _ main_call13_cst_0 rfl (by decide), writes_sub_of_mem _ main_call13_v2 rfl (by decide), writes_sub_of_mem _ main_call13_v3 rfl (by decide), writes_sub_of_mem _ main_call13_v4 rfl (by decide), writes_sub_of_mem _ main_call13_v5 rfl (by decide), writes_sub_of_mem _ main_call13_v6 rfl (by decide), writes_sub_of_mem _ main_call13_v7 rfl (by decide), writes_sub_of_mem _ main_call13_cst_1 rfl (by decide), writes_sub_of_mem _ main_call13_v8 rfl (by decide), writes_sub_of_mem _ main_call13_cst_2 rfl (by decide), writes_sub_of_mem _ main_call13_v9 rfl (by decide), writes_sub_of_mem _ main_call13_v10 rfl (by decide), writes_sub_of_mem _ main_call13_v11 rfl (by decide), writes_sub_of_mem _ main_call13_cst_3 rfl (by decide), writes_sub_of_mem _ main_call13_v12 rfl (by decide), writes_sub_of_mem _ main_call13_cst_4 rfl (by decide), writes_sub_of_mem _ main_call13_call0_v0 rfl (by decide), writes_sub_of_mem _ main_call13_call0_v1 rfl (by decide), writes_sub_of_mem _ main_v347 rfl (by decide), writes_sub_of_mem _ main_v348 rfl (by decide), writes_sub_of_mem _ main_v349 rfl (by decide), writes_sub_of_mem _ main_v350 rfl (by decide), writes_sub_of_mem _ main_cst_52 rfl (by decide), writes_sub_of_mem _ main_v351 rfl (by decide), writes_sub_of_mem _ main_v352 rfl (by decide), writes_sub_of_mem _ main_v353 rfl (by decide), writes_sub_of_mem _ main_v354 rfl (by decide), writes_sub_of_mem _ main_v355 rfl (by decide), writes_sub_of_mem _ main_v356 rfl (by decide), writes_sub_of_mem _ main_v357 rfl (by decide), writes_sub_of_mem _ main_v358 rfl (by decide), writes_sub_of_mem _ main_v359 rfl (by decide), writes_sub_of_mem _ main_v360 rfl (by decide), writes_sub_of_mem _ main_v361 rfl (by decide), writes_sub_of_mem _ main_v362 rfl (by decide), writes_sub_of_mem _ main_v363 rfl (by decide), writes_sub_of_mem _ main_v364 rfl (by decide)⟩

/-- Window 6's operations (`main_part6`'s, the callees' inlined at their call sites). -/
abbrev ops6 : List (HloOp τ sig (Elt F)) := seg11

end Cert.ReferenceIdeal.Hand

end
-- ==== Proof.Ref.Part6.lean ====
import proofs.«409348_j89627377533173_1_alg».proof.Proof.Ref.Ops6

/-! Window 6 of @main as a straight line: `main_part6` is `seq` of its operations, the callees' bodies unfolded at their
calls and the call records at their fields; every operation touches TensorCore references only and determines its result. -/

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Each operation of `seg11` determines its result (none allocates): by cases on the literal list. -/
theorem seg11_fresh : ∀ op ∈ (seg11 : List (HloOp τ sig (Elt F))), op.fresh = ∅ := by
  intro _ h; (repeat (cases h with | head => rfl | tail _ h => ?_)); exact nomatch h

-- one bind per statement re-associated: the rewrite under the chain recurses once per statement
set_option maxRecDepth 8192 in
set_option maxHeartbeats 4000000 in
/-- `main_part6` is that straight line: both sides are one chain of `hlo` steps once the callees are unfolded and sequencing
    is reassociated (`bind_assoc`, `pure_bind`); what is left, if anything, differs by the monad's own computation (`rfl`). -/
theorem part6_eq (c : Dev nD) : main_part6 (F := F) c = seq ops6 := by
  simp only [main_part6, fn_relu.body, fn_var.body, fn_where.body, fn_relu_0.body, seq, bind_assoc, pure_bind]
  all_goals rfl

theorem ops6_sub : (ops6 : List (HloOp τ sig (Elt F))).Forall fun op => op.bufs ⊆ tcRefs τ sig :=
  seg11_sub

theorem ops6_fresh : ∀ op ∈ (ops6 : List (HloOp τ sig (Elt F))), op.fresh = ∅ :=
  seg11_fresh

end Cert.ReferenceIdeal.Hand

end
-- ==== Proof.Ref.Ops7.lean ====
/- Window 7's operations as literal list segments (cut where a window or a layer ends), what they write, and their side facts. -/
import proofs.«409348_j89627377533173_1_alg».proof.Proof.Ref.Basic

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 543 … 547 of the flat program (window 7). -/
abbrev seg12 : List (HloOp τ sig (Elt F)) :=
  [ unary main_v364 main_v365 (broadcastInDim S50000x300 ![0, 1] bcast_S1x300_S50000x300_0_1 : (⟨S1x300, .f32⟩ : BufTy).Contents (Elt F) → (⟨S50000x300, .f32⟩ : BufTy).Contents (Elt F)),
    binary main_v361 main_v365 main_v366 (addf : (⟨S50000x300, .f32⟩ : BufTy).Contents (Elt F) → (⟨S50000x300, .f32⟩ : BufTy).Contents (Elt F) → (⟨S50000x300, .f32⟩ : BufTy).Contents (Elt F)),
    TRef.nullary main_call14.cst (constant S_ .f32 0x00000000#32),
    TRef.unary main_call14.cst main_call14.v0 (broadcastInDim S50000x300 ![] bcast_S_S50000x300),
    TRef.binary (.of main_v366) main_call14.v0 main_call14.v1 maximumf ]

/-- The references `seg12` writes, in order. -/
abbrev seg12_W : List (Ref sig .tc) :=
  [main_v365, main_v366, main_call14_cst, main_call14_v0, main_v367]

theorem seg12_sub : (seg12 : List (HloOp τ sig (Elt F))).Forall fun op => op.bufs ⊆ tcRefs τ sig :=
  ⟨unary_bufs_sub .., binary_bufs_sub .., nullary_bufs_sub .., unary_bufs_sub .., binary_bufs_sub ..⟩

theorem seg12_writes : (seg12 : List (HloOp τ sig (Elt F))).Forall fun op => op.writes ⊆ (seg12_W.map (Proc.devRef (τ := τ) .tc)).toFinset :=
  ⟨writes_sub_of_mem _ main_v365 rfl (by decide), writes_sub_of_mem _ main_v366 rfl (by decide), writes_sub_of_mem _ main_call14_cst rfl (by decide), writes_sub_of_mem _ main_call14_v0 rfl (by decide), writes_sub_of_mem _ main_v367 rfl (by decide)⟩

/-- Operations 548 … 563 of the flat program (window 7). -/
abbrev seg13 : List (HloOp τ sig (Elt F)) :=
  [ nullary main_cst_53 (constant S_ .f32 0x00000000#32),
    unary main_cst_53 main_v368 (broadcastInDim S512x300 ![] bcast_S_S512x300 : (⟨S_, .f32⟩ : BufTy).Contents (Elt F) → (⟨S512x300, .f32⟩ : BufTy).Contents (Elt F)),
    unary main_arg11 main_v369 (broadcastInDim S50000x1 ![0] bcast_S50000_S50000x1_0 : (⟨S50000, .i32⟩ : BufTy).Contents (Elt F) → (⟨S50000x1, .i32⟩ : BufTy).Contents (Elt F)),
    ternary main_v368 main_v369 main_v367 main_v370 ((fun x i u => Host.scatterAdd scatter_S512x300_S50000x1_S50000x300_1_0_0_1 x i u) : (⟨S512x300, .f32⟩ : BufTy).Contents (Elt F) → (⟨S50000x1, .i32⟩ : BufTy).Contents (Elt F) → (⟨S50000x300, .f32⟩ : BufTy).Contents (Elt F) → (⟨S512x300, .f32⟩ : BufTy).Contents (Elt F)),
    nullary main_cst_54 (constant S_ .f32 0x3F800000#32),
    unary main_cst_54 main_v371 (broadcastInDim S50000 ![] bcast_S_S50000 : (⟨S_, .f32⟩ : BufTy).Contents (Elt F) → (⟨S50000, .f32⟩ : BufTy).Contents (Elt F)),
    nullary main_cst_55 (constant S_ .f32 0x00000000#32),
    unary main_cst_55 main_v372 (broadcastInDim S512 ![] bcast_S_S512 : (⟨S_, .f32⟩ : BufTy).Contents (Elt F) → (⟨S512, .f32⟩ : BufTy).Contents (Elt F)),
    unary main_arg11 main_v373 (broadcastInDim S50000x1 ![0] bcast_S50000_S50000x1_0 : (⟨S50000, .i32⟩ : BufTy).Contents (Elt F) → (⟨S50000x1, .i32⟩ : BufTy).Contents (Elt F)),
    ternary main_v372 main_v373 main_v371 main_v374 ((fun x i u => Host.scatterAdd scatter_S512_S50000x1_S50000_n_0_0_1 x i u) : (⟨S512, .f32⟩ : BufTy).Contents (Elt F) → (⟨S50000x1, .i32⟩ : BufTy).Contents (Elt F) → (⟨S50000, .f32⟩ : BufTy).Contents (Elt F) → (⟨S512, .f32⟩ : BufTy).Contents (Elt F)),
    nullary main_cst_56 (constant S_ .f32 0x3F800000#32),
    unary main_cst_56 main_v375 (broadcastInDim S512 ![] bcast_S_S512 : (⟨S_, .f32⟩ : BufTy).Contents (Elt F) → (⟨S512, .f32⟩ : BufTy).Contents (Elt F)),
    binary main_v374 main_v375 main_v376 (maximumf : (⟨S512, .f32⟩ : BufTy).Contents (Elt F) → (⟨S512, .f32⟩ : BufTy).Contents (Elt F) → (⟨S512, .f32⟩ : BufTy).Contents (Elt F)),
    unary main_v376 main_v377 (broadcastInDim S512x1 ![0] bcast_S512_S512x1_0 : (⟨S512, .f32⟩ : BufTy).Contents (Elt F) → (⟨S512x1, .f32⟩ : BufTy).Contents (Elt F)),
    unary main_v377 main_v378 (broadcastInDim S512x300 ![0, 1] bcast_S512x1_S512x300_0_1 : (⟨S512x1, .f32⟩ : BufTy).Contents (Elt F) → (⟨S512x300, .f32⟩ : BufTy).Contents (Elt F)),
    binary main_v370 main_v378 main_v379 (Host.divf : (⟨S512x300, .f32⟩ : BufTy).Contents (Elt F) → (⟨S512x300, .f32⟩ : BufTy).Contents (Elt F) → (⟨S512x300, .f32⟩ : BufTy).Contents (Elt F)) ]

/-- The references `seg13` writes, in order. -/
abbrev seg13_W : List (Ref sig .tc) :=
  [main_cst_53, main_v368, main_v369, main_v370, main_cst_54, main_v371, main_cst_55, main_v372, main_v373, main_v374, main_cst_56, main_v375, main_v376, main_v377, main_v378, main_v379]

theorem seg13_sub : (seg13 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

theorem seg13_writes : (seg13 : List (HloOp τ sig (Elt F))).Forall fun op => op.writes ⊆ (seg13_W.map (Proc.devRef (τ := τ) .tc)).toFinset :=
  ⟨writes_sub_of_mem _ main_cst_53 rfl (by decide), writes_sub_of_mem _ main_v368 rfl (by decide), writes_sub_of_mem _ main_v369 rfl (by decide), writes_sub_of_mem _ main_v370 rfl (by decide), writes_sub_of_mem _ main_cst_54 rfl (by decide), writes_sub_of_mem _ main_v371 rfl (by decide), writes_sub_of_mem _ main_cst_55 rfl (by decide), writes_sub_of_mem _ main_v372 rfl (by decide), writes_sub_of_mem _ main_v373 rfl (by decide), writes_sub_of_mem _ main_v374 rfl (by decide), writes_sub_of_mem _ main_cst_56 rfl (by decide), writes_sub_of_mem _ main_v375 rfl (by decide), writes_sub_of_mem _ main_v376 rfl (by decide), writes_sub_of_mem _ main_v377 rfl (by decide), writes_sub_of_mem _ main_v378 rfl (by decide), writes_sub_of_mem _ main_v379 rfl (by decide)⟩

/-- Window 7's operations (`main_part7`'s, the callees' inlined at their call sites). -/
abbrev ops7 : List (HloOp τ sig (Elt F)) := seg12 ++ seg13

end Cert.ReferenceIdeal.Hand

end
-- ==== Proof.Ref.Part7.lean ====
import proofs.«409348_j89627377533173_1_alg».proof.Proof.Ref.Ops7

/-! Window 7 of @main as a straight line: `main_part7` is `seq` of its operations, the callees' bodies unfolded at their
calls and the call records at their fields; every operation touches TensorCore references only and determines its result. -/

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Each operation of `seg12` determines its result (none allocates): by cases on the literal list. -/
theorem seg12_fresh : ∀ op ∈ (seg12 : List (HloOp τ sig (Elt F))), op.fresh = ∅ := by
  intro _ h; (repeat (cases h with | head => rfl | tail _ h => ?_)); exact nomatch h

/-- Each operation of `seg13` determines its result (none allocates): by cases on the literal list. -/
theorem seg13_fresh : ∀ op ∈ (seg13 : List (HloOp τ sig (Elt F))), op.fresh = ∅ := by
  intro _ h; (repeat (cases h with | head => rfl | tail _ h => ?_)); exact nomatch h

-- one bind per statement re-associated: the rewrite under the chain recurses once per statement
set_option maxRecDepth 8192 in
set_option maxHeartbeats 4000000 in
/-- `main_part7` is that straight line: both sides are one chain of `hlo` steps once the callees are unfolded and sequencing
    is reassociated (`bind_assoc`, `pure_bind`); what is left, if anything, differs by the monad's own computation (`rfl`). -/
theorem part7_eq (c : Dev nD) : main_part7 (F := F) c = seq ops7 := by
  rw [seq_append]
  simp only [main_part7, fn_relu.body, fn_var.body, fn_where.body, fn_relu_0.body, seq, bind_assoc, pure_bind]
  all_goals rfl

theorem ops7_sub : (ops7 : List (HloOp τ sig (Elt F))).Forall fun op => op.bufs ⊆ tcRefs τ sig :=
  List.forall_append.2 ⟨seg12_sub, seg13_sub⟩

theorem ops7_fresh : ∀ op ∈ (ops7 : List (HloOp τ sig (Elt F))), op.fresh = ∅ :=
  fun op h => (List.mem_append.1 h).elim (seg12_fresh op) (seg13_fresh op)

end Cert.ReferenceIdeal.Hand

end
-- ==== Proof.Ref.Terms.lean ====
/- The reference's values as named terms. -/
import proofs.«409348_j89627377533173_1_alg».proof.Proof.Gen.ReferenceIdeal
import Idealize.ShloMosaic.Lib.StableHlo.Run

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! The reference's values, named layer by layer.

Each definition is one stretch of @main's operations composed as a pure term: the edge columns (`refSrc` … `refE1`),
one GIN layer over already sliced parameters (`refMsg`, `refMlp`, `refMean`, `refVar`, `refBn`, `refRelu`, `refLayer`),
layer K's slices of the stacked parameters (`refEa1_K` … `refBeta_K`), the pool (`refPoolSums`, `refPoolCounts`, `refPool`),
and the chain `refH0 = x`, `refH(K+1) = refLayerK (refHK)`, `out1 = refH5`, `out2 = refPool batch refH5`. -/

/-- Row 0 of the edge index (the node each edge reads). -/
def refSrc (a9 : (⟨S2x256000, .i32⟩ : BufTy).Contents (Elt F)) : (⟨S256000, .i32⟩ : BufTy).Contents (Elt F) :=
  shapeCast _ (extractStridedSlice S1x256000 ![0, 0] a9 slices_S2x256000_S1x256000_0_0) shapeCasts_S1x256000_S256000

/-- Row 1 of the edge index (the node each edge adds into). -/
def refDst (a9 : (⟨S2x256000, .i32⟩ : BufTy).Contents (Elt F)) : (⟨S256000, .i32⟩ : BufTy).Contents (Elt F) :=
  shapeCast _ (extractStridedSlice S1x256000 ![1, 0] a9 slices_S2x256000_S1x256000_1_0) shapeCasts_S1x256000_S256000

/-- Column 0 of the edge attributes (row of the first embedding table). -/
def refE0 (a10 : (⟨S256000x2, .i32⟩ : BufTy).Contents (Elt F)) : (⟨S256000, .i32⟩ : BufTy).Contents (Elt F) :=
  shapeCast _ (extractStridedSlice S256000x1 ![0, 0] a10 slices_S256000x2_S256000x1_0_0) shapeCasts_S256000x1_S256000

/-- Column 1 of the edge attributes (row of the second embedding table). -/
def refE1 (a10 : (⟨S256000x2, .i32⟩ : BufTy).Contents (Elt F)) : (⟨S256000, .i32⟩ : BufTy).Contents (Elt F) :=
  shapeCast _ (extractStridedSlice S256000x1 ![0, 1] a10 slices_S256000x2_S256000x1_0_1) shapeCasts_S256000x1_S256000

/-- Message passing: per edge, the source node's row plus the two embedding rows (a negative index wrapped once),
    added into the destination node's row of a zero array; then the node's own row added. -/
def refMsg (ea1 : (⟨S6x300, .f32⟩ : BufTy).Contents (Elt F)) (ea2 : (⟨S3x300, .f32⟩ : BufTy).Contents (Elt F)) (src dst e0 e1 : (⟨S256000, .i32⟩ : BufTy).Contents (Elt F))
    (h : (⟨S50000x300, .f32⟩ : BufTy).Contents (Elt F)) : (⟨S50000x300, .f32⟩ : BufTy).Contents (Elt F) :=
  addf (Host.scatterAdd scatter_S50000x300_S256000x1_S256000x300_1_0_0_1 (broadcastInDim S50000x300 ![] bcast_S_S50000x300 (constant S_ .f32 0x00000000#32)) (broadcastInDim S256000x1 ![0] bcast_S256000_S256000x1_0 dst) (addf (Host.gather gather_S50000x300_S256000x1_S256000x300_1_0_n_n_0_1_1300 h (broadcastInDim S256000x1 ![0] bcast_S256000_S256000x1_0 (select (cmpi .slt src (broadcastInDim S256000 ![] bcast_S_S256000 (constantI S_ 32 0#32))) (addi src (broadcastInDim S256000 ![] bcast_S_S256000 (constantI S_ 32 50000#32))) src))) (addf (Host.gather gather_S6x300_S256000x1_S256000x300_1_0_n_n_0_1_1300 ea1 (broadcastInDim S256000x1 ![0] bcast_S256000_S256000x1_0 (select (cmpi .slt e0 (broadcastInDim S256000 ![] bcast_S_S256000 (constantI S_ 32 0#32))) (addi e0 (broadcastInDim S256000 ![] bcast_S_S256000 (constantI S_ 32 6#32))) e0))) (Host.gather gather_S3x300_S256000x1_S256000x300_1_0_n_n_0_1_1300 ea2 (broadcastInDim S256000x1 ![0] bcast_S256000_S256000x1_0 (select (cmpi .slt e1 (broadcastInDim S256000 ![] bcast_S_S256000 (constantI S_ 32 0#32))) (addi e1 (broadcastInDim S256000 ![] bcast_S_S256000 (constantI S_ 32 3#32))) e1)))))) h

/-- The two-layer perceptron: `max (a · w1 + b1) 0 · w2 + b2`. -/
def refMlp (w1 : (⟨S300x600, .f32⟩ : BufTy).Contents (Elt F)) (b1 : (⟨S600, .f32⟩ : BufTy).Contents (Elt F)) (w2 : (⟨S600x300, .f32⟩ : BufTy).Contents (Elt F)) (b2 : (⟨S300, .f32⟩ : BufTy).Contents (Elt F))
    (a : (⟨S50000x300, .f32⟩ : BufTy).Contents (Elt F)) : (⟨S50000x300, .f32⟩ : BufTy).Contents (Elt F) :=
  addf (Host.dotGeneral dot_S50000x600_S600x300_S50000x300_1_0_0_1_n_n none (maximumf (addf (Host.dotGeneral dot_S50000x300_S300x600_S50000x600_1_0_0_1_n_n none a w1) (broadcastInDim S50000x600 ![0, 1] bcast_S1x600_S50000x600_0_1 (broadcastInDim S1x600 ![1] bcast_S600_S1x600_1 b1))) (broadcastInDim S50000x600 ![] bcast_S_S50000x600 (constant S_ .f32 0x00000000#32))) w2) (broadcastInDim S50000x300 ![0, 1] bcast_S1x300_S50000x300_0_1 (broadcastInDim S1x300 ![1] bcast_S300_S1x300_1 b2))

/-- Column means: the column sums over 50000. -/
def refMean (z : (⟨S50000x300, .f32⟩ : BufTy).Contents (Elt F)) : (⟨S300, .f32⟩ : BufTy).Contents (Elt F) :=
  Host.divf (Host.reduceAdd z (constant S_ .f32 0x00000000#32) reducesTo_S50000x300_S300_d0 h_S_) (broadcastInDim S300 ![] bcast_S_S300 (constant S_ .f32 0x47435000#32))

/-- Column variances as the reference computes them: the mean of the squared deviations from the column mean,
    over `50000 - 0`, selected against a NaN row by `50000 - 0 > 0`. -/
def refVar (z : (⟨S50000x300, .f32⟩ : BufTy).Contents (Elt F)) : (⟨S300, .f32⟩ : BufTy).Contents (Elt F) :=
  select (broadcastInDim S300 ![] bcast_S_S300 (cmpf .ogt (subf (constant S_ .f32 0x47435000#32) (sitofp .f32 (constantI S_ 32 0#32)) : (⟨S_, .f32⟩ : BufTy).Contents (Elt F)) (constant S_ .f32 0x00000000#32))) (Host.divf (Host.reduceAdd (mulf (subf z (broadcastInDim S50000x300 ![0, 1] bcast_S1x300_S50000x300_0_1 (Host.divf (broadcastInDim S1x300 ![1] bcast_S300_S1x300_1 (Host.reduceAdd z (constant S_ .f32 0x00000000#32) reducesTo_S50000x300_S300_d0 h_S_)) (broadcastInDim S1x300 ![] bcast_S_S1x300 (constant S_ .f32 0x47435000#32))))) (subf z (broadcastInDim S50000x300 ![0, 1] bcast_S1x300_S50000x300_0_1 (Host.divf (broadcastInDim S1x300 ![1] bcast_S300_S1x300_1 (Host.reduceAdd z (constant S_ .f32 0x00000000#32) reducesTo_S50000x300_S300_d0 h_S_)) (broadcastInDim S1x300 ![] bcast_S_S1x300 (constant S_ .f32 0x47435000#32)))))) (constant S_ .f32 0x00000000#32) reducesTo_S50000x300_S300_d0 h_S_) (broadcastInDim S300 ![] bcast_S_S300 (subf (constant S_ .f32 0x47435000#32) (sitofp .f32 (constantI S_ 32 0#32))))) (broadcastInDim S300 ![] bcast_S_S300 (constant S_ .f32 0x7FC00000#32))

/-- Batch normalisation before the ReLU: `(z - mean) * rsqrt (var + eps) * gamma + beta`, rows broadcast. -/
def refBn (gamma beta : (⟨S300, .f32⟩ : BufTy).Contents (Elt F)) (z : (⟨S50000x300, .f32⟩ : BufTy).Contents (Elt F)) : (⟨S50000x300, .f32⟩ : BufTy).Contents (Elt F) :=
  addf (mulf (mulf (subf z (broadcastInDim S50000x300 ![0, 1] bcast_S1x300_S50000x300_0_1 (broadcastInDim S1x300 ![1] bcast_S300_S1x300_1 (refMean z)))) (broadcastInDim S50000x300 ![0, 1] bcast_S1x300_S50000x300_0_1 (broadcastInDim S1x300 ![1] bcast_S300_S1x300_1 (Host.rsqrt (addf (refVar z) (broadcastInDim S300 ![] bcast_S_S300 (constant S_ .f32 0x3727C5AC#32))))))) (broadcastInDim S50000x300 ![0, 1] bcast_S1x300_S50000x300_0_1 (broadcastInDim S1x300 ![1] bcast_S300_S1x300_1 gamma))) (broadcastInDim S50000x300 ![0, 1] bcast_S1x300_S50000x300_0_1 (broadcastInDim S1x300 ![1] bcast_S300_S1x300_1 beta))

/-- The ReLU on a node array. -/
def refRelu (x : (⟨S50000x300, .f32⟩ : BufTy).Contents (Elt F)) : (⟨S50000x300, .f32⟩ : BufTy).Contents (Elt F) :=
  maximumf x (broadcastInDim S50000x300 ![] bcast_S_S50000x300 (constant S_ .f32 0x00000000#32))

/-- One GIN layer over its sliced parameters and the edge columns. -/
def refLayer (ea1 : (⟨S6x300, .f32⟩ : BufTy).Contents (Elt F)) (ea2 : (⟨S3x300, .f32⟩ : BufTy).Contents (Elt F)) (w1 : (⟨S300x600, .f32⟩ : BufTy).Contents (Elt F)) (b1 : (⟨S600, .f32⟩ : BufTy).Contents (Elt F))
    (w2 : (⟨S600x300, .f32⟩ : BufTy).Contents (Elt F)) (b2 gamma beta : (⟨S300, .f32⟩ : BufTy).Contents (Elt F)) (src dst e0 e1 : (⟨S256000, .i32⟩ : BufTy).Contents (Elt F))
    (h : (⟨S50000x300, .f32⟩ : BufTy).Contents (Elt F)) : (⟨S50000x300, .f32⟩ : BufTy).Contents (Elt F) :=
  refRelu (refBn gamma beta (refMlp w1 b1 w2 b2 (refMsg ea1 ea2 src dst e0 e1 h)))

/-- Layer 0's slice of `main_arg1`. -/
def refEa1_0 (a : (⟨S5x6x300, .f32⟩ : BufTy).Contents (Elt F)) : (⟨S6x300, .f32⟩ : BufTy).Contents (Elt F) :=
  shapeCast _ (extractStridedSlice S1x6x300 ![0, 0, 0] a slices_S5x6x300_S1x6x300_0_0_0) shapeCasts_S1x6x300_S6x300

/-- Layer 0's slice of `main_arg2`. -/
def refEa2_0 (a : (⟨S5x3x300, .f32⟩ : BufTy).Contents (Elt F)) : (⟨S3x300, .f32⟩ : BufTy).Contents (Elt F) :=
  shapeCast _ (extractStridedSlice S1x3x300 ![0, 0, 0] a slices_S5x3x300_S1x3x300_0_0_0) shapeCasts_S1x3x300_S3x300

/-- Layer 0's slice of `main_arg3`. -/
def refW1_0 (a : (⟨S5x300x600, .f32⟩ : BufTy).Contents (Elt F)) : (⟨S300x600, .f32⟩ : BufTy).Contents (Elt F) :=
  shapeCast _ (extractStridedSlice S1x300x600 ![0, 0, 0] a slices_S5x300x600_S1x300x600_0_0_0) shapeCasts_S1x300x600_S300x600

/-- Layer 0's slice of `main_arg4`. -/
def refB1_0 (a : (⟨S5x600, .f32⟩ : BufTy).Contents (Elt F)) : (⟨S600, .f32⟩ : BufTy).Contents (Elt F) :=
  shapeCast _ (extractStridedSlice S1x600 ![0, 0] a slices_S5x600_S1x600_0_0) shapeCasts_S1x600_S600

/-- Layer 0's slice of `main_arg5`. -/
def refW2_0 (a : (⟨S5x600x300, .f32⟩ : BufTy).Contents (Elt F)) : (⟨S600x300, .f32⟩ : BufTy).Contents (Elt F) :=
  shapeCast _ (extractStridedSlice S1x600x300 ![0, 0, 0] a slices_S5x600x300_S1x600x300_0_0_0) shapeCasts_S1x600x300_S600x300

/-- Layer 0's slice of `main_arg6`. -/
def refB2_0 (a : (⟨S5x300, .f32⟩ : BufTy).Contents (Elt F)) : (⟨S300, .f32⟩ : BufTy).Contents (Elt F) :=
  shapeCast _ (extractStridedSlice S1x300 ![0, 0] a slices_S5x300_S1x300_0_0) shapeCasts_S1x300_S300

/-- Layer 0's slice of `main_arg7`. -/
def refGamma_0 (a : (⟨S5x300, .f32⟩ : BufTy).Contents (Elt F)) : (⟨S300, .f32⟩ : BufTy).Contents (Elt F) :=
  shapeCast _ (extractStridedSlice S1x300 ![0, 0] a slices_S5x300_S1x300_0_0) shapeCasts_S1x300_S300

/-- Layer 0's slice of `main_arg8`. -/
def refBeta_0 (a : (⟨S5x300, .f32⟩ : BufTy).Contents (Elt F)) : (⟨S300, .f32⟩ : BufTy).Contents (Elt F) :=
  shapeCast _ (extractStridedSlice S1x300 ![0, 0] a slices_S5x300_S1x300_0_0) shapeCasts_S1x300_S300

/-- Layer 1's slice of `main_arg1`. -/
def refEa1_1 (a : (⟨S5x6x300, .f32⟩ : BufTy).Contents (Elt F)) : (⟨S6x300, .f32⟩ : BufTy).Contents (Elt F) :=
  shapeCast _ (extractStridedSlice S1x6x300 ![1, 0, 0] a slices_S5x6x300_S1x6x300_1_0_0) shapeCasts_S1x6x300_S6x300

/-- Layer 1's slice of `main_arg2`. -/
def refEa2_1 (a : (⟨S5x3x300, .f32⟩ : BufTy).Contents (Elt F)) : (⟨S3x300, .f32⟩ : BufTy).Contents (Elt F) :=
  shapeCast _ (extractStridedSlice S1x3x300 ![1, 0, 0] a slices_S5x3x300_S1x3x300_1_0_0) shapeCasts_S1x3x300_S3x300

/-- Layer 1's slice of `main_arg3`. -/
def refW1_1 (a : (⟨S5x300x600, .f32⟩ : BufTy).Contents (Elt F)) : (⟨S300x600, .f32⟩ : BufTy).Contents (Elt F) :=
  shapeCast _ (extractStridedSlice S1x300x600 ![1, 0, 0] a slices_S5x300x600_S1x300x600_1_0_0) shapeCasts_S1x300x600_S300x600

/-- Layer 1's slice of `main_arg4`. -/
def refB1_1 (a : (⟨S5x600, .f32⟩ : BufTy).Contents (Elt F)) : (⟨S600, .f32⟩ : BufTy).Contents (Elt F) :=
  shapeCast _ (extractStridedSlice S1x600 ![1, 0] a slices_S5x600_S1x600_1_0) shapeCasts_S1x600_S600

/-- Layer 1's slice of `main_arg5`. -/
def refW2_1 (a : (⟨S5x600x300, .f32⟩ : BufTy).Contents (Elt F)) : (⟨S600x300, .f32⟩ : BufTy).Contents (Elt F) :=
  shapeCast _ (extractStridedSlice S1x600x300 ![1, 0, 0] a slices_S5x600x300_S1x600x300_1_0_0) shapeCasts_S1x600x300_S600x300

/-- Layer 1's slice of `main_arg6`. -/
def refB2_1 (a : (⟨S5x300, .f32⟩ : BufTy).Contents (Elt F)) : (⟨S300, .f32⟩ : BufTy).Contents (Elt F) :=
  shapeCast _ (extractStridedSlice S1x300 ![1, 0] a slices_S5x300_S1x300_1_0) shapeCasts_S1x300_S300

/-- Layer 1's slice of `main_arg7`. -/
def refGamma_1 (a : (⟨S5x300, .f32⟩ : BufTy).Contents (Elt F)) : (⟨S300, .f32⟩ : BufTy).Contents (Elt F) :=
  shapeCast _ (extractStridedSlice S1x300 ![1, 0] a slices_S5x300_S1x300_1_0) shapeCasts_S1x300_S300

/-- Layer 1's slice of `main_arg8`. -/
def refBeta_1 (a : (⟨S5x300, .f32⟩ : BufTy).Contents (Elt F)) : (⟨S300, .f32⟩ : BufTy).Contents (Elt F) :=
  shapeCast _ (extractStridedSlice S1x300 ![1, 0] a slices_S5x300_S1x300_1_0) shapeCasts_S1x300_S300

/-- Layer 2's slice of `main_arg1`. -/
def refEa1_2 (a : (⟨S5x6x300, .f32⟩ : BufTy).Contents (Elt F)) : (⟨S6x300, .f32⟩ : BufTy).Contents (Elt F) :=
  shapeCast _ (extractStridedSlice S1x6x300 ![2, 0, 0] a slices_S5x6x300_S1x6x300_2_0_0) shapeCasts_S1x6x300_S6x300

/-- Layer 2's slice of `main_arg2`. -/
def refEa2_2 (a : (⟨S5x3x300, .f32⟩ : BufTy).Contents (Elt F)) : (⟨S3x300, .f32⟩ : BufTy).Contents (Elt F) :=
  shapeCast _ (extractStridedSlice S1x3x300 ![2, 0, 0] a slices_S5x3x300_S1x3x300_2_0_0) shapeCasts_S1x3x300_S3x300

/-- Layer 2's slice of `main_arg3`. -/
def refW1_2 (a : (⟨S5x300x600, .f32⟩ : BufTy).Contents (Elt F)) : (⟨S300x600, .f32⟩ : BufTy).Contents (Elt F) :=
  shapeCast _ (extractStridedSlice S1x300x600 ![2, 0, 0] a slices_S5x300x600_S1x300x600_2_0_0) shapeCasts_S1x300x600_S300x600

/-- Layer 2's slice of `main_arg4`. -/
def refB1_2 (a : (⟨S5x600, .f32⟩ : BufTy).Contents (Elt F)) : (⟨S600, .f32⟩ : BufTy).Contents (Elt F) :=
  shapeCast _ (extractStridedSlice S1x600 ![2, 0] a slices_S5x600_S1x600_2_0) shapeCasts_S1x600_S600

/-- Layer 2's slice of `main_arg5`. -/
def refW2_2 (a : (⟨S5x600x300, .f32⟩ : BufTy).Contents (Elt F)) : (⟨S600x300, .f32⟩ : BufTy).Contents (Elt F) :=
  shapeCast _ (extractStridedSlice S1x600x300 ![2, 0, 0] a slices_S5x600x300_S1x600x300_2_0_0) shapeCasts_S1x600x300_S600x300

/-- Layer 2's slice of `main_arg6`. -/
def refB2_2 (a : (⟨S5x300, .f32⟩ : BufTy).Contents (Elt F)) : (⟨S300, .f32⟩ : BufTy).Contents (Elt F) :=
  shapeCast _ (extractStridedSlice S1x300 ![2, 0] a slices_S5x300_S1x300_2_0) shapeCasts_S1x300_S300

/-- Layer 2's slice of `main_arg7`. -/
def refGamma_2 (a : (⟨S5x300, .f32⟩ : BufTy).Contents (Elt F)) : (⟨S300, .f32⟩ : BufTy).Contents (Elt F) :=
  shapeCast _ (extractStridedSlice S1x300 ![2, 0] a slices_S5x300_S1x300_2_0) shapeCasts_S1x300_S300

/-- Layer 2's slice of `main_arg8`. -/
def refBeta_2 (a : (⟨S5x300, .f32⟩ : BufTy).Contents (Elt F)) : (⟨S300, .f32⟩ : BufTy).Contents (Elt F) :=
  shapeCast _ (extractStridedSlice S1x300 ![2, 0] a slices_S5x300_S1x300_2_0) shapeCasts_S1x300_S300

/-- Layer 3's slice of `main_arg1`. -/
def refEa1_3 (a : (⟨S5x6x300, .f32⟩ : BufTy).Contents (Elt F)) : (⟨S6x300, .f32⟩ : BufTy).Contents (Elt F) :=
  shapeCast _ (extractStridedSlice S1x6x300 ![3, 0, 0] a slices_S5x6x300_S1x6x300_3_0_0) shapeCasts_S1x6x300_S6x300

/-- Layer 3's slice of `main_arg2`. -/
def refEa2_3 (a : (⟨S5x3x300, .f32⟩ : BufTy).Contents (Elt F)) : (⟨S3x300, .f32⟩ : BufTy).Contents (Elt F) :=
  shapeCast _ (extractStridedSlice S1x3x300 ![3, 0, 0] a slices_S5x3x300_S1x3x300_3_0_0) shapeCasts_S1x3x300_S3x300

/-- Layer 3's slice of `main_arg3`. -/
def refW1_3 (a : (⟨S5x300x600, .f32⟩ : BufTy).Contents (Elt F)) : (⟨S300x600, .f32⟩ : BufTy).Contents (Elt F) :=
  shapeCast _ (extractStridedSlice S1x300x600 ![3, 0, 0] a slices_S5x300x600_S1x300x600_3_0_0) shapeCasts_S1x300x600_S300x600

/-- Layer 3's slice of `main_arg4`. -/
def refB1_3 (a : (⟨S5x600, .f32⟩ : BufTy).Contents (Elt F)) : (⟨S600, .f32⟩ : BufTy).Contents (Elt F) :=
  shapeCast _ (extractStridedSlice S1x600 ![3, 0] a slices_S5x600_S1x600_3_0) shapeCasts_S1x600_S600

/-- Layer 3's slice of `main_arg5`. -/
def refW2_3 (a : (⟨S5x600x300, .f32⟩ : BufTy).Contents (Elt F)) : (⟨S600x300, .f32⟩ : BufTy).Contents (Elt F) :=
  shapeCast _ (extractStridedSlice S1x600x300 ![3, 0, 0] a slices_S5x600x300_S1x600x300_3_0_0) shapeCasts_S1x600x300_S600x300

/-- Layer 3's slice of `main_arg6`. -/
def refB2_3 (a : (⟨S5x300, .f32⟩ : BufTy).Contents (Elt F)) : (⟨S300, .f32⟩ : BufTy).Contents (Elt F) :=
  shapeCast _ (extractStridedSlice S1x300 ![3, 0] a slices_S5x300_S1x300_3_0) shapeCasts_S1x300_S300

/-- Layer 3's slice of `main_arg7`. -/
def refGamma_3 (a : (⟨S5x300, .f32⟩ : BufTy).Contents (Elt F)) : (⟨S300, .f32⟩ : BufTy).Contents (Elt F) :=
  shapeCast _ (extractStridedSlice S1x300 ![3, 0] a slices_S5x300_S1x300_3_0) shapeCasts_S1x300_S300

/-- Layer 3's slice of `main_arg8`. -/
def refBeta_3 (a : (⟨S5x300, .f32⟩ : BufTy).Contents (Elt F)) : (⟨S300, .f32⟩ : BufTy).Contents (Elt F) :=
  shapeCast _ (extractStridedSlice S1x300 ![3, 0] a slices_S5x300_S1x300_3_0) shapeCasts_S1x300_S300

/-- Layer 4's slice of `main_arg1`. -/
def refEa1_4 (a : (⟨S5x6x300, .f32⟩ : BufTy).Contents (Elt F)) : (⟨S6x300, .f32⟩ : BufTy).Contents (Elt F) :=
  shapeCast _ (extractStridedSlice S1x6x300 ![4, 0, 0] a slices_S5x6x300_S1x6x300_4_0_0) shapeCasts_S1x6x300_S6x300

/-- Layer 4's slice of `main_arg2`. -/
def refEa2_4 (a : (⟨S5x3x300, .f32⟩ : BufTy).Contents (Elt F)) : (⟨S3x300, .f32⟩ : BufTy).Contents (Elt F) :=
  shapeCast _ (extractStridedSlice S1x3x300 ![4, 0, 0] a slices_S5x3x300_S1x3x300_4_0_0) shapeCasts_S1x3x300_S3x300

/-- Layer 4's slice of `main_arg3`. -/
def refW1_4 (a : (⟨S5x300x600, .f32⟩ : BufTy).Contents (Elt F)) : (⟨S300x600, .f32⟩ : BufTy).Contents (Elt F) :=
  shapeCast _ (extractStridedSlice S1x300x600 ![4, 0, 0] a slices_S5x300x600_S1x300x600_4_0_0) shapeCasts_S1x300x600_S300x600

/-- Layer 4's slice of `main_arg4`. -/
def refB1_4 (a : (⟨S5x600, .f32⟩ : BufTy).Contents (Elt F)) : (⟨S600, .f32⟩ : BufTy).Contents (Elt F) :=
  shapeCast _ (extractStridedSlice S1x600 ![4, 0] a slices_S5x600_S1x600_4_0) shapeCasts_S1x600_S600

/-- Layer 4's slice of `main_arg5`. -/
def refW2_4 (a : (⟨S5x600x300, .f32⟩ : BufTy).Contents (Elt F)) : (⟨S600x300, .f32⟩ : BufTy).Contents (Elt F) :=
  shapeCast _ (extractStridedSlice S1x600x300 ![4, 0, 0] a slices_S5x600x300_S1x600x300_4_0_0) shapeCasts_S1x600x300_S600x300

/-- Layer 4's slice of `main_arg6`. -/
def refB2_4 (a : (⟨S5x300, .f32⟩ : BufTy).Contents (Elt F)) : (⟨S300, .f32⟩ : BufTy).Contents (Elt F) :=
  shapeCast _ (extractStridedSlice S1x300 ![4, 0] a slices_S5x300_S1x300_4_0) shapeCasts_S1x300_S300

/-- Layer 4's slice of `main_arg7`. -/
def refGamma_4 (a : (⟨S5x300, .f32⟩ : BufTy).Contents (Elt F)) : (⟨S300, .f32⟩ : BufTy).Contents (Elt F) :=
  shapeCast _ (extractStridedSlice S1x300 ![4, 0] a slices_S5x300_S1x300_4_0) shapeCasts_S1x300_S300

/-- Layer 4's slice of `main_arg8`. -/
def refBeta_4 (a : (⟨S5x300, .f32⟩ : BufTy).Contents (Elt F)) : (⟨S300, .f32⟩ : BufTy).Contents (Elt F) :=
  shapeCast _ (extractStridedSlice S1x300 ![4, 0] a slices_S5x300_S1x300_4_0) shapeCasts_S1x300_S300

/-- Sums of the node rows per graph id (ids outside `[0, 512)` dropped by the scatter). -/
def refPoolSums (batch : (⟨S50000, .i32⟩ : BufTy).Contents (Elt F)) (h : (⟨S50000x300, .f32⟩ : BufTy).Contents (Elt F)) : (⟨S512x300, .f32⟩ : BufTy).Contents (Elt F) :=
  Host.scatterAdd scatter_S512x300_S50000x1_S50000x300_1_0_0_1 (broadcastInDim S512x300 ![] bcast_S_S512x300 (constant S_ .f32 0x00000000#32)) (broadcastInDim S50000x1 ![0] bcast_S50000_S50000x1_0 batch) h

/-- Node counts per graph id. -/
def refPoolCounts (batch : (⟨S50000, .i32⟩ : BufTy).Contents (Elt F)) : (⟨S512, .f32⟩ : BufTy).Contents (Elt F) :=
  Host.scatterAdd scatter_S512_S50000x1_S50000_n_0_0_1 (broadcastInDim S512 ![] bcast_S_S512 (constant S_ .f32 0x00000000#32)) (broadcastInDim S50000x1 ![0] bcast_S50000_S50000x1_0 batch) (broadcastInDim S50000 ![] bcast_S_S50000 (constant S_ .f32 0x3F800000#32))

/-- The mean pool: sums over `max counts 1`. -/
def refPool (batch : (⟨S50000, .i32⟩ : BufTy).Contents (Elt F)) (h : (⟨S50000x300, .f32⟩ : BufTy).Contents (Elt F)) : (⟨S512x300, .f32⟩ : BufTy).Contents (Elt F) :=
  Host.divf (refPoolSums batch h) (broadcastInDim S512x300 ![0, 1] bcast_S512x1_S512x300_0_1 (broadcastInDim S512x1 ![0] bcast_S512_S512x1_0 (maximumf (refPoolCounts batch) (broadcastInDim S512 ![] bcast_S_S512 (constant S_ .f32 0x3F800000#32)))))

variable (m : (ℓ : Loc nD τ sig) → Buf (Elt F) ℓ) (c : Dev nD)

/-- Layer 0 at the launch contents of the parameters and the edge arrays. -/
def refLayer0 (h : (⟨S50000x300, .f32⟩ : BufTy).Contents (Elt F)) : (⟨S50000x300, .f32⟩ : BufTy).Contents (Elt F) :=
  refLayer (refEa1_0 (m ((c.tc : Thread nD τ).loc main_arg1))) (refEa2_0 (m ((c.tc : Thread nD τ).loc main_arg2))) (refW1_0 (m ((c.tc : Thread nD τ).loc main_arg3))) (refB1_0 (m ((c.tc : Thread nD τ).loc main_arg4)))
    (refW2_0 (m ((c.tc : Thread nD τ).loc main_arg5))) (refB2_0 (m ((c.tc : Thread nD τ).loc main_arg6))) (refGamma_0 (m ((c.tc : Thread nD τ).loc main_arg7))) (refBeta_0 (m ((c.tc : Thread nD τ).loc main_arg8)))
    (refSrc (m ((c.tc : Thread nD τ).loc main_arg9))) (refDst (m ((c.tc : Thread nD τ).loc main_arg9))) (refE0 (m ((c.tc : Thread nD τ).loc main_arg10))) (refE1 (m ((c.tc : Thread nD τ).loc main_arg10))) h

/-- Layer 1 at the launch contents of the parameters and the edge arrays. -/
def refLayer1 (h : (⟨S50000x300, .f32⟩ : BufTy).Contents (Elt F)) : (⟨S50000x300, .f32⟩ : BufTy).Contents (Elt F) :=
  refLayer (refEa1_1 (m ((c.tc : Thread nD τ).loc main_arg1))) (refEa2_1 (m ((c.tc : Thread nD τ).loc main_arg2))) (refW1_1 (m ((c.tc : Thread nD τ).loc main_arg3))) (refB1_1 (m ((c.tc : Thread nD τ).loc main_arg4)))
    (refW2_1 (m ((c.tc : Thread nD τ).loc main_arg5))) (refB2_1 (m ((c.tc : Thread nD τ).loc main_arg6))) (refGamma_1 (m ((c.tc : Thread nD τ).loc main_arg7))) (refBeta_1 (m ((c.tc : Thread nD τ).loc main_arg8)))
    (refSrc (m ((c.tc : Thread nD τ).loc main_arg9))) (refDst (m ((c.tc : Thread nD τ).loc main_arg9))) (refE0 (m ((c.tc : Thread nD τ).loc main_arg10))) (refE1 (m ((c.tc : Thread nD τ).loc main_arg10))) h

/-- Layer 2 at the launch contents of the parameters and the edge arrays. -/
def refLayer2 (h : (⟨S50000x300, .f32⟩ : BufTy).Contents (Elt F)) : (⟨S50000x300, .f32⟩ : BufTy).Contents (Elt F) :=
  refLayer (refEa1_2 (m ((c.tc : Thread nD τ).loc main_arg1))) (refEa2_2 (m ((c.tc : Thread nD τ).loc main_arg2))) (refW1_2 (m ((c.tc : Thread nD τ).loc main_arg3))) (refB1_2 (m ((c.tc : Thread nD τ).loc main_arg4)))
    (refW2_2 (m ((c.tc : Thread nD τ).loc main_arg5))) (refB2_2 (m ((c.tc : Thread nD τ).loc main_arg6))) (refGamma_2 (m ((c.tc : Thread nD τ).loc main_arg7))) (refBeta_2 (m ((c.tc : Thread nD τ).loc main_arg8)))
    (refSrc (m ((c.tc : Thread nD τ).loc main_arg9))) (refDst (m ((c.tc : Thread nD τ).loc main_arg9))) (refE0 (m ((c.tc : Thread nD τ).loc main_arg10))) (refE1 (m ((c.tc : Thread nD τ).loc main_arg10))) h

/-- Layer 3 at the launch contents of the parameters and the edge arrays. -/
def refLayer3 (h : (⟨S50000x300, .f32⟩ : BufTy).Contents (Elt F)) : (⟨S50000x300, .f32⟩ : BufTy).Contents (Elt F) :=
  refLayer (refEa1_3 (m ((c.tc : Thread nD τ).loc main_arg1))) (refEa2_3 (m ((c.tc : Thread nD τ).loc main_arg2))) (refW1_3 (m ((c.tc : Thread nD τ).loc main_arg3))) (refB1_3 (m ((c.tc : Thread nD τ).loc main_arg4)))
    (refW2_3 (m ((c.tc : Thread nD τ).loc main_arg5))) (refB2_3 (m ((c.tc : Thread nD τ).loc main_arg6))) (refGamma_3 (m ((c.tc : Thread nD τ).loc main_arg7))) (refBeta_3 (m ((c.tc : Thread nD τ).loc main_arg8)))
    (refSrc (m ((c.tc : Thread nD τ).loc main_arg9))) (refDst (m ((c.tc : Thread nD τ).loc main_arg9))) (refE0 (m ((c.tc : Thread nD τ).loc main_arg10))) (refE1 (m ((c.tc : Thread nD τ).loc main_arg10))) h

/-- Layer 4 at the launch contents of the parameters and the edge arrays. -/
def refLayer4 (h : (⟨S50000x300, .f32⟩ : BufTy).Contents (Elt F)) : (⟨S50000x300, .f32⟩ : BufTy).Contents (Elt F) :=
  refLayer (refEa1_4 (m ((c.tc : Thread nD τ).loc main_arg1))) (refEa2_4 (m ((c.tc : Thread nD τ).loc main_arg2))) (refW1_4 (m ((c.tc : Thread nD τ).loc main_arg3))) (refB1_4 (m ((c.tc : Thread nD τ).loc main_arg4)))
    (refW2_4 (m ((c.tc : Thread nD τ).loc main_arg5))) (refB2_4 (m ((c.tc : Thread nD τ).loc main_arg6))) (refGamma_4 (m ((c.tc : Thread nD τ).loc main_arg7))) (refBeta_4 (m ((c.tc : Thread nD τ).loc main_arg8)))
    (refSrc (m ((c.tc : Thread nD τ).loc main_arg9))) (refDst (m ((c.tc : Thread nD τ).loc main_arg9))) (refE0 (m ((c.tc : Thread nD τ).loc main_arg10))) (refE1 (m ((c.tc : Thread nD τ).loc main_arg10))) h

/-- The node features entering layer 0: the argument. -/
def refH0 : (⟨S50000x300, .f32⟩ : BufTy).Contents (Elt F) := m ((c.tc : Thread nD τ).loc main_arg0)
/-- The node features after layer 0. -/
def refH1 : (⟨S50000x300, .f32⟩ : BufTy).Contents (Elt F) := refLayer0 m c (refH0 m c)
/-- The node features after layer 1. -/
def refH2 : (⟨S50000x300, .f32⟩ : BufTy).Contents (Elt F) := refLayer1 m c (refH1 m c)
/-- The node features after layer 2. -/
def refH3 : (⟨S50000x300, .f32⟩ : BufTy).Contents (Elt F) := refLayer2 m c (refH2 m c)
/-- The node features after layer 3. -/
def refH4 : (⟨S50000x300, .f32⟩ : BufTy).Contents (Elt F) := refLayer3 m c (refH3 m c)
/-- The node features after layer 4. -/
def refH5 : (⟨S50000x300, .f32⟩ : BufTy).Contents (Elt F) := refLayer4 m c (refH4 m c)

/-- @main's first result (`main_v367`): the node features after the five layers. -/
def out1 : (⟨S50000x300, .f32⟩ : BufTy).Contents (Elt F) := refH5 m c
/-- @main's second result (`main_v379`): their mean pool per graph. -/
def out2 : (⟨S512x300, .f32⟩ : BufTy).Contents (Elt F) := refPool (m ((c.tc : Thread nD τ).loc main_arg11)) (refH5 m c)

end Cert.ReferenceIdeal.Hand

end
-- ==== Proof.Ref.Pro.lean ====
import proofs.«409348_j89627377533173_1_alg».proof.Proof.Ref.Ops0
import proofs.«409348_j89627377533173_1_alg».proof.Proof.Ref.Terms

/-! The first stretch of the reference's @main: the two rows of the edge index and the two columns of the edge attributes,
each a slice and a reshape of an argument. The four results are `refSrc`, `refDst`, `refE0`, `refE1` of the arguments read where
the stretch starts; every reference it does not write keeps its contents. -/

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The edge columns' operations. -/
abbrev pro : List (HloOp τ sig (Elt F)) := seg0

/-- The references they write. -/
abbrev pro_W : List (Ref sig .tc) := seg0_W

/-- A reference the stretch does not write keeps its contents across it. -/
theorem pro_frame (V : Valuation τ sig (Elt F)) {r : Ref sig .tc} (hr : r ∉ pro_W) :
    after pro V (Proc.devRef .tc r) = V (Proc.devRef .tc r) :=
  after_of_writes_sub pro V seg0_writes hr

/-- Row 0 of the edge index. -/
theorem pro_src (V : Valuation τ sig (Elt F)) :
    after pro V (Proc.devRef .tc main_v1) = refSrc (V (Proc.devRef .tc main_arg9)) := by
  after_results_simp
  rfl

/-- Row 1 of the edge index. -/
theorem pro_dst (V : Valuation τ sig (Elt F)) :
    after pro V (Proc.devRef .tc main_v3) = refDst (V (Proc.devRef .tc main_arg9)) := by
  after_results_simp
  rfl

/-- Column 0 of the edge attributes. -/
theorem pro_e0 (V : Valuation τ sig (Elt F)) :
    after pro V (Proc.devRef .tc main_v5) = refE0 (V (Proc.devRef .tc main_arg10)) := by
  after_results_simp
  rfl

/-- Column 1 of the edge attributes. -/
theorem pro_e1 (V : Valuation τ sig (Elt F)) :
    after pro V (Proc.devRef .tc main_v7) = refE1 (V (Proc.devRef .tc main_arg10)) := by
  after_results_simp
  rfl

end Cert.ReferenceIdeal.Hand

end
-- ==== Proof.Ref.Lay0.lean ====
import proofs.«409348_j89627377533173_1_alg».proof.Proof.Ref.Ops0
import proofs.«409348_j89627377533173_1_alg».proof.Proof.Ref.Ops1
import proofs.«409348_j89627377533173_1_alg».proof.Proof.Ref.Terms

/-! Layer 0 of the reference: the stretch of @main from the first slice of the layer's parameters to its `@relu_0` result.
Its result is the one generic layer `refLayer` at layer 0's slices of the stacked parameters, the edge columns and the
features it starts from, each read where the stretch starts; every reference it does not write keeps its contents. -/

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Layer 0's operations. -/
abbrev lay0 : List (HloOp τ sig (Elt F)) := seg1 ++ seg2

/-- The references layer 0 writes. -/
abbrev lay0_W : List (Ref sig .tc) := seg1_W ++ seg2_W

theorem lay0_writes : (lay0 : List (HloOp τ sig (Elt F))).Forall fun op => op.writes ⊆ (lay0_W.map (Proc.devRef (τ := τ) .tc)).toFinset :=
  writes_append (seg1_writes) seg2_writes

/-- A reference layer 0 does not write keeps its contents across it. -/
theorem lay0_frame (V : Valuation τ sig (Elt F)) {r : Ref sig .tc} (hr : r ∉ lay0_W) :
    after lay0 V (Proc.devRef .tc r) = V (Proc.devRef .tc r) :=
  after_of_writes_sub lay0 V lay0_writes hr

-- the fold over the layer's operations is unrolled and each result read at its own buffer in one pass; the term left is
-- `refLayer`'s body at these operands, the typed references' casts the identity at literal references
set_option maxRecDepth 8192 in
set_option maxHeartbeats 4000000 in
/-- Layer 0's result, from any contents `V`: `refLayer` of the layer's slices of the parameters, the edge columns and the
    features, all read from `V`. -/
theorem lay0_value (V : Valuation τ sig (Elt F)) :
    after lay0 V (Proc.devRef .tc main_v79)
      = refLayer (refEa1_0 (V (Proc.devRef .tc main_arg1))) (refEa2_0 (V (Proc.devRef .tc main_arg2)))
          (refW1_0 (V (Proc.devRef .tc main_arg3))) (refB1_0 (V (Proc.devRef .tc main_arg4)))
          (refW2_0 (V (Proc.devRef .tc main_arg5))) (refB2_0 (V (Proc.devRef .tc main_arg6)))
          (refGamma_0 (V (Proc.devRef .tc main_arg7))) (refBeta_0 (V (Proc.devRef .tc main_arg8)))
          (V (Proc.devRef .tc main_v1)) (V (Proc.devRef .tc main_v3)) (V (Proc.devRef .tc main_v5)) (V (Proc.devRef .tc main_v7))
          (V (Proc.devRef .tc main_arg0)) := by
  simp only [after_append]
  after_results_simp
  rfl

end Cert.ReferenceIdeal.Hand

end
-- ==== Proof.Ref.Lay1.lean ====
import proofs.«409348_j89627377533173_1_alg».proof.Proof.Ref.Ops1
import proofs.«409348_j89627377533173_1_alg».proof.Proof.Ref.Ops2
import proofs.«409348_j89627377533173_1_alg».proof.Proof.Ref.Terms

/-! Layer 1 of the reference: the stretch of @main from the first slice of the layer's parameters to its `@relu_0` result.
Its result is the one generic layer `refLayer` at layer 1's slices of the stacked parameters, the edge columns and the
features it starts from, each read where the stretch starts; every reference it does not write keeps its contents. -/

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Layer 1's operations. -/
abbrev lay1 : List (HloOp τ sig (Elt F)) := seg3 ++ seg4

/-- The references layer 1 writes. -/
abbrev lay1_W : List (Ref sig .tc) := seg3_W ++ seg4_W

theorem lay1_writes : (lay1 : List (HloOp τ sig (Elt F))).Forall fun op => op.writes ⊆ (lay1_W.map (Proc.devRef (τ := τ) .tc)).toFinset :=
  writes_append (seg3_writes) seg4_writes

/-- A reference layer 1 does not write keeps its contents across it. -/
theorem lay1_frame (V : Valuation τ sig (Elt F)) {r : Ref sig .tc} (hr : r ∉ lay1_W) :
    after lay1 V (Proc.devRef .tc r) = V (Proc.devRef .tc r) :=
  after_of_writes_sub lay1 V lay1_writes hr

-- the fold over the layer's operations is unrolled and each result read at its own buffer in one pass; the term left is
-- `refLayer`'s body at these operands, the typed references' casts the identity at literal references
set_option maxRecDepth 8192 in
set_option maxHeartbeats 4000000 in
/-- Layer 1's result, from any contents `V`: `refLayer` of the layer's slices of the parameters, the edge columns and the
    features, all read from `V`. -/
theorem lay1_value (V : Valuation τ sig (Elt F)) :
    after lay1 V (Proc.devRef .tc main_v151)
      = refLayer (refEa1_1 (V (Proc.devRef .tc main_arg1))) (refEa2_1 (V (Proc.devRef .tc main_arg2)))
          (refW1_1 (V (Proc.devRef .tc main_arg3))) (refB1_1 (V (Proc.devRef .tc main_arg4)))
          (refW2_1 (V (Proc.devRef .tc main_arg5))) (refB2_1 (V (Proc.devRef .tc main_arg6)))
          (refGamma_1 (V (Proc.devRef .tc main_arg7))) (refBeta_1 (V (Proc.devRef .tc main_arg8)))
          (V (Proc.devRef .tc main_v1)) (V (Proc.devRef .tc main_v3)) (V (Proc.devRef .tc main_v5)) (V (Proc.devRef .tc main_v7))
          (V (Proc.devRef .tc main_v79)) := by
  simp only [after_append]
  after_results_simp
  rfl

end Cert.ReferenceIdeal.Hand

end
-- ==== Proof.Ref.Lay2.lean ====
import proofs.«409348_j89627377533173_1_alg».proof.Proof.Ref.Ops2
import proofs.«409348_j89627377533173_1_alg».proof.Proof.Ref.Ops3
import proofs.«409348_j89627377533173_1_alg».proof.Proof.Ref.Ops4
import proofs.«409348_j89627377533173_1_alg».proof.Proof.Ref.Terms

/-! Layer 2 of the reference: the stretch of @main from the first slice of the layer's parameters to its `@relu_0` result.
Its result is the one generic layer `refLayer` at layer 2's slices of the stacked parameters, the edge columns and the
features it starts from, each read where the stretch starts; every reference it does not write keeps its contents. -/

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Layer 2's operations. -/
abbrev lay2 : List (HloOp τ sig (Elt F)) := seg5 ++ seg6 ++ seg7

/-- The references layer 2 writes. -/
abbrev lay2_W : List (Ref sig .tc) := seg5_W ++ seg6_W ++ seg7_W

theorem lay2_writes : (lay2 : List (HloOp τ sig (Elt F))).Forall fun op => op.writes ⊆ (lay2_W.map (Proc.devRef (τ := τ) .tc)).toFinset :=
  writes_append (writes_append (seg5_writes) seg6_writes) seg7_writes

/-- A reference layer 2 does not write keeps its contents across it. -/
theorem lay2_frame (V : Valuation τ sig (Elt F)) {r : Ref sig .tc} (hr : r ∉ lay2_W) :
    after lay2 V (Proc.devRef .tc r) = V (Proc.devRef .tc r) :=
  after_of_writes_sub lay2 V lay2_writes hr

-- the fold over the layer's operations is unrolled and each result read at its own buffer in one pass; the term left is
-- `refLayer`'s body at these operands, the typed references' casts the identity at literal references
set_option maxRecDepth 8192 in
set_option maxHeartbeats 4000000 in
/-- Layer 2's result, from any contents `V`: `refLayer` of the layer's slices of the parameters, the edge columns and the
    features, all read from `V`. -/
theorem lay2_value (V : Valuation τ sig (Elt F)) :
    after lay2 V (Proc.devRef .tc main_v223)
      = refLayer (refEa1_2 (V (Proc.devRef .tc main_arg1))) (refEa2_2 (V (Proc.devRef .tc main_arg2)))
          (refW1_2 (V (Proc.devRef .tc main_arg3))) (refB1_2 (V (Proc.devRef .tc main_arg4)))
          (refW2_2 (V (Proc.devRef .tc main_arg5))) (refB2_2 (V (Proc.devRef .tc main_arg6)))
          (refGamma_2 (V (Proc.devRef .tc main_arg7))) (refBeta_2 (V (Proc.devRef .tc main_arg8)))
          (V (Proc.devRef .tc main_v1)) (V (Proc.devRef .tc main_v3)) (V (Proc.devRef .tc main_v5)) (V (Proc.devRef .tc main_v7))
          (V (Proc.devRef .tc main_v151)) := by
  simp only [after_append]
  after_results_simp
  rfl

end Cert.ReferenceIdeal.Hand

end
-- ==== Proof.Ref.Lay3.lean ====
import proofs.«409348_j89627377533173_1_alg».proof.Proof.Ref.Ops4
import proofs.«409348_j89627377533173_1_alg».proof.Proof.Ref.Ops5
import proofs.«409348_j89627377533173_1_alg».proof.Proof.Ref.Terms

/-! Layer 3 of the reference: the stretch of @main from the first slice of the layer's parameters to its `@relu_0` result.
Its result is the one generic layer `refLayer` at layer 3's slices of the stacked parameters, the edge columns and the
features it starts from, each read where the stretch starts; every reference it does not write keeps its contents. -/

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Layer 3's operations. -/
abbrev lay3 : List (HloOp τ sig (Elt F)) := seg8 ++ seg9

/-- The references layer 3 writes. -/
abbrev lay3_W : List (Ref sig .tc) := seg8_W ++ seg9_W

theorem lay3_writes : (lay3 : List (HloOp τ sig (Elt F))).Forall fun op => op.writes ⊆ (lay3_W.map (Proc.devRef (τ := τ) .tc)).toFinset :=
  writes_append (seg8_writes) seg9_writes

/-- A reference layer 3 does not write keeps its contents across it. -/
theorem lay3_frame (V : Valuation τ sig (Elt F)) {r : Ref sig .tc} (hr : r ∉ lay3_W) :
    after lay3 V (Proc.devRef .tc r) = V (Proc.devRef .tc r) :=
  after_of_writes_sub lay3 V lay3_writes hr

-- the fold over the layer's operations is unrolled and each result read at its own buffer in one pass; the term left is
-- `refLayer`'s body at these operands, the typed references' casts the identity at literal references
set_option maxRecDepth 8192 in
set_option maxHeartbeats 4000000 in
/-- Layer 3's result, from any contents `V`: `refLayer` of the layer's slices of the parameters, the edge columns and the
    features, all read from `V`. -/
theorem lay3_value (V : Valuation τ sig (Elt F)) :
    after lay3 V (Proc.devRef .tc main_v295)
      = refLayer (refEa1_3 (V (Proc.devRef .tc main_arg1))) (refEa2_3 (V (Proc.devRef .tc main_arg2)))
          (refW1_3 (V (Proc.devRef .tc main_arg3))) (refB1_3 (V (Proc.devRef .tc main_arg4)))
          (refW2_3 (V (Proc.devRef .tc main_arg5))) (refB2_3 (V (Proc.devRef .tc main_arg6)))
          (refGamma_3 (V (Proc.devRef .tc main_arg7))) (refBeta_3 (V (Proc.devRef .tc main_arg8)))
          (V (Proc.devRef .tc main_v1)) (V (Proc.devRef .tc main_v3)) (V (Proc.devRef .tc main_v5)) (V (Proc.devRef .tc main_v7))
          (V (Proc.devRef .tc main_v223)) := by
  simp only [after_append]
  after_results_simp
  rfl

end Cert.ReferenceIdeal.Hand

end
-- ==== Proof.Ref.Lay4.lean ====
import proofs.«409348_j89627377533173_1_alg».proof.Proof.Ref.Ops5
import proofs.«409348_j89627377533173_1_alg».proof.Proof.Ref.Ops6
import proofs.«409348_j89627377533173_1_alg».proof.Proof.Ref.Ops7
import proofs.«409348_j89627377533173_1_alg».proof.Proof.Ref.Terms

/-! Layer 4 of the reference: the stretch of @main from the first slice of the layer's parameters to its `@relu_0` result.
Its result is the one generic layer `refLayer` at layer 4's slices of the stacked parameters, the edge columns and the
features it starts from, each read where the stretch starts; every reference it does not write keeps its contents. -/

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Layer 4's operations. -/
abbrev lay4 : List (HloOp τ sig (Elt F)) := seg10 ++ seg11 ++ seg12

/-- The references layer 4 writes. -/
abbrev lay4_W : List (Ref sig .tc) := seg10_W ++ seg11_W ++ seg12_W

theorem lay4_writes : (lay4 : List (HloOp τ sig (Elt F))).Forall fun op => op.writes ⊆ (lay4_W.map (Proc.devRef (τ := τ) .tc)).toFinset :=
  writes_append (writes_append (seg10_writes) seg11_writes) seg12_writes

/-- A reference layer 4 does not write keeps its contents across it. -/
theorem lay4_frame (V : Valuation τ sig (Elt F)) {r : Ref sig .tc} (hr : r ∉ lay4_W) :
    after lay4 V (Proc.devRef .tc r) = V (Proc.devRef .tc r) :=
  after_of_writes_sub lay4 V lay4_writes hr

-- the fold over the layer's operations is unrolled and each result read at its own buffer in one pass; the term left is
-- `refLayer`'s body at these operands, the typed references' casts the identity at literal references
set_option maxRecDepth 8192 in
set_option maxHeartbeats 4000000 in
/-- Layer 4's result, from any contents `V`: `refLayer` of the layer's slices of the parameters, the edge columns and the
    features, all read from `V`. -/
theorem lay4_value (V : Valuation τ sig (Elt F)) :
    after lay4 V (Proc.devRef .tc main_v367)
      = refLayer (refEa1_4 (V (Proc.devRef .tc main_arg1))) (refEa2_4 (V (Proc.devRef .tc main_arg2)))
          (refW1_4 (V (Proc.devRef .tc main_arg3))) (refB1_4 (V (Proc.devRef .tc main_arg4)))
          (refW2_4 (V (Proc.devRef .tc main_arg5))) (refB2_4 (V (Proc.devRef .tc main_arg6)))
          (refGamma_4 (V (Proc.devRef .tc main_arg7))) (refBeta_4 (V (Proc.devRef .tc main_arg8)))
          (V (Proc.devRef .tc main_v1)) (V (Proc.devRef .tc main_v3)) (V (Proc.devRef .tc main_v5)) (V (Proc.devRef .tc main_v7))
          (V (Proc.devRef .tc main_v295)) := by
  simp only [after_append]
  after_results_simp
  rfl

end Cert.ReferenceIdeal.Hand

end
-- ==== Proof.Ref.Pool.lean ====
import proofs.«409348_j89627377533173_1_alg».proof.Proof.Ref.Ops7
import proofs.«409348_j89627377533173_1_alg».proof.Proof.Ref.Terms

/-! The last stretch of the reference's @main: the mean pool of the node features per graph id. Its result is `refPool` of
the graph ids and the features read where the stretch starts; every reference it does not write keeps its contents. -/

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The pool's operations. -/
abbrev pool : List (HloOp τ sig (Elt F)) := seg13

/-- The references they write. -/
abbrev pool_W : List (Ref sig .tc) := seg13_W

/-- A reference the pool does not write keeps its contents across it. -/
theorem pool_frame (V : Valuation τ sig (Elt F)) {r : Ref sig .tc} (hr : r ∉ pool_W) :
    after pool V (Proc.devRef .tc r) = V (Proc.devRef .tc r) :=
  after_of_writes_sub pool V seg13_writes hr

/-- The pool's result, from any contents `V`. -/
theorem pool_value (V : Valuation τ sig (Elt F)) :
    after pool V (Proc.devRef .tc main_v379) = refPool (V (Proc.devRef .tc main_arg11)) (V (Proc.devRef .tc main_v367)) := by
  after_results_simp
  rfl

end Cert.ReferenceIdeal.Hand

end
-- ==== Proof.Ref.Run.lean ====
import proofs.«409348_j89627377533173_1_alg».proof.Proof.Ref.Part0
import proofs.«409348_j89627377533173_1_alg».proof.Proof.Ref.Part1
import proofs.«409348_j89627377533173_1_alg».proof.Proof.Ref.Part2
import proofs.«409348_j89627377533173_1_alg».proof.Proof.Ref.Part3
import proofs.«409348_j89627377533173_1_alg».proof.Proof.Ref.Part4
import proofs.«409348_j89627377533173_1_alg».proof.Proof.Ref.Part5
import proofs.«409348_j89627377533173_1_alg».proof.Proof.Ref.Part6
import proofs.«409348_j89627377533173_1_alg».proof.Proof.Ref.Part7
import proofs.«409348_j89627377533173_1_alg».proof.Proof.Ref.Pro
import proofs.«409348_j89627377533173_1_alg».proof.Proof.Ref.Lay0
import proofs.«409348_j89627377533173_1_alg».proof.Proof.Ref.Lay1
import proofs.«409348_j89627377533173_1_alg».proof.Proof.Ref.Lay2
import proofs.«409348_j89627377533173_1_alg».proof.Proof.Ref.Lay3
import proofs.«409348_j89627377533173_1_alg».proof.Proof.Ref.Lay4
import proofs.«409348_j89627377533173_1_alg».proof.Proof.Ref.Pool
import Idealize.ShloMosaic.PureOps.Ideal

/-! The reference's run. @main is its eight windows in a row, each a straight line of host operations (Ref/Part0 … Part7), so
@main is one straight line and the library's `run_seq` gives every buffer's final contents as the fold `after` of the
operations over the launch contents. The same line regrouped by what it computes — the edge columns, the five layers, the
pool — is read stretch by stretch: each stretch leaves the twelve arguments and the four edge columns as they were (it writes
none of them) and takes the node features from `refHK` to `refH(K+1)` (Ref/LayK's value at the contents the stretch starts
from). So the two results end at `out1` and `out2` of Ref/Terms.lean and the arguments end unchanged. -/

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## @main is one straight line -/

/-- @main's operations: the eight windows' in a row. -/
abbrev allOps : List (HloOp τ sig (Elt F)) := ops0 ++ (ops1 ++ (ops2 ++ (ops3 ++ (ops4 ++ (ops5 ++ (ops6 ++ ops7))))))

/-- Eight lines run one after the other are their concatenation run as one. -/
theorem seq8 (o0 o1 o2 o3 o4 o5 o6 o7 : List (HloOp τ sig (Elt F))) :
    (seq (o0 ++ (o1 ++ (o2 ++ (o3 ++ (o4 ++ (o5 ++ (o6 ++ o7))))))) : Prog (TpuEff nD τ sig (Elt F) (Pipeline.Sig Λ₀ (Fin 0) fun p => (pcfgs (F := F) p).Adm) .tc) PUnit)
      = seq o0 >>= fun _ => seq o1 >>= fun _ => seq o2 >>= fun _ => seq o3 >>= fun _ => seq o4 >>= fun _ => seq o5 >>= fun _ => seq o6 >>= fun _ => seq o7 := by
  simp only [seq_append]

/-- @main is that line: its windows are (Ref/Part0 … Part7), and it runs them in order. -/
theorem main_eq (c : Dev nD) : main (F := F) c = seq allOps := by
  show main (F := F) c = seq (ops0 ++ (ops1 ++ (ops2 ++ (ops3 ++ (ops4 ++ (ops5 ++ (ops6 ++ ops7)))))))
  rw [seq8, ← part0_eq c, ← part1_eq c, ← part2_eq c, ← part3_eq c, ← part4_eq c, ← part5_eq c, ← part6_eq c, ← part7_eq c]
  rfl

theorem allOps_sub : (allOps : List (HloOp τ sig (Elt F))).Forall fun op => op.bufs ⊆ tcRefs τ sig :=
  List.forall_append.2 ⟨ops0_sub, List.forall_append.2 ⟨ops1_sub, List.forall_append.2 ⟨ops2_sub, List.forall_append.2 ⟨ops3_sub,
    List.forall_append.2 ⟨ops4_sub, List.forall_append.2 ⟨ops5_sub, List.forall_append.2 ⟨ops6_sub, ops7_sub⟩⟩⟩⟩⟩⟩⟩

theorem allOps_fresh : ∀ op ∈ (allOps : List (HloOp τ sig (Elt F))), op.fresh = ∅ := fun op h =>
  (List.mem_append.1 h).elim (ops0_fresh op) fun h => (List.mem_append.1 h).elim (ops1_fresh op) fun h =>
  (List.mem_append.1 h).elim (ops2_fresh op) fun h => (List.mem_append.1 h).elim (ops3_fresh op) fun h =>
  (List.mem_append.1 h).elim (ops4_fresh op) fun h => (List.mem_append.1 h).elim (ops5_fresh op) fun h =>
  (List.mem_append.1 h).elim (ops6_fresh op) (ops7_fresh op)

theorem scopedRefs_eq : (Finset.univ.filter fun b : Ref sig .tc => b.isScoped) = ∅ := by decide
theorem scopedSems_eq : (Finset.univ.filter fun sm : SemLoc sig => sm.isScoped .tc) = ∅ := by decide

/-! ## The same line, stretch by stretch -/

/-- The windows in a row are the stretches in a row: both are the fourteen segments in order. -/
theorem allOps_eq : (allOps : List (HloOp τ sig (Elt F))) = pro ++ (lay0 ++ (lay1 ++ (lay2 ++ (lay3 ++ (lay4 ++ pool))))) := by
  simp only [allOps, ops0, ops1, ops2, ops3, ops4, ops5, ops6, ops7, pro, lay0, lay1, lay2, lay3, lay4, pool, List.append_assoc]

/-- The fold over seven stretches in a row, one stretch at a time. -/
theorem after7 (l0 l1 l2 l3 l4 l5 l6 : List (HloOp τ sig (Elt F))) (V : Valuation τ sig (Elt F)) :
    after (l0 ++ (l1 ++ (l2 ++ (l3 ++ (l4 ++ (l5 ++ l6)))))) V
      = after l6 (after l5 (after l4 (after l3 (after l2 (after l1 (after l0 V)))))) := by
  simp only [after_append]

/-- The references every stretch after the first reads and none writes: the arguments and the four edge columns. -/
abbrev keep : List (Ref sig .tc) :=
  [main_arg0, main_arg1, main_arg2, main_arg3, main_arg4, main_arg5, main_arg6, main_arg7, main_arg8, main_arg9, main_arg10, main_arg11,
   main_v1, main_v3, main_v5, main_v7]

theorem keep_pro : ∀ r ∈ [main_arg0, main_arg1, main_arg2, main_arg3, main_arg4, main_arg5, main_arg6, main_arg7, main_arg8, main_arg9, main_arg10, main_arg11], r ∉ pro_W := by decide
theorem keep_lay0 : ∀ r ∈ keep, r ∉ lay0_W := by decide
theorem keep_lay1 : ∀ r ∈ keep, r ∉ lay1_W := by decide
theorem keep_lay2 : ∀ r ∈ keep, r ∉ lay2_W := by decide
theorem keep_lay3 : ∀ r ∈ keep, r ∉ lay3_W := by decide
theorem keep_lay4 : ∀ r ∈ keep, r ∉ lay4_W := by decide
theorem keep_pool : ∀ r ∈ keep, r ∉ pool_W := by decide

/-- What every stretch after the first starts from and leaves: the twelve arguments at their launch contents and the four
    edge columns at their terms of the arguments. -/
structure Inv (m : (ℓ : Loc nD τ sig) → Buf (Elt F) ℓ) (c : Dev nD) (V : Valuation τ sig (Elt F)) : Prop where
  a0 : V (Proc.devRef .tc main_arg0) = m ((c.tc : Thread nD τ).loc main_arg0)
  a1 : V (Proc.devRef .tc main_arg1) = m ((c.tc : Thread nD τ).loc main_arg1)
  a2 : V (Proc.devRef .tc main_arg2) = m ((c.tc : Thread nD τ).loc main_arg2)
  a3 : V (Proc.devRef .tc main_arg3) = m ((c.tc : Thread nD τ).loc main_arg3)
  a4 : V (Proc.devRef .tc main_arg4) = m ((c.tc : Thread nD τ).loc main_arg4)
  a5 : V (Proc.devRef .tc main_arg5) = m ((c.tc : Thread nD τ).loc main_arg5)
  a6 : V (Proc.devRef .tc main_arg6) = m ((c.tc : Thread nD τ).loc main_arg6)
  a7 : V (Proc.devRef .tc main_arg7) = m ((c.tc : Thread nD τ).loc main_arg7)
  a8 : V (Proc.devRef .tc main_arg8) = m ((c.tc : Thread nD τ).loc main_arg8)
  a9 : V (Proc.devRef .tc main_arg9) = m ((c.tc : Thread nD τ).loc main_arg9)
  a10 : V (Proc.devRef .tc main_arg10) = m ((c.tc : Thread nD τ).loc main_arg10)
  a11 : V (Proc.devRef .tc main_arg11) = m ((c.tc : Thread nD τ).loc main_arg11)
  src : V (Proc.devRef .tc main_v1) = refSrc (m ((c.tc : Thread nD τ).loc main_arg9))
  dst : V (Proc.devRef .tc main_v3) = refDst (m ((c.tc : Thread nD τ).loc main_arg9))
  e0 : V (Proc.devRef .tc main_v5) = refE0 (m ((c.tc : Thread nD τ).loc main_arg10))
  e1 : V (Proc.devRef .tc main_v7) = refE1 (m ((c.tc : Thread nD τ).loc main_arg10))

/-- Contents that agree with others on the persistent references satisfy the same. -/
theorem Inv.of_frame {m : (ℓ : Loc nD τ sig) → Buf (Elt F) ℓ} {c : Dev nD} {V V' : Valuation τ sig (Elt F)}
    (h : ∀ r ∈ keep, V' (Proc.devRef .tc r) = V (Proc.devRef .tc r)) (hI : Inv m c V) : Inv m c V' where
  a0 := (h main_arg0 (by decide)).trans hI.a0
  a1 := (h main_arg1 (by decide)).trans hI.a1
  a2 := (h main_arg2 (by decide)).trans hI.a2
  a3 := (h main_arg3 (by decide)).trans hI.a3
  a4 := (h main_arg4 (by decide)).trans hI.a4
  a5 := (h main_arg5 (by decide)).trans hI.a5
  a6 := (h main_arg6 (by decide)).trans hI.a6
  a7 := (h main_arg7 (by decide)).trans hI.a7
  a8 := (h main_arg8 (by decide)).trans hI.a8
  a9 := (h main_arg9 (by decide)).trans hI.a9
  a10 := (h main_arg10 (by decide)).trans hI.a10
  a11 := (h main_arg11 (by decide)).trans hI.a11
  src := (h main_v1 (by decide)).trans hI.src
  dst := (h main_v3 (by decide)).trans hI.dst
  e0 := (h main_v5 (by decide)).trans hI.e0
  e1 := (h main_v7 (by decide)).trans hI.e1

/-- After the edge columns' stretch, from the launch contents. -/
theorem inv_pro (m : (ℓ : Loc nD τ sig) → Buf (Elt F) ℓ) (c : Dev nD) : Inv m c (after pro (launchContents m c)) where
  a0 := pro_frame _ (keep_pro main_arg0 (by decide))
  a1 := pro_frame _ (keep_pro main_arg1 (by decide))
  a2 := pro_frame _ (keep_pro main_arg2 (by decide))
  a3 := pro_frame _ (keep_pro main_arg3 (by decide))
  a4 := pro_frame _ (keep_pro main_arg4 (by decide))
  a5 := pro_frame _ (keep_pro main_arg5 (by decide))
  a6 := pro_frame _ (keep_pro main_arg6 (by decide))
  a7 := pro_frame _ (keep_pro main_arg7 (by decide))
  a8 := pro_frame _ (keep_pro main_arg8 (by decide))
  a9 := pro_frame _ (keep_pro main_arg9 (by decide))
  a10 := pro_frame _ (keep_pro main_arg10 (by decide))
  a11 := pro_frame _ (keep_pro main_arg11 (by decide))
  src := pro_src _
  dst := pro_dst _
  e0 := pro_e0 _
  e1 := pro_e1 _

/-- Layer 0: the persistent references as before, the features at `refH1`. -/
theorem step0 {m : (ℓ : Loc nD τ sig) → Buf (Elt F) ℓ} {c : Dev nD} {V : Valuation τ sig (Elt F)} (hI : Inv m c V) :
    Inv m c (after lay0 V) ∧ after lay0 V (Proc.devRef .tc main_v79) = refH1 m c :=
  ⟨hI.of_frame fun r hr => lay0_frame V (keep_lay0 r hr), by
    rw [lay0_value, hI.a1, hI.a2, hI.a3, hI.a4, hI.a5, hI.a6, hI.a7, hI.a8, hI.src, hI.dst, hI.e0, hI.e1, hI.a0]
    rfl⟩

/-- Layer 1: the persistent references as before, the features at `refH2`. -/
theorem step1 {m : (ℓ : Loc nD τ sig) → Buf (Elt F) ℓ} {c : Dev nD} {V : Valuation τ sig (Elt F)} (hI : Inv m c V)
    (hH : V (Proc.devRef .tc main_v79) = refH1 m c) :
    Inv m c (after lay1 V) ∧ after lay1 V (Proc.devRef .tc main_v151) = refH2 m c :=
  ⟨hI.of_frame fun r hr => lay1_frame V (keep_lay1 r hr), by
    rw [lay1_value, hI.a1, hI.a2, hI.a3, hI.a4, hI.a5, hI.a6, hI.a7, hI.a8, hI.src, hI.dst, hI.e0, hI.e1, hH]
    rfl⟩

/-- Layer 2: the persistent references as before, the features at `refH3`. -/
theorem step2 {m : (ℓ : Loc nD τ sig) → Buf (Elt F) ℓ} {c : Dev nD} {V : Valuation τ sig (Elt F)} (hI : Inv m c V)
    (hH : V (Proc.devRef .tc main_v151) = refH2 m c) :
    Inv m c (after lay2 V) ∧ after lay2 V (Proc.devRef .tc main_v223) = refH3 m c :=
  ⟨hI.of_frame fun r hr => lay2_frame V (keep_lay2 r hr), by
    rw [lay2_value, hI.a1, hI.a2, hI.a3, hI.a4, hI.a5, hI.a6, hI.a7, hI.a8, hI.src, hI.dst, hI.e0, hI.e1, hH]
    rfl⟩

/-- Layer 3: the persistent references as before, the features at `refH4`. -/
theorem step3 {m : (ℓ : Loc nD τ sig) → Buf (Elt F) ℓ} {c : Dev nD} {V : Valuation τ sig (Elt F)} (hI : Inv m c V)
    (hH : V (Proc.devRef .tc main_v223) = refH3 m c) :
    Inv m c (after lay3 V) ∧ after lay3 V (Proc.devRef .tc main_v295) = refH4 m c :=
  ⟨hI.of_frame fun r hr => lay3_frame V (keep_lay3 r hr), by
    rw [lay3_value, hI.a1, hI.a2, hI.a3, hI.a4, hI.a5, hI.a6, hI.a7, hI.a8, hI.src, hI.dst, hI.e0, hI.e1, hH]
    rfl⟩

/-- Layer 4: the persistent references as before, the features at `refH5`. -/
theorem step4 {m : (ℓ : Loc nD τ sig) → Buf (Elt F) ℓ} {c : Dev nD} {V : Valuation τ sig (Elt F)} (hI : Inv m c V)
    (hH : V (Proc.devRef .tc main_v295) = refH4 m c) :
    Inv m c (after lay4 V) ∧ after lay4 V (Proc.devRef .tc main_v367) = refH5 m c :=
  ⟨hI.of_frame fun r hr => lay4_frame V (keep_lay4 r hr), by
    rw [lay4_value, hI.a1, hI.a2, hI.a3, hI.a4, hI.a5, hI.a6, hI.a7, hI.a8, hI.src, hI.dst, hI.e0, hI.e1, hH]
    rfl⟩

/-- The pool leaves the features where they are. -/
theorem v367_pool : main_v367 ∉ pool_W := by decide

/-- The whole line from the launch contents: the arguments unchanged, the two results at `out1` and `out2`. -/
theorem after_allOps (m : (ℓ : Loc nD τ sig) → Buf (Elt F) ℓ) (c : Dev nD) :
    Inv m c (after allOps (launchContents m c))
      ∧ after allOps (launchContents m c) (Proc.devRef .tc main_v367) = out1 m c
      ∧ after allOps (launchContents m c) (Proc.devRef .tc main_v379) = out2 m c := by
  rw [allOps_eq, after7]
  obtain ⟨h1, v1⟩ := step0 (inv_pro m c)
  obtain ⟨h2, v2⟩ := step1 h1 v1
  obtain ⟨h3, v3⟩ := step2 h2 v2
  obtain ⟨h4, v4⟩ := step3 h3 v3
  obtain ⟨h5, v5⟩ := step4 h4 v4
  refine ⟨h5.of_frame fun r hr => pool_frame _ (keep_pool r hr), (pool_frame _ v367_pool).trans v5, ?_⟩
  rw [pool_value, h5.a11, v5]
  rfl

/-! ## The run -/

/-- On every device, for any float values, from any memory with zero counters: every weakly fair execution of @main terminates
    with `main_v367` at `out1` (the node features after the five layers), `main_v379` at `out2` (their mean pool) and the
    twelve arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v367) = out1 m c
      ∧ r.2.mem ((c.tc : Thread nD τ).loc main_v379) = out2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => by
      obtain ⟨hI, h1, h2⟩ := after_allOps m c
      exact ⟨(h c main_v367).trans h1, (h c main_v379).trans h2, (h c main_arg0).trans hI.a0, (h c main_arg1).trans hI.a1, (h c main_arg2).trans hI.a2, (h c main_arg3).trans hI.a3, (h c main_arg4).trans hI.a4, (h c main_arg5).trans hI.a5, (h c main_arg6).trans hI.a6, (h c main_arg7).trans hI.a7, (h c main_arg8).trans hI.a8, (h c main_arg9).trans hI.a9, (h c main_arg10).trans hI.a10, (h c main_arg11).trans hI.a11⟩)
    (run_seq scopedRefs_eq scopedSems_eq defs main (fun _ => allOps) main_eq (fun _ => allOps_sub) m ρ (fun _ => allOps_fresh))

/-- The frame of the reference at the ideal instance: it runs (terminates, no fault) and its twelve argument arrays end
    unchanged. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run _ _ _).mono (fun _ h c => (h c).2.2) (run m g)

end Cert.ReferenceIdeal.Hand

end
-- ==== Proof.Spec.lean ====
/-
  The mathematics of one GIN layer and of the mean pool, stated once over literal shapes and the extended reals,
  with no program in sight: both programs' results are shown to be these functions of the argument arrays.

  A layer takes node features h (50000 x 300) and the aggregated messages agg (same shape) and computes
    z  = relu((agg + h) W1 + b1) W2 + b2,
  then normalises every column of z by its mean and (biased) variance over the 50000 rows, scales, shifts and
  clips at zero.  The pool sums the rows of h that carry a given graph id and counts them.
-/
import Idealize.ShloMosaic.PureOps.Ideal
import Idealize.ShloMosaic.Lib.ValueIdx

noncomputable section

open scoped BigOperators

namespace Cert.Spec

open Idealize.ShloMosaic Idealize.ShloMosaic.ValueIdx

/-- nodes x embedding -/
abbrev SNE : Shape := ⟨2, ![50000, 300]⟩
/-- nodes x hidden -/
abbrev SNH : Shape := ⟨2, ![50000, 600]⟩
/-- first weight matrix -/
abbrev SEH : Shape := ⟨2, ![300, 600]⟩
/-- second weight matrix -/
abbrev SHE : Shape := ⟨2, ![600, 300]⟩
/-- a row over the hidden axis -/
abbrev S1H : Shape := ⟨2, ![1, 600]⟩
/-- a row over the embedding axis -/
abbrev S1E : Shape := ⟨2, ![1, 300]⟩
/-- graphs x embedding -/
abbrev SGE : Shape := ⟨2, ![512, 300]⟩
/-- graphs x 1 -/
abbrev SG1 : Shape := ⟨2, ![512, 1]⟩
/-- nodes x 1 -/
abbrev SN1 : Shape := ⟨2, ![50000, 1]⟩

/-- The hidden activations: row n of (agg + h) times W1, plus the bias, clipped at zero. -/
def hid (agg h : SNE.Idx → EReal) (w1 : SEH.Idx → EReal) (b1 : S1H.Idx → EReal) : SNH.Idx → EReal :=
  fun j => max ((∑ k : Fin 300, (agg (ix2 (j 0) k) + h (ix2 (j 0) k)) * w1 (ix2 k (j 1))) + b1 (ix2 0 (j 1))) 0

/-- The layer's pre-normalisation output: the hidden activations times W2, plus the bias. -/
def mlpZ (agg h : SNE.Idx → EReal) (w1 : SEH.Idx → EReal) (b1 : S1H.Idx → EReal) (w2 : SHE.Idx → EReal)
    (b2 : S1E.Idx → EReal) : SNE.Idx → EReal :=
  fun j => (∑ k : Fin 600, hid agg h w1 b1 (ix2 (j 0) k) * w2 (ix2 k (j 1))) + b2 (ix2 0 (j 1))

/-- Column sums over the 50000 rows. -/
def colSum (z : SNE.Idx → EReal) : S1E.Idx → EReal := fun j => ∑ n : Fin 50000, z (ix2 n (j 1))

/-- Column sums of squares over the 50000 rows. -/
def colSumSq (z : SNE.Idx → EReal) : S1E.Idx → EReal := fun j => ∑ n : Fin 50000, z (ix2 n (j 1)) * z (ix2 n (j 1))

/-- Normalise by a given mean and variance (with the stabiliser eps under the root), scale, shift, clip at zero. -/
def bnRelu (z : SNE.Idx → EReal) (mean var gamma beta : S1E.Idx → EReal) (eps : EReal) : SNE.Idx → EReal :=
  fun j => max ((z j - mean (ix2 0 (j 1))) * Ideal.rsqrt (var (ix2 0 (j 1)) + eps) * gamma (ix2 0 (j 1))
    + beta (ix2 0 (j 1))) 0

/-- Row n belongs to graph g when its id word is g. -/
def member (batch : SN1.Idx → BitVec 32) (n : Fin 50000) (g : Fin 512) : EReal :=
  if batch (ix2 n 0) = BitVec.ofNat 32 g.val then 1 else 0

/-- Per graph, the sum of its rows. -/
def poolSums (h : SNE.Idx → EReal) (batch : SN1.Idx → BitVec 32) : SGE.Idx → EReal :=
  fun j => ∑ n : Fin 50000, member batch n (j 0) * h (ix2 n (j 1))

/-- Per graph, the number of its rows. -/
def poolCounts (batch : SN1.Idx → BitVec 32) : SG1.Idx → EReal :=
  fun j => ∑ n : Fin 50000, member batch n (j 0)

end Cert.Spec

end
-- ==== Proof.KI.ValPool10.lean ====
/-
  The pool region's results as functions of the arrays it is entered with, over the extended reals.
  At a point the body adds to each accumulator entry (g, e) the sum, over the 2000 rows r of the point's blocks, of
  [id r = g] * h (r, e)  (with 1 in place of h for the counts): the one-hot entry is the compare of the id word with
  the lane index, widened and converted, so it is 1 or 0, and the matrix product contracts both operands' row axis.
  Over the 25 points the rows run through all 50000 (row 2000 t + r at point t), and extended-real addition is
  commutative and associative, so the accumulators end at the sums over all rows.
-/
import proofs.«409348_j89627377533173_1_alg».proof.Proof.KI.RegPool10
import proofs.«409348_j89627377533173_1_alg».proof.Proof.Spec
import Idealize.ShloMosaic.PureOps.Ideal
import Idealize.ShloMosaic.PureOps.Ideal.Laws
import Idealize.ShloMosaic.Lib.Pipeline.Value
import Idealize.ShloMosaic.Lib.ValueIdx
import Idealize.ShloMosaic.Lib.IdealHost

set_option maxRecDepth 16384

noncomputable section

open scoped BigOperators

namespace Cert.KernelIdeal.HandV

open Cert.KernelIdeal Cert.KernelIdeal.Gen
open Idealize.ShloMosaic Idealize.ShloMosaic.TcCoe Idealize.SL.Sem Idealize.ShloMosaic.ValueIdx
open Idealize.ShloMosaic.Pipeline (Dat)

/-! ## The two matrix products' operand indices -/

theorem lhs10s_0 (j : S512x300.Idx) (k : dot_S2000x512_S2000x300_S512x300_0_0_1_1_n_n.contr.Idx) :
    (dot_S2000x512_S2000x300_S512x300_0_0_1_1_n_n.lhsIdx j k 0 : ℕ) = k ⟨0, by decide⟩ := by
  simp [DotDims.lhsIdx, dot_S2000x512_S2000x300_S512x300_0_0_1_1_n_n]; rfl
theorem lhs10s_1 (j : S512x300.Idx) (k : dot_S2000x512_S2000x300_S512x300_0_0_1_1_n_n.contr.Idx) :
    (dot_S2000x512_S2000x300_S512x300_0_0_1_1_n_n.lhsIdx j k 1 : ℕ) = j 0 := by
  simp [DotDims.lhsIdx, dot_S2000x512_S2000x300_S512x300_0_0_1_1_n_n]; rfl
theorem rhs10s_0 (j : S512x300.Idx) (k : dot_S2000x512_S2000x300_S512x300_0_0_1_1_n_n.contr.Idx) :
    (dot_S2000x512_S2000x300_S512x300_0_0_1_1_n_n.rhsIdx j k 0 : ℕ) = k ⟨0, by decide⟩ := by
  simp [DotDims.rhsIdx, dot_S2000x512_S2000x300_S512x300_0_0_1_1_n_n]; rfl
theorem rhs10s_1 (j : S512x300.Idx) (k : dot_S2000x512_S2000x300_S512x300_0_0_1_1_n_n.contr.Idx) :
    (dot_S2000x512_S2000x300_S512x300_0_0_1_1_n_n.rhsIdx j k 1 : ℕ) = j 1 := by
  simp [DotDims.rhsIdx, dot_S2000x512_S2000x300_S512x300_0_0_1_1_n_n]; rfl

theorem lhs10c_0 (j : S512x1.Idx) (k : dot_S2000x512_S2000x1_S512x1_0_0_1_1_n_n.contr.Idx) :
    (dot_S2000x512_S2000x1_S512x1_0_0_1_1_n_n.lhsIdx j k 0 : ℕ) = k ⟨0, by decide⟩ := by
  simp [DotDims.lhsIdx, dot_S2000x512_S2000x1_S512x1_0_0_1_1_n_n]; rfl
theorem lhs10c_1 (j : S512x1.Idx) (k : dot_S2000x512_S2000x1_S512x1_0_0_1_1_n_n.contr.Idx) :
    (dot_S2000x512_S2000x1_S512x1_0_0_1_1_n_n.lhsIdx j k 1 : ℕ) = j 0 := by
  simp [DotDims.lhsIdx, dot_S2000x512_S2000x1_S512x1_0_0_1_1_n_n]; rfl

/-! ## The one-hot entry -/

/-- A compare of two words, widened without sign and converted, is 1 where they agree and 0 elsewhere. -/
theorem onehot_word10 (x y : BitVec 32) :
    ((((IntOp.cmpi .eq x y).setWidth 32).toInt : ℝ) : EReal) = if x = y then 1 else 0 := by
  by_cases h : x = y
  · subst h; simp [IntOp.cmpi]
  · have hb : (x == y) = false := by simp [h]
    simp [IntOp.cmpi, hb, h]

/-- Entry (r, g) of the one-hot of an ids block: whether row r's id word is g. -/
theorem onehot10_apply (x1 : Vec Ideal S2000x1 .i32) (r : Fin 2000) (g : Fin 512) :
    k10_pay3 (F := Ideal) x1 (ix2 r g) = if x1 (ix2 r 0) = BitVec.ofNat 32 g.val then 1 else 0 := by
  have e6 : broadcastTo S2000x512 (shapeCast S2000x1 x1 shapeCasts_S2000x1_S2000x1) broadcasts_S2000x1_S2000x512 (ix2 r g) = x1 (ix2 r 0) := by
    rw [broadcastTo_apply _ _ (ix2 r g) (ix2 r (0 : Fin 1)) (by intro a; match a with | ⟨0, _⟩ => rfl | ⟨1, _⟩ => rfl), shapeCast_self]
  have e7 : broadcastTo S2000x512 (iota .tc S1x512 32 [1] iota_S1x512_d1_w32) broadcasts_S1x512_S2000x512 (ix2 r g) = BitVec.ofNat 32 g.val := by
    rw [broadcastTo_apply _ _ (ix2 r g) (ix2 (0 : Fin 1) g) (by intro a; match a with | ⟨0, _⟩ => rfl | ⟨1, _⟩ => rfl), iota_single_apply]
  unfold k10_pay3
  show ((((IntOp.cmpi .eq (broadcastTo S2000x512 (shapeCast S2000x1 x1 shapeCasts_S2000x1_S2000x1) broadcasts_S2000x1_S2000x512 (ix2 r g))
      (broadcastTo S2000x512 (iota .tc S1x512 32 [1] iota_S1x512_d1_w32) broadcasts_S1x512_S2000x512 (ix2 r g))).setWidth 32).toInt : ℝ) : EReal) = _
  rw [e6, e7]
  exact onehot_word10 _ _

/-! ## The payloads at an index -/

/-- The sums accumulator after a point: what it held plus, over the block's rows, the one-hot entry times the feature. -/
theorem pay4_apply10 (x1 : Vec Ideal S2000x1 .i32) (x0 : Vec Ideal S2000x300 .f32) (a : Vec Ideal S512x300 .f32) (g : Fin 512) (e : Fin 300) :
    k10_pay4 (F := Ideal) x1 x0 a (ix2 g e)
      = (a (ix2 g e) : EReal) + ∑ r : Fin 2000, (if x1 (ix2 r 0) = BitVec.ofNat 32 g.val then (1 : EReal) else 0) * x0 (ix2 r e) := by
  unfold k10_pay4
  rw [shapeCast_self, addf_apply]
  refine congrArg ((a (ix2 g e) : EReal) + ·) ?_
  simp only [matmul]
  rw [Ideal.matmul_constant_zero_apply,
    ← Equiv.sum_comp (contrEquiv1 dot_S2000x512_S2000x300_S512x300_0_0_1_1_n_n 2000 rfl rfl).symm]
  refine Finset.sum_congr rfl fun r _ => ?_
  have hl : dot_S2000x512_S2000x300_S512x300_0_0_1_1_n_n.lhsIdx (ix2 g e) ((contrEquiv1 dot_S2000x512_S2000x300_S512x300_0_0_1_1_n_n 2000 rfl rfl).symm r) = ix2 r g :=
    Shape.idx_ext₂ ((lhs10s_0 _ _).trans (contrEquiv1_symm_val _ 2000 rfl rfl r)) (lhs10s_1 _ _)
  have hr : dot_S2000x512_S2000x300_S512x300_0_0_1_1_n_n.rhsIdx (ix2 g e) ((contrEquiv1 dot_S2000x512_S2000x300_S512x300_0_0_1_1_n_n 2000 rfl rfl).symm r) = ix2 r e :=
    Shape.idx_ext₂ ((rhs10s_0 _ _).trans (contrEquiv1_symm_val _ 2000 rfl rfl r)) (rhs10s_1 _ _)
  rw [hl, hr, onehot10_apply, truncf_apply, shapeCast_self]

/-- The counts accumulator after a point: what it held plus the number of the block's rows whose id is g. -/
theorem pay5_apply10 (x1 : Vec Ideal S2000x1 .i32) (n : Vec Ideal S512x1 .f32) (g : Fin 512) :
    k10_pay5 (F := Ideal) x1 n (ix2 g 0)
      = (n (ix2 g 0) : EReal) + ∑ r : Fin 2000, (if x1 (ix2 r 0) = BitVec.ofNat 32 g.val then (1 : EReal) else 0) := by
  unfold k10_pay5
  rw [shapeCast_self, addf_apply]
  refine congrArg ((n (ix2 g 0) : EReal) + ·) ?_
  simp only [matmul]
  rw [Ideal.matmul_constant_zero_apply,
    ← Equiv.sum_comp (contrEquiv1 dot_S2000x512_S2000x1_S512x1_0_0_1_1_n_n 2000 rfl rfl).symm]
  refine Finset.sum_congr rfl fun r _ => ?_
  have hl : dot_S2000x512_S2000x1_S512x1_0_0_1_1_n_n.lhsIdx (ix2 g (0 : Fin 1)) ((contrEquiv1 dot_S2000x512_S2000x1_S512x1_0_0_1_1_n_n 2000 rfl rfl).symm r) = ix2 r g :=
    Shape.idx_ext₂ ((lhs10c_0 _ _).trans (contrEquiv1_symm_val _ 2000 rfl rfl r)) (lhs10c_1 _ _)
  rw [hl, onehot10_apply, broadcast_apply]
  show _ * Ideal.ofBits .bf16 0x3F80#16 = _
  rw [Ideal.ofBits_one_bf16, mul_one]

/-- The zeros both accumulators are reset to. -/
theorem pay1_apply10 (j : S512x300.Idx) : k10_pay1 (F := Ideal) j = 0 := by
  unfold k10_pay1; rw [shapeCast_self, broadcast_apply]; exact Ideal.ofBits_zero_f32
theorem pay2_apply10 (j : S512x1.Idx) : k10_pay2 (F := Ideal) j = 0 := by
  unfold k10_pay2; rw [shapeCast_self, broadcast_apply]; exact Ideal.ofBits_zero_f32

/-! ## The rows of the 25 blocks are the array's 50000 rows -/

/-- Block `t`'s row `r` is the array's row `2000 t + r`. -/
def rows10 : Fin 25 × Fin 2000 ≃ Fin 50000 := finProdFinEquiv.trans (finCongr (by norm_num))

theorem sum_rows10 {M : Type*} [AddCommMonoid M] (f : Fin 50000 → M) :
    ∑ n : Fin 50000, f n
      = ∑ t : Fin 25, ∑ r : Fin 2000, f ⟨2000 * t.val + r.val, by have := t.isLt; have := r.isLt; omega⟩ := by
  rw [← Equiv.sum_comp rows10 f, Fintype.sum_prod_type]
  refine Finset.sum_congr rfl fun t _ => Finset.sum_congr rfl fun r _ => congrArg f (Fin.ext ?_)
  show r.val + 2000 * t.val = 2000 * t.val + r.val
  omega

section Region

variable (V : (c : Dev nD) → (b : Ref sig .tc) → Buf (Elt Ideal) ((c : Thread nD τ).loc b))

/-- The features and the ids as the region finds them. -/
abbrev harr10 (c : Dev nD) : Cert.Spec.SNE.Idx → EReal := V c (Pipeline.arrRef spec10 0)
abbrev barr10 (c : Dev nD) : Cert.Spec.SN1.Idx → BitVec 32 := V c (Pipeline.arrRef spec10 1)

/-! ## The input windows' blocks at an index -/

theorem idx10_0 : ∀ t : Fin cfg10.N, win10_0.index t (0 : Fin 2) = t.val ∧ win10_0.index t (1 : Fin 2) = 0 :=
  (by decide +kernel : ∀ t : Fin grid10.N, win10_0.index t (0 : Fin 2) = t.val ∧ win10_0.index t (1 : Fin 2) = 0)
theorem idx10_1 : ∀ t : Fin cfg10.N, win10_1.index t (0 : Fin 2) = t.val ∧ win10_1.index t (1 : Fin 2) = 0 :=
  (by decide +kernel : ∀ t : Fin grid10.N, win10_1.index t (0 : Fin 2) = t.val ∧ win10_1.index t (1 : Fin 2) = 0)

/-- The array's row under row `r` of the block at point `t`. -/
def row10 (t : Fin cfg10.N) (r : Fin 2000) : Fin 50000 :=
  ⟨2000 * t.val + r.val, by have := t.isLt; have h : cfg10.N = 25 := N_10; have := r.isLt; omega⟩

theorem iblk10_h_apply (c : Dev nD) (t : Fin cfg10.N) (r : Fin 2000) (e : Fin 300) :
    (Hand.iblk10 V c 0 t : Vec Ideal S2000x300 .f32) (ix2 r e) = harr10 V c (ix2 (row10 t r) e) := by
  unfold Hand.iblk10
  rw [View.read_apply]
  show V c (Pipeline.arrRef spec10 0) _ = V c (Pipeline.arrRef spec10 0) _
  congr 1
  funext a
  apply Fin.ext
  match a with
  | ⟨0, _⟩ => show win10_0.index t 0 * 2000 + 1 * r.val = 2000 * t.val + r.val; rw [(idx10_0 t).1]; omega
  | ⟨1, _⟩ => show win10_0.index t 1 * 300 + 1 * e.val = e.val; rw [(idx10_0 t).2]; omega

theorem iblk10_b_apply (c : Dev nD) (t : Fin cfg10.N) (r : Fin 2000) :
    (Hand.iblk10 V c 1 t : Vec Ideal S2000x1 .i32) (ix2 r 0) = barr10 V c (ix2 (row10 t r) 0) := by
  unfold Hand.iblk10
  rw [View.read_apply]
  show V c (Pipeline.arrRef spec10 1) _ = V c (Pipeline.arrRef spec10 1) _
  congr 1
  funext a
  apply Fin.ext
  match a with
  | ⟨0, _⟩ => show win10_1.index t 0 * 2000 + 1 * r.val = 2000 * t.val + r.val; rw [(idx10_1 t).1]; omega
  | ⟨1, _⟩ => show win10_1.index t 1 * 1 + 1 * 0 = 0; rw [(idx10_1 t).2]

/-! ## One point's addends -/

/-- What point `t` adds to entry (g, e) of the sums, -/
def tile10s (c : Dev nD) (t : Fin cfg10.N) (g : Fin 512) (e : Fin 300) : EReal :=
  ∑ r : Fin 2000, Cert.Spec.member (barr10 V c) (row10 t r) g * harr10 V c (ix2 (row10 t r) e)
/-- and to entry g of the counts. -/
def tile10c (c : Dev nD) (t : Fin cfg10.N) (g : Fin 512) : EReal :=
  ∑ r : Fin 2000, Cert.Spec.member (barr10 V c) (row10 t r) g

theorem step10s (c : Dev nD) (t : Fin cfg10.N) (a : Vec Ideal S512x300 .f32) (g : Fin 512) (e : Fin 300) :
    k10_pay4 (F := Ideal) (Hand.iblk10 V c 1 t) (Hand.iblk10 V c 0 t) a (ix2 g e) = (a (ix2 g e) : EReal) + tile10s V c t g e := by
  refine (pay4_apply10 (Hand.iblk10 V c 1 t) (Hand.iblk10 V c 0 t) a g e).trans ?_
  refine congrArg ((a (ix2 g e) : EReal) + ·) ?_
  unfold tile10s Cert.Spec.member
  refine Finset.sum_congr rfl fun r _ => ?_
  rw [iblk10_b_apply V c t r, iblk10_h_apply V c t r e]

theorem step10c (c : Dev nD) (t : Fin cfg10.N) (n : Vec Ideal S512x1 .f32) (g : Fin 512) :
    k10_pay5 (F := Ideal) (Hand.iblk10 V c 1 t) n (ix2 g 0) = (n (ix2 g 0) : EReal) + tile10c V c t g := by
  refine (pay5_apply10 (Hand.iblk10 V c 1 t) n g).trans ?_
  refine congrArg ((n (ix2 g 0) : EReal) + ·) ?_
  unfold tile10c Cert.Spec.member
  refine Finset.sum_congr rfl fun r _ => ?_
  rw [iblk10_b_apply V c t r]

/-! ## The accumulators after each point: the addends of the points so far -/

theorem acc10s_eq (c : Dev nD) (g : Fin 512) (e : Fin 300) : ∀ (n : ℕ) (hn : n < cfg10.N),
    ((Hand.acc10 V c n hn).1 (ix2 g e) : EReal)
      = ∑ t : Fin (n + 1), tile10s V c ⟨t.val, Nat.lt_of_le_of_lt (Nat.lt_succ_iff.mp t.isLt) hn⟩ g e
  | 0, hn => by
    have hs := step10s V c ⟨0, hn⟩ (k10_pay1 (F := Ideal)) g e
    rw [pay1_apply10, zero_add] at hs
    exact hs.trans (Fin.sum_univ_one
      (fun t : Fin (0 + 1) => tile10s V c ⟨t.val, Nat.lt_of_le_of_lt (Nat.lt_succ_iff.mp t.isLt) hn⟩ g e)).symm
  | n + 1, hn => by
    have ih := acc10s_eq c g e n (Nat.lt_of_succ_lt hn)
    have hs := step10s V c ⟨n + 1, hn⟩ (Hand.acc10 V c n (Nat.lt_of_succ_lt hn)).1 g e
    rw [Fin.sum_univ_castSucc]
    exact hs.trans (congrArg (· + tile10s V c ⟨n + 1, hn⟩ g e) ih)

theorem acc10c_eq (c : Dev nD) (g : Fin 512) : ∀ (n : ℕ) (hn : n < cfg10.N),
    ((Hand.acc10 V c n hn).2 (ix2 g 0) : EReal)
      = ∑ t : Fin (n + 1), tile10c V c ⟨t.val, Nat.lt_of_le_of_lt (Nat.lt_succ_iff.mp t.isLt) hn⟩ g
  | 0, hn => by
    have hs := step10c V c ⟨0, hn⟩ (k10_pay2 (F := Ideal)) g
    rw [pay2_apply10, zero_add] at hs
    exact hs.trans (Fin.sum_univ_one
      (fun t : Fin (0 + 1) => tile10c V c ⟨t.val, Nat.lt_of_le_of_lt (Nat.lt_succ_iff.mp t.isLt) hn⟩ g)).symm
  | n + 1, hn => by
    have ih := acc10c_eq c g n (Nat.lt_of_succ_lt hn)
    have hs := step10c V c ⟨n + 1, hn⟩ (Hand.acc10 V c n (Nat.lt_of_succ_lt hn)).2 g
    rw [Fin.sum_univ_castSucc]
    exact hs.trans (congrArg (· + tile10c V c ⟨n + 1, hn⟩ g) ih)

/-! ## After the last point: the sums over all rows -/

/-- The last point. -/
abbrev t10_last : Fin cfg10.N := ⟨24, by rw [show cfg10.N = 25 from N_10]; decide⟩

theorem acc10s_last (c : Dev nD) :
    (Hand.acc10 V c t10_last.val t10_last.isLt).1 = Cert.Spec.poolSums (harr10 V c) (barr10 V c) := by
  funext j
  obtain ⟨g, e, rfl⟩ : ∃ (g : Fin 512) (e : Fin 300), j = ix2 g e := ⟨j 0, j 1, eq_ix2 j⟩
  rw [acc10s_eq V c g e 24 t10_last.isLt]
  show _ = ∑ n : Fin 50000, Cert.Spec.member (barr10 V c) n g * harr10 V c (ix2 n e)
  rw [sum_rows10]
  rfl

theorem acc10c_last (c : Dev nD) :
    (Hand.acc10 V c t10_last.val t10_last.isLt).2 = Cert.Spec.poolCounts (barr10 V c) := by
  funext j
  obtain ⟨g, z, rfl⟩ : ∃ (g : Fin 512) (z : Fin 1), j = ix2 g z := ⟨j 0, j 1, eq_ix2 j⟩
  obtain rfl : z = 0 := Subsingleton.elim _ _
  rw [acc10c_eq V c g 24 t10_last.isLt]
  show _ = ∑ n : Fin 50000, Cert.Spec.member (barr10 V c) n g
  rw [sum_rows10]
  rfl

/-! ## The result arrays -/

theorem off10V : (![0, 0] : Fin 2 → ℕ) = fun _ => 0 := funext fun a => by fin_cases a <;> rfl

/-- The one write-back of the sums, at the last point, writes the whole array: its one block, at zero offsets. -/
theorem flushed10_2 (c : Dev nD) (t : Fin cfg10.N) (hf : (cfg10.win 2).flush t = true) :
    (Hand.dat10 V c).flushed 2 t
      = ((cfg10.win 2).blk t).view.read (Elt Ideal) (Cert.Spec.poolSums (harr10 V c) (barr10 V c) : Buf (Elt Ideal) ((c : Thread nD τ).loc main_v309_0)) := by
  have hN : cfg10.N = 25 := N_10
  have h24 : t.val = 24 := by have := (flush10_2 t).mp hf; have := t.isLt; omega
  obtain rfl : t = t10_last := Fin.ext h24
  show (cfg10.win 2).cut (grid10.coords t10_last) ((Hand.dat10 V c).after 2 t10_last) = _
  rw [Hand.after10_2, acc10s_last]
  have hz' : (fun a => win10_2.index t10_last a * main_v309_0.ty.shape.size a) = fun _ => 0 := funext fun a => by fin_cases a <;> decide
  exact (Memref.read_access_unit_zero (Elt Ideal) main_v309_0 hz' (fun a => by rw [congrFun hz' a]; simp) _).symm

theorem flushed10_3 (c : Dev nD) (t : Fin cfg10.N) (hf : (cfg10.win 3).flush t = true) :
    (Hand.dat10 V c).flushed 3 t
      = ((cfg10.win 3).blk t).view.read (Elt Ideal) (Cert.Spec.poolCounts (barr10 V c) : Buf (Elt Ideal) ((c : Thread nD τ).loc main_v309_1)) := by
  have hN : cfg10.N = 25 := N_10
  have h24 : t.val = 24 := by have := (flush10_3 t).mp hf; have := t.isLt; omega
  obtain rfl : t = t10_last := Fin.ext h24
  show (cfg10.win 3).cut (grid10.coords t10_last) ((Hand.dat10 V c).after 3 t10_last) = _
  rw [Hand.after10_3, acc10c_last]
  have hz' : (fun a => win10_3.index t10_last a * main_v309_1.ty.shape.size a) = fun _ => 0 := funext fun a => by fin_cases a <;> decide
  exact (Memref.read_access_unit_zero (Elt Ideal) main_v309_1 hz' (fun a => by rw [congrFun hz' a]; simp) _).symm

/-- After the region the sums array holds, per graph, the sum of its rows. -/
theorem final10_2 (c : Dev nD) :
    (Hand.dat10 V c).arrAt 2 cfg10.N = Cert.Spec.poolSums (V c (Pipeline.arrRef spec10 0)) (V c (Pipeline.arrRef spec10 1)) :=
  (Hand.dat10 V c).arrAt_eq_of_cover 2 _ (flushed10_2 V c) fun i =>
    ⟨t10_last, (flush10_2 t10_last).mpr rfl, by
      show i ∈ ((View.whole main_v309_0).slice (win10_2.rect t10_last)).set
      rw [View.set_slice_whole, Rect.mem_set_unit]
      intro a
      have h0 : (i 0 : Nat) < 512 := (i 0).isLt
      have h1 : (i 1 : Nat) < 300 := (i 1).isLt
      match a with
      | ⟨0, _⟩ => show win10_2.index t10_last 0 * win10_2.size 0 ≤ (i 0 : Nat) ∧ (i 0 : Nat) < win10_2.index t10_last 0 * win10_2.size 0 + win10_2.xsize (grid10.coords t10_last) 0
                  rw [show win10_2.index t10_last 0 * win10_2.size 0 = 0 from by decide +kernel, show win10_2.xsize (grid10.coords t10_last) 0 = 512 from by decide +kernel]; omega
      | ⟨1, _⟩ => show win10_2.index t10_last 1 * win10_2.size 1 ≤ (i 1 : Nat) ∧ (i 1 : Nat) < win10_2.index t10_last 1 * win10_2.size 1 + win10_2.xsize (grid10.coords t10_last) 1
                  rw [show win10_2.index t10_last 1 * win10_2.size 1 = 0 from by decide +kernel, show win10_2.xsize (grid10.coords t10_last) 1 = 300 from by decide +kernel]; omega⟩

/-- After the region the counts array holds, per graph, the number of its rows. -/
theorem final10_3 (c : Dev nD) :
    (Hand.dat10 V c).arrAt 3 cfg10.N = Cert.Spec.poolCounts (V c (Pipeline.arrRef spec10 1)) :=
  (Hand.dat10 V c).arrAt_eq_of_cover 3 _ (flushed10_3 V c) fun i =>
    ⟨t10_last, (flush10_3 t10_last).mpr rfl, by
      show i ∈ ((View.whole main_v309_1).slice (win10_3.rect t10_last)).set
      rw [View.set_slice_whole, Rect.mem_set_unit]
      intro a
      have h0 : (i 0 : Nat) < 512 := (i 0).isLt
      have h1 : (i 1 : Nat) < 1 := (i 1).isLt
      match a with
      | ⟨0, _⟩ => show win10_3.index t10_last 0 * win10_3.size 0 ≤ (i 0 : Nat) ∧ (i 0 : Nat) < win10_3.index t10_last 0 * win10_3.size 0 + win10_3.xsize (grid10.coords t10_last) 0
                  rw [show win10_3.index t10_last 0 * win10_3.size 0 = 0 from by decide +kernel, show win10_3.xsize (grid10.coords t10_last) 0 = 512 from by decide +kernel]; omega
      | ⟨1, _⟩ => show win10_3.index t10_last 1 * win10_3.size 1 ≤ (i 1 : Nat) ∧ (i 1 : Nat) < win10_3.index t10_last 1 * win10_3.size 1 + win10_3.xsize (grid10.coords t10_last) 1
                  rw [show win10_3.index t10_last 1 * win10_3.size 1 = 0 from by decide +kernel, show win10_3.xsize (grid10.coords t10_last) 1 = 1 from by decide +kernel]; omega⟩

/-- The region writes neither of its input arrays. -/
theorem final10_w (c : Dev nD) (w : Fin cfg10.W) (hw : (cfg10.win w).isOut = false) :
    (Hand.dat10 V c).arrAt w cfg10.N = V c (Pipeline.arrRef spec10 w) :=
  ((Hand.dat10 V c).arrAt_in w hw _).trans (Hand.A_eq10 V c w)

end Region

end Cert.KernelIdeal.HandV

end
-- ==== Proof.KI.ValMlpOps.lean ====
/-
  The operations every one of the five first-stage kernels is made of, read at an index of the extended reals: they
  are the same kernel at the same shapes, so these facts are stated once.

  A product into a zero accumulator is the sum, over the one contracted axis, of a row against a column; the
  reduction over the rows of a 1000 x 300 tile is, at a column, the sum of that column.
-/
import proofs.«409348_j89627377533173_1_alg».proof.Proof.Gen.KernelIdeal.Skeleton
import Idealize.ShloMosaic.Lib.ValueLayout
import Idealize.ShloMosaic.PureOps.Ideal.Laws

noncomputable section

open scoped BigOperators

namespace Cert.KernelIdeal.HandV

open Cert.KernelIdeal Cert.KernelIdeal.Gen
open Idealize.ShloMosaic Idealize.ShloMosaic.ValueIdx

/-! ## The operand indices of the two products, axis by axis -/

theorem lhs_d1_0 (i : S1000x600.Idx) (q : dot_S1000x300_S300x600_S1000x600_1_0_0_1_n_n.contr.Idx) :
    (dot_S1000x300_S300x600_S1000x600_1_0_0_1_n_n.lhsIdx i q 0).val = (i 0).val := by
  unfold DotDims.lhsIdx
  rw [dif_neg (show ¬(0 : Fin S1000x300.rank) ∈ dot_S1000x300_S300x600_S1000x600_1_0_0_1_n_n.lhsBatch by decide),
    dif_pos (show (0 : Fin S1000x300.rank) ∈ dot_S1000x300_S300x600_S1000x600_1_0_0_1_n_n.lhsNonContracting by decide)]
  rfl
theorem lhs_d1_1 (i : S1000x600.Idx) (q : dot_S1000x300_S300x600_S1000x600_1_0_0_1_n_n.contr.Idx) :
    (dot_S1000x300_S300x600_S1000x600_1_0_0_1_n_n.lhsIdx i q 1).val = (q ⟨0, by decide⟩).val :=
  dot_S1000x300_S300x600_S1000x600_1_0_0_1_n_n.lhsIdx_val_of_single rfl i q
theorem rhs_d1_0 (i : S1000x600.Idx) (q : dot_S1000x300_S300x600_S1000x600_1_0_0_1_n_n.contr.Idx) :
    (dot_S1000x300_S300x600_S1000x600_1_0_0_1_n_n.rhsIdx i q 0).val = (q ⟨0, by decide⟩).val :=
  dot_S1000x300_S300x600_S1000x600_1_0_0_1_n_n.rhsIdx_val_of_single rfl i q
theorem rhs_d1_1 (i : S1000x600.Idx) (q : dot_S1000x300_S300x600_S1000x600_1_0_0_1_n_n.contr.Idx) :
    (dot_S1000x300_S300x600_S1000x600_1_0_0_1_n_n.rhsIdx i q 1).val = (i 1).val := by
  unfold DotDims.rhsIdx
  rw [dif_neg (show ¬(1 : Fin S300x600.rank) ∈ dot_S1000x300_S300x600_S1000x600_1_0_0_1_n_n.rhsBatch by decide),
    dif_pos (show (1 : Fin S300x600.rank) ∈ dot_S1000x300_S300x600_S1000x600_1_0_0_1_n_n.rhsNonContracting by decide)]
  rfl

theorem lhs_d2_0 (i : S1000x300.Idx) (q : dot_S1000x600_S600x300_S1000x300_1_0_0_1_n_n.contr.Idx) :
    (dot_S1000x600_S600x300_S1000x300_1_0_0_1_n_n.lhsIdx i q 0).val = (i 0).val := by
  unfold DotDims.lhsIdx
  rw [dif_neg (show ¬(0 : Fin S1000x600.rank) ∈ dot_S1000x600_S600x300_S1000x300_1_0_0_1_n_n.lhsBatch by decide),
    dif_pos (show (0 : Fin S1000x600.rank) ∈ dot_S1000x600_S600x300_S1000x300_1_0_0_1_n_n.lhsNonContracting by decide)]
  rfl
theorem lhs_d2_1 (i : S1000x300.Idx) (q : dot_S1000x600_S600x300_S1000x300_1_0_0_1_n_n.contr.Idx) :
    (dot_S1000x600_S600x300_S1000x300_1_0_0_1_n_n.lhsIdx i q 1).val = (q ⟨0, by decide⟩).val :=
  dot_S1000x600_S600x300_S1000x300_1_0_0_1_n_n.lhsIdx_val_of_single rfl i q
theorem rhs_d2_0 (i : S1000x300.Idx) (q : dot_S1000x600_S600x300_S1000x300_1_0_0_1_n_n.contr.Idx) :
    (dot_S1000x600_S600x300_S1000x300_1_0_0_1_n_n.rhsIdx i q 0).val = (q ⟨0, by decide⟩).val :=
  dot_S1000x600_S600x300_S1000x300_1_0_0_1_n_n.rhsIdx_val_of_single rfl i q
theorem rhs_d2_1 (i : S1000x300.Idx) (q : dot_S1000x600_S600x300_S1000x300_1_0_0_1_n_n.contr.Idx) :
    (dot_S1000x600_S600x300_S1000x300_1_0_0_1_n_n.rhsIdx i q 1).val = (i 1).val := by
  unfold DotDims.rhsIdx
  rw [dif_neg (show ¬(1 : Fin S600x300.rank) ∈ dot_S1000x600_S600x300_S1000x300_1_0_0_1_n_n.rhsBatch by decide),
    dif_pos (show (1 : Fin S600x300.rank) ∈ dot_S1000x600_S600x300_S1000x300_1_0_0_1_n_n.rhsNonContracting by decide)]
  rfl

/-! ## The two products at an index -/

/-- Rows times the first weight matrix, into zeros: a row against a column over the 300 embedding coordinates. -/
theorem matmul_d1_apply (x : FVec Ideal S1000x300 .bf16) (w : FVec Ideal S300x600 .bf16) (p : Fin 1000) (c : Fin 600) :
    matmul dot_S1000x300_S300x600_S1000x600_1_0_0_1_n_n none x w (constant (F := Ideal) S1000x600 .f32 0x00000000#32) (ix2 p c)
      = ∑ k : Fin 300, x (ix2 p k) * w (ix2 k c) := by
  simp only [matmul]
  rw [Ideal.matmul_constant_zero_apply, ← Equiv.sum_comp (contrEquiv1 dot_S1000x300_S300x600_S1000x600_1_0_0_1_n_n 300 rfl rfl).symm]
  refine Finset.sum_congr rfl fun k _ => ?_
  have hk := contrEquiv1_symm_val dot_S1000x300_S300x600_S1000x600_1_0_0_1_n_n 300 rfl rfl k
  have el : dot_S1000x300_S300x600_S1000x600_1_0_0_1_n_n.lhsIdx (ix2 p c) ((contrEquiv1 dot_S1000x300_S300x600_S1000x600_1_0_0_1_n_n 300 rfl rfl).symm k) = ix2 p k :=
    funext fun a => Fin.ext (by
      match a with
      | ⟨0, _⟩ => exact lhs_d1_0 _ _
      | ⟨1, _⟩ => exact (lhs_d1_1 _ _).trans hk)
  have er : dot_S1000x300_S300x600_S1000x600_1_0_0_1_n_n.rhsIdx (ix2 p c) ((contrEquiv1 dot_S1000x300_S300x600_S1000x600_1_0_0_1_n_n 300 rfl rfl).symm k) = ix2 k c :=
    funext fun a => Fin.ext (by
      match a with
      | ⟨0, _⟩ => exact (rhs_d1_0 _ _).trans hk
      | ⟨1, _⟩ => exact rhs_d1_1 _ _)
  rw [el, er]

/-- Hidden rows times the second weight matrix, into zeros: a row against a column over the 600 hidden coordinates. -/
theorem matmul_d2_apply (x : FVec Ideal S1000x600 .bf16) (w : FVec Ideal S600x300 .bf16) (p : Fin 1000) (c : Fin 300) :
    matmul dot_S1000x600_S600x300_S1000x300_1_0_0_1_n_n none x w (constant (F := Ideal) S1000x300 .f32 0x00000000#32) (ix2 p c)
      = ∑ k : Fin 600, x (ix2 p k) * w (ix2 k c) := by
  simp only [matmul]
  rw [Ideal.matmul_constant_zero_apply, ← Equiv.sum_comp (contrEquiv1 dot_S1000x600_S600x300_S1000x300_1_0_0_1_n_n 600 rfl rfl).symm]
  refine Finset.sum_congr rfl fun k _ => ?_
  have hk := contrEquiv1_symm_val dot_S1000x600_S600x300_S1000x300_1_0_0_1_n_n 600 rfl rfl k
  have el : dot_S1000x600_S600x300_S1000x300_1_0_0_1_n_n.lhsIdx (ix2 p c) ((contrEquiv1 dot_S1000x600_S600x300_S1000x300_1_0_0_1_n_n 600 rfl rfl).symm k) = ix2 p k :=
    funext fun a => Fin.ext (by
      match a with
      | ⟨0, _⟩ => exact lhs_d2_0 _ _
      | ⟨1, _⟩ => exact (lhs_d2_1 _ _).trans hk)
  have er : dot_S1000x600_S600x300_S1000x300_1_0_0_1_n_n.rhsIdx (ix2 p c) ((contrEquiv1 dot_S1000x600_S600x300_S1000x300_1_0_0_1_n_n 600 rfl rfl).symm k) = ix2 k c :=
    funext fun a => Fin.ext (by
      match a with
      | ⟨0, _⟩ => exact (rhs_d2_0 _ _).trans hk
      | ⟨1, _⟩ => exact rhs_d2_1 _ _)
  rw [el, er]

/-! ## The sum down a tile's columns -/

/-- The reduction over the rows of a 1000 x 300 tile reads, at a column, the sum of that column. -/
theorem colReduce_apply (z : FVec Ideal S1000x300 .f32) (q : Fin 300) :
    multiReduction (F := Ideal) .add [0] S300 z 0x00000000#32 reduces_S1000x300_S300 (.inl rfl) rfl (ix1 q)
      = ∑ p : Fin 1000, z (ix2 p q) := by
  refine (Ideal.multiReduction_add_single z 0x00000000#32 reduces_S1000x300_S300 (.inl rfl) rfl (ix1 q)).trans ?_
  refine Finset.sum_congr rfl fun p _ => congrArg z (funext fun a => Fin.ext ?_)
  match a with
  | ⟨0, _⟩ => rfl
  | ⟨1, _⟩ => rfl

end Cert.KernelIdeal.HandV

end
-- ==== Proof.KI.ValMlp8a.lean ====
/-
  What one grid point of this layer's first kernel computes, read at an index of the extended reals.

  The tile of z is relu((agg + h) W1 + b1) W2 + b2 on the tile's 1000 rows: two products into zero accumulators, a row
  of bias broadcast over the rows, a clip at zero, and format changes that are the identity on extended reals.  The two
  carried rows add to what they held the column sums of the tile, and of its squares; they start from zero, and the
  last point copies them out.
-/
import proofs.«409348_j89627377533173_1_alg».proof.Proof.KI.ValMlpOps
import proofs.«409348_j89627377533173_1_alg».proof.Proof.Spec

noncomputable section

open scoped BigOperators

namespace Cert.KernelIdeal.HandV

open Cert.KernelIdeal Cert.KernelIdeal.Gen
open Idealize.ShloMosaic Idealize.ShloMosaic.ValueIdx

/-! ## The payloads at an index -/

/-- The tile of z at a row and a column. -/
theorem k8_pay5_apply (x0 x1 : FVec Ideal S1000x300 .f32) (w1 : FVec Ideal S300x600 .f32) (b1 : FVec Ideal S1x600 .f32)
    (w2 : FVec Ideal S600x300 .f32) (b2 : FVec Ideal S1x300 .f32) (p : Fin 1000) (q : Fin 300) :
    k8_pay5 (F := Ideal) x0 x1 w1 b1 w2 b2 (ix2 p q)
      = (∑ k : Fin 600, max ((∑ l : Fin 300, (x0 (ix2 p l) + x1 (ix2 p l)) * w1 (ix2 l k)) + b1 (ix2 0 k)) 0 * w2 (ix2 k q))
        + b2 (ix2 0 q) := by
  unfold k8_pay5
  simp only [shapeCast_self]
  rw [addf_apply, matmul_d2_apply, broadcastTo_1b_ab_apply]
  refine congrArg (· + b2 (ix2 0 q)) (Finset.sum_congr rfl fun k _ => ?_)
  rw [truncf_apply, truncf_apply, maximumf_apply, addf_apply, matmul_d1_apply, broadcastTo_1b_ab_apply, broadcast_apply]
  show max ((∑ l : Fin 300, (x0 (ix2 p l) + x1 (ix2 p l)) * w1 (ix2 l k)) + b1 (ix2 0 k)) (Ideal.ofBits .f32 0x00000000#32)
      * w2 (ix2 k q) = _
  rw [Ideal.ofBits_zero_f32]

/-- The tile of z is the layer's z on the tile's rows: when row p of the two row tiles is row r of the two arrays,
    the tile at (p, q) is z at (r, q). The weights and biases are whole arrays. -/
theorem k8_pay5_eq_mlpZ (agg h : Cert.Spec.SNE.Idx → EReal) (x0 x1 : FVec Ideal S1000x300 .f32)
    (w1 : FVec Ideal S300x600 .f32) (b1 : FVec Ideal S1x600 .f32) (w2 : FVec Ideal S600x300 .f32)
    (b2 : FVec Ideal S1x300 .f32) (p : Fin 1000) (q : Fin 300) (r : Fin 50000)
    (h0 : ∀ l : Fin 300, x0 (ix2 p l) = agg (ix2 r l)) (h1 : ∀ l : Fin 300, x1 (ix2 p l) = h (ix2 r l)) :
    k8_pay5 (F := Ideal) x0 x1 w1 b1 w2 b2 (ix2 p q) = Cert.Spec.mlpZ agg h w1 b1 w2 b2 (ix2 r q) := by
  rw [k8_pay5_apply]
  unfold Cert.Spec.mlpZ Cert.Spec.hid
  refine congrArg (· + b2 (ix2 0 q)) (Finset.sum_congr rfl fun k _ => ?_)
  refine congrArg (fun t => max (t + b1 (ix2 0 k)) 0 * w2 (ix2 k q)) (Finset.sum_congr rfl fun l _ => ?_)
  rw [h0 l, h1 l]

/-- The carried row of column sums: what it held plus the sums down the tile's columns. -/
theorem k8_pay6_apply (x0 x1 : FVec Ideal S1000x300 .f32) (w1 : FVec Ideal S300x600 .f32) (b1 : FVec Ideal S1x600 .f32)
    (w2 : FVec Ideal S600x300 .f32) (b2 : FVec Ideal S1x300 .f32) (s : FVec Ideal S1x300 .f32) (u : Fin 1) (q : Fin 300) :
    k8_pay6 (F := Ideal) x0 x1 w1 b1 w2 b2 s (ix2 u q)
      = s (ix2 u q) + ∑ p : Fin 1000, k8_pay5 (F := Ideal) x0 x1 w1 b1 w2 b2 (ix2 p q) := by
  unfold k8_pay6
  rw [addf_apply, shapeCast_a_1a_apply, colReduce_apply]

/-- The carried row of column sums of squares: what it held plus the sums of squares down the tile's columns. -/
theorem k8_pay2_apply (z : FVec Ideal S1000x300 .f32) (s : FVec Ideal S1x300 .f32) (u : Fin 1) (q : Fin 300) :
    k8_pay2 (F := Ideal) z s (ix2 u q) = s (ix2 u q) + ∑ p : Fin 1000, z (ix2 p q) * z (ix2 p q) := by
  unfold k8_pay2
  simp only [shapeCast_self]
  rw [addf_apply, shapeCast_a_1a_apply, colReduce_apply]
  rfl

/-- The row copied out at the last point is the carried row. -/
theorem k8_pay1_eq (s : FVec Ideal S1x300 .f32) : k8_pay1 (F := Ideal) s = s := by
  unfold k8_pay1
  exact shapeCast_self _ _

/-- The two carried rows start from zero. -/
theorem k8_pay3_apply (j : S1x300.Idx) : k8_pay3 (F := Ideal) j = 0 := by
  unfold k8_pay3
  simp only [shapeCast_self]
  show Ideal.ofBits .f32 0x00000000#32 = 0
  exact Ideal.ofBits_zero_f32
theorem k8_pay4_apply (j : S1x300.Idx) : k8_pay4 (F := Ideal) j = 0 := by
  unfold k8_pay4
  simp only [shapeCast_self]
  show Ideal.ofBits .f32 0x00000000#32 = 0
  exact Ideal.ofBits_zero_f32

end Cert.KernelIdeal.HandV

end
-- ==== Proof.KI.ValMlpSums.lean ====
/-
  Fifty tiles of a thousand rows: a sum over the 50000 rows is the sum, tile by tile, of the sums over each tile's rows.
  Sums of extended reals are sums in a commutative monoid, so no finiteness is asked.
-/
import Mathlib.Algebra.BigOperators.Fin
import Mathlib.Algebra.BigOperators.Ring.Finset
import Mathlib.Data.EReal.Basic
import Mathlib.Logic.Equiv.Fin.Basic

noncomputable section

open scoped BigOperators

namespace Cert.KernelIdeal.HandV

/-- Row p of tile t is row 1000 t + p of the array. -/
abbrev tileRow (t : Fin 50) (p : Fin 1000) : Fin 50000 := ⟨1000 * t.val + p.val, by omega⟩

/-- A sum over the rows is the double sum over the tiles and the rows of a tile. -/
theorem sum_rows_eq_sum_tiles {M : Type*} [AddCommMonoid M] (f : Fin 50000 → M) :
    ∑ n : Fin 50000, f n = ∑ t : Fin 50, ∑ p : Fin 1000, f (tileRow t p) := by
  rw [← Fintype.sum_prod_type']
  refine (Fintype.sum_equiv (finProdFinEquiv (m := 50) (n := 1000)) (fun x => f (tileRow x.1 x.2)) f fun x => ?_).symm
  refine congrArg f (Fin.ext ?_)
  show 1000 * x.1.val + x.2.val = x.2.val + 1000 * x.1.val
  omega

/-- The sum of f over the rows of tile t, for t a natural number: zero past the last tile. -/
def tileSum {M : Type*} [AddCommMonoid M] (f : Fin 50000 → M) (t : ℕ) : M :=
  if h : t < 50 then ∑ p : Fin 1000, f (tileRow ⟨t, h⟩ p) else 0

theorem tileSum_of_lt {M : Type*} [AddCommMonoid M] (f : Fin 50000 → M) (t : ℕ) (h : t < 50) :
    tileSum f t = ∑ p : Fin 1000, f (tileRow ⟨t, h⟩ p) := dif_pos h

/-- All fifty tile sums add up to the sum over every row. -/
theorem sum_range_tileSum {M : Type*} [AddCommMonoid M] (f : Fin 50000 → M) :
    ∑ t ∈ Finset.range 50, tileSum f t = ∑ n : Fin 50000, f n := by
  rw [sum_rows_eq_sum_tiles, Finset.sum_range]
  exact Finset.sum_congr rfl fun t _ => tileSum_of_lt f t.val t.isLt

end Cert.KernelIdeal.HandV

end
-- ==== Proof.KI.ValMlp8.lean ====
/-
  What this layer's first kernel leaves in its three output arrays, as functions of the six arrays it finds.

  The grid has fifty points; point t reads rows 1000 t to 1000 t + 999 of the two row arrays and the whole of the
  weights and biases, writes the tile of z = relu((agg + h) W1 + b1) W2 + b2 on those rows to block t of the z array,
  and adds the tile's column sums, and the column sums of its squares, to two carried rows that start from zero; the
  last point copies the two rows out.  So the z array ends holding z (its fifty blocks tile it: row r is row r % 1000
  of block r / 1000), and the two rows end holding the sums over all fifty tiles, which are the sums over all 50000
  rows.  The six input arrays are left as found.
-/
import proofs.«409348_j89627377533173_1_alg».proof.Proof.KI.RegMlp8
import proofs.«409348_j89627377533173_1_alg».proof.Proof.KI.ValMlp8a
import proofs.«409348_j89627377533173_1_alg».proof.Proof.KI.ValMlpSums
import Idealize.ShloMosaic.Lib.Pipeline.Value
import Idealize.ShloMosaic.Lib.ValueLayout

set_option maxRecDepth 16384

noncomputable section

open scoped BigOperators

namespace Cert.KernelIdeal.HandV

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

-- the TensorCore's buffer contents when the region is entered, at the extended reals
variable (V : (c : Dev nD) → (b : Ref sig .tc) → Buf (Elt Ideal) ((c : Thread nD τ).loc b))

/-! ## The printed index maps, and the blocks they cut -/

theorem hz8 : (![0, 0] : Fin 2 → Nat) = fun _ => 0 := funext fun a => by fin_cases a <;> rfl

/-- The printed index maps over the grid: the two row tiles and the output tile move down the rows with the point,
    the weights and biases are one block. -/
theorem idx_facts8 : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = t.val ∧ win8_6.index t (1 : Fin 2) = 0 :=
  (by decide +kernel : ∀ t : Fin grid8.N, _)

/-- The layer's z of the six arrays as the region finds them. -/
abbrev Z8 (c : Dev nD) : Cert.Spec.SNE.Idx → EReal :=
  Cert.Spec.mlpZ (V c (Pipeline.arrRef spec8 0)) (V c (Pipeline.arrRef spec8 1)) (V c (Pipeline.arrRef spec8 2))
    (V c (Pipeline.arrRef spec8 3)) (V c (Pipeline.arrRef spec8 4)) (V c (Pipeline.arrRef spec8 5))

/-- The weights and biases are each one block: at every point the block read is the whole array. -/
theorem iblk8_2_eq (c : Dev nD) (t : Fin cfg8.N) : Hand.iblk8 V c 2 t = V c (Pipeline.arrRef spec8 2) := by
  obtain ⟨-, -, -, -, e0, e1, -⟩ := idx_facts8 t
  funext y
  show V c (Pipeline.arrRef spec8 2) (((cfg8.win 2).blk t).view.emb y) = V c (Pipeline.arrRef spec8 2) y
  refine congrArg _ (funext fun a => Fin.ext ?_)
  match a with
  | ⟨0, _⟩ => show win8_2.index t (0 : Fin 2) * 300 + 1 * (y 0).val = (y 0).val; omega
  | ⟨1, _⟩ => show win8_2.index t (1 : Fin 2) * 600 + 1 * (y 1).val = (y 1).val; omega

/-- Row p of row tile t is row 1000 t + p of the array. -/
theorem iblk8_0_apply (c : Dev nD) (t : Fin cfg8.N) (ht : t.val < 50) (p : Fin 1000) (l : Fin 300) :
    Hand.iblk8 V c 0 t (ix2 p l) = V c (Pipeline.arrRef spec8 0) (ix2 (tileRow ⟨t.val, ht⟩ p) l) := by
  obtain ⟨e0, e1, -⟩ := idx_facts8 t
  show V c (Pipeline.arrRef spec8 0) (((cfg8.win 0).blk t).view.emb (ix2 p l)) = _
  refine congrArg _ (funext fun a => Fin.ext ?_)
  match a with
  | ⟨0, _⟩ => show win8_0.index t (0 : Fin 2) * 1000 + 1 * p.val = 1000 * t.val + p.val; omega
  | ⟨1, _⟩ => show win8_0.index t (1 : Fin 2) * 300 + 1 * l.val = l.val; omega

theorem iblk8_3_eq (c : Dev nD) (t : Fin cfg8.N) : Hand.iblk8 V c 3 t = V c (Pipeline.arrRef spec8 3) := by
  obtain ⟨-, -, -, -, -, -, e0, e1, -⟩ := idx_facts8 t
  funext y
  show V c (Pipeline.arrRef spec8 3) (((cfg8.win 3).blk t).view.emb y) = V c (Pipeline.arrRef spec8 3) y
  refine congrArg _ (funext fun a => Fin.ext ?_)
  match a with
  | ⟨0, _⟩ => show win8_3.index t (0 : Fin 2) * 1 + 1 * (y 0).val = (y 0).val; omega
  | ⟨1, _⟩ => show win8_3.index t (1 : Fin 2) * 600 + 1 * (y 1).val = (y 1).val; omega

theorem iblk8_4_eq (c : Dev nD) (t : Fin cfg8.N) : Hand.iblk8 V c 4 t = V c (Pipeline.arrRef spec8 4) := by
  obtain ⟨-, -, -, -, -, -, -, -, e0, e1, -⟩ := idx_facts8 t
  funext y
  show V c (Pipeline.arrRef spec8 4) (((cfg8.win 4).blk t).view.emb y) = V c (Pipeline.arrRef spec8 4) y
  refine congrArg _ (funext fun a => Fin.ext ?_)
  match a with
  | ⟨0, _⟩ => show win8_4.index t (0 : Fin 2) * 600 + 1 * (y 0).val = (y 0).val; omega
  | ⟨1, _⟩ => show win8_4.index t (1 : Fin 2) * 300 + 1 * (y 1).val = (y 1).val; omega

theorem iblk8_5_eq (c : Dev nD) (t : Fin cfg8.N) : Hand.iblk8 V c 5 t = V c (Pipeline.arrRef spec8 5) := by
  obtain ⟨-, -, -, -, -, -, -, -, -, -, e0, e1, -⟩ := idx_facts8 t
  funext y
  show V c (Pipeline.arrRef spec8 5) (((cfg8.win 5).blk t).view.emb y) = V c (Pipeline.arrRef spec8 5) y
  refine congrArg _ (funext fun a => Fin.ext ?_)
  match a with
  | ⟨0, _⟩ => show win8_5.index t (0 : Fin 2) * 1 + 1 * (y 0).val = (y 0).val; omega
  | ⟨1, _⟩ => show win8_5.index t (1 : Fin 2) * 300 + 1 * (y 1).val = (y 1).val; omega

theorem iblk8_1_apply (c : Dev nD) (t : Fin cfg8.N) (ht : t.val < 50) (p : Fin 1000) (l : Fin 300) :
    Hand.iblk8 V c 1 t (ix2 p l) = V c (Pipeline.arrRef spec8 1) (ix2 (tileRow ⟨t.val, ht⟩ p) l) := by
  obtain ⟨-, -, e0, e1, -⟩ := idx_facts8 t
  show V c (Pipeline.arrRef spec8 1) (((cfg8.win 1).blk t).view.emb (ix2 p l)) = _
  refine congrArg _ (funext fun a => Fin.ext ?_)
  match a with
  | ⟨0, _⟩ => show win8_1.index t (0 : Fin 2) * 1000 + 1 * p.val = 1000 * t.val + p.val; omega
  | ⟨1, _⟩ => show win8_1.index t (1 : Fin 2) * 300 + 1 * l.val = l.val; omega

/-! ## The tile of z at a point -/

/-- At point t the body's tile of z, at (p, q), is the layer's z at row 1000 t + p, column q. -/
theorem z8_blk_apply (c : Dev nD) (t : Fin cfg8.N) (ht : t.val < 50) (p : Fin 1000) (q : Fin 300) :
    k8_pay5 (F := Ideal) (Hand.iblk8 V c 0 t) (Hand.iblk8 V c 1 t) (Hand.iblk8 V c 2 t) (Hand.iblk8 V c 3 t)
        (Hand.iblk8 V c 4 t) (Hand.iblk8 V c 5 t) (ix2 p q)
      = Z8 V c (ix2 (tileRow ⟨t.val, ht⟩ p) q) := by
  rw [iblk8_2_eq V c t, iblk8_3_eq V c t, iblk8_4_eq V c t, iblk8_5_eq V c t]
  exact k8_pay5_eq_mlpZ (V c (Pipeline.arrRef spec8 0)) (V c (Pipeline.arrRef spec8 1)) (Hand.iblk8 V c 0 t)
    (Hand.iblk8 V c 1 t) _ _ _ _ p q (tileRow ⟨t.val, ht⟩ p) (fun l => iblk8_0_apply V c t ht p l)
    (fun l => iblk8_1_apply V c t ht p l)

/-! ## Output 6: the blocks make the array -/

theorem lt50_8 (t : Fin cfg8.N) : t.val < 50 := Nat.lt_of_lt_of_eq t.isLt N_8

/-- What point t writes back to the z array is block t of the layer's z. -/
theorem flushed8_6_eq (c : Dev nD) (t : Fin cfg8.N) :
    (Hand.dat8 V c).flushed 6 t = ((cfg8.win 6).blk t).view.read (Elt Ideal) (Z8 V c) := by
  show (cfg8.win 6).cut (grid8.coords t) ((Hand.dat8 V c).after 6 t) = _
  rw [Hand.after8_6]
  unfold Hand.out8_6 Hand.z8
  rw [View.canon_unit_zero hz8]
  simp only [View.ld_unit_zero (S := S1000x300) hz8, View.ld_unit_zero (S := S300x600) hz8,
    View.ld_unit_zero (S := S1x600) hz8, View.ld_unit_zero (S := S600x300) hz8, View.ld_unit_zero (S := S1x300) hz8]
  obtain ⟨-, -, -, -, -, -, -, -, -, -, -, -, e0, e1⟩ := idx_facts8 t
  funext j
  obtain ⟨p, q, rfl⟩ : ∃ (p : Fin 1000) (q : Fin 300), j = ix2 p q := ⟨j 0, j 1, eq_ix2 j⟩
  refine (z8_blk_apply V c t (lt50_8 t) p q).trans ?_
  show Z8 V c _ = Z8 V c (((cfg8.win 6).blk t).view.emb (ix2 p q))
  refine congrArg _ (funext fun a => Fin.ext ?_)
  match a with
  | ⟨0, _⟩ => show 1000 * t.val + p.val = win8_6.index t (0 : Fin 2) * 1000 + 1 * p.val; omega
  | ⟨1, _⟩ => show q.val = win8_6.index t (1 : Fin 2) * 300 + 1 * q.val; omega

/-- Every row is in the block of the point that is its tile: row r is row r % 1000 of block r / 1000. -/
theorem cover8_6 (i : S50000x300.Idx) :
    ∃ t : Fin cfg8.N, (cfg8.win 6).flush t = true ∧ i ∈ ((cfg8.win 6).blk t).view.set := by
  have hi0 : (i 0).val < 50000 := (i 0).isLt
  have hN : cfg8.N = 50 := N_8
  obtain ⟨t, ht⟩ : ∃ t : Fin cfg8.N, t.val = (i 0).val / 1000 := ⟨⟨(i 0).val / 1000, by rw [hN]; omega⟩, rfl⟩
  obtain ⟨-, -, -, -, -, -, -, -, -, -, -, -, e0, e1⟩ := idx_facts8 t
  have he : ((cfg8.win 6).blk t).view.emb (ix2 (⟨(i 0).val % 1000, by omega⟩ : Fin 1000) (i 1)) = i := by
    funext a; apply Fin.ext
    match a with
    | ⟨0, _⟩ => show win8_6.index t (0 : Fin 2) * 1000 + 1 * ((i 0).val % 1000) = (i 0).val; omega
    | ⟨1, _⟩ => show win8_6.index t (1 : Fin 2) * 300 + 1 * (i 1).val = (i 1).val; omega
  refine ⟨t, flush8_6 t, ?_⟩
  rw [← he]
  exact View.emb_mem_set _ _

/-- THE z ARRAY after the region: the layer's z of the six arrays as the region finds them. -/
theorem final8_6 (c : Dev nD) : (Hand.dat8 V c).arrAt 6 cfg8.N = Z8 V c :=
  (Hand.dat8 V c).arrAt_eq_of_cover 6 (Z8 V c) (fun t _ => flushed8_6_eq V c t) (cover8_6)

/-! ## The input arrays are left as found -/

theorem final8_0 (c : Dev nD) : (Hand.dat8 V c).arrAt 0 cfg8.N = V c (Pipeline.arrRef spec8 0) :=
  ((Hand.dat8 V c).arrAt_in 0 rfl cfg8.N).trans (Hand.A_eq8 V c 0)
theorem final8_1 (c : Dev nD) : (Hand.dat8 V c).arrAt 1 cfg8.N = V c (Pipeline.arrRef spec8 1) :=
  ((Hand.dat8 V c).arrAt_in 1 rfl cfg8.N).trans (Hand.A_eq8 V c 1)
theorem final8_2 (c : Dev nD) : (Hand.dat8 V c).arrAt 2 cfg8.N = V c (Pipeline.arrRef spec8 2) :=
  ((Hand.dat8 V c).arrAt_in 2 rfl cfg8.N).trans (Hand.A_eq8 V c 2)
theorem final8_3 (c : Dev nD) : (Hand.dat8 V c).arrAt 3 cfg8.N = V c (Pipeline.arrRef spec8 3) :=
  ((Hand.dat8 V c).arrAt_in 3 rfl cfg8.N).trans (Hand.A_eq8 V c 3)
theorem final8_4 (c : Dev nD) : (Hand.dat8 V c).arrAt 4 cfg8.N = V c (Pipeline.arrRef spec8 4) :=
  ((Hand.dat8 V c).arrAt_in 4 rfl cfg8.N).trans (Hand.A_eq8 V c 4)
theorem final8_5 (c : Dev nD) : (Hand.dat8 V c).arrAt 5 cfg8.N = V c (Pipeline.arrRef spec8 5) :=
  ((Hand.dat8 V c).arrAt_in 5 rfl cfg8.N).trans (Hand.A_eq8 V c 5)

/-! ## Outputs 7 and 8: the two carried rows -/

/-- The two carried rows start from zero. -/
theorem zeroS8_apply (j : S1x300.Idx) : Hand.zeroS8 (F := Ideal) j = 0 := by
  unfold Hand.zeroS8
  rw [View.canon_unit_zero hz8]
  exact k8_pay3_apply j
theorem zeroQ8_apply (j : S1x300.Idx) : Hand.zeroQ8 (F := Ideal) j = 0 := by
  unfold Hand.zeroQ8
  rw [View.canon_unit_zero hz8]
  exact k8_pay4_apply j

/-- One step of the row of column sums at point t: what it held plus the sums down the columns of tile t of z. -/
theorem stepS8_apply (c : Dev nD) (t : Fin cfg8.N) (s : Vec Ideal S1x300 .f32) (u : Fin 1) (q : Fin 300) :
    Hand.stepS8 (Hand.iblk8 V c 0 t) (Hand.iblk8 V c 1 t) (Hand.iblk8 V c 2 t) (Hand.iblk8 V c 3 t)
      (Hand.iblk8 V c 4 t) (Hand.iblk8 V c 5 t) s (ix2 u q)
      = s (ix2 u q) + tileSum (fun r => Z8 V c (ix2 r q)) t.val := by
  unfold Hand.stepS8
  rw [View.canon_unit_zero hz8]
  simp only [View.ld_unit_zero (S := S1000x300) hz8, View.ld_unit_zero (S := S300x600) hz8,
    View.ld_unit_zero (S := S1x600) hz8, View.ld_unit_zero (S := S600x300) hz8, View.ld_unit_zero (S := S1x300) hz8]
  rw [k8_pay1_eq]
  refine (k8_pay6_apply (Hand.iblk8 V c 0 t) (Hand.iblk8 V c 1 t) (Hand.iblk8 V c 2 t) (Hand.iblk8 V c 3 t)
    (Hand.iblk8 V c 4 t) (Hand.iblk8 V c 5 t) s u q).trans ?_
  rw [tileSum_of_lt _ _ (lt50_8 t)]
  exact congrArg (s (ix2 u q) + ·) (Finset.sum_congr rfl fun p _ => z8_blk_apply V c t (lt50_8 t) p q)

/-- One step of the row of column sums of squares at point t. -/
theorem stepQ8_apply (c : Dev nD) (t : Fin cfg8.N) (s : Vec Ideal S1x300 .f32) (u : Fin 1) (q : Fin 300) :
    Hand.stepQ8 (Hand.iblk8 V c 0 t) (Hand.iblk8 V c 1 t) (Hand.iblk8 V c 2 t) (Hand.iblk8 V c 3 t)
      (Hand.iblk8 V c 4 t) (Hand.iblk8 V c 5 t) s (ix2 u q)
      = s (ix2 u q) + tileSum (fun r => Z8 V c (ix2 r q) * Z8 V c (ix2 r q)) t.val := by
  unfold Hand.stepQ8 Hand.z8
  rw [View.canon_unit_zero hz8]
  simp only [View.ld_unit_zero (S := S1000x300) hz8, View.ld_unit_zero (S := S300x600) hz8,
    View.ld_unit_zero (S := S1x600) hz8, View.ld_unit_zero (S := S600x300) hz8, View.ld_unit_zero (S := S1x300) hz8]
  refine (k8_pay2_apply (k8_pay5 (F := Ideal) (Hand.iblk8 V c 0 t) (Hand.iblk8 V c 1 t) (Hand.iblk8 V c 2 t) (Hand.iblk8 V c 3 t)
      (Hand.iblk8 V c 4 t) (Hand.iblk8 V c 5 t)) s u q).trans ?_
  rw [tileSum_of_lt _ _ (lt50_8 t)]
  refine congrArg (s (ix2 u q) + ·) (Finset.sum_congr rfl fun p _ => ?_)
  rw [z8_blk_apply V c t (lt50_8 t) p q]

/-- After the point at position n the row of column sums holds the sums over the rows of tiles 0 to n. -/
theorem accS8_apply (c : Dev nD) : ∀ (n : ℕ) (hn : n < cfg8.N) (u : Fin 1) (q : Fin 300),
    Hand.accS8 V c n hn (ix2 u q) = ∑ t ∈ Finset.range (n + 1), tileSum (fun r => Z8 V c (ix2 r q)) t
  | 0, hn, u, q => by
    rw [Hand.accS8_zero, stepS8_apply V c ⟨0, hn⟩, zeroS8_apply, zero_add, Finset.sum_range_one]
  | n + 1, hn, u, q => by
    rw [Hand.accS8_succ, stepS8_apply V c ⟨n + 1, hn⟩, accS8_apply c n (Nat.lt_of_succ_lt hn) u q,
      Finset.sum_range_succ _ (n + 1)]

/-- and the row of column sums of squares likewise. -/
theorem accQ8_apply (c : Dev nD) : ∀ (n : ℕ) (hn : n < cfg8.N) (u : Fin 1) (q : Fin 300),
    Hand.accQ8 V c n hn (ix2 u q)
      = ∑ t ∈ Finset.range (n + 1), tileSum (fun r => Z8 V c (ix2 r q) * Z8 V c (ix2 r q)) t
  | 0, hn, u, q => by
    rw [Hand.accQ8_zero, stepQ8_apply V c ⟨0, hn⟩, zeroQ8_apply, zero_add, Finset.sum_range_one]
  | n + 1, hn, u, q => by
    rw [Hand.accQ8_succ, stepQ8_apply V c ⟨n + 1, hn⟩, accQ8_apply c n (Nat.lt_of_succ_lt hn) u q,
      Finset.sum_range_succ _ (n + 1)]

/-- THE ROW OF COLUMN SUMS after the region: the column sums of the layer's z over all 50000 rows. -/
theorem final8_7 (c : Dev nD) : (Hand.dat8 V c).arrAt 7 cfg8.N = Cert.Spec.colSum (Z8 V c) := by
  rw [Hand.arrAt8_7]
  unfold Hand.out8_7
  rw [View.canon_unit_zero hz8, View.ld_unit_zero hz8]
  funext j
  obtain ⟨u, q, rfl⟩ : ∃ (u : Fin 1) (q : Fin 300), j = ix2 u q := ⟨j 0, j 1, eq_ix2 j⟩
  rw [accS8_apply V c 49 _ u q]
  exact sum_range_tileSum (fun r => Z8 V c (ix2 r q))

/-- THE ROW OF COLUMN SUMS OF SQUARES after the region. -/
theorem final8_8 (c : Dev nD) : (Hand.dat8 V c).arrAt 8 cfg8.N = Cert.Spec.colSumSq (Z8 V c) := by
  rw [Hand.arrAt8_8]
  unfold Hand.out8_7
  rw [View.canon_unit_zero hz8, View.ld_unit_zero hz8]
  funext j
  obtain ⟨u, q, rfl⟩ : ∃ (u : Fin 1) (q : Fin 300), j = ix2 u q := ⟨j 0, j 1, eq_ix2 j⟩
  rw [accQ8_apply V c 49 _ u q]
  exact sum_range_tileSum (fun r => Z8 V c (ix2 r q) * Z8 V c (ix2 r q))

end Cert.KernelIdeal.HandV

end
-- ==== Proof.KI.ValBn9.lean ====
import proofs.«409348_j89627377533173_1_alg».proof.Proof.KI.RegBn9
import proofs.«409348_j89627377533173_1_alg».proof.Proof.Spec
import Idealize.ShloMosaic.Lib.Pipeline.Value
import Idealize.ShloMosaic.Lib.ValueIdx

/-! # Region 9 (`cc9__bn_relu_kernel`): the value half, over the extended reals

After the region the output array is, index by index, the normalisation of `z` by the given column means and variances,
scaled, shifted and clipped at zero: each of the 25 points writes back the block of that function over its 2000 rows,
and the 25 blocks tile the 50000 rows (row `r` lies in block `r / 2000`). The five input arrays are as the region found
them. -/

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

section Region1
-- the TensorCore's buffer contents when the region is entered
variable (V : (c : Dev nD) → (b : Ref sig .tc) → Buf (Elt Ideal) ((c : Thread nD τ).loc b))

/-! ## The payload at an index -/

theorem zero_off9 : (![0, 0] : Fin 2 → Nat) = fun _ => 0 := funext fun a => by fin_cases a <;> rfl

/-- The zero word is the real zero. -/
theorem zero_word9 : Ideal.ofBits .f32 0x00000000#32 = 0 := by simp [Ideal.ofBits, Ideal.ieee]

/-- A row broadcast down the 2000 rows of a block reads, at an index, the row at the index's column. -/
theorem bcast_row9 (x : Vec Ideal S1x300 .f32) (j : S2000x300.Idx) :
    broadcastTo S2000x300 x broadcasts_S1x300_S2000x300 j = x (ix2 0 (j 1)) :=
  broadcastTo_apply x _ j (ix2 0 (j 1)) (fun a => by match a with | ⟨0, _⟩ => rfl | ⟨1, _⟩ => rfl)

/-- The body's payload at an index of the block: the block's entry less the column's mean, times the reciprocal root of
    the column's variance plus the stabiliser, times the column's scale, plus its shift, clipped at zero. (The payload
    takes its row arguments in the order the body loads them: variance before mean.) -/
theorem pay9_apply (xz : Vec Ideal S2000x300 .f32) (xv xm xg xb : Vec Ideal S1x300 .f32) (j : S2000x300.Idx) :
    k9_pay1 (F := Ideal) xz xv xm xg xb j
      = max ((xz j - xm (ix2 0 (j 1))) * Ideal.rsqrt (xv (ix2 0 (j 1)) + Ideal.ofBits .f32 0x3727C5AC#32) * xg (ix2 0 (j 1))
          + xb (ix2 0 (j 1))) 0 := by
  unfold k9_pay1
  simp only [shapeCast_self]
  rw [maximumf_apply, addf_apply, mulf_apply, mulf_apply, subf_apply, broadcast_apply,
    bcast_row9, bcast_row9, bcast_row9, bcast_row9]
  show max (_ * Ideal.rsqrt (xv (ix2 0 (j 1)) + Ideal.ofBits .f32 0x3727C5AC#32) * _ + _) (Ideal.ofBits .f32 0x00000000#32) = _
  rw [zero_word9]

/-- So, when the loaded blocks read the arrays `Z`, `M`, `Vr`, `Gm`, `B` at the places the array index `i` names, the payload
    at `j` is the layer's normalisation of those arrays at `i`. -/
theorem pay9_eq_bnRelu (Z : Cert.Spec.SNE.Idx → EReal) (M Vr Gm B : Cert.Spec.S1E.Idx → EReal)
    (xz : Vec Ideal S2000x300 .f32) (xv xm xg xb : Vec Ideal S1x300 .f32) (j : S2000x300.Idx) (i : Cert.Spec.SNE.Idx)
    (hz : xz j = Z i) (hm : xm (ix2 0 (j 1)) = M (ix2 0 (i 1))) (hv : xv (ix2 0 (j 1)) = Vr (ix2 0 (i 1)))
    (hg : xg (ix2 0 (j 1)) = Gm (ix2 0 (i 1))) (hb : xb (ix2 0 (j 1)) = B (ix2 0 (i 1))) :
    k9_pay1 (F := Ideal) xz xv xm xg xb j = Cert.Spec.bnRelu Z M Vr Gm B (Ideal.ofBits .f32 0x3727C5AC#32) i := by
  rw [pay9_apply, hz, hm, hv, hg, hb]
  rfl

/-! ## The windows' block indices, decided over the 25 points -/

/-- The block of `z` and the output block move together down the rows, block `t` at point `t`, and span the columns;
    the four row windows stay at their one block. -/
theorem idx_facts9 : ∀ t : Fin cfg9.N,
    win9_0.index t (0 : Fin 2) = t.val ∧ win9_0.index t (1 : Fin 2) = 0
    ∧ win9_5.index t (0 : Fin 2) = t.val ∧ win9_5.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0 :=
  (by decide +kernel : ∀ t : Fin grid9.N, _)

/-! ## What a point writes back -/

/-- The output array after the region, as one function of the entry arrays. -/
abbrev G9 (c : Dev nD) : Cert.Spec.SNE.Idx → EReal :=
  Cert.Spec.bnRelu (V c (Pipeline.arrRef spec9 0)) (V c (Pipeline.arrRef spec9 1)) (V c (Pipeline.arrRef spec9 2))
    (V c (Pipeline.arrRef spec9 3)) (V c (Pipeline.arrRef spec9 4)) (Ideal.ofBits .f32 0x3727C5AC#32)

/-- Point `t`'s block of `z`, at a block index `j`, is the array at the output block's array index: the two windows have
    the same block index. -/
theorem blk9_0_at (c : Dev nD) (t : Fin cfg9.N) (j : S2000x300.Idx) :
    iblk9 V c 0 t j = V c (Pipeline.arrRef spec9 0) (((cfg9.win 5).blk t).view.emb j) := by
  obtain ⟨e00, e01, e50, e51, e10, e11, e20, e21, e30, e31, e40, e41⟩ := idx_facts9 t
  have hjr : (j 0).val < 2000 := (j 0).isLt
  have hjc : (j 1).val < 300 := (j 1).isLt
  show V c (Pipeline.arrRef spec9 0) (((cfg9.win 0).blk t).view.emb j) = V c (Pipeline.arrRef spec9 0) (((cfg9.win 5).blk t).view.emb j)
  refine congrArg _ (funext fun a => Fin.ext ?_)
  match a with
  | ⟨0, _⟩ => show win9_0.index t (0 : Fin 2) * 2000 + 1 * (j 0).val = win9_5.index t (0 : Fin 2) * 2000 + 1 * (j 0).val; omega
  | ⟨1, _⟩ => show win9_0.index t (1 : Fin 2) * 300 + 1 * (j 1).val = win9_5.index t (1 : Fin 2) * 300 + 1 * (j 1).val; omega

/-- Point `t`'s block of the means (one row, not moving with the point), at the column of a block index `j`, is the array at
    that column of the output block's array index. -/
theorem blk9_1_at (c : Dev nD) (t : Fin cfg9.N) (j : S2000x300.Idx) :
    iblk9 V c 1 t (ix2 0 (j 1)) = V c (Pipeline.arrRef spec9 1) (ix2 0 ((((cfg9.win 5).blk t).view.emb j) 1)) := by
  obtain ⟨e00, e01, e50, e51, e10, e11, e20, e21, e30, e31, e40, e41⟩ := idx_facts9 t
  have hjc : (j 1).val < 300 := (j 1).isLt
  show V c (Pipeline.arrRef spec9 1) (((cfg9.win 1).blk t).view.emb (ix2 0 (j 1))) = V c (Pipeline.arrRef spec9 1) (ix2 0 ((((cfg9.win 5).blk t).view.emb j) 1))
  refine congrArg _ (funext fun a => Fin.ext ?_)
  match a with
  | ⟨0, _⟩ => show win9_1.index t (0 : Fin 2) * 1 + 1 * 0 = 0; omega
  | ⟨1, _⟩ => show win9_1.index t (1 : Fin 2) * 300 + 1 * (j 1).val = win9_5.index t (1 : Fin 2) * 300 + 1 * (j 1).val; omega

/-- Point `t`'s block of the variances (one row, not moving with the point), at the column of a block index `j`, is the array at
    that column of the output block's array index. -/
theorem blk9_2_at (c : Dev nD) (t : Fin cfg9.N) (j : S2000x300.Idx) :
    iblk9 V c 2 t (ix2 0 (j 1)) = V c (Pipeline.arrRef spec9 2) (ix2 0 ((((cfg9.win 5).blk t).view.emb j) 1)) := by
  obtain ⟨e00, e01, e50, e51, e10, e11, e20, e21, e30, e31, e40, e41⟩ := idx_facts9 t
  have hjc : (j 1).val < 300 := (j 1).isLt
  show V c (Pipeline.arrRef spec9 2) (((cfg9.win 2).blk t).view.emb (ix2 0 (j 1))) = V c (Pipeline.arrRef spec9 2) (ix2 0 ((((cfg9.win 5).blk t).view.emb j) 1))
  refine congrArg _ (funext fun a => Fin.ext ?_)
  match a with
  | ⟨0, _⟩ => show win9_2.index t (0 : Fin 2) * 1 + 1 * 0 = 0; omega
  | ⟨1, _⟩ => show win9_2.index t (1 : Fin 2) * 300 + 1 * (j 1).val = win9_5.index t (1 : Fin 2) * 300 + 1 * (j 1).val; omega

/-- Point `t`'s block of the scales (one row, not moving with the point), at the column of a block index `j`, is the array at
    that column of the output block's array index. -/
theorem blk9_3_at (c : Dev nD) (t : Fin cfg9.N) (j : S2000x300.Idx) :
    iblk9 V c 3 t (ix2 0 (j 1)) = V c (Pipeline.arrRef spec9 3) (ix2 0 ((((cfg9.win 5).blk t).view.emb j) 1)) := by
  obtain ⟨e00, e01, e50, e51, e10, e11, e20, e21, e30, e31, e40, e41⟩ := idx_facts9 t
  have hjc : (j 1).val < 300 := (j 1).isLt
  show V c (Pipeline.arrRef spec9 3) (((cfg9.win 3).blk t).view.emb (ix2 0 (j 1))) = V c (Pipeline.arrRef spec9 3) (ix2 0 ((((cfg9.win 5).blk t).view.emb j) 1))
  refine congrArg _ (funext fun a => Fin.ext ?_)
  match a with
  | ⟨0, _⟩ => show win9_3.index t (0 : Fin 2) * 1 + 1 * 0 = 0; omega
  | ⟨1, _⟩ => show win9_3.index t (1 : Fin 2) * 300 + 1 * (j 1).val = win9_5.index t (1 : Fin 2) * 300 + 1 * (j 1).val; omega

/-- Point `t`'s block of the shifts (one row, not moving with the point), at the column of a block index `j`, is the array at
    that column of the output block's array index. -/
theorem blk9_4_at (c : Dev nD) (t : Fin cfg9.N) (j : S2000x300.Idx) :
    iblk9 V c 4 t (ix2 0 (j 1)) = V c (Pipeline.arrRef spec9 4) (ix2 0 ((((cfg9.win 5).blk t).view.emb j) 1)) := by
  obtain ⟨e00, e01, e50, e51, e10, e11, e20, e21, e30, e31, e40, e41⟩ := idx_facts9 t
  have hjc : (j 1).val < 300 := (j 1).isLt
  show V c (Pipeline.arrRef spec9 4) (((cfg9.win 4).blk t).view.emb (ix2 0 (j 1))) = V c (Pipeline.arrRef spec9 4) (ix2 0 ((((cfg9.win 5).blk t).view.emb j) 1))
  refine congrArg _ (funext fun a => Fin.ext ?_)
  match a with
  | ⟨0, _⟩ => show win9_4.index t (0 : Fin 2) * 1 + 1 * 0 = 0; omega
  | ⟨1, _⟩ => show win9_4.index t (1 : Fin 2) * 300 + 1 * (j 1).val = win9_5.index t (1 : Fin 2) * 300 + 1 * (j 1).val; omega

/-- What point `t` writes back is block `t` of `G9`. -/
theorem flushed9_5_eq (c : Dev nD) (t : Fin cfg9.N) :
    (dat9 V c).flushed 5 t = ((cfg9.win 5).blk t).view.read (Elt Ideal) (G9 V c) := by
  show (cfg9.win 5).cut (grid9.coords t) ((dat9 V c).after 5 t) = _
  rw [after9_5]
  unfold out9_5
  rw [View.canon_unit_zero zero_off9]
  simp only [View.ld_unit_zero (S := S2000x300) zero_off9, View.ld_unit_zero (S := S1x300) zero_off9]
  funext j
  show k9_pay1 (F := Ideal) (iblk9 V c 0 t) (iblk9 V c 2 t) (iblk9 V c 1 t) (iblk9 V c 3 t) (iblk9 V c 4 t) j
    = G9 V c (((cfg9.win 5).blk t).view.emb j)
  exact pay9_eq_bnRelu _ _ _ _ _ _ _ _ _ _ j _ (blk9_0_at V c t j) (blk9_1_at V c t j) (blk9_2_at V c t j)
    (blk9_3_at V c t j) (blk9_4_at V c t j)

/-! ## The blocks tile the array -/

/-- An index of the array is in point `t`'s block iff each coordinate is in the block's range on its axis. -/
theorem inblk9_5 (t : Fin cfg9.N) (i : S50000x300.Idx) :
    i ∈ ((cfg9.win 5).blk t).view.set ↔ ∀ a : Fin 2, win9_5.index t a * S2000x300.size a ≤ (i a).val ∧ (i a).val < win9_5.index t a * S2000x300.size a + S2000x300.size a := by
  show i ∈ ((View.whole (Pipeline.arrRef spec9 5)).slice (win9_5.rect t)).set ↔ _
  rw [View.set_slice_whole, Rect.mem_set_unit]
  exact Iff.rfl

/-- Every index is in some point's block: row `r` is in block `r / 2000`, which spans the columns. -/
theorem cover9_arr (i : S50000x300.Idx) :
    ∃ t : Fin cfg9.N, (cfg9.win 5).flush t = true ∧ i ∈ ((cfg9.win 5).blk t).view.set := by
  have hir : (i 0).val < 50000 := (i 0).isLt
  have hic : (i 1).val < 300 := (i 1).isLt
  have ht : (i 0).val / 2000 < cfg9.N := by show _ < 25; omega
  obtain ⟨-, -, e50, e51, -⟩ := idx_facts9 ⟨(i 0).val / 2000, ht⟩
  refine ⟨⟨(i 0).val / 2000, ht⟩, flush9_5 _, ?_⟩
  rw [inblk9_5]
  intro a
  match a with
  | ⟨0, _⟩ =>
    show win9_5.index ⟨(i 0).val / 2000, ht⟩ (0 : Fin 2) * 2000 ≤ (i 0).val ∧ (i 0).val < win9_5.index ⟨(i 0).val / 2000, ht⟩ (0 : Fin 2) * 2000 + 2000
    rw [e50]; show (i 0).val / 2000 * 2000 ≤ (i 0).val ∧ (i 0).val < (i 0).val / 2000 * 2000 + 2000; omega
  | ⟨1, _⟩ =>
    show win9_5.index ⟨(i 0).val / 2000, ht⟩ (1 : Fin 2) * 300 ≤ (i 1).val ∧ (i 1).val < win9_5.index ⟨(i 0).val / 2000, ht⟩ (1 : Fin 2) * 300 + 300
    rw [e51]; omega

/-! ## The arrays after the region -/

/-- The output array after the region is the normalisation of the entry arrays. -/
theorem final9_5 (c : Dev nD) :
    (dat9 V c).arrAt 5 cfg9.N
      = Cert.Spec.bnRelu (V c (Pipeline.arrRef spec9 0)) (V c (Pipeline.arrRef spec9 1)) (V c (Pipeline.arrRef spec9 2))
          (V c (Pipeline.arrRef spec9 3)) (V c (Pipeline.arrRef spec9 4)) (Ideal.ofBits .f32 0x3727C5AC#32) :=
  (dat9 V c).arrAt_eq_of_cover 5 (G9 V c) (fun t _ => flushed9_5_eq V c t) cover9_arr

/-- Each input array is as the region found it: the pipeline stages it and never writes it back. -/
theorem final9_0 (c : Dev nD) : (dat9 V c).arrAt 0 cfg9.N = V c (Pipeline.arrRef spec9 0) :=
  ((dat9 V c).arrAt_in 0 rfl _).trans (A_eq9 V c 0)
theorem final9_1 (c : Dev nD) : (dat9 V c).arrAt 1 cfg9.N = V c (Pipeline.arrRef spec9 1) :=
  ((dat9 V c).arrAt_in 1 rfl _).trans (A_eq9 V c 1)
theorem final9_2 (c : Dev nD) : (dat9 V c).arrAt 2 cfg9.N = V c (Pipeline.arrRef spec9 2) :=
  ((dat9 V c).arrAt_in 2 rfl _).trans (A_eq9 V c 2)
theorem final9_3 (c : Dev nD) : (dat9 V c).arrAt 3 cfg9.N = V c (Pipeline.arrRef spec9 3) :=
  ((dat9 V c).arrAt_in 3 rfl _).trans (A_eq9 V c 3)
theorem final9_4 (c : Dev nD) : (dat9 V c).arrAt 4 cfg9.N = V c (Pipeline.arrRef spec9 4) :=
  ((dat9 V c).arrAt_in 4 rfl _).trans (A_eq9 V c 4)

end Region1

end Cert.KernelIdeal.HandV
-- ==== Proof.Glue.MP.lean ====
/-
  Message passing, named once.

  One round of neighbourhood aggregation: every edge e carries the message
    h[src e] + (E1[a0 e] + E2[a1 e])
  (negative indices wrapped once, as array indexing does), and node n collects the sum of the messages of the
  edges whose destination is n.  Both programs run exactly this chain of host operations on their operands, so it
  is named here as ONE function of its seven operands and is never opened afterwards: all that is ever used of it
  is that equal operands give equal results.
-/
import proofs.«409348_j89627377533173_1_alg».proof.Proof.Gen.KernelIdeal

noncomputable section

namespace Cert.KernelIdeal.HandV

open Idealize.ShloMosaic
open Cert.KernelIdeal Cert.KernelIdeal.Gen

variable {F : FTy → Type} [FloatOps F]

/-- The aggregated messages: `h` the node features, `e1` / `e2` the two edge-attribute embedding tables of the
    layer, `src` / `dst` the edge ends, `a0` / `a1` the two edge attributes. -/
def MP (h : (⟨S50000x300, .f32⟩ : BufTy).Contents (Elt F))
    (e1 : (⟨S6x300, .f32⟩ : BufTy).Contents (Elt F)) (e2 : (⟨S3x300, .f32⟩ : BufTy).Contents (Elt F))
    (src dst a0 a1 : (⟨S256000, .i32⟩ : BufTy).Contents (Elt F)) : (⟨S50000x300, .f32⟩ : BufTy).Contents (Elt F) :=
  Host.scatterAdd scatter_S50000x300_S256000x1_S256000x300_1_0_0_1
    (broadcastInDim S50000x300 ![] bcast_S_S50000x300 (constant S_ .f32 0x00000000#32))
    (broadcastInDim S256000x1 ![0] bcast_S256000_S256000x1_0 dst)
    (addf
      (Host.gather gather_S50000x300_S256000x1_S256000x300_1_0_n_n_0_1_1300 h
        (broadcastInDim S256000x1 ![0] bcast_S256000_S256000x1_0
          (select (cmpi .slt src (broadcastInDim S256000 ![] bcast_S_S256000 (constantI S_ 32 0#32)))
            (addi src (broadcastInDim S256000 ![] bcast_S_S256000 (constantI S_ 32 50000#32))) src)))
      (addf
        (Host.gather gather_S6x300_S256000x1_S256000x300_1_0_n_n_0_1_1300 e1
          (broadcastInDim S256000x1 ![0] bcast_S256000_S256000x1_0
            (select (cmpi .slt a0 (broadcastInDim S256000 ![] bcast_S_S256000 (constantI S_ 32 0#32)))
              (addi a0 (broadcastInDim S256000 ![] bcast_S_S256000 (constantI S_ 32 6#32))) a0)))
        (Host.gather gather_S3x300_S256000x1_S256000x300_1_0_n_n_0_1_1300 e2
          (broadcastInDim S256000x1 ![0] bcast_S256000_S256000x1_0
            (select (cmpi .slt a1 (broadcastInDim S256000 ![] bcast_S_S256000 (constantI S_ 32 0#32)))
              (addi a1 (broadcastInDim S256000 ![] bcast_S_S256000 (constantI S_ 32 3#32))) a1)))))

end Cert.KernelIdeal.HandV

end
-- ==== Proof.Glue.Operands.lean ====
/-
  The operands of a layer, named once.

  The stacked parameters carry the five layers along their leading axis; layer i's operands are row i of each, with
  the unit axis dropped.  Both programs cut them out with the same slice and reshape, so each is named here as a
  function of the stacked argument and the layer number.  The edge list and the edge attributes are cut into their
  rows / columns the same way.  A bias or a statistic travels as a vector and is handed to a kernel as a one-row
  matrix: `row` is that view.
-/
import proofs.«409348_j89627377533173_1_alg».proof.Proof.Glue.MP
import Idealize.ShloMosaic.Lib.Pipeline.Value
import Idealize.ShloMosaic.Lib.ValueIdx

noncomputable section

namespace Cert.KernelIdeal.HandV

open Idealize.ShloMosaic Idealize.ShloMosaic.ValueIdx
open Cert.KernelIdeal Cert.KernelIdeal.Gen

variable {F : FTy → Type} [FloatOps F]

/-! ### The edges -/

/-- The edges' source nodes: row 0 of the edge list. -/
def edgeSrc (x : (⟨S2x256000, .i32⟩ : BufTy).Contents (Elt F)) : (⟨S256000, .i32⟩ : BufTy).Contents (Elt F) :=
  shapeCast S256000 (extractStridedSlice S1x256000 ![0, 0] x slices_S2x256000_S1x256000_0_0) shapeCasts_S1x256000_S256000
/-- The edges' destination nodes: row 1 of the edge list. -/
def edgeDst (x : (⟨S2x256000, .i32⟩ : BufTy).Contents (Elt F)) : (⟨S256000, .i32⟩ : BufTy).Contents (Elt F) :=
  shapeCast S256000 (extractStridedSlice S1x256000 ![1, 0] x slices_S2x256000_S1x256000_1_0) shapeCasts_S1x256000_S256000
/-- The first edge attribute: column 0. -/
def attr0 (x : (⟨S256000x2, .i32⟩ : BufTy).Contents (Elt F)) : (⟨S256000, .i32⟩ : BufTy).Contents (Elt F) :=
  shapeCast S256000 (extractStridedSlice S256000x1 ![0, 0] x slices_S256000x2_S256000x1_0_0) shapeCasts_S256000x1_S256000
/-- The second edge attribute: column 1. -/
def attr1 (x : (⟨S256000x2, .i32⟩ : BufTy).Contents (Elt F)) : (⟨S256000, .i32⟩ : BufTy).Contents (Elt F) :=
  shapeCast S256000 (extractStridedSlice S256000x1 ![0, 1] x slices_S256000x2_S256000x1_0_1) shapeCasts_S256000x1_S256000

/-! ### Row i of the stacked parameters -/

theorem slices_e1 (i : Fin 5) : S5x6x300.Slices ![i.val, 0, 0] S1x6x300 := by revert i; decide
theorem slices_e2 (i : Fin 5) : S5x3x300.Slices ![i.val, 0, 0] S1x3x300 := by revert i; decide
theorem slices_w1 (i : Fin 5) : S5x300x600.Slices ![i.val, 0, 0] S1x300x600 := by revert i; decide
theorem slices_b1 (i : Fin 5) : S5x600.Slices ![i.val, 0] S1x600 := by revert i; decide
theorem slices_w2 (i : Fin 5) : S5x600x300.Slices ![i.val, 0, 0] S1x600x300 := by revert i; decide
theorem slices_r300 (i : Fin 5) : S5x300.Slices ![i.val, 0] S1x300 := by revert i; decide

/-- Layer i's first edge-attribute embedding table. -/
def E1 (i : Fin 5) (x : (⟨S5x6x300, .f32⟩ : BufTy).Contents (Elt F)) : (⟨S6x300, .f32⟩ : BufTy).Contents (Elt F) :=
  shapeCast S6x300 (extractStridedSlice S1x6x300 ![i.val, 0, 0] x (slices_e1 i)) shapeCasts_S1x6x300_S6x300
/-- Layer i's second edge-attribute embedding table. -/
def E2 (i : Fin 5) (x : (⟨S5x3x300, .f32⟩ : BufTy).Contents (Elt F)) : (⟨S3x300, .f32⟩ : BufTy).Contents (Elt F) :=
  shapeCast S3x300 (extractStridedSlice S1x3x300 ![i.val, 0, 0] x (slices_e2 i)) shapeCasts_S1x3x300_S3x300
/-- Layer i's first weight matrix. -/
def W1 (i : Fin 5) (x : (⟨S5x300x600, .f32⟩ : BufTy).Contents (Elt F)) : (⟨S300x600, .f32⟩ : BufTy).Contents (Elt F) :=
  shapeCast S300x600 (extractStridedSlice S1x300x600 ![i.val, 0, 0] x (slices_w1 i)) shapeCasts_S1x300x600_S300x600
/-- Layer i's first bias, as a vector. -/
def B1 (i : Fin 5) (x : (⟨S5x600, .f32⟩ : BufTy).Contents (Elt F)) : (⟨S600, .f32⟩ : BufTy).Contents (Elt F) :=
  shapeCast S600 (extractStridedSlice S1x600 ![i.val, 0] x (slices_b1 i)) shapeCasts_S1x600_S600
/-- Layer i's second weight matrix. -/
def W2 (i : Fin 5) (x : (⟨S5x600x300, .f32⟩ : BufTy).Contents (Elt F)) : (⟨S600x300, .f32⟩ : BufTy).Contents (Elt F) :=
  shapeCast S600x300 (extractStridedSlice S1x600x300 ![i.val, 0, 0] x (slices_w2 i)) shapeCasts_S1x600x300_S600x300
/-- Row i of a stack of five 300-vectors (the second bias, the scale, the shift), as a vector. -/
def R300 (i : Fin 5) (x : (⟨S5x300, .f32⟩ : BufTy).Contents (Elt F)) : (⟨S300, .f32⟩ : BufTy).Contents (Elt F) :=
  shapeCast S300 (extractStridedSlice S1x300 ![i.val, 0] x (slices_r300 i)) shapeCasts_S1x300_S300

/-! ### A vector as a one-row matrix -/

/-- The one-row matrix whose row is `v`. -/
def row {α : Type} {n : Nat} (v : (⟨1, ![n]⟩ : Shape).Idx → α) : (⟨2, ![1, n]⟩ : Shape).Idx → α := fun j => v (ix1 (j 1))

theorem row_apply {α : Type} {n : Nat} (v : (⟨1, ![n]⟩ : Shape).Idx → α) (j : (⟨2, ![1, n]⟩ : Shape).Idx) :
    row v j = v (ix1 (j 1)) := rfl

/-- An index of a one-row matrix is row 0 at its column. -/
theorem ix2_zero_snd {n : Nat} (j : (⟨2, ![1, n]⟩ : Shape).Idx) : ix2 (0 : Fin 1) (j 1) = j := by
  funext a
  match a with
  | ⟨0, _⟩ => exact Fin.ext (by have := idx2_lt0 j; show (0 : ℕ) = (j 0).val; omega)
  | ⟨1, _⟩ => rfl

/-- Reshaping a vector to one row is its row view. -/
theorem shapeCast_vec_row {α : Type} {n : Nat} (v : (⟨1, ![n]⟩ : Shape).Idx → α)
    (h : (⟨1, ![n]⟩ : Shape).ShapeCasts ⟨2, ![1, n]⟩) : shapeCast ⟨2, ![1, n]⟩ v h = row v := by
  funext j
  refine shapeCast_apply v h j (ix1 (j 1)) ?_
  rw [Shape.rowMajor_val_one, Shape.rowMajor_val_two]
  have h0 : (j 0).val < 1 := idx2_lt0 j
  show (j 1).val = (j 0).val * n + (j 1).val
  have h1 : (j 0).val = 0 := by omega
  rw [h1, Nat.zero_mul, Nat.zero_add]

/-- Reshaping one row to a vector reads the row. -/
theorem shapeCast_row_vec_apply {α : Type} {n : Nat} (x : (⟨2, ![1, n]⟩ : Shape).Idx → α)
    (h : (⟨2, ![1, n]⟩ : Shape).ShapeCasts ⟨1, ![n]⟩) (k : (⟨1, ![n]⟩ : Shape).Idx) :
    shapeCast ⟨1, ![n]⟩ x h k = x (ix2 0 (k 0)) := by
  refine shapeCast_apply x h k (ix2 0 (k 0)) ?_
  rw [Shape.rowMajor_val_one, Shape.rowMajor_val_two]
  show (0 : Fin 1).val * n + (k 0).val = (k 0).val
  simp

/-- A one-row matrix is the row view of its row. -/
theorem row_shapeCast_row_vec {α : Type} {n : Nat} (x : (⟨2, ![1, n]⟩ : Shape).Idx → α)
    (h : (⟨2, ![1, n]⟩ : Shape).ShapeCasts ⟨1, ![n]⟩) : row (shapeCast ⟨1, ![n]⟩ x h) = x := by
  funext j
  rw [row_apply, shapeCast_row_vec_apply]
  exact congrArg x (ix2_zero_snd j)

end Cert.KernelIdeal.HandV

end
-- ==== Proof.Glue.Stats.lean ====
/-
  The kernel program's batch statistics, read at an index.

  The host divides the column sums by the row count to get the mean, and takes the column sums of squares over the
  row count less the mean squared as the variance; both travel as vectors and come back as one-row matrices.  Read at
  an index of the one-row matrix these are the entrywise quotient and difference.
-/
import proofs.«409348_j89627377533173_1_alg».proof.Proof.Glue.Operands
import proofs.«409348_j89627377533173_1_alg».proof.Proof.Consts

noncomputable section

namespace Cert.KernelIdeal.HandV

open Idealize.ShloMosaic Idealize.ShloMosaic.ValueIdx
open Cert.KernelIdeal Cert.KernelIdeal.Gen

/-- The mean's term at an index: the column sum over the row count. -/
theorem mean_term_apply (s : FVec Ideal S1x300 .f32) (j : S1x300.Idx) :
    row (Host.divf (shapeCast S300 s shapeCasts_S1x300_S300)
      (broadcastInDim S300 ![] bcast_S_S300 (constant (F := Ideal) S_ .f32 0x47435000#32))) j
      = Ideal.div (s j) ((50000 : ℝ) : EReal) := by
  rw [row_apply]
  show Ideal.div (shapeCast S300 s shapeCasts_S1x300_S300 (ix1 (j 1))) (Ideal.ofBits .f32 0x47435000#32) = _
  rw [shapeCast_row_vec_apply, Cert.Consts.ofBits_50000]
  exact congrArg (fun k => Ideal.div (s k) ((50000 : ℝ) : EReal)) (ix2_zero_snd j)

/-- The variance's term at an index: the column sum of squares over the row count, less the mean squared. -/
theorem var_term_apply (ss mean : FVec Ideal S1x300 .f32) (j : S1x300.Idx) :
    row (subf (Host.divf (shapeCast S300 ss shapeCasts_S1x300_S300)
        (broadcastInDim S300 ![] bcast_S_S300 (constant (F := Ideal) S_ .f32 0x47435000#32)))
      (mulf (shapeCast S300 mean shapeCasts_S1x300_S300) (shapeCast S300 mean shapeCasts_S1x300_S300))) j
      = Ideal.div (ss j) ((50000 : ℝ) : EReal) - mean j * mean j := by
  rw [row_apply]
  show Ideal.div (shapeCast S300 ss shapeCasts_S1x300_S300 (ix1 (j 1))) (Ideal.ofBits .f32 0x47435000#32)
      - shapeCast S300 mean shapeCasts_S1x300_S300 (ix1 (j 1)) * shapeCast S300 mean shapeCasts_S1x300_S300 (ix1 (j 1)) = _
  rw [shapeCast_row_vec_apply, shapeCast_row_vec_apply, Cert.Consts.ofBits_50000]
  exact congrArg (fun k => Ideal.div (ss k) ((50000 : ℝ) : EReal) - mean k * mean k) (ix2_zero_snd j)

/-- The mean from the column sums. -/
def meanOfSums (s : FVec Ideal S1x300 .f32) : FVec Ideal S1x300 .f32 := fun j => Ideal.div (s j) ((50000 : ℝ) : EReal)

/-- The variance from the column sums of squares and the mean. -/
def varOfSums (ss mean : FVec Ideal S1x300 .f32) : FVec Ideal S1x300 .f32 :=
  fun j => Ideal.div (ss j) ((50000 : ℝ) : EReal) - mean j * mean j

theorem mean_term_eq (s : FVec Ideal S1x300 .f32) :
    row (Host.divf (shapeCast S300 s shapeCasts_S1x300_S300)
      (broadcastInDim S300 ![] bcast_S_S300 (constant (F := Ideal) S_ .f32 0x47435000#32))) = meanOfSums s :=
  funext fun j => mean_term_apply s j

theorem var_term_eq (ss mean : FVec Ideal S1x300 .f32) :
    row (subf (Host.divf (shapeCast S300 ss shapeCasts_S1x300_S300)
        (broadcastInDim S300 ![] bcast_S_S300 (constant (F := Ideal) S_ .f32 0x47435000#32)))
      (mulf (shapeCast S300 mean shapeCasts_S1x300_S300) (shapeCast S300 mean shapeCasts_S1x300_S300))) = varOfSums ss mean :=
  funext fun j => var_term_apply ss mean j

end Cert.KernelIdeal.HandV

end
-- ==== Proof.Math.Real.lean ====
/-
  Real-valuedness: an array of extended reals all of whose entries are real numbers (no infinity).
  The layer's operations (sums, products, the clip at zero, division by a nonzero real, the reciprocal root of a
  positive real) keep every entry real; so a layer maps real arrays to real arrays.
-/
import proofs.«409348_j89627377533173_1_alg».proof.Proof.Spec

noncomputable section

open scoped BigOperators

namespace Cert.Math

open Idealize.ShloMosaic Idealize.ShloMosaic.ValueIdx Cert.Spec

/-- Every entry is a real number. -/
def IsReal {S : Shape} (x : S.Idx → EReal) : Prop := ∀ i, ∃ r : ℝ, x i = (r : EReal)

/-! ### Scalars -/

theorem real_add {x y : EReal} (hx : ∃ r : ℝ, x = r) (hy : ∃ r : ℝ, y = r) : ∃ r : ℝ, x + y = r := by
  obtain ⟨a, rfl⟩ := hx; obtain ⟨b, rfl⟩ := hy; exact ⟨a + b, (EReal.coe_add a b).symm⟩

theorem real_sub {x y : EReal} (hx : ∃ r : ℝ, x = r) (hy : ∃ r : ℝ, y = r) : ∃ r : ℝ, x - y = r := by
  obtain ⟨a, rfl⟩ := hx; obtain ⟨b, rfl⟩ := hy; exact ⟨a - b, (EReal.coe_sub a b).symm⟩

theorem real_mul {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩

theorem real_max_zero {x : EReal} (hx : ∃ r : ℝ, x = r) : ∃ r : ℝ, max x 0 = r := by
  obtain ⟨a, rfl⟩ := hx
  rcases le_total (a : EReal) 0 with h | h
  · exact ⟨0, by rw [max_eq_right h]; rfl⟩
  · exact ⟨a, max_eq_left h⟩

/-- The coercion commutes with a finite sum. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem real_sum {ι : Type*} (s : Finset ι) (f : ι → EReal) (hf : ∀ i ∈ s, ∃ r : ℝ, f i = r) :
    ∃ r : ℝ, ∑ i ∈ s, f i = r := by
  classical
  induction s using Finset.induction_on with
  | empty => exact ⟨0, by simp⟩
  | insert a s ha ih =>
    rw [Finset.sum_insert ha]
    exact real_add (hf a (Finset.mem_insert_self a s)) (ih fun i hi => hf i (Finset.mem_insert_of_mem hi))

theorem real_div_coe {x : EReal} {y : ℝ} (hy : y ≠ 0) (hx : ∃ r : ℝ, x = r) : ∃ r : ℝ, Ideal.div x (y : EReal) = r := by
  rw [Ideal.div_coe hy]; exact real_mul hx ⟨_, rfl⟩

/-- The reciprocal root of a positive real is a real. -/
theorem real_rsqrt_pos {r : ℝ} (hr : 0 < r) : ∃ t : ℝ, Ideal.rsqrt (r : EReal) = t := by
  refine ⟨(Real.sqrt r)⁻¹, ?_⟩
  rw [Ideal.rsqrt_coe, if_neg (not_lt.2 hr.le), if_neg hr.ne']

/-! ### The layer's arrays -/

theorem isReal_hid {agg h : SNE.Idx → EReal} {w1 : SEH.Idx → EReal} {b1 : S1H.Idx → EReal}
    (hagg : IsReal agg) (hh : IsReal h) (hw1 : IsReal w1) (hb1 : IsReal b1) : IsReal (hid agg h w1 b1) := by
  intro j
  exact real_max_zero (real_add (real_sum _ _ fun k _ => real_mul (real_add (hagg _) (hh _)) (hw1 _)) (hb1 _))

theorem isReal_mlpZ {agg h : SNE.Idx → EReal} {w1 : SEH.Idx → EReal} {b1 : S1H.Idx → EReal} {w2 : SHE.Idx → EReal}
    {b2 : S1E.Idx → EReal} (hagg : IsReal agg) (hh : IsReal h) (hw1 : IsReal w1) (hb1 : IsReal b1) (hw2 : IsReal w2)
    (hb2 : IsReal b2) : IsReal (mlpZ agg h w1 b1 w2 b2) := by
  intro j
  exact real_add (real_sum _ _ fun k _ => real_mul (isReal_hid hagg hh hw1 hb1 _) (hw2 _)) (hb2 _)

theorem isReal_colSum {z : SNE.Idx → EReal} (hz : IsReal z) : IsReal (colSum z) := by
  intro j
  exact real_sum _ _ fun n _ => hz _

theorem isReal_colSumSq {z : SNE.Idx → EReal} (hz : IsReal z) : IsReal (colSumSq z) := by
  intro j
  exact real_sum _ _ fun n _ => real_mul (hz _) (hz _)

/-- Normalisation keeps the entries real when the variance is a nonnegative real and the stabiliser a positive real. -/
theorem isReal_bnRelu {z : SNE.Idx → EReal} {mean var gamma beta : S1E.Idx → EReal} {eps : EReal}
    (hz : IsReal z) (hmean : IsReal mean) (hvar : ∀ i, ∃ v : ℝ, 0 ≤ v ∧ var i = (v : EReal)) (hgamma : IsReal gamma)
    (hbeta : IsReal beta) (heps : ∃ e : ℝ, 0 < e ∧ eps = (e : EReal)) : IsReal (bnRelu z mean var gamma beta eps) := by
  intro j
  obtain ⟨e, he, rfl⟩ := heps
  obtain ⟨v, hv, hvj⟩ := hvar (ix2 0 (j 1))
  have hroot : ∃ t : ℝ, Ideal.rsqrt (var (ix2 0 (j 1)) + (e : EReal)) = t := by
    rw [hvj, ← EReal.coe_add]; exact real_rsqrt_pos (by positivity)
  exact real_max_zero (real_add (real_mul (real_mul (real_sub (hz _) (hmean _)) hroot) (hgamma _)) (hbeta _))

end Cert.Math

end
-- ==== Proof.Math.Variance.lean ====
/-
  The column variance two ways.  One side divides the column sums of z and of z² by the row count and takes
  (mean of squares) − (mean)²; the other subtracts the mean from every entry and takes the mean of the squared
  deviations.  Over real entries, with the divisor equal to the number of rows, these are the same number, and it is
  nonnegative.  So normalising by either gives the same array.
-/
import proofs.«409348_j89627377533173_1_alg».proof.Proof.Math.Real

noncomputable section

open scoped BigOperators

namespace Cert.Math

open Idealize.ShloMosaic Idealize.ShloMosaic.ValueIdx Cert.Spec

/-! ### Over the reals -/

/-- The mean of the squares less the square of the mean is the mean of the squared deviations, when the divisor is
    the number of terms. -/
theorem real_var_identity {ι : Type*} (s : Finset ι) (f : ι → ℝ) (N : ℝ) (hN : N ≠ 0) (hc : (s.card : ℝ) = N) :
    (∑ i ∈ s, f i * f i) * (1 / N) - ((∑ i ∈ s, f i) * (1 / N)) * ((∑ i ∈ s, f i) * (1 / N))
      = (∑ i ∈ s, (f i - (∑ i ∈ s, f i) * (1 / N)) * (f i - (∑ i ∈ s, f i) * (1 / N))) * (1 / N) := by
  set m : ℝ := (∑ i ∈ s, f i) * (1 / N) with hm
  have hsum : ∑ i ∈ s, f i = m * N := by rw [hm]; field_simp
  have hexp : ∑ i ∈ s, (f i - m) * (f i - m) = (∑ i ∈ s, f i * f i) - 2 * m * (∑ i ∈ s, f i) + N * (m * m) := by
    have : ∀ i, (f i - m) * (f i - m) = f i * f i - 2 * m * f i + m * m := fun i => by ring
    simp only [this, Finset.sum_add_distrib, Finset.sum_sub_distrib, ← Finset.mul_sum, Finset.sum_const, nsmul_eq_mul, hc]
    ring
  rw [hexp, hsum]; field_simp; ring

/-! ### One column of extended reals, in the two programs' operator forms -/

/-- For a column of reals, divisor the number of rows. -/
theorem var_col {m : ℕ} (f : Fin m → EReal) (hf : ∀ n, ∃ r : ℝ, f n = r) (N : ℝ) (hN : N ≠ 0) (hm : (m : ℝ) = N) :
    Ideal.div (∑ n, f n * f n) (N : EReal) - Ideal.div (∑ n, f n) (N : EReal) * Ideal.div (∑ n, f n) (N : EReal)
      = Ideal.div (∑ n, (f n - Ideal.div (∑ n, f n) (N : EReal)) * (f n - Ideal.div (∑ n, f n) (N : EReal))) (N : EReal) := by
  choose g hg using hf
  have hfg : f = fun n => (g n : EReal) := funext hg
  subst hfg
  simp only [Ideal.div_coe hN, ← EReal.coe_mul, coe_sum, ← EReal.coe_sub]
  congr 1
  exact real_var_identity Finset.univ g N hN (by simpa using hm)

/-- The mean of squared deviations of a column of reals is a nonnegative real. -/
theorem var_col_nonneg {m : ℕ} (f : Fin m → EReal) (hf : ∀ n, ∃ r : ℝ, f n = r) (N : ℝ) (hN : 0 < N) :
    ∃ v : ℝ, 0 ≤ v ∧
      Ideal.div (∑ n, (f n - Ideal.div (∑ n, f n) (N : EReal)) * (f n - Ideal.div (∑ n, f n) (N : EReal))) (N : EReal) = v := by
  choose g hg using hf
  have hfg : f = fun n => (g n : EReal) := funext hg
  subst hfg
  simp only [Ideal.div_coe hN.ne', ← EReal.coe_mul, coe_sum, ← EReal.coe_sub]
  exact ⟨_, mul_nonneg (Finset.sum_nonneg fun i _ => mul_self_nonneg _) (by positivity), rfl⟩

/-! ### The 50000 x 300 array -/

/-- The row count, as the extended real both programs divide by. -/
abbrev rows : EReal := ((50000 : ℝ) : EReal)

/-- Column means: the column sums over the row count. -/
def colMean (z : SNE.Idx → EReal) : S1E.Idx → EReal := fun j => Ideal.div (colSum z j) rows

/-- The variance from the two moments: mean of squares less the square of the mean. -/
def varOfMoments (z : SNE.Idx → EReal) : S1E.Idx → EReal :=
  fun j => Ideal.div (colSumSq z j) rows - Ideal.div (colSum z j) rows * Ideal.div (colSum z j) rows

/-- The variance from the deviations: the mean over the rows of the squared distance to the column mean. -/
def varOfDeviations (z : SNE.Idx → EReal) : S1E.Idx → EReal :=
  fun j => Ideal.div (∑ n : Fin 50000, (z (ix2 n (j 1)) - Ideal.div (∑ n : Fin 50000, z (ix2 n (j 1))) rows)
    * (z (ix2 n (j 1)) - Ideal.div (∑ n : Fin 50000, z (ix2 n (j 1))) rows)) rows

/-- A column statistic depends on the column only: its value at any index is its value at row 0 of that column. -/
theorem colMean_row (z : SNE.Idx → EReal) (j : S1E.Idx) : colMean z (ix2 0 (j 1)) = colMean z j := rfl
theorem varOfMoments_row (z : SNE.Idx → EReal) (j : S1E.Idx) : varOfMoments z (ix2 0 (j 1)) = varOfMoments z j := rfl
theorem varOfDeviations_row (z : SNE.Idx → EReal) (j : S1E.Idx) : varOfDeviations z (ix2 0 (j 1)) = varOfDeviations z j := rfl

/-- The deviations are taken from the column mean. -/
theorem varOfDeviations_eq (z : SNE.Idx → EReal) (j : S1E.Idx) :
    varOfDeviations z j = Ideal.div (∑ n : Fin 50000, (z (ix2 n (j 1)) - colMean z j) * (z (ix2 n (j 1)) - colMean z j)) rows := rfl

theorem isReal_colMean {z : SNE.Idx → EReal} (hz : IsReal z) : IsReal (colMean z) :=
  fun j => real_div_coe (by norm_num) (isReal_colSum hz j)

/-- THE VARIANCE IDENTITY: for real entries the two variances are the same array. -/
theorem varOfMoments_eq_varOfDeviations {z : SNE.Idx → EReal} (hz : IsReal z) : varOfMoments z = varOfDeviations z := by
  funext j
  exact var_col (fun n : Fin 50000 => z (ix2 n (j 1))) (fun n => hz _) 50000 (by norm_num) (by norm_num)

/-- The variance of real entries is a nonnegative real. -/
theorem varOfDeviations_nonneg {z : SNE.Idx → EReal} (hz : IsReal z) :
    ∀ j, ∃ v : ℝ, 0 ≤ v ∧ varOfDeviations z j = (v : EReal) :=
  fun j => var_col_nonneg (fun n : Fin 50000 => z (ix2 n (j 1))) (fun n => hz _) 50000 (by norm_num)

theorem varOfMoments_nonneg {z : SNE.Idx → EReal} (hz : IsReal z) :
    ∀ j, ∃ v : ℝ, 0 ≤ v ∧ varOfMoments z j = (v : EReal) := by
  rw [varOfMoments_eq_varOfDeviations hz]; exact varOfDeviations_nonneg hz

/-! ### The layer -/

/-- Normalising by the moments' variance and by the deviations' variance is the same array, for real z. -/
theorem bnRelu_moments_eq_deviations {z : SNE.Idx → EReal} (hz : IsReal z) (gamma beta : S1E.Idx → EReal) (eps : EReal) :
    bnRelu z (colMean z) (varOfMoments z) gamma beta eps = bnRelu z (colMean z) (varOfDeviations z) gamma beta eps := by
  rw [varOfMoments_eq_varOfDeviations hz]

/-- The same with the statistics given as arrays known entry by entry (how each program presents them). -/
theorem bnRelu_stats_eq {z : SNE.Idx → EReal} (hz : IsReal z) {meanK varK meanR varR : S1E.Idx → EReal}
    (hmK : ∀ j, meanK j = Ideal.div (colSum z j) rows)
    (hvK : ∀ j, varK j = Ideal.div (colSumSq z j) rows - meanK j * meanK j)
    (hmR : ∀ j, meanR j = Ideal.div (∑ n : Fin 50000, z (ix2 n (j 1))) rows)
    (hvR : ∀ j, varR j = Ideal.div (∑ n : Fin 50000, (z (ix2 n (j 1)) - meanR j) * (z (ix2 n (j 1)) - meanR j)) rows)
    (gamma beta : S1E.Idx → EReal) (eps : EReal) :
    bnRelu z meanK varK gamma beta eps = bnRelu z meanR varR gamma beta eps := by
  have h1 : meanK = colMean z := funext hmK
  have h2 : meanR = colMean z := funext hmR
  have h3 : varK = varOfMoments z := by funext j; rw [hvK j, hmK j]; rfl
  have h4 : varR = varOfDeviations z := by funext j; rw [hvR j, hmR j]; rfl
  rw [h1, h2, h3, h4, varOfMoments_eq_varOfDeviations hz]

/-- The layer's output is real: real z, scale and shift, and a positive real stabiliser. -/
theorem isReal_layer {z : SNE.Idx → EReal} (hz : IsReal z) {gamma beta : S1E.Idx → EReal} (hgamma : IsReal gamma)
    (hbeta : IsReal beta) {eps : EReal} (heps : ∃ e : ℝ, 0 < e ∧ eps = (e : EReal)) :
    IsReal (bnRelu z (colMean z) (varOfDeviations z) gamma beta eps) :=
  isReal_bnRelu hz (isReal_colMean hz) (varOfDeviations_nonneg hz) hgamma hbeta heps

theorem isReal_layer_moments {z : SNE.Idx → EReal} (hz : IsReal z) {gamma beta : S1E.Idx → EReal} (hgamma : IsReal gamma)
    (hbeta : IsReal beta) {eps : EReal} (heps : ∃ e : ℝ, 0 < e ∧ eps = (e : EReal)) :
    IsReal (bnRelu z (colMean z) (varOfMoments z) gamma beta eps) :=
  isReal_bnRelu hz (isReal_colMean hz) (varOfMoments_nonneg hz) hgamma hbeta heps

end Cert.Math

end
-- ==== Proof.Math.Pool.lean ====
/-
  The pool as filtered sums.  The membership factor is 1 on the rows whose id word is the graph's number and 0 on the
  others, and on the extended reals 1 * x = x and 0 * x = 0 for every x; so a graph's pooled row is the sum of its
  rows, and its count is the number of its rows.
-/
import proofs.«409348_j89627377533173_1_alg».proof.Proof.Math.Real
import Mathlib.Algebra.BigOperators.Ring.Finset

noncomputable section

open scoped BigOperators

namespace Cert.Math

open Idealize.ShloMosaic Idealize.ShloMosaic.ValueIdx Cert.Spec

/-- The rows of graph g: those whose id word is g. -/
def rowsOf (batch : SN1.Idx → BitVec 32) (g : Fin 512) : Finset (Fin 50000) :=
  Finset.univ.filter fun n => batch (ix2 n 0) = BitVec.ofNat 32 g.val

theorem mem_rowsOf (batch : SN1.Idx → BitVec 32) (g : Fin 512) (n : Fin 50000) :
    n ∈ rowsOf batch g ↔ batch (ix2 n 0) = BitVec.ofNat 32 g.val := by
  simp [rowsOf]

/-- A graph's pooled row is the sum of its rows (for every h, infinite entries included). -/
theorem poolSums_eq_sum_rowsOf (h : SNE.Idx → EReal) (batch : SN1.Idx → BitVec 32) (j : SGE.Idx) :
    poolSums h batch j = ∑ n ∈ rowsOf batch (j 0), h (ix2 n (j 1)) := by
  unfold poolSums member rowsOf
  simp only [ite_mul, one_mul, zero_mul]
  rw [Finset.sum_filter]

/-- A graph's count is the number of its rows. -/
theorem poolCounts_eq_card (batch : SN1.Idx → BitVec 32) (j : SG1.Idx) :
    poolCounts batch j = (((rowsOf batch (j 0)).card : ℕ) : EReal) := by
  unfold poolCounts member rowsOf
  exact Finset.sum_boole _ _

/-- The count as the coercion of a real. -/
theorem poolCounts_eq_card_real (batch : SN1.Idx → BitVec 32) (j : SG1.Idx) :
    poolCounts batch j = ((((rowsOf batch (j 0)).card : ℕ) : ℝ) : EReal) := by
  rw [poolCounts_eq_card]; rfl

theorem isReal_poolCounts (batch : SN1.Idx → BitVec 32) : IsReal (poolCounts batch) :=
  fun j => ⟨_, poolCounts_eq_card_real batch j⟩

theorem poolCounts_nonneg (batch : SN1.Idx → BitVec 32) (j : SG1.Idx) : 0 ≤ poolCounts batch j := by
  rw [poolCounts_eq_card_real]; exact EReal.coe_nonneg.2 (Nat.cast_nonneg _)

theorem isReal_poolSums {h : SNE.Idx → EReal} (hh : IsReal h) (batch : SN1.Idx → BitVec 32) : IsReal (poolSums h batch) := by
  intro j
  rw [poolSums_eq_sum_rowsOf]
  exact real_sum _ _ fun n _ => hh _

end Cert.Math

end
-- ==== Proof.Glue.Layer.lean ====
/-
  One layer and the pool as functions of the stacked arguments, named once for both programs.

  Layer i takes the node features h, gathers and adds the messages (the function MP of Glue/MP.lean, never opened),
  applies the two-layer perceptron with layer i's rows of the stacked weights, and normalises every column by its
  mean and variance over the rows, scales, shifts and clips at zero.  The kernel computes the variance from the two
  moments (mean of squares less squared mean), the reference from the deviations; `layerM` and `layerD` are the two
  readings, equal wherever the pre-normalisation array is real.  The pool divides a graph's summed rows by the larger
  of its row count and one.
-/
import proofs.«409348_j89627377533173_1_alg».proof.Proof.Glue.Operands
import proofs.«409348_j89627377533173_1_alg».proof.Proof.Math.Variance
import proofs.«409348_j89627377533173_1_alg».proof.Proof.Math.Pool
import proofs.«409348_j89627377533173_1_alg».proof.Proof.Consts

noncomputable section

namespace Cert.KernelIdeal.HandV

open Idealize.ShloMosaic Idealize.ShloMosaic.ValueIdx
open Cert.KernelIdeal Cert.KernelIdeal.Gen

section Layer

variable (a1 : (⟨S5x6x300, .f32⟩ : BufTy).Contents (Elt Ideal)) (a2 : (⟨S5x3x300, .f32⟩ : BufTy).Contents (Elt Ideal))
  (a3 : (⟨S5x300x600, .f32⟩ : BufTy).Contents (Elt Ideal)) (a4 : (⟨S5x600, .f32⟩ : BufTy).Contents (Elt Ideal))
  (a5 : (⟨S5x600x300, .f32⟩ : BufTy).Contents (Elt Ideal)) (a6 a7 a8 : (⟨S5x300, .f32⟩ : BufTy).Contents (Elt Ideal))
  (a9 : (⟨S2x256000, .i32⟩ : BufTy).Contents (Elt Ideal)) (a10 : (⟨S256000x2, .i32⟩ : BufTy).Contents (Elt Ideal))

/-- Layer i before the normalisation: the perceptron of the aggregated messages and the features. -/
def layerZ (i : Fin 5) (h : (⟨S50000x300, .f32⟩ : BufTy).Contents (Elt Ideal)) : Cert.Spec.SNE.Idx → EReal :=
  Cert.Spec.mlpZ (MP (F := Ideal) h (E1 i a1) (E2 i a2) (edgeSrc a9) (edgeDst a9) (attr0 a10) (attr1 a10)) h
    (W1 i a3) (row (B1 i a4)) (W2 i a5) (row (R300 i a6))

/-- Layer i with the variance taken from the two moments. -/
def layerM (i : Fin 5) (h : (⟨S50000x300, .f32⟩ : BufTy).Contents (Elt Ideal)) : Cert.Spec.SNE.Idx → EReal :=
  Cert.Spec.bnRelu (layerZ a1 a2 a3 a4 a5 a6 a9 a10 i h) (Cert.Math.colMean (layerZ a1 a2 a3 a4 a5 a6 a9 a10 i h))
    (Cert.Math.varOfMoments (layerZ a1 a2 a3 a4 a5 a6 a9 a10 i h)) (row (R300 i a7)) (row (R300 i a8))
    ((Cert.Consts.eps : ℝ) : EReal)

/-- Layer i with the variance taken from the deviations. -/
def layerD (i : Fin 5) (h : (⟨S50000x300, .f32⟩ : BufTy).Contents (Elt Ideal)) : Cert.Spec.SNE.Idx → EReal :=
  Cert.Spec.bnRelu (layerZ a1 a2 a3 a4 a5 a6 a9 a10 i h) (Cert.Math.colMean (layerZ a1 a2 a3 a4 a5 a6 a9 a10 i h))
    (Cert.Math.varOfDeviations (layerZ a1 a2 a3 a4 a5 a6 a9 a10 i h)) (row (R300 i a7)) (row (R300 i a8))
    ((Cert.Consts.eps : ℝ) : EReal)

/-- Where the pre-normalisation array is real the two readings of the layer are the same array. -/
theorem layerM_eq_layerD (i : Fin 5) (h : (⟨S50000x300, .f32⟩ : BufTy).Contents (Elt Ideal))
    (hz : Cert.Math.IsReal (layerZ a1 a2 a3 a4 a5 a6 a9 a10 i h)) :
    layerM a1 a2 a3 a4 a5 a6 a7 a8 a9 a10 i h = layerD a1 a2 a3 a4 a5 a6 a7 a8 a9 a10 i h :=
  Cert.Math.bnRelu_moments_eq_deviations hz _ _ _

/-- The features entering layer 0, then after each of the five layers (the kernel's reading). -/
def kH0 (x : (⟨S50000x300, .f32⟩ : BufTy).Contents (Elt Ideal)) : Cert.Spec.SNE.Idx → EReal := x
def kH1 (x : (⟨S50000x300, .f32⟩ : BufTy).Contents (Elt Ideal)) : Cert.Spec.SNE.Idx → EReal :=
  layerM a1 a2 a3 a4 a5 a6 a7 a8 a9 a10 0 (kH0 x)
def kH2 (x : (⟨S50000x300, .f32⟩ : BufTy).Contents (Elt Ideal)) : Cert.Spec.SNE.Idx → EReal :=
  layerM a1 a2 a3 a4 a5 a6 a7 a8 a9 a10 1 (kH1 a1 a2 a3 a4 a5 a6 a7 a8 a9 a10 x)
def kH3 (x : (⟨S50000x300, .f32⟩ : BufTy).Contents (Elt Ideal)) : Cert.Spec.SNE.Idx → EReal :=
  layerM a1 a2 a3 a4 a5 a6 a7 a8 a9 a10 2 (kH2 a1 a2 a3 a4 a5 a6 a7 a8 a9 a10 x)
def kH4 (x : (⟨S50000x300, .f32⟩ : BufTy).Contents (Elt Ideal)) : Cert.Spec.SNE.Idx → EReal :=
  layerM a1 a2 a3 a4 a5 a6 a7 a8 a9 a10 3 (kH3 a1 a2 a3 a4 a5 a6 a7 a8 a9 a10 x)
def kH5 (x : (⟨S50000x300, .f32⟩ : BufTy).Contents (Elt Ideal)) : Cert.Spec.SNE.Idx → EReal :=
  layerM a1 a2 a3 a4 a5 a6 a7 a8 a9 a10 4 (kH4 a1 a2 a3 a4 a5 a6 a7 a8 a9 a10 x)

end Layer

/-- The graph ids as a column. -/
def batchCol (a11 : (⟨S50000, .i32⟩ : BufTy).Contents (Elt Ideal)) : (⟨S50000x1, .i32⟩ : BufTy).Contents (Elt Ideal) :=
  shapeCast S50000x1 a11 shapeCasts_S50000_S50000x1

/-- The mean pool: a graph's summed rows over the larger of its row count and one. -/
def poolOut (a11 : (⟨S50000, .i32⟩ : BufTy).Contents (Elt Ideal)) (h : Cert.Spec.SNE.Idx → EReal) : Cert.Spec.SGE.Idx → EReal :=
  fun j => Ideal.div (Cert.Spec.poolSums h (batchCol a11) j) (max (Cert.Spec.poolCounts (batchCol a11) (ix2 (j 0) 0)) 1)

end Cert.KernelIdeal.HandV

end
-- ==== Proof.Glue.KHostL4.lean ====
/-
  The kernel program's host stretches of layer 4, read as functions of the buffers they start from (an arbitrary
  valuation V).  Before the mlp region: the aggregated messages (`MP` of the features the previous layer left, the
  layer's embedding tables, and the edges' index vectors as the first stretch left them) and the layer's weights and
  biases.  Before the normalisation region: the column mean, the variance from the two moments, the scale and shift.
-/
import proofs.«409348_j89627377533173_1_alg».proof.Proof.Gen.KernelIdeal.Regions
import proofs.«409348_j89627377533173_1_alg».proof.Proof.Glue.Operands
import proofs.«409348_j89627377533173_1_alg».proof.Proof.Glue.Stats
import proofs.«409348_j89627377533173_1_alg».proof.Proof.Glue.Layer

set_option maxRecDepth 2516

noncomputable section

namespace Cert.KernelIdeal.HandV

open Idealize.ShloMosaic Idealize.ShloMosaic.TcCoe Idealize.ShloMosaic.ValueIdx
open Cert.KernelIdeal Cert.KernelIdeal.Gen

/-! ### Layer 4: before the mlp region (`hostOps8`) -/

section Layer4Mlp
variable {F : FTy → Type} [FloatOps F] (V : Valuation τ sig (Elt F))

/-- The aggregated messages of layer 4. -/
theorem host8_agg : StableHlo.after hostOps8 V (Proc.devRef .tc main_v278) =
    MP (V main_v248) (E1 (4 : Fin 5) (V main_arg1)) (E2 (4 : Fin 5) (V main_arg2)) (V main_v1) (V main_v3) (V main_v5) (V main_v7) := by
  after_results_simp <;> rfl

/-- The features the layer starts from are not written. -/
theorem host8_h : StableHlo.after hostOps8 V (Proc.devRef .tc main_v248) = V main_v248 := by
  after_results_simp

theorem host8_w1 : StableHlo.after hostOps8 V (Proc.devRef .tc main_v280) = W1 (4 : Fin 5) (V main_arg3) := by
  after_results_simp <;> rfl

theorem host8_b1 : StableHlo.after hostOps8 V (Proc.devRef .tc main_v287) = row (B1 (4 : Fin 5) (V main_arg4)) := by
  after_results_simp <;> exact shapeCast_vec_row _ _

theorem host8_w2 : StableHlo.after hostOps8 V (Proc.devRef .tc main_v284) = W2 (4 : Fin 5) (V main_arg5) := by
  after_results_simp <;> rfl

theorem host8_b2 : StableHlo.after hostOps8 V (Proc.devRef .tc main_v288) = row (R300 (4 : Fin 5) (V main_arg6)) := by
  after_results_simp <;> exact shapeCast_vec_row _ _

end Layer4Mlp

/-! ### Layer 4: before the normalisation region (`hostOps9`) -/

section Layer4Stats
variable {F : FTy → Type} [FloatOps F] (V : Valuation τ sig (Elt F))

/-- The pre-normalisation output is not written. -/
theorem host9_z : StableHlo.after hostOps9 V (Proc.devRef .tc main_v289_0) = V main_v289_0 := by
  after_results_simp

/-- The mean, as the operations' term: the column sums over the row count. -/
theorem host9_mean_term : StableHlo.after hostOps9 V (Proc.devRef .tc main_v293) =
    row (Host.divf (shapeCast S300 (V main_v289_1) shapeCasts_S1x300_S300)
      (broadcastInDim S300 ![] bcast_S_S300 (constant S_ .f32 0x47435000#32))) := by
  after_results_simp <;> exact shapeCast_vec_row _ _

/-- The variance, as the operations' term: the column sums of squares over the row count, less the mean squared. -/
theorem host9_var_term : StableHlo.after hostOps9 V (Proc.devRef .tc main_v301) =
    row (subf (Host.divf (shapeCast S300 (V main_v289_2) shapeCasts_S1x300_S300)
        (broadcastInDim S300 ![] bcast_S_S300 (constant S_ .f32 0x47435000#32)))
      (mulf (shapeCast S300 (StableHlo.after hostOps9 V (Proc.devRef .tc main_v293)) shapeCasts_S1x300_S300)
        (shapeCast S300 (StableHlo.after hostOps9 V (Proc.devRef .tc main_v293)) shapeCasts_S1x300_S300))) := by
  after_results_simp <;> exact shapeCast_vec_row _ _

theorem host9_gamma : StableHlo.after hostOps9 V (Proc.devRef .tc main_v306) = row (R300 (4 : Fin 5) (V main_arg7)) := by
  after_results_simp <;> exact shapeCast_vec_row _ _

theorem host9_beta : StableHlo.after hostOps9 V (Proc.devRef .tc main_v307) = row (R300 (4 : Fin 5) (V main_arg8)) := by
  after_results_simp <;> exact shapeCast_vec_row _ _

end Layer4Stats

section Layer4StatsIdeal
variable (V : Valuation τ sig (Elt Ideal))

/-- The mean is the column sums over the row count. -/
theorem host9_mean : StableHlo.after hostOps9 V (Proc.devRef .tc main_v293) = meanOfSums (V main_v289_1) := by
  rw [host9_mean_term]; exact mean_term_eq _

/-- The variance is the column sums of squares over the row count, less the mean squared. -/
theorem host9_var : StableHlo.after hostOps9 V (Proc.devRef .tc main_v301) =
    varOfSums (V main_v289_2) (StableHlo.after hostOps9 V (Proc.devRef .tc main_v293)) := by
  rw [host9_var_term]; exact var_term_eq _ _

end Layer4StatsIdeal

/-! ### Layer 4 as one step

From the valuation `V0` the layer starts from: the host stretch before the mlp region, the region's three outputs put
in their buffers (`Zc` the perceptron's output of the six operands, `Sc` / `SSc` its column sums and column sums of
squares), the host stretch before the normalisation region, and that region's output.  The result is the layer
function `layerM` of `V0`'s argument buffers and incoming features. -/

section Layer4Step
variable (V0 : Valuation τ sig (Elt Ideal))

/-- The buffers after the mlp region of layer 4. -/
abbrev mid4 (Zc : FVec Ideal S50000x300 .f32) (Sc SSc : FVec Ideal S1x300 .f32) : Valuation τ sig (Elt Ideal) :=
  Function.update (Function.update (Function.update (StableHlo.after hostOps8 V0) main_v289_0 Zc) main_v289_1 Sc) main_v289_2 SSc

theorem mid4_z (Zc Sc SSc) : mid4 V0 Zc Sc SSc main_v289_0 = Zc := by
  unfold mid4
  rw [Function.update_of_ne (StableHlo.devRef_ne_of_ne (by decide)), Function.update_of_ne (StableHlo.devRef_ne_of_ne (by decide)),
    Function.update_self]
theorem mid4_s (Zc Sc SSc) : mid4 V0 Zc Sc SSc main_v289_1 = Sc := by
  unfold mid4
  rw [Function.update_of_ne (StableHlo.devRef_ne_of_ne (by decide)), Function.update_self]
theorem mid4_ss (Zc Sc SSc) : mid4 V0 Zc Sc SSc main_v289_2 = SSc := by
  unfold mid4
  rw [Function.update_self]
/-- A buffer that is none of the region's outputs is as the host stretch left it. -/
theorem mid4_of_ne (Zc Sc SSc) (r : Ref sig .tc) (hz : r ≠ main_v289_0) (hs : r ≠ main_v289_1) (hss : r ≠ main_v289_2) :
    mid4 V0 Zc Sc SSc r = StableHlo.after hostOps8 V0 r := by
  unfold mid4
  rw [Function.update_of_ne (StableHlo.devRef_ne_of_ne hss), Function.update_of_ne (StableHlo.devRef_ne_of_ne hs),
    Function.update_of_ne (StableHlo.devRef_ne_of_ne hz)]

/-- The layer's result. -/
theorem kStep4 (Zc : FVec Ideal S50000x300 .f32) (Sc SSc : FVec Ideal S1x300 .f32)
    (hZ : Zc = Cert.Spec.mlpZ (StableHlo.after hostOps8 V0 (Proc.devRef .tc main_v278)) (StableHlo.after hostOps8 V0 (Proc.devRef .tc main_v248))
      (StableHlo.after hostOps8 V0 (Proc.devRef .tc main_v280)) (StableHlo.after hostOps8 V0 (Proc.devRef .tc main_v287))
      (StableHlo.after hostOps8 V0 (Proc.devRef .tc main_v284)) (StableHlo.after hostOps8 V0 (Proc.devRef .tc main_v288)))
    (hS : Sc = Cert.Spec.colSum Zc) (hSS : SSc = Cert.Spec.colSumSq Zc)
    (hsrc : V0 main_v1 = edgeSrc (V0 main_arg9)) (hdst : V0 main_v3 = edgeDst (V0 main_arg9))
    (he0 : V0 main_v5 = attr0 (V0 main_arg10)) (he1 : V0 main_v7 = attr1 (V0 main_arg10)) :
    Cert.Spec.bnRelu (StableHlo.after hostOps9 (mid4 V0 Zc Sc SSc) (Proc.devRef .tc main_v289_0))
        (StableHlo.after hostOps9 (mid4 V0 Zc Sc SSc) (Proc.devRef .tc main_v293))
        (StableHlo.after hostOps9 (mid4 V0 Zc Sc SSc) (Proc.devRef .tc main_v301))
        (StableHlo.after hostOps9 (mid4 V0 Zc Sc SSc) (Proc.devRef .tc main_v306))
        (StableHlo.after hostOps9 (mid4 V0 Zc Sc SSc) (Proc.devRef .tc main_v307))
        (Ideal.ofBits .f32 0x3727C5AC#32)
      = layerM (V0 main_arg1) (V0 main_arg2) (V0 main_arg3) (V0 main_arg4) (V0 main_arg5) (V0 main_arg6) (V0 main_arg7)
          (V0 main_arg8) (V0 main_arg9) (V0 main_arg10) (4 : Fin 5) (V0 main_v248) := by
  -- the perceptron's output is the layer's pre-normalisation array
  have hz : Zc = layerZ (V0 main_arg1) (V0 main_arg2) (V0 main_arg3) (V0 main_arg4) (V0 main_arg5) (V0 main_arg6)
      (V0 main_arg9) (V0 main_arg10) (4 : Fin 5) (V0 main_v248) := by
    rw [hZ, host8_agg, host8_h, host8_w1, host8_b1, host8_w2, host8_b2]
    rw [hsrc, hdst, he0, he1]
    rfl
  -- the normalisation region's five operands
  have e0 : StableHlo.after hostOps9 (mid4 V0 Zc Sc SSc) (Proc.devRef .tc main_v289_0) = Zc := by
    rw [host9_z]; exact mid4_z V0 Zc Sc SSc
  have e1 : (StableHlo.after hostOps9 (mid4 V0 Zc Sc SSc) (Proc.devRef .tc main_v293) : FVec Ideal S1x300 .f32)
      = Cert.Math.colMean Zc := by
    rw [host9_mean, mid4_s, hS]; rfl
  have e2 : (StableHlo.after hostOps9 (mid4 V0 Zc Sc SSc) (Proc.devRef .tc main_v301) : FVec Ideal S1x300 .f32)
      = Cert.Math.varOfMoments Zc := by
    rw [host9_var, host9_mean, mid4_ss, mid4_s, hSS, hS]; rfl
  have e3 : StableHlo.after hostOps9 (mid4 V0 Zc Sc SSc) (Proc.devRef .tc main_v306) = row (R300 (4 : Fin 5) (V0 main_arg7)) := by
    rw [host9_gamma, mid4_of_ne V0 Zc Sc SSc main_arg7 (by decide) (by decide) (by decide),
      StableHlo.after_of_writes_sub hostOps8 V0 hostOps8_writes (by decide)]
  have e4 : StableHlo.after hostOps9 (mid4 V0 Zc Sc SSc) (Proc.devRef .tc main_v307) = row (R300 (4 : Fin 5) (V0 main_arg8)) := by
    rw [host9_beta, mid4_of_ne V0 Zc Sc SSc main_arg8 (by decide) (by decide) (by decide),
      StableHlo.after_of_writes_sub hostOps8 V0 hostOps8_writes (by decide)]
  rw [e0, e1, e2, e3, e4, Cert.Consts.ofBits_eps, hz]
  rfl

/-- A buffer neither stretch writes and no region of the layer outputs is, after the layer, as `V0` has it. -/
theorem kKeep4 (Zc Sc SSc) (Hc : FVec Ideal S50000x300 .f32) (r : Ref sig .tc) (h0 : r ∉ hostOps8_W) (h1 : r ∉ hostOps9_W)
    (hz : r ≠ main_v289_0) (hs : r ≠ main_v289_1) (hss : r ≠ main_v289_2) (hh : r ≠ main_v308) :
    Function.update (StableHlo.after hostOps9 (mid4 V0 Zc Sc SSc)) main_v308 Hc r = V0 r := by
  rw [Function.update_of_ne (StableHlo.devRef_ne_of_ne hh), StableHlo.after_of_writes_sub hostOps9 _ hostOps9_writes h1,
    mid4_of_ne V0 Zc Sc SSc r hz hs hss, StableHlo.after_of_writes_sub hostOps8 V0 hostOps8_writes h0]

/-- A buffer the second stretch does not write and no region of the layer outputs is, after the layer, as the first
    stretch left it. -/
theorem kKeepMid4 (Zc Sc SSc) (Hc : FVec Ideal S50000x300 .f32) (r : Ref sig .tc) (h1 : r ∉ hostOps9_W)
    (hz : r ≠ main_v289_0) (hs : r ≠ main_v289_1) (hss : r ≠ main_v289_2) (hh : r ≠ main_v308) :
    Function.update (StableHlo.after hostOps9 (mid4 V0 Zc Sc SSc)) main_v308 Hc r = StableHlo.after hostOps8 V0 r := by
  rw [Function.update_of_ne (StableHlo.devRef_ne_of_ne hh), StableHlo.after_of_writes_sub hostOps9 _ hostOps9_writes h1,
    mid4_of_ne V0 Zc Sc SSc r hz hs hss]

/-- The layer's own output buffer holds what the normalisation region wrote. -/
theorem kSelf4 (Zc Sc SSc) (Hc : FVec Ideal S50000x300 .f32) :
    Function.update (StableHlo.after hostOps9 (mid4 V0 Zc Sc SSc)) main_v308 Hc main_v308 = Hc :=
  Function.update_self ..

end Layer4Step

end Cert.KernelIdeal.HandV

end
-- ==== Proof.KI.ValMlp6a.lean ====
/-
  What one grid point of this layer's first kernel computes, read at an index of the extended reals.

  The tile of z is relu((agg + h) W1 + b1) W2 + b2 on the tile's 1000 rows: two products into zero accumulators, a row
  of bias broadcast over the rows, a clip at zero, and format changes that are the identity on extended reals.  The two
  carried rows add to what they held the column sums of the tile, and of its squares; they start from zero, and the
  last point copies them out.
-/
import proofs.«409348_j89627377533173_1_alg».proof.Proof.KI.ValMlpOps
import proofs.«409348_j89627377533173_1_alg».proof.Proof.Spec

noncomputable section

open scoped BigOperators

namespace Cert.KernelIdeal.HandV

open Cert.KernelIdeal Cert.KernelIdeal.Gen
open Idealize.ShloMosaic Idealize.ShloMosaic.ValueIdx

/-! ## The payloads at an index -/

/-- The tile of z at a row and a column. -/
theorem k6_pay5_apply (x0 x1 : FVec Ideal S1000x300 .f32) (w1 : FVec Ideal S300x600 .f32) (b1 : FVec Ideal S1x600 .f32)
    (w2 : FVec Ideal S600x300 .f32) (b2 : FVec Ideal S1x300 .f32) (p : Fin 1000) (q : Fin 300) :
    k6_pay5 (F := Ideal) x0 x1 w1 b1 w2 b2 (ix2 p q)
      = (∑ k : Fin 600, max ((∑ l : Fin 300, (x0 (ix2 p l) + x1 (ix2 p l)) * w1 (ix2 l k)) + b1 (ix2 0 k)) 0 * w2 (ix2 k q))
        + b2 (ix2 0 q) := by
  unfold k6_pay5
  simp only [shapeCast_self]
  rw [addf_apply, matmul_d2_apply, broadcastTo_1b_ab_apply]
  refine congrArg (· + b2 (ix2 0 q)) (Finset.sum_congr rfl fun k _ => ?_)
  rw [truncf_apply, truncf_apply, maximumf_apply, addf_apply, matmul_d1_apply, broadcastTo_1b_ab_apply, broadcast_apply]
  show max ((∑ l : Fin 300, (x0 (ix2 p l) + x1 (ix2 p l)) * w1 (ix2 l k)) + b1 (ix2 0 k)) (Ideal.ofBits .f32 0x00000000#32)
      * w2 (ix2 k q) = _
  rw [Ideal.ofBits_zero_f32]

/-- The tile of z is the layer's z on the tile's rows: when row p of the two row tiles is row r of the two arrays,
    the tile at (p, q) is z at (r, q). The weights and biases are whole arrays. -/
theorem k6_pay5_eq_mlpZ (agg h : Cert.Spec.SNE.Idx → EReal) (x0 x1 : FVec Ideal S1000x300 .f32)
    (w1 : FVec Ideal S300x600 .f32) (b1 : FVec Ideal S1x600 .f32) (w2 : FVec Ideal S600x300 .f32)
    (b2 : FVec Ideal S1x300 .f32) (p : Fin 1000) (q : Fin 300) (r : Fin 50000)
    (h0 : ∀ l : Fin 300, x0 (ix2 p l) = agg (ix2 r l)) (h1 : ∀ l : Fin 300, x1 (ix2 p l) = h (ix2 r l)) :
    k6_pay5 (F := Ideal) x0 x1 w1 b1 w2 b2 (ix2 p q) = Cert.Spec.mlpZ agg h w1 b1 w2 b2 (ix2 r q) := by
  rw [k6_pay5_apply]
  unfold Cert.Spec.mlpZ Cert.Spec.hid
  refine congrArg (· + b2 (ix2 0 q)) (Finset.sum_congr rfl fun k _ => ?_)
  refine congrArg (fun t => max (t + b1 (ix2 0 k)) 0 * w2 (ix2 k q)) (Finset.sum_congr rfl fun l _ => ?_)
  rw [h0 l, h1 l]

/-- The carried row of column sums: what it held plus the sums down the tile's columns. -/
theorem k6_pay6_apply (x0 x1 : FVec Ideal S1000x300 .f32) (w1 : FVec Ideal S300x600 .f32) (b1 : FVec Ideal S1x600 .f32)
    (w2 : FVec Ideal S600x300 .f32) (b2 : FVec Ideal S1x300 .f32) (s : FVec Ideal S1x300 .f32) (u : Fin 1) (q : Fin 300) :
    k6_pay6 (F := Ideal) x0 x1 w1 b1 w2 b2 s (ix2 u q)
      = s (ix2 u q) + ∑ p : Fin 1000, k6_pay5 (F := Ideal) x0 x1 w1 b1 w2 b2 (ix2 p q) := by
  unfold k6_pay6
  rw [addf_apply, shapeCast_a_1a_apply, colReduce_apply]

/-- The carried row of column sums of squares: what it held plus the sums of squares down the tile's columns. -/
theorem k6_pay2_apply (z : FVec Ideal S1000x300 .f32) (s : FVec Ideal S1x300 .f32) (u : Fin 1) (q : Fin 300) :
    k6_pay2 (F := Ideal) z s (ix2 u q) = s (ix2 u q) + ∑ p : Fin 1000, z (ix2 p q) * z (ix2 p q) := by
  unfold k6_pay2
  simp only [shapeCast_self]
  rw [addf_apply, shapeCast_a_1a_apply, colReduce_apply]
  rfl

/-- The row copied out at the last point is the carried row. -/
theorem k6_pay1_eq (s : FVec Ideal S1x300 .f32) : k6_pay1 (F := Ideal) s = s := by
  unfold k6_pay1
  exact shapeCast_self _ _

/-- The two carried rows start from zero. -/
theorem k6_pay3_apply (j : S1x300.Idx) : k6_pay3 (F := Ideal) j = 0 := by
  unfold k6_pay3
  simp only [shapeCast_self]
  show Ideal.ofBits .f32 0x00000000#32 = 0
  exact Ideal.ofBits_zero_f32
theorem k6_pay4_apply (j : S1x300.Idx) : k6_pay4 (F := Ideal) j = 0 := by
  unfold k6_pay4
  simp only [shapeCast_self]
  show Ideal.ofBits .f32 0x00000000#32 = 0
  exact Ideal.ofBits_zero_f32

end Cert.KernelIdeal.HandV

end
-- ==== Proof.KI.ValMlp6.lean ====
/-
  What this layer's first kernel leaves in its three output arrays, as functions of the six arrays it finds.

  The grid has fifty points; point t reads rows 1000 t to 1000 t + 999 of the two row arrays and the whole of the
  weights and biases, writes the tile of z = relu((agg + h) W1 + b1) W2 + b2 on those rows to block t of the z array,
  and adds the tile's column sums, and the column sums of its squares, to two carried rows that start from zero; the
  last point copies the two rows out.  So the z array ends holding z (its fifty blocks tile it: row r is row r % 1000
  of block r / 1000), and the two rows end holding the sums over all fifty tiles, which are the sums over all 50000
  rows.  The six input arrays are left as found.
-/
import proofs.«409348_j89627377533173_1_alg».proof.Proof.KI.RegMlp6
import proofs.«409348_j89627377533173_1_alg».proof.Proof.KI.ValMlp6a
import proofs.«409348_j89627377533173_1_alg».proof.Proof.KI.ValMlpSums
import Idealize.ShloMosaic.Lib.Pipeline.Value
import Idealize.ShloMosaic.Lib.ValueLayout

set_option maxRecDepth 16384

noncomputable section

open scoped BigOperators

namespace Cert.KernelIdeal.HandV

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

-- the TensorCore's buffer contents when the region is entered, at the extended reals
variable (V : (c : Dev nD) → (b : Ref sig .tc) → Buf (Elt Ideal) ((c : Thread nD τ).loc b))

/-! ## The printed index maps, and the blocks they cut -/

theorem hz6 : (![0, 0] : Fin 2 → Nat) = fun _ => 0 := funext fun a => by fin_cases a <;> rfl

/-- The printed index maps over the grid: the two row tiles and the output tile move down the rows with the point,
    the weights and biases are one block. -/
theorem idx_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0 :=
  (by decide +kernel : ∀ t : Fin grid6.N, _)

/-- The layer's z of the six arrays as the region finds them. -/
abbrev Z6 (c : Dev nD) : Cert.Spec.SNE.Idx → EReal :=
  Cert.Spec.mlpZ (V c (Pipeline.arrRef spec6 0)) (V c (Pipeline.arrRef spec6 1)) (V c (Pipeline.arrRef spec6 2))
    (V c (Pipeline.arrRef spec6 3)) (V c (Pipeline.arrRef spec6 4)) (V c (Pipeline.arrRef spec6 5))

/-- The weights and biases are each one block: at every point the block read is the whole array. -/
theorem iblk6_2_eq (c : Dev nD) (t : Fin cfg6.N) : Hand.iblk6 V c 2 t = V c (Pipeline.arrRef spec6 2) := by
  obtain ⟨-, -, -, -, e0, e1, -⟩ := idx_facts6 t
  funext y
  show V c (Pipeline.arrRef spec6 2) (((cfg6.win 2).blk t).view.emb y) = V c (Pipeline.arrRef spec6 2) y
  refine congrArg _ (funext fun a => Fin.ext ?_)
  match a with
  | ⟨0, _⟩ => show win6_2.index t (0 : Fin 2) * 300 + 1 * (y 0).val = (y 0).val; omega
  | ⟨1, _⟩ => show win6_2.index t (1 : Fin 2) * 600 + 1 * (y 1).val = (y 1).val; omega

/-- Row p of row tile t is row 1000 t + p of the array. -/
theorem iblk6_0_apply (c : Dev nD) (t : Fin cfg6.N) (ht : t.val < 50) (p : Fin 1000) (l : Fin 300) :
    Hand.iblk6 V c 0 t (ix2 p l) = V c (Pipeline.arrRef spec6 0) (ix2 (tileRow ⟨t.val, ht⟩ p) l) := by
  obtain ⟨e0, e1, -⟩ := idx_facts6 t
  show V c (Pipeline.arrRef spec6 0) (((cfg6.win 0).blk t).view.emb (ix2 p l)) = _
  refine congrArg _ (funext fun a => Fin.ext ?_)
  match a with
  | ⟨0, _⟩ => show win6_0.index t (0 : Fin 2) * 1000 + 1 * p.val = 1000 * t.val + p.val; omega
  | ⟨1, _⟩ => show win6_0.index t (1 : Fin 2) * 300 + 1 * l.val = l.val; omega

theorem iblk6_3_eq (c : Dev nD) (t : Fin cfg6.N) : Hand.iblk6 V c 3 t = V c (Pipeline.arrRef spec6 3) := by
  obtain ⟨-, -, -, -, -, -, e0, e1, -⟩ := idx_facts6 t
  funext y
  show V c (Pipeline.arrRef spec6 3) (((cfg6.win 3).blk t).view.emb y) = V c (Pipeline.arrRef spec6 3) y
  refine congrArg _ (funext fun a => Fin.ext ?_)
  match a with
  | ⟨0, _⟩ => show win6_3.index t (0 : Fin 2) * 1 + 1 * (y 0).val = (y 0).val; omega
  | ⟨1, _⟩ => show win6_3.index t (1 : Fin 2) * 600 + 1 * (y 1).val = (y 1).val; omega

theorem iblk6_4_eq (c : Dev nD) (t : Fin cfg6.N) : Hand.iblk6 V c 4 t = V c (Pipeline.arrRef spec6 4) := by
  obtain ⟨-, -, -, -, -, -, -, -, e0, e1, -⟩ := idx_facts6 t
  funext y
  show V c (Pipeline.arrRef spec6 4) (((cfg6.win 4).blk t).view.emb y) = V c (Pipeline.arrRef spec6 4) y
  refine congrArg _ (funext fun a => Fin.ext ?_)
  match a with
  | ⟨0, _⟩ => show win6_4.index t (0 : Fin 2) * 600 + 1 * (y 0).val = (y 0).val; omega
  | ⟨1, _⟩ => show win6_4.index t (1 : Fin 2) * 300 + 1 * (y 1).val = (y 1).val; omega

theorem iblk6_5_eq (c : Dev nD) (t : Fin cfg6.N) : Hand.iblk6 V c 5 t = V c (Pipeline.arrRef spec6 5) := by
  obtain ⟨-, -, -, -, -, -, -, -, -, -, e0, e1, -⟩ := idx_facts6 t
  funext y
  show V c (Pipeline.arrRef spec6 5) (((cfg6.win 5).blk t).view.emb y) = V c (Pipeline.arrRef spec6 5) y
  refine congrArg _ (funext fun a => Fin.ext ?_)
  match a with
  | ⟨0, _⟩ => show win6_5.index t (0 : Fin 2) * 1 + 1 * (y 0).val = (y 0).val; omega
  | ⟨1, _⟩ => show win6_5.index t (1 : Fin 2) * 300 + 1 * (y 1).val = (y 1).val; omega

theorem iblk6_1_apply (c : Dev nD) (t : Fin cfg6.N) (ht : t.val < 50) (p : Fin 1000) (l : Fin 300) :
    Hand.iblk6 V c 1 t (ix2 p l) = V c (Pipeline.arrRef spec6 1) (ix2 (tileRow ⟨t.val, ht⟩ p) l) := by
  obtain ⟨-, -, e0, e1, -⟩ := idx_facts6 t
  show V c (Pipeline.arrRef spec6 1) (((cfg6.win 1).blk t).view.emb (ix2 p l)) = _
  refine congrArg _ (funext fun a => Fin.ext ?_)
  match a with
  | ⟨0, _⟩ => show win6_1.index t (0 : Fin 2) * 1000 + 1 * p.val = 1000 * t.val + p.val; omega
  | ⟨1, _⟩ => show win6_1.index t (1 : Fin 2) * 300 + 1 * l.val = l.val; omega

/-! ## The tile of z at a point -/

/-- At point t the body's tile of z, at (p, q), is the layer's z at row 1000 t + p, column q. -/
theorem z6_blk_apply (c : Dev nD) (t : Fin cfg6.N) (ht : t.val < 50) (p : Fin 1000) (q : Fin 300) :
    k6_pay5 (F := Ideal) (Hand.iblk6 V c 0 t) (Hand.iblk6 V c 1 t) (Hand.iblk6 V c 2 t) (Hand.iblk6 V c 3 t)
        (Hand.iblk6 V c 4 t) (Hand.iblk6 V c 5 t) (ix2 p q)
      = Z6 V c (ix2 (tileRow ⟨t.val, ht⟩ p) q) := by
  rw [iblk6_2_eq V c t, iblk6_3_eq V c t, iblk6_4_eq V c t, iblk6_5_eq V c t]
  exact k6_pay5_eq_mlpZ (V c (Pipeline.arrRef spec6 0)) (V c (Pipeline.arrRef spec6 1)) (Hand.iblk6 V c 0 t)
    (Hand.iblk6 V c 1 t) _ _ _ _ p q (tileRow ⟨t.val, ht⟩ p) (fun l => iblk6_0_apply V c t ht p l)
    (fun l => iblk6_1_apply V c t ht p l)

/-! ## Output 6: the blocks make the array -/

theorem lt50_6 (t : Fin cfg6.N) : t.val < 50 := Nat.lt_of_lt_of_eq t.isLt N_6

/-- What point t writes back to the z array is block t of the layer's z. -/
theorem flushed6_6_eq (c : Dev nD) (t : Fin cfg6.N) :
    (Hand.dat6 V c).flushed 6 t = ((cfg6.win 6).blk t).view.read (Elt Ideal) (Z6 V c) := by
  show (cfg6.win 6).cut (grid6.coords t) ((Hand.dat6 V c).after 6 t) = _
  rw [Hand.after6_6]
  unfold Hand.out6_6 Hand.z6
  rw [View.canon_unit_zero hz6]
  simp only [View.ld_unit_zero (S := S1000x300) hz6, View.ld_unit_zero (S := S300x600) hz6,
    View.ld_unit_zero (S := S1x600) hz6, View.ld_unit_zero (S := S600x300) hz6, View.ld_unit_zero (S := S1x300) hz6]
  obtain ⟨-, -, -, -, -, -, -, -, -, -, -, -, e0, e1⟩ := idx_facts6 t
  funext j
  obtain ⟨p, q, rfl⟩ : ∃ (p : Fin 1000) (q : Fin 300), j = ix2 p q := ⟨j 0, j 1, eq_ix2 j⟩
  refine (z6_blk_apply V c t (lt50_6 t) p q).trans ?_
  show Z6 V c _ = Z6 V c (((cfg6.win 6).blk t).view.emb (ix2 p q))
  refine congrArg _ (funext fun a => Fin.ext ?_)
  match a with
  | ⟨0, _⟩ => show 1000 * t.val + p.val = win6_6.index t (0 : Fin 2) * 1000 + 1 * p.val; omega
  | ⟨1, _⟩ => show q.val = win6_6.index t (1 : Fin 2) * 300 + 1 * q.val; omega

/-- Every row is in the block of the point that is its tile: row r is row r % 1000 of block r / 1000. -/
theorem cover6_6 (i : S50000x300.Idx) :
    ∃ t : Fin cfg6.N, (cfg6.win 6).flush t = true ∧ i ∈ ((cfg6.win 6).blk t).view.set := by
  have hi0 : (i 0).val < 50000 := (i 0).isLt
  have hN : cfg6.N = 50 := N_6
  obtain ⟨t, ht⟩ : ∃ t : Fin cfg6.N, t.val = (i 0).val / 1000 := ⟨⟨(i 0).val / 1000, by rw [hN]; omega⟩, rfl⟩
  obtain ⟨-, -, -, -, -, -, -, -, -, -, -, -, e0, e1⟩ := idx_facts6 t
  have he : ((cfg6.win 6).blk t).view.emb (ix2 (⟨(i 0).val % 1000, by omega⟩ : Fin 1000) (i 1)) = i := by
    funext a; apply Fin.ext
    match a with
    | ⟨0, _⟩ => show win6_6.index t (0 : Fin 2) * 1000 + 1 * ((i 0).val % 1000) = (i 0).val; omega
    | ⟨1, _⟩ => show win6_6.index t (1 : Fin 2) * 300 + 1 * (i 1).val = (i 1).val; omega
  refine ⟨t, flush6_6 t, ?_⟩
  rw [← he]
  exact View.emb_mem_set _ _

/-- THE z ARRAY after the region: the layer's z of the six arrays as the region finds them. -/
theorem final6_6 (c : Dev nD) : (Hand.dat6 V c).arrAt 6 cfg6.N = Z6 V c :=
  (Hand.dat6 V c).arrAt_eq_of_cover 6 (Z6 V c) (fun t _ => flushed6_6_eq V c t) (cover6_6)

/-! ## The input arrays are left as found -/

theorem final6_0 (c : Dev nD) : (Hand.dat6 V c).arrAt 0 cfg6.N = V c (Pipeline.arrRef spec6 0) :=
  ((Hand.dat6 V c).arrAt_in 0 rfl cfg6.N).trans (Hand.A_eq6 V c 0)
theorem final6_1 (c : Dev nD) : (Hand.dat6 V c).arrAt 1 cfg6.N = V c (Pipeline.arrRef spec6 1) :=
  ((Hand.dat6 V c).arrAt_in 1 rfl cfg6.N).trans (Hand.A_eq6 V c 1)
theorem final6_2 (c : Dev nD) : (Hand.dat6 V c).arrAt 2 cfg6.N = V c (Pipeline.arrRef spec6 2) :=
  ((Hand.dat6 V c).arrAt_in 2 rfl cfg6.N).trans (Hand.A_eq6 V c 2)
theorem final6_3 (c : Dev nD) : (Hand.dat6 V c).arrAt 3 cfg6.N = V c (Pipeline.arrRef spec6 3) :=
  ((Hand.dat6 V c).arrAt_in 3 rfl cfg6.N).trans (Hand.A_eq6 V c 3)
theorem final6_4 (c : Dev nD) : (Hand.dat6 V c).arrAt 4 cfg6.N = V c (Pipeline.arrRef spec6 4) :=
  ((Hand.dat6 V c).arrAt_in 4 rfl cfg6.N).trans (Hand.A_eq6 V c 4)
theorem final6_5 (c : Dev nD) : (Hand.dat6 V c).arrAt 5 cfg6.N = V c (Pipeline.arrRef spec6 5) :=
  ((Hand.dat6 V c).arrAt_in 5 rfl cfg6.N).trans (Hand.A_eq6 V c 5)

/-! ## Outputs 7 and 8: the two carried rows -/

/-- The two carried rows start from zero. -/
theorem zeroS6_apply (j : S1x300.Idx) : Hand.zeroS6 (F := Ideal) j = 0 := by
  unfold Hand.zeroS6
  rw [View.canon_unit_zero hz6]
  exact k6_pay3_apply j
theorem zeroQ6_apply (j : S1x300.Idx) : Hand.zeroQ6 (F := Ideal) j = 0 := by
  unfold Hand.zeroQ6
  rw [View.canon_unit_zero hz6]
  exact k6_pay4_apply j

/-- One step of the row of column sums at point t: what it held plus the sums down the columns of tile t of z. -/
theorem stepS6_apply (c : Dev nD) (t : Fin cfg6.N) (s : Vec Ideal S1x300 .f32) (u : Fin 1) (q : Fin 300) :
    Hand.stepS6 (Hand.iblk6 V c 0 t) (Hand.iblk6 V c 1 t) (Hand.iblk6 V c 2 t) (Hand.iblk6 V c 3 t)
      (Hand.iblk6 V c 4 t) (Hand.iblk6 V c 5 t) s (ix2 u q)
      = s (ix2 u q) + tileSum (fun r => Z6 V c (ix2 r q)) t.val := by
  unfold Hand.stepS6
  rw [View.canon_unit_zero hz6]
  simp only [View.ld_unit_zero (S := S1000x300) hz6, View.ld_unit_zero (S := S300x600) hz6,
    View.ld_unit_zero (S := S1x600) hz6, View.ld_unit_zero (S := S600x300) hz6, View.ld_unit_zero (S := S1x300) hz6]
  rw [k6_pay1_eq]
  refine (k6_pay6_apply (Hand.iblk6 V c 0 t) (Hand.iblk6 V c 1 t) (Hand.iblk6 V c 2 t) (Hand.iblk6 V c 3 t)
    (Hand.iblk6 V c 4 t) (Hand.iblk6 V c 5 t) s u q).trans ?_
  rw [tileSum_of_lt _ _ (lt50_6 t)]
  exact congrArg (s (ix2 u q) + ·) (Finset.sum_congr rfl fun p _ => z6_blk_apply V c t (lt50_6 t) p q)

/-- One step of the row of column sums of squares at point t. -/
theorem stepQ6_apply (c : Dev nD) (t : Fin cfg6.N) (s : Vec Ideal S1x300 .f32) (u : Fin 1) (q : Fin 300) :
    Hand.stepQ6 (Hand.iblk6 V c 0 t) (Hand.iblk6 V c 1 t) (Hand.iblk6 V c 2 t) (Hand.iblk6 V c 3 t)
      (Hand.iblk6 V c 4 t) (Hand.iblk6 V c 5 t) s (ix2 u q)
      = s (ix2 u q) + tileSum (fun r => Z6 V c (ix2 r q) * Z6 V c (ix2 r q)) t.val := by
  unfold Hand.stepQ6 Hand.z6
  rw [View.canon_unit_zero hz6]
  simp only [View.ld_unit_zero (S := S1000x300) hz6, View.ld_unit_zero (S := S300x600) hz6,
    View.ld_unit_zero (S := S1x600) hz6, View.ld_unit_zero (S := S600x300) hz6, View.ld_unit_zero (S := S1x300) hz6]
  refine (k6_pay2_apply (k6_pay5 (F := Ideal) (Hand.iblk6 V c 0 t) (Hand.iblk6 V c 1 t) (Hand.iblk6 V c 2 t) (Hand.iblk6 V c 3 t)
      (Hand.iblk6 V c 4 t) (Hand.iblk6 V c 5 t)) s u q).trans ?_
  rw [tileSum_of_lt _ _ (lt50_6 t)]
  refine congrArg (s (ix2 u q) + ·) (Finset.sum_congr rfl fun p _ => ?_)
  rw [z6_blk_apply V c t (lt50_6 t) p q]

/-- After the point at position n the row of column sums holds the sums over the rows of tiles 0 to n. -/
theorem accS6_apply (c : Dev nD) : ∀ (n : ℕ) (hn : n < cfg6.N) (u : Fin 1) (q : Fin 300),
    Hand.accS6 V c n hn (ix2 u q) = ∑ t ∈ Finset.range (n + 1), tileSum (fun r => Z6 V c (ix2 r q)) t
  | 0, hn, u, q => by
    rw [Hand.accS6_zero, stepS6_apply V c ⟨0, hn⟩, zeroS6_apply, zero_add, Finset.sum_range_one]
  | n + 1, hn, u, q => by
    rw [Hand.accS6_succ, stepS6_apply V c ⟨n + 1, hn⟩, accS6_apply c n (Nat.lt_of_succ_lt hn) u q,
      Finset.sum_range_succ _ (n + 1)]

/-- and the row of column sums of squares likewise. -/
theorem accQ6_apply (c : Dev nD) : ∀ (n : ℕ) (hn : n < cfg6.N) (u : Fin 1) (q : Fin 300),
    Hand.accQ6 V c n hn (ix2 u q)
      = ∑ t ∈ Finset.range (n + 1), tileSum (fun r => Z6 V c (ix2 r q) * Z6 V c (ix2 r q)) t
  | 0, hn, u, q => by
    rw [Hand.accQ6_zero, stepQ6_apply V c ⟨0, hn⟩, zeroQ6_apply, zero_add, Finset.sum_range_one]
  | n + 1, hn, u, q => by
    rw [Hand.accQ6_succ, stepQ6_apply V c ⟨n + 1, hn⟩, accQ6_apply c n (Nat.lt_of_succ_lt hn) u q,
      Finset.sum_range_succ _ (n + 1)]

/-- THE ROW OF COLUMN SUMS after the region: the column sums of the layer's z over all 50000 rows. -/
theorem final6_7 (c : Dev nD) : (Hand.dat6 V c).arrAt 7 cfg6.N = Cert.Spec.colSum (Z6 V c) := by
  rw [Hand.arrAt6_7]
  unfold Hand.out6_7
  rw [View.canon_unit_zero hz6, View.ld_unit_zero hz6]
  funext j
  obtain ⟨u, q, rfl⟩ : ∃ (u : Fin 1) (q : Fin 300), j = ix2 u q := ⟨j 0, j 1, eq_ix2 j⟩
  rw [accS6_apply V c 49 _ u q]
  exact sum_range_tileSum (fun r => Z6 V c (ix2 r q))

/-- THE ROW OF COLUMN SUMS OF SQUARES after the region. -/
theorem final6_8 (c : Dev nD) : (Hand.dat6 V c).arrAt 8 cfg6.N = Cert.Spec.colSumSq (Z6 V c) := by
  rw [Hand.arrAt6_8]
  unfold Hand.out6_7
  rw [View.canon_unit_zero hz6, View.ld_unit_zero hz6]
  funext j
  obtain ⟨u, q, rfl⟩ : ∃ (u : Fin 1) (q : Fin 300), j = ix2 u q := ⟨j 0, j 1, eq_ix2 j⟩
  rw [accQ6_apply V c 49 _ u q]
  exact sum_range_tileSum (fun r => Z6 V c (ix2 r q) * Z6 V c (ix2 r q))

end Cert.KernelIdeal.HandV

end
-- ==== Proof.KI.ValBn7.lean ====
import proofs.«409348_j89627377533173_1_alg».proof.Proof.KI.RegBn7
import proofs.«409348_j89627377533173_1_alg».proof.Proof.Spec
import Idealize.ShloMosaic.Lib.Pipeline.Value
import Idealize.ShloMosaic.Lib.ValueIdx

/-! # Region 7 (`cc7__bn_relu_kernel`): the value half, over the extended reals

After the region the output array is, index by index, the normalisation of `z` by the given column means and variances,
scaled, shifted and clipped at zero: each of the 25 points writes back the block of that function over its 2000 rows,
and the 25 blocks tile the 50000 rows (row `r` lies in block `r / 2000`). The five input arrays are as the region found
them. -/

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

section Region1
-- the TensorCore's buffer contents when the region is entered
variable (V : (c : Dev nD) → (b : Ref sig .tc) → Buf (Elt Ideal) ((c : Thread nD τ).loc b))

/-! ## The payload at an index -/

theorem zero_off7 : (![0, 0] : Fin 2 → Nat) = fun _ => 0 := funext fun a => by fin_cases a <;> rfl

/-- The zero word is the real zero. -/
theorem zero_word7 : Ideal.ofBits .f32 0x00000000#32 = 0 := by simp [Ideal.ofBits, Ideal.ieee]

/-- A row broadcast down the 2000 rows of a block reads, at an index, the row at the index's column. -/
theorem bcast_row7 (x : Vec Ideal S1x300 .f32) (j : S2000x300.Idx) :
    broadcastTo S2000x300 x broadcasts_S1x300_S2000x300 j = x (ix2 0 (j 1)) :=
  broadcastTo_apply x _ j (ix2 0 (j 1)) (fun a => by match a with | ⟨0, _⟩ => rfl | ⟨1, _⟩ => rfl)

/-- The body's payload at an index of the block: the block's entry less the column's mean, times the reciprocal root of
    the column's variance plus the stabiliser, times the column's scale, plus its shift, clipped at zero. (The payload
    takes its row arguments in the order the body loads them: variance before mean.) -/
theorem pay7_apply (xz : Vec Ideal S2000x300 .f32) (xv xm xg xb : Vec Ideal S1x300 .f32) (j : S2000x300.Idx) :
    k7_pay1 (F := Ideal) xz xv xm xg xb j
      = max ((xz j - xm (ix2 0 (j 1))) * Ideal.rsqrt (xv (ix2 0 (j 1)) + Ideal.ofBits .f32 0x3727C5AC#32) * xg (ix2 0 (j 1))
          + xb (ix2 0 (j 1))) 0 := by
  unfold k7_pay1
  simp only [shapeCast_self]
  rw [maximumf_apply, addf_apply, mulf_apply, mulf_apply, subf_apply, broadcast_apply,
    bcast_row7, bcast_row7, bcast_row7, bcast_row7]
  show max (_ * Ideal.rsqrt (xv (ix2 0 (j 1)) + Ideal.ofBits .f32 0x3727C5AC#32) * _ + _) (Ideal.ofBits .f32 0x00000000#32) = _
  rw [zero_word7]

/-- So, when the loaded blocks read the arrays `Z`, `M`, `Vr`, `Gm`, `B` at the places the array index `i` names, the payload
    at `j` is the layer's normalisation of those arrays at `i`. -/
theorem pay7_eq_bnRelu (Z : Cert.Spec.SNE.Idx → EReal) (M Vr Gm B : Cert.Spec.S1E.Idx → EReal)
    (xz : Vec Ideal S2000x300 .f32) (xv xm xg xb : Vec Ideal S1x300 .f32) (j : S2000x300.Idx) (i : Cert.Spec.SNE.Idx)
    (hz : xz j = Z i) (hm : xm (ix2 0 (j 1)) = M (ix2 0 (i 1))) (hv : xv (ix2 0 (j 1)) = Vr (ix2 0 (i 1)))
    (hg : xg (ix2 0 (j 1)) = Gm (ix2 0 (i 1))) (hb : xb (ix2 0 (j 1)) = B (ix2 0 (i 1))) :
    k7_pay1 (F := Ideal) xz xv xm xg xb j = Cert.Spec.bnRelu Z M Vr Gm B (Ideal.ofBits .f32 0x3727C5AC#32) i := by
  rw [pay7_apply, hz, hm, hv, hg, hb]
  rfl

/-! ## The windows' block indices, decided over the 25 points -/

/-- The block of `z` and the output block move together down the rows, block `t` at point `t`, and span the columns;
    the four row windows stay at their one block. -/
theorem idx_facts7 : ∀ t : Fin cfg7.N,
    win7_0.index t (0 : Fin 2) = t.val ∧ win7_0.index t (1 : Fin 2) = 0
    ∧ win7_5.index t (0 : Fin 2) = t.val ∧ win7_5.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0 :=
  (by decide +kernel : ∀ t : Fin grid7.N, _)

/-! ## What a point writes back -/

/-- The output array after the region, as one function of the entry arrays. -/
abbrev G7 (c : Dev nD) : Cert.Spec.SNE.Idx → EReal :=
  Cert.Spec.bnRelu (V c (Pipeline.arrRef spec7 0)) (V c (Pipeline.arrRef spec7 1)) (V c (Pipeline.arrRef spec7 2))
    (V c (Pipeline.arrRef spec7 3)) (V c (Pipeline.arrRef spec7 4)) (Ideal.ofBits .f32 0x3727C5AC#32)

/-- Point `t`'s block of `z`, at a block index `j`, is the array at the output block's array index: the two windows have
    the same block index. -/
theorem blk7_0_at (c : Dev nD) (t : Fin cfg7.N) (j : S2000x300.Idx) :
    iblk7 V c 0 t j = V c (Pipeline.arrRef spec7 0) (((cfg7.win 5).blk t).view.emb j) := by
  obtain ⟨e00, e01, e50, e51, e10, e11, e20, e21, e30, e31, e40, e41⟩ := idx_facts7 t
  have hjr : (j 0).val < 2000 := (j 0).isLt
  have hjc : (j 1).val < 300 := (j 1).isLt
  show V c (Pipeline.arrRef spec7 0) (((cfg7.win 0).blk t).view.emb j) = V c (Pipeline.arrRef spec7 0) (((cfg7.win 5).blk t).view.emb j)
  refine congrArg _ (funext fun a => Fin.ext ?_)
  match a with
  | ⟨0, _⟩ => show win7_0.index t (0 : Fin 2) * 2000 + 1 * (j 0).val = win7_5.index t (0 : Fin 2) * 2000 + 1 * (j 0).val; omega
  | ⟨1, _⟩ => show win7_0.index t (1 : Fin 2) * 300 + 1 * (j 1).val = win7_5.index t (1 : Fin 2) * 300 + 1 * (j 1).val; omega

/-- Point `t`'s block of the means (one row, not moving with the point), at the column of a block index `j`, is the array at
    that column of the output block's array index. -/
theorem blk7_1_at (c : Dev nD) (t : Fin cfg7.N) (j : S2000x300.Idx) :
    iblk7 V c 1 t (ix2 0 (j 1)) = V c (Pipeline.arrRef spec7 1) (ix2 0 ((((cfg7.win 5).blk t).view.emb j) 1)) := by
  obtain ⟨e00, e01, e50, e51, e10, e11, e20, e21, e30, e31, e40, e41⟩ := idx_facts7 t
  have hjc : (j 1).val < 300 := (j 1).isLt
  show V c (Pipeline.arrRef spec7 1) (((cfg7.win 1).blk t).view.emb (ix2 0 (j 1))) = V c (Pipeline.arrRef spec7 1) (ix2 0 ((((cfg7.win 5).blk t).view.emb j) 1))
  refine congrArg _ (funext fun a => Fin.ext ?_)
  match a with
  | ⟨0, _⟩ => show win7_1.index t (0 : Fin 2) * 1 + 1 * 0 = 0; omega
  | ⟨1, _⟩ => show win7_1.index t (1 : Fin 2) * 300 + 1 * (j 1).val = win7_5.index t (1 : Fin 2) * 300 + 1 * (j 1).val; omega

/-- Point `t`'s block of the variances (one row, not moving with the point), at the column of a block index `j`, is the array at
    that column of the output block's array index. -/
theorem blk7_2_at (c : Dev nD) (t : Fin cfg7.N) (j : S2000x300.Idx) :
    iblk7 V c 2 t (ix2 0 (j 1)) = V c (Pipeline.arrRef spec7 2) (ix2 0 ((((cfg7.win 5).blk t).view.emb j) 1)) := by
  obtain ⟨e00, e01, e50, e51, e10, e11, e20, e21, e30, e31, e40, e41⟩ := idx_facts7 t
  have hjc : (j 1).val < 300 := (j 1).isLt
  show V c (Pipeline.arrRef spec7 2) (((cfg7.win 2).blk t).view.emb (ix2 0 (j 1))) = V c (Pipeline.arrRef spec7 2) (ix2 0 ((((cfg7.win 5).blk t).view.emb j) 1))
  refine congrArg _ (funext fun a => Fin.ext ?_)
  match a with
  | ⟨0, _⟩ => show win7_2.index t (0 : Fin 2) * 1 + 1 * 0 = 0; omega
  | ⟨1, _⟩ => show win7_2.index t (1 : Fin 2) * 300 + 1 * (j 1).val = win7_5.index t (1 : Fin 2) * 300 + 1 * (j 1).val; omega

/-- Point `t`'s block of the scales (one row, not moving with the point), at the column of a block index `j`, is the array at
    that column of the output block's array index. -/
theorem blk7_3_at (c : Dev nD) (t : Fin cfg7.N) (j : S2000x300.Idx) :
    iblk7 V c 3 t (ix2 0 (j 1)) = V c (Pipeline.arrRef spec7 3) (ix2 0 ((((cfg7.win 5).blk t).view.emb j) 1)) := by
  obtain ⟨e00, e01, e50, e51, e10, e11, e20, e21, e30, e31, e40, e41⟩ := idx_facts7 t
  have hjc : (j 1).val < 300 := (j 1).isLt
  show V c (Pipeline.arrRef spec7 3) (((cfg7.win 3).blk t).view.emb (ix2 0 (j 1))) = V c (Pipeline.arrRef spec7 3) (ix2 0 ((((cfg7.win 5).blk t).view.emb j) 1))
  refine congrArg _ (funext fun a => Fin.ext ?_)
  match a with
  | ⟨0, _⟩ => show win7_3.index t (0 : Fin 2) * 1 + 1 * 0 = 0; omega
  | ⟨1, _⟩ => show win7_3.index t (1 : Fin 2) * 300 + 1 * (j 1).val = win7_5.index t (1 : Fin 2) * 300 + 1 * (j 1).val; omega

/-- Point `t`'s block of the shifts (one row, not moving with the point), at the column of a block index `j`, is the array at
    that column of the output block's array index. -/
theorem blk7_4_at (c : Dev nD) (t : Fin cfg7.N) (j : S2000x300.Idx) :
    iblk7 V c 4 t (ix2 0 (j 1)) = V c (Pipeline.arrRef spec7 4) (ix2 0 ((((cfg7.win 5).blk t).view.emb j) 1)) := by
  obtain ⟨e00, e01, e50, e51, e10, e11, e20, e21, e30, e31, e40, e41⟩ := idx_facts7 t
  have hjc : (j 1).val < 300 := (j 1).isLt
  show V c (Pipeline.arrRef spec7 4) (((cfg7.win 4).blk t).view.emb (ix2 0 (j 1))) = V c (Pipeline.arrRef spec7 4) (ix2 0 ((((cfg7.win 5).blk t).view.emb j) 1))
  refine congrArg _ (funext fun a => Fin.ext ?_)
  match a with
  | ⟨0, _⟩ => show win7_4.index t (0 : Fin 2) * 1 + 1 * 0 = 0; omega
  | ⟨1, _⟩ => show win7_4.index t (1 : Fin 2) * 300 + 1 * (j 1).val = win7_5.index t (1 : Fin 2) * 300 + 1 * (j 1).val; omega

/-- What point `t` writes back is block `t` of `G7`. -/
theorem flushed7_5_eq (c : Dev nD) (t : Fin cfg7.N) :
    (dat7 V c).flushed 5 t = ((cfg7.win 5).blk t).view.read (Elt Ideal) (G7 V c) := by
  show (cfg7.win 5).cut (grid7.coords t) ((dat7 V c).after 5 t) = _
  rw [after7_5]
  unfold out7_5
  rw [View.canon_unit_zero zero_off7]
  simp only [View.ld_unit_zero (S := S2000x300) zero_off7, View.ld_unit_zero (S := S1x300) zero_off7]
  funext j
  show k7_pay1 (F := Ideal) (iblk7 V c 0 t) (iblk7 V c 2 t) (iblk7 V c 1 t) (iblk7 V c 3 t) (iblk7 V c 4 t) j
    = G7 V c (((cfg7.win 5).blk t).view.emb j)
  exact pay7_eq_bnRelu _ _ _ _ _ _ _ _ _ _ j _ (blk7_0_at V c t j) (blk7_1_at V c t j) (blk7_2_at V c t j)
    (blk7_3_at V c t j) (blk7_4_at V c t j)

/-! ## The blocks tile the array -/

/-- An index of the array is in point `t`'s block iff each coordinate is in the block's range on its axis. -/
theorem inblk7_5 (t : Fin cfg7.N) (i : S50000x300.Idx) :
    i ∈ ((cfg7.win 5).blk t).view.set ↔ ∀ a : Fin 2, win7_5.index t a * S2000x300.size a ≤ (i a).val ∧ (i a).val < win7_5.index t a * S2000x300.size a + S2000x300.size a := by
  show i ∈ ((View.whole (Pipeline.arrRef spec7 5)).slice (win7_5.rect t)).set ↔ _
  rw [View.set_slice_whole, Rect.mem_set_unit]
  exact Iff.rfl

/-- Every index is in some point's block: row `r` is in block `r / 2000`, which spans the columns. -/
theorem cover7_arr (i : S50000x300.Idx) :
    ∃ t : Fin cfg7.N, (cfg7.win 5).flush t = true ∧ i ∈ ((cfg7.win 5).blk t).view.set := by
  have hir : (i 0).val < 50000 := (i 0).isLt
  have hic : (i 1).val < 300 := (i 1).isLt
  have ht : (i 0).val / 2000 < cfg7.N := by show _ < 25; omega
  obtain ⟨-, -, e50, e51, -⟩ := idx_facts7 ⟨(i 0).val / 2000, ht⟩
  refine ⟨⟨(i 0).val / 2000, ht⟩, flush7_5 _, ?_⟩
  rw [inblk7_5]
  intro a
  match a with
  | ⟨0, _⟩ =>
    show win7_5.index ⟨(i 0).val / 2000, ht⟩ (0 : Fin 2) * 2000 ≤ (i 0).val ∧ (i 0).val < win7_5.index ⟨(i 0).val / 2000, ht⟩ (0 : Fin 2) * 2000 + 2000
    rw [e50]; show (i 0).val / 2000 * 2000 ≤ (i 0).val ∧ (i 0).val < (i 0).val / 2000 * 2000 + 2000; omega
  | ⟨1, _⟩ =>
    show win7_5.index ⟨(i 0).val / 2000, ht⟩ (1 : Fin 2) * 300 ≤ (i 1).val ∧ (i 1).val < win7_5.index ⟨(i 0).val / 2000, ht⟩ (1 : Fin 2) * 300 + 300
    rw [e51]; omega

/-! ## The arrays after the region -/

/-- The output array after the region is the normalisation of the entry arrays. -/
theorem final7_5 (c : Dev nD) :
    (dat7 V c).arrAt 5 cfg7.N
      = Cert.Spec.bnRelu (V c (Pipeline.arrRef spec7 0)) (V c (Pipeline.arrRef spec7 1)) (V c (Pipeline.arrRef spec7 2))
          (V c (Pipeline.arrRef spec7 3)) (V c (Pipeline.arrRef spec7 4)) (Ideal.ofBits .f32 0x3727C5AC#32) :=
  (dat7 V c).arrAt_eq_of_cover 5 (G7 V c) (fun t _ => flushed7_5_eq V c t) cover7_arr

/-- Each input array is as the region found it: the pipeline stages it and never writes it back. -/
theorem final7_0 (c : Dev nD) : (dat7 V c).arrAt 0 cfg7.N = V c (Pipeline.arrRef spec7 0) :=
  ((dat7 V c).arrAt_in 0 rfl _).trans (A_eq7 V c 0)
theorem final7_1 (c : Dev nD) : (dat7 V c).arrAt 1 cfg7.N = V c (Pipeline.arrRef spec7 1) :=
  ((dat7 V c).arrAt_in 1 rfl _).trans (A_eq7 V c 1)
theorem final7_2 (c : Dev nD) : (dat7 V c).arrAt 2 cfg7.N = V c (Pipeline.arrRef spec7 2) :=
  ((dat7 V c).arrAt_in 2 rfl _).trans (A_eq7 V c 2)
theorem final7_3 (c : Dev nD) : (dat7 V c).arrAt 3 cfg7.N = V c (Pipeline.arrRef spec7 3) :=
  ((dat7 V c).arrAt_in 3 rfl _).trans (A_eq7 V c 3)
theorem final7_4 (c : Dev nD) : (dat7 V c).arrAt 4 cfg7.N = V c (Pipeline.arrRef spec7 4) :=
  ((dat7 V c).arrAt_in 4 rfl _).trans (A_eq7 V c 4)

end Region1

end Cert.KernelIdeal.HandV
-- ==== Proof.Glue.KHostL3.lean ====
/-
  The kernel program's host stretches of layer 3, read as functions of the buffers they start from (an arbitrary
  valuation V).  Before the mlp region: the aggregated messages (`MP` of the features the previous layer left, the
  layer's embedding tables, and the edges' index vectors as the first stretch left them) and the layer's weights and
  biases.  Before the normalisation region: the column mean, the variance from the two moments, the scale and shift.
-/
import proofs.«409348_j89627377533173_1_alg».proof.Proof.Gen.KernelIdeal.Regions
import proofs.«409348_j89627377533173_1_alg».proof.Proof.Glue.Operands
import proofs.«409348_j89627377533173_1_alg».proof.Proof.Glue.Stats
import proofs.«409348_j89627377533173_1_alg».proof.Proof.Glue.Layer

set_option maxRecDepth 2516

noncomputable section

namespace Cert.KernelIdeal.HandV

open Idealize.ShloMosaic Idealize.ShloMosaic.TcCoe Idealize.ShloMosaic.ValueIdx
open Cert.KernelIdeal Cert.KernelIdeal.Gen

/-! ### Layer 3: before the mlp region (`hostOps6`) -/

section Layer3Mlp
variable {F : FTy → Type} [FloatOps F] (V : Valuation τ sig (Elt F))

/-- The aggregated messages of layer 3. -/
theorem host6_agg : StableHlo.after hostOps6 V (Proc.devRef .tc main_v218) =
    MP (V main_v188) (E1 (3 : Fin 5) (V main_arg1)) (E2 (3 : Fin 5) (V main_arg2)) (V main_v1) (V main_v3) (V main_v5) (V main_v7) := by
  after_results_simp <;> rfl

/-- The features the layer starts from are not written. -/
theorem host6_h : StableHlo.after hostOps6 V (Proc.devRef .tc main_v188) = V main_v188 := by
  after_results_simp

theorem host6_w1 : StableHlo.after hostOps6 V (Proc.devRef .tc main_v220) = W1 (3 : Fin 5) (V main_arg3) := by
  after_results_simp <;> rfl

theorem host6_b1 : StableHlo.after hostOps6 V (Proc.devRef .tc main_v227) = row (B1 (3 : Fin 5) (V main_arg4)) := by
  after_results_simp <;> exact shapeCast_vec_row _ _

theorem host6_w2 : StableHlo.after hostOps6 V (Proc.devRef .tc main_v224) = W2 (3 : Fin 5) (V main_arg5) := by
  after_results_simp <;> rfl

theorem host6_b2 : StableHlo.after hostOps6 V (Proc.devRef .tc main_v228) = row (R300 (3 : Fin 5) (V main_arg6)) := by
  after_results_simp <;> exact shapeCast_vec_row _ _

end Layer3Mlp

/-! ### Layer 3: before the normalisation region (`hostOps7`) -/

section Layer3Stats
variable {F : FTy → Type} [FloatOps F] (V : Valuation τ sig (Elt F))

/-- The pre-normalisation output is not written. -/
theorem host7_z : StableHlo.after hostOps7 V (Proc.devRef .tc main_v229_0) = V main_v229_0 := by
  after_results_simp

/-- The mean, as the operations' term: the column sums over the row count. -/
theorem host7_mean_term : StableHlo.after hostOps7 V (Proc.devRef .tc main_v233) =
    row (Host.divf (shapeCast S300 (V main_v229_1) shapeCasts_S1x300_S300)
      (broadcastInDim S300 ![] bcast_S_S300 (constant S_ .f32 0x47435000#32))) := by
  after_results_simp <;> exact shapeCast_vec_row _ _

/-- The variance, as the operations' term: the column sums of squares over the row count, less the mean squared. -/
theorem host7_var_term : StableHlo.after hostOps7 V (Proc.devRef .tc main_v241) =
    row (subf (Host.divf (shapeCast S300 (V main_v229_2) shapeCasts_S1x300_S300)
        (broadcastInDim S300 ![] bcast_S_S300 (constant S_ .f32 0x47435000#32)))
      (mulf (shapeCast S300 (StableHlo.after hostOps7 V (Proc.devRef .tc main_v233)) shapeCasts_S1x300_S300)
        (shapeCast S300 (StableHlo.after hostOps7 V (Proc.devRef .tc main_v233)) shapeCasts_S1x300_S300))) := by
  after_results_simp <;> exact shapeCast_vec_row _ _

theorem host7_gamma : StableHlo.after hostOps7 V (Proc.devRef .tc main_v246) = row (R300 (3 : Fin 5) (V main_arg7)) := by
  after_results_simp <;> exact shapeCast_vec_row _ _

theorem host7_beta : StableHlo.after hostOps7 V (Proc.devRef .tc main_v247) = row (R300 (3 : Fin 5) (V main_arg8)) := by
  after_results_simp <;> exact shapeCast_vec_row _ _

end Layer3Stats

section Layer3StatsIdeal
variable (V : Valuation τ sig (Elt Ideal))

/-- The mean is the column sums over the row count. -/
theorem host7_mean : StableHlo.after hostOps7 V (Proc.devRef .tc main_v233) = meanOfSums (V main_v229_1) := by
  rw [host7_mean_term]; exact mean_term_eq _

/-- The variance is the column sums of squares over the row count, less the mean squared. -/
theorem host7_var : StableHlo.after hostOps7 V (Proc.devRef .tc main_v241) =
    varOfSums (V main_v229_2) (StableHlo.after hostOps7 V (Proc.devRef .tc main_v233)) := by
  rw [host7_var_term]; exact var_term_eq _ _

end Layer3StatsIdeal

/-! ### Layer 3 as one step

From the valuation `V0` the layer starts from: the host stretch before the mlp region, the region's three outputs put
in their buffers (`Zc` the perceptron's output of the six operands, `Sc` / `SSc` its column sums and column sums of
squares), the host stretch before the normalisation region, and that region's output.  The result is the layer
function `layerM` of `V0`'s argument buffers and incoming features. -/

section Layer3Step
variable (V0 : Valuation τ sig (Elt Ideal))

/-- The buffers after the mlp region of layer 3. -/
abbrev mid3 (Zc : FVec Ideal S50000x300 .f32) (Sc SSc : FVec Ideal S1x300 .f32) : Valuation τ sig (Elt Ideal) :=
  Function.update (Function.update (Function.update (StableHlo.after hostOps6 V0) main_v229_0 Zc) main_v229_1 Sc) main_v229_2 SSc

theorem mid3_z (Zc Sc SSc) : mid3 V0 Zc Sc SSc main_v229_0 = Zc := by
  unfold mid3
  rw [Function.update_of_ne (StableHlo.devRef_ne_of_ne (by decide)), Function.update_of_ne (StableHlo.devRef_ne_of_ne (by decide)),
    Function.update_self]
theorem mid3_s (Zc Sc SSc) : mid3 V0 Zc Sc SSc main_v229_1 = Sc := by
  unfold mid3
  rw [Function.update_of_ne (StableHlo.devRef_ne_of_ne (by decide)), Function.update_self]
theorem mid3_ss (Zc Sc SSc) : mid3 V0 Zc Sc SSc main_v229_2 = SSc := by
  unfold mid3
  rw [Function.update_self]
/-- A buffer that is none of the region's outputs is as the host stretch left it. -/
theorem mid3_of_ne (Zc Sc SSc) (r : Ref sig .tc) (hz : r ≠ main_v229_0) (hs : r ≠ main_v229_1) (hss : r ≠ main_v229_2) :
    mid3 V0 Zc Sc SSc r = StableHlo.after hostOps6 V0 r := by
  unfold mid3
  rw [Function.update_of_ne (StableHlo.devRef_ne_of_ne hss), Function.update_of_ne (StableHlo.devRef_ne_of_ne hs),
    Function.update_of_ne (StableHlo.devRef_ne_of_ne hz)]

/-- The layer's result. -/
theorem kStep3 (Zc : FVec Ideal S50000x300 .f32) (Sc SSc : FVec Ideal S1x300 .f32)
    (hZ : Zc = Cert.Spec.mlpZ (StableHlo.after hostOps6 V0 (Proc.devRef .tc main_v218)) (StableHlo.after hostOps6 V0 (Proc.devRef .tc main_v188))
      (StableHlo.after hostOps6 V0 (Proc.devRef .tc main_v220)) (StableHlo.after hostOps6 V0 (Proc.devRef .tc main_v227))
      (StableHlo.after hostOps6 V0 (Proc.devRef .tc main_v224)) (StableHlo.after hostOps6 V0 (Proc.devRef .tc main_v228)))
    (hS : Sc = Cert.Spec.colSum Zc) (hSS : SSc = Cert.Spec.colSumSq Zc)
    (hsrc : V0 main_v1 = edgeSrc (V0 main_arg9)) (hdst : V0 main_v3 = edgeDst (V0 main_arg9))
    (he0 : V0 main_v5 = attr0 (V0 main_arg10)) (he1 : V0 main_v7 = attr1 (V0 main_arg10)) :
    Cert.Spec.bnRelu (StableHlo.after hostOps7 (mid3 V0 Zc Sc SSc) (Proc.devRef .tc main_v229_0))
        (StableHlo.after hostOps7 (mid3 V0 Zc Sc SSc) (Proc.devRef .tc main_v233))
        (StableHlo.after hostOps7 (mid3 V0 Zc Sc SSc) (Proc.devRef .tc main_v241))
        (StableHlo.after hostOps7 (mid3 V0 Zc Sc SSc) (Proc.devRef .tc main_v246))
        (StableHlo.after hostOps7 (mid3 V0 Zc Sc SSc) (Proc.devRef .tc main_v247))
        (Ideal.ofBits .f32 0x3727C5AC#32)
      = layerM (V0 main_arg1) (V0 main_arg2) (V0 main_arg3) (V0 main_arg4) (V0 main_arg5) (V0 main_arg6) (V0 main_arg7)
          (V0 main_arg8) (V0 main_arg9) (V0 main_arg10) (3 : Fin 5) (V0 main_v188) := by
  -- the perceptron's output is the layer's pre-normalisation array
  have hz : Zc = layerZ (V0 main_arg1) (V0 main_arg2) (V0 main_arg3) (V0 main_arg4) (V0 main_arg5) (V0 main_arg6)
      (V0 main_arg9) (V0 main_arg10) (3 : Fin 5) (V0 main_v188) := by
    rw [hZ, host6_agg, host6_h, host6_w1, host6_b1, host6_w2, host6_b2]
    rw [hsrc, hdst, he0, he1]
    rfl
  -- the normalisation region's five operands
  have e0 : StableHlo.after hostOps7 (mid3 V0 Zc Sc SSc) (Proc.devRef .tc main_v229_0) = Zc := by
    rw [host7_z]; exact mid3_z V0 Zc Sc SSc
  have e1 : (StableHlo.after hostOps7 (mid3 V0 Zc Sc SSc) (Proc.devRef .tc main_v233) : FVec Ideal S1x300 .f32)
      = Cert.Math.colMean Zc := by
    rw [host7_mean, mid3_s, hS]; rfl
  have e2 : (StableHlo.after hostOps7 (mid3 V0 Zc Sc SSc) (Proc.devRef .tc main_v241) : FVec Ideal S1x300 .f32)
      = Cert.Math.varOfMoments Zc := by
    rw [host7_var, host7_mean, mid3_ss, mid3_s, hSS, hS]; rfl
  have e3 : StableHlo.after hostOps7 (mid3 V0 Zc Sc SSc) (Proc.devRef .tc main_v246) = row (R300 (3 : Fin 5) (V0 main_arg7)) := by
    rw [host7_gamma, mid3_of_ne V0 Zc Sc SSc main_arg7 (by decide) (by decide) (by decide),
      StableHlo.after_of_writes_sub hostOps6 V0 hostOps6_writes (by decide)]
  have e4 : StableHlo.after hostOps7 (mid3 V0 Zc Sc SSc) (Proc.devRef .tc main_v247) = row (R300 (3 : Fin 5) (V0 main_arg8)) := by
    rw [host7_beta, mid3_of_ne V0 Zc Sc SSc main_arg8 (by decide) (by decide) (by decide),
      StableHlo.after_of_writes_sub hostOps6 V0 hostOps6_writes (by decide)]
  rw [e0, e1, e2, e3, e4, Cert.Consts.ofBits_eps, hz]
  rfl

/-- A buffer neither stretch writes and no region of the layer outputs is, after the layer, as `V0` has it. -/
theorem kKeep3 (Zc Sc SSc) (Hc : FVec Ideal S50000x300 .f32) (r : Ref sig .tc) (h0 : r ∉ hostOps6_W) (h1 : r ∉ hostOps7_W)
    (hz : r ≠ main_v229_0) (hs : r ≠ main_v229_1) (hss : r ≠ main_v229_2) (hh : r ≠ main_v248) :
    Function.update (StableHlo.after hostOps7 (mid3 V0 Zc Sc SSc)) main_v248 Hc r = V0 r := by
  rw [Function.update_of_ne (StableHlo.devRef_ne_of_ne hh), StableHlo.after_of_writes_sub hostOps7 _ hostOps7_writes h1,
    mid3_of_ne V0 Zc Sc SSc r hz hs hss, StableHlo.after_of_writes_sub hostOps6 V0 hostOps6_writes h0]

/-- A buffer the second stretch does not write and no region of the layer outputs is, after the layer, as the first
    stretch left it. -/
theorem kKeepMid3 (Zc Sc SSc) (Hc : FVec Ideal S50000x300 .f32) (r : Ref sig .tc) (h1 : r ∉ hostOps7_W)
    (hz : r ≠ main_v229_0) (hs : r ≠ main_v229_1) (hss : r ≠ main_v229_2) (hh : r ≠ main_v248) :
    Function.update (StableHlo.after hostOps7 (mid3 V0 Zc Sc SSc)) main_v248 Hc r = StableHlo.after hostOps6 V0 r := by
  rw [Function.update_of_ne (StableHlo.devRef_ne_of_ne hh), StableHlo.after_of_writes_sub hostOps7 _ hostOps7_writes h1,
    mid3_of_ne V0 Zc Sc SSc r hz hs hss]

/-- The layer's own output buffer holds what the normalisation region wrote. -/
theorem kSelf3 (Zc Sc SSc) (Hc : FVec Ideal S50000x300 .f32) :
    Function.update (StableHlo.after hostOps7 (mid3 V0 Zc Sc SSc)) main_v248 Hc main_v248 = Hc :=
  Function.update_self ..

end Layer3Step

end Cert.KernelIdeal.HandV

end
-- ==== Proof.KI.ValMlp4a.lean ====
/-
  What one grid point of this layer's first kernel computes, read at an index of the extended reals.

  The tile of z is relu((agg + h) W1 + b1) W2 + b2 on the tile's 1000 rows: two products into zero accumulators, a row
  of bias broadcast over the rows, a clip at zero, and format changes that are the identity on extended reals.  The two
  carried rows add to what they held the column sums of the tile, and of its squares; they start from zero, and the
  last point copies them out.
-/
import proofs.«409348_j89627377533173_1_alg».proof.Proof.KI.ValMlpOps
import proofs.«409348_j89627377533173_1_alg».proof.Proof.Spec

noncomputable section

open scoped BigOperators

namespace Cert.KernelIdeal.HandV

open Cert.KernelIdeal Cert.KernelIdeal.Gen
open Idealize.ShloMosaic Idealize.ShloMosaic.ValueIdx

/-! ## The payloads at an index -/

/-- The tile of z at a row and a column. -/
theorem k4_pay5_apply (x0 x1 : FVec Ideal S1000x300 .f32) (w1 : FVec Ideal S300x600 .f32) (b1 : FVec Ideal S1x600 .f32)
    (w2 : FVec Ideal S600x300 .f32) (b2 : FVec Ideal S1x300 .f32) (p : Fin 1000) (q : Fin 300) :
    k4_pay5 (F := Ideal) x0 x1 w1 b1 w2 b2 (ix2 p q)
      = (∑ k : Fin 600, max ((∑ l : Fin 300, (x0 (ix2 p l) + x1 (ix2 p l)) * w1 (ix2 l k)) + b1 (ix2 0 k)) 0 * w2 (ix2 k q))
        + b2 (ix2 0 q) := by
  unfold k4_pay5
  simp only [shapeCast_self]
  rw [addf_apply, matmul_d2_apply, broadcastTo_1b_ab_apply]
  refine congrArg (· + b2 (ix2 0 q)) (Finset.sum_congr rfl fun k _ => ?_)
  rw [truncf_apply, truncf_apply, maximumf_apply, addf_apply, matmul_d1_apply, broadcastTo_1b_ab_apply, broadcast_apply]
  show max ((∑ l : Fin 300, (x0 (ix2 p l) + x1 (ix2 p l)) * w1 (ix2 l k)) + b1 (ix2 0 k)) (Ideal.ofBits .f32 0x00000000#32)
      * w2 (ix2 k q) = _
  rw [Ideal.ofBits_zero_f32]

/-- The tile of z is the layer's z on the tile's rows: when row p of the two row tiles is row r of the two arrays,
    the tile at (p, q) is z at (r, q). The weights and biases are whole arrays. -/
theorem k4_pay5_eq_mlpZ (agg h : Cert.Spec.SNE.Idx → EReal) (x0 x1 : FVec Ideal S1000x300 .f32)
    (w1 : FVec Ideal S300x600 .f32) (b1 : FVec Ideal S1x600 .f32) (w2 : FVec Ideal S600x300 .f32)
    (b2 : FVec Ideal S1x300 .f32) (p : Fin 1000) (q : Fin 300) (r : Fin 50000)
    (h0 : ∀ l : Fin 300, x0 (ix2 p l) = agg (ix2 r l)) (h1 : ∀ l : Fin 300, x1 (ix2 p l) = h (ix2 r l)) :
    k4_pay5 (F := Ideal) x0 x1 w1 b1 w2 b2 (ix2 p q) = Cert.Spec.mlpZ agg h w1 b1 w2 b2 (ix2 r q) := by
  rw [k4_pay5_apply]
  unfold Cert.Spec.mlpZ Cert.Spec.hid
  refine congrArg (· + b2 (ix2 0 q)) (Finset.sum_congr rfl fun k _ => ?_)
  refine congrArg (fun t => max (t + b1 (ix2 0 k)) 0 * w2 (ix2 k q)) (Finset.sum_congr rfl fun l _ => ?_)
  rw [h0 l, h1 l]

/-- The carried row of column sums: what it held plus the sums down the tile's columns. -/
theorem k4_pay6_apply (x0 x1 : FVec Ideal S1000x300 .f32) (w1 : FVec Ideal S300x600 .f32) (b1 : FVec Ideal S1x600 .f32)
    (w2 : FVec Ideal S600x300 .f32) (b2 : FVec Ideal S1x300 .f32) (s : FVec Ideal S1x300 .f32) (u : Fin 1) (q : Fin 300) :
    k4_pay6 (F := Ideal) x0 x1 w1 b1 w2 b2 s (ix2 u q)
      = s (ix2 u q) + ∑ p : Fin 1000, k4_pay5 (F := Ideal) x0 x1 w1 b1 w2 b2 (ix2 p q) := by
  unfold k4_pay6
  rw [addf_apply, shapeCast_a_1a_apply, colReduce_apply]

/-- The carried row of column sums of squares: what it held plus the sums of squares down the tile's columns. -/
theorem k4_pay2_apply (z : FVec Ideal S1000x300 .f32) (s : FVec Ideal S1x300 .f32) (u : Fin 1) (q : Fin 300) :
    k4_pay2 (F := Ideal) z s (ix2 u q) = s (ix2 u q) + ∑ p : Fin 1000, z (ix2 p q) * z (ix2 p q) := by
  unfold k4_pay2
  simp only [shapeCast_self]
  rw [addf_apply, shapeCast_a_1a_apply, colReduce_apply]
  rfl

/-- The row copied out at the last point is the carried row. -/
theorem k4_pay1_eq (s : FVec Ideal S1x300 .f32) : k4_pay1 (F := Ideal) s = s := by
  unfold k4_pay1
  exact shapeCast_self _ _

/-- The two carried rows start from zero. -/
theorem k4_pay3_apply (j : S1x300.Idx) : k4_pay3 (F := Ideal) j = 0 := by
  unfold k4_pay3
  simp only [shapeCast_self]
  show Ideal.ofBits .f32 0x00000000#32 = 0
  exact Ideal.ofBits_zero_f32
theorem k4_pay4_apply (j : S1x300.Idx) : k4_pay4 (F := Ideal) j = 0 := by
  unfold k4_pay4
  simp only [shapeCast_self]
  show Ideal.ofBits .f32 0x00000000#32 = 0
  exact Ideal.ofBits_zero_f32

end Cert.KernelIdeal.HandV

end
-- ==== Proof.KI.ValMlp4.lean ====
/-
  What this layer's first kernel leaves in its three output arrays, as functions of the six arrays it finds.

  The grid has fifty points; point t reads rows 1000 t to 1000 t + 999 of the two row arrays and the whole of the
  weights and biases, writes the tile of z = relu((agg + h) W1 + b1) W2 + b2 on those rows to block t of the z array,
  and adds the tile's column sums, and the column sums of its squares, to two carried rows that start from zero; the
  last point copies the two rows out.  So the z array ends holding z (its fifty blocks tile it: row r is row r % 1000
  of block r / 1000), and the two rows end holding the sums over all fifty tiles, which are the sums over all 50000
  rows.  The six input arrays are left as found.
-/
import proofs.«409348_j89627377533173_1_alg».proof.Proof.KI.RegMlp4
import proofs.«409348_j89627377533173_1_alg».proof.Proof.KI.ValMlp4a
import proofs.«409348_j89627377533173_1_alg».proof.Proof.KI.ValMlpSums
import Idealize.ShloMosaic.Lib.Pipeline.Value
import Idealize.ShloMosaic.Lib.ValueLayout

set_option maxRecDepth 16384

noncomputable section

open scoped BigOperators

namespace Cert.KernelIdeal.HandV

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

-- the TensorCore's buffer contents when the region is entered, at the extended reals
variable (V : (c : Dev nD) → (b : Ref sig .tc) → Buf (Elt Ideal) ((c : Thread nD τ).loc b))

/-! ## The printed index maps, and the blocks they cut -/

theorem hz4 : (![0, 0] : Fin 2 → Nat) = fun _ => 0 := funext fun a => by fin_cases a <;> rfl

/-- The printed index maps over the grid: the two row tiles and the output tile move down the rows with the point,
    the weights and biases are one block. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- The layer's z of the six arrays as the region finds them. -/
abbrev Z4 (c : Dev nD) : Cert.Spec.SNE.Idx → EReal :=
  Cert.Spec.mlpZ (V c (Pipeline.arrRef spec4 0)) (V c (Pipeline.arrRef spec4 1)) (V c (Pipeline.arrRef spec4 2))
    (V c (Pipeline.arrRef spec4 3)) (V c (Pipeline.arrRef spec4 4)) (V c (Pipeline.arrRef spec4 5))

/-- The weights and biases are each one block: at every point the block read is the whole array. -/
theorem iblk4_2_eq (c : Dev nD) (t : Fin cfg4.N) : Hand.iblk4 V c 2 t = V c (Pipeline.arrRef spec4 2) := by
  obtain ⟨-, -, -, -, e0, e1, -⟩ := idx_facts4 t
  funext y
  show V c (Pipeline.arrRef spec4 2) (((cfg4.win 2).blk t).view.emb y) = V c (Pipeline.arrRef spec4 2) y
  refine congrArg _ (funext fun a => Fin.ext ?_)
  match a with
  | ⟨0, _⟩ => show win4_2.index t (0 : Fin 2) * 300 + 1 * (y 0).val = (y 0).val; omega
  | ⟨1, _⟩ => show win4_2.index t (1 : Fin 2) * 600 + 1 * (y 1).val = (y 1).val; omega

/-- Row p of row tile t is row 1000 t + p of the array. -/
theorem iblk4_0_apply (c : Dev nD) (t : Fin cfg4.N) (ht : t.val < 50) (p : Fin 1000) (l : Fin 300) :
    Hand.iblk4 V c 0 t (ix2 p l) = V c (Pipeline.arrRef spec4 0) (ix2 (tileRow ⟨t.val, ht⟩ p) l) := by
  obtain ⟨e0, e1, -⟩ := idx_facts4 t
  show V c (Pipeline.arrRef spec4 0) (((cfg4.win 0).blk t).view.emb (ix2 p l)) = _
  refine congrArg _ (funext fun a => Fin.ext ?_)
  match a with
  | ⟨0, _⟩ => show win4_0.index t (0 : Fin 2) * 1000 + 1 * p.val = 1000 * t.val + p.val; omega
  | ⟨1, _⟩ => show win4_0.index t (1 : Fin 2) * 300 + 1 * l.val = l.val; omega

theorem iblk4_3_eq (c : Dev nD) (t : Fin cfg4.N) : Hand.iblk4 V c 3 t = V c (Pipeline.arrRef spec4 3) := by
  obtain ⟨-, -, -, -, -, -, e0, e1, -⟩ := idx_facts4 t
  funext y
  show V c (Pipeline.arrRef spec4 3) (((cfg4.win 3).blk t).view.emb y) = V c (Pipeline.arrRef spec4 3) y
  refine congrArg _ (funext fun a => Fin.ext ?_)
  match a with
  | ⟨0, _⟩ => show win4_3.index t (0 : Fin 2) * 1 + 1 * (y 0).val = (y 0).val; omega
  | ⟨1, _⟩ => show win4_3.index t (1 : Fin 2) * 600 + 1 * (y 1).val = (y 1).val; omega

theorem iblk4_4_eq (c : Dev nD) (t : Fin cfg4.N) : Hand.iblk4 V c 4 t = V c (Pipeline.arrRef spec4 4) := by
  obtain ⟨-, -, -, -, -, -, -, -, e0, e1, -⟩ := idx_facts4 t
  funext y
  show V c (Pipeline.arrRef spec4 4) (((cfg4.win 4).blk t).view.emb y) = V c (Pipeline.arrRef spec4 4) y
  refine congrArg _ (funext fun a => Fin.ext ?_)
  match a with
  | ⟨0, _⟩ => show win4_4.index t (0 : Fin 2) * 600 + 1 * (y 0).val = (y 0).val; omega
  | ⟨1, _⟩ => show win4_4.index t (1 : Fin 2) * 300 + 1 * (y 1).val = (y 1).val; omega

theorem iblk4_5_eq (c : Dev nD) (t : Fin cfg4.N) : Hand.iblk4 V c 5 t = V c (Pipeline.arrRef spec4 5) := by
  obtain ⟨-, -, -, -, -, -, -, -, -, -, e0, e1, -⟩ := idx_facts4 t
  funext y
  show V c (Pipeline.arrRef spec4 5) (((cfg4.win 5).blk t).view.emb y) = V c (Pipeline.arrRef spec4 5) y
  refine congrArg _ (funext fun a => Fin.ext ?_)
  match a with
  | ⟨0, _⟩ => show win4_5.index t (0 : Fin 2) * 1 + 1 * (y 0).val = (y 0).val; omega
  | ⟨1, _⟩ => show win4_5.index t (1 : Fin 2) * 300 + 1 * (y 1).val = (y 1).val; omega

theorem iblk4_1_apply (c : Dev nD) (t : Fin cfg4.N) (ht : t.val < 50) (p : Fin 1000) (l : Fin 300) :
    Hand.iblk4 V c 1 t (ix2 p l) = V c (Pipeline.arrRef spec4 1) (ix2 (tileRow ⟨t.val, ht⟩ p) l) := by
  obtain ⟨-, -, e0, e1, -⟩ := idx_facts4 t
  show V c (Pipeline.arrRef spec4 1) (((cfg4.win 1).blk t).view.emb (ix2 p l)) = _
  refine congrArg _ (funext fun a => Fin.ext ?_)
  match a with
  | ⟨0, _⟩ => show win4_1.index t (0 : Fin 2) * 1000 + 1 * p.val = 1000 * t.val + p.val; omega
  | ⟨1, _⟩ => show win4_1.index t (1 : Fin 2) * 300 + 1 * l.val = l.val; omega

/-! ## The tile of z at a point -/

/-- At point t the body's tile of z, at (p, q), is the layer's z at row 1000 t + p, column q. -/
theorem z4_blk_apply (c : Dev nD) (t : Fin cfg4.N) (ht : t.val < 50) (p : Fin 1000) (q : Fin 300) :
    k4_pay5 (F := Ideal) (Hand.iblk4 V c 0 t) (Hand.iblk4 V c 1 t) (Hand.iblk4 V c 2 t) (Hand.iblk4 V c 3 t)
        (Hand.iblk4 V c 4 t) (Hand.iblk4 V c 5 t) (ix2 p q)
      = Z4 V c (ix2 (tileRow ⟨t.val, ht⟩ p) q) := by
  rw [iblk4_2_eq V c t, iblk4_3_eq V c t, iblk4_4_eq V c t, iblk4_5_eq V c t]
  exact k4_pay5_eq_mlpZ (V c (Pipeline.arrRef spec4 0)) (V c (Pipeline.arrRef spec4 1)) (Hand.iblk4 V c 0 t)
    (Hand.iblk4 V c 1 t) _ _ _ _ p q (tileRow ⟨t.val, ht⟩ p) (fun l => iblk4_0_apply V c t ht p l)
    (fun l => iblk4_1_apply V c t ht p l)

/-! ## Output 6: the blocks make the array -/

theorem lt50_4 (t : Fin cfg4.N) : t.val < 50 := Nat.lt_of_lt_of_eq t.isLt N_4

/-- What point t writes back to the z array is block t of the layer's z. -/
theorem flushed4_6_eq (c : Dev nD) (t : Fin cfg4.N) :
    (Hand.dat4 V c).flushed 6 t = ((cfg4.win 6).blk t).view.read (Elt Ideal) (Z4 V c) := by
  show (cfg4.win 6).cut (grid4.coords t) ((Hand.dat4 V c).after 6 t) = _
  rw [Hand.after4_6]
  unfold Hand.out4_6 Hand.z4
  rw [View.canon_unit_zero hz4]
  simp only [View.ld_unit_zero (S := S1000x300) hz4, View.ld_unit_zero (S := S300x600) hz4,
    View.ld_unit_zero (S := S1x600) hz4, View.ld_unit_zero (S := S600x300) hz4, View.ld_unit_zero (S := S1x300) hz4]
  obtain ⟨-, -, -, -, -, -, -, -, -, -, -, -, e0, e1⟩ := idx_facts4 t
  funext j
  obtain ⟨p, q, rfl⟩ : ∃ (p : Fin 1000) (q : Fin 300), j = ix2 p q := ⟨j 0, j 1, eq_ix2 j⟩
  refine (z4_blk_apply V c t (lt50_4 t) p q).trans ?_
  show Z4 V c _ = Z4 V c (((cfg4.win 6).blk t).view.emb (ix2 p q))
  refine congrArg _ (funext fun a => Fin.ext ?_)
  match a with
  | ⟨0, _⟩ => show 1000 * t.val + p.val = win4_6.index t (0 : Fin 2) * 1000 + 1 * p.val; omega
  | ⟨1, _⟩ => show q.val = win4_6.index t (1 : Fin 2) * 300 + 1 * q.val; omega

/-- Every row is in the block of the point that is its tile: row r is row r % 1000 of block r / 1000. -/
theorem cover4_6 (i : S50000x300.Idx) :
    ∃ t : Fin cfg4.N, (cfg4.win 6).flush t = true ∧ i ∈ ((cfg4.win 6).blk t).view.set := by
  have hi0 : (i 0).val < 50000 := (i 0).isLt
  have hN : cfg4.N = 50 := N_4
  obtain ⟨t, ht⟩ : ∃ t : Fin cfg4.N, t.val = (i 0).val / 1000 := ⟨⟨(i 0).val / 1000, by rw [hN]; omega⟩, rfl⟩
  obtain ⟨-, -, -, -, -, -, -, -, -, -, -, -, e0, e1⟩ := idx_facts4 t
  have he : ((cfg4.win 6).blk t).view.emb (ix2 (⟨(i 0).val % 1000, by omega⟩ : Fin 1000) (i 1)) = i := by
    funext a; apply Fin.ext
    match a with
    | ⟨0, _⟩ => show win4_6.index t (0 : Fin 2) * 1000 + 1 * ((i 0).val % 1000) = (i 0).val; omega
    | ⟨1, _⟩ => show win4_6.index t (1 : Fin 2) * 300 + 1 * (i 1).val = (i 1).val; omega
  refine ⟨t, flush4_6 t, ?_⟩
  rw [← he]
  exact View.emb_mem_set _ _

/-- THE z ARRAY after the region: the layer's z of the six arrays as the region finds them. -/
theorem final4_6 (c : Dev nD) : (Hand.dat4 V c).arrAt 6 cfg4.N = Z4 V c :=
  (Hand.dat4 V c).arrAt_eq_of_cover 6 (Z4 V c) (fun t _ => flushed4_6_eq V c t) (cover4_6)

/-! ## The input arrays are left as found -/

theorem final4_0 (c : Dev nD) : (Hand.dat4 V c).arrAt 0 cfg4.N = V c (Pipeline.arrRef spec4 0) :=
  ((Hand.dat4 V c).arrAt_in 0 rfl cfg4.N).trans (Hand.A_eq4 V c 0)
theorem final4_1 (c : Dev nD) : (Hand.dat4 V c).arrAt 1 cfg4.N = V c (Pipeline.arrRef spec4 1) :=
  ((Hand.dat4 V c).arrAt_in 1 rfl cfg4.N).trans (Hand.A_eq4 V c 1)
theorem final4_2 (c : Dev nD) : (Hand.dat4 V c).arrAt 2 cfg4.N = V c (Pipeline.arrRef spec4 2) :=
  ((Hand.dat4 V c).arrAt_in 2 rfl cfg4.N).trans (Hand.A_eq4 V c 2)
theorem final4_3 (c : Dev nD) : (Hand.dat4 V c).arrAt 3 cfg4.N = V c (Pipeline.arrRef spec4 3) :=
  ((Hand.dat4 V c).arrAt_in 3 rfl cfg4.N).trans (Hand.A_eq4 V c 3)
theorem final4_4 (c : Dev nD) : (Hand.dat4 V c).arrAt 4 cfg4.N = V c (Pipeline.arrRef spec4 4) :=
  ((Hand.dat4 V c).arrAt_in 4 rfl cfg4.N).trans (Hand.A_eq4 V c 4)
theorem final4_5 (c : Dev nD) : (Hand.dat4 V c).arrAt 5 cfg4.N = V c (Pipeline.arrRef spec4 5) :=
  ((Hand.dat4 V c).arrAt_in 5 rfl cfg4.N).trans (Hand.A_eq4 V c 5)

/-! ## Outputs 7 and 8: the two carried rows -/

/-- The two carried rows start from zero. -/
theorem zeroS4_apply (j : S1x300.Idx) : Hand.zeroS4 (F := Ideal) j = 0 := by
  unfold Hand.zeroS4
  rw [View.canon_unit_zero hz4]
  exact k4_pay3_apply j
theorem zeroQ4_apply (j : S1x300.Idx) : Hand.zeroQ4 (F := Ideal) j = 0 := by
  unfold Hand.zeroQ4
  rw [View.canon_unit_zero hz4]
  exact k4_pay4_apply j

/-- One step of the row of column sums at point t: what it held plus the sums down the columns of tile t of z. -/
theorem stepS4_apply (c : Dev nD) (t : Fin cfg4.N) (s : Vec Ideal S1x300 .f32) (u : Fin 1) (q : Fin 300) :
    Hand.stepS4 (Hand.iblk4 V c 0 t) (Hand.iblk4 V c 1 t) (Hand.iblk4 V c 2 t) (Hand.iblk4 V c 3 t)
      (Hand.iblk4 V c 4 t) (Hand.iblk4 V c 5 t) s (ix2 u q)
      = s (ix2 u q) + tileSum (fun r => Z4 V c (ix2 r q)) t.val := by
  unfold Hand.stepS4
  rw [View.canon_unit_zero hz4]
  simp only [View.ld_unit_zero (S := S1000x300) hz4, View.ld_unit_zero (S := S300x600) hz4,
    View.ld_unit_zero (S := S1x600) hz4, View.ld_unit_zero (S := S600x300) hz4, View.ld_unit_zero (S := S1x300) hz4]
  rw [k4_pay1_eq]
  refine (k4_pay6_apply (Hand.iblk4 V c 0 t) (Hand.iblk4 V c 1 t) (Hand.iblk4 V c 2 t) (Hand.iblk4 V c 3 t)
    (Hand.iblk4 V c 4 t) (Hand.iblk4 V c 5 t) s u q).trans ?_
  rw [tileSum_of_lt _ _ (lt50_4 t)]
  exact congrArg (s (ix2 u q) + ·) (Finset.sum_congr rfl fun p _ => z4_blk_apply V c t (lt50_4 t) p q)

/-- One step of the row of column sums of squares at point t. -/
theorem stepQ4_apply (c : Dev nD) (t : Fin cfg4.N) (s : Vec Ideal S1x300 .f32) (u : Fin 1) (q : Fin 300) :
    Hand.stepQ4 (Hand.iblk4 V c 0 t) (Hand.iblk4 V c 1 t) (Hand.iblk4 V c 2 t) (Hand.iblk4 V c 3 t)
      (Hand.iblk4 V c 4 t) (Hand.iblk4 V c 5 t) s (ix2 u q)
      = s (ix2 u q) + tileSum (fun r => Z4 V c (ix2 r q) * Z4 V c (ix2 r q)) t.val := by
  unfold Hand.stepQ4 Hand.z4
  rw [View.canon_unit_zero hz4]
  simp only [View.ld_unit_zero (S := S1000x300) hz4, View.ld_unit_zero (S := S300x600) hz4,
    View.ld_unit_zero (S := S1x600) hz4, View.ld_unit_zero (S := S600x300) hz4, View.ld_unit_zero (S := S1x300) hz4]
  refine (k4_pay2_apply (k4_pay5 (F := Ideal) (Hand.iblk4 V c 0 t) (Hand.iblk4 V c 1 t) (Hand.iblk4 V c 2 t) (Hand.iblk4 V c 3 t)
      (Hand.iblk4 V c 4 t) (Hand.iblk4 V c 5 t)) s u q).trans ?_
  rw [tileSum_of_lt _ _ (lt50_4 t)]
  refine congrArg (s (ix2 u q) + ·) (Finset.sum_congr rfl fun p _ => ?_)
  rw [z4_blk_apply V c t (lt50_4 t) p q]

/-- After the point at position n the row of column sums holds the sums over the rows of tiles 0 to n. -/
theorem accS4_apply (c : Dev nD) : ∀ (n : ℕ) (hn : n < cfg4.N) (u : Fin 1) (q : Fin 300),
    Hand.accS4 V c n hn (ix2 u q) = ∑ t ∈ Finset.range (n + 1), tileSum (fun r => Z4 V c (ix2 r q)) t
  | 0, hn, u, q => by
    rw [Hand.accS4_zero, stepS4_apply V c ⟨0, hn⟩, zeroS4_apply, zero_add, Finset.sum_range_one]
  | n + 1, hn, u, q => by
    rw [Hand.accS4_succ, stepS4_apply V c ⟨n + 1, hn⟩, accS4_apply c n (Nat.lt_of_succ_lt hn) u q,
      Finset.sum_range_succ _ (n + 1)]

/-- and the row of column sums of squares likewise. -/
theorem accQ4_apply (c : Dev nD) : ∀ (n : ℕ) (hn : n < cfg4.N) (u : Fin 1) (q : Fin 300),
    Hand.accQ4 V c n hn (ix2 u q)
      = ∑ t ∈ Finset.range (n + 1), tileSum (fun r => Z4 V c (ix2 r q) * Z4 V c (ix2 r q)) t
  | 0, hn, u, q => by
    rw [Hand.accQ4_zero, stepQ4_apply V c ⟨0, hn⟩, zeroQ4_apply, zero_add, Finset.sum_range_one]
  | n + 1, hn, u, q => by
    rw [Hand.accQ4_succ, stepQ4_apply V c ⟨n + 1, hn⟩, accQ4_apply c n (Nat.lt_of_succ_lt hn) u q,
      Finset.sum_range_succ _ (n + 1)]

/-- THE ROW OF COLUMN SUMS after the region: the column sums of the layer's z over all 50000 rows. -/
theorem final4_7 (c : Dev nD) : (Hand.dat4 V c).arrAt 7 cfg4.N = Cert.Spec.colSum (Z4 V c) := by
  rw [Hand.arrAt4_7]
  unfold Hand.out4_7
  rw [View.canon_unit_zero hz4, View.ld_unit_zero hz4]
  funext j
  obtain ⟨u, q, rfl⟩ : ∃ (u : Fin 1) (q : Fin 300), j = ix2 u q := ⟨j 0, j 1, eq_ix2 j⟩
  rw [accS4_apply V c 49 _ u q]
  exact sum_range_tileSum (fun r => Z4 V c (ix2 r q))

/-- THE ROW OF COLUMN SUMS OF SQUARES after the region. -/
theorem final4_8 (c : Dev nD) : (Hand.dat4 V c).arrAt 8 cfg4.N = Cert.Spec.colSumSq (Z4 V c) := by
  rw [Hand.arrAt4_8]
  unfold Hand.out4_7
  rw [View.canon_unit_zero hz4, View.ld_unit_zero hz4]
  funext j
  obtain ⟨u, q, rfl⟩ : ∃ (u : Fin 1) (q : Fin 300), j = ix2 u q := ⟨j 0, j 1, eq_ix2 j⟩
  rw [accQ4_apply V c 49 _ u q]
  exact sum_range_tileSum (fun r => Z4 V c (ix2 r q) * Z4 V c (ix2 r q))

end Cert.KernelIdeal.HandV

end
-- ==== Proof.KI.ValBn5.lean ====
import proofs.«409348_j89627377533173_1_alg».proof.Proof.KI.RegBn5
import proofs.«409348_j89627377533173_1_alg».proof.Proof.Spec
import Idealize.ShloMosaic.Lib.Pipeline.Value
import Idealize.ShloMosaic.Lib.ValueIdx

/-! # Region 5 (`cc5__bn_relu_kernel`): the value half, over the extended reals

After the region the output array is, index by index, the normalisation of `z` by the given column means and variances,
scaled, shifted and clipped at zero: each of the 25 points writes back the block of that function over its 2000 rows,
and the 25 blocks tile the 50000 rows (row `r` lies in block `r / 2000`). The five input arrays are as the region found
them. -/

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

section Region1
-- the TensorCore's buffer contents when the region is entered
variable (V : (c : Dev nD) → (b : Ref sig .tc) → Buf (Elt Ideal) ((c : Thread nD τ).loc b))

/-! ## The payload at an index -/

theorem zero_off5 : (![0, 0] : Fin 2 → Nat) = fun _ => 0 := funext fun a => by fin_cases a <;> rfl

/-- The zero word is the real zero. -/
theorem zero_word5 : Ideal.ofBits .f32 0x00000000#32 = 0 := by simp [Ideal.ofBits, Ideal.ieee]

/-- A row broadcast down the 2000 rows of a block reads, at an index, the row at the index's column. -/
theorem bcast_row5 (x : Vec Ideal S1x300 .f32) (j : S2000x300.Idx) :
    broadcastTo S2000x300 x broadcasts_S1x300_S2000x300 j = x (ix2 0 (j 1)) :=
  broadcastTo_apply x _ j (ix2 0 (j 1)) (fun a => by match a with | ⟨0, _⟩ => rfl | ⟨1, _⟩ => rfl)

/-- The body's payload at an index of the block: the block's entry less the column's mean, times the reciprocal root of
    the column's variance plus the stabiliser, times the column's scale, plus its shift, clipped at zero. (The payload
    takes its row arguments in the order the body loads them: variance before mean.) -/
theorem pay5_apply (xz : Vec Ideal S2000x300 .f32) (xv xm xg xb : Vec Ideal S1x300 .f32) (j : S2000x300.Idx) :
    k5_pay1 (F := Ideal) xz xv xm xg xb j
      = max ((xz j - xm (ix2 0 (j 1))) * Ideal.rsqrt (xv (ix2 0 (j 1)) + Ideal.ofBits .f32 0x3727C5AC#32) * xg (ix2 0 (j 1))
          + xb (ix2 0 (j 1))) 0 := by
  unfold k5_pay1
  simp only [shapeCast_self]
  rw [maximumf_apply, addf_apply, mulf_apply, mulf_apply, subf_apply, broadcast_apply,
    bcast_row5, bcast_row5, bcast_row5, bcast_row5]
  show max (_ * Ideal.rsqrt (xv (ix2 0 (j 1)) + Ideal.ofBits .f32 0x3727C5AC#32) * _ + _) (Ideal.ofBits .f32 0x00000000#32) = _
  rw [zero_word5]

/-- So, when the loaded blocks read the arrays `Z`, `M`, `Vr`, `Gm`, `B` at the places the array index `i` names, the payload
    at `j` is the layer's normalisation of those arrays at `i`. -/
theorem pay5_eq_bnRelu (Z : Cert.Spec.SNE.Idx → EReal) (M Vr Gm B : Cert.Spec.S1E.Idx → EReal)
    (xz : Vec Ideal S2000x300 .f32) (xv xm xg xb : Vec Ideal S1x300 .f32) (j : S2000x300.Idx) (i : Cert.Spec.SNE.Idx)
    (hz : xz j = Z i) (hm : xm (ix2 0 (j 1)) = M (ix2 0 (i 1))) (hv : xv (ix2 0 (j 1)) = Vr (ix2 0 (i 1)))
    (hg : xg (ix2 0 (j 1)) = Gm (ix2 0 (i 1))) (hb : xb (ix2 0 (j 1)) = B (ix2 0 (i 1))) :
    k5_pay1 (F := Ideal) xz xv xm xg xb j = Cert.Spec.bnRelu Z M Vr Gm B (Ideal.ofBits .f32 0x3727C5AC#32) i := by
  rw [pay5_apply, hz, hm, hv, hg, hb]
  rfl

/-! ## The windows' block indices, decided over the 25 points -/

/-- The block of `z` and the output block move together down the rows, block `t` at point `t`, and span the columns;
    the four row windows stay at their one block. -/
theorem idx_facts5 : ∀ t : Fin cfg5.N,
    win5_0.index t (0 : Fin 2) = t.val ∧ win5_0.index t (1 : Fin 2) = 0
    ∧ win5_5.index t (0 : Fin 2) = t.val ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-! ## What a point writes back -/

/-- The output array after the region, as one function of the entry arrays. -/
abbrev G5 (c : Dev nD) : Cert.Spec.SNE.Idx → EReal :=
  Cert.Spec.bnRelu (V c (Pipeline.arrRef spec5 0)) (V c (Pipeline.arrRef spec5 1)) (V c (Pipeline.arrRef spec5 2))
    (V c (Pipeline.arrRef spec5 3)) (V c (Pipeline.arrRef spec5 4)) (Ideal.ofBits .f32 0x3727C5AC#32)

/-- Point `t`'s block of `z`, at a block index `j`, is the array at the output block's array index: the two windows have
    the same block index. -/
theorem blk5_0_at (c : Dev nD) (t : Fin cfg5.N) (j : S2000x300.Idx) :
    iblk5 V c 0 t j = V c (Pipeline.arrRef spec5 0) (((cfg5.win 5).blk t).view.emb j) := by
  obtain ⟨e00, e01, e50, e51, e10, e11, e20, e21, e30, e31, e40, e41⟩ := idx_facts5 t
  have hjr : (j 0).val < 2000 := (j 0).isLt
  have hjc : (j 1).val < 300 := (j 1).isLt
  show V c (Pipeline.arrRef spec5 0) (((cfg5.win 0).blk t).view.emb j) = V c (Pipeline.arrRef spec5 0) (((cfg5.win 5).blk t).view.emb j)
  refine congrArg _ (funext fun a => Fin.ext ?_)
  match a with
  | ⟨0, _⟩ => show win5_0.index t (0 : Fin 2) * 2000 + 1 * (j 0).val = win5_5.index t (0 : Fin 2) * 2000 + 1 * (j 0).val; omega
  | ⟨1, _⟩ => show win5_0.index t (1 : Fin 2) * 300 + 1 * (j 1).val = win5_5.index t (1 : Fin 2) * 300 + 1 * (j 1).val; omega

/-- Point `t`'s block of the means (one row, not moving with the point), at the column of a block index `j`, is the array at
    that column of the output block's array index. -/
theorem blk5_1_at (c : Dev nD) (t : Fin cfg5.N) (j : S2000x300.Idx) :
    iblk5 V c 1 t (ix2 0 (j 1)) = V c (Pipeline.arrRef spec5 1) (ix2 0 ((((cfg5.win 5).blk t).view.emb j) 1)) := by
  obtain ⟨e00, e01, e50, e51, e10, e11, e20, e21, e30, e31, e40, e41⟩ := idx_facts5 t
  have hjc : (j 1).val < 300 := (j 1).isLt
  show V c (Pipeline.arrRef spec5 1) (((cfg5.win 1).blk t).view.emb (ix2 0 (j 1))) = V c (Pipeline.arrRef spec5 1) (ix2 0 ((((cfg5.win 5).blk t).view.emb j) 1))
  refine congrArg _ (funext fun a => Fin.ext ?_)
  match a with
  | ⟨0, _⟩ => show win5_1.index t (0 : Fin 2) * 1 + 1 * 0 = 0; omega
  | ⟨1, _⟩ => show win5_1.index t (1 : Fin 2) * 300 + 1 * (j 1).val = win5_5.index t (1 : Fin 2) * 300 + 1 * (j 1).val; omega

/-- Point `t`'s block of the variances (one row, not moving with the point), at the column of a block index `j`, is the array at
    that column of the output block's array index. -/
theorem blk5_2_at (c : Dev nD) (t : Fin cfg5.N) (j : S2000x300.Idx) :
    iblk5 V c 2 t (ix2 0 (j 1)) = V c (Pipeline.arrRef spec5 2) (ix2 0 ((((cfg5.win 5).blk t).view.emb j) 1)) := by
  obtain ⟨e00, e01, e50, e51, e10, e11, e20, e21, e30, e31, e40, e41⟩ := idx_facts5 t
  have hjc : (j 1).val < 300 := (j 1).isLt
  show V c (Pipeline.arrRef spec5 2) (((cfg5.win 2).blk t).view.emb (ix2 0 (j 1))) = V c (Pipeline.arrRef spec5 2) (ix2 0 ((((cfg5.win 5).blk t).view.emb j) 1))
  refine congrArg _ (funext fun a => Fin.ext ?_)
  match a with
  | ⟨0, _⟩ => show win5_2.index t (0 : Fin 2) * 1 + 1 * 0 = 0; omega
  | ⟨1, _⟩ => show win5_2.index t (1 : Fin 2) * 300 + 1 * (j 1).val = win5_5.index t (1 : Fin 2) * 300 + 1 * (j 1).val; omega

/-- Point `t`'s block of the scales (one row, not moving with the point), at the column of a block index `j`, is the array at
    that column of the output block's array index. -/
theorem blk5_3_at (c : Dev nD) (t : Fin cfg5.N) (j : S2000x300.Idx) :
    iblk5 V c 3 t (ix2 0 (j 1)) = V c (Pipeline.arrRef spec5 3) (ix2 0 ((((cfg5.win 5).blk t).view.emb j) 1)) := by
  obtain ⟨e00, e01, e50, e51, e10, e11, e20, e21, e30, e31, e40, e41⟩ := idx_facts5 t
  have hjc : (j 1).val < 300 := (j 1).isLt
  show V c (Pipeline.arrRef spec5 3) (((cfg5.win 3).blk t).view.emb (ix2 0 (j 1))) = V c (Pipeline.arrRef spec5 3) (ix2 0 ((((cfg5.win 5).blk t).view.emb j) 1))
  refine congrArg _ (funext fun a => Fin.ext ?_)
  match a with
  | ⟨0, _⟩ => show win5_3.index t (0 : Fin 2) * 1 + 1 * 0 = 0; omega
  | ⟨1, _⟩ => show win5_3.index t (1 : Fin 2) * 300 + 1 * (j 1).val = win5_5.index t (1 : Fin 2) * 300 + 1 * (j 1).val; omega

/-- Point `t`'s block of the shifts (one row, not moving with the point), at the column of a block index `j`, is the array at
    that column of the output block's array index. -/
theorem blk5_4_at (c : Dev nD) (t : Fin cfg5.N) (j : S2000x300.Idx) :
    iblk5 V c 4 t (ix2 0 (j 1)) = V c (Pipeline.arrRef spec5 4) (ix2 0 ((((cfg5.win 5).blk t).view.emb j) 1)) := by
  obtain ⟨e00, e01, e50, e51, e10, e11, e20, e21, e30, e31, e40, e41⟩ := idx_facts5 t
  have hjc : (j 1).val < 300 := (j 1).isLt
  show V c (Pipeline.arrRef spec5 4) (((cfg5.win 4).blk t).view.emb (ix2 0 (j 1))) = V c (Pipeline.arrRef spec5 4) (ix2 0 ((((cfg5.win 5).blk t).view.emb j) 1))
  refine congrArg _ (funext fun a => Fin.ext ?_)
  match a with
  | ⟨0, _⟩ => show win5_4.index t (0 : Fin 2) * 1 + 1 * 0 = 0; omega
  | ⟨1, _⟩ => show win5_4.index t (1 : Fin 2) * 300 + 1 * (j 1).val = win5_5.index t (1 : Fin 2) * 300 + 1 * (j 1).val; omega

/-- What point `t` writes back is block `t` of `G5`. -/
theorem flushed5_5_eq (c : Dev nD) (t : Fin cfg5.N) :
    (dat5 V c).flushed 5 t = ((cfg5.win 5).blk t).view.read (Elt Ideal) (G5 V c) := by
  show (cfg5.win 5).cut (grid5.coords t) ((dat5 V c).after 5 t) = _
  rw [after5_5]
  unfold out5_5
  rw [View.canon_unit_zero zero_off5]
  simp only [View.ld_unit_zero (S := S2000x300) zero_off5, View.ld_unit_zero (S := S1x300) zero_off5]
  funext j
  show k5_pay1 (F := Ideal) (iblk5 V c 0 t) (iblk5 V c 2 t) (iblk5 V c 1 t) (iblk5 V c 3 t) (iblk5 V c 4 t) j
    = G5 V c (((cfg5.win 5).blk t).view.emb j)
  exact pay5_eq_bnRelu _ _ _ _ _ _ _ _ _ _ j _ (blk5_0_at V c t j) (blk5_1_at V c t j) (blk5_2_at V c t j)
    (blk5_3_at V c t j) (blk5_4_at V c t j)

/-! ## The blocks tile the array -/

/-- An index of the array is in point `t`'s block iff each coordinate is in the block's range on its axis. -/
theorem inblk5_5 (t : Fin cfg5.N) (i : S50000x300.Idx) :
    i ∈ ((cfg5.win 5).blk t).view.set ↔ ∀ a : Fin 2, win5_5.index t a * S2000x300.size a ≤ (i a).val ∧ (i a).val < win5_5.index t a * S2000x300.size a + S2000x300.size a := by
  show i ∈ ((View.whole (Pipeline.arrRef spec5 5)).slice (win5_5.rect t)).set ↔ _
  rw [View.set_slice_whole, Rect.mem_set_unit]
  exact Iff.rfl

/-- Every index is in some point's block: row `r` is in block `r / 2000`, which spans the columns. -/
theorem cover5_arr (i : S50000x300.Idx) :
    ∃ t : Fin cfg5.N, (cfg5.win 5).flush t = true ∧ i ∈ ((cfg5.win 5).blk t).view.set := by
  have hir : (i 0).val < 50000 := (i 0).isLt
  have hic : (i 1).val < 300 := (i 1).isLt
  have ht : (i 0).val / 2000 < cfg5.N := by show _ < 25; omega
  obtain ⟨-, -, e50, e51, -⟩ := idx_facts5 ⟨(i 0).val / 2000, ht⟩
  refine ⟨⟨(i 0).val / 2000, ht⟩, flush5_5 _, ?_⟩
  rw [inblk5_5]
  intro a
  match a with
  | ⟨0, _⟩ =>
    show win5_5.index ⟨(i 0).val / 2000, ht⟩ (0 : Fin 2) * 2000 ≤ (i 0).val ∧ (i 0).val < win5_5.index ⟨(i 0).val / 2000, ht⟩ (0 : Fin 2) * 2000 + 2000
    rw [e50]; show (i 0).val / 2000 * 2000 ≤ (i 0).val ∧ (i 0).val < (i 0).val / 2000 * 2000 + 2000; omega
  | ⟨1, _⟩ =>
    show win5_5.index ⟨(i 0).val / 2000, ht⟩ (1 : Fin 2) * 300 ≤ (i 1).val ∧ (i 1).val < win5_5.index ⟨(i 0).val / 2000, ht⟩ (1 : Fin 2) * 300 + 300
    rw [e51]; omega

/-! ## The arrays after the region -/

/-- The output array after the region is the normalisation of the entry arrays. -/
theorem final5_5 (c : Dev nD) :
    (dat5 V c).arrAt 5 cfg5.N
      = Cert.Spec.bnRelu (V c (Pipeline.arrRef spec5 0)) (V c (Pipeline.arrRef spec5 1)) (V c (Pipeline.arrRef spec5 2))
          (V c (Pipeline.arrRef spec5 3)) (V c (Pipeline.arrRef spec5 4)) (Ideal.ofBits .f32 0x3727C5AC#32) :=
  (dat5 V c).arrAt_eq_of_cover 5 (G5 V c) (fun t _ => flushed5_5_eq V c t) cover5_arr

/-- Each input array is as the region found it: the pipeline stages it and never writes it back. -/
theorem final5_0 (c : Dev nD) : (dat5 V c).arrAt 0 cfg5.N = V c (Pipeline.arrRef spec5 0) :=
  ((dat5 V c).arrAt_in 0 rfl _).trans (A_eq5 V c 0)
theorem final5_1 (c : Dev nD) : (dat5 V c).arrAt 1 cfg5.N = V c (Pipeline.arrRef spec5 1) :=
  ((dat5 V c).arrAt_in 1 rfl _).trans (A_eq5 V c 1)
theorem final5_2 (c : Dev nD) : (dat5 V c).arrAt 2 cfg5.N = V c (Pipeline.arrRef spec5 2) :=
  ((dat5 V c).arrAt_in 2 rfl _).trans (A_eq5 V c 2)
theorem final5_3 (c : Dev nD) : (dat5 V c).arrAt 3 cfg5.N = V c (Pipeline.arrRef spec5 3) :=
  ((dat5 V c).arrAt_in 3 rfl _).trans (A_eq5 V c 3)
theorem final5_4 (c : Dev nD) : (dat5 V c).arrAt 4 cfg5.N = V c (Pipeline.arrRef spec5 4) :=
  ((dat5 V c).arrAt_in 4 rfl _).trans (A_eq5 V c 4)

end Region1

end Cert.KernelIdeal.HandV
-- ==== Proof.Glue.KHostL2.lean ====
/-
  The kernel program's host stretches of layer 2, read as functions of the buffers they start from (an arbitrary
  valuation V).  Before the mlp region: the aggregated messages (`MP` of the features the previous layer left, the
  layer's embedding tables, and the edges' index vectors as the first stretch left them) and the layer's weights and
  biases.  Before the normalisation region: the column mean, the variance from the two moments, the scale and shift.
-/
import proofs.«409348_j89627377533173_1_alg».proof.Proof.Gen.KernelIdeal.Regions
import proofs.«409348_j89627377533173_1_alg».proof.Proof.Glue.Operands
import proofs.«409348_j89627377533173_1_alg».proof.Proof.Glue.Stats
import proofs.«409348_j89627377533173_1_alg».proof.Proof.Glue.Layer

set_option maxRecDepth 2516

noncomputable section

namespace Cert.KernelIdeal.HandV

open Idealize.ShloMosaic Idealize.ShloMosaic.TcCoe Idealize.ShloMosaic.ValueIdx
open Cert.KernelIdeal Cert.KernelIdeal.Gen

/-! ### Layer 2: before the mlp region (`hostOps4`) -/

section Layer2Mlp
variable {F : FTy → Type} [FloatOps F] (V : Valuation τ sig (Elt F))

/-- The aggregated messages of layer 2. -/
theorem host4_agg : StableHlo.after hostOps4 V (Proc.devRef .tc main_v158) =
    MP (V main_v128) (E1 (2 : Fin 5) (V main_arg1)) (E2 (2 : Fin 5) (V main_arg2)) (V main_v1) (V main_v3) (V main_v5) (V main_v7) := by
  after_results_simp <;> rfl

/-- The features the layer starts from are not written. -/
theorem host4_h : StableHlo.after hostOps4 V (Proc.devRef .tc main_v128) = V main_v128 := by
  after_results_simp

theorem host4_w1 : StableHlo.after hostOps4 V (Proc.devRef .tc main_v160) = W1 (2 : Fin 5) (V main_arg3) := by
  after_results_simp <;> rfl

theorem host4_b1 : StableHlo.after hostOps4 V (Proc.devRef .tc main_v167) = row (B1 (2 : Fin 5) (V main_arg4)) := by
  after_results_simp <;> exact shapeCast_vec_row _ _

theorem host4_w2 : StableHlo.after hostOps4 V (Proc.devRef .tc main_v164) = W2 (2 : Fin 5) (V main_arg5) := by
  after_results_simp <;> rfl

theorem host4_b2 : StableHlo.after hostOps4 V (Proc.devRef .tc main_v168) = row (R300 (2 : Fin 5) (V main_arg6)) := by
  after_results_simp <;> exact shapeCast_vec_row _ _

end Layer2Mlp

/-! ### Layer 2: before the normalisation region (`hostOps5`) -/

section Layer2Stats
variable {F : FTy → Type} [FloatOps F] (V : Valuation τ sig (Elt F))

/-- The pre-normalisation output is not written. -/
theorem host5_z : StableHlo.after hostOps5 V (Proc.devRef .tc main_v169_0) = V main_v169_0 := by
  after_results_simp

/-- The mean, as the operations' term: the column sums over the row count. -/
theorem host5_mean_term : StableHlo.after hostOps5 V (Proc.devRef .tc main_v173) =
    row (Host.divf (shapeCast S300 (V main_v169_1) shapeCasts_S1x300_S300)
      (broadcastInDim S300 ![] bcast_S_S300 (constant S_ .f32 0x47435000#32))) := by
  after_results_simp <;> exact shapeCast_vec_row _ _

/-- The variance, as the operations' term: the column sums of squares over the row count, less the mean squared. -/
theorem host5_var_term : StableHlo.after hostOps5 V (Proc.devRef .tc main_v181) =
    row (subf (Host.divf (shapeCast S300 (V main_v169_2) shapeCasts_S1x300_S300)
        (broadcastInDim S300 ![] bcast_S_S300 (constant S_ .f32 0x47435000#32)))
      (mulf (shapeCast S300 (StableHlo.after hostOps5 V (Proc.devRef .tc main_v173)) shapeCasts_S1x300_S300)
        (shapeCast S300 (StableHlo.after hostOps5 V (Proc.devRef .tc main_v173)) shapeCasts_S1x300_S300))) := by
  after_results_simp <;> exact shapeCast_vec_row _ _

theorem host5_gamma : StableHlo.after hostOps5 V (Proc.devRef .tc main_v186) = row (R300 (2 : Fin 5) (V main_arg7)) := by
  after_results_simp <;> exact shapeCast_vec_row _ _

theorem host5_beta : StableHlo.after hostOps5 V (Proc.devRef .tc main_v187) = row (R300 (2 : Fin 5) (V main_arg8)) := by
  after_results_simp <;> exact shapeCast_vec_row _ _

end Layer2Stats

section Layer2StatsIdeal
variable (V : Valuation τ sig (Elt Ideal))

/-- The mean is the column sums over the row count. -/
theorem host5_mean : StableHlo.after hostOps5 V (Proc.devRef .tc main_v173) = meanOfSums (V main_v169_1) := by
  rw [host5_mean_term]; exact mean_term_eq _

/-- The variance is the column sums of squares over the row count, less the mean squared. -/
theorem host5_var : StableHlo.after hostOps5 V (Proc.devRef .tc main_v181) =
    varOfSums (V main_v169_2) (StableHlo.after hostOps5 V (Proc.devRef .tc main_v173)) := by
  rw [host5_var_term]; exact var_term_eq _ _

end Layer2StatsIdeal

/-! ### Layer 2 as one step

From the valuation `V0` the layer starts from: the host stretch before the mlp region, the region's three outputs put
in their buffers (`Zc` the perceptron's output of the six operands, `Sc` / `SSc` its column sums and column sums of
squares), the host stretch before the normalisation region, and that region's output.  The result is the layer
function `layerM` of `V0`'s argument buffers and incoming features. -/

section Layer2Step
variable (V0 : Valuation τ sig (Elt Ideal))

/-- The buffers after the mlp region of layer 2. -/
abbrev mid2 (Zc : FVec Ideal S50000x300 .f32) (Sc SSc : FVec Ideal S1x300 .f32) : Valuation τ sig (Elt Ideal) :=
  Function.update (Function.update (Function.update (StableHlo.after hostOps4 V0) main_v169_0 Zc) main_v169_1 Sc) main_v169_2 SSc

theorem mid2_z (Zc Sc SSc) : mid2 V0 Zc Sc SSc main_v169_0 = Zc := by
  unfold mid2
  rw [Function.update_of_ne (StableHlo.devRef_ne_of_ne (by decide)), Function.update_of_ne (StableHlo.devRef_ne_of_ne (by decide)),
    Function.update_self]
theorem mid2_s (Zc Sc SSc) : mid2 V0 Zc Sc SSc main_v169_1 = Sc := by
  unfold mid2
  rw [Function.update_of_ne (StableHlo.devRef_ne_of_ne (by decide)), Function.update_self]
theorem mid2_ss (Zc Sc SSc) : mid2 V0 Zc Sc SSc main_v169_2 = SSc := by
  unfold mid2
  rw [Function.update_self]
/-- A buffer that is none of the region's outputs is as the host stretch left it. -/
theorem mid2_of_ne (Zc Sc SSc) (r : Ref sig .tc) (hz : r ≠ main_v169_0) (hs : r ≠ main_v169_1) (hss : r ≠ main_v169_2) :
    mid2 V0 Zc Sc SSc r = StableHlo.after hostOps4 V0 r := by
  unfold mid2
  rw [Function.update_of_ne (StableHlo.devRef_ne_of_ne hss), Function.update_of_ne (StableHlo.devRef_ne_of_ne hs),
    Function.update_of_ne (StableHlo.devRef_ne_of_ne hz)]

/-- The layer's result. -/
theorem kStep2 (Zc : FVec Ideal S50000x300 .f32) (Sc SSc : FVec Ideal S1x300 .f32)
    (hZ : Zc = Cert.Spec.mlpZ (StableHlo.after hostOps4 V0 (Proc.devRef .tc main_v158)) (StableHlo.after hostOps4 V0 (Proc.devRef .tc main_v128))
      (StableHlo.after hostOps4 V0 (Proc.devRef .tc main_v160)) (StableHlo.after hostOps4 V0 (Proc.devRef .tc main_v167))
      (StableHlo.after hostOps4 V0 (Proc.devRef .tc main_v164)) (StableHlo.after hostOps4 V0 (Proc.devRef .tc main_v168)))
    (hS : Sc = Cert.Spec.colSum Zc) (hSS : SSc = Cert.Spec.colSumSq Zc)
    (hsrc : V0 main_v1 = edgeSrc (V0 main_arg9)) (hdst : V0 main_v3 = edgeDst (V0 main_arg9))
    (he0 : V0 main_v5 = attr0 (V0 main_arg10)) (he1 : V0 main_v7 = attr1 (V0 main_arg10)) :
    Cert.Spec.bnRelu (StableHlo.after hostOps5 (mid2 V0 Zc Sc SSc) (Proc.devRef .tc main_v169_0))
        (StableHlo.after hostOps5 (mid2 V0 Zc Sc SSc) (Proc.devRef .tc main_v173))
        (StableHlo.after hostOps5 (mid2 V0 Zc Sc SSc) (Proc.devRef .tc main_v181))
        (StableHlo.after hostOps5 (mid2 V0 Zc Sc SSc) (Proc.devRef .tc main_v186))
        (StableHlo.after hostOps5 (mid2 V0 Zc Sc SSc) (Proc.devRef .tc main_v187))
        (Ideal.ofBits .f32 0x3727C5AC#32)
      = layerM (V0 main_arg1) (V0 main_arg2) (V0 main_arg3) (V0 main_arg4) (V0 main_arg5) (V0 main_arg6) (V0 main_arg7)
          (V0 main_arg8) (V0 main_arg9) (V0 main_arg10) (2 : Fin 5) (V0 main_v128) := by
  -- the perceptron's output is the layer's pre-normalisation array
  have hz : Zc = layerZ (V0 main_arg1) (V0 main_arg2) (V0 main_arg3) (V0 main_arg4) (V0 main_arg5) (V0 main_arg6)
      (V0 main_arg9) (V0 main_arg10) (2 : Fin 5) (V0 main_v128) := by
    rw [hZ, host4_agg, host4_h, host4_w1, host4_b1, host4_w2, host4_b2]
    rw [hsrc, hdst, he0, he1]
    rfl
  -- the normalisation region's five operands
  have e0 : StableHlo.after hostOps5 (mid2 V0 Zc Sc SSc) (Proc.devRef .tc main_v169_0) = Zc := by
    rw [host5_z]; exact mid2_z V0 Zc Sc SSc
  have e1 : (StableHlo.after hostOps5 (mid2 V0 Zc Sc SSc) (Proc.devRef .tc main_v173) : FVec Ideal S1x300 .f32)
      = Cert.Math.colMean Zc := by
    rw [host5_mean, mid2_s, hS]; rfl
  have e2 : (StableHlo.after hostOps5 (mid2 V0 Zc Sc SSc) (Proc.devRef .tc main_v181) : FVec Ideal S1x300 .f32)
      = Cert.Math.varOfMoments Zc := by
    rw [host5_var, host5_mean, mid2_ss, mid2_s, hSS, hS]; rfl
  have e3 : StableHlo.after hostOps5 (mid2 V0 Zc Sc SSc) (Proc.devRef .tc main_v186) = row (R300 (2 : Fin 5) (V0 main_arg7)) := by
    rw [host5_gamma, mid2_of_ne V0 Zc Sc SSc main_arg7 (by decide) (by decide) (by decide),
      StableHlo.after_of_writes_sub hostOps4 V0 hostOps4_writes (by decide)]
  have e4 : StableHlo.after hostOps5 (mid2 V0 Zc Sc SSc) (Proc.devRef .tc main_v187) = row (R300 (2 : Fin 5) (V0 main_arg8)) := by
    rw [host5_beta, mid2_of_ne V0 Zc Sc SSc main_arg8 (by decide) (by decide) (by decide),
      StableHlo.after_of_writes_sub hostOps4 V0 hostOps4_writes (by decide)]
  rw [e0, e1, e2, e3, e4, Cert.Consts.ofBits_eps, hz]
  rfl

/-- A buffer neither stretch writes and no region of the layer outputs is, after the layer, as `V0` has it. -/
theorem kKeep2 (Zc Sc SSc) (Hc : FVec Ideal S50000x300 .f32) (r : Ref sig .tc) (h0 : r ∉ hostOps4_W) (h1 : r ∉ hostOps5_W)
    (hz : r ≠ main_v169_0) (hs : r ≠ main_v169_1) (hss : r ≠ main_v169_2) (hh : r ≠ main_v188) :
    Function.update (StableHlo.after hostOps5 (mid2 V0 Zc Sc SSc)) main_v188 Hc r = V0 r := by
  rw [Function.update_of_ne (StableHlo.devRef_ne_of_ne hh), StableHlo.after_of_writes_sub hostOps5 _ hostOps5_writes h1,
    mid2_of_ne V0 Zc Sc SSc r hz hs hss, StableHlo.after_of_writes_sub hostOps4 V0 hostOps4_writes h0]

/-- A buffer the second stretch does not write and no region of the layer outputs is, after the layer, as the first
    stretch left it. -/
theorem kKeepMid2 (Zc Sc SSc) (Hc : FVec Ideal S50000x300 .f32) (r : Ref sig .tc) (h1 : r ∉ hostOps5_W)
    (hz : r ≠ main_v169_0) (hs : r ≠ main_v169_1) (hss : r ≠ main_v169_2) (hh : r ≠ main_v188) :
    Function.update (StableHlo.after hostOps5 (mid2 V0 Zc Sc SSc)) main_v188 Hc r = StableHlo.after hostOps4 V0 r := by
  rw [Function.update_of_ne (StableHlo.devRef_ne_of_ne hh), StableHlo.after_of_writes_sub hostOps5 _ hostOps5_writes h1,
    mid2_of_ne V0 Zc Sc SSc r hz hs hss]

/-- The layer's own output buffer holds what the normalisation region wrote. -/
theorem kSelf2 (Zc Sc SSc) (Hc : FVec Ideal S50000x300 .f32) :
    Function.update (StableHlo.after hostOps5 (mid2 V0 Zc Sc SSc)) main_v188 Hc main_v188 = Hc :=
  Function.update_self ..

end Layer2Step

end Cert.KernelIdeal.HandV

end
-- ==== Proof.KI.ValMlp2a.lean ====
/-
  What one grid point of this layer's first kernel computes, read at an index of the extended reals.

  The tile of z is relu((agg + h) W1 + b1) W2 + b2 on the tile's 1000 rows: two products into zero accumulators, a row
  of bias broadcast over the rows, a clip at zero, and format changes that are the identity on extended reals.  The two
  carried rows add to what they held the column sums of the tile, and of its squares; they start from zero, and the
  last point copies them out.
-/
import proofs.«409348_j89627377533173_1_alg».proof.Proof.KI.ValMlpOps
import proofs.«409348_j89627377533173_1_alg».proof.Proof.Spec

noncomputable section

open scoped BigOperators

namespace Cert.KernelIdeal.HandV

open Cert.KernelIdeal Cert.KernelIdeal.Gen
open Idealize.ShloMosaic Idealize.ShloMosaic.ValueIdx

/-! ## The payloads at an index -/

/-- The tile of z at a row and a column. -/
theorem k2_pay5_apply (x0 x1 : FVec Ideal S1000x300 .f32) (w1 : FVec Ideal S300x600 .f32) (b1 : FVec Ideal S1x600 .f32)
    (w2 : FVec Ideal S600x300 .f32) (b2 : FVec Ideal S1x300 .f32) (p : Fin 1000) (q : Fin 300) :
    k2_pay5 (F := Ideal) x0 x1 w1 b1 w2 b2 (ix2 p q)
      = (∑ k : Fin 600, max ((∑ l : Fin 300, (x0 (ix2 p l) + x1 (ix2 p l)) * w1 (ix2 l k)) + b1 (ix2 0 k)) 0 * w2 (ix2 k q))
        + b2 (ix2 0 q) := by
  unfold k2_pay5
  simp only [shapeCast_self]
  rw [addf_apply, matmul_d2_apply, broadcastTo_1b_ab_apply]
  refine congrArg (· + b2 (ix2 0 q)) (Finset.sum_congr rfl fun k _ => ?_)
  rw [truncf_apply, truncf_apply, maximumf_apply, addf_apply, matmul_d1_apply, broadcastTo_1b_ab_apply, broadcast_apply]
  show max ((∑ l : Fin 300, (x0 (ix2 p l) + x1 (ix2 p l)) * w1 (ix2 l k)) + b1 (ix2 0 k)) (Ideal.ofBits .f32 0x00000000#32)
      * w2 (ix2 k q) = _
  rw [Ideal.ofBits_zero_f32]

/-- The tile of z is the layer's z on the tile's rows: when row p of the two row tiles is row r of the two arrays,
    the tile at (p, q) is z at (r, q). The weights and biases are whole arrays. -/
theorem k2_pay5_eq_mlpZ (agg h : Cert.Spec.SNE.Idx → EReal) (x0 x1 : FVec Ideal S1000x300 .f32)
    (w1 : FVec Ideal S300x600 .f32) (b1 : FVec Ideal S1x600 .f32) (w2 : FVec Ideal S600x300 .f32)
    (b2 : FVec Ideal S1x300 .f32) (p : Fin 1000) (q : Fin 300) (r : Fin 50000)
    (h0 : ∀ l : Fin 300, x0 (ix2 p l) = agg (ix2 r l)) (h1 : ∀ l : Fin 300, x1 (ix2 p l) = h (ix2 r l)) :
    k2_pay5 (F := Ideal) x0 x1 w1 b1 w2 b2 (ix2 p q) = Cert.Spec.mlpZ agg h w1 b1 w2 b2 (ix2 r q) := by
  rw [k2_pay5_apply]
  unfold Cert.Spec.mlpZ Cert.Spec.hid
  refine congrArg (· + b2 (ix2 0 q)) (Finset.sum_congr rfl fun k _ => ?_)
  refine congrArg (fun t => max (t + b1 (ix2 0 k)) 0 * w2 (ix2 k q)) (Finset.sum_congr rfl fun l _ => ?_)
  rw [h0 l, h1 l]

/-- The carried row of column sums: what it held plus the sums down the tile's columns. -/
theorem k2_pay6_apply (x0 x1 : FVec Ideal S1000x300 .f32) (w1 : FVec Ideal S300x600 .f32) (b1 : FVec Ideal S1x600 .f32)
    (w2 : FVec Ideal S600x300 .f32) (b2 : FVec Ideal S1x300 .f32) (s : FVec Ideal S1x300 .f32) (u : Fin 1) (q : Fin 300) :
    k2_pay6 (F := Ideal) x0 x1 w1 b1 w2 b2 s (ix2 u q)
      = s (ix2 u q) + ∑ p : Fin 1000, k2_pay5 (F := Ideal) x0 x1 w1 b1 w2 b2 (ix2 p q) := by
  unfold k2_pay6
  rw [addf_apply, shapeCast_a_1a_apply, colReduce_apply]

/-- The carried row of column sums of squares: what it held plus the sums of squares down the tile's columns. -/
theorem k2_pay2_apply (z : FVec Ideal S1000x300 .f32) (s : FVec Ideal S1x300 .f32) (u : Fin 1) (q : Fin 300) :
    k2_pay2 (F := Ideal) z s (ix2 u q) = s (ix2 u q) + ∑ p : Fin 1000, z (ix2 p q) * z (ix2 p q) := by
  unfold k2_pay2
  simp only [shapeCast_self]
  rw [addf_apply, shapeCast_a_1a_apply, colReduce_apply]
  rfl

/-- The row copied out at the last point is the carried row. -/
theorem k2_pay1_eq (s : FVec Ideal S1x300 .f32) : k2_pay1 (F := Ideal) s = s := by
  unfold k2_pay1
  exact shapeCast_self _ _

/-- The two carried rows start from zero. -/
theorem k2_pay3_apply (j : S1x300.Idx) : k2_pay3 (F := Ideal) j = 0 := by
  unfold k2_pay3
  simp only [shapeCast_self]
  show Ideal.ofBits .f32 0x00000000#32 = 0
  exact Ideal.ofBits_zero_f32
theorem k2_pay4_apply (j : S1x300.Idx) : k2_pay4 (F := Ideal) j = 0 := by
  unfold k2_pay4
  simp only [shapeCast_self]
  show Ideal.ofBits .f32 0x00000000#32 = 0
  exact Ideal.ofBits_zero_f32

end Cert.KernelIdeal.HandV

end
-- ==== Proof.KI.ValMlp2.lean ====
/-
  What this layer's first kernel leaves in its three output arrays, as functions of the six arrays it finds.

  The grid has fifty points; point t reads rows 1000 t to 1000 t + 999 of the two row arrays and the whole of the
  weights and biases, writes the tile of z = relu((agg + h) W1 + b1) W2 + b2 on those rows to block t of the z array,
  and adds the tile's column sums, and the column sums of its squares, to two carried rows that start from zero; the
  last point copies the two rows out.  So the z array ends holding z (its fifty blocks tile it: row r is row r % 1000
  of block r / 1000), and the two rows end holding the sums over all fifty tiles, which are the sums over all 50000
  rows.  The six input arrays are left as found.
-/
import proofs.«409348_j89627377533173_1_alg».proof.Proof.KI.RegMlp2
import proofs.«409348_j89627377533173_1_alg».proof.Proof.KI.ValMlp2a
import proofs.«409348_j89627377533173_1_alg».proof.Proof.KI.ValMlpSums
import Idealize.ShloMosaic.Lib.Pipeline.Value
import Idealize.ShloMosaic.Lib.ValueLayout

set_option maxRecDepth 16384

noncomputable section

open scoped BigOperators

namespace Cert.KernelIdeal.HandV

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

-- the TensorCore's buffer contents when the region is entered, at the extended reals
variable (V : (c : Dev nD) → (b : Ref sig .tc) → Buf (Elt Ideal) ((c : Thread nD τ).loc b))

/-! ## The printed index maps, and the blocks they cut -/

theorem hz2 : (![0, 0] : Fin 2 → Nat) = fun _ => 0 := funext fun a => by fin_cases a <;> rfl

/-- The printed index maps over the grid: the two row tiles and the output tile move down the rows with the point,
    the weights and biases are one block. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The layer's z of the six arrays as the region finds them. -/
abbrev Z2 (c : Dev nD) : Cert.Spec.SNE.Idx → EReal :=
  Cert.Spec.mlpZ (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5))

/-- The weights and biases are each one block: at every point the block read is the whole array. -/
theorem iblk2_2_eq (c : Dev nD) (t : Fin cfg2.N) : Hand.iblk2 V c 2 t = V c (Pipeline.arrRef spec2 2) := by
  obtain ⟨-, -, -, -, e0, e1, -⟩ := idx_facts2 t
  funext y
  show V c (Pipeline.arrRef spec2 2) (((cfg2.win 2).blk t).view.emb y) = V c (Pipeline.arrRef spec2 2) y
  refine congrArg _ (funext fun a => Fin.ext ?_)
  match a with
  | ⟨0, _⟩ => show win2_2.index t (0 : Fin 2) * 300 + 1 * (y 0).val = (y 0).val; omega
  | ⟨1, _⟩ => show win2_2.index t (1 : Fin 2) * 600 + 1 * (y 1).val = (y 1).val; omega

/-- Row p of row tile t is row 1000 t + p of the array. -/
theorem iblk2_0_apply (c : Dev nD) (t : Fin cfg2.N) (ht : t.val < 50) (p : Fin 1000) (l : Fin 300) :
    Hand.iblk2 V c 0 t (ix2 p l) = V c (Pipeline.arrRef spec2 0) (ix2 (tileRow ⟨t.val, ht⟩ p) l) := by
  obtain ⟨e0, e1, -⟩ := idx_facts2 t
  show V c (Pipeline.arrRef spec2 0) (((cfg2.win 0).blk t).view.emb (ix2 p l)) = _
  refine congrArg _ (funext fun a => Fin.ext ?_)
  match a with
  | ⟨0, _⟩ => show win2_0.index t (0 : Fin 2) * 1000 + 1 * p.val = 1000 * t.val + p.val; omega
  | ⟨1, _⟩ => show win2_0.index t (1 : Fin 2) * 300 + 1 * l.val = l.val; omega

theorem iblk2_3_eq (c : Dev nD) (t : Fin cfg2.N) : Hand.iblk2 V c 3 t = V c (Pipeline.arrRef spec2 3) := by
  obtain ⟨-, -, -, -, -, -, e0, e1, -⟩ := idx_facts2 t
  funext y
  show V c (Pipeline.arrRef spec2 3) (((cfg2.win 3).blk t).view.emb y) = V c (Pipeline.arrRef spec2 3) y
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 600 + 1 * (y 1).val = (y 1).val; omega

theorem iblk2_4_eq (c : Dev nD) (t : Fin cfg2.N) : Hand.iblk2 V c 4 t = V c (Pipeline.arrRef spec2 4) := by
  obtain ⟨-, -, -, -, -, -, -, -, e0, e1, -⟩ := idx_facts2 t
  funext y
  show V c (Pipeline.arrRef spec2 4) (((cfg2.win 4).blk t).view.emb y) = V c (Pipeline.arrRef spec2 4) y
  refine congrArg _ (funext fun a => Fin.ext ?_)
  match a with
  | ⟨0, _⟩ => show win2_4.index t (0 : Fin 2) * 600 + 1 * (y 0).val = (y 0).val; omega
  | ⟨1, _⟩ => show win2_4.index t (1 : Fin 2) * 300 + 1 * (y 1).val = (y 1).val; omega

theorem iblk2_5_eq (c : Dev nD) (t : Fin cfg2.N) : Hand.iblk2 V c 5 t = V c (Pipeline.arrRef spec2 5) := by
  obtain ⟨-, -, -, -, -, -, -, -, -, -, e0, e1, -⟩ := idx_facts2 t
  funext y
  show V c (Pipeline.arrRef spec2 5) (((cfg2.win 5).blk t).view.emb y) = V c (Pipeline.arrRef spec2 5) y
  refine congrArg _ (funext fun a => Fin.ext ?_)
  match a with
  | ⟨0, _⟩ => show win2_5.index t (0 : Fin 2) * 1 + 1 * (y 0).val = (y 0).val; omega
  | ⟨1, _⟩ => show win2_5.index t (1 : Fin 2) * 300 + 1 * (y 1).val = (y 1).val; omega

theorem iblk2_1_apply (c : Dev nD) (t : Fin cfg2.N) (ht : t.val < 50) (p : Fin 1000) (l : Fin 300) :
    Hand.iblk2 V c 1 t (ix2 p l) = V c (Pipeline.arrRef spec2 1) (ix2 (tileRow ⟨t.val, ht⟩ p) l) := by
  obtain ⟨-, -, e0, e1, -⟩ := idx_facts2 t
  show V c (Pipeline.arrRef spec2 1) (((cfg2.win 1).blk t).view.emb (ix2 p l)) = _
  refine congrArg _ (funext fun a => Fin.ext ?_)
  match a with
  | ⟨0, _⟩ => show win2_1.index t (0 : Fin 2) * 1000 + 1 * p.val = 1000 * t.val + p.val; omega
  | ⟨1, _⟩ => show win2_1.index t (1 : Fin 2) * 300 + 1 * l.val = l.val; omega

/-! ## The tile of z at a point -/

/-- At point t the body's tile of z, at (p, q), is the layer's z at row 1000 t + p, column q. -/
theorem z2_blk_apply (c : Dev nD) (t : Fin cfg2.N) (ht : t.val < 50) (p : Fin 1000) (q : Fin 300) :
    k2_pay5 (F := Ideal) (Hand.iblk2 V c 0 t) (Hand.iblk2 V c 1 t) (Hand.iblk2 V c 2 t) (Hand.iblk2 V c 3 t)
        (Hand.iblk2 V c 4 t) (Hand.iblk2 V c 5 t) (ix2 p q)
      = Z2 V c (ix2 (tileRow ⟨t.val, ht⟩ p) q) := by
  rw [iblk2_2_eq V c t, iblk2_3_eq V c t, iblk2_4_eq V c t, iblk2_5_eq V c t]
  exact k2_pay5_eq_mlpZ (V c (Pipeline.arrRef spec2 0)) (V c (Pipeline.arrRef spec2 1)) (Hand.iblk2 V c 0 t)
    (Hand.iblk2 V c 1 t) _ _ _ _ p q (tileRow ⟨t.val, ht⟩ p) (fun l => iblk2_0_apply V c t ht p l)
    (fun l => iblk2_1_apply V c t ht p l)

/-! ## Output 6: the blocks make the array -/

theorem lt50_2 (t : Fin cfg2.N) : t.val < 50 := Nat.lt_of_lt_of_eq t.isLt N_2

/-- What point t writes back to the z array is block t of the layer's z. -/
theorem flushed2_6_eq (c : Dev nD) (t : Fin cfg2.N) :
    (Hand.dat2 V c).flushed 6 t = ((cfg2.win 6).blk t).view.read (Elt Ideal) (Z2 V c) := by
  show (cfg2.win 6).cut (grid2.coords t) ((Hand.dat2 V c).after 6 t) = _
  rw [Hand.after2_6]
  unfold Hand.out2_6 Hand.z2
  rw [View.canon_unit_zero hz2]
  simp only [View.ld_unit_zero (S := S1000x300) hz2, View.ld_unit_zero (S := S300x600) hz2,
    View.ld_unit_zero (S := S1x600) hz2, View.ld_unit_zero (S := S600x300) hz2, View.ld_unit_zero (S := S1x300) hz2]
  obtain ⟨-, -, -, -, -, -, -, -, -, -, -, -, e0, e1⟩ := idx_facts2 t
  funext j
  obtain ⟨p, q, rfl⟩ : ∃ (p : Fin 1000) (q : Fin 300), j = ix2 p q := ⟨j 0, j 1, eq_ix2 j⟩
  refine (z2_blk_apply V c t (lt50_2 t) p q).trans ?_
  show Z2 V c _ = Z2 V c (((cfg2.win 6).blk t).view.emb (ix2 p q))
  refine congrArg _ (funext fun a => Fin.ext ?_)
  match a with
  | ⟨0, _⟩ => show 1000 * t.val + p.val = win2_6.index t (0 : Fin 2) * 1000 + 1 * p.val; omega
  | ⟨1, _⟩ => show q.val = win2_6.index t (1 : Fin 2) * 300 + 1 * q.val; omega

/-- Every row is in the block of the point that is its tile: row r is row r % 1000 of block r / 1000. -/
theorem cover2_6 (i : S50000x300.Idx) :
    ∃ t : Fin cfg2.N, (cfg2.win 6).flush t = true ∧ i ∈ ((cfg2.win 6).blk t).view.set := by
  have hi0 : (i 0).val < 50000 := (i 0).isLt
  have hN : cfg2.N = 50 := N_2
  obtain ⟨t, ht⟩ : ∃ t : Fin cfg2.N, t.val = (i 0).val / 1000 := ⟨⟨(i 0).val / 1000, by rw [hN]; omega⟩, rfl⟩
  obtain ⟨-, -, -, -, -, -, -, -, -, -, -, -, e0, e1⟩ := idx_facts2 t
  have he : ((cfg2.win 6).blk t).view.emb (ix2 (⟨(i 0).val % 1000, by omega⟩ : Fin 1000) (i 1)) = i := by
    funext a; apply Fin.ext
    match a with
    | ⟨0, _⟩ => show win2_6.index t (0 : Fin 2) * 1000 + 1 * ((i 0).val % 1000) = (i 0).val; omega
    | ⟨1, _⟩ => show win2_6.index t (1 : Fin 2) * 300 + 1 * (i 1).val = (i 1).val; omega
  refine ⟨t, flush2_6 t, ?_⟩
  rw [← he]
  exact View.emb_mem_set _ _

/-- THE z ARRAY after the region: the layer's z of the six arrays as the region finds them. -/
theorem final2_6 (c : Dev nD) : (Hand.dat2 V c).arrAt 6 cfg2.N = Z2 V c :=
  (Hand.dat2 V c).arrAt_eq_of_cover 6 (Z2 V c) (fun t _ => flushed2_6_eq V c t) (cover2_6)

/-! ## The input arrays are left as found -/

theorem final2_0 (c : Dev nD) : (Hand.dat2 V c).arrAt 0 cfg2.N = V c (Pipeline.arrRef spec2 0) :=
  ((Hand.dat2 V c).arrAt_in 0 rfl cfg2.N).trans (Hand.A_eq2 V c 0)
theorem final2_1 (c : Dev nD) : (Hand.dat2 V c).arrAt 1 cfg2.N = V c (Pipeline.arrRef spec2 1) :=
  ((Hand.dat2 V c).arrAt_in 1 rfl cfg2.N).trans (Hand.A_eq2 V c 1)
theorem final2_2 (c : Dev nD) : (Hand.dat2 V c).arrAt 2 cfg2.N = V c (Pipeline.arrRef spec2 2) :=
  ((Hand.dat2 V c).arrAt_in 2 rfl cfg2.N).trans (Hand.A_eq2 V c 2)
theorem final2_3 (c : Dev nD) : (Hand.dat2 V c).arrAt 3 cfg2.N = V c (Pipeline.arrRef spec2 3) :=
  ((Hand.dat2 V c).arrAt_in 3 rfl cfg2.N).trans (Hand.A_eq2 V c 3)
theorem final2_4 (c : Dev nD) : (Hand.dat2 V c).arrAt 4 cfg2.N = V c (Pipeline.arrRef spec2 4) :=
  ((Hand.dat2 V c).arrAt_in 4 rfl cfg2.N).trans (Hand.A_eq2 V c 4)
theorem final2_5 (c : Dev nD) : (Hand.dat2 V c).arrAt 5 cfg2.N = V c (Pipeline.arrRef spec2 5) :=
  ((Hand.dat2 V c).arrAt_in 5 rfl cfg2.N).trans (Hand.A_eq2 V c 5)

/-! ## Outputs 7 and 8: the two carried rows -/

/-- The two carried rows start from zero. -/
theorem zeroS2_apply (j : S1x300.Idx) : Hand.zeroS2 (F := Ideal) j = 0 := by
  unfold Hand.zeroS2
  rw [View.canon_unit_zero hz2]
  exact k2_pay3_apply j
theorem zeroQ2_apply (j : S1x300.Idx) : Hand.zeroQ2 (F := Ideal) j = 0 := by
  unfold Hand.zeroQ2
  rw [View.canon_unit_zero hz2]
  exact k2_pay4_apply j

/-- One step of the row of column sums at point t: what it held plus the sums down the columns of tile t of z. -/
theorem stepS2_apply (c : Dev nD) (t : Fin cfg2.N) (s : Vec Ideal S1x300 .f32) (u : Fin 1) (q : Fin 300) :
    Hand.stepS2 (Hand.iblk2 V c 0 t) (Hand.iblk2 V c 1 t) (Hand.iblk2 V c 2 t) (Hand.iblk2 V c 3 t)
      (Hand.iblk2 V c 4 t) (Hand.iblk2 V c 5 t) s (ix2 u q)
      = s (ix2 u q) + tileSum (fun r => Z2 V c (ix2 r q)) t.val := by
  unfold Hand.stepS2
  rw [View.canon_unit_zero hz2]
  simp only [View.ld_unit_zero (S := S1000x300) hz2, View.ld_unit_zero (S := S300x600) hz2,
    View.ld_unit_zero (S := S1x600) hz2, View.ld_unit_zero (S := S600x300) hz2, View.ld_unit_zero (S := S1x300) hz2]
  rw [k2_pay1_eq]
  refine (k2_pay6_apply (Hand.iblk2 V c 0 t) (Hand.iblk2 V c 1 t) (Hand.iblk2 V c 2 t) (Hand.iblk2 V c 3 t)
    (Hand.iblk2 V c 4 t) (Hand.iblk2 V c 5 t) s u q).trans ?_
  rw [tileSum_of_lt _ _ (lt50_2 t)]
  exact congrArg (s (ix2 u q) + ·) (Finset.sum_congr rfl fun p _ => z2_blk_apply V c t (lt50_2 t) p q)

/-- One step of the row of column sums of squares at point t. -/
theorem stepQ2_apply (c : Dev nD) (t : Fin cfg2.N) (s : Vec Ideal S1x300 .f32) (u : Fin 1) (q : Fin 300) :
    Hand.stepQ2 (Hand.iblk2 V c 0 t) (Hand.iblk2 V c 1 t) (Hand.iblk2 V c 2 t) (Hand.iblk2 V c 3 t)
      (Hand.iblk2 V c 4 t) (Hand.iblk2 V c 5 t) s (ix2 u q)
      = s (ix2 u q) + tileSum (fun r => Z2 V c (ix2 r q) * Z2 V c (ix2 r q)) t.val := by
  unfold Hand.stepQ2 Hand.z2
  rw [View.canon_unit_zero hz2]
  simp only [View.ld_unit_zero (S := S1000x300) hz2, View.ld_unit_zero (S := S300x600) hz2,
    View.ld_unit_zero (S := S1x600) hz2, View.ld_unit_zero (S := S600x300) hz2, View.ld_unit_zero (S := S1x300) hz2]
  refine (k2_pay2_apply (k2_pay5 (F := Ideal) (Hand.iblk2 V c 0 t) (Hand.iblk2 V c 1 t) (Hand.iblk2 V c 2 t) (Hand.iblk2 V c 3 t)
      (Hand.iblk2 V c 4 t) (Hand.iblk2 V c 5 t)) s u q).trans ?_
  rw [tileSum_of_lt _ _ (lt50_2 t)]
  refine congrArg (s (ix2 u q) + ·) (Finset.sum_congr rfl fun p _ => ?_)
  rw [z2_blk_apply V c t (lt50_2 t) p q]

/-- After the point at position n the row of column sums holds the sums over the rows of tiles 0 to n. -/
theorem accS2_apply (c : Dev nD) : ∀ (n : ℕ) (hn : n < cfg2.N) (u : Fin 1) (q : Fin 300),
    Hand.accS2 V c n hn (ix2 u q) = ∑ t ∈ Finset.range (n + 1), tileSum (fun r => Z2 V c (ix2 r q)) t
  | 0, hn, u, q => by
    rw [Hand.accS2_zero, stepS2_apply V c ⟨0, hn⟩, zeroS2_apply, zero_add, Finset.sum_range_one]
  | n + 1, hn, u, q => by
    rw [Hand.accS2_succ, stepS2_apply V c ⟨n + 1, hn⟩, accS2_apply c n (Nat.lt_of_succ_lt hn) u q,
      Finset.sum_range_succ _ (n + 1)]

/-- and the row of column sums of squares likewise. -/
theorem accQ2_apply (c : Dev nD) : ∀ (n : ℕ) (hn : n < cfg2.N) (u : Fin 1) (q : Fin 300),
    Hand.accQ2 V c n hn (ix2 u q)
      = ∑ t ∈ Finset.range (n + 1), tileSum (fun r => Z2 V c (ix2 r q) * Z2 V c (ix2 r q)) t
  | 0, hn, u, q => by
    rw [Hand.accQ2_zero, stepQ2_apply V c ⟨0, hn⟩, zeroQ2_apply, zero_add, Finset.sum_range_one]
  | n + 1, hn, u, q => by
    rw [Hand.accQ2_succ, stepQ2_apply V c ⟨n + 1, hn⟩, accQ2_apply c n (Nat.lt_of_succ_lt hn) u q,
      Finset.sum_range_succ _ (n + 1)]

/-- THE ROW OF COLUMN SUMS after the region: the column sums of the layer's z over all 50000 rows. -/
theorem final2_7 (c : Dev nD) : (Hand.dat2 V c).arrAt 7 cfg2.N = Cert.Spec.colSum (Z2 V c) := by
  rw [Hand.arrAt2_7]
  unfold Hand.out2_7
  rw [View.canon_unit_zero hz2, View.ld_unit_zero hz2]
  funext j
  obtain ⟨u, q, rfl⟩ : ∃ (u : Fin 1) (q : Fin 300), j = ix2 u q := ⟨j 0, j 1, eq_ix2 j⟩
  rw [accS2_apply V c 49 _ u q]
  exact sum_range_tileSum (fun r => Z2 V c (ix2 r q))

/-- THE ROW OF COLUMN SUMS OF SQUARES after the region. -/
theorem final2_8 (c : Dev nD) : (Hand.dat2 V c).arrAt 8 cfg2.N = Cert.Spec.colSumSq (Z2 V c) := by
  rw [Hand.arrAt2_8]
  unfold Hand.out2_7
  rw [View.canon_unit_zero hz2, View.ld_unit_zero hz2]
  funext j
  obtain ⟨u, q, rfl⟩ : ∃ (u : Fin 1) (q : Fin 300), j = ix2 u q := ⟨j 0, j 1, eq_ix2 j⟩
  rw [accQ2_apply V c 49 _ u q]
  exact sum_range_tileSum (fun r => Z2 V c (ix2 r q) * Z2 V c (ix2 r q))

end Cert.KernelIdeal.HandV

end
-- ==== Proof.KI.ValBn3.lean ====
import proofs.«409348_j89627377533173_1_alg».proof.Proof.KI.RegBn3
import proofs.«409348_j89627377533173_1_alg».proof.Proof.Spec
import Idealize.ShloMosaic.Lib.Pipeline.Value
import Idealize.ShloMosaic.Lib.ValueIdx

/-! # Region 3 (`cc3__bn_relu_kernel`): the value half, over the extended reals

After the region the output array is, index by index, the normalisation of `z` by the given column means and variances,
scaled, shifted and clipped at zero: each of the 25 points writes back the block of that function over its 2000 rows,
and the 25 blocks tile the 50000 rows (row `r` lies in block `r / 2000`). The five input arrays are as the region found
them. -/

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

section Region1
-- the TensorCore's buffer contents when the region is entered
variable (V : (c : Dev nD) → (b : Ref sig .tc) → Buf (Elt Ideal) ((c : Thread nD τ).loc b))

/-! ## The payload at an index -/

theorem zero_off3 : (![0, 0] : Fin 2 → Nat) = fun _ => 0 := funext fun a => by fin_cases a <;> rfl

/-- The zero word is the real zero. -/
theorem zero_word3 : Ideal.ofBits .f32 0x00000000#32 = 0 := by simp [Ideal.ofBits, Ideal.ieee]

/-- A row broadcast down the 2000 rows of a block reads, at an index, the row at the index's column. -/
theorem bcast_row3 (x : Vec Ideal S1x300 .f32) (j : S2000x300.Idx) :
    broadcastTo S2000x300 x broadcasts_S1x300_S2000x300 j = x (ix2 0 (j 1)) :=
  broadcastTo_apply x _ j (ix2 0 (j 1)) (fun a => by match a with | ⟨0, _⟩ => rfl | ⟨1, _⟩ => rfl)

/-- The body's payload at an index of the block: the block's entry less the column's mean, times the reciprocal root of
    the column's variance plus the stabiliser, times the column's scale, plus its shift, clipped at zero. (The payload
    takes its row arguments in the order the body loads them: variance before mean.) -/
theorem pay3_apply (xz : Vec Ideal S2000x300 .f32) (xv xm xg xb : Vec Ideal S1x300 .f32) (j : S2000x300.Idx) :
    k3_pay1 (F := Ideal) xz xv xm xg xb j
      = max ((xz j - xm (ix2 0 (j 1))) * Ideal.rsqrt (xv (ix2 0 (j 1)) + Ideal.ofBits .f32 0x3727C5AC#32) * xg (ix2 0 (j 1))
          + xb (ix2 0 (j 1))) 0 := by
  unfold k3_pay1
  simp only [shapeCast_self]
  rw [maximumf_apply, addf_apply, mulf_apply, mulf_apply, subf_apply, broadcast_apply,
    bcast_row3, bcast_row3, bcast_row3, bcast_row3]
  show max (_ * Ideal.rsqrt (xv (ix2 0 (j 1)) + Ideal.ofBits .f32 0x3727C5AC#32) * _ + _) (Ideal.ofBits .f32 0x00000000#32) = _
  rw [zero_word3]

/-- So, when the loaded blocks read the arrays `Z`, `M`, `Vr`, `Gm`, `B` at the places the array index `i` names, the payload
    at `j` is the layer's normalisation of those arrays at `i`. -/
theorem pay3_eq_bnRelu (Z : Cert.Spec.SNE.Idx → EReal) (M Vr Gm B : Cert.Spec.S1E.Idx → EReal)
    (xz : Vec Ideal S2000x300 .f32) (xv xm xg xb : Vec Ideal S1x300 .f32) (j : S2000x300.Idx) (i : Cert.Spec.SNE.Idx)
    (hz : xz j = Z i) (hm : xm (ix2 0 (j 1)) = M (ix2 0 (i 1))) (hv : xv (ix2 0 (j 1)) = Vr (ix2 0 (i 1)))
    (hg : xg (ix2 0 (j 1)) = Gm (ix2 0 (i 1))) (hb : xb (ix2 0 (j 1)) = B (ix2 0 (i 1))) :
    k3_pay1 (F := Ideal) xz xv xm xg xb j = Cert.Spec.bnRelu Z M Vr Gm B (Ideal.ofBits .f32 0x3727C5AC#32) i := by
  rw [pay3_apply, hz, hm, hv, hg, hb]
  rfl

/-! ## The windows' block indices, decided over the 25 points -/

/-- The block of `z` and the output block move together down the rows, block `t` at point `t`, and span the columns;
    the four row windows stay at their one block. -/
theorem idx_facts3 : ∀ t : Fin cfg3.N,
    win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-! ## What a point writes back -/

/-- The output array after the region, as one function of the entry arrays. -/
abbrev G3 (c : Dev nD) : Cert.Spec.SNE.Idx → EReal :=
  Cert.Spec.bnRelu (V c (Pipeline.arrRef spec3 0)) (V c (Pipeline.arrRef spec3 1)) (V c (Pipeline.arrRef spec3 2))
    (V c (Pipeline.arrRef spec3 3)) (V c (Pipeline.arrRef spec3 4)) (Ideal.ofBits .f32 0x3727C5AC#32)

/-- Point `t`'s block of `z`, at a block index `j`, is the array at the output block's array index: the two windows have
    the same block index. -/
theorem blk3_0_at (c : Dev nD) (t : Fin cfg3.N) (j : S2000x300.Idx) :
    iblk3 V c 0 t j = V c (Pipeline.arrRef spec3 0) (((cfg3.win 5).blk t).view.emb j) := by
  obtain ⟨e00, e01, e50, e51, e10, e11, e20, e21, e30, e31, e40, e41⟩ := idx_facts3 t
  have hjr : (j 0).val < 2000 := (j 0).isLt
  have hjc : (j 1).val < 300 := (j 1).isLt
  show V c (Pipeline.arrRef spec3 0) (((cfg3.win 0).blk t).view.emb j) = V c (Pipeline.arrRef spec3 0) (((cfg3.win 5).blk t).view.emb j)
  refine congrArg _ (funext fun a => Fin.ext ?_)
  match a with
  | ⟨0, _⟩ => show win3_0.index t (0 : Fin 2) * 2000 + 1 * (j 0).val = win3_5.index t (0 : Fin 2) * 2000 + 1 * (j 0).val; omega
  | ⟨1, _⟩ => show win3_0.index t (1 : Fin 2) * 300 + 1 * (j 1).val = win3_5.index t (1 : Fin 2) * 300 + 1 * (j 1).val; omega

/-- Point `t`'s block of the means (one row, not moving with the point), at the column of a block index `j`, is the array at
    that column of the output block's array index. -/
theorem blk3_1_at (c : Dev nD) (t : Fin cfg3.N) (j : S2000x300.Idx) :
    iblk3 V c 1 t (ix2 0 (j 1)) = V c (Pipeline.arrRef spec3 1) (ix2 0 ((((cfg3.win 5).blk t).view.emb j) 1)) := by
  obtain ⟨e00, e01, e50, e51, e10, e11, e20, e21, e30, e31, e40, e41⟩ := idx_facts3 t
  have hjc : (j 1).val < 300 := (j 1).isLt
  show V c (Pipeline.arrRef spec3 1) (((cfg3.win 1).blk t).view.emb (ix2 0 (j 1))) = V c (Pipeline.arrRef spec3 1) (ix2 0 ((((cfg3.win 5).blk t).view.emb j) 1))
  refine congrArg _ (funext fun a => Fin.ext ?_)
  match a with
  | ⟨0, _⟩ => show win3_1.index t (0 : Fin 2) * 1 + 1 * 0 = 0; omega
  | ⟨1, _⟩ => show win3_1.index t (1 : Fin 2) * 300 + 1 * (j 1).val = win3_5.index t (1 : Fin 2) * 300 + 1 * (j 1).val; omega

/-- Point `t`'s block of the variances (one row, not moving with the point), at the column of a block index `j`, is the array at
    that column of the output block's array index. -/
theorem blk3_2_at (c : Dev nD) (t : Fin cfg3.N) (j : S2000x300.Idx) :
    iblk3 V c 2 t (ix2 0 (j 1)) = V c (Pipeline.arrRef spec3 2) (ix2 0 ((((cfg3.win 5).blk t).view.emb j) 1)) := by
  obtain ⟨e00, e01, e50, e51, e10, e11, e20, e21, e30, e31, e40, e41⟩ := idx_facts3 t
  have hjc : (j 1).val < 300 := (j 1).isLt
  show V c (Pipeline.arrRef spec3 2) (((cfg3.win 2).blk t).view.emb (ix2 0 (j 1))) = V c (Pipeline.arrRef spec3 2) (ix2 0 ((((cfg3.win 5).blk t).view.emb j) 1))
  refine congrArg _ (funext fun a => Fin.ext ?_)
  match a with
  | ⟨0, _⟩ => show win3_2.index t (0 : Fin 2) * 1 + 1 * 0 = 0; omega
  | ⟨1, _⟩ => show win3_2.index t (1 : Fin 2) * 300 + 1 * (j 1).val = win3_5.index t (1 : Fin 2) * 300 + 1 * (j 1).val; omega

/-- Point `t`'s block of the scales (one row, not moving with the point), at the column of a block index `j`, is the array at
    that column of the output block's array index. -/
theorem blk3_3_at (c : Dev nD) (t : Fin cfg3.N) (j : S2000x300.Idx) :
    iblk3 V c 3 t (ix2 0 (j 1)) = V c (Pipeline.arrRef spec3 3) (ix2 0 ((((cfg3.win 5).blk t).view.emb j) 1)) := by
  obtain ⟨e00, e01, e50, e51, e10, e11, e20, e21, e30, e31, e40, e41⟩ := idx_facts3 t
  have hjc : (j 1).val < 300 := (j 1).isLt
  show V c (Pipeline.arrRef spec3 3) (((cfg3.win 3).blk t).view.emb (ix2 0 (j 1))) = V c (Pipeline.arrRef spec3 3) (ix2 0 ((((cfg3.win 5).blk t).view.emb j) 1))
  refine congrArg _ (funext fun a => Fin.ext ?_)
  match a with
  | ⟨0, _⟩ => show win3_3.index t (0 : Fin 2) * 1 + 1 * 0 = 0; omega
  | ⟨1, _⟩ => show win3_3.index t (1 : Fin 2) * 300 + 1 * (j 1).val = win3_5.index t (1 : Fin 2) * 300 + 1 * (j 1).val; omega

/-- Point `t`'s block of the shifts (one row, not moving with the point), at the column of a block index `j`, is the array at
    that column of the output block's array index. -/
theorem blk3_4_at (c : Dev nD) (t : Fin cfg3.N) (j : S2000x300.Idx) :
    iblk3 V c 4 t (ix2 0 (j 1)) = V c (Pipeline.arrRef spec3 4) (ix2 0 ((((cfg3.win 5).blk t).view.emb j) 1)) := by
  obtain ⟨e00, e01, e50, e51, e10, e11, e20, e21, e30, e31, e40, e41⟩ := idx_facts3 t
  have hjc : (j 1).val < 300 := (j 1).isLt
  show V c (Pipeline.arrRef spec3 4) (((cfg3.win 4).blk t).view.emb (ix2 0 (j 1))) = V c (Pipeline.arrRef spec3 4) (ix2 0 ((((cfg3.win 5).blk t).view.emb j) 1))
  refine congrArg _ (funext fun a => Fin.ext ?_)
  match a with
  | ⟨0, _⟩ => show win3_4.index t (0 : Fin 2) * 1 + 1 * 0 = 0; omega
  | ⟨1, _⟩ => show win3_4.index t (1 : Fin 2) * 300 + 1 * (j 1).val = win3_5.index t (1 : Fin 2) * 300 + 1 * (j 1).val; omega

/-- What point `t` writes back is block `t` of `G3`. -/
theorem flushed3_5_eq (c : Dev nD) (t : Fin cfg3.N) :
    (dat3 V c).flushed 5 t = ((cfg3.win 5).blk t).view.read (Elt Ideal) (G3 V c) := by
  show (cfg3.win 5).cut (grid3.coords t) ((dat3 V c).after 5 t) = _
  rw [after3_5]
  unfold out3_5
  rw [View.canon_unit_zero zero_off3]
  simp only [View.ld_unit_zero (S := S2000x300) zero_off3, View.ld_unit_zero (S := S1x300) zero_off3]
  funext j
  show k3_pay1 (F := Ideal) (iblk3 V c 0 t) (iblk3 V c 2 t) (iblk3 V c 1 t) (iblk3 V c 3 t) (iblk3 V c 4 t) j
    = G3 V c (((cfg3.win 5).blk t).view.emb j)
  exact pay3_eq_bnRelu _ _ _ _ _ _ _ _ _ _ j _ (blk3_0_at V c t j) (blk3_1_at V c t j) (blk3_2_at V c t j)
    (blk3_3_at V c t j) (blk3_4_at V c t j)

/-! ## The blocks tile the array -/

/-- An index of the array is in point `t`'s block iff each coordinate is in the block's range on its axis. -/
theorem inblk3_5 (t : Fin cfg3.N) (i : S50000x300.Idx) :
    i ∈ ((cfg3.win 5).blk t).view.set ↔ ∀ a : Fin 2, win3_5.index t a * S2000x300.size a ≤ (i a).val ∧ (i a).val < win3_5.index t a * S2000x300.size a + S2000x300.size a := by
  show i ∈ ((View.whole (Pipeline.arrRef spec3 5)).slice (win3_5.rect t)).set ↔ _
  rw [View.set_slice_whole, Rect.mem_set_unit]
  exact Iff.rfl

/-- Every index is in some point's block: row `r` is in block `r / 2000`, which spans the columns. -/
theorem cover3_arr (i : S50000x300.Idx) :
    ∃ t : Fin cfg3.N, (cfg3.win 5).flush t = true ∧ i ∈ ((cfg3.win 5).blk t).view.set := by
  have hir : (i 0).val < 50000 := (i 0).isLt
  have hic : (i 1).val < 300 := (i 1).isLt
  have ht : (i 0).val / 2000 < cfg3.N := by show _ < 25; omega
  obtain ⟨-, -, e50, e51, -⟩ := idx_facts3 ⟨(i 0).val / 2000, ht⟩
  refine ⟨⟨(i 0).val / 2000, ht⟩, flush3_5 _, ?_⟩
  rw [inblk3_5]
  intro a
  match a with
  | ⟨0, _⟩ =>
    show win3_5.index ⟨(i 0).val / 2000, ht⟩ (0 : Fin 2) * 2000 ≤ (i 0).val ∧ (i 0).val < win3_5.index ⟨(i 0).val / 2000, ht⟩ (0 : Fin 2) * 2000 + 2000
    rw [e50]; show (i 0).val / 2000 * 2000 ≤ (i 0).val ∧ (i 0).val < (i 0).val / 2000 * 2000 + 2000; omega
  | ⟨1, _⟩ =>
    show win3_5.index ⟨(i 0).val / 2000, ht⟩ (1 : Fin 2) * 300 ≤ (i 1).val ∧ (i 1).val < win3_5.index ⟨(i 0).val / 2000, ht⟩ (1 : Fin 2) * 300 + 300
    rw [e51]; omega

/-! ## The arrays after the region -/

/-- The output array after the region is the normalisation of the entry arrays. -/
theorem final3_5 (c : Dev nD) :
    (dat3 V c).arrAt 5 cfg3.N
      = Cert.Spec.bnRelu (V c (Pipeline.arrRef spec3 0)) (V c (Pipeline.arrRef spec3 1)) (V c (Pipeline.arrRef spec3 2))
          (V c (Pipeline.arrRef spec3 3)) (V c (Pipeline.arrRef spec3 4)) (Ideal.ofBits .f32 0x3727C5AC#32) :=
  (dat3 V c).arrAt_eq_of_cover 5 (G3 V c) (fun t _ => flushed3_5_eq V c t) cover3_arr

/-- Each input array is as the region found it: the pipeline stages it and never writes it back. -/
theorem final3_0 (c : Dev nD) : (dat3 V c).arrAt 0 cfg3.N = V c (Pipeline.arrRef spec3 0) :=
  ((dat3 V c).arrAt_in 0 rfl _).trans (A_eq3 V c 0)
theorem final3_1 (c : Dev nD) : (dat3 V c).arrAt 1 cfg3.N = V c (Pipeline.arrRef spec3 1) :=
  ((dat3 V c).arrAt_in 1 rfl _).trans (A_eq3 V c 1)
theorem final3_2 (c : Dev nD) : (dat3 V c).arrAt 2 cfg3.N = V c (Pipeline.arrRef spec3 2) :=
  ((dat3 V c).arrAt_in 2 rfl _).trans (A_eq3 V c 2)
theorem final3_3 (c : Dev nD) : (dat3 V c).arrAt 3 cfg3.N = V c (Pipeline.arrRef spec3 3) :=
  ((dat3 V c).arrAt_in 3 rfl _).trans (A_eq3 V c 3)
theorem final3_4 (c : Dev nD) : (dat3 V c).arrAt 4 cfg3.N = V c (Pipeline.arrRef spec3 4) :=
  ((dat3 V c).arrAt_in 4 rfl _).trans (A_eq3 V c 4)

end Region1

end Cert.KernelIdeal.HandV
-- ==== Proof.Glue.KHostL1.lean ====
/-
  The kernel program's host stretches of layer 1, read as functions of the buffers they start from (an arbitrary
  valuation V).  Before the mlp region: the aggregated messages (`MP` of the features the previous layer left, the
  layer's embedding tables, and the edges' index vectors as the first stretch left them) and the layer's weights and
  biases.  Before the normalisation region: the column mean, the variance from the two moments, the scale and shift.
-/
import proofs.«409348_j89627377533173_1_alg».proof.Proof.Gen.KernelIdeal.Regions
import proofs.«409348_j89627377533173_1_alg».proof.Proof.Glue.Operands
import proofs.«409348_j89627377533173_1_alg».proof.Proof.Glue.Stats
import proofs.«409348_j89627377533173_1_alg».proof.Proof.Glue.Layer

set_option maxRecDepth 2516

noncomputable section

namespace Cert.KernelIdeal.HandV

open Idealize.ShloMosaic Idealize.ShloMosaic.TcCoe Idealize.ShloMosaic.ValueIdx
open Cert.KernelIdeal Cert.KernelIdeal.Gen

/-! ### Layer 1: before the mlp region (`hostOps2`) -/

section Layer1Mlp
variable {F : FTy → Type} [FloatOps F] (V : Valuation τ sig (Elt F))

/-- The aggregated messages of layer 1. -/
theorem host2_agg : StableHlo.after hostOps2 V (Proc.devRef .tc main_v98) =
    MP (V main_v68) (E1 (1 : Fin 5) (V main_arg1)) (E2 (1 : Fin 5) (V main_arg2)) (V main_v1) (V main_v3) (V main_v5) (V main_v7) := by
  after_results_simp <;> rfl

/-- The features the layer starts from are not written. -/
theorem host2_h : StableHlo.after hostOps2 V (Proc.devRef .tc main_v68) = V main_v68 := by
  after_results_simp

theorem host2_w1 : StableHlo.after hostOps2 V (Proc.devRef .tc main_v100) = W1 (1 : Fin 5) (V main_arg3) := by
  after_results_simp <;> rfl

theorem host2_b1 : StableHlo.after hostOps2 V (Proc.devRef .tc main_v107) = row (B1 (1 : Fin 5) (V main_arg4)) := by
  after_results_simp <;> exact shapeCast_vec_row _ _

theorem host2_w2 : StableHlo.after hostOps2 V (Proc.devRef .tc main_v104) = W2 (1 : Fin 5) (V main_arg5) := by
  after_results_simp <;> rfl

theorem host2_b2 : StableHlo.after hostOps2 V (Proc.devRef .tc main_v108) = row (R300 (1 : Fin 5) (V main_arg6)) := by
  after_results_simp <;> exact shapeCast_vec_row _ _

end Layer1Mlp

/-! ### Layer 1: before the normalisation region (`hostOps3`) -/

section Layer1Stats
variable {F : FTy → Type} [FloatOps F] (V : Valuation τ sig (Elt F))

/-- The pre-normalisation output is not written. -/
theorem host3_z : StableHlo.after hostOps3 V (Proc.devRef .tc main_v109_0) = V main_v109_0 := by
  after_results_simp

/-- The mean, as the operations' term: the column sums over the row count. -/
theorem host3_mean_term : StableHlo.after hostOps3 V (Proc.devRef .tc main_v113) =
    row (Host.divf (shapeCast S300 (V main_v109_1) shapeCasts_S1x300_S300)
      (broadcastInDim S300 ![] bcast_S_S300 (constant S_ .f32 0x47435000#32))) := by
  after_results_simp <;> exact shapeCast_vec_row _ _

/-- The variance, as the operations' term: the column sums of squares over the row count, less the mean squared. -/
theorem host3_var_term : StableHlo.after hostOps3 V (Proc.devRef .tc main_v121) =
    row (subf (Host.divf (shapeCast S300 (V main_v109_2) shapeCasts_S1x300_S300)
        (broadcastInDim S300 ![] bcast_S_S300 (constant S_ .f32 0x47435000#32)))
      (mulf (shapeCast S300 (StableHlo.after hostOps3 V (Proc.devRef .tc main_v113)) shapeCasts_S1x300_S300)
        (shapeCast S300 (StableHlo.after hostOps3 V (Proc.devRef .tc main_v113)) shapeCasts_S1x300_S300))) := by
  after_results_simp <;> exact shapeCast_vec_row _ _

theorem host3_gamma : StableHlo.after hostOps3 V (Proc.devRef .tc main_v126) = row (R300 (1 : Fin 5) (V main_arg7)) := by
  after_results_simp <;> exact shapeCast_vec_row _ _

theorem host3_beta : StableHlo.after hostOps3 V (Proc.devRef .tc main_v127) = row (R300 (1 : Fin 5) (V main_arg8)) := by
  after_results_simp <;> exact shapeCast_vec_row _ _

end Layer1Stats

section Layer1StatsIdeal
variable (V : Valuation τ sig (Elt Ideal))

/-- The mean is the column sums over the row count. -/
theorem host3_mean : StableHlo.after hostOps3 V (Proc.devRef .tc main_v113) = meanOfSums (V main_v109_1) := by
  rw [host3_mean_term]; exact mean_term_eq _

/-- The variance is the column sums of squares over the row count, less the mean squared. -/
theorem host3_var : StableHlo.after hostOps3 V (Proc.devRef .tc main_v121) =
    varOfSums (V main_v109_2) (StableHlo.after hostOps3 V (Proc.devRef .tc main_v113)) := by
  rw [host3_var_term]; exact var_term_eq _ _

end Layer1StatsIdeal

/-! ### Layer 1 as one step

From the valuation `V0` the layer starts from: the host stretch before the mlp region, the region's three outputs put
in their buffers (`Zc` the perceptron's output of the six operands, `Sc` / `SSc` its column sums and column sums of
squares), the host stretch before the normalisation region, and that region's output.  The result is the layer
function `layerM` of `V0`'s argument buffers and incoming features. -/

section Layer1Step
variable (V0 : Valuation τ sig (Elt Ideal))

/-- The buffers after the mlp region of layer 1. -/
abbrev mid1 (Zc : FVec Ideal S50000x300 .f32) (Sc SSc : FVec Ideal S1x300 .f32) : Valuation τ sig (Elt Ideal) :=
  Function.update (Function.update (Function.update (StableHlo.after hostOps2 V0) main_v109_0 Zc) main_v109_1 Sc) main_v109_2 SSc

theorem mid1_z (Zc Sc SSc) : mid1 V0 Zc Sc SSc main_v109_0 = Zc := by
  unfold mid1
  rw [Function.update_of_ne (StableHlo.devRef_ne_of_ne (by decide)), Function.update_of_ne (StableHlo.devRef_ne_of_ne (by decide)),
    Function.update_self]
theorem mid1_s (Zc Sc SSc) : mid1 V0 Zc Sc SSc main_v109_1 = Sc := by
  unfold mid1
  rw [Function.update_of_ne (StableHlo.devRef_ne_of_ne (by decide)), Function.update_self]
theorem mid1_ss (Zc Sc SSc) : mid1 V0 Zc Sc SSc main_v109_2 = SSc := by
  unfold mid1
  rw [Function.update_self]
/-- A buffer that is none of the region's outputs is as the host stretch left it. -/
theorem mid1_of_ne (Zc Sc SSc) (r : Ref sig .tc) (hz : r ≠ main_v109_0) (hs : r ≠ main_v109_1) (hss : r ≠ main_v109_2) :
    mid1 V0 Zc Sc SSc r = StableHlo.after hostOps2 V0 r := by
  unfold mid1
  rw [Function.update_of_ne (StableHlo.devRef_ne_of_ne hss), Function.update_of_ne (StableHlo.devRef_ne_of_ne hs),
    Function.update_of_ne (StableHlo.devRef_ne_of_ne hz)]

/-- The layer's result. -/
theorem kStep1 (Zc : FVec Ideal S50000x300 .f32) (Sc SSc : FVec Ideal S1x300 .f32)
    (hZ : Zc = Cert.Spec.mlpZ (StableHlo.after hostOps2 V0 (Proc.devRef .tc main_v98)) (StableHlo.after hostOps2 V0 (Proc.devRef .tc main_v68))
      (StableHlo.after hostOps2 V0 (Proc.devRef .tc main_v100)) (StableHlo.after hostOps2 V0 (Proc.devRef .tc main_v107))
      (StableHlo.after hostOps2 V0 (Proc.devRef .tc main_v104)) (StableHlo.after hostOps2 V0 (Proc.devRef .tc main_v108)))
    (hS : Sc = Cert.Spec.colSum Zc) (hSS : SSc = Cert.Spec.colSumSq Zc)
    (hsrc : V0 main_v1 = edgeSrc (V0 main_arg9)) (hdst : V0 main_v3 = edgeDst (V0 main_arg9))
    (he0 : V0 main_v5 = attr0 (V0 main_arg10)) (he1 : V0 main_v7 = attr1 (V0 main_arg10)) :
    Cert.Spec.bnRelu (StableHlo.after hostOps3 (mid1 V0 Zc Sc SSc) (Proc.devRef .tc main_v109_0))
        (StableHlo.after hostOps3 (mid1 V0 Zc Sc SSc) (Proc.devRef .tc main_v113))
        (StableHlo.after hostOps3 (mid1 V0 Zc Sc SSc) (Proc.devRef .tc main_v121))
        (StableHlo.after hostOps3 (mid1 V0 Zc Sc SSc) (Proc.devRef .tc main_v126))
        (StableHlo.after hostOps3 (mid1 V0 Zc Sc SSc) (Proc.devRef .tc main_v127))
        (Ideal.ofBits .f32 0x3727C5AC#32)
      = layerM (V0 main_arg1) (V0 main_arg2) (V0 main_arg3) (V0 main_arg4) (V0 main_arg5) (V0 main_arg6) (V0 main_arg7)
          (V0 main_arg8) (V0 main_arg9) (V0 main_arg10) (1 : Fin 5) (V0 main_v68) := by
  -- the perceptron's output is the layer's pre-normalisation array
  have hz : Zc = layerZ (V0 main_arg1) (V0 main_arg2) (V0 main_arg3) (V0 main_arg4) (V0 main_arg5) (V0 main_arg6)
      (V0 main_arg9) (V0 main_arg10) (1 : Fin 5) (V0 main_v68) := by
    rw [hZ, host2_agg, host2_h, host2_w1, host2_b1, host2_w2, host2_b2]
    rw [hsrc, hdst, he0, he1]
    rfl
  -- the normalisation region's five operands
  have e0 : StableHlo.after hostOps3 (mid1 V0 Zc Sc SSc) (Proc.devRef .tc main_v109_0) = Zc := by
    rw [host3_z]; exact mid1_z V0 Zc Sc SSc
  have e1 : (StableHlo.after hostOps3 (mid1 V0 Zc Sc SSc) (Proc.devRef .tc main_v113) : FVec Ideal S1x300 .f32)
      = Cert.Math.colMean Zc := by
    rw [host3_mean, mid1_s, hS]; rfl
  have e2 : (StableHlo.after hostOps3 (mid1 V0 Zc Sc SSc) (Proc.devRef .tc main_v121) : FVec Ideal S1x300 .f32)
      = Cert.Math.varOfMoments Zc := by
    rw [host3_var, host3_mean, mid1_ss, mid1_s, hSS, hS]; rfl
  have e3 : StableHlo.after hostOps3 (mid1 V0 Zc Sc SSc) (Proc.devRef .tc main_v126) = row (R300 (1 : Fin 5) (V0 main_arg7)) := by
    rw [host3_gamma, mid1_of_ne V0 Zc Sc SSc main_arg7 (by decide) (by decide) (by decide),
      StableHlo.after_of_writes_sub hostOps2 V0 hostOps2_writes (by decide)]
  have e4 : StableHlo.after hostOps3 (mid1 V0 Zc Sc SSc) (Proc.devRef .tc main_v127) = row (R300 (1 : Fin 5) (V0 main_arg8)) := by
    rw [host3_beta, mid1_of_ne V0 Zc Sc SSc main_arg8 (by decide) (by decide) (by decide),
      StableHlo.after_of_writes_sub hostOps2 V0 hostOps2_writes (by decide)]
  rw [e0, e1, e2, e3, e4, Cert.Consts.ofBits_eps, hz]
  rfl

/-- A buffer neither stretch writes and no region of the layer outputs is, after the layer, as `V0` has it. -/
theorem kKeep1 (Zc Sc SSc) (Hc : FVec Ideal S50000x300 .f32) (r : Ref sig .tc) (h0 : r ∉ hostOps2_W) (h1 : r ∉ hostOps3_W)
    (hz : r ≠ main_v109_0) (hs : r ≠ main_v109_1) (hss : r ≠ main_v109_2) (hh : r ≠ main_v128) :
    Function.update (StableHlo.after hostOps3 (mid1 V0 Zc Sc SSc)) main_v128 Hc r = V0 r := by
  rw [Function.update_of_ne (StableHlo.devRef_ne_of_ne hh), StableHlo.after_of_writes_sub hostOps3 _ hostOps3_writes h1,
    mid1_of_ne V0 Zc Sc SSc r hz hs hss, StableHlo.after_of_writes_sub hostOps2 V0 hostOps2_writes h0]

/-- A buffer the second stretch does not write and no region of the layer outputs is, after the layer, as the first
    stretch left it. -/
theorem kKeepMid1 (Zc Sc SSc) (Hc : FVec Ideal S50000x300 .f32) (r : Ref sig .tc) (h1 : r ∉ hostOps3_W)
    (hz : r ≠ main_v109_0) (hs : r ≠ main_v109_1) (hss : r ≠ main_v109_2) (hh : r ≠ main_v128) :
    Function.update (StableHlo.after hostOps3 (mid1 V0 Zc Sc SSc)) main_v128 Hc r = StableHlo.after hostOps2 V0 r := by
  rw [Function.update_of_ne (StableHlo.devRef_ne_of_ne hh), StableHlo.after_of_writes_sub hostOps3 _ hostOps3_writes h1,
    mid1_of_ne V0 Zc Sc SSc r hz hs hss]

/-- The layer's own output buffer holds what the normalisation region wrote. -/
theorem kSelf1 (Zc Sc SSc) (Hc : FVec Ideal S50000x300 .f32) :
    Function.update (StableHlo.after hostOps3 (mid1 V0 Zc Sc SSc)) main_v128 Hc main_v128 = Hc :=
  Function.update_self ..

end Layer1Step

end Cert.KernelIdeal.HandV

end
-- ==== Proof.KI.ValMlp0a.lean ====
/-
  What one grid point of this layer's first kernel computes, read at an index of the extended reals.

  The tile of z is relu((agg + h) W1 + b1) W2 + b2 on the tile's 1000 rows: two products into zero accumulators, a row
  of bias broadcast over the rows, a clip at zero, and format changes that are the identity on extended reals.  The two
  carried rows add to what they held the column sums of the tile, and of its squares; they start from zero, and the
  last point copies them out.
-/
import proofs.«409348_j89627377533173_1_alg».proof.Proof.KI.ValMlpOps
import proofs.«409348_j89627377533173_1_alg».proof.Proof.Spec

noncomputable section

open scoped BigOperators

namespace Cert.KernelIdeal.HandV

open Cert.KernelIdeal Cert.KernelIdeal.Gen
open Idealize.ShloMosaic Idealize.ShloMosaic.ValueIdx

/-! ## The payloads at an index -/

/-- The tile of z at a row and a column. -/
theorem k0_pay5_apply (x0 x1 : FVec Ideal S1000x300 .f32) (w1 : FVec Ideal S300x600 .f32) (b1 : FVec Ideal S1x600 .f32)
    (w2 : FVec Ideal S600x300 .f32) (b2 : FVec Ideal S1x300 .f32) (p : Fin 1000) (q : Fin 300) :
    k0_pay5 (F := Ideal) x0 x1 w1 b1 w2 b2 (ix2 p q)
      = (∑ k : Fin 600, max ((∑ l : Fin 300, (x0 (ix2 p l) + x1 (ix2 p l)) * w1 (ix2 l k)) + b1 (ix2 0 k)) 0 * w2 (ix2 k q))
        + b2 (ix2 0 q) := by
  unfold k0_pay5
  simp only [shapeCast_self]
  rw [addf_apply, matmul_d2_apply, broadcastTo_1b_ab_apply]
  refine congrArg (· + b2 (ix2 0 q)) (Finset.sum_congr rfl fun k _ => ?_)
  rw [truncf_apply, truncf_apply, maximumf_apply, addf_apply, matmul_d1_apply, broadcastTo_1b_ab_apply, broadcast_apply]
  show max ((∑ l : Fin 300, (x0 (ix2 p l) + x1 (ix2 p l)) * w1 (ix2 l k)) + b1 (ix2 0 k)) (Ideal.ofBits .f32 0x00000000#32)
      * w2 (ix2 k q) = _
  rw [Ideal.ofBits_zero_f32]

/-- The tile of z is the layer's z on the tile's rows: when row p of the two row tiles is row r of the two arrays,
    the tile at (p, q) is z at (r, q). The weights and biases are whole arrays. -/
theorem k0_pay5_eq_mlpZ (agg h : Cert.Spec.SNE.Idx → EReal) (x0 x1 : FVec Ideal S1000x300 .f32)
    (w1 : FVec Ideal S300x600 .f32) (b1 : FVec Ideal S1x600 .f32) (w2 : FVec Ideal S600x300 .f32)
    (b2 : FVec Ideal S1x300 .f32) (p : Fin 1000) (q : Fin 300) (r : Fin 50000)
    (h0 : ∀ l : Fin 300, x0 (ix2 p l) = agg (ix2 r l)) (h1 : ∀ l : Fin 300, x1 (ix2 p l) = h (ix2 r l)) :
    k0_pay5 (F := Ideal) x0 x1 w1 b1 w2 b2 (ix2 p q) = Cert.Spec.mlpZ agg h w1 b1 w2 b2 (ix2 r q) := by
  rw [k0_pay5_apply]
  unfold Cert.Spec.mlpZ Cert.Spec.hid
  refine congrArg (· + b2 (ix2 0 q)) (Finset.sum_congr rfl fun k _ => ?_)
  refine congrArg (fun t => max (t + b1 (ix2 0 k)) 0 * w2 (ix2 k q)) (Finset.sum_congr rfl fun l _ => ?_)
  rw [h0 l, h1 l]

/-- The carried row of column sums: what it held plus the sums down the tile's columns. -/
theorem k0_pay6_apply (x0 x1 : FVec Ideal S1000x300 .f32) (w1 : FVec Ideal S300x600 .f32) (b1 : FVec Ideal S1x600 .f32)
    (w2 : FVec Ideal S600x300 .f32) (b2 : FVec Ideal S1x300 .f32) (s : FVec Ideal S1x300 .f32) (u : Fin 1) (q : Fin 300) :
    k0_pay6 (F := Ideal) x0 x1 w1 b1 w2 b2 s (ix2 u q)
      = s (ix2 u q) + ∑ p : Fin 1000, k0_pay5 (F := Ideal) x0 x1 w1 b1 w2 b2 (ix2 p q) := by
  unfold k0_pay6
  rw [addf_apply, shapeCast_a_1a_apply, colReduce_apply]

/-- The carried row of column sums of squares: what it held plus the sums of squares down the tile's columns. -/
theorem k0_pay2_apply (z : FVec Ideal S1000x300 .f32) (s : FVec Ideal S1x300 .f32) (u : Fin 1) (q : Fin 300) :
    k0_pay2 (F := Ideal) z s (ix2 u q) = s (ix2 u q) + ∑ p : Fin 1000, z (ix2 p q) * z (ix2 p q) := by
  unfold k0_pay2
  simp only [shapeCast_self]
  rw [addf_apply, shapeCast_a_1a_apply, colReduce_apply]
  rfl

/-- The row copied out at the last point is the carried row. -/
theorem k0_pay1_eq (s : FVec Ideal S1x300 .f32) : k0_pay1 (F := Ideal) s = s := by
  unfold k0_pay1
  exact shapeCast_self _ _

/-- The two carried rows start from zero. -/
theorem k0_pay3_apply (j : S1x300.Idx) : k0_pay3 (F := Ideal) j = 0 := by
  unfold k0_pay3
  simp only [shapeCast_self]
  show Ideal.ofBits .f32 0x00000000#32 = 0
  exact Ideal.ofBits_zero_f32
theorem k0_pay4_apply (j : S1x300.Idx) : k0_pay4 (F := Ideal) j = 0 := by
  unfold k0_pay4
  simp only [shapeCast_self]
  show Ideal.ofBits .f32 0x00000000#32 = 0
  exact Ideal.ofBits_zero_f32

end Cert.KernelIdeal.HandV

end
-- ==== Proof.KI.ValMlp0.lean ====
/-
  What this layer's first kernel leaves in its three output arrays, as functions of the six arrays it finds.

  The grid has fifty points; point t reads rows 1000 t to 1000 t + 999 of the two row arrays and the whole of the
  weights and biases, writes the tile of z = relu((agg + h) W1 + b1) W2 + b2 on those rows to block t of the z array,
  and adds the tile's column sums, and the column sums of its squares, to two carried rows that start from zero; the
  last point copies the two rows out.  So the z array ends holding z (its fifty blocks tile it: row r is row r % 1000
  of block r / 1000), and the two rows end holding the sums over all fifty tiles, which are the sums over all 50000
  rows.  The six input arrays are left as found.
-/
import proofs.«409348_j89627377533173_1_alg».proof.Proof.KI.RegMlp0
import proofs.«409348_j89627377533173_1_alg».proof.Proof.KI.ValMlp0a
import proofs.«409348_j89627377533173_1_alg».proof.Proof.KI.ValMlpSums
import Idealize.ShloMosaic.Lib.Pipeline.Value
import Idealize.ShloMosaic.Lib.ValueLayout

set_option maxRecDepth 16384

noncomputable section

open scoped BigOperators

namespace Cert.KernelIdeal.HandV

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

-- the TensorCore's buffer contents when the region is entered, at the extended reals
variable (V : (c : Dev nD) → (b : Ref sig .tc) → Buf (Elt Ideal) ((c : Thread nD τ).loc b))

/-! ## The printed index maps, and the blocks they cut -/

theorem hz0 : (![0, 0] : Fin 2 → Nat) = fun _ => 0 := funext fun a => by fin_cases a <;> rfl

/-- The printed index maps over the grid: the two row tiles and the output tile move down the rows with the point,
    the weights and biases are one block. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The layer's z of the six arrays as the region finds them. -/
abbrev Z0 (c : Dev nD) : Cert.Spec.SNE.Idx → EReal :=
  Cert.Spec.mlpZ (V c (Pipeline.arrRef spec0 0)) (V c (Pipeline.arrRef spec0 1)) (V c (Pipeline.arrRef spec0 2))
    (V c (Pipeline.arrRef spec0 3)) (V c (Pipeline.arrRef spec0 4)) (V c (Pipeline.arrRef spec0 5))

/-- The weights and biases are each one block: at every point the block read is the whole array. -/
theorem iblk0_2_eq (c : Dev nD) (t : Fin cfg0.N) : Hand.iblk0 V c 2 t = V c (Pipeline.arrRef spec0 2) := by
  obtain ⟨-, -, -, -, e0, e1, -⟩ := idx_facts0 t
  funext y
  show V c (Pipeline.arrRef spec0 2) (((cfg0.win 2).blk t).view.emb y) = V c (Pipeline.arrRef spec0 2) y
  refine congrArg _ (funext fun a => Fin.ext ?_)
  match a with
  | ⟨0, _⟩ => show win0_2.index t (0 : Fin 2) * 300 + 1 * (y 0).val = (y 0).val; omega
  | ⟨1, _⟩ => show win0_2.index t (1 : Fin 2) * 600 + 1 * (y 1).val = (y 1).val; omega

/-- Row p of row tile t is row 1000 t + p of the array. -/
theorem iblk0_0_apply (c : Dev nD) (t : Fin cfg0.N) (ht : t.val < 50) (p : Fin 1000) (l : Fin 300) :
    Hand.iblk0 V c 0 t (ix2 p l) = V c (Pipeline.arrRef spec0 0) (ix2 (tileRow ⟨t.val, ht⟩ p) l) := by
  obtain ⟨e0, e1, -⟩ := idx_facts0 t
  show V c (Pipeline.arrRef spec0 0) (((cfg0.win 0).blk t).view.emb (ix2 p l)) = _
  refine congrArg _ (funext fun a => Fin.ext ?_)
  match a with
  | ⟨0, _⟩ => show win0_0.index t (0 : Fin 2) * 1000 + 1 * p.val = 1000 * t.val + p.val; omega
  | ⟨1, _⟩ => show win0_0.index t (1 : Fin 2) * 300 + 1 * l.val = l.val; omega

theorem iblk0_3_eq (c : Dev nD) (t : Fin cfg0.N) : Hand.iblk0 V c 3 t = V c (Pipeline.arrRef spec0 3) := by
  obtain ⟨-, -, -, -, -, -, e0, e1, -⟩ := idx_facts0 t
  funext y
  show V c (Pipeline.arrRef spec0 3) (((cfg0.win 3).blk t).view.emb y) = V c (Pipeline.arrRef spec0 3) y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 600 + 1 * (y 1).val = (y 1).val; omega

theorem iblk0_4_eq (c : Dev nD) (t : Fin cfg0.N) : Hand.iblk0 V c 4 t = V c (Pipeline.arrRef spec0 4) := by
  obtain ⟨-, -, -, -, -, -, -, -, e0, e1, -⟩ := idx_facts0 t
  funext y
  show V c (Pipeline.arrRef spec0 4) (((cfg0.win 4).blk t).view.emb y) = V c (Pipeline.arrRef spec0 4) y
  refine congrArg _ (funext fun a => Fin.ext ?_)
  match a with
  | ⟨0, _⟩ => show win0_4.index t (0 : Fin 2) * 600 + 1 * (y 0).val = (y 0).val; omega
  | ⟨1, _⟩ => show win0_4.index t (1 : Fin 2) * 300 + 1 * (y 1).val = (y 1).val; omega

theorem iblk0_5_eq (c : Dev nD) (t : Fin cfg0.N) : Hand.iblk0 V c 5 t = V c (Pipeline.arrRef spec0 5) := by
  obtain ⟨-, -, -, -, -, -, -, -, -, -, e0, e1, -⟩ := idx_facts0 t
  funext y
  show V c (Pipeline.arrRef spec0 5) (((cfg0.win 5).blk t).view.emb y) = V c (Pipeline.arrRef spec0 5) y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 300 + 1 * (y 1).val = (y 1).val; omega

theorem iblk0_1_apply (c : Dev nD) (t : Fin cfg0.N) (ht : t.val < 50) (p : Fin 1000) (l : Fin 300) :
    Hand.iblk0 V c 1 t (ix2 p l) = V c (Pipeline.arrRef spec0 1) (ix2 (tileRow ⟨t.val, ht⟩ p) l) := by
  obtain ⟨-, -, e0, e1, -⟩ := idx_facts0 t
  show V c (Pipeline.arrRef spec0 1) (((cfg0.win 1).blk t).view.emb (ix2 p l)) = _
  refine congrArg _ (funext fun a => Fin.ext ?_)
  match a with
  | ⟨0, _⟩ => show win0_1.index t (0 : Fin 2) * 1000 + 1 * p.val = 1000 * t.val + p.val; omega
  | ⟨1, _⟩ => show win0_1.index t (1 : Fin 2) * 300 + 1 * l.val = l.val; omega

/-! ## The tile of z at a point -/

/-- At point t the body's tile of z, at (p, q), is the layer's z at row 1000 t + p, column q. -/
theorem z0_blk_apply (c : Dev nD) (t : Fin cfg0.N) (ht : t.val < 50) (p : Fin 1000) (q : Fin 300) :
    k0_pay5 (F := Ideal) (Hand.iblk0 V c 0 t) (Hand.iblk0 V c 1 t) (Hand.iblk0 V c 2 t) (Hand.iblk0 V c 3 t)
        (Hand.iblk0 V c 4 t) (Hand.iblk0 V c 5 t) (ix2 p q)
      = Z0 V c (ix2 (tileRow ⟨t.val, ht⟩ p) q) := by
  rw [iblk0_2_eq V c t, iblk0_3_eq V c t, iblk0_4_eq V c t, iblk0_5_eq V c t]
  exact k0_pay5_eq_mlpZ (V c (Pipeline.arrRef spec0 0)) (V c (Pipeline.arrRef spec0 1)) (Hand.iblk0 V c 0 t)
    (Hand.iblk0 V c 1 t) _ _ _ _ p q (tileRow ⟨t.val, ht⟩ p) (fun l => iblk0_0_apply V c t ht p l)
    (fun l => iblk0_1_apply V c t ht p l)

/-! ## Output 6: the blocks make the array -/

theorem lt50_0 (t : Fin cfg0.N) : t.val < 50 := Nat.lt_of_lt_of_eq t.isLt N_0

/-- What point t writes back to the z array is block t of the layer's z. -/
theorem flushed0_6_eq (c : Dev nD) (t : Fin cfg0.N) :
    (Hand.dat0 V c).flushed 6 t = ((cfg0.win 6).blk t).view.read (Elt Ideal) (Z0 V c) := by
  show (cfg0.win 6).cut (grid0.coords t) ((Hand.dat0 V c).after 6 t) = _
  rw [Hand.after0_6]
  unfold Hand.out0_6 Hand.z0
  rw [View.canon_unit_zero hz0]
  simp only [View.ld_unit_zero (S := S1000x300) hz0, View.ld_unit_zero (S := S300x600) hz0,
    View.ld_unit_zero (S := S1x600) hz0, View.ld_unit_zero (S := S600x300) hz0, View.ld_unit_zero (S := S1x300) hz0]
  obtain ⟨-, -, -, -, -, -, -, -, -, -, -, -, e0, e1⟩ := idx_facts0 t
  funext j
  obtain ⟨p, q, rfl⟩ : ∃ (p : Fin 1000) (q : Fin 300), j = ix2 p q := ⟨j 0, j 1, eq_ix2 j⟩
  refine (z0_blk_apply V c t (lt50_0 t) p q).trans ?_
  show Z0 V c _ = Z0 V c (((cfg0.win 6).blk t).view.emb (ix2 p q))
  refine congrArg _ (funext fun a => Fin.ext ?_)
  match a with
  | ⟨0, _⟩ => show 1000 * t.val + p.val = win0_6.index t (0 : Fin 2) * 1000 + 1 * p.val; omega
  | ⟨1, _⟩ => show q.val = win0_6.index t (1 : Fin 2) * 300 + 1 * q.val; omega

/-- Every row is in the block of the point that is its tile: row r is row r % 1000 of block r / 1000. -/
theorem cover0_6 (i : S50000x300.Idx) :
    ∃ t : Fin cfg0.N, (cfg0.win 6).flush t = true ∧ i ∈ ((cfg0.win 6).blk t).view.set := by
  have hi0 : (i 0).val < 50000 := (i 0).isLt
  have hN : cfg0.N = 50 := N_0
  obtain ⟨t, ht⟩ : ∃ t : Fin cfg0.N, t.val = (i 0).val / 1000 := ⟨⟨(i 0).val / 1000, by rw [hN]; omega⟩, rfl⟩
  obtain ⟨-, -, -, -, -, -, -, -, -, -, -, -, e0, e1⟩ := idx_facts0 t
  have he : ((cfg0.win 6).blk t).view.emb (ix2 (⟨(i 0).val % 1000, by omega⟩ : Fin 1000) (i 1)) = i := by
    funext a; apply Fin.ext
    match a with
    | ⟨0, _⟩ => show win0_6.index t (0 : Fin 2) * 1000 + 1 * ((i 0).val % 1000) = (i 0).val; omega
    | ⟨1, _⟩ => show win0_6.index t (1 : Fin 2) * 300 + 1 * (i 1).val = (i 1).val; omega
  refine ⟨t, flush0_6 t, ?_⟩
  rw [← he]
  exact View.emb_mem_set _ _

/-- THE z ARRAY after the region: the layer's z of the six arrays as the region finds them. -/
theorem final0_6 (c : Dev nD) : (Hand.dat0 V c).arrAt 6 cfg0.N = Z0 V c :=
  (Hand.dat0 V c).arrAt_eq_of_cover 6 (Z0 V c) (fun t _ => flushed0_6_eq V c t) (cover0_6)

/-! ## The input arrays are left as found -/

theorem final0_0 (c : Dev nD) : (Hand.dat0 V c).arrAt 0 cfg0.N = V c (Pipeline.arrRef spec0 0) :=
  ((Hand.dat0 V c).arrAt_in 0 rfl cfg0.N).trans (Hand.A_eq0 V c 0)
theorem final0_1 (c : Dev nD) : (Hand.dat0 V c).arrAt 1 cfg0.N = V c (Pipeline.arrRef spec0 1) :=
  ((Hand.dat0 V c).arrAt_in 1 rfl cfg0.N).trans (Hand.A_eq0 V c 1)
theorem final0_2 (c : Dev nD) : (Hand.dat0 V c).arrAt 2 cfg0.N = V c (Pipeline.arrRef spec0 2) :=
  ((Hand.dat0 V c).arrAt_in 2 rfl cfg0.N).trans (Hand.A_eq0 V c 2)
theorem final0_3 (c : Dev nD) : (Hand.dat0 V c).arrAt 3 cfg0.N = V c (Pipeline.arrRef spec0 3) :=
  ((Hand.dat0 V c).arrAt_in 3 rfl cfg0.N).trans (Hand.A_eq0 V c 3)
theorem final0_4 (c : Dev nD) : (Hand.dat0 V c).arrAt 4 cfg0.N = V c (Pipeline.arrRef spec0 4) :=
  ((Hand.dat0 V c).arrAt_in 4 rfl cfg0.N).trans (Hand.A_eq0 V c 4)
theorem final0_5 (c : Dev nD) : (Hand.dat0 V c).arrAt 5 cfg0.N = V c (Pipeline.arrRef spec0 5) :=
  ((Hand.dat0 V c).arrAt_in 5 rfl cfg0.N).trans (Hand.A_eq0 V c 5)

/-! ## Outputs 7 and 8: the two carried rows -/

/-- The two carried rows start from zero. -/
theorem zeroS0_apply (j : S1x300.Idx) : Hand.zeroS0 (F := Ideal) j = 0 := by
  unfold Hand.zeroS0
  rw [View.canon_unit_zero hz0]
  exact k0_pay3_apply j
theorem zeroQ0_apply (j : S1x300.Idx) : Hand.zeroQ0 (F := Ideal) j = 0 := by
  unfold Hand.zeroQ0
  rw [View.canon_unit_zero hz0]
  exact k0_pay4_apply j

/-- One step of the row of column sums at point t: what it held plus the sums down the columns of tile t of z. -/
theorem stepS0_apply (c : Dev nD) (t : Fin cfg0.N) (s : Vec Ideal S1x300 .f32) (u : Fin 1) (q : Fin 300) :
    Hand.stepS0 (Hand.iblk0 V c 0 t) (Hand.iblk0 V c 1 t) (Hand.iblk0 V c 2 t) (Hand.iblk0 V c 3 t)
      (Hand.iblk0 V c 4 t) (Hand.iblk0 V c 5 t) s (ix2 u q)
      = s (ix2 u q) + tileSum (fun r => Z0 V c (ix2 r q)) t.val := by
  unfold Hand.stepS0
  rw [View.canon_unit_zero hz0]
  simp only [View.ld_unit_zero (S := S1000x300) hz0, View.ld_unit_zero (S := S300x600) hz0,
    View.ld_unit_zero (S := S1x600) hz0, View.ld_unit_zero (S := S600x300) hz0, View.ld_unit_zero (S := S1x300) hz0]
  rw [k0_pay1_eq]
  refine (k0_pay6_apply (Hand.iblk0 V c 0 t) (Hand.iblk0 V c 1 t) (Hand.iblk0 V c 2 t) (Hand.iblk0 V c 3 t)
    (Hand.iblk0 V c 4 t) (Hand.iblk0 V c 5 t) s u q).trans ?_
  rw [tileSum_of_lt _ _ (lt50_0 t)]
  exact congrArg (s (ix2 u q) + ·) (Finset.sum_congr rfl fun p _ => z0_blk_apply V c t (lt50_0 t) p q)

/-- One step of the row of column sums of squares at point t. -/
theorem stepQ0_apply (c : Dev nD) (t : Fin cfg0.N) (s : Vec Ideal S1x300 .f32) (u : Fin 1) (q : Fin 300) :
    Hand.stepQ0 (Hand.iblk0 V c 0 t) (Hand.iblk0 V c 1 t) (Hand.iblk0 V c 2 t) (Hand.iblk0 V c 3 t)
      (Hand.iblk0 V c 4 t) (Hand.iblk0 V c 5 t) s (ix2 u q)
      = s (ix2 u q) + tileSum (fun r => Z0 V c (ix2 r q) * Z0 V c (ix2 r q)) t.val := by
  unfold Hand.stepQ0 Hand.z0
  rw [View.canon_unit_zero hz0]
  simp only [View.ld_unit_zero (S := S1000x300) hz0, View.ld_unit_zero (S := S300x600) hz0,
    View.ld_unit_zero (S := S1x600) hz0, View.ld_unit_zero (S := S600x300) hz0, View.ld_unit_zero (S := S1x300) hz0]
  refine (k0_pay2_apply (k0_pay5 (F := Ideal) (Hand.iblk0 V c 0 t) (Hand.iblk0 V c 1 t) (Hand.iblk0 V c 2 t) (Hand.iblk0 V c 3 t)
      (Hand.iblk0 V c 4 t) (Hand.iblk0 V c 5 t)) s u q).trans ?_
  rw [tileSum_of_lt _ _ (lt50_0 t)]
  refine congrArg (s (ix2 u q) + ·) (Finset.sum_congr rfl fun p _ => ?_)
  rw [z0_blk_apply V c t (lt50_0 t) p q]

/-- After the point at position n the row of column sums holds the sums over the rows of tiles 0 to n. -/
theorem accS0_apply (c : Dev nD) : ∀ (n : ℕ) (hn : n < cfg0.N) (u : Fin 1) (q : Fin 300),
    Hand.accS0 V c n hn (ix2 u q) = ∑ t ∈ Finset.range (n + 1), tileSum (fun r => Z0 V c (ix2 r q)) t
  | 0, hn, u, q => by
    rw [Hand.accS0_zero, stepS0_apply V c ⟨0, hn⟩, zeroS0_apply, zero_add, Finset.sum_range_one]
  | n + 1, hn, u, q => by
    rw [Hand.accS0_succ, stepS0_apply V c ⟨n + 1, hn⟩, accS0_apply c n (Nat.lt_of_succ_lt hn) u q,
      Finset.sum_range_succ _ (n + 1)]

/-- and the row of column sums of squares likewise. -/
theorem accQ0_apply (c : Dev nD) : ∀ (n : ℕ) (hn : n < cfg0.N) (u : Fin 1) (q : Fin 300),
    Hand.accQ0 V c n hn (ix2 u q)
      = ∑ t ∈ Finset.range (n + 1), tileSum (fun r => Z0 V c (ix2 r q) * Z0 V c (ix2 r q)) t
  | 0, hn, u, q => by
    rw [Hand.accQ0_zero, stepQ0_apply V c ⟨0, hn⟩, zeroQ0_apply, zero_add, Finset.sum_range_one]
  | n + 1, hn, u, q => by
    rw [Hand.accQ0_succ, stepQ0_apply V c ⟨n + 1, hn⟩, accQ0_apply c n (Nat.lt_of_succ_lt hn) u q,
      Finset.sum_range_succ _ (n + 1)]

/-- THE ROW OF COLUMN SUMS after the region: the column sums of the layer's z over all 50000 rows. -/
theorem final0_7 (c : Dev nD) : (Hand.dat0 V c).arrAt 7 cfg0.N = Cert.Spec.colSum (Z0 V c) := by
  rw [Hand.arrAt0_7]
  unfold Hand.out0_7
  rw [View.canon_unit_zero hz0, View.ld_unit_zero hz0]
  funext j
  obtain ⟨u, q, rfl⟩ : ∃ (u : Fin 1) (q : Fin 300), j = ix2 u q := ⟨j 0, j 1, eq_ix2 j⟩
  rw [accS0_apply V c 49 _ u q]
  exact sum_range_tileSum (fun r => Z0 V c (ix2 r q))

/-- THE ROW OF COLUMN SUMS OF SQUARES after the region. -/
theorem final0_8 (c : Dev nD) : (Hand.dat0 V c).arrAt 8 cfg0.N = Cert.Spec.colSumSq (Z0 V c) := by
  rw [Hand.arrAt0_8]
  unfold Hand.out0_7
  rw [View.canon_unit_zero hz0, View.ld_unit_zero hz0]
  funext j
  obtain ⟨u, q, rfl⟩ : ∃ (u : Fin 1) (q : Fin 300), j = ix2 u q := ⟨j 0, j 1, eq_ix2 j⟩
  rw [accQ0_apply V c 49 _ u q]
  exact sum_range_tileSum (fun r => Z0 V c (ix2 r q) * Z0 V c (ix2 r q))

end Cert.KernelIdeal.HandV

end
-- ==== Proof.KI.ValBn1.lean ====
import proofs.«409348_j89627377533173_1_alg».proof.Proof.KI.RegBn1
import proofs.«409348_j89627377533173_1_alg».proof.Proof.Spec
import Idealize.ShloMosaic.Lib.Pipeline.Value
import Idealize.ShloMosaic.Lib.ValueIdx

/-! # Region 1 (`cc1__bn_relu_kernel`): the value half, over the extended reals

After the region the output array is, index by index, the normalisation of `z` by the given column means and variances,
scaled, shifted and clipped at zero: each of the 25 points writes back the block of that function over its 2000 rows,
and the 25 blocks tile the 50000 rows (row `r` lies in block `r / 2000`). The five input arrays are as the region found
them. -/

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

section Region1
-- the TensorCore's buffer contents when the region is entered
variable (V : (c : Dev nD) → (b : Ref sig .tc) → Buf (Elt Ideal) ((c : Thread nD τ).loc b))

/-! ## The payload at an index -/

theorem zero_off1 : (![0, 0] : Fin 2 → Nat) = fun _ => 0 := funext fun a => by fin_cases a <;> rfl

/-- The zero word is the real zero. -/
theorem zero_word1 : Ideal.ofBits .f32 0x00000000#32 = 0 := by simp [Ideal.ofBits, Ideal.ieee]

/-- A row broadcast down the 2000 rows of a block reads, at an index, the row at the index's column. -/
theorem bcast_row1 (x : Vec Ideal S1x300 .f32) (j : S2000x300.Idx) :
    broadcastTo S2000x300 x broadcasts_S1x300_S2000x300 j = x (ix2 0 (j 1)) :=
  broadcastTo_apply x _ j (ix2 0 (j 1)) (fun a => by match a with | ⟨0, _⟩ => rfl | ⟨1, _⟩ => rfl)

/-- The body's payload at an index of the block: the block's entry less the column's mean, times the reciprocal root of
    the column's variance plus the stabiliser, times the column's scale, plus its shift, clipped at zero. (The payload
    takes its row arguments in the order the body loads them: variance before mean.) -/
theorem pay1_apply (xz : Vec Ideal S2000x300 .f32) (xv xm xg xb : Vec Ideal S1x300 .f32) (j : S2000x300.Idx) :
    k1_pay1 (F := Ideal) xz xv xm xg xb j
      = max ((xz j - xm (ix2 0 (j 1))) * Ideal.rsqrt (xv (ix2 0 (j 1)) + Ideal.ofBits .f32 0x3727C5AC#32) * xg (ix2 0 (j 1))
          + xb (ix2 0 (j 1))) 0 := by
  unfold k1_pay1
  simp only [shapeCast_self]
  rw [maximumf_apply, addf_apply, mulf_apply, mulf_apply, subf_apply, broadcast_apply,
    bcast_row1, bcast_row1, bcast_row1, bcast_row1]
  show max (_ * Ideal.rsqrt (xv (ix2 0 (j 1)) + Ideal.ofBits .f32 0x3727C5AC#32) * _ + _) (Ideal.ofBits .f32 0x00000000#32) = _
  rw [zero_word1]

/-- So, when the loaded blocks read the arrays `Z`, `M`, `Vr`, `Gm`, `B` at the places the array index `i` names, the payload
    at `j` is the layer's normalisation of those arrays at `i`. -/
theorem pay1_eq_bnRelu (Z : Cert.Spec.SNE.Idx → EReal) (M Vr Gm B : Cert.Spec.S1E.Idx → EReal)
    (xz : Vec Ideal S2000x300 .f32) (xv xm xg xb : Vec Ideal S1x300 .f32) (j : S2000x300.Idx) (i : Cert.Spec.SNE.Idx)
    (hz : xz j = Z i) (hm : xm (ix2 0 (j 1)) = M (ix2 0 (i 1))) (hv : xv (ix2 0 (j 1)) = Vr (ix2 0 (i 1)))
    (hg : xg (ix2 0 (j 1)) = Gm (ix2 0 (i 1))) (hb : xb (ix2 0 (j 1)) = B (ix2 0 (i 1))) :
    k1_pay1 (F := Ideal) xz xv xm xg xb j = Cert.Spec.bnRelu Z M Vr Gm B (Ideal.ofBits .f32 0x3727C5AC#32) i := by
  rw [pay1_apply, hz, hm, hv, hg, hb]
  rfl

/-! ## The windows' block indices, decided over the 25 points -/

/-- The block of `z` and the output block move together down the rows, block `t` at point `t`, and span the columns;
    the four row windows stay at their one block. -/
theorem idx_facts1 : ∀ t : Fin cfg1.N,
    win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-! ## What a point writes back -/

/-- The output array after the region, as one function of the entry arrays. -/
abbrev G1 (c : Dev nD) : Cert.Spec.SNE.Idx → EReal :=
  Cert.Spec.bnRelu (V c (Pipeline.arrRef spec1 0)) (V c (Pipeline.arrRef spec1 1)) (V c (Pipeline.arrRef spec1 2))
    (V c (Pipeline.arrRef spec1 3)) (V c (Pipeline.arrRef spec1 4)) (Ideal.ofBits .f32 0x3727C5AC#32)

/-- Point `t`'s block of `z`, at a block index `j`, is the array at the output block's array index: the two windows have
    the same block index. -/
theorem blk1_0_at (c : Dev nD) (t : Fin cfg1.N) (j : S2000x300.Idx) :
    iblk1 V c 0 t j = V c (Pipeline.arrRef spec1 0) (((cfg1.win 5).blk t).view.emb j) := by
  obtain ⟨e00, e01, e50, e51, e10, e11, e20, e21, e30, e31, e40, e41⟩ := idx_facts1 t
  have hjr : (j 0).val < 2000 := (j 0).isLt
  have hjc : (j 1).val < 300 := (j 1).isLt
  show V c (Pipeline.arrRef spec1 0) (((cfg1.win 0).blk t).view.emb j) = V c (Pipeline.arrRef spec1 0) (((cfg1.win 5).blk t).view.emb j)
  refine congrArg _ (funext fun a => Fin.ext ?_)
  match a with
  | ⟨0, _⟩ => show win1_0.index t (0 : Fin 2) * 2000 + 1 * (j 0).val = win1_5.index t (0 : Fin 2) * 2000 + 1 * (j 0).val; omega
  | ⟨1, _⟩ => show win1_0.index t (1 : Fin 2) * 300 + 1 * (j 1).val = win1_5.index t (1 : Fin 2) * 300 + 1 * (j 1).val; omega

/-- Point `t`'s block of the means (one row, not moving with the point), at the column of a block index `j`, is the array at
    that column of the output block's array index. -/
theorem blk1_1_at (c : Dev nD) (t : Fin cfg1.N) (j : S2000x300.Idx) :
    iblk1 V c 1 t (ix2 0 (j 1)) = V c (Pipeline.arrRef spec1 1) (ix2 0 ((((cfg1.win 5).blk t).view.emb j) 1)) := by
  obtain ⟨e00, e01, e50, e51, e10, e11, e20, e21, e30, e31, e40, e41⟩ := idx_facts1 t
  have hjc : (j 1).val < 300 := (j 1).isLt
  show V c (Pipeline.arrRef spec1 1) (((cfg1.win 1).blk t).view.emb (ix2 0 (j 1))) = V c (Pipeline.arrRef spec1 1) (ix2 0 ((((cfg1.win 5).blk t).view.emb j) 1))
  refine congrArg _ (funext fun a => Fin.ext ?_)
  match a with
  | ⟨0, _⟩ => show win1_1.index t (0 : Fin 2) * 1 + 1 * 0 = 0; omega
  | ⟨1, _⟩ => show win1_1.index t (1 : Fin 2) * 300 + 1 * (j 1).val = win1_5.index t (1 : Fin 2) * 300 + 1 * (j 1).val; omega

/-- Point `t`'s block of the variances (one row, not moving with the point), at the column of a block index `j`, is the array at
    that column of the output block's array index. -/
theorem blk1_2_at (c : Dev nD) (t : Fin cfg1.N) (j : S2000x300.Idx) :
    iblk1 V c 2 t (ix2 0 (j 1)) = V c (Pipeline.arrRef spec1 2) (ix2 0 ((((cfg1.win 5).blk t).view.emb j) 1)) := by
  obtain ⟨e00, e01, e50, e51, e10, e11, e20, e21, e30, e31, e40, e41⟩ := idx_facts1 t
  have hjc : (j 1).val < 300 := (j 1).isLt
  show V c (Pipeline.arrRef spec1 2) (((cfg1.win 2).blk t).view.emb (ix2 0 (j 1))) = V c (Pipeline.arrRef spec1 2) (ix2 0 ((((cfg1.win 5).blk t).view.emb j) 1))
  refine congrArg _ (funext fun a => Fin.ext ?_)
  match a with
  | ⟨0, _⟩ => show win1_2.index t (0 : Fin 2) * 1 + 1 * 0 = 0; omega
  | ⟨1, _⟩ => show win1_2.index t (1 : Fin 2) * 300 + 1 * (j 1).val = win1_5.index t (1 : Fin 2) * 300 + 1 * (j 1).val; omega

/-- Point `t`'s block of the scales (one row, not moving with the point), at the column of a block index `j`, is the array at
    that column of the output block's array index. -/
theorem blk1_3_at (c : Dev nD) (t : Fin cfg1.N) (j : S2000x300.Idx) :
    iblk1 V c 3 t (ix2 0 (j 1)) = V c (Pipeline.arrRef spec1 3) (ix2 0 ((((cfg1.win 5).blk t).view.emb j) 1)) := by
  obtain ⟨e00, e01, e50, e51, e10, e11, e20, e21, e30, e31, e40, e41⟩ := idx_facts1 t
  have hjc : (j 1).val < 300 := (j 1).isLt
  show V c (Pipeline.arrRef spec1 3) (((cfg1.win 3).blk t).view.emb (ix2 0 (j 1))) = V c (Pipeline.arrRef spec1 3) (ix2 0 ((((cfg1.win 5).blk t).view.emb j) 1))
  refine congrArg _ (funext fun a => Fin.ext ?_)
  match a with
  | ⟨0, _⟩ => show win1_3.index t (0 : Fin 2) * 1 + 1 * 0 = 0; omega
  | ⟨1, _⟩ => show win1_3.index t (1 : Fin 2) * 300 + 1 * (j 1).val = win1_5.index t (1 : Fin 2) * 300 + 1 * (j 1).val; omega

/-- Point `t`'s block of the shifts (one row, not moving with the point), at the column of a block index `j`, is the array at
    that column of the output block's array index. -/
theorem blk1_4_at (c : Dev nD) (t : Fin cfg1.N) (j : S2000x300.Idx) :
    iblk1 V c 4 t (ix2 0 (j 1)) = V c (Pipeline.arrRef spec1 4) (ix2 0 ((((cfg1.win 5).blk t).view.emb j) 1)) := by
  obtain ⟨e00, e01, e50, e51, e10, e11, e20, e21, e30, e31, e40, e41⟩ := idx_facts1 t
  have hjc : (j 1).val < 300 := (j 1).isLt
  show V c (Pipeline.arrRef spec1 4) (((cfg1.win 4).blk t).view.emb (ix2 0 (j 1))) = V c (Pipeline.arrRef spec1 4) (ix2 0 ((((cfg1.win 5).blk t).view.emb j) 1))
  refine congrArg _ (funext fun a => Fin.ext ?_)
  match a with
  | ⟨0, _⟩ => show win1_4.index t (0 : Fin 2) * 1 + 1 * 0 = 0; omega
  | ⟨1, _⟩ => show win1_4.index t (1 : Fin 2) * 300 + 1 * (j 1).val = win1_5.index t (1 : Fin 2) * 300 + 1 * (j 1).val; omega

/-- What point `t` writes back is block `t` of `G1`. -/
theorem flushed1_5_eq (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero zero_off1]
  simp only [View.ld_unit_zero (S := S2000x300) zero_off1, View.ld_unit_zero (S := S1x300) zero_off1]
  funext j
  show k1_pay1 (F := Ideal) (iblk1 V c 0 t) (iblk1 V c 2 t) (iblk1 V c 1 t) (iblk1 V c 3 t) (iblk1 V c 4 t) j
    = G1 V c (((cfg1.win 5).blk t).view.emb j)
  exact pay1_eq_bnRelu _ _ _ _ _ _ _ _ _ _ j _ (blk1_0_at V c t j) (blk1_1_at V c t j) (blk1_2_at V c t j)
    (blk1_3_at V c t j) (blk1_4_at V c t j)

/-! ## The blocks tile the array -/

/-- An index of the array is in point `t`'s block iff each coordinate is in the block's range on its axis. -/
theorem inblk1_5 (t : Fin cfg1.N) (i : S50000x300.Idx) :
    i ∈ ((cfg1.win 5).blk t).view.set ↔ ∀ a : Fin 2, win1_5.index t a * S2000x300.size a ≤ (i a).val ∧ (i a).val < win1_5.index t a * S2000x300.size a + S2000x300.size a := by
  show i ∈ ((View.whole (Pipeline.arrRef spec1 5)).slice (win1_5.rect t)).set ↔ _
  rw [View.set_slice_whole, Rect.mem_set_unit]
  exact Iff.rfl

/-- Every index is in some point's block: row `r` is in block `r / 2000`, which spans the columns. -/
theorem cover1_arr (i : S50000x300.Idx) :
    ∃ t : Fin cfg1.N, (cfg1.win 5).flush t = true ∧ i ∈ ((cfg1.win 5).blk t).view.set := by
  have hir : (i 0).val < 50000 := (i 0).isLt
  have hic : (i 1).val < 300 := (i 1).isLt
  have ht : (i 0).val / 2000 < cfg1.N := by show _ < 25; omega
  obtain ⟨-, -, e50, e51, -⟩ := idx_facts1 ⟨(i 0).val / 2000, ht⟩
  refine ⟨⟨(i 0).val / 2000, ht⟩, flush1_5 _, ?_⟩
  rw [inblk1_5]
  intro a
  match a with
  | ⟨0, _⟩ =>
    show win1_5.index ⟨(i 0).val / 2000, ht⟩ (0 : Fin 2) * 2000 ≤ (i 0).val ∧ (i 0).val < win1_5.index ⟨(i 0).val / 2000, ht⟩ (0 : Fin 2) * 2000 + 2000
    rw [e50]; show (i 0).val / 2000 * 2000 ≤ (i 0).val ∧ (i 0).val < (i 0).val / 2000 * 2000 + 2000; omega
  | ⟨1, _⟩ =>
    show win1_5.index ⟨(i 0).val / 2000, ht⟩ (1 : Fin 2) * 300 ≤ (i 1).val ∧ (i 1).val < win1_5.index ⟨(i 0).val / 2000, ht⟩ (1 : Fin 2) * 300 + 300
    rw [e51]; omega

/-! ## The arrays after the region -/

/-- The output array after the region is the normalisation of the entry arrays. -/
theorem final1_5 (c : Dev nD) :
    (dat1 V c).arrAt 5 cfg1.N
      = Cert.Spec.bnRelu (V c (Pipeline.arrRef spec1 0)) (V c (Pipeline.arrRef spec1 1)) (V c (Pipeline.arrRef spec1 2))
          (V c (Pipeline.arrRef spec1 3)) (V c (Pipeline.arrRef spec1 4)) (Ideal.ofBits .f32 0x3727C5AC#32) :=
  (dat1 V c).arrAt_eq_of_cover 5 (G1 V c) (fun t _ => flushed1_5_eq V c t) cover1_arr

/-- Each input array is as the region found it: the pipeline stages it and never writes it back. -/
theorem final1_0 (c : Dev nD) : (dat1 V c).arrAt 0 cfg1.N = V c (Pipeline.arrRef spec1 0) :=
  ((dat1 V c).arrAt_in 0 rfl _).trans (A_eq1 V c 0)
theorem final1_1 (c : Dev nD) : (dat1 V c).arrAt 1 cfg1.N = V c (Pipeline.arrRef spec1 1) :=
  ((dat1 V c).arrAt_in 1 rfl _).trans (A_eq1 V c 1)
theorem final1_2 (c : Dev nD) : (dat1 V c).arrAt 2 cfg1.N = V c (Pipeline.arrRef spec1 2) :=
  ((dat1 V c).arrAt_in 2 rfl _).trans (A_eq1 V c 2)
theorem final1_3 (c : Dev nD) : (dat1 V c).arrAt 3 cfg1.N = V c (Pipeline.arrRef spec1 3) :=
  ((dat1 V c).arrAt_in 3 rfl _).trans (A_eq1 V c 3)
theorem final1_4 (c : Dev nD) : (dat1 V c).arrAt 4 cfg1.N = V c (Pipeline.arrRef spec1 4) :=
  ((dat1 V c).arrAt_in 4 rfl _).trans (A_eq1 V c 4)

end Region1

end Cert.KernelIdeal.HandV
-- ==== Proof.Glue.KHost0.lean ====
/-
  The kernel program's host stretches, read as functions of the buffers they start from.

  Every statement here is over an ARBITRARY valuation V of the device's buffers: after a stretch of host operations the
  buffer a kernel region reads holds a named function of V's buffers.  Before an mlp region: the aggregated messages
  (`MP` of the current features, the layer's embedding tables and the edges) and the layer's weights and biases.
  Before a normalisation region: the column mean (column sum over the row count), the variance (column sum of squares
  over the row count, less the mean squared), the layer's scale and shift.  The edges' four index vectors and the graph ids are written once, by the first stretch, and no
  later operation writes them.
-/
import proofs.«409348_j89627377533173_1_alg».proof.Proof.Gen.KernelIdeal.Regions
import proofs.«409348_j89627377533173_1_alg».proof.Proof.Glue.Operands
import proofs.«409348_j89627377533173_1_alg».proof.Proof.Glue.Stats
import proofs.«409348_j89627377533173_1_alg».proof.Proof.Glue.Layer

set_option maxRecDepth 2516

noncomputable section

namespace Cert.KernelIdeal.HandV

open Idealize.ShloMosaic Idealize.ShloMosaic.TcCoe Idealize.ShloMosaic.ValueIdx
open Cert.KernelIdeal Cert.KernelIdeal.Gen

/-! ### The edges and the graph ids: written once, by the first stretch -/

section Edges
variable {F : FTy → Type} [FloatOps F] (V : Valuation τ sig (Elt F))

theorem host0_src : StableHlo.after hostOps0 V (Proc.devRef .tc main_v1) = edgeSrc (V main_arg9) := by
  after_results_simp <;> rfl
theorem host0_dst : StableHlo.after hostOps0 V (Proc.devRef .tc main_v3) = edgeDst (V main_arg9) := by
  after_results_simp <;> rfl
theorem host0_a0 : StableHlo.after hostOps0 V (Proc.devRef .tc main_v5) = attr0 (V main_arg10) := by
  after_results_simp <;> rfl
theorem host0_a1 : StableHlo.after hostOps0 V (Proc.devRef .tc main_v7) = attr1 (V main_arg10) := by
  after_results_simp <;> rfl
/-- The graph ids as a column, which the pool region reads. -/
theorem host0_batch : StableHlo.after hostOps0 V (Proc.devRef .tc main_v8) =
    shapeCast S50000x1 (V main_arg11) shapeCasts_S50000_S50000x1 := by
  after_results_simp <;> rfl

end Edges

/-! ### Layer 0: before the mlp region (`hostOps0`) -/

section Layer0Mlp
variable {F : FTy → Type} [FloatOps F] (V : Valuation τ sig (Elt F))

/-- The aggregated messages of layer 0. -/
theorem host0_agg : StableHlo.after hostOps0 V (Proc.devRef .tc main_v38) =
    MP (V main_arg0) (E1 0 (V main_arg1)) (E2 0 (V main_arg2)) (edgeSrc (V main_arg9)) (edgeDst (V main_arg9)) (attr0 (V main_arg10)) (attr1 (V main_arg10)) := by
  after_results_simp <;> rfl

/-- The features the layer starts from are not written. -/
theorem host0_h : StableHlo.after hostOps0 V (Proc.devRef .tc main_arg0) = V main_arg0 := by
  after_results_simp

theorem host0_w1 : StableHlo.after hostOps0 V (Proc.devRef .tc main_v40) = W1 0 (V main_arg3) := by
  after_results_simp <;> rfl

theorem host0_b1 : StableHlo.after hostOps0 V (Proc.devRef .tc main_v47) = row (B1 0 (V main_arg4)) := by
  after_results_simp <;> exact shapeCast_vec_row _ _

theorem host0_w2 : StableHlo.after hostOps0 V (Proc.devRef .tc main_v44) = W2 0 (V main_arg5) := by
  after_results_simp <;> rfl

theorem host0_b2 : StableHlo.after hostOps0 V (Proc.devRef .tc main_v48) = row (R300 0 (V main_arg6)) := by
  after_results_simp <;> exact shapeCast_vec_row _ _

end Layer0Mlp

/-! ### Layer 0: before the normalisation region (`hostOps1`) -/

section Layer0Stats
variable {F : FTy → Type} [FloatOps F] (V : Valuation τ sig (Elt F))

/-- The pre-normalisation output is not written. -/
theorem host1_z : StableHlo.after hostOps1 V (Proc.devRef .tc main_v49_0) = V main_v49_0 := by
  after_results_simp

/-- The mean, as the operations' term: the column sums over the row count. -/
theorem host1_mean_term : StableHlo.after hostOps1 V (Proc.devRef .tc main_v53) =
    row (Host.divf (shapeCast S300 (V main_v49_1) shapeCasts_S1x300_S300)
      (broadcastInDim S300 ![] bcast_S_S300 (constant S_ .f32 0x47435000#32))) := by
  after_results_simp <;> exact shapeCast_vec_row _ _

/-- The variance, as the operations' term: the column sums of squares over the row count, less the mean squared. -/
theorem host1_var_term : StableHlo.after hostOps1 V (Proc.devRef .tc main_v61) =
    row (subf (Host.divf (shapeCast S300 (V main_v49_2) shapeCasts_S1x300_S300)
        (broadcastInDim S300 ![] bcast_S_S300 (constant S_ .f32 0x47435000#32)))
      (mulf (shapeCast S300 (StableHlo.after hostOps1 V (Proc.devRef .tc main_v53)) shapeCasts_S1x300_S300)
        (shapeCast S300 (StableHlo.after hostOps1 V (Proc.devRef .tc main_v53)) shapeCasts_S1x300_S300))) := by
  after_results_simp <;> exact shapeCast_vec_row _ _

theorem host1_gamma : StableHlo.after hostOps1 V (Proc.devRef .tc main_v66) = row (R300 0 (V main_arg7)) := by
  after_results_simp <;> exact shapeCast_vec_row _ _

theorem host1_beta : StableHlo.after hostOps1 V (Proc.devRef .tc main_v67) = row (R300 0 (V main_arg8)) := by
  after_results_simp <;> exact shapeCast_vec_row _ _

end Layer0Stats

section Layer0StatsIdeal
variable (V : Valuation τ sig (Elt Ideal))

/-- The mean is the column sums over the row count. -/
theorem host1_mean : StableHlo.after hostOps1 V (Proc.devRef .tc main_v53) = meanOfSums (V main_v49_1) := by
  rw [host1_mean_term]; exact mean_term_eq _

/-- The variance is the column sums of squares over the row count, less the mean squared. -/
theorem host1_var : StableHlo.after hostOps1 V (Proc.devRef .tc main_v61) =
    varOfSums (V main_v49_2) (StableHlo.after hostOps1 V (Proc.devRef .tc main_v53)) := by
  rw [host1_var_term]; exact var_term_eq _ _

end Layer0StatsIdeal

/-! ### Layer 0 as one step

From the valuation `V0` the layer starts from: the host stretch before the mlp region, the region's three outputs put
in their buffers (`Zc` the perceptron's output of the six operands, `Sc` / `SSc` its column sums and column sums of
squares), the host stretch before the normalisation region, and that region's output.  The result is the layer
function `layerM` of `V0`'s argument buffers and incoming features. -/

section Layer0Step
variable (V0 : Valuation τ sig (Elt Ideal))

/-- The buffers after the mlp region of layer 0. -/
abbrev mid0 (Zc : FVec Ideal S50000x300 .f32) (Sc SSc : FVec Ideal S1x300 .f32) : Valuation τ sig (Elt Ideal) :=
  Function.update (Function.update (Function.update (StableHlo.after hostOps0 V0) main_v49_0 Zc) main_v49_1 Sc) main_v49_2 SSc

theorem mid0_z (Zc Sc SSc) : mid0 V0 Zc Sc SSc main_v49_0 = Zc := by
  unfold mid0
  rw [Function.update_of_ne (StableHlo.devRef_ne_of_ne (by decide)), Function.update_of_ne (StableHlo.devRef_ne_of_ne (by decide)),
    Function.update_self]
theorem mid0_s (Zc Sc SSc) : mid0 V0 Zc Sc SSc main_v49_1 = Sc := by
  unfold mid0
  rw [Function.update_of_ne (StableHlo.devRef_ne_of_ne (by decide)), Function.update_self]
theorem mid0_ss (Zc Sc SSc) : mid0 V0 Zc Sc SSc main_v49_2 = SSc := by
  unfold mid0
  rw [Function.update_self]
/-- A buffer that is none of the region's outputs is as the host stretch left it. -/
theorem mid0_of_ne (Zc Sc SSc) (r : Ref sig .tc) (hz : r ≠ main_v49_0) (hs : r ≠ main_v49_1) (hss : r ≠ main_v49_2) :
    mid0 V0 Zc Sc SSc r = StableHlo.after hostOps0 V0 r := by
  unfold mid0
  rw [Function.update_of_ne (StableHlo.devRef_ne_of_ne hss), Function.update_of_ne (StableHlo.devRef_ne_of_ne hs),
    Function.update_of_ne (StableHlo.devRef_ne_of_ne hz)]

/-- The layer's result. -/
theorem kStep0 (Zc : FVec Ideal S50000x300 .f32) (Sc SSc : FVec Ideal S1x300 .f32)
    (hZ : Zc = Cert.Spec.mlpZ (StableHlo.after hostOps0 V0 (Proc.devRef .tc main_v38)) (StableHlo.after hostOps0 V0 (Proc.devRef .tc main_arg0))
      (StableHlo.after hostOps0 V0 (Proc.devRef .tc main_v40)) (StableHlo.after hostOps0 V0 (Proc.devRef .tc main_v47))
      (StableHlo.after hostOps0 V0 (Proc.devRef .tc main_v44)) (StableHlo.after hostOps0 V0 (Proc.devRef .tc main_v48)))
    (hS : Sc = Cert.Spec.colSum Zc) (hSS : SSc = Cert.Spec.colSumSq Zc) :
    Cert.Spec.bnRelu (StableHlo.after hostOps1 (mid0 V0 Zc Sc SSc) (Proc.devRef .tc main_v49_0))
        (StableHlo.after hostOps1 (mid0 V0 Zc Sc SSc) (Proc.devRef .tc main_v53))
        (StableHlo.after hostOps1 (mid0 V0 Zc Sc SSc) (Proc.devRef .tc main_v61))
        (StableHlo.after hostOps1 (mid0 V0 Zc Sc SSc) (Proc.devRef .tc main_v66))
        (StableHlo.after hostOps1 (mid0 V0 Zc Sc SSc) (Proc.devRef .tc main_v67))
        (Ideal.ofBits .f32 0x3727C5AC#32)
      = layerM (V0 main_arg1) (V0 main_arg2) (V0 main_arg3) (V0 main_arg4) (V0 main_arg5) (V0 main_arg6) (V0 main_arg7)
          (V0 main_arg8) (V0 main_arg9) (V0 main_arg10) 0 (V0 main_arg0) := by
  -- the perceptron's output is the layer's pre-normalisation array
  have hz : Zc = layerZ (V0 main_arg1) (V0 main_arg2) (V0 main_arg3) (V0 main_arg4) (V0 main_arg5) (V0 main_arg6)
      (V0 main_arg9) (V0 main_arg10) 0 (V0 main_arg0) := by
    rw [hZ, host0_agg, host0_h, host0_w1, host0_b1, host0_w2, host0_b2]
    rfl
  -- the normalisation region's five operands
  have e0 : StableHlo.after hostOps1 (mid0 V0 Zc Sc SSc) (Proc.devRef .tc main_v49_0) = Zc := by
    rw [host1_z]; exact mid0_z V0 Zc Sc SSc
  have e1 : (StableHlo.after hostOps1 (mid0 V0 Zc Sc SSc) (Proc.devRef .tc main_v53) : FVec Ideal S1x300 .f32)
      = Cert.Math.colMean Zc := by
    rw [host1_mean, mid0_s, hS]; rfl
  have e2 : (StableHlo.after hostOps1 (mid0 V0 Zc Sc SSc) (Proc.devRef .tc main_v61) : FVec Ideal S1x300 .f32)
      = Cert.Math.varOfMoments Zc := by
    rw [host1_var, host1_mean, mid0_ss, mid0_s, hSS, hS]; rfl
  have e3 : StableHlo.after hostOps1 (mid0 V0 Zc Sc SSc) (Proc.devRef .tc main_v66) = row (R300 0 (V0 main_arg7)) := by
    rw [host1_gamma, mid0_of_ne V0 Zc Sc SSc main_arg7 (by decide) (by decide) (by decide),
      StableHlo.after_of_writes_sub hostOps0 V0 hostOps0_writes (by decide)]
  have e4 : StableHlo.after hostOps1 (mid0 V0 Zc Sc SSc) (Proc.devRef .tc main_v67) = row (R300 0 (V0 main_arg8)) := by
    rw [host1_beta, mid0_of_ne V0 Zc Sc SSc main_arg8 (by decide) (by decide) (by decide),
      StableHlo.after_of_writes_sub hostOps0 V0 hostOps0_writes (by decide)]
  rw [e0, e1, e2, e3, e4, Cert.Consts.ofBits_eps, hz]
  rfl

/-- A buffer neither stretch writes and no region of the layer outputs is, after the layer, as `V0` has it. -/
theorem kKeep0 (Zc Sc SSc) (Hc : FVec Ideal S50000x300 .f32) (r : Ref sig .tc) (h0 : r ∉ hostOps0_W) (h1 : r ∉ hostOps1_W)
    (hz : r ≠ main_v49_0) (hs : r ≠ main_v49_1) (hss : r ≠ main_v49_2) (hh : r ≠ main_v68) :
    Function.update (StableHlo.after hostOps1 (mid0 V0 Zc Sc SSc)) main_v68 Hc r = V0 r := by
  rw [Function.update_of_ne (StableHlo.devRef_ne_of_ne hh), StableHlo.after_of_writes_sub hostOps1 _ hostOps1_writes h1,
    mid0_of_ne V0 Zc Sc SSc r hz hs hss, StableHlo.after_of_writes_sub hostOps0 V0 hostOps0_writes h0]

/-- A buffer the second stretch does not write and no region of the layer outputs is, after the layer, as the first
    stretch left it. -/
theorem kKeepMid0 (Zc Sc SSc) (Hc : FVec Ideal S50000x300 .f32) (r : Ref sig .tc) (h1 : r ∉ hostOps1_W)
    (hz : r ≠ main_v49_0) (hs : r ≠ main_v49_1) (hss : r ≠ main_v49_2) (hh : r ≠ main_v68) :
    Function.update (StableHlo.after hostOps1 (mid0 V0 Zc Sc SSc)) main_v68 Hc r = StableHlo.after hostOps0 V0 r := by
  rw [Function.update_of_ne (StableHlo.devRef_ne_of_ne hh), StableHlo.after_of_writes_sub hostOps1 _ hostOps1_writes h1,
    mid0_of_ne V0 Zc Sc SSc r hz hs hss]

/-- The layer's own output buffer holds what the normalisation region wrote. -/
theorem kSelf0 (Zc Sc SSc) (Hc : FVec Ideal S50000x300 .f32) :
    Function.update (StableHlo.after hostOps1 (mid0 V0 Zc Sc SSc)) main_v68 Hc main_v68 = Hc :=
  Function.update_self ..

end Layer0Step

end Cert.KernelIdeal.HandV

end
-- ==== Proof.Glue.KLayer0.lean ====
/-
  Layer 0 along the kernel program's run.

  The buffers' contents between the items of the run are the chain W0, W1, …: the launch contents, then each host
  stretch applied, then each region's outputs put in their buffers.  Here the first four links: after the first
  normalisation region the features buffer holds the layer function `layerM` of the arguments, the argument buffers are
  as at launch, and the edges' index vectors and the graph ids are as the first host stretch left them.
-/
import proofs.«409348_j89627377533173_1_alg».proof.Proof.KI.RunDefs
import proofs.«409348_j89627377533173_1_alg».proof.Proof.KI.ValMlp0
import proofs.«409348_j89627377533173_1_alg».proof.Proof.KI.ValBn1
import proofs.«409348_j89627377533173_1_alg».proof.Proof.Glue.KHost0

set_option maxRecDepth 16384

noncomputable section

namespace Cert.KernelIdeal.HandV

open Idealize.ShloMosaic Idealize.ShloMosaic.TcCoe Idealize.ShloMosaic.ValueIdx
open Cert.KernelIdeal Cert.KernelIdeal.Gen Cert.KernelIdeal.Hand

variable (m : (ℓ : Loc nD τ sig) → Buf (Elt Ideal) ℓ) (c : Dev nD)

/-- The argument buffers the layers read. -/
abbrev argRefs : List (Ref sig .tc) :=
  [main_arg1, main_arg2, main_arg3, main_arg4, main_arg5, main_arg6, main_arg7, main_arg8, main_arg9, main_arg10, main_arg11]

/-- The buffers the first host stretch fills once for all layers: the edges' four index vectors and the graph ids. -/
abbrev edgeRefs : List (Ref sig .tc) := [main_v1, main_v3, main_v5, main_v7, main_v8]

theorem argRefs_free0 : ∀ r ∈ argRefs, r ∉ hostOps0_W ∧ r ∉ hostOps1_W ∧ r ≠ main_v49_0 ∧ r ≠ main_v49_1 ∧ r ≠ main_v49_2 ∧ r ≠ main_v68 := by
  decide
theorem edgeRefs_free0 : ∀ r ∈ edgeRefs, r ∉ hostOps1_W ∧ r ≠ main_v49_0 ∧ r ≠ main_v49_1 ∧ r ≠ main_v49_2 ∧ r ≠ main_v68 := by
  decide

/-- After layer 0 the argument buffers are as at launch. -/
theorem args_1 : ∀ r ∈ argRefs, W4 m c r = W0 m c r := fun r hr =>
  have h := argRefs_free0 r hr
  kKeep0 (W0 m c) _ _ _ _ r h.1 h.2.1 h.2.2.1 h.2.2.2.1 h.2.2.2.2.1 h.2.2.2.2.2

/-- After layer 0 the edges' index vectors and the graph ids are as the first host stretch left them. -/
theorem edges_1 : ∀ r ∈ edgeRefs, W4 m c r = Hand.W1 m c r := fun r hr =>
  have h := edgeRefs_free0 r hr
  kKeepMid0 (W0 m c) _ _ _ _ r h.1 h.2.1 h.2.2.1 h.2.2.2.1 h.2.2.2.2

/-- Layer 0: the features after the first normalisation region. -/
theorem kLayer_0 : W4 m c (Proc.devRef .tc main_v68) =
    layerM (W0 m c main_arg1) (W0 m c main_arg2) (W0 m c main_arg3) (W0 m c main_arg4) (W0 m c main_arg5) (W0 m c main_arg6)
      (W0 m c main_arg7) (W0 m c main_arg8) (W0 m c main_arg9) (W0 m c main_arg10) 0 (W0 m c main_arg0) := by
  have hZ := final0_6 (ent0 m) c
  have hS := (final0_7 (ent0 m) c).trans (congrArg Cert.Spec.colSum hZ.symm)
  have hSS := (final0_8 (ent0 m) c).trans (congrArg Cert.Spec.colSumSq hZ.symm)
  refine (kSelf0 (W0 m c) _ _ _ _).trans ?_
  refine (final1_5 (ent1 m) c).trans ?_
  exact kStep0 (W0 m c) _ _ _ hZ hS hSS

/-- The edges' index vectors, as the layers after the first read them. -/
theorem W1_src : Hand.W1 m c main_v1 = edgeSrc (W0 m c main_arg9) := host0_src (W0 m c)
theorem W1_dst : Hand.W1 m c main_v3 = edgeDst (W0 m c main_arg9) := host0_dst (W0 m c)
theorem W1_e0 : Hand.W1 m c main_v5 = attr0 (W0 m c main_arg10) := host0_a0 (W0 m c)
theorem W1_e1 : Hand.W1 m c main_v7 = attr1 (W0 m c main_arg10) := host0_a1 (W0 m c)
/-- The graph ids as a column, as the pool region reads them. -/
theorem W1_batch : Hand.W1 m c main_v8 = batchCol (W0 m c main_arg11) := host0_batch (W0 m c)

end Cert.KernelIdeal.HandV

end
-- ==== Proof.Glue.KLayer1.lean ====
/-
  Layer 1 along the kernel program's run: links W4 to W8 of the chain of buffer contents.  After the layer's
  normalisation region the features buffer holds `layerM` of the arguments and of the features layer 0 left; the
  argument buffers are as at launch, the edges' index vectors and the graph ids as the first host stretch left them.
-/
import proofs.«409348_j89627377533173_1_alg».proof.Proof.KI.RunDefs
import proofs.«409348_j89627377533173_1_alg».proof.Proof.KI.ValMlp2
import proofs.«409348_j89627377533173_1_alg».proof.Proof.KI.ValBn3
import proofs.«409348_j89627377533173_1_alg».proof.Proof.Glue.KHostL1
import proofs.«409348_j89627377533173_1_alg».proof.Proof.Glue.KLayer0

set_option maxRecDepth 16384

noncomputable section

namespace Cert.KernelIdeal.HandV

open Idealize.ShloMosaic Idealize.ShloMosaic.TcCoe Idealize.ShloMosaic.ValueIdx
open Cert.KernelIdeal Cert.KernelIdeal.Gen Cert.KernelIdeal.Hand

variable (m : (ℓ : Loc nD τ sig) → Buf (Elt Ideal) ℓ) (c : Dev nD)

theorem argRefs_free1 : ∀ r ∈ argRefs, r ∉ hostOps2_W ∧ r ∉ hostOps3_W ∧ r ≠ main_v109_0 ∧ r ≠ main_v109_1 ∧ r ≠ main_v109_2 ∧ r ≠ main_v128 := by
  decide
theorem edgeRefs_free1 : ∀ r ∈ edgeRefs, r ∉ hostOps2_W ∧ r ∉ hostOps3_W ∧ r ≠ main_v109_0 ∧ r ≠ main_v109_1 ∧ r ≠ main_v109_2 ∧ r ≠ main_v128 := by
  decide

/-- After layer 1 the argument buffers are as at launch. -/
theorem args_2 : ∀ r ∈ argRefs, W8 m c r = W0 m c r := fun r hr =>
  have h := argRefs_free1 r hr
  (kKeep1 (W4 m c) _ _ _ _ r h.1 h.2.1 h.2.2.1 h.2.2.2.1 h.2.2.2.2.1 h.2.2.2.2.2).trans (args_1 m c r hr)

/-- After layer 1 the edges' index vectors and the graph ids are as the first host stretch left them. -/
theorem edges_2 : ∀ r ∈ edgeRefs, W8 m c r = Hand.W1 m c r := fun r hr =>
  have h := edgeRefs_free1 r hr
  (kKeep1 (W4 m c) _ _ _ _ r h.1 h.2.1 h.2.2.1 h.2.2.2.1 h.2.2.2.2.1 h.2.2.2.2.2).trans (edges_1 m c r hr)

/-- Layer 1: the features after its normalisation region. -/
theorem kLayer_1 : W8 m c (Proc.devRef .tc main_v128) =
    layerM (W0 m c main_arg1) (W0 m c main_arg2) (W0 m c main_arg3) (W0 m c main_arg4) (W0 m c main_arg5) (W0 m c main_arg6)
      (W0 m c main_arg7) (W0 m c main_arg8) (W0 m c main_arg9) (W0 m c main_arg10) (1 : Fin 5) (W4 m c main_v68) := by
  have hZ := final2_6 (ent2 m) c
  have hS := (final2_7 (ent2 m) c).trans (congrArg Cert.Spec.colSum hZ.symm)
  have hSS := (final2_8 (ent2 m) c).trans (congrArg Cert.Spec.colSumSq hZ.symm)
  have a9 := args_1 m c main_arg9 (by decide)
  have a10 := args_1 m c main_arg10 (by decide)
  have hsrc : W4 m c main_v1 = edgeSrc (W4 m c main_arg9) := by rw [edges_1 m c main_v1 (by decide), a9]; exact W1_src m c
  have hdst : W4 m c main_v3 = edgeDst (W4 m c main_arg9) := by rw [edges_1 m c main_v3 (by decide), a9]; exact W1_dst m c
  have he0 : W4 m c main_v5 = attr0 (W4 m c main_arg10) := by rw [edges_1 m c main_v5 (by decide), a10]; exact W1_e0 m c
  have he1 : W4 m c main_v7 = attr1 (W4 m c main_arg10) := by rw [edges_1 m c main_v7 (by decide), a10]; exact W1_e1 m c
  refine (kSelf1 (W4 m c) _ _ _ _).trans ?_
  refine (final3_5 (ent3 m) c).trans ?_
  refine (kStep1 (W4 m c) _ _ _ hZ hS hSS hsrc hdst he0 he1).trans ?_
  rw [args_1 m c main_arg1 (by decide), args_1 m c main_arg2 (by decide), args_1 m c main_arg3 (by decide),
    args_1 m c main_arg4 (by decide), args_1 m c main_arg5 (by decide), args_1 m c main_arg6 (by decide),
    args_1 m c main_arg7 (by decide), args_1 m c main_arg8 (by decide), a9, a10]

end Cert.KernelIdeal.HandV

end
-- ==== Proof.Glue.KLayer2.lean ====
/-
  Layer 2 along the kernel program's run: links W8 to W12 of the chain of buffer contents.  After the layer's
  normalisation region the features buffer holds `layerM` of the arguments and of the features layer 2 left; the
  argument buffers are as at launch, the edges' index vectors and the graph ids as the first host stretch left them.
-/
import proofs.«409348_j89627377533173_1_alg».proof.Proof.KI.RunDefs
import proofs.«409348_j89627377533173_1_alg».proof.Proof.KI.ValMlp4
import proofs.«409348_j89627377533173_1_alg».proof.Proof.KI.ValBn5
import proofs.«409348_j89627377533173_1_alg».proof.Proof.Glue.KHostL2
import proofs.«409348_j89627377533173_1_alg».proof.Proof.Glue.KLayer1

set_option maxRecDepth 16384

noncomputable section

namespace Cert.KernelIdeal.HandV

open Idealize.ShloMosaic Idealize.ShloMosaic.TcCoe Idealize.ShloMosaic.ValueIdx
open Cert.KernelIdeal Cert.KernelIdeal.Gen Cert.KernelIdeal.Hand

variable (m : (ℓ : Loc nD τ sig) → Buf (Elt Ideal) ℓ) (c : Dev nD)

theorem argRefs_free2 : ∀ r ∈ argRefs, r ∉ hostOps4_W ∧ r ∉ hostOps5_W ∧ r ≠ main_v169_0 ∧ r ≠ main_v169_1 ∧ r ≠ main_v169_2 ∧ r ≠ main_v188 := by
  decide
theorem edgeRefs_free2 : ∀ r ∈ edgeRefs, r ∉ hostOps4_W ∧ r ∉ hostOps5_W ∧ r ≠ main_v169_0 ∧ r ≠ main_v169_1 ∧ r ≠ main_v169_2 ∧ r ≠ main_v188 := by
  decide

/-- After layer 2 the argument buffers are as at launch. -/
theorem args_3 : ∀ r ∈ argRefs, W12 m c r = W0 m c r := fun r hr =>
  have h := argRefs_free2 r hr
  (kKeep2 (W8 m c) _ _ _ _ r h.1 h.2.1 h.2.2.1 h.2.2.2.1 h.2.2.2.2.1 h.2.2.2.2.2).trans (args_2 m c r hr)

/-- After layer 2 the edges' index vectors and the graph ids are as the first host stretch left them. -/
theorem edges_3 : ∀ r ∈ edgeRefs, W12 m c r = Hand.W1 m c r := fun r hr =>
  have h := edgeRefs_free2 r hr
  (kKeep2 (W8 m c) _ _ _ _ r h.1 h.2.1 h.2.2.1 h.2.2.2.1 h.2.2.2.2.1 h.2.2.2.2.2).trans (edges_2 m c r hr)

/-- Layer 2: the features after its normalisation region. -/
theorem kLayer_2 : W12 m c (Proc.devRef .tc main_v188) =
    layerM (W0 m c main_arg1) (W0 m c main_arg2) (W0 m c main_arg3) (W0 m c main_arg4) (W0 m c main_arg5) (W0 m c main_arg6)
      (W0 m c main_arg7) (W0 m c main_arg8) (W0 m c main_arg9) (W0 m c main_arg10) (2 : Fin 5) (W8 m c main_v128) := by
  have hZ := final4_6 (ent4 m) c
  have hS := (final4_7 (ent4 m) c).trans (congrArg Cert.Spec.colSum hZ.symm)
  have hSS := (final4_8 (ent4 m) c).trans (congrArg Cert.Spec.colSumSq hZ.symm)
  have a9 := args_2 m c main_arg9 (by decide)
  have a10 := args_2 m c main_arg10 (by decide)
  have hsrc : W8 m c main_v1 = edgeSrc (W8 m c main_arg9) := by rw [edges_2 m c main_v1 (by decide), a9]; exact W1_src m c
  have hdst : W8 m c main_v3 = edgeDst (W8 m c main_arg9) := by rw [edges_2 m c main_v3 (by decide), a9]; exact W1_dst m c
  have he0 : W8 m c main_v5 = attr0 (W8 m c main_arg10) := by rw [edges_2 m c main_v5 (by decide), a10]; exact W1_e0 m c
  have he1 : W8 m c main_v7 = attr1 (W8 m c main_arg10) := by rw [edges_2 m c main_v7 (by decide), a10]; exact W1_e1 m c
  refine (kSelf2 (W8 m c) _ _ _ _).trans ?_
  refine (final5_5 (ent5 m) c).trans ?_
  refine (kStep2 (W8 m c) _ _ _ hZ hS hSS hsrc hdst he0 he1).trans ?_
  rw [args_2 m c main_arg1 (by decide), args_2 m c main_arg2 (by decide), args_2 m c main_arg3 (by decide),
    args_2 m c main_arg4 (by decide), args_2 m c main_arg5 (by decide), args_2 m c main_arg6 (by decide),
    args_2 m c main_arg7 (by decide), args_2 m c main_arg8 (by decide), a9, a10]

end Cert.KernelIdeal.HandV

end
-- ==== Proof.Glue.KLayer3.lean ====
/-
  Layer 3 along the kernel program's run: links W12 to W16 of the chain of buffer contents.  After the layer's
  normalisation region the features buffer holds `layerM` of the arguments and of the features layer 2 left; the
  argument buffers are as at launch, the edges' index vectors and the graph ids as the first host stretch left them.
-/
import proofs.«409348_j89627377533173_1_alg».proof.Proof.KI.RunDefs
import proofs.«409348_j89627377533173_1_alg».proof.Proof.KI.ValMlp6
import proofs.«409348_j89627377533173_1_alg».proof.Proof.KI.ValBn7
import proofs.«409348_j89627377533173_1_alg».proof.Proof.Glue.KHostL3
import proofs.«409348_j89627377533173_1_alg».proof.Proof.Glue.KLayer2

set_option maxRecDepth 16384

noncomputable section

namespace Cert.KernelIdeal.HandV

open Idealize.ShloMosaic Idealize.ShloMosaic.TcCoe Idealize.ShloMosaic.ValueIdx
open Cert.KernelIdeal Cert.KernelIdeal.Gen Cert.KernelIdeal.Hand

variable (m : (ℓ : Loc nD τ sig) → Buf (Elt Ideal) ℓ) (c : Dev nD)

theorem argRefs_free3 : ∀ r ∈ argRefs, r ∉ hostOps6_W ∧ r ∉ hostOps7_W ∧ r ≠ main_v229_0 ∧ r ≠ main_v229_1 ∧ r ≠ main_v229_2 ∧ r ≠ main_v248 := by
  decide
theorem edgeRefs_free3 : ∀ r ∈ edgeRefs, r ∉ hostOps6_W ∧ r ∉ hostOps7_W ∧ r ≠ main_v229_0 ∧ r ≠ main_v229_1 ∧ r ≠ main_v229_2 ∧ r ≠ main_v248 := by
  decide

/-- After layer 3 the argument buffers are as at launch. -/
theorem args_4 : ∀ r ∈ argRefs, W16 m c r = W0 m c r := fun r hr =>
  have h := argRefs_free3 r hr
  (kKeep3 (W12 m c) _ _ _ _ r h.1 h.2.1 h.2.2.1 h.2.2.2.1 h.2.2.2.2.1 h.2.2.2.2.2).trans (args_3 m c r hr)

/-- After layer 3 the edges' index vectors and the graph ids are as the first host stretch left them. -/
theorem edges_4 : ∀ r ∈ edgeRefs, W16 m c r = Hand.W1 m c r := fun r hr =>
  have h := edgeRefs_free3 r hr
  (kKeep3 (W12 m c) _ _ _ _ r h.1 h.2.1 h.2.2.1 h.2.2.2.1 h.2.2.2.2.1 h.2.2.2.2.2).trans (edges_3 m c r hr)

/-- Layer 3: the features after its normalisation region. -/
theorem kLayer_3 : W16 m c (Proc.devRef .tc main_v248) =
    layerM (W0 m c main_arg1) (W0 m c main_arg2) (W0 m c main_arg3) (W0 m c main_arg4) (W0 m c main_arg5) (W0 m c main_arg6)
      (W0 m c main_arg7) (W0 m c main_arg8) (W0 m c main_arg9) (W0 m c main_arg10) (3 : Fin 5) (W12 m c main_v188) := by
  have hZ := final6_6 (ent6 m) c
  have hS := (final6_7 (ent6 m) c).trans (congrArg Cert.Spec.colSum hZ.symm)
  have hSS := (final6_8 (ent6 m) c).trans (congrArg Cert.Spec.colSumSq hZ.symm)
  have a9 := args_3 m c main_arg9 (by decide)
  have a10 := args_3 m c main_arg10 (by decide)
  have hsrc : W12 m c main_v1 = edgeSrc (W12 m c main_arg9) := by rw [edges_3 m c main_v1 (by decide), a9]; exact W1_src m c
  have hdst : W12 m c main_v3 = edgeDst (W12 m c main_arg9) := by rw [edges_3 m c main_v3 (by decide), a9]; exact W1_dst m c
  have he0 : W12 m c main_v5 = attr0 (W12 m c main_arg10) := by rw [edges_3 m c main_v5 (by decide), a10]; exact W1_e0 m c
  have he1 : W12 m c main_v7 = attr1 (W12 m c main_arg10) := by rw [edges_3 m c main_v7 (by decide), a10]; exact W1_e1 m c
  refine (kSelf3 (W12 m c) _ _ _ _).trans ?_
  refine (final7_5 (ent7 m) c).trans ?_
  refine (kStep3 (W12 m c) _ _ _ hZ hS hSS hsrc hdst he0 he1).trans ?_
  rw [args_3 m c main_arg1 (by decide), args_3 m c main_arg2 (by decide), args_3 m c main_arg3 (by decide),
    args_3 m c main_arg4 (by decide), args_3 m c main_arg5 (by decide), args_3 m c main_arg6 (by decide),
    args_3 m c main_arg7 (by decide), args_3 m c main_arg8 (by decide), a9, a10]

end Cert.KernelIdeal.HandV

end
-- ==== Proof.Glue.KLayer4.lean ====
/-
  Layer 4 along the kernel program's run: links W16 to W20 of the chain of buffer contents.  After the layer's
  normalisation region the features buffer holds `layerM` of the arguments and of the features layer 3 left; the
  argument buffers are as at launch, the edges' index vectors and the graph ids as the first host stretch left them.
-/
import proofs.«409348_j89627377533173_1_alg».proof.Proof.KI.RunDefs
import proofs.«409348_j89627377533173_1_alg».proof.Proof.KI.ValMlp8
import proofs.«409348_j89627377533173_1_alg».proof.Proof.KI.ValBn9
import proofs.«409348_j89627377533173_1_alg».proof.Proof.Glue.KHostL4
import proofs.«409348_j89627377533173_1_alg».proof.Proof.Glue.KLayer3

set_option maxRecDepth 16384

noncomputable section

namespace Cert.KernelIdeal.HandV

open Idealize.ShloMosaic Idealize.ShloMosaic.TcCoe Idealize.ShloMosaic.ValueIdx
open Cert.KernelIdeal Cert.KernelIdeal.Gen Cert.KernelIdeal.Hand

variable (m : (ℓ : Loc nD τ sig) → Buf (Elt Ideal) ℓ) (c : Dev nD)

theorem argRefs_free4 : ∀ r ∈ argRefs, r ∉ hostOps8_W ∧ r ∉ hostOps9_W ∧ r ≠ main_v289_0 ∧ r ≠ main_v289_1 ∧ r ≠ main_v289_2 ∧ r ≠ main_v308 := by
  decide
theorem edgeRefs_free4 : ∀ r ∈ edgeRefs, r ∉ hostOps8_W ∧ r ∉ hostOps9_W ∧ r ≠ main_v289_0 ∧ r ≠ main_v289_1 ∧ r ≠ main_v289_2 ∧ r ≠ main_v308 := by
  decide

/-- After layer 4 the argument buffers are as at launch. -/
theorem args_5 : ∀ r ∈ argRefs, W20 m c r = W0 m c r := fun r hr =>
  have h := argRefs_free4 r hr
  (kKeep4 (W16 m c) _ _ _ _ r h.1 h.2.1 h.2.2.1 h.2.2.2.1 h.2.2.2.2.1 h.2.2.2.2.2).trans (args_4 m c r hr)

/-- After layer 4 the edges' index vectors and the graph ids are as the first host stretch left them. -/
theorem edges_5 : ∀ r ∈ edgeRefs, W20 m c r = Hand.W1 m c r := fun r hr =>
  have h := edgeRefs_free4 r hr
  (kKeep4 (W16 m c) _ _ _ _ r h.1 h.2.1 h.2.2.1 h.2.2.2.1 h.2.2.2.2.1 h.2.2.2.2.2).trans (edges_4 m c r hr)

/-- Layer 4: the features after its normalisation region. -/
theorem kLayer_4 : W20 m c (Proc.devRef .tc main_v308) =
    layerM (W0 m c main_arg1) (W0 m c main_arg2) (W0 m c main_arg3) (W0 m c main_arg4) (W0 m c main_arg5) (W0 m c main_arg6)
      (W0 m c main_arg7) (W0 m c main_arg8) (W0 m c main_arg9) (W0 m c main_arg10) (4 : Fin 5) (W16 m c main_v248) := by
  have hZ := final8_6 (ent8 m) c
  have hS := (final8_7 (ent8 m) c).trans (congrArg Cert.Spec.colSum hZ.symm)
  have hSS := (final8_8 (ent8 m) c).trans (congrArg Cert.Spec.colSumSq hZ.symm)
  have a9 := args_4 m c main_arg9 (by decide)
  have a10 := args_4 m c main_arg10 (by decide)
  have hsrc : W16 m c main_v1 = edgeSrc (W16 m c main_arg9) := by rw [edges_4 m c main_v1 (by decide), a9]; exact W1_src m c
  have hdst : W16 m c main_v3 = edgeDst (W16 m c main_arg9) := by rw [edges_4 m c main_v3 (by decide), a9]; exact W1_dst m c
  have he0 : W16 m c main_v5 = attr0 (W16 m c main_arg10) := by rw [edges_4 m c main_v5 (by decide), a10]; exact W1_e0 m c
  have he1 : W16 m c main_v7 = attr1 (W16 m c main_arg10) := by rw [edges_4 m c main_v7 (by decide), a10]; exact W1_e1 m c
  refine (kSelf4 (W16 m c) _ _ _ _).trans ?_
  refine (final9_5 (ent9 m) c).trans ?_
  refine (kStep4 (W16 m c) _ _ _ hZ hS hSS hsrc hdst he0 he1).trans ?_
  rw [args_4 m c main_arg1 (by decide), args_4 m c main_arg2 (by decide), args_4 m c main_arg3 (by decide),
    args_4 m c main_arg4 (by decide), args_4 m c main_arg5 (by decide), args_4 m c main_arg6 (by decide),
    args_4 m c main_arg7 (by decide), args_4 m c main_arg8 (by decide), a9, a10]

end Cert.KernelIdeal.HandV

end
-- ==== Proof.Glue.KPool.lean ====
import proofs.«409348_j89627377533173_1_alg».proof.Proof.Gen.KernelIdeal.Regions
import Idealize.ShloMosaic.Lib.IdealHost
import Idealize.ShloMosaic.Lib.Pipeline.Value
import Idealize.ShloMosaic.Lib.ValueIdx
import Idealize.ShloMosaic.Lib.StableHlo.Run

/-! # The pool's tail on the kernel side, over the extended reals

After the pool region the program divides, per graph and column, the graph's sum by its count clipped below at one.
Here: that last stretch of host operations as one function of the two arrays the pool region leaves, read at an index;
and that the arrays the pool reads (the last layer's output, and the graph ids reshaped to a column at the start) are
not written by anything that runs after they are made. All over an arbitrary valuation of the buffers. -/

set_option maxRecDepth 2516

noncomputable section

namespace Cert.KernelIdeal.HandV

open Cert.KernelIdeal Cert.KernelIdeal.Gen
open Idealize.ShloMosaic Idealize.ShloMosaic.TcCoe Idealize.ShloMosaic.ValueIdx

/-! ## The last stretch as a function of the sums and the counts -/

/-- Per graph and column: the sum over the count clipped below at one (the one broadcast down the graphs, the clipped
    counts broadcast across the columns). -/
def poolTail (sums : Vec Ideal S512x300 .f32) (counts : Vec Ideal S512x1 .f32) : Vec Ideal S512x300 .f32 :=
  Host.divf sums (broadcastInDim S512x300 ![0, 1] bcast_S512x1_S512x300_0_1
    (maximumf counts (broadcastInDim S512x1 ![] bcast_S_S512x1 (constant (F := Ideal) S_ .f32 0x3F800000#32))))

/-- What the last stretch leaves in the result array, from any contents. -/
theorem pool_host11_out (V : Valuation τ sig (Elt Ideal)) :
    StableHlo.after (hostOps11 (F := Ideal)) V (Proc.devRef .tc main_v313)
      = poolTail (V (Proc.devRef .tc main_v309_0)) (V (Proc.devRef .tc main_v309_1)) := by
  after_results_simp <;> rfl

/-- The last stretch does not write the last layer's output. -/
theorem pool_host11_h (V : Valuation τ sig (Elt Ideal)) :
    StableHlo.after (hostOps11 (F := Ideal)) V (Proc.devRef .tc main_v308) = V (Proc.devRef .tc main_v308) :=
  StableHlo.after_of_writes_sub hostOps11 V hostOps11_writes (by decide)

/-- The tail at graph `g` and column `d`: the sum there over the larger of the graph's count and one. -/
theorem poolTail_ix2 (sums : Vec Ideal S512x300 .f32) (counts : Vec Ideal S512x1 .f32) (g : Fin 512) (d : Fin 300) :
    poolTail sums counts (ix2 g d) = Ideal.div (sums (ix2 g d)) (max (counts (ix2 g 0)) 1) := by
  unfold poolTail
  rw [hostDivf_apply]
  refine congrArg (Ideal.div _) ?_
  refine (broadcastInDim_apply _ _ _ (ix2 g d) (ix2 g 0) (fun a => by match a with | ⟨0, _⟩ => rfl | ⟨1, _⟩ => rfl)).trans ?_
  rw [maximumf_apply, broadcastInDim_scalar_apply, constant_apply, Ideal.ofBits_one_f32]

/-- The same at any index of the result. -/
theorem poolTail_apply (sums : Vec Ideal S512x300 .f32) (counts : Vec Ideal S512x1 .f32) (j : S512x300.Idx) :
    poolTail sums counts j = Ideal.div (sums j) (max (counts (ix2 (j 0) 0)) 1) := by
  have e : j = ix2 (j 0) (j 1) := eq_ix2 j
  rw [e]
  exact poolTail_ix2 sums counts (j 0) (j 1)

/-! ## The graph ids' column is written once, at the start -/

variable {F : FTy → Type} [FloatOps F]

/-- Host stretch 1 does not write the graph ids' column. -/
theorem pool_batch_kept1 (V : Valuation τ sig (Elt F)) :
    StableHlo.after (hostOps1 (F := F)) V (Proc.devRef .tc main_v8) = V (Proc.devRef .tc main_v8) :=
  StableHlo.after_of_writes_sub hostOps1 V hostOps1_writes (by decide)
/-- Host stretch 2 does not write the graph ids' column. -/
theorem pool_batch_kept2 (V : Valuation τ sig (Elt F)) :
    StableHlo.after (hostOps2 (F := F)) V (Proc.devRef .tc main_v8) = V (Proc.devRef .tc main_v8) :=
  StableHlo.after_of_writes_sub hostOps2 V hostOps2_writes (by decide)
/-- Host stretch 3 does not write the graph ids' column. -/
theorem pool_batch_kept3 (V : Valuation τ sig (Elt F)) :
    StableHlo.after (hostOps3 (F := F)) V (Proc.devRef .tc main_v8) = V (Proc.devRef .tc main_v8) :=
  StableHlo.after_of_writes_sub hostOps3 V hostOps3_writes (by decide)
/-- Host stretch 4 does not write the graph ids' column. -/
theorem pool_batch_kept4 (V : Valuation τ sig (Elt F)) :
    StableHlo.after (hostOps4 (F := F)) V (Proc.devRef .tc main_v8) = V (Proc.devRef .tc main_v8) :=
  StableHlo.after_of_writes_sub hostOps4 V hostOps4_writes (by decide)
/-- Host stretch 5 does not write the graph ids' column. -/
theorem pool_batch_kept5 (V : Valuation τ sig (Elt F)) :
    StableHlo.after (hostOps5 (F := F)) V (Proc.devRef .tc main_v8) = V (Proc.devRef .tc main_v8) :=
  StableHlo.after_of_writes_sub hostOps5 V hostOps5_writes (by decide)
/-- Host stretch 6 does not write the graph ids' column. -/
theorem pool_batch_kept6 (V : Valuation τ sig (Elt F)) :
    StableHlo.after (hostOps6 (F := F)) V (Proc.devRef .tc main_v8) = V (Proc.devRef .tc main_v8) :=
  StableHlo.after_of_writes_sub hostOps6 V hostOps6_writes (by decide)
/-- Host stretch 7 does not write the graph ids' column. -/
theorem pool_batch_kept7 (V : Valuation τ sig (Elt F)) :
    StableHlo.after (hostOps7 (F := F)) V (Proc.devRef .tc main_v8) = V (Proc.devRef .tc main_v8) :=
  StableHlo.after_of_writes_sub hostOps7 V hostOps7_writes (by decide)
/-- Host stretch 8 does not write the graph ids' column. -/
theorem pool_batch_kept8 (V : Valuation τ sig (Elt F)) :
    StableHlo.after (hostOps8 (F := F)) V (Proc.devRef .tc main_v8) = V (Proc.devRef .tc main_v8) :=
  StableHlo.after_of_writes_sub hostOps8 V hostOps8_writes (by decide)
/-- Host stretch 9 does not write the graph ids' column. -/
theorem pool_batch_kept9 (V : Valuation τ sig (Elt F)) :
    StableHlo.after (hostOps9 (F := F)) V (Proc.devRef .tc main_v8) = V (Proc.devRef .tc main_v8) :=
  StableHlo.after_of_writes_sub hostOps9 V hostOps9_writes (by decide)
/-- Host stretch 11 does not write the graph ids' column. -/
theorem pool_batch_kept11 (V : Valuation τ sig (Elt F)) :
    StableHlo.after (hostOps11 (F := F)) V (Proc.devRef .tc main_v8) = V (Proc.devRef .tc main_v8) :=
  StableHlo.after_of_writes_sub hostOps11 V hostOps11_writes (by decide)

/-- No kernel region's output array is the graph ids' column. -/
theorem pool_batch_not_out : main_v8 ∉ ([main_v49_0, main_v49_1, main_v49_2, main_v68, main_v109_0, main_v109_1, main_v109_2, main_v128, main_v169_0, main_v169_1, main_v169_2, main_v188, main_v229_0, main_v229_1, main_v229_2, main_v248, main_v289_0, main_v289_1, main_v289_2, main_v308, main_v309_0, main_v309_1] : List (Ref sig .tc)) := by decide

end Cert.KernelIdeal.HandV
-- ==== Proof.Glue.KOut.lean ====
/-
  The kernel program's two results as functions of its arguments.

  Composing the five layers: the features buffer after the last normalisation region holds `kH5`, the five-fold
  layer function of the launch contents, and neither the pool region nor the last host stretch writes it.  The pool
  region leaves the per-graph sums and counts of those features and the graph ids; the last host stretch divides
  the sums by the larger of the count and one: `poolOut`.
-/
import proofs.«409348_j89627377533173_1_alg».proof.Proof.KI.RunDefs
import proofs.«409348_j89627377533173_1_alg».proof.Proof.KI.ValPool10
import proofs.«409348_j89627377533173_1_alg».proof.Proof.Glue.KLayer4
import proofs.«409348_j89627377533173_1_alg».proof.Proof.Glue.KPool

set_option maxRecDepth 16384

noncomputable section

namespace Cert.KernelIdeal.HandV

open Idealize.ShloMosaic Idealize.ShloMosaic.TcCoe Idealize.ShloMosaic.ValueIdx
open Cert.KernelIdeal Cert.KernelIdeal.Gen Cert.KernelIdeal.Hand

variable (m : (ℓ : Loc nD τ sig) → Buf (Elt Ideal) ℓ) (c : Dev nD)

/-- The features after the five layers. -/
theorem W20_h : W20 m c (Proc.devRef .tc main_v308) =
    kH5 (W0 m c main_arg1) (W0 m c main_arg2) (W0 m c main_arg3) (W0 m c main_arg4) (W0 m c main_arg5) (W0 m c main_arg6)
      (W0 m c main_arg7) (W0 m c main_arg8) (W0 m c main_arg9) (W0 m c main_arg10) (W0 m c main_arg0) := by
  rw [kLayer_4, kLayer_3, kLayer_2, kLayer_1, kLayer_0]
  rfl

/-- The first result: the features after the five layers. -/
theorem kOut1 : W22 m c (Proc.devRef .tc main_v308) =
    kH5 (W0 m c main_arg1) (W0 m c main_arg2) (W0 m c main_arg3) (W0 m c main_arg4) (W0 m c main_arg5) (W0 m c main_arg6)
      (W0 m c main_arg7) (W0 m c main_arg8) (W0 m c main_arg9) (W0 m c main_arg10) (W0 m c main_arg0) :=
  ((pool_host11_h (W21 m c)).trans (W21_of_ne m c main_v308 (by decide) (by decide))).trans (W20_h m c)

/-- The second result: per graph, the summed features over the larger of the row count and one. -/
theorem kOut2 : W22 m c (Proc.devRef .tc main_v313) =
    poolOut (W0 m c main_arg11)
      (kH5 (W0 m c main_arg1) (W0 m c main_arg2) (W0 m c main_arg3) (W0 m c main_arg4) (W0 m c main_arg5) (W0 m c main_arg6)
        (W0 m c main_arg7) (W0 m c main_arg8) (W0 m c main_arg9) (W0 m c main_arg10) (W0 m c main_arg0)) := by
  have hb : W20 m c main_v8 = batchCol (W0 m c main_arg11) := (edges_5 m c main_v8 (by decide)).trans (W1_batch m c)
  have hs : W21 m c main_v309_0 = Cert.Spec.poolSums (W20 m c main_v308) (W20 m c main_v8) :=
    (W21_v309_0 m c).trans (final10_2 (ent10 m) c)
  have hc : W21 m c main_v309_1 = Cert.Spec.poolCounts (W20 m c main_v8) :=
    (W21_v309_1 m c).trans (final10_3 (ent10 m) c)
  refine (pool_host11_out (W21 m c)).trans ?_
  rw [hs, hc, hb, W20_h]
  funext j
  exact poolTail_apply _ _ j

end Cert.KernelIdeal.HandV

end
-- ==== Proof.Glue.ROps.lean ====
/-
  The reference's operations read at an index, at the ideal instance.  A product of matrices is the sum over the
  contracted axis; a column reduction is the sum over the rows from its initial value; a vector broadcast along the
  rows reads the vector at the column, a scalar broadcast reads the scalar.  With these the reference's two-layer
  perceptron is the function `mlpZ` of the messages and the features, and its normalisation followed by the clip at
  zero is the function `bnRelu` at the column means and the variances taken from the deviations.
-/
import proofs.«409348_j89627377533173_1_alg».proof.Proof.Ref.Terms
import proofs.«409348_j89627377533173_1_alg».proof.Proof.Glue.Operands
import proofs.«409348_j89627377533173_1_alg».proof.Proof.Consts
import proofs.«409348_j89627377533173_1_alg».proof.Proof.Spec
import proofs.«409348_j89627377533173_1_alg».proof.Proof.Math.Variance
import Idealize.ShloMosaic.Lib.Pipeline.Value
import Idealize.ShloMosaic.Lib.ValueIdx
import Idealize.ShloMosaic.Lib.IdealHost
import Idealize.ShloMosaic.PureOps.Ideal.Laws

set_option synthInstance.maxSize 4096
-- deciding that a reduction over 50000 rows is well formed recurses past the default depth
set_option maxRecDepth 4096

noncomputable section

open scoped BigOperators

namespace Cert.ReferenceIdeal.HandV

open Idealize.ShloMosaic Idealize.ShloMosaic.ValueIdx
open Cert.ReferenceIdeal Cert.ReferenceIdeal.Gen
open Cert.KernelIdeal.HandV (row row_apply)

/-! ### Readings -/

/-- A product of two matrices at an index: row `j 0` of the left factor against column `j 1` of the right. -/
theorem dot1_apply (a : S50000x300.Idx → EReal) (w : S300x600.Idx → EReal) (j : S50000x600.Idx) :
    Host.dotGeneral (F := Ideal) (φ₁ := .f32) (φ₂ := .f32) dot_S50000x300_S300x600_S50000x600_1_0_0_1_n_n none a w j
      = ∑ k : Fin 300, a (ix2 (j 0) k) * w (ix2 k (j 1)) := by
  show FloatOps.dotGeneral (F := Ideal) (φ₁ := .f32) (φ₂ := .f32) dot_S50000x300_S300x600_S50000x600_1_0_0_1_n_n none .single a w j = _
  rw [Ideal.dotGeneral_apply]
  rw [← Equiv.sum_comp (contrEquiv1 dot_S50000x300_S300x600_S50000x600_1_0_0_1_n_n 300 rfl rfl).symm]
  refine Finset.sum_congr rfl fun k _ => ?_
  have hk := contrEquiv1_symm_val dot_S50000x300_S300x600_S50000x600_1_0_0_1_n_n 300 rfl rfl k
  have e1 : dot_S50000x300_S300x600_S50000x600_1_0_0_1_n_n.lhsIdx j ((contrEquiv1 dot_S50000x300_S300x600_S50000x600_1_0_0_1_n_n 300 rfl rfl).symm k) = ix2 (j 0) k := by
    funext b
    match b with
    | ⟨0, _⟩ => rfl
    | ⟨1, _⟩ => exact Fin.ext hk
  have e2 : dot_S50000x300_S300x600_S50000x600_1_0_0_1_n_n.rhsIdx j ((contrEquiv1 dot_S50000x300_S300x600_S50000x600_1_0_0_1_n_n 300 rfl rfl).symm k) = ix2 k (j 1) := by
    funext b
    match b with
    | ⟨0, _⟩ => exact Fin.ext hk
    | ⟨1, _⟩ => rfl
  rw [e1, e2]; rfl

/-- A product of two matrices at an index: row `j 0` of the left factor against column `j 1` of the right. -/
theorem dot2_apply (a : S50000x600.Idx → EReal) (w : S600x300.Idx → EReal) (j : S50000x300.Idx) :
    Host.dotGeneral (F := Ideal) (φ₁ := .f32) (φ₂ := .f32) dot_S50000x600_S600x300_S50000x300_1_0_0_1_n_n none a w j
      = ∑ k : Fin 600, a (ix2 (j 0) k) * w (ix2 k (j 1)) := by
  show FloatOps.dotGeneral (F := Ideal) (φ₁ := .f32) (φ₂ := .f32) dot_S50000x600_S600x300_S50000x300_1_0_0_1_n_n none .single a w j = _
  rw [Ideal.dotGeneral_apply]
  rw [← Equiv.sum_comp (contrEquiv1 dot_S50000x600_S600x300_S50000x300_1_0_0_1_n_n 600 rfl rfl).symm]
  refine Finset.sum_congr rfl fun k _ => ?_
  have hk := contrEquiv1_symm_val dot_S50000x600_S600x300_S50000x300_1_0_0_1_n_n 600 rfl rfl k
  have e1 : dot_S50000x600_S600x300_S50000x300_1_0_0_1_n_n.lhsIdx j ((contrEquiv1 dot_S50000x600_S600x300_S50000x300_1_0_0_1_n_n 600 rfl rfl).symm k) = ix2 (j 0) k := by
    funext b
    match b with
    | ⟨0, _⟩ => rfl
    | ⟨1, _⟩ => exact Fin.ext hk
  have e2 : dot_S50000x600_S600x300_S50000x300_1_0_0_1_n_n.rhsIdx j ((contrEquiv1 dot_S50000x600_S600x300_S50000x300_1_0_0_1_n_n 600 rfl rfl).symm k) = ix2 k (j 1) := by
    funext b
    match b with
    | ⟨0, _⟩ => exact Fin.ext hk
    | ⟨1, _⟩ => rfl
  rw [e1, e2]; rfl

/-- A column sum at an index: the initial value plus the column's entries. -/
theorem reduce0_apply (z : S50000x300.Idx → EReal) (init : S_.Idx → EReal) (k : S300.Idx) :
    Host.reduceAdd (F := Ideal) (φ := .f32) z init reducesTo_S50000x300_S300_d0 h_S_ k
      = init ix0 + ∑ n : Fin 50000, z (ix2 n (k 0)) := by
  rw [hostReduceAdd_apply]
  have hR : S50000x300.Reduces [0] S300 :=
    ⟨reducesTo_S50000x300_S300_d0.1, by decide, reducesTo_S50000x300_S300_d0.2⟩
  rw [Ideal.hostReduceAdd_single reducesTo_S50000x300_S300_d0 hR]
  refine congrArg₂ (fun a b : EReal => a + b) (congrArg init (eq_ix0 _)) ?_
  refine Finset.sum_congr rfl fun n _ => congrArg z ?_
  funext b
  match b with
  | ⟨0, _⟩ => rfl
  | ⟨1, _⟩ => rfl

/-- A vector broadcast along the rows, read at an index: the vector's entry at the column. -/
theorem bcastRow300 (v : S300.Idx → EReal) (j : S50000x300.Idx) :
    broadcastInDim S50000x300 ![0, 1] bcast_S1x300_S50000x300_0_1 (broadcastInDim S1x300 ![1] bcast_S300_S1x300_1 v) j = v (ix1 (j 1)) := by
  refine (broadcastInDim_apply _ _ _ j (ix2 0 (j 1)) (fun a => by
    match a with
    | ⟨0, _⟩ => rfl
    | ⟨1, _⟩ => rfl)).trans ?_
  exact broadcastInDim_apply _ _ _ (ix2 0 (j 1)) (ix1 (j 1)) (fun a => by
    match a with
    | ⟨0, _⟩ => rfl)

/-- A vector broadcast along the rows, read at an index: the vector's entry at the column. -/
theorem bcastRow600 (v : S600.Idx → EReal) (j : S50000x600.Idx) :
    broadcastInDim S50000x600 ![0, 1] bcast_S1x600_S50000x600_0_1 (broadcastInDim S1x600 ![1] bcast_S600_S1x600_1 v) j = v (ix1 (j 1)) := by
  refine (broadcastInDim_apply _ _ _ j (ix2 0 (j 1)) (fun a => by
    match a with
    | ⟨0, _⟩ => rfl
    | ⟨1, _⟩ => rfl)).trans ?_
  exact broadcastInDim_apply _ _ _ (ix2 0 (j 1)) (ix1 (j 1)) (fun a => by
    match a with
    | ⟨0, _⟩ => rfl)

/-! ### The perceptron -/

/-- The reference's two-layer perceptron of `agg + h` is `mlpZ` of `agg` and `h`, the biases as one-row matrices. -/
theorem refMlp_eq (w1 : S300x600.Idx → EReal) (b1 : S600.Idx → EReal) (w2 : S600x300.Idx → EReal) (b2 : S300.Idx → EReal)
    (agg h : S50000x300.Idx → EReal) :
    Hand.refMlp (F := Ideal) w1 b1 w2 b2 (addf (F := Ideal) (φ := .f32) agg h)
      = Cert.Spec.mlpZ agg h w1 (row b1) w2 (row b2) := by
  funext j
  unfold Hand.refMlp Cert.Spec.mlpZ
  rw [addf_apply, dot2_apply, bcastRow300]
  refine congrArg₂ (· + ·) (Finset.sum_congr rfl fun k _ => congrArg (· * w2 (ix2 k (j 1))) ?_) rfl
  rw [maximumf_apply, addf_apply, dot1_apply, bcastRow600, broadcastInDim_scalar_apply, constant_apply,
    Cert.Consts.ofBits_zero]
  unfold Cert.Spec.hid
  refine congrArg (fun t => max t 0) (congrArg₂ (· + ·) (Finset.sum_congr rfl fun k' _ => ?_) rfl)
  rw [addf_apply]

/-! ### The statistics -/

/-- The reference's column mean at an index: the column's sum over the row count. -/
theorem refMean_apply (z : S50000x300.Idx → EReal) (k : S300.Idx) :
    Hand.refMean (F := Ideal) z k = Ideal.div (∑ n : Fin 50000, z (ix2 n (k 0))) Cert.Math.rows := by
  unfold Hand.refMean
  rw [hostDivf_apply, reduce0_apply, constant_apply, Cert.Consts.ofBits_zero, zero_add, broadcastInDim_scalar_apply,
    constant_apply, Cert.Consts.ofBits_50000]

/-- The column mean broadcast back over the rows, as the variance's term spells it. -/
theorem meanBack_apply (z : S50000x300.Idx → EReal) (n : Fin 50000) (c : Fin 300) :
    broadcastInDim S50000x300 ![0, 1] bcast_S1x300_S50000x300_0_1
      (Host.divf (F := Ideal) (φ := .f32) (broadcastInDim S1x300 ![1] bcast_S300_S1x300_1
          (Host.reduceAdd (F := Ideal) (φ := .f32) z (constant S_ .f32 0x00000000#32) reducesTo_S50000x300_S300_d0 h_S_))
        (broadcastInDim S1x300 ![] bcast_S_S1x300 (constant S_ .f32 0x47435000#32))) (ix2 n c)
      = Ideal.div (∑ n : Fin 50000, z (ix2 n c)) Cert.Math.rows := by
  refine (broadcastInDim_apply _ _ _ (ix2 n c) (ix2 0 c) (fun a => by
    match a with
    | ⟨0, _⟩ => rfl
    | ⟨1, _⟩ => rfl)).trans ?_
  rw [hostDivf_apply]
  refine congrArg₂ Ideal.div ?_ ?_
  · refine (broadcastInDim_apply _ _ _ (ix2 0 c) (ix1 c) (fun a => by
      match a with
      | ⟨0, _⟩ => rfl)).trans ?_
    rw [reduce0_apply, constant_apply, Cert.Consts.ofBits_zero, zero_add]
  · rw [broadcastInDim_scalar_apply, constant_apply, Cert.Consts.ofBits_50000]

/-- The reference's column variance at an index: the mean over the rows of the squared distance to the column mean.
    Its guard `50000 - 0 > 0` is set and its divisor `50000 - 0` is the row count. -/
theorem refVar_apply (z : S50000x300.Idx → EReal) (k : S300.Idx) :
    Hand.refVar (F := Ideal) z k
      = Ideal.div (∑ n : Fin 50000, (z (ix2 n (k 0)) - Ideal.div (∑ n : Fin 50000, z (ix2 n (k 0))) Cert.Math.rows)
          * (z (ix2 n (k 0)) - Ideal.div (∑ n : Fin 50000, z (ix2 n (k 0))) Cert.Math.rows)) Cert.Math.rows := by
  unfold Hand.refVar
  rw [select_apply, broadcastInDim_scalar_apply]
  have hc : cmpf (F := Ideal) (φ := .f32) .ogt
      (subf (constant S_ .f32 0x47435000#32) (sitofp .f32 (constantI S_ 32 0#32)))
      (constant S_ .f32 0x00000000#32) ix0 = 1#1 := Cert.Consts.var_guard'
  rw [hc, select_one, hostDivf_apply]
  refine congrArg₂ Ideal.div ?_ ?_
  · rw [reduce0_apply, constant_apply, Cert.Consts.ofBits_zero, zero_add]
    refine Finset.sum_congr rfl fun n _ => ?_
    rw [mulf_apply, subf_apply]
    exact congrArg (fun t : EReal => (z (ix2 n (k 0)) - t) * (z (ix2 n (k 0)) - t)) (meanBack_apply z n (k 0))
  · rw [broadcastInDim_scalar_apply]
    exact Cert.Consts.var_den

/-- The reference's normalisation followed by the clip at zero is `bnRelu` at the column means and the variances taken
    from the deviations, the scale and the shift as one-row matrices; for every array `z`. -/
theorem refBnRelu_eq (gamma beta : S300.Idx → EReal) (z : S50000x300.Idx → EReal) :
    Hand.refRelu (F := Ideal) (Hand.refBn (F := Ideal) gamma beta z)
      = Cert.Spec.bnRelu z (Cert.Math.colMean z) (Cert.Math.varOfDeviations z) (row gamma) (row beta)
          ((Cert.Consts.eps : ℝ) : EReal) := by
  funext j
  unfold Hand.refRelu Hand.refBn Cert.Spec.bnRelu
  rw [maximumf_apply, broadcastInDim_scalar_apply, constant_apply, Cert.Consts.ofBits_zero, addf_apply, mulf_apply,
    mulf_apply, subf_apply, bcastRow300, bcastRow300, bcastRow300, bcastRow300, refMean_apply]
  have hr : Host.rsqrt (F := Ideal) (φ := .f32) (addf (Hand.refVar (F := Ideal) z)
        (broadcastInDim S300 ![] bcast_S_S300 (constant S_ .f32 0x3727C5AC#32))) (ix1 (j 1))
      = Ideal.rsqrt (Cert.Math.varOfDeviations z (ix2 0 (j 1)) + ((Cert.Consts.eps : ℝ) : EReal)) := by
    show Ideal.rsqrt (addf (F := Ideal) (φ := .f32) (Hand.refVar (F := Ideal) z)
        (broadcastInDim S300 ![] bcast_S_S300 (constant S_ .f32 0x3727C5AC#32)) (ix1 (j 1))) = _
    rw [addf_apply, refVar_apply, broadcastInDim_scalar_apply, constant_apply, Cert.Consts.ofBits_eps]
    rfl
  rw [hr]
  rfl

end Cert.ReferenceIdeal.HandV

end
-- ==== Proof.Glue.RBridge.lean ====
/-
  The reference's operands are the kernel's.  Both programs cut layer i's parameters out of the stacked arguments by the
  same slice and reshape, cut the edge list and the edge attributes into the same rows and columns, and run the same
  chain of gathers, sums and one accumulating scatter for the messages; the reference then adds the node's own row.
  Each equation below holds by unfolding the two names: the operations and their static data coincide.
-/
import proofs.«409348_j89627377533173_1_alg».proof.Proof.Ref.Terms
import proofs.«409348_j89627377533173_1_alg».proof.Proof.Glue.Operands

noncomputable section

namespace Cert.ReferenceIdeal.HandV

open Idealize.ShloMosaic
open Cert.ReferenceIdeal
open Cert.KernelIdeal.HandV (MP E1 E2 W1 B1 W2 R300 edgeSrc edgeDst attr0 attr1)

variable {F : FTy → Type} [FloatOps F]

/-! ### The edges -/

theorem refSrc_eq (a9 : (⟨S2x256000, .i32⟩ : BufTy).Contents (Elt F)) : Hand.refSrc a9 = edgeSrc a9 := rfl
theorem refDst_eq (a9 : (⟨S2x256000, .i32⟩ : BufTy).Contents (Elt F)) : Hand.refDst a9 = edgeDst a9 := rfl
theorem refE0_eq (a10 : (⟨S256000x2, .i32⟩ : BufTy).Contents (Elt F)) : Hand.refE0 a10 = attr0 a10 := rfl
theorem refE1_eq (a10 : (⟨S256000x2, .i32⟩ : BufTy).Contents (Elt F)) : Hand.refE1 a10 = attr1 a10 := rfl

/-! ### Layer i's rows of the stacked parameters -/

theorem refEa1_0 (a : (⟨S5x6x300, .f32⟩ : BufTy).Contents (Elt F)) : Hand.refEa1_0 a = E1 0 a := rfl
theorem refEa1_1 (a : (⟨S5x6x300, .f32⟩ : BufTy).Contents (Elt F)) : Hand.refEa1_1 a = E1 1 a := rfl
theorem refEa1_2 (a : (⟨S5x6x300, .f32⟩ : BufTy).Contents (Elt F)) : Hand.refEa1_2 a = E1 2 a := rfl
theorem refEa1_3 (a : (⟨S5x6x300, .f32⟩ : BufTy).Contents (Elt F)) : Hand.refEa1_3 a = E1 3 a := rfl
theorem refEa1_4 (a : (⟨S5x6x300, .f32⟩ : BufTy).Contents (Elt F)) : Hand.refEa1_4 a = E1 4 a := rfl
theorem refEa2_0 (a : (⟨S5x3x300, .f32⟩ : BufTy).Contents (Elt F)) : Hand.refEa2_0 a = E2 0 a := rfl
theorem refEa2_1 (a : (⟨S5x3x300, .f32⟩ : BufTy).Contents (Elt F)) : Hand.refEa2_1 a = E2 1 a := rfl
theorem refEa2_2 (a : (⟨S5x3x300, .f32⟩ : BufTy).Contents (Elt F)) : Hand.refEa2_2 a = E2 2 a := rfl
theorem refEa2_3 (a : (⟨S5x3x300, .f32⟩ : BufTy).Contents (Elt F)) : Hand.refEa2_3 a = E2 3 a := rfl
theorem refEa2_4 (a : (⟨S5x3x300, .f32⟩ : BufTy).Contents (Elt F)) : Hand.refEa2_4 a = E2 4 a := rfl
theorem refW1_0 (a : (⟨S5x300x600, .f32⟩ : BufTy).Contents (Elt F)) : Hand.refW1_0 a = W1 0 a := rfl
theorem refW1_1 (a : (⟨S5x300x600, .f32⟩ : BufTy).Contents (Elt F)) : Hand.refW1_1 a = W1 1 a := rfl
theorem refW1_2 (a : (⟨S5x300x600, .f32⟩ : BufTy).Contents (Elt F)) : Hand.refW1_2 a = W1 2 a := rfl
theorem refW1_3 (a : (⟨S5x300x600, .f32⟩ : BufTy).Contents (Elt F)) : Hand.refW1_3 a = W1 3 a := rfl
theorem refW1_4 (a : (⟨S5x300x600, .f32⟩ : BufTy).Contents (Elt F)) : Hand.refW1_4 a = W1 4 a := rfl
theorem refB1_0 (a : (⟨S5x600, .f32⟩ : BufTy).Contents (Elt F)) : Hand.refB1_0 a = B1 0 a := rfl
theorem refB1_1 (a : (⟨S5x600, .f32⟩ : BufTy).Contents (Elt F)) : Hand.refB1_1 a = B1 1 a := rfl
theorem refB1_2 (a : (⟨S5x600, .f32⟩ : BufTy).Contents (Elt F)) : Hand.refB1_2 a = B1 2 a := rfl
theorem refB1_3 (a : (⟨S5x600, .f32⟩ : BufTy).Contents (Elt F)) : Hand.refB1_3 a = B1 3 a := rfl
theorem refB1_4 (a : (⟨S5x600, .f32⟩ : BufTy).Contents (Elt F)) : Hand.refB1_4 a = B1 4 a := rfl
theorem refW2_0 (a : (⟨S5x600x300, .f32⟩ : BufTy).Contents (Elt F)) : Hand.refW2_0 a = W2 0 a := rfl
theorem refW2_1 (a : (⟨S5x600x300, .f32⟩ : BufTy).Contents (Elt F)) : Hand.refW2_1 a = W2 1 a := rfl
theorem refW2_2 (a : (⟨S5x600x300, .f32⟩ : BufTy).Contents (Elt F)) : Hand.refW2_2 a = W2 2 a := rfl
theorem refW2_3 (a : (⟨S5x600x300, .f32⟩ : BufTy).Contents (Elt F)) : Hand.refW2_3 a = W2 3 a := rfl
theorem refW2_4 (a : (⟨S5x600x300, .f32⟩ : BufTy).Contents (Elt F)) : Hand.refW2_4 a = W2 4 a := rfl
theorem refB2_0 (a : (⟨S5x300, .f32⟩ : BufTy).Contents (Elt F)) : Hand.refB2_0 a = R300 0 a := rfl
theorem refB2_1 (a : (⟨S5x300, .f32⟩ : BufTy).Contents (Elt F)) : Hand.refB2_1 a = R300 1 a := rfl
theorem refB2_2 (a : (⟨S5x300, .f32⟩ : BufTy).Contents (Elt F)) : Hand.refB2_2 a = R300 2 a := rfl
theorem refB2_3 (a : (⟨S5x300, .f32⟩ : BufTy).Contents (Elt F)) : Hand.refB2_3 a = R300 3 a := rfl
theorem refB2_4 (a : (⟨S5x300, .f32⟩ : BufTy).Contents (Elt F)) : Hand.refB2_4 a = R300 4 a := rfl
theorem refGamma_0 (a : (⟨S5x300, .f32⟩ : BufTy).Contents (Elt F)) : Hand.refGamma_0 a = R300 0 a := rfl
theorem refGamma_1 (a : (⟨S5x300, .f32⟩ : BufTy).Contents (Elt F)) : Hand.refGamma_1 a = R300 1 a := rfl
theorem refGamma_2 (a : (⟨S5x300, .f32⟩ : BufTy).Contents (Elt F)) : Hand.refGamma_2 a = R300 2 a := rfl
theorem refGamma_3 (a : (⟨S5x300, .f32⟩ : BufTy).Contents (Elt F)) : Hand.refGamma_3 a = R300 3 a := rfl
theorem refGamma_4 (a : (⟨S5x300, .f32⟩ : BufTy).Contents (Elt F)) : Hand.refGamma_4 a = R300 4 a := rfl
theorem refBeta_0 (a : (⟨S5x300, .f32⟩ : BufTy).Contents (Elt F)) : Hand.refBeta_0 a = R300 0 a := rfl
theorem refBeta_1 (a : (⟨S5x300, .f32⟩ : BufTy).Contents (Elt F)) : Hand.refBeta_1 a = R300 1 a := rfl
theorem refBeta_2 (a : (⟨S5x300, .f32⟩ : BufTy).Contents (Elt F)) : Hand.refBeta_2 a = R300 2 a := rfl
theorem refBeta_3 (a : (⟨S5x300, .f32⟩ : BufTy).Contents (Elt F)) : Hand.refBeta_3 a = R300 3 a := rfl
theorem refBeta_4 (a : (⟨S5x300, .f32⟩ : BufTy).Contents (Elt F)) : Hand.refBeta_4 a = R300 4 a := rfl

/-! ### The messages -/

/-- The reference's aggregation is the shared message passing plus the node's own row. -/
theorem refMsg_eq (ea1 : (⟨S6x300, .f32⟩ : BufTy).Contents (Elt F)) (ea2 : (⟨S3x300, .f32⟩ : BufTy).Contents (Elt F))
    (src dst e0 e1 : (⟨S256000, .i32⟩ : BufTy).Contents (Elt F)) (h : (⟨S50000x300, .f32⟩ : BufTy).Contents (Elt F)) :
    Hand.refMsg ea1 ea2 src dst e0 e1 h = addf (MP h ea1 ea2 src dst e0 e1) h := rfl

end Cert.ReferenceIdeal.HandV

end
-- ==== Proof.Glue.RLayer.lean ====
/-
  One layer of the reference is the shared layer function.  Its aggregation is the shared message passing plus the
  node's own row, its perceptron of that sum is `mlpZ` of the two, and its normalisation followed by the clip at zero is
  `bnRelu` at the column means and the variances taken from the deviations; its operands are the same rows of the
  stacked arguments.  So layer K of the reference, at the launch contents of the parameters, is `layerD … K`: for every
  array of node features, with no condition on its entries.
-/
import proofs.«409348_j89627377533173_1_alg».proof.Proof.Glue.ROps
import proofs.«409348_j89627377533173_1_alg».proof.Proof.Glue.RBridge
import proofs.«409348_j89627377533173_1_alg».proof.Proof.Glue.Layer

set_option synthInstance.maxSize 4096

noncomputable section

namespace Cert.ReferenceIdeal.HandV

open Idealize.ShloMosaic Idealize.ShloMosaic.ValueIdx Idealize.ShloMosaic.TcCoe
open Cert.ReferenceIdeal Cert.ReferenceIdeal.Gen
open Cert.KernelIdeal.HandV (MP row layerD layerZ)

/-- One reference layer over its sliced parameters: the perceptron of the messages and the features, normalised by the
    column means and the deviations' variances, scaled, shifted and clipped at zero. -/
theorem refLayer_eq (ea1 : (⟨S6x300, .f32⟩ : BufTy).Contents (Elt Ideal)) (ea2 : (⟨S3x300, .f32⟩ : BufTy).Contents (Elt Ideal))
    (w1 : (⟨S300x600, .f32⟩ : BufTy).Contents (Elt Ideal)) (b1 : (⟨S600, .f32⟩ : BufTy).Contents (Elt Ideal))
    (w2 : (⟨S600x300, .f32⟩ : BufTy).Contents (Elt Ideal)) (b2 gamma beta : (⟨S300, .f32⟩ : BufTy).Contents (Elt Ideal))
    (src dst e0 e1 : (⟨S256000, .i32⟩ : BufTy).Contents (Elt Ideal)) (h : (⟨S50000x300, .f32⟩ : BufTy).Contents (Elt Ideal)) :
    Hand.refLayer (F := Ideal) ea1 ea2 w1 b1 w2 b2 gamma beta src dst e0 e1 h
      = Cert.Spec.bnRelu (Cert.Spec.mlpZ (MP (F := Ideal) h ea1 ea2 src dst e0 e1) h w1 (row b1) w2 (row b2))
          (Cert.Math.colMean (Cert.Spec.mlpZ (MP (F := Ideal) h ea1 ea2 src dst e0 e1) h w1 (row b1) w2 (row b2)))
          (Cert.Math.varOfDeviations (Cert.Spec.mlpZ (MP (F := Ideal) h ea1 ea2 src dst e0 e1) h w1 (row b1) w2 (row b2)))
          (row gamma) (row beta) ((Cert.Consts.eps : ℝ) : EReal) := by
  unfold Hand.refLayer
  rw [refMsg_eq]
  exact (congrArg (fun t => Hand.refRelu (F := Ideal) (Hand.refBn (F := Ideal) gamma beta t))
    (refMlp_eq w1 b1 w2 b2 (MP (F := Ideal) h ea1 ea2 src dst e0 e1) h)).trans (refBnRelu_eq gamma beta _)

variable (m : (ℓ : Loc nD τ sig) → Buf (Elt Ideal) ℓ) (c : Dev nD)

/-- Layer 0 of the reference at the launch contents of the parameters and the edge arrays. -/
theorem rLayer0 (h : (⟨S50000x300, .f32⟩ : BufTy).Contents (Elt Ideal)) :
    Hand.refLayer0 m c h
      = layerD (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) 0 h := by
  unfold Hand.refLayer0
  exact (refLayer_eq _ _ _ _ _ _ _ _ _ _ _ _ h).trans rfl

/-- Layer 1 of the reference at the launch contents of the parameters and the edge arrays. -/
theorem rLayer1 (h : (⟨S50000x300, .f32⟩ : BufTy).Contents (Elt Ideal)) :
    Hand.refLayer1 m c h
      = layerD (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) 1 h := by
  unfold Hand.refLayer1
  exact (refLayer_eq _ _ _ _ _ _ _ _ _ _ _ _ h).trans rfl

/-- Layer 2 of the reference at the launch contents of the parameters and the edge arrays. -/
theorem rLayer2 (h : (⟨S50000x300, .f32⟩ : BufTy).Contents (Elt Ideal)) :
    Hand.refLayer2 m c h
      = layerD (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) 2 h := by
  unfold Hand.refLayer2
  exact (refLayer_eq _ _ _ _ _ _ _ _ _ _ _ _ h).trans rfl

/-- Layer 3 of the reference at the launch contents of the parameters and the edge arrays. -/
theorem rLayer3 (h : (⟨S50000x300, .f32⟩ : BufTy).Contents (Elt Ideal)) :
    Hand.refLayer3 m c h
      = layerD (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) 3 h := by
  unfold Hand.refLayer3
  exact (refLayer_eq _ _ _ _ _ _ _ _ _ _ _ _ h).trans rfl

/-- Layer 4 of the reference at the launch contents of the parameters and the edge arrays. -/
theorem rLayer4 (h : (⟨S50000x300, .f32⟩ : BufTy).Contents (Elt Ideal)) :
    Hand.refLayer4 m c h
      = layerD (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) 4 h := by
  unfold Hand.refLayer4
  exact (refLayer_eq _ _ _ _ _ _ _ _ _ _ _ _ h).trans rfl

end Cert.ReferenceIdeal.HandV

end
-- ==== Proof.Math.Scatter.lean ====
/-
  The host's accumulating scatter, for the two index patterns of the pool.  A rank-1 scatter of 50000 row ids into
  512 rows sends update (n, c) to (id n, c) when the id, read signed, lies in 0..511, and drops it otherwise; so the
  scatter of the rows of h is the per-graph sum of rows, and the scatter of ones is the per-graph count.
  Stated for any dimension record with the given attribute lists, so no program is imported.
-/
import proofs.«409348_j89627377533173_1_alg».proof.Proof.Math.Pool

noncomputable section

open scoped BigOperators

namespace Cert.Math

open Idealize.ShloMosaic Idealize.ShloMosaic.ValueIdx Cert.Spec

/-- graphs -/
abbrev SG : Shape := ⟨1, ![512]⟩
/-- nodes -/
abbrev SN : Shape := ⟨1, ![50000]⟩

/-- A 32-bit word read signed is the number g < 512 exactly when it is the word of g. -/
theorem toInt_eq_iff (b : BitVec 32) (g : Fin 512) : b.toInt = (g.val : Int) ↔ b = BitVec.ofNat 32 g.val := by
  have hg := g.isLt
  constructor
  · intro h
    apply BitVec.eq_of_toNat_eq
    rw [BitVec.toInt_eq_toNat_cond] at h
    rw [BitVec.toNat_ofNat]
    have hb := b.isLt
    split at h <;> omega
  · rintro rfl
    rw [BitVec.toInt_eq_toNat_cond, BitVec.toNat_ofNat]
    have : g.val % 2 ^ 32 = g.val := Nat.mod_eq_of_lt (by omega)
    rw [this, if_pos (by omega)]

section Rows
variable (d : ScatterDims SGE SN1 SNE) (h1 : d.updateWindowDims = [1]) (h2 : d.insertedWindowDims = [0])
  (h3 : d.scatterDimsToOperandDims = [0]) (h4 : d.indexVectorDim = 1)
include h1 h2 h3 h4

theorem rows_start0 (idx : IVec SN1 32) (n : Fin 50000) (c : Fin 300) :
    d.start (ix2 n c) idx 0 = (idx (ix2 n 0)).toInt := by
  obtain ⟨uw, iw, sd, iv, wf⟩ := d
  obtain rfl : uw = [1] := h1
  obtain rfl : iw = [0] := h2
  obtain rfl : sd = [0] := h3
  obtain rfl : iv = 1 := h4
  unfold ScatterDims.start
  rw [dif_pos (show (0 : Fin SGE.rank) ∈ ([0] : List (Fin SGE.rank)) by decide)]
  congr 2
  funext b
  match b with
  | ⟨0, _⟩ => rfl
  | ⟨1, _⟩ => rfl

theorem rows_start1 (idx : IVec SN1 32) (n : Fin 50000) (c : Fin 300) : d.start (ix2 n c) idx 1 = 0 := by
  obtain ⟨uw, iw, sd, iv, wf⟩ := d
  obtain rfl : uw = [1] := h1
  obtain rfl : iw = [0] := h2
  obtain rfl : sd = [0] := h3
  obtain rfl : iv = 1 := h4
  unfold ScatterDims.start
  rw [dif_neg (show ¬ (1 : Fin SGE.rank) ∈ ([0] : List (Fin SGE.rank)) by decide)]

theorem rows_window0 (n : Fin 50000) (c : Fin 300) : d.window (ix2 n c) 0 = 0 := by
  obtain ⟨uw, iw, sd, iv, wf⟩ := d
  obtain rfl : uw = [1] := h1
  obtain rfl : iw = [0] := h2
  obtain rfl : sd = [0] := h3
  obtain rfl : iv = 1 := h4
  unfold ScatterDims.window
  rw [dif_neg (show ¬ (0 : Fin SGE.rank) ∈ SGE.kept [0] by decide)]

theorem rows_window1 (n : Fin 50000) (c : Fin 300) : d.window (ix2 n c) 1 = c.val := by
  obtain ⟨uw, iw, sd, iv, wf⟩ := d
  obtain rfl : uw = [1] := h1
  obtain rfl : iw = [0] := h2
  obtain rfl : sd = [0] := h3
  obtain rfl : iv = 1 := h4
  unfold ScatterDims.window
  rw [dif_pos (show (1 : Fin SGE.rank) ∈ SGE.kept [0] by decide)]
  rfl

/-- Where update (n, c) of the row scatter lands: at (g, c) exactly when row n's id word is g and the columns agree. -/
theorem resultIdx_rows (idx : IVec SN1 32) (n : Fin 50000) (c : Fin 300) (i : SGE.Idx) :
    d.resultIdx? (ix2 n c) idx = some i ↔ idx (ix2 n 0) = BitVec.ofNat 32 (i 0).val ∧ c = i 1 := by
  have s0 := rows_start0 d h1 h2 h3 h4 idx n c
  have s1 := rows_start1 d h1 h2 h3 h4 idx n c
  have w0 := rows_window0 d h1 h2 h3 h4 n c
  have w1 := rows_window1 d h1 h2 h3 h4 n c
  have hi0 : (i 0).val < 512 := (i 0).isLt
  have hi1 : (i 1).val < 300 := (i 1).isLt
  have hc := c.isLt
  have hsz0 : SGE.size 0 = 512 := rfl
  have hsz1 : SGE.size 1 = 300 := rfl
  have key := toInt_eq_iff (idx (ix2 n 0)) (i 0)
  have key1 : c = i 1 ↔ c.val = (i 1).val := Fin.ext_iff
  refine Iff.trans ?_ (and_congr key key1.symm)
  unfold ScatterDims.resultIdx?
  constructor
  · intro h
    split at h
    · rename_i hall
      have hi := Option.some.inj h
      have e0 : (d.start (ix2 n c) idx 0 + (d.window (ix2 n c) 0 : Int)).toNat = (i 0).val :=
        congrArg Fin.val (congrFun hi 0)
      have e1 : (d.start (ix2 n c) idx 1 + (d.window (ix2 n c) 1 : Int)).toNat = (i 1).val :=
        congrArg Fin.val (congrFun hi 1)
      have a0 := (hall 0).1
      rw [s0, w0] at e0 a0
      rw [s1, w1] at e1
      exact ⟨by omega, by omega⟩
    · exact absurd h (by simp)
  · rintro ⟨hb, hcv⟩
    have hall : ∀ a, 0 ≤ d.start (ix2 n c) idx a + (d.window (ix2 n c) a : Int) ∧
        d.start (ix2 n c) idx a + (d.window (ix2 n c) a : Int) < SGE.size a := by
      intro a
      match a with
      | ⟨0, _⟩ =>
        show 0 ≤ d.start (ix2 n c) idx 0 + (d.window (ix2 n c) 0 : Int) ∧
          d.start (ix2 n c) idx 0 + (d.window (ix2 n c) 0 : Int) < SGE.size 0
        rw [s0, w0, hb, hsz0]; omega
      | ⟨1, _⟩ =>
        show 0 ≤ d.start (ix2 n c) idx 1 + (d.window (ix2 n c) 1 : Int) ∧
          d.start (ix2 n c) idx 1 + (d.window (ix2 n c) 1 : Int) < SGE.size 1
        rw [s1, w1, hsz1]; omega
    rw [dif_pos hall]
    congr 1
    funext a
    match a with
    | ⟨0, _⟩ =>
      apply Fin.ext
      show (d.start (ix2 n c) idx 0 + (d.window (ix2 n c) 0 : Int)).toNat = (i 0).val
      rw [s0, w0, hb]; omega
    | ⟨1, _⟩ =>
      apply Fin.ext
      show (d.start (ix2 n c) idx 1 + (d.window (ix2 n c) 1 : Int)).toNat = (i 1).val
      rw [s1, w1]; omega

end Rows

/-- The row scatter adds to each (g, c) the pooled row of graph g at column c. -/
theorem hostScatterAdd_rows (d : ScatterDims SGE SN1 SNE) (h1 : d.updateWindowDims = [1]) (h2 : d.insertedWindowDims = [0])
    (h3 : d.scatterDimsToOperandDims = [0]) (h4 : d.indexVectorDim = 1) (x : SGE.Idx → EReal) (idx : IVec SN1 32)
    (upd : SNE.Idx → EReal) :
    Ideal.hostScatterAdd d x idx upd = fun i => x i + poolSums upd idx i := by
  funext i
  unfold Ideal.hostScatterAdd
  refine congrArg (fun t => x i + t) ?_
  rw [poolSums_eq_sum_rowsOf]
  symm
  refine Finset.sum_bij (fun n _ => ix2 n (i 1)) ?_ ?_ ?_ ?_
  · intro n hn
    rw [Finset.mem_filter]
    exact ⟨Finset.mem_univ _, (resultIdx_rows d h1 h2 h3 h4 idx n (i 1) i).2 ⟨(mem_rowsOf idx (i 0) n).1 hn, rfl⟩⟩
  · intro a _ b _ hab
    exact congrFun hab 0
  · intro j hj
    rw [Finset.mem_filter] at hj
    have hj' := hj.2
    rw [eq_ix2 j] at hj'
    obtain ⟨hb, hc⟩ := (resultIdx_rows d h1 h2 h3 h4 idx (j 0) (j 1) i).1 hj'
    refine ⟨j 0, (mem_rowsOf idx (i 0) (j 0)).2 hb, ?_⟩
    rw [eq_ix2 j]
    exact congrArg (ix2 (j 0)) hc.symm
  · intro n _
    rfl

section Count
variable (d : ScatterDims SG SN1 SN) (h1 : d.updateWindowDims = []) (h2 : d.insertedWindowDims = [0])
  (h3 : d.scatterDimsToOperandDims = [0]) (h4 : d.indexVectorDim = 1)
include h1 h2 h3 h4

theorem count_start0 (idx : IVec SN1 32) (n : Fin 50000) : d.start (ix1 n) idx 0 = (idx (ix2 n 0)).toInt := by
  obtain ⟨uw, iw, sd, iv, wf⟩ := d
  obtain rfl : uw = [] := h1
  obtain rfl : iw = [0] := h2
  obtain rfl : sd = [0] := h3
  obtain rfl : iv = 1 := h4
  unfold ScatterDims.start
  rw [dif_pos (show (0 : Fin SG.rank) ∈ ([0] : List (Fin SG.rank)) by decide)]
  congr 2
  funext b
  match b with
  | ⟨0, _⟩ => rfl
  | ⟨1, _⟩ => rfl

theorem count_window0 (n : Fin 50000) : d.window (ix1 n) 0 = 0 := by
  obtain ⟨uw, iw, sd, iv, wf⟩ := d
  obtain rfl : uw = [] := h1
  obtain rfl : iw = [0] := h2
  obtain rfl : sd = [0] := h3
  obtain rfl : iv = 1 := h4
  unfold ScatterDims.window
  rw [dif_neg (show ¬ (0 : Fin SG.rank) ∈ SG.kept [0] by decide)]

/-- Where update n of the count scatter lands: at g exactly when row n's id word is g. -/
theorem resultIdx_count (idx : IVec SN1 32) (n : Fin 50000) (i : SG.Idx) :
    d.resultIdx? (ix1 n) idx = some i ↔ idx (ix2 n 0) = BitVec.ofNat 32 (i 0).val := by
  have s0 := count_start0 d h1 h2 h3 h4 idx n
  have w0 := count_window0 d h1 h2 h3 h4 n
  have hi0 : (i 0).val < 512 := (i 0).isLt
  have hsz0 : SG.size 0 = 512 := rfl
  have key := toInt_eq_iff (idx (ix2 n 0)) (i 0)
  refine Iff.trans ?_ key
  unfold ScatterDims.resultIdx?
  constructor
  · intro h
    split at h
    · rename_i hall
      have hi := Option.some.inj h
      have e0 : (d.start (ix1 n) idx 0 + (d.window (ix1 n) 0 : Int)).toNat = (i 0).val :=
        congrArg Fin.val (congrFun hi 0)
      have a0 := (hall 0).1
      rw [s0, w0] at e0 a0
      omega
    · exact absurd h (by simp)
  · intro hb
    have hall : ∀ a, 0 ≤ d.start (ix1 n) idx a + (d.window (ix1 n) a : Int) ∧
        d.start (ix1 n) idx a + (d.window (ix1 n) a : Int) < SG.size a := by
      intro a
      match a with
      | ⟨0, _⟩ =>
        show 0 ≤ d.start (ix1 n) idx 0 + (d.window (ix1 n) 0 : Int) ∧
          d.start (ix1 n) idx 0 + (d.window (ix1 n) 0 : Int) < SG.size 0
        rw [s0, w0, hb, hsz0]; omega
    rw [dif_pos hall]
    congr 1
    funext a
    match a with
    | ⟨0, _⟩ =>
      apply Fin.ext
      show (d.start (ix1 n) idx 0 + (d.window (ix1 n) 0 : Int)).toNat = (i 0).val
      rw [s0, w0, hb]; omega

/-- The count scatter adds to each g the sum of the updates of graph g's rows. -/
theorem hostScatterAdd_count (x : SG.Idx → EReal) (idx : IVec SN1 32) (upd : SN.Idx → EReal) :
    Ideal.hostScatterAdd d x idx upd = fun i => x i + ∑ n ∈ rowsOf idx (i 0), upd (ix1 n) := by
  funext i
  unfold Ideal.hostScatterAdd
  refine congrArg (fun t => x i + t) ?_
  symm
  refine Finset.sum_bij (fun n _ => ix1 n) ?_ ?_ ?_ ?_
  · intro n hn
    rw [Finset.mem_filter]
    exact ⟨Finset.mem_univ _, (resultIdx_count d h1 h2 h3 h4 idx n i).2 ((mem_rowsOf idx (i 0) n).1 hn)⟩
  · intro a _ b _ hab
    exact congrFun hab 0
  · intro j hj
    rw [Finset.mem_filter] at hj
    have hj' := hj.2
    rw [eq_ix1 j] at hj'
    exact ⟨j 0, (mem_rowsOf idx (i 0) (j 0)).2 ((resultIdx_count d h1 h2 h3 h4 idx (j 0) i).1 hj'), (eq_ix1 j).symm⟩
  · intro n _
    rfl

/-- With every update 1, the count scatter adds the number of the graph's rows. -/
theorem hostScatterAdd_count_ones (x : SG.Idx → EReal) (idx : IVec SN1 32) :
    Ideal.hostScatterAdd d x idx (fun _ => 1) = fun i => x i + poolCounts idx (ix2 (i 0) 0) := by
  rw [hostScatterAdd_count d h1 h2 h3 h4]
  funext i
  refine congrArg (fun t => x i + t) ?_
  rw [poolCounts_eq_card, Finset.sum_const, nsmul_one]

end Count

end Cert.Math

end
-- ==== Proof.Glue.RPool.lean ====
import proofs.«409348_j89627377533173_1_alg».proof.Proof.Ref.Terms
import proofs.«409348_j89627377533173_1_alg».proof.Proof.Math.Scatter
import proofs.«409348_j89627377533173_1_alg».proof.Proof.Glue.Layer
import Idealize.ShloMosaic.Lib.IdealHost
import Idealize.ShloMosaic.Lib.Pipeline.Value
import Idealize.ShloMosaic.Lib.ValueIdx

/-! # The reference's mean pool, over the extended reals

The reference scatters the rows of the last layer's output into 512 zero rows by the graph ids, scatters ones into 512
zero counts by the same ids, and divides each summed row by the larger of its count and one. Read at the ideal instance
the two scatters are the per-graph sum of rows and the per-graph number of rows, so the result is the same function of
the ids and the rows as the kernel's pool. The reference makes its column of ids by broadcasting the ids along a new
trailing axis and the kernel by reshaping them; both put the id of row `n` at `(n, 0)`. -/

noncomputable section

namespace Cert.ReferenceIdeal.HandV

open Cert.ReferenceIdeal Cert.ReferenceIdeal.Gen
open Idealize.ShloMosaic Idealize.ShloMosaic.ValueIdx
open Cert.KernelIdeal.HandV (batchCol poolOut)

/-! ## The column of graph ids -/

/-- The ids broadcast along a new trailing axis are the ids reshaped to a column: at `(n, 0)` both read the id of row `n`. -/
theorem refBatchCol_eq (b : (⟨S50000, .i32⟩ : BufTy).Contents (Elt Ideal)) :
    broadcastInDim S50000x1 ![0] bcast_S50000_S50000x1_0 b = batchCol b := by
  funext j
  unfold Cert.KernelIdeal.HandV.batchCol
  have hj : (j 1).val < 1 := (j 1).isLt
  refine (broadcastInDim_apply _ _ b j (ix1 (j 0) : S50000.Idx) (fun a => by match a with | ⟨0, _⟩ => rfl)).trans ?_
  refine (shapeCast_apply b _ j (ix1 (j 0) : S50000.Idx) ?_).symm
  rw [Shape.rowMajor_val_one, Shape.rowMajor_val_two]
  show (j 0).val = (j 0).val * 1 + (j 1).val
  omega

/-- The same equation with the reshape spelt out, in the kernel program's names. -/
theorem refBatchCol_eq_shapeCast (b : (⟨S50000, .i32⟩ : BufTy).Contents (Elt Ideal)) :
    broadcastInDim S50000x1 ![0] bcast_S50000_S50000x1_0 b
      = shapeCast Cert.KernelIdeal.S50000x1 b Cert.KernelIdeal.Gen.shapeCasts_S50000_S50000x1 :=
  refBatchCol_eq b

/-! ## The two scatters -/

/-- A one broadcast over the rows is the constant one. -/
theorem ones_eq : broadcastInDim S50000 ![] bcast_S_S50000 (constant (F := Ideal) S_ .f32 0x3F800000#32) = fun _ => (1 : EReal) := by
  funext n
  rw [broadcastInDim_scalar_apply, constant_apply, Cert.Consts.ofBits_one]

/-- The scatter of the rows into zero rows is the per-graph sum of rows. -/
theorem refPoolSums_eq (b : (⟨S50000, .i32⟩ : BufTy).Contents (Elt Ideal)) (h : (⟨S50000x300, .f32⟩ : BufTy).Contents (Elt Ideal)) :
    Hand.refPoolSums (F := Ideal) b h = Cert.Spec.poolSums h (batchCol b) := by
  unfold Hand.refPoolSums
  rw [refBatchCol_eq]
  refine (Cert.Math.hostScatterAdd_rows scatter_S512x300_S50000x1_S50000x300_1_0_0_1 rfl rfl rfl rfl _ _ _).trans ?_
  funext i
  show broadcastInDim S512x300 ![] bcast_S_S512x300 (constant (F := Ideal) S_ .f32 0x00000000#32) i + _ = _
  rw [broadcastInDim_scalar_apply, constant_apply, Cert.Consts.ofBits_zero, zero_add]

/-- The scatter of ones into zero counts is the per-graph number of rows. -/
theorem refPoolCounts_eq (b : (⟨S50000, .i32⟩ : BufTy).Contents (Elt Ideal)) :
    Hand.refPoolCounts (F := Ideal) b = fun i : Cert.Math.SG.Idx => Cert.Spec.poolCounts (batchCol b) (ix2 (i 0) 0) := by
  unfold Hand.refPoolCounts
  rw [refBatchCol_eq, ones_eq]
  refine (Cert.Math.hostScatterAdd_count_ones scatter_S512_S50000x1_S50000_n_0_0_1 rfl rfl rfl rfl _ _).trans ?_
  funext i
  show broadcastInDim S512 ![] bcast_S_S512 (constant (F := Ideal) S_ .f32 0x00000000#32) i + _ = _
  rw [broadcastInDim_scalar_apply, constant_apply, Cert.Consts.ofBits_zero, zero_add]

/-! ## The pool -/

/-- The reference's pool is the mean pool of the rows by the column of ids. -/
theorem refPool_eq (b : (⟨S50000, .i32⟩ : BufTy).Contents (Elt Ideal)) (h : (⟨S50000x300, .f32⟩ : BufTy).Contents (Elt Ideal)) :
    Hand.refPool (F := Ideal) b h = poolOut b h := by
  funext j
  unfold Hand.refPool Cert.KernelIdeal.HandV.poolOut
  rw [hostDivf_apply, refPoolSums_eq]
  refine congrArg (Ideal.div _) ?_
  refine (broadcastInDim_apply _ _ _ j (ix2 (j 0) 0 : S512x1.Idx) (fun a => by match a with | ⟨0, _⟩ => rfl | ⟨1, _⟩ => rfl)).trans ?_
  refine (broadcastInDim_apply _ _ _ (ix2 (j 0) 0 : S512x1.Idx) (ix1 (j 0) : S512.Idx) (fun a => by match a with | ⟨0, _⟩ => rfl)).trans ?_
  rw [maximumf_apply, refPoolCounts_eq, broadcastInDim_scalar_apply, constant_apply, Cert.Consts.ofBits_one]

/-- At graph `g` and column `d`: the graph's summed rows there over the larger of its row count and one — the right-hand
    side the kernel's tail has at the same index. -/
theorem refPool_ix2 (b : (⟨S50000, .i32⟩ : BufTy).Contents (Elt Ideal)) (h : (⟨S50000x300, .f32⟩ : BufTy).Contents (Elt Ideal))
    (g : Fin 512) (d : Fin 300) :
    Hand.refPool (F := Ideal) b h (ix2 g d)
      = Ideal.div (Cert.Spec.poolSums h (batchCol b) (ix2 g d)) (max (Cert.Spec.poolCounts (batchCol b) (ix2 g 0)) 1) := by
  rw [refPool_eq]
  rfl

end Cert.ReferenceIdeal.HandV
-- ==== Proof.Math.HostReal.lean ====
/-
  Real-valuedness through the host's data movement: a gather reads entries of its operand, an accumulating scatter
  adds finitely many update entries to an operand entry, an elementwise sum adds two entries.  So the message-passing
  stretch (gathers, sums, one accumulating scatter into zeros) maps real arrays to a real array.
-/
import proofs.«409348_j89627377533173_1_alg».proof.Proof.Math.Real

noncomputable section

open scoped BigOperators

namespace Cert.Math

open Idealize.ShloMosaic Idealize.ShloMosaic.ValueIdx Cert.Spec

variable {s si t u : Shape} {w : Nat}

theorem isReal_gather (d : GatherDims s si t) {x : s.Idx → EReal} (hx : IsReal x) (idx : IVec si w) :
    IsReal (Host.gather d x idx) :=
  fun j => hx _

theorem isReal_hostScatterAdd (d : ScatterDims s si u) {x : s.Idx → EReal} (hx : IsReal x) (idx : IVec si w)
    {upd : u.Idx → EReal} (hupd : IsReal upd) : IsReal (Ideal.hostScatterAdd d x idx upd) :=
  fun i => real_add (hx i) (real_sum _ _ fun j _ => hupd j)

theorem isReal_add {x y : s.Idx → EReal} (hx : IsReal x) (hy : IsReal y) : IsReal (fun i => x i + y i) :=
  fun i => real_add (hx i) (hy i)

theorem isReal_zero : IsReal (fun _ : s.Idx => (0 : EReal)) := fun _ => ⟨0, rfl⟩

theorem isReal_const (r : ℝ) : IsReal (fun _ : s.Idx => (r : EReal)) := fun _ => ⟨r, rfl⟩

/-- Reading a real array through any index map gives a real array (slices, reshapes, broadcasts). -/
theorem isReal_comp {x : s.Idx → EReal} (hx : IsReal x) (f : t.Idx → s.Idx) : IsReal (fun j => x (f j)) :=
  fun j => hx (f j)

end Cert.Math

end
-- ==== Proof.Glue.MPReal.lean ====
/-
  Message passing and the layer's operands keep real entries real.

  The aggregated messages are an accumulating scatter, into zeros, of sums of three gathers; a gather reads entries,
  the scatter adds finitely many of them.  A layer's operands are slices and reshapes of the stacked arguments, which
  read entries too.
-/
import proofs.«409348_j89627377533173_1_alg».proof.Proof.Glue.Operands
import proofs.«409348_j89627377533173_1_alg».proof.Proof.Math.HostReal
import proofs.«409348_j89627377533173_1_alg».proof.Proof.Consts

noncomputable section

namespace Cert.KernelIdeal.HandV

open Idealize.ShloMosaic Idealize.ShloMosaic.ValueIdx
open Cert.KernelIdeal Cert.KernelIdeal.Gen
open Cert.Math

/-- The aggregated messages of real features and real embedding tables are real, whatever the index vectors. -/
theorem isReal_MP {h : (⟨S50000x300, .f32⟩ : BufTy).Contents (Elt Ideal)}
    {e1 : (⟨S6x300, .f32⟩ : BufTy).Contents (Elt Ideal)} {e2 : (⟨S3x300, .f32⟩ : BufTy).Contents (Elt Ideal)}
    (hh : IsReal h) (he1 : IsReal e1) (he2 : IsReal e2)
    (src dst a0 a1 : (⟨S256000, .i32⟩ : BufTy).Contents (Elt Ideal)) :
    IsReal (MP (F := Ideal) h e1 e2 src dst a0 a1) := by
  unfold MP
  refine isReal_hostScatterAdd _ (fun i => ⟨0, ?_⟩) _ (fun j => real_add (hh _) (real_add (he1 _) (he2 _)))
  show Ideal.ofBits .f32 0x00000000#32 = ((0 : ℝ) : EReal)
  rw [Cert.Consts.ofBits_zero]; rfl

/-! ### The operands -/

theorem isReal_row {n : Nat} {v : (⟨1, ![n]⟩ : Shape).Idx → EReal} (hv : IsReal v) : IsReal (row v) :=
  fun j => hv _

theorem isReal_E1 (i : Fin 5) {x : (⟨S5x6x300, .f32⟩ : BufTy).Contents (Elt Ideal)} (hx : IsReal x) :
    IsReal (E1 (F := Ideal) i x) := fun j => hx _
theorem isReal_E2 (i : Fin 5) {x : (⟨S5x3x300, .f32⟩ : BufTy).Contents (Elt Ideal)} (hx : IsReal x) :
    IsReal (E2 (F := Ideal) i x) := fun j => hx _
theorem isReal_W1 (i : Fin 5) {x : (⟨S5x300x600, .f32⟩ : BufTy).Contents (Elt Ideal)} (hx : IsReal x) :
    IsReal (W1 (F := Ideal) i x) := fun j => hx _
theorem isReal_B1 (i : Fin 5) {x : (⟨S5x600, .f32⟩ : BufTy).Contents (Elt Ideal)} (hx : IsReal x) :
    IsReal (B1 (F := Ideal) i x) := fun j => hx _
theorem isReal_W2 (i : Fin 5) {x : (⟨S5x600x300, .f32⟩ : BufTy).Contents (Elt Ideal)} (hx : IsReal x) :
    IsReal (W2 (F := Ideal) i x) := fun j => hx _
theorem isReal_R300 (i : Fin 5) {x : (⟨S5x300, .f32⟩ : BufTy).Contents (Elt Ideal)} (hx : IsReal x) :
    IsReal (R300 (F := Ideal) i x) := fun j => hx _

end Cert.KernelIdeal.HandV

end
-- ==== Proof.Glue.LayerReal.lean ====
/-
  The layers keep real entries real: with real stacked arguments, real features give a real pre-normalisation array
  (message passing, the perceptron), and normalising a real array by its own column statistics with a positive
  stabiliser gives a real array again.  So the features are real after every layer, and on real features the two
  readings of a layer agree.
-/
import proofs.«409348_j89627377533173_1_alg».proof.Proof.Glue.Layer
import proofs.«409348_j89627377533173_1_alg».proof.Proof.Glue.MPReal

noncomputable section

namespace Cert.KernelIdeal.HandV

open Idealize.ShloMosaic Idealize.ShloMosaic.ValueIdx
open Cert.KernelIdeal Cert.KernelIdeal.Gen
open Cert.Math

section Layer

variable {a1 : (⟨S5x6x300, .f32⟩ : BufTy).Contents (Elt Ideal)} {a2 : (⟨S5x3x300, .f32⟩ : BufTy).Contents (Elt Ideal)}
  {a3 : (⟨S5x300x600, .f32⟩ : BufTy).Contents (Elt Ideal)} {a4 : (⟨S5x600, .f32⟩ : BufTy).Contents (Elt Ideal)}
  {a5 : (⟨S5x600x300, .f32⟩ : BufTy).Contents (Elt Ideal)} {a6 a7 a8 : (⟨S5x300, .f32⟩ : BufTy).Contents (Elt Ideal)}
  {a9 : (⟨S2x256000, .i32⟩ : BufTy).Contents (Elt Ideal)} {a10 : (⟨S256000x2, .i32⟩ : BufTy).Contents (Elt Ideal)}
  (h1 : IsReal a1) (h2 : IsReal a2) (h3 : IsReal a3) (h4 : IsReal a4) (h5 : IsReal a5) (h6 : IsReal a6)
  (h7 : IsReal a7) (h8 : IsReal a8)

include h1 h2 h3 h4 h5 h6 in
/-- The pre-normalisation array of real features is real. -/
theorem isReal_layerZ (i : Fin 5) {h : (⟨S50000x300, .f32⟩ : BufTy).Contents (Elt Ideal)} (hh : IsReal h) :
    IsReal (layerZ a1 a2 a3 a4 a5 a6 a9 a10 i h) :=
  isReal_mlpZ (isReal_MP hh (isReal_E1 i h1) (isReal_E2 i h2) _ _ _ _) hh (isReal_W1 i h3)
    (isReal_row (isReal_B1 i h4)) (isReal_W2 i h5) (isReal_row (isReal_R300 i h6))

/-- The stabiliser is a positive real. -/
theorem eps_real : ∃ e : ℝ, 0 < e ∧ ((Cert.Consts.eps : ℝ) : EReal) = (e : EReal) :=
  ⟨Cert.Consts.eps, Cert.Consts.eps_pos, rfl⟩

include h1 h2 h3 h4 h5 h6 h7 h8 in
/-- A layer (variance from the moments) maps real features to real features. -/
theorem isReal_layerM (i : Fin 5) {h : (⟨S50000x300, .f32⟩ : BufTy).Contents (Elt Ideal)} (hh : IsReal h) :
    IsReal (layerM a1 a2 a3 a4 a5 a6 a7 a8 a9 a10 i h) :=
  isReal_layer_moments (isReal_layerZ h1 h2 h3 h4 h5 h6 i hh) (isReal_row (isReal_R300 i h7))
    (isReal_row (isReal_R300 i h8)) eps_real

include h1 h2 h3 h4 h5 h6 h7 h8 in
/-- A layer (variance from the deviations) maps real features to real features. -/
theorem isReal_layerD (i : Fin 5) {h : (⟨S50000x300, .f32⟩ : BufTy).Contents (Elt Ideal)} (hh : IsReal h) :
    IsReal (layerD a1 a2 a3 a4 a5 a6 a7 a8 a9 a10 i h) :=
  isReal_layer (isReal_layerZ h1 h2 h3 h4 h5 h6 i hh) (isReal_row (isReal_R300 i h7))
    (isReal_row (isReal_R300 i h8)) eps_real

include h1 h2 h3 h4 h5 h6 in
/-- On real features the two readings of a layer are the same array. -/
theorem layerM_eq_layerD_of_real (i : Fin 5) {h : (⟨S50000x300, .f32⟩ : BufTy).Contents (Elt Ideal)} (hh : IsReal h) :
    layerM a1 a2 a3 a4 a5 a6 a7 a8 a9 a10 i h = layerD a1 a2 a3 a4 a5 a6 a7 a8 a9 a10 i h :=
  layerM_eq_layerD a1 a2 a3 a4 a5 a6 a7 a8 a9 a10 i h (isReal_layerZ h1 h2 h3 h4 h5 h6 i hh)

variable {x : (⟨S50000x300, .f32⟩ : BufTy).Contents (Elt Ideal)} (hx : IsReal x)

include hx in
theorem isReal_kH0 : IsReal (kH0 x) := hx

include h1 h2 h3 h4 h5 h6 h7 h8 hx in
theorem isReal_kH1 : IsReal (kH1 a1 a2 a3 a4 a5 a6 a7 a8 a9 a10 x) :=
  isReal_layerM h1 h2 h3 h4 h5 h6 h7 h8 0 (isReal_kH0 hx)

include h1 h2 h3 h4 h5 h6 h7 h8 hx in
theorem isReal_kH2 : IsReal (kH2 a1 a2 a3 a4 a5 a6 a7 a8 a9 a10 x) :=
  isReal_layerM h1 h2 h3 h4 h5 h6 h7 h8 1 (isReal_kH1 h1 h2 h3 h4 h5 h6 h7 h8 hx)

include h1 h2 h3 h4 h5 h6 h7 h8 hx in
theorem isReal_kH3 : IsReal (kH3 a1 a2 a3 a4 a5 a6 a7 a8 a9 a10 x) :=
  isReal_layerM h1 h2 h3 h4 h5 h6 h7 h8 2 (isReal_kH2 h1 h2 h3 h4 h5 h6 h7 h8 hx)

include h1 h2 h3 h4 h5 h6 h7 h8 hx in
theorem isReal_kH4 : IsReal (kH4 a1 a2 a3 a4 a5 a6 a7 a8 a9 a10 x) :=
  isReal_layerM h1 h2 h3 h4 h5 h6 h7 h8 3 (isReal_kH3 h1 h2 h3 h4 h5 h6 h7 h8 hx)

include h1 h2 h3 h4 h5 h6 h7 h8 hx in
theorem isReal_kH5 : IsReal (kH5 a1 a2 a3 a4 a5 a6 a7 a8 a9 a10 x) :=
  isReal_layerM h1 h2 h3 h4 h5 h6 h7 h8 4 (isReal_kH4 h1 h2 h3 h4 h5 h6 h7 h8 hx)

end Layer

end Cert.KernelIdeal.HandV

end
-- ==== Proof.Glue.Chain.lean ====
/-
  The five layers in the reference's reading are the five layers in the kernel's.  Starting from real node features
  and real parameters every layer's pre-normalisation array is real, so at every layer the variance taken from the
  deviations is the variance taken from the moments, and the layer's output is real again.
-/
import proofs.«409348_j89627377533173_1_alg».proof.Proof.Glue.Layer
import proofs.«409348_j89627377533173_1_alg».proof.Proof.Glue.LayerReal

noncomputable section

namespace Cert.KernelIdeal.HandV

open Idealize.ShloMosaic Idealize.ShloMosaic.ValueIdx
open Cert.KernelIdeal Cert.KernelIdeal.Gen Cert.Math

variable (a1 : (⟨S5x6x300, .f32⟩ : BufTy).Contents (Elt Ideal)) (a2 : (⟨S5x3x300, .f32⟩ : BufTy).Contents (Elt Ideal))
  (a3 : (⟨S5x300x600, .f32⟩ : BufTy).Contents (Elt Ideal)) (a4 : (⟨S5x600, .f32⟩ : BufTy).Contents (Elt Ideal))
  (a5 : (⟨S5x600x300, .f32⟩ : BufTy).Contents (Elt Ideal)) (a6 a7 a8 : (⟨S5x300, .f32⟩ : BufTy).Contents (Elt Ideal))
  (a9 : (⟨S2x256000, .i32⟩ : BufTy).Contents (Elt Ideal)) (a10 : (⟨S256000x2, .i32⟩ : BufTy).Contents (Elt Ideal))

/-- The features after the five layers, each layer's variance taken from the deviations. -/
def dH5 (x : (⟨S50000x300, .f32⟩ : BufTy).Contents (Elt Ideal)) : Cert.Spec.SNE.Idx → EReal :=
  layerD a1 a2 a3 a4 a5 a6 a7 a8 a9 a10 4 (layerD a1 a2 a3 a4 a5 a6 a7 a8 a9 a10 3 (layerD a1 a2 a3 a4 a5 a6 a7 a8 a9 a10 2 (layerD a1 a2 a3 a4 a5 a6 a7 a8 a9 a10 1 (layerD a1 a2 a3 a4 a5 a6 a7 a8 a9 a10 0 x))))

variable {a1 a2 a3 a4 a5 a6 a7 a8 a9 a10}

/-- On real parameters and real features the two readings of the five layers agree. -/
theorem dH5_eq_kH5 (h1 : IsReal a1) (h2 : IsReal a2) (h3 : IsReal a3) (h4 : IsReal a4) (h5 : IsReal a5) (h6 : IsReal a6)
    (h7 : IsReal a7) (h8 : IsReal a8) {x : (⟨S50000x300, .f32⟩ : BufTy).Contents (Elt Ideal)} (hx : IsReal x) :
    dH5 a1 a2 a3 a4 a5 a6 a7 a8 a9 a10 x = kH5 a1 a2 a3 a4 a5 a6 a7 a8 a9 a10 x := by
  have e1 : layerD a1 a2 a3 a4 a5 a6 a7 a8 a9 a10 0 x = kH1 a1 a2 a3 a4 a5 a6 a7 a8 a9 a10 x :=
    (layerM_eq_layerD_of_real (a7 := a7) (a8 := a8) (a9 := a9) (a10 := a10) h1 h2 h3 h4 h5 h6 0 (isReal_kH0 hx)).symm
  have e2 : layerD a1 a2 a3 a4 a5 a6 a7 a8 a9 a10 1 (kH1 a1 a2 a3 a4 a5 a6 a7 a8 a9 a10 x) = kH2 a1 a2 a3 a4 a5 a6 a7 a8 a9 a10 x :=
    (layerM_eq_layerD_of_real (a7 := a7) (a8 := a8) (a9 := a9) (a10 := a10) h1 h2 h3 h4 h5 h6 1
      (isReal_kH1 (a9 := a9) (a10 := a10) h1 h2 h3 h4 h5 h6 h7 h8 hx)).symm
  have e3 : layerD a1 a2 a3 a4 a5 a6 a7 a8 a9 a10 2 (kH2 a1 a2 a3 a4 a5 a6 a7 a8 a9 a10 x) = kH3 a1 a2 a3 a4 a5 a6 a7 a8 a9 a10 x :=
    (layerM_eq_layerD_of_real (a7 := a7) (a8 := a8) (a9 := a9) (a10 := a10) h1 h2 h3 h4 h5 h6 2
      (isReal_kH2 (a9 := a9) (a10 := a10) h1 h2 h3 h4 h5 h6 h7 h8 hx)).symm
  have e4 : layerD a1 a2 a3 a4 a5 a6 a7 a8 a9 a10 3 (kH3 a1 a2 a3 a4 a5 a6 a7 a8 a9 a10 x) = kH4 a1 a2 a3 a4 a5 a6 a7 a8 a9 a10 x :=
    (layerM_eq_layerD_of_real (a7 := a7) (a8 := a8) (a9 := a9) (a10 := a10) h1 h2 h3 h4 h5 h6 3
      (isReal_kH3 (a9 := a9) (a10 := a10) h1 h2 h3 h4 h5 h6 h7 h8 hx)).symm
  have e5 : layerD a1 a2 a3 a4 a5 a6 a7 a8 a9 a10 4 (kH4 a1 a2 a3 a4 a5 a6 a7 a8 a9 a10 x) = kH5 a1 a2 a3 a4 a5 a6 a7 a8 a9 a10 x :=
    (layerM_eq_layerD_of_real (a7 := a7) (a8 := a8) (a9 := a9) (a10 := a10) h1 h2 h3 h4 h5 h6 4
      (isReal_kH4 (a9 := a9) (a10 := a10) h1 h2 h3 h4 h5 h6 h7 h8 hx)).symm
  unfold dH5
  rw [e1, e2, e3, e4, e5]

end Cert.KernelIdeal.HandV

end
-- ==== Proof.Glue.Final.lean ====
/-
  The results agree.  The reference's first result is its node features after the five layers and its second their
  mean pool; each reference layer is the shared layer function with the variance taken from the deviations, for every
  input.  From memories that agree on the arguments, with every entry of the nine float arguments a real, the five
  layers in that reading are the five layers in the kernel's reading (variance from the moments), whose output the
  kernel leaves in its first result buffer, and the pool of that output is what it leaves in its second.
-/
import proofs.«409348_j89627377533173_1_alg».proof.Proof.Glue.RLayer
import proofs.«409348_j89627377533173_1_alg».proof.Proof.Glue.RPool
import proofs.«409348_j89627377533173_1_alg».proof.Proof.Glue.Chain
import proofs.«409348_j89627377533173_1_alg».proof.Proof.Assemble

set_option synthInstance.maxSize 4096

noncomputable section

namespace Cert.Proof.Glue

open Idealize.ShloMosaic Idealize.ShloMosaic.TcCoe Idealize.SL.Sem
open Cert.KernelIdeal.HandV (kH5 dH5 dH5_eq_kH5 isReal_kH5 layerD poolOut)
open Cert.ReferenceIdeal.HandV (rLayer0 rLayer1 rLayer2 rLayer3 rLayer4 refPool_eq)

/-! ### The reference's results over its own arguments -/

section Ref

variable (m' : ((ℓ : Loc Cert.ReferenceIdeal.nD Cert.ReferenceIdeal.τ Cert.ReferenceIdeal.sig) → Buf (Elt Ideal) ℓ)) (c : Dev Cert.ReferenceIdeal.nD)

/-- The reference's node features after the five layers: five times the shared layer function (variance from the
    deviations) at its own arguments. -/
theorem refH5_eq : Cert.ReferenceIdeal.Hand.refH5 (F := Ideal) m' c
    = dH5 (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg0)) := by
  unfold Cert.ReferenceIdeal.Hand.refH5 Cert.ReferenceIdeal.Hand.refH4 Cert.ReferenceIdeal.Hand.refH3
    Cert.ReferenceIdeal.Hand.refH2 Cert.ReferenceIdeal.Hand.refH1 Cert.ReferenceIdeal.Hand.refH0 dH5
  rw [rLayer4, rLayer3, rLayer2, rLayer1, rLayer0]

/-- The reference's two results at any arrays its twelve arguments equal. -/
theorem ref_results (a0 : (⟨Cert.KernelIdeal.S50000x300, .f32⟩ : BufTy).Contents (Elt Ideal))
    (a1 : (⟨Cert.KernelIdeal.S5x6x300, .f32⟩ : BufTy).Contents (Elt Ideal))
    (a2 : (⟨Cert.KernelIdeal.S5x3x300, .f32⟩ : BufTy).Contents (Elt Ideal))
    (a3 : (⟨Cert.KernelIdeal.S5x300x600, .f32⟩ : BufTy).Contents (Elt Ideal))
    (a4 : (⟨Cert.KernelIdeal.S5x600, .f32⟩ : BufTy).Contents (Elt Ideal))
    (a5 : (⟨Cert.KernelIdeal.S5x600x300, .f32⟩ : BufTy).Contents (Elt Ideal))
    (a6 : (⟨Cert.KernelIdeal.S5x300, .f32⟩ : BufTy).Contents (Elt Ideal))
    (a7 : (⟨Cert.KernelIdeal.S5x300, .f32⟩ : BufTy).Contents (Elt Ideal))
    (a8 : (⟨Cert.KernelIdeal.S5x300, .f32⟩ : BufTy).Contents (Elt Ideal))
    (a9 : (⟨Cert.KernelIdeal.S2x256000, .i32⟩ : BufTy).Contents (Elt Ideal))
    (a10 : (⟨Cert.KernelIdeal.S256000x2, .i32⟩ : BufTy).Contents (Elt Ideal))
    (a11 : (⟨Cert.KernelIdeal.S50000, .i32⟩ : BufTy).Contents (Elt Ideal))
    (e0 : (m' ((c.tc : Thread Cert.ReferenceIdeal.nD Cert.ReferenceIdeal.τ).loc Cert.ReferenceIdeal.main_arg0)) = a0)
    (e1 : (m' ((c.tc : Thread Cert.ReferenceIdeal.nD Cert.ReferenceIdeal.τ).loc Cert.ReferenceIdeal.main_arg1)) = a1)
    (e2 : (m' ((c.tc : Thread Cert.ReferenceIdeal.nD Cert.ReferenceIdeal.τ).loc Cert.ReferenceIdeal.main_arg2)) = a2)
    (e3 : (m' ((c.tc : Thread Cert.ReferenceIdeal.nD Cert.ReferenceIdeal.τ).loc Cert.ReferenceIdeal.main_arg3)) = a3)
    (e4 : (m' ((c.tc : Thread Cert.ReferenceIdeal.nD Cert.ReferenceIdeal.τ).loc Cert.ReferenceIdeal.main_arg4)) = a4)
    (e5 : (m' ((c.tc : Thread Cert.ReferenceIdeal.nD Cert.ReferenceIdeal.τ).loc Cert.ReferenceIdeal.main_arg5)) = a5)
    (e6 : (m' ((c.tc : Thread Cert.ReferenceIdeal.nD Cert.ReferenceIdeal.τ).loc Cert.ReferenceIdeal.main_arg6)) = a6)
    (e7 : (m' ((c.tc : Thread Cert.ReferenceIdeal.nD Cert.ReferenceIdeal.τ).loc Cert.ReferenceIdeal.main_arg7)) = a7)
    (e8 : (m' ((c.tc : Thread Cert.ReferenceIdeal.nD Cert.ReferenceIdeal.τ).loc Cert.ReferenceIdeal.main_arg8)) = a8)
    (e9 : (m' ((c.tc : Thread Cert.ReferenceIdeal.nD Cert.ReferenceIdeal.τ).loc Cert.ReferenceIdeal.main_arg9)) = a9)
    (e10 : (m' ((c.tc : Thread Cert.ReferenceIdeal.nD Cert.ReferenceIdeal.τ).loc Cert.ReferenceIdeal.main_arg10)) = a10)
    (e11 : (m' ((c.tc : Thread Cert.ReferenceIdeal.nD Cert.ReferenceIdeal.τ).loc Cert.ReferenceIdeal.main_arg11)) = a11) :
    Cert.ReferenceIdeal.Hand.out1 (F := Ideal) m' c = dH5 a1 a2 a3 a4 a5 a6 a7 a8 a9 a10 a0
      ∧ Cert.ReferenceIdeal.Hand.out2 (F := Ideal) m' c = poolOut a11 (dH5 a1 a2 a3 a4 a5 a6 a7 a8 a9 a10 a0) := by
  subst e0 e1 e2 e3 e4 e5 e6 e7 e8 e9 e10 e11
  refine ⟨refH5_eq m' c, ?_⟩
  unfold Cert.ReferenceIdeal.Hand.out2
  rw [refPool_eq, refH5_eq]

end Ref

/-! ### The equation of the results -/

section Glue

variable
  (WKI : ((ℓ : Loc Cert.KernelIdeal.nD Cert.KernelIdeal.τ Cert.KernelIdeal.sig) → Buf (Elt Ideal) ℓ) → Dev Cert.KernelIdeal.nD → Valuation Cert.KernelIdeal.τ Cert.KernelIdeal.sig (Elt Ideal))
  (kOut1 : ∀ (m : ((ℓ : Loc Cert.KernelIdeal.nD Cert.KernelIdeal.τ Cert.KernelIdeal.sig) → Buf (Elt Ideal) ℓ)) (c : Dev Cert.KernelIdeal.nD),
    WKI m c (Proc.devRef .tc Cert.KernelIdeal.main_v308)
      = kH5 (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg0)))
  (kOut2 : ∀ (m : ((ℓ : Loc Cert.KernelIdeal.nD Cert.KernelIdeal.τ Cert.KernelIdeal.sig) → Buf (Elt Ideal) ℓ)) (c : Dev Cert.KernelIdeal.nD),
    Cert.Math.IsReal (kH5 (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg0))) →
    WKI m c (Proc.devRef .tc Cert.KernelIdeal.main_v313)
      = poolOut (m ((c.tc : Thread Cert.KernelIdeal.nD Cert.KernelIdeal.τ).loc Cert.KernelIdeal.main_arg11)) (kH5 (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg0))))

include kOut1 kOut2 in
/-- From memories agreeing on the arguments, every entry of the kernel's nine float arguments a real, the reference's two
    results are the kernel's final contents of its two result buffers. -/
theorem glue : ∀ (m : ((ℓ : Loc Cert.KernelIdeal.nD Cert.KernelIdeal.τ Cert.KernelIdeal.sig) → Buf (Elt Ideal) ℓ)) (m' : ((ℓ : Loc Cert.ReferenceIdeal.nD Cert.ReferenceIdeal.τ Cert.ReferenceIdeal.sig) → Buf (Elt Ideal) ℓ)),
    Cert.Pre_KernelIdeal m → (∀ c, Cert.Proof.Assemble.Reals m c) → Cert.Proof.Assemble.Agree m m' →
    ∀ c : Dev Cert.KernelIdeal.nD,
      Cert.ReferenceIdeal.Hand.out1 (F := Ideal) m' c = WKI m c (Proc.devRef .tc Cert.KernelIdeal.main_v308)
      ∧ Cert.ReferenceIdeal.Hand.out2 (F := Ideal) m' c = WKI m c (Proc.devRef .tc Cert.KernelIdeal.main_v313) := by
  intro m m' hpre hreal hagree c
  obtain ⟨g0, g1, g2, g3, g4, g5, g6, g7, g8, g9, g10, g11⟩ := hagree c
  obtain ⟨r0, r1, r2, r3, r4, r5, r6, r7, r8⟩ := hreal c
  obtain ⟨o1, o2⟩ := ref_results m' c (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
    g0 g1 g2 g3 g4 g5 g6 g7 g8 g9 g10 g11
  have hk : dH5 (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg0))
      = kH5 (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg0)) :=
    dH5_eq_kH5 (a1 := m ((c.tc : Thread Cert.KernelIdeal.nD Cert.KernelIdeal.τ).loc Cert.KernelIdeal.main_arg1)) (a2 := m ((c.tc : Thread Cert.KernelIdeal.nD Cert.KernelIdeal.τ).loc Cert.KernelIdeal.main_arg2)) (a3 := m ((c.tc : Thread Cert.KernelIdeal.nD Cert.KernelIdeal.τ).loc Cert.KernelIdeal.main_arg3)) (a4 := m ((c.tc : Thread Cert.KernelIdeal.nD Cert.KernelIdeal.τ).loc Cert.KernelIdeal.main_arg4)) (a5 := m ((c.tc : Thread Cert.KernelIdeal.nD Cert.KernelIdeal.τ).loc Cert.KernelIdeal.main_arg5)) (a6 := m ((c.tc : Thread Cert.KernelIdeal.nD Cert.KernelIdeal.τ).loc Cert.KernelIdeal.main_arg6)) (a7 := m ((c.tc : Thread Cert.KernelIdeal.nD Cert.KernelIdeal.τ).loc Cert.KernelIdeal.main_arg7)) (a8 := m ((c.tc : Thread Cert.KernelIdeal.nD Cert.KernelIdeal.τ).loc Cert.KernelIdeal.main_arg8)) (a9 := m ((c.tc : Thread Cert.KernelIdeal.nD Cert.KernelIdeal.τ).loc Cert.KernelIdeal.main_arg9)) (a10 := m ((c.tc : Thread Cert.KernelIdeal.nD Cert.KernelIdeal.τ).loc Cert.KernelIdeal.main_arg10)) r1 r2 r3 r4 r5 r6 r7 r8 r0
  refine ⟨o1.trans (hk.trans (kOut1 m c).symm), o2.trans ?_⟩
  rw [hk]
  exact (kOut2 m c (isReal_kH5 (a1 := m ((c.tc : Thread Cert.KernelIdeal.nD Cert.KernelIdeal.τ).loc Cert.KernelIdeal.main_arg1)) (a2 := m ((c.tc : Thread Cert.KernelIdeal.nD Cert.KernelIdeal.τ).loc Cert.KernelIdeal.main_arg2)) (a3 := m ((c.tc : Thread Cert.KernelIdeal.nD Cert.KernelIdeal.τ).loc Cert.KernelIdeal.main_arg3)) (a4 := m ((c.tc : Thread Cert.KernelIdeal.nD Cert.KernelIdeal.τ).loc Cert.KernelIdeal.main_arg4)) (a5 := m ((c.tc : Thread Cert.KernelIdeal.nD Cert.KernelIdeal.τ).loc Cert.KernelIdeal.main_arg5)) (a6 := m ((c.tc : Thread Cert.KernelIdeal.nD Cert.KernelIdeal.τ).loc Cert.KernelIdeal.main_arg6)) (a7 := m ((c.tc : Thread Cert.KernelIdeal.nD Cert.KernelIdeal.τ).loc Cert.KernelIdeal.main_arg7)) (a8 := m ((c.tc : Thread Cert.KernelIdeal.nD Cert.KernelIdeal.τ).loc Cert.KernelIdeal.main_arg8)) (a9 := m ((c.tc : Thread Cert.KernelIdeal.nD Cert.KernelIdeal.τ).loc Cert.KernelIdeal.main_arg9)) (a10 := m ((c.tc : Thread Cert.KernelIdeal.nD Cert.KernelIdeal.τ).loc Cert.KernelIdeal.main_arg10)) r1 r2 r3 r4 r5 r6 r7 r8 r0)).symm

end Glue

end Cert.Proof.Glue

end
-- ==== Proof.lean ====
/-
  A five-layer graph network with a mean pool, against its plain reference.

  WHAT IS COMPUTED.  Node features h (50000 rows of 300) pass through five layers.  A layer takes, for every edge, the
  source node's row plus two small embedding rows chosen by the edge's two attributes, and adds them into the
  destination node's row (message passing: a gather, a sum and one accumulating scatter, the same in both programs);
  it adds the node's own row, and applies a two-layer perceptron,  z = max((agg + h) W1 + b1, 0) W2 + b2.  Every column
  of z is then normalised by its mean and its biased variance over the 50000 rows (a small positive constant added
  under the root), scaled, shifted, and clipped at zero.  After the fifth layer the rows are pooled per graph: row n
  belongs to graph batch[n], and a graph's pooled row is the sum of its rows over the larger of its row count and one.
  The two results are the features after the fifth layer and the pooled rows.

  THE TWO SIDES.  The kernel program computes a layer's perceptron in 50 tiles of 1000 rows, carrying the column sums
  of z and of z·z across the tiles in two small accumulators; it takes the variance as (sum of squares)/N − mean·mean,
  normalises in 25 tiles of 2000 rows, and pools by a matrix product per tile with the one-hot of the ids — entry (r, g)
  is 1 where row r's id is g, else 0 — accumulated over the 25 tiles, a column of ones standing in for the features to
  give the counts.  The reference forms whole-array matrix products, takes the variance as the mean of the squared
  deviations from the column mean, and pools by a segment sum.

  WHY THEY AGREE, over the extended reals, where a change of float format is the identity and arithmetic is exact:
    * the rows of a matrix product depend on the same rows of the left factor only, so the product of a tile of rows
      is that tile of the whole product; and a column sum over all rows is the sum of the tiles' column sums, addition
      of extended reals being commutative and associative;
    * for a column of REAL entries, with the divisor equal to the number of rows,  (mean of squares) − (mean)²  is the
      mean of the squared deviations from the mean, and it is nonnegative.  The precondition makes every entry of the nine
      float arguments finite, hence real; a layer maps real features to real features; so the identity holds at each
      of the five layers;
    * the sum over rows r of  [id r = g] · h(r, e),  taken tile by tile, is the sum of the rows whose id is g: the
      one-hot product is the segment sum, an id outside the 512 graphs contributing to no graph on either side.
  Message passing, and the cutting of layer i's parameters out of the stacked arguments, are the same operations in both
  programs; they are carried through as one function of the arguments and never opened.

  HOW THE CLAIM IS PUT TOGETHER.  Three runs.  The kernel program's, as printed (at the bit-exact instance) and
  idealized: every weakly fair execution terminates, without fault, with every unscoped buffer at named contents, among
  them the twelve arguments as launched.  The reference's: it ends with its two results at named terms and the
  arguments as launched.  The three frame claims are these runs read at the arguments.  The idealization rewrote no
  operation, so that claim is trivial.  The algebraic claim takes as common value the kernel's final contents of its
  two result buffers: the equation of the results says the reference's two terms are those contents, from memories
  that agree on the arguments, the precondition holding.
-/
import proofs.«409348_j89627377533173_1_alg».proof.Defs
import proofs.«409348_j89627377533173_1_alg».proof.Proof.Assemble
import proofs.«409348_j89627377533173_1_alg».proof.Proof.K.Run
import proofs.«409348_j89627377533173_1_alg».proof.Proof.KI.Run
import proofs.«409348_j89627377533173_1_alg».proof.Proof.Ref.Run
import proofs.«409348_j89627377533173_1_alg».proof.Proof.Glue.KOut
import proofs.«409348_j89627377533173_1_alg».proof.Proof.Glue.Final

-- decided memberships over the programs' several hundred references recurse past the default depth
set_option maxRecDepth 2516

noncomputable section

namespace Cert.Proof

open Idealize.ShloMosaic Idealize.ShloMosaic.TcCoe Idealize.SL.Sem

/-- The five claims: the three frames from the three runs, the trivial idealization, and the equality of the results
    from the equation that the reference's two terms are the kernel's final contents of its two result buffers. -/
theorem claim : Cert.Claim :=
  ⟨Cert.Kernel.Gen.facts, Cert.KernelIdeal.Gen.facts, Cert.ReferenceIdeal.Gen.facts, Cert.Pre_finite_inputs.Gen.facts,
    -- the kernel program as printed runs and leaves its arguments as launched
    Assemble.frame_p (fun m c => Cert.Kernel.Hand.W22 (F := Bits) m c) (fun m ρ => Cert.Kernel.Hand.run (F := Bits) m ρ)
      (fun m c => ⟨Cert.Kernel.Hand.W22_main_arg0 m c,
        Cert.Kernel.Hand.W22_main_arg1 m c,
        Cert.Kernel.Hand.W22_main_arg2 m c,
        Cert.Kernel.Hand.W22_main_arg3 m c,
        Cert.Kernel.Hand.W22_main_arg4 m c,
        Cert.Kernel.Hand.W22_main_arg5 m c,
        Cert.Kernel.Hand.W22_main_arg6 m c,
        Cert.Kernel.Hand.W22_main_arg7 m c,
        Cert.Kernel.Hand.W22_main_arg8 m c,
        Cert.Kernel.Hand.W22_main_arg9 m c,
        Cert.Kernel.Hand.W22_main_arg10 m c,
        Cert.Kernel.Hand.W22_main_arg11 m c⟩),
    -- so does its idealization
    Assemble.frame_pi (fun m c => Cert.KernelIdeal.Hand.W22 (F := Ideal) m c) (fun m ρ => Cert.KernelIdeal.Hand.run (F := Ideal) m ρ)
      (fun m c => ⟨Cert.KernelIdeal.Hand.W22_main_arg0 m c,
        Cert.KernelIdeal.Hand.W22_main_arg1 m c,
        Cert.KernelIdeal.Hand.W22_main_arg2 m c,
        Cert.KernelIdeal.Hand.W22_main_arg3 m c,
        Cert.KernelIdeal.Hand.W22_main_arg4 m c,
        Cert.KernelIdeal.Hand.W22_main_arg5 m c,
        Cert.KernelIdeal.Hand.W22_main_arg6 m c,
        Cert.KernelIdeal.Hand.W22_main_arg7 m c,
        Cert.KernelIdeal.Hand.W22_main_arg8 m c,
        Cert.KernelIdeal.Hand.W22_main_arg9 m c,
        Cert.KernelIdeal.Hand.W22_main_arg10 m c,
        Cert.KernelIdeal.Hand.W22_main_arg11 m c⟩),
    -- and the reference
    Assemble.frame_ri (fun m' c => Cert.ReferenceIdeal.Hand.out1 (F := Ideal) m' c) (fun m' c => Cert.ReferenceIdeal.Hand.out2 (F := Ideal) m' c)
      (fun m' ρ' => Cert.ReferenceIdeal.Hand.run (F := Ideal) m' ρ'),
    -- the ideal pass rewrote no operation
    Assemble.preserves,
    -- both run and end with equal results: the reference's two terms are the kernel's final result buffers
    Assemble.algebraic (fun m c => Cert.KernelIdeal.Hand.W22 (F := Ideal) m c) (fun m ρ => Cert.KernelIdeal.Hand.run (F := Ideal) m ρ)
      (fun m c => ⟨Cert.KernelIdeal.Hand.W22_main_arg0 m c,
        Cert.KernelIdeal.Hand.W22_main_arg1 m c,
        Cert.KernelIdeal.Hand.W22_main_arg2 m c,
        Cert.KernelIdeal.Hand.W22_main_arg3 m c,
        Cert.KernelIdeal.Hand.W22_main_arg4 m c,
        Cert.KernelIdeal.Hand.W22_main_arg5 m c,
        Cert.KernelIdeal.Hand.W22_main_arg6 m c,
        Cert.KernelIdeal.Hand.W22_main_arg7 m c,
        Cert.KernelIdeal.Hand.W22_main_arg8 m c,
        Cert.KernelIdeal.Hand.W22_main_arg9 m c,
        Cert.KernelIdeal.Hand.W22_main_arg10 m c,
        Cert.KernelIdeal.Hand.W22_main_arg11 m c⟩)
      (fun m' c => Cert.ReferenceIdeal.Hand.out1 (F := Ideal) m' c) (fun m' c => Cert.ReferenceIdeal.Hand.out2 (F := Ideal) m' c)
      (fun m' ρ' => Cert.ReferenceIdeal.Hand.run (F := Ideal) m' ρ')
      (Glue.glue (fun m c => Cert.KernelIdeal.Hand.W22 (F := Ideal) m c)
        (fun m c => Cert.KernelIdeal.HandV.kOut1 m c) (fun m c _ => Cert.KernelIdeal.HandV.kOut2 m c))⟩

end Cert.Proof

end
